-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v143)) (v1 : (c : Dev Cert.KernelIdeal.nD) → Buf (Elt Ideal) ((c.tc : Thread Cert.KernelIdeal.nD Cert.KernelIdeal.τ).loc Cert.KernelIdeal.main_v176)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v65)) (v4 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_v176) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v65) = v3 c
          ∧ r.2.mem ((c.tc : Thread Cert.KernelIdeal.nD Cert.KernelIdeal.τ).loc Cert.KernelIdeal.main_v110) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v125) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S5x256x256 : Shape := ⟨3, ![5, 256, 256]⟩
abbrev S5x256 : Shape := ⟨2, ![5, 256]⟩
abbrev S5x256x128 : Shape := ⟨3, ![5, 256, 128]⟩
abbrev S5x128 : Shape := ⟨2, ![5, 128]⟩
abbrev S3x65536x128 : Shape := ⟨3, ![3, 65536, 128]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S5x256x256 : S_.BroadcastsInDim S5x256x256 (![] : Fin 0 → Fin S5x256x256.rank)
  reducesTo_S5x256x256_S_d0_1_2 : S5x256x256.ReducesTo [0, 1, 2] S_
  bcast_S_S5x256 : S_.BroadcastsInDim S5x256 (![] : Fin 0 → Fin S5x256.rank)
  reducesTo_S5x256_S_d0_1 : S5x256.ReducesTo [0, 1] S_
  bcast_S_S5x256x128 : S_.BroadcastsInDim S5x256x128 (![] : Fin 0 → Fin S5x256x128.rank)
  reducesTo_S5x256x128_S_d0_1_2 : S5x256x128.ReducesTo [0, 1, 2] S_
  bcast_S_S5x128 : S_.BroadcastsInDim S5x128 (![] : Fin 0 → Fin S5x128.rank)
  reducesTo_S5x128_S_d0_1 : S5x128.ReducesTo [0, 1] S_
  bcast_S_S3x65536x128 : S_.BroadcastsInDim S3x65536x128 (![] : Fin 0 → Fin S3x65536x128.rank)
  reducesTo_S3x65536x128_S_d0_1_2 : S3x65536x128.ReducesTo [0, 1, 2] S_

variable [Facts]

def fn_part2 {F : FTy → Type} [FloatOps F] (main_arg7 : FVec F S5x128 .f32) (main_arg8 : FVec F S3x65536x128 .f32) (main_v33 : IVec S_ 1) : IVec S_ 1 :=
  let main_v34 : FVec F S5x128 .f32 := Host.absf main_arg7
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S3x65536x128 .f32 := Host.absf main_arg8
  let main_cst_14 : FVec F S_ .f32 := constant S_ .f32 0x7F800000#32
  let main_v40 : FVec F S3x65536x128 .f32 := broadcastInDim S3x65536x128 ![] bcast_S_S3x65536x128 main_cst_14
  let main_v41 : IVec S3x65536x128 1 := cmpf .olt main_v39 main_v40
  let main_c_15 : IVec S_ 1 := constantI S_ 1 1#1
  let main_v42 : IVec S_ 1 := (fun x v => Host.reduce IntOp.andi x v reducesTo_S3x65536x128_S_d0_1_2 h_S_) main_v41 main_c_15
  let main_v43 : IVec S_ 1 := andi main_v38 main_v42
  main_v43

def fn_part1 {F : FTy → Type} [FloatOps F] (main_arg4 : FVec F S5x256x128 .f32) (main_arg5 : FVec F S5x128 .f32) (main_arg6 : FVec F S5x128 .f32) (main_arg7 : FVec F S5x128 .f32) (main_arg8 : FVec F S3x65536x128 .f32) (main_v13 : IVec S_ 1) (main_v16 : IVec S5x256 1) : IVec S_ 1 :=
  let main_c_5 : IVec S_ 1 := constantI S_ 1 1#1
  let main_v17 : IVec S_ 1 := (fun x v => Host.reduce IntOp.andi x v reducesTo_S5x256_S_d0_1 h_S_) main_v16 main_c_5
  let main_v18 : IVec S_ 1 := andi main_v13 main_v17
  let main_v19 : FVec F S5x256x128 .f32 := Host.absf main_arg4
  let main_cst_6 : FVec F S_ .f32 := constant S_ .f32 0x7F800000#32
  let main_v20 : FVec F S5x256x128 .f32 := broadcastInDim S5x256x128 ![] bcast_S_S5x256x128 main_cst_6
  let main_v21 : IVec S5x256x128 1 := cmpf .olt main_v19 main_v20
  let main_c_7 : IVec S_ 1 := constantI S_ 1 1#1
  let main_v22 : IVec S_ 1 := (fun x v => Host.reduce IntOp.andi x v reducesTo_S5x256x128_S_d0_1_2 h_S_) main_v21 main_c_7
  let main_v23 : IVec S_ 1 := andi main_v18 main_v22
  let main_v24 : FVec F S5x128 .f32 := Host.absf main_arg5
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg6
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg7 main_arg8 main_v33

def fn {F : FTy → Type} [FloatOps F] (main_arg0 : FVec F S65536x256 .f32) (main_arg1 : FVec F S65536x256 .f32) (main_arg2 : FVec F S5x256x256 .f32) (main_arg3 : FVec F S5x256 .f32) (main_arg4 : FVec F S5x256x128 .f32) (main_arg5 : FVec F S5x128 .f32) (main_arg6 : FVec F S5x128 .f32) (main_arg7 : FVec F S5x128 .f32) (main_arg8 : FVec F S3x65536x128 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S5x256x256 .f32 := Host.absf main_arg2
  let main_cst_2 : FVec F S_ .f32 := constant S_ .f32 0x7F800000#32
  let main_v10 : FVec F S5x256x256 .f32 := broadcastInDim S5x256x256 ![] bcast_S_S5x256x256 main_cst_2
  let main_v11 : IVec S5x256x256 1 := cmpf .olt main_v9 main_v10
  let main_c_3 : IVec S_ 1 := constantI S_ 1 1#1
  let main_v12 : IVec S_ 1 := (fun x v => Host.reduce IntOp.andi x v reducesTo_S5x256x256_S_d0_1_2 h_S_) main_v11 main_c_3
  let main_v13 : IVec S_ 1 := andi main_v8 main_v12
  let main_v14 : FVec F S5x256 .f32 := Host.absf main_arg3
  let main_cst_4 : FVec F S_ .f32 := constant S_ .f32 0x7F800000#32
  let main_v15 : FVec F S5x256 .f32 := broadcastInDim S5x256 ![] bcast_S_S5x256 main_cst_4
  let main_v16 : IVec S5x256 1 := cmpf .olt main_v14 main_v15
  fn_part1 (F := F) main_arg4 main_arg5 main_arg6 main_arg7 main_arg8 main_v13 main_v16
-- ==== Kernel.lean ====
abbrev S65536x256 : Shape := ⟨2, ![65536, 256]⟩
abbrev S5x256x256 : Shape := ⟨3, ![5, 256, 256]⟩
abbrev S5x256 : Shape := ⟨2, ![5, 256]⟩
abbrev S5x256x128 : Shape := ⟨3, ![5, 256, 128]⟩
abbrev S5x128 : Shape := ⟨2, ![5, 128]⟩
abbrev S3x65536x128 : Shape := ⟨3, ![3, 65536, 128]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S65536x128 : Shape := ⟨2, ![65536, 128]⟩
abbrev S16x128 : Shape := ⟨2, ![16, 128]⟩
abbrev S4096x256 : Shape := ⟨2, ![4096, 256]⟩
abbrev S4096x128 : Shape := ⟨2, ![4096, 128]⟩
abbrev S8x128 : Shape := ⟨2, ![8, 128]⟩
abbrev S_ : Shape := ⟨0, ![]⟩
abbrev S1x128x256 : Shape := ⟨3, ![1, 128, 256]⟩
abbrev S128x256 : Shape := ⟨2, ![128, 256]⟩
abbrev S1x65536x128 : Shape := ⟨3, ![1, 65536, 128]⟩

abbrev nBuf : Space → Nat
  | .hbm => 211
  | .vmem => 115
  | .smem => 0
  | _ => 0

abbrev hbmTy0_0 (i : Nat) : BufTy := match i % 128 with
  | 0 => ⟨S65536x256, .f32⟩
  | 1 => ⟨S65536x256, .f32⟩
  | 2 => ⟨S5x256x256, .f32⟩
  | 3 => ⟨S5x256, .f32⟩
  | 4 => ⟨S5x256x128, .f32⟩
  | 5 => ⟨S5x128, .f32⟩
  | 6 => ⟨S5x128, .f32⟩
  | 7 => ⟨S5x128, .f32⟩
  | 8 => ⟨S3x65536x128, .f32⟩
  | 9 => ⟨S1x256x256, .f32⟩
  | 10 => ⟨S256x256, .f32⟩
  | 11 => ⟨S1x256, .f32⟩
  | 12 => ⟨S256, .f32⟩
  | 13 => ⟨S1x256x128, .f32⟩
  | 14 => ⟨S256x128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x256, .f32⟩
  | 22 => ⟨S1x128, .f32⟩
  | 23 => ⟨S65536x128, .f32⟩
  | 24 => ⟨S16x128, .f32⟩
  | 25 => ⟨S16x128, .f32⟩
  | 26 => ⟨S1x128, .f32⟩
  | 27 => ⟨S1x128, .f32⟩
  | 28 => ⟨S1x128, .f32⟩
  | 29 => ⟨S1x128, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S1x128, .f32⟩
  | 44 => ⟨S1x128, .f32⟩
  | 45 => ⟨S1x128, .f32⟩
  | 46 => ⟨S65536x128, .f32⟩
  | 47 => ⟨S1x256x256, .f32⟩
  | 48 => ⟨S256x256, .f32⟩
  | 49 => ⟨S1x256, .f32⟩
  | 50 => ⟨S256, .f32⟩
  | 51 => ⟨S1x256x128, .f32⟩
  | 52 => ⟨S256x128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x256, .f32⟩
  | 60 => ⟨S1x128, .f32⟩
  | 61 => ⟨S65536x128, .f32⟩
  | 62 => ⟨S16x128, .f32⟩
  | 63 => ⟨S16x128, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S65536x128, .f32⟩
  | 85 => ⟨S1x128x256, .f32⟩
  | 86 => ⟨S128x256, .f32⟩
  | 87 => ⟨S1x128x256, .f32⟩
  | 88 => ⟨S128x256, .f32⟩
  | 89 => ⟨S1x128x256, .f32⟩
  | 90 => ⟨S128x256, .f32⟩
  | 91 => ⟨S1x128x256, .f32⟩
  | 92 => ⟨S128x256, .f32⟩
  | 93 => ⟨S1x128x256, .f32⟩
  | 94 => ⟨S128x256, .f32⟩
  | 95 => ⟨S1x128x256, .f32⟩
  | 96 => ⟨S128x256, .f32⟩
  | 97 => ⟨S1x256, .f32⟩
  | 98 => ⟨S256, .f32⟩
  | 99 => ⟨S1x256x128, .f32⟩
  | 100 => ⟨S256x128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S1x65536x128, .f32⟩
  | 108 => ⟨S65536x128, .f32⟩
  | 109 => ⟨S1x256, .f32⟩
  | 110 => ⟨S1x128, .f32⟩
  | 111 => ⟨S65536x128, .f32⟩
  | 112 => ⟨S16x128, .f32⟩
  | 113 => ⟨S16x128, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S65536x256, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S65536x128, .f32⟩
  | 7 => ⟨S1x256, .f32⟩
  | 8 => ⟨S256, .f32⟩
  | 9 => ⟨S1x256x128, .f32⟩
  | 10 => ⟨S256x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x65536x128, .f32⟩
  | 18 => ⟨S65536x128, .f32⟩
  | 19 => ⟨S1x256, .f32⟩
  | 20 => ⟨S1x128, .f32⟩
  | 21 => ⟨S65536x128, .f32⟩
  | 22 => ⟨S16x128, .f32⟩
  | 23 => ⟨S16x128, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S_, .f32⟩
  | 34 => ⟨S1x128, .f32⟩
  | 35 => ⟨S1x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S65536x128, .f32⟩
  | 45 => ⟨S1x256, .f32⟩
  | 46 => ⟨S256, .f32⟩
  | 47 => ⟨S1x256x128, .f32⟩
  | 48 => ⟨S256x128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S128, .f32⟩
  | 55 => ⟨S1x65536x128, .f32⟩
  | 56 => ⟨S65536x128, .f32⟩
  | 57 => ⟨S1x256, .f32⟩
  | 58 => ⟨S1x128, .f32⟩
  | 59 => ⟨S65536x128, .f32⟩
  | 60 => ⟨S16x128, .f32⟩
  | 61 => ⟨S16x128, .f32⟩
  | 62 => ⟨S1x128, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S65536x128, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S4096x128, .f32⟩
  | .local _ .vmem, ⟨13, _⟩ => ⟨S4096x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4096x128, .f32⟩
  | .local _ .vmem, ⟨19, _⟩ => ⟨S4096x128, .f32⟩
  | .local _ .vmem, ⟨20, _⟩ => ⟨S4096x256, .f32⟩
  | .local _ .vmem, ⟨21, _⟩ => ⟨S4096x256, .f32⟩
  | .local _ .vmem, ⟨22, _⟩ => ⟨S256x256, .f32⟩
  | .local _ .vmem, ⟨23, _⟩ => ⟨S1x256, .f32⟩
  | .local _ .vmem, ⟨24, _⟩ => ⟨S256x128, .f32⟩
  | .local _ .vmem, ⟨25, _⟩ => ⟨S1x128, .f32⟩
  | .local _ .vmem, ⟨26, _⟩ => ⟨S4096x128, .f32⟩
  | .local _ .vmem, ⟨27, _⟩ => ⟨S4096x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S4096x128, .f32⟩
  | .local _ .vmem, ⟨33, _⟩ => ⟨S4096x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S4096x128, .f32⟩
  | .local _ .vmem, ⟨39, _⟩ => ⟨S4096x128, .f32⟩
  | .local _ .vmem, ⟨40, _⟩ => ⟨S4096x128, .f32⟩
  | .local _ .vmem, ⟨41, _⟩ => ⟨S4096x128, .f32⟩
  | .local _ .vmem, ⟨42, _⟩ => ⟨S4096x128, .f32⟩
  | .local _ .vmem, ⟨43, _⟩ => ⟨S4096x128, .f32⟩
  | .local _ .vmem, ⟨44, _⟩ => ⟨S128x256, .f32⟩
  | .local _ .vmem, ⟨45, _⟩ => ⟨S128x256, .f32⟩
  | .local _ .vmem, ⟨46, _⟩ => ⟨S1x256, .f32⟩
  | .local _ .vmem, ⟨47, _⟩ => ⟨S256x128, .f32⟩
  | .local _ .vmem, ⟨48, _⟩ => ⟨S1x128, .f32⟩
  | .local _ .vmem, ⟨49, _⟩ => ⟨S4096x128, .f32⟩
  | .local _ .vmem, ⟨50, _⟩ => ⟨S4096x128, .f32⟩
  | .local _ .vmem, ⟨51, _⟩ => ⟨S8x128, .f32⟩
  | .local _ .vmem, ⟨52, _⟩ => ⟨S8x128, .f32⟩
  | .local _ .vmem, ⟨53, _⟩ => ⟨S8x128, .f32⟩
  | .local _ .vmem, ⟨54, _⟩ => ⟨S8x128, .f32⟩
  | .local _ .vmem, ⟨55, _⟩ => ⟨S4096x128, .f32⟩
  | .local _ .vmem, ⟨56, _⟩ => ⟨S4096x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S4096x128, .f32⟩
  | .local _ .vmem, ⟨62, _⟩ => ⟨S4096x128, .f32⟩
  | .local _ .vmem, ⟨63, _⟩ => ⟨S4096x128, .f32⟩
  | .local _ .vmem, ⟨64, _⟩ => ⟨S4096x128, .f32⟩
  | .local _ .vmem, ⟨65, _⟩ => ⟨S4096x128, .f32⟩
  | .local _ .vmem, ⟨66, _⟩ => ⟨S4096x128, .f32⟩
  | .local _ .vmem, ⟨67, _⟩ => ⟨S4096x128, .f32⟩
  | .local _ .vmem, ⟨68, _⟩ => ⟨S4096x128, .f32⟩
  | .local _ .vmem, ⟨69, _⟩ => ⟨S128x256, .f32⟩
  | .local _ .vmem, ⟨70, _⟩ => ⟨S128x256, .f32⟩
  | .local _ .vmem, ⟨71, _⟩ => ⟨S1x256, .f32⟩
  | .local _ .vmem, ⟨72, _⟩ => ⟨S256x128, .f32⟩
  | .local _ .vmem, ⟨73, _⟩ => ⟨S1x128, .f32⟩
  | .local _ .vmem, ⟨74, _⟩ => ⟨S4096x128, .f32⟩
  | .local _ .vmem, ⟨75, _⟩ => ⟨S4096x128, .f32⟩
  | .local _ .vmem, ⟨76, _⟩ => ⟨S8x128, .f32⟩
  | .local _ .vmem, ⟨77, _⟩ => ⟨S8x128, .f32⟩
  | .local _ .vmem, ⟨78, _⟩ => ⟨S8x128, .f32⟩
  | .local _ .vmem, ⟨79, _⟩ => ⟨S8x128, .f32⟩
  | .local _ .vmem, ⟨80, _⟩ => ⟨S4096x128, .f32⟩
  | .local _ .vmem, ⟨81, _⟩ => ⟨S4096x128, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S4096x128, .f32⟩
  | .local _ .vmem, ⟨87, _⟩ => ⟨S4096x128, .f32⟩
  | .local _ .vmem, ⟨88, _⟩ => ⟨S4096x128, .f32⟩
  | .local _ .vmem, ⟨89, _⟩ => ⟨S4096x128, .f32⟩
  | .local _ .vmem, ⟨90, _⟩ => ⟨S4096x128, .f32⟩
  | .local _ .vmem, ⟨91, _⟩ => ⟨S4096x128, .f32⟩
  | .local _ .vmem, ⟨92, _⟩ => ⟨S4096x128, .f32⟩
  | .local _ .vmem, ⟨93, _⟩ => ⟨S4096x128, .f32⟩
  | .local _ .vmem, ⟨94, _⟩ => ⟨S128x256, .f32⟩
  | .local _ .vmem, ⟨95, _⟩ => ⟨S128x256, .f32⟩
  | .local _ .vmem, ⟨96, _⟩ => ⟨S1x256, .f32⟩
  | .local _ .vmem, ⟨97, _⟩ => ⟨S256x128, .f32⟩
  | .local _ .vmem, ⟨98, _⟩ => ⟨S1x128, .f32⟩
  | .local _ .vmem, ⟨99, _⟩ => ⟨S4096x128, .f32⟩
  | .local _ .vmem, ⟨100, _⟩ => ⟨S4096x128, .f32⟩
  | .local _ .vmem, ⟨101, _⟩ => ⟨S8x128, .f32⟩
  | .local _ .vmem, ⟨102, _⟩ => ⟨S8x128, .f32⟩
  | .local _ .vmem, ⟨103, _⟩ => ⟨S8x128, .f32⟩
  | .local _ .vmem, ⟨104, _⟩ => ⟨S8x128, .f32⟩
  | .local _ .vmem, ⟨105, _⟩ => ⟨S4096x128, .f32⟩
  | .local _ .vmem, ⟨106, _⟩ => ⟨S4096x128, .f32⟩
  | .local _ .vmem, ⟨107, _⟩ => ⟨S1x128, .f32⟩
  | .local _ .vmem, ⟨108, _⟩ => ⟨S1x128, .f32⟩
  | .local _ .vmem, ⟨109, _⟩ => ⟨S1x128, .f32⟩
  | .local _ .vmem, ⟨110, _⟩ => ⟨S1x128, .f32⟩
  | .local _ .vmem, ⟨111, _⟩ => ⟨S4096x128, .f32⟩
  | .local _ .vmem, ⟨112, _⟩ => ⟨S4096x128, .f32⟩
  | .local _ .vmem, ⟨113, _⟩ => ⟨S4096x128, .f32⟩
  | .local _ .vmem, ⟨114, _⟩ => ⟨S4096x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | _, _ => false

abbrev semScoped : Fin 0 → Bool
  | ⟨_, h⟩ => absurd h (Nat.not_lt_zero _)

abbrev dmaSemScoped : Fin 115 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | _ => false

abbrev sig : RefSig :=
  ofTc nBuf bufTy 0 115 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47_0 : Ref sig .tc := ⟨.hbm, 61, rfl⟩
abbrev main_v47_1 : Ref sig .tc := ⟨.hbm, 62, rfl⟩
abbrev main_v47_2 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_2 : Ref sig .tc := ⟨.hbm, 70, rfl⟩
abbrev main_v54 : Ref sig .tc := ⟨.hbm, 71, rfl⟩
abbrev main_v55 : Ref sig .tc := ⟨.hbm, 72, rfl⟩
abbrev main_cst_3 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_4 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92_0 : Ref sig .tc := ⟨.hbm, 111, rfl⟩
abbrev main_v92_1 : Ref sig .tc := ⟨.hbm, 112, rfl⟩
abbrev main_v92_2 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_5 : Ref sig .tc := ⟨.hbm, 120, rfl⟩
abbrev main_v99 : Ref sig .tc := ⟨.hbm, 121, rfl⟩
abbrev main_v100 : Ref sig .tc := ⟨.hbm, 122, rfl⟩
abbrev main_cst_6 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_7 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125_0 : Ref sig .tc := ⟨.hbm, 149, rfl⟩
abbrev main_v125_1 : Ref sig .tc := ⟨.hbm, 150, rfl⟩
abbrev main_v125_2 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_8 : Ref sig .tc := ⟨.hbm, 158, rfl⟩
abbrev main_v132 : Ref sig .tc := ⟨.hbm, 159, rfl⟩
abbrev main_v133 : Ref sig .tc := ⟨.hbm, 160, rfl⟩
abbrev main_cst_9 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_10 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158_0 : Ref sig .tc := ⟨.hbm, 187, rfl⟩
abbrev main_v158_1 : Ref sig .tc := ⟨.hbm, 188, rfl⟩
abbrev main_v158_2 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_cst_11 : Ref sig .tc := ⟨.hbm, 196, rfl⟩
abbrev main_v165 : Ref sig .tc := ⟨.hbm, 197, rfl⟩
abbrev main_v166 : Ref sig .tc := ⟨.hbm, 198, rfl⟩
abbrev main_cst_12 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_cst_13 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc4_stg7_1 : Ref sig .tc := ⟨.vmem, 50, rfl⟩
abbrev cc4_stg8_0 : Ref sig .tc := ⟨.vmem, 51, rfl⟩
abbrev cc4_stg8_1 : Ref sig .tc := ⟨.vmem, 52, rfl⟩
abbrev cc4_stg9_0 : Ref sig .tc := ⟨.vmem, 53, rfl⟩
abbrev cc4_stg9_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc5_stg6_0 : Ref sig .tc := ⟨.vmem, 63, rfl⟩
abbrev cc5_stg6_1 : Ref sig .tc := ⟨.vmem, 64, rfl⟩
abbrev cc6_stg0_0 : Ref sig .tc := ⟨.vmem, 65, rfl⟩
abbrev cc6_stg0_1 : Ref sig .tc := ⟨.vmem, 66, rfl⟩
abbrev cc6_stg1_0 : Ref sig .tc := ⟨.vmem, 67, rfl⟩
abbrev cc6_stg1_1 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg7_0 : Ref sig .tc := ⟨.vmem, 74, rfl⟩
abbrev cc6_stg7_1 : Ref sig .tc := ⟨.vmem, 75, rfl⟩
abbrev cc6_stg8_0 : Ref sig .tc := ⟨.vmem, 76, rfl⟩
abbrev cc6_stg8_1 : Ref sig .tc := ⟨.vmem, 77, rfl⟩
abbrev cc6_stg9_0 : Ref sig .tc := ⟨.vmem, 78, rfl⟩
abbrev cc6_stg9_1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg5_1 : Ref sig .tc := ⟨.vmem, 87, rfl⟩
abbrev cc7_stg6_0 : Ref sig .tc := ⟨.vmem, 88, rfl⟩
abbrev cc7_stg6_1 : Ref sig .tc := ⟨.vmem, 89, rfl⟩
abbrev cc8_stg0_0 : Ref sig .tc := ⟨.vmem, 90, rfl⟩
abbrev cc8_stg0_1 : Ref sig .tc := ⟨.vmem, 91, rfl⟩
abbrev cc8_stg1_0 : Ref sig .tc := ⟨.vmem, 92, rfl⟩
abbrev cc8_stg1_1 : Ref sig .tc := ⟨.vmem, 93, rfl⟩
abbrev cc8_stg2_0 : Ref sig .tc := ⟨.vmem, 94, rfl⟩
abbrev cc8_stg3_0 : Ref sig .tc := ⟨.vmem, 95, rfl⟩
abbrev cc8_stg4_0 : Ref sig .tc := ⟨.vmem, 96, rfl⟩
abbrev cc8_stg5_0 : Ref sig .tc := ⟨.vmem, 97, rfl⟩
abbrev cc8_stg6_0 : Ref sig .tc := ⟨.vmem, 98, rfl⟩
abbrev cc8_stg7_0 : Ref sig .tc := ⟨.vmem, 99, rfl⟩
abbrev cc8_stg7_1 : Ref sig .tc := ⟨.vmem, 100, rfl⟩
abbrev cc8_stg8_0 : Ref sig .tc := ⟨.vmem, 101, rfl⟩
abbrev cc8_stg8_1 : Ref sig .tc := ⟨.vmem, 102, rfl⟩
abbrev cc8_stg9_0 : Ref sig .tc := ⟨.vmem, 103, rfl⟩
abbrev cc8_stg9_1 : Ref sig .tc := ⟨.vmem, 104, rfl⟩
abbrev cc9_stg0_0 : Ref sig .tc := ⟨.vmem, 105, rfl⟩
abbrev cc9_stg0_1 : Ref sig .tc := ⟨.vmem, 106, rfl⟩
abbrev cc9_stg1_0 : Ref sig .tc := ⟨.vmem, 107, rfl⟩
abbrev cc9_stg2_0 : Ref sig .tc := ⟨.vmem, 108, rfl⟩
abbrev cc9_stg3_0 : Ref sig .tc := ⟨.vmem, 109, rfl⟩
abbrev cc9_stg4_0 : Ref sig .tc := ⟨.vmem, 110, rfl⟩
abbrev cc9_stg5_0 : Ref sig .tc := ⟨.vmem, 111, rfl⟩
abbrev cc9_stg5_1 : Ref sig .tc := ⟨.vmem, 112, rfl⟩
abbrev cc9_stg6_0 : Ref sig .tc := ⟨.vmem, 113, rfl⟩
abbrev cc9_stg6_1 : Ref sig .tc := ⟨.vmem, 114, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem7_0 : DmaSem sig := 49
abbrev cc4_sem7_1 : DmaSem sig := 50
abbrev cc4_sem8_0 : DmaSem sig := 51
abbrev cc4_sem8_1 : DmaSem sig := 52
abbrev cc4_sem9_0 : DmaSem sig := 53
abbrev cc4_sem9_1 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62
abbrev cc5_sem6_0 : DmaSem sig := 63
abbrev cc5_sem6_1 : DmaSem sig := 64
abbrev cc6_sem0_0 : DmaSem sig := 65
abbrev cc6_sem0_1 : DmaSem sig := 66
abbrev cc6_sem1_0 : DmaSem sig := 67
abbrev cc6_sem1_1 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem6_0 : DmaSem sig := 73
abbrev cc6_sem7_0 : DmaSem sig := 74
abbrev cc6_sem7_1 : DmaSem sig := 75
abbrev cc6_sem8_0 : DmaSem sig := 76
abbrev cc6_sem8_1 : DmaSem sig := 77
abbrev cc6_sem9_0 : DmaSem sig := 78
abbrev cc6_sem9_1 : DmaSem sig := 79
abbrev cc7_sem0_0 : DmaSem sig := 80
abbrev cc7_sem0_1 : DmaSem sig := 81
abbrev cc7_sem1_0 : DmaSem sig := 82
abbrev cc7_sem2_0 : DmaSem sig := 83
abbrev cc7_sem3_0 : DmaSem sig := 84
abbrev cc7_sem4_0 : DmaSem sig := 85
abbrev cc7_sem5_0 : DmaSem sig := 86
abbrev cc7_sem5_1 : DmaSem sig := 87
abbrev cc7_sem6_0 : DmaSem sig := 88
abbrev cc7_sem6_1 : DmaSem sig := 89
abbrev cc8_sem0_0 : DmaSem sig := 90
abbrev cc8_sem0_1 : DmaSem sig := 91
abbrev cc8_sem1_0 : DmaSem sig := 92
abbrev cc8_sem1_1 : DmaSem sig := 93
abbrev cc8_sem2_0 : DmaSem sig := 94
abbrev cc8_sem3_0 : DmaSem sig := 95
abbrev cc8_sem4_0 : DmaSem sig := 96
abbrev cc8_sem5_0 : DmaSem sig := 97
abbrev cc8_sem6_0 : DmaSem sig := 98
abbrev cc8_sem7_0 : DmaSem sig := 99
abbrev cc8_sem7_1 : DmaSem sig := 100
abbrev cc8_sem8_0 : DmaSem sig := 101
abbrev cc8_sem8_1 : DmaSem sig := 102
abbrev cc8_sem9_0 : DmaSem sig := 103
abbrev cc8_sem9_1 : DmaSem sig := 104
abbrev cc9_sem0_0 : DmaSem sig := 105
abbrev cc9_sem0_1 : DmaSem sig := 106
abbrev cc9_sem1_0 : DmaSem sig := 107
abbrev cc9_sem2_0 : DmaSem sig := 108
abbrev cc9_sem3_0 : DmaSem sig := 109
abbrev cc9_sem4_0 : DmaSem sig := 110
abbrev cc9_sem5_0 : DmaSem sig := 111
abbrev cc9_sem5_1 : DmaSem sig := 112
abbrev cc9_sem6_0 : DmaSem sig := 113
abbrev cc9_sem6_1 : DmaSem sig := 114

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S256x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 2 → Memref sig .tc .vmem S4096x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S8x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, false]

abbrev stage4_9 : Fin 2 → Memref sig .tc .vmem S8x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4096x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4096x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨2, ![2, 8], ![false, false]⟩

def cc6_transform_0 (i : grid6.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc6_transform_1 (i : grid6.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S4096x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 1 → Memref sig .tc .vmem S128x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S128x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .vmem S256x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 2 → Memref sig .tc .vmem S4096x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev stage6_8 : Fin 2 → Memref sig .tc .vmem S8x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, false]

abbrev stage6_9 : Fin 2 → Memref sig .tc .vmem S8x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true, false]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4096x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S4096x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨2, ![2, 8], ![false, false]⟩

def cc8_transform_0 (i : grid8.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc8_transform_1 (i : grid8.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc8_transform_8 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_9 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S4096x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S4096x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 1 → Memref sig .tc .vmem S128x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 1 → Memref sig .tc .vmem S128x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false, false]

abbrev stage8_5 : Fin 1 → Memref sig .tc .vmem S256x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false, false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false, false]

abbrev stage8_7 : Fin 2 → Memref sig .tc .vmem S4096x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true, true]

abbrev stage8_8 : Fin 2 → Memref sig .tc .vmem S8x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true, false]

abbrev stage8_9 : Fin 2 → Memref sig .tc .vmem S8x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true, false]

abbrev grid9 : Pipeline.Grid := ⟨1, ![16], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4096x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S4096x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

class Facts₀ : Prop where
  slices_S5x256x256_S1x256x256_0_0_0 : S5x256x256.Slices ![0, 0, 0] S1x256x256
  shapeCasts_S1x256x256_S256x256 : S1x256x256.ShapeCasts S256x256
  slices_S5x256_S1x256_0_0 : S5x256.Slices ![0, 0] S1x256
  shapeCasts_S1x256_S256 : S1x256.ShapeCasts S256
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  shapeCasts_S256_S1x256 : S256.ShapeCasts S1x256
  shapeCasts_S128_S1x128 : S128.ShapeCasts S1x128
  inb_S8x128_S1x128_0_0 : ∀ a, (![0, 0] : Fin 2 → Nat) a + S1x128.size a ≤ S8x128.size a
  h_S1x128 : 0 < S1x128.numel
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  reduces_S4096x128_S128 : S4096x128.Reduces [0] S128
  slices_S16x128_S1x128_0_0 : S16x128.Slices ![0, 0] S1x128
  slices_S16x128_S1x128_8_0 : S16x128.Slices ![8, 0] S1x128
  bcast_S_S1x128 : S_.BroadcastsInDim S1x128 (![] : Fin 0 → Fin S1x128.rank)
  shapeCasts_S4096x128_S4096x128 : S4096x128.ShapeCasts S4096x128
  slices_S5x256x256_S1x256x256_1_0_0 : S5x256x256.Slices ![1, 0, 0] S1x256x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5x256x256_S1x128x256_2_0_0 : S5x256x256.Slices ![2, 0, 0] S1x128x256
  shapeCasts_S1x128x256_S128x256 : S1x128x256.ShapeCasts S128x256
  slices_S5x256x256_S1x128x256_2_128_0 : S5x256x256.Slices ![2, 128, 0] S1x128x256
  slices_S5x256x256_S1x128x256_3_0_0 : S5x256x256.Slices ![3, 0, 0] S1x128x256
  slices_S5x256x256_S1x128x256_3_128_0 : S5x256x256.Slices ![3, 128, 0] S1x128x256
  slices_S5x256x256_S1x128x256_4_0_0 : S5x256x256.Slices ![4, 0, 0] S1x128x256
  slices_S5x256x256_S1x128x256_4_128_0 : S5x256x256.Slices ![4, 128, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S3x65536x128_S1x65536x128_0_0_0 : S3x65536x128.Slices ![0, 0, 0] S1x65536x128
  shapeCasts_S1x65536x128_S65536x128 : S1x65536x128.ShapeCasts S65536x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S3x65536x128_S1x65536x128_1_0_0 : S3x65536x128.Slices ![1, 0, 0] S1x65536x128
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  slices_S3x65536x128_S1x65536x128_2_0_0 : S3x65536x128.Slices ![2, 0, 0] S1x65536x128
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S65536x128.size a
  hwx0_5 : ∀ i : grid0.Coords, EltTy.bits .f32 = 32 ∨ (Rect.block (s := S65536x128) S4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S16x128.size a
  hwx0_7 : ∀ i : grid0.Coords, EltTy.bits .f32 = 32 ∨ (Rect.block (s := S16x128) S8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .f32 = 32 ∨ (Rect.block (s := S65536x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S65536x128.size a
  hwx1_5 : ∀ i : grid1.Coords, EltTy.bits .f32 = 32 ∨ (Rect.block (s := S65536x128) S4096x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S65536x256.size a
  hwx2_0 : ∀ i : grid2.Coords, EltTy.bits .f32 = 32 ∨ (Rect.block (s := S65536x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x128.size a ≤ S65536x128.size a
  hwx2_5 : ∀ i : grid2.Coords, EltTy.bits .f32 = 32 ∨ (Rect.block (s := S65536x128) S4096x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S16x128.size a
  hwx2_6 : ∀ i : grid2.Coords, EltTy.bits .f32 = 32 ∨ (Rect.block (s := S16x128) S8x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x128.size a ≤ S16x128.size a
  hwx2_7 : ∀ i : grid2.Coords, EltTy.bits .f32 = 32 ∨ (Rect.block (s := S16x128) S8x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S65536x128.size a
  hwx3_0 : ∀ i : grid3.Coords, EltTy.bits .f32 = 32 ∨ (Rect.block (s := S65536x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x128.size a ≤ S65536x128.size a
  hwx3_5 : ∀ i : grid3.Coords, EltTy.bits .f32 = 32 ∨ (Rect.block (s := S65536x128) S4096x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S65536x128.size a
  hwx4_0 : ∀ i : grid4.Coords, EltTy.bits .f32 = 32 ∨ (Rect.block (s := S65536x128) S4096x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S65536x128.size a
  hwx4_1 : ∀ i : grid4.Coords, EltTy.bits .f32 = 32 ∨ (Rect.block (s := S65536x128) S4096x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x256.size a ≤ S128x256.size a
  hwx4_2 : ∀ i : grid4.Coords, EltTy.bits .f32 = 32 ∨ (Rect.block (s := S128x256) S128x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x256.size a ≤ S128x256.size a
  hwx4_3 : ∀ i : grid4.Coords, EltTy.bits .f32 = 32 ∨ (Rect.block (s := S128x256) S128x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x128.size a ≤ S256x128.size a
  hwx4_5 : ∀ i : grid4.Coords, EltTy.bits .f32 = 32 ∨ (Rect.block (s := S256x128) S256x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4096x128.size a ≤ S65536x128.size a
  hwx4_7 : ∀ i : grid4.Coords, EltTy.bits .f32 = 32 ∨ (Rect.block (s := S65536x128) S4096x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8x128.size a ≤ S16x128.size a
  hwx4_8 : ∀ i : grid4.Coords, EltTy.bits .f32 = 32 ∨ (Rect.block (s := S16x128) S8x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S8x128.size a ≤ S16x128.size a
  hwx4_9 : ∀ i : grid4.Coords, EltTy.bits .f32 = 32 ∨ (Rect.block (s := S16x128) S8x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x128.size a ≤ S65536x128.size a
  hwx5_0 : ∀ i : grid5.Coords, EltTy.bits .f32 = 32 ∨ (Rect.block (s := S65536x128) S4096x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4096x128.size a ≤ S65536x128.size a
  hwx5_5 : ∀ i : grid5.Coords, EltTy.bits .f32 = 32 ∨ (Rect.block (s := S65536x128) S4096x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4096x128.size a ≤ S65536x128.size a
  hwx5_6 : ∀ i : grid5.Coords, EltTy.bits .f32 = 32 ∨ (Rect.block (s := S65536x128) S4096x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S65536x128.size a
  hwx6_0 : ∀ i : grid6.Coords, EltTy.bits .f32 = 32 ∨ (Rect.block (s := S65536x128) S4096x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x128.size a ≤ S65536x128.size a
  hwx6_1 : ∀ i : grid6.Coords, EltTy.bits .f32 = 32 ∨ (Rect.block (s := S65536x128) S4096x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x256.size a ≤ S128x256.size a
  hwx6_2 : ∀ i : grid6.Coords, EltTy.bits .f32 = 32 ∨ (Rect.block (s := S128x256) S128x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x256.size a ≤ S128x256.size a
  hwx6_3 : ∀ i : grid6.Coords, EltTy.bits .f32 = 32 ∨ (Rect.block (s := S128x256) S128x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x128.size a ≤ S256x128.size a
  hwx6_5 : ∀ i : grid6.Coords, EltTy.bits .f32 = 32 ∨ (Rect.block (s := S256x128) S256x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4096x128.size a ≤ S65536x128.size a
  hwx6_7 : ∀ i : grid6.Coords, EltTy.bits .f32 = 32 ∨ (Rect.block (s := S65536x128) S4096x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S8x128.size a ≤ S16x128.size a
  hwx6_8 : ∀ i : grid6.Coords, EltTy.bits .f32 = 32 ∨ (Rect.block (s := S16x128) S8x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S8x128.size a ≤ S16x128.size a
  hwx6_9 : ∀ i : grid6.Coords, EltTy.bits .f32 = 32 ∨ (Rect.block (s := S16x128) S8x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x128.size a ≤ S65536x128.size a
  hwx7_0 : ∀ i : grid7.Coords, EltTy.bits .f32 = 32 ∨ (Rect.block (s := S65536x128) S4096x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4096x128.size a ≤ S65536x128.size a
  hwx7_5 : ∀ i : grid7.Coords, EltTy.bits .f32 = 32 ∨ (Rect.block (s := S65536x128) S4096x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S4096x128.size a ≤ S65536x128.size a
  hwx7_6 : ∀ i : grid7.Coords, EltTy.bits .f32 = 32 ∨ (Rect.block (s := S65536x128) S4096x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x128.size a ≤ S65536x128.size a
  hwx8_0 : ∀ i : grid8.Coords, EltTy.bits .f32 = 32 ∨ (Rect.block (s := S65536x128) S4096x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x128.size a ≤ S65536x128.size a
  hwx8_1 : ∀ i : grid8.Coords, EltTy.bits .f32 = 32 ∨ (Rect.block (s := S65536x128) S4096x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x256.size a ≤ S128x256.size a
  hwx8_2 : ∀ i : grid8.Coords, EltTy.bits .f32 = 32 ∨ (Rect.block (s := S128x256) S128x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x256.size a ≤ S128x256.size a
  hwx8_3 : ∀ i : grid8.Coords, EltTy.bits .f32 = 32 ∨ (Rect.block (s := S128x256) S128x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S256x128.size a ≤ S256x128.size a
  hwx8_5 : ∀ i : grid8.Coords, EltTy.bits .f32 = 32 ∨ (Rect.block (s := S256x128) S256x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S4096x128.size a ≤ S65536x128.size a
  hwx8_7 : ∀ i : grid8.Coords, EltTy.bits .f32 = 32 ∨ (Rect.block (s := S65536x128) S4096x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S8x128.size a ≤ S16x128.size a
  hwx8_8 : ∀ i : grid8.Coords, EltTy.bits .f32 = 32 ∨ (Rect.block (s := S16x128) S8x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S8x128.size a ≤ S16x128.size a
  hwx8_9 : ∀ i : grid8.Coords, EltTy.bits .f32 = 32 ∨ (Rect.block (s := S16x128) S8x128.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x128.size a ≤ S65536x128.size a
  hwx9_0 : ∀ i : grid9.Coords, EltTy.bits .f32 = 32 ∨ (Rect.block (s := S65536x128) S4096x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4096x128.size a ≤ S65536x128.size a
  hwx9_5 : ∀ i : grid9.Coords, EltTy.bits .f32 = 32 ∨ (Rect.block (s := S65536x128) S4096x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S4096x128.size a ≤ S65536x128.size a
  hwx9_6 : ∀ i : grid9.Coords, EltTy.bits .f32 = 32 ∨ (Rect.block (s := S65536x128) S4096x128.size (cc9_transform_6 i) (hinb9_6 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_2) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14_0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47_0) S4096x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v47_1) S8x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v47_2) S8x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47_0) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S4096x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v32) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S128x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S128x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S256x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v91) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v92_0) S4096x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v92_1) S8x128.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v92_2) S8x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v92_0) S4096x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v107) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v108) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v109) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v89) S4096x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v110) S4096x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v32) S4096x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v110) S4096x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v71) S128x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v73) S128x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v123) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v114) S256x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v124) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v125_0) S4096x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v125_1) S8x128.size cc6_transform_8 reads6_8 true false 2 stage6_8 sem6_8
    hrank6 hreads6_8 hinb6_8 nbuf6_8 (Memref.isWhole_whole _) hwx6_8 hstage6_8

abbrev win6_9 : Pipeline.Window sig grid6 :=
  Pipeline.Window.ofSpec (Memref.whole main_v125_2) S8x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v125_0) S4096x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v133) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v140) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v141) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v142) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v122) S4096x128.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v143) S4096x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v65) S4096x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v110) S4096x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v75) S128x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v77) S128x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v156) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v147) S256x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v157) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v158_0) S4096x128.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v158_1) S8x128.size cc8_transform_8 reads8_8 true false 2 stage8_8 sem8_8
    hrank8 hreads8_8 hinb8_8 nbuf8_8 (Memref.isWhole_whole _) hwx8_8 hstage8_8

abbrev win8_9 : Pipeline.Window sig grid8 :=
  Pipeline.Window.ofSpec (Memref.whole main_v158_2) S8x128.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v158_0) S4096x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v166) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v173) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v174) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v175) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v155) S4096x128.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v176) S4096x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

class Facts : Prop extends Facts₀ where

variable [Facts]
-- ==== ReferenceIdeal.lean ====
abbrev S65536x256 : Shape := ⟨2, ![65536, 256]⟩
abbrev S5x256x256 : Shape := ⟨3, ![5, 256, 256]⟩
abbrev S5x256 : Shape := ⟨2, ![5, 256]⟩
abbrev S5x256x128 : Shape := ⟨3, ![5, 256, 128]⟩
abbrev S5x128 : Shape := ⟨2, ![5, 128]⟩
abbrev S3x65536x128 : Shape := ⟨3, ![3, 65536, 128]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S_ : Shape := ⟨0, ![]⟩
abbrev S65536x128 : Shape := ⟨2, ![65536, 128]⟩
abbrev S1x65536x128 : Shape := ⟨3, ![1, 65536, 128]⟩

abbrev nBuf : Space → Nat
  | .hbm => 365
  | .vmem => 0
  | .smem => 0
  | _ => 0

abbrev hbmTy0_0 (i : Nat) : BufTy := match i % 128 with
  | 0 => ⟨S65536x256, .f32⟩
  | 1 => ⟨S65536x256, .f32⟩
  | 2 => ⟨S5x256x256, .f32⟩
  | 3 => ⟨S5x256, .f32⟩
  | 4 => ⟨S5x256x128, .f32⟩
  | 5 => ⟨S5x128, .f32⟩
  | 6 => ⟨S5x128, .f32⟩
  | 7 => ⟨S5x128, .f32⟩
  | 8 => ⟨S3x65536x128, .f32⟩
  | 9 => ⟨S1x256x256, .f32⟩
  | 10 => ⟨S256x256, .f32⟩
  | 11 => ⟨S1x256, .f32⟩
  | 12 => ⟨S256, .f32⟩
  | 13 => ⟨S1x256x128, .f32⟩
  | 14 => ⟨S256x128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S65536x256, .f32⟩
  | 22 => ⟨S1x256, .f32⟩
  | 23 => ⟨S65536x256, .f32⟩
  | 24 => ⟨S65536x256, .f32⟩
  | 25 => ⟨S_, .f32⟩
  | 26 => ⟨S65536x256, .f32⟩
  | 27 => ⟨S65536x256, .f32⟩
  | 28 => ⟨S65536x128, .f32⟩
  | 29 => ⟨S1x128, .f32⟩
  | 30 => ⟨S65536x128, .f32⟩
  | 31 => ⟨S65536x128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S65536x128, .f32⟩
  | 45 => ⟨S65536x128, .f32⟩
  | 46 => ⟨S65536x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S65536x128, .f32⟩
  | 62 => ⟨S65536x128, .f32⟩
  | 63 => ⟨S1x128, .f32⟩
  | 64 => ⟨S65536x128, .f32⟩
  | 65 => ⟨S65536x128, .f32⟩
  | 66 => ⟨S_, .f32⟩
  | 67 => ⟨S128, .f32⟩
  | 68 => ⟨S128, .f32⟩
  | 69 => ⟨S128, .f32⟩
  | 70 => ⟨S1x128, .f32⟩
  | 71 => ⟨S65536x128, .f32⟩
  | 72 => ⟨S65536x128, .f32⟩
  | 73 => ⟨S1x128, .f32⟩
  | 74 => ⟨S65536x128, .f32⟩
  | 75 => ⟨S65536x128, .f32⟩
  | 76 => ⟨S1x256x256, .f32⟩
  | 77 => ⟨S256x256, .f32⟩
  | 78 => ⟨S1x256, .f32⟩
  | 79 => ⟨S256, .f32⟩
  | 80 => ⟨S1x256x128, .f32⟩
  | 81 => ⟨S256x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S65536x256, .f32⟩
  | 89 => ⟨S1x256, .f32⟩
  | 90 => ⟨S65536x256, .f32⟩
  | 91 => ⟨S65536x256, .f32⟩
  | 92 => ⟨S_, .f32⟩
  | 93 => ⟨S65536x256, .f32⟩
  | 94 => ⟨S65536x256, .f32⟩
  | 95 => ⟨S65536x128, .f32⟩
  | 96 => ⟨S1x128, .f32⟩
  | 97 => ⟨S65536x128, .f32⟩
  | 98 => ⟨S65536x128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S65536x128, .f32⟩
  | 112 => ⟨S65536x128, .f32⟩
  | 113 => ⟨S65536x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S65536x256, .f32⟩

abbrev hbmTy0_1 (i : Nat) : BufTy := match i % 128 with
  | 0 => ⟨S65536x128, .f32⟩
  | 1 => ⟨S65536x128, .f32⟩
  | 2 => ⟨S1x128, .f32⟩
  | 3 => ⟨S65536x128, .f32⟩
  | 4 => ⟨S65536x128, .f32⟩
  | 5 => ⟨S_, .f32⟩
  | 6 => ⟨S128, .f32⟩
  | 7 => ⟨S128, .f32⟩
  | 8 => ⟨S128, .f32⟩
  | 9 => ⟨S1x128, .f32⟩
  | 10 => ⟨S65536x128, .f32⟩
  | 11 => ⟨S65536x128, .f32⟩
  | 12 => ⟨S1x128, .f32⟩
  | 13 => ⟨S65536x128, .f32⟩
  | 14 => ⟨S65536x128, .f32⟩
  | 15 => ⟨S65536x256, .f32⟩
  | 16 => ⟨S1x256x256, .f32⟩
  | 17 => ⟨S256x256, .f32⟩
  | 18 => ⟨S1x256, .f32⟩
  | 19 => ⟨S256, .f32⟩
  | 20 => ⟨S1x256x128, .f32⟩
  | 21 => ⟨S256x128, .f32⟩
  | 22 => ⟨S1x128, .f32⟩
  | 23 => ⟨S128, .f32⟩
  | 24 => ⟨S1x128, .f32⟩
  | 25 => ⟨S128, .f32⟩
  | 26 => ⟨S1x128, .f32⟩
  | 27 => ⟨S128, .f32⟩
  | 28 => ⟨S65536x256, .f32⟩
  | 29 => ⟨S1x256, .f32⟩
  | 30 => ⟨S65536x256, .f32⟩
  | 31 => ⟨S65536x256, .f32⟩
  | 32 => ⟨S_, .f32⟩
  | 33 => ⟨S65536x256, .f32⟩
  | 34 => ⟨S65536x256, .f32⟩
  | 35 => ⟨S65536x128, .f32⟩
  | 36 => ⟨S1x128, .f32⟩
  | 37 => ⟨S65536x128, .f32⟩
  | 38 => ⟨S65536x128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S65536x128, .f32⟩
  | 52 => ⟨S65536x128, .f32⟩
  | 53 => ⟨S65536x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S65536x128, .f32⟩
  | 69 => ⟨S65536x128, .f32⟩
  | 70 => ⟨S1x128, .f32⟩
  | 71 => ⟨S65536x128, .f32⟩
  | 72 => ⟨S65536x128, .f32⟩
  | 73 => ⟨S_, .f32⟩
  | 74 => ⟨S128, .f32⟩
  | 75 => ⟨S128, .f32⟩
  | 76 => ⟨S128, .f32⟩
  | 77 => ⟨S1x128, .f32⟩
  | 78 => ⟨S65536x128, .f32⟩
  | 79 => ⟨S65536x128, .f32⟩
  | 80 => ⟨S1x128, .f32⟩
  | 81 => ⟨S65536x128, .f32⟩
  | 82 => ⟨S65536x128, .f32⟩
  | 83 => ⟨S1x65536x128, .f32⟩
  | 84 => ⟨S65536x128, .f32⟩
  | 85 => ⟨S_, .f32⟩
  | 86 => ⟨S65536x128, .f32⟩
  | 87 => ⟨S65536x128, .f32⟩
  | 88 => ⟨S65536x128, .f32⟩
  | 89 => ⟨S65536x256, .f32⟩
  | 90 => ⟨S1x256x256, .f32⟩
  | 91 => ⟨S256x256, .f32⟩
  | 92 => ⟨S1x256, .f32⟩
  | 93 => ⟨S256, .f32⟩
  | 94 => ⟨S1x256x128, .f32⟩
  | 95 => ⟨S256x128, .f32⟩
  | 96 => ⟨S1x128, .f32⟩
  | 97 => ⟨S128, .f32⟩
  | 98 => ⟨S1x128, .f32⟩
  | 99 => ⟨S128, .f32⟩
  | 100 => ⟨S1x128, .f32⟩
  | 101 => ⟨S128, .f32⟩
  | 102 => ⟨S65536x256, .f32⟩
  | 103 => ⟨S1x256, .f32⟩
  | 104 => ⟨S65536x256, .f32⟩
  | 105 => ⟨S65536x256, .f32⟩
  | 106 => ⟨S_, .f32⟩
  | 107 => ⟨S65536x256, .f32⟩
  | 108 => ⟨S65536x256, .f32⟩
  | 109 => ⟨S65536x128, .f32⟩
  | 110 => ⟨S1x128, .f32⟩
  | 111 => ⟨S65536x128, .f32⟩
  | 112 => ⟨S65536x128, .f32⟩
  | 113 => ⟨S_, .f32⟩
  | 114 => ⟨S128, .f32⟩
  | 115 => ⟨S_, .f32⟩
  | 116 => ⟨S128, .f32⟩
  | 117 => ⟨S128, .f32⟩
  | 118 => ⟨S_, .i32⟩
  | 119 => ⟨S_, .f32⟩
  | 120 => ⟨S128, .f32⟩
  | 121 => ⟨S1x128, .f32⟩
  | 122 => ⟨S_, .f32⟩
  | 123 => ⟨S1x128, .f32⟩
  | 124 => ⟨S1x128, .f32⟩
  | 125 => ⟨S65536x128, .f32⟩
  | 126 => ⟨S65536x128, .f32⟩
  | 127 => ⟨S65536x128, .f32⟩
  | _ => ⟨S65536x256, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S128, .f32⟩
  | 5 => ⟨S128, .f32⟩
  | 6 => ⟨S128, .f32⟩
  | 7 => ⟨S_, .f32⟩
  | 8 => ⟨S_, .i1⟩
  | 9 => ⟨S_, .f32⟩
  | 10 => ⟨S_, .f32⟩
  | 11 => ⟨S128, .f32⟩
  | 12 => ⟨S128, .f32⟩
  | 13 => ⟨S1x128, .f32⟩
  | 14 => ⟨S65536x128, .f32⟩
  | 15 => ⟨S65536x128, .f32⟩
  | 16 => ⟨S1x128, .f32⟩
  | 17 => ⟨S65536x128, .f32⟩
  | 18 => ⟨S65536x128, .f32⟩
  | 19 => ⟨S_, .f32⟩
  | 20 => ⟨S128, .f32⟩
  | 21 => ⟨S128, .f32⟩
  | 22 => ⟨S128, .f32⟩
  | 23 => ⟨S1x128, .f32⟩
  | 24 => ⟨S65536x128, .f32⟩
  | 25 => ⟨S65536x128, .f32⟩
  | 26 => ⟨S1x128, .f32⟩
  | 27 => ⟨S65536x128, .f32⟩
  | 28 => ⟨S65536x128, .f32⟩
  | 29 => ⟨S1x65536x128, .f32⟩
  | 30 => ⟨S65536x128, .f32⟩
  | 31 => ⟨S_, .f32⟩
  | 32 => ⟨S65536x128, .f32⟩
  | 33 => ⟨S65536x128, .f32⟩
  | 34 => ⟨S65536x128, .f32⟩
  | 35 => ⟨S65536x256, .f32⟩
  | 36 => ⟨S1x256x256, .f32⟩
  | 37 => ⟨S256x256, .f32⟩
  | 38 => ⟨S1x256, .f32⟩
  | 39 => ⟨S256, .f32⟩
  | 40 => ⟨S1x256x128, .f32⟩
  | 41 => ⟨S256x128, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S128, .f32⟩
  | 48 => ⟨S65536x256, .f32⟩
  | 49 => ⟨S1x256, .f32⟩
  | 50 => ⟨S65536x256, .f32⟩
  | 51 => ⟨S65536x256, .f32⟩
  | 52 => ⟨S_, .f32⟩
  | 53 => ⟨S65536x256, .f32⟩
  | 54 => ⟨S65536x256, .f32⟩
  | 55 => ⟨S65536x128, .f32⟩
  | 56 => ⟨S1x128, .f32⟩
  | 57 => ⟨S65536x128, .f32⟩
  | 58 => ⟨S65536x128, .f32⟩
  | 59 => ⟨S_, .f32⟩
  | 60 => ⟨S128, .f32⟩
  | 61 => ⟨S_, .f32⟩
  | 62 => ⟨S128, .f32⟩
  | 63 => ⟨S128, .f32⟩
  | 64 => ⟨S_, .i32⟩
  | 65 => ⟨S_, .f32⟩
  | 66 => ⟨S128, .f32⟩
  | 67 => ⟨S1x128, .f32⟩
  | 68 => ⟨S_, .f32⟩
  | 69 => ⟨S1x128, .f32⟩
  | 70 => ⟨S1x128, .f32⟩
  | 71 => ⟨S65536x128, .f32⟩
  | 72 => ⟨S65536x128, .f32⟩
  | 73 => ⟨S65536x128, .f32⟩
  | 74 => ⟨S_, .f32⟩
  | 75 => ⟨S_, .f32⟩
  | 76 => ⟨S_, .f32⟩
  | 77 => ⟨S_, .f32⟩
  | 78 => ⟨S128, .f32⟩
  | 79 => ⟨S128, .f32⟩
  | 80 => ⟨S128, .f32⟩
  | 81 => ⟨S_, .f32⟩
  | 82 => ⟨S_, .i1⟩
  | 83 => ⟨S_, .f32⟩
  | 84 => ⟨S_, .f32⟩
  | 85 => ⟨S128, .f32⟩
  | 86 => ⟨S128, .f32⟩
  | 87 => ⟨S1x128, .f32⟩
  | 88 => ⟨S65536x128, .f32⟩
  | 89 => ⟨S65536x128, .f32⟩
  | 90 => ⟨S1x128, .f32⟩
  | 91 => ⟨S65536x128, .f32⟩
  | 92 => ⟨S65536x128, .f32⟩
  | 93 => ⟨S_, .f32⟩
  | 94 => ⟨S128, .f32⟩
  | 95 => ⟨S128, .f32⟩
  | 96 => ⟨S128, .f32⟩
  | 97 => ⟨S1x128, .f32⟩
  | 98 => ⟨S65536x128, .f32⟩
  | 99 => ⟨S65536x128, .f32⟩
  | 100 => ⟨S1x128, .f32⟩
  | 101 => ⟨S65536x128, .f32⟩
  | 102 => ⟨S65536x128, .f32⟩
  | 103 => ⟨S1x65536x128, .f32⟩
  | 104 => ⟨S65536x128, .f32⟩
  | 105 => ⟨S_, .f32⟩
  | 106 => ⟨S65536x128, .f32⟩
  | 107 => ⟨S65536x128, .f32⟩
  | 108 => ⟨S65536x128, .f32⟩
  | _ => ⟨S65536x256, .f32⟩

abbrev hbmTy (i : Nat) : BufTy := match i / 128 with
  | 0 => hbmTy0_0 i
  | 1 => hbmTy0_1 i
  | 2 => hbmTy0_2 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_cst_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_cst_1 : Ref sig .tc := ⟨.hbm, 48, rfl⟩
abbrev main_call1_v8 : Ref sig .tc := ⟨.hbm, 49, rfl⟩
abbrev main_call1_cst_2 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_cst_3 : Ref sig .tc := ⟨.hbm, 54, rfl⟩
abbrev main_call1_v12 : Ref sig .tc := ⟨.hbm, 55, rfl⟩
abbrev main_call1_cst_4 : Ref sig .tc := ⟨.hbm, 56, rfl⟩
abbrev main_call1_call0_v0 : Ref sig .tc := ⟨.hbm, 57, rfl⟩
abbrev main_call1_call0_v1 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_1 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call2_cst : Ref sig .tc := ⟨.hbm, 92, rfl⟩
abbrev main_call2_v0 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_2 : Ref sig .tc := ⟨.hbm, 99, rfl⟩
abbrev main_v61 : Ref sig .tc := ⟨.hbm, 100, rfl⟩
abbrev main_cst_3 : Ref sig .tc := ⟨.hbm, 101, rfl⟩
abbrev main_v62 : Ref sig .tc := ⟨.hbm, 102, rfl⟩
abbrev main_v63 : Ref sig .tc := ⟨.hbm, 103, rfl⟩
abbrev main_c_4 : Ref sig .tc := ⟨.hbm, 104, rfl⟩
abbrev main_call3_cst : Ref sig .tc := ⟨.hbm, 105, rfl⟩
abbrev main_call3_v0 : Ref sig .tc := ⟨.hbm, 106, rfl⟩
abbrev main_call3_v1 : Ref sig .tc := ⟨.hbm, 107, rfl⟩
abbrev main_call3_cst_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_v7 : Ref sig .tc := ⟨.hbm, 114, rfl⟩
abbrev main_call3_cst_1 : Ref sig .tc := ⟨.hbm, 115, rfl⟩
abbrev main_call3_v8 : Ref sig .tc := ⟨.hbm, 116, rfl⟩
abbrev main_call3_cst_2 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_cst_3 : Ref sig .tc := ⟨.hbm, 121, rfl⟩
abbrev main_call3_v12 : Ref sig .tc := ⟨.hbm, 122, rfl⟩
abbrev main_call3_cst_4 : Ref sig .tc := ⟨.hbm, 123, rfl⟩
abbrev main_call3_call0_v0 : Ref sig .tc := ⟨.hbm, 124, rfl⟩
abbrev main_call3_call0_v1 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_cst_5 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_call4_cst : Ref sig .tc := ⟨.hbm, 160, rfl⟩
abbrev main_call4_v0 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_cst_6 : Ref sig .tc := ⟨.hbm, 167, rfl⟩
abbrev main_v102 : Ref sig .tc := ⟨.hbm, 168, rfl⟩
abbrev main_cst_7 : Ref sig .tc := ⟨.hbm, 169, rfl⟩
abbrev main_v103 : Ref sig .tc := ⟨.hbm, 170, rfl⟩
abbrev main_v104 : Ref sig .tc := ⟨.hbm, 171, rfl⟩
abbrev main_c_8 : Ref sig .tc := ⟨.hbm, 172, rfl⟩
abbrev main_call5_cst : Ref sig .tc := ⟨.hbm, 173, rfl⟩
abbrev main_call5_v0 : Ref sig .tc := ⟨.hbm, 174, rfl⟩
abbrev main_call5_v1 : Ref sig .tc := ⟨.hbm, 175, rfl⟩
abbrev main_call5_cst_0 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_call5_v5 : Ref sig .tc := ⟨.hbm, 180, rfl⟩
abbrev main_call5_v6 : Ref sig .tc := ⟨.hbm, 181, rfl⟩
abbrev main_call5_v7 : Ref sig .tc := ⟨.hbm, 182, rfl⟩
abbrev main_call5_cst_1 : Ref sig .tc := ⟨.hbm, 183, rfl⟩
abbrev main_call5_v8 : Ref sig .tc := ⟨.hbm, 184, rfl⟩
abbrev main_call5_cst_2 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_cst_3 : Ref sig .tc := ⟨.hbm, 189, rfl⟩
abbrev main_call5_v12 : Ref sig .tc := ⟨.hbm, 190, rfl⟩
abbrev main_call5_cst_4 : Ref sig .tc := ⟨.hbm, 191, rfl⟩
abbrev main_call5_call0_v0 : Ref sig .tc := ⟨.hbm, 192, rfl⟩
abbrev main_call5_call0_v1 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_cst_9 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_cst_10 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_call6_cst : Ref sig .tc := ⟨.hbm, 234, rfl⟩
abbrev main_call6_v0 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_cst_11 : Ref sig .tc := ⟨.hbm, 241, rfl⟩
abbrev main_v148 : Ref sig .tc := ⟨.hbm, 242, rfl⟩
abbrev main_cst_12 : Ref sig .tc := ⟨.hbm, 243, rfl⟩
abbrev main_v149 : Ref sig .tc := ⟨.hbm, 244, rfl⟩
abbrev main_v150 : Ref sig .tc := ⟨.hbm, 245, rfl⟩
abbrev main_c_13 : Ref sig .tc := ⟨.hbm, 246, rfl⟩
abbrev main_call7_cst : Ref sig .tc := ⟨.hbm, 247, rfl⟩
abbrev main_call7_v0 : Ref sig .tc := ⟨.hbm, 248, rfl⟩
abbrev main_call7_v1 : Ref sig .tc := ⟨.hbm, 249, rfl⟩
abbrev main_call7_cst_0 : Ref sig .tc := ⟨.hbm, 250, rfl⟩
abbrev main_call7_v2 : Ref sig .tc := ⟨.hbm, 251, rfl⟩
abbrev main_call7_v3 : Ref sig .tc := ⟨.hbm, 252, rfl⟩
abbrev main_call7_v4 : Ref sig .tc := ⟨.hbm, 253, rfl⟩
abbrev main_call7_v5 : Ref sig .tc := ⟨.hbm, 254, rfl⟩
abbrev main_call7_v6 : Ref sig .tc := ⟨.hbm, 255, rfl⟩
abbrev main_call7_v7 : Ref sig .tc := ⟨.hbm, 256, rfl⟩
abbrev main_call7_cst_1 : Ref sig .tc := ⟨.hbm, 257, rfl⟩
abbrev main_call7_v8 : Ref sig .tc := ⟨.hbm, 258, rfl⟩
abbrev main_call7_cst_2 : Ref sig .tc := ⟨.hbm, 259, rfl⟩
abbrev main_call7_v9 : Ref sig .tc := ⟨.hbm, 260, rfl⟩
abbrev main_call7_v10 : Ref sig .tc := ⟨.hbm, 261, rfl⟩
abbrev main_call7_v11 : Ref sig .tc := ⟨.hbm, 262, rfl⟩
abbrev main_call7_cst_3 : Ref sig .tc := ⟨.hbm, 263, rfl⟩
abbrev main_call7_v12 : Ref sig .tc := ⟨.hbm, 264, rfl⟩
abbrev main_call7_cst_4 : Ref sig .tc := ⟨.hbm, 265, rfl⟩
abbrev main_call7_call0_v0 : Ref sig .tc := ⟨.hbm, 266, rfl⟩
abbrev main_call7_call0_v1 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_cst_14 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_cst_15 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_v179 : Ref sig .tc := ⟨.hbm, 298, rfl⟩
abbrev main_v180 : Ref sig .tc := ⟨.hbm, 299, rfl⟩
abbrev main_v181 : Ref sig .tc := ⟨.hbm, 300, rfl⟩
abbrev main_v182 : Ref sig .tc := ⟨.hbm, 301, rfl⟩
abbrev main_v183 : Ref sig .tc := ⟨.hbm, 302, rfl⟩
abbrev main_v184 : Ref sig .tc := ⟨.hbm, 303, rfl⟩
abbrev main_v185 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_call8_cst : Ref sig .tc := ⟨.hbm, 308, rfl⟩
abbrev main_call8_v0 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_cst_16 : Ref sig .tc := ⟨.hbm, 315, rfl⟩
abbrev main_v194 : Ref sig .tc := ⟨.hbm, 316, rfl⟩
abbrev main_cst_17 : Ref sig .tc := ⟨.hbm, 317, rfl⟩
abbrev main_v195 : Ref sig .tc := ⟨.hbm, 318, rfl⟩
abbrev main_v196 : Ref sig .tc := ⟨.hbm, 319, rfl⟩
abbrev main_c_18 : Ref sig .tc := ⟨.hbm, 320, rfl⟩
abbrev main_call9_cst : Ref sig .tc := ⟨.hbm, 321, rfl⟩
abbrev main_call9_v0 : Ref sig .tc := ⟨.hbm, 322, rfl⟩
abbrev main_call9_v1 : Ref sig .tc := ⟨.hbm, 323, rfl⟩
abbrev main_call9_cst_0 : Ref sig .tc := ⟨.hbm, 324, rfl⟩
abbrev main_call9_v2 : Ref sig .tc := ⟨.hbm, 325, rfl⟩
abbrev main_call9_v3 : Ref sig .tc := ⟨.hbm, 326, rfl⟩
abbrev main_call9_v4 : Ref sig .tc := ⟨.hbm, 327, rfl⟩
abbrev main_call9_v5 : Ref sig .tc := ⟨.hbm, 328, rfl⟩
abbrev main_call9_v6 : Ref sig .tc := ⟨.hbm, 329, rfl⟩
abbrev main_call9_v7 : Ref sig .tc := ⟨.hbm, 330, rfl⟩
abbrev main_call9_cst_1 : Ref sig .tc := ⟨.hbm, 331, rfl⟩
abbrev main_call9_v8 : Ref sig .tc := ⟨.hbm, 332, rfl⟩
abbrev main_call9_cst_2 : Ref sig .tc := ⟨.hbm, 333, rfl⟩
abbrev main_call9_v9 : Ref sig .tc := ⟨.hbm, 334, rfl⟩
abbrev main_call9_v10 : Ref sig .tc := ⟨.hbm, 335, rfl⟩
abbrev main_call9_v11 : Ref sig .tc := ⟨.hbm, 336, rfl⟩
abbrev main_call9_cst_3 : Ref sig .tc := ⟨.hbm, 337, rfl⟩
abbrev main_call9_v12 : Ref sig .tc := ⟨.hbm, 338, rfl⟩
abbrev main_call9_cst_4 : Ref sig .tc := ⟨.hbm, 339, rfl⟩
abbrev main_call9_call0_v0 : Ref sig .tc := ⟨.hbm, 340, rfl⟩
abbrev main_call9_call0_v1 : Ref sig .tc := ⟨.hbm, 341, rfl⟩
abbrev main_v197 : Ref sig .tc := ⟨.hbm, 342, rfl⟩
abbrev main_v198 : Ref sig .tc := ⟨.hbm, 343, rfl⟩
abbrev main_v199 : Ref sig .tc := ⟨.hbm, 344, rfl⟩
abbrev main_v200 : Ref sig .tc := ⟨.hbm, 345, rfl⟩
abbrev main_v201 : Ref sig .tc := ⟨.hbm, 346, rfl⟩
abbrev main_v202 : Ref sig .tc := ⟨.hbm, 347, rfl⟩
abbrev main_v203 : Ref sig .tc := ⟨.hbm, 348, rfl⟩
abbrev main_cst_19 : Ref sig .tc := ⟨.hbm, 349, rfl⟩
abbrev main_v204 : Ref sig .tc := ⟨.hbm, 350, rfl⟩
abbrev main_v205 : Ref sig .tc := ⟨.hbm, 351, rfl⟩
abbrev main_v206 : Ref sig .tc := ⟨.hbm, 352, rfl⟩
abbrev main_v207 : Ref sig .tc := ⟨.hbm, 353, rfl⟩
abbrev main_v208 : Ref sig .tc := ⟨.hbm, 354, rfl⟩
abbrev main_v209 : Ref sig .tc := ⟨.hbm, 355, rfl⟩
abbrev main_v210 : Ref sig .tc := ⟨.hbm, 356, rfl⟩
abbrev main_v211 : Ref sig .tc := ⟨.hbm, 357, rfl⟩
abbrev main_v212 : Ref sig .tc := ⟨.hbm, 358, rfl⟩
abbrev main_v213 : Ref sig .tc := ⟨.hbm, 359, rfl⟩
abbrev main_v214 : Ref sig .tc := ⟨.hbm, 360, rfl⟩
abbrev main_cst_20 : Ref sig .tc := ⟨.hbm, 361, rfl⟩
abbrev main_v215 : Ref sig .tc := ⟨.hbm, 362, rfl⟩
abbrev main_v216 : Ref sig .tc := ⟨.hbm, 363, rfl⟩
abbrev main_v217 : Ref sig .tc := ⟨.hbm, 364, rfl⟩

abbrev nD : Nat := 1
abbrev τ : Topo := Topo.v7x

variable {F : FTy → Type} [FloatOps F]

class Facts₀ : Prop where
  slices_S5x256x256_S1x256x256_0_0_0 : S5x256x256.Slices ![0, 0, 0] S1x256x256
  shapeCasts_S1x256x256_S256x256 : S1x256x256.ShapeCasts S256x256
  slices_S5x256_S1x256_0_0 : S5x256.Slices ![0, 0] S1x256
  shapeCasts_S1x256_S256 : S1x256.ShapeCasts S256
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  reducesTo_S65536x128_S128_d0 : S65536x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x256x256_S1x256x256_1_0_0 : S5x256x256.Slices ![1, 0, 0] S1x256x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  concatenates_S65536x128_S65536x128_S65536x256_d1 : Shape.Concatenates [S65536x128, S65536x128] S65536x256 1
  slices_S5x256x256_S1x256x256_2_0_0 : S5x256x256.Slices ![2, 0, 0] S1x256x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S3x65536x128_S1x65536x128_0_0_0 : S3x65536x128.Slices ![0, 0, 0] S1x65536x128
  shapeCasts_S1x65536x128_S65536x128 : S1x65536x128.ShapeCasts S65536x128
  bcast_S_S65536x128 : S_.BroadcastsInDim S65536x128 (![] : Fin 0 → Fin S65536x128.rank)
  slices_S5x256x256_S1x256x256_3_0_0 : S5x256x256.Slices ![3, 0, 0] S1x256x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S3x65536x128_S1x65536x128_1_0_0 : S3x65536x128.Slices ![1, 0, 0] S1x65536x128
  slices_S5x256x256_S1x256x256_4_0_0 : S5x256x256.Slices ![4, 0, 0] S1x256x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  slices_S3x65536x128_S1x65536x128_2_0_0 : S3x65536x128.Slices ![2, 0, 0] S1x65536x128
  dot_S65536x256_S256x256_S65536x256_1_0_0_1_n_n_wf : DotDims.WF S65536x256 S256x256 S65536x256 [1] [0] [0] [1] [] []
  dot_S65536x256_S256x128_S65536x128_1_0_0_1_n_n_wf : DotDims.WF S65536x256 S256x128 S65536x128 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf

class Facts : Prop extends Facts₀ where

variable [Facts]
-- ==== Proof.Hand.Algebra.lean ====
/-
  Pure algebra for a two-pass batch normalisation: sums of coerced reals, the variance identity
  E[(y - μ)²] = E[y²] - μ², its non-negativity, the reciprocal square root of a positive real,
  splitting a contraction over a concatenated axis, and re-indexing a sum over 65536 rows as
  2 × 8 × 4096. No program is imported.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Fin
import Mathlib.Algebra.BigOperators.Group.Finset.Basic
import Mathlib.Algebra.Order.BigOperators.Ring.Finset
import Mathlib.Logic.Equiv.Fin.Basic
import Mathlib.Analysis.SpecialFunctions.Sqrt
import Mathlib.Tactic.Ring
import Mathlib.Tactic.FieldSimp
import Mathlib.Tactic.Positivity
import Mathlib.Tactic.NormNum

namespace Cert.Hand.Algebra

open Idealize.ShloMosaic
open scoped BigOperators

/-! ## 1. Coerced reals are closed under the operations -/

/-- The coercion of a finite sum of reals is the sum of the coercions. -/
theorem coe_sum_finset {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem coe_sum {ι : Type*} [Fintype ι] (f : ι → ℝ) :
    ((∑ i, f i : ℝ) : EReal) = ∑ i, (f i : EReal) :=
  coe_sum_finset _ f

/-- A sum of products of coerced reals (a contraction) is a coerced real. -/
theorem coe_sum_mul {ι : Type*} [Fintype ι] (a w : ι → ℝ) :
    ((∑ k, a k * w k : ℝ) : EReal) = ∑ k, (a k : EReal) * (w k : EReal) := by
  rw [coe_sum]
  exact Finset.sum_congr rfl fun k _ => EReal.coe_mul _ _

/-- relu of a coerced real. -/
theorem coe_max_zero (x : ℝ) : ((max x 0 : ℝ) : EReal) = max (x : EReal) 0 := by
  exact EReal.coe_strictMono.monotone.map_max (a := x) (b := 0)

theorem coe_sub' (x y : ℝ) : ((x - y : ℝ) : EReal) = (x : EReal) - (y : EReal) := EReal.coe_sub x y

/-- Ideal's quotient of two coerced reals, the divisor not zero. -/
theorem div_coe_coe (x : ℝ) {n : ℝ} (hn : n ≠ 0) :
    Ideal.div (x : EReal) (n : EReal) = ((x / n : ℝ) : EReal) := by
  rw [Ideal.div_coe hn, ← EReal.coe_mul, mul_one_div]

/-- The f32 word 0x47800000 is 2¹⁶. -/
theorem ofBits_65536 : Ideal.ofBits .f32 0x47800000#32 = ((65536 : ℝ) : EReal) := by
  simp [Ideal.ofBits, Ideal.ieee, -EReal.coe_mul]
  norm_num

/-- The f32 word 0x3727C5AC is a positive real (about 1e-5); its value is never needed. -/
theorem ofBits_eps_pos : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

/-! ## 2. The variance identity -/

/-- E[(y - μ)²] = E[y²] - μ², over the reals; the squares written as products. -/
theorem variance_identity {ι : Type*} [Fintype ι] (y : ι → ℝ) (n : ℝ)
    (hn : n = (Fintype.card ι : ℝ)) (hn0 : n ≠ 0) :
    (∑ r, (y r - (∑ r, y r) / n) * (y r - (∑ r, y r) / n)) / n
      = (∑ r, y r * y r) / n - ((∑ r, y r) / n) * ((∑ r, y r) / n) := by
  obtain ⟨S, hS⟩ : ∃ S : ℝ, S = ∑ r, y r := ⟨_, rfl⟩
  rw [← hS]
  have key : ∑ r, (y r - S / n) * (y r - S / n)
      = (∑ r, y r * y r) - 2 * (S / n) * S + n * ((S / n) * (S / n)) := by
    calc ∑ r, (y r - S / n) * (y r - S / n)
        = ∑ r, (y r * y r - 2 * (S / n) * y r + (S / n) * (S / n)) :=
          Finset.sum_congr rfl fun r _ => by ring
      _ = _ := by
          rw [Finset.sum_add_distrib, Finset.sum_sub_distrib, ← Finset.mul_sum, ← hS, Finset.sum_const,
            Finset.card_univ, nsmul_eq_mul, ← hn]
  rw [key]
  field_simp
  ring

/-- The mean, and the two variances, as coerced reals (what the EReal terms ARE). -/
theorem mean_ereal {ι : Type*} [Fintype ι] (y : ι → ℝ) {n : ℝ} (hn0 : n ≠ 0) :
    Ideal.div (∑ r, (y r : EReal)) (n : EReal) = (((∑ r, y r) / n : ℝ) : EReal) := by
  rw [← coe_sum, div_coe_coe _ hn0]

theorem var_ref_ereal {ι : Type*} [Fintype ι] (y : ι → ℝ) {n : ℝ} (hn0 : n ≠ 0) :
    Ideal.div (∑ r, ((y r : EReal) - Ideal.div (∑ r, (y r : EReal)) (n : EReal))
                  * ((y r : EReal) - Ideal.div (∑ r, (y r : EReal)) (n : EReal))) (n : EReal)
      = (((∑ r, (y r - (∑ r, y r) / n) * (y r - (∑ r, y r) / n)) / n : ℝ) : EReal) := by
  rw [mean_ereal y hn0]
  simp only [← EReal.coe_sub, ← EReal.coe_mul]
  rw [← coe_sum, div_coe_coe _ hn0]

theorem var_ker_ereal {ι : Type*} [Fintype ι] (y : ι → ℝ) {n : ℝ} (hn0 : n ≠ 0) :
    Ideal.div (∑ r, (y r : EReal) * (y r : EReal)) (n : EReal)
        - Ideal.div (∑ r, (y r : EReal)) (n : EReal) * Ideal.div (∑ r, (y r : EReal)) (n : EReal)
      = (((∑ r, y r * y r) / n - ((∑ r, y r) / n) * ((∑ r, y r) / n) : ℝ) : EReal) := by
  rw [mean_ereal y hn0]
  simp only [← EReal.coe_mul]
  rw [← coe_sum, div_coe_coe _ hn0, ← EReal.coe_sub]

/-- The same on coerced reals with Ideal's quotient: the left side is the mean of
    the squared deviations, the right side the mean of squares minus the squared mean. -/
theorem variance_identity_ereal {ι : Type*} [Fintype ι] (y : ι → ℝ) (n : ℝ)
    (hn : n = (Fintype.card ι : ℝ)) (hn0 : n ≠ 0) :
    Ideal.div (∑ r, ((y r : EReal) - Ideal.div (∑ r, (y r : EReal)) (n : EReal))
                  * ((y r : EReal) - Ideal.div (∑ r, (y r : EReal)) (n : EReal))) (n : EReal)
      = Ideal.div (∑ r, (y r : EReal) * (y r : EReal)) (n : EReal)
        - Ideal.div (∑ r, (y r : EReal)) (n : EReal) * Ideal.div (∑ r, (y r : EReal)) (n : EReal) := by
  rw [var_ref_ereal y hn0, var_ker_ereal y hn0, variance_identity y n hn hn0]

/-! ## 3. Non-negativity, and the reciprocal square root of a positive real -/

theorem variance_nonneg {ι : Type*} [Fintype ι] (y : ι → ℝ) (μ : ℝ) {n : ℝ} (hn : 0 < n) :
    0 ≤ (∑ r, (y r - μ) * (y r - μ)) / n := by
  exact div_nonneg (Finset.sum_nonneg fun r _ => mul_self_nonneg _) hn.le

theorem variance_add_pos {ι : Type*} [Fintype ι] (y : ι → ℝ) (μ : ℝ) {n e : ℝ} (hn : 0 < n) (he : 0 < e) :
    0 < (∑ r, (y r - μ) * (y r - μ)) / n + e := by
  exact add_pos_of_nonneg_of_pos (variance_nonneg y μ hn) he

/-- Ideal's reciprocal square root of a positive real is the coerced real 1/√r. -/
theorem rsqrt_coe_of_pos {r : ℝ} (h : 0 < r) :
    Ideal.rsqrt (r : EReal) = (((Real.sqrt r)⁻¹ : ℝ) : EReal) := by
  rw [Ideal.rsqrt_coe, if_neg (not_lt.mpr h.le), if_neg h.ne']

/-- rsqrt (var + eps) at coerced reals, var ≥ 0 and eps > 0: a coerced (positive) real. -/
theorem rsqrt_add_coe {v e : ℝ} (hv : 0 ≤ v) (he : 0 < e) :
    Ideal.rsqrt ((v : EReal) + (e : EReal)) = (((Real.sqrt (v + e))⁻¹ : ℝ) : EReal) := by
  rw [← EReal.coe_add, rsqrt_coe_of_pos (add_pos_of_nonneg_of_pos hv he)]

/-! ## 4. A contraction over a concatenated axis -/

/-- Over a concatenated index the sum splits into the two halves. -/
theorem sum_cat_split {α : Type*} [AddCommMonoid α] {m n : ℕ} (f : Fin (m + n) → α) :
    ∑ k : Fin (m + n), f k = ∑ k : Fin m, f (Fin.castAdd n k) + ∑ k : Fin n, f (Fin.natAdd m k) :=
  Fin.sum_univ_add f

/-- x_cat · W = x_a · W[:m] + x_b · W[m:], the concatenation given by its two restrictions. -/
theorem contraction_cat {α : Type*} [AddCommMonoid α] [Mul α] {m n : ℕ} (cat w : Fin (m + n) → α)
    (a : Fin m → α) (b : Fin n → α)
    (ha : ∀ k : Fin m, cat (Fin.castAdd n k) = a k) (hb : ∀ k : Fin n, cat (Fin.natAdd m k) = b k) :
    ∑ k : Fin (m + n), cat k * w k
      = ∑ k : Fin m, a k * w (Fin.castAdd n k) + ∑ k : Fin n, b k * w (Fin.natAdd m k) := by
  rw [Fin.sum_univ_add]
  simp only [ha, hb]

theorem contraction_append {α : Type*} [AddCommMonoid α] [Mul α] {m n : ℕ} (a : Fin m → α) (b : Fin n → α)
    (w : Fin (m + n) → α) :
    ∑ k : Fin (m + n), Fin.append a b k * w k
      = ∑ k : Fin m, a k * w (Fin.castAdd n k) + ∑ k : Fin n, b k * w (Fin.natAdd m k) :=
  contraction_cat _ w a b (fun k => Fin.append_left a b k) (fun k => Fin.append_right a b k)

/-- The instance 256 = 128 + 128 with the indices written by their values. -/
theorem contraction_cat_256 {α : Type*} [AddCommMonoid α] [Mul α] (cat w : Fin 256 → α) (a b : Fin 128 → α)
    (ha : ∀ k : Fin 128, cat ⟨k.val, by omega⟩ = a k) (hb : ∀ k : Fin 128, cat ⟨128 + k.val, by omega⟩ = b k) :
    ∑ k : Fin 256, cat k * w k
      = ∑ k : Fin 128, a k * w ⟨k.val, by omega⟩ + ∑ k : Fin 128, b k * w ⟨128 + k.val, by omega⟩ := by
  exact contraction_cat (m := 128) (n := 128) cat w a b ha hb

/-! ## 5. Re-indexing a sum over rows; a left fold as a sum -/

/-- A sum over Fin (m * n) as an iterated sum, row-major. -/
theorem sum_fin_mul {α : Type*} [AddCommMonoid α] (m n : ℕ) (f : Fin (m * n) → α) :
    ∑ r : Fin (m * n), f r
      = ∑ p : Fin m, ∑ q : Fin n, f ⟨p.val * n + q.val, by
          have := p.isLt; have := q.isLt
          calc p.val * n + q.val < p.val * n + n := by omega
            _ = (p.val + 1) * n := by ring
            _ ≤ m * n := Nat.mul_le_mul_right n (by omega)⟩ := by
  rw [← Equiv.sum_comp finProdFinEquiv f, Fintype.sum_prod_type]
  refine Finset.sum_congr rfl fun p _ => Finset.sum_congr rfl fun q _ => ?_
  congr 1
  apply Fin.ext
  simp only [finProdFinEquiv, Equiv.coe_fn_mk]
  ring

/-- 65536 rows as 16 blocks of 4096 rows (the second pass's grid). -/
theorem sum_rows_split16 {α : Type*} [AddCommMonoid α] (f : Fin 65536 → α) :
    ∑ r : Fin 65536, f r
      = ∑ p : Fin 16, ∑ q : Fin 4096, f ⟨p.val * 4096 + q.val, by have := p.isLt; have := q.isLt; omega⟩ := by
  exact sum_fin_mul 16 4096 f

/-- 65536 rows as 2 cores × 8 grid points × 4096 rows of a block. -/
theorem sum_rows_split {α : Type*} [AddCommMonoid α] (f : Fin 65536 → α) :
    ∑ r : Fin 65536, f r
      = ∑ c : Fin 2, ∑ i : Fin 8, ∑ q : Fin 4096,
          f ⟨(c.val * 8 + i.val) * 4096 + q.val, by have := c.isLt; have := i.isLt; have := q.isLt; omega⟩ := by
  rw [sum_rows_split16 f]
  exact sum_fin_mul 2 8 (fun p : Fin (2 * 8) => ∑ q : Fin 4096,
    f ⟨p.val * 4096 + q.val, by have := p.isLt; have := q.isLt; omega⟩)

/-- An accumulator that starts at zero and adds one term per step holds the partial sum. -/
theorem acc_eq_sum {α : Type*} [AddCommMonoid α] (s acc : ℕ → α) (h0 : acc 0 = 0)
    (hstep : ∀ k, acc (k + 1) = acc k + s k) (n : ℕ) : acc n = ∑ i : Fin n, s i.val := by
  induction n with
  | zero => simp [h0]
  | succ k ih => rw [hstep, ih, Fin.sum_univ_castSucc]; rfl

/-- The left fold of eight terms from zero is their sum. -/
theorem fold8_eq_sum {α : Type*} [AddCommMonoid α] (s : Fin 8 → α) :
    ((((((((0 + s 0) + s 1) + s 2) + s 3) + s 4) + s 5) + s 6) + s 7) = ∑ i : Fin 8, s i := by
  rw [Fin.sum_univ_eight, zero_add]

theorem sum_fin_two' {α : Type*} [AddCommMonoid α] (s : Fin 2 → α) : s 0 + s 1 = ∑ c : Fin 2, s c :=
  (Fin.sum_univ_two s).symm

/-! ## 6. The second pass's commutations (no finiteness needed) -/

theorem noise_comm (noise c : EReal) : noise * c = c * noise := mul_comm _ _

/-- γ·(y − μ)·s + β, in the two groupings of the product. -/
theorem affine_assoc (g y μ s b : EReal) : g * (y - μ) * s + b = g * ((y - μ) * s) + b := by
  rw [mul_assoc]

theorem affine_comm (g y μ s b : EReal) : (y - μ) * s * g + b = g * (y - μ) * s + b := by
  rw [mul_comm ((y - μ) * s) g, ← mul_assoc]

/-! ## 7. The normalisation over the reals, and its coerced forms step by step -/

section Spec
variable {ι : Type*} [Fintype ι]

/-- The batch mean of a real column. -/
noncomputable def mean (y : ι → ℝ) (n : ℝ) : ℝ := (∑ r, y r) / n

/-- The biased batch variance of a real column: the mean of the squared deviations. -/
noncomputable def var (y : ι → ℝ) (n : ℝ) : ℝ := (∑ r, (y r - mean y n) * (y r - mean y n)) / n

/-- The reciprocal standard deviation 1/√(var + e). -/
noncomputable def invstd (y : ι → ℝ) (n e : ℝ) : ℝ := (Real.sqrt (var y n + e))⁻¹

/-- The normalised, scaled and shifted value at a row. -/
noncomputable def bn (y : ι → ℝ) (n e g b : ℝ) (r : ι) : ℝ := g * (y r - mean y n) * invstd y n e + b

theorem var_nonneg (y : ι → ℝ) {n : ℝ} (hn : 0 < n) : 0 ≤ var y n := variance_nonneg y _ hn

/-- The variance as the mean of squares minus the squared mean. -/
theorem var_eq (y : ι → ℝ) (n : ℝ) (hn : n = (Fintype.card ι : ℝ)) (hn0 : n ≠ 0) :
    var y n = (∑ r, y r * y r) / n - mean y n * mean y n :=
  variance_identity y n hn hn0

theorem mean_coe (y : ι → ℝ) {n : ℝ} (hn0 : n ≠ 0) :
    Ideal.div (∑ r, (y r : EReal)) (n : EReal) = (mean y n : EReal) := mean_ereal y hn0

/-- With the host reduction's zero initial value in front of the sum. -/
theorem mean_coe' (y : ι → ℝ) {n : ℝ} (hn0 : n ≠ 0) :
    Ideal.div (0 + ∑ r, (y r : EReal)) (n : EReal) = (mean y n : EReal) := by
  rw [zero_add, mean_coe y hn0]

/-- The reference's variance: the sum of squared deviations from the (coerced) mean, divided. -/
theorem var_ref_coe (y : ι → ℝ) {n : ℝ} (hn0 : n ≠ 0) :
    Ideal.div (∑ r, ((y r : EReal) - (mean y n : EReal)) * ((y r : EReal) - (mean y n : EReal))) (n : EReal)
      = (var y n : EReal) := by
  simp only [← EReal.coe_sub, ← EReal.coe_mul]
  rw [← coe_sum, div_coe_coe _ hn0]
  rfl

theorem var_ref_coe' (y : ι → ℝ) {n : ℝ} (hn0 : n ≠ 0) :
    Ideal.div (0 + ∑ r, ((y r : EReal) - (mean y n : EReal)) * ((y r : EReal) - (mean y n : EReal))) (n : EReal)
      = (var y n : EReal) := by
  rw [zero_add, var_ref_coe y hn0]

/-- The kernel's variance: the mean of squares minus the squared (coerced) mean. -/
theorem var_ker_coe (y : ι → ℝ) {n : ℝ} (hn : n = (Fintype.card ι : ℝ)) (hn0 : n ≠ 0) :
    Ideal.div (∑ r, (y r : EReal) * (y r : EReal)) (n : EReal) - (mean y n : EReal) * (mean y n : EReal)
      = (var y n : EReal) := by
  simp only [← EReal.coe_mul]
  rw [← coe_sum, div_coe_coe _ hn0, ← EReal.coe_sub, var_eq y n hn hn0]

/-- The reciprocal square root of variance plus a positive constant is a coerced real. -/
theorem invstd_coe (y : ι → ℝ) {n e : ℝ} (hn : 0 < n) (he : 0 < e) :
    Ideal.rsqrt ((var y n : EReal) + (e : EReal)) = (invstd y n e : EReal) :=
  rsqrt_add_coe (var_nonneg y hn) he

/-- γ·(y − μ)·s + β on coerced reals. -/
theorem bn_coe (y : ι → ℝ) (n e g b : ℝ) (r : ι) :
    (g : EReal) * ((y r : EReal) - (mean y n : EReal)) * (invstd y n e : EReal) + (b : EReal)
      = (bn y n e g b r : EReal) := by
  rw [← EReal.coe_sub, ← EReal.coe_mul, ← EReal.coe_mul, ← EReal.coe_add]
  rfl

end Spec

/-- The divisor the reference's variance uses: 65536 minus the converted integer zero. -/
theorem ofBits_65536_sub_zero :
    Ideal.ofBits .f32 0x47800000#32 - (((0#32 : BitVec 32).toInt : ℝ) : EReal) = ((65536 : ℝ) : EReal) := by
  rw [ofBits_65536, ← EReal.coe_sub]
  norm_num

/-- 65536 is above the zero word: the reference's guard on the divisor holds. -/
theorem zero_lt_65536 : Ideal.ofBits .f32 0x00000000#32 < ((65536 : ℝ) : EReal) := by
  rw [Ideal.ofBits_zero_f32, ← EReal.coe_zero, EReal.coe_lt_coe_iff]
  norm_num

/-- The f32 word 0x3DCCCCCD (the nearest f32 to one tenth) is a real. -/
theorem ofBits_tenth_coe : ∃ c : ℝ, Ideal.ofBits .f32 0x3DCCCCCD#32 = (c : EReal) := by
  refine ⟨(13421773 : ℝ) * (2 : ℝ) ^ (-27 : Int), ?_⟩
  simp [Ideal.ofBits, Ideal.ieee, -EReal.coe_mul]

/-! ## 8. The two-layer perceptron at a row, over the reals -/

section Mlp
variable {κ η : Type*} [Fintype κ] [Fintype η]

/-- relu(x·W₁ + b₁)·w₂ + b₂ at one row and one output column. -/
noncomputable def mlp (x : κ → ℝ) (W1 : κ → η → ℝ) (b1 : η → ℝ) (w2 : η → ℝ) (b2 : ℝ) : ℝ :=
  (∑ h, max ((∑ k, x k * W1 k h) + b1 h) 0 * w2 h) + b2

theorem mlp_coe (x : κ → ℝ) (W1 : κ → η → ℝ) (b1 : η → ℝ) (w2 : η → ℝ) (b2 : ℝ) :
    (∑ h, max ((∑ k, (x k : EReal) * (W1 k h : EReal)) + (b1 h : EReal)) 0 * (w2 h : EReal)) + (b2 : EReal)
      = (mlp x W1 b1 w2 b2 : EReal) := by
  simp only [← coe_sum_mul, ← EReal.coe_add, ← coe_max_zero, ← EReal.coe_mul, ← coe_sum]
  rfl

/-- The same with the first contraction split over a concatenated input. -/
theorem mlp_split_coe {m n : ℕ} (xa : Fin m → ℝ) (xb : Fin n → ℝ) (W1 : Fin (m + n) → η → ℝ) (b1 : η → ℝ)
    (w2 : η → ℝ) (b2 : ℝ) :
    (∑ h, max (((∑ k : Fin m, (xa k : EReal) * (W1 (Fin.castAdd n k) h : EReal))
                + (∑ k : Fin n, (xb k : EReal) * (W1 (Fin.natAdd m k) h : EReal))) + (b1 h : EReal)) 0
              * (w2 h : EReal)) + (b2 : EReal)
      = (mlp (Fin.append xa xb) W1 b1 w2 b2 : EReal) := by
  rw [← mlp_coe]
  congr 1
  refine Finset.sum_congr rfl fun h _ => ?_
  rw [Fin.sum_univ_add]
  simp only [Fin.append_left, Fin.append_right]

end Mlp

end Cert.Hand.Algebra
-- ==== Proof.Hand.Spec.lean ====
/-
  The specification of one node of the network at the extended reals: the two-layer perceptron
  y = relu(x·W₁ + b₁)·W₂ + b₂ (whole, and with the first contraction split over a concatenated input),
  the batch normalisation read two ways (centred variance; mean of squares minus squared mean), their
  equality on real-valued data, the propagation of real-valuedness through a node, and the column sum
  over 65536 rows taken as two left folds of eight block sums.
-/
import proofs.«103476_j5987184410999_2_alg».proof.Proof.Hand.Algebra

namespace Cert.Hand.Spec

open Idealize.ShloMosaic Cert.Hand.Algebra
open scoped BigOperators

/-! ## 1. The perceptron -/

/-- y = relu(x·W₁ + b₁)·W₂ + b₂, index by index. -/
noncomputable def lin (x : Fin 65536 → Fin 256 → EReal) (W1 : Fin 256 → Fin 256 → EReal) (b1 : Fin 256 → EReal)
    (W2 : Fin 256 → Fin 128 → EReal) (b2 : Fin 128 → EReal) : Fin 65536 → Fin 128 → EReal :=
  fun r j => (∑ h, max ((∑ k, x r k * W1 k h) + b1 h) 0 * W2 h j) + b2 j

/-- The same with the input given as two halves and the first contraction split accordingly. -/
noncomputable def linSplit (xa xb : Fin 65536 → Fin 128 → EReal) (W1 : Fin 256 → Fin 256 → EReal) (b1 : Fin 256 → EReal)
    (W2 : Fin 256 → Fin 128 → EReal) (b2 : Fin 128 → EReal) : Fin 65536 → Fin 128 → EReal :=
  fun r j => (∑ h, max (((∑ k : Fin 128, xa r k * W1 ⟨k.val, by omega⟩ h)
                        + (∑ k : Fin 128, xb r k * W1 ⟨128 + k.val, by omega⟩ h)) + b1 h) 0 * W2 h j) + b2 j

/-- The concatenation of two 128-column arrays along the columns. -/
def cat (xa xb : Fin 65536 → Fin 128 → EReal) : Fin 65536 → Fin 256 → EReal :=
  fun r k => if h : k.val < 128 then xa r ⟨k.val, h⟩ else xb r ⟨k.val - 128, by omega⟩

theorem cat_left (xa xb : Fin 65536 → Fin 128 → EReal) (r : Fin 65536) (k : Fin 128) :
    cat xa xb r ⟨k.val, by omega⟩ = xa r k := by
  show (if h : k.val < 128 then xa r ⟨k.val, h⟩ else _) = _
  rw [dif_pos k.isLt]

theorem cat_right (xa xb : Fin 65536 → Fin 128 → EReal) (r : Fin 65536) (k : Fin 128) :
    cat xa xb r ⟨128 + k.val, by omega⟩ = xb r k := by
  have hk : ¬ (128 + k.val < 128) := by omega
  show (if h : 128 + k.val < 128 then _ else xb r ⟨128 + k.val - 128, _⟩) = _
  rw [dif_neg hk]
  congr 1
  exact Fin.ext (Nat.add_sub_cancel_left (n := 128) (m := k.val))

theorem linSplit_eq (xa xb : Fin 65536 → Fin 128 → EReal) (W1 : Fin 256 → Fin 256 → EReal) (b1 : Fin 256 → EReal)
    (W2 : Fin 256 → Fin 128 → EReal) (b2 : Fin 128 → EReal) :
    linSplit xa xb W1 b1 W2 b2 = lin (cat xa xb) W1 b1 W2 b2 := by
  funext r j
  unfold linSplit lin
  congr 1
  refine Finset.sum_congr rfl fun h _ => ?_
  have h256 : ∑ k : Fin 256, cat xa xb r k * W1 k h
      = (∑ k : Fin 128, xa r k * W1 ⟨k.val, by omega⟩ h) + (∑ k : Fin 128, xb r k * W1 ⟨128 + k.val, by omega⟩ h) :=
    contraction_cat_256 (cat xa xb r) (fun k => W1 k h) (xa r) (xb r) (cat_left xa xb r) (cat_right xa xb r)
  rw [h256]

/-! ## 2. The batch normalisation, read two ways -/

/-- The f32 word of 65536, the batch size. -/
noncomputable abbrev N : EReal := Ideal.ofBits .f32 0x47800000#32
/-- The f32 word of the variance offset. -/
noncomputable abbrev eps : EReal := Ideal.ofBits .f32 0x3727C5AC#32
/-- The f32 word of the noise scale. -/
noncomputable abbrev tenth : EReal := Ideal.ofBits .f32 0x3DCCCCCD#32

noncomputable def meanOf (y : Fin 65536 → Fin 128 → EReal) (j : Fin 128) : EReal := Ideal.div (∑ r, y r j) N

/-- Centred variance (the reference). -/
noncomputable def bnRef (y : Fin 65536 → Fin 128 → EReal) (g b : Fin 128 → EReal) : Fin 65536 → Fin 128 → EReal :=
  fun r j => g j * (y r j - meanOf y j)
      * Ideal.rsqrt (Ideal.div (∑ r', (y r' j - meanOf y j) * (y r' j - meanOf y j)) N + eps) + b j

/-- Mean of squares minus squared mean (the kernel). -/
noncomputable def bnKer (y : Fin 65536 → Fin 128 → EReal) (g b : Fin 128 → EReal) : Fin 65536 → Fin 128 → EReal :=
  fun r j => g j * (y r j - meanOf y j)
      * Ideal.rsqrt ((Ideal.div (∑ r', y r' j * y r' j) N - meanOf y j * meanOf y j) + eps) + b j

theorem N_eq : N = ((65536 : ℝ) : EReal) := ofBits_65536

theorem bn_eq (y : Fin 65536 → Fin 128 → EReal) (g b : Fin 128 → EReal) (hy : ∀ r j, ∃ v : ℝ, y r j = (v : EReal)) :
    bnKer y g b = bnRef y g b := by
  choose v hv using hy
  funext r j
  have hN : (65536 : ℝ) = (Fintype.card (Fin 65536) : ℝ) := by simp
  have key := variance_identity_ereal (fun r => v r j) 65536 hN (by norm_num)
  beta_reduce at key
  unfold bnKer bnRef meanOf
  simp only [hv, N_eq]
  rw [key]

/-! ## 3. Real-valuedness propagates -/

theorem lin_real (x : Fin 65536 → Fin 256 → EReal) (W1 : Fin 256 → Fin 256 → EReal) (b1 : Fin 256 → EReal)
    (W2 : Fin 256 → Fin 128 → EReal) (b2 : Fin 128 → EReal)
    (hx : ∀ r k, ∃ v : ℝ, x r k = (v : EReal)) (hW1 : ∀ k h, ∃ v : ℝ, W1 k h = (v : EReal))
    (hb1 : ∀ h, ∃ v : ℝ, b1 h = (v : EReal)) (hW2 : ∀ h j, ∃ v : ℝ, W2 h j = (v : EReal))
    (hb2 : ∀ j, ∃ v : ℝ, b2 j = (v : EReal)) :
    ∀ r j, ∃ v : ℝ, lin x W1 b1 W2 b2 r j = (v : EReal) := by
  choose xv hxv using hx
  choose W1v hW1v using hW1
  choose b1v hb1v using hb1
  choose W2v hW2v using hW2
  choose b2v hb2v using hb2
  intro r j
  refine ⟨mlp (xv r) W1v b1v (fun h => W2v h j) (b2v j), ?_⟩
  unfold lin
  simp only [hxv, hW1v, hb1v, hW2v, hb2v]
  exact mlp_coe (xv r) W1v b1v (fun h => W2v h j) (b2v j)

theorem cat_real (xa xb : Fin 65536 → Fin 128 → EReal) (ha : ∀ r k, ∃ v : ℝ, xa r k = (v : EReal))
    (hb : ∀ r k, ∃ v : ℝ, xb r k = (v : EReal)) : ∀ r k, ∃ v : ℝ, cat xa xb r k = (v : EReal) := by
  intro r k
  unfold cat
  split
  · exact ha _ _
  · exact hb _ _

theorem bnRef_real (y : Fin 65536 → Fin 128 → EReal) (g b : Fin 128 → EReal)
    (hy : ∀ r j, ∃ v : ℝ, y r j = (v : EReal)) (hg : ∀ j, ∃ v : ℝ, g j = (v : EReal))
    (hb : ∀ j, ∃ v : ℝ, b j = (v : EReal)) :
    ∀ r j, ∃ v : ℝ, bnRef y g b r j = (v : EReal) := by
  choose yv hyv using hy
  choose gv hgv using hg
  choose bv hbv using hb
  obtain ⟨e, he, hee⟩ := ofBits_eps_pos
  have hee' : eps = (e : EReal) := hee
  intro r j
  refine ⟨bn (fun r => yv r j) 65536 e (gv j) (bv j) r, ?_⟩
  have hm := mean_coe (fun r => yv r j) (n := 65536) (by norm_num)
  have hvr := var_ref_coe (fun r => yv r j) (n := 65536) (by norm_num)
  have hi := invstd_coe (fun r => yv r j) (n := 65536) (e := e) (by norm_num) he
  beta_reduce at hm hvr
  unfold bnRef meanOf
  simp only [hyv, hgv, hbv, N_eq]
  rw [hm, hvr, hee', hi]
  exact bn_coe (fun r => yv r j) 65536 e (gv j) (bv j) r

theorem bnKer_real (y : Fin 65536 → Fin 128 → EReal) (g b : Fin 128 → EReal)
    (hy : ∀ r j, ∃ v : ℝ, y r j = (v : EReal)) (hg : ∀ j, ∃ v : ℝ, g j = (v : EReal))
    (hb : ∀ j, ∃ v : ℝ, b j = (v : EReal)) :
    ∀ r j, ∃ v : ℝ, bnKer y g b r j = (v : EReal) := by
  rw [bn_eq y g b hy]; exact bnRef_real y g b hy hg hb

theorem tenth_real : ∃ c : ℝ, tenth = (c : EReal) := ofBits_tenth_coe

/-- Adding scaled noise keeps an array real-valued. -/
theorem add_noise_real (o n : Fin 65536 → Fin 128 → EReal) (ho : ∀ r j, ∃ v : ℝ, o r j = (v : EReal))
    (hn : ∀ r j, ∃ v : ℝ, n r j = (v : EReal)) :
    ∀ r j, ∃ v : ℝ, o r j + tenth * n r j = (v : EReal) := by
  choose ov hov using ho
  choose nv hnv using hn
  obtain ⟨c, hc⟩ := tenth_real
  intro r j
  exact ⟨ov r j + c * nv r j, by rw [hov, hnv, hc, ← EReal.coe_mul, ← EReal.coe_add]⟩

/-- The kernel multiplies the noise on the other side. -/
theorem noise_mul_comm (o n : Fin 65536 → Fin 128 → EReal) :
    (fun r j => o r j + n r j * tenth) = (fun r j => o r j + tenth * n r j) := by
  funext r j
  rw [mul_comm]

/-! ## 4. The column sum as the kernel takes it -/

/-- The left fold of eight terms from zero. -/
abbrev fold8 {α : Type*} [Zero α] [Add α] (s : Fin 8 → α) : α :=
  ((((((((0 + s 0) + s 1) + s 2) + s 3) + s 4) + s 5) + s 6) + s 7)

theorem fold8_two {α : Type*} [AddCommMonoid α] (s : Fin 2 → Fin 8 → α) :
    fold8 (s 0) + fold8 (s 1) = ∑ c, ∑ i, s c i := by
  rw [Fin.sum_univ_two]
  exact congrArg₂ (· + ·) (fold8_eq_sum (s 0)) (fold8_eq_sum (s 1))

/-- Two cores, eight blocks each, 4096 rows a block: the whole column. -/
theorem colsum_eq {α : Type*} [AddCommMonoid α] (f : Fin 65536 → α) (s : Fin 2 → Fin 8 → α)
    (hs : ∀ c i, s c i = ∑ q : Fin 4096,
      f ⟨(c.val * 8 + i.val) * 4096 + q.val, by have := c.isLt; have := i.isLt; have := q.isLt; omega⟩) :
    fold8 (s 0) + fold8 (s 1) = ∑ r : Fin 65536, f r := by
  rw [fold8_two, sum_rows_split f]
  exact Finset.sum_congr rfl fun c _ => Finset.sum_congr rfl fun i _ => hs c i

/-! ## 5. One node, kernel against reference -/

theorem node_single_eq (x : Fin 65536 → Fin 256 → EReal) (W1 : Fin 256 → Fin 256 → EReal) (b1 : Fin 256 → EReal)
    (W2 : Fin 256 → Fin 128 → EReal) (b2 g b : Fin 128 → EReal)
    (hx : ∀ r k, ∃ v : ℝ, x r k = (v : EReal)) (hW1 : ∀ k h, ∃ v : ℝ, W1 k h = (v : EReal))
    (hb1 : ∀ h, ∃ v : ℝ, b1 h = (v : EReal)) (hW2 : ∀ h j, ∃ v : ℝ, W2 h j = (v : EReal))
    (hb2 : ∀ j, ∃ v : ℝ, b2 j = (v : EReal)) :
    bnKer (lin x W1 b1 W2 b2) g b = bnRef (lin x W1 b1 W2 b2) g b :=
  bn_eq _ g b (lin_real x W1 b1 W2 b2 hx hW1 hb1 hW2 hb2)

theorem node_split_eq (xa xb : Fin 65536 → Fin 128 → EReal) (W1 : Fin 256 → Fin 256 → EReal) (b1 : Fin 256 → EReal)
    (W2 : Fin 256 → Fin 128 → EReal) (b2 g b : Fin 128 → EReal)
    (hxa : ∀ r k, ∃ v : ℝ, xa r k = (v : EReal)) (hxb : ∀ r k, ∃ v : ℝ, xb r k = (v : EReal))
    (hW1 : ∀ k h, ∃ v : ℝ, W1 k h = (v : EReal))
    (hb1 : ∀ h, ∃ v : ℝ, b1 h = (v : EReal)) (hW2 : ∀ h j, ∃ v : ℝ, W2 h j = (v : EReal))
    (hb2 : ∀ j, ∃ v : ℝ, b2 j = (v : EReal)) :
    bnKer (linSplit xa xb W1 b1 W2 b2) g b = bnRef (lin (cat xa xb) W1 b1 W2 b2) g b := by
  rw [linSplit_eq]
  exact node_single_eq _ W1 b1 W2 b2 g b (cat_real xa xb hxa hxb) hW1 hb1 hW2 hb2

end Cert.Hand.Spec
-- ==== Proof.Hand.Net.lean ====
/-
  The five-node network at the extended reals, composed from the node specification: two source nodes,
  three nodes fed by concatenated earlier outputs with scaled noise added; the kernel's reading
  (split contraction, mean of squares minus squared mean, noise times scale) equals the reference's
  (concatenation, centred variance, scale times noise) on real-valued inputs, and every output is real-valued.
-/
import proofs.«103476_j5987184410999_2_alg».proof.Proof.Hand.Spec

namespace Cert.Hand.Net

open Idealize.ShloMosaic Cert.Hand.Algebra Cert.Hand.Spec
open scoped BigOperators

/-- The network's arguments as plain indexed families. -/
structure Args where
  x1 : Fin 65536 → Fin 256 → EReal
  x2 : Fin 65536 → Fin 256 → EReal
  W1 : Fin 5 → Fin 256 → Fin 256 → EReal
  b1 : Fin 5 → Fin 256 → EReal
  W2 : Fin 5 → Fin 256 → Fin 128 → EReal
  b2 : Fin 5 → Fin 128 → EReal
  g : Fin 5 → Fin 128 → EReal
  be : Fin 5 → Fin 128 → EReal
  nz : Fin 3 → Fin 65536 → Fin 128 → EReal

/-- Every entry of every argument is a real. -/
structure Args.Real (a : Args) : Prop where
  x1 : ∀ r k, ∃ v : ℝ, a.x1 r k = (v : EReal)
  x2 : ∀ r k, ∃ v : ℝ, a.x2 r k = (v : EReal)
  W1 : ∀ i k h, ∃ v : ℝ, a.W1 i k h = (v : EReal)
  b1 : ∀ i h, ∃ v : ℝ, a.b1 i h = (v : EReal)
  W2 : ∀ i h j, ∃ v : ℝ, a.W2 i h j = (v : EReal)
  b2 : ∀ i j, ∃ v : ℝ, a.b2 i j = (v : EReal)
  g : ∀ i j, ∃ v : ℝ, a.g i j = (v : EReal)
  be : ∀ i j, ∃ v : ℝ, a.be i j = (v : EReal)
  nz : ∀ i r j, ∃ v : ℝ, a.nz i r j = (v : EReal)

/-! ## The reference's reading -/

noncomputable def r0 (a : Args) : Fin 65536 → Fin 128 → EReal :=
  bnRef (lin a.x1 (a.W1 0) (a.b1 0) (a.W2 0) (a.b2 0)) (a.g 0) (a.be 0)
noncomputable def r1 (a : Args) : Fin 65536 → Fin 128 → EReal :=
  bnRef (lin a.x2 (a.W1 1) (a.b1 1) (a.W2 1) (a.b2 1)) (a.g 1) (a.be 1)
noncomputable def r2 (a : Args) : Fin 65536 → Fin 128 → EReal :=
  fun r j => bnRef (lin (cat (r0 a) (r1 a)) (a.W1 2) (a.b1 2) (a.W2 2) (a.b2 2)) (a.g 2) (a.be 2) r j + tenth * a.nz 0 r j
noncomputable def r3 (a : Args) : Fin 65536 → Fin 128 → EReal :=
  fun r j => bnRef (lin (cat (r0 a) (r2 a)) (a.W1 3) (a.b1 3) (a.W2 3) (a.b2 3)) (a.g 3) (a.be 3) r j + tenth * a.nz 1 r j
noncomputable def r4 (a : Args) : Fin 65536 → Fin 128 → EReal :=
  fun r j => bnRef (lin (cat (r1 a) (r2 a)) (a.W1 4) (a.b1 4) (a.W2 4) (a.b2 4)) (a.g 4) (a.be 4) r j + tenth * a.nz 2 r j

/-! ## The kernel's reading -/

noncomputable def k0 (a : Args) : Fin 65536 → Fin 128 → EReal :=
  bnKer (lin a.x1 (a.W1 0) (a.b1 0) (a.W2 0) (a.b2 0)) (a.g 0) (a.be 0)
noncomputable def k1 (a : Args) : Fin 65536 → Fin 128 → EReal :=
  bnKer (lin a.x2 (a.W1 1) (a.b1 1) (a.W2 1) (a.b2 1)) (a.g 1) (a.be 1)
noncomputable def k2 (a : Args) : Fin 65536 → Fin 128 → EReal :=
  fun r j => bnKer (linSplit (k0 a) (k1 a) (a.W1 2) (a.b1 2) (a.W2 2) (a.b2 2)) (a.g 2) (a.be 2) r j + a.nz 0 r j * tenth
noncomputable def k3 (a : Args) : Fin 65536 → Fin 128 → EReal :=
  fun r j => bnKer (linSplit (k0 a) (k2 a) (a.W1 3) (a.b1 3) (a.W2 3) (a.b2 3)) (a.g 3) (a.be 3) r j + a.nz 1 r j * tenth
noncomputable def k4 (a : Args) : Fin 65536 → Fin 128 → EReal :=
  fun r j => bnKer (linSplit (k1 a) (k2 a) (a.W1 4) (a.b1 4) (a.W2 4) (a.b2 4)) (a.g 4) (a.be 4) r j + a.nz 2 r j * tenth

/-! ## Real-valuedness of the reference's outputs -/

theorem r0_real (a : Args) (h : a.Real) : ∀ r j, ∃ v : ℝ, r0 a r j = (v : EReal) :=
  bnRef_real _ _ _ (lin_real _ _ _ _ _ h.x1 (h.W1 0) (h.b1 0) (h.W2 0) (h.b2 0)) (h.g 0) (h.be 0)

theorem r1_real (a : Args) (h : a.Real) : ∀ r j, ∃ v : ℝ, r1 a r j = (v : EReal) :=
  bnRef_real _ _ _ (lin_real _ _ _ _ _ h.x2 (h.W1 1) (h.b1 1) (h.W2 1) (h.b2 1)) (h.g 1) (h.be 1)

/-- A concatenation node with noise, on real-valued inputs, is real-valued. -/
theorem split_real (a : Args) (h : a.Real) (i : Fin 5) (m : Fin 3) (xa xb : Fin 65536 → Fin 128 → EReal)
    (ha : ∀ r k, ∃ v : ℝ, xa r k = (v : EReal)) (hb : ∀ r k, ∃ v : ℝ, xb r k = (v : EReal)) :
    ∀ r j, ∃ v : ℝ,
      bnRef (lin (cat xa xb) (a.W1 i) (a.b1 i) (a.W2 i) (a.b2 i)) (a.g i) (a.be i) r j + tenth * a.nz m r j = (v : EReal) :=
  add_noise_real _ (a.nz m)
    (bnRef_real _ _ _ (lin_real _ _ _ _ _ (cat_real xa xb ha hb) (h.W1 i) (h.b1 i) (h.W2 i) (h.b2 i)) (h.g i) (h.be i))
    (h.nz m)

theorem r2_real (a : Args) (h : a.Real) : ∀ r j, ∃ v : ℝ, r2 a r j = (v : EReal) :=
  split_real a h 2 0 _ _ (r0_real a h) (r1_real a h)
theorem r3_real (a : Args) (h : a.Real) : ∀ r j, ∃ v : ℝ, r3 a r j = (v : EReal) :=
  split_real a h 3 1 _ _ (r0_real a h) (r2_real a h)
theorem r4_real (a : Args) (h : a.Real) : ∀ r j, ∃ v : ℝ, r4 a r j = (v : EReal) :=
  split_real a h 4 2 _ _ (r1_real a h) (r2_real a h)

/-! ## Kernel reading = reference reading -/

/-- A concatenation node with noise: split contraction, the other variance formula and the noise scaled from the
    right, against concatenation, centred variance and the noise scaled from the left. -/
theorem split_eq (a : Args) (h : a.Real) (i : Fin 5) (m : Fin 3) (xa xb : Fin 65536 → Fin 128 → EReal)
    (ha : ∀ r k, ∃ v : ℝ, xa r k = (v : EReal)) (hb : ∀ r k, ∃ v : ℝ, xb r k = (v : EReal)) :
    (fun r j => bnKer (linSplit xa xb (a.W1 i) (a.b1 i) (a.W2 i) (a.b2 i)) (a.g i) (a.be i) r j + a.nz m r j * tenth)
      = (fun r j => bnRef (lin (cat xa xb) (a.W1 i) (a.b1 i) (a.W2 i) (a.b2 i)) (a.g i) (a.be i) r j + tenth * a.nz m r j) := by
  rw [node_split_eq xa xb _ _ _ _ (a.g i) (a.be i) ha hb (h.W1 i) (h.b1 i) (h.W2 i) (h.b2 i)]
  exact noise_mul_comm _ (a.nz m)

theorem k0_eq (a : Args) (h : a.Real) : k0 a = r0 a :=
  node_single_eq _ _ _ _ _ _ _ h.x1 (h.W1 0) (h.b1 0) (h.W2 0) (h.b2 0)
theorem k1_eq (a : Args) (h : a.Real) : k1 a = r1 a :=
  node_single_eq _ _ _ _ _ _ _ h.x2 (h.W1 1) (h.b1 1) (h.W2 1) (h.b2 1)
theorem k2_eq (a : Args) (h : a.Real) : k2 a = r2 a := by
  unfold k2 r2
  rw [k0_eq a h, k1_eq a h]
  exact split_eq a h 2 0 _ _ (r0_real a h) (r1_real a h)
theorem k3_eq (a : Args) (h : a.Real) : k3 a = r3 a := by
  unfold k3 r3
  rw [k0_eq a h, k2_eq a h]
  exact split_eq a h 3 1 _ _ (r0_real a h) (r2_real a h)
theorem k4_eq (a : Args) (h : a.Real) : k4 a = r4 a := by
  unfold k4 r4
  rw [k1_eq a h, k2_eq a h]
  exact split_eq a h 4 2 _ _ (r1_real a h) (r2_real a h)

theorem k_eq_r (a : Args) (h : a.Real) : k0 a = r0 a ∧ k1 a = r1 a ∧ k2 a = r2 a ∧ k3 a = r3 a ∧ k4 a = r4 a :=
  ⟨k0_eq a h, k1_eq a h, k2_eq a h, k3_eq a h, k4_eq a h⟩

end Cert.Hand.Net
-- ==== Proof.Hand.Finite.lean ====
/-
  From the precondition to real-valued arguments. The printed predicate is a conjunction, one conjunct per argument
  array, of "every element's absolute value is below +∞"; at the extended reals an element whose absolute value
  max x (−x) is below ⊤ is neither ⊤ nor ⊥, so it is a real.
-/
import proofs.«103476_j5987184410999_2_alg».proof.Pre_finite_inputs
import proofs.«103476_j5987184410999_2_alg».proof.Proof.Gen.Pre_finite_inputs
import Idealize.ShloMosaic.Lib.ReduceAll
import Idealize.ShloMosaic.Lib.ValueIdx
import Idealize.ShloMosaic.PureOps.Ideal

namespace Cert.Pre_finite_inputs.Hand

open Cert.Pre_finite_inputs Idealize.ShloMosaic

/-- The scalar shape has one index. -/
instance : Subsingleton S_.Idx := ⟨fun _ _ => funext fun d => d.elim0⟩

/-- The f32 word 0x7F800000 is +∞. -/
theorem ofBits_inf : Ideal.ofBits .f32 0x7F800000#32 = ⊤ := by simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ v : ℝ, x = (v : EReal) := by
  rw [ofBits_inf] at h
  have hlt : max x (-x) < ⊤ := by
    by_contra hn
    have hd : decide (max x (-x) < ⊤) = false := decide_eq_false hn
    have : Ideal.cmp .olt (max x (-x)) ⊤ = BitVec.ofBool (decide (max x (-x) < ⊤)) := rfl
    rw [this, hd] at h
    exact absurd h (by decide)
  induction x using EReal.rec with
  | bot => simp at hlt
  | coe v => exact ⟨v, rfl⟩
  | top => simp at hlt

/-- One conjunct of the predicate: all elements of |x| < +∞, reduced by "and" to one word that is 1. -/
theorem all_real {t : Shape} {axes : List (Fin t.rank)} (hb : S_.BroadcastsInDim t (![] : Fin 0 → Fin t.rank))
    (hr : t.ReducesTo axes S_) (hu : 0 < S_.numel) (x : FVec Ideal t .f32)
    (h : Host.reduce IntOp.andi (cmpf .olt (Host.absf x) (broadcastInDim t ![] hb (constant S_ .f32 0x7F800000#32)))
        (constantI S_ 1 1#1) hr hu ValueIdx.ix0 = 1#1) :
    ∀ i, ∃ v : ℝ, x i = (v : EReal) := fun i =>
  real_of_abs_lt_inf (x i) (Host.reduce_andi_all _ _ hr hu ValueIdx.ix0 h i)

variable [Facts]

/-- Under the precondition every element of every argument is a real. -/
theorem real_of_pre (a0 a1 : FVec Ideal S65536x256 .f32) (a2 : FVec Ideal S5x256x256 .f32) (a3 : FVec Ideal S5x256 .f32)
    (a4 : FVec Ideal S5x256x128 .f32) (a5 a6 a7 : FVec Ideal S5x128 .f32) (a8 : FVec Ideal S3x65536x128 .f32)
    (h : fn (F := Ideal) a0 a1 a2 a3 a4 a5 a6 a7 a8 = fun _ => 1#1) :
    (∀ i, ∃ v : ℝ, a0 i = (v : EReal)) ∧ (∀ i, ∃ v : ℝ, a1 i = (v : EReal)) ∧ (∀ i, ∃ v : ℝ, a2 i = (v : EReal))
      ∧ (∀ i, ∃ v : ℝ, a3 i = (v : EReal)) ∧ (∀ i, ∃ v : ℝ, a4 i = (v : EReal)) ∧ (∀ i, ∃ v : ℝ, a5 i = (v : EReal))
      ∧ (∀ i, ∃ v : ℝ, a6 i = (v : EReal)) ∧ (∀ i, ∃ v : ℝ, a7 i = (v : EReal)) ∧ (∀ i, ∃ v : ℝ, a8 i = (v : EReal)) := by
  have h0 := congrFun h ValueIdx.ix0
  dsimp only [fn, fn_part1, fn_part2, andi] at h0
  simp only [IntOp.andi_eq_one] at h0
  obtain ⟨⟨⟨⟨⟨⟨⟨⟨e0, e1⟩, e2⟩, e3⟩, e4⟩, e5⟩, e6⟩, e7⟩, e8⟩ := h0
  exact ⟨all_real _ _ _ a0 e0, all_real _ _ _ a1 e1, all_real _ _ _ a2 e2, all_real _ _ _ a3 e3, all_real _ _ _ a4 e4,
    all_real _ _ _ a5 e5, all_real _ _ _ a6 e6, all_real _ _ _ a7 e7, all_real _ _ _ a8 e8⟩

end Cert.Pre_finite_inputs.Hand
-- ==== Proof.Hand.RefRun.lean ====
/- The reference program's @main as a list of its 356 host operations, window by window as it is printed, each
   call of a module-local function replaced by that function's operations over the call's record, and the run
   read back: every weakly fair execution terminates with every buffer at the fold of the operations' results
   over the launch contents; the arguments, which no operation writes, keep their launch contents. -/
import proofs.«103476_j5987184410999_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 83 operations of window `main_part0`, in order. -/
abbrev ops0 : List (HloOp τ sig (Elt F)) :=
  [ StableHlo.unary main_arg2 main_v0 ((extractStridedSlice S1x256x256 ![0, 0, 0] · slices_S5x256x256_S1x256x256_0_0_0) : (⟨S5x256x256, .f32⟩ : BufTy).Contents (Elt F) → (⟨S1x256x256, .f32⟩ : BufTy).Contents (Elt F)),
    StableHlo.reshape main_v0 main_v1 rfl shapeCasts_S1x256x256_S256x256,
    StableHlo.unary main_arg3 main_v2 ((extractStridedSlice S1x256 ![0, 0] · slices_S5x256_S1x256_0_0) : (⟨S5x256, .f32⟩ : BufTy).Contents (Elt F) → (⟨S1x256, .f32⟩ : BufTy).Contents (Elt F)),
    StableHlo.reshape main_v2 main_v3 rfl shapeCasts_S1x256_S256,
    StableHlo.unary main_arg4 main_v4 ((extractStridedSlice S1x256x128 ![0, 0, 0] · slices_S5x256x128_S1x256x128_0_0_0) : (⟨S5x256x128, .f32⟩ : BufTy).Contents (Elt F) → (⟨S1x256x128, .f32⟩ : BufTy).Contents (Elt F)),
    StableHlo.reshape main_v4 main_v5 rfl shapeCasts_S1x256x128_S256x128,
    StableHlo.unary main_arg5 main_v6 ((extractStridedSlice S1x128 ![0, 0] · slices_S5x128_S1x128_0_0) : (⟨S5x128, .f32⟩ : BufTy).Contents (Elt F) → (⟨S1x128, .f32⟩ : BufTy).Contents (Elt F)),
    StableHlo.reshape main_v6 main_v7 rfl shapeCasts_S1x128_S128,
    StableHlo.unary main_arg6 main_v8 ((extractStridedSlice S1x128 ![0, 0] · slices_S5x128_S1x128_0_0) : (⟨S5x128, .f32⟩ : BufTy).Contents (Elt F) → (⟨S1x128, .f32⟩ : BufTy).Contents (Elt F)),
    StableHlo.reshape main_v8 main_v9 rfl shapeCasts_S1x128_S128,
    StableHlo.unary main_arg7 main_v10 ((extractStridedSlice S1x128 ![0, 0] · slices_S5x128_S1x128_0_0) : (⟨S5x128, .f32⟩ : BufTy).Contents (Elt F) → (⟨S1x128, .f32⟩ : BufTy).Contents (Elt F)),
    StableHlo.reshape main_v10 main_v11 rfl shapeCasts_S1x128_S128,
    StableHlo.binary main_arg0 main_v1 main_v12 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_v3 main_v13 (broadcastInDim S1x256 ![1] bcast_S256_S1x256_1 : (⟨S256, .f32⟩ : BufTy).Contents (Elt F) → (⟨S1x256, .f32⟩ : BufTy).Contents (Elt F)),
    StableHlo.unary main_v13 main_v14 (broadcastInDim S65536x256 ![0, 1] bcast_S1x256_S65536x256_0_1 : (⟨S1x256, .f32⟩ : BufTy).Contents (Elt F) → (⟨S65536x256, .f32⟩ : BufTy).Contents (Elt F)),
    StableHlo.binary main_v12 main_v14 main_v15 (addf : (⟨S65536x256, .f32⟩ : BufTy).Contents (Elt F) → (⟨S65536x256, .f32⟩ : BufTy).Contents (Elt F) → (⟨S65536x256, .f32⟩ : BufTy).Contents (Elt F)),
    StableHlo.TRef.nullary main_call0.cst (constant S_ .f32 0x00000000#32),
    StableHlo.TRef.unary main_call0.cst main_call0.v0 (broadcastInDim S65536x256 ![] bcast_S_S65536x256),
    StableHlo.TRef.binary (.of main_v15 : StableHlo.TRef sig ⟨S65536x256, .f32⟩) main_call0.v0 main_call0.v1 maximumf,
    StableHlo.binary main_v16 main_v5 main_v17 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v7 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S65536x128 ![0, 1] bcast_S1x128_S65536x128_0_1 : (⟨S1x128, .f32⟩ : BufTy).Contents (Elt F) → (⟨S65536x128, .f32⟩ : BufTy).Contents (Elt F)),
    StableHlo.binary main_v17 main_v19 main_v20 (addf : (⟨S65536x128, .f32⟩ : BufTy).Contents (Elt F) → (⟨S65536x128, .f32⟩ : BufTy).Contents (Elt F) → (⟨S65536x128, .f32⟩ : BufTy).Contents (Elt F)),
    StableHlo.nullary main_cst (constant S_ .f32 0x00000000#32),
    StableHlo.binary main_v20 main_cst main_v21 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    StableHlo.nullary main_cst_0 (constant S_ .f32 0x47800000#32),
    StableHlo.unary main_cst_0 main_v22 (broadcastInDim S128 ![] bcast_S_S128 : (⟨S_, .f32⟩ : BufTy).Contents (Elt F) → (⟨S128, .f32⟩ : BufTy).Contents (Elt F)),
    StableHlo.binary main_v21 main_v22 main_v23 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call1.cst (constant S_ .f32 0x00000000#32),
    StableHlo.TRef.binary (.of main_v20 : StableHlo.TRef sig ⟨S65536x128, .f32⟩) main_call1.cst main_call1.v0 (fun x v => Host.reduceAdd x v reducesTo_S65536x128_S128_d0 h_S_),
    StableHlo.TRef.unary main_call1.v0 main_call1.v1 (broadcastInDim S1x128 ![1] bcast_S128_S1x128_1),
    StableHlo.TRef.nullary main_call1.cst_0 (constant S_ .f32 0x47800000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S65536x128 ![0, 1] bcast_S1x128_S65536x128_0_1),
    StableHlo.TRef.binary (.of main_v20 : StableHlo.TRef sig ⟨S65536x128, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x47800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S65536x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v23 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S65536x128 ![0, 1] bcast_S1x128_S65536x128_0_1 : (⟨S1x128, .f32⟩ : BufTy).Contents (Elt F) → (⟨S65536x128, .f32⟩ : BufTy).Contents (Elt F)),
    StableHlo.binary main_v20 main_v26 main_v27 (subf : (⟨S65536x128, .f32⟩ : BufTy).Contents (Elt F) → (⟨S65536x128, .f32⟩ : BufTy).Contents (Elt F) → (⟨S65536x128, .f32⟩ : BufTy).Contents (Elt F)),
    StableHlo.unary main_v9 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S65536x128 ![0, 1] bcast_S1x128_S65536x128_0_1 : (⟨S1x128, .f32⟩ : BufTy).Contents (Elt F) → (⟨S65536x128, .f32⟩ : BufTy).Contents (Elt F)),
    StableHlo.binary main_v29 main_v27 main_v30 (mulf : (⟨S65536x128, .f32⟩ : BufTy).Contents (Elt F) → (⟨S65536x128, .f32⟩ : BufTy).Contents (Elt F) → (⟨S65536x128, .f32⟩ : BufTy).Contents (Elt F)),
    StableHlo.nullary main_cst_1 (constant S_ .f32 0x3727C5AC#32),
    StableHlo.unary main_cst_1 main_v31 (broadcastInDim S128 ![] bcast_S_S128 : (⟨S_, .f32⟩ : BufTy).Contents (Elt F) → (⟨S128, .f32⟩ : BufTy).Contents (Elt F)),
    StableHlo.binary main_v24 main_v31 main_v32 (addf : (⟨S128, .f32⟩ : BufTy).Contents (Elt F) → (⟨S128, .f32⟩ : BufTy).Contents (Elt F) → (⟨S128, .f32⟩ : BufTy).Contents (Elt F)),
    StableHlo.unary main_v32 main_v33 (Host.rsqrt : (⟨S128, .f32⟩ : BufTy).Contents (Elt F) → (⟨S128, .f32⟩ : BufTy).Contents (Elt F)),
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S65536x128 ![0, 1] bcast_S1x128_S65536x128_0_1 : (⟨S1x128, .f32⟩ : BufTy).Contents (Elt F) → (⟨S65536x128, .f32⟩ : BufTy).Contents (Elt F)),
    StableHlo.binary main_v30 main_v35 main_v36 (mulf : (⟨S65536x128, .f32⟩ : BufTy).Contents (Elt F) → (⟨S65536x128, .f32⟩ : BufTy).Contents (Elt F) → (⟨S65536x128, .f32⟩ : BufTy).Contents (Elt F)),
    StableHlo.unary main_v11 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S65536x128 ![0, 1] bcast_S1x128_S65536x128_0_1 : (⟨S1x128, .f32⟩ : BufTy).Contents (Elt F) → (⟨S65536x128, .f32⟩ : BufTy).Contents (Elt F)),
    StableHlo.binary main_v36 main_v38 main_v39 (addf : (⟨S65536x128, .f32⟩ : BufTy).Contents (Elt F) → (⟨S65536x128, .f32⟩ : BufTy).Contents (Elt F) → (⟨S65536x128, .f32⟩ : BufTy).Contents (Elt F)),
    StableHlo.unary main_arg2 main_v40 ((extractStridedSlice S1x256x256 ![1, 0, 0] · slices_S5x256x256_S1x256x256_1_0_0) : (⟨S5x256x256, .f32⟩ : BufTy).Contents (Elt F) → (⟨S1x256x256, .f32⟩ : BufTy).Contents (Elt F)),
    StableHlo.reshape main_v40 main_v41 rfl shapeCasts_S1x256x256_S256x256,
    StableHlo.unary main_arg3 main_v42 ((extractStridedSlice S1x256 ![1, 0] · slices_S5x256_S1x256_1_0) : (⟨S5x256, .f32⟩ : BufTy).Contents (Elt F) → (⟨S1x256, .f32⟩ : BufTy).Contents (Elt F)),
    StableHlo.reshape main_v42 main_v43 rfl shapeCasts_S1x256_S256,
    StableHlo.unary main_arg4 main_v44 ((extractStridedSlice S1x256x128 ![1, 0, 0] · slices_S5x256x128_S1x256x128_1_0_0) : (⟨S5x256x128, .f32⟩ : BufTy).Contents (Elt F) → (⟨S1x256x128, .f32⟩ : BufTy).Contents (Elt F)),
    StableHlo.reshape main_v44 main_v45 rfl shapeCasts_S1x256x128_S256x128,
    StableHlo.unary main_arg5 main_v46 ((extractStridedSlice S1x128 ![1, 0] · slices_S5x128_S1x128_1_0) : (⟨S5x128, .f32⟩ : BufTy).Contents (Elt F) → (⟨S1x128, .f32⟩ : BufTy).Contents (Elt F)),
    StableHlo.reshape main_v46 main_v47 rfl shapeCasts_S1x128_S128,
    StableHlo.unary main_arg6 main_v48 ((extractStridedSlice S1x128 ![1, 0] · slices_S5x128_S1x128_1_0) : (⟨S5x128, .f32⟩ : BufTy).Contents (Elt F) → (⟨S1x128, .f32⟩ : BufTy).Contents (Elt F)),
    StableHlo.reshape main_v48 main_v49 rfl shapeCasts_S1x128_S128,
    StableHlo.unary main_arg7 main_v50 ((extractStridedSlice S1x128 ![1, 0] · slices_S5x128_S1x128_1_0) : (⟨S5x128, .f32⟩ : BufTy).Contents (Elt F) → (⟨S1x128, .f32⟩ : BufTy).Contents (Elt F)),
    StableHlo.reshape main_v50 main_v51 rfl shapeCasts_S1x128_S128,
    StableHlo.binary main_arg1 main_v41 main_v52 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_v43 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S65536x256 ![0, 1] bcast_S1x256_S65536x256_0_1 : (⟨S1x256, .f32⟩ : BufTy).Contents (Elt F) → (⟨S65536x256, .f32⟩ : BufTy).Contents (Elt F)),
    StableHlo.binary main_v52 main_v54 main_v55 (addf : (⟨S65536x256, .f32⟩ : BufTy).Contents (Elt F) → (⟨S65536x256, .f32⟩ : BufTy).Contents (Elt F) → (⟨S65536x256, .f32⟩ : BufTy).Contents (Elt F)) ]
/-- The buffers that window `main_part0`'s operations write. -/
abbrev ops0_W : List (Ref sig .tc) := [main_v0, main_v1, main_v2, main_v3, main_v4, main_v5, main_v6, main_v7, main_v8, main_v9, main_v10, main_v11, main_v12, main_v13, main_v14, main_v15, main_call0.cst.ref, main_call0.v0.ref, main_call0.v1.ref, main_v17, main_v18, main_v19, main_v20, main_cst, main_v21, main_cst_0, main_v22, main_v23, main_c, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v25, main_v26, main_v27, main_v28, main_v29, main_v30, main_cst_1, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55]

/-- The 106 operations of window `main_part1`, in order. -/
abbrev ops1 : List (HloOp τ sig (Elt F)) :=
  [ StableHlo.TRef.nullary main_call2.cst (constant S_ .f32 0x00000000#32),
    StableHlo.TRef.unary main_call2.cst main_call2.v0 (broadcastInDim S65536x256 ![] bcast_S_S65536x256),
    StableHlo.TRef.binary (.of main_v55 : StableHlo.TRef sig ⟨S65536x256, .f32⟩) main_call2.v0 main_call2.v1 maximumf,
    StableHlo.binary main_v56 main_v45 main_v57 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v47 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S65536x128 ![0, 1] bcast_S1x128_S65536x128_0_1 : (⟨S1x128, .f32⟩ : BufTy).Contents (Elt F) → (⟨S65536x128, .f32⟩ : BufTy).Contents (Elt F)),
    StableHlo.binary main_v57 main_v59 main_v60 (addf : (⟨S65536x128, .f32⟩ : BufTy).Contents (Elt F) → (⟨S65536x128, .f32⟩ : BufTy).Contents (Elt F) → (⟨S65536x128, .f32⟩ : BufTy).Contents (Elt F)),
    StableHlo.nullary main_cst_2 (constant S_ .f32 0x00000000#32),
    StableHlo.binary main_v60 main_cst_2 main_v61 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    StableHlo.nullary main_cst_3 (constant S_ .f32 0x47800000#32),
    StableHlo.unary main_cst_3 main_v62 (broadcastInDim S128 ![] bcast_S_S128 : (⟨S_, .f32⟩ : BufTy).Contents (Elt F) → (⟨S128, .f32⟩ : BufTy).Contents (Elt F)),
    StableHlo.binary main_v61 main_v62 main_v63 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call3.cst (constant S_ .f32 0x00000000#32),
    StableHlo.TRef.binary (.of main_v60 : StableHlo.TRef sig ⟨S65536x128, .f32⟩) main_call3.cst main_call3.v0 (fun x v => Host.reduceAdd x v reducesTo_S65536x128_S128_d0 h_S_),
    StableHlo.TRef.unary main_call3.v0 main_call3.v1 (broadcastInDim S1x128 ![1] bcast_S128_S1x128_1),
    StableHlo.TRef.nullary main_call3.cst_0 (constant S_ .f32 0x47800000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S65536x128 ![0, 1] bcast_S1x128_S65536x128_0_1),
    StableHlo.TRef.binary (.of main_v60 : StableHlo.TRef sig ⟨S65536x128, .f32⟩) main_call3.v4 main_call3.v5 subf,
    StableHlo.TRef.binary main_call3.v5 main_call3.v5 main_call3.v6 mulf,
    StableHlo.TRef.unary (.of main_c_4 : StableHlo.TRef sig ⟨S_, .i32⟩) main_call3.v7 (sitofp .f32),
    StableHlo.TRef.nullary main_call3.cst_1 (constant S_ .f32 0x47800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S65536x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v63 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S65536x128 ![0, 1] bcast_S1x128_S65536x128_0_1 : (⟨S1x128, .f32⟩ : BufTy).Contents (Elt F) → (⟨S65536x128, .f32⟩ : BufTy).Contents (Elt F)),
    StableHlo.binary main_v60 main_v66 main_v67 (subf : (⟨S65536x128, .f32⟩ : BufTy).Contents (Elt F) → (⟨S65536x128, .f32⟩ : BufTy).Contents (Elt F) → (⟨S65536x128, .f32⟩ : BufTy).Contents (Elt F)),
    StableHlo.unary main_v49 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S65536x128 ![0, 1] bcast_S1x128_S65536x128_0_1 : (⟨S1x128, .f32⟩ : BufTy).Contents (Elt F) → (⟨S65536x128, .f32⟩ : BufTy).Contents (Elt F)),
    StableHlo.binary main_v69 main_v67 main_v70 (mulf : (⟨S65536x128, .f32⟩ : BufTy).Contents (Elt F) → (⟨S65536x128, .f32⟩ : BufTy).Contents (Elt F) → (⟨S65536x128, .f32⟩ : BufTy).Contents (Elt F)),
    StableHlo.nullary main_cst_5 (constant S_ .f32 0x3727C5AC#32),
    StableHlo.unary main_cst_5 main_v71 (broadcastInDim S128 ![] bcast_S_S128 : (⟨S_, .f32⟩ : BufTy).Contents (Elt F) → (⟨S128, .f32⟩ : BufTy).Contents (Elt F)),
    StableHlo.binary main_v64 main_v71 main_v72 (addf : (⟨S128, .f32⟩ : BufTy).Contents (Elt F) → (⟨S128, .f32⟩ : BufTy).Contents (Elt F) → (⟨S128, .f32⟩ : BufTy).Contents (Elt F)),
    StableHlo.unary main_v72 main_v73 (Host.rsqrt : (⟨S128, .f32⟩ : BufTy).Contents (Elt F) → (⟨S128, .f32⟩ : BufTy).Contents (Elt F)),
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S65536x128 ![0, 1] bcast_S1x128_S65536x128_0_1 : (⟨S1x128, .f32⟩ : BufTy).Contents (Elt F) → (⟨S65536x128, .f32⟩ : BufTy).Contents (Elt F)),
    StableHlo.binary main_v70 main_v75 main_v76 (mulf : (⟨S65536x128, .f32⟩ : BufTy).Contents (Elt F) → (⟨S65536x128, .f32⟩ : BufTy).Contents (Elt F) → (⟨S65536x128, .f32⟩ : BufTy).Contents (Elt F)),
    StableHlo.unary main_v51 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S65536x128 ![0, 1] bcast_S1x128_S65536x128_0_1 : (⟨S1x128, .f32⟩ : BufTy).Contents (Elt F) → (⟨S65536x128, .f32⟩ : BufTy).Contents (Elt F)),
    StableHlo.binary main_v76 main_v78 main_v79 (addf : (⟨S65536x128, .f32⟩ : BufTy).Contents (Elt F) → (⟨S65536x128, .f32⟩ : BufTy).Contents (Elt F) → (⟨S65536x128, .f32⟩ : BufTy).Contents (Elt F)),
    StableHlo.binary main_v39 main_v79 main_v80 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.unary main_arg2 main_v81 ((extractStridedSlice S1x256x256 ![2, 0, 0] · slices_S5x256x256_S1x256x256_2_0_0) : (⟨S5x256x256, .f32⟩ : BufTy).Contents (Elt F) → (⟨S1x256x256, .f32⟩ : BufTy).Contents (Elt F)),
    StableHlo.reshape main_v81 main_v82 rfl shapeCasts_S1x256x256_S256x256,
    StableHlo.unary main_arg3 main_v83 ((extractStridedSlice S1x256 ![2, 0] · slices_S5x256_S1x256_2_0) : (⟨S5x256, .f32⟩ : BufTy).Contents (Elt F) → (⟨S1x256, .f32⟩ : BufTy).Contents (Elt F)),
    StableHlo.reshape main_v83 main_v84 rfl shapeCasts_S1x256_S256,
    StableHlo.unary main_arg4 main_v85 ((extractStridedSlice S1x256x128 ![2, 0, 0] · slices_S5x256x128_S1x256x128_2_0_0) : (⟨S5x256x128, .f32⟩ : BufTy).Contents (Elt F) → (⟨S1x256x128, .f32⟩ : BufTy).Contents (Elt F)),
    StableHlo.reshape main_v85 main_v86 rfl shapeCasts_S1x256x128_S256x128,
    StableHlo.unary main_arg5 main_v87 ((extractStridedSlice S1x128 ![2, 0] · slices_S5x128_S1x128_2_0) : (⟨S5x128, .f32⟩ : BufTy).Contents (Elt F) → (⟨S1x128, .f32⟩ : BufTy).Contents (Elt F)),
    StableHlo.reshape main_v87 main_v88 rfl shapeCasts_S1x128_S128,
    StableHlo.unary main_arg6 main_v89 ((extractStridedSlice S1x128 ![2, 0] · slices_S5x128_S1x128_2_0) : (⟨S5x128, .f32⟩ : BufTy).Contents (Elt F) → (⟨S1x128, .f32⟩ : BufTy).Contents (Elt F)),
    StableHlo.reshape main_v89 main_v90 rfl shapeCasts_S1x128_S128,
    StableHlo.unary main_arg7 main_v91 ((extractStridedSlice S1x128 ![2, 0] · slices_S5x128_S1x128_2_0) : (⟨S5x128, .f32⟩ : BufTy).Contents (Elt F) → (⟨S1x128, .f32⟩ : BufTy).Contents (Elt F)),
    StableHlo.reshape main_v91 main_v92 rfl shapeCasts_S1x128_S128,
    StableHlo.binary main_v80 main_v82 main_v93 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_v84 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S65536x256 ![0, 1] bcast_S1x256_S65536x256_0_1 : (⟨S1x256, .f32⟩ : BufTy).Contents (Elt F) → (⟨S65536x256, .f32⟩ : BufTy).Contents (Elt F)),
    StableHlo.binary main_v93 main_v95 main_v96 (addf : (⟨S65536x256, .f32⟩ : BufTy).Contents (Elt F) → (⟨S65536x256, .f32⟩ : BufTy).Contents (Elt F) → (⟨S65536x256, .f32⟩ : BufTy).Contents (Elt F)),
    StableHlo.TRef.nullary main_call4.cst (constant S_ .f32 0x00000000#32),
    StableHlo.TRef.unary main_call4.cst main_call4.v0 (broadcastInDim S65536x256 ![] bcast_S_S65536x256),
    StableHlo.TRef.binary (.of main_v96 : StableHlo.TRef sig ⟨S65536x256, .f32⟩) main_call4.v0 main_call4.v1 maximumf,
    StableHlo.binary main_v97 main_v86 main_v98 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v88 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S65536x128 ![0, 1] bcast_S1x128_S65536x128_0_1 : (⟨S1x128, .f32⟩ : BufTy).Contents (Elt F) → (⟨S65536x128, .f32⟩ : BufTy).Contents (Elt F)),
    StableHlo.binary main_v98 main_v100 main_v101 (addf : (⟨S65536x128, .f32⟩ : BufTy).Contents (Elt F) → (⟨S65536x128, .f32⟩ : BufTy).Contents (Elt F) → (⟨S65536x128, .f32⟩ : BufTy).Contents (Elt F)),
    StableHlo.nullary main_cst_6 (constant S_ .f32 0x00000000#32),
    StableHlo.binary main_v101 main_cst_6 main_v102 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    StableHlo.nullary main_cst_7 (constant S_ .f32 0x47800000#32),
    StableHlo.unary main_cst_7 main_v103 (broadcastInDim S128 ![] bcast_S_S128 : (⟨S_, .f32⟩ : BufTy).Contents (Elt F) → (⟨S128, .f32⟩ : BufTy).Contents (Elt F)),
    StableHlo.binary main_v102 main_v103 main_v104 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call5.cst (constant S_ .f32 0x00000000#32),
    StableHlo.TRef.binary (.of main_v101 : StableHlo.TRef sig ⟨S65536x128, .f32⟩) main_call5.cst main_call5.v0 (fun x v => Host.reduceAdd x v reducesTo_S65536x128_S128_d0 h_S_),
    StableHlo.TRef.unary main_call5.v0 main_call5.v1 (broadcastInDim S1x128 ![1] bcast_S128_S1x128_1),
    StableHlo.TRef.nullary main_call5.cst_0 (constant S_ .f32 0x47800000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S65536x128 ![0, 1] bcast_S1x128_S65536x128_0_1),
    StableHlo.TRef.binary (.of main_v101 : StableHlo.TRef sig ⟨S65536x128, .f32⟩) main_call5.v4 main_call5.v5 subf,
    StableHlo.TRef.binary main_call5.v5 main_call5.v5 main_call5.v6 mulf,
    StableHlo.TRef.unary (.of main_c_8 : StableHlo.TRef sig ⟨S_, .i32⟩) main_call5.v7 (sitofp .f32),
    StableHlo.TRef.nullary main_call5.cst_1 (constant S_ .f32 0x47800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S65536x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v104 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S65536x128 ![0, 1] bcast_S1x128_S65536x128_0_1 : (⟨S1x128, .f32⟩ : BufTy).Contents (Elt F) → (⟨S65536x128, .f32⟩ : BufTy).Contents (Elt F)),
    StableHlo.binary main_v101 main_v107 main_v108 (subf : (⟨S65536x128, .f32⟩ : BufTy).Contents (Elt F) → (⟨S65536x128, .f32⟩ : BufTy).Contents (Elt F) → (⟨S65536x128, .f32⟩ : BufTy).Contents (Elt F)) ]
/-- The buffers that window `main_part1`'s operations write. -/
abbrev ops1_W : List (Ref sig .tc) := [main_call2.cst.ref, main_call2.v0.ref, main_call2.v1.ref, main_v57, main_v58, main_v59, main_v60, main_cst_2, main_v61, main_cst_3, main_v62, main_v63, main_c_4, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v65, main_v66, main_v67, main_v68, main_v69, main_v70, main_cst_5, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_call4.cst.ref, main_call4.v0.ref, main_call4.v1.ref, main_v98, main_v99, main_v100, main_v101, main_cst_6, main_v102, main_cst_7, main_v103, main_v104, main_c_8, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v106, main_v107, main_v108]

/-- The 83 operations of window `main_part2`, in order. -/
abbrev ops2 : List (HloOp τ sig (Elt F)) :=
  [ StableHlo.unary main_v90 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S65536x128 ![0, 1] bcast_S1x128_S65536x128_0_1 : (⟨S1x128, .f32⟩ : BufTy).Contents (Elt F) → (⟨S65536x128, .f32⟩ : BufTy).Contents (Elt F)),
    StableHlo.binary main_v110 main_v108 main_v111 (mulf : (⟨S65536x128, .f32⟩ : BufTy).Contents (Elt F) → (⟨S65536x128, .f32⟩ : BufTy).Contents (Elt F) → (⟨S65536x128, .f32⟩ : BufTy).Contents (Elt F)),
    StableHlo.nullary main_cst_9 (constant S_ .f32 0x3727C5AC#32),
    StableHlo.unary main_cst_9 main_v112 (broadcastInDim S128 ![] bcast_S_S128 : (⟨S_, .f32⟩ : BufTy).Contents (Elt F) → (⟨S128, .f32⟩ : BufTy).Contents (Elt F)),
    StableHlo.binary main_v105 main_v112 main_v113 (addf : (⟨S128, .f32⟩ : BufTy).Contents (Elt F) → (⟨S128, .f32⟩ : BufTy).Contents (Elt F) → (⟨S128, .f32⟩ : BufTy).Contents (Elt F)),
    StableHlo.unary main_v113 main_v114 (Host.rsqrt : (⟨S128, .f32⟩ : BufTy).Contents (Elt F) → (⟨S128, .f32⟩ : BufTy).Contents (Elt F)),
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S65536x128 ![0, 1] bcast_S1x128_S65536x128_0_1 : (⟨S1x128, .f32⟩ : BufTy).Contents (Elt F) → (⟨S65536x128, .f32⟩ : BufTy).Contents (Elt F)),
    StableHlo.binary main_v111 main_v116 main_v117 (mulf : (⟨S65536x128, .f32⟩ : BufTy).Contents (Elt F) → (⟨S65536x128, .f32⟩ : BufTy).Contents (Elt F) → (⟨S65536x128, .f32⟩ : BufTy).Contents (Elt F)),
    StableHlo.unary main_v92 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S65536x128 ![0, 1] bcast_S1x128_S65536x128_0_1 : (⟨S1x128, .f32⟩ : BufTy).Contents (Elt F) → (⟨S65536x128, .f32⟩ : BufTy).Contents (Elt F)),
    StableHlo.binary main_v117 main_v119 main_v120 (addf : (⟨S65536x128, .f32⟩ : BufTy).Contents (Elt F) → (⟨S65536x128, .f32⟩ : BufTy).Contents (Elt F) → (⟨S65536x128, .f32⟩ : BufTy).Contents (Elt F)),
    StableHlo.unary main_arg8 main_v121 ((extractStridedSlice S1x65536x128 ![0, 0, 0] · slices_S3x65536x128_S1x65536x128_0_0_0) : (⟨S3x65536x128, .f32⟩ : BufTy).Contents (Elt F) → (⟨S1x65536x128, .f32⟩ : BufTy).Contents (Elt F)),
    StableHlo.reshape main_v121 main_v122 rfl shapeCasts_S1x65536x128_S65536x128,
    StableHlo.nullary main_cst_10 (constant S_ .f32 0x3DCCCCCD#32),
    StableHlo.unary main_cst_10 main_v123 (broadcastInDim S65536x128 ![] bcast_S_S65536x128 : (⟨S_, .f32⟩ : BufTy).Contents (Elt F) → (⟨S65536x128, .f32⟩ : BufTy).Contents (Elt F)),
    StableHlo.binary main_v123 main_v122 main_v124 (mulf : (⟨S65536x128, .f32⟩ : BufTy).Contents (Elt F) → (⟨S65536x128, .f32⟩ : BufTy).Contents (Elt F) → (⟨S65536x128, .f32⟩ : BufTy).Contents (Elt F)),
    StableHlo.binary main_v120 main_v124 main_v125 (addf : (⟨S65536x128, .f32⟩ : BufTy).Contents (Elt F) → (⟨S65536x128, .f32⟩ : BufTy).Contents (Elt F) → (⟨S65536x128, .f32⟩ : BufTy).Contents (Elt F)),
    StableHlo.binary main_v39 main_v125 main_v126 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.unary main_arg2 main_v127 ((extractStridedSlice S1x256x256 ![3, 0, 0] · slices_S5x256x256_S1x256x256_3_0_0) : (⟨S5x256x256, .f32⟩ : BufTy).Contents (Elt F) → (⟨S1x256x256, .f32⟩ : BufTy).Contents (Elt F)),
    StableHlo.reshape main_v127 main_v128 rfl shapeCasts_S1x256x256_S256x256,
    StableHlo.unary main_arg3 main_v129 ((extractStridedSlice S1x256 ![3, 0] · slices_S5x256_S1x256_3_0) : (⟨S5x256, .f32⟩ : BufTy).Contents (Elt F) → (⟨S1x256, .f32⟩ : BufTy).Contents (Elt F)),
    StableHlo.reshape main_v129 main_v130 rfl shapeCasts_S1x256_S256,
    StableHlo.unary main_arg4 main_v131 ((extractStridedSlice S1x256x128 ![3, 0, 0] · slices_S5x256x128_S1x256x128_3_0_0) : (⟨S5x256x128, .f32⟩ : BufTy).Contents (Elt F) → (⟨S1x256x128, .f32⟩ : BufTy).Contents (Elt F)),
    StableHlo.reshape main_v131 main_v132 rfl shapeCasts_S1x256x128_S256x128,
    StableHlo.unary main_arg5 main_v133 ((extractStridedSlice S1x128 ![3, 0] · slices_S5x128_S1x128_3_0) : (⟨S5x128, .f32⟩ : BufTy).Contents (Elt F) → (⟨S1x128, .f32⟩ : BufTy).Contents (Elt F)),
    StableHlo.reshape main_v133 main_v134 rfl shapeCasts_S1x128_S128,
    StableHlo.unary main_arg6 main_v135 ((extractStridedSlice S1x128 ![3, 0] · slices_S5x128_S1x128_3_0) : (⟨S5x128, .f32⟩ : BufTy).Contents (Elt F) → (⟨S1x128, .f32⟩ : BufTy).Contents (Elt F)),
    StableHlo.reshape main_v135 main_v136 rfl shapeCasts_S1x128_S128,
    StableHlo.unary main_arg7 main_v137 ((extractStridedSlice S1x128 ![3, 0] · slices_S5x128_S1x128_3_0) : (⟨S5x128, .f32⟩ : BufTy).Contents (Elt F) → (⟨S1x128, .f32⟩ : BufTy).Contents (Elt F)),
    StableHlo.reshape main_v137 main_v138 rfl shapeCasts_S1x128_S128,
    StableHlo.binary main_v126 main_v128 main_v139 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_v130 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S65536x256 ![0, 1] bcast_S1x256_S65536x256_0_1 : (⟨S1x256, .f32⟩ : BufTy).Contents (Elt F) → (⟨S65536x256, .f32⟩ : BufTy).Contents (Elt F)),
    StableHlo.binary main_v139 main_v141 main_v142 (addf : (⟨S65536x256, .f32⟩ : BufTy).Contents (Elt F) → (⟨S65536x256, .f32⟩ : BufTy).Contents (Elt F) → (⟨S65536x256, .f32⟩ : BufTy).Contents (Elt F)),
    StableHlo.TRef.nullary main_call6.cst (constant S_ .f32 0x00000000#32),
    StableHlo.TRef.unary main_call6.cst main_call6.v0 (broadcastInDim S65536x256 ![] bcast_S_S65536x256),
    StableHlo.TRef.binary (.of main_v142 : StableHlo.TRef sig ⟨S65536x256, .f32⟩) main_call6.v0 main_call6.v1 maximumf,
    StableHlo.binary main_v143 main_v132 main_v144 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v134 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S65536x128 ![0, 1] bcast_S1x128_S65536x128_0_1 : (⟨S1x128, .f32⟩ : BufTy).Contents (Elt F) → (⟨S65536x128, .f32⟩ : BufTy).Contents (Elt F)),
    StableHlo.binary main_v144 main_v146 main_v147 (addf : (⟨S65536x128, .f32⟩ : BufTy).Contents (Elt F) → (⟨S65536x128, .f32⟩ : BufTy).Contents (Elt F) → (⟨S65536x128, .f32⟩ : BufTy).Contents (Elt F)),
    StableHlo.nullary main_cst_11 (constant S_ .f32 0x00000000#32),
    StableHlo.binary main_v147 main_cst_11 main_v148 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    StableHlo.nullary main_cst_12 (constant S_ .f32 0x47800000#32),
    StableHlo.unary main_cst_12 main_v149 (broadcastInDim S128 ![] bcast_S_S128 : (⟨S_, .f32⟩ : BufTy).Contents (Elt F) → (⟨S128, .f32⟩ : BufTy).Contents (Elt F)),
    StableHlo.binary main_v148 main_v149 main_v150 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call7.cst (constant S_ .f32 0x00000000#32),
    StableHlo.TRef.binary (.of main_v147 : StableHlo.TRef sig ⟨S65536x128, .f32⟩) main_call7.cst main_call7.v0 (fun x v => Host.reduceAdd x v reducesTo_S65536x128_S128_d0 h_S_),
    StableHlo.TRef.unary main_call7.v0 main_call7.v1 (broadcastInDim S1x128 ![1] bcast_S128_S1x128_1),
    StableHlo.TRef.nullary main_call7.cst_0 (constant S_ .f32 0x47800000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S65536x128 ![0, 1] bcast_S1x128_S65536x128_0_1),
    StableHlo.TRef.binary (.of main_v147 : StableHlo.TRef sig ⟨S65536x128, .f32⟩) main_call7.v4 main_call7.v5 subf,
    StableHlo.TRef.binary main_call7.v5 main_call7.v5 main_call7.v6 mulf,
    StableHlo.TRef.unary (.of main_c_13 : StableHlo.TRef sig ⟨S_, .i32⟩) main_call7.v7 (sitofp .f32),
    StableHlo.TRef.nullary main_call7.cst_1 (constant S_ .f32 0x47800000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S65536x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b),
    StableHlo.unary main_v150 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S65536x128 ![0, 1] bcast_S1x128_S65536x128_0_1 : (⟨S1x128, .f32⟩ : BufTy).Contents (Elt F) → (⟨S65536x128, .f32⟩ : BufTy).Contents (Elt F)),
    StableHlo.binary main_v147 main_v153 main_v154 (subf : (⟨S65536x128, .f32⟩ : BufTy).Contents (Elt F) → (⟨S65536x128, .f32⟩ : BufTy).Contents (Elt F) → (⟨S65536x128, .f32⟩ : BufTy).Contents (Elt F)),
    StableHlo.unary main_v136 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S65536x128 ![0, 1] bcast_S1x128_S65536x128_0_1 : (⟨S1x128, .f32⟩ : BufTy).Contents (Elt F) → (⟨S65536x128, .f32⟩ : BufTy).Contents (Elt F)),
    StableHlo.binary main_v156 main_v154 main_v157 (mulf : (⟨S65536x128, .f32⟩ : BufTy).Contents (Elt F) → (⟨S65536x128, .f32⟩ : BufTy).Contents (Elt F) → (⟨S65536x128, .f32⟩ : BufTy).Contents (Elt F)),
    StableHlo.nullary main_cst_14 (constant S_ .f32 0x3727C5AC#32),
    StableHlo.unary main_cst_14 main_v158 (broadcastInDim S128 ![] bcast_S_S128 : (⟨S_, .f32⟩ : BufTy).Contents (Elt F) → (⟨S128, .f32⟩ : BufTy).Contents (Elt F)),
    StableHlo.binary main_v151 main_v158 main_v159 (addf : (⟨S128, .f32⟩ : BufTy).Contents (Elt F) → (⟨S128, .f32⟩ : BufTy).Contents (Elt F) → (⟨S128, .f32⟩ : BufTy).Contents (Elt F)),
    StableHlo.unary main_v159 main_v160 (Host.rsqrt : (⟨S128, .f32⟩ : BufTy).Contents (Elt F) → (⟨S128, .f32⟩ : BufTy).Contents (Elt F)),
    StableHlo.unary main_v160 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S65536x128 ![0, 1] bcast_S1x128_S65536x128_0_1 : (⟨S1x128, .f32⟩ : BufTy).Contents (Elt F) → (⟨S65536x128, .f32⟩ : BufTy).Contents (Elt F)) ]
/-- The buffers that window `main_part2`'s operations write. -/
abbrev ops2_W : List (Ref sig .tc) := [main_v109, main_v110, main_v111, main_cst_9, main_v112, main_v113, main_v114, main_v115, main_v116, main_v117, main_v118, main_v119, main_v120, main_v121, main_v122, main_cst_10, main_v123, main_v124, main_v125, main_v126, main_v127, main_v128, main_v129, main_v130, main_v131, main_v132, main_v133, main_v134, main_v135, main_v136, main_v137, main_v138, main_v139, main_v140, main_v141, main_v142, main_call6.cst.ref, main_call6.v0.ref, main_call6.v1.ref, main_v144, main_v145, main_v146, main_v147, main_cst_11, main_v148, main_cst_12, main_v149, main_v150, main_c_13, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.cst_3.ref, main_call7.v12.ref, main_call7.cst_4.ref, main_call7.call0.v0.ref, main_call7.call0.v1.ref, main_call7.call0.v2.ref, main_v152, main_v153, main_v154, main_v155, main_v156, main_v157, main_cst_14, main_v158, main_v159, main_v160, main_v161, main_v162]

/-- The 83 operations of window `main_part3`, in order. -/
abbrev ops3 : List (HloOp τ sig (Elt F)) :=
  [ StableHlo.binary main_v157 main_v162 main_v163 (mulf : (⟨S65536x128, .f32⟩ : BufTy).Contents (Elt F) → (⟨S65536x128, .f32⟩ : BufTy).Contents (Elt F) → (⟨S65536x128, .f32⟩ : BufTy).Contents (Elt F)),
    StableHlo.unary main_v138 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S65536x128 ![0, 1] bcast_S1x128_S65536x128_0_1 : (⟨S1x128, .f32⟩ : BufTy).Contents (Elt F) → (⟨S65536x128, .f32⟩ : BufTy).Contents (Elt F)),
    StableHlo.binary main_v163 main_v165 main_v166 (addf : (⟨S65536x128, .f32⟩ : BufTy).Contents (Elt F) → (⟨S65536x128, .f32⟩ : BufTy).Contents (Elt F) → (⟨S65536x128, .f32⟩ : BufTy).Contents (Elt F)),
    StableHlo.unary main_arg8 main_v167 ((extractStridedSlice S1x65536x128 ![1, 0, 0] · slices_S3x65536x128_S1x65536x128_1_0_0) : (⟨S3x65536x128, .f32⟩ : BufTy).Contents (Elt F) → (⟨S1x65536x128, .f32⟩ : BufTy).Contents (Elt F)),
    StableHlo.reshape main_v167 main_v168 rfl shapeCasts_S1x65536x128_S65536x128,
    StableHlo.nullary main_cst_15 (constant S_ .f32 0x3DCCCCCD#32),
    StableHlo.unary main_cst_15 main_v169 (broadcastInDim S65536x128 ![] bcast_S_S65536x128 : (⟨S_, .f32⟩ : BufTy).Contents (Elt F) → (⟨S65536x128, .f32⟩ : BufTy).Contents (Elt F)),
    StableHlo.binary main_v169 main_v168 main_v170 (mulf : (⟨S65536x128, .f32⟩ : BufTy).Contents (Elt F) → (⟨S65536x128, .f32⟩ : BufTy).Contents (Elt F) → (⟨S65536x128, .f32⟩ : BufTy).Contents (Elt F)),
    StableHlo.binary main_v166 main_v170 main_v171 (addf : (⟨S65536x128, .f32⟩ : BufTy).Contents (Elt F) → (⟨S65536x128, .f32⟩ : BufTy).Contents (Elt F) → (⟨S65536x128, .f32⟩ : BufTy).Contents (Elt F)),
    StableHlo.binary main_v79 main_v125 main_v172 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.unary main_arg2 main_v173 ((extractStridedSlice S1x256x256 ![4, 0, 0] · slices_S5x256x256_S1x256x256_4_0_0) : (⟨S5x256x256, .f32⟩ : BufTy).Contents (Elt F) → (⟨S1x256x256, .f32⟩ : BufTy).Contents (Elt F)),
    StableHlo.reshape main_v173 main_v174 rfl shapeCasts_S1x256x256_S256x256,
    StableHlo.unary main_arg3 main_v175 ((extractStridedSlice S1x256 ![4, 0] · slices_S5x256_S1x256_4_0) : (⟨S5x256, .f32⟩ : BufTy).Contents (Elt F) → (⟨S1x256, .f32⟩ : BufTy).Contents (Elt F)),
    StableHlo.reshape main_v175 main_v176 rfl shapeCasts_S1x256_S256,
    StableHlo.unary main_arg4 main_v177 ((extractStridedSlice S1x256x128 ![4, 0, 0] · slices_S5x256x128_S1x256x128_4_0_0) : (⟨S5x256x128, .f32⟩ : BufTy).Contents (Elt F) → (⟨S1x256x128, .f32⟩ : BufTy).Contents (Elt F)),
    StableHlo.reshape main_v177 main_v178 rfl shapeCasts_S1x256x128_S256x128,
    StableHlo.unary main_arg5 main_v179 ((extractStridedSlice S1x128 ![4, 0] · slices_S5x128_S1x128_4_0) : (⟨S5x128, .f32⟩ : BufTy).Contents (Elt F) → (⟨S1x128, .f32⟩ : BufTy).Contents (Elt F)),
    StableHlo.reshape main_v179 main_v180 rfl shapeCasts_S1x128_S128,
    StableHlo.unary main_arg6 main_v181 ((extractStridedSlice S1x128 ![4, 0] · slices_S5x128_S1x128_4_0) : (⟨S5x128, .f32⟩ : BufTy).Contents (Elt F) → (⟨S1x128, .f32⟩ : BufTy).Contents (Elt F)),
    StableHlo.reshape main_v181 main_v182 rfl shapeCasts_S1x128_S128,
    StableHlo.unary main_arg7 main_v183 ((extractStridedSlice S1x128 ![4, 0] · slices_S5x128_S1x128_4_0) : (⟨S5x128, .f32⟩ : BufTy).Contents (Elt F) → (⟨S1x128, .f32⟩ : BufTy).Contents (Elt F)),
    StableHlo.reshape main_v183 main_v184 rfl shapeCasts_S1x128_S128,
    StableHlo.binary main_v172 main_v174 main_v185 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_v176 main_v186 (broadcastInDim S1x256 ![1] bcast_S256_S1x256_1 : (⟨S256, .f32⟩ : BufTy).Contents (Elt F) → (⟨S1x256, .f32⟩ : BufTy).Contents (Elt F)),
    StableHlo.unary main_v186 main_v187 (broadcastInDim S65536x256 ![0, 1] bcast_S1x256_S65536x256_0_1 : (⟨S1x256, .f32⟩ : BufTy).Contents (Elt F) → (⟨S65536x256, .f32⟩ : BufTy).Contents (Elt F)),
    StableHlo.binary main_v185 main_v187 main_v188 (addf : (⟨S65536x256, .f32⟩ : BufTy).Contents (Elt F) → (⟨S65536x256, .f32⟩ : BufTy).Contents (Elt F) → (⟨S65536x256, .f32⟩ : BufTy).Contents (Elt F)),
    StableHlo.TRef.nullary main_call8.cst (constant S_ .f32 0x00000000#32),
    StableHlo.TRef.unary main_call8.cst main_call8.v0 (broadcastInDim S65536x256 ![] bcast_S_S65536x256),
    StableHlo.TRef.binary (.of main_v188 : StableHlo.TRef sig ⟨S65536x256, .f32⟩) main_call8.v0 main_call8.v1 maximumf,
    StableHlo.binary main_v189 main_v178 main_v190 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v180 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S65536x128 ![0, 1] bcast_S1x128_S65536x128_0_1 : (⟨S1x128, .f32⟩ : BufTy).Contents (Elt F) → (⟨S65536x128, .f32⟩ : BufTy).Contents (Elt F)),
    StableHlo.binary main_v190 main_v192 main_v193 (addf : (⟨S65536x128, .f32⟩ : BufTy).Contents (Elt F) → (⟨S65536x128, .f32⟩ : BufTy).Contents (Elt F) → (⟨S65536x128, .f32⟩ : BufTy).Contents (Elt F)),
    StableHlo.nullary main_cst_16 (constant S_ .f32 0x00000000#32),
    StableHlo.binary main_v193 main_cst_16 main_v194 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    StableHlo.nullary main_cst_17 (constant S_ .f32 0x47800000#32),
    StableHlo.unary main_cst_17 main_v195 (broadcastInDim S128 ![] bcast_S_S128 : (⟨S_, .f32⟩ : BufTy).Contents (Elt F) → (⟨S128, .f32⟩ : BufTy).Contents (Elt F)),
    StableHlo.binary main_v194 main_v195 main_v196 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call9.cst (constant S_ .f32 0x00000000#32),
    StableHlo.TRef.binary (.of main_v193 : StableHlo.TRef sig ⟨S65536x128, .f32⟩) main_call9.cst main_call9.v0 (fun x v => Host.reduceAdd x v reducesTo_S65536x128_S128_d0 h_S_),
    StableHlo.TRef.unary main_call9.v0 main_call9.v1 (broadcastInDim S1x128 ![1] bcast_S128_S1x128_1),
    StableHlo.TRef.nullary main_call9.cst_0 (constant S_ .f32 0x47800000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S65536x128 ![0, 1] bcast_S1x128_S65536x128_0_1),
    StableHlo.TRef.binary (.of main_v193 : StableHlo.TRef sig ⟨S65536x128, .f32⟩) main_call9.v4 main_call9.v5 subf,
    StableHlo.TRef.binary main_call9.v5 main_call9.v5 main_call9.v6 mulf,
    StableHlo.TRef.unary (.of main_c_18 : StableHlo.TRef sig ⟨S_, .i32⟩) main_call9.v7 (sitofp .f32),
    StableHlo.TRef.nullary main_call9.cst_1 (constant S_ .f32 0x47800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S65536x128_S128_d0 h_S_),
    StableHlo.TRef.unary main_call9.v8 main_call9.v10 (broadcastInDim S128 ![] bcast_S_S128),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S128 ![] bcast_S_S128),
    StableHlo.TRef.ternary main_call9.v12 main_call9.v11 main_call9.call0.v1 main_call9.call0.v2 (fun p a b => select (broadcastInDim S128 ![] bcast_S_S128 p) a b),
    StableHlo.unary main_v196 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S65536x128 ![0, 1] bcast_S1x128_S65536x128_0_1 : (⟨S1x128, .f32⟩ : BufTy).Contents (Elt F) → (⟨S65536x128, .f32⟩ : BufTy).Contents (Elt F)),
    StableHlo.binary main_v193 main_v199 main_v200 (subf : (⟨S65536x128, .f32⟩ : BufTy).Contents (Elt F) → (⟨S65536x128, .f32⟩ : BufTy).Contents (Elt F) → (⟨S65536x128, .f32⟩ : BufTy).Contents (Elt F)),
    StableHlo.unary main_v182 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S65536x128 ![0, 1] bcast_S1x128_S65536x128_0_1 : (⟨S1x128, .f32⟩ : BufTy).Contents (Elt F) → (⟨S65536x128, .f32⟩ : BufTy).Contents (Elt F)),
    StableHlo.binary main_v202 main_v200 main_v203 (mulf : (⟨S65536x128, .f32⟩ : BufTy).Contents (Elt F) → (⟨S65536x128, .f32⟩ : BufTy).Contents (Elt F) → (⟨S65536x128, .f32⟩ : BufTy).Contents (Elt F)),
    StableHlo.nullary main_cst_19 (constant S_ .f32 0x3727C5AC#32),
    StableHlo.unary main_cst_19 main_v204 (broadcastInDim S128 ![] bcast_S_S128 : (⟨S_, .f32⟩ : BufTy).Contents (Elt F) → (⟨S128, .f32⟩ : BufTy).Contents (Elt F)),
    StableHlo.binary main_v197 main_v204 main_v205 (addf : (⟨S128, .f32⟩ : BufTy).Contents (Elt F) → (⟨S128, .f32⟩ : BufTy).Contents (Elt F) → (⟨S128, .f32⟩ : BufTy).Contents (Elt F)),
    StableHlo.unary main_v205 main_v206 (Host.rsqrt : (⟨S128, .f32⟩ : BufTy).Contents (Elt F) → (⟨S128, .f32⟩ : BufTy).Contents (Elt F)),
    StableHlo.unary main_v206 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S65536x128 ![0, 1] bcast_S1x128_S65536x128_0_1 : (⟨S1x128, .f32⟩ : BufTy).Contents (Elt F) → (⟨S65536x128, .f32⟩ : BufTy).Contents (Elt F)),
    StableHlo.binary main_v203 main_v208 main_v209 (mulf : (⟨S65536x128, .f32⟩ : BufTy).Contents (Elt F) → (⟨S65536x128, .f32⟩ : BufTy).Contents (Elt F) → (⟨S65536x128, .f32⟩ : BufTy).Contents (Elt F)),
    StableHlo.unary main_v184 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S65536x128 ![0, 1] bcast_S1x128_S65536x128_0_1 : (⟨S1x128, .f32⟩ : BufTy).Contents (Elt F) → (⟨S65536x128, .f32⟩ : BufTy).Contents (Elt F)),
    StableHlo.binary main_v209 main_v211 main_v212 (addf : (⟨S65536x128, .f32⟩ : BufTy).Contents (Elt F) → (⟨S65536x128, .f32⟩ : BufTy).Contents (Elt F) → (⟨S65536x128, .f32⟩ : BufTy).Contents (Elt F)),
    StableHlo.unary main_arg8 main_v213 ((extractStridedSlice S1x65536x128 ![2, 0, 0] · slices_S3x65536x128_S1x65536x128_2_0_0) : (⟨S3x65536x128, .f32⟩ : BufTy).Contents (Elt F) → (⟨S1x65536x128, .f32⟩ : BufTy).Contents (Elt F)),
    StableHlo.reshape main_v213 main_v214 rfl shapeCasts_S1x65536x128_S65536x128,
    StableHlo.nullary main_cst_20 (constant S_ .f32 0x3DCCCCCD#32),
    StableHlo.unary main_cst_20 main_v215 (broadcastInDim S65536x128 ![] bcast_S_S65536x128 : (⟨S_, .f32⟩ : BufTy).Contents (Elt F) → (⟨S65536x128, .f32⟩ : BufTy).Contents (Elt F)),
    StableHlo.binary main_v215 main_v214 main_v216 (mulf : (⟨S65536x128, .f32⟩ : BufTy).Contents (Elt F) → (⟨S65536x128, .f32⟩ : BufTy).Contents (Elt F) → (⟨S65536x128, .f32⟩ : BufTy).Contents (Elt F)) ]
/-- The buffers that window `main_part3`'s operations write. -/
abbrev ops3_W : List (Ref sig .tc) := [main_v163, main_v164, main_v165, main_v166, main_v167, main_v168, main_cst_15, main_v169, main_v170, main_v171, main_v172, main_v173, main_v174, main_v175, main_v176, main_v177, main_v178, main_v179, main_v180, main_v181, main_v182, main_v183, main_v184, main_v185, main_v186, main_v187, main_v188, main_call8.cst.ref, main_call8.v0.ref, main_call8.v1.ref, main_v190, main_v191, main_v192, main_v193, main_cst_16, main_v194, main_cst_17, main_v195, main_v196, main_c_18, main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.cst_3.ref, main_call9.v12.ref, main_call9.cst_4.ref, main_call9.call0.v0.ref, main_call9.call0.v1.ref, main_call9.call0.v2.ref, main_v198, main_v199, main_v200, main_v201, main_v202, main_v203, main_cst_19, main_v204, main_v205, main_v206, main_v207, main_v208, main_v209, main_v210, main_v211, main_v212, main_v213, main_v214, main_cst_20, main_v215, main_v216]

/-- The 1 operations of window `main_part4`, in order. -/
abbrev ops4 : List (HloOp τ sig (Elt F)) :=
  [ StableHlo.binary main_v212 main_v216 main_v217 (addf : (⟨S65536x128, .f32⟩ : BufTy).Contents (Elt F) → (⟨S65536x128, .f32⟩ : BufTy).Contents (Elt F) → (⟨S65536x128, .f32⟩ : BufTy).Contents (Elt F)) ]
/-- The buffers that window `main_part4`'s operations write. -/
abbrev ops4_W : List (Ref sig .tc) := [main_v217]

/-- @main's 356 operations, in order. -/
abbrev ops : List (HloOp τ sig (Elt F)) :=
  ops0 ++ (ops1 ++ (ops2 ++ (ops3 ++ (ops4))))
/-- Every buffer an operation of @main writes. -/
abbrev ops_W : List (Ref sig .tc) :=
  ops0_W ++ (ops1_W ++ (ops2_W ++ (ops3_W ++ (ops4_W))))

set_option maxRecDepth 8192 in
set_option maxHeartbeats 4000000 in
theorem main_part0_eq (c : Dev nD) : main_part0 (F := F) c = seq ops0 := rfl
set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub ..⟩
set_option maxRecDepth 8192 in
theorem ops0_fresh : ∀ op ∈ (ops0 : List (HloOp τ sig (Elt F))), op.fresh = ∅ := by
  intro _ h; (repeat (cases h with | head => rfl | tail _ h => ?_)); exact nomatch h
set_option maxRecDepth 8192 in
theorem ops0_writes : (ops0 : List (HloOp τ sig (Elt F))).Forall fun op => op.writes ⊆ (ops0_W.map (Proc.devRef (τ := τ) .tc)).toFinset := by
  simp only [List.Forall]; exact ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

set_option maxRecDepth 8192 in
set_option maxHeartbeats 4000000 in
theorem main_part1_eq (c : Dev nD) : main_part1 (F := F) c = seq ops1 := rfl
set_option maxRecDepth 8192 in
theorem ops1_sub : (ops1 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub ..⟩
set_option maxRecDepth 8192 in
theorem ops1_fresh : ∀ op ∈ (ops1 : List (HloOp τ sig (Elt F))), op.fresh = ∅ := by
  intro _ h; (repeat (cases h with | head => rfl | tail _ h => ?_)); exact nomatch h
set_option maxRecDepth 8192 in
theorem ops1_writes : (ops1 : List (HloOp τ sig (Elt F))).Forall fun op => op.writes ⊆ (ops1_W.map (Proc.devRef (τ := τ) .tc)).toFinset := by
  simp only [List.Forall]; exact ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

set_option maxRecDepth 8192 in
set_option maxHeartbeats 4000000 in
theorem main_part2_eq (c : Dev nD) : main_part2 (F := F) c = seq ops2 := rfl
set_option maxRecDepth 8192 in
theorem ops2_sub : (ops2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub ..⟩
set_option maxRecDepth 8192 in
theorem ops2_fresh : ∀ op ∈ (ops2 : List (HloOp τ sig (Elt F))), op.fresh = ∅ := by
  intro _ h; (repeat (cases h with | head => rfl | tail _ h => ?_)); exact nomatch h
set_option maxRecDepth 8192 in
theorem ops2_writes : (ops2 : List (HloOp τ sig (Elt F))).Forall fun op => op.writes ⊆ (ops2_W.map (Proc.devRef (τ := τ) .tc)).toFinset := by
  simp only [List.Forall]; exact ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

set_option maxRecDepth 8192 in
set_option maxHeartbeats 4000000 in
theorem main_part3_eq (c : Dev nD) : main_part3 (F := F) c = seq ops3 := rfl
set_option maxRecDepth 8192 in
theorem ops3_sub : (ops3 : List (HloOp τ sig (Elt F))).Forall fun op => op.bufs ⊆ tcRefs τ sig :=
  ⟨binary_bufs_sub .., unary_bufs_sub .., unary_bufs_sub .., binary_bufs_sub .., unary_bufs_sub .., reshape_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub ..⟩
set_option maxRecDepth 8192 in
theorem ops3_fresh : ∀ op ∈ (ops3 : List (HloOp τ sig (Elt F))), op.fresh = ∅ := by
  intro _ h; (repeat (cases h with | head => rfl | tail _ h => ?_)); exact nomatch h
set_option maxRecDepth 8192 in
theorem ops3_writes : (ops3 : List (HloOp τ sig (Elt F))).Forall fun op => op.writes ⊆ (ops3_W.map (Proc.devRef (τ := τ) .tc)).toFinset := by
  simp only [List.Forall]; exact ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩

set_option maxRecDepth 8192 in
set_option maxHeartbeats 4000000 in
theorem main_part4_eq (c : Dev nD) : main_part4 (F := F) c = seq ops4 := rfl
set_option maxRecDepth 8192 in
theorem ops4_sub : (ops4 : List (HloOp τ sig (Elt F))).Forall fun op => op.bufs ⊆ tcRefs τ sig :=
  binary_bufs_sub ..
set_option maxRecDepth 8192 in
theorem ops4_fresh : ∀ op ∈ (ops4 : List (HloOp τ sig (Elt F))), op.fresh = ∅ := by
  intro _ h; (repeat (cases h with | head => rfl | tail _ h => ?_)); exact nomatch h
set_option maxRecDepth 8192 in
theorem ops4_writes : (ops4 : List (HloOp τ sig (Elt F))).Forall fun op => op.writes ⊆ (ops4_W.map (Proc.devRef (τ := τ) .tc)).toFinset := by
  simp only [List.Forall]; exact (Finset.singleton_subset_iff.mpr (List.mem_toFinset.mpr (List.mem_map_of_mem (by decide))))

/-- @main is its windows run in order, each the line of its operations. -/
theorem main_eq (c : Dev nD) : main (F := F) c = seq ops := by
  rw [seq_append, seq_append, seq_append, seq_append, ← main_part0_eq c, ← main_part1_eq c, ← main_part2_eq c,
    ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- An operation of @main is an operation of one of its windows. -/
theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F)))
      ∨ op ∈ (ops3 : List (HloOp τ sig (Elt F))) ∨ op ∈ (ops4 : List (HloOp τ sig (Elt F))) := by
  rcases List.mem_append.mp h with h | h
  · exact .inl h
  rcases List.mem_append.mp h with h | h
  · exact .inr (.inl h)
  rcases List.mem_append.mp h with h | h
  · exact .inr (.inr (.inl h))
  rcases List.mem_append.mp h with h | h
  · exact .inr (.inr (.inr (.inl h)))
  · exact .inr (.inr (.inr (.inr h)))

theorem ops_sub : (ops : List (HloOp τ sig (Elt F))).Forall fun op => op.bufs ⊆ tcRefs τ sig :=
  List.forall_iff_forall_mem.mpr fun op h => by
    rcases mem_ops h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

theorem ops_fresh : ∀ op ∈ (ops : List (HloOp τ sig (Elt F))), op.fresh = ∅ := fun op h => by
  rcases mem_ops h with h | h | h | h | h
  exacts [ops0_fresh op h, ops1_fresh op h, ops2_fresh op h, ops3_fresh op h, ops4_fresh op h]

/-- A window's written buffers are among @main's. -/
theorem writes_mono {W W' : List (Ref sig .tc)} (hW : ∀ r ∈ W, r ∈ W') {s : Finset (DevRef τ sig)}
    (h : s ⊆ (W.map (Proc.devRef (τ := τ) .tc)).toFinset) : s ⊆ (W'.map (Proc.devRef (τ := τ) .tc)).toFinset := fun x hx => by
  obtain ⟨y, hy, rfl⟩ := List.mem_map.mp (List.mem_toFinset.mp (h hx))
  exact List.mem_toFinset.mpr (List.mem_map_of_mem (hW y hy))

theorem ops_writes : (ops : List (HloOp τ sig (Elt F))).Forall fun op => op.writes ⊆ (ops_W.map (Proc.devRef (τ := τ) .tc)).toFinset :=
  List.forall_iff_forall_mem.mpr fun op h => by
    rcases mem_ops h with h | h | h | h | h
    · exact writes_mono (fun r hr => List.mem_append_left _ hr) (List.forall_iff_forall_mem.mp ops0_writes op h)
    · exact writes_mono (fun r hr => List.mem_append_right _ (List.mem_append_left _ hr)) (List.forall_iff_forall_mem.mp ops1_writes op h)
    · exact writes_mono (fun r hr => List.mem_append_right _ (List.mem_append_right _ (List.mem_append_left _ hr)))
        (List.forall_iff_forall_mem.mp ops2_writes op h)
    · exact writes_mono (fun r hr => List.mem_append_right _ (List.mem_append_right _ (List.mem_append_right _ (List.mem_append_left _ hr))))
        (List.forall_iff_forall_mem.mp ops3_writes op h)
    · exact writes_mono (fun r hr => List.mem_append_right _ (List.mem_append_right _ (List.mem_append_right _ (List.mem_append_right _ hr))))
        (List.forall_iff_forall_mem.mp ops4_writes op h)

/-- A buffer that no operation of @main writes keeps its contents through @main. -/
theorem ops_keep (r : Ref sig .tc) (h : r ∉ ops_W) (V : Valuation τ sig (Elt F)) :
    after ops V (Proc.devRef .tc r) = V (Proc.devRef .tc r) :=
  after_of_writes_sub ops V ops_writes h

set_option maxRecDepth 8192 in
theorem arg0_keep : main_arg0 ∉ ops_W := by decide
set_option maxRecDepth 8192 in
theorem arg1_keep : main_arg1 ∉ ops_W := by decide
set_option maxRecDepth 8192 in
theorem arg2_keep : main_arg2 ∉ ops_W := by decide
set_option maxRecDepth 8192 in
theorem arg3_keep : main_arg3 ∉ ops_W := by decide
set_option maxRecDepth 8192 in
theorem arg4_keep : main_arg4 ∉ ops_W := by decide
set_option maxRecDepth 8192 in
theorem arg5_keep : main_arg5 ∉ ops_W := by decide
set_option maxRecDepth 8192 in
theorem arg6_keep : main_arg6 ∉ ops_W := by decide
set_option maxRecDepth 8192 in
theorem arg7_keep : main_arg7 ∉ ops_W := by decide
set_option maxRecDepth 8192 in
theorem arg8_keep : main_arg8 ∉ ops_W := by decide

/-- On every device, for any float values, from any memory with zero counters: every weakly fair execution of
    @main terminates with every buffer at the fold of the operations' results over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The same read at the five results and the nine arguments: each result at the fold of the operations' results
    over the launch contents, each argument unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (∀ b ∈ ([main_v171, main_v217, main_v39, main_v79, main_v125] : List (Ref sig .tc)),
          r.2.mem ((c.tc : Thread nD τ).loc b) = after ops (launchContents m c) (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨fun b _ => h c b,
      (h c main_arg0).trans (ops_keep main_arg0 arg0_keep _),
      (h c main_arg1).trans (ops_keep main_arg1 arg1_keep _),
      (h c main_arg2).trans (ops_keep main_arg2 arg2_keep _),
      (h c main_arg3).trans (ops_keep main_arg3 arg3_keep _),
      (h c main_arg4).trans (ops_keep main_arg4 arg4_keep _),
      (h c main_arg5).trans (ops_keep main_arg5 arg5_keep _),
      (h c main_arg6).trans (ops_keep main_arg6 arg6_keep _),
      (h c main_arg7).trans (ops_keep main_arg7 arg7_keep _),
      (h c main_arg8).trans (ops_keep main_arg8 arg8_keep _)⟩)
    (run_all m ρ)

end Cert.ReferenceIdeal.Hand

end
-- ==== Proof.Hand.RefNodes.lean ====
/- The reference program's operations cut at its five results: one list per node of the network, the
   concatenation of the five being the whole list, and per node the buffers its operations write. -/
import proofs.«103476_j5987184410999_2_alg».proof.Proof.Hand.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 67 operations of node 0, in order: up to the one that writes `main_v39`. -/
abbrev nops0 : List (HloOp τ sig (Elt F)) :=
  [ StableHlo.unary main_arg2 main_v0 ((extractStridedSlice S1x256x256 ![0, 0, 0] · slices_S5x256x256_S1x256x256_0_0_0) : (⟨S5x256x256, .f32⟩ : BufTy).Contents (Elt F) → (⟨S1x256x256, .f32⟩ : BufTy).Contents (Elt F)),
    StableHlo.reshape main_v0 main_v1 rfl shapeCasts_S1x256x256_S256x256,
    StableHlo.unary main_arg3 main_v2 ((extractStridedSlice S1x256 ![0, 0] · slices_S5x256_S1x256_0_0) : (⟨S5x256, .f32⟩ : BufTy).Contents (Elt F) → (⟨S1x256, .f32⟩ : BufTy).Contents (Elt F)),
    StableHlo.reshape main_v2 main_v3 rfl shapeCasts_S1x256_S256,
    StableHlo.unary main_arg4 main_v4 ((extractStridedSlice S1x256x128 ![0, 0, 0] · slices_S5x256x128_S1x256x128_0_0_0) : (⟨S5x256x128, .f32⟩ : BufTy).Contents (Elt F) → (⟨S1x256x128, .f32⟩ : BufTy).Contents (Elt F)),
    StableHlo.reshape main_v4 main_v5 rfl shapeCasts_S1x256x128_S256x128,
    StableHlo.unary main_arg5 main_v6 ((extractStridedSlice S1x128 ![0, 0] · slices_S5x128_S1x128_0_0) : (⟨S5x128, .f32⟩ : BufTy).Contents (Elt F) → (⟨S1x128, .f32⟩ : BufTy).Contents (Elt F)),
    StableHlo.reshape main_v6 main_v7 rfl shapeCasts_S1x128_S128,
    StableHlo.unary main_arg6 main_v8 ((extractStridedSlice S1x128 ![0, 0] · slices_S5x128_S1x128_0_0) : (⟨S5x128, .f32⟩ : BufTy).Contents (Elt F) → (⟨S1x128, .f32⟩ : BufTy).Contents (Elt F)),
    StableHlo.reshape main_v8 main_v9 rfl shapeCasts_S1x128_S128,
    StableHlo.unary main_arg7 main_v10 ((extractStridedSlice S1x128 ![0, 0] · slices_S5x128_S1x128_0_0) : (⟨S5x128, .f32⟩ : BufTy).Contents (Elt F) → (⟨S1x128, .f32⟩ : BufTy).Contents (Elt F)),
    StableHlo.reshape main_v10 main_v11 rfl shapeCasts_S1x128_S128,
    StableHlo.binary main_arg0 main_v1 main_v12 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_v3 main_v13 (broadcastInDim S1x256 ![1] bcast_S256_S1x256_1 : (⟨S256, .f32⟩ : BufTy).Contents (Elt F) → (⟨S1x256, .f32⟩ : BufTy).Contents (Elt F)),
    StableHlo.unary main_v13 main_v14 (broadcastInDim S65536x256 ![0, 1] bcast_S1x256_S65536x256_0_1 : (⟨S1x256, .f32⟩ : BufTy).Contents (Elt F) → (⟨S65536x256, .f32⟩ : BufTy).Contents (Elt F)),
    StableHlo.binary main_v12 main_v14 main_v15 (addf : (⟨S65536x256, .f32⟩ : BufTy).Contents (Elt F) → (⟨S65536x256, .f32⟩ : BufTy).Contents (Elt F) → (⟨S65536x256, .f32⟩ : BufTy).Contents (Elt F)),
    StableHlo.TRef.nullary main_call0.cst (constant S_ .f32 0x00000000#32),
    StableHlo.TRef.unary main_call0.cst main_call0.v0 (broadcastInDim S65536x256 ![] bcast_S_S65536x256),
    StableHlo.TRef.binary (.of main_v15 : StableHlo.TRef sig ⟨S65536x256, .f32⟩) main_call0.v0 main_call0.v1 maximumf,
    StableHlo.binary main_v16 main_v5 main_v17 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v7 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S65536x128 ![0, 1] bcast_S1x128_S65536x128_0_1 : (⟨S1x128, .f32⟩ : BufTy).Contents (Elt F) → (⟨S65536x128, .f32⟩ : BufTy).Contents (Elt F)),
    StableHlo.binary main_v17 main_v19 main_v20 (addf : (⟨S65536x128, .f32⟩ : BufTy).Contents (Elt F) → (⟨S65536x128, .f32⟩ : BufTy).Contents (Elt F) → (⟨S65536x128, .f32⟩ : BufTy).Contents (Elt F)),
    StableHlo.nullary main_cst (constant S_ .f32 0x00000000#32),
    StableHlo.binary main_v20 main_cst main_v21 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    StableHlo.nullary main_cst_0 (constant S_ .f32 0x47800000#32),
    StableHlo.unary main_cst_0 main_v22 (broadcastInDim S128 ![] bcast_S_S128 : (⟨S_, .f32⟩ : BufTy).Contents (Elt F) → (⟨S128, .f32⟩ : BufTy).Contents (Elt F)),
    StableHlo.binary main_v21 main_v22 main_v23 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call1.cst (constant S_ .f32 0x00000000#32),
    StableHlo.TRef.binary (.of main_v20 : StableHlo.TRef sig ⟨S65536x128, .f32⟩) main_call1.cst main_call1.v0 (fun x v => Host.reduceAdd x v reducesTo_S65536x128_S128_d0 h_S_),
    StableHlo.TRef.unary main_call1.v0 main_call1.v1 (broadcastInDim S1x128 ![1] bcast_S128_S1x128_1),
    StableHlo.TRef.nullary main_call1.cst_0 (constant S_ .f32 0x47800000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S65536x128 ![0, 1] bcast_S1x128_S65536x128_0_1),
    StableHlo.TRef.binary (.of main_v20 : StableHlo.TRef sig ⟨S65536x128, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x47800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S65536x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v23 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S65536x128 ![0, 1] bcast_S1x128_S65536x128_0_1 : (⟨S1x128, .f32⟩ : BufTy).Contents (Elt F) → (⟨S65536x128, .f32⟩ : BufTy).Contents (Elt F)),
    StableHlo.binary main_v20 main_v26 main_v27 (subf : (⟨S65536x128, .f32⟩ : BufTy).Contents (Elt F) → (⟨S65536x128, .f32⟩ : BufTy).Contents (Elt F) → (⟨S65536x128, .f32⟩ : BufTy).Contents (Elt F)),
    StableHlo.unary main_v9 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S65536x128 ![0, 1] bcast_S1x128_S65536x128_0_1 : (⟨S1x128, .f32⟩ : BufTy).Contents (Elt F) → (⟨S65536x128, .f32⟩ : BufTy).Contents (Elt F)),
    StableHlo.binary main_v29 main_v27 main_v30 (mulf : (⟨S65536x128, .f32⟩ : BufTy).Contents (Elt F) → (⟨S65536x128, .f32⟩ : BufTy).Contents (Elt F) → (⟨S65536x128, .f32⟩ : BufTy).Contents (Elt F)),
    StableHlo.nullary main_cst_1 (constant S_ .f32 0x3727C5AC#32),
    StableHlo.unary main_cst_1 main_v31 (broadcastInDim S128 ![] bcast_S_S128 : (⟨S_, .f32⟩ : BufTy).Contents (Elt F) → (⟨S128, .f32⟩ : BufTy).Contents (Elt F)),
    StableHlo.binary main_v24 main_v31 main_v32 (addf : (⟨S128, .f32⟩ : BufTy).Contents (Elt F) → (⟨S128, .f32⟩ : BufTy).Contents (Elt F) → (⟨S128, .f32⟩ : BufTy).Contents (Elt F)),
    StableHlo.unary main_v32 main_v33 (Host.rsqrt : (⟨S128, .f32⟩ : BufTy).Contents (Elt F) → (⟨S128, .f32⟩ : BufTy).Contents (Elt F)),
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S65536x128 ![0, 1] bcast_S1x128_S65536x128_0_1 : (⟨S1x128, .f32⟩ : BufTy).Contents (Elt F) → (⟨S65536x128, .f32⟩ : BufTy).Contents (Elt F)),
    StableHlo.binary main_v30 main_v35 main_v36 (mulf : (⟨S65536x128, .f32⟩ : BufTy).Contents (Elt F) → (⟨S65536x128, .f32⟩ : BufTy).Contents (Elt F) → (⟨S65536x128, .f32⟩ : BufTy).Contents (Elt F)),
    StableHlo.unary main_v11 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S65536x128 ![0, 1] bcast_S1x128_S65536x128_0_1 : (⟨S1x128, .f32⟩ : BufTy).Contents (Elt F) → (⟨S65536x128, .f32⟩ : BufTy).Contents (Elt F)),
    StableHlo.binary main_v36 main_v38 main_v39 (addf : (⟨S65536x128, .f32⟩ : BufTy).Contents (Elt F) → (⟨S65536x128, .f32⟩ : BufTy).Contents (Elt F) → (⟨S65536x128, .f32⟩ : BufTy).Contents (Elt F)) ]
/-- The buffers that node 0's operations write. -/
abbrev nops0_W : List (Ref sig .tc) := [main_v0, main_v1, main_v2, main_v3, main_v4, main_v5, main_v6, main_v7, main_v8, main_v9, main_v10, main_v11, main_v12, main_v13, main_v14, main_v15, main_call0.cst.ref, main_call0.v0.ref, main_call0.v1.ref, main_v17, main_v18, main_v19, main_v20, main_cst, main_v21, main_cst_0, main_v22, main_v23, main_c, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v25, main_v26, main_v27, main_v28, main_v29, main_v30, main_cst_1, main_v31, main_v32, main_v33, main_v34, main_v35, main_v36, main_v37, main_v38, main_v39]
set_option maxRecDepth 8192 in
theorem nops0_writes : (nops0 : List (HloOp τ sig (Elt F))).Forall fun op => op.writes ⊆ (nops0_W.map (Proc.devRef (τ := τ) .tc)).toFinset := by
  simp only [List.Forall]; exact ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩
/-- A buffer that node 0 does not write keeps its contents through it. -/
theorem nops0_keep (r : Ref sig .tc) (h : r ∉ nops0_W) (V : Valuation τ sig (Elt F)) :
    after nops0 V (Proc.devRef .tc r) = V (Proc.devRef .tc r) :=
  after_of_writes_sub nops0 V nops0_writes h

/-- The 67 operations of node 1, in order: up to the one that writes `main_v79`. -/
abbrev nops1 : List (HloOp τ sig (Elt F)) :=
  [ StableHlo.unary main_arg2 main_v40 ((extractStridedSlice S1x256x256 ![1, 0, 0] · slices_S5x256x256_S1x256x256_1_0_0) : (⟨S5x256x256, .f32⟩ : BufTy).Contents (Elt F) → (⟨S1x256x256, .f32⟩ : BufTy).Contents (Elt F)),
    StableHlo.reshape main_v40 main_v41 rfl shapeCasts_S1x256x256_S256x256,
    StableHlo.unary main_arg3 main_v42 ((extractStridedSlice S1x256 ![1, 0] · slices_S5x256_S1x256_1_0) : (⟨S5x256, .f32⟩ : BufTy).Contents (Elt F) → (⟨S1x256, .f32⟩ : BufTy).Contents (Elt F)),
    StableHlo.reshape main_v42 main_v43 rfl shapeCasts_S1x256_S256,
    StableHlo.unary main_arg4 main_v44 ((extractStridedSlice S1x256x128 ![1, 0, 0] · slices_S5x256x128_S1x256x128_1_0_0) : (⟨S5x256x128, .f32⟩ : BufTy).Contents (Elt F) → (⟨S1x256x128, .f32⟩ : BufTy).Contents (Elt F)),
    StableHlo.reshape main_v44 main_v45 rfl shapeCasts_S1x256x128_S256x128,
    StableHlo.unary main_arg5 main_v46 ((extractStridedSlice S1x128 ![1, 0] · slices_S5x128_S1x128_1_0) : (⟨S5x128, .f32⟩ : BufTy).Contents (Elt F) → (⟨S1x128, .f32⟩ : BufTy).Contents (Elt F)),
    StableHlo.reshape main_v46 main_v47 rfl shapeCasts_S1x128_S128,
    StableHlo.unary main_arg6 main_v48 ((extractStridedSlice S1x128 ![1, 0] · slices_S5x128_S1x128_1_0) : (⟨S5x128, .f32⟩ : BufTy).Contents (Elt F) → (⟨S1x128, .f32⟩ : BufTy).Contents (Elt F)),
    StableHlo.reshape main_v48 main_v49 rfl shapeCasts_S1x128_S128,
    StableHlo.unary main_arg7 main_v50 ((extractStridedSlice S1x128 ![1, 0] · slices_S5x128_S1x128_1_0) : (⟨S5x128, .f32⟩ : BufTy).Contents (Elt F) → (⟨S1x128, .f32⟩ : BufTy).Contents (Elt F)),
    StableHlo.reshape main_v50 main_v51 rfl shapeCasts_S1x128_S128,
    StableHlo.binary main_arg1 main_v41 main_v52 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_v43 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S65536x256 ![0, 1] bcast_S1x256_S65536x256_0_1 : (⟨S1x256, .f32⟩ : BufTy).Contents (Elt F) → (⟨S65536x256, .f32⟩ : BufTy).Contents (Elt F)),
    StableHlo.binary main_v52 main_v54 main_v55 (addf : (⟨S65536x256, .f32⟩ : BufTy).Contents (Elt F) → (⟨S65536x256, .f32⟩ : BufTy).Contents (Elt F) → (⟨S65536x256, .f32⟩ : BufTy).Contents (Elt F)),
    StableHlo.TRef.nullary main_call2.cst (constant S_ .f32 0x00000000#32),
    StableHlo.TRef.unary main_call2.cst main_call2.v0 (broadcastInDim S65536x256 ![] bcast_S_S65536x256),
    StableHlo.TRef.binary (.of main_v55 : StableHlo.TRef sig ⟨S65536x256, .f32⟩) main_call2.v0 main_call2.v1 maximumf,
    StableHlo.binary main_v56 main_v45 main_v57 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v47 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S65536x128 ![0, 1] bcast_S1x128_S65536x128_0_1 : (⟨S1x128, .f32⟩ : BufTy).Contents (Elt F) → (⟨S65536x128, .f32⟩ : BufTy).Contents (Elt F)),
    StableHlo.binary main_v57 main_v59 main_v60 (addf : (⟨S65536x128, .f32⟩ : BufTy).Contents (Elt F) → (⟨S65536x128, .f32⟩ : BufTy).Contents (Elt F) → (⟨S65536x128, .f32⟩ : BufTy).Contents (Elt F)),
    StableHlo.nullary main_cst_2 (constant S_ .f32 0x00000000#32),
    StableHlo.binary main_v60 main_cst_2 main_v61 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    StableHlo.nullary main_cst_3 (constant S_ .f32 0x47800000#32),
    StableHlo.unary main_cst_3 main_v62 (broadcastInDim S128 ![] bcast_S_S128 : (⟨S_, .f32⟩ : BufTy).Contents (Elt F) → (⟨S128, .f32⟩ : BufTy).Contents (Elt F)),
    StableHlo.binary main_v61 main_v62 main_v63 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call3.cst (constant S_ .f32 0x00000000#32),
    StableHlo.TRef.binary (.of main_v60 : StableHlo.TRef sig ⟨S65536x128, .f32⟩) main_call3.cst main_call3.v0 (fun x v => Host.reduceAdd x v reducesTo_S65536x128_S128_d0 h_S_),
    StableHlo.TRef.unary main_call3.v0 main_call3.v1 (broadcastInDim S1x128 ![1] bcast_S128_S1x128_1),
    StableHlo.TRef.nullary main_call3.cst_0 (constant S_ .f32 0x47800000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S65536x128 ![0, 1] bcast_S1x128_S65536x128_0_1),
    StableHlo.TRef.binary (.of main_v60 : StableHlo.TRef sig ⟨S65536x128, .f32⟩) main_call3.v4 main_call3.v5 subf,
    StableHlo.TRef.binary main_call3.v5 main_call3.v5 main_call3.v6 mulf,
    StableHlo.TRef.unary (.of main_c_4 : StableHlo.TRef sig ⟨S_, .i32⟩) main_call3.v7 (sitofp .f32),
    StableHlo.TRef.nullary main_call3.cst_1 (constant S_ .f32 0x47800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S65536x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v63 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S65536x128 ![0, 1] bcast_S1x128_S65536x128_0_1 : (⟨S1x128, .f32⟩ : BufTy).Contents (Elt F) → (⟨S65536x128, .f32⟩ : BufTy).Contents (Elt F)),
    StableHlo.binary main_v60 main_v66 main_v67 (subf : (⟨S65536x128, .f32⟩ : BufTy).Contents (Elt F) → (⟨S65536x128, .f32⟩ : BufTy).Contents (Elt F) → (⟨S65536x128, .f32⟩ : BufTy).Contents (Elt F)),
    StableHlo.unary main_v49 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S65536x128 ![0, 1] bcast_S1x128_S65536x128_0_1 : (⟨S1x128, .f32⟩ : BufTy).Contents (Elt F) → (⟨S65536x128, .f32⟩ : BufTy).Contents (Elt F)),
    StableHlo.binary main_v69 main_v67 main_v70 (mulf : (⟨S65536x128, .f32⟩ : BufTy).Contents (Elt F) → (⟨S65536x128, .f32⟩ : BufTy).Contents (Elt F) → (⟨S65536x128, .f32⟩ : BufTy).Contents (Elt F)),
    StableHlo.nullary main_cst_5 (constant S_ .f32 0x3727C5AC#32),
    StableHlo.unary main_cst_5 main_v71 (broadcastInDim S128 ![] bcast_S_S128 : (⟨S_, .f32⟩ : BufTy).Contents (Elt F) → (⟨S128, .f32⟩ : BufTy).Contents (Elt F)),
    StableHlo.binary main_v64 main_v71 main_v72 (addf : (⟨S128, .f32⟩ : BufTy).Contents (Elt F) → (⟨S128, .f32⟩ : BufTy).Contents (Elt F) → (⟨S128, .f32⟩ : BufTy).Contents (Elt F)),
    StableHlo.unary main_v72 main_v73 (Host.rsqrt : (⟨S128, .f32⟩ : BufTy).Contents (Elt F) → (⟨S128, .f32⟩ : BufTy).Contents (Elt F)),
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S65536x128 ![0, 1] bcast_S1x128_S65536x128_0_1 : (⟨S1x128, .f32⟩ : BufTy).Contents (Elt F) → (⟨S65536x128, .f32⟩ : BufTy).Contents (Elt F)),
    StableHlo.binary main_v70 main_v75 main_v76 (mulf : (⟨S65536x128, .f32⟩ : BufTy).Contents (Elt F) → (⟨S65536x128, .f32⟩ : BufTy).Contents (Elt F) → (⟨S65536x128, .f32⟩ : BufTy).Contents (Elt F)),
    StableHlo.unary main_v51 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S65536x128 ![0, 1] bcast_S1x128_S65536x128_0_1 : (⟨S1x128, .f32⟩ : BufTy).Contents (Elt F) → (⟨S65536x128, .f32⟩ : BufTy).Contents (Elt F)),
    StableHlo.binary main_v76 main_v78 main_v79 (addf : (⟨S65536x128, .f32⟩ : BufTy).Contents (Elt F) → (⟨S65536x128, .f32⟩ : BufTy).Contents (Elt F) → (⟨S65536x128, .f32⟩ : BufTy).Contents (Elt F)) ]
/-- The buffers that node 1's operations write. -/
abbrev nops1_W : List (Ref sig .tc) := [main_v40, main_v41, main_v42, main_v43, main_v44, main_v45, main_v46, main_v47, main_v48, main_v49, main_v50, main_v51, main_v52, main_v53, main_v54, main_v55, main_call2.cst.ref, main_call2.v0.ref, main_call2.v1.ref, main_v57, main_v58, main_v59, main_v60, main_cst_2, main_v61, main_cst_3, main_v62, main_v63, main_c_4, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v65, main_v66, main_v67, main_v68, main_v69, main_v70, main_cst_5, main_v71, main_v72, main_v73, main_v74, main_v75, main_v76, main_v77, main_v78, main_v79]
set_option maxRecDepth 8192 in
theorem nops1_writes : (nops1 : List (HloOp τ sig (Elt F))).Forall fun op => op.writes ⊆ (nops1_W.map (Proc.devRef (τ := τ) .tc)).toFinset := by
  simp only [List.Forall]; exact ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩
/-- A buffer that node 1 does not write keeps its contents through it. -/
theorem nops1_keep (r : Ref sig .tc) (h : r ∉ nops1_W) (V : Valuation τ sig (Elt F)) :
    after nops1 V (Proc.devRef .tc r) = V (Proc.devRef .tc r) :=
  after_of_writes_sub nops1 V nops1_writes h

/-- The 74 operations of node 2, in order: up to the one that writes `main_v125`. -/
abbrev nops2 : List (HloOp τ sig (Elt F)) :=
  [ StableHlo.binary main_v39 main_v79 main_v80 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.unary main_arg2 main_v81 ((extractStridedSlice S1x256x256 ![2, 0, 0] · slices_S5x256x256_S1x256x256_2_0_0) : (⟨S5x256x256, .f32⟩ : BufTy).Contents (Elt F) → (⟨S1x256x256, .f32⟩ : BufTy).Contents (Elt F)),
    StableHlo.reshape main_v81 main_v82 rfl shapeCasts_S1x256x256_S256x256,
    StableHlo.unary main_arg3 main_v83 ((extractStridedSlice S1x256 ![2, 0] · slices_S5x256_S1x256_2_0) : (⟨S5x256, .f32⟩ : BufTy).Contents (Elt F) → (⟨S1x256, .f32⟩ : BufTy).Contents (Elt F)),
    StableHlo.reshape main_v83 main_v84 rfl shapeCasts_S1x256_S256,
    StableHlo.unary main_arg4 main_v85 ((extractStridedSlice S1x256x128 ![2, 0, 0] · slices_S5x256x128_S1x256x128_2_0_0) : (⟨S5x256x128, .f32⟩ : BufTy).Contents (Elt F) → (⟨S1x256x128, .f32⟩ : BufTy).Contents (Elt F)),
    StableHlo.reshape main_v85 main_v86 rfl shapeCasts_S1x256x128_S256x128,
    StableHlo.unary main_arg5 main_v87 ((extractStridedSlice S1x128 ![2, 0] · slices_S5x128_S1x128_2_0) : (⟨S5x128, .f32⟩ : BufTy).Contents (Elt F) → (⟨S1x128, .f32⟩ : BufTy).Contents (Elt F)),
    StableHlo.reshape main_v87 main_v88 rfl shapeCasts_S1x128_S128,
    StableHlo.unary main_arg6 main_v89 ((extractStridedSlice S1x128 ![2, 0] · slices_S5x128_S1x128_2_0) : (⟨S5x128, .f32⟩ : BufTy).Contents (Elt F) → (⟨S1x128, .f32⟩ : BufTy).Contents (Elt F)),
    StableHlo.reshape main_v89 main_v90 rfl shapeCasts_S1x128_S128,
    StableHlo.unary main_arg7 main_v91 ((extractStridedSlice S1x128 ![2, 0] · slices_S5x128_S1x128_2_0) : (⟨S5x128, .f32⟩ : BufTy).Contents (Elt F) → (⟨S1x128, .f32⟩ : BufTy).Contents (Elt F)),
    StableHlo.reshape main_v91 main_v92 rfl shapeCasts_S1x128_S128,
    StableHlo.binary main_v80 main_v82 main_v93 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_v84 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S65536x256 ![0, 1] bcast_S1x256_S65536x256_0_1 : (⟨S1x256, .f32⟩ : BufTy).Contents (Elt F) → (⟨S65536x256, .f32⟩ : BufTy).Contents (Elt F)),
    StableHlo.binary main_v93 main_v95 main_v96 (addf : (⟨S65536x256, .f32⟩ : BufTy).Contents (Elt F) → (⟨S65536x256, .f32⟩ : BufTy).Contents (Elt F) → (⟨S65536x256, .f32⟩ : BufTy).Contents (Elt F)),
    StableHlo.TRef.nullary main_call4.cst (constant S_ .f32 0x00000000#32),
    StableHlo.TRef.unary main_call4.cst main_call4.v0 (broadcastInDim S65536x256 ![] bcast_S_S65536x256),
    StableHlo.TRef.binary (.of main_v96 : StableHlo.TRef sig ⟨S65536x256, .f32⟩) main_call4.v0 main_call4.v1 maximumf,
    StableHlo.binary main_v97 main_v86 main_v98 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v88 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S65536x128 ![0, 1] bcast_S1x128_S65536x128_0_1 : (⟨S1x128, .f32⟩ : BufTy).Contents (Elt F) → (⟨S65536x128, .f32⟩ : BufTy).Contents (Elt F)),
    StableHlo.binary main_v98 main_v100 main_v101 (addf : (⟨S65536x128, .f32⟩ : BufTy).Contents (Elt F) → (⟨S65536x128, .f32⟩ : BufTy).Contents (Elt F) → (⟨S65536x128, .f32⟩ : BufTy).Contents (Elt F)),
    StableHlo.nullary main_cst_6 (constant S_ .f32 0x00000000#32),
    StableHlo.binary main_v101 main_cst_6 main_v102 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    StableHlo.nullary main_cst_7 (constant S_ .f32 0x47800000#32),
    StableHlo.unary main_cst_7 main_v103 (broadcastInDim S128 ![] bcast_S_S128 : (⟨S_, .f32⟩ : BufTy).Contents (Elt F) → (⟨S128, .f32⟩ : BufTy).Contents (Elt F)),
    StableHlo.binary main_v102 main_v103 main_v104 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call5.cst (constant S_ .f32 0x00000000#32),
    StableHlo.TRef.binary (.of main_v101 : StableHlo.TRef sig ⟨S65536x128, .f32⟩) main_call5.cst main_call5.v0 (fun x v => Host.reduceAdd x v reducesTo_S65536x128_S128_d0 h_S_),
    StableHlo.TRef.unary main_call5.v0 main_call5.v1 (broadcastInDim S1x128 ![1] bcast_S128_S1x128_1),
    StableHlo.TRef.nullary main_call5.cst_0 (constant S_ .f32 0x47800000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S65536x128 ![0, 1] bcast_S1x128_S65536x128_0_1),
    StableHlo.TRef.binary (.of main_v101 : StableHlo.TRef sig ⟨S65536x128, .f32⟩) main_call5.v4 main_call5.v5 subf,
    StableHlo.TRef.binary main_call5.v5 main_call5.v5 main_call5.v6 mulf,
    StableHlo.TRef.unary (.of main_c_8 : StableHlo.TRef sig ⟨S_, .i32⟩) main_call5.v7 (sitofp .f32),
    StableHlo.TRef.nullary main_call5.cst_1 (constant S_ .f32 0x47800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S65536x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v104 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S65536x128 ![0, 1] bcast_S1x128_S65536x128_0_1 : (⟨S1x128, .f32⟩ : BufTy).Contents (Elt F) → (⟨S65536x128, .f32⟩ : BufTy).Contents (Elt F)),
    StableHlo.binary main_v101 main_v107 main_v108 (subf : (⟨S65536x128, .f32⟩ : BufTy).Contents (Elt F) → (⟨S65536x128, .f32⟩ : BufTy).Contents (Elt F) → (⟨S65536x128, .f32⟩ : BufTy).Contents (Elt F)),
    StableHlo.unary main_v90 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S65536x128 ![0, 1] bcast_S1x128_S65536x128_0_1 : (⟨S1x128, .f32⟩ : BufTy).Contents (Elt F) → (⟨S65536x128, .f32⟩ : BufTy).Contents (Elt F)),
    StableHlo.binary main_v110 main_v108 main_v111 (mulf : (⟨S65536x128, .f32⟩ : BufTy).Contents (Elt F) → (⟨S65536x128, .f32⟩ : BufTy).Contents (Elt F) → (⟨S65536x128, .f32⟩ : BufTy).Contents (Elt F)),
    StableHlo.nullary main_cst_9 (constant S_ .f32 0x3727C5AC#32),
    StableHlo.unary main_cst_9 main_v112 (broadcastInDim S128 ![] bcast_S_S128 : (⟨S_, .f32⟩ : BufTy).Contents (Elt F) → (⟨S128, .f32⟩ : BufTy).Contents (Elt F)),
    StableHlo.binary main_v105 main_v112 main_v113 (addf : (⟨S128, .f32⟩ : BufTy).Contents (Elt F) → (⟨S128, .f32⟩ : BufTy).Contents (Elt F) → (⟨S128, .f32⟩ : BufTy).Contents (Elt F)),
    StableHlo.unary main_v113 main_v114 (Host.rsqrt : (⟨S128, .f32⟩ : BufTy).Contents (Elt F) → (⟨S128, .f32⟩ : BufTy).Contents (Elt F)),
    StableHlo.unary main_v114 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S65536x128 ![0, 1] bcast_S1x128_S65536x128_0_1 : (⟨S1x128, .f32⟩ : BufTy).Contents (Elt F) → (⟨S65536x128, .f32⟩ : BufTy).Contents (Elt F)),
    StableHlo.binary main_v111 main_v116 main_v117 (mulf : (⟨S65536x128, .f32⟩ : BufTy).Contents (Elt F) → (⟨S65536x128, .f32⟩ : BufTy).Contents (Elt F) → (⟨S65536x128, .f32⟩ : BufTy).Contents (Elt F)),
    StableHlo.unary main_v92 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S65536x128 ![0, 1] bcast_S1x128_S65536x128_0_1 : (⟨S1x128, .f32⟩ : BufTy).Contents (Elt F) → (⟨S65536x128, .f32⟩ : BufTy).Contents (Elt F)),
    StableHlo.binary main_v117 main_v119 main_v120 (addf : (⟨S65536x128, .f32⟩ : BufTy).Contents (Elt F) → (⟨S65536x128, .f32⟩ : BufTy).Contents (Elt F) → (⟨S65536x128, .f32⟩ : BufTy).Contents (Elt F)),
    StableHlo.unary main_arg8 main_v121 ((extractStridedSlice S1x65536x128 ![0, 0, 0] · slices_S3x65536x128_S1x65536x128_0_0_0) : (⟨S3x65536x128, .f32⟩ : BufTy).Contents (Elt F) → (⟨S1x65536x128, .f32⟩ : BufTy).Contents (Elt F)),
    StableHlo.reshape main_v121 main_v122 rfl shapeCasts_S1x65536x128_S65536x128,
    StableHlo.nullary main_cst_10 (constant S_ .f32 0x3DCCCCCD#32),
    StableHlo.unary main_cst_10 main_v123 (broadcastInDim S65536x128 ![] bcast_S_S65536x128 : (⟨S_, .f32⟩ : BufTy).Contents (Elt F) → (⟨S65536x128, .f32⟩ : BufTy).Contents (Elt F)),
    StableHlo.binary main_v123 main_v122 main_v124 (mulf : (⟨S65536x128, .f32⟩ : BufTy).Contents (Elt F) → (⟨S65536x128, .f32⟩ : BufTy).Contents (Elt F) → (⟨S65536x128, .f32⟩ : BufTy).Contents (Elt F)),
    StableHlo.binary main_v120 main_v124 main_v125 (addf : (⟨S65536x128, .f32⟩ : BufTy).Contents (Elt F) → (⟨S65536x128, .f32⟩ : BufTy).Contents (Elt F) → (⟨S65536x128, .f32⟩ : BufTy).Contents (Elt F)) ]
/-- The buffers that node 2's operations write. -/
abbrev nops2_W : List (Ref sig .tc) := [main_v80, main_v81, main_v82, main_v83, main_v84, main_v85, main_v86, main_v87, main_v88, main_v89, main_v90, main_v91, main_v92, main_v93, main_v94, main_v95, main_v96, main_call4.cst.ref, main_call4.v0.ref, main_call4.v1.ref, main_v98, main_v99, main_v100, main_v101, main_cst_6, main_v102, main_cst_7, main_v103, main_v104, main_c_8, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v106, main_v107, main_v108, main_v109, main_v110, main_v111, main_cst_9, main_v112, main_v113, main_v114, main_v115, main_v116, main_v117, main_v118, main_v119, main_v120, main_v121, main_v122, main_cst_10, main_v123, main_v124, main_v125]
set_option maxRecDepth 8192 in
theorem nops2_writes : (nops2 : List (HloOp τ sig (Elt F))).Forall fun op => op.writes ⊆ (nops2_W.map (Proc.devRef (τ := τ) .tc)).toFinset := by
  simp only [List.Forall]; exact ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩
/-- A buffer that node 2 does not write keeps its contents through it. -/
theorem nops2_keep (r : Ref sig .tc) (h : r ∉ nops2_W) (V : Valuation τ sig (Elt F)) :
    after nops2 V (Proc.devRef .tc r) = V (Proc.devRef .tc r) :=
  after_of_writes_sub nops2 V nops2_writes h

/-- The 74 operations of node 3, in order: up to the one that writes `main_v171`. -/
abbrev nops3 : List (HloOp τ sig (Elt F)) :=
  [ StableHlo.binary main_v39 main_v125 main_v126 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.unary main_arg2 main_v127 ((extractStridedSlice S1x256x256 ![3, 0, 0] · slices_S5x256x256_S1x256x256_3_0_0) : (⟨S5x256x256, .f32⟩ : BufTy).Contents (Elt F) → (⟨S1x256x256, .f32⟩ : BufTy).Contents (Elt F)),
    StableHlo.reshape main_v127 main_v128 rfl shapeCasts_S1x256x256_S256x256,
    StableHlo.unary main_arg3 main_v129 ((extractStridedSlice S1x256 ![3, 0] · slices_S5x256_S1x256_3_0) : (⟨S5x256, .f32⟩ : BufTy).Contents (Elt F) → (⟨S1x256, .f32⟩ : BufTy).Contents (Elt F)),
    StableHlo.reshape main_v129 main_v130 rfl shapeCasts_S1x256_S256,
    StableHlo.unary main_arg4 main_v131 ((extractStridedSlice S1x256x128 ![3, 0, 0] · slices_S5x256x128_S1x256x128_3_0_0) : (⟨S5x256x128, .f32⟩ : BufTy).Contents (Elt F) → (⟨S1x256x128, .f32⟩ : BufTy).Contents (Elt F)),
    StableHlo.reshape main_v131 main_v132 rfl shapeCasts_S1x256x128_S256x128,
    StableHlo.unary main_arg5 main_v133 ((extractStridedSlice S1x128 ![3, 0] · slices_S5x128_S1x128_3_0) : (⟨S5x128, .f32⟩ : BufTy).Contents (Elt F) → (⟨S1x128, .f32⟩ : BufTy).Contents (Elt F)),
    StableHlo.reshape main_v133 main_v134 rfl shapeCasts_S1x128_S128,
    StableHlo.unary main_arg6 main_v135 ((extractStridedSlice S1x128 ![3, 0] · slices_S5x128_S1x128_3_0) : (⟨S5x128, .f32⟩ : BufTy).Contents (Elt F) → (⟨S1x128, .f32⟩ : BufTy).Contents (Elt F)),
    StableHlo.reshape main_v135 main_v136 rfl shapeCasts_S1x128_S128,
    StableHlo.unary main_arg7 main_v137 ((extractStridedSlice S1x128 ![3, 0] · slices_S5x128_S1x128_3_0) : (⟨S5x128, .f32⟩ : BufTy).Contents (Elt F) → (⟨S1x128, .f32⟩ : BufTy).Contents (Elt F)),
    StableHlo.reshape main_v137 main_v138 rfl shapeCasts_S1x128_S128,
    StableHlo.binary main_v126 main_v128 main_v139 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_v130 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S65536x256 ![0, 1] bcast_S1x256_S65536x256_0_1 : (⟨S1x256, .f32⟩ : BufTy).Contents (Elt F) → (⟨S65536x256, .f32⟩ : BufTy).Contents (Elt F)),
    StableHlo.binary main_v139 main_v141 main_v142 (addf : (⟨S65536x256, .f32⟩ : BufTy).Contents (Elt F) → (⟨S65536x256, .f32⟩ : BufTy).Contents (Elt F) → (⟨S65536x256, .f32⟩ : BufTy).Contents (Elt F)),
    StableHlo.TRef.nullary main_call6.cst (constant S_ .f32 0x00000000#32),
    StableHlo.TRef.unary main_call6.cst main_call6.v0 (broadcastInDim S65536x256 ![] bcast_S_S65536x256),
    StableHlo.TRef.binary (.of main_v142 : StableHlo.TRef sig ⟨S65536x256, .f32⟩) main_call6.v0 main_call6.v1 maximumf,
    StableHlo.binary main_v143 main_v132 main_v144 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v134 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S65536x128 ![0, 1] bcast_S1x128_S65536x128_0_1 : (⟨S1x128, .f32⟩ : BufTy).Contents (Elt F) → (⟨S65536x128, .f32⟩ : BufTy).Contents (Elt F)),
    StableHlo.binary main_v144 main_v146 main_v147 (addf : (⟨S65536x128, .f32⟩ : BufTy).Contents (Elt F) → (⟨S65536x128, .f32⟩ : BufTy).Contents (Elt F) → (⟨S65536x128, .f32⟩ : BufTy).Contents (Elt F)),
    StableHlo.nullary main_cst_11 (constant S_ .f32 0x00000000#32),
    StableHlo.binary main_v147 main_cst_11 main_v148 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    StableHlo.nullary main_cst_12 (constant S_ .f32 0x47800000#32),
    StableHlo.unary main_cst_12 main_v149 (broadcastInDim S128 ![] bcast_S_S128 : (⟨S_, .f32⟩ : BufTy).Contents (Elt F) → (⟨S128, .f32⟩ : BufTy).Contents (Elt F)),
    StableHlo.binary main_v148 main_v149 main_v150 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call7.cst (constant S_ .f32 0x00000000#32),
    StableHlo.TRef.binary (.of main_v147 : StableHlo.TRef sig ⟨S65536x128, .f32⟩) main_call7.cst main_call7.v0 (fun x v => Host.reduceAdd x v reducesTo_S65536x128_S128_d0 h_S_),
    StableHlo.TRef.unary main_call7.v0 main_call7.v1 (broadcastInDim S1x128 ![1] bcast_S128_S1x128_1),
    StableHlo.TRef.nullary main_call7.cst_0 (constant S_ .f32 0x47800000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S65536x128 ![0, 1] bcast_S1x128_S65536x128_0_1),
    StableHlo.TRef.binary (.of main_v147 : StableHlo.TRef sig ⟨S65536x128, .f32⟩) main_call7.v4 main_call7.v5 subf,
    StableHlo.TRef.binary main_call7.v5 main_call7.v5 main_call7.v6 mulf,
    StableHlo.TRef.unary (.of main_c_13 : StableHlo.TRef sig ⟨S_, .i32⟩) main_call7.v7 (sitofp .f32),
    StableHlo.TRef.nullary main_call7.cst_1 (constant S_ .f32 0x47800000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S65536x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b),
    StableHlo.unary main_v150 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S65536x128 ![0, 1] bcast_S1x128_S65536x128_0_1 : (⟨S1x128, .f32⟩ : BufTy).Contents (Elt F) → (⟨S65536x128, .f32⟩ : BufTy).Contents (Elt F)),
    StableHlo.binary main_v147 main_v153 main_v154 (subf : (⟨S65536x128, .f32⟩ : BufTy).Contents (Elt F) → (⟨S65536x128, .f32⟩ : BufTy).Contents (Elt F) → (⟨S65536x128, .f32⟩ : BufTy).Contents (Elt F)),
    StableHlo.unary main_v136 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S65536x128 ![0, 1] bcast_S1x128_S65536x128_0_1 : (⟨S1x128, .f32⟩ : BufTy).Contents (Elt F) → (⟨S65536x128, .f32⟩ : BufTy).Contents (Elt F)),
    StableHlo.binary main_v156 main_v154 main_v157 (mulf : (⟨S65536x128, .f32⟩ : BufTy).Contents (Elt F) → (⟨S65536x128, .f32⟩ : BufTy).Contents (Elt F) → (⟨S65536x128, .f32⟩ : BufTy).Contents (Elt F)),
    StableHlo.nullary main_cst_14 (constant S_ .f32 0x3727C5AC#32),
    StableHlo.unary main_cst_14 main_v158 (broadcastInDim S128 ![] bcast_S_S128 : (⟨S_, .f32⟩ : BufTy).Contents (Elt F) → (⟨S128, .f32⟩ : BufTy).Contents (Elt F)),
    StableHlo.binary main_v151 main_v158 main_v159 (addf : (⟨S128, .f32⟩ : BufTy).Contents (Elt F) → (⟨S128, .f32⟩ : BufTy).Contents (Elt F) → (⟨S128, .f32⟩ : BufTy).Contents (Elt F)),
    StableHlo.unary main_v159 main_v160 (Host.rsqrt : (⟨S128, .f32⟩ : BufTy).Contents (Elt F) → (⟨S128, .f32⟩ : BufTy).Contents (Elt F)),
    StableHlo.unary main_v160 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S65536x128 ![0, 1] bcast_S1x128_S65536x128_0_1 : (⟨S1x128, .f32⟩ : BufTy).Contents (Elt F) → (⟨S65536x128, .f32⟩ : BufTy).Contents (Elt F)),
    StableHlo.binary main_v157 main_v162 main_v163 (mulf : (⟨S65536x128, .f32⟩ : BufTy).Contents (Elt F) → (⟨S65536x128, .f32⟩ : BufTy).Contents (Elt F) → (⟨S65536x128, .f32⟩ : BufTy).Contents (Elt F)),
    StableHlo.unary main_v138 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S65536x128 ![0, 1] bcast_S1x128_S65536x128_0_1 : (⟨S1x128, .f32⟩ : BufTy).Contents (Elt F) → (⟨S65536x128, .f32⟩ : BufTy).Contents (Elt F)),
    StableHlo.binary main_v163 main_v165 main_v166 (addf : (⟨S65536x128, .f32⟩ : BufTy).Contents (Elt F) → (⟨S65536x128, .f32⟩ : BufTy).Contents (Elt F) → (⟨S65536x128, .f32⟩ : BufTy).Contents (Elt F)),
    StableHlo.unary main_arg8 main_v167 ((extractStridedSlice S1x65536x128 ![1, 0, 0] · slices_S3x65536x128_S1x65536x128_1_0_0) : (⟨S3x65536x128, .f32⟩ : BufTy).Contents (Elt F) → (⟨S1x65536x128, .f32⟩ : BufTy).Contents (Elt F)),
    StableHlo.reshape main_v167 main_v168 rfl shapeCasts_S1x65536x128_S65536x128,
    StableHlo.nullary main_cst_15 (constant S_ .f32 0x3DCCCCCD#32),
    StableHlo.unary main_cst_15 main_v169 (broadcastInDim S65536x128 ![] bcast_S_S65536x128 : (⟨S_, .f32⟩ : BufTy).Contents (Elt F) → (⟨S65536x128, .f32⟩ : BufTy).Contents (Elt F)),
    StableHlo.binary main_v169 main_v168 main_v170 (mulf : (⟨S65536x128, .f32⟩ : BufTy).Contents (Elt F) → (⟨S65536x128, .f32⟩ : BufTy).Contents (Elt F) → (⟨S65536x128, .f32⟩ : BufTy).Contents (Elt F)),
    StableHlo.binary main_v166 main_v170 main_v171 (addf : (⟨S65536x128, .f32⟩ : BufTy).Contents (Elt F) → (⟨S65536x128, .f32⟩ : BufTy).Contents (Elt F) → (⟨S65536x128, .f32⟩ : BufTy).Contents (Elt F)) ]
/-- The buffers that node 3's operations write. -/
abbrev nops3_W : List (Ref sig .tc) := [main_v126, main_v127, main_v128, main_v129, main_v130, main_v131, main_v132, main_v133, main_v134, main_v135, main_v136, main_v137, main_v138, main_v139, main_v140, main_v141, main_v142, main_call6.cst.ref, main_call6.v0.ref, main_call6.v1.ref, main_v144, main_v145, main_v146, main_v147, main_cst_11, main_v148, main_cst_12, main_v149, main_v150, main_c_13, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.cst_3.ref, main_call7.v12.ref, main_call7.cst_4.ref, main_call7.call0.v0.ref, main_call7.call0.v1.ref, main_call7.call0.v2.ref, main_v152, main_v153, main_v154, main_v155, main_v156, main_v157, main_cst_14, main_v158, main_v159, main_v160, main_v161, main_v162, main_v163, main_v164, main_v165, main_v166, main_v167, main_v168, main_cst_15, main_v169, main_v170, main_v171]
set_option maxRecDepth 8192 in
theorem nops3_writes : (nops3 : List (HloOp τ sig (Elt F))).Forall fun op => op.writes ⊆ (nops3_W.map (Proc.devRef (τ := τ) .tc)).toFinset := by
  simp only [List.Forall]; exact ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩
/-- A buffer that node 3 does not write keeps its contents through it. -/
theorem nops3_keep (r : Ref sig .tc) (h : r ∉ nops3_W) (V : Valuation τ sig (Elt F)) :
    after nops3 V (Proc.devRef .tc r) = V (Proc.devRef .tc r) :=
  after_of_writes_sub nops3 V nops3_writes h

/-- The 74 operations of node 4, in order: up to the one that writes `main_v217`. -/
abbrev nops4 : List (HloOp τ sig (Elt F)) :=
  [ StableHlo.binary main_v79 main_v125 main_v172 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.unary main_arg2 main_v173 ((extractStridedSlice S1x256x256 ![4, 0, 0] · slices_S5x256x256_S1x256x256_4_0_0) : (⟨S5x256x256, .f32⟩ : BufTy).Contents (Elt F) → (⟨S1x256x256, .f32⟩ : BufTy).Contents (Elt F)),
    StableHlo.reshape main_v173 main_v174 rfl shapeCasts_S1x256x256_S256x256,
    StableHlo.unary main_arg3 main_v175 ((extractStridedSlice S1x256 ![4, 0] · slices_S5x256_S1x256_4_0) : (⟨S5x256, .f32⟩ : BufTy).Contents (Elt F) → (⟨S1x256, .f32⟩ : BufTy).Contents (Elt F)),
    StableHlo.reshape main_v175 main_v176 rfl shapeCasts_S1x256_S256,
    StableHlo.unary main_arg4 main_v177 ((extractStridedSlice S1x256x128 ![4, 0, 0] · slices_S5x256x128_S1x256x128_4_0_0) : (⟨S5x256x128, .f32⟩ : BufTy).Contents (Elt F) → (⟨S1x256x128, .f32⟩ : BufTy).Contents (Elt F)),
    StableHlo.reshape main_v177 main_v178 rfl shapeCasts_S1x256x128_S256x128,
    StableHlo.unary main_arg5 main_v179 ((extractStridedSlice S1x128 ![4, 0] · slices_S5x128_S1x128_4_0) : (⟨S5x128, .f32⟩ : BufTy).Contents (Elt F) → (⟨S1x128, .f32⟩ : BufTy).Contents (Elt F)),
    StableHlo.reshape main_v179 main_v180 rfl shapeCasts_S1x128_S128,
    StableHlo.unary main_arg6 main_v181 ((extractStridedSlice S1x128 ![4, 0] · slices_S5x128_S1x128_4_0) : (⟨S5x128, .f32⟩ : BufTy).Contents (Elt F) → (⟨S1x128, .f32⟩ : BufTy).Contents (Elt F)),
    StableHlo.reshape main_v181 main_v182 rfl shapeCasts_S1x128_S128,
    StableHlo.unary main_arg7 main_v183 ((extractStridedSlice S1x128 ![4, 0] · slices_S5x128_S1x128_4_0) : (⟨S5x128, .f32⟩ : BufTy).Contents (Elt F) → (⟨S1x128, .f32⟩ : BufTy).Contents (Elt F)),
    StableHlo.reshape main_v183 main_v184 rfl shapeCasts_S1x128_S128,
    StableHlo.binary main_v172 main_v174 main_v185 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_v176 main_v186 (broadcastInDim S1x256 ![1] bcast_S256_S1x256_1 : (⟨S256, .f32⟩ : BufTy).Contents (Elt F) → (⟨S1x256, .f32⟩ : BufTy).Contents (Elt F)),
    StableHlo.unary main_v186 main_v187 (broadcastInDim S65536x256 ![0, 1] bcast_S1x256_S65536x256_0_1 : (⟨S1x256, .f32⟩ : BufTy).Contents (Elt F) → (⟨S65536x256, .f32⟩ : BufTy).Contents (Elt F)),
    StableHlo.binary main_v185 main_v187 main_v188 (addf : (⟨S65536x256, .f32⟩ : BufTy).Contents (Elt F) → (⟨S65536x256, .f32⟩ : BufTy).Contents (Elt F) → (⟨S65536x256, .f32⟩ : BufTy).Contents (Elt F)),
    StableHlo.TRef.nullary main_call8.cst (constant S_ .f32 0x00000000#32),
    StableHlo.TRef.unary main_call8.cst main_call8.v0 (broadcastInDim S65536x256 ![] bcast_S_S65536x256),
    StableHlo.TRef.binary (.of main_v188 : StableHlo.TRef sig ⟨S65536x256, .f32⟩) main_call8.v0 main_call8.v1 maximumf,
    StableHlo.binary main_v189 main_v178 main_v190 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v180 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S65536x128 ![0, 1] bcast_S1x128_S65536x128_0_1 : (⟨S1x128, .f32⟩ : BufTy).Contents (Elt F) → (⟨S65536x128, .f32⟩ : BufTy).Contents (Elt F)),
    StableHlo.binary main_v190 main_v192 main_v193 (addf : (⟨S65536x128, .f32⟩ : BufTy).Contents (Elt F) → (⟨S65536x128, .f32⟩ : BufTy).Contents (Elt F) → (⟨S65536x128, .f32⟩ : BufTy).Contents (Elt F)),
    StableHlo.nullary main_cst_16 (constant S_ .f32 0x00000000#32),
    StableHlo.binary main_v193 main_cst_16 main_v194 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    StableHlo.nullary main_cst_17 (constant S_ .f32 0x47800000#32),
    StableHlo.unary main_cst_17 main_v195 (broadcastInDim S128 ![] bcast_S_S128 : (⟨S_, .f32⟩ : BufTy).Contents (Elt F) → (⟨S128, .f32⟩ : BufTy).Contents (Elt F)),
    StableHlo.binary main_v194 main_v195 main_v196 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call9.cst (constant S_ .f32 0x00000000#32),
    StableHlo.TRef.binary (.of main_v193 : StableHlo.TRef sig ⟨S65536x128, .f32⟩) main_call9.cst main_call9.v0 (fun x v => Host.reduceAdd x v reducesTo_S65536x128_S128_d0 h_S_),
    StableHlo.TRef.unary main_call9.v0 main_call9.v1 (broadcastInDim S1x128 ![1] bcast_S128_S1x128_1),
    StableHlo.TRef.nullary main_call9.cst_0 (constant S_ .f32 0x47800000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S65536x128 ![0, 1] bcast_S1x128_S65536x128_0_1),
    StableHlo.TRef.binary (.of main_v193 : StableHlo.TRef sig ⟨S65536x128, .f32⟩) main_call9.v4 main_call9.v5 subf,
    StableHlo.TRef.binary main_call9.v5 main_call9.v5 main_call9.v6 mulf,
    StableHlo.TRef.unary (.of main_c_18 : StableHlo.TRef sig ⟨S_, .i32⟩) main_call9.v7 (sitofp .f32),
    StableHlo.TRef.nullary main_call9.cst_1 (constant S_ .f32 0x47800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S65536x128_S128_d0 h_S_),
    StableHlo.TRef.unary main_call9.v8 main_call9.v10 (broadcastInDim S128 ![] bcast_S_S128),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S128 ![] bcast_S_S128),
    StableHlo.TRef.ternary main_call9.v12 main_call9.v11 main_call9.call0.v1 main_call9.call0.v2 (fun p a b => select (broadcastInDim S128 ![] bcast_S_S128 p) a b),
    StableHlo.unary main_v196 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S65536x128 ![0, 1] bcast_S1x128_S65536x128_0_1 : (⟨S1x128, .f32⟩ : BufTy).Contents (Elt F) → (⟨S65536x128, .f32⟩ : BufTy).Contents (Elt F)),
    StableHlo.binary main_v193 main_v199 main_v200 (subf : (⟨S65536x128, .f32⟩ : BufTy).Contents (Elt F) → (⟨S65536x128, .f32⟩ : BufTy).Contents (Elt F) → (⟨S65536x128, .f32⟩ : BufTy).Contents (Elt F)),
    StableHlo.unary main_v182 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S65536x128 ![0, 1] bcast_S1x128_S65536x128_0_1 : (⟨S1x128, .f32⟩ : BufTy).Contents (Elt F) → (⟨S65536x128, .f32⟩ : BufTy).Contents (Elt F)),
    StableHlo.binary main_v202 main_v200 main_v203 (mulf : (⟨S65536x128, .f32⟩ : BufTy).Contents (Elt F) → (⟨S65536x128, .f32⟩ : BufTy).Contents (Elt F) → (⟨S65536x128, .f32⟩ : BufTy).Contents (Elt F)),
    StableHlo.nullary main_cst_19 (constant S_ .f32 0x3727C5AC#32),
    StableHlo.unary main_cst_19 main_v204 (broadcastInDim S128 ![] bcast_S_S128 : (⟨S_, .f32⟩ : BufTy).Contents (Elt F) → (⟨S128, .f32⟩ : BufTy).Contents (Elt F)),
    StableHlo.binary main_v197 main_v204 main_v205 (addf : (⟨S128, .f32⟩ : BufTy).Contents (Elt F) → (⟨S128, .f32⟩ : BufTy).Contents (Elt F) → (⟨S128, .f32⟩ : BufTy).Contents (Elt F)),
    StableHlo.unary main_v205 main_v206 (Host.rsqrt : (⟨S128, .f32⟩ : BufTy).Contents (Elt F) → (⟨S128, .f32⟩ : BufTy).Contents (Elt F)),
    StableHlo.unary main_v206 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S65536x128 ![0, 1] bcast_S1x128_S65536x128_0_1 : (⟨S1x128, .f32⟩ : BufTy).Contents (Elt F) → (⟨S65536x128, .f32⟩ : BufTy).Contents (Elt F)),
    StableHlo.binary main_v203 main_v208 main_v209 (mulf : (⟨S65536x128, .f32⟩ : BufTy).Contents (Elt F) → (⟨S65536x128, .f32⟩ : BufTy).Contents (Elt F) → (⟨S65536x128, .f32⟩ : BufTy).Contents (Elt F)),
    StableHlo.unary main_v184 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S65536x128 ![0, 1] bcast_S1x128_S65536x128_0_1 : (⟨S1x128, .f32⟩ : BufTy).Contents (Elt F) → (⟨S65536x128, .f32⟩ : BufTy).Contents (Elt F)),
    StableHlo.binary main_v209 main_v211 main_v212 (addf : (⟨S65536x128, .f32⟩ : BufTy).Contents (Elt F) → (⟨S65536x128, .f32⟩ : BufTy).Contents (Elt F) → (⟨S65536x128, .f32⟩ : BufTy).Contents (Elt F)),
    StableHlo.unary main_arg8 main_v213 ((extractStridedSlice S1x65536x128 ![2, 0, 0] · slices_S3x65536x128_S1x65536x128_2_0_0) : (⟨S3x65536x128, .f32⟩ : BufTy).Contents (Elt F) → (⟨S1x65536x128, .f32⟩ : BufTy).Contents (Elt F)),
    StableHlo.reshape main_v213 main_v214 rfl shapeCasts_S1x65536x128_S65536x128,
    StableHlo.nullary main_cst_20 (constant S_ .f32 0x3DCCCCCD#32),
    StableHlo.unary main_cst_20 main_v215 (broadcastInDim S65536x128 ![] bcast_S_S65536x128 : (⟨S_, .f32⟩ : BufTy).Contents (Elt F) → (⟨S65536x128, .f32⟩ : BufTy).Contents (Elt F)),
    StableHlo.binary main_v215 main_v214 main_v216 (mulf : (⟨S65536x128, .f32⟩ : BufTy).Contents (Elt F) → (⟨S65536x128, .f32⟩ : BufTy).Contents (Elt F) → (⟨S65536x128, .f32⟩ : BufTy).Contents (Elt F)),
    StableHlo.binary main_v212 main_v216 main_v217 (addf : (⟨S65536x128, .f32⟩ : BufTy).Contents (Elt F) → (⟨S65536x128, .f32⟩ : BufTy).Contents (Elt F) → (⟨S65536x128, .f32⟩ : BufTy).Contents (Elt F)) ]
/-- The buffers that node 4's operations write. -/
abbrev nops4_W : List (Ref sig .tc) := [main_v172, main_v173, main_v174, main_v175, main_v176, main_v177, main_v178, main_v179, main_v180, main_v181, main_v182, main_v183, main_v184, main_v185, main_v186, main_v187, main_v188, main_call8.cst.ref, main_call8.v0.ref, main_call8.v1.ref, main_v190, main_v191, main_v192, main_v193, main_cst_16, main_v194, main_cst_17, main_v195, main_v196, main_c_18, main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.cst_3.ref, main_call9.v12.ref, main_call9.cst_4.ref, main_call9.call0.v0.ref, main_call9.call0.v1.ref, main_call9.call0.v2.ref, main_v198, main_v199, main_v200, main_v201, main_v202, main_v203, main_cst_19, main_v204, main_v205, main_v206, main_v207, main_v208, main_v209, main_v210, main_v211, main_v212, main_v213, main_v214, main_cst_20, main_v215, main_v216, main_v217]
set_option maxRecDepth 8192 in
theorem nops4_writes : (nops4 : List (HloOp τ sig (Elt F))).Forall fun op => op.writes ⊆ (nops4_W.map (Proc.devRef (τ := τ) .tc)).toFinset := by
  simp only [List.Forall]; exact ⟨Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide))), Finset.singleton_subset_iff.mpr (List.mem_toFinset.mpr (List.mem_map_of_mem (by decide)))⟩
/-- A buffer that node 4 does not write keeps its contents through it. -/
theorem nops4_keep (r : Ref sig .tc) (h : r ∉ nops4_W) (V : Valuation τ sig (Elt F)) :
    after nops4 V (Proc.devRef .tc r) = V (Proc.devRef .tc r) :=
  after_of_writes_sub nops4 V nops4_writes h

set_option maxRecDepth 8192 in
/-- @main's operations are the five nodes' in order. -/
theorem ops_eq_nodes : (ops : List (HloOp τ sig (Elt F))) = nops0 ++ (nops1 ++ (nops2 ++ (nops3 ++ (nops4)))) := rfl

end Cert.ReferenceIdeal.Hand

end
-- ==== Proof.Hand.RefStage.lean ====
/-
  One node of the reference network as pure functions of array contents, composed exactly as the reference
  program composes its operations: the two-layer perceptron on row n of the stacked parameters, the batch
  normalisation with the centred variance, a node on a given input, and a node on two earlier results joined
  along the columns with scaled noise added. Generic in the float values.
-/
import proofs.«103476_j5987184410999_2_alg».proof.Proof.Gen.ReferenceIdeal

noncomputable section

namespace Cert.ReferenceIdeal.Hand

open Cert.ReferenceIdeal Cert.ReferenceIdeal.Gen Idealize.ShloMosaic

/-! ## The slices of the stacked parameters, for any row -/

theorem sl_w1 : ∀ n : Fin 5, S5x256x256.Slices ![n.val, 0, 0] S1x256x256 := by decide
theorem sl_b1 : ∀ n : Fin 5, S5x256.Slices ![n.val, 0] S1x256 := by decide
theorem sl_w2 : ∀ n : Fin 5, S5x256x128.Slices ![n.val, 0, 0] S1x256x128 := by decide
theorem sl_v : ∀ n : Fin 5, S5x128.Slices ![n.val, 0] S1x128 := by decide
theorem sl_nz : ∀ m : Fin 3, S3x65536x128.Slices ![m.val, 0, 0] S1x65536x128 := by decide

variable {F : FTy → Type} [FloatOps F]

/-- Row n of a stack of five 128-vectors. -/
def rowVec (n : Fin 5) (v : FVec F S5x128 .f32) : FVec F S128 .f32 :=
  shapeCast S128 (extractStridedSlice S1x128 ![n.val, 0] v (sl_v n)) shapeCasts_S1x128_S128

/-- A 128-vector repeated down the 65536 rows. -/
def rows (u : FVec F S128 .f32) : FVec F S65536x128 .f32 :=
  broadcastInDim S65536x128 ![0, 1] bcast_S1x128_S65536x128_0_1 (broadcastInDim S1x128 ![1] bcast_S128_S1x128_1 u)

/-- y = relu(x·W₁[n] + b₁[n])·W₂[n] + b₂[n]. -/
def linT (n : Fin 5) (x : FVec F S65536x256 .f32) (w1 : FVec F S5x256x256 .f32) (b1 : FVec F S5x256 .f32)
    (w2 : FVec F S5x256x128 .f32) (b2 : FVec F S5x128 .f32) : FVec F S65536x128 .f32 :=
  addf
    (Host.dotGeneral dot_S65536x256_S256x128_S65536x128_1_0_0_1_n_n none
      (maximumf
        (addf
          (Host.dotGeneral dot_S65536x256_S256x256_S65536x256_1_0_0_1_n_n none x
            (shapeCast S256x256 (extractStridedSlice S1x256x256 ![n.val, 0, 0] w1 (sl_w1 n)) shapeCasts_S1x256x256_S256x256))
          (broadcastInDim S65536x256 ![0, 1] bcast_S1x256_S65536x256_0_1
            (broadcastInDim S1x256 ![1] bcast_S256_S1x256_1
              (shapeCast S256 (extractStridedSlice S1x256 ![n.val, 0] b1 (sl_b1 n)) shapeCasts_S1x256_S256))))
        (broadcastInDim S65536x256 ![] bcast_S_S65536x256 (constant S_ .f32 0x00000000#32)))
      (shapeCast S256x128 (extractStridedSlice S1x256x128 ![n.val, 0, 0] w2 (sl_w2 n)) shapeCasts_S1x256x128_S256x128))
    (rows (rowVec n b2))

/-- The column sums of a 65536 × 128 array, from zero. -/
def colSum (y : FVec F S65536x128 .f32) : FVec F S128 .f32 :=
  Host.reduceAdd y (constant S_ .f32 0x00000000#32) reducesTo_S65536x128_S128_d0 h_S_

/-- The column means. -/
def meanT (y : FVec F S65536x128 .f32) : FVec F S128 .f32 :=
  Host.divf (colSum y) (broadcastInDim S128 ![] bcast_S_S128 (constant S_ .f32 0x47800000#32))

/-- The count the variance divides by: 65536 less the degrees of freedom (none). -/
def countT : FVec F S_ .f32 :=
  subf (constant S_ .f32 0x47800000#32) (sitofp .f32 (constantI S_ 32 0#32))

/-- The centred second moments' column sums. -/
def sqSum (y : FVec F S65536x128 .f32) : FVec F S128 .f32 :=
  let d : FVec F S65536x128 .f32 :=
    subf y (broadcastInDim S65536x128 ![0, 1] bcast_S1x128_S65536x128_0_1
      (Host.divf (broadcastInDim S1x128 ![1] bcast_S128_S1x128_1 (colSum y))
        (broadcastInDim S1x128 ![] bcast_S_S1x128 (constant S_ .f32 0x47800000#32))))
  Host.reduceAdd (mulf d d) (constant S_ .f32 0x00000000#32) reducesTo_S65536x128_S128_d0 h_S_

/-- The column variances: the quotient where the count is positive, else not a number. -/
def varT (y : FVec F S65536x128 .f32) : FVec F S128 .f32 :=
  select (broadcastInDim S128 ![] bcast_S_S128 (cmpf .ogt (countT (F := F)) (constant S_ .f32 0x00000000#32)))
    (Host.divf (sqSum y) (broadcastInDim S128 ![] bcast_S_S128 (countT (F := F))))
    (broadcastInDim S128 ![] bcast_S_S128 (id (constant S_ .f32 0x7FC00000#32)))

/-- γ·(y − mean)·rsqrt(var + ε) + β, column by column. -/
def bnT (y : FVec F S65536x128 .f32) (gv bv : FVec F S128 .f32) : FVec F S65536x128 .f32 :=
  addf
    (mulf (mulf (rows gv) (subf y (rows (meanT y))))
      (rows (Host.rsqrt (addf (varT y) (broadcastInDim S128 ![] bcast_S_S128 (constant S_ .f32 0x3727C5AC#32))))))
    (rows bv)

/-- Node n on the input x. -/
def nodeT (n : Fin 5) (x : FVec F S65536x256 .f32) (w1 : FVec F S5x256x256 .f32) (b1 : FVec F S5x256 .f32)
    (w2 : FVec F S5x256x128 .f32) (b2 g be : FVec F S5x128 .f32) : FVec F S65536x128 .f32 :=
  bnT (linT n x w1 b1 w2 b2) (rowVec n g) (rowVec n be)

/-- Two 128-column arrays side by side. -/
def catT (xa xb : FVec F S65536x128 .f32) : FVec F S65536x256 .f32 :=
  concatenate S65536x256 1 [⟨S65536x128, xa⟩, ⟨S65536x128, xb⟩] concatenates_S65536x128_S65536x128_S65536x256_d1

/-- Plane m of the noise, scaled by a tenth. -/
def noiseT (m : Fin 3) (nz : FVec F S3x65536x128 .f32) : FVec F S65536x128 .f32 :=
  mulf (broadcastInDim S65536x128 ![] bcast_S_S65536x128 (constant S_ .f32 0x3DCCCCCD#32))
    (shapeCast S65536x128 (extractStridedSlice S1x65536x128 ![m.val, 0, 0] nz (sl_nz m)) shapeCasts_S1x65536x128_S65536x128)

/-- Node n on two earlier results joined along the columns, plus plane m of the scaled noise. -/
def nodeC (n : Fin 5) (m : Fin 3) (xa xb : FVec F S65536x128 .f32) (w1 : FVec F S5x256x256 .f32) (b1 : FVec F S5x256 .f32)
    (w2 : FVec F S5x256x128 .f32) (b2 g be : FVec F S5x128 .f32) (nz : FVec F S3x65536x128 .f32) : FVec F S65536x128 .f32 :=
  addf (nodeT n (catT xa xb) w1 b1 w2 b2 g be) (noiseT m nz)

end Cert.ReferenceIdeal.Hand

end
-- ==== Proof.Hand.RefNodeVal.lean ====
/-
  Each node's result after the node's operations, from any contents: the node function of the contents the
  operations read. The fold of the operations' results is composed by one rewriting pass; what remains are the
  identity casts around a reshape's and a called function's values, which are definitional.
-/
import proofs.«103476_j5987184410999_2_alg».proof.Proof.Hand.RefNodes
import proofs.«103476_j5987184410999_2_alg».proof.Proof.Hand.RefStage

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- Node 0's result after its operations, from any contents. -/
theorem node0_val (V : Valuation τ sig (Elt F)) :
    after nops0 V (Proc.devRef .tc main_v39)
      = nodeT 0 (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

set_option maxRecDepth 8192 in
set_option maxHeartbeats 40000000 in
/-- Node 1's result after its operations, from any contents. -/
theorem node1_val (V : Valuation τ sig (Elt F)) :
    after nops1 V (Proc.devRef .tc main_v79)
      = nodeT 1 (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

set_option maxRecDepth 8192 in
set_option maxHeartbeats 40000000 in
/-- Node 2's result after its operations, from any contents. -/
theorem node2_val (V : Valuation τ sig (Elt F)) :
    after nops2 V (Proc.devRef .tc main_v125)
      = nodeC 2 0 (V (main_v39 : DevRef τ sig)) (V (main_v79 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  rfl

set_option maxRecDepth 8192 in
set_option maxHeartbeats 40000000 in
/-- Node 3's result after its operations, from any contents. -/
theorem node3_val (V : Valuation τ sig (Elt F)) :
    after nops3 V (Proc.devRef .tc main_v171)
      = nodeC 3 1 (V (main_v39 : DevRef τ sig)) (V (main_v125 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  rfl

set_option maxRecDepth 8192 in
set_option maxHeartbeats 40000000 in
/-- Node 4's result after its operations, from any contents. -/
theorem node4_val (V : Valuation τ sig (Elt F)) :
    after nops4 V (Proc.devRef .tc main_v217)
      = nodeC 4 2 (V (main_v79 : DevRef τ sig)) (V (main_v125 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  rfl

end Cert.ReferenceIdeal.Hand

end
-- ==== Proof.Hand.RefIdx.lean ====
/-
  The node functions of the reference read at an index, at the ideal values: the layout operations (a row of the
  stacked parameters, a vector repeated down the rows, a scalar repeated, two arrays side by side), the two
  contractions as sums over the contracted axis, the column sums, and from them the perceptron, the batch
  normalisation with the centred variance, and a node, as the specification writes them. The variance's guard
  (the count 65536 − 0 is positive) selects the quotient. One statement serves all five nodes: the row is a parameter.
-/
import proofs.«103476_j5987184410999_2_alg».proof.Proof.Hand.RefStage
import proofs.«103476_j5987184410999_2_alg».proof.Proof.Hand.Net
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic

open Idealize.ShloMosaic.ValueIdx Cert.Hand.Spec
open scoped BigOperators

/-! ## Layout operations at an index -/

section Layout
variable {F : FTy → Type} [FloatOps F]

theorem rowVec_apply (n : Fin 5) (v : FVec F S5x128 .f32) (j : Fin 128) : rowVec n v (ix1 j) = v (ix2 n j) := by
  unfold rowVec
  refine (shapeCast_apply _ shapeCasts_S1x128_S128 (ix1 j) (ix2 (0 : Fin 1) j) ?_).trans ?_
  · rewrite [Shape.rowMajor_val_two, Shape.rowMajor_val_one]
    show 0 * 128 + j.val = j.val
    omega
  · exact extractStridedSlice_apply _ v (sl_v n) (ix2 (0 : Fin 1) j) (ix2 n j) (fun a => by
      match a with
      | ⟨0, _⟩ => show n.val = n.val + 0; omega
      | ⟨1, _⟩ => show j.val = 0 + j.val; omega)

theorem rows_apply (u : FVec F S128 .f32) (r : Fin 65536) (j : Fin 128) : rows u (ix2 r j) = u (ix1 j) := by
  unfold rows
  refine (broadcastInDim_apply _ bcast_S1x128_S65536x128_0_1 _ (ix2 r j) (ix2 (0 : Fin 1) j) (fun a => by
    match a with
    | ⟨0, _⟩ => show 0 = if (1 : Nat) = 1 then 0 else r.val; rw [if_pos rfl]
    | ⟨1, _⟩ => show j.val = if (128 : Nat) = 1 then 0 else j.val; rw [if_neg (by decide)])).trans ?_
  exact broadcastInDim_apply _ bcast_S128_S1x128_1 u (ix2 (0 : Fin 1) j) (ix1 j) (fun a => by
    match a with
    | ⟨0, _⟩ => show j.val = if (128 : Nat) = 1 then 0 else j.val; rw [if_neg (by decide)])

/-- Row n of the stacked first-layer biases, repeated down the rows. -/
theorem b1_apply (n : Fin 5) (b1 : FVec F S5x256 .f32) (r : Fin 65536) (h : Fin 256) :
    broadcastInDim S65536x256 ![0, 1] bcast_S1x256_S65536x256_0_1
      (broadcastInDim S1x256 ![1] bcast_S256_S1x256_1
        (shapeCast S256 (extractStridedSlice S1x256 ![n.val, 0] b1 (sl_b1 n)) shapeCasts_S1x256_S256)) (ix2 r h)
      = b1 (ix2 n h) := by
  refine (broadcastInDim_apply _ bcast_S1x256_S65536x256_0_1 _ (ix2 r h) (ix2 (0 : Fin 1) h) (fun a => by
    match a with
    | ⟨0, _⟩ => show 0 = if (1 : Nat) = 1 then 0 else r.val; rw [if_pos rfl]
    | ⟨1, _⟩ => show h.val = if (256 : Nat) = 1 then 0 else h.val; rw [if_neg (by decide)])).trans ?_
  refine (broadcastInDim_apply _ bcast_S256_S1x256_1 _ (ix2 (0 : Fin 1) h) (ix1 h) (fun a => by
    match a with
    | ⟨0, _⟩ => show h.val = if (256 : Nat) = 1 then 0 else h.val; rw [if_neg (by decide)])).trans ?_
  refine (shapeCast_apply _ shapeCasts_S1x256_S256 (ix1 h) (ix2 (0 : Fin 1) h) ?_).trans ?_
  · rewrite [Shape.rowMajor_val_two, Shape.rowMajor_val_one]
    show 0 * 256 + h.val = h.val
    omega
  · exact extractStridedSlice_apply _ b1 (sl_b1 n) (ix2 (0 : Fin 1) h) (ix2 n h) (fun a => by
      match a with
      | ⟨0, _⟩ => show n.val = n.val + 0; omega
      | ⟨1, _⟩ => show h.val = 0 + h.val; omega)

theorem w1_apply (n : Fin 5) (w1 : FVec F S5x256x256 .f32) (k h : Fin 256) :
    shapeCast S256x256 (extractStridedSlice S1x256x256 ![n.val, 0, 0] w1 (sl_w1 n)) shapeCasts_S1x256x256_S256x256 (ix2 k h)
      = w1 (ix3 n k h) := by
  refine (shapeCast_apply _ shapeCasts_S1x256x256_S256x256 (ix2 k h) (ix3 (0 : Fin 1) k h) ?_).trans ?_
  · rewrite [Shape.rowMajor_val_three, Shape.rowMajor_val_two]
    show (0 * 256 + k.val) * 256 + h.val = k.val * 256 + h.val
    omega
  · exact extractStridedSlice_apply _ w1 (sl_w1 n) (ix3 (0 : Fin 1) k h) (ix3 n k h) (fun a => by
      match a with
      | ⟨0, _⟩ => show n.val = n.val + 0; omega
      | ⟨1, _⟩ => show k.val = 0 + k.val; omega
      | ⟨2, _⟩ => show h.val = 0 + h.val; omega)

theorem w2_apply (n : Fin 5) (w2 : FVec F S5x256x128 .f32) (h : Fin 256) (j : Fin 128) :
    shapeCast S256x128 (extractStridedSlice S1x256x128 ![n.val, 0, 0] w2 (sl_w2 n)) shapeCasts_S1x256x128_S256x128 (ix2 h j)
      = w2 (ix3 n h j) := by
  refine (shapeCast_apply _ shapeCasts_S1x256x128_S256x128 (ix2 h j) (ix3 (0 : Fin 1) h j) ?_).trans ?_
  · rewrite [Shape.rowMajor_val_three, Shape.rowMajor_val_two]
    show (0 * 256 + h.val) * 128 + j.val = h.val * 128 + j.val
    omega
  · exact extractStridedSlice_apply _ w2 (sl_w2 n) (ix3 (0 : Fin 1) h j) (ix3 n h j) (fun a => by
      match a with
      | ⟨0, _⟩ => show n.val = n.val + 0; omega
      | ⟨1, _⟩ => show h.val = 0 + h.val; omega
      | ⟨2, _⟩ => show j.val = 0 + j.val; omega)

theorem nz_apply (m : Fin 3) (nz : FVec F S3x65536x128 .f32) (r : Fin 65536) (j : Fin 128) :
    shapeCast S65536x128 (extractStridedSlice S1x65536x128 ![m.val, 0, 0] nz (sl_nz m)) shapeCasts_S1x65536x128_S65536x128 (ix2 r j)
      = nz (ix3 m r j) := by
  refine (shapeCast_apply _ shapeCasts_S1x65536x128_S65536x128 (ix2 r j) (ix3 (0 : Fin 1) r j) ?_).trans ?_
  · rewrite [Shape.rowMajor_val_three, Shape.rowMajor_val_two]
    show (0 * 65536 + r.val) * 128 + j.val = r.val * 128 + j.val
    omega
  · exact extractStridedSlice_apply _ nz (sl_nz m) (ix3 (0 : Fin 1) r j) (ix3 m r j) (fun a => by
      match a with
      | ⟨0, _⟩ => show m.val = m.val + 0; omega
      | ⟨1, _⟩ => show r.val = 0 + r.val; omega
      | ⟨2, _⟩ => show j.val = 0 + j.val; omega)

/-- A scalar repeated over any shape reads the scalar. -/
theorem splat_apply {α : Type} {t : Shape} (hb : S_.BroadcastsInDim t (![] : Fin 0 → Fin t.rank)) (c : S_.Idx → α) (i : t.Idx) :
    broadcastInDim t ![] hb c i = c ix0 :=
  broadcastInDim_apply _ hb c i ix0 (fun a => a.elim0)

theorem catT_left (xa xb : FVec F S65536x128 .f32) (r : Fin 65536) (k : Fin 128) :
    catT xa xb (ix2 r (⟨k.val, by omega⟩ : Fin 256)) = xa (ix2 r k) := by
  unfold catT
  exact concatenate_pair_apply_left (1 : Fin S65536x256.rank) xa xb concatenates_S65536x128_S65536x128_S65536x256_d1
    (ix2 r (⟨k.val, by omega⟩ : Fin 256)) rfl (ix2 r k) (fun b => by
      match b with
      | ⟨0, _⟩ => rfl
      | ⟨1, _⟩ => rfl)

theorem catT_right (xa xb : FVec F S65536x128 .f32) (r : Fin 65536) (k : Fin 128) :
    catT xa xb (ix2 r (⟨128 + k.val, by omega⟩ : Fin 256)) = xb (ix2 r k) := by
  unfold catT
  exact concatenate_pair_apply_right (1 : Fin S65536x256.rank) xa xb concatenates_S65536x128_S65536x128_S65536x256_d1
    (ix2 r (⟨128 + k.val, by omega⟩ : Fin 256)) rfl rfl (ix2 r k) (fun b hb => by
      match b, hb with
      | ⟨0, _⟩, _ => rfl
      | ⟨1, _⟩, hb => exact absurd rfl hb) (by show k.val + 128 = 128 + k.val; omega)

end Layout

/-! ## The contractions at an index -/

theorem lhs_d1_0 (i : S65536x256.Idx) (q : dot_S65536x256_S256x256_S65536x256_1_0_0_1_n_n.contr.Idx) :
    (dot_S65536x256_S256x256_S65536x256_1_0_0_1_n_n.lhsIdx i q 0).val = (i 0).val := by
  unfold DotDims.lhsIdx
  rw [dif_neg (show ¬(0 : Fin S65536x256.rank) ∈ dot_S65536x256_S256x256_S65536x256_1_0_0_1_n_n.lhsBatch by decide), dif_pos (show (0 : Fin S65536x256.rank) ∈ dot_S65536x256_S256x256_S65536x256_1_0_0_1_n_n.lhsNonContracting by decide)]
  rfl
theorem lhs_d1_1 (i : S65536x256.Idx) (q : dot_S65536x256_S256x256_S65536x256_1_0_0_1_n_n.contr.Idx) :
    (dot_S65536x256_S256x256_S65536x256_1_0_0_1_n_n.lhsIdx i q 1).val = (q ⟨0, by decide⟩).val :=
  dot_S65536x256_S256x256_S65536x256_1_0_0_1_n_n.lhsIdx_val_of_single rfl i q
theorem rhs_d1_0 (i : S65536x256.Idx) (q : dot_S65536x256_S256x256_S65536x256_1_0_0_1_n_n.contr.Idx) :
    (dot_S65536x256_S256x256_S65536x256_1_0_0_1_n_n.rhsIdx i q 0).val = (q ⟨0, by decide⟩).val :=
  dot_S65536x256_S256x256_S65536x256_1_0_0_1_n_n.rhsIdx_val_of_single rfl i q
theorem rhs_d1_1 (i : S65536x256.Idx) (q : dot_S65536x256_S256x256_S65536x256_1_0_0_1_n_n.contr.Idx) :
    (dot_S65536x256_S256x256_S65536x256_1_0_0_1_n_n.rhsIdx i q 1).val = (i 1).val := by
  unfold DotDims.rhsIdx
  rw [dif_neg (show ¬(1 : Fin S256x256.rank) ∈ dot_S65536x256_S256x256_S65536x256_1_0_0_1_n_n.rhsBatch by decide), dif_pos (show (1 : Fin S256x256.rank) ∈ dot_S65536x256_S256x256_S65536x256_1_0_0_1_n_n.rhsNonContracting by decide)]
  rfl

theorem lhs_d2_0 (i : S65536x128.Idx) (q : dot_S65536x256_S256x128_S65536x128_1_0_0_1_n_n.contr.Idx) :
    (dot_S65536x256_S256x128_S65536x128_1_0_0_1_n_n.lhsIdx i q 0).val = (i 0).val := by
  unfold DotDims.lhsIdx
  rw [dif_neg (show ¬(0 : Fin S65536x256.rank) ∈ dot_S65536x256_S256x128_S65536x128_1_0_0_1_n_n.lhsBatch by decide), dif_pos (show (0 : Fin S65536x256.rank) ∈ dot_S65536x256_S256x128_S65536x128_1_0_0_1_n_n.lhsNonContracting by decide)]
  rfl
theorem lhs_d2_1 (i : S65536x128.Idx) (q : dot_S65536x256_S256x128_S65536x128_1_0_0_1_n_n.contr.Idx) :
    (dot_S65536x256_S256x128_S65536x128_1_0_0_1_n_n.lhsIdx i q 1).val = (q ⟨0, by decide⟩).val :=
  dot_S65536x256_S256x128_S65536x128_1_0_0_1_n_n.lhsIdx_val_of_single rfl i q
theorem rhs_d2_0 (i : S65536x128.Idx) (q : dot_S65536x256_S256x128_S65536x128_1_0_0_1_n_n.contr.Idx) :
    (dot_S65536x256_S256x128_S65536x128_1_0_0_1_n_n.rhsIdx i q 0).val = (q ⟨0, by decide⟩).val :=
  dot_S65536x256_S256x128_S65536x128_1_0_0_1_n_n.rhsIdx_val_of_single rfl i q
theorem rhs_d2_1 (i : S65536x128.Idx) (q : dot_S65536x256_S256x128_S65536x128_1_0_0_1_n_n.contr.Idx) :
    (dot_S65536x256_S256x128_S65536x128_1_0_0_1_n_n.rhsIdx i q 1).val = (i 1).val := by
  unfold DotDims.rhsIdx
  rw [dif_neg (show ¬(1 : Fin S256x128.rank) ∈ dot_S65536x256_S256x128_S65536x128_1_0_0_1_n_n.rhsBatch by decide), dif_pos (show (1 : Fin S256x128.rank) ∈ dot_S65536x256_S256x128_S65536x128_1_0_0_1_n_n.rhsNonContracting by decide)]
  rfl

/-- The first contraction: row r of the left operand against column h of the right. -/
theorem dot1_apply (l : FVec Ideal S65536x256 .f32) (w : FVec Ideal S256x256 .f32) (r : Fin 65536) (h : Fin 256) :
    Host.dotGeneral dot_S65536x256_S256x256_S65536x256_1_0_0_1_n_n none l w (ix2 r h) = ∑ k : Fin 256, l (ix2 r k) * w (ix2 k h) := by
  simp only [Host.dotGeneral]
  rw [Ideal.dotGeneral_apply, ← Equiv.sum_comp (ValueIdx.contrEquiv1 dot_S65536x256_S256x256_S65536x256_1_0_0_1_n_n 256 rfl rfl).symm]
  refine Finset.sum_congr rfl fun k _ => ?_
  have hk := ValueIdx.contrEquiv1_symm_val dot_S65536x256_S256x256_S65536x256_1_0_0_1_n_n 256 rfl rfl k
  have el : dot_S65536x256_S256x256_S65536x256_1_0_0_1_n_n.lhsIdx (ix2 r h) ((ValueIdx.contrEquiv1 dot_S65536x256_S256x256_S65536x256_1_0_0_1_n_n 256 rfl rfl).symm k) = ix2 r k := funext fun a => Fin.ext (by
    match a with
    | ⟨0, _⟩ => exact lhs_d1_0 _ _
    | ⟨1, _⟩ => exact (lhs_d1_1 _ _).trans hk)
  have er : dot_S65536x256_S256x256_S65536x256_1_0_0_1_n_n.rhsIdx (ix2 r h) ((ValueIdx.contrEquiv1 dot_S65536x256_S256x256_S65536x256_1_0_0_1_n_n 256 rfl rfl).symm k) = ix2 k h := funext fun a => Fin.ext (by
    match a with
    | ⟨0, _⟩ => exact (rhs_d1_0 _ _).trans hk
    | ⟨1, _⟩ => exact rhs_d1_1 _ _)
  rw [el, er]

/-- The second contraction. -/
theorem dot2_apply (l : FVec Ideal S65536x256 .f32) (w : FVec Ideal S256x128 .f32) (r : Fin 65536) (j : Fin 128) :
    Host.dotGeneral dot_S65536x256_S256x128_S65536x128_1_0_0_1_n_n none l w (ix2 r j) = ∑ h : Fin 256, l (ix2 r h) * w (ix2 h j) := by
  simp only [Host.dotGeneral]
  rw [Ideal.dotGeneral_apply, ← Equiv.sum_comp (ValueIdx.contrEquiv1 dot_S65536x256_S256x128_S65536x128_1_0_0_1_n_n 256 rfl rfl).symm]
  refine Finset.sum_congr rfl fun k _ => ?_
  have hk := ValueIdx.contrEquiv1_symm_val dot_S65536x256_S256x128_S65536x128_1_0_0_1_n_n 256 rfl rfl k
  have el : dot_S65536x256_S256x128_S65536x128_1_0_0_1_n_n.lhsIdx (ix2 r j) ((ValueIdx.contrEquiv1 dot_S65536x256_S256x128_S65536x128_1_0_0_1_n_n 256 rfl rfl).symm k) = ix2 r k := funext fun a => Fin.ext (by
    match a with
    | ⟨0, _⟩ => exact lhs_d2_0 _ _
    | ⟨1, _⟩ => exact (lhs_d2_1 _ _).trans hk)
  have er : dot_S65536x256_S256x128_S65536x128_1_0_0_1_n_n.rhsIdx (ix2 r j) ((ValueIdx.contrEquiv1 dot_S65536x256_S256x128_S65536x128_1_0_0_1_n_n 256 rfl rfl).symm k) = ix2 k j := funext fun a => Fin.ext (by
    match a with
    | ⟨0, _⟩ => exact (rhs_d2_0 _ _).trans hk
    | ⟨1, _⟩ => exact rhs_d2_1 _ _)
  rw [el, er]

/-! ## The perceptron at an index -/

theorem linT_apply (n : Fin 5) (x : FVec Ideal S65536x256 .f32) (w1 : FVec Ideal S5x256x256 .f32) (b1 : FVec Ideal S5x256 .f32)
    (w2 : FVec Ideal S5x256x128 .f32) (b2 : FVec Ideal S5x128 .f32) (r : Fin 65536) (j : Fin 128) :
    linT n x w1 b1 w2 b2 (ix2 r j)
      = lin (fun r k => x (ix2 r k)) (fun k h => w1 (ix3 n k h)) (fun h => b1 (ix2 n h)) (fun h j => w2 (ix3 n h j))
          (fun j => b2 (ix2 n j)) r j := by
  unfold linT lin
  rw [addf_apply, dot2_apply, rows_apply, rowVec_apply]
  congr 1
  refine Finset.sum_congr rfl fun h _ => ?_
  rw [maximumf_apply, addf_apply, dot1_apply, b1_apply, w2_apply, splat_apply, constant_apply, Ideal.ofBits_zero_f32]
  congr 2
  refine congrArg (· + _) (Finset.sum_congr rfl fun k _ => ?_)
  rw [w1_apply]

/-! ## The batch normalisation at an index -/

theorem colSum_apply (y : FVec Ideal S65536x128 .f32) (j : Fin 128) : colSum y (ix1 j) = ∑ r : Fin 65536, y (ix2 r j) := by
  unfold colSum
  simp only [Host.reduceAdd, Ideal.hostReduceAdd_def]
  rw [Ideal.hostReduceAdd_single reducesTo_S65536x128_S128_d0 (by decide), constant_apply, Ideal.ofBits_zero_f32, zero_add]
  refine Finset.sum_congr rfl fun k _ => ?_
  exact congrArg y (funext fun a => Fin.ext (by match a with | ⟨0, _⟩ => rfl | ⟨1, _⟩ => rfl))

theorem meanT_apply (y : FVec Ideal S65536x128 .f32) (j : Fin 128) :
    meanT y (ix1 j) = meanOf (fun r j => y (ix2 r j)) j := by
  unfold meanT meanOf
  show Ideal.div (colSum y (ix1 j)) (broadcastInDim S128 ![] bcast_S_S128 (constant (F := Ideal) S_ .f32 0x47800000#32) (ix1 j)) = _
  rw [colSum_apply, splat_apply, constant_apply]

theorem countT_apply (i : S_.Idx) : countT (F := Ideal) i = ((65536 : ℝ) : EReal) := by
  show Ideal.ofBits .f32 0x47800000#32 - (((0#32 : BitVec 32).toInt : ℝ) : EReal) = _
  exact Cert.Hand.Algebra.ofBits_65536_sub_zero

theorem sqSum_apply (y : FVec Ideal S65536x128 .f32) (j : Fin 128) :
    sqSum y (ix1 j) = ∑ r : Fin 65536, (y (ix2 r j) - meanOf (fun r j => y (ix2 r j)) j) * (y (ix2 r j) - meanOf (fun r j => y (ix2 r j)) j) := by
  unfold sqSum
  simp only [Host.reduceAdd, Ideal.hostReduceAdd_def]
  rw [Ideal.hostReduceAdd_single reducesTo_S65536x128_S128_d0 (by decide), constant_apply, Ideal.ofBits_zero_f32, zero_add]
  refine Finset.sum_congr rfl fun (k : Fin 65536) _ => ?_
  have hi : (Shape.Reduces.lift (s := S65536x128) (t := S128) (a := 0) (by decide) (ix1 j) k) = ix2 k j :=
    funext fun a => Fin.ext (by match a with | ⟨0, _⟩ => rfl | ⟨1, _⟩ => rfl)
  rw [hi, mulf_apply, subf_apply]
  have hm : broadcastInDim S65536x128 ![0, 1] bcast_S1x128_S65536x128_0_1
      (Host.divf (broadcastInDim S1x128 ![1] bcast_S128_S1x128_1 (colSum y))
        (broadcastInDim S1x128 ![] bcast_S_S1x128 (constant (F := Ideal) S_ .f32 0x47800000#32))) (ix2 k j)
      = meanOf (fun r j => y (ix2 r j)) j := by
    refine (broadcastInDim_apply _ bcast_S1x128_S65536x128_0_1 _ (ix2 k j) (ix2 (0 : Fin 1) j) (fun a => by
      match a with
      | ⟨0, _⟩ => show 0 = if (1 : Nat) = 1 then 0 else k.val; rw [if_pos rfl]
      | ⟨1, _⟩ => show j.val = if (128 : Nat) = 1 then 0 else j.val; rw [if_neg (by decide)])).trans ?_
    show Ideal.div (broadcastInDim S1x128 ![1] bcast_S128_S1x128_1 (colSum y) (ix2 (0 : Fin 1) j))
      (broadcastInDim S1x128 ![] bcast_S_S1x128 (constant (F := Ideal) S_ .f32 0x47800000#32) (ix2 (0 : Fin 1) j)) = _
    rw [splat_apply, constant_apply,
      broadcastInDim_apply _ bcast_S128_S1x128_1 (colSum y) (ix2 (0 : Fin 1) j) (ix1 j) (fun a => by
        match a with
        | ⟨0, _⟩ => show j.val = if (128 : Nat) = 1 then 0 else j.val; rw [if_neg (by decide)]),
      colSum_apply]
    rfl
  rw [hm]

theorem varT_apply (y : FVec Ideal S65536x128 .f32) (j : Fin 128) :
    varT y (ix1 j)
      = Ideal.div (∑ r : Fin 65536, (y (ix2 r j) - meanOf (fun r j => y (ix2 r j)) j) * (y (ix2 r j) - meanOf (fun r j => y (ix2 r j)) j)) N := by
  unfold varT
  have hc : cmpf .ogt (countT (F := Ideal)) (constant S_ .f32 0x00000000#32) ix0 = 1#1 := by
    show Ideal.cmp .ogt (countT (F := Ideal) ix0) (Ideal.ofBits .f32 0x00000000#32) = 1#1
    rw [countT_apply]
    show BitVec.ofBool (decide (Ideal.ofBits .f32 0x00000000#32 < ((65536 : ℝ) : EReal))) = 1#1
    rw [decide_eq_true Cert.Hand.Algebra.zero_lt_65536]
    rfl
  rw [select_apply, splat_apply bcast_S_S128 (cmpf .ogt (countT (F := Ideal)) (constant S_ .f32 0x00000000#32)) (ix1 j), hc, select_one]
  show Ideal.div (sqSum y (ix1 j)) (broadcastInDim S128 ![] bcast_S_S128 (countT (F := Ideal)) (ix1 j)) = _
  rw [splat_apply bcast_S_S128 (countT (F := Ideal)) (ix1 j), countT_apply, sqSum_apply, N_eq]

theorem bnT_apply (y : FVec Ideal S65536x128 .f32) (gv bv : FVec Ideal S128 .f32) (r : Fin 65536) (j : Fin 128) :
    bnT y gv bv (ix2 r j) = bnRef (fun r j => y (ix2 r j)) (fun j => gv (ix1 j)) (fun j => bv (ix1 j)) r j := by
  unfold bnT bnRef
  rw [addf_apply, mulf_apply, mulf_apply, subf_apply, rows_apply, rows_apply, rows_apply, rows_apply, meanT_apply]
  show _ * _ * Ideal.rsqrt (varT y (ix1 j) + broadcastInDim S128 ![] bcast_S_S128 (constant (F := Ideal) S_ .f32 0x3727C5AC#32) (ix1 j)) + _ = _
  rw [varT_apply, splat_apply, constant_apply]

/-! ## A node at an index -/

theorem nodeT_apply (n : Fin 5) (x : FVec Ideal S65536x256 .f32) (w1 : FVec Ideal S5x256x256 .f32) (b1 : FVec Ideal S5x256 .f32)
    (w2 : FVec Ideal S5x256x128 .f32) (b2 g be : FVec Ideal S5x128 .f32) (r : Fin 65536) (j : Fin 128) :
    nodeT n x w1 b1 w2 b2 g be (ix2 r j)
      = bnRef (lin (fun r k => x (ix2 r k)) (fun k h => w1 (ix3 n k h)) (fun h => b1 (ix2 n h)) (fun h j => w2 (ix3 n h j))
          (fun j => b2 (ix2 n j))) (fun j => g (ix2 n j)) (fun j => be (ix2 n j)) r j := by
  unfold nodeT
  rw [bnT_apply]
  have h1 : (fun r j => linT n x w1 b1 w2 b2 (ix2 r j))
      = lin (fun r k => x (ix2 r k)) (fun k h => w1 (ix3 n k h)) (fun h => b1 (ix2 n h)) (fun h j => w2 (ix3 n h j))
          (fun j => b2 (ix2 n j)) := funext fun r => funext fun j => linT_apply n x w1 b1 w2 b2 r j
  have h2 : (fun j => rowVec n g (ix1 j)) = fun j => g (ix2 n j) := funext fun j => rowVec_apply n g j
  have h3 : (fun j => rowVec n be (ix1 j)) = fun j => be (ix2 n j) := funext fun j => rowVec_apply n be j
  rw [h1, h2, h3]

theorem catT_apply (xa xb : FVec Ideal S65536x128 .f32) (r : Fin 65536) (k : Fin 256) :
    catT xa xb (ix2 r k) = cat (fun r j => xa (ix2 r j)) (fun r j => xb (ix2 r j)) r k := by
  unfold cat
  by_cases h : k.val < 128
  · rw [dif_pos h]
    exact catT_left xa xb r ⟨k.val, h⟩
  · rw [dif_neg h]
    have hk : k = (⟨128 + (k.val - 128), by omega⟩ : Fin 256) := Fin.ext (by show k.val = 128 + (k.val - 128); omega)
    have := catT_right xa xb r ⟨k.val - 128, by omega⟩
    rw [← hk] at this
    exact this

theorem noiseT_apply (m : Fin 3) (nz : FVec Ideal S3x65536x128 .f32) (r : Fin 65536) (j : Fin 128) :
    noiseT m nz (ix2 r j) = tenth * nz (ix3 m r j) := by
  unfold noiseT
  rw [mulf_apply, splat_apply, constant_apply, nz_apply]

theorem nodeC_apply (n : Fin 5) (m : Fin 3) (xa xb : FVec Ideal S65536x128 .f32) (w1 : FVec Ideal S5x256x256 .f32)
    (b1 : FVec Ideal S5x256 .f32) (w2 : FVec Ideal S5x256x128 .f32) (b2 g be : FVec Ideal S5x128 .f32)
    (nz : FVec Ideal S3x65536x128 .f32) (r : Fin 65536) (j : Fin 128) :
    nodeC n m xa xb w1 b1 w2 b2 g be nz (ix2 r j)
      = bnRef (lin (cat (fun r j => xa (ix2 r j)) (fun r j => xb (ix2 r j))) (fun k h => w1 (ix3 n k h)) (fun h => b1 (ix2 n h))
          (fun h j => w2 (ix3 n h j)) (fun j => b2 (ix2 n j))) (fun j => g (ix2 n j)) (fun j => be (ix2 n j)) r j
        + tenth * nz (ix3 m r j) := by
  unfold nodeC
  rw [addf_apply, nodeT_apply, noiseT_apply]
  have h1 : (fun r k => catT xa xb (ix2 r k)) = cat (fun r j => xa (ix2 r j)) (fun r j => xb (ix2 r j)) :=
    funext fun r => funext fun k => catT_apply xa xb r k
  rw [h1]

end Cert.ReferenceIdeal.Hand

end
-- ==== Proof.Hand.RefRead.lean ====
/-
  The reference program's five results read at an index: each is the network's node function (the specification's
  reading with the centred variance) of the arguments' launch contents. A node's result after the node's
  operations is the node function of what the operations read; the operations of the later nodes leave it alone,
  and no operation writes an argument.
-/
import proofs.«103476_j5987184410999_2_alg».proof.Proof.Hand.RefNodeVal
import proofs.«103476_j5987184410999_2_alg».proof.Proof.Hand.RefIdx

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Hand.Spec Cert.Hand

/-- The network's arguments read off a device's contents. -/
def argsOf (V : Valuation τ sig (Elt Ideal)) : Net.Args where
  x1 := fun r k => V (main_arg0 : DevRef τ sig) (ix2 r k)
  x2 := fun r k => V (main_arg1 : DevRef τ sig) (ix2 r k)
  W1 := fun i k h => V (main_arg2 : DevRef τ sig) (ix3 i k h)
  b1 := fun i h => V (main_arg3 : DevRef τ sig) (ix2 i h)
  W2 := fun i h j => V (main_arg4 : DevRef τ sig) (ix3 i h j)
  b2 := fun i j => V (main_arg5 : DevRef τ sig) (ix2 i j)
  g := fun i j => V (main_arg6 : DevRef τ sig) (ix2 i j)
  be := fun i j => V (main_arg7 : DevRef τ sig) (ix2 i j)
  nz := fun i r j => V (main_arg8 : DevRef τ sig) (ix3 i r j)

/-- Two lines run one after the other fold as the second over the first's result. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- @main's fold is the five nodes' folds in order. -/
theorem after_ops (V : Valuation τ sig (Elt Ideal)) :
    after ops V = after nops4 (after nops3 (after nops2 (after nops1 (after nops0 V)))) := by
  rw [ops_eq_nodes, after_app, after_app, after_app, after_app]

set_option maxRecDepth 8192 in
/-- Node 0's operations write no argument. -/
theorem argsOf_nops0 (V : Valuation τ sig (Elt Ideal)) : argsOf (after nops0 V) = argsOf V := by
  unfold argsOf
  rw [nops0_keep main_arg0 (by decide) V,
    nops0_keep main_arg1 (by decide) V,
    nops0_keep main_arg2 (by decide) V,
    nops0_keep main_arg3 (by decide) V,
    nops0_keep main_arg4 (by decide) V,
    nops0_keep main_arg5 (by decide) V,
    nops0_keep main_arg6 (by decide) V,
    nops0_keep main_arg7 (by decide) V,
    nops0_keep main_arg8 (by decide) V]

set_option maxRecDepth 8192 in
/-- Node 1's operations write no argument. -/
theorem argsOf_nops1 (V : Valuation τ sig (Elt Ideal)) : argsOf (after nops1 V) = argsOf V := by
  unfold argsOf
  rw [nops1_keep main_arg0 (by decide) V,
    nops1_keep main_arg1 (by decide) V,
    nops1_keep main_arg2 (by decide) V,
    nops1_keep main_arg3 (by decide) V,
    nops1_keep main_arg4 (by decide) V,
    nops1_keep main_arg5 (by decide) V,
    nops1_keep main_arg6 (by decide) V,
    nops1_keep main_arg7 (by decide) V,
    nops1_keep main_arg8 (by decide) V]

set_option maxRecDepth 8192 in
/-- Node 2's operations write no argument. -/
theorem argsOf_nops2 (V : Valuation τ sig (Elt Ideal)) : argsOf (after nops2 V) = argsOf V := by
  unfold argsOf
  rw [nops2_keep main_arg0 (by decide) V,
    nops2_keep main_arg1 (by decide) V,
    nops2_keep main_arg2 (by decide) V,
    nops2_keep main_arg3 (by decide) V,
    nops2_keep main_arg4 (by decide) V,
    nops2_keep main_arg5 (by decide) V,
    nops2_keep main_arg6 (by decide) V,
    nops2_keep main_arg7 (by decide) V,
    nops2_keep main_arg8 (by decide) V]

set_option maxRecDepth 8192 in
/-- Node 3's operations write no argument. -/
theorem argsOf_nops3 (V : Valuation τ sig (Elt Ideal)) : argsOf (after nops3 V) = argsOf V := by
  unfold argsOf
  rw [nops3_keep main_arg0 (by decide) V,
    nops3_keep main_arg1 (by decide) V,
    nops3_keep main_arg2 (by decide) V,
    nops3_keep main_arg3 (by decide) V,
    nops3_keep main_arg4 (by decide) V,
    nops3_keep main_arg5 (by decide) V,
    nops3_keep main_arg6 (by decide) V,
    nops3_keep main_arg7 (by decide) V,
    nops3_keep main_arg8 (by decide) V]

set_option maxRecDepth 8192 in
/-- Node 4's operations write no argument. -/
theorem argsOf_nops4 (V : Valuation τ sig (Elt Ideal)) : argsOf (after nops4 V) = argsOf V := by
  unfold argsOf
  rw [nops4_keep main_arg0 (by decide) V,
    nops4_keep main_arg1 (by decide) V,
    nops4_keep main_arg2 (by decide) V,
    nops4_keep main_arg3 (by decide) V,
    nops4_keep main_arg4 (by decide) V,
    nops4_keep main_arg5 (by decide) V,
    nops4_keep main_arg6 (by decide) V,
    nops4_keep main_arg7 (by decide) V,
    nops4_keep main_arg8 (by decide) V]

/-! ## Each node's result after its own operations -/

theorem o0_eq (V : Valuation τ sig (Elt Ideal)) :
    (fun r j => after nops0 V (Proc.devRef .tc main_v39) (ix2 r j)) = Net.r0 (argsOf V) := by
  funext r j
  rw [node0_val, nodeT_apply]
  rfl

theorem o1_eq (V : Valuation τ sig (Elt Ideal)) :
    (fun r j => after nops1 V (Proc.devRef .tc main_v79) (ix2 r j)) = Net.r1 (argsOf V) := by
  funext r j
  rw [node1_val, nodeT_apply]
  rfl

/-- A node on two earlier results with noise, as the specification writes it. -/
def joinNode (a : Net.Args) (n : Fin 5) (m : Fin 3) (xa xb : Fin 65536 → Fin 128 → EReal) : Fin 65536 → Fin 128 → EReal :=
  fun r j => bnRef (lin (cat xa xb) (a.W1 n) (a.b1 n) (a.W2 n) (a.b2 n)) (a.g n) (a.be n) r j + tenth * a.nz m r j

theorem o2_eq (V : Valuation τ sig (Elt Ideal)) :
    (fun r j => after nops2 V (Proc.devRef .tc main_v125) (ix2 r j))
      = joinNode (argsOf V) 2 0 (fun r j => V (main_v39 : DevRef τ sig) (ix2 r j)) (fun r j => V (main_v79 : DevRef τ sig) (ix2 r j)) := by
  funext r j
  rw [node2_val, nodeC_apply]
  rfl

theorem o3_eq (V : Valuation τ sig (Elt Ideal)) :
    (fun r j => after nops3 V (Proc.devRef .tc main_v171) (ix2 r j))
      = joinNode (argsOf V) 3 1 (fun r j => V (main_v39 : DevRef τ sig) (ix2 r j)) (fun r j => V (main_v125 : DevRef τ sig) (ix2 r j)) := by
  funext r j
  rw [node3_val, nodeC_apply]
  rfl

theorem o4_eq (V : Valuation τ sig (Elt Ideal)) :
    (fun r j => after nops4 V (Proc.devRef .tc main_v217) (ix2 r j))
      = joinNode (argsOf V) 4 2 (fun r j => V (main_v79 : DevRef τ sig) (ix2 r j)) (fun r j => V (main_v125 : DevRef τ sig) (ix2 r j)) := by
  funext r j
  rw [node4_val, nodeC_apply]
  rfl

/-! ## The five results after the whole of @main -/

set_option maxRecDepth 8192 in
/-- Result 2 of the reference (node 0): the specification's node 0 of the arguments. -/
theorem read_v39 (V : Valuation τ sig (Elt Ideal)) :
    (fun r j => after ops V (Proc.devRef .tc main_v39) (ix2 r j)) = Net.r0 (argsOf V) := by
  rw [after_ops]
  simp only [nops4_keep main_v39 (by decide), nops3_keep main_v39 (by decide), nops2_keep main_v39 (by decide),
    nops1_keep main_v39 (by decide)]
  exact o0_eq V

set_option maxRecDepth 8192 in
/-- Node 1. -/
theorem read_v79 (V : Valuation τ sig (Elt Ideal)) :
    (fun r j => after ops V (Proc.devRef .tc main_v79) (ix2 r j)) = Net.r1 (argsOf V) := by
  rw [after_ops]
  simp only [nops4_keep main_v79 (by decide), nops3_keep main_v79 (by decide), nops2_keep main_v79 (by decide)]
  rw [o1_eq, argsOf_nops0]

set_option maxRecDepth 8192 in
/-- The contents after nodes 0 and 1 hold their two results. -/
theorem v39_after1 (V : Valuation τ sig (Elt Ideal)) :
    (fun r j => after nops1 (after nops0 V) (Proc.devRef .tc main_v39) (ix2 r j)) = Net.r0 (argsOf V) := by
  simp only [nops1_keep main_v39 (by decide)]
  exact o0_eq V

theorem v79_after1 (V : Valuation τ sig (Elt Ideal)) :
    (fun r j => after nops1 (after nops0 V) (Proc.devRef .tc main_v79) (ix2 r j)) = Net.r1 (argsOf V) := by
  rw [o1_eq, argsOf_nops0]

/-- After node 2: its result. -/
theorem v125_after2 (V : Valuation τ sig (Elt Ideal)) :
    (fun r j => after nops2 (after nops1 (after nops0 V)) (Proc.devRef .tc main_v125) (ix2 r j)) = Net.r2 (argsOf V) := by
  rw [o2_eq, argsOf_nops1, argsOf_nops0, v39_after1, v79_after1]
  rfl

set_option maxRecDepth 8192 in
/-- Node 2. -/
theorem read_v125 (V : Valuation τ sig (Elt Ideal)) :
    (fun r j => after ops V (Proc.devRef .tc main_v125) (ix2 r j)) = Net.r2 (argsOf V) := by
  rw [after_ops]
  simp only [nops4_keep main_v125 (by decide), nops3_keep main_v125 (by decide)]
  exact v125_after2 V

set_option maxRecDepth 8192 in
theorem v39_after2 (V : Valuation τ sig (Elt Ideal)) :
    (fun r j => after nops2 (after nops1 (after nops0 V)) (Proc.devRef .tc main_v39) (ix2 r j)) = Net.r0 (argsOf V) := by
  simp only [nops2_keep main_v39 (by decide)]
  exact v39_after1 V

set_option maxRecDepth 8192 in
theorem v79_after2 (V : Valuation τ sig (Elt Ideal)) :
    (fun r j => after nops2 (after nops1 (after nops0 V)) (Proc.devRef .tc main_v79) (ix2 r j)) = Net.r1 (argsOf V) := by
  simp only [nops2_keep main_v79 (by decide)]
  exact v79_after1 V

/-- After node 3: its result. -/
theorem v171_after3 (V : Valuation τ sig (Elt Ideal)) :
    (fun r j => after nops3 (after nops2 (after nops1 (after nops0 V))) (Proc.devRef .tc main_v171) (ix2 r j)) = Net.r3 (argsOf V) := by
  rw [o3_eq, argsOf_nops2, argsOf_nops1, argsOf_nops0, v39_after2, v125_after2]
  rfl

set_option maxRecDepth 8192 in
/-- Node 3. -/
theorem read_v171 (V : Valuation τ sig (Elt Ideal)) :
    (fun r j => after ops V (Proc.devRef .tc main_v171) (ix2 r j)) = Net.r3 (argsOf V) := by
  rw [after_ops]
  simp only [nops4_keep main_v171 (by decide)]
  exact v171_after3 V

set_option maxRecDepth 8192 in
/-- Node 4. -/
theorem read_v217 (V : Valuation τ sig (Elt Ideal)) :
    (fun r j => after ops V (Proc.devRef .tc main_v217) (ix2 r j)) = Net.r4 (argsOf V) := by
  rw [after_ops, o4_eq, argsOf_nops3, argsOf_nops2, argsOf_nops1, argsOf_nops0]
  have h79 : (fun r j => after nops3 (after nops2 (after nops1 (after nops0 V))) (Proc.devRef .tc main_v79) (ix2 r j)) = Net.r1 (argsOf V) := by
    simp only [nops3_keep main_v79 (by decide)]
    exact v79_after2 V
  have h125 : (fun r j => after nops3 (after nops2 (after nops1 (after nops0 V))) (Proc.devRef .tc main_v125) (ix2 r j)) = Net.r2 (argsOf V) := by
    simp only [nops3_keep main_v125 (by decide)]
    exact v125_after2 V
  rw [h79, h125]
  rfl

/-- The five results at an index. -/
theorem read_results (V : Valuation τ sig (Elt Ideal)) (r : Fin 65536) (j : Fin 128) :
    after ops V (Proc.devRef .tc main_v39) (ix2 r j) = Net.r0 (argsOf V) r j
    ∧ after ops V (Proc.devRef .tc main_v79) (ix2 r j) = Net.r1 (argsOf V) r j
    ∧ after ops V (Proc.devRef .tc main_v125) (ix2 r j) = Net.r2 (argsOf V) r j
    ∧ after ops V (Proc.devRef .tc main_v171) (ix2 r j) = Net.r3 (argsOf V) r j
    ∧ after ops V (Proc.devRef .tc main_v217) (ix2 r j) = Net.r4 (argsOf V) r j :=
  ⟨congrFun (congrFun (read_v39 V) r) j, congrFun (congrFun (read_v79 V) r) j, congrFun (congrFun (read_v125 V) r) j,
    congrFun (congrFun (read_v171 V) r) j, congrFun (congrFun (read_v217 V) r) j⟩

end Cert.ReferenceIdeal.Hand

end
-- ==== Proof.Hand.RefArgsReal.lean ====
/-
  Under the precondition at a device's contents, the network's arguments read off those contents are real-valued.
-/
import proofs.«103476_j5987184410999_2_alg».proof.Proof.Hand.RefRead
import proofs.«103476_j5987184410999_2_alg».proof.Proof.Hand.Finite

namespace Cert.ReferenceIdeal.Hand

open Cert.ReferenceIdeal Idealize.ShloMosaic Idealize.ShloMosaic.TcCoe Idealize.ShloMosaic.StableHlo Cert.Hand

theorem argsOf_real [Cert.Pre_finite_inputs.Facts] (V : Valuation τ sig (Elt Ideal))
    (h : Cert.Pre_finite_inputs.fn (F := Ideal) (V (main_arg0 : DevRef τ sig)) (V (main_arg1 : DevRef τ sig)) (V (main_arg2 : DevRef τ sig)) (V (main_arg3 : DevRef τ sig)) (V (main_arg4 : DevRef τ sig))
      (V (main_arg5 : DevRef τ sig)) (V (main_arg6 : DevRef τ sig)) (V (main_arg7 : DevRef τ sig)) (V (main_arg8 : DevRef τ sig)) = fun _ => 1#1) :
    (argsOf V).Real := by
  obtain ⟨h0, h1, h2, h3, h4, h5, h6, h7, h8⟩ := Cert.Pre_finite_inputs.Hand.real_of_pre _ _ _ _ _ _ _ _ _ h
  exact ⟨fun r k => h0 _, fun r k => h1 _, fun i k hh => h2 _, fun i hh => h3 _, fun i hh j => h4 _, fun i j => h5 _,
    fun i j => h6 _, fun i j => h7 _, fun i r j => h8 _⟩

end Cert.ReferenceIdeal.Hand
-- ==== Proof.Hand.RefFinal.lean ====
/-
  The reference side of the claim, in the claim's own shape: the reference runs and leaves its arguments
  unchanged; and it ends with its five results at any arrays that are, index by index, the network's node functions
  of the arguments' launch contents. Under the precondition those arguments are real-valued.
-/
import proofs.«103476_j5987184410999_2_alg».proof.Proof.Hand.RefRead
import proofs.«103476_j5987184410999_2_alg».proof.Proof.Hand.RefArgsReal
import proofs.«103476_j5987184410999_2_alg».proof.Defs

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Hand

/-- An array of 65536 × 128 elements is its values at the indices built from a row and a column. -/
theorem ext_rows {α : Type} (f g : S65536x128.Idx → α) (h : ∀ (r : Fin 65536) (j : Fin 128), f (ix2 r j) = g (ix2 r j)) : f = g :=
  funext fun i => by rw [eq_ix2 i]; exact h _ _

/-- The reference runs and leaves its arguments unchanged. -/
theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run (F := Ideal) m g)

/-- The reference runs, ends with its five results at any arrays that are, index by index, the network's five node
    functions of the arguments' launch contents, and leaves its arguments unchanged. -/
theorem vals_ref (m' : (ℓ : Loc nD τ sig) → Buf (Elt Ideal) ℓ) (g' : Dev nD → PrngReg)
    (v0 : (c : Dev nD) → Buf (Elt Ideal) ((c.tc : Thread nD τ).loc main_v171)) (v1 : (c : Dev nD) → Buf (Elt Ideal) ((c.tc : Thread nD τ).loc main_v217))
    (v2 : (c : Dev nD) → Buf (Elt Ideal) ((c.tc : Thread nD τ).loc main_v39)) (v3 : (c : Dev nD) → Buf (Elt Ideal) ((c.tc : Thread nD τ).loc main_v79))
    (v4 : (c : Dev nD) → Buf (Elt Ideal) ((c.tc : Thread nD τ).loc main_v125))
    (h : ∀ (c : Dev nD) (r : Fin 65536) (j : Fin 128),
      v0 c (ix2 r j) = Net.r3 (argsOf (launchContents m' c)) r j ∧ v1 c (ix2 r j) = Net.r4 (argsOf (launchContents m' c)) r j
      ∧ v2 c (ix2 r j) = Net.r0 (argsOf (launchContents m' c)) r j ∧ v3 c (ix2 r j) = Net.r1 (argsOf (launchContents m' c)) r j
      ∧ v4 c (ix2 r j) = Net.r2 (argsOf (launchContents m' c)) r j) :
    θ_run (defs (F := Ideal)) (onTc (τ := τ) (main (F := Ideal))) ⟨m', fun _ => 0, g'⟩ (fun r => ∀ c : Dev nD,
      r.2.mem ((c.tc : Thread nD τ).loc main_v171) = v0 c
      ∧ r.2.mem ((c.tc : Thread nD τ).loc main_v217) = v1 c
      ∧ r.2.mem ((c.tc : Thread nD τ).loc main_v39) = v2 c
      ∧ r.2.mem ((c.tc : Thread nD τ).loc main_v79) = v3 c
      ∧ r.2.mem ((c.tc : Thread nD τ).loc main_v125) = v4 c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)) :=
  (θ_run defs _ _).mono (fun r hr c =>
    ⟨((hr c).1 main_v171 (.head _)).trans (ext_rows _ _ fun p j =>
        ((read_results (launchContents m' c) p j).2.2.2.1).trans ((h c p j).1).symm),
      ((hr c).1 main_v217 (.tail _ (.head _))).trans (ext_rows _ _ fun p j =>
        ((read_results (launchContents m' c) p j).2.2.2.2).trans ((h c p j).2.1).symm),
      ((hr c).1 main_v39 (.tail _ (.tail _ (.head _)))).trans (ext_rows _ _ fun p j =>
        ((read_results (launchContents m' c) p j).1).trans ((h c p j).2.2.1).symm),
      ((hr c).1 main_v79 (.tail _ (.tail _ (.tail _ (.head _))))).trans (ext_rows _ _ fun p j =>
        ((read_results (launchContents m' c) p j).2.1).trans ((h c p j).2.2.2.1).symm),
      ((hr c).1 main_v125 (.tail _ (.tail _ (.tail _ (.tail _ (.head _)))))).trans (ext_rows _ _ fun p j =>
        ((read_results (launchContents m' c) p j).2.2.1).trans ((h c p j).2.2.2.2).symm),
      (hr c).2⟩) (run (F := Ideal) m' g')

/-- Under the reference's precondition the arguments read off the launch contents are real-valued, on every device. -/
theorem args_real_of_pre [Cert.Pre_finite_inputs.Facts] (m : (ℓ : Loc nD τ sig) → Buf (Elt Ideal) ℓ)
    (h : Cert.Pre_ReferenceIdeal m) (c : Dev nD) : (argsOf (launchContents m c)).Real :=
  argsOf_real _ (h c)

end Cert.ReferenceIdeal.Hand
-- ==== Proof.Hand.Kit.lean ====
/-
  Thread states "every unscoped buffer at SOME contents satisfying a predicate", and @main's segments over them:
  a host stretch carries a predicate on the buffers' contents to one on the contents after its operations; a
  kernel region whose proof data constrain (rather than name) what its body leaves carries it to one on the
  contents with the region's arrays replaced by anything its write-backs may leave.
-/
import proofs.«103476_j5987184410999_2_alg».proof.Proof.Gen.KernelIdeal.Launch
import proofs.«103476_j5987184410999_2_alg».proof.Proof.Gen.KernelIdeal.Skeleton
import proofs.«103476_j5987184410999_2_alg».proof.Proof.Gen.KernelIdeal.Points
import proofs.«103476_j5987184410999_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0

/-- What rides beside the buffers: the generator register at some state, and nothing owed. -/
abbrev Rr (c : Dev nD) : sProp 𝕄 := iprop((∃ r, prngReg c r) ∗ ∃ W, owes (c : Thread nD τ) (0 : CellTallies nD τ sig Unit) W)

/-- Core `c` holds every unscoped buffer at some contents `V` of which `I` holds. -/
def TS (I : Valuation τ sig (Elt F) → Prop) (c : Dev nD) : sProp 𝕄 :=
  iprop(∃ V : Valuation τ sig (Elt F), ⌜I V⌝ ∗ StableHlo.held (c : Thread nD τ) (Pipeline.ucRefs τ sig) V ∗ Rr c)

abbrev adm : (p : Fin 10) → (pcfgs (F := F) p).Adm := fun p => (cfgs p).toPCfg_adm

set_option backward.isDefEq.respectTransparency.types false in
/-- A host stretch from contents of which `I` holds to contents of which `I'` holds. -/
def hsegI (ops : List (HloOp τ sig (Elt F))) (hsub : ops.Forall fun op => op.bufs ⊆ StableHlo.tcRefs τ sig)
    (hfresh : ops.Forall fun op => op.fresh = ∅) (I I' : Dev nD → Valuation τ sig (Elt F) → Prop)
    (h : ∀ c V, I c V → I' c (StableHlo.after ops V)) :
    Pipeline.HostSeg (Name := ℕ) (U := UR sig nD τ) (pcfgs (F := F)) defs₀ 𝒱₀ L lv where
  prog := StableHlo.seq ops
  pre c := TS (I c) c
  post c := TS (I' c) c
  run c {β} k K := by
    unfold TS
    iintro ⟨Hk, Hbd, ⟨%V, %hV, Hh, HR⟩, Hla⟩
    have base := ((Pipeline.HostSeg.ofOps _ _ _ _ _ (Pipeline.ucRefs τ sig) ops
      (fun op h => Pipeline.sub_ucRefs op ((List.forall_iff_forall_mem.mp hsub) op h))
      (fun op h => (List.forall_iff_forall_mem.mp hfresh) op h) (fun _ => V) Rr :
        Pipeline.HostSeg (Name := ℕ) (U := UR sig nD τ) (pcfgs (F := F)) defs₀ 𝒱₀ L lv).run c k K)
    dsimp only [Pipeline.HostSeg.ofOps] at base
    iapply base
    isplitl [Hk]
    · iintro ⟨Hbd, Hh, HR⟩
      iapply Hk
      isplitl [Hbd]; · iexact Hbd
      iexists (StableHlo.after ops V)
      isplitr; · ipureintro; exact h c V hV
      isplitl [Hh]; · iexact Hh
      iexact HR
    isplitl [Hbd]; · iexact Hbd
    isplitl [Hh HR]
    · isplitl [Hh]; · iexact Hh
      iexact HR
    iexact Hla

@[simp] theorem hsegI_prog (ops : List (HloOp τ sig (Elt F))) (hsub) (hfresh) (I I' : Dev nD → Valuation τ sig (Elt F) → Prop) (h) :
    (hsegI ops hsub hfresh I I' h).prog = StableHlo.seq ops := rfl
@[simp] theorem hsegI_pre (ops : List (HloOp τ sig (Elt F))) (hsub) (hfresh) (I I' : Dev nD → Valuation τ sig (Elt F) → Prop) (h) (c : Dev nD) :
    (hsegI ops hsub hfresh I I' h).pre c = TS (I c) c := rfl
@[simp] theorem hsegI_post (ops : List (HloOp τ sig (Elt F))) (hsub) (hfresh) (I I' : Dev nD → Valuation τ sig (Elt F) → Prop) (h) (c : Dev nD) :
    (hsegI ops hsub hfresh I I' h).post c = TS (I' c) c := rfl

/-- Contents of every buffer, read at the TensorCore's references. -/
abbrev atTc (V : Valuation τ sig (Elt F)) (c : Dev nD) : (b : Ref sig .tc) → Buf (Elt F) ((c : Thread nD τ).loc b) := fun b => V b

/-- Abbreviation: pipeline `p`'s configuration at the (empty) tables. -/
abbrev pc (p : Fin 10) : Cfg sig Λ₀ := Pipeline.pin (pcfgs (F := F)) adm p

set_option backward.isDefEq.respectTransparency.types false in
/-- A kernel region of RELATIONAL proof data from contents of which `I` holds — and which pin the region's arrays to the
    data's entry contents (`hA`) — to contents of which `I'` holds: the entry contents with the region's arrays at
    anything their write-backs may leave (`hstep`). -/
def regI (rdats : (p : Fin 10) → (c : Dev nD) → RDat τ (Elt F) Unit ℕ (UR sig nD τ) ℕ (pc (F := F) p) c)
    (p : Fin 10) (lf : Pipeline.LaunchFacts (nD := nD) (τ := τ) cfgs p)
    (hbody : ∀ c, (rdats p c).BodyObligation (defs₀ (F := F)) 𝒱₀ () Set.univ)
    (hΦ : ∀ c t, (rdats p c).Φ t = Pipeline.ΦA (pc (F := F) p).spec c)
    (hq : ∀ c w, (rdats p c).share w = fullShare)
    (howed : ∀ c t, (rdats p c).owed t = 0)
    (hrec : ∀ c t, (rdats p c).recorded t = Set.univ)
    (I I' : Dev nD → Valuation τ sig (Elt F) → Prop)
    (hA : ∀ c V, I c V → ∀ w, (rdats p c).A w = V (Pipeline.arrRef (pc (F := F) p).spec w))
    (hstep : ∀ c V, I c V → ∀ G : (w : Fin (pc (F := F) p).W) → Buf (Elt F) (((pc (F := F) p).spec w).arr.view.loc (c.tc : Thread nD τ)),
      (∀ w, (rdats p c).ArrAt w (pc (F := F) p).N (G w)) → I' c (Pipeline.withArrays (pc (F := F) p).spec c V G)) :
    Pipeline.RDat.RegionSeg (pcfgs (F := F)) adm rdats () defs₀ 𝒱₀ L lv p where
  win := lf.win.to₀
  block_pos := lf.block_pos
  stage_whole := lf.stage_whole
  K := PEmpty
  osem k := k.elim
  ho := Pipeline.OwnSemFacts.none _
  hbody := hbody
  hwaits := Pipeline.RDat.hwaits_of_owed_zero _ _ _ _ L lv p howed
  pre c := TS (I c) c
  post c := TS (I' c) c
  X c := iprop(∃ r, prngReg c r)
  Y c := iprop(∃ r, prngReg c r)
  Z c := iprop(∃ V : Valuation τ sig (Elt F), ⌜I c V⌝ ∗ Pipeline.unscopedRest (Ix := Unit) (Name := ℕ) (U := UR sig nD τ) (Lvl := ℕ) (pc (F := F) p).spec c (atTc V c))
  hentry c := by
    rw [Pipeline.ownSems0_none]
    unfold TS
    iintro ⟨⟨%V, %hV, Hub, Hp, HO⟩, -, -⟩
    have hsplit := Pipeline.RDat.arrays_of_unscopedBufs (p := p) (pcfgs (F := F)) adm rdats lf.win lf.arr_whole c (hq c)
      (atTc V c) (hA c V hV)
    rw [Pipeline.unscopedBufs_held] at hsplit
    ihave H := hsplit $$ [Hub]
    · iexact Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl (by rw [hrec c 0]; exact Set.mem_univ _)
      rw [howed c 0]; iexact HO
    isplitl [Hp]; · iexact Hp
    iexists V; isplitr; · ipureintro; exact hV
    iexact Hrest
  hin c := by
    rw [hΦ c 0]; unfold Pipeline.ΦA
    iintro ⟨Hp, -, Hr⟩
    isplitl [Hr]; · iexact Hr
    iexact Hp
  hout c := by
    rw [Pipeline.ownSems0_none, hΦ c _]; unfold Pipeline.ΦA
    iintro ⟨Hr, Hp⟩
    isplitl [Hp]; · iexact Hp
    isplitr; · iempintro
    iexact Hr
  hexit c := by
    have hch : (rdats p c).arraysAt (pc (F := F) p).N
        ⊢ (iprop(∃ G : (w : Fin (pc (F := F) p).W) → Buf (Elt F) (((pc (F := F) p).spec w).arr.view.loc (c.tc : Thread nD τ)),
            ⌜∀ w, (rdats p c).ArrAt w (pc (F := F) p).N (G w)⌝ ∗ (rdats p c).arrays G) : sProp 𝕄) := by
      unfold Pipeline.RDat.arraysAt Pipeline.RDat.arrays
      refine (bigSep_exists_pi Finset.univ _).trans ?_
      iintro ⟨%G, H⟩
      iexists G
      ihave H' := (bigSep_pure_sep Finset.univ (fun w => (rdats p c).ArrAt w (pc (F := F) p).N (G w))
        (fun w => (((pc (F := F) p).win w).arr.view.loc (c.tc : Thread nD τ) ↦[((pc (F := F) p).win w).arr.view.set]{(rdats p c).share w} G w : sProp 𝕄))) $$ [H]
      · iexact H
      icases H' with ⟨%hG, H'⟩
      isplitr; · ipureintro; exact fun w => hG w (Finset.mem_univ w)
      iexact H'
    have hjoin : ∀ (V : Valuation τ sig (Elt F)) (G : (w : Fin (pc (F := F) p).W) → Buf (Elt F) (((pc (F := F) p).spec w).arr.view.loc (c.tc : Thread nD τ))),
        (iprop((rdats p c).arrays G ∗ Pipeline.unscopedRest (Ix := Unit) (Name := ℕ) (U := UR sig nD τ) (Lvl := ℕ) (pc (F := F) p).spec c (atTc V c)) : sProp 𝕄)
          ⊢ StableHlo.held (c : Thread nD τ) (Pipeline.ucRefs τ sig) (Pipeline.withArrays (pc (F := F) p).spec c V G) := by
      intro V G
      rw [← Pipeline.unscopedBufs_held c (Pipeline.withArrays (pc (F := F) p).spec c V G),
        Pipeline.unscopedBufs_split (Pipeline.pin (pcfgs (F := F)) adm) p lf.win.arr_unscoped lf.win.arr_inj c _,
        Pipeline.RDat.arrays_eq (pcfgs (F := F)) adm rdats p c lf.arr_whole (hq c)]
      refine sep_mono (Entails.of_eq (bigSep_congr fun w _ => by rw [Pipeline.withArrays_arr _ lf.win.arr_inj])) (Entails.of_eq ?_)
      unfold Pipeline.unscopedRest
      exact bigSep_congr fun b hb => by
        dsimp only [atTc]
        rw [Pipeline.withArrays_of_ne _ c V G b fun w e => (Finset.mem_sdiff.mp hb).2 (Finset.mem_image.mpr ⟨w, Finset.mem_univ _, e⟩)]
    unfold TS
    iintro ⟨Ha, HO, HY, ⟨%V, %hV, Hrest⟩⟩
    ihave H := hch $$ [Ha]
    · iexact Ha
    icases H with ⟨%G, %hG, Ha⟩
    imodintro
    iexists (Pipeline.withArrays (pc (F := F) p).spec c V G)
    isplitr; · ipureintro; exact hstep c V hV G hG
    isplitl [Ha Hrest]
    · iapply (hjoin V G); isplitl [Ha] <;> iassumption
    isplitl [HY]; · iexact HY
    unfold Pipeline.RDat.owesAt Pipeline.owesWithin
    icases HO with ⟨%W, -, HO⟩; iexists W; rw [howed c _]; iexact HO

end Cert.KernelIdeal.Hand

end
-- ==== Proof.Hand.Agree.lean ====
/-
  Two valuations of a core's buffers AGREE OFF THE UNDEFINED ROWS when they coincide on every TensorCore reference
  except the ten statistics arrays (f32[16,128]: per-core column sums and sums of squares), and on those ten coincide
  on rows 0 and 8 — the only rows a statistics pass determines and the only rows anything later reads. Every host
  stretch of @main carries agreeing valuations to agreeing valuations: an operation that touches none of the ten
  arrays computes the same from the same, and the four slices that read one take exactly row 0 or row 8 of it.
  Replacing a region's arrays by contents that agree in the same sense keeps the agreement.
-/
import proofs.«103476_j5987184410999_2_alg».proof.Proof.Gen.KernelIdeal.Launch
import proofs.«103476_j5987184410999_2_alg».proof.Proof.Gen.KernelIdeal.Regions
import Idealize.ShloMosaic.Lib.StableHlo.Run
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The ten statistics arrays: of each only rows 0 and 8 are determined. -/
def Jl : List (Ref sig .tc) :=
  [main_v14_1, main_v14_2, main_v47_1, main_v47_2, main_v92_1, main_v92_2, main_v125_1, main_v125_2, main_v158_1, main_v158_2]

/-- Row 0 of a statistics array, as the host's slice takes it. -/
def row0 (X : (⟨S16x128, .f32⟩ : BufTy).Contents (Elt F)) : (⟨S1x128, .f32⟩ : BufTy).Contents (Elt F) :=
  extractStridedSlice S1x128 ![0, 0] X slices_S16x128_S1x128_0_0
/-- Row 8 of a statistics array, as the host's slice takes it. -/
def row8 (X : (⟨S16x128, .f32⟩ : BufTy).Contents (Elt F)) : (⟨S1x128, .f32⟩ : BufTy).Contents (Elt F) :=
  extractStridedSlice S1x128 ![8, 0] X slices_S16x128_S1x128_8_0

theorem row0_eq (X : (⟨S16x128, .f32⟩ : BufTy).Contents (Elt F)) :
    extractStridedSlice S1x128 ![0, 0] X slices_S16x128_S1x128_0_0 = row0 X := rfl
theorem row8_eq (X : (⟨S16x128, .f32⟩ : BufTy).Contents (Elt F)) :
    extractStridedSlice S1x128 ![8, 0] X slices_S16x128_S1x128_8_0 = row8 X := rfl

/-- Agreement off the undefined rows. -/
structure Agree (V W : Valuation τ sig (Elt F)) : Prop where
  off : ∀ b : Ref sig .tc, b ∉ Jl → V b = W b
  r14_1 : row0 (V main_v14_1) = row0 (W main_v14_1) ∧ row8 (V main_v14_1) = row8 (W main_v14_1)
  r14_2 : row0 (V main_v14_2) = row0 (W main_v14_2) ∧ row8 (V main_v14_2) = row8 (W main_v14_2)
  r47_1 : row0 (V main_v47_1) = row0 (W main_v47_1) ∧ row8 (V main_v47_1) = row8 (W main_v47_1)
  r47_2 : row0 (V main_v47_2) = row0 (W main_v47_2) ∧ row8 (V main_v47_2) = row8 (W main_v47_2)
  r92_1 : row0 (V main_v92_1) = row0 (W main_v92_1) ∧ row8 (V main_v92_1) = row8 (W main_v92_1)
  r92_2 : row0 (V main_v92_2) = row0 (W main_v92_2) ∧ row8 (V main_v92_2) = row8 (W main_v92_2)
  r125_1 : row0 (V main_v125_1) = row0 (W main_v125_1) ∧ row8 (V main_v125_1) = row8 (W main_v125_1)
  r125_2 : row0 (V main_v125_2) = row0 (W main_v125_2) ∧ row8 (V main_v125_2) = row8 (W main_v125_2)
  r158_1 : row0 (V main_v158_1) = row0 (W main_v158_1) ∧ row8 (V main_v158_1) = row8 (W main_v158_1)
  r158_2 : row0 (V main_v158_2) = row0 (W main_v158_2) ∧ row8 (V main_v158_2) = row8 (W main_v158_2)

/-- Rows 0 and 8 of two contents of the reference `s` coincide, whenever `s` is a 16×128 array of f32 (stated under
    that equation of types so that it makes sense at an unknown reference; at each of the ten literal arrays the
    equation is `rfl` and the casts vanish). -/
def RowsAgree (s : Ref sig .tc) (X Y : (Proc.devRef (τ := τ) .tc s).ty.Contents (Elt F)) : Prop :=
  ∀ e : (Proc.devRef (τ := τ) .tc s).ty = (⟨S16x128, .f32⟩ : BufTy),
    row0 (cast (congrArg (fun T : BufTy => T.Contents (Elt F)) e) X) = row0 (cast (congrArg (fun T : BufTy => T.Contents (Elt F)) e) Y)
    ∧ row8 (cast (congrArg (fun T : BufTy => T.Contents (Elt F)) e) X) = row8 (cast (congrArg (fun T : BufTy => T.Contents (Elt F)) e) Y)

theorem RowsAgree.refl (s : Ref sig .tc) (X : (Proc.devRef (τ := τ) .tc s).ty.Contents (Elt F)) : RowsAgree s X X :=
  fun _ => ⟨rfl, rfl⟩
theorem RowsAgree.symm {s : Ref sig .tc} {X Y : (Proc.devRef (τ := τ) .tc s).ty.Contents (Elt F)} (h : RowsAgree s X Y) :
    RowsAgree s Y X := fun e => ⟨(h e).1.symm, (h e).2.symm⟩
theorem RowsAgree.trans {s : Ref sig .tc} {X Y Z : (Proc.devRef (τ := τ) .tc s).ty.Contents (Elt F)}
    (h : RowsAgree s X Y) (h' : RowsAgree s Y Z) : RowsAgree s X Z :=
  fun e => ⟨(h e).1.trans (h' e).1, (h e).2.trans (h' e).2⟩

/-- The ten row conditions, at an unknown member of the list. -/
theorem Agree.rows {V W : Valuation τ sig (Elt F)} (h : Agree V W) :
    ∀ s ∈ Jl, RowsAgree s (V s) (W s) := by
  intro s hs
  simp only [Jl, List.mem_cons, List.not_mem_nil, or_false] at hs
  rcases hs with rfl | rfl | rfl | rfl | rfl | rfl | rfl | rfl | rfl | rfl
  · exact fun _ => h.r14_1
  · exact fun _ => h.r14_2
  · exact fun _ => h.r47_1
  · exact fun _ => h.r47_2
  · exact fun _ => h.r92_1
  · exact fun _ => h.r92_2
  · exact fun _ => h.r125_1
  · exact fun _ => h.r125_2
  · exact fun _ => h.r158_1
  · exact fun _ => h.r158_2

/-- Agreement from the condition off the list and the row condition at every member. -/
theorem Agree.of_rows {V W : Valuation τ sig (Elt F)} (off : ∀ b : Ref sig .tc, b ∉ Jl → V b = W b)
    (rows : ∀ s ∈ Jl, RowsAgree s (V s) (W s)) : Agree V W :=
  ⟨off, rows main_v14_1 (by decide) rfl, rows main_v14_2 (by decide) rfl, rows main_v47_1 (by decide) rfl, rows main_v47_2 (by decide) rfl, rows main_v92_1 (by decide) rfl, rows main_v92_2 (by decide) rfl, rows main_v125_1 (by decide) rfl, rows main_v125_2 (by decide) rfl, rows main_v158_1 (by decide) rfl, rows main_v158_2 (by decide) rfl⟩

theorem Agree.refl (V : Valuation τ sig (Elt F)) : Agree V V :=
  Agree.of_rows (fun _ _ => rfl) (fun s _ => RowsAgree.refl s _)
theorem Agree.symm {V W : Valuation τ sig (Elt F)} (h : Agree V W) : Agree W V :=
  Agree.of_rows (fun b hb => (h.off b hb).symm) (fun s hs => (h.rows s hs).symm)
theorem Agree.trans {V W X : Valuation τ sig (Elt F)} (h : Agree V W) (h' : Agree W X) : Agree V X :=
  Agree.of_rows (fun b hb => (h.off b hb).trans (h'.off b hb)) (fun s hs => (h.rows s hs).trans (h'.rows s hs))

/-! ## Host operations -/

/-- An operation carries agreeing valuations to agreeing valuations. -/
def Pres (op : HloOp τ sig (Elt F)) : Prop :=
  ∀ V W : Valuation τ sig (Elt F), Agree V W → Agree (op.result V) (op.result W)

theorem after_agree (ops : List (HloOp τ sig (Elt F))) (h : ops.Forall Pres) (V W : Valuation τ sig (Elt F)) :
    Agree V W → Agree (StableHlo.after ops V) (StableHlo.after ops W) := by
  induction ops generalizing V W with
  | nil => exact id
  | cons op ops ih =>
    intro hVW
    rw [StableHlo.after_cons, StableHlo.after_cons]
    rw [List.forall_cons] at h
    exact ih h.2 _ _ (h.1 V W hVW)

/-- An operation that writes none of the ten arrays and leaves equal contents in every other reference it writes. -/
theorem pres_of_writes (op : HloOp τ sig (Elt F)) (hw : ∀ s ∈ Jl, Proc.devRef .tc s ∉ op.writes)
    (hoff : ∀ V W : Valuation τ sig (Elt F), Agree V W → ∀ b : Ref sig .tc, b ∉ Jl →
      Proc.devRef .tc b ∈ op.writes → op.result V b = op.result W b) : Pres op := by
  intro V W h
  refine Agree.of_rows (fun b hb => ?_) (fun s hs => ?_)
  · by_cases hbw : Proc.devRef .tc b ∈ op.writes
    · exact hoff V W h b hb hbw
    · rw [op.result_of_not_mem V hbw, op.result_of_not_mem W hbw]; exact h.off b hb
  · rw [op.result_of_not_mem V (hw s hs), op.result_of_not_mem W (hw s hs)]; exact h.rows s hs

/-- An operation over TensorCore references that touches none of the ten arrays. -/
theorem pres_of_disjoint (op : HloOp τ sig (Elt F)) (hsub : op.bufs ⊆ StableHlo.tcRefs τ sig)
    (hd : ∀ s ∈ Jl, Proc.devRef .tc s ∉ op.bufs) : Pres op := by
  refine pres_of_writes op (fun s hs hsw => hd s hs (op.writes_sub hsw)) (fun V W h b hb hbw => ?_)
  refine op.result_congr (fun b' hb' => ?_) _ (op.writes_sub hbw)
  have := hsub hb'
  simp only [StableHlo.tcRefs, Finset.mem_map, Finset.mem_univ, true_and, Function.Embedding.coeFn_mk] at this
  obtain ⟨r, rfl⟩ := this
  exact h.off r (fun hr => hd r hr hb')

section Builders

variable (x a b y : Ref sig .tc)

/-- `%y = f %x` where `f` takes equal values on agreeing valuations' contents of `x`: either `x` is none of the ten
    arrays, or `f` reads rows 0 and 8 only. -/
theorem pres_unary_of (f : x.ty.Contents (Elt F) → y.ty.Contents (Elt F)) (hx hy) (hyJ : y ∉ Jl)
    (hf : ∀ V W : Valuation τ sig (Elt F), Agree V W → f (V x) = f (W x)) :
    Pres (StableHlo.unary (τ := τ) x y f hx hy) := by
  refine pres_of_writes _ (fun s hs hsw => ?_) (fun V W h r hr hrw => ?_)
  · rw [StableHlo.unary_writes, Finset.mem_singleton] at hsw
    exact hyJ (Proc.devRef_injective _ hsw ▸ hs)
  · rw [StableHlo.unary_writes, Finset.mem_singleton] at hrw
    obtain rfl := Proc.devRef_injective _ hrw
    rw [StableHlo.unary_result, StableHlo.unary_result]; exact hf V W h

theorem pres_unary (f : x.ty.Contents (Elt F) → y.ty.Contents (Elt F)) (hx hy) (hxJ : x ∉ Jl) (hyJ : y ∉ Jl) :
    Pres (StableHlo.unary (τ := τ) x y f hx hy) :=
  pres_unary_of x y f hx hy hyJ (fun V W h => congrArg f (h.off x hxJ))

theorem pres_nullary (v : y.ty.Contents (Elt F)) (hy) (hyJ : y ∉ Jl) :
    Pres (StableHlo.nullary (τ := τ) y v hy) := by
  refine pres_of_writes _ (fun s hs hsw => ?_) (fun V W h r hr hrw => ?_)
  · rw [StableHlo.nullary_writes, Finset.mem_singleton] at hsw
    exact hyJ (Proc.devRef_injective _ hsw ▸ hs)
  · rw [StableHlo.nullary_writes, Finset.mem_singleton] at hrw
    obtain rfl := Proc.devRef_injective _ hrw
    rw [StableHlo.nullary_result, StableHlo.nullary_result]

theorem pres_binary (f : a.ty.Contents (Elt F) → b.ty.Contents (Elt F) → y.ty.Contents (Elt F)) (ha hb hy)
    (haJ : a ∉ Jl) (hbJ : b ∉ Jl) (hyJ : y ∉ Jl) :
    Pres (StableHlo.binary (τ := τ) a b y f ha hb hy) := by
  refine pres_of_writes _ (fun s hs hsw => ?_) (fun V W h r hr hrw => ?_)
  · rw [StableHlo.binary_writes, Finset.mem_singleton] at hsw
    exact hyJ (Proc.devRef_injective _ hsw ▸ hs)
  · rw [StableHlo.binary_writes, Finset.mem_singleton] at hrw
    obtain rfl := Proc.devRef_injective _ hrw
    rw [StableHlo.binary_result, StableHlo.binary_result, h.off a haJ, h.off b hbJ]

theorem pres_reshape (he hn hx hy) (hxJ : x ∉ Jl) (hyJ : y ∉ Jl) :
    Pres (StableHlo.reshape (τ := τ) (Val := Elt F) x y he hn hx hy) := by
  refine pres_of_writes _ (fun s hs hsw => ?_) (fun V W h r hr hrw => ?_)
  · rw [StableHlo.reshape_writes, Finset.mem_singleton] at hsw
    exact hyJ (Proc.devRef_injective _ hsw ▸ hs)
  · rw [StableHlo.reshape_writes, Finset.mem_singleton] at hrw
    obtain rfl := Proc.devRef_injective _ hrw
    rw [StableHlo.reshape_result, StableHlo.reshape_result, h.off x hxJ]

end Builders

end Cert.KernelIdeal.Hand
-- ==== Proof.Hand.P1r0.lean ====
/- Region 0 (a pass-1 launch of the one-input kernel) as RELATIONAL proof data, with its body obligation.

   The body computes a block of `y` from five input blocks, stores it whole, and adds its column sums (and those of its
   square) into ROW 0 of two 8-row statistics blocks, which it first zeroes at the first point of each core's run of eight.
   Rows 1 to 7 of those blocks are never stored: what the body leaves there is what it found. So the data relates what the
   body finds in a buffer to what it leaves, and for the statistics blocks constrains row 0 only. -/
import proofs.«103476_j5987184410999_2_alg».proof.Proof.Gen.KernelIdeal.Launch
import proofs.«103476_j5987184410999_2_alg».proof.Proof.Gen.KernelIdeal.Skeleton
import proofs.«103476_j5987184410999_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## Region 0: names -/

/-- The condition of the body's one `scf.if`, from the grid coordinates (the skeleton's scalar chain substituted):
    the inner coordinate is zero. -/
abbrev r0cond (i : grid0.Coords) : Prop :=
  (Scalar.cmpi .ne (Scalar.extui (Scalar.cmpi .eq (BitVec.ofNat 32 (i 1).val) 0#32)) 0#32) = 1#1

/-- It holds at the first point of each core's run of eight: decided over the grid. -/
theorem r0cond_iff : ∀ t : Fin cfg0.N, r0cond (grid0.coords t) ↔ t.val % 8 = 0 :=
  (by decide +kernel : ∀ t : Fin grid0.N, r0cond (grid0.coords t) ↔ t.val % 8 = 0)

theorem zeros2 : (![0, 0] : Fin 2 → ℕ) = fun _ => 0 := by funext a; fin_cases a <;> rfl

/-- Row 0 of a statistics block: the rectangle every load and store of the two accumulators goes through. -/
abbrev r0row : Rect S8x128 := Rect.unit (s := S8x128) ![0, 0] S1x128.size inb_S8x128_S1x128_0_0

/-- The row of zeros the body stores at the first point of a core's run. -/
def r0zrow : FVec F S1x128 .f32 := broadcast S1x128 (Scalar.ofBits .f32 0x00000000#32)

/-- One accumulation step: the row found plus the column sums of `y` (the reduction along axis 0 from the zero word). -/
def r0acc (r : Vec F S1x128 .f32) (y : FVec F S4096x128 .f32) : FVec F S1x128 .f32 :=
  addf (shapeCast S1x128 r shapeCasts_S1x128_S1x128)
    (shapeCast S1x128 (multiReduction .add [0] S128 y 0x00000000#32 reduces_S4096x128_S128 (.inl rfl) rfl) shapeCasts_S128_S1x128)

/-- The same of the squares. -/
def r0accsq (r : Vec F S1x128 .f32) (y : FVec F S4096x128 .f32) : FVec F S1x128 .f32 := r0acc r (mulf y y)

/-- The block of `y` the body computes from its five input blocks: `relu(x·W1 + b1)·W2 + b2` with the matrix
    operands rounded to bf16 (the skeleton's payload). -/
def yblk0 (x : Vec F S4096x256 .f32) (w1 : Vec F S256x256 .f32) (b1 : Vec F S1x256 .f32) (w2 : Vec F S256x128 .f32)
    (b2 : Vec F S1x128 .f32) : Vec F S4096x128 .f32 := k0_pay4 x w1 b1 w2 b2

theorem k0_pay5_eq (x : Vec F S4096x256 .f32) (w1 : Vec F S256x256 .f32) (b1 : Vec F S1x256 .f32) (w2 : Vec F S256x128 .f32)
    (b2 : Vec F S1x128 .f32) (r : Vec F S1x128 .f32) : k0_pay5 x w1 b1 w2 b2 r = r0acc r (yblk0 x w1 b1 w2 b2) := rfl
theorem k0_pay1_eq (y : FVec F S4096x128 .f32) (r : Vec F S1x128 .f32) : k0_pay1 y r = r0accsq r y := rfl
theorem k0_pay2_eq : k0_pay2 (F := F) = r0zrow := rfl
theorem k0_pay3_eq : k0_pay3 (F := F) = r0zrow := rfl

section WholeRect
variable {sg : RefSig} {κ : Kind} {sp : Space} {S : Shape} {e : EltTy} {Val : EltTy → Type}

/-- A load through the whole-shape rectangle at zero offsets reads the view's contents. -/
theorem readAt_unit_zero' (v : View sg κ sp S e) {off : Fin S.rank → ℕ} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

/-- One store through it leaves its payload, whatever the buffer held. -/
theorem read_writes_unit_zero' (v : View sg κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end WholeRect

theorem readAt_S4096x256 {sp : Space} (v : View sig .tc sp S4096x256 .f32) (f : v.ty.Contents (Elt F)) :
    v.readAt (Elt F) (Rect.unit (s := S4096x256) ![0, 0] S4096x256.size inb_S4096x256_S4096x256_0_0).toLoadRect f = v.read (Elt F) f :=
  readAt_unit_zero' v zeros2 _ f
theorem readAt_S256x256 {sp : Space} (v : View sig .tc sp S256x256 .f32) (f : v.ty.Contents (Elt F)) :
    v.readAt (Elt F) (Rect.unit (s := S256x256) ![0, 0] S256x256.size inb_S256x256_S256x256_0_0).toLoadRect f = v.read (Elt F) f :=
  readAt_unit_zero' v zeros2 _ f
theorem readAt_S1x256 {sp : Space} (v : View sig .tc sp S1x256 .f32) (f : v.ty.Contents (Elt F)) :
    v.readAt (Elt F) (Rect.unit (s := S1x256) ![0, 0] S1x256.size inb_S1x256_S1x256_0_0).toLoadRect f = v.read (Elt F) f :=
  readAt_unit_zero' v zeros2 _ f
theorem readAt_S256x128 {sp : Space} (v : View sig .tc sp S256x128 .f32) (f : v.ty.Contents (Elt F)) :
    v.readAt (Elt F) (Rect.unit (s := S256x128) ![0, 0] S256x128.size inb_S256x128_S256x128_0_0).toLoadRect f = v.read (Elt F) f :=
  readAt_unit_zero' v zeros2 _ f
theorem readAt_S1x128 {sp : Space} (v : View sig .tc sp S1x128 .f32) (f : v.ty.Contents (Elt F)) :
    v.readAt (Elt F) (Rect.unit (s := S1x128) ![0, 0] S1x128.size inb_S1x128_S1x128_0_0).toLoadRect f = v.read (Elt F) f :=
  readAt_unit_zero' v zeros2 _ f

/-- The whole-block store of window 5 leaves its payload. -/
theorem read_whole_store5 {sp : Space} (v : View sig .tc sp S4096x128 .f32) (f : v.ty.Contents (Elt F)) (w : Vec F S4096x128 .f32) :
    v.read (Elt F) (v.writes (Elt F) f [⟨Rect.unit (s := S4096x128) ![0, 0] S4096x128.size inb_S4096x128_S4096x128_0_0, w⟩]) = w :=
  read_writes_unit_zero' v zeros2 _ f w []

/-- Row 0 after a store through row 0, whatever was stored before. -/
theorem ld_row0_store {sp : Space} (v : View sig .tc sp S8x128 .f32) (f : v.ty.Contents (Elt F)) (w : Vec F S1x128 .f32)
    (L : List (View.Piece (Elt F) S8x128 .f32)) :
    View.ld (v.read (Elt F) (v.writes (Elt F) f (⟨r0row, w⟩ :: L))) r0row = w :=
  funext fun x => View.read_writes_cons_emb v f r0row w L x

/-! ## The body's two runs, over arbitrary staging contents -/

set_option maxHeartbeats 1000000 in
/-- The body at a point that is not the first of its core's run: row 0 of each statistics block is the row found plus the sums. -/
theorem sound_kernel0_later (c : Dev nD) (i : grid0.Coords)
    (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S8x128 .f32) (harg8 : arg8.IsWhole) (arg9 : Memref sig .tc .vmem S8x128 .f32) (harg9 : arg9.IsWhole)
    (hc : ¬r0cond i)
    (x0 : Vec F S4096x256 .f32) (x1 : Vec F S256x256 .f32) (x2 : Vec F S1x256 .f32) (x3 : Vec F S256x128 .f32) (x4 : Vec F S1x128 .f32)
    (y5 : Vec F S4096x128 .f32) (y6 y7 : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ owns (c : Thread nD τ) arg8 fullShare y6 ∗ owns (c : Thread nD τ) arg9 fullShare y7
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (yblk0 x0 x1 x2 x3 x4)
            ∗ (∃ X, ⌜View.ld X r0row = r0acc (View.ld y6 r0row) (yblk0 x0 x1 x2 x3 x4)⌝ ∗ owns (c : Thread nD τ) arg8 fullShare X)
            ∗ (∃ X, ⌜View.ld X r0row = r0accsq (View.ld y7 r0row) (yblk0 x0 x1 x2 x3 x4)⌝ ∗ owns (c : Thread nD τ) arg9 fullShare X)) -∗ K ⟨⟩))
      ⊢ wp frame (wpE (defs₀ (F := F)) Variants.none c none) E (cc0__pass1_kernel_single i arg2 harg2 arg3 harg3 arg4 harg4 arg5 harg5 arg6 harg6 arg7 harg7 arg8 harg8 arg9 harg9) K := by
  simp only [cc0__pass1_kernel_single_eq_skeleton]; unfold cc0__pass1_kernel_single_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    rw [readAt_S4096x256, readAt_S256x256, readAt_S1x256, readAt_S256x128, readAt_S1x128]
    exact read_whole_store5 (F := F) _ _ _
  isplitl [H6]
  · iexists _; isplitr; swap
    · iexists _; isplitr; swap; · iexact H6
      ipureintro; rfl
    ipureintro
    rw [readAt_S4096x256, readAt_S256x256, readAt_S1x256, readAt_S256x128, readAt_S1x128]
    rw [k0_pay5_eq]
    exact ld_row0_store (F := F) _ _ _ _
  · iexists _; isplitr; swap
    · iexists _; isplitr; swap; · iexact H7
      ipureintro; rfl
    ipureintro
    rw [readAt_S4096x256, readAt_S256x256, readAt_S1x256, readAt_S256x128, readAt_S1x128]
    rw [k0_pay1_eq]
    exact ld_row0_store (F := F) _ _ _ _

set_option maxHeartbeats 1000000 in
/-- The body at the first point of a core's run: row 0 of each statistics block is the zero row plus the sums. -/
theorem sound_kernel0_first (c : Dev nD) (i : grid0.Coords)
    (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S8x128 .f32) (harg8 : arg8.IsWhole) (arg9 : Memref sig .tc .vmem S8x128 .f32) (harg9 : arg9.IsWhole)
    (hc : r0cond i)
    (x0 : Vec F S4096x256 .f32) (x1 : Vec F S256x256 .f32) (x2 : Vec F S1x256 .f32) (x3 : Vec F S256x128 .f32) (x4 : Vec F S1x128 .f32)
    (y5 : Vec F S4096x128 .f32) (y6 y7 : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ owns (c : Thread nD τ) arg8 fullShare y6 ∗ owns (c : Thread nD τ) arg9 fullShare y7
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (yblk0 x0 x1 x2 x3 x4)
            ∗ (∃ X, ⌜View.ld X r0row = r0acc r0zrow (yblk0 x0 x1 x2 x3 x4)⌝ ∗ owns (c : Thread nD τ) arg8 fullShare X)
            ∗ (∃ X, ⌜View.ld X r0row = r0accsq r0zrow (yblk0 x0 x1 x2 x3 x4)⌝ ∗ owns (c : Thread nD τ) arg9 fullShare X)) -∗ K ⟨⟩))
      ⊢ wp frame (wpE (defs₀ (F := F)) Variants.none c none) E (cc0__pass1_kernel_single i arg2 harg2 arg3 harg3 arg4 harg4 arg5 harg5 arg6 harg6 arg7 harg7 arg8 harg8 arg9 harg9) K := by
  simp only [cc0__pass1_kernel_single_eq_skeleton]; unfold cc0__pass1_kernel_single_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    rw [readAt_S4096x256, readAt_S256x256, readAt_S1x256, readAt_S256x128, readAt_S1x128]
    exact read_whole_store5 (F := F) _ _ _
  isplitl [H6]
  · iexists _; isplitr; swap
    · iexists _; isplitr; swap; · iexact H6
      ipureintro; rfl
    ipureintro
    rw [readAt_S4096x256, readAt_S256x256, readAt_S1x256, readAt_S256x128, readAt_S1x128]
    rw [k0_pay5_eq]
    refine (ld_row0_store (F := F) _ _ _ _).trans ?_
    congr 1
    sl_unfold_run_names
    exact View.readCov_cons_toLoadRect _ _ _ _
  · iexists _; isplitr; swap
    · iexists _; isplitr; swap; · iexact H7
      ipureintro; rfl
    ipureintro
    rw [readAt_S4096x256, readAt_S256x256, readAt_S1x256, readAt_S256x128, readAt_S1x128]
    rw [k0_pay1_eq]
    refine (ld_row0_store (F := F) _ _ _ _).trans ?_
    congr 1
    sl_unfold_run_names
    exact View.readCov_cons_toLoadRect _ _ _ _

/-! ## The proof data of region 0, relational -/

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `y` at point `t`: the body's function of the five input blocks there. -/
def yat0 (c : Dev nD) (t : Fin cfg0.N) : Vec F S4096x128 .f32 :=
  yblk0 (iblk0 V c 0 t) (iblk0 V c 1 t) (iblk0 V c 2 t) (iblk0 V c 3 t) (iblk0 V c 4 t)

/-- The proof data of the launch on core `c`: the arrays as the region finds them; an input's buffer is left as found; the
    `y` window's buffer is left at the block of `y`; of a statistics window's buffer only row 0 is constrained — it is the
    row found (the zero row at the first point of a core's run) plus the column sums of the block of `y` (of its square) —, and
    nothing is said of rows 1 to 7, which the body never stores. -/
def rdat0 (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => X = yat0 V c t
    | ⟨6, _⟩ => fun Y X => View.ld X r0row = r0acc (if t.val % 8 = 0 then r0zrow else View.ld Y r0row) (yat0 V c t)
    | ⟨7, _⟩ => fun Y X => View.ld X r0row = r0accsq (if t.val % 8 = 0 then r0zrow else View.ld Y r0row) (yat0 V c t)
  Φ _ := Pipeline.ΦA spec0 c
  q _ := fullShare
  owed _ := 0

theorem rdat0_A (c : Dev nD) (w : Fin cfg0.W) : (rdat0 V c).A w = V c (Pipeline.arrRef spec0 w) := by dsimp only [rdat0]

theorem after0_0 (c : Dev nD) (t : Fin cfg0.N) Y X : (rdat0 V c).after 0 t Y X ↔ X = Y := by dsimp only [rdat0]; exact Iff.rfl
theorem after0_1 (c : Dev nD) (t : Fin cfg0.N) Y X : (rdat0 V c).after 1 t Y X ↔ X = Y := by dsimp only [rdat0]; exact Iff.rfl
theorem after0_2 (c : Dev nD) (t : Fin cfg0.N) Y X : (rdat0 V c).after 2 t Y X ↔ X = Y := by dsimp only [rdat0]; exact Iff.rfl
theorem after0_3 (c : Dev nD) (t : Fin cfg0.N) Y X : (rdat0 V c).after 3 t Y X ↔ X = Y := by dsimp only [rdat0]; exact Iff.rfl
theorem after0_4 (c : Dev nD) (t : Fin cfg0.N) Y X : (rdat0 V c).after 4 t Y X ↔ X = Y := by dsimp only [rdat0]; exact Iff.rfl
theorem after0_5 (c : Dev nD) (t : Fin cfg0.N) Y X : (rdat0 V c).after 5 t Y X ↔ X = yat0 V c t := by dsimp only [rdat0]; exact Iff.rfl
theorem after0_6 (c : Dev nD) (t : Fin cfg0.N) Y X : (rdat0 V c).after 6 t Y X ↔
    View.ld X r0row = r0acc (if t.val % 8 = 0 then r0zrow else View.ld Y r0row) (yat0 V c t) := by dsimp only [rdat0]; exact Iff.rfl
theorem after0_7 (c : Dev nD) (t : Fin cfg0.N) Y X : (rdat0 V c).after 7 t Y X ↔
    View.ld X r0row = r0accsq (if t.val % 8 = 0 then r0zrow else View.ld Y r0row) (yat0 V c t) := by dsimp only [rdat0]; exact Iff.rfl

/-! ## What the body finds in an input's buffer: the window's block, fetched at the point or not -/

theorem finds0_0 (c : Dev nD) (t : Fin cfg0.N) (Y) (h : (rdat0 V c).Finds 0 t Y) : Y = iblk0 V c 0 t := by
  obtain ⟨d, rfl⟩ := (rdat0 V c).finds_in_eq_fetched 0 rfl (fun _ _ _ => rfl) (fun t Y X h => (after0_0 V c t Y X).mp h) t Y h
  unfold RDat.fetched RDat.blockOf iblk0; rw [rdat0_A]; rfl

theorem finds0_1 (c : Dev nD) (t : Fin cfg0.N) (Y) (h : (rdat0 V c).Finds 1 t Y) : Y = iblk0 V c 1 t := by
  obtain ⟨d, rfl⟩ := (rdat0 V c).finds_in_eq_fetched 1 rfl (fun _ _ _ => rfl) (fun t Y X h => (after0_1 V c t Y X).mp h) t Y h
  unfold RDat.fetched RDat.blockOf iblk0; rw [rdat0_A]; rfl

theorem finds0_2 (c : Dev nD) (t : Fin cfg0.N) (Y) (h : (rdat0 V c).Finds 2 t Y) : Y = iblk0 V c 2 t := by
  obtain ⟨d, rfl⟩ := (rdat0 V c).finds_in_eq_fetched 2 rfl (fun _ _ _ => rfl) (fun t Y X h => (after0_2 V c t Y X).mp h) t Y h
  unfold RDat.fetched RDat.blockOf iblk0; rw [rdat0_A]; rfl

theorem finds0_3 (c : Dev nD) (t : Fin cfg0.N) (Y) (h : (rdat0 V c).Finds 3 t Y) : Y = iblk0 V c 3 t := by
  obtain ⟨d, rfl⟩ := (rdat0 V c).finds_in_eq_fetched 3 rfl (fun _ _ _ => rfl) (fun t Y X h => (after0_3 V c t Y X).mp h) t Y h
  unfold RDat.fetched RDat.blockOf iblk0; rw [rdat0_A]; rfl

theorem finds0_4 (c : Dev nD) (t : Fin cfg0.N) (Y) (h : (rdat0 V c).Finds 4 t Y) : Y = iblk0 V c 4 t := by
  obtain ⟨d, rfl⟩ := (rdat0 V c).finds_in_eq_fetched 4 rfl (fun _ _ _ => rfl) (fun t Y X h => (after0_4 V c t Y X).mp h) t Y h
  unfold RDat.fetched RDat.blockOf iblk0; rw [rdat0_A]; rfl

/-! ## The body obligation -/

set_option maxHeartbeats 1000000 in
/-- The body at any point, on the buffers the pipeline hands it: the inputs' hold their blocks (`h0` … `h4`), the outputs' anything.
    The point's position in its core's run of eight says which of the two runs applies; what the run leaves is in the relation. -/
theorem sound_body0 (c : Dev nD) (t : Fin cfg0.N) (Y : (w : Fin cfg0.W) → (cfg0.win w).block.Idx → Elt F (cfg0.win w).elt)
    (h0 : Y 0 = iblk0 V c 0 t) (h1 : Y 1 = iblk0 V c 1 t) (h2 : Y 2 = iblk0 V c 2 t) (h3 : Y 3 = iblk0 V c 3 t) (h4 : Y 4 = iblk0 V c 4 t) :
    iprop((rdat0 V c).Φ t.castSucc ∗ (rdat0 V c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2)
        ∗ owns (c : Thread nD τ) ((cfg0.win 3).stage (cfg0.slots t 3)) fullShare (Y 3)
        ∗ owns (c : Thread nD τ) ((cfg0.win 4).stage (cfg0.slots t 4)) fullShare (Y 4)
        ∗ owns (c : Thread nD τ) ((cfg0.win 5).stage (cfg0.slots t 5)) fullShare (Y 5)
        ∗ owns (c : Thread nD τ) ((cfg0.win 6).stage (cfg0.slots t 6)) fullShare (Y 6)
        ∗ owns (c : Thread nD τ) ((cfg0.win 7).stage (cfg0.slots t 7)) fullShare (Y 7))
      ⊢ wp frame (wpE (defs₀ (F := F)) Variants.none c none) Set.univ (bodyAt0 t) (fun _ =>
        iprop((rdat0 V c).Φ t.succ ∗ (rdat0 V c).owesAt () t.succ
          ∗ (∃ X, ⌜(rdat0 V c).after 0 t (Y 0) X⌝ ∗ owns (c : Thread nD τ) ((cfg0.win 0).stage (cfg0.slots t 0)) fullShare X)
          ∗ (∃ X, ⌜(rdat0 V c).after 1 t (Y 1) X⌝ ∗ owns (c : Thread nD τ) ((cfg0.win 1).stage (cfg0.slots t 1)) fullShare X)
          ∗ (∃ X, ⌜(rdat0 V c).after 2 t (Y 2) X⌝ ∗ owns (c : Thread nD τ) ((cfg0.win 2).stage (cfg0.slots t 2)) fullShare X)
          ∗ (∃ X, ⌜(rdat0 V c).after 3 t (Y 3) X⌝ ∗ owns (c : Thread nD τ) ((cfg0.win 3).stage (cfg0.slots t 3)) fullShare X)
          ∗ (∃ X, ⌜(rdat0 V c).after 4 t (Y 4) X⌝ ∗ owns (c : Thread nD τ) ((cfg0.win 4).stage (cfg0.slots t 4)) fullShare X)
          ∗ (∃ X, ⌜(rdat0 V c).after 5 t (Y 5) X⌝ ∗ owns (c : Thread nD τ) ((cfg0.win 5).stage (cfg0.slots t 5)) fullShare X)
          ∗ (∃ X, ⌜(rdat0 V c).after 6 t (Y 6) X⌝ ∗ owns (c : Thread nD τ) ((cfg0.win 6).stage (cfg0.slots t 6)) fullShare X)
          ∗ (∃ X, ⌜(rdat0 V c).after 7 t (Y 7) X⌝ ∗ owns (c : Thread nD τ) ((cfg0.win 7).stage (cfg0.slots t 7)) fullShare X))) := by
  unfold bodyAt0
  rw [show (rdat0 V c).Φ t.succ = (rdat0 V c).Φ t.castSucc from rfl,
    show (rdat0 V c).owesAt () t.succ = (rdat0 V c).owesAt () t.castSucc from rfl]
  by_cases h : t.val % 8 = 0
  ·
    iintro ⟨HΦ, Ho, H0, H1, H2, H3, H4, H5, H6, H7⟩
    iapply (sound_kernel0_first c (grid0.coords t) _ _ _ _ _ _ _ _ _ _ _ _ _ _ _ _ ((r0cond_iff t).mpr h) (Y 0) (Y 1) (Y 2) (Y 3) (Y 4) (Y 5) (Y 6) (Y 7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%X6, %hX6, H6⟩, ⟨%X7, %hX7, H7⟩⟩
    isplitl [HΦ]; · iexact HΦ
    isplitl [Ho]; · iexact Ho
    isplitl [H0]
    · iexists _; isplitr; swap; · iexact H0
      ipureintro; exact (after0_0 V c t _ _).mpr rfl
    isplitl [H1]
    · iexists _; isplitr; swap; · iexact H1
      ipureintro; exact (after0_1 V c t _ _).mpr rfl
    isplitl [H2]
    · iexists _; isplitr; swap; · iexact H2
      ipureintro; exact (after0_2 V c t _ _).mpr rfl
    isplitl [H3]
    · iexists _; isplitr; swap; · iexact H3
      ipureintro; exact (after0_3 V c t _ _).mpr rfl
    isplitl [H4]
    · iexists _; isplitr; swap; · iexact H4
      ipureintro; exact (after0_4 V c t _ _).mpr rfl
    isplitl [H5]
    · iexists _; isplitr; swap; · iexact H5
      ipureintro; rw [after0_5]; unfold yat0; rw [← h0, ← h1, ← h2, ← h3, ← h4]
    isplitl [H6]
    · iexists X6; isplitr; swap; · iexact H6
      ipureintro; rw [after0_6, if_pos h]; unfold yat0; rw [← h0, ← h1, ← h2, ← h3, ← h4]; exact hX6
    · iexists X7; isplitr; swap; · iexact H7
      ipureintro; rw [after0_7, if_pos h]; unfold yat0; rw [← h0, ← h1, ← h2, ← h3, ← h4]; exact hX7
  ·
    iintro ⟨HΦ, Ho, H0, H1, H2, H3, H4, H5, H6, H7⟩
    iapply (sound_kernel0_later c (grid0.coords t) _ _ _ _ _ _ _ _ _ _ _ _ _ _ _ _ (fun hc => h ((r0cond_iff t).mp hc)) (Y 0) (Y 1) (Y 2) (Y 3) (Y 4) (Y 5) (Y 6) (Y 7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%X6, %hX6, H6⟩, ⟨%X7, %hX7, H7⟩⟩
    isplitl [HΦ]; · iexact HΦ
    isplitl [Ho]; · iexact Ho
    isplitl [H0]
    · iexists _; isplitr; swap; · iexact H0
      ipureintro; exact (after0_0 V c t _ _).mpr rfl
    isplitl [H1]
    · iexists _; isplitr; swap; · iexact H1
      ipureintro; exact (after0_1 V c t _ _).mpr rfl
    isplitl [H2]
    · iexists _; isplitr; swap; · iexact H2
      ipureintro; exact (after0_2 V c t _ _).mpr rfl
    isplitl [H3]
    · iexists _; isplitr; swap; · iexact H3
      ipureintro; exact (after0_3 V c t _ _).mpr rfl
    isplitl [H4]
    · iexists _; isplitr; swap; · iexact H4
      ipureintro; exact (after0_4 V c t _ _).mpr rfl
    isplitl [H5]
    · iexists _; isplitr; swap; · iexact H5
      ipureintro; rw [after0_5]; unfold yat0; rw [← h0, ← h1, ← h2, ← h3, ← h4]
    isplitl [H6]
    · iexists X6; isplitr; swap; · iexact H6
      ipureintro; rw [after0_6, if_neg h]; unfold yat0; rw [← h0, ← h1, ← h2, ← h3, ← h4]; exact hX6
    · iexists X7; isplitr; swap; · iexact H7
      ipureintro; rw [after0_7, if_neg h]; unfold yat0; rw [← h0, ← h1, ← h2, ← h3, ← h4]; exact hX7

/-- The library's body obligation of the relational data, at every point. -/
theorem body_obligation0 (c : Dev nD) : (rdat0 (F := F) V c).BodyObligation (defs₀ (F := F)) Variants.none () Set.univ := by
  intro t Y hY
  rw [bigSep_W0, bigSep_W0]
  exact sound_body0 V c t Y (finds0_0 V c t _ (hY 0)) (finds0_1 V c t _ (hY 1)) (finds0_2 V c t _ (hY 2)) (finds0_3 V c t _ (hY 3))
    (finds0_4 V c t _ (hY 4))

end Cert.KernelIdeal.Hand
end
-- ==== Proof.Hand.P1r0Arr.lean ====
/- What region 0's arrays hold after the launch, from the relational data's `ArrAt` (pure: no separation logic).

   An input array is as the region found it. Row block `p` of the array of `y` is the block of `y` at point `p`. Of a
   statistics array only rows 0 and 8 are determined: row 0 is core 0's fold — the zero row with the column sums of the blocks
   of `y` (of their squares) at its eight points added in point order —, row 8 core 1's. -/
import proofs.«103476_j5987184410999_2_alg».proof.Proof.Hand.P1r0
import proofs.«103476_j5987184410999_2_alg».proof.Proof.Hand.Agree
import Idealize.ShloMosaic.Lib.Pipeline.Cells
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (RDat Dat Cfg Window cellOf)
open Idealize.ShloMosaic.ValueIdx (ix2 eq_ix2)

variable {F : FTy → Type} [FloatOps F]

variable (V : (c : Dev nD) → (b : Ref sig .tc) → Buf (Elt F) ((c : Thread nD τ).loc b))

/-! ## What the arrays hold after the launch -/

section Arr

/-! ### Inputs: never written -/

theorem arrAt0_in_of (c : Dev nD) (w : Fin cfg0.W) (hw : (cfg0.win w).isOut = false) (n : ℕ)
    (G : Buf (Elt F) ((cfg0.win w).arr.view.loc (c.tc : Thread nD τ))) (h : (rdat0 V c).ArrAt w n G) :
    G = V c (Pipeline.arrRef spec0 w) := by
  rw [RDat.ArrAt_in _ w hw n] at h; exact h.trans (rdat0_A V c w)

/-- The first five windows are the inputs. -/
theorem isOut0_in : ∀ w : Fin cfg0.W, w.val < 5 → (cfg0.win w).isOut = false := by decide

/-- An input's array is as the region found it. -/
theorem arrAt0_in (c : Dev nD) (w : Fin cfg0.W) (hw : w.val < 5)
    (G : Buf (Elt F) ((cfg0.win w).arr.view.loc (c.tc : Thread nD τ))) (h : (rdat0 V c).ArrAt w cfg0.N G) :
    G = V c (Pipeline.arrRef spec0 w) := arrAt0_in_of V c w (isOut0_in w hw) cfg0.N G h

/-! ### The schedule of the three outputs -/

theorem fetch0_5 : ∀ t : Fin cfg0.N, (cfg0.win 5).fetch t = false :=
  (by decide +kernel : ∀ t : Fin grid0.N, win0_5.fetch t = false)
theorem fetch0_6 : ∀ t : Fin cfg0.N, (cfg0.win 6).fetch t = false :=
  (by decide +kernel : ∀ t : Fin grid0.N, win0_6.fetch t = false)
theorem fetch0_7 : ∀ t : Fin cfg0.N, (cfg0.win 7).fetch t = false :=
  (by decide +kernel : ∀ t : Fin grid0.N, win0_7.fetch t = false)

/-- The block index of the `y` window at point `t`: row block `t`. -/
theorem index0_5 : ∀ t : Fin cfg0.N, (cfg0.win 5).index t = ![t.val, 0] :=
  (by decide +kernel : ∀ t : Fin grid0.N, win0_5.index t = ![t.val, 0])
/-- The block index of a statistics window at point `t`: the core's. -/
theorem index0_6 : ∀ t : Fin cfg0.N, (cfg0.win 6).index t = ![t.val / 8, 0] :=
  (by decide +kernel : ∀ t : Fin grid0.N, win0_6.index t = ![t.val / 8, 0])
theorem index0_7 : ∀ t : Fin cfg0.N, (cfg0.win 7).index t = ![t.val / 8, 0] :=
  (by decide +kernel : ∀ t : Fin grid0.N, win0_7.index t = ![t.val / 8, 0])

/-! ### Window 5: block `t` of the array is the block of `y` at `t` -/

theorem leaves0_5 (c : Dev nD) (t : Fin cfg0.N) (X) (h : (rdat0 V c).Leaves 5 t X) : X = yat0 V c t := by
  obtain ⟨Y, -, hA⟩ := h
  exact (after0_5 V c t Y X).mp hA

theorem arrAt0_5_blk (c : Dev nD) : ∀ (n : ℕ), n ≤ 16 → ∀ G, (rdat0 V c).ArrAt 5 n G →
    ∀ u : Fin cfg0.N, u.val < n → ((cfg0.win 5).blk u).view.read (Elt F) G = yat0 V c u
  | 0, _, _, _, u, hu => absurd hu (Nat.not_lt_zero _)
  | n + 1, hn, G, h, u, hu => by
    have hN : n < cfg0.N := by show n < grid0.N; rw [N_0]; omega
    rw [show n + 1 = (⟨n, hN⟩ : Fin cfg0.N).val + 1 from rfl, RDat.ArrAt_succ, if_pos (flush0_5 _)] at h
    obtain ⟨G₀, X, hG₀, hX, rfl⟩ := h
    obtain rfl := leaves0_5 V c _ X hX
    by_cases hun : u.val = n
    · have e : u = ⟨n, hN⟩ := Fin.ext hun
      subst e
      exact View.read_write_univ _ _
    · refine Eq.trans ?_ (arrAt0_5_blk c n (by omega) G₀ hG₀ u (by omega))
      refine View.read_congr fun i hi => View.write_of_not_mem _ _ _ ?_
      have hd := (cfg0.win 5).disjoint_blk (u := u) (u' := ⟨n, hN⟩) (by
        rw [index0_5, index0_5]; intro e; exact hun (by simpa using congrFun e 0))
      exact Finset.disjoint_left.mp hd hi
end Arr

section Arr3

/-! ### Windows 6 and 7: row 0 of a core's statistics block is the fold of its eight points -/

/-- Point `j` of core `q`'s run of eight. -/
def r0pt (q : Fin 2) (j : ℕ) (hj : j < 8) : Fin cfg0.N := ⟨8 * q.val + j, by have := q.isLt; show _ < grid0.N; rw [N_0]; omega⟩

/-- Row 0 of core `q`'s sum block after its point `j`: the zero row with the column sums of the blocks of `y` at the points
    `0 … j` of the core's run added in that order. -/
def r0sum (c : Dev nD) (q : Fin 2) : (j : ℕ) → j < 8 → FVec F S1x128 .f32
  | 0, h => r0acc r0zrow (yat0 V c (r0pt q 0 h))
  | j + 1, h => r0acc (r0sum c q j (Nat.lt_of_succ_lt h)) (yat0 V c (r0pt q (j + 1) h))

/-- The same of the squares. -/
def r0sumsq (c : Dev nD) (q : Fin 2) : (j : ℕ) → j < 8 → FVec F S1x128 .f32
  | 0, h => r0accsq r0zrow (yat0 V c (r0pt q 0 h))
  | j + 1, h => r0accsq (r0sumsq c q j (Nat.lt_of_succ_lt h)) (yat0 V c (r0pt q (j + 1) h))

theorem leaves0_6 (c : Dev nD) (q : Fin 2) : ∀ (j : ℕ) (hj : j < 8) (X), (rdat0 V c).Leaves 6 (r0pt q j hj) X →
    View.ld X r0row = r0sum V c q j hj
  | 0, hj, X, h => by
    obtain ⟨Y, -, hA⟩ := h
    rw [after0_6, if_pos (by show (8 * q.val + 0) % 8 = 0; omega)] at hA
    exact hA
  | j + 1, hj, X, h => by
    obtain ⟨Y, hF, hA⟩ := h
    rw [after0_6, if_neg (by show ¬(8 * q.val + (j + 1)) % 8 = 0; omega)] at hA
    rw [RDat.finds_of_pos _ (fetch0_6 _) (by show 8 * q.val + (j + 1) ≠ 0; omega)] at hF
    rcases hF with hfl | hL
    · exact absurd ((flush0_6 _).mp hfl) (by show ¬(8 * q.val + (j + 1) - 1) % 8 = 7; omega)
    · have e : (⟨(r0pt q (j + 1) hj).val - 1, Nat.lt_of_le_of_lt (Nat.sub_le _ _) (r0pt q (j + 1) hj).isLt⟩ : Fin cfg0.N)
          = r0pt q j (Nat.lt_of_succ_lt hj) := Fin.ext (by show 8 * q.val + (j + 1) - 1 = 8 * q.val + j; omega)
      rw [e] at hL
      rw [hA, leaves0_6 c q j (Nat.lt_of_succ_lt hj) Y hL]
      rfl

theorem leaves0_7 (c : Dev nD) (q : Fin 2) : ∀ (j : ℕ) (hj : j < 8) (X), (rdat0 V c).Leaves 7 (r0pt q j hj) X →
    View.ld X r0row = r0sumsq V c q j hj
  | 0, hj, X, h => by
    obtain ⟨Y, -, hA⟩ := h
    rw [after0_7, if_pos (by show (8 * q.val + 0) % 8 = 0; omega)] at hA
    exact hA
  | j + 1, hj, X, h => by
    obtain ⟨Y, hF, hA⟩ := h
    rw [after0_7, if_neg (by show ¬(8 * q.val + (j + 1)) % 8 = 0; omega)] at hA
    rw [RDat.finds_of_pos _ (fetch0_7 _) (by show 8 * q.val + (j + 1) ≠ 0; omega)] at hF
    rcases hF with hfl | hL
    · exact absurd ((flush0_7 _).mp hfl) (by show ¬(8 * q.val + (j + 1) - 1) % 8 = 7; omega)
    · have e : (⟨(r0pt q (j + 1) hj).val - 1, Nat.lt_of_le_of_lt (Nat.sub_le _ _) (r0pt q (j + 1) hj).isLt⟩ : Fin cfg0.N)
          = r0pt q j (Nat.lt_of_succ_lt hj) := Fin.ext (by show 8 * q.val + (j + 1) - 1 = 8 * q.val + j; omega)
      rw [e] at hL
      rw [hA, leaves0_7 c q j (Nat.lt_of_succ_lt hj) Y hL]
      rfl

end Arr3

section Arr4

section TwoWrites
variable {sg : RefSig} {κ : Kind} {sp : Space} {s : Shape} {e : EltTy} {Val : EltTy → Type}

/-- After two writes through rectangles of a view, an element of the first rectangle outside the second reads the first payload; -/
theorem read_two_writes_fst (v : View sg κ sp s e) (r r' : Rect s) (f : v.ty.Contents Val) (w : r.shape.Idx → Val e)
    (w' : r'.shape.Idx → Val e) (x : r.shape.Idx) (i : s.Idx) (hi : i = r.emb x) (h : i ∉ r'.set) :
    v.read Val ((v.slice r').write Val ((v.slice r).write Val f w Finset.univ) w' Finset.univ) i = w x := by
  subst hi
  rw [View.read_slice_write_of_not_mem r' _ _ _ (by rw [Rect.map_emb_univ]; exact h),
    View.read_slice_write_emb r _ _ (Finset.mem_univ x)]

/-- an element of the second reads the second. -/
theorem read_two_writes_snd (v : View sg κ sp s e) (r r' : Rect s) (f : v.ty.Contents Val) (w : r.shape.Idx → Val e)
    (w' : r'.shape.Idx → Val e) (x : r'.shape.Idx) (i : s.Idx) (hi : i = r'.emb x) :
    v.read Val ((v.slice r').write Val ((v.slice r).write Val f w Finset.univ) w' Finset.univ) i = w' x := by
  subst hi
  exact View.read_slice_write_emb r' _ _ (Finset.mem_univ x)
end TwoWrites

theorem arrAt0_6_keep (c : Dev nD) : ∀ (n m : ℕ), m ≤ n → n ≤ 16 → (∀ k, m ≤ k → k < n → k % 8 ≠ 7) →
    (rdat0 V c).ArrAt 6 n = (rdat0 V c).ArrAt 6 m
  | 0, m, hm, _, _ => by obtain rfl := Nat.le_zero.mp hm; rfl
  | n + 1, m, hm, hn, hk => by
    rcases Nat.eq_or_lt_of_le hm with e | hlt
    · rw [e]
    · have hN : n < cfg0.N := by show n < grid0.N; rw [N_0]; omega
      have hs := (rdat0 V c).ArrAt_succ 6 ⟨n, hN⟩
      rw [if_neg (fun hf => hk n (by omega) (by omega) ((flush0_6 ⟨n, hN⟩).mp hf))] at hs
      exact hs.trans (arrAt0_6_keep c n m (by omega) (by omega) fun k h1 h2 => hk k h1 (by omega))

/-- After the launch a statistics array is its entry contents with core 0's block, then core 1's, written over it, each from
    a buffer whose row 0 is the core's fold. -/
theorem arrAt0_6_form (c : Dev nD) (G : Buf (Elt F) ((cfg0.win 6).arr.view.loc (c.tc : Thread nD τ)))
    (h : (rdat0 V c).ArrAt 6 cfg0.N G) :
    ∃ X X', View.ld X r0row = r0sum V c 0 7 (by omega) ∧ View.ld X' r0row = r0sum V c 1 7 (by omega) ∧
      G = ((cfg0.win 6).arr.view.slice ((cfg0.win 6).rect t0_15)).write (Elt F)
            (((cfg0.win 6).arr.view.slice ((cfg0.win 6).rect t0_7)).write (Elt F) ((rdat0 V c).A 6)
              ((cfg0.win 6).cut (cfg0.grid.coords t0_7) X) Finset.univ)
            ((cfg0.win 6).cut (cfg0.grid.coords t0_15) X') Finset.univ := by
  have e16 := (rdat0 V c).ArrAt_succ 6 t0_15
  rw [if_pos ((flush0_6 t0_15).mpr rfl)] at e16
  have h1 : (rdat0 V c).ArrStep 6 t0_15 ((rdat0 V c).ArrAt 6 15) G := Eq.mp (congrFun e16 G) h
  obtain ⟨G₁, X', hG₁, hX', rfl⟩ := h1
  have e15 := arrAt0_6_keep V c 15 8 (by omega) (by omega) (by intro k h1 h2; omega)
  have e8 := (rdat0 V c).ArrAt_succ 6 t0_7
  rw [if_pos ((flush0_6 t0_7).mpr rfl)] at e8
  have h2 : (rdat0 V c).ArrStep 6 t0_7 ((rdat0 V c).ArrAt 6 7) G₁ := Eq.mp (congrFun (e15.trans e8) G₁) hG₁
  obtain ⟨G₀, X, hG₀, hX, rfl⟩ := h2
  have e7 := arrAt0_6_keep V c 7 0 (by omega) (by omega) (by intro k h1 h2; omega)
  have h3 : G₀ = (rdat0 V c).A 6 := Eq.mp (congrFun e7 G₀) hG₀
  subst h3
  exact ⟨X, X', leaves0_6 V c 0 7 (by omega) X hX, leaves0_6 V c 1 7 (by omega) X' hX', rfl⟩

theorem arrAt0_7_keep (c : Dev nD) : ∀ (n m : ℕ), m ≤ n → n ≤ 16 → (∀ k, m ≤ k → k < n → k % 8 ≠ 7) →
    (rdat0 V c).ArrAt 7 n = (rdat0 V c).ArrAt 7 m
  | 0, m, hm, _, _ => by obtain rfl := Nat.le_zero.mp hm; rfl
  | n + 1, m, hm, hn, hk => by
    rcases Nat.eq_or_lt_of_le hm with e | hlt
    · rw [e]
    · have hN : n < cfg0.N := by show n < grid0.N; rw [N_0]; omega
      have hs := (rdat0 V c).ArrAt_succ 7 ⟨n, hN⟩
      rw [if_neg (fun hf => hk n (by omega) (by omega) ((flush0_7 ⟨n, hN⟩).mp hf))] at hs
      exact hs.trans (arrAt0_7_keep c n m (by omega) (by omega) fun k h1 h2 => hk k h1 (by omega))

/-- After the launch a statistics array is its entry contents with core 0's block, then core 1's, written over it, each from
    a buffer whose row 0 is the core's fold. -/
theorem arrAt0_7_form (c : Dev nD) (G : Buf (Elt F) ((cfg0.win 7).arr.view.loc (c.tc : Thread nD τ)))
    (h : (rdat0 V c).ArrAt 7 cfg0.N G) :
    ∃ X X', View.ld X r0row = r0sumsq V c 0 7 (by omega) ∧ View.ld X' r0row = r0sumsq V c 1 7 (by omega) ∧
      G = ((cfg0.win 7).arr.view.slice ((cfg0.win 7).rect t0_15)).write (Elt F)
            (((cfg0.win 7).arr.view.slice ((cfg0.win 7).rect t0_7)).write (Elt F) ((rdat0 V c).A 7)
              ((cfg0.win 7).cut (cfg0.grid.coords t0_7) X) Finset.univ)
            ((cfg0.win 7).cut (cfg0.grid.coords t0_15) X') Finset.univ := by
  have e16 := (rdat0 V c).ArrAt_succ 7 t0_15
  rw [if_pos ((flush0_7 t0_15).mpr rfl)] at e16
  have h1 : (rdat0 V c).ArrStep 7 t0_15 ((rdat0 V c).ArrAt 7 15) G := Eq.mp (congrFun e16 G) h
  obtain ⟨G₁, X', hG₁, hX', rfl⟩ := h1
  have e15 := arrAt0_7_keep V c 15 8 (by omega) (by omega) (by intro k h1 h2; omega)
  have e8 := (rdat0 V c).ArrAt_succ 7 t0_7
  rw [if_pos ((flush0_7 t0_7).mpr rfl)] at e8
  have h2 : (rdat0 V c).ArrStep 7 t0_7 ((rdat0 V c).ArrAt 7 7) G₁ := Eq.mp (congrFun (e15.trans e8) G₁) hG₁
  obtain ⟨G₀, X, hG₀, hX, rfl⟩ := h2
  have e7 := arrAt0_7_keep V c 7 0 (by omega) (by omega) (by intro k h1 h2; omega)
  have h3 : G₀ = (rdat0 V c).A 7 := Eq.mp (congrFun e7 G₀) hG₀
  subst h3
  exact ⟨X, X', leaves0_7 V c 0 7 (by omega) X hX, leaves0_7 V c 1 7 (by omega) X' hX', rfl⟩

end Arr4

section Arr5

section RowApply
/-- The host's row slices at an index. -/
theorem row0_apply (X : (⟨S16x128, .f32⟩ : BufTy).Contents (Elt F)) (x : S1x128.Idx) :
    row0 X x = X (ix2 (⟨(x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 0 + (x 0).val = (x 0).val; omega)
  | ⟨1, _⟩ => exact Fin.ext (by show 0 + (x 1).val = (x 1).val; omega)
theorem row8_apply (X : (⟨S16x128, .f32⟩ : BufTy).Contents (Elt F)) (x : S1x128.Idx) :
    row8 X x = X (ix2 (⟨8 + (x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 8 + (x 0).val = 8 + (x 0).val; omega)
  | ⟨1, _⟩ => exact Fin.ext (by show 0 + (x 1).val = (x 1).val; omega)
end RowApply

/-- Rows 0 and 8 of the array after the launch are the two cores' folds. -/
theorem arrAt0_6_rows (c : Dev nD) (G : Buf (Elt F) ((cfg0.win 6).arr.view.loc (c.tc : Thread nD τ)))
    (h : (rdat0 V c).ArrAt 6 cfg0.N G) : row0 G = r0sum V c 0 7 (by omega) ∧ row8 G = r0sum V c 1 7 (by omega) := by
  obtain ⟨X, X', hX, hX', rfl⟩ := arrAt0_6_form V c G h
  constructor
  · funext x
    have hx0 : (x 0).val < 1 := (x 0).isLt
    rw [← hX, row0_apply]
    have hi : ix2 (⟨(x 0).val, by omega⟩ : Fin 16) (⟨(x 1).val, (x 1).isLt⟩ : Fin 128) = ((cfg0.win 6).rect t0_7).emb (r0row.emb x) := by
      funext a; apply Fin.ext
      rw [Window.rect_emb_val, index0_6]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg0.win 6).rect t0_15).set := by
      intro hm
      have h0 := (Rect.mem_set_unit.mp hm 0).1
      rw [index0_6] at h0
      have h0' : 1 * 8 ≤ (x 0).val := h0
      omega
    exact read_two_writes_fst (Val := Elt F) (cfg0.win 6).arr.view ((cfg0.win 6).rect t0_7) ((cfg0.win 6).rect t0_15) ((rdat0 V c).A 6)
      ((cfg0.win 6).cut (cfg0.grid.coords t0_7) X) ((cfg0.win 6).cut (cfg0.grid.coords t0_15) X') (r0row.emb x) _ hi hnot
  · funext x
    have hx0 : (x 0).val < 1 := (x 0).isLt
    rw [← hX', row8_apply]
    have hi : ix2 (⟨8 + (x 0).val, by omega⟩ : Fin 16) (⟨(x 1).val, (x 1).isLt⟩ : Fin 128) = ((cfg0.win 6).rect t0_15).emb (r0row.emb x) := by
      funext a; apply Fin.ext
      rw [Window.rect_emb_val, index0_6]
      match a with
      | ⟨0, _⟩ => show 8 + (x 0).val = 1 * 8 + (0 + 1 * (x 0).val); omega
      | ⟨1, _⟩ => show (x 1).val = 0 * 128 + (0 + 1 * (x 1).val); omega
    exact read_two_writes_snd (Val := Elt F) (cfg0.win 6).arr.view ((cfg0.win 6).rect t0_7) ((cfg0.win 6).rect t0_15) ((rdat0 V c).A 6)
      ((cfg0.win 6).cut (cfg0.grid.coords t0_7) X) ((cfg0.win 6).cut (cfg0.grid.coords t0_15) X') (r0row.emb x) _ hi

/-- Rows 0 and 8 of the array after the launch are the two cores' folds. -/
theorem arrAt0_7_rows (c : Dev nD) (G : Buf (Elt F) ((cfg0.win 7).arr.view.loc (c.tc : Thread nD τ)))
    (h : (rdat0 V c).ArrAt 7 cfg0.N G) : row0 G = r0sumsq V c 0 7 (by omega) ∧ row8 G = r0sumsq V c 1 7 (by omega) := by
  obtain ⟨X, X', hX, hX', rfl⟩ := arrAt0_7_form V c G h
  constructor
  · funext x
    have hx0 : (x 0).val < 1 := (x 0).isLt
    rw [← hX, row0_apply]
    have hi : ix2 (⟨(x 0).val, by omega⟩ : Fin 16) (⟨(x 1).val, (x 1).isLt⟩ : Fin 128) = ((cfg0.win 7).rect t0_7).emb (r0row.emb x) := by
      funext a; apply Fin.ext
      rw [Window.rect_emb_val, index0_7]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg0.win 7).rect t0_15).set := by
      intro hm
      have h0 := (Rect.mem_set_unit.mp hm 0).1
      rw [index0_7] at h0
      have h0' : 1 * 8 ≤ (x 0).val := h0
      omega
    exact read_two_writes_fst (Val := Elt F) (cfg0.win 7).arr.view ((cfg0.win 7).rect t0_7) ((cfg0.win 7).rect t0_15) ((rdat0 V c).A 7)
      ((cfg0.win 7).cut (cfg0.grid.coords t0_7) X) ((cfg0.win 7).cut (cfg0.grid.coords t0_15) X') (r0row.emb x) _ hi hnot
  · funext x
    have hx0 : (x 0).val < 1 := (x 0).isLt
    rw [← hX', row8_apply]
    have hi : ix2 (⟨8 + (x 0).val, by omega⟩ : Fin 16) (⟨(x 1).val, (x 1).isLt⟩ : Fin 128) = ((cfg0.win 7).rect t0_15).emb (r0row.emb x) := by
      funext a; apply Fin.ext
      rw [Window.rect_emb_val, index0_7]
      match a with
      | ⟨0, _⟩ => show 8 + (x 0).val = 1 * 8 + (0 + 1 * (x 0).val); omega
      | ⟨1, _⟩ => show (x 1).val = 0 * 128 + (0 + 1 * (x 1).val); omega
    exact read_two_writes_snd (Val := Elt F) (cfg0.win 7).arr.view ((cfg0.win 7).rect t0_7) ((cfg0.win 7).rect t0_15) ((rdat0 V c).A 7)
      ((cfg0.win 7).cut (cfg0.grid.coords t0_7) X) ((cfg0.win 7).cut (cfg0.grid.coords t0_15) X') (r0row.emb x) _ hi

/-- A canonical statistics array: every row of a core's eight is that core's fold (only rows 0 and 8 are ever read). -/
def sumArr0 (c : Dev nD) : Buf (Elt F) ((cfg0.win 6).arr.view.loc (c.tc : Thread nD τ)) :=
  fun (j : S16x128.Idx) => r0sum V c ⟨(j 0).val / 8, by have := ValueIdx.idx2_lt0 j; omega⟩ 7 (by omega) (ix2 (0 : Fin 1) (j 1))

theorem row0_sumArr0 (c : Dev nD) : row0 (sumArr0 V c) = r0sum V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row0_apply]
  show r0sum V c ⟨(x 0).val / 8, _⟩ 7 _ (ix2 (0 : Fin 1) (⟨(x 1).val, _⟩ : Fin 128)) = _
  rw [e1, e2]

theorem row8_sumArr0 (c : Dev nD) : row8 (sumArr0 V c) = r0sum V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row8_apply]
  show r0sum V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt0_6 (c : Dev nD) (G : Buf (Elt F) ((cfg0.win 6).arr.view.loc (c.tc : Thread nD τ)))
    (h : (rdat0 V c).ArrAt 6 cfg0.N G) : row0 G = row0 (sumArr0 V c) ∧ row8 G = row8 (sumArr0 V c) := by
  rw [row0_sumArr0, row8_sumArr0]; exact arrAt0_6_rows V c G h

/-- A canonical statistics array: every row of a core's eight is that core's fold (only rows 0 and 8 are ever read). -/
def sqArr0 (c : Dev nD) : Buf (Elt F) ((cfg0.win 7).arr.view.loc (c.tc : Thread nD τ)) :=
  fun (j : S16x128.Idx) => r0sumsq V c ⟨(j 0).val / 8, by have := ValueIdx.idx2_lt0 j; omega⟩ 7 (by omega) (ix2 (0 : Fin 1) (j 1))

theorem row0_sqArr0 (c : Dev nD) : row0 (sqArr0 V c) = r0sumsq V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row0_apply]
  show r0sumsq V c ⟨(x 0).val / 8, _⟩ 7 _ (ix2 (0 : Fin 1) (⟨(x 1).val, _⟩ : Fin 128)) = _
  rw [e1, e2]

theorem row8_sqArr0 (c : Dev nD) : row8 (sqArr0 V c) = r0sumsq V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row8_apply]
  show r0sumsq V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt0_7 (c : Dev nD) (G : Buf (Elt F) ((cfg0.win 7).arr.view.loc (c.tc : Thread nD τ)))
    (h : (rdat0 V c).ArrAt 7 cfg0.N G) : row0 G = row0 (sqArr0 V c) ∧ row8 G = row8 (sqArr0 V c) := by
  rw [row0_sqArr0, row8_sqArr0]; exact arrAt0_7_rows V c G h

/-! ### The folds, written out: the zero row, then the eight blocks' column sums added in point order -/

theorem r0sum_core0 (c : Dev nD) : r0sum V c 0 7 (by omega) = r0acc (r0acc (r0acc (r0acc (r0acc (r0acc (r0acc (r0acc r0zrow (yat0 V c t0_0)) (yat0 V c t0_1)) (yat0 V c t0_2)) (yat0 V c t0_3)) (yat0 V c t0_4)) (yat0 V c t0_5)) (yat0 V c t0_6)) (yat0 V c t0_7) := rfl
theorem r0sum_core1 (c : Dev nD) : r0sum V c 1 7 (by omega) = r0acc (r0acc (r0acc (r0acc (r0acc (r0acc (r0acc (r0acc r0zrow (yat0 V c t0_8)) (yat0 V c t0_9)) (yat0 V c t0_10)) (yat0 V c t0_11)) (yat0 V c t0_12)) (yat0 V c t0_13)) (yat0 V c t0_14)) (yat0 V c t0_15) := rfl
theorem r0sumsq_core0 (c : Dev nD) : r0sumsq V c 0 7 (by omega) = r0accsq (r0accsq (r0accsq (r0accsq (r0accsq (r0accsq (r0accsq (r0accsq r0zrow (yat0 V c t0_0)) (yat0 V c t0_1)) (yat0 V c t0_2)) (yat0 V c t0_3)) (yat0 V c t0_4)) (yat0 V c t0_5)) (yat0 V c t0_6)) (yat0 V c t0_7) := rfl
theorem r0sumsq_core1 (c : Dev nD) : r0sumsq V c 1 7 (by omega) = r0accsq (r0accsq (r0accsq (r0accsq (r0accsq (r0accsq (r0accsq (r0accsq r0zrow (yat0 V c t0_8)) (yat0 V c t0_9)) (yat0 V c t0_10)) (yat0 V c t0_11)) (yat0 V c t0_12)) (yat0 V c t0_13)) (yat0 V c t0_14)) (yat0 V c t0_15) := rfl

/-! ### Window 5: the whole array -/

/-- The array of `y`: row block `p` is the block of `y` at point `p`. -/
def yArr0 (c : Dev nD) : Buf (Elt F) ((cfg0.win 5).arr.view.loc (c.tc : Thread nD τ)) :=
  fun (j : S65536x128.Idx) => yat0 V c ⟨(j 0).val / 4096, by have := ValueIdx.idx2_lt0 j; show _ < grid0.N; rw [N_0]; omega⟩
    (ix2 (⟨(j 0).val % 4096, Nat.mod_lt _ (by decide)⟩ : Fin 4096) (j 1))

theorem yArr0_apply (c : Dev nD) (p : Fin 16) (q : Fin 4096) (j : Fin 128) :
    yArr0 V c (ix2 (⟨p.val * 4096 + q.val, by have := p.isLt; have := q.isLt; omega⟩ : Fin 65536) j)
      = yat0 V c ⟨p.val, by show _ < grid0.N; rw [N_0]; exact p.isLt⟩ (ix2 q j) := by
  have e1 : (⟨(p.val * 4096 + q.val) / 4096, by have := p.isLt; have := q.isLt; show _ < grid0.N; rw [N_0]; omega⟩ : Fin cfg0.N)
      = ⟨p.val, by show _ < grid0.N; rw [N_0]; exact p.isLt⟩ := Fin.ext (by have := q.isLt; show (p.val * 4096 + q.val) / 4096 = p.val; omega)
  have e2 : (⟨(p.val * 4096 + q.val) % 4096, Nat.mod_lt _ (by decide)⟩ : Fin 4096) = q :=
    Fin.ext (by have := q.isLt; show (p.val * 4096 + q.val) % 4096 = q.val; omega)
  show yat0 V c ⟨(p.val * 4096 + q.val) / 4096, _⟩ (ix2 (⟨(p.val * 4096 + q.val) % 4096, _⟩ : Fin 4096) j) = _
  rw [e1, e2]

theorem arrAt0_5 (c : Dev nD) (G : Buf (Elt F) ((cfg0.win 5).arr.view.loc (c.tc : Thread nD τ)))
    (h : (rdat0 V c).ArrAt 5 cfg0.N G) : G = yArr0 V c := by
  funext (j : S65536x128.Idx)
  have hj := ValueIdx.idx2_lt0 j
  let u : Fin cfg0.N := ⟨(j 0).val / 4096, by show _ < grid0.N; rw [N_0]; omega⟩
  let x : S4096x128.Idx := ix2 (⟨(j 0).val % 4096, Nat.mod_lt _ (by decide)⟩ : Fin 4096) (j 1)
  have hb := congrFun (arrAt0_5_blk V c cfg0.N (le_of_eq N_0) G h u u.isLt) x
  have hjx : ((cfg0.win 5).rect u).emb x = j := by
    funext a; apply Fin.ext
    rw [Window.rect_emb_val, index0_5]
    match a with
    | ⟨0, _⟩ => show (j 0).val / 4096 * 4096 + (j 0).val % 4096 = (j 0).val; omega
    | ⟨1, _⟩ => show 0 * 128 + (j 1).val = (j 1).val; omega
  have hr : ((cfg0.win 5).blk u).view.read (Elt F) G x = G (((cfg0.win 5).rect u).emb x) := rfl
  rw [hr, hjx] at hb
  exact hb
end Arr5

end Cert.KernelIdeal.Hand
end
-- ==== Proof.Hand.P2r1.lean ====
import proofs.«103476_j5987184410999_2_alg».proof.Proof.Gen.KernelIdeal.Launch
import proofs.«103476_j5987184410999_2_alg».proof.Proof.Gen.KernelIdeal.Skeleton
import proofs.«103476_j5987184410999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 x 128 extents: the elaborator's structural look recurses once per
-- coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__pass2_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4096x128 := Rect.unit (s := S4096x128) ![0, 0] S4096x128.size inb_S4096x128_S4096x128_0_0
abbrev r1_1 : Rect S1x128 := Rect.unit (s := S1x128) ![0, 0] S1x128.size inb_S1x128_S1x128_0_0

/-! ## What the body leaves in the output window's buffer -/

/-- Window 5's staging buffer after the body, from the input windows' blocks (the normalised block, the mean,
    the inverse deviation, the scale, the shift): its one store as a piece (`View.canon`; the payload is the
    skeleton's, its arguments in the order the body loads them). -/
def out1_5 (x0 : Vec F S4096x128 .f32) (x1 x2 x3 x4 : Vec F S1x128 .f32) : Vec F S4096x128 .f32 :=
  View.canon [⟨r1_0, k1_pay1 (View.ld x0 r1_0) (View.ld x3 r1_1) (View.ld x1 r1_1) (View.ld x2 r1_1) (View.ld x4 r1_1)⟩]

/-- The store tiles the buffer, so it covers it. -/
theorem cover1_5 (p0 : Vec F S4096x128 .f32) (y : S4096x128.Idx) :
    ∃ pc ∈ ([⟨r1_0, p0⟩] : List (View.Piece (Elt F) S4096x128 .f32)), y ∈ pc.1.set :=
  View.cover_of_tiled [⟨r1_0, p0⟩] S4096x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S4096x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4096x128 .f32) (harg6 : arg6.IsWhole)
    (x0 : Vec F S4096x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__pass2_kernel i arg1 harg1 arg2 harg2 arg3 harg3 arg4 harg4 arg5 harg5 arg6 harg6) K := by
  simp only [cc1__pass2_kernel_eq_skeleton]; unfold cc1__pass2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant the
    class's (`Pipeline.ΦA`: the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Hand.ChainDefs0.lean ====
/-
  The canonical contents of the TensorCore's buffers around network node 0: after host stretch 0, after its statistics pass (region 0;
  the two statistics arrays at a canonical completion of their undefined rows), after host stretch 1, after its normalisation pass (region 1).
-/
import proofs.«103476_j5987184410999_2_alg».proof.Proof.Hand.Kit
import proofs.«103476_j5987184410999_2_alg».proof.Proof.Hand.Agree
import proofs.«103476_j5987184410999_2_alg».proof.Proof.Hand.P1r0Arr
import proofs.«103476_j5987184410999_2_alg».proof.Proof.Hand.P2r1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

/-- A region's arrays put back: a buffer whose new contents are its old ones (an input window's array), or that is no array
    of the region, keeps its contents. -/
theorem withArrays_keep {gr W' : Nat} (win : Fin W' → Pipeline.WinSpec sig gr) (hinj : Function.Injective (Pipeline.arrRef win))
    (c : Dev nD) (V : Valuation τ sig (Elt F)) (G : (w : Fin W') → Buf (Elt F) ((win w).arr.view.loc (c.tc : Thread nD τ)))
    (b : Ref sig .tc) (h : ∀ w, Pipeline.arrRef win w = b → G w = V (Pipeline.arrRef win w)) :
    Pipeline.withArrays win c V G b = V b := by
  by_cases hb : ∃ w, Pipeline.arrRef win w = b
  · obtain ⟨w, rfl⟩ := hb
    rw [Pipeline.withArrays_arr win hinj]; exact h w rfl
  · exact Pipeline.withArrays_of_ne win c V G b (fun w e => hb ⟨w, e⟩)

variable (m : (ℓ : Loc nD τ sig) → Buf (Elt F) ℓ)

/-- At launch. -/
def W0 (c : Dev nD) : Valuation τ sig (Elt F) := fun b => m (c, b)
/-- After host stretch 0: what region 0 is entered from. -/
def W1 (c : Dev nD) : Valuation τ sig (Elt F) := StableHlo.after hostOps0 (W0 m c)
abbrev E0 : (c : Dev nD) → (b : Ref sig .tc) → Buf (Elt F) ((c : Thread nD τ).loc b) := fun c b => W1 m c b
/-- What region 0 leaves in its arrays: the inputs as found, the product array, and the two statistics arrays at their
    canonical completion. -/
def GA0 (c : Dev nD) : (w : Fin cfg0.W) → Buf (Elt F) ((cfg0.win w).arr.view.loc (c.tc : Thread nD τ))
  | ⟨0, _⟩ => E0 m c (Pipeline.arrRef spec0 0)
  | ⟨1, _⟩ => E0 m c (Pipeline.arrRef spec0 1)
  | ⟨2, _⟩ => E0 m c (Pipeline.arrRef spec0 2)
  | ⟨3, _⟩ => E0 m c (Pipeline.arrRef spec0 3)
  | ⟨4, _⟩ => E0 m c (Pipeline.arrRef spec0 4)
  | ⟨5, _⟩ => yArr0 (E0 m) c
  | ⟨6, _⟩ => sumArr0 (E0 m) c
  | ⟨7, _⟩ => sqArr0 (E0 m) c
def W2 (c : Dev nD) : Valuation τ sig (Elt F) := Pipeline.withArrays spec0 c (W1 m c) (GA0 m c)
/-- After host stretch 1: what region 1 is entered from. -/
def W3 (c : Dev nD) : Valuation τ sig (Elt F) := StableHlo.after hostOps1 (W2 m c)
abbrev E1 : (c : Dev nD) → (b : Ref sig .tc) → Buf (Elt F) ((c : Thread nD τ).loc b) := fun c b => W3 m c b
/-- What region 1 leaves in its arrays. -/
def GA1 (c : Dev nD) (w : Fin cfg1.W) : Buf (Elt F) ((cfg1.win w).arr.view.loc (c.tc : Thread nD τ)) := (dat1 (E1 m) c).arrAt w cfg1.N
def W4 (c : Dev nD) : Valuation τ sig (Elt F) := Pipeline.withArrays spec1 c (W3 m c) (GA1 m c)

end Cert.KernelIdeal.Hand

end
-- ==== Proof.Hand.P1r2.lean ====
/- Region 2 (a pass-1 launch of the one-input kernel) as RELATIONAL proof data, with its body obligation.

   The body computes a block of `y` from five input blocks, stores it whole, and adds its column sums (and those of its
   square) into ROW 0 of two 8-row statistics blocks, which it first zeroes at the first point of each core's run of eight.
   Rows 1 to 7 of those blocks are never stored: what the body leaves there is what it found. So the data relates what the
   body finds in a buffer to what it leaves, and for the statistics blocks constrains row 0 only. -/
import proofs.«103476_j5987184410999_2_alg».proof.Proof.Gen.KernelIdeal.Launch
import proofs.«103476_j5987184410999_2_alg».proof.Proof.Gen.KernelIdeal.Skeleton
import proofs.«103476_j5987184410999_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## Region 2: names -/

/-- The condition of the body's one `scf.if`, from the grid coordinates (the skeleton's scalar chain substituted):
    the inner coordinate is zero. -/
abbrev r2cond (i : grid2.Coords) : Prop :=
  (Scalar.cmpi .ne (Scalar.extui (Scalar.cmpi .eq (BitVec.ofNat 32 (i 1).val) 0#32)) 0#32) = 1#1

/-- It holds at the first point of each core's run of eight: decided over the grid. -/
theorem r2cond_iff : ∀ t : Fin cfg2.N, r2cond (grid2.coords t) ↔ t.val % 8 = 0 :=
  (by decide +kernel : ∀ t : Fin grid2.N, r2cond (grid2.coords t) ↔ t.val % 8 = 0)

theorem zeros2_r2 : (![0, 0] : Fin 2 → ℕ) = fun _ => 0 := by funext a; fin_cases a <;> rfl

/-- Row 0 of a statistics block: the rectangle every load and store of the two accumulators goes through. -/
abbrev r2row : Rect S8x128 := Rect.unit (s := S8x128) ![0, 0] S1x128.size inb_S8x128_S1x128_0_0

/-- The row of zeros the body stores at the first point of a core's run. -/
def r2zrow : FVec F S1x128 .f32 := broadcast S1x128 (Scalar.ofBits .f32 0x00000000#32)

/-- One accumulation step: the row found plus the column sums of `y` (the reduction along axis 0 from the zero word). -/
def r2acc (r : Vec F S1x128 .f32) (y : FVec F S4096x128 .f32) : FVec F S1x128 .f32 :=
  addf (shapeCast S1x128 r shapeCasts_S1x128_S1x128)
    (shapeCast S1x128 (multiReduction .add [0] S128 y 0x00000000#32 reduces_S4096x128_S128 (.inl rfl) rfl) shapeCasts_S128_S1x128)

/-- The same of the squares. -/
def r2accsq (r : Vec F S1x128 .f32) (y : FVec F S4096x128 .f32) : FVec F S1x128 .f32 := r2acc r (mulf y y)

/-- The block of `y` the body computes from its five input blocks: `relu(x·W1 + b1)·W2 + b2` with the matrix
    operands rounded to bf16 (the skeleton's payload). -/
def yblk2 (x : Vec F S4096x256 .f32) (w1 : Vec F S256x256 .f32) (b1 : Vec F S1x256 .f32) (w2 : Vec F S256x128 .f32)
    (b2 : Vec F S1x128 .f32) : Vec F S4096x128 .f32 := k2_pay4 x w1 b1 w2 b2

theorem k2_pay5_eq (x : Vec F S4096x256 .f32) (w1 : Vec F S256x256 .f32) (b1 : Vec F S1x256 .f32) (w2 : Vec F S256x128 .f32)
    (b2 : Vec F S1x128 .f32) (r : Vec F S1x128 .f32) : k2_pay5 x w1 b1 w2 b2 r = r2acc r (yblk2 x w1 b1 w2 b2) := rfl
theorem k2_pay1_eq (y : FVec F S4096x128 .f32) (r : Vec F S1x128 .f32) : k2_pay1 y r = r2accsq r y := rfl
theorem k2_pay2_eq : k2_pay2 (F := F) = r2zrow := rfl
theorem k2_pay3_eq : k2_pay3 (F := F) = r2zrow := rfl

section WholeRect
variable {sg : RefSig} {κ : Kind} {sp : Space} {S : Shape} {e : EltTy} {Val : EltTy → Type}

/-- A load through the whole-shape rectangle at zero offsets reads the view's contents. -/
theorem readAt_unit_zero_r2 (v : View sg κ sp S e) {off : Fin S.rank → ℕ} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

/-- One store through it leaves its payload, whatever the buffer held. -/
theorem read_writes_unit_zero_r2 (v : View sg κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end WholeRect

theorem readAt_S4096x256_r2 {sp : Space} (v : View sig .tc sp S4096x256 .f32) (f : v.ty.Contents (Elt F)) :
    v.readAt (Elt F) (Rect.unit (s := S4096x256) ![0, 0] S4096x256.size inb_S4096x256_S4096x256_0_0).toLoadRect f = v.read (Elt F) f :=
  readAt_unit_zero_r2 v zeros2_r2 _ f
theorem readAt_S256x256_r2 {sp : Space} (v : View sig .tc sp S256x256 .f32) (f : v.ty.Contents (Elt F)) :
    v.readAt (Elt F) (Rect.unit (s := S256x256) ![0, 0] S256x256.size inb_S256x256_S256x256_0_0).toLoadRect f = v.read (Elt F) f :=
  readAt_unit_zero_r2 v zeros2_r2 _ f
theorem readAt_S1x256_r2 {sp : Space} (v : View sig .tc sp S1x256 .f32) (f : v.ty.Contents (Elt F)) :
    v.readAt (Elt F) (Rect.unit (s := S1x256) ![0, 0] S1x256.size inb_S1x256_S1x256_0_0).toLoadRect f = v.read (Elt F) f :=
  readAt_unit_zero_r2 v zeros2_r2 _ f
theorem readAt_S256x128_r2 {sp : Space} (v : View sig .tc sp S256x128 .f32) (f : v.ty.Contents (Elt F)) :
    v.readAt (Elt F) (Rect.unit (s := S256x128) ![0, 0] S256x128.size inb_S256x128_S256x128_0_0).toLoadRect f = v.read (Elt F) f :=
  readAt_unit_zero_r2 v zeros2_r2 _ f
theorem readAt_S1x128_r2 {sp : Space} (v : View sig .tc sp S1x128 .f32) (f : v.ty.Contents (Elt F)) :
    v.readAt (Elt F) (Rect.unit (s := S1x128) ![0, 0] S1x128.size inb_S1x128_S1x128_0_0).toLoadRect f = v.read (Elt F) f :=
  readAt_unit_zero_r2 v zeros2_r2 _ f

/-- The whole-block store of window 5 leaves its payload. -/
theorem read_whole_store5_r2 {sp : Space} (v : View sig .tc sp S4096x128 .f32) (f : v.ty.Contents (Elt F)) (w : Vec F S4096x128 .f32) :
    v.read (Elt F) (v.writes (Elt F) f [⟨Rect.unit (s := S4096x128) ![0, 0] S4096x128.size inb_S4096x128_S4096x128_0_0, w⟩]) = w :=
  read_writes_unit_zero_r2 v zeros2_r2 _ f w []

/-- Row 0 after a store through row 0, whatever was stored before. -/
theorem ld_row0_store_r2 {sp : Space} (v : View sig .tc sp S8x128 .f32) (f : v.ty.Contents (Elt F)) (w : Vec F S1x128 .f32)
    (L : List (View.Piece (Elt F) S8x128 .f32)) :
    View.ld (v.read (Elt F) (v.writes (Elt F) f (⟨r2row, w⟩ :: L))) r2row = w :=
  funext fun x => View.read_writes_cons_emb v f r2row w L x

/-! ## The body's two runs, over arbitrary staging contents -/

set_option maxHeartbeats 1000000 in
/-- The body at a point that is not the first of its core's run: row 0 of each statistics block is the row found plus the sums. -/
theorem sound_kernel2_later (c : Dev nD) (i : grid2.Coords)
    (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S8x128 .f32) (harg8 : arg8.IsWhole) (arg9 : Memref sig .tc .vmem S8x128 .f32) (harg9 : arg9.IsWhole)
    (hc : ¬r2cond i)
    (x0 : Vec F S4096x256 .f32) (x1 : Vec F S256x256 .f32) (x2 : Vec F S1x256 .f32) (x3 : Vec F S256x128 .f32) (x4 : Vec F S1x128 .f32)
    (y5 : Vec F S4096x128 .f32) (y6 y7 : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ owns (c : Thread nD τ) arg8 fullShare y6 ∗ owns (c : Thread nD τ) arg9 fullShare y7
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (yblk2 x0 x1 x2 x3 x4)
            ∗ (∃ X, ⌜View.ld X r2row = r2acc (View.ld y6 r2row) (yblk2 x0 x1 x2 x3 x4)⌝ ∗ owns (c : Thread nD τ) arg8 fullShare X)
            ∗ (∃ X, ⌜View.ld X r2row = r2accsq (View.ld y7 r2row) (yblk2 x0 x1 x2 x3 x4)⌝ ∗ owns (c : Thread nD τ) arg9 fullShare X)) -∗ K ⟨⟩))
      ⊢ wp frame (wpE (defs₀ (F := F)) Variants.none c none) E (cc2__pass1_kernel_single i arg2 harg2 arg3 harg3 arg4 harg4 arg5 harg5 arg6 harg6 arg7 harg7 arg8 harg8 arg9 harg9) K := by
  simp only [cc2__pass1_kernel_single_eq_skeleton]; unfold cc2__pass1_kernel_single_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    rw [readAt_S4096x256_r2, readAt_S256x256_r2, readAt_S1x256_r2, readAt_S256x128_r2, readAt_S1x128_r2]
    exact read_whole_store5_r2 (F := F) _ _ _
  isplitl [H6]
  · iexists _; isplitr; swap
    · iexists _; isplitr; swap; · iexact H6
      ipureintro; rfl
    ipureintro
    rw [readAt_S4096x256_r2, readAt_S256x256_r2, readAt_S1x256_r2, readAt_S256x128_r2, readAt_S1x128_r2]
    rw [k2_pay5_eq]
    exact ld_row0_store_r2 (F := F) _ _ _ _
  · iexists _; isplitr; swap
    · iexists _; isplitr; swap; · iexact H7
      ipureintro; rfl
    ipureintro
    rw [readAt_S4096x256_r2, readAt_S256x256_r2, readAt_S1x256_r2, readAt_S256x128_r2, readAt_S1x128_r2]
    rw [k2_pay1_eq]
    exact ld_row0_store_r2 (F := F) _ _ _ _

set_option maxHeartbeats 1000000 in
/-- The body at the first point of a core's run: row 0 of each statistics block is the zero row plus the sums. -/
theorem sound_kernel2_first (c : Dev nD) (i : grid2.Coords)
    (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S8x128 .f32) (harg8 : arg8.IsWhole) (arg9 : Memref sig .tc .vmem S8x128 .f32) (harg9 : arg9.IsWhole)
    (hc : r2cond i)
    (x0 : Vec F S4096x256 .f32) (x1 : Vec F S256x256 .f32) (x2 : Vec F S1x256 .f32) (x3 : Vec F S256x128 .f32) (x4 : Vec F S1x128 .f32)
    (y5 : Vec F S4096x128 .f32) (y6 y7 : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ owns (c : Thread nD τ) arg8 fullShare y6 ∗ owns (c : Thread nD τ) arg9 fullShare y7
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (yblk2 x0 x1 x2 x3 x4)
            ∗ (∃ X, ⌜View.ld X r2row = r2acc r2zrow (yblk2 x0 x1 x2 x3 x4)⌝ ∗ owns (c : Thread nD τ) arg8 fullShare X)
            ∗ (∃ X, ⌜View.ld X r2row = r2accsq r2zrow (yblk2 x0 x1 x2 x3 x4)⌝ ∗ owns (c : Thread nD τ) arg9 fullShare X)) -∗ K ⟨⟩))
      ⊢ wp frame (wpE (defs₀ (F := F)) Variants.none c none) E (cc2__pass1_kernel_single i arg2 harg2 arg3 harg3 arg4 harg4 arg5 harg5 arg6 harg6 arg7 harg7 arg8 harg8 arg9 harg9) K := by
  simp only [cc2__pass1_kernel_single_eq_skeleton]; unfold cc2__pass1_kernel_single_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    rw [readAt_S4096x256_r2, readAt_S256x256_r2, readAt_S1x256_r2, readAt_S256x128_r2, readAt_S1x128_r2]
    exact read_whole_store5_r2 (F := F) _ _ _
  isplitl [H6]
  · iexists _; isplitr; swap
    · iexists _; isplitr; swap; · iexact H6
      ipureintro; rfl
    ipureintro
    rw [readAt_S4096x256_r2, readAt_S256x256_r2, readAt_S1x256_r2, readAt_S256x128_r2, readAt_S1x128_r2]
    rw [k2_pay5_eq]
    refine (ld_row0_store_r2 (F := F) _ _ _ _).trans ?_
    congr 1
    sl_unfold_run_names
    exact View.readCov_cons_toLoadRect _ _ _ _
  · iexists _; isplitr; swap
    · iexists _; isplitr; swap; · iexact H7
      ipureintro; rfl
    ipureintro
    rw [readAt_S4096x256_r2, readAt_S256x256_r2, readAt_S1x256_r2, readAt_S256x128_r2, readAt_S1x128_r2]
    rw [k2_pay1_eq]
    refine (ld_row0_store_r2 (F := F) _ _ _ _).trans ?_
    congr 1
    sl_unfold_run_names
    exact View.readCov_cons_toLoadRect _ _ _ _

/-! ## The proof data of region 2, relational -/

variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of `y` at point `t`: the body's function of the five input blocks there. -/
def yat2 (c : Dev nD) (t : Fin cfg2.N) : Vec F S4096x128 .f32 :=
  yblk2 (iblk2 V c 0 t) (iblk2 V c 1 t) (iblk2 V c 2 t) (iblk2 V c 3 t) (iblk2 V c 4 t)

/-- The proof data of the launch on core `c`: the arrays as the region finds them; an input's buffer is left as found; the
    `y` window's buffer is left at the block of `y`; of a statistics window's buffer only row 0 is constrained — it is the
    row found (the zero row at the first point of a core's run) plus the column sums of the block of `y` (of its square) —, and
    nothing is said of rows 1 to 7, which the body never stores. -/
def rdat2 (c : Dev nD) : RDat τ (Elt F) Unit ℕ (UR sig nD τ) ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => X = yat2 V c t
    | ⟨6, _⟩ => fun Y X => View.ld X r2row = r2acc (if t.val % 8 = 0 then r2zrow else View.ld Y r2row) (yat2 V c t)
    | ⟨7, _⟩ => fun Y X => View.ld X r2row = r2accsq (if t.val % 8 = 0 then r2zrow else View.ld Y r2row) (yat2 V c t)
  Φ _ := Pipeline.ΦA spec2 c
  q _ := fullShare
  owed _ := 0

theorem rdat2_A (c : Dev nD) (w : Fin cfg2.W) : (rdat2 V c).A w = V c (Pipeline.arrRef spec2 w) := by dsimp only [rdat2]

theorem after2_0 (c : Dev nD) (t : Fin cfg2.N) Y X : (rdat2 V c).after 0 t Y X ↔ X = Y := by dsimp only [rdat2]; exact Iff.rfl
theorem after2_1 (c : Dev nD) (t : Fin cfg2.N) Y X : (rdat2 V c).after 1 t Y X ↔ X = Y := by dsimp only [rdat2]; exact Iff.rfl
theorem after2_2 (c : Dev nD) (t : Fin cfg2.N) Y X : (rdat2 V c).after 2 t Y X ↔ X = Y := by dsimp only [rdat2]; exact Iff.rfl
theorem after2_3 (c : Dev nD) (t : Fin cfg2.N) Y X : (rdat2 V c).after 3 t Y X ↔ X = Y := by dsimp only [rdat2]; exact Iff.rfl
theorem after2_4 (c : Dev nD) (t : Fin cfg2.N) Y X : (rdat2 V c).after 4 t Y X ↔ X = Y := by dsimp only [rdat2]; exact Iff.rfl
theorem after2_5 (c : Dev nD) (t : Fin cfg2.N) Y X : (rdat2 V c).after 5 t Y X ↔ X = yat2 V c t := by dsimp only [rdat2]; exact Iff.rfl
theorem after2_6 (c : Dev nD) (t : Fin cfg2.N) Y X : (rdat2 V c).after 6 t Y X ↔
    View.ld X r2row = r2acc (if t.val % 8 = 0 then r2zrow else View.ld Y r2row) (yat2 V c t) := by dsimp only [rdat2]; exact Iff.rfl
theorem after2_7 (c : Dev nD) (t : Fin cfg2.N) Y X : (rdat2 V c).after 7 t Y X ↔
    View.ld X r2row = r2accsq (if t.val % 8 = 0 then r2zrow else View.ld Y r2row) (yat2 V c t) := by dsimp only [rdat2]; exact Iff.rfl

/-! ## What the body finds in an input's buffer: the window's block, fetched at the point or not -/

theorem finds2_0 (c : Dev nD) (t : Fin cfg2.N) (Y) (h : (rdat2 V c).Finds 0 t Y) : Y = iblk2 V c 0 t := by
  obtain ⟨d, rfl⟩ := (rdat2 V c).finds_in_eq_fetched 0 rfl (fun _ _ _ => rfl) (fun t Y X h => (after2_0 V c t Y X).mp h) t Y h
  unfold RDat.fetched RDat.blockOf iblk2; rw [rdat2_A]; rfl

theorem finds2_1 (c : Dev nD) (t : Fin cfg2.N) (Y) (h : (rdat2 V c).Finds 1 t Y) : Y = iblk2 V c 1 t := by
  obtain ⟨d, rfl⟩ := (rdat2 V c).finds_in_eq_fetched 1 rfl (fun _ _ _ => rfl) (fun t Y X h => (after2_1 V c t Y X).mp h) t Y h
  unfold RDat.fetched RDat.blockOf iblk2; rw [rdat2_A]; rfl

theorem finds2_2 (c : Dev nD) (t : Fin cfg2.N) (Y) (h : (rdat2 V c).Finds 2 t Y) : Y = iblk2 V c 2 t := by
  obtain ⟨d, rfl⟩ := (rdat2 V c).finds_in_eq_fetched 2 rfl (fun _ _ _ => rfl) (fun t Y X h => (after2_2 V c t Y X).mp h) t Y h
  unfold RDat.fetched RDat.blockOf iblk2; rw [rdat2_A]; rfl

theorem finds2_3 (c : Dev nD) (t : Fin cfg2.N) (Y) (h : (rdat2 V c).Finds 3 t Y) : Y = iblk2 V c 3 t := by
  obtain ⟨d, rfl⟩ := (rdat2 V c).finds_in_eq_fetched 3 rfl (fun _ _ _ => rfl) (fun t Y X h => (after2_3 V c t Y X).mp h) t Y h
  unfold RDat.fetched RDat.blockOf iblk2; rw [rdat2_A]; rfl

theorem finds2_4 (c : Dev nD) (t : Fin cfg2.N) (Y) (h : (rdat2 V c).Finds 4 t Y) : Y = iblk2 V c 4 t := by
  obtain ⟨d, rfl⟩ := (rdat2 V c).finds_in_eq_fetched 4 rfl (fun _ _ _ => rfl) (fun t Y X h => (after2_4 V c t Y X).mp h) t Y h
  unfold RDat.fetched RDat.blockOf iblk2; rw [rdat2_A]; rfl

/-! ## The body obligation -/

set_option maxHeartbeats 1000000 in
/-- The body at any point, on the buffers the pipeline hands it: the inputs' hold their blocks (`h0` … `h4`), the outputs' anything.
    The point's position in its core's run of eight says which of the two runs applies; what the run leaves is in the relation. -/
theorem sound_body2 (c : Dev nD) (t : Fin cfg2.N) (Y : (w : Fin cfg2.W) → (cfg2.win w).block.Idx → Elt F (cfg2.win w).elt)
    (h0 : Y 0 = iblk2 V c 0 t) (h1 : Y 1 = iblk2 V c 1 t) (h2 : Y 2 = iblk2 V c 2 t) (h3 : Y 3 = iblk2 V c 3 t) (h4 : Y 4 = iblk2 V c 4 t) :
    iprop((rdat2 V c).Φ t.castSucc ∗ (rdat2 V c).owesAt () t.castSucc
        ∗ owns (c : Thread nD τ) ((cfg2.win 0).stage (cfg2.slots t 0)) fullShare (Y 0)
        ∗ owns (c : Thread nD τ) ((cfg2.win 1).stage (cfg2.slots t 1)) fullShare (Y 1)
        ∗ owns (c : Thread nD τ) ((cfg2.win 2).stage (cfg2.slots t 2)) fullShare (Y 2)
        ∗ owns (c : Thread nD τ) ((cfg2.win 3).stage (cfg2.slots t 3)) fullShare (Y 3)
        ∗ owns (c : Thread nD τ) ((cfg2.win 4).stage (cfg2.slots t 4)) fullShare (Y 4)
        ∗ owns (c : Thread nD τ) ((cfg2.win 5).stage (cfg2.slots t 5)) fullShare (Y 5)
        ∗ owns (c : Thread nD τ) ((cfg2.win 6).stage (cfg2.slots t 6)) fullShare (Y 6)
        ∗ owns (c : Thread nD τ) ((cfg2.win 7).stage (cfg2.slots t 7)) fullShare (Y 7))
      ⊢ wp frame (wpE (defs₀ (F := F)) Variants.none c none) Set.univ (bodyAt2 t) (fun _ =>
        iprop((rdat2 V c).Φ t.succ ∗ (rdat2 V c).owesAt () t.succ
          ∗ (∃ X, ⌜(rdat2 V c).after 0 t (Y 0) X⌝ ∗ owns (c : Thread nD τ) ((cfg2.win 0).stage (cfg2.slots t 0)) fullShare X)
          ∗ (∃ X, ⌜(rdat2 V c).after 1 t (Y 1) X⌝ ∗ owns (c : Thread nD τ) ((cfg2.win 1).stage (cfg2.slots t 1)) fullShare X)
          ∗ (∃ X, ⌜(rdat2 V c).after 2 t (Y 2) X⌝ ∗ owns (c : Thread nD τ) ((cfg2.win 2).stage (cfg2.slots t 2)) fullShare X)
          ∗ (∃ X, ⌜(rdat2 V c).after 3 t (Y 3) X⌝ ∗ owns (c : Thread nD τ) ((cfg2.win 3).stage (cfg2.slots t 3)) fullShare X)
          ∗ (∃ X, ⌜(rdat2 V c).after 4 t (Y 4) X⌝ ∗ owns (c : Thread nD τ) ((cfg2.win 4).stage (cfg2.slots t 4)) fullShare X)
          ∗ (∃ X, ⌜(rdat2 V c).after 5 t (Y 5) X⌝ ∗ owns (c : Thread nD τ) ((cfg2.win 5).stage (cfg2.slots t 5)) fullShare X)
          ∗ (∃ X, ⌜(rdat2 V c).after 6 t (Y 6) X⌝ ∗ owns (c : Thread nD τ) ((cfg2.win 6).stage (cfg2.slots t 6)) fullShare X)
          ∗ (∃ X, ⌜(rdat2 V c).after 7 t (Y 7) X⌝ ∗ owns (c : Thread nD τ) ((cfg2.win 7).stage (cfg2.slots t 7)) fullShare X))) := by
  unfold bodyAt2
  rw [show (rdat2 V c).Φ t.succ = (rdat2 V c).Φ t.castSucc from rfl,
    show (rdat2 V c).owesAt () t.succ = (rdat2 V c).owesAt () t.castSucc from rfl]
  by_cases h : t.val % 8 = 0
  ·
    iintro ⟨HΦ, Ho, H0, H1, H2, H3, H4, H5, H6, H7⟩
    iapply (sound_kernel2_first c (grid2.coords t) _ _ _ _ _ _ _ _ _ _ _ _ _ _ _ _ ((r2cond_iff t).mpr h) (Y 0) (Y 1) (Y 2) (Y 3) (Y 4) (Y 5) (Y 6) (Y 7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%X6, %hX6, H6⟩, ⟨%X7, %hX7, H7⟩⟩
    isplitl [HΦ]; · iexact HΦ
    isplitl [Ho]; · iexact Ho
    isplitl [H0]
    · iexists _; isplitr; swap; · iexact H0
      ipureintro; exact (after2_0 V c t _ _).mpr rfl
    isplitl [H1]
    · iexists _; isplitr; swap; · iexact H1
      ipureintro; exact (after2_1 V c t _ _).mpr rfl
    isplitl [H2]
    · iexists _; isplitr; swap; · iexact H2
      ipureintro; exact (after2_2 V c t _ _).mpr rfl
    isplitl [H3]
    · iexists _; isplitr; swap; · iexact H3
      ipureintro; exact (after2_3 V c t _ _).mpr rfl
    isplitl [H4]
    · iexists _; isplitr; swap; · iexact H4
      ipureintro; exact (after2_4 V c t _ _).mpr rfl
    isplitl [H5]
    · iexists _; isplitr; swap; · iexact H5
      ipureintro; rw [after2_5]; unfold yat2; rw [← h0, ← h1, ← h2, ← h3, ← h4]
    isplitl [H6]
    · iexists X6; isplitr; swap; · iexact H6
      ipureintro; rw [after2_6, if_pos h]; unfold yat2; rw [← h0, ← h1, ← h2, ← h3, ← h4]; exact hX6
    · iexists X7; isplitr; swap; · iexact H7
      ipureintro; rw [after2_7, if_pos h]; unfold yat2; rw [← h0, ← h1, ← h2, ← h3, ← h4]; exact hX7
  ·
    iintro ⟨HΦ, Ho, H0, H1, H2, H3, H4, H5, H6, H7⟩
    iapply (sound_kernel2_later c (grid2.coords t) _ _ _ _ _ _ _ _ _ _ _ _ _ _ _ _ (fun hc => h ((r2cond_iff t).mp hc)) (Y 0) (Y 1) (Y 2) (Y 3) (Y 4) (Y 5) (Y 6) (Y 7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%X6, %hX6, H6⟩, ⟨%X7, %hX7, H7⟩⟩
    isplitl [HΦ]; · iexact HΦ
    isplitl [Ho]; · iexact Ho
    isplitl [H0]
    · iexists _; isplitr; swap; · iexact H0
      ipureintro; exact (after2_0 V c t _ _).mpr rfl
    isplitl [H1]
    · iexists _; isplitr; swap; · iexact H1
      ipureintro; exact (after2_1 V c t _ _).mpr rfl
    isplitl [H2]
    · iexists _; isplitr; swap; · iexact H2
      ipureintro; exact (after2_2 V c t _ _).mpr rfl
    isplitl [H3]
    · iexists _; isplitr; swap; · iexact H3
      ipureintro; exact (after2_3 V c t _ _).mpr rfl
    isplitl [H4]
    · iexists _; isplitr; swap; · iexact H4
      ipureintro; exact (after2_4 V c t _ _).mpr rfl
    isplitl [H5]
    · iexists _; isplitr; swap; · iexact H5
      ipureintro; rw [after2_5]; unfold yat2; rw [← h0, ← h1, ← h2, ← h3, ← h4]
    isplitl [H6]
    · iexists X6; isplitr; swap; · iexact H6
      ipureintro; rw [after2_6, if_neg h]; unfold yat2; rw [← h0, ← h1, ← h2, ← h3, ← h4]; exact hX6
    · iexists X7; isplitr; swap; · iexact H7
      ipureintro; rw [after2_7, if_neg h]; unfold yat2; rw [← h0, ← h1, ← h2, ← h3, ← h4]; exact hX7

/-- The library's body obligation of the relational data, at every point. -/
theorem body_obligation2 (c : Dev nD) : (rdat2 (F := F) V c).BodyObligation (defs₀ (F := F)) Variants.none () Set.univ := by
  intro t Y hY
  rw [bigSep_W2, bigSep_W2]
  exact sound_body2 V c t Y (finds2_0 V c t _ (hY 0)) (finds2_1 V c t _ (hY 1)) (finds2_2 V c t _ (hY 2)) (finds2_3 V c t _ (hY 3))
    (finds2_4 V c t _ (hY 4))

end Cert.KernelIdeal.Hand
end
-- ==== Proof.Hand.P1r2Arr.lean ====
/- What region 2's arrays hold after the launch, from the relational data's `ArrAt` (pure: no separation logic).

   An input array is as the region found it. Row block `p` of the array of `y` is the block of `y` at point `p`. Of a
   statistics array only rows 0 and 8 are determined: row 0 is core 0's fold — the zero row with the column sums of the blocks
   of `y` (of their squares) at its eight points added in point order —, row 8 core 1's. -/
import proofs.«103476_j5987184410999_2_alg».proof.Proof.Hand.P1r2
import proofs.«103476_j5987184410999_2_alg».proof.Proof.Hand.Agree
import Idealize.ShloMosaic.Lib.Pipeline.Cells
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (RDat Dat Cfg Window cellOf)
open Idealize.ShloMosaic.ValueIdx (ix2 eq_ix2)

variable {F : FTy → Type} [FloatOps F]

variable (V : (c : Dev nD) → (b : Ref sig .tc) → Buf (Elt F) ((c : Thread nD τ).loc b))

/-! ## What the arrays hold after the launch -/

section Arr

/-! ### Inputs: never written -/

theorem arrAt2_in_of (c : Dev nD) (w : Fin cfg2.W) (hw : (cfg2.win w).isOut = false) (n : ℕ)
    (G : Buf (Elt F) ((cfg2.win w).arr.view.loc (c.tc : Thread nD τ))) (h : (rdat2 V c).ArrAt w n G) :
    G = V c (Pipeline.arrRef spec2 w) := by
  rw [RDat.ArrAt_in _ w hw n] at h; exact h.trans (rdat2_A V c w)

/-- The first five windows are the inputs. -/
theorem isOut2_in : ∀ w : Fin cfg2.W, w.val < 5 → (cfg2.win w).isOut = false := by decide

/-- An input's array is as the region found it. -/
theorem arrAt2_in (c : Dev nD) (w : Fin cfg2.W) (hw : w.val < 5)
    (G : Buf (Elt F) ((cfg2.win w).arr.view.loc (c.tc : Thread nD τ))) (h : (rdat2 V c).ArrAt w cfg2.N G) :
    G = V c (Pipeline.arrRef spec2 w) := arrAt2_in_of V c w (isOut2_in w hw) cfg2.N G h

/-! ### The schedule of the three outputs -/

theorem fetch2_5 : ∀ t : Fin cfg2.N, (cfg2.win 5).fetch t = false :=
  (by decide +kernel : ∀ t : Fin grid2.N, win2_5.fetch t = false)
theorem fetch2_6 : ∀ t : Fin cfg2.N, (cfg2.win 6).fetch t = false :=
  (by decide +kernel : ∀ t : Fin grid2.N, win2_6.fetch t = false)
theorem fetch2_7 : ∀ t : Fin cfg2.N, (cfg2.win 7).fetch t = false :=
  (by decide +kernel : ∀ t : Fin grid2.N, win2_7.fetch t = false)

/-- The block index of the `y` window at point `t`: row block `t`. -/
theorem index2_5 : ∀ t : Fin cfg2.N, (cfg2.win 5).index t = ![t.val, 0] :=
  (by decide +kernel : ∀ t : Fin grid2.N, win2_5.index t = ![t.val, 0])
/-- The block index of a statistics window at point `t`: the core's. -/
theorem index2_6 : ∀ t : Fin cfg2.N, (cfg2.win 6).index t = ![t.val / 8, 0] :=
  (by decide +kernel : ∀ t : Fin grid2.N, win2_6.index t = ![t.val / 8, 0])
theorem index2_7 : ∀ t : Fin cfg2.N, (cfg2.win 7).index t = ![t.val / 8, 0] :=
  (by decide +kernel : ∀ t : Fin grid2.N, win2_7.index t = ![t.val / 8, 0])

/-! ### Window 5: block `t` of the array is the block of `y` at `t` -/

theorem leaves2_5 (c : Dev nD) (t : Fin cfg2.N) (X) (h : (rdat2 V c).Leaves 5 t X) : X = yat2 V c t := by
  obtain ⟨Y, -, hA⟩ := h
  exact (after2_5 V c t Y X).mp hA

theorem arrAt2_5_blk (c : Dev nD) : ∀ (n : ℕ), n ≤ 16 → ∀ G, (rdat2 V c).ArrAt 5 n G →
    ∀ u : Fin cfg2.N, u.val < n → ((cfg2.win 5).blk u).view.read (Elt F) G = yat2 V c u
  | 0, _, _, _, u, hu => absurd hu (Nat.not_lt_zero _)
  | n + 1, hn, G, h, u, hu => by
    have hN : n < cfg2.N := by show n < grid2.N; rw [N_2]; omega
    rw [show n + 1 = (⟨n, hN⟩ : Fin cfg2.N).val + 1 from rfl, RDat.ArrAt_succ, if_pos (flush2_5 _)] at h
    obtain ⟨G₀, X, hG₀, hX, rfl⟩ := h
    obtain rfl := leaves2_5 V c _ X hX
    by_cases hun : u.val = n
    · have e : u = ⟨n, hN⟩ := Fin.ext hun
      subst e
      exact View.read_write_univ _ _
    · refine Eq.trans ?_ (arrAt2_5_blk c n (by omega) G₀ hG₀ u (by omega))
      refine View.read_congr fun i hi => View.write_of_not_mem _ _ _ ?_
      have hd := (cfg2.win 5).disjoint_blk (u := u) (u' := ⟨n, hN⟩) (by
        rw [index2_5, index2_5]; intro e; exact hun (by simpa using congrFun e 0))
      exact Finset.disjoint_left.mp hd hi
end Arr

section Arr3

/-! ### Windows 6 and 7: row 0 of a core's statistics block is the fold of its eight points -/

/-- Point `j` of core `q`'s run of eight. -/
def r2pt (q : Fin 2) (j : ℕ) (hj : j < 8) : Fin cfg2.N := ⟨8 * q.val + j, by have := q.isLt; show _ < grid2.N; rw [N_2]; omega⟩

/-- Row 0 of core `q`'s sum block after its point `j`: the zero row with the column sums of the blocks of `y` at the points
    `0 … j` of the core's run added in that order. -/
def r2sum (c : Dev nD) (q : Fin 2) : (j : ℕ) → j < 8 → FVec F S1x128 .f32
  | 0, h => r2acc r2zrow (yat2 V c (r2pt q 0 h))
  | j + 1, h => r2acc (r2sum c q j (Nat.lt_of_succ_lt h)) (yat2 V c (r2pt q (j + 1) h))

/-- The same of the squares. -/
def r2sumsq (c : Dev nD) (q : Fin 2) : (j : ℕ) → j < 8 → FVec F S1x128 .f32
  | 0, h => r2accsq r2zrow (yat2 V c (r2pt q 0 h))
  | j + 1, h => r2accsq (r2sumsq c q j (Nat.lt_of_succ_lt h)) (yat2 V c (r2pt q (j + 1) h))

theorem leaves2_6 (c : Dev nD) (q : Fin 2) : ∀ (j : ℕ) (hj : j < 8) (X), (rdat2 V c).Leaves 6 (r2pt q j hj) X →
    View.ld X r2row = r2sum V c q j hj
  | 0, hj, X, h => by
    obtain ⟨Y, -, hA⟩ := h
    rw [after2_6, if_pos (by show (8 * q.val + 0) % 8 = 0; omega)] at hA
    exact hA
  | j + 1, hj, X, h => by
    obtain ⟨Y, hF, hA⟩ := h
    rw [after2_6, if_neg (by show ¬(8 * q.val + (j + 1)) % 8 = 0; omega)] at hA
    rw [RDat.finds_of_pos _ (fetch2_6 _) (by show 8 * q.val + (j + 1) ≠ 0; omega)] at hF
    rcases hF with hfl | hL
    · exact absurd ((flush2_6 _).mp hfl) (by show ¬(8 * q.val + (j + 1) - 1) % 8 = 7; omega)
    · have e : (⟨(r2pt q (j + 1) hj).val - 1, Nat.lt_of_le_of_lt (Nat.sub_le _ _) (r2pt q (j + 1) hj).isLt⟩ : Fin cfg2.N)
          = r2pt q j (Nat.lt_of_succ_lt hj) := Fin.ext (by show 8 * q.val + (j + 1) - 1 = 8 * q.val + j; omega)
      rw [e] at hL
      rw [hA, leaves2_6 c q j (Nat.lt_of_succ_lt hj) Y hL]
      rfl

theorem leaves2_7 (c : Dev nD) (q : Fin 2) : ∀ (j : ℕ) (hj : j < 8) (X), (rdat2 V c).Leaves 7 (r2pt q j hj) X →
    View.ld X r2row = r2sumsq V c q j hj
  | 0, hj, X, h => by
    obtain ⟨Y, -, hA⟩ := h
    rw [after2_7, if_pos (by show (8 * q.val + 0) % 8 = 0; omega)] at hA
    exact hA
  | j + 1, hj, X, h => by
    obtain ⟨Y, hF, hA⟩ := h
    rw [after2_7, if_neg (by show ¬(8 * q.val + (j + 1)) % 8 = 0; omega)] at hA
    rw [RDat.finds_of_pos _ (fetch2_7 _) (by show 8 * q.val + (j + 1) ≠ 0; omega)] at hF
    rcases hF with hfl | hL
    · exact absurd ((flush2_7 _).mp hfl) (by show ¬(8 * q.val + (j + 1) - 1) % 8 = 7; omega)
    · have e : (⟨(r2pt q (j + 1) hj).val - 1, Nat.lt_of_le_of_lt (Nat.sub_le _ _) (r2pt q (j + 1) hj).isLt⟩ : Fin cfg2.N)
          = r2pt q j (Nat.lt_of_succ_lt hj) := Fin.ext (by show 8 * q.val + (j + 1) - 1 = 8 * q.val + j; omega)
      rw [e] at hL
      rw [hA, leaves2_7 c q j (Nat.lt_of_succ_lt hj) Y hL]
      rfl

end Arr3

section Arr4

section TwoWrites
variable {sg : RefSig} {κ : Kind} {sp : Space} {s : Shape} {e : EltTy} {Val : EltTy → Type}

/-- After two writes through rectangles of a view, an element of the first rectangle outside the second reads the first payload; -/
theorem read_two_writes_fst_r2 (v : View sg κ sp s e) (r r' : Rect s) (f : v.ty.Contents Val) (w : r.shape.Idx → Val e)
    (w' : r'.shape.Idx → Val e) (x : r.shape.Idx) (i : s.Idx) (hi : i = r.emb x) (h : i ∉ r'.set) :
    v.read Val ((v.slice r').write Val ((v.slice r).write Val f w Finset.univ) w' Finset.univ) i = w x := by
  subst hi
  rw [View.read_slice_write_of_not_mem r' _ _ _ (by rw [Rect.map_emb_univ]; exact h),
    View.read_slice_write_emb r _ _ (Finset.mem_univ x)]

/-- an element of the second reads the second. -/
theorem read_two_writes_snd_r2 (v : View sg κ sp s e) (r r' : Rect s) (f : v.ty.Contents Val) (w : r.shape.Idx → Val e)
    (w' : r'.shape.Idx → Val e) (x : r'.shape.Idx) (i : s.Idx) (hi : i = r'.emb x) :
    v.read Val ((v.slice r').write Val ((v.slice r).write Val f w Finset.univ) w' Finset.univ) i = w' x := by
  subst hi
  exact View.read_slice_write_emb r' _ _ (Finset.mem_univ x)
end TwoWrites

theorem arrAt2_6_keep (c : Dev nD) : ∀ (n m : ℕ), m ≤ n → n ≤ 16 → (∀ k, m ≤ k → k < n → k % 8 ≠ 7) →
    (rdat2 V c).ArrAt 6 n = (rdat2 V c).ArrAt 6 m
  | 0, m, hm, _, _ => by obtain rfl := Nat.le_zero.mp hm; rfl
  | n + 1, m, hm, hn, hk => by
    rcases Nat.eq_or_lt_of_le hm with e | hlt
    · rw [e]
    · have hN : n < cfg2.N := by show n < grid2.N; rw [N_2]; omega
      have hs := (rdat2 V c).ArrAt_succ 6 ⟨n, hN⟩
      rw [if_neg (fun hf => hk n (by omega) (by omega) ((flush2_6 ⟨n, hN⟩).mp hf))] at hs
      exact hs.trans (arrAt2_6_keep c n m (by omega) (by omega) fun k h1 h2 => hk k h1 (by omega))

/-- After the launch a statistics array is its entry contents with core 0's block, then core 1's, written over it, each from
    a buffer whose row 0 is the core's fold. -/
theorem arrAt2_6_form (c : Dev nD) (G : Buf (Elt F) ((cfg2.win 6).arr.view.loc (c.tc : Thread nD τ)))
    (h : (rdat2 V c).ArrAt 6 cfg2.N G) :
    ∃ X X', View.ld X r2row = r2sum V c 0 7 (by omega) ∧ View.ld X' r2row = r2sum V c 1 7 (by omega) ∧
      G = ((cfg2.win 6).arr.view.slice ((cfg2.win 6).rect t2_15)).write (Elt F)
            (((cfg2.win 6).arr.view.slice ((cfg2.win 6).rect t2_7)).write (Elt F) ((rdat2 V c).A 6)
              ((cfg2.win 6).cut (cfg2.grid.coords t2_7) X) Finset.univ)
            ((cfg2.win 6).cut (cfg2.grid.coords t2_15) X') Finset.univ := by
  have e16 := (rdat2 V c).ArrAt_succ 6 t2_15
  rw [if_pos ((flush2_6 t2_15).mpr rfl)] at e16
  have h1 : (rdat2 V c).ArrStep 6 t2_15 ((rdat2 V c).ArrAt 6 15) G := Eq.mp (congrFun e16 G) h
  obtain ⟨G₁, X', hG₁, hX', rfl⟩ := h1
  have e15 := arrAt2_6_keep V c 15 8 (by omega) (by omega) (by intro k h1 h2; omega)
  have e8 := (rdat2 V c).ArrAt_succ 6 t2_7
  rw [if_pos ((flush2_6 t2_7).mpr rfl)] at e8
  have h2 : (rdat2 V c).ArrStep 6 t2_7 ((rdat2 V c).ArrAt 6 7) G₁ := Eq.mp (congrFun (e15.trans e8) G₁) hG₁
  obtain ⟨G₀, X, hG₀, hX, rfl⟩ := h2
  have e7 := arrAt2_6_keep V c 7 0 (by omega) (by omega) (by intro k h1 h2; omega)
  have h3 : G₀ = (rdat2 V c).A 6 := Eq.mp (congrFun e7 G₀) hG₀
  subst h3
  exact ⟨X, X', leaves2_6 V c 0 7 (by omega) X hX, leaves2_6 V c 1 7 (by omega) X' hX', rfl⟩

theorem arrAt2_7_keep (c : Dev nD) : ∀ (n m : ℕ), m ≤ n → n ≤ 16 → (∀ k, m ≤ k → k < n → k % 8 ≠ 7) →
    (rdat2 V c).ArrAt 7 n = (rdat2 V c).ArrAt 7 m
  | 0, m, hm, _, _ => by obtain rfl := Nat.le_zero.mp hm; rfl
  | n + 1, m, hm, hn, hk => by
    rcases Nat.eq_or_lt_of_le hm with e | hlt
    · rw [e]
    · have hN : n < cfg2.N := by show n < grid2.N; rw [N_2]; omega
      have hs := (rdat2 V c).ArrAt_succ 7 ⟨n, hN⟩
      rw [if_neg (fun hf => hk n (by omega) (by omega) ((flush2_7 ⟨n, hN⟩).mp hf))] at hs
      exact hs.trans (arrAt2_7_keep c n m (by omega) (by omega) fun k h1 h2 => hk k h1 (by omega))

/-- After the launch a statistics array is its entry contents with core 0's block, then core 1's, written over it, each from
    a buffer whose row 0 is the core's fold. -/
theorem arrAt2_7_form (c : Dev nD) (G : Buf (Elt F) ((cfg2.win 7).arr.view.loc (c.tc : Thread nD τ)))
    (h : (rdat2 V c).ArrAt 7 cfg2.N G) :
    ∃ X X', View.ld X r2row = r2sumsq V c 0 7 (by omega) ∧ View.ld X' r2row = r2sumsq V c 1 7 (by omega) ∧
      G = ((cfg2.win 7).arr.view.slice ((cfg2.win 7).rect t2_15)).write (Elt F)
            (((cfg2.win 7).arr.view.slice ((cfg2.win 7).rect t2_7)).write (Elt F) ((rdat2 V c).A 7)
              ((cfg2.win 7).cut (cfg2.grid.coords t2_7) X) Finset.univ)
            ((cfg2.win 7).cut (cfg2.grid.coords t2_15) X') Finset.univ := by
  have e16 := (rdat2 V c).ArrAt_succ 7 t2_15
  rw [if_pos ((flush2_7 t2_15).mpr rfl)] at e16
  have h1 : (rdat2 V c).ArrStep 7 t2_15 ((rdat2 V c).ArrAt 7 15) G := Eq.mp (congrFun e16 G) h
  obtain ⟨G₁, X', hG₁, hX', rfl⟩ := h1
  have e15 := arrAt2_7_keep V c 15 8 (by omega) (by omega) (by intro k h1 h2; omega)
  have e8 := (rdat2 V c).ArrAt_succ 7 t2_7
  rw [if_pos ((flush2_7 t2_7).mpr rfl)] at e8
  have h2 : (rdat2 V c).ArrStep 7 t2_7 ((rdat2 V c).ArrAt 7 7) G₁ := Eq.mp (congrFun (e15.trans e8) G₁) hG₁
  obtain ⟨G₀, X, hG₀, hX, rfl⟩ := h2
  have e7 := arrAt2_7_keep V c 7 0 (by omega) (by omega) (by intro k h1 h2; omega)
  have h3 : G₀ = (rdat2 V c).A 7 := Eq.mp (congrFun e7 G₀) hG₀
  subst h3
  exact ⟨X, X', leaves2_7 V c 0 7 (by omega) X hX, leaves2_7 V c 1 7 (by omega) X' hX', rfl⟩

end Arr4

section Arr5

section RowApply
/-- The host's row slices at an index. -/
theorem row0_apply_r2 (X : (⟨S16x128, .f32⟩ : BufTy).Contents (Elt F)) (x : S1x128.Idx) :
    row0 X x = X (ix2 (⟨(x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 0 + (x 0).val = (x 0).val; omega)
  | ⟨1, _⟩ => exact Fin.ext (by show 0 + (x 1).val = (x 1).val; omega)
theorem row8_apply_r2 (X : (⟨S16x128, .f32⟩ : BufTy).Contents (Elt F)) (x : S1x128.Idx) :
    row8 X x = X (ix2 (⟨8 + (x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 8 + (x 0).val = 8 + (x 0).val; omega)
  | ⟨1, _⟩ => exact Fin.ext (by show 0 + (x 1).val = (x 1).val; omega)
end RowApply

/-- Rows 0 and 8 of the array after the launch are the two cores' folds. -/
theorem arrAt2_6_rows (c : Dev nD) (G : Buf (Elt F) ((cfg2.win 6).arr.view.loc (c.tc : Thread nD τ)))
    (h : (rdat2 V c).ArrAt 6 cfg2.N G) : row0 G = r2sum V c 0 7 (by omega) ∧ row8 G = r2sum V c 1 7 (by omega) := by
  obtain ⟨X, X', hX, hX', rfl⟩ := arrAt2_6_form V c G h
  constructor
  · funext x
    have hx0 : (x 0).val < 1 := (x 0).isLt
    rw [← hX, row0_apply_r2]
    have hi : ix2 (⟨(x 0).val, by omega⟩ : Fin 16) (⟨(x 1).val, (x 1).isLt⟩ : Fin 128) = ((cfg2.win 6).rect t2_7).emb (r2row.emb x) := by
      funext a; apply Fin.ext
      rw [Window.rect_emb_val, index2_6]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg2.win 6).rect t2_15).set := by
      intro hm
      have h0 := (Rect.mem_set_unit.mp hm 0).1
      rw [index2_6] at h0
      have h0' : 1 * 8 ≤ (x 0).val := h0
      omega
    exact read_two_writes_fst_r2 (Val := Elt F) (cfg2.win 6).arr.view ((cfg2.win 6).rect t2_7) ((cfg2.win 6).rect t2_15) ((rdat2 V c).A 6)
      ((cfg2.win 6).cut (cfg2.grid.coords t2_7) X) ((cfg2.win 6).cut (cfg2.grid.coords t2_15) X') (r2row.emb x) _ hi hnot
  · funext x
    have hx0 : (x 0).val < 1 := (x 0).isLt
    rw [← hX', row8_apply_r2]
    have hi : ix2 (⟨8 + (x 0).val, by omega⟩ : Fin 16) (⟨(x 1).val, (x 1).isLt⟩ : Fin 128) = ((cfg2.win 6).rect t2_15).emb (r2row.emb x) := by
      funext a; apply Fin.ext
      rw [Window.rect_emb_val, index2_6]
      match a with
      | ⟨0, _⟩ => show 8 + (x 0).val = 1 * 8 + (0 + 1 * (x 0).val); omega
      | ⟨1, _⟩ => show (x 1).val = 0 * 128 + (0 + 1 * (x 1).val); omega
    exact read_two_writes_snd_r2 (Val := Elt F) (cfg2.win 6).arr.view ((cfg2.win 6).rect t2_7) ((cfg2.win 6).rect t2_15) ((rdat2 V c).A 6)
      ((cfg2.win 6).cut (cfg2.grid.coords t2_7) X) ((cfg2.win 6).cut (cfg2.grid.coords t2_15) X') (r2row.emb x) _ hi

/-- Rows 0 and 8 of the array after the launch are the two cores' folds. -/
theorem arrAt2_7_rows (c : Dev nD) (G : Buf (Elt F) ((cfg2.win 7).arr.view.loc (c.tc : Thread nD τ)))
    (h : (rdat2 V c).ArrAt 7 cfg2.N G) : row0 G = r2sumsq V c 0 7 (by omega) ∧ row8 G = r2sumsq V c 1 7 (by omega) := by
  obtain ⟨X, X', hX, hX', rfl⟩ := arrAt2_7_form V c G h
  constructor
  · funext x
    have hx0 : (x 0).val < 1 := (x 0).isLt
    rw [← hX, row0_apply_r2]
    have hi : ix2 (⟨(x 0).val, by omega⟩ : Fin 16) (⟨(x 1).val, (x 1).isLt⟩ : Fin 128) = ((cfg2.win 7).rect t2_7).emb (r2row.emb x) := by
      funext a; apply Fin.ext
      rw [Window.rect_emb_val, index2_7]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg2.win 7).rect t2_15).set := by
      intro hm
      have h0 := (Rect.mem_set_unit.mp hm 0).1
      rw [index2_7] at h0
      have h0' : 1 * 8 ≤ (x 0).val := h0
      omega
    exact read_two_writes_fst_r2 (Val := Elt F) (cfg2.win 7).arr.view ((cfg2.win 7).rect t2_7) ((cfg2.win 7).rect t2_15) ((rdat2 V c).A 7)
      ((cfg2.win 7).cut (cfg2.grid.coords t2_7) X) ((cfg2.win 7).cut (cfg2.grid.coords t2_15) X') (r2row.emb x) _ hi hnot
  · funext x
    have hx0 : (x 0).val < 1 := (x 0).isLt
    rw [← hX', row8_apply_r2]
    have hi : ix2 (⟨8 + (x 0).val, by omega⟩ : Fin 16) (⟨(x 1).val, (x 1).isLt⟩ : Fin 128) = ((cfg2.win 7).rect t2_15).emb (r2row.emb x) := by
      funext a; apply Fin.ext
      rw [Window.rect_emb_val, index2_7]
      match a with
      | ⟨0, _⟩ => show 8 + (x 0).val = 1 * 8 + (0 + 1 * (x 0).val); omega
      | ⟨1, _⟩ => show (x 1).val = 0 * 128 + (0 + 1 * (x 1).val); omega
    exact read_two_writes_snd_r2 (Val := Elt F) (cfg2.win 7).arr.view ((cfg2.win 7).rect t2_7) ((cfg2.win 7).rect t2_15) ((rdat2 V c).A 7)
      ((cfg2.win 7).cut (cfg2.grid.coords t2_7) X) ((cfg2.win 7).cut (cfg2.grid.coords t2_15) X') (r2row.emb x) _ hi

/-- A canonical statistics array: every row of a core's eight is that core's fold (only rows 0 and 8 are ever read). -/
def sumArr2 (c : Dev nD) : Buf (Elt F) ((cfg2.win 6).arr.view.loc (c.tc : Thread nD τ)) :=
  fun (j : S16x128.Idx) => r2sum V c ⟨(j 0).val / 8, by have := ValueIdx.idx2_lt0 j; omega⟩ 7 (by omega) (ix2 (0 : Fin 1) (j 1))

theorem row0_sumArr2 (c : Dev nD) : row0 (sumArr2 V c) = r2sum V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row0_apply_r2]
  show r2sum V c ⟨(x 0).val / 8, _⟩ 7 _ (ix2 (0 : Fin 1) (⟨(x 1).val, _⟩ : Fin 128)) = _
  rw [e1, e2]

theorem row8_sumArr2 (c : Dev nD) : row8 (sumArr2 V c) = r2sum V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row8_apply_r2]
  show r2sum V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt2_6 (c : Dev nD) (G : Buf (Elt F) ((cfg2.win 6).arr.view.loc (c.tc : Thread nD τ)))
    (h : (rdat2 V c).ArrAt 6 cfg2.N G) : row0 G = row0 (sumArr2 V c) ∧ row8 G = row8 (sumArr2 V c) := by
  rw [row0_sumArr2, row8_sumArr2]; exact arrAt2_6_rows V c G h

/-- A canonical statistics array: every row of a core's eight is that core's fold (only rows 0 and 8 are ever read). -/
def sqArr2 (c : Dev nD) : Buf (Elt F) ((cfg2.win 7).arr.view.loc (c.tc : Thread nD τ)) :=
  fun (j : S16x128.Idx) => r2sumsq V c ⟨(j 0).val / 8, by have := ValueIdx.idx2_lt0 j; omega⟩ 7 (by omega) (ix2 (0 : Fin 1) (j 1))

theorem row0_sqArr2 (c : Dev nD) : row0 (sqArr2 V c) = r2sumsq V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row0_apply_r2]
  show r2sumsq V c ⟨(x 0).val / 8, _⟩ 7 _ (ix2 (0 : Fin 1) (⟨(x 1).val, _⟩ : Fin 128)) = _
  rw [e1, e2]

theorem row8_sqArr2 (c : Dev nD) : row8 (sqArr2 V c) = r2sumsq V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row8_apply_r2]
  show r2sumsq V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt2_7 (c : Dev nD) (G : Buf (Elt F) ((cfg2.win 7).arr.view.loc (c.tc : Thread nD τ)))
    (h : (rdat2 V c).ArrAt 7 cfg2.N G) : row0 G = row0 (sqArr2 V c) ∧ row8 G = row8 (sqArr2 V c) := by
  rw [row0_sqArr2, row8_sqArr2]; exact arrAt2_7_rows V c G h

/-! ### The folds, written out: the zero row, then the eight blocks' column sums added in point order -/

theorem r2sum_core0 (c : Dev nD) : r2sum V c 0 7 (by omega) = r2acc (r2acc (r2acc (r2acc (r2acc (r2acc (r2acc (r2acc r2zrow (yat2 V c t2_0)) (yat2 V c t2_1)) (yat2 V c t2_2)) (yat2 V c t2_3)) (yat2 V c t2_4)) (yat2 V c t2_5)) (yat2 V c t2_6)) (yat2 V c t2_7) := rfl
theorem r2sum_core1 (c : Dev nD) : r2sum V c 1 7 (by omega) = r2acc (r2acc (r2acc (r2acc (r2acc (r2acc (r2acc (r2acc r2zrow (yat2 V c t2_8)) (yat2 V c t2_9)) (yat2 V c t2_10)) (yat2 V c t2_11)) (yat2 V c t2_12)) (yat2 V c t2_13)) (yat2 V c t2_14)) (yat2 V c t2_15) := rfl
theorem r2sumsq_core0 (c : Dev nD) : r2sumsq V c 0 7 (by omega) = r2accsq (r2accsq (r2accsq (r2accsq (r2accsq (r2accsq (r2accsq (r2accsq r2zrow (yat2 V c t2_0)) (yat2 V c t2_1)) (yat2 V c t2_2)) (yat2 V c t2_3)) (yat2 V c t2_4)) (yat2 V c t2_5)) (yat2 V c t2_6)) (yat2 V c t2_7) := rfl
theorem r2sumsq_core1 (c : Dev nD) : r2sumsq V c 1 7 (by omega) = r2accsq (r2accsq (r2accsq (r2accsq (r2accsq (r2accsq (r2accsq (r2accsq r2zrow (yat2 V c t2_8)) (yat2 V c t2_9)) (yat2 V c t2_10)) (yat2 V c t2_11)) (yat2 V c t2_12)) (yat2 V c t2_13)) (yat2 V c t2_14)) (yat2 V c t2_15) := rfl

/-! ### Window 5: the whole array -/

/-- The array of `y`: row block `p` is the block of `y` at point `p`. -/
def yArr2 (c : Dev nD) : Buf (Elt F) ((cfg2.win 5).arr.view.loc (c.tc : Thread nD τ)) :=
  fun (j : S65536x128.Idx) => yat2 V c ⟨(j 0).val / 4096, by have := ValueIdx.idx2_lt0 j; show _ < grid2.N; rw [N_2]; omega⟩
    (ix2 (⟨(j 0).val % 4096, Nat.mod_lt _ (by decide)⟩ : Fin 4096) (j 1))

theorem yArr2_apply (c : Dev nD) (p : Fin 16) (q : Fin 4096) (j : Fin 128) :
    yArr2 V c (ix2 (⟨p.val * 4096 + q.val, by have := p.isLt; have := q.isLt; omega⟩ : Fin 65536) j)
      = yat2 V c ⟨p.val, by show _ < grid2.N; rw [N_2]; exact p.isLt⟩ (ix2 q j) := by
  have e1 : (⟨(p.val * 4096 + q.val) / 4096, by have := p.isLt; have := q.isLt; show _ < grid2.N; rw [N_2]; omega⟩ : Fin cfg2.N)
      = ⟨p.val, by show _ < grid2.N; rw [N_2]; exact p.isLt⟩ := Fin.ext (by have := q.isLt; show (p.val * 4096 + q.val) / 4096 = p.val; omega)
  have e2 : (⟨(p.val * 4096 + q.val) % 4096, Nat.mod_lt _ (by decide)⟩ : Fin 4096) = q :=
    Fin.ext (by have := q.isLt; show (p.val * 4096 + q.val) % 4096 = q.val; omega)
  show yat2 V c ⟨(p.val * 4096 + q.val) / 4096, _⟩ (ix2 (⟨(p.val * 4096 + q.val) % 4096, _⟩ : Fin 4096) j) = _
  rw [e1, e2]

theorem arrAt2_5 (c : Dev nD) (G : Buf (Elt F) ((cfg2.win 5).arr.view.loc (c.tc : Thread nD τ)))
    (h : (rdat2 V c).ArrAt 5 cfg2.N G) : G = yArr2 V c := by
  funext (j : S65536x128.Idx)
  have hj := ValueIdx.idx2_lt0 j
  let u : Fin cfg2.N := ⟨(j 0).val / 4096, by show _ < grid2.N; rw [N_2]; omega⟩
  let x : S4096x128.Idx := ix2 (⟨(j 0).val % 4096, Nat.mod_lt _ (by decide)⟩ : Fin 4096) (j 1)
  have hb := congrFun (arrAt2_5_blk V c cfg2.N (le_of_eq N_2) G h u u.isLt) x
  have hjx : ((cfg2.win 5).rect u).emb x = j := by
    funext a; apply Fin.ext
    rw [Window.rect_emb_val, index2_5]
    match a with
    | ⟨0, _⟩ => show (j 0).val / 4096 * 4096 + (j 0).val % 4096 = (j 0).val; omega
    | ⟨1, _⟩ => show 0 * 128 + (j 1).val = (j 1).val; omega
  have hr : ((cfg2.win 5).blk u).view.read (Elt F) G x = G (((cfg2.win 5).rect u).emb x) := rfl
  rw [hr, hjx] at hb
  exact hb
end Arr5

end Cert.KernelIdeal.Hand
end
-- ==== Proof.Hand.P2r3.lean ====
import proofs.«103476_j5987184410999_2_alg».proof.Proof.Gen.KernelIdeal.Launch
import proofs.«103476_j5987184410999_2_alg».proof.Proof.Gen.KernelIdeal.Skeleton
import proofs.«103476_j5987184410999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 x 128 extents: the elaborator's structural look recurses once per
-- coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 3 of @main: custom_call 3, `cc3__pass2_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for ANY proof
    data whose array is `V`'s (`hA`) and whose body leaves the block in place (`hafter`): unfetched, the block
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for ANY proof
    data whose array is `V`'s (`hA`) and whose body leaves the block in place (`hafter`): unfetched, the block
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for ANY proof
    data whose array is `V`'s (`hA`) and whose body leaves the block in place (`hafter`): unfetched, the block
    index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for ANY proof
    data whose array is `V`'s (`hA`) and whose body leaves the block in place (`hafter`): unfetched, the block
    index has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S4096x128 := Rect.unit (s := S4096x128) ![0, 0] S4096x128.size inb_S4096x128_S4096x128_0_0
abbrev r3_1 : Rect S1x128 := Rect.unit (s := S1x128) ![0, 0] S1x128.size inb_S1x128_S1x128_0_0

/-! ## What the body leaves in the output window's buffer -/

/-- Window 5's staging buffer after the body, from the input windows' blocks (the normalised block, the mean,
    the inverse deviation, the scale, the shift): its one store as a piece (`View.canon`; the payload is the
    skeleton's, its arguments in the order the body loads them). -/
def out3_5 (x0 : Vec F S4096x128 .f32) (x1 x2 x3 x4 : Vec F S1x128 .f32) : Vec F S4096x128 .f32 :=
  View.canon [⟨r3_0, k3_pay1 (View.ld x0 r3_0) (View.ld x3 r3_1) (View.ld x1 r3_1) (View.ld x2 r3_1) (View.ld x4 r3_1)⟩]

/-- The store tiles the buffer, so it covers it. -/
theorem cover3_5 (p0 : Vec F S4096x128 .f32) (y : S4096x128.Idx) :
    ∃ pc ∈ ([⟨r3_0, p0⟩] : List (View.Piece (Elt F) S4096x128 .f32)), y ∈ pc.1.set :=
  View.cover_of_tiled [⟨r3_0, p0⟩] S4096x128.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords)
    (arg1 : Memref sig .tc .vmem S4096x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4096x128 .f32) (harg6 : arg6.IsWhole)
    (x0 : Vec F S4096x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__pass2_kernel i arg1 harg1 arg2 harg2 arg3 harg3 arg4 harg4 arg5 harg5 arg6 harg6) K := by
  simp only [cc3__pass2_kernel_eq_skeleton]; unfold cc3__pass2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant the
    class's (`Pipeline.ΦA`: the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Hand.ChainDefs1.lean ====
/-
  The canonical contents of the TensorCore's buffers around network node 1: after host stretch 2, after its statistics pass (region 2;
  the two statistics arrays at a canonical completion of their undefined rows), after host stretch 3, after its normalisation pass (region 3).
-/
import proofs.«103476_j5987184410999_2_alg».proof.Proof.Hand.ChainDefs0
import proofs.«103476_j5987184410999_2_alg».proof.Proof.Hand.P1r2Arr
import proofs.«103476_j5987184410999_2_alg».proof.Proof.Hand.P2r3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-- After host stretch 2: what region 2 is entered from. -/
def W5 (c : Dev nD) : Valuation τ sig (Elt F) := StableHlo.after hostOps2 (W4 m c)
abbrev E2 : (c : Dev nD) → (b : Ref sig .tc) → Buf (Elt F) ((c : Thread nD τ).loc b) := fun c b => W5 m c b
/-- What region 2 leaves in its arrays: the inputs as found, the product array, and the two statistics arrays at their
    canonical completion. -/
def GA2 (c : Dev nD) : (w : Fin cfg2.W) → Buf (Elt F) ((cfg2.win w).arr.view.loc (c.tc : Thread nD τ))
  | ⟨0, _⟩ => E2 m c (Pipeline.arrRef spec2 0)
  | ⟨1, _⟩ => E2 m c (Pipeline.arrRef spec2 1)
  | ⟨2, _⟩ => E2 m c (Pipeline.arrRef spec2 2)
  | ⟨3, _⟩ => E2 m c (Pipeline.arrRef spec2 3)
  | ⟨4, _⟩ => E2 m c (Pipeline.arrRef spec2 4)
  | ⟨5, _⟩ => yArr2 (E2 m) c
  | ⟨6, _⟩ => sumArr2 (E2 m) c
  | ⟨7, _⟩ => sqArr2 (E2 m) c
def W6 (c : Dev nD) : Valuation τ sig (Elt F) := Pipeline.withArrays spec2 c (W5 m c) (GA2 m c)
/-- After host stretch 3: what region 3 is entered from. -/
def W7 (c : Dev nD) : Valuation τ sig (Elt F) := StableHlo.after hostOps3 (W6 m c)
abbrev E3 : (c : Dev nD) → (b : Ref sig .tc) → Buf (Elt F) ((c : Thread nD τ).loc b) := fun c b => W7 m c b
/-- What region 3 leaves in its arrays. -/
def GA3 (c : Dev nD) (w : Fin cfg3.W) : Buf (Elt F) ((cfg3.win w).arr.view.loc (c.tc : Thread nD τ)) := (dat3 (E3 m) c).arrAt w cfg3.N
def W8 (c : Dev nD) : Valuation τ sig (Elt F) := Pipeline.withArrays spec3 c (W7 m c) (GA3 m c)

end Cert.KernelIdeal.Hand

end
-- ==== Proof.Hand.P1r4.lean ====
/- Region 4 (the first pass-1 launch whose input arrives split in two halves) as RELATIONAL proof data, with its body
   obligation.

   The body computes a block of `y` from seven input blocks (the two halves of `x`, the two halves of the first weight,
   the first bias, the second weight and bias), stores it whole, and adds its column sums (and those of its square) into
   ROW 0 of two 8-row statistics blocks, which it first zeroes at the first point of each core's run of eight.
   Rows 1 to 7 of those blocks are never stored: what the body leaves there is what it found. So the data relates what the
   body finds in a buffer to what it leaves, and for the statistics blocks constrains row 0 only. -/
import proofs.«103476_j5987184410999_2_alg».proof.Proof.Gen.KernelIdeal.Launch
import proofs.«103476_j5987184410999_2_alg».proof.Proof.Gen.KernelIdeal.Skeleton
import proofs.«103476_j5987184410999_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## Region 4 (a pass-1 launch over a split input): names -/

/-- The condition of the body's one `scf.if`, from the grid coordinates (the skeleton's scalar chain substituted):
    the inner coordinate is zero. -/
abbrev r4cond (i : grid4.Coords) : Prop :=
  (Scalar.cmpi .ne (Scalar.extui (Scalar.cmpi .eq (BitVec.ofNat 32 (i 1).val) 0#32)) 0#32) = 1#1

/-- It holds at the first point of each core's run of eight: decided over the grid. -/
theorem r4cond_iff : ∀ t : Fin cfg4.N, r4cond (grid4.coords t) ↔ t.val % 8 = 0 :=
  (by decide +kernel : ∀ t : Fin grid4.N, r4cond (grid4.coords t) ↔ t.val % 8 = 0)

/-- Row 0 of a statistics block: the rectangle every load and store of the two accumulators goes through. -/
abbrev r4row : Rect S8x128 := Rect.unit (s := S8x128) ![0, 0] S1x128.size inb_S8x128_S1x128_0_0

/-- The row of zeros the body stores at the first point of a core's run. -/
def r4zrow : FVec F S1x128 .f32 := broadcast S1x128 (Scalar.ofBits .f32 0x00000000#32)

/-- One accumulation step: the row found plus the column sums of `y` (the reduction along axis 0 from the zero word). -/
def r4acc (r : Vec F S1x128 .f32) (y : FVec F S4096x128 .f32) : FVec F S1x128 .f32 :=
  addf (shapeCast S1x128 r shapeCasts_S1x128_S1x128)
    (shapeCast S1x128 (multiReduction .add [0] S128 y 0x00000000#32 reduces_S4096x128_S128 (.inl rfl) rfl) shapeCasts_S128_S1x128)

/-- The same of the squares. -/
def r4accsq (r : Vec F S1x128 .f32) (y : FVec F S4096x128 .f32) : FVec F S1x128 .f32 := r4acc r (mulf y y)

/-- The block of `y` the body computes from its seven input blocks: `relu(xa·Wa + xb·Wb + b1)·W2 + b2` with the matrix
    operands rounded to bf16 (the skeleton's payload). -/
def yblk4 (xa xb : Vec F S4096x128 .f32) (wa wb : Vec F S128x256 .f32) (b1 : Vec F S1x256 .f32) (w2 : Vec F S256x128 .f32)
    (b2 : Vec F S1x128 .f32) : Vec F S4096x128 .f32 := k4_pay5 xa xb wa wb b1 w2 b2

theorem k4_pay1_eq (y : FVec F S4096x128 .f32) (r : Vec F S1x128 .f32) : k4_pay1 y r = r4acc r y := rfl
theorem k4_pay2_eq (y : FVec F S4096x128 .f32) (r : Vec F S1x128 .f32) : k4_pay2 y r = r4accsq r y := rfl
theorem k4_pay3_eq : k4_pay3 (F := F) = r4zrow := rfl
theorem k4_pay4_eq : k4_pay4 (F := F) = r4zrow := rfl

theorem r4zeros2 : (![0, 0] : Fin 2 → ℕ) = fun _ => 0 := by funext a; fin_cases a <;> rfl

section WholeRect
variable {sg : RefSig} {κ : Kind} {sp : Space} {S : Shape} {e : EltTy} {Val : EltTy → Type}

/-- A load through the whole-shape rectangle at zero offsets reads the view's contents. -/
theorem r4readAt_unit_zero (v : View sg κ sp S e) {off : Fin S.rank → ℕ} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

/-- One store through it leaves its payload, whatever the buffer held. -/
theorem r4read_writes_unit_zero (v : View sg κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end WholeRect

theorem r4readAt_S4096x128 {sp : Space} (v : View sig .tc sp S4096x128 .f32) (f : v.ty.Contents (Elt F)) :
    v.readAt (Elt F) (Rect.unit (s := S4096x128) ![0, 0] S4096x128.size inb_S4096x128_S4096x128_0_0).toLoadRect f = v.read (Elt F) f :=
  r4readAt_unit_zero v r4zeros2 _ f
theorem r4readAt_S128x256 {sp : Space} (v : View sig .tc sp S128x256 .f32) (f : v.ty.Contents (Elt F)) :
    v.readAt (Elt F) (Rect.unit (s := S128x256) ![0, 0] S128x256.size inb_S128x256_S128x256_0_0).toLoadRect f = v.read (Elt F) f :=
  r4readAt_unit_zero v r4zeros2 _ f
theorem r4readAt_S1x256 {sp : Space} (v : View sig .tc sp S1x256 .f32) (f : v.ty.Contents (Elt F)) :
    v.readAt (Elt F) (Rect.unit (s := S1x256) ![0, 0] S1x256.size inb_S1x256_S1x256_0_0).toLoadRect f = v.read (Elt F) f :=
  r4readAt_unit_zero v r4zeros2 _ f
theorem r4readAt_S256x128 {sp : Space} (v : View sig .tc sp S256x128 .f32) (f : v.ty.Contents (Elt F)) :
    v.readAt (Elt F) (Rect.unit (s := S256x128) ![0, 0] S256x128.size inb_S256x128_S256x128_0_0).toLoadRect f = v.read (Elt F) f :=
  r4readAt_unit_zero v r4zeros2 _ f
theorem r4readAt_S1x128 {sp : Space} (v : View sig .tc sp S1x128 .f32) (f : v.ty.Contents (Elt F)) :
    v.readAt (Elt F) (Rect.unit (s := S1x128) ![0, 0] S1x128.size inb_S1x128_S1x128_0_0).toLoadRect f = v.read (Elt F) f :=
  r4readAt_unit_zero v r4zeros2 _ f

/-- The whole-block store of window 7 leaves its payload. -/
theorem r4read_whole_store {sp : Space} (v : View sig .tc sp S4096x128 .f32) (f : v.ty.Contents (Elt F)) (w : Vec F S4096x128 .f32) :
    v.read (Elt F) (v.writes (Elt F) f [⟨Rect.unit (s := S4096x128) ![0, 0] S4096x128.size inb_S4096x128_S4096x128_0_0, w⟩]) = w :=
  r4read_writes_unit_zero v r4zeros2 _ f w []

/-- Row 0 after a store through row 0, whatever was stored before. -/
theorem r4ld_row_store {sp : Space} (v : View sig .tc sp S8x128 .f32) (f : v.ty.Contents (Elt F)) (w : Vec F S1x128 .f32)
    (L : List (View.Piece (Elt F) S8x128 .f32)) :
    View.ld (v.read (Elt F) (v.writes (Elt F) f (⟨r4row, w⟩ :: L))) r4row = w :=
  funext fun x => View.read_writes_cons_emb v f r4row w L x

/-! ## The body's two runs, over arbitrary staging contents -/

set_option maxHeartbeats 1000000 in
/-- The body at a point that is not the first of its core's run: row 0 of each statistics block is the row found plus the sums. -/
theorem sound_kernel4_later (c : Dev nD) (i : grid4.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : ¬r4cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk4 x0 x1 x2 x3 x4 x5 x6)
            ∗ (∃ X, ⌜View.ld X r4row = r4acc (View.ld y8 r4row) (yblk4 x0 x1 x2 x3 x4 x5 x6)⌝ ∗ owns (c : Thread nD τ) arg10 fullShare X)
            ∗ (∃ X, ⌜View.ld X r4row = r4accsq (View.ld y9 r4row) (yblk4 x0 x1 x2 x3 x4 x5 x6)⌝ ∗ owns (c : Thread nD τ) arg11 fullShare X)) -∗ K ⟨⟩))
      ⊢ wp frame (wpE (defs₀ (F := F)) Variants.none c none) E (cc4__pass1_kernel_split i arg2 harg2 arg3 harg3 arg4 harg4 arg5 harg5 arg6 harg6 arg7 harg7 arg8 harg8 arg9 harg9 arg10 harg10 arg11 harg11) K := by
  simp only [cc4__pass1_kernel_split_eq_skeleton]; unfold cc4__pass1_kernel_split_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r4readAt_S4096x128, r4readAt_S4096x128, r4readAt_S128x256, r4readAt_S128x256, r4readAt_S1x256, r4readAt_S256x128, r4readAt_S1x128]
    exact r4read_whole_store (F := F) _ _ _
  isplitl [H8]
  · iexists _; isplitr; swap
    · iexists _; isplitr; swap; · iexact H8
      ipureintro; rfl
    ipureintro
    rw [r4readAt_S4096x128, r4readAt_S4096x128, r4readAt_S128x256, r4readAt_S128x256, r4readAt_S1x256, r4readAt_S256x128, r4readAt_S1x128]
    rw [k4_pay1_eq]
    exact r4ld_row_store (F := F) _ _ _ _
  · iexists _; isplitr; swap
    · iexists _; isplitr; swap; · iexact H9
      ipureintro; rfl
    ipureintro
    rw [r4readAt_S4096x128, r4readAt_S4096x128, r4readAt_S128x256, r4readAt_S128x256, r4readAt_S1x256, r4readAt_S256x128, r4readAt_S1x128]
    rw [k4_pay2_eq]
    exact r4ld_row_store (F := F) _ _ _ _

set_option maxHeartbeats 1000000 in
/-- The body at the first point of a core's run: row 0 of each statistics block is the zero row plus the sums. -/
theorem sound_kernel4_first (c : Dev nD) (i : grid4.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : r4cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk4 x0 x1 x2 x3 x4 x5 x6)
            ∗ (∃ X, ⌜View.ld X r4row = r4acc r4zrow (yblk4 x0 x1 x2 x3 x4 x5 x6)⌝ ∗ owns (c : Thread nD τ) arg10 fullShare X)
            ∗ (∃ X, ⌜View.ld X r4row = r4accsq r4zrow (yblk4 x0 x1 x2 x3 x4 x5 x6)⌝ ∗ owns (c : Thread nD τ) arg11 fullShare X)) -∗ K ⟨⟩))
      ⊢ wp frame (wpE (defs₀ (F := F)) Variants.none c none) E (cc4__pass1_kernel_split i arg2 harg2 arg3 harg3 arg4 harg4 arg5 harg5 arg6 harg6 arg7 harg7 arg8 harg8 arg9 harg9 arg10 harg10 arg11 harg11) K := by
  simp only [cc4__pass1_kernel_split_eq_skeleton]; unfold cc4__pass1_kernel_split_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r4readAt_S4096x128, r4readAt_S4096x128, r4readAt_S128x256, r4readAt_S128x256, r4readAt_S1x256, r4readAt_S256x128, r4readAt_S1x128]
    exact r4read_whole_store (F := F) _ _ _
  isplitl [H8]
  · iexists _; isplitr; swap
    · iexists _; isplitr; swap; · iexact H8
      ipureintro; rfl
    ipureintro
    rw [r4readAt_S4096x128, r4readAt_S4096x128, r4readAt_S128x256, r4readAt_S128x256, r4readAt_S1x256, r4readAt_S256x128, r4readAt_S1x128]
    rw [k4_pay1_eq]
    refine (r4ld_row_store (F := F) _ _ _ _).trans ?_
    congr 1
    sl_unfold_run_names
    exact View.readCov_cons_toLoadRect _ _ _ _
  · iexists _; isplitr; swap
    · iexists _; isplitr; swap; · iexact H9
      ipureintro; rfl
    ipureintro
    rw [r4readAt_S4096x128, r4readAt_S4096x128, r4readAt_S128x256, r4readAt_S128x256, r4readAt_S1x256, r4readAt_S256x128, r4readAt_S1x128]
    rw [k4_pay2_eq]
    refine (r4ld_row_store (F := F) _ _ _ _).trans ?_
    congr 1
    sl_unfold_run_names
    exact View.readCov_cons_toLoadRect _ _ _ _

/-! ## The proof data of region 4, relational -/

variable (V : (c : Dev nD) → (b : Ref sig .tc) → Buf (Elt F) ((c : Thread nD τ).loc b))

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of `y` at point `t`: the body's function of the seven input blocks there. -/
def yat4 (c : Dev nD) (t : Fin cfg4.N) : Vec F S4096x128 .f32 :=
  yblk4 (iblk4 V c 0 t) (iblk4 V c 1 t) (iblk4 V c 2 t) (iblk4 V c 3 t) (iblk4 V c 4 t) (iblk4 V c 5 t) (iblk4 V c 6 t)

/-- The proof data of the launch on core `c`: the arrays as the region finds them; an input's buffer is left as found; the
    `y` window's buffer is left at the block of `y`; of a statistics window's buffer only row 0 is constrained — it is the
    row found (the zero row at the first point of a core's run) plus the column sums of the block of `y` (of its square) —, and
    nothing is said of rows 1 to 7, which the body never stores. -/
def rdat4 (c : Dev nD) : RDat τ (Elt F) Unit ℕ (UR sig nD τ) ℕ cfg4 c where
  A w := V c (Pipeline.arrRef spec4 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => X = yat4 V c t
    | ⟨8, _⟩ => fun Y X => View.ld X r4row = r4acc (if t.val % 8 = 0 then r4zrow else View.ld Y r4row) (yat4 V c t)
    | ⟨9, _⟩ => fun Y X => View.ld X r4row = r4accsq (if t.val % 8 = 0 then r4zrow else View.ld Y r4row) (yat4 V c t)
  Φ _ := Pipeline.ΦA spec4 c
  q _ := fullShare
  owed _ := 0

theorem rdat4_A (c : Dev nD) (w : Fin cfg4.W) : (rdat4 V c).A w = V c (Pipeline.arrRef spec4 w) := by dsimp only [rdat4]

theorem after4_0 (c : Dev nD) (t : Fin cfg4.N) Y X : (rdat4 V c).after 0 t Y X ↔ X = Y := by dsimp only [rdat4]; exact Iff.rfl
theorem after4_1 (c : Dev nD) (t : Fin cfg4.N) Y X : (rdat4 V c).after 1 t Y X ↔ X = Y := by dsimp only [rdat4]; exact Iff.rfl
theorem after4_2 (c : Dev nD) (t : Fin cfg4.N) Y X : (rdat4 V c).after 2 t Y X ↔ X = Y := by dsimp only [rdat4]; exact Iff.rfl
theorem after4_3 (c : Dev nD) (t : Fin cfg4.N) Y X : (rdat4 V c).after 3 t Y X ↔ X = Y := by dsimp only [rdat4]; exact Iff.rfl
theorem after4_4 (c : Dev nD) (t : Fin cfg4.N) Y X : (rdat4 V c).after 4 t Y X ↔ X = Y := by dsimp only [rdat4]; exact Iff.rfl
theorem after4_5 (c : Dev nD) (t : Fin cfg4.N) Y X : (rdat4 V c).after 5 t Y X ↔ X = Y := by dsimp only [rdat4]; exact Iff.rfl
theorem after4_6 (c : Dev nD) (t : Fin cfg4.N) Y X : (rdat4 V c).after 6 t Y X ↔ X = Y := by dsimp only [rdat4]; exact Iff.rfl
theorem after4_7 (c : Dev nD) (t : Fin cfg4.N) Y X : (rdat4 V c).after 7 t Y X ↔ X = yat4 V c t := by dsimp only [rdat4]; exact Iff.rfl
theorem after4_8 (c : Dev nD) (t : Fin cfg4.N) Y X : (rdat4 V c).after 8 t Y X ↔
    View.ld X r4row = r4acc (if t.val % 8 = 0 then r4zrow else View.ld Y r4row) (yat4 V c t) := by dsimp only [rdat4]; exact Iff.rfl
theorem after4_9 (c : Dev nD) (t : Fin cfg4.N) Y X : (rdat4 V c).after 9 t Y X ↔
    View.ld X r4row = r4accsq (if t.val % 8 = 0 then r4zrow else View.ld Y r4row) (yat4 V c t) := by dsimp only [rdat4]; exact Iff.rfl

/-! ## What the body finds in an input's buffer: the window's block, fetched at the point or not -/

theorem finds4_0 (c : Dev nD) (t : Fin cfg4.N) (Y) (h : (rdat4 V c).Finds 0 t Y) : Y = iblk4 V c 0 t := by
  obtain ⟨d, rfl⟩ := (rdat4 V c).finds_in_eq_fetched 0 rfl (fun _ _ _ => rfl) (fun t Y X h => (after4_0 V c t Y X).mp h) t Y h
  unfold RDat.fetched RDat.blockOf iblk4; rw [rdat4_A]; rfl

theorem finds4_1 (c : Dev nD) (t : Fin cfg4.N) (Y) (h : (rdat4 V c).Finds 1 t Y) : Y = iblk4 V c 1 t := by
  obtain ⟨d, rfl⟩ := (rdat4 V c).finds_in_eq_fetched 1 rfl (fun _ _ _ => rfl) (fun t Y X h => (after4_1 V c t Y X).mp h) t Y h
  unfold RDat.fetched RDat.blockOf iblk4; rw [rdat4_A]; rfl

theorem finds4_2 (c : Dev nD) (t : Fin cfg4.N) (Y) (h : (rdat4 V c).Finds 2 t Y) : Y = iblk4 V c 2 t := by
  obtain ⟨d, rfl⟩ := (rdat4 V c).finds_in_eq_fetched 2 rfl (fun _ _ _ => rfl) (fun t Y X h => (after4_2 V c t Y X).mp h) t Y h
  unfold RDat.fetched RDat.blockOf iblk4; rw [rdat4_A]; rfl

theorem finds4_3 (c : Dev nD) (t : Fin cfg4.N) (Y) (h : (rdat4 V c).Finds 3 t Y) : Y = iblk4 V c 3 t := by
  obtain ⟨d, rfl⟩ := (rdat4 V c).finds_in_eq_fetched 3 rfl (fun _ _ _ => rfl) (fun t Y X h => (after4_3 V c t Y X).mp h) t Y h
  unfold RDat.fetched RDat.blockOf iblk4; rw [rdat4_A]; rfl

theorem finds4_4 (c : Dev nD) (t : Fin cfg4.N) (Y) (h : (rdat4 V c).Finds 4 t Y) : Y = iblk4 V c 4 t := by
  obtain ⟨d, rfl⟩ := (rdat4 V c).finds_in_eq_fetched 4 rfl (fun _ _ _ => rfl) (fun t Y X h => (after4_4 V c t Y X).mp h) t Y h
  unfold RDat.fetched RDat.blockOf iblk4; rw [rdat4_A]; rfl

theorem finds4_5 (c : Dev nD) (t : Fin cfg4.N) (Y) (h : (rdat4 V c).Finds 5 t Y) : Y = iblk4 V c 5 t := by
  obtain ⟨d, rfl⟩ := (rdat4 V c).finds_in_eq_fetched 5 rfl (fun _ _ _ => rfl) (fun t Y X h => (after4_5 V c t Y X).mp h) t Y h
  unfold RDat.fetched RDat.blockOf iblk4; rw [rdat4_A]; rfl

theorem finds4_6 (c : Dev nD) (t : Fin cfg4.N) (Y) (h : (rdat4 V c).Finds 6 t Y) : Y = iblk4 V c 6 t := by
  obtain ⟨d, rfl⟩ := (rdat4 V c).finds_in_eq_fetched 6 rfl (fun _ _ _ => rfl) (fun t Y X h => (after4_6 V c t Y X).mp h) t Y h
  unfold RDat.fetched RDat.blockOf iblk4; rw [rdat4_A]; rfl

/-! ## The body obligation -/

set_option maxHeartbeats 1000000 in
/-- The body at any point, on the buffers the pipeline hands it: the inputs' hold their blocks (`h0` … `h6`), the outputs' anything.
    The point's position in its core's run of eight says which of the two runs applies; what the run leaves is in the relation. -/
theorem sound_body4 (c : Dev nD) (t : Fin cfg4.N) (Y : (w : Fin cfg4.W) → (cfg4.win w).block.Idx → Elt F (cfg4.win w).elt)
    (h0 : Y 0 = iblk4 V c 0 t) (h1 : Y 1 = iblk4 V c 1 t) (h2 : Y 2 = iblk4 V c 2 t) (h3 : Y 3 = iblk4 V c 3 t) (h4 : Y 4 = iblk4 V c 4 t) (h5 : Y 5 = iblk4 V c 5 t) (h6 : Y 6 = iblk4 V c 6 t) :
    iprop((rdat4 V c).Φ t.castSucc ∗ (rdat4 V c).owesAt () t.castSucc
        ∗ owns (c : Thread nD τ) ((cfg4.win 0).stage (cfg4.slots t 0)) fullShare (Y 0)
        ∗ owns (c : Thread nD τ) ((cfg4.win 1).stage (cfg4.slots t 1)) fullShare (Y 1)
        ∗ owns (c : Thread nD τ) ((cfg4.win 2).stage (cfg4.slots t 2)) fullShare (Y 2)
        ∗ owns (c : Thread nD τ) ((cfg4.win 3).stage (cfg4.slots t 3)) fullShare (Y 3)
        ∗ owns (c : Thread nD τ) ((cfg4.win 4).stage (cfg4.slots t 4)) fullShare (Y 4)
        ∗ owns (c : Thread nD τ) ((cfg4.win 5).stage (cfg4.slots t 5)) fullShare (Y 5)
        ∗ owns (c : Thread nD τ) ((cfg4.win 6).stage (cfg4.slots t 6)) fullShare (Y 6)
        ∗ owns (c : Thread nD τ) ((cfg4.win 7).stage (cfg4.slots t 7)) fullShare (Y 7)
        ∗ owns (c : Thread nD τ) ((cfg4.win 8).stage (cfg4.slots t 8)) fullShare (Y 8)
        ∗ owns (c : Thread nD τ) ((cfg4.win 9).stage (cfg4.slots t 9)) fullShare (Y 9))
      ⊢ wp frame (wpE (defs₀ (F := F)) Variants.none c none) Set.univ (bodyAt4 t) (fun _ =>
        iprop((rdat4 V c).Φ t.succ ∗ (rdat4 V c).owesAt () t.succ
          ∗ (∃ X, ⌜(rdat4 V c).after 0 t (Y 0) X⌝ ∗ owns (c : Thread nD τ) ((cfg4.win 0).stage (cfg4.slots t 0)) fullShare X)
          ∗ (∃ X, ⌜(rdat4 V c).after 1 t (Y 1) X⌝ ∗ owns (c : Thread nD τ) ((cfg4.win 1).stage (cfg4.slots t 1)) fullShare X)
          ∗ (∃ X, ⌜(rdat4 V c).after 2 t (Y 2) X⌝ ∗ owns (c : Thread nD τ) ((cfg4.win 2).stage (cfg4.slots t 2)) fullShare X)
          ∗ (∃ X, ⌜(rdat4 V c).after 3 t (Y 3) X⌝ ∗ owns (c : Thread nD τ) ((cfg4.win 3).stage (cfg4.slots t 3)) fullShare X)
          ∗ (∃ X, ⌜(rdat4 V c).after 4 t (Y 4) X⌝ ∗ owns (c : Thread nD τ) ((cfg4.win 4).stage (cfg4.slots t 4)) fullShare X)
          ∗ (∃ X, ⌜(rdat4 V c).after 5 t (Y 5) X⌝ ∗ owns (c : Thread nD τ) ((cfg4.win 5).stage (cfg4.slots t 5)) fullShare X)
          ∗ (∃ X, ⌜(rdat4 V c).after 6 t (Y 6) X⌝ ∗ owns (c : Thread nD τ) ((cfg4.win 6).stage (cfg4.slots t 6)) fullShare X)
          ∗ (∃ X, ⌜(rdat4 V c).after 7 t (Y 7) X⌝ ∗ owns (c : Thread nD τ) ((cfg4.win 7).stage (cfg4.slots t 7)) fullShare X)
          ∗ (∃ X, ⌜(rdat4 V c).after 8 t (Y 8) X⌝ ∗ owns (c : Thread nD τ) ((cfg4.win 8).stage (cfg4.slots t 8)) fullShare X)
          ∗ (∃ X, ⌜(rdat4 V c).after 9 t (Y 9) X⌝ ∗ owns (c : Thread nD τ) ((cfg4.win 9).stage (cfg4.slots t 9)) fullShare X))) := by
  unfold bodyAt4
  rw [show (rdat4 V c).Φ t.succ = (rdat4 V c).Φ t.castSucc from rfl,
    show (rdat4 V c).owesAt () t.succ = (rdat4 V c).owesAt () t.castSucc from rfl]
  by_cases h : t.val % 8 = 0
  ·
    iintro ⟨HΦ, Ho, H0, H1, H2, H3, H4, H5, H6, H7, H8, H9⟩
    iapply (sound_kernel4_first c (grid4.coords t) _ _ _ _ _ _ _ _ _ _ _ _ _ _ _ _ _ _ _ _ ((r4cond_iff t).mpr h) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after4_0 V c t _ _).mpr rfl
    isplitl [H1]
    · iexists _; isplitr; swap; · iexact H1
      ipureintro; exact (after4_1 V c t _ _).mpr rfl
    isplitl [H2]
    · iexists _; isplitr; swap; · iexact H2
      ipureintro; exact (after4_2 V c t _ _).mpr rfl
    isplitl [H3]
    · iexists _; isplitr; swap; · iexact H3
      ipureintro; exact (after4_3 V c t _ _).mpr rfl
    isplitl [H4]
    · iexists _; isplitr; swap; · iexact H4
      ipureintro; exact (after4_4 V c t _ _).mpr rfl
    isplitl [H5]
    · iexists _; isplitr; swap; · iexact H5
      ipureintro; exact (after4_5 V c t _ _).mpr rfl
    isplitl [H6]
    · iexists _; isplitr; swap; · iexact H6
      ipureintro; exact (after4_6 V c t _ _).mpr rfl
    isplitl [H7]
    · iexists _; isplitr; swap; · iexact H7
      ipureintro; rw [after4_7]; unfold yat4; rw [← h0, ← h1, ← h2, ← h3, ← h4, ← h5, ← h6]
    isplitl [H8]
    · iexists X8; isplitr; swap; · iexact H8
      ipureintro; rw [after4_8, if_pos h]; unfold yat4; rw [← h0, ← h1, ← h2, ← h3, ← h4, ← h5, ← h6]; exact hX8
    · iexists X9; isplitr; swap; · iexact H9
      ipureintro; rw [after4_9, if_pos h]; unfold yat4; rw [← h0, ← h1, ← h2, ← h3, ← h4, ← h5, ← h6]; exact hX9
  ·
    iintro ⟨HΦ, Ho, H0, H1, H2, H3, H4, H5, H6, H7, H8, H9⟩
    iapply (sound_kernel4_later c (grid4.coords t) _ _ _ _ _ _ _ _ _ _ _ _ _ _ _ _ _ _ _ _ (fun hc => h ((r4cond_iff t).mp hc)) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after4_0 V c t _ _).mpr rfl
    isplitl [H1]
    · iexists _; isplitr; swap; · iexact H1
      ipureintro; exact (after4_1 V c t _ _).mpr rfl
    isplitl [H2]
    · iexists _; isplitr; swap; · iexact H2
      ipureintro; exact (after4_2 V c t _ _).mpr rfl
    isplitl [H3]
    · iexists _; isplitr; swap; · iexact H3
      ipureintro; exact (after4_3 V c t _ _).mpr rfl
    isplitl [H4]
    · iexists _; isplitr; swap; · iexact H4
      ipureintro; exact (after4_4 V c t _ _).mpr rfl
    isplitl [H5]
    · iexists _; isplitr; swap; · iexact H5
      ipureintro; exact (after4_5 V c t _ _).mpr rfl
    isplitl [H6]
    · iexists _; isplitr; swap; · iexact H6
      ipureintro; exact (after4_6 V c t _ _).mpr rfl
    isplitl [H7]
    · iexists _; isplitr; swap; · iexact H7
      ipureintro; rw [after4_7]; unfold yat4; rw [← h0, ← h1, ← h2, ← h3, ← h4, ← h5, ← h6]
    isplitl [H8]
    · iexists X8; isplitr; swap; · iexact H8
      ipureintro; rw [after4_8, if_neg h]; unfold yat4; rw [← h0, ← h1, ← h2, ← h3, ← h4, ← h5, ← h6]; exact hX8
    · iexists X9; isplitr; swap; · iexact H9
      ipureintro; rw [after4_9, if_neg h]; unfold yat4; rw [← h0, ← h1, ← h2, ← h3, ← h4, ← h5, ← h6]; exact hX9

/-- The library's body obligation of the relational data, at every point. -/
theorem body_obligation4 (c : Dev nD) : (rdat4 (F := F) V c).BodyObligation (defs₀ (F := F)) Variants.none () Set.univ := by
  intro t Y hY
  rw [bigSep_W4, bigSep_W4]
  exact sound_body4 V c t Y (finds4_0 V c t _ (hY 0)) (finds4_1 V c t _ (hY 1)) (finds4_2 V c t _ (hY 2)) (finds4_3 V c t _ (hY 3)) (finds4_4 V c t _ (hY 4)) (finds4_5 V c t _ (hY 5)) (finds4_6 V c t _ (hY 6))

end Cert.KernelIdeal.Hand
end
-- ==== Proof.Hand.P1r4Arr.lean ====
/- What region 4's arrays hold after the launch, from the relational data's `ArrAt` (pure: no separation logic).

   An input array is as the region found it. Row block `p` of the array of `y` is the block of `y` at point `p`. Of a
   statistics array only rows 0 and 8 are determined: row 0 is core 0's fold — the zero row with the column sums of the blocks
   of `y` (of their squares) at its eight points added in point order —, row 8 core 1's. -/
import proofs.«103476_j5987184410999_2_alg».proof.Proof.Hand.P1r4
import proofs.«103476_j5987184410999_2_alg».proof.Proof.Hand.Agree
import Idealize.ShloMosaic.Lib.Pipeline.Cells
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (RDat Dat Cfg Window cellOf)
open Idealize.ShloMosaic.ValueIdx (ix2 eq_ix2)

variable {F : FTy → Type} [FloatOps F]

variable (V : (c : Dev nD) → (b : Ref sig .tc) → Buf (Elt F) ((c : Thread nD τ).loc b))

/-! ## What the arrays hold after the launch -/

section Arr

/-! ### Inputs: never written -/

theorem arrAt4_in_of (c : Dev nD) (w : Fin cfg4.W) (hw : (cfg4.win w).isOut = false) (n : ℕ)
    (G : Buf (Elt F) ((cfg4.win w).arr.view.loc (c.tc : Thread nD τ))) (h : (rdat4 V c).ArrAt w n G) :
    G = V c (Pipeline.arrRef spec4 w) := by
  rw [RDat.ArrAt_in _ w hw n] at h; exact h.trans (rdat4_A V c w)

/-- The first seven windows are the inputs. -/
theorem isOut4_in : ∀ w : Fin cfg4.W, w.val < 7 → (cfg4.win w).isOut = false := by decide

/-- An input's array is as the region found it. -/
theorem arrAt4_in (c : Dev nD) (w : Fin cfg4.W) (hw : w.val < 7)
    (G : Buf (Elt F) ((cfg4.win w).arr.view.loc (c.tc : Thread nD τ))) (h : (rdat4 V c).ArrAt w cfg4.N G) :
    G = V c (Pipeline.arrRef spec4 w) := arrAt4_in_of V c w (isOut4_in w hw) cfg4.N G h

/-! ### The schedule of the three outputs -/

theorem fetch4_7 : ∀ t : Fin cfg4.N, (cfg4.win 7).fetch t = false :=
  (by decide +kernel : ∀ t : Fin grid4.N, win4_7.fetch t = false)
theorem fetch4_8 : ∀ t : Fin cfg4.N, (cfg4.win 8).fetch t = false :=
  (by decide +kernel : ∀ t : Fin grid4.N, win4_8.fetch t = false)
theorem fetch4_9 : ∀ t : Fin cfg4.N, (cfg4.win 9).fetch t = false :=
  (by decide +kernel : ∀ t : Fin grid4.N, win4_9.fetch t = false)

/-- The block index of the `y` window at point `t`: row block `t`. -/
theorem index4_7 : ∀ t : Fin cfg4.N, (cfg4.win 7).index t = ![t.val, 0] :=
  (by decide +kernel : ∀ t : Fin grid4.N, win4_7.index t = ![t.val, 0])
/-- The block index of a statistics window at point `t`: the core's. -/
theorem index4_8 : ∀ t : Fin cfg4.N, (cfg4.win 8).index t = ![t.val / 8, 0] :=
  (by decide +kernel : ∀ t : Fin grid4.N, win4_8.index t = ![t.val / 8, 0])
theorem index4_9 : ∀ t : Fin cfg4.N, (cfg4.win 9).index t = ![t.val / 8, 0] :=
  (by decide +kernel : ∀ t : Fin grid4.N, win4_9.index t = ![t.val / 8, 0])

/-! ### Window 7: block `t` of the array is the block of `y` at `t` -/

theorem leaves4_7 (c : Dev nD) (t : Fin cfg4.N) (X) (h : (rdat4 V c).Leaves 7 t X) : X = yat4 V c t := by
  obtain ⟨Y, -, hA⟩ := h
  exact (after4_7 V c t Y X).mp hA

theorem arrAt4_7_blk (c : Dev nD) : ∀ (n : ℕ), n ≤ 16 → ∀ G, (rdat4 V c).ArrAt 7 n G →
    ∀ u : Fin cfg4.N, u.val < n → ((cfg4.win 7).blk u).view.read (Elt F) G = yat4 V c u
  | 0, _, _, _, u, hu => absurd hu (Nat.not_lt_zero _)
  | n + 1, hn, G, h, u, hu => by
    have hN : n < cfg4.N := by show n < grid4.N; rw [N_4]; omega
    rw [show n + 1 = (⟨n, hN⟩ : Fin cfg4.N).val + 1 from rfl, RDat.ArrAt_succ, if_pos (flush4_7 _)] at h
    obtain ⟨G₀, X, hG₀, hX, rfl⟩ := h
    obtain rfl := leaves4_7 V c _ X hX
    by_cases hun : u.val = n
    · have e : u = ⟨n, hN⟩ := Fin.ext hun
      subst e
      exact View.read_write_univ _ _
    · refine Eq.trans ?_ (arrAt4_7_blk c n (by omega) G₀ hG₀ u (by omega))
      refine View.read_congr fun i hi => View.write_of_not_mem _ _ _ ?_
      have hd := (cfg4.win 7).disjoint_blk (u := u) (u' := ⟨n, hN⟩) (by
        rw [index4_7, index4_7]; intro e; exact hun (by simpa using congrFun e 0))
      exact Finset.disjoint_left.mp hd hi
end Arr

section Arr3

/-! ### Windows 8 and 9: row 0 of a core's statistics block is the fold of its eight points -/

/-- Point `j` of core `q`'s run of eight. -/
def r4pt (q : Fin 2) (j : ℕ) (hj : j < 8) : Fin cfg4.N := ⟨8 * q.val + j, by have := q.isLt; show _ < grid4.N; rw [N_4]; omega⟩

/-- Row 0 of core `q`'s sum block after its point `j`: the zero row with the column sums of the blocks of `y` at the points
    `0 … j` of the core's run added in that order. -/
def r4sum (c : Dev nD) (q : Fin 2) : (j : ℕ) → j < 8 → FVec F S1x128 .f32
  | 0, h => r4acc r4zrow (yat4 V c (r4pt q 0 h))
  | j + 1, h => r4acc (r4sum c q j (Nat.lt_of_succ_lt h)) (yat4 V c (r4pt q (j + 1) h))

/-- The same of the squares. -/
def r4sumsq (c : Dev nD) (q : Fin 2) : (j : ℕ) → j < 8 → FVec F S1x128 .f32
  | 0, h => r4accsq r4zrow (yat4 V c (r4pt q 0 h))
  | j + 1, h => r4accsq (r4sumsq c q j (Nat.lt_of_succ_lt h)) (yat4 V c (r4pt q (j + 1) h))

theorem leaves4_8 (c : Dev nD) (q : Fin 2) : ∀ (j : ℕ) (hj : j < 8) (X), (rdat4 V c).Leaves 8 (r4pt q j hj) X →
    View.ld X r4row = r4sum V c q j hj
  | 0, hj, X, h => by
    obtain ⟨Y, -, hA⟩ := h
    rw [after4_8, if_pos (by show (8 * q.val + 0) % 8 = 0; omega)] at hA
    exact hA
  | j + 1, hj, X, h => by
    obtain ⟨Y, hF, hA⟩ := h
    rw [after4_8, if_neg (by show ¬(8 * q.val + (j + 1)) % 8 = 0; omega)] at hA
    rw [RDat.finds_of_pos _ (fetch4_8 _) (by show 8 * q.val + (j + 1) ≠ 0; omega)] at hF
    rcases hF with hfl | hL
    · exact absurd ((flush4_8 _).mp hfl) (by show ¬(8 * q.val + (j + 1) - 1) % 8 = 7; omega)
    · have e : (⟨(r4pt q (j + 1) hj).val - 1, Nat.lt_of_le_of_lt (Nat.sub_le _ _) (r4pt q (j + 1) hj).isLt⟩ : Fin cfg4.N)
          = r4pt q j (Nat.lt_of_succ_lt hj) := Fin.ext (by show 8 * q.val + (j + 1) - 1 = 8 * q.val + j; omega)
      rw [e] at hL
      rw [hA, leaves4_8 c q j (Nat.lt_of_succ_lt hj) Y hL]
      rfl

theorem leaves4_9 (c : Dev nD) (q : Fin 2) : ∀ (j : ℕ) (hj : j < 8) (X), (rdat4 V c).Leaves 9 (r4pt q j hj) X →
    View.ld X r4row = r4sumsq V c q j hj
  | 0, hj, X, h => by
    obtain ⟨Y, -, hA⟩ := h
    rw [after4_9, if_pos (by show (8 * q.val + 0) % 8 = 0; omega)] at hA
    exact hA
  | j + 1, hj, X, h => by
    obtain ⟨Y, hF, hA⟩ := h
    rw [after4_9, if_neg (by show ¬(8 * q.val + (j + 1)) % 8 = 0; omega)] at hA
    rw [RDat.finds_of_pos _ (fetch4_9 _) (by show 8 * q.val + (j + 1) ≠ 0; omega)] at hF
    rcases hF with hfl | hL
    · exact absurd ((flush4_9 _).mp hfl) (by show ¬(8 * q.val + (j + 1) - 1) % 8 = 7; omega)
    · have e : (⟨(r4pt q (j + 1) hj).val - 1, Nat.lt_of_le_of_lt (Nat.sub_le _ _) (r4pt q (j + 1) hj).isLt⟩ : Fin cfg4.N)
          = r4pt q j (Nat.lt_of_succ_lt hj) := Fin.ext (by show 8 * q.val + (j + 1) - 1 = 8 * q.val + j; omega)
      rw [e] at hL
      rw [hA, leaves4_9 c q j (Nat.lt_of_succ_lt hj) Y hL]
      rfl

end Arr3

section Arr4

section TwoWrites
variable {sg : RefSig} {κ : Kind} {sp : Space} {s : Shape} {e : EltTy} {Val : EltTy → Type}

/-- After two writes through rectangles of a view, an element of the first rectangle outside the second reads the first payload; -/
theorem r4read_two_writes_fst (v : View sg κ sp s e) (r r' : Rect s) (f : v.ty.Contents Val) (w : r.shape.Idx → Val e)
    (w' : r'.shape.Idx → Val e) (x : r.shape.Idx) (i : s.Idx) (hi : i = r.emb x) (h : i ∉ r'.set) :
    v.read Val ((v.slice r').write Val ((v.slice r).write Val f w Finset.univ) w' Finset.univ) i = w x := by
  subst hi
  rw [View.read_slice_write_of_not_mem r' _ _ _ (by rw [Rect.map_emb_univ]; exact h),
    View.read_slice_write_emb r _ _ (Finset.mem_univ x)]

/-- an element of the second reads the second. -/
theorem r4read_two_writes_snd (v : View sg κ sp s e) (r r' : Rect s) (f : v.ty.Contents Val) (w : r.shape.Idx → Val e)
    (w' : r'.shape.Idx → Val e) (x : r'.shape.Idx) (i : s.Idx) (hi : i = r'.emb x) :
    v.read Val ((v.slice r').write Val ((v.slice r).write Val f w Finset.univ) w' Finset.univ) i = w' x := by
  subst hi
  exact View.read_slice_write_emb r' _ _ (Finset.mem_univ x)
end TwoWrites

theorem arrAt4_8_keep (c : Dev nD) : ∀ (n m : ℕ), m ≤ n → n ≤ 16 → (∀ k, m ≤ k → k < n → k % 8 ≠ 7) →
    (rdat4 V c).ArrAt 8 n = (rdat4 V c).ArrAt 8 m
  | 0, m, hm, _, _ => by obtain rfl := Nat.le_zero.mp hm; rfl
  | n + 1, m, hm, hn, hk => by
    rcases Nat.eq_or_lt_of_le hm with e | hlt
    · rw [e]
    · have hN : n < cfg4.N := by show n < grid4.N; rw [N_4]; omega
      have hs := (rdat4 V c).ArrAt_succ 8 ⟨n, hN⟩
      rw [if_neg (fun hf => hk n (by omega) (by omega) ((flush4_8 ⟨n, hN⟩).mp hf))] at hs
      exact hs.trans (arrAt4_8_keep c n m (by omega) (by omega) fun k h1 h2 => hk k h1 (by omega))

/-- After the launch a statistics array is its entry contents with core 0's block, then core 1's, written over it, each from
    a buffer whose row 0 is the core's fold. -/
theorem arrAt4_8_form (c : Dev nD) (G : Buf (Elt F) ((cfg4.win 8).arr.view.loc (c.tc : Thread nD τ)))
    (h : (rdat4 V c).ArrAt 8 cfg4.N G) :
    ∃ X X', View.ld X r4row = r4sum V c 0 7 (by omega) ∧ View.ld X' r4row = r4sum V c 1 7 (by omega) ∧
      G = ((cfg4.win 8).arr.view.slice ((cfg4.win 8).rect t4_15)).write (Elt F)
            (((cfg4.win 8).arr.view.slice ((cfg4.win 8).rect t4_7)).write (Elt F) ((rdat4 V c).A 8)
              ((cfg4.win 8).cut (cfg4.grid.coords t4_7) X) Finset.univ)
            ((cfg4.win 8).cut (cfg4.grid.coords t4_15) X') Finset.univ := by
  have e16 := (rdat4 V c).ArrAt_succ 8 t4_15
  rw [if_pos ((flush4_8 t4_15).mpr rfl)] at e16
  have h1 : (rdat4 V c).ArrStep 8 t4_15 ((rdat4 V c).ArrAt 8 15) G := Eq.mp (congrFun e16 G) h
  obtain ⟨G₁, X', hG₁, hX', rfl⟩ := h1
  have e15 := arrAt4_8_keep V c 15 8 (by omega) (by omega) (by intro k h1 h2; omega)
  have e8 := (rdat4 V c).ArrAt_succ 8 t4_7
  rw [if_pos ((flush4_8 t4_7).mpr rfl)] at e8
  have h2 : (rdat4 V c).ArrStep 8 t4_7 ((rdat4 V c).ArrAt 8 7) G₁ := Eq.mp (congrFun (e15.trans e8) G₁) hG₁
  obtain ⟨G₀, X, hG₀, hX, rfl⟩ := h2
  have e7 := arrAt4_8_keep V c 7 0 (by omega) (by omega) (by intro k h1 h2; omega)
  have h3 : G₀ = (rdat4 V c).A 8 := Eq.mp (congrFun e7 G₀) hG₀
  subst h3
  exact ⟨X, X', leaves4_8 V c 0 7 (by omega) X hX, leaves4_8 V c 1 7 (by omega) X' hX', rfl⟩

theorem arrAt4_9_keep (c : Dev nD) : ∀ (n m : ℕ), m ≤ n → n ≤ 16 → (∀ k, m ≤ k → k < n → k % 8 ≠ 7) →
    (rdat4 V c).ArrAt 9 n = (rdat4 V c).ArrAt 9 m
  | 0, m, hm, _, _ => by obtain rfl := Nat.le_zero.mp hm; rfl
  | n + 1, m, hm, hn, hk => by
    rcases Nat.eq_or_lt_of_le hm with e | hlt
    · rw [e]
    · have hN : n < cfg4.N := by show n < grid4.N; rw [N_4]; omega
      have hs := (rdat4 V c).ArrAt_succ 9 ⟨n, hN⟩
      rw [if_neg (fun hf => hk n (by omega) (by omega) ((flush4_9 ⟨n, hN⟩).mp hf))] at hs
      exact hs.trans (arrAt4_9_keep c n m (by omega) (by omega) fun k h1 h2 => hk k h1 (by omega))

/-- After the launch a statistics array is its entry contents with core 0's block, then core 1's, written over it, each from
    a buffer whose row 0 is the core's fold. -/
theorem arrAt4_9_form (c : Dev nD) (G : Buf (Elt F) ((cfg4.win 9).arr.view.loc (c.tc : Thread nD τ)))
    (h : (rdat4 V c).ArrAt 9 cfg4.N G) :
    ∃ X X', View.ld X r4row = r4sumsq V c 0 7 (by omega) ∧ View.ld X' r4row = r4sumsq V c 1 7 (by omega) ∧
      G = ((cfg4.win 9).arr.view.slice ((cfg4.win 9).rect t4_15)).write (Elt F)
            (((cfg4.win 9).arr.view.slice ((cfg4.win 9).rect t4_7)).write (Elt F) ((rdat4 V c).A 9)
              ((cfg4.win 9).cut (cfg4.grid.coords t4_7) X) Finset.univ)
            ((cfg4.win 9).cut (cfg4.grid.coords t4_15) X') Finset.univ := by
  have e16 := (rdat4 V c).ArrAt_succ 9 t4_15
  rw [if_pos ((flush4_9 t4_15).mpr rfl)] at e16
  have h1 : (rdat4 V c).ArrStep 9 t4_15 ((rdat4 V c).ArrAt 9 15) G := Eq.mp (congrFun e16 G) h
  obtain ⟨G₁, X', hG₁, hX', rfl⟩ := h1
  have e15 := arrAt4_9_keep V c 15 8 (by omega) (by omega) (by intro k h1 h2; omega)
  have e8 := (rdat4 V c).ArrAt_succ 9 t4_7
  rw [if_pos ((flush4_9 t4_7).mpr rfl)] at e8
  have h2 : (rdat4 V c).ArrStep 9 t4_7 ((rdat4 V c).ArrAt 9 7) G₁ := Eq.mp (congrFun (e15.trans e8) G₁) hG₁
  obtain ⟨G₀, X, hG₀, hX, rfl⟩ := h2
  have e7 := arrAt4_9_keep V c 7 0 (by omega) (by omega) (by intro k h1 h2; omega)
  have h3 : G₀ = (rdat4 V c).A 9 := Eq.mp (congrFun e7 G₀) hG₀
  subst h3
  exact ⟨X, X', leaves4_9 V c 0 7 (by omega) X hX, leaves4_9 V c 1 7 (by omega) X' hX', rfl⟩

end Arr4

section Arr5

section RowApply
/-- The host's row slices at an index. -/
theorem r4row0_apply (X : (⟨S16x128, .f32⟩ : BufTy).Contents (Elt F)) (x : S1x128.Idx) :
    row0 X x = X (ix2 (⟨(x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 0 + (x 0).val = (x 0).val; omega)
  | ⟨1, _⟩ => exact Fin.ext (by show 0 + (x 1).val = (x 1).val; omega)
theorem r4row8_apply (X : (⟨S16x128, .f32⟩ : BufTy).Contents (Elt F)) (x : S1x128.Idx) :
    row8 X x = X (ix2 (⟨8 + (x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 8 + (x 0).val = 8 + (x 0).val; omega)
  | ⟨1, _⟩ => exact Fin.ext (by show 0 + (x 1).val = (x 1).val; omega)
end RowApply

set_option maxHeartbeats 1000000 in
/-- Rows 0 and 8 of the array after the launch are the two cores' folds. -/
theorem arrAt4_8_rows (c : Dev nD) (G : Buf (Elt F) ((cfg4.win 8).arr.view.loc (c.tc : Thread nD τ)))
    (h : (rdat4 V c).ArrAt 8 cfg4.N G) : row0 G = r4sum V c 0 7 (by omega) ∧ row8 G = r4sum V c 1 7 (by omega) := by
  obtain ⟨X, X', hX, hX', rfl⟩ := arrAt4_8_form V c G h
  constructor
  · funext x
    have hx0 : (x 0).val < 1 := (x 0).isLt
    rw [← hX, r4row0_apply]
    have hi : ix2 (⟨(x 0).val, by omega⟩ : Fin 16) (⟨(x 1).val, (x 1).isLt⟩ : Fin 128) = ((cfg4.win 8).rect t4_7).emb (r4row.emb x) := by
      funext a; apply Fin.ext
      rw [Window.rect_emb_val, index4_8]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg4.win 8).rect t4_15).set := by
      intro hm
      have h0 := (Rect.mem_set_unit.mp hm 0).1
      rw [index4_8] at h0
      have h0' : 1 * 8 ≤ (x 0).val := h0
      omega
    exact r4read_two_writes_fst (Val := Elt F) (cfg4.win 8).arr.view ((cfg4.win 8).rect t4_7) ((cfg4.win 8).rect t4_15) ((rdat4 V c).A 8)
      ((cfg4.win 8).cut (cfg4.grid.coords t4_7) X) ((cfg4.win 8).cut (cfg4.grid.coords t4_15) X') (r4row.emb x) _ hi hnot
  · funext x
    have hx0 : (x 0).val < 1 := (x 0).isLt
    rw [← hX', r4row8_apply]
    have hi : ix2 (⟨8 + (x 0).val, by omega⟩ : Fin 16) (⟨(x 1).val, (x 1).isLt⟩ : Fin 128) = ((cfg4.win 8).rect t4_15).emb (r4row.emb x) := by
      funext a; apply Fin.ext
      rw [Window.rect_emb_val, index4_8]
      match a with
      | ⟨0, _⟩ => show 8 + (x 0).val = 1 * 8 + (0 + 1 * (x 0).val); omega
      | ⟨1, _⟩ => show (x 1).val = 0 * 128 + (0 + 1 * (x 1).val); omega
    exact r4read_two_writes_snd (Val := Elt F) (cfg4.win 8).arr.view ((cfg4.win 8).rect t4_7) ((cfg4.win 8).rect t4_15) ((rdat4 V c).A 8)
      ((cfg4.win 8).cut (cfg4.grid.coords t4_7) X) ((cfg4.win 8).cut (cfg4.grid.coords t4_15) X') (r4row.emb x) _ hi

set_option maxHeartbeats 1000000 in
/-- Rows 0 and 8 of the array after the launch are the two cores' folds. -/
theorem arrAt4_9_rows (c : Dev nD) (G : Buf (Elt F) ((cfg4.win 9).arr.view.loc (c.tc : Thread nD τ)))
    (h : (rdat4 V c).ArrAt 9 cfg4.N G) : row0 G = r4sumsq V c 0 7 (by omega) ∧ row8 G = r4sumsq V c 1 7 (by omega) := by
  obtain ⟨X, X', hX, hX', rfl⟩ := arrAt4_9_form V c G h
  constructor
  · funext x
    have hx0 : (x 0).val < 1 := (x 0).isLt
    rw [← hX, r4row0_apply]
    have hi : ix2 (⟨(x 0).val, by omega⟩ : Fin 16) (⟨(x 1).val, (x 1).isLt⟩ : Fin 128) = ((cfg4.win 9).rect t4_7).emb (r4row.emb x) := by
      funext a; apply Fin.ext
      rw [Window.rect_emb_val, index4_9]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg4.win 9).rect t4_15).set := by
      intro hm
      have h0 := (Rect.mem_set_unit.mp hm 0).1
      rw [index4_9] at h0
      have h0' : 1 * 8 ≤ (x 0).val := h0
      omega
    exact r4read_two_writes_fst (Val := Elt F) (cfg4.win 9).arr.view ((cfg4.win 9).rect t4_7) ((cfg4.win 9).rect t4_15) ((rdat4 V c).A 9)
      ((cfg4.win 9).cut (cfg4.grid.coords t4_7) X) ((cfg4.win 9).cut (cfg4.grid.coords t4_15) X') (r4row.emb x) _ hi hnot
  · funext x
    have hx0 : (x 0).val < 1 := (x 0).isLt
    rw [← hX', r4row8_apply]
    have hi : ix2 (⟨8 + (x 0).val, by omega⟩ : Fin 16) (⟨(x 1).val, (x 1).isLt⟩ : Fin 128) = ((cfg4.win 9).rect t4_15).emb (r4row.emb x) := by
      funext a; apply Fin.ext
      rw [Window.rect_emb_val, index4_9]
      match a with
      | ⟨0, _⟩ => show 8 + (x 0).val = 1 * 8 + (0 + 1 * (x 0).val); omega
      | ⟨1, _⟩ => show (x 1).val = 0 * 128 + (0 + 1 * (x 1).val); omega
    exact r4read_two_writes_snd (Val := Elt F) (cfg4.win 9).arr.view ((cfg4.win 9).rect t4_7) ((cfg4.win 9).rect t4_15) ((rdat4 V c).A 9)
      ((cfg4.win 9).cut (cfg4.grid.coords t4_7) X) ((cfg4.win 9).cut (cfg4.grid.coords t4_15) X') (r4row.emb x) _ hi

/-- A canonical statistics array: every row of a core's eight is that core's fold (only rows 0 and 8 are ever read). -/
def sumArr4 (c : Dev nD) : Buf (Elt F) ((cfg4.win 8).arr.view.loc (c.tc : Thread nD τ)) :=
  fun (j : S16x128.Idx) => r4sum V c ⟨(j 0).val / 8, by have := ValueIdx.idx2_lt0 j; omega⟩ 7 (by omega) (ix2 (0 : Fin 1) (j 1))

theorem row0_sumArr4 (c : Dev nD) : row0 (sumArr4 V c) = r4sum V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r4row0_apply]
  show r4sum V c ⟨(x 0).val / 8, _⟩ 7 _ (ix2 (0 : Fin 1) (⟨(x 1).val, _⟩ : Fin 128)) = _
  rw [e1, e2]

theorem row8_sumArr4 (c : Dev nD) : row8 (sumArr4 V c) = r4sum V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r4row8_apply]
  show r4sum V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt4_8 (c : Dev nD) (G : Buf (Elt F) ((cfg4.win 8).arr.view.loc (c.tc : Thread nD τ)))
    (h : (rdat4 V c).ArrAt 8 cfg4.N G) : row0 G = row0 (sumArr4 V c) ∧ row8 G = row8 (sumArr4 V c) := by
  rw [row0_sumArr4, row8_sumArr4]; exact arrAt4_8_rows V c G h

/-- A canonical statistics array: every row of a core's eight is that core's fold (only rows 0 and 8 are ever read). -/
def sqArr4 (c : Dev nD) : Buf (Elt F) ((cfg4.win 9).arr.view.loc (c.tc : Thread nD τ)) :=
  fun (j : S16x128.Idx) => r4sumsq V c ⟨(j 0).val / 8, by have := ValueIdx.idx2_lt0 j; omega⟩ 7 (by omega) (ix2 (0 : Fin 1) (j 1))

theorem row0_sqArr4 (c : Dev nD) : row0 (sqArr4 V c) = r4sumsq V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r4row0_apply]
  show r4sumsq V c ⟨(x 0).val / 8, _⟩ 7 _ (ix2 (0 : Fin 1) (⟨(x 1).val, _⟩ : Fin 128)) = _
  rw [e1, e2]

theorem row8_sqArr4 (c : Dev nD) : row8 (sqArr4 V c) = r4sumsq V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r4row8_apply]
  show r4sumsq V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt4_9 (c : Dev nD) (G : Buf (Elt F) ((cfg4.win 9).arr.view.loc (c.tc : Thread nD τ)))
    (h : (rdat4 V c).ArrAt 9 cfg4.N G) : row0 G = row0 (sqArr4 V c) ∧ row8 G = row8 (sqArr4 V c) := by
  rw [row0_sqArr4, row8_sqArr4]; exact arrAt4_9_rows V c G h

/-! ### The folds, written out: the zero row, then the eight blocks' column sums added in point order -/

theorem r4sum_core0 (c : Dev nD) : r4sum V c 0 7 (by omega) = r4acc (r4acc (r4acc (r4acc (r4acc (r4acc (r4acc (r4acc r4zrow (yat4 V c t4_0)) (yat4 V c t4_1)) (yat4 V c t4_2)) (yat4 V c t4_3)) (yat4 V c t4_4)) (yat4 V c t4_5)) (yat4 V c t4_6)) (yat4 V c t4_7) := rfl
theorem r4sum_core1 (c : Dev nD) : r4sum V c 1 7 (by omega) = r4acc (r4acc (r4acc (r4acc (r4acc (r4acc (r4acc (r4acc r4zrow (yat4 V c t4_8)) (yat4 V c t4_9)) (yat4 V c t4_10)) (yat4 V c t4_11)) (yat4 V c t4_12)) (yat4 V c t4_13)) (yat4 V c t4_14)) (yat4 V c t4_15) := rfl
theorem r4sumsq_core0 (c : Dev nD) : r4sumsq V c 0 7 (by omega) = r4accsq (r4accsq (r4accsq (r4accsq (r4accsq (r4accsq (r4accsq (r4accsq r4zrow (yat4 V c t4_0)) (yat4 V c t4_1)) (yat4 V c t4_2)) (yat4 V c t4_3)) (yat4 V c t4_4)) (yat4 V c t4_5)) (yat4 V c t4_6)) (yat4 V c t4_7) := rfl
theorem r4sumsq_core1 (c : Dev nD) : r4sumsq V c 1 7 (by omega) = r4accsq (r4accsq (r4accsq (r4accsq (r4accsq (r4accsq (r4accsq (r4accsq r4zrow (yat4 V c t4_8)) (yat4 V c t4_9)) (yat4 V c t4_10)) (yat4 V c t4_11)) (yat4 V c t4_12)) (yat4 V c t4_13)) (yat4 V c t4_14)) (yat4 V c t4_15) := rfl

/-! ### Window 7: the whole array -/

/-- The array of `y`: row block `p` is the block of `y` at point `p`. -/
def yArr4 (c : Dev nD) : Buf (Elt F) ((cfg4.win 7).arr.view.loc (c.tc : Thread nD τ)) :=
  fun (j : S65536x128.Idx) => yat4 V c ⟨(j 0).val / 4096, by have := ValueIdx.idx2_lt0 j; show _ < grid4.N; rw [N_4]; omega⟩
    (ix2 (⟨(j 0).val % 4096, Nat.mod_lt _ (by decide)⟩ : Fin 4096) (j 1))

theorem yArr4_apply (c : Dev nD) (p : Fin 16) (q : Fin 4096) (j : Fin 128) :
    yArr4 V c (ix2 (⟨p.val * 4096 + q.val, by have := p.isLt; have := q.isLt; omega⟩ : Fin 65536) j)
      = yat4 V c ⟨p.val, by show _ < grid4.N; rw [N_4]; exact p.isLt⟩ (ix2 q j) := by
  have e1 : (⟨(p.val * 4096 + q.val) / 4096, by have := p.isLt; have := q.isLt; show _ < grid4.N; rw [N_4]; omega⟩ : Fin cfg4.N)
      = ⟨p.val, by show _ < grid4.N; rw [N_4]; exact p.isLt⟩ := Fin.ext (by have := q.isLt; show (p.val * 4096 + q.val) / 4096 = p.val; omega)
  have e2 : (⟨(p.val * 4096 + q.val) % 4096, Nat.mod_lt _ (by decide)⟩ : Fin 4096) = q :=
    Fin.ext (by have := q.isLt; show (p.val * 4096 + q.val) % 4096 = q.val; omega)
  show yat4 V c ⟨(p.val * 4096 + q.val) / 4096, _⟩ (ix2 (⟨(p.val * 4096 + q.val) % 4096, _⟩ : Fin 4096) j) = _
  rw [e1, e2]

theorem arrAt4_7 (c : Dev nD) (G : Buf (Elt F) ((cfg4.win 7).arr.view.loc (c.tc : Thread nD τ)))
    (h : (rdat4 V c).ArrAt 7 cfg4.N G) : G = yArr4 V c := by
  funext (j : S65536x128.Idx)
  have hj := ValueIdx.idx2_lt0 j
  let u : Fin cfg4.N := ⟨(j 0).val / 4096, by show _ < grid4.N; rw [N_4]; omega⟩
  let x : S4096x128.Idx := ix2 (⟨(j 0).val % 4096, Nat.mod_lt _ (by decide)⟩ : Fin 4096) (j 1)
  have hb := congrFun (arrAt4_7_blk V c cfg4.N (le_of_eq N_4) G h u u.isLt) x
  have hjx : ((cfg4.win 7).rect u).emb x = j := by
    funext a; apply Fin.ext
    rw [Window.rect_emb_val, index4_7]
    match a with
    | ⟨0, _⟩ => show (j 0).val / 4096 * 4096 + (j 0).val % 4096 = (j 0).val; omega
    | ⟨1, _⟩ => show 0 * 128 + (j 1).val = (j 1).val; omega
  have hr : ((cfg4.win 7).blk u).view.read (Elt F) G x = G (((cfg4.win 7).rect u).emb x) := rfl
  rw [hr, hjx] at hb
  exact hb
end Arr5

end Cert.KernelIdeal.Hand
end
-- ==== Proof.Hand.P2r5.lean ====
import proofs.«103476_j5987184410999_2_alg».proof.Proof.Gen.KernelIdeal.Launch
import proofs.«103476_j5987184410999_2_alg».proof.Proof.Gen.KernelIdeal.Skeleton
import proofs.«103476_j5987184410999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 x 128 extents: the elaborator's structural look recurses once per
-- coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 5 of @main: custom_call 5, `cc5__pass2_noise_kernel` (pipeline 5), at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for ANY proof
    data whose array is `V`'s (`hA`) and whose body leaves the block in place (`hafter`): unfetched, the block
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for ANY proof
    data whose array is `V`'s (`hA`) and whose body leaves the block in place (`hafter`): unfetched, the block
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for ANY proof
    data whose array is `V`'s (`hA`) and whose body leaves the block in place (`hafter`): unfetched, the block
    index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for ANY proof
    data whose array is `V`'s (`hA`) and whose body leaves the block in place (`hafter`): unfetched, the block
    index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for ANY proof
    data whose array is `V`'s (`hA`) and whose body leaves the block in place (`hafter`): unfetched, the block
    index has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S4096x128 := Rect.unit (s := S4096x128) ![0, 0] S4096x128.size inb_S4096x128_S4096x128_0_0
abbrev r5_1 : Rect S1x128 := Rect.unit (s := S1x128) ![0, 0] S1x128.size inb_S1x128_S1x128_0_0

/-! ## What the body leaves in the output window's buffer -/

/-- Window 6's staging buffer after the body, from the input windows' blocks (the block to normalise, the mean,
    the inverse deviation, the scale, the shift, the noise block): its one store as a piece (`View.canon`; the
    payload is the skeleton's, its arguments in the order the body loads them). -/
def out5_6 (x0 : Vec F S4096x128 .f32) (x1 x2 x3 x4 : Vec F S1x128 .f32) (x5 : Vec F S4096x128 .f32) : Vec F S4096x128 .f32 :=
  View.canon [⟨r5_0, k5_pay1 (View.ld x0 r5_0) (View.ld x3 r5_1) (View.ld x1 r5_1) (View.ld x2 r5_1) (View.ld x4 r5_1) (View.ld x5 r5_0)⟩]

/-- The store tiles the buffer, so it covers it. -/
theorem cover5_6 (p0 : Vec F S4096x128 .f32) (y : S4096x128.Idx) :
    ∃ pc ∈ ([⟨r5_0, p0⟩] : List (View.Piece (Elt F) S4096x128 .f32)), y ∈ pc.1.set :=
  View.cover_of_tiled [⟨r5_0, p0⟩] S4096x128.size (by rfl) y

/-! ## The body's triple -/

set_option maxHeartbeats 1000000 in
/-- The kernel body on whole staging memrefs, the inputs' at read contents `xW` and the output's at anything, runs to
    the continuation holding the inputs' as they were and the output's at `out5_6` of the inputs'. -/
theorem sound_kernel5 (c : Dev nD) (E : Set ℕ) (i : grid5.Coords)
    (arg1 : Memref sig .tc .vmem S4096x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x128 .f32) (x1 x2 x3 x4 : Vec F S1x128 .f32) (x5 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E
          (cc5__pass2_noise_kernel i arg1 harg1 arg2 harg2 arg3 harg3 arg4 harg4 arg5 harg5 arg6 harg6 arg7 harg7) K := by
  simp only [cc5__pass2_noise_kernel_eq_skeleton]; unfold cc5__pass2_noise_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_6 _)

/-! ## The pipeline's proof data -/

/-- The proof data of pipeline 5 on core `c`: the arrays as the region finds them (`V`); after the body at
    point `t` each input's buffer at its block and the output's at `out5_6` of the input blocks; the invariant the
    class's (`Pipeline.ΦA`: the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.Hand.ChainDefs2.lean ====
/-
  The canonical contents of the TensorCore's buffers around network node 2: after host stretch 4, after its statistics pass (region 4;
  the two statistics arrays at a canonical completion of their undefined rows), after host stretch 5, after its normalisation pass (region 5).
-/
import proofs.«103476_j5987184410999_2_alg».proof.Proof.Hand.ChainDefs1
import proofs.«103476_j5987184410999_2_alg».proof.Proof.Hand.P1r4Arr
import proofs.«103476_j5987184410999_2_alg».proof.Proof.Hand.P2r5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-- After host stretch 4: what region 4 is entered from. -/
def W9 (c : Dev nD) : Valuation τ sig (Elt F) := StableHlo.after hostOps4 (W8 m c)
abbrev E4 : (c : Dev nD) → (b : Ref sig .tc) → Buf (Elt F) ((c : Thread nD τ).loc b) := fun c b => W9 m c b
/-- What region 4 leaves in its arrays: the inputs as found, the product array, and the two statistics arrays at their
    canonical completion. -/
def GA4 (c : Dev nD) : (w : Fin cfg4.W) → Buf (Elt F) ((cfg4.win w).arr.view.loc (c.tc : Thread nD τ))
  | ⟨0, _⟩ => E4 m c (Pipeline.arrRef spec4 0)
  | ⟨1, _⟩ => E4 m c (Pipeline.arrRef spec4 1)
  | ⟨2, _⟩ => E4 m c (Pipeline.arrRef spec4 2)
  | ⟨3, _⟩ => E4 m c (Pipeline.arrRef spec4 3)
  | ⟨4, _⟩ => E4 m c (Pipeline.arrRef spec4 4)
  | ⟨5, _⟩ => E4 m c (Pipeline.arrRef spec4 5)
  | ⟨6, _⟩ => E4 m c (Pipeline.arrRef spec4 6)
  | ⟨7, _⟩ => yArr4 (E4 m) c
  | ⟨8, _⟩ => sumArr4 (E4 m) c
  | ⟨9, _⟩ => sqArr4 (E4 m) c
def W10 (c : Dev nD) : Valuation τ sig (Elt F) := Pipeline.withArrays spec4 c (W9 m c) (GA4 m c)
/-- After host stretch 5: what region 5 is entered from. -/
def W11 (c : Dev nD) : Valuation τ sig (Elt F) := StableHlo.after hostOps5 (W10 m c)
abbrev E5 : (c : Dev nD) → (b : Ref sig .tc) → Buf (Elt F) ((c : Thread nD τ).loc b) := fun c b => W11 m c b
/-- What region 5 leaves in its arrays. -/
def GA5 (c : Dev nD) (w : Fin cfg5.W) : Buf (Elt F) ((cfg5.win w).arr.view.loc (c.tc : Thread nD τ)) := (dat5 (E5 m) c).arrAt w cfg5.N
def W12 (c : Dev nD) : Valuation τ sig (Elt F) := Pipeline.withArrays spec5 c (W11 m c) (GA5 m c)

end Cert.KernelIdeal.Hand

end
-- ==== Proof.Hand.P1r6.lean ====
/- Region 6 (the first pass-1 launch whose input arrives split in two halves) as RELATIONAL proof data, with its body
   obligation.

   The body computes a block of `y` from seven input blocks (the two halves of `x`, the two halves of the first weight,
   the first bias, the second weight and bias), stores it whole, and adds its column sums (and those of its square) into
   ROW 0 of two 8-row statistics blocks, which it first zeroes at the first point of each core's run of eight.
   Rows 1 to 7 of those blocks are never stored: what the body leaves there is what it found. So the data relates what the
   body finds in a buffer to what it leaves, and for the statistics blocks constrains row 0 only. -/
import proofs.«103476_j5987184410999_2_alg».proof.Proof.Gen.KernelIdeal.Launch
import proofs.«103476_j5987184410999_2_alg».proof.Proof.Gen.KernelIdeal.Skeleton
import proofs.«103476_j5987184410999_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## Region 6 (a pass-1 launch over a split input): names -/

/-- The condition of the body's one `scf.if`, from the grid coordinates (the skeleton's scalar chain substituted):
    the inner coordinate is zero. -/
abbrev r6cond (i : grid6.Coords) : Prop :=
  (Scalar.cmpi .ne (Scalar.extui (Scalar.cmpi .eq (BitVec.ofNat 32 (i 1).val) 0#32)) 0#32) = 1#1

/-- It holds at the first point of each core's run of eight: decided over the grid. -/
theorem r6cond_iff : ∀ t : Fin cfg6.N, r6cond (grid6.coords t) ↔ t.val % 8 = 0 :=
  (by decide +kernel : ∀ t : Fin grid6.N, r6cond (grid6.coords t) ↔ t.val % 8 = 0)

/-- Row 0 of a statistics block: the rectangle every load and store of the two accumulators goes through. -/
abbrev r6row : Rect S8x128 := Rect.unit (s := S8x128) ![0, 0] S1x128.size inb_S8x128_S1x128_0_0

/-- The row of zeros the body stores at the first point of a core's run. -/
def r6zrow : FVec F S1x128 .f32 := broadcast S1x128 (Scalar.ofBits .f32 0x00000000#32)

/-- One accumulation step: the row found plus the column sums of `y` (the reduction along axis 0 from the zero word). -/
def r6acc (r : Vec F S1x128 .f32) (y : FVec F S4096x128 .f32) : FVec F S1x128 .f32 :=
  addf (shapeCast S1x128 r shapeCasts_S1x128_S1x128)
    (shapeCast S1x128 (multiReduction .add [0] S128 y 0x00000000#32 reduces_S4096x128_S128 (.inl rfl) rfl) shapeCasts_S128_S1x128)

/-- The same of the squares. -/
def r6accsq (r : Vec F S1x128 .f32) (y : FVec F S4096x128 .f32) : FVec F S1x128 .f32 := r6acc r (mulf y y)

/-- The block of `y` the body computes from its seven input blocks: `relu(xa·Wa + xb·Wb + b1)·W2 + b2` with the matrix
    operands rounded to bf16 (the skeleton's payload). -/
def yblk6 (xa xb : Vec F S4096x128 .f32) (wa wb : Vec F S128x256 .f32) (b1 : Vec F S1x256 .f32) (w2 : Vec F S256x128 .f32)
    (b2 : Vec F S1x128 .f32) : Vec F S4096x128 .f32 := k6_pay5 xa xb wa wb b1 w2 b2

theorem k6_pay1_eq (y : FVec F S4096x128 .f32) (r : Vec F S1x128 .f32) : k6_pay1 y r = r6acc r y := rfl
theorem k6_pay2_eq (y : FVec F S4096x128 .f32) (r : Vec F S1x128 .f32) : k6_pay2 y r = r6accsq r y := rfl
theorem k6_pay3_eq : k6_pay3 (F := F) = r6zrow := rfl
theorem k6_pay4_eq : k6_pay4 (F := F) = r6zrow := rfl

theorem r6zeros2 : (![0, 0] : Fin 2 → ℕ) = fun _ => 0 := by funext a; fin_cases a <;> rfl

section WholeRect
variable {sg : RefSig} {κ : Kind} {sp : Space} {S : Shape} {e : EltTy} {Val : EltTy → Type}

/-- A load through the whole-shape rectangle at zero offsets reads the view's contents. -/
theorem r6readAt_unit_zero (v : View sg κ sp S e) {off : Fin S.rank → ℕ} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

/-- One store through it leaves its payload, whatever the buffer held. -/
theorem r6read_writes_unit_zero (v : View sg κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end WholeRect

theorem r6readAt_S4096x128 {sp : Space} (v : View sig .tc sp S4096x128 .f32) (f : v.ty.Contents (Elt F)) :
    v.readAt (Elt F) (Rect.unit (s := S4096x128) ![0, 0] S4096x128.size inb_S4096x128_S4096x128_0_0).toLoadRect f = v.read (Elt F) f :=
  r6readAt_unit_zero v r6zeros2 _ f
theorem r6readAt_S128x256 {sp : Space} (v : View sig .tc sp S128x256 .f32) (f : v.ty.Contents (Elt F)) :
    v.readAt (Elt F) (Rect.unit (s := S128x256) ![0, 0] S128x256.size inb_S128x256_S128x256_0_0).toLoadRect f = v.read (Elt F) f :=
  r6readAt_unit_zero v r6zeros2 _ f
theorem r6readAt_S1x256 {sp : Space} (v : View sig .tc sp S1x256 .f32) (f : v.ty.Contents (Elt F)) :
    v.readAt (Elt F) (Rect.unit (s := S1x256) ![0, 0] S1x256.size inb_S1x256_S1x256_0_0).toLoadRect f = v.read (Elt F) f :=
  r6readAt_unit_zero v r6zeros2 _ f
theorem r6readAt_S256x128 {sp : Space} (v : View sig .tc sp S256x128 .f32) (f : v.ty.Contents (Elt F)) :
    v.readAt (Elt F) (Rect.unit (s := S256x128) ![0, 0] S256x128.size inb_S256x128_S256x128_0_0).toLoadRect f = v.read (Elt F) f :=
  r6readAt_unit_zero v r6zeros2 _ f
theorem r6readAt_S1x128 {sp : Space} (v : View sig .tc sp S1x128 .f32) (f : v.ty.Contents (Elt F)) :
    v.readAt (Elt F) (Rect.unit (s := S1x128) ![0, 0] S1x128.size inb_S1x128_S1x128_0_0).toLoadRect f = v.read (Elt F) f :=
  r6readAt_unit_zero v r6zeros2 _ f

/-- The whole-block store of window 7 leaves its payload. -/
theorem r6read_whole_store {sp : Space} (v : View sig .tc sp S4096x128 .f32) (f : v.ty.Contents (Elt F)) (w : Vec F S4096x128 .f32) :
    v.read (Elt F) (v.writes (Elt F) f [⟨Rect.unit (s := S4096x128) ![0, 0] S4096x128.size inb_S4096x128_S4096x128_0_0, w⟩]) = w :=
  r6read_writes_unit_zero v r6zeros2 _ f w []

/-- Row 0 after a store through row 0, whatever was stored before. -/
theorem r6ld_row_store {sp : Space} (v : View sig .tc sp S8x128 .f32) (f : v.ty.Contents (Elt F)) (w : Vec F S1x128 .f32)
    (L : List (View.Piece (Elt F) S8x128 .f32)) :
    View.ld (v.read (Elt F) (v.writes (Elt F) f (⟨r6row, w⟩ :: L))) r6row = w :=
  funext fun x => View.read_writes_cons_emb v f r6row w L x

/-! ## The body's two runs, over arbitrary staging contents -/

set_option maxHeartbeats 1000000 in
/-- The body at a point that is not the first of its core's run: row 0 of each statistics block is the row found plus the sums. -/
theorem sound_kernel6_later (c : Dev nD) (i : grid6.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : ¬r6cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk6 x0 x1 x2 x3 x4 x5 x6)
            ∗ (∃ X, ⌜View.ld X r6row = r6acc (View.ld y8 r6row) (yblk6 x0 x1 x2 x3 x4 x5 x6)⌝ ∗ owns (c : Thread nD τ) arg10 fullShare X)
            ∗ (∃ X, ⌜View.ld X r6row = r6accsq (View.ld y9 r6row) (yblk6 x0 x1 x2 x3 x4 x5 x6)⌝ ∗ owns (c : Thread nD τ) arg11 fullShare X)) -∗ K ⟨⟩))
      ⊢ wp frame (wpE (defs₀ (F := F)) Variants.none c none) E (cc6__pass1_kernel_split i arg2 harg2 arg3 harg3 arg4 harg4 arg5 harg5 arg6 harg6 arg7 harg7 arg8 harg8 arg9 harg9 arg10 harg10 arg11 harg11) K := by
  simp only [cc6__pass1_kernel_split_eq_skeleton]; unfold cc6__pass1_kernel_split_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r6readAt_S4096x128, r6readAt_S4096x128, r6readAt_S128x256, r6readAt_S128x256, r6readAt_S1x256, r6readAt_S256x128, r6readAt_S1x128]
    exact r6read_whole_store (F := F) _ _ _
  isplitl [H8]
  · iexists _; isplitr; swap
    · iexists _; isplitr; swap; · iexact H8
      ipureintro; rfl
    ipureintro
    rw [r6readAt_S4096x128, r6readAt_S4096x128, r6readAt_S128x256, r6readAt_S128x256, r6readAt_S1x256, r6readAt_S256x128, r6readAt_S1x128]
    rw [k6_pay1_eq]
    exact r6ld_row_store (F := F) _ _ _ _
  · iexists _; isplitr; swap
    · iexists _; isplitr; swap; · iexact H9
      ipureintro; rfl
    ipureintro
    rw [r6readAt_S4096x128, r6readAt_S4096x128, r6readAt_S128x256, r6readAt_S128x256, r6readAt_S1x256, r6readAt_S256x128, r6readAt_S1x128]
    rw [k6_pay2_eq]
    exact r6ld_row_store (F := F) _ _ _ _

set_option maxHeartbeats 1000000 in
/-- The body at the first point of a core's run: row 0 of each statistics block is the zero row plus the sums. -/
theorem sound_kernel6_first (c : Dev nD) (i : grid6.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : r6cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk6 x0 x1 x2 x3 x4 x5 x6)
            ∗ (∃ X, ⌜View.ld X r6row = r6acc r6zrow (yblk6 x0 x1 x2 x3 x4 x5 x6)⌝ ∗ owns (c : Thread nD τ) arg10 fullShare X)
            ∗ (∃ X, ⌜View.ld X r6row = r6accsq r6zrow (yblk6 x0 x1 x2 x3 x4 x5 x6)⌝ ∗ owns (c : Thread nD τ) arg11 fullShare X)) -∗ K ⟨⟩))
      ⊢ wp frame (wpE (defs₀ (F := F)) Variants.none c none) E (cc6__pass1_kernel_split i arg2 harg2 arg3 harg3 arg4 harg4 arg5 harg5 arg6 harg6 arg7 harg7 arg8 harg8 arg9 harg9 arg10 harg10 arg11 harg11) K := by
  simp only [cc6__pass1_kernel_split_eq_skeleton]; unfold cc6__pass1_kernel_split_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r6readAt_S4096x128, r6readAt_S4096x128, r6readAt_S128x256, r6readAt_S128x256, r6readAt_S1x256, r6readAt_S256x128, r6readAt_S1x128]
    exact r6read_whole_store (F := F) _ _ _
  isplitl [H8]
  · iexists _; isplitr; swap
    · iexists _; isplitr; swap; · iexact H8
      ipureintro; rfl
    ipureintro
    rw [r6readAt_S4096x128, r6readAt_S4096x128, r6readAt_S128x256, r6readAt_S128x256, r6readAt_S1x256, r6readAt_S256x128, r6readAt_S1x128]
    rw [k6_pay1_eq]
    refine (r6ld_row_store (F := F) _ _ _ _).trans ?_
    congr 1
    sl_unfold_run_names
    exact View.readCov_cons_toLoadRect _ _ _ _
  · iexists _; isplitr; swap
    · iexists _; isplitr; swap; · iexact H9
      ipureintro; rfl
    ipureintro
    rw [r6readAt_S4096x128, r6readAt_S4096x128, r6readAt_S128x256, r6readAt_S128x256, r6readAt_S1x256, r6readAt_S256x128, r6readAt_S1x128]
    rw [k6_pay2_eq]
    refine (r6ld_row_store (F := F) _ _ _ _).trans ?_
    congr 1
    sl_unfold_run_names
    exact View.readCov_cons_toLoadRect _ _ _ _

/-! ## The proof data of region 6, relational -/

variable (V : (c : Dev nD) → (b : Ref sig .tc) → Buf (Elt F) ((c : Thread nD τ).loc b))

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The block of `y` at point `t`: the body's function of the seven input blocks there. -/
def yat6 (c : Dev nD) (t : Fin cfg6.N) : Vec F S4096x128 .f32 :=
  yblk6 (iblk6 V c 0 t) (iblk6 V c 1 t) (iblk6 V c 2 t) (iblk6 V c 3 t) (iblk6 V c 4 t) (iblk6 V c 5 t) (iblk6 V c 6 t)

/-- The proof data of the launch on core `c`: the arrays as the region finds them; an input's buffer is left as found; the
    `y` window's buffer is left at the block of `y`; of a statistics window's buffer only row 0 is constrained — it is the
    row found (the zero row at the first point of a core's run) plus the column sums of the block of `y` (of its square) —, and
    nothing is said of rows 1 to 7, which the body never stores. -/
def rdat6 (c : Dev nD) : RDat τ (Elt F) Unit ℕ (UR sig nD τ) ℕ cfg6 c where
  A w := V c (Pipeline.arrRef spec6 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => X = yat6 V c t
    | ⟨8, _⟩ => fun Y X => View.ld X r6row = r6acc (if t.val % 8 = 0 then r6zrow else View.ld Y r6row) (yat6 V c t)
    | ⟨9, _⟩ => fun Y X => View.ld X r6row = r6accsq (if t.val % 8 = 0 then r6zrow else View.ld Y r6row) (yat6 V c t)
  Φ _ := Pipeline.ΦA spec6 c
  q _ := fullShare
  owed _ := 0

theorem rdat6_A (c : Dev nD) (w : Fin cfg6.W) : (rdat6 V c).A w = V c (Pipeline.arrRef spec6 w) := by dsimp only [rdat6]

theorem after6_0 (c : Dev nD) (t : Fin cfg6.N) Y X : (rdat6 V c).after 0 t Y X ↔ X = Y := by dsimp only [rdat6]; exact Iff.rfl
theorem after6_1 (c : Dev nD) (t : Fin cfg6.N) Y X : (rdat6 V c).after 1 t Y X ↔ X = Y := by dsimp only [rdat6]; exact Iff.rfl
theorem after6_2 (c : Dev nD) (t : Fin cfg6.N) Y X : (rdat6 V c).after 2 t Y X ↔ X = Y := by dsimp only [rdat6]; exact Iff.rfl
theorem after6_3 (c : Dev nD) (t : Fin cfg6.N) Y X : (rdat6 V c).after 3 t Y X ↔ X = Y := by dsimp only [rdat6]; exact Iff.rfl
theorem after6_4 (c : Dev nD) (t : Fin cfg6.N) Y X : (rdat6 V c).after 4 t Y X ↔ X = Y := by dsimp only [rdat6]; exact Iff.rfl
theorem after6_5 (c : Dev nD) (t : Fin cfg6.N) Y X : (rdat6 V c).after 5 t Y X ↔ X = Y := by dsimp only [rdat6]; exact Iff.rfl
theorem after6_6 (c : Dev nD) (t : Fin cfg6.N) Y X : (rdat6 V c).after 6 t Y X ↔ X = Y := by dsimp only [rdat6]; exact Iff.rfl
theorem after6_7 (c : Dev nD) (t : Fin cfg6.N) Y X : (rdat6 V c).after 7 t Y X ↔ X = yat6 V c t := by dsimp only [rdat6]; exact Iff.rfl
theorem after6_8 (c : Dev nD) (t : Fin cfg6.N) Y X : (rdat6 V c).after 8 t Y X ↔
    View.ld X r6row = r6acc (if t.val % 8 = 0 then r6zrow else View.ld Y r6row) (yat6 V c t) := by dsimp only [rdat6]; exact Iff.rfl
theorem after6_9 (c : Dev nD) (t : Fin cfg6.N) Y X : (rdat6 V c).after 9 t Y X ↔
    View.ld X r6row = r6accsq (if t.val % 8 = 0 then r6zrow else View.ld Y r6row) (yat6 V c t) := by dsimp only [rdat6]; exact Iff.rfl

/-! ## What the body finds in an input's buffer: the window's block, fetched at the point or not -/

theorem finds6_0 (c : Dev nD) (t : Fin cfg6.N) (Y) (h : (rdat6 V c).Finds 0 t Y) : Y = iblk6 V c 0 t := by
  obtain ⟨d, rfl⟩ := (rdat6 V c).finds_in_eq_fetched 0 rfl (fun _ _ _ => rfl) (fun t Y X h => (after6_0 V c t Y X).mp h) t Y h
  unfold RDat.fetched RDat.blockOf iblk6; rw [rdat6_A]; rfl

theorem finds6_1 (c : Dev nD) (t : Fin cfg6.N) (Y) (h : (rdat6 V c).Finds 1 t Y) : Y = iblk6 V c 1 t := by
  obtain ⟨d, rfl⟩ := (rdat6 V c).finds_in_eq_fetched 1 rfl (fun _ _ _ => rfl) (fun t Y X h => (after6_1 V c t Y X).mp h) t Y h
  unfold RDat.fetched RDat.blockOf iblk6; rw [rdat6_A]; rfl

theorem finds6_2 (c : Dev nD) (t : Fin cfg6.N) (Y) (h : (rdat6 V c).Finds 2 t Y) : Y = iblk6 V c 2 t := by
  obtain ⟨d, rfl⟩ := (rdat6 V c).finds_in_eq_fetched 2 rfl (fun _ _ _ => rfl) (fun t Y X h => (after6_2 V c t Y X).mp h) t Y h
  unfold RDat.fetched RDat.blockOf iblk6; rw [rdat6_A]; rfl

theorem finds6_3 (c : Dev nD) (t : Fin cfg6.N) (Y) (h : (rdat6 V c).Finds 3 t Y) : Y = iblk6 V c 3 t := by
  obtain ⟨d, rfl⟩ := (rdat6 V c).finds_in_eq_fetched 3 rfl (fun _ _ _ => rfl) (fun t Y X h => (after6_3 V c t Y X).mp h) t Y h
  unfold RDat.fetched RDat.blockOf iblk6; rw [rdat6_A]; rfl

theorem finds6_4 (c : Dev nD) (t : Fin cfg6.N) (Y) (h : (rdat6 V c).Finds 4 t Y) : Y = iblk6 V c 4 t := by
  obtain ⟨d, rfl⟩ := (rdat6 V c).finds_in_eq_fetched 4 rfl (fun _ _ _ => rfl) (fun t Y X h => (after6_4 V c t Y X).mp h) t Y h
  unfold RDat.fetched RDat.blockOf iblk6; rw [rdat6_A]; rfl

theorem finds6_5 (c : Dev nD) (t : Fin cfg6.N) (Y) (h : (rdat6 V c).Finds 5 t Y) : Y = iblk6 V c 5 t := by
  obtain ⟨d, rfl⟩ := (rdat6 V c).finds_in_eq_fetched 5 rfl (fun _ _ _ => rfl) (fun t Y X h => (after6_5 V c t Y X).mp h) t Y h
  unfold RDat.fetched RDat.blockOf iblk6; rw [rdat6_A]; rfl

theorem finds6_6 (c : Dev nD) (t : Fin cfg6.N) (Y) (h : (rdat6 V c).Finds 6 t Y) : Y = iblk6 V c 6 t := by
  obtain ⟨d, rfl⟩ := (rdat6 V c).finds_in_eq_fetched 6 rfl (fun _ _ _ => rfl) (fun t Y X h => (after6_6 V c t Y X).mp h) t Y h
  unfold RDat.fetched RDat.blockOf iblk6; rw [rdat6_A]; rfl

/-! ## The body obligation -/

set_option maxHeartbeats 1000000 in
/-- The body at any point, on the buffers the pipeline hands it: the inputs' hold their blocks (`h0` … `h6`), the outputs' anything.
    The point's position in its core's run of eight says which of the two runs applies; what the run leaves is in the relation. -/
theorem sound_body6 (c : Dev nD) (t : Fin cfg6.N) (Y : (w : Fin cfg6.W) → (cfg6.win w).block.Idx → Elt F (cfg6.win w).elt)
    (h0 : Y 0 = iblk6 V c 0 t) (h1 : Y 1 = iblk6 V c 1 t) (h2 : Y 2 = iblk6 V c 2 t) (h3 : Y 3 = iblk6 V c 3 t) (h4 : Y 4 = iblk6 V c 4 t) (h5 : Y 5 = iblk6 V c 5 t) (h6 : Y 6 = iblk6 V c 6 t) :
    iprop((rdat6 V c).Φ t.castSucc ∗ (rdat6 V c).owesAt () t.castSucc
        ∗ owns (c : Thread nD τ) ((cfg6.win 0).stage (cfg6.slots t 0)) fullShare (Y 0)
        ∗ owns (c : Thread nD τ) ((cfg6.win 1).stage (cfg6.slots t 1)) fullShare (Y 1)
        ∗ owns (c : Thread nD τ) ((cfg6.win 2).stage (cfg6.slots t 2)) fullShare (Y 2)
        ∗ owns (c : Thread nD τ) ((cfg6.win 3).stage (cfg6.slots t 3)) fullShare (Y 3)
        ∗ owns (c : Thread nD τ) ((cfg6.win 4).stage (cfg6.slots t 4)) fullShare (Y 4)
        ∗ owns (c : Thread nD τ) ((cfg6.win 5).stage (cfg6.slots t 5)) fullShare (Y 5)
        ∗ owns (c : Thread nD τ) ((cfg6.win 6).stage (cfg6.slots t 6)) fullShare (Y 6)
        ∗ owns (c : Thread nD τ) ((cfg6.win 7).stage (cfg6.slots t 7)) fullShare (Y 7)
        ∗ owns (c : Thread nD τ) ((cfg6.win 8).stage (cfg6.slots t 8)) fullShare (Y 8)
        ∗ owns (c : Thread nD τ) ((cfg6.win 9).stage (cfg6.slots t 9)) fullShare (Y 9))
      ⊢ wp frame (wpE (defs₀ (F := F)) Variants.none c none) Set.univ (bodyAt6 t) (fun _ =>
        iprop((rdat6 V c).Φ t.succ ∗ (rdat6 V c).owesAt () t.succ
          ∗ (∃ X, ⌜(rdat6 V c).after 0 t (Y 0) X⌝ ∗ owns (c : Thread nD τ) ((cfg6.win 0).stage (cfg6.slots t 0)) fullShare X)
          ∗ (∃ X, ⌜(rdat6 V c).after 1 t (Y 1) X⌝ ∗ owns (c : Thread nD τ) ((cfg6.win 1).stage (cfg6.slots t 1)) fullShare X)
          ∗ (∃ X, ⌜(rdat6 V c).after 2 t (Y 2) X⌝ ∗ owns (c : Thread nD τ) ((cfg6.win 2).stage (cfg6.slots t 2)) fullShare X)
          ∗ (∃ X, ⌜(rdat6 V c).after 3 t (Y 3) X⌝ ∗ owns (c : Thread nD τ) ((cfg6.win 3).stage (cfg6.slots t 3)) fullShare X)
          ∗ (∃ X, ⌜(rdat6 V c).after 4 t (Y 4) X⌝ ∗ owns (c : Thread nD τ) ((cfg6.win 4).stage (cfg6.slots t 4)) fullShare X)
          ∗ (∃ X, ⌜(rdat6 V c).after 5 t (Y 5) X⌝ ∗ owns (c : Thread nD τ) ((cfg6.win 5).stage (cfg6.slots t 5)) fullShare X)
          ∗ (∃ X, ⌜(rdat6 V c).after 6 t (Y 6) X⌝ ∗ owns (c : Thread nD τ) ((cfg6.win 6).stage (cfg6.slots t 6)) fullShare X)
          ∗ (∃ X, ⌜(rdat6 V c).after 7 t (Y 7) X⌝ ∗ owns (c : Thread nD τ) ((cfg6.win 7).stage (cfg6.slots t 7)) fullShare X)
          ∗ (∃ X, ⌜(rdat6 V c).after 8 t (Y 8) X⌝ ∗ owns (c : Thread nD τ) ((cfg6.win 8).stage (cfg6.slots t 8)) fullShare X)
          ∗ (∃ X, ⌜(rdat6 V c).after 9 t (Y 9) X⌝ ∗ owns (c : Thread nD τ) ((cfg6.win 9).stage (cfg6.slots t 9)) fullShare X))) := by
  unfold bodyAt6
  rw [show (rdat6 V c).Φ t.succ = (rdat6 V c).Φ t.castSucc from rfl,
    show (rdat6 V c).owesAt () t.succ = (rdat6 V c).owesAt () t.castSucc from rfl]
  by_cases h : t.val % 8 = 0
  ·
    iintro ⟨HΦ, Ho, H0, H1, H2, H3, H4, H5, H6, H7, H8, H9⟩
    iapply (sound_kernel6_first c (grid6.coords t) _ _ _ _ _ _ _ _ _ _ _ _ _ _ _ _ _ _ _ _ ((r6cond_iff t).mpr h) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after6_0 V c t _ _).mpr rfl
    isplitl [H1]
    · iexists _; isplitr; swap; · iexact H1
      ipureintro; exact (after6_1 V c t _ _).mpr rfl
    isplitl [H2]
    · iexists _; isplitr; swap; · iexact H2
      ipureintro; exact (after6_2 V c t _ _).mpr rfl
    isplitl [H3]
    · iexists _; isplitr; swap; · iexact H3
      ipureintro; exact (after6_3 V c t _ _).mpr rfl
    isplitl [H4]
    · iexists _; isplitr; swap; · iexact H4
      ipureintro; exact (after6_4 V c t _ _).mpr rfl
    isplitl [H5]
    · iexists _; isplitr; swap; · iexact H5
      ipureintro; exact (after6_5 V c t _ _).mpr rfl
    isplitl [H6]
    · iexists _; isplitr; swap; · iexact H6
      ipureintro; exact (after6_6 V c t _ _).mpr rfl
    isplitl [H7]
    · iexists _; isplitr; swap; · iexact H7
      ipureintro; rw [after6_7]; unfold yat6; rw [← h0, ← h1, ← h2, ← h3, ← h4, ← h5, ← h6]
    isplitl [H8]
    · iexists X8; isplitr; swap; · iexact H8
      ipureintro; rw [after6_8, if_pos h]; unfold yat6; rw [← h0, ← h1, ← h2, ← h3, ← h4, ← h5, ← h6]; exact hX8
    · iexists X9; isplitr; swap; · iexact H9
      ipureintro; rw [after6_9, if_pos h]; unfold yat6; rw [← h0, ← h1, ← h2, ← h3, ← h4, ← h5, ← h6]; exact hX9
  ·
    iintro ⟨HΦ, Ho, H0, H1, H2, H3, H4, H5, H6, H7, H8, H9⟩
    iapply (sound_kernel6_later c (grid6.coords t) _ _ _ _ _ _ _ _ _ _ _ _ _ _ _ _ _ _ _ _ (fun hc => h ((r6cond_iff t).mp hc)) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after6_0 V c t _ _).mpr rfl
    isplitl [H1]
    · iexists _; isplitr; swap; · iexact H1
      ipureintro; exact (after6_1 V c t _ _).mpr rfl
    isplitl [H2]
    · iexists _; isplitr; swap; · iexact H2
      ipureintro; exact (after6_2 V c t _ _).mpr rfl
    isplitl [H3]
    · iexists _; isplitr; swap; · iexact H3
      ipureintro; exact (after6_3 V c t _ _).mpr rfl
    isplitl [H4]
    · iexists _; isplitr; swap; · iexact H4
      ipureintro; exact (after6_4 V c t _ _).mpr rfl
    isplitl [H5]
    · iexists _; isplitr; swap; · iexact H5
      ipureintro; exact (after6_5 V c t _ _).mpr rfl
    isplitl [H6]
    · iexists _; isplitr; swap; · iexact H6
      ipureintro; exact (after6_6 V c t _ _).mpr rfl
    isplitl [H7]
    · iexists _; isplitr; swap; · iexact H7
      ipureintro; rw [after6_7]; unfold yat6; rw [← h0, ← h1, ← h2, ← h3, ← h4, ← h5, ← h6]
    isplitl [H8]
    · iexists X8; isplitr; swap; · iexact H8
      ipureintro; rw [after6_8, if_neg h]; unfold yat6; rw [← h0, ← h1, ← h2, ← h3, ← h4, ← h5, ← h6]; exact hX8
    · iexists X9; isplitr; swap; · iexact H9
      ipureintro; rw [after6_9, if_neg h]; unfold yat6; rw [← h0, ← h1, ← h2, ← h3, ← h4, ← h5, ← h6]; exact hX9

/-- The library's body obligation of the relational data, at every point. -/
theorem body_obligation6 (c : Dev nD) : (rdat6 (F := F) V c).BodyObligation (defs₀ (F := F)) Variants.none () Set.univ := by
  intro t Y hY
  rw [bigSep_W6, bigSep_W6]
  exact sound_body6 V c t Y (finds6_0 V c t _ (hY 0)) (finds6_1 V c t _ (hY 1)) (finds6_2 V c t _ (hY 2)) (finds6_3 V c t _ (hY 3)) (finds6_4 V c t _ (hY 4)) (finds6_5 V c t _ (hY 5)) (finds6_6 V c t _ (hY 6))

end Cert.KernelIdeal.Hand
end
-- ==== Proof.Hand.P1r6Arr.lean ====
/- What region 6's arrays hold after the launch, from the relational data's `ArrAt` (pure: no separation logic).

   An input array is as the region found it. Row block `p` of the array of `y` is the block of `y` at point `p`. Of a
   statistics array only rows 0 and 8 are determined: row 0 is core 0's fold — the zero row with the column sums of the blocks
   of `y` (of their squares) at its eight points added in point order —, row 8 core 1's. -/
import proofs.«103476_j5987184410999_2_alg».proof.Proof.Hand.P1r6
import proofs.«103476_j5987184410999_2_alg».proof.Proof.Hand.Agree
import Idealize.ShloMosaic.Lib.Pipeline.Cells
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (RDat Dat Cfg Window cellOf)
open Idealize.ShloMosaic.ValueIdx (ix2 eq_ix2)

variable {F : FTy → Type} [FloatOps F]

variable (V : (c : Dev nD) → (b : Ref sig .tc) → Buf (Elt F) ((c : Thread nD τ).loc b))

/-! ## What the arrays hold after the launch -/

section Arr

/-! ### Inputs: never written -/

theorem arrAt6_in_of (c : Dev nD) (w : Fin cfg6.W) (hw : (cfg6.win w).isOut = false) (n : ℕ)
    (G : Buf (Elt F) ((cfg6.win w).arr.view.loc (c.tc : Thread nD τ))) (h : (rdat6 V c).ArrAt w n G) :
    G = V c (Pipeline.arrRef spec6 w) := by
  rw [RDat.ArrAt_in _ w hw n] at h; exact h.trans (rdat6_A V c w)

/-- The first seven windows are the inputs. -/
theorem isOut6_in : ∀ w : Fin cfg6.W, w.val < 7 → (cfg6.win w).isOut = false := by decide

/-- An input's array is as the region found it. -/
theorem arrAt6_in (c : Dev nD) (w : Fin cfg6.W) (hw : w.val < 7)
    (G : Buf (Elt F) ((cfg6.win w).arr.view.loc (c.tc : Thread nD τ))) (h : (rdat6 V c).ArrAt w cfg6.N G) :
    G = V c (Pipeline.arrRef spec6 w) := arrAt6_in_of V c w (isOut6_in w hw) cfg6.N G h

/-! ### The schedule of the three outputs -/

theorem fetch6_7 : ∀ t : Fin cfg6.N, (cfg6.win 7).fetch t = false :=
  (by decide +kernel : ∀ t : Fin grid6.N, win6_7.fetch t = false)
theorem fetch6_8 : ∀ t : Fin cfg6.N, (cfg6.win 8).fetch t = false :=
  (by decide +kernel : ∀ t : Fin grid6.N, win6_8.fetch t = false)
theorem fetch6_9 : ∀ t : Fin cfg6.N, (cfg6.win 9).fetch t = false :=
  (by decide +kernel : ∀ t : Fin grid6.N, win6_9.fetch t = false)

/-- The block index of the `y` window at point `t`: row block `t`. -/
theorem index6_7 : ∀ t : Fin cfg6.N, (cfg6.win 7).index t = ![t.val, 0] :=
  (by decide +kernel : ∀ t : Fin grid6.N, win6_7.index t = ![t.val, 0])
/-- The block index of a statistics window at point `t`: the core's. -/
theorem index6_8 : ∀ t : Fin cfg6.N, (cfg6.win 8).index t = ![t.val / 8, 0] :=
  (by decide +kernel : ∀ t : Fin grid6.N, win6_8.index t = ![t.val / 8, 0])
theorem index6_9 : ∀ t : Fin cfg6.N, (cfg6.win 9).index t = ![t.val / 8, 0] :=
  (by decide +kernel : ∀ t : Fin grid6.N, win6_9.index t = ![t.val / 8, 0])

/-! ### Window 7: block `t` of the array is the block of `y` at `t` -/

theorem leaves6_7 (c : Dev nD) (t : Fin cfg6.N) (X) (h : (rdat6 V c).Leaves 7 t X) : X = yat6 V c t := by
  obtain ⟨Y, -, hA⟩ := h
  exact (after6_7 V c t Y X).mp hA

theorem arrAt6_7_blk (c : Dev nD) : ∀ (n : ℕ), n ≤ 16 → ∀ G, (rdat6 V c).ArrAt 7 n G →
    ∀ u : Fin cfg6.N, u.val < n → ((cfg6.win 7).blk u).view.read (Elt F) G = yat6 V c u
  | 0, _, _, _, u, hu => absurd hu (Nat.not_lt_zero _)
  | n + 1, hn, G, h, u, hu => by
    have hN : n < cfg6.N := by show n < grid6.N; rw [N_6]; omega
    rw [show n + 1 = (⟨n, hN⟩ : Fin cfg6.N).val + 1 from rfl, RDat.ArrAt_succ, if_pos (flush6_7 _)] at h
    obtain ⟨G₀, X, hG₀, hX, rfl⟩ := h
    obtain rfl := leaves6_7 V c _ X hX
    by_cases hun : u.val = n
    · have e : u = ⟨n, hN⟩ := Fin.ext hun
      subst e
      exact View.read_write_univ _ _
    · refine Eq.trans ?_ (arrAt6_7_blk c n (by omega) G₀ hG₀ u (by omega))
      refine View.read_congr fun i hi => View.write_of_not_mem _ _ _ ?_
      have hd := (cfg6.win 7).disjoint_blk (u := u) (u' := ⟨n, hN⟩) (by
        rw [index6_7, index6_7]; intro e; exact hun (by simpa using congrFun e 0))
      exact Finset.disjoint_left.mp hd hi
end Arr

section Arr3

/-! ### Windows 8 and 9: row 0 of a core's statistics block is the fold of its eight points -/

/-- Point `j` of core `q`'s run of eight. -/
def r6pt (q : Fin 2) (j : ℕ) (hj : j < 8) : Fin cfg6.N := ⟨8 * q.val + j, by have := q.isLt; show _ < grid6.N; rw [N_6]; omega⟩

/-- Row 0 of core `q`'s sum block after its point `j`: the zero row with the column sums of the blocks of `y` at the points
    `0 … j` of the core's run added in that order. -/
def r6sum (c : Dev nD) (q : Fin 2) : (j : ℕ) → j < 8 → FVec F S1x128 .f32
  | 0, h => r6acc r6zrow (yat6 V c (r6pt q 0 h))
  | j + 1, h => r6acc (r6sum c q j (Nat.lt_of_succ_lt h)) (yat6 V c (r6pt q (j + 1) h))

/-- The same of the squares. -/
def r6sumsq (c : Dev nD) (q : Fin 2) : (j : ℕ) → j < 8 → FVec F S1x128 .f32
  | 0, h => r6accsq r6zrow (yat6 V c (r6pt q 0 h))
  | j + 1, h => r6accsq (r6sumsq c q j (Nat.lt_of_succ_lt h)) (yat6 V c (r6pt q (j + 1) h))

theorem leaves6_8 (c : Dev nD) (q : Fin 2) : ∀ (j : ℕ) (hj : j < 8) (X), (rdat6 V c).Leaves 8 (r6pt q j hj) X →
    View.ld X r6row = r6sum V c q j hj
  | 0, hj, X, h => by
    obtain ⟨Y, -, hA⟩ := h
    rw [after6_8, if_pos (by show (8 * q.val + 0) % 8 = 0; omega)] at hA
    exact hA
  | j + 1, hj, X, h => by
    obtain ⟨Y, hF, hA⟩ := h
    rw [after6_8, if_neg (by show ¬(8 * q.val + (j + 1)) % 8 = 0; omega)] at hA
    rw [RDat.finds_of_pos _ (fetch6_8 _) (by show 8 * q.val + (j + 1) ≠ 0; omega)] at hF
    rcases hF with hfl | hL
    · exact absurd ((flush6_8 _).mp hfl) (by show ¬(8 * q.val + (j + 1) - 1) % 8 = 7; omega)
    · have e : (⟨(r6pt q (j + 1) hj).val - 1, Nat.lt_of_le_of_lt (Nat.sub_le _ _) (r6pt q (j + 1) hj).isLt⟩ : Fin cfg6.N)
          = r6pt q j (Nat.lt_of_succ_lt hj) := Fin.ext (by show 8 * q.val + (j + 1) - 1 = 8 * q.val + j; omega)
      rw [e] at hL
      rw [hA, leaves6_8 c q j (Nat.lt_of_succ_lt hj) Y hL]
      rfl

theorem leaves6_9 (c : Dev nD) (q : Fin 2) : ∀ (j : ℕ) (hj : j < 8) (X), (rdat6 V c).Leaves 9 (r6pt q j hj) X →
    View.ld X r6row = r6sumsq V c q j hj
  | 0, hj, X, h => by
    obtain ⟨Y, -, hA⟩ := h
    rw [after6_9, if_pos (by show (8 * q.val + 0) % 8 = 0; omega)] at hA
    exact hA
  | j + 1, hj, X, h => by
    obtain ⟨Y, hF, hA⟩ := h
    rw [after6_9, if_neg (by show ¬(8 * q.val + (j + 1)) % 8 = 0; omega)] at hA
    rw [RDat.finds_of_pos _ (fetch6_9 _) (by show 8 * q.val + (j + 1) ≠ 0; omega)] at hF
    rcases hF with hfl | hL
    · exact absurd ((flush6_9 _).mp hfl) (by show ¬(8 * q.val + (j + 1) - 1) % 8 = 7; omega)
    · have e : (⟨(r6pt q (j + 1) hj).val - 1, Nat.lt_of_le_of_lt (Nat.sub_le _ _) (r6pt q (j + 1) hj).isLt⟩ : Fin cfg6.N)
          = r6pt q j (Nat.lt_of_succ_lt hj) := Fin.ext (by show 8 * q.val + (j + 1) - 1 = 8 * q.val + j; omega)
      rw [e] at hL
      rw [hA, leaves6_9 c q j (Nat.lt_of_succ_lt hj) Y hL]
      rfl

end Arr3

section Arr4

section TwoWrites
variable {sg : RefSig} {κ : Kind} {sp : Space} {s : Shape} {e : EltTy} {Val : EltTy → Type}

/-- After two writes through rectangles of a view, an element of the first rectangle outside the second reads the first payload; -/
theorem r6read_two_writes_fst (v : View sg κ sp s e) (r r' : Rect s) (f : v.ty.Contents Val) (w : r.shape.Idx → Val e)
    (w' : r'.shape.Idx → Val e) (x : r.shape.Idx) (i : s.Idx) (hi : i = r.emb x) (h : i ∉ r'.set) :
    v.read Val ((v.slice r').write Val ((v.slice r).write Val f w Finset.univ) w' Finset.univ) i = w x := by
  subst hi
  rw [View.read_slice_write_of_not_mem r' _ _ _ (by rw [Rect.map_emb_univ]; exact h),
    View.read_slice_write_emb r _ _ (Finset.mem_univ x)]

/-- an element of the second reads the second. -/
theorem r6read_two_writes_snd (v : View sg κ sp s e) (r r' : Rect s) (f : v.ty.Contents Val) (w : r.shape.Idx → Val e)
    (w' : r'.shape.Idx → Val e) (x : r'.shape.Idx) (i : s.Idx) (hi : i = r'.emb x) :
    v.read Val ((v.slice r').write Val ((v.slice r).write Val f w Finset.univ) w' Finset.univ) i = w' x := by
  subst hi
  exact View.read_slice_write_emb r' _ _ (Finset.mem_univ x)
end TwoWrites

theorem arrAt6_8_keep (c : Dev nD) : ∀ (n m : ℕ), m ≤ n → n ≤ 16 → (∀ k, m ≤ k → k < n → k % 8 ≠ 7) →
    (rdat6 V c).ArrAt 8 n = (rdat6 V c).ArrAt 8 m
  | 0, m, hm, _, _ => by obtain rfl := Nat.le_zero.mp hm; rfl
  | n + 1, m, hm, hn, hk => by
    rcases Nat.eq_or_lt_of_le hm with e | hlt
    · rw [e]
    · have hN : n < cfg6.N := by show n < grid6.N; rw [N_6]; omega
      have hs := (rdat6 V c).ArrAt_succ 8 ⟨n, hN⟩
      rw [if_neg (fun hf => hk n (by omega) (by omega) ((flush6_8 ⟨n, hN⟩).mp hf))] at hs
      exact hs.trans (arrAt6_8_keep c n m (by omega) (by omega) fun k h1 h2 => hk k h1 (by omega))

/-- After the launch a statistics array is its entry contents with core 0's block, then core 1's, written over it, each from
    a buffer whose row 0 is the core's fold. -/
theorem arrAt6_8_form (c : Dev nD) (G : Buf (Elt F) ((cfg6.win 8).arr.view.loc (c.tc : Thread nD τ)))
    (h : (rdat6 V c).ArrAt 8 cfg6.N G) :
    ∃ X X', View.ld X r6row = r6sum V c 0 7 (by omega) ∧ View.ld X' r6row = r6sum V c 1 7 (by omega) ∧
      G = ((cfg6.win 8).arr.view.slice ((cfg6.win 8).rect t6_15)).write (Elt F)
            (((cfg6.win 8).arr.view.slice ((cfg6.win 8).rect t6_7)).write (Elt F) ((rdat6 V c).A 8)
              ((cfg6.win 8).cut (cfg6.grid.coords t6_7) X) Finset.univ)
            ((cfg6.win 8).cut (cfg6.grid.coords t6_15) X') Finset.univ := by
  have e16 := (rdat6 V c).ArrAt_succ 8 t6_15
  rw [if_pos ((flush6_8 t6_15).mpr rfl)] at e16
  have h1 : (rdat6 V c).ArrStep 8 t6_15 ((rdat6 V c).ArrAt 8 15) G := Eq.mp (congrFun e16 G) h
  obtain ⟨G₁, X', hG₁, hX', rfl⟩ := h1
  have e15 := arrAt6_8_keep V c 15 8 (by omega) (by omega) (by intro k h1 h2; omega)
  have e8 := (rdat6 V c).ArrAt_succ 8 t6_7
  rw [if_pos ((flush6_8 t6_7).mpr rfl)] at e8
  have h2 : (rdat6 V c).ArrStep 8 t6_7 ((rdat6 V c).ArrAt 8 7) G₁ := Eq.mp (congrFun (e15.trans e8) G₁) hG₁
  obtain ⟨G₀, X, hG₀, hX, rfl⟩ := h2
  have e7 := arrAt6_8_keep V c 7 0 (by omega) (by omega) (by intro k h1 h2; omega)
  have h3 : G₀ = (rdat6 V c).A 8 := Eq.mp (congrFun e7 G₀) hG₀
  subst h3
  exact ⟨X, X', leaves6_8 V c 0 7 (by omega) X hX, leaves6_8 V c 1 7 (by omega) X' hX', rfl⟩

theorem arrAt6_9_keep (c : Dev nD) : ∀ (n m : ℕ), m ≤ n → n ≤ 16 → (∀ k, m ≤ k → k < n → k % 8 ≠ 7) →
    (rdat6 V c).ArrAt 9 n = (rdat6 V c).ArrAt 9 m
  | 0, m, hm, _, _ => by obtain rfl := Nat.le_zero.mp hm; rfl
  | n + 1, m, hm, hn, hk => by
    rcases Nat.eq_or_lt_of_le hm with e | hlt
    · rw [e]
    · have hN : n < cfg6.N := by show n < grid6.N; rw [N_6]; omega
      have hs := (rdat6 V c).ArrAt_succ 9 ⟨n, hN⟩
      rw [if_neg (fun hf => hk n (by omega) (by omega) ((flush6_9 ⟨n, hN⟩).mp hf))] at hs
      exact hs.trans (arrAt6_9_keep c n m (by omega) (by omega) fun k h1 h2 => hk k h1 (by omega))

/-- After the launch a statistics array is its entry contents with core 0's block, then core 1's, written over it, each from
    a buffer whose row 0 is the core's fold. -/
theorem arrAt6_9_form (c : Dev nD) (G : Buf (Elt F) ((cfg6.win 9).arr.view.loc (c.tc : Thread nD τ)))
    (h : (rdat6 V c).ArrAt 9 cfg6.N G) :
    ∃ X X', View.ld X r6row = r6sumsq V c 0 7 (by omega) ∧ View.ld X' r6row = r6sumsq V c 1 7 (by omega) ∧
      G = ((cfg6.win 9).arr.view.slice ((cfg6.win 9).rect t6_15)).write (Elt F)
            (((cfg6.win 9).arr.view.slice ((cfg6.win 9).rect t6_7)).write (Elt F) ((rdat6 V c).A 9)
              ((cfg6.win 9).cut (cfg6.grid.coords t6_7) X) Finset.univ)
            ((cfg6.win 9).cut (cfg6.grid.coords t6_15) X') Finset.univ := by
  have e16 := (rdat6 V c).ArrAt_succ 9 t6_15
  rw [if_pos ((flush6_9 t6_15).mpr rfl)] at e16
  have h1 : (rdat6 V c).ArrStep 9 t6_15 ((rdat6 V c).ArrAt 9 15) G := Eq.mp (congrFun e16 G) h
  obtain ⟨G₁, X', hG₁, hX', rfl⟩ := h1
  have e15 := arrAt6_9_keep V c 15 8 (by omega) (by omega) (by intro k h1 h2; omega)
  have e8 := (rdat6 V c).ArrAt_succ 9 t6_7
  rw [if_pos ((flush6_9 t6_7).mpr rfl)] at e8
  have h2 : (rdat6 V c).ArrStep 9 t6_7 ((rdat6 V c).ArrAt 9 7) G₁ := Eq.mp (congrFun (e15.trans e8) G₁) hG₁
  obtain ⟨G₀, X, hG₀, hX, rfl⟩ := h2
  have e7 := arrAt6_9_keep V c 7 0 (by omega) (by omega) (by intro k h1 h2; omega)
  have h3 : G₀ = (rdat6 V c).A 9 := Eq.mp (congrFun e7 G₀) hG₀
  subst h3
  exact ⟨X, X', leaves6_9 V c 0 7 (by omega) X hX, leaves6_9 V c 1 7 (by omega) X' hX', rfl⟩

end Arr4

section Arr5

section RowApply
/-- The host's row slices at an index. -/
theorem r6row0_apply (X : (⟨S16x128, .f32⟩ : BufTy).Contents (Elt F)) (x : S1x128.Idx) :
    row0 X x = X (ix2 (⟨(x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 0 + (x 0).val = (x 0).val; omega)
  | ⟨1, _⟩ => exact Fin.ext (by show 0 + (x 1).val = (x 1).val; omega)
theorem r6row8_apply (X : (⟨S16x128, .f32⟩ : BufTy).Contents (Elt F)) (x : S1x128.Idx) :
    row8 X x = X (ix2 (⟨8 + (x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 8 + (x 0).val = 8 + (x 0).val; omega)
  | ⟨1, _⟩ => exact Fin.ext (by show 0 + (x 1).val = (x 1).val; omega)
end RowApply

set_option maxHeartbeats 1000000 in
/-- Rows 0 and 8 of the array after the launch are the two cores' folds. -/
theorem arrAt6_8_rows (c : Dev nD) (G : Buf (Elt F) ((cfg6.win 8).arr.view.loc (c.tc : Thread nD τ)))
    (h : (rdat6 V c).ArrAt 8 cfg6.N G) : row0 G = r6sum V c 0 7 (by omega) ∧ row8 G = r6sum V c 1 7 (by omega) := by
  obtain ⟨X, X', hX, hX', rfl⟩ := arrAt6_8_form V c G h
  constructor
  · funext x
    have hx0 : (x 0).val < 1 := (x 0).isLt
    rw [← hX, r6row0_apply]
    have hi : ix2 (⟨(x 0).val, by omega⟩ : Fin 16) (⟨(x 1).val, (x 1).isLt⟩ : Fin 128) = ((cfg6.win 8).rect t6_7).emb (r6row.emb x) := by
      funext a; apply Fin.ext
      rw [Window.rect_emb_val, index6_8]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg6.win 8).rect t6_15).set := by
      intro hm
      have h0 := (Rect.mem_set_unit.mp hm 0).1
      rw [index6_8] at h0
      have h0' : 1 * 8 ≤ (x 0).val := h0
      omega
    exact r6read_two_writes_fst (Val := Elt F) (cfg6.win 8).arr.view ((cfg6.win 8).rect t6_7) ((cfg6.win 8).rect t6_15) ((rdat6 V c).A 8)
      ((cfg6.win 8).cut (cfg6.grid.coords t6_7) X) ((cfg6.win 8).cut (cfg6.grid.coords t6_15) X') (r6row.emb x) _ hi hnot
  · funext x
    have hx0 : (x 0).val < 1 := (x 0).isLt
    rw [← hX', r6row8_apply]
    have hi : ix2 (⟨8 + (x 0).val, by omega⟩ : Fin 16) (⟨(x 1).val, (x 1).isLt⟩ : Fin 128) = ((cfg6.win 8).rect t6_15).emb (r6row.emb x) := by
      funext a; apply Fin.ext
      rw [Window.rect_emb_val, index6_8]
      match a with
      | ⟨0, _⟩ => show 8 + (x 0).val = 1 * 8 + (0 + 1 * (x 0).val); omega
      | ⟨1, _⟩ => show (x 1).val = 0 * 128 + (0 + 1 * (x 1).val); omega
    exact r6read_two_writes_snd (Val := Elt F) (cfg6.win 8).arr.view ((cfg6.win 8).rect t6_7) ((cfg6.win 8).rect t6_15) ((rdat6 V c).A 8)
      ((cfg6.win 8).cut (cfg6.grid.coords t6_7) X) ((cfg6.win 8).cut (cfg6.grid.coords t6_15) X') (r6row.emb x) _ hi

set_option maxHeartbeats 1000000 in
/-- Rows 0 and 8 of the array after the launch are the two cores' folds. -/
theorem arrAt6_9_rows (c : Dev nD) (G : Buf (Elt F) ((cfg6.win 9).arr.view.loc (c.tc : Thread nD τ)))
    (h : (rdat6 V c).ArrAt 9 cfg6.N G) : row0 G = r6sumsq V c 0 7 (by omega) ∧ row8 G = r6sumsq V c 1 7 (by omega) := by
  obtain ⟨X, X', hX, hX', rfl⟩ := arrAt6_9_form V c G h
  constructor
  · funext x
    have hx0 : (x 0).val < 1 := (x 0).isLt
    rw [← hX, r6row0_apply]
    have hi : ix2 (⟨(x 0).val, by omega⟩ : Fin 16) (⟨(x 1).val, (x 1).isLt⟩ : Fin 128) = ((cfg6.win 9).rect t6_7).emb (r6row.emb x) := by
      funext a; apply Fin.ext
      rw [Window.rect_emb_val, index6_9]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg6.win 9).rect t6_15).set := by
      intro hm
      have h0 := (Rect.mem_set_unit.mp hm 0).1
      rw [index6_9] at h0
      have h0' : 1 * 8 ≤ (x 0).val := h0
      omega
    exact r6read_two_writes_fst (Val := Elt F) (cfg6.win 9).arr.view ((cfg6.win 9).rect t6_7) ((cfg6.win 9).rect t6_15) ((rdat6 V c).A 9)
      ((cfg6.win 9).cut (cfg6.grid.coords t6_7) X) ((cfg6.win 9).cut (cfg6.grid.coords t6_15) X') (r6row.emb x) _ hi hnot
  · funext x
    have hx0 : (x 0).val < 1 := (x 0).isLt
    rw [← hX', r6row8_apply]
    have hi : ix2 (⟨8 + (x 0).val, by omega⟩ : Fin 16) (⟨(x 1).val, (x 1).isLt⟩ : Fin 128) = ((cfg6.win 9).rect t6_15).emb (r6row.emb x) := by
      funext a; apply Fin.ext
      rw [Window.rect_emb_val, index6_9]
      match a with
      | ⟨0, _⟩ => show 8 + (x 0).val = 1 * 8 + (0 + 1 * (x 0).val); omega
      | ⟨1, _⟩ => show (x 1).val = 0 * 128 + (0 + 1 * (x 1).val); omega
    exact r6read_two_writes_snd (Val := Elt F) (cfg6.win 9).arr.view ((cfg6.win 9).rect t6_7) ((cfg6.win 9).rect t6_15) ((rdat6 V c).A 9)
      ((cfg6.win 9).cut (cfg6.grid.coords t6_7) X) ((cfg6.win 9).cut (cfg6.grid.coords t6_15) X') (r6row.emb x) _ hi

/-- A canonical statistics array: every row of a core's eight is that core's fold (only rows 0 and 8 are ever read). -/
def sumArr6 (c : Dev nD) : Buf (Elt F) ((cfg6.win 8).arr.view.loc (c.tc : Thread nD τ)) :=
  fun (j : S16x128.Idx) => r6sum V c ⟨(j 0).val / 8, by have := ValueIdx.idx2_lt0 j; omega⟩ 7 (by omega) (ix2 (0 : Fin 1) (j 1))

theorem row0_sumArr6 (c : Dev nD) : row0 (sumArr6 V c) = r6sum V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r6row0_apply]
  show r6sum V c ⟨(x 0).val / 8, _⟩ 7 _ (ix2 (0 : Fin 1) (⟨(x 1).val, _⟩ : Fin 128)) = _
  rw [e1, e2]

theorem row8_sumArr6 (c : Dev nD) : row8 (sumArr6 V c) = r6sum V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r6row8_apply]
  show r6sum V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt6_8 (c : Dev nD) (G : Buf (Elt F) ((cfg6.win 8).arr.view.loc (c.tc : Thread nD τ)))
    (h : (rdat6 V c).ArrAt 8 cfg6.N G) : row0 G = row0 (sumArr6 V c) ∧ row8 G = row8 (sumArr6 V c) := by
  rw [row0_sumArr6, row8_sumArr6]; exact arrAt6_8_rows V c G h

/-- A canonical statistics array: every row of a core's eight is that core's fold (only rows 0 and 8 are ever read). -/
def sqArr6 (c : Dev nD) : Buf (Elt F) ((cfg6.win 9).arr.view.loc (c.tc : Thread nD τ)) :=
  fun (j : S16x128.Idx) => r6sumsq V c ⟨(j 0).val / 8, by have := ValueIdx.idx2_lt0 j; omega⟩ 7 (by omega) (ix2 (0 : Fin 1) (j 1))

theorem row0_sqArr6 (c : Dev nD) : row0 (sqArr6 V c) = r6sumsq V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r6row0_apply]
  show r6sumsq V c ⟨(x 0).val / 8, _⟩ 7 _ (ix2 (0 : Fin 1) (⟨(x 1).val, _⟩ : Fin 128)) = _
  rw [e1, e2]

theorem row8_sqArr6 (c : Dev nD) : row8 (sqArr6 V c) = r6sumsq V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r6row8_apply]
  show r6sumsq V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt6_9 (c : Dev nD) (G : Buf (Elt F) ((cfg6.win 9).arr.view.loc (c.tc : Thread nD τ)))
    (h : (rdat6 V c).ArrAt 9 cfg6.N G) : row0 G = row0 (sqArr6 V c) ∧ row8 G = row8 (sqArr6 V c) := by
  rw [row0_sqArr6, row8_sqArr6]; exact arrAt6_9_rows V c G h

/-! ### The folds, written out: the zero row, then the eight blocks' column sums added in point order -/

theorem r6sum_core0 (c : Dev nD) : r6sum V c 0 7 (by omega) = r6acc (r6acc (r6acc (r6acc (r6acc (r6acc (r6acc (r6acc r6zrow (yat6 V c t6_0)) (yat6 V c t6_1)) (yat6 V c t6_2)) (yat6 V c t6_3)) (yat6 V c t6_4)) (yat6 V c t6_5)) (yat6 V c t6_6)) (yat6 V c t6_7) := rfl
theorem r6sum_core1 (c : Dev nD) : r6sum V c 1 7 (by omega) = r6acc (r6acc (r6acc (r6acc (r6acc (r6acc (r6acc (r6acc r6zrow (yat6 V c t6_8)) (yat6 V c t6_9)) (yat6 V c t6_10)) (yat6 V c t6_11)) (yat6 V c t6_12)) (yat6 V c t6_13)) (yat6 V c t6_14)) (yat6 V c t6_15) := rfl
theorem r6sumsq_core0 (c : Dev nD) : r6sumsq V c 0 7 (by omega) = r6accsq (r6accsq (r6accsq (r6accsq (r6accsq (r6accsq (r6accsq (r6accsq r6zrow (yat6 V c t6_0)) (yat6 V c t6_1)) (yat6 V c t6_2)) (yat6 V c t6_3)) (yat6 V c t6_4)) (yat6 V c t6_5)) (yat6 V c t6_6)) (yat6 V c t6_7) := rfl
theorem r6sumsq_core1 (c : Dev nD) : r6sumsq V c 1 7 (by omega) = r6accsq (r6accsq (r6accsq (r6accsq (r6accsq (r6accsq (r6accsq (r6accsq r6zrow (yat6 V c t6_8)) (yat6 V c t6_9)) (yat6 V c t6_10)) (yat6 V c t6_11)) (yat6 V c t6_12)) (yat6 V c t6_13)) (yat6 V c t6_14)) (yat6 V c t6_15) := rfl

/-! ### Window 7: the whole array -/

/-- The array of `y`: row block `p` is the block of `y` at point `p`. -/
def yArr6 (c : Dev nD) : Buf (Elt F) ((cfg6.win 7).arr.view.loc (c.tc : Thread nD τ)) :=
  fun (j : S65536x128.Idx) => yat6 V c ⟨(j 0).val / 4096, by have := ValueIdx.idx2_lt0 j; show _ < grid6.N; rw [N_6]; omega⟩
    (ix2 (⟨(j 0).val % 4096, Nat.mod_lt _ (by decide)⟩ : Fin 4096) (j 1))

theorem yArr6_apply (c : Dev nD) (p : Fin 16) (q : Fin 4096) (j : Fin 128) :
    yArr6 V c (ix2 (⟨p.val * 4096 + q.val, by have := p.isLt; have := q.isLt; omega⟩ : Fin 65536) j)
      = yat6 V c ⟨p.val, by show _ < grid6.N; rw [N_6]; exact p.isLt⟩ (ix2 q j) := by
  have e1 : (⟨(p.val * 4096 + q.val) / 4096, by have := p.isLt; have := q.isLt; show _ < grid6.N; rw [N_6]; omega⟩ : Fin cfg6.N)
      = ⟨p.val, by show _ < grid6.N; rw [N_6]; exact p.isLt⟩ := Fin.ext (by have := q.isLt; show (p.val * 4096 + q.val) / 4096 = p.val; omega)
  have e2 : (⟨(p.val * 4096 + q.val) % 4096, Nat.mod_lt _ (by decide)⟩ : Fin 4096) = q :=
    Fin.ext (by have := q.isLt; show (p.val * 4096 + q.val) % 4096 = q.val; omega)
  show yat6 V c ⟨(p.val * 4096 + q.val) / 4096, _⟩ (ix2 (⟨(p.val * 4096 + q.val) % 4096, _⟩ : Fin 4096) j) = _
  rw [e1, e2]

theorem arrAt6_7 (c : Dev nD) (G : Buf (Elt F) ((cfg6.win 7).arr.view.loc (c.tc : Thread nD τ)))
    (h : (rdat6 V c).ArrAt 7 cfg6.N G) : G = yArr6 V c := by
  funext (j : S65536x128.Idx)
  have hj := ValueIdx.idx2_lt0 j
  let u : Fin cfg6.N := ⟨(j 0).val / 4096, by show _ < grid6.N; rw [N_6]; omega⟩
  let x : S4096x128.Idx := ix2 (⟨(j 0).val % 4096, Nat.mod_lt _ (by decide)⟩ : Fin 4096) (j 1)
  have hb := congrFun (arrAt6_7_blk V c cfg6.N (le_of_eq N_6) G h u u.isLt) x
  have hjx : ((cfg6.win 7).rect u).emb x = j := by
    funext a; apply Fin.ext
    rw [Window.rect_emb_val, index6_7]
    match a with
    | ⟨0, _⟩ => show (j 0).val / 4096 * 4096 + (j 0).val % 4096 = (j 0).val; omega
    | ⟨1, _⟩ => show 0 * 128 + (j 1).val = (j 1).val; omega
  have hr : ((cfg6.win 7).blk u).view.read (Elt F) G x = G (((cfg6.win 7).rect u).emb x) := rfl
  rw [hr, hjx] at hb
  exact hb
end Arr5

end Cert.KernelIdeal.Hand
end
-- ==== Proof.Hand.P2r7.lean ====
import proofs.«103476_j5987184410999_2_alg».proof.Proof.Gen.KernelIdeal.Launch
import proofs.«103476_j5987184410999_2_alg».proof.Proof.Gen.KernelIdeal.Skeleton
import proofs.«103476_j5987184410999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 x 128 extents: the elaborator's structural look recurses once per
-- coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 7 of @main: custom_call 7, `cc7__pass2_noise_kernel` (pipeline 7), at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): unfetched, the block
    index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for ANY proof
    data whose array is `V`'s (`hA`) and whose body leaves the block in place (`hafter`): unfetched, the block
    index has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for ANY proof
    data whose array is `V`'s (`hA`) and whose body leaves the block in place (`hafter`): unfetched, the block
    index has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for ANY proof
    data whose array is `V`'s (`hA`) and whose body leaves the block in place (`hafter`): unfetched, the block
    index has not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for ANY proof
    data whose array is `V`'s (`hA`) and whose body leaves the block in place (`hafter`): unfetched, the block
    index has not moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for ANY proof
    data whose array is `V`'s (`hA`) and whose body leaves the block in place (`hafter`): unfetched, the block
    index has not moved; the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S4096x128 := Rect.unit (s := S4096x128) ![0, 0] S4096x128.size inb_S4096x128_S4096x128_0_0
abbrev r7_1 : Rect S1x128 := Rect.unit (s := S1x128) ![0, 0] S1x128.size inb_S1x128_S1x128_0_0

/-! ## What the body leaves in the output window's buffer -/

/-- Window 6's staging buffer after the body, from the input windows' blocks (the block to normalise, the mean,
    the inverse deviation, the scale, the shift, the noise block): its one store as a piece (`View.canon`; the
    payload is the skeleton's, its arguments in the order the body loads them). -/
def out7_6 (x0 : Vec F S4096x128 .f32) (x1 x2 x3 x4 : Vec F S1x128 .f32) (x5 : Vec F S4096x128 .f32) : Vec F S4096x128 .f32 :=
  View.canon [⟨r7_0, k7_pay1 (View.ld x0 r7_0) (View.ld x3 r7_1) (View.ld x1 r7_1) (View.ld x2 r7_1) (View.ld x4 r7_1) (View.ld x5 r7_0)⟩]

/-- The store tiles the buffer, so it covers it. -/
theorem cover7_6 (p0 : Vec F S4096x128 .f32) (y : S4096x128.Idx) :
    ∃ pc ∈ ([⟨r7_0, p0⟩] : List (View.Piece (Elt F) S4096x128 .f32)), y ∈ pc.1.set :=
  View.cover_of_tiled [⟨r7_0, p0⟩] S4096x128.size (by rfl) y

/-! ## The body's triple -/

set_option maxHeartbeats 1000000 in
/-- The kernel body on whole staging memrefs, the inputs' at read contents `xW` and the output's at anything, runs to
    the continuation holding the inputs' as they were and the output's at `out7_6` of the inputs'. -/
theorem sound_kernel7 (c : Dev nD) (E : Set ℕ) (i : grid7.Coords)
    (arg1 : Memref sig .tc .vmem S4096x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x128 .f32) (x1 x2 x3 x4 : Vec F S1x128 .f32) (x5 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out7_6 x0 x1 x2 x3 x4 x5)) -∗ K ⟨⟩))
      ⊢ wp frame (wpE (defs₀ (F := F)) Variants.none c none) E
          (cc7__pass2_noise_kernel i arg1 harg1 arg2 harg2 arg3 harg3 arg4 harg4 arg5 harg5 arg6 harg6 arg7 harg7) K := by
  simp only [cc7__pass2_noise_kernel_eq_skeleton]; unfold cc7__pass2_noise_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_6 _)

/-! ## The pipeline's proof data -/

/-- The proof data of pipeline 7 on core `c`: the arrays as the region finds them (`V`); after the body at
    point `t` each input's buffer at its block and the output's at `out7_6` of the input blocks; the invariant the
    class's (`Pipeline.ΦA`: the scoped rest and the generator register, untouched); nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.Hand.ChainDefs3.lean ====
/-
  The canonical contents of the TensorCore's buffers around network node 3: after host stretch 6, after its statistics pass (region 6;
  the two statistics arrays at a canonical completion of their undefined rows), after host stretch 7, after its normalisation pass (region 7).
-/
import proofs.«103476_j5987184410999_2_alg».proof.Proof.Hand.ChainDefs2
import proofs.«103476_j5987184410999_2_alg».proof.Proof.Hand.P1r6Arr
import proofs.«103476_j5987184410999_2_alg».proof.Proof.Hand.P2r7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-- After host stretch 6: what region 6 is entered from. -/
def W13 (c : Dev nD) : Valuation τ sig (Elt F) := StableHlo.after hostOps6 (W12 m c)
abbrev E6 : (c : Dev nD) → (b : Ref sig .tc) → Buf (Elt F) ((c : Thread nD τ).loc b) := fun c b => W13 m c b
/-- What region 6 leaves in its arrays: the inputs as found, the product array, and the two statistics arrays at their
    canonical completion. -/
def GA6 (c : Dev nD) : (w : Fin cfg6.W) → Buf (Elt F) ((cfg6.win w).arr.view.loc (c.tc : Thread nD τ))
  | ⟨0, _⟩ => E6 m c (Pipeline.arrRef spec6 0)
  | ⟨1, _⟩ => E6 m c (Pipeline.arrRef spec6 1)
  | ⟨2, _⟩ => E6 m c (Pipeline.arrRef spec6 2)
  | ⟨3, _⟩ => E6 m c (Pipeline.arrRef spec6 3)
  | ⟨4, _⟩ => E6 m c (Pipeline.arrRef spec6 4)
  | ⟨5, _⟩ => E6 m c (Pipeline.arrRef spec6 5)
  | ⟨6, _⟩ => E6 m c (Pipeline.arrRef spec6 6)
  | ⟨7, _⟩ => yArr6 (E6 m) c
  | ⟨8, _⟩ => sumArr6 (E6 m) c
  | ⟨9, _⟩ => sqArr6 (E6 m) c
def W14 (c : Dev nD) : Valuation τ sig (Elt F) := Pipeline.withArrays spec6 c (W13 m c) (GA6 m c)
/-- After host stretch 7: what region 7 is entered from. -/
def W15 (c : Dev nD) : Valuation τ sig (Elt F) := StableHlo.after hostOps7 (W14 m c)
abbrev E7 : (c : Dev nD) → (b : Ref sig .tc) → Buf (Elt F) ((c : Thread nD τ).loc b) := fun c b => W15 m c b
/-- What region 7 leaves in its arrays. -/
def GA7 (c : Dev nD) (w : Fin cfg7.W) : Buf (Elt F) ((cfg7.win w).arr.view.loc (c.tc : Thread nD τ)) := (dat7 (E7 m) c).arrAt w cfg7.N
def W16 (c : Dev nD) : Valuation τ sig (Elt F) := Pipeline.withArrays spec7 c (W15 m c) (GA7 m c)

end Cert.KernelIdeal.Hand

end
-- ==== Proof.Hand.P1r8.lean ====
/- Region 8 (the first pass-1 launch whose input arrives split in two halves) as RELATIONAL proof data, with its body
   obligation.

   The body computes a block of `y` from seven input blocks (the two halves of `x`, the two halves of the first weight,
   the first bias, the second weight and bias), stores it whole, and adds its column sums (and those of its square) into
   ROW 0 of two 8-row statistics blocks, which it first zeroes at the first point of each core's run of eight.
   Rows 1 to 7 of those blocks are never stored: what the body leaves there is what it found. So the data relates what the
   body finds in a buffer to what it leaves, and for the statistics blocks constrains row 0 only. -/
import proofs.«103476_j5987184410999_2_alg».proof.Proof.Gen.KernelIdeal.Launch
import proofs.«103476_j5987184410999_2_alg».proof.Proof.Gen.KernelIdeal.Skeleton
import proofs.«103476_j5987184410999_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## Region 8 (a pass-1 launch over a split input): names -/

/-- The condition of the body's one `scf.if`, from the grid coordinates (the skeleton's scalar chain substituted):
    the inner coordinate is zero. -/
abbrev r8cond (i : grid8.Coords) : Prop :=
  (Scalar.cmpi .ne (Scalar.extui (Scalar.cmpi .eq (BitVec.ofNat 32 (i 1).val) 0#32)) 0#32) = 1#1

/-- It holds at the first point of each core's run of eight: decided over the grid. -/
theorem r8cond_iff : ∀ t : Fin cfg8.N, r8cond (grid8.coords t) ↔ t.val % 8 = 0 :=
  (by decide +kernel : ∀ t : Fin grid8.N, r8cond (grid8.coords t) ↔ t.val % 8 = 0)

/-- Row 0 of a statistics block: the rectangle every load and store of the two accumulators goes through. -/
abbrev r8row : Rect S8x128 := Rect.unit (s := S8x128) ![0, 0] S1x128.size inb_S8x128_S1x128_0_0

/-- The row of zeros the body stores at the first point of a core's run. -/
def r8zrow : FVec F S1x128 .f32 := broadcast S1x128 (Scalar.ofBits .f32 0x00000000#32)

/-- One accumulation step: the row found plus the column sums of `y` (the reduction along axis 0 from the zero word). -/
def r8acc (r : Vec F S1x128 .f32) (y : FVec F S4096x128 .f32) : FVec F S1x128 .f32 :=
  addf (shapeCast S1x128 r shapeCasts_S1x128_S1x128)
    (shapeCast S1x128 (multiReduction .add [0] S128 y 0x00000000#32 reduces_S4096x128_S128 (.inl rfl) rfl) shapeCasts_S128_S1x128)

/-- The same of the squares. -/
def r8accsq (r : Vec F S1x128 .f32) (y : FVec F S4096x128 .f32) : FVec F S1x128 .f32 := r8acc r (mulf y y)

/-- The block of `y` the body computes from its seven input blocks: `relu(xa·Wa + xb·Wb + b1)·W2 + b2` with the matrix
    operands rounded to bf16 (the skeleton's payload). -/
def yblk8 (xa xb : Vec F S4096x128 .f32) (wa wb : Vec F S128x256 .f32) (b1 : Vec F S1x256 .f32) (w2 : Vec F S256x128 .f32)
    (b2 : Vec F S1x128 .f32) : Vec F S4096x128 .f32 := k8_pay5 xa xb wa wb b1 w2 b2

theorem k8_pay1_eq (y : FVec F S4096x128 .f32) (r : Vec F S1x128 .f32) : k8_pay1 y r = r8acc r y := rfl
theorem k8_pay2_eq (y : FVec F S4096x128 .f32) (r : Vec F S1x128 .f32) : k8_pay2 y r = r8accsq r y := rfl
theorem k8_pay3_eq : k8_pay3 (F := F) = r8zrow := rfl
theorem k8_pay4_eq : k8_pay4 (F := F) = r8zrow := rfl

theorem r8zeros2 : (![0, 0] : Fin 2 → ℕ) = fun _ => 0 := by funext a; fin_cases a <;> rfl

section WholeRect
variable {sg : RefSig} {κ : Kind} {sp : Space} {S : Shape} {e : EltTy} {Val : EltTy → Type}

/-- A load through the whole-shape rectangle at zero offsets reads the view's contents. -/
theorem r8readAt_unit_zero (v : View sg κ sp S e) {off : Fin S.rank → ℕ} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

/-- One store through it leaves its payload, whatever the buffer held. -/
theorem r8read_writes_unit_zero (v : View sg κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end WholeRect

theorem r8readAt_S4096x128 {sp : Space} (v : View sig .tc sp S4096x128 .f32) (f : v.ty.Contents (Elt F)) :
    v.readAt (Elt F) (Rect.unit (s := S4096x128) ![0, 0] S4096x128.size inb_S4096x128_S4096x128_0_0).toLoadRect f = v.read (Elt F) f :=
  r8readAt_unit_zero v r8zeros2 _ f
theorem r8readAt_S128x256 {sp : Space} (v : View sig .tc sp S128x256 .f32) (f : v.ty.Contents (Elt F)) :
    v.readAt (Elt F) (Rect.unit (s := S128x256) ![0, 0] S128x256.size inb_S128x256_S128x256_0_0).toLoadRect f = v.read (Elt F) f :=
  r8readAt_unit_zero v r8zeros2 _ f
theorem r8readAt_S1x256 {sp : Space} (v : View sig .tc sp S1x256 .f32) (f : v.ty.Contents (Elt F)) :
    v.readAt (Elt F) (Rect.unit (s := S1x256) ![0, 0] S1x256.size inb_S1x256_S1x256_0_0).toLoadRect f = v.read (Elt F) f :=
  r8readAt_unit_zero v r8zeros2 _ f
theorem r8readAt_S256x128 {sp : Space} (v : View sig .tc sp S256x128 .f32) (f : v.ty.Contents (Elt F)) :
    v.readAt (Elt F) (Rect.unit (s := S256x128) ![0, 0] S256x128.size inb_S256x128_S256x128_0_0).toLoadRect f = v.read (Elt F) f :=
  r8readAt_unit_zero v r8zeros2 _ f
theorem r8readAt_S1x128 {sp : Space} (v : View sig .tc sp S1x128 .f32) (f : v.ty.Contents (Elt F)) :
    v.readAt (Elt F) (Rect.unit (s := S1x128) ![0, 0] S1x128.size inb_S1x128_S1x128_0_0).toLoadRect f = v.read (Elt F) f :=
  r8readAt_unit_zero v r8zeros2 _ f

/-- The whole-block store of window 7 leaves its payload. -/
theorem r8read_whole_store {sp : Space} (v : View sig .tc sp S4096x128 .f32) (f : v.ty.Contents (Elt F)) (w : Vec F S4096x128 .f32) :
    v.read (Elt F) (v.writes (Elt F) f [⟨Rect.unit (s := S4096x128) ![0, 0] S4096x128.size inb_S4096x128_S4096x128_0_0, w⟩]) = w :=
  r8read_writes_unit_zero v r8zeros2 _ f w []

/-- Row 0 after a store through row 0, whatever was stored before. -/
theorem r8ld_row_store {sp : Space} (v : View sig .tc sp S8x128 .f32) (f : v.ty.Contents (Elt F)) (w : Vec F S1x128 .f32)
    (L : List (View.Piece (Elt F) S8x128 .f32)) :
    View.ld (v.read (Elt F) (v.writes (Elt F) f (⟨r8row, w⟩ :: L))) r8row = w :=
  funext fun x => View.read_writes_cons_emb v f r8row w L x

/-! ## The body's two runs, over arbitrary staging contents -/

set_option maxHeartbeats 1000000 in
/-- The body at a point that is not the first of its core's run: row 0 of each statistics block is the row found plus the sums. -/
theorem sound_kernel8_later (c : Dev nD) (i : grid8.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : ¬r8cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk8 x0 x1 x2 x3 x4 x5 x6)
            ∗ (∃ X, ⌜View.ld X r8row = r8acc (View.ld y8 r8row) (yblk8 x0 x1 x2 x3 x4 x5 x6)⌝ ∗ owns (c : Thread nD τ) arg10 fullShare X)
            ∗ (∃ X, ⌜View.ld X r8row = r8accsq (View.ld y9 r8row) (yblk8 x0 x1 x2 x3 x4 x5 x6)⌝ ∗ owns (c : Thread nD τ) arg11 fullShare X)) -∗ K ⟨⟩))
      ⊢ wp frame (wpE (defs₀ (F := F)) Variants.none c none) E (cc8__pass1_kernel_split i arg2 harg2 arg3 harg3 arg4 harg4 arg5 harg5 arg6 harg6 arg7 harg7 arg8 harg8 arg9 harg9 arg10 harg10 arg11 harg11) K := by
  simp only [cc8__pass1_kernel_split_eq_skeleton]; unfold cc8__pass1_kernel_split_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r8readAt_S4096x128, r8readAt_S4096x128, r8readAt_S128x256, r8readAt_S128x256, r8readAt_S1x256, r8readAt_S256x128, r8readAt_S1x128]
    exact r8read_whole_store (F := F) _ _ _
  isplitl [H8]
  · iexists _; isplitr; swap
    · iexists _; isplitr; swap; · iexact H8
      ipureintro; rfl
    ipureintro
    rw [r8readAt_S4096x128, r8readAt_S4096x128, r8readAt_S128x256, r8readAt_S128x256, r8readAt_S1x256, r8readAt_S256x128, r8readAt_S1x128]
    rw [k8_pay1_eq]
    exact r8ld_row_store (F := F) _ _ _ _
  · iexists _; isplitr; swap
    · iexists _; isplitr; swap; · iexact H9
      ipureintro; rfl
    ipureintro
    rw [r8readAt_S4096x128, r8readAt_S4096x128, r8readAt_S128x256, r8readAt_S128x256, r8readAt_S1x256, r8readAt_S256x128, r8readAt_S1x128]
    rw [k8_pay2_eq]
    exact r8ld_row_store (F := F) _ _ _ _

set_option maxHeartbeats 1000000 in
/-- The body at the first point of a core's run: row 0 of each statistics block is the zero row plus the sums. -/
theorem sound_kernel8_first (c : Dev nD) (i : grid8.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : r8cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk8 x0 x1 x2 x3 x4 x5 x6)
            ∗ (∃ X, ⌜View.ld X r8row = r8acc r8zrow (yblk8 x0 x1 x2 x3 x4 x5 x6)⌝ ∗ owns (c : Thread nD τ) arg10 fullShare X)
            ∗ (∃ X, ⌜View.ld X r8row = r8accsq r8zrow (yblk8 x0 x1 x2 x3 x4 x5 x6)⌝ ∗ owns (c : Thread nD τ) arg11 fullShare X)) -∗ K ⟨⟩))
      ⊢ wp frame (wpE (defs₀ (F := F)) Variants.none c none) E (cc8__pass1_kernel_split i arg2 harg2 arg3 harg3 arg4 harg4 arg5 harg5 arg6 harg6 arg7 harg7 arg8 harg8 arg9 harg9 arg10 harg10 arg11 harg11) K := by
  simp only [cc8__pass1_kernel_split_eq_skeleton]; unfold cc8__pass1_kernel_split_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r8readAt_S4096x128, r8readAt_S4096x128, r8readAt_S128x256, r8readAt_S128x256, r8readAt_S1x256, r8readAt_S256x128, r8readAt_S1x128]
    exact r8read_whole_store (F := F) _ _ _
  isplitl [H8]
  · iexists _; isplitr; swap
    · iexists _; isplitr; swap; · iexact H8
      ipureintro; rfl
    ipureintro
    rw [r8readAt_S4096x128, r8readAt_S4096x128, r8readAt_S128x256, r8readAt_S128x256, r8readAt_S1x256, r8readAt_S256x128, r8readAt_S1x128]
    rw [k8_pay1_eq]
    refine (r8ld_row_store (F := F) _ _ _ _).trans ?_
    congr 1
    sl_unfold_run_names
    exact View.readCov_cons_toLoadRect _ _ _ _
  · iexists _; isplitr; swap
    · iexists _; isplitr; swap; · iexact H9
      ipureintro; rfl
    ipureintro
    rw [r8readAt_S4096x128, r8readAt_S4096x128, r8readAt_S128x256, r8readAt_S128x256, r8readAt_S1x256, r8readAt_S256x128, r8readAt_S1x128]
    rw [k8_pay2_eq]
    refine (r8ld_row_store (F := F) _ _ _ _).trans ?_
    congr 1
    sl_unfold_run_names
    exact View.readCov_cons_toLoadRect _ _ _ _

/-! ## The proof data of region 8, relational -/

variable (V : (c : Dev nD) → (b : Ref sig .tc) → Buf (Elt F) ((c : Thread nD τ).loc b))

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The block of `y` at point `t`: the body's function of the seven input blocks there. -/
def yat8 (c : Dev nD) (t : Fin cfg8.N) : Vec F S4096x128 .f32 :=
  yblk8 (iblk8 V c 0 t) (iblk8 V c 1 t) (iblk8 V c 2 t) (iblk8 V c 3 t) (iblk8 V c 4 t) (iblk8 V c 5 t) (iblk8 V c 6 t)

/-- The proof data of the launch on core `c`: the arrays as the region finds them; an input's buffer is left as found; the
    `y` window's buffer is left at the block of `y`; of a statistics window's buffer only row 0 is constrained — it is the
    row found (the zero row at the first point of a core's run) plus the column sums of the block of `y` (of its square) —, and
    nothing is said of rows 1 to 7, which the body never stores. -/
def rdat8 (c : Dev nD) : RDat τ (Elt F) Unit ℕ (UR sig nD τ) ℕ cfg8 c where
  A w := V c (Pipeline.arrRef spec8 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => X = yat8 V c t
    | ⟨8, _⟩ => fun Y X => View.ld X r8row = r8acc (if t.val % 8 = 0 then r8zrow else View.ld Y r8row) (yat8 V c t)
    | ⟨9, _⟩ => fun Y X => View.ld X r8row = r8accsq (if t.val % 8 = 0 then r8zrow else View.ld Y r8row) (yat8 V c t)
  Φ _ := Pipeline.ΦA spec8 c
  q _ := fullShare
  owed _ := 0

theorem rdat8_A (c : Dev nD) (w : Fin cfg8.W) : (rdat8 V c).A w = V c (Pipeline.arrRef spec8 w) := by dsimp only [rdat8]

theorem after8_0 (c : Dev nD) (t : Fin cfg8.N) Y X : (rdat8 V c).after 0 t Y X ↔ X = Y := by dsimp only [rdat8]; exact Iff.rfl
theorem after8_1 (c : Dev nD) (t : Fin cfg8.N) Y X : (rdat8 V c).after 1 t Y X ↔ X = Y := by dsimp only [rdat8]; exact Iff.rfl
theorem after8_2 (c : Dev nD) (t : Fin cfg8.N) Y X : (rdat8 V c).after 2 t Y X ↔ X = Y := by dsimp only [rdat8]; exact Iff.rfl
theorem after8_3 (c : Dev nD) (t : Fin cfg8.N) Y X : (rdat8 V c).after 3 t Y X ↔ X = Y := by dsimp only [rdat8]; exact Iff.rfl
theorem after8_4 (c : Dev nD) (t : Fin cfg8.N) Y X : (rdat8 V c).after 4 t Y X ↔ X = Y := by dsimp only [rdat8]; exact Iff.rfl
theorem after8_5 (c : Dev nD) (t : Fin cfg8.N) Y X : (rdat8 V c).after 5 t Y X ↔ X = Y := by dsimp only [rdat8]; exact Iff.rfl
theorem after8_6 (c : Dev nD) (t : Fin cfg8.N) Y X : (rdat8 V c).after 6 t Y X ↔ X = Y := by dsimp only [rdat8]; exact Iff.rfl
theorem after8_7 (c : Dev nD) (t : Fin cfg8.N) Y X : (rdat8 V c).after 7 t Y X ↔ X = yat8 V c t := by dsimp only [rdat8]; exact Iff.rfl
theorem after8_8 (c : Dev nD) (t : Fin cfg8.N) Y X : (rdat8 V c).after 8 t Y X ↔
    View.ld X r8row = r8acc (if t.val % 8 = 0 then r8zrow else View.ld Y r8row) (yat8 V c t) := by dsimp only [rdat8]; exact Iff.rfl
theorem after8_9 (c : Dev nD) (t : Fin cfg8.N) Y X : (rdat8 V c).after 9 t Y X ↔
    View.ld X r8row = r8accsq (if t.val % 8 = 0 then r8zrow else View.ld Y r8row) (yat8 V c t) := by dsimp only [rdat8]; exact Iff.rfl

/-! ## What the body finds in an input's buffer: the window's block, fetched at the point or not -/

theorem finds8_0 (c : Dev nD) (t : Fin cfg8.N) (Y) (h : (rdat8 V c).Finds 0 t Y) : Y = iblk8 V c 0 t := by
  obtain ⟨d, rfl⟩ := (rdat8 V c).finds_in_eq_fetched 0 rfl (fun _ _ _ => rfl) (fun t Y X h => (after8_0 V c t Y X).mp h) t Y h
  unfold RDat.fetched RDat.blockOf iblk8; rw [rdat8_A]; rfl

theorem finds8_1 (c : Dev nD) (t : Fin cfg8.N) (Y) (h : (rdat8 V c).Finds 1 t Y) : Y = iblk8 V c 1 t := by
  obtain ⟨d, rfl⟩ := (rdat8 V c).finds_in_eq_fetched 1 rfl (fun _ _ _ => rfl) (fun t Y X h => (after8_1 V c t Y X).mp h) t Y h
  unfold RDat.fetched RDat.blockOf iblk8; rw [rdat8_A]; rfl

theorem finds8_2 (c : Dev nD) (t : Fin cfg8.N) (Y) (h : (rdat8 V c).Finds 2 t Y) : Y = iblk8 V c 2 t := by
  obtain ⟨d, rfl⟩ := (rdat8 V c).finds_in_eq_fetched 2 rfl (fun _ _ _ => rfl) (fun t Y X h => (after8_2 V c t Y X).mp h) t Y h
  unfold RDat.fetched RDat.blockOf iblk8; rw [rdat8_A]; rfl

theorem finds8_3 (c : Dev nD) (t : Fin cfg8.N) (Y) (h : (rdat8 V c).Finds 3 t Y) : Y = iblk8 V c 3 t := by
  obtain ⟨d, rfl⟩ := (rdat8 V c).finds_in_eq_fetched 3 rfl (fun _ _ _ => rfl) (fun t Y X h => (after8_3 V c t Y X).mp h) t Y h
  unfold RDat.fetched RDat.blockOf iblk8; rw [rdat8_A]; rfl

theorem finds8_4 (c : Dev nD) (t : Fin cfg8.N) (Y) (h : (rdat8 V c).Finds 4 t Y) : Y = iblk8 V c 4 t := by
  obtain ⟨d, rfl⟩ := (rdat8 V c).finds_in_eq_fetched 4 rfl (fun _ _ _ => rfl) (fun t Y X h => (after8_4 V c t Y X).mp h) t Y h
  unfold RDat.fetched RDat.blockOf iblk8; rw [rdat8_A]; rfl

theorem finds8_5 (c : Dev nD) (t : Fin cfg8.N) (Y) (h : (rdat8 V c).Finds 5 t Y) : Y = iblk8 V c 5 t := by
  obtain ⟨d, rfl⟩ := (rdat8 V c).finds_in_eq_fetched 5 rfl (fun _ _ _ => rfl) (fun t Y X h => (after8_5 V c t Y X).mp h) t Y h
  unfold RDat.fetched RDat.blockOf iblk8; rw [rdat8_A]; rfl

theorem finds8_6 (c : Dev nD) (t : Fin cfg8.N) (Y) (h : (rdat8 V c).Finds 6 t Y) : Y = iblk8 V c 6 t := by
  obtain ⟨d, rfl⟩ := (rdat8 V c).finds_in_eq_fetched 6 rfl (fun _ _ _ => rfl) (fun t Y X h => (after8_6 V c t Y X).mp h) t Y h
  unfold RDat.fetched RDat.blockOf iblk8; rw [rdat8_A]; rfl

/-! ## The body obligation -/

set_option maxHeartbeats 1000000 in
/-- The body at any point, on the buffers the pipeline hands it: the inputs' hold their blocks (`h0` … `h6`), the outputs' anything.
    The point's position in its core's run of eight says which of the two runs applies; what the run leaves is in the relation. -/
theorem sound_body8 (c : Dev nD) (t : Fin cfg8.N) (Y : (w : Fin cfg8.W) → (cfg8.win w).block.Idx → Elt F (cfg8.win w).elt)
    (h0 : Y 0 = iblk8 V c 0 t) (h1 : Y 1 = iblk8 V c 1 t) (h2 : Y 2 = iblk8 V c 2 t) (h3 : Y 3 = iblk8 V c 3 t) (h4 : Y 4 = iblk8 V c 4 t) (h5 : Y 5 = iblk8 V c 5 t) (h6 : Y 6 = iblk8 V c 6 t) :
    iprop((rdat8 V c).Φ t.castSucc ∗ (rdat8 V c).owesAt () t.castSucc
        ∗ owns (c : Thread nD τ) ((cfg8.win 0).stage (cfg8.slots t 0)) fullShare (Y 0)
        ∗ owns (c : Thread nD τ) ((cfg8.win 1).stage (cfg8.slots t 1)) fullShare (Y 1)
        ∗ owns (c : Thread nD τ) ((cfg8.win 2).stage (cfg8.slots t 2)) fullShare (Y 2)
        ∗ owns (c : Thread nD τ) ((cfg8.win 3).stage (cfg8.slots t 3)) fullShare (Y 3)
        ∗ owns (c : Thread nD τ) ((cfg8.win 4).stage (cfg8.slots t 4)) fullShare (Y 4)
        ∗ owns (c : Thread nD τ) ((cfg8.win 5).stage (cfg8.slots t 5)) fullShare (Y 5)
        ∗ owns (c : Thread nD τ) ((cfg8.win 6).stage (cfg8.slots t 6)) fullShare (Y 6)
        ∗ owns (c : Thread nD τ) ((cfg8.win 7).stage (cfg8.slots t 7)) fullShare (Y 7)
        ∗ owns (c : Thread nD τ) ((cfg8.win 8).stage (cfg8.slots t 8)) fullShare (Y 8)
        ∗ owns (c : Thread nD τ) ((cfg8.win 9).stage (cfg8.slots t 9)) fullShare (Y 9))
      ⊢ wp frame (wpE (defs₀ (F := F)) Variants.none c none) Set.univ (bodyAt8 t) (fun _ =>
        iprop((rdat8 V c).Φ t.succ ∗ (rdat8 V c).owesAt () t.succ
          ∗ (∃ X, ⌜(rdat8 V c).after 0 t (Y 0) X⌝ ∗ owns (c : Thread nD τ) ((cfg8.win 0).stage (cfg8.slots t 0)) fullShare X)
          ∗ (∃ X, ⌜(rdat8 V c).after 1 t (Y 1) X⌝ ∗ owns (c : Thread nD τ) ((cfg8.win 1).stage (cfg8.slots t 1)) fullShare X)
          ∗ (∃ X, ⌜(rdat8 V c).after 2 t (Y 2) X⌝ ∗ owns (c : Thread nD τ) ((cfg8.win 2).stage (cfg8.slots t 2)) fullShare X)
          ∗ (∃ X, ⌜(rdat8 V c).after 3 t (Y 3) X⌝ ∗ owns (c : Thread nD τ) ((cfg8.win 3).stage (cfg8.slots t 3)) fullShare X)
          ∗ (∃ X, ⌜(rdat8 V c).after 4 t (Y 4) X⌝ ∗ owns (c : Thread nD τ) ((cfg8.win 4).stage (cfg8.slots t 4)) fullShare X)
          ∗ (∃ X, ⌜(rdat8 V c).after 5 t (Y 5) X⌝ ∗ owns (c : Thread nD τ) ((cfg8.win 5).stage (cfg8.slots t 5)) fullShare X)
          ∗ (∃ X, ⌜(rdat8 V c).after 6 t (Y 6) X⌝ ∗ owns (c : Thread nD τ) ((cfg8.win 6).stage (cfg8.slots t 6)) fullShare X)
          ∗ (∃ X, ⌜(rdat8 V c).after 7 t (Y 7) X⌝ ∗ owns (c : Thread nD τ) ((cfg8.win 7).stage (cfg8.slots t 7)) fullShare X)
          ∗ (∃ X, ⌜(rdat8 V c).after 8 t (Y 8) X⌝ ∗ owns (c : Thread nD τ) ((cfg8.win 8).stage (cfg8.slots t 8)) fullShare X)
          ∗ (∃ X, ⌜(rdat8 V c).after 9 t (Y 9) X⌝ ∗ owns (c : Thread nD τ) ((cfg8.win 9).stage (cfg8.slots t 9)) fullShare X))) := by
  unfold bodyAt8
  rw [show (rdat8 V c).Φ t.succ = (rdat8 V c).Φ t.castSucc from rfl,
    show (rdat8 V c).owesAt () t.succ = (rdat8 V c).owesAt () t.castSucc from rfl]
  by_cases h : t.val % 8 = 0
  ·
    iintro ⟨HΦ, Ho, H0, H1, H2, H3, H4, H5, H6, H7, H8, H9⟩
    iapply (sound_kernel8_first c (grid8.coords t) _ _ _ _ _ _ _ _ _ _ _ _ _ _ _ _ _ _ _ _ ((r8cond_iff t).mpr h) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after8_0 V c t _ _).mpr rfl
    isplitl [H1]
    · iexists _; isplitr; swap; · iexact H1
      ipureintro; exact (after8_1 V c t _ _).mpr rfl
    isplitl [H2]
    · iexists _; isplitr; swap; · iexact H2
      ipureintro; exact (after8_2 V c t _ _).mpr rfl
    isplitl [H3]
    · iexists _; isplitr; swap; · iexact H3
      ipureintro; exact (after8_3 V c t _ _).mpr rfl
    isplitl [H4]
    · iexists _; isplitr; swap; · iexact H4
      ipureintro; exact (after8_4 V c t _ _).mpr rfl
    isplitl [H5]
    · iexists _; isplitr; swap; · iexact H5
      ipureintro; exact (after8_5 V c t _ _).mpr rfl
    isplitl [H6]
    · iexists _; isplitr; swap; · iexact H6
      ipureintro; exact (after8_6 V c t _ _).mpr rfl
    isplitl [H7]
    · iexists _; isplitr; swap; · iexact H7
      ipureintro; rw [after8_7]; unfold yat8; rw [← h0, ← h1, ← h2, ← h3, ← h4, ← h5, ← h6]
    isplitl [H8]
    · iexists X8; isplitr; swap; · iexact H8
      ipureintro; rw [after8_8, if_pos h]; unfold yat8; rw [← h0, ← h1, ← h2, ← h3, ← h4, ← h5, ← h6]; exact hX8
    · iexists X9; isplitr; swap; · iexact H9
      ipureintro; rw [after8_9, if_pos h]; unfold yat8; rw [← h0, ← h1, ← h2, ← h3, ← h4, ← h5, ← h6]; exact hX9
  ·
    iintro ⟨HΦ, Ho, H0, H1, H2, H3, H4, H5, H6, H7, H8, H9⟩
    iapply (sound_kernel8_later c (grid8.coords t) _ _ _ _ _ _ _ _ _ _ _ _ _ _ _ _ _ _ _ _ (fun hc => h ((r8cond_iff t).mp hc)) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after8_0 V c t _ _).mpr rfl
    isplitl [H1]
    · iexists _; isplitr; swap; · iexact H1
      ipureintro; exact (after8_1 V c t _ _).mpr rfl
    isplitl [H2]
    · iexists _; isplitr; swap; · iexact H2
      ipureintro; exact (after8_2 V c t _ _).mpr rfl
    isplitl [H3]
    · iexists _; isplitr; swap; · iexact H3
      ipureintro; exact (after8_3 V c t _ _).mpr rfl
    isplitl [H4]
    · iexists _; isplitr; swap; · iexact H4
      ipureintro; exact (after8_4 V c t _ _).mpr rfl
    isplitl [H5]
    · iexists _; isplitr; swap; · iexact H5
      ipureintro; exact (after8_5 V c t _ _).mpr rfl
    isplitl [H6]
    · iexists _; isplitr; swap; · iexact H6
      ipureintro; exact (after8_6 V c t _ _).mpr rfl
    isplitl [H7]
    · iexists _; isplitr; swap; · iexact H7
      ipureintro; rw [after8_7]; unfold yat8; rw [← h0, ← h1, ← h2, ← h3, ← h4, ← h5, ← h6]
    isplitl [H8]
    · iexists X8; isplitr; swap; · iexact H8
      ipureintro; rw [after8_8, if_neg h]; unfold yat8; rw [← h0, ← h1, ← h2, ← h3, ← h4, ← h5, ← h6]; exact hX8
    · iexists X9; isplitr; swap; · iexact H9
      ipureintro; rw [after8_9, if_neg h]; unfold yat8; rw [← h0, ← h1, ← h2, ← h3, ← h4, ← h5, ← h6]; exact hX9

/-- The library's body obligation of the relational data, at every point. -/
theorem body_obligation8 (c : Dev nD) : (rdat8 (F := F) V c).BodyObligation (defs₀ (F := F)) Variants.none () Set.univ := by
  intro t Y hY
  rw [bigSep_W8, bigSep_W8]
  exact sound_body8 V c t Y (finds8_0 V c t _ (hY 0)) (finds8_1 V c t _ (hY 1)) (finds8_2 V c t _ (hY 2)) (finds8_3 V c t _ (hY 3)) (finds8_4 V c t _ (hY 4)) (finds8_5 V c t _ (hY 5)) (finds8_6 V c t _ (hY 6))

end Cert.KernelIdeal.Hand
end
-- ==== Proof.Hand.P1r8Arr.lean ====
/- What region 8's arrays hold after the launch, from the relational data's `ArrAt` (pure: no separation logic).

   An input array is as the region found it. Row block `p` of the array of `y` is the block of `y` at point `p`. Of a
   statistics array only rows 0 and 8 are determined: row 0 is core 0's fold — the zero row with the column sums of the blocks
   of `y` (of their squares) at its eight points added in point order —, row 8 core 1's. -/
import proofs.«103476_j5987184410999_2_alg».proof.Proof.Hand.P1r8
import proofs.«103476_j5987184410999_2_alg».proof.Proof.Hand.Agree
import Idealize.ShloMosaic.Lib.Pipeline.Cells
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (RDat Dat Cfg Window cellOf)
open Idealize.ShloMosaic.ValueIdx (ix2 eq_ix2)

variable {F : FTy → Type} [FloatOps F]

variable (V : (c : Dev nD) → (b : Ref sig .tc) → Buf (Elt F) ((c : Thread nD τ).loc b))

/-! ## What the arrays hold after the launch -/

section Arr

/-! ### Inputs: never written -/

theorem arrAt8_in_of (c : Dev nD) (w : Fin cfg8.W) (hw : (cfg8.win w).isOut = false) (n : ℕ)
    (G : Buf (Elt F) ((cfg8.win w).arr.view.loc (c.tc : Thread nD τ))) (h : (rdat8 V c).ArrAt w n G) :
    G = V c (Pipeline.arrRef spec8 w) := by
  rw [RDat.ArrAt_in _ w hw n] at h; exact h.trans (rdat8_A V c w)

/-- The first seven windows are the inputs. -/
theorem isOut8_in : ∀ w : Fin cfg8.W, w.val < 7 → (cfg8.win w).isOut = false := by decide

/-- An input's array is as the region found it. -/
theorem arrAt8_in (c : Dev nD) (w : Fin cfg8.W) (hw : w.val < 7)
    (G : Buf (Elt F) ((cfg8.win w).arr.view.loc (c.tc : Thread nD τ))) (h : (rdat8 V c).ArrAt w cfg8.N G) :
    G = V c (Pipeline.arrRef spec8 w) := arrAt8_in_of V c w (isOut8_in w hw) cfg8.N G h

/-! ### The schedule of the three outputs -/

theorem fetch8_7 : ∀ t : Fin cfg8.N, (cfg8.win 7).fetch t = false :=
  (by decide +kernel : ∀ t : Fin grid8.N, win8_7.fetch t = false)
theorem fetch8_8 : ∀ t : Fin cfg8.N, (cfg8.win 8).fetch t = false :=
  (by decide +kernel : ∀ t : Fin grid8.N, win8_8.fetch t = false)
theorem fetch8_9 : ∀ t : Fin cfg8.N, (cfg8.win 9).fetch t = false :=
  (by decide +kernel : ∀ t : Fin grid8.N, win8_9.fetch t = false)

/-- The block index of the `y` window at point `t`: row block `t`. -/
theorem index8_7 : ∀ t : Fin cfg8.N, (cfg8.win 7).index t = ![t.val, 0] :=
  (by decide +kernel : ∀ t : Fin grid8.N, win8_7.index t = ![t.val, 0])
/-- The block index of a statistics window at point `t`: the core's. -/
theorem index8_8 : ∀ t : Fin cfg8.N, (cfg8.win 8).index t = ![t.val / 8, 0] :=
  (by decide +kernel : ∀ t : Fin grid8.N, win8_8.index t = ![t.val / 8, 0])
theorem index8_9 : ∀ t : Fin cfg8.N, (cfg8.win 9).index t = ![t.val / 8, 0] :=
  (by decide +kernel : ∀ t : Fin grid8.N, win8_9.index t = ![t.val / 8, 0])

/-! ### Window 7: block `t` of the array is the block of `y` at `t` -/

theorem leaves8_7 (c : Dev nD) (t : Fin cfg8.N) (X) (h : (rdat8 V c).Leaves 7 t X) : X = yat8 V c t := by
  obtain ⟨Y, -, hA⟩ := h
  exact (after8_7 V c t Y X).mp hA

theorem arrAt8_7_blk (c : Dev nD) : ∀ (n : ℕ), n ≤ 16 → ∀ G, (rdat8 V c).ArrAt 7 n G →
    ∀ u : Fin cfg8.N, u.val < n → ((cfg8.win 7).blk u).view.read (Elt F) G = yat8 V c u
  | 0, _, _, _, u, hu => absurd hu (Nat.not_lt_zero _)
  | n + 1, hn, G, h, u, hu => by
    have hN : n < cfg8.N := by show n < grid8.N; rw [N_8]; omega
    rw [show n + 1 = (⟨n, hN⟩ : Fin cfg8.N).val + 1 from rfl, RDat.ArrAt_succ, if_pos (flush8_7 _)] at h
    obtain ⟨G₀, X, hG₀, hX, rfl⟩ := h
    obtain rfl := leaves8_7 V c _ X hX
    by_cases hun : u.val = n
    · have e : u = ⟨n, hN⟩ := Fin.ext hun
      subst e
      exact View.read_write_univ _ _
    · refine Eq.trans ?_ (arrAt8_7_blk c n (by omega) G₀ hG₀ u (by omega))
      refine View.read_congr fun i hi => View.write_of_not_mem _ _ _ ?_
      have hd := (cfg8.win 7).disjoint_blk (u := u) (u' := ⟨n, hN⟩) (by
        rw [index8_7, index8_7]; intro e; exact hun (by simpa using congrFun e 0))
      exact Finset.disjoint_left.mp hd hi
end Arr

section Arr3

/-! ### Windows 8 and 9: row 0 of a core's statistics block is the fold of its eight points -/

/-- Point `j` of core `q`'s run of eight. -/
def r8pt (q : Fin 2) (j : ℕ) (hj : j < 8) : Fin cfg8.N := ⟨8 * q.val + j, by have := q.isLt; show _ < grid8.N; rw [N_8]; omega⟩

/-- Row 0 of core `q`'s sum block after its point `j`: the zero row with the column sums of the blocks of `y` at the points
    `0 … j` of the core's run added in that order. -/
def r8sum (c : Dev nD) (q : Fin 2) : (j : ℕ) → j < 8 → FVec F S1x128 .f32
  | 0, h => r8acc r8zrow (yat8 V c (r8pt q 0 h))
  | j + 1, h => r8acc (r8sum c q j (Nat.lt_of_succ_lt h)) (yat8 V c (r8pt q (j + 1) h))

/-- The same of the squares. -/
def r8sumsq (c : Dev nD) (q : Fin 2) : (j : ℕ) → j < 8 → FVec F S1x128 .f32
  | 0, h => r8accsq r8zrow (yat8 V c (r8pt q 0 h))
  | j + 1, h => r8accsq (r8sumsq c q j (Nat.lt_of_succ_lt h)) (yat8 V c (r8pt q (j + 1) h))

theorem leaves8_8 (c : Dev nD) (q : Fin 2) : ∀ (j : ℕ) (hj : j < 8) (X), (rdat8 V c).Leaves 8 (r8pt q j hj) X →
    View.ld X r8row = r8sum V c q j hj
  | 0, hj, X, h => by
    obtain ⟨Y, -, hA⟩ := h
    rw [after8_8, if_pos (by show (8 * q.val + 0) % 8 = 0; omega)] at hA
    exact hA
  | j + 1, hj, X, h => by
    obtain ⟨Y, hF, hA⟩ := h
    rw [after8_8, if_neg (by show ¬(8 * q.val + (j + 1)) % 8 = 0; omega)] at hA
    rw [RDat.finds_of_pos _ (fetch8_8 _) (by show 8 * q.val + (j + 1) ≠ 0; omega)] at hF
    rcases hF with hfl | hL
    · exact absurd ((flush8_8 _).mp hfl) (by show ¬(8 * q.val + (j + 1) - 1) % 8 = 7; omega)
    · have e : (⟨(r8pt q (j + 1) hj).val - 1, Nat.lt_of_le_of_lt (Nat.sub_le _ _) (r8pt q (j + 1) hj).isLt⟩ : Fin cfg8.N)
          = r8pt q j (Nat.lt_of_succ_lt hj) := Fin.ext (by show 8 * q.val + (j + 1) - 1 = 8 * q.val + j; omega)
      rw [e] at hL
      rw [hA, leaves8_8 c q j (Nat.lt_of_succ_lt hj) Y hL]
      rfl

theorem leaves8_9 (c : Dev nD) (q : Fin 2) : ∀ (j : ℕ) (hj : j < 8) (X), (rdat8 V c).Leaves 9 (r8pt q j hj) X →
    View.ld X r8row = r8sumsq V c q j hj
  | 0, hj, X, h => by
    obtain ⟨Y, -, hA⟩ := h
    rw [after8_9, if_pos (by show (8 * q.val + 0) % 8 = 0; omega)] at hA
    exact hA
  | j + 1, hj, X, h => by
    obtain ⟨Y, hF, hA⟩ := h
    rw [after8_9, if_neg (by show ¬(8 * q.val + (j + 1)) % 8 = 0; omega)] at hA
    rw [RDat.finds_of_pos _ (fetch8_9 _) (by show 8 * q.val + (j + 1) ≠ 0; omega)] at hF
    rcases hF with hfl | hL
    · exact absurd ((flush8_9 _).mp hfl) (by show ¬(8 * q.val + (j + 1) - 1) % 8 = 7; omega)
    · have e : (⟨(r8pt q (j + 1) hj).val - 1, Nat.lt_of_le_of_lt (Nat.sub_le _ _) (r8pt q (j + 1) hj).isLt⟩ : Fin cfg8.N)
          = r8pt q j (Nat.lt_of_succ_lt hj) := Fin.ext (by show 8 * q.val + (j + 1) - 1 = 8 * q.val + j; omega)
      rw [e] at hL
      rw [hA, leaves8_9 c q j (Nat.lt_of_succ_lt hj) Y hL]
      rfl

end Arr3

section Arr4

section TwoWrites
variable {sg : RefSig} {κ : Kind} {sp : Space} {s : Shape} {e : EltTy} {Val : EltTy → Type}

/-- After two writes through rectangles of a view, an element of the first rectangle outside the second reads the first payload; -/
theorem r8read_two_writes_fst (v : View sg κ sp s e) (r r' : Rect s) (f : v.ty.Contents Val) (w : r.shape.Idx → Val e)
    (w' : r'.shape.Idx → Val e) (x : r.shape.Idx) (i : s.Idx) (hi : i = r.emb x) (h : i ∉ r'.set) :
    v.read Val ((v.slice r').write Val ((v.slice r).write Val f w Finset.univ) w' Finset.univ) i = w x := by
  subst hi
  rw [View.read_slice_write_of_not_mem r' _ _ _ (by rw [Rect.map_emb_univ]; exact h),
    View.read_slice_write_emb r _ _ (Finset.mem_univ x)]

/-- an element of the second reads the second. -/
theorem r8read_two_writes_snd (v : View sg κ sp s e) (r r' : Rect s) (f : v.ty.Contents Val) (w : r.shape.Idx → Val e)
    (w' : r'.shape.Idx → Val e) (x : r'.shape.Idx) (i : s.Idx) (hi : i = r'.emb x) :
    v.read Val ((v.slice r').write Val ((v.slice r).write Val f w Finset.univ) w' Finset.univ) i = w' x := by
  subst hi
  exact View.read_slice_write_emb r' _ _ (Finset.mem_univ x)
end TwoWrites

theorem arrAt8_8_keep (c : Dev nD) : ∀ (n m : ℕ), m ≤ n → n ≤ 16 → (∀ k, m ≤ k → k < n → k % 8 ≠ 7) →
    (rdat8 V c).ArrAt 8 n = (rdat8 V c).ArrAt 8 m
  | 0, m, hm, _, _ => by obtain rfl := Nat.le_zero.mp hm; rfl
  | n + 1, m, hm, hn, hk => by
    rcases Nat.eq_or_lt_of_le hm with e | hlt
    · rw [e]
    · have hN : n < cfg8.N := by show n < grid8.N; rw [N_8]; omega
      have hs := (rdat8 V c).ArrAt_succ 8 ⟨n, hN⟩
      rw [if_neg (fun hf => hk n (by omega) (by omega) ((flush8_8 ⟨n, hN⟩).mp hf))] at hs
      exact hs.trans (arrAt8_8_keep c n m (by omega) (by omega) fun k h1 h2 => hk k h1 (by omega))

/-- After the launch a statistics array is its entry contents with core 0's block, then core 1's, written over it, each from
    a buffer whose row 0 is the core's fold. -/
theorem arrAt8_8_form (c : Dev nD) (G : Buf (Elt F) ((cfg8.win 8).arr.view.loc (c.tc : Thread nD τ)))
    (h : (rdat8 V c).ArrAt 8 cfg8.N G) :
    ∃ X X', View.ld X r8row = r8sum V c 0 7 (by omega) ∧ View.ld X' r8row = r8sum V c 1 7 (by omega) ∧
      G = ((cfg8.win 8).arr.view.slice ((cfg8.win 8).rect t8_15)).write (Elt F)
            (((cfg8.win 8).arr.view.slice ((cfg8.win 8).rect t8_7)).write (Elt F) ((rdat8 V c).A 8)
              ((cfg8.win 8).cut (cfg8.grid.coords t8_7) X) Finset.univ)
            ((cfg8.win 8).cut (cfg8.grid.coords t8_15) X') Finset.univ := by
  have e16 := (rdat8 V c).ArrAt_succ 8 t8_15
  rw [if_pos ((flush8_8 t8_15).mpr rfl)] at e16
  have h1 : (rdat8 V c).ArrStep 8 t8_15 ((rdat8 V c).ArrAt 8 15) G := Eq.mp (congrFun e16 G) h
  obtain ⟨G₁, X', hG₁, hX', rfl⟩ := h1
  have e15 := arrAt8_8_keep V c 15 8 (by omega) (by omega) (by intro k h1 h2; omega)
  have e8 := (rdat8 V c).ArrAt_succ 8 t8_7
  rw [if_pos ((flush8_8 t8_7).mpr rfl)] at e8
  have h2 : (rdat8 V c).ArrStep 8 t8_7 ((rdat8 V c).ArrAt 8 7) G₁ := Eq.mp (congrFun (e15.trans e8) G₁) hG₁
  obtain ⟨G₀, X, hG₀, hX, rfl⟩ := h2
  have e7 := arrAt8_8_keep V c 7 0 (by omega) (by omega) (by intro k h1 h2; omega)
  have h3 : G₀ = (rdat8 V c).A 8 := Eq.mp (congrFun e7 G₀) hG₀
  subst h3
  exact ⟨X, X', leaves8_8 V c 0 7 (by omega) X hX, leaves8_8 V c 1 7 (by omega) X' hX', rfl⟩

theorem arrAt8_9_keep (c : Dev nD) : ∀ (n m : ℕ), m ≤ n → n ≤ 16 → (∀ k, m ≤ k → k < n → k % 8 ≠ 7) →
    (rdat8 V c).ArrAt 9 n = (rdat8 V c).ArrAt 9 m
  | 0, m, hm, _, _ => by obtain rfl := Nat.le_zero.mp hm; rfl
  | n + 1, m, hm, hn, hk => by
    rcases Nat.eq_or_lt_of_le hm with e | hlt
    · rw [e]
    · have hN : n < cfg8.N := by show n < grid8.N; rw [N_8]; omega
      have hs := (rdat8 V c).ArrAt_succ 9 ⟨n, hN⟩
      rw [if_neg (fun hf => hk n (by omega) (by omega) ((flush8_9 ⟨n, hN⟩).mp hf))] at hs
      exact hs.trans (arrAt8_9_keep c n m (by omega) (by omega) fun k h1 h2 => hk k h1 (by omega))

/-- After the launch a statistics array is its entry contents with core 0's block, then core 1's, written over it, each from
    a buffer whose row 0 is the core's fold. -/
theorem arrAt8_9_form (c : Dev nD) (G : Buf (Elt F) ((cfg8.win 9).arr.view.loc (c.tc : Thread nD τ)))
    (h : (rdat8 V c).ArrAt 9 cfg8.N G) :
    ∃ X X', View.ld X r8row = r8sumsq V c 0 7 (by omega) ∧ View.ld X' r8row = r8sumsq V c 1 7 (by omega) ∧
      G = ((cfg8.win 9).arr.view.slice ((cfg8.win 9).rect t8_15)).write (Elt F)
            (((cfg8.win 9).arr.view.slice ((cfg8.win 9).rect t8_7)).write (Elt F) ((rdat8 V c).A 9)
              ((cfg8.win 9).cut (cfg8.grid.coords t8_7) X) Finset.univ)
            ((cfg8.win 9).cut (cfg8.grid.coords t8_15) X') Finset.univ := by
  have e16 := (rdat8 V c).ArrAt_succ 9 t8_15
  rw [if_pos ((flush8_9 t8_15).mpr rfl)] at e16
  have h1 : (rdat8 V c).ArrStep 9 t8_15 ((rdat8 V c).ArrAt 9 15) G := Eq.mp (congrFun e16 G) h
  obtain ⟨G₁, X', hG₁, hX', rfl⟩ := h1
  have e15 := arrAt8_9_keep V c 15 8 (by omega) (by omega) (by intro k h1 h2; omega)
  have e8 := (rdat8 V c).ArrAt_succ 9 t8_7
  rw [if_pos ((flush8_9 t8_7).mpr rfl)] at e8
  have h2 : (rdat8 V c).ArrStep 9 t8_7 ((rdat8 V c).ArrAt 9 7) G₁ := Eq.mp (congrFun (e15.trans e8) G₁) hG₁
  obtain ⟨G₀, X, hG₀, hX, rfl⟩ := h2
  have e7 := arrAt8_9_keep V c 7 0 (by omega) (by omega) (by intro k h1 h2; omega)
  have h3 : G₀ = (rdat8 V c).A 9 := Eq.mp (congrFun e7 G₀) hG₀
  subst h3
  exact ⟨X, X', leaves8_9 V c 0 7 (by omega) X hX, leaves8_9 V c 1 7 (by omega) X' hX', rfl⟩

end Arr4

section Arr5

section RowApply
/-- The host's row slices at an index. -/
theorem r8row0_apply (X : (⟨S16x128, .f32⟩ : BufTy).Contents (Elt F)) (x : S1x128.Idx) :
    row0 X x = X (ix2 (⟨(x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 0 + (x 0).val = (x 0).val; omega)
  | ⟨1, _⟩ => exact Fin.ext (by show 0 + (x 1).val = (x 1).val; omega)
theorem r8row8_apply (X : (⟨S16x128, .f32⟩ : BufTy).Contents (Elt F)) (x : S1x128.Idx) :
    row8 X x = X (ix2 (⟨8 + (x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 8 + (x 0).val = 8 + (x 0).val; omega)
  | ⟨1, _⟩ => exact Fin.ext (by show 0 + (x 1).val = (x 1).val; omega)
end RowApply

set_option maxHeartbeats 1000000 in
/-- Rows 0 and 8 of the array after the launch are the two cores' folds. -/
theorem arrAt8_8_rows (c : Dev nD) (G : Buf (Elt F) ((cfg8.win 8).arr.view.loc (c.tc : Thread nD τ)))
    (h : (rdat8 V c).ArrAt 8 cfg8.N G) : row0 G = r8sum V c 0 7 (by omega) ∧ row8 G = r8sum V c 1 7 (by omega) := by
  obtain ⟨X, X', hX, hX', rfl⟩ := arrAt8_8_form V c G h
  constructor
  · funext x
    have hx0 : (x 0).val < 1 := (x 0).isLt
    rw [← hX, r8row0_apply]
    have hi : ix2 (⟨(x 0).val, by omega⟩ : Fin 16) (⟨(x 1).val, (x 1).isLt⟩ : Fin 128) = ((cfg8.win 8).rect t8_7).emb (r8row.emb x) := by
      funext a; apply Fin.ext
      rw [Window.rect_emb_val, index8_8]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg8.win 8).rect t8_15).set := by
      intro hm
      have h0 := (Rect.mem_set_unit.mp hm 0).1
      rw [index8_8] at h0
      have h0' : 1 * 8 ≤ (x 0).val := h0
      omega
    exact r8read_two_writes_fst (Val := Elt F) (cfg8.win 8).arr.view ((cfg8.win 8).rect t8_7) ((cfg8.win 8).rect t8_15) ((rdat8 V c).A 8)
      ((cfg8.win 8).cut (cfg8.grid.coords t8_7) X) ((cfg8.win 8).cut (cfg8.grid.coords t8_15) X') (r8row.emb x) _ hi hnot
  · funext x
    have hx0 : (x 0).val < 1 := (x 0).isLt
    rw [← hX', r8row8_apply]
    have hi : ix2 (⟨8 + (x 0).val, by omega⟩ : Fin 16) (⟨(x 1).val, (x 1).isLt⟩ : Fin 128) = ((cfg8.win 8).rect t8_15).emb (r8row.emb x) := by
      funext a; apply Fin.ext
      rw [Window.rect_emb_val, index8_8]
      match a with
      | ⟨0, _⟩ => show 8 + (x 0).val = 1 * 8 + (0 + 1 * (x 0).val); omega
      | ⟨1, _⟩ => show (x 1).val = 0 * 128 + (0 + 1 * (x 1).val); omega
    exact r8read_two_writes_snd (Val := Elt F) (cfg8.win 8).arr.view ((cfg8.win 8).rect t8_7) ((cfg8.win 8).rect t8_15) ((rdat8 V c).A 8)
      ((cfg8.win 8).cut (cfg8.grid.coords t8_7) X) ((cfg8.win 8).cut (cfg8.grid.coords t8_15) X') (r8row.emb x) _ hi

set_option maxHeartbeats 1000000 in
/-- Rows 0 and 8 of the array after the launch are the two cores' folds. -/
theorem arrAt8_9_rows (c : Dev nD) (G : Buf (Elt F) ((cfg8.win 9).arr.view.loc (c.tc : Thread nD τ)))
    (h : (rdat8 V c).ArrAt 9 cfg8.N G) : row0 G = r8sumsq V c 0 7 (by omega) ∧ row8 G = r8sumsq V c 1 7 (by omega) := by
  obtain ⟨X, X', hX, hX', rfl⟩ := arrAt8_9_form V c G h
  constructor
  · funext x
    have hx0 : (x 0).val < 1 := (x 0).isLt
    rw [← hX, r8row0_apply]
    have hi : ix2 (⟨(x 0).val, by omega⟩ : Fin 16) (⟨(x 1).val, (x 1).isLt⟩ : Fin 128) = ((cfg8.win 9).rect t8_7).emb (r8row.emb x) := by
      funext a; apply Fin.ext
      rw [Window.rect_emb_val, index8_9]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg8.win 9).rect t8_15).set := by
      intro hm
      have h0 := (Rect.mem_set_unit.mp hm 0).1
      rw [index8_9] at h0
      have h0' : 1 * 8 ≤ (x 0).val := h0
      omega
    exact r8read_two_writes_fst (Val := Elt F) (cfg8.win 9).arr.view ((cfg8.win 9).rect t8_7) ((cfg8.win 9).rect t8_15) ((rdat8 V c).A 9)
      ((cfg8.win 9).cut (cfg8.grid.coords t8_7) X) ((cfg8.win 9).cut (cfg8.grid.coords t8_15) X') (r8row.emb x) _ hi hnot
  · funext x
    have hx0 : (x 0).val < 1 := (x 0).isLt
    rw [← hX', r8row8_apply]
    have hi : ix2 (⟨8 + (x 0).val, by omega⟩ : Fin 16) (⟨(x 1).val, (x 1).isLt⟩ : Fin 128) = ((cfg8.win 9).rect t8_15).emb (r8row.emb x) := by
      funext a; apply Fin.ext
      rw [Window.rect_emb_val, index8_9]
      match a with
      | ⟨0, _⟩ => show 8 + (x 0).val = 1 * 8 + (0 + 1 * (x 0).val); omega
      | ⟨1, _⟩ => show (x 1).val = 0 * 128 + (0 + 1 * (x 1).val); omega
    exact r8read_two_writes_snd (Val := Elt F) (cfg8.win 9).arr.view ((cfg8.win 9).rect t8_7) ((cfg8.win 9).rect t8_15) ((rdat8 V c).A 9)
      ((cfg8.win 9).cut (cfg8.grid.coords t8_7) X) ((cfg8.win 9).cut (cfg8.grid.coords t8_15) X') (r8row.emb x) _ hi

/-- A canonical statistics array: every row of a core's eight is that core's fold (only rows 0 and 8 are ever read). -/
def sumArr8 (c : Dev nD) : Buf (Elt F) ((cfg8.win 8).arr.view.loc (c.tc : Thread nD τ)) :=
  fun (j : S16x128.Idx) => r8sum V c ⟨(j 0).val / 8, by have := ValueIdx.idx2_lt0 j; omega⟩ 7 (by omega) (ix2 (0 : Fin 1) (j 1))

theorem row0_sumArr8 (c : Dev nD) : row0 (sumArr8 V c) = r8sum V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r8row0_apply]
  show r8sum V c ⟨(x 0).val / 8, _⟩ 7 _ (ix2 (0 : Fin 1) (⟨(x 1).val, _⟩ : Fin 128)) = _
  rw [e1, e2]

theorem row8_sumArr8 (c : Dev nD) : row8 (sumArr8 V c) = r8sum V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r8row8_apply]
  show r8sum V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt8_8 (c : Dev nD) (G : Buf (Elt F) ((cfg8.win 8).arr.view.loc (c.tc : Thread nD τ)))
    (h : (rdat8 V c).ArrAt 8 cfg8.N G) : row0 G = row0 (sumArr8 V c) ∧ row8 G = row8 (sumArr8 V c) := by
  rw [row0_sumArr8, row8_sumArr8]; exact arrAt8_8_rows V c G h

/-- A canonical statistics array: every row of a core's eight is that core's fold (only rows 0 and 8 are ever read). -/
def sqArr8 (c : Dev nD) : Buf (Elt F) ((cfg8.win 9).arr.view.loc (c.tc : Thread nD τ)) :=
  fun (j : S16x128.Idx) => r8sumsq V c ⟨(j 0).val / 8, by have := ValueIdx.idx2_lt0 j; omega⟩ 7 (by omega) (ix2 (0 : Fin 1) (j 1))

theorem row0_sqArr8 (c : Dev nD) : row0 (sqArr8 V c) = r8sumsq V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r8row0_apply]
  show r8sumsq V c ⟨(x 0).val / 8, _⟩ 7 _ (ix2 (0 : Fin 1) (⟨(x 1).val, _⟩ : Fin 128)) = _
  rw [e1, e2]

theorem row8_sqArr8 (c : Dev nD) : row8 (sqArr8 V c) = r8sumsq V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r8row8_apply]
  show r8sumsq V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt8_9 (c : Dev nD) (G : Buf (Elt F) ((cfg8.win 9).arr.view.loc (c.tc : Thread nD τ)))
    (h : (rdat8 V c).ArrAt 9 cfg8.N G) : row0 G = row0 (sqArr8 V c) ∧ row8 G = row8 (sqArr8 V c) := by
  rw [row0_sqArr8, row8_sqArr8]; exact arrAt8_9_rows V c G h

/-! ### The folds, written out: the zero row, then the eight blocks' column sums added in point order -/

theorem r8sum_core0 (c : Dev nD) : r8sum V c 0 7 (by omega) = r8acc (r8acc (r8acc (r8acc (r8acc (r8acc (r8acc (r8acc r8zrow (yat8 V c t8_0)) (yat8 V c t8_1)) (yat8 V c t8_2)) (yat8 V c t8_3)) (yat8 V c t8_4)) (yat8 V c t8_5)) (yat8 V c t8_6)) (yat8 V c t8_7) := rfl
theorem r8sum_core1 (c : Dev nD) : r8sum V c 1 7 (by omega) = r8acc (r8acc (r8acc (r8acc (r8acc (r8acc (r8acc (r8acc r8zrow (yat8 V c t8_8)) (yat8 V c t8_9)) (yat8 V c t8_10)) (yat8 V c t8_11)) (yat8 V c t8_12)) (yat8 V c t8_13)) (yat8 V c t8_14)) (yat8 V c t8_15) := rfl
theorem r8sumsq_core0 (c : Dev nD) : r8sumsq V c 0 7 (by omega) = r8accsq (r8accsq (r8accsq (r8accsq (r8accsq (r8accsq (r8accsq (r8accsq r8zrow (yat8 V c t8_0)) (yat8 V c t8_1)) (yat8 V c t8_2)) (yat8 V c t8_3)) (yat8 V c t8_4)) (yat8 V c t8_5)) (yat8 V c t8_6)) (yat8 V c t8_7) := rfl
theorem r8sumsq_core1 (c : Dev nD) : r8sumsq V c 1 7 (by omega) = r8accsq (r8accsq (r8accsq (r8accsq (r8accsq (r8accsq (r8accsq (r8accsq r8zrow (yat8 V c t8_8)) (yat8 V c t8_9)) (yat8 V c t8_10)) (yat8 V c t8_11)) (yat8 V c t8_12)) (yat8 V c t8_13)) (yat8 V c t8_14)) (yat8 V c t8_15) := rfl

/-! ### Window 7: the whole array -/

/-- The array of `y`: row block `p` is the block of `y` at point `p`. -/
def yArr8 (c : Dev nD) : Buf (Elt F) ((cfg8.win 7).arr.view.loc (c.tc : Thread nD τ)) :=
  fun (j : S65536x128.Idx) => yat8 V c ⟨(j 0).val / 4096, by have := ValueIdx.idx2_lt0 j; show _ < grid8.N; rw [N_8]; omega⟩
    (ix2 (⟨(j 0).val % 4096, Nat.mod_lt _ (by decide)⟩ : Fin 4096) (j 1))

theorem yArr8_apply (c : Dev nD) (p : Fin 16) (q : Fin 4096) (j : Fin 128) :
    yArr8 V c (ix2 (⟨p.val * 4096 + q.val, by have := p.isLt; have := q.isLt; omega⟩ : Fin 65536) j)
      = yat8 V c ⟨p.val, by show _ < grid8.N; rw [N_8]; exact p.isLt⟩ (ix2 q j) := by
  have e1 : (⟨(p.val * 4096 + q.val) / 4096, by have := p.isLt; have := q.isLt; show _ < grid8.N; rw [N_8]; omega⟩ : Fin cfg8.N)
      = ⟨p.val, by show _ < grid8.N; rw [N_8]; exact p.isLt⟩ := Fin.ext (by have := q.isLt; show (p.val * 4096 + q.val) / 4096 = p.val; omega)
  have e2 : (⟨(p.val * 4096 + q.val) % 4096, Nat.mod_lt _ (by decide)⟩ : Fin 4096) = q :=
    Fin.ext (by have := q.isLt; show (p.val * 4096 + q.val) % 4096 = q.val; omega)
  show yat8 V c ⟨(p.val * 4096 + q.val) / 4096, _⟩ (ix2 (⟨(p.val * 4096 + q.val) % 4096, _⟩ : Fin 4096) j) = _
  rw [e1, e2]

theorem arrAt8_7 (c : Dev nD) (G : Buf (Elt F) ((cfg8.win 7).arr.view.loc (c.tc : Thread nD τ)))
    (h : (rdat8 V c).ArrAt 7 cfg8.N G) : G = yArr8 V c := by
  funext (j : S65536x128.Idx)
  have hj := ValueIdx.idx2_lt0 j
  let u : Fin cfg8.N := ⟨(j 0).val / 4096, by show _ < grid8.N; rw [N_8]; omega⟩
  let x : S4096x128.Idx := ix2 (⟨(j 0).val % 4096, Nat.mod_lt _ (by decide)⟩ : Fin 4096) (j 1)
  have hb := congrFun (arrAt8_7_blk V c cfg8.N (le_of_eq N_8) G h u u.isLt) x
  have hjx : ((cfg8.win 7).rect u).emb x = j := by
    funext a; apply Fin.ext
    rw [Window.rect_emb_val, index8_7]
    match a with
    | ⟨0, _⟩ => show (j 0).val / 4096 * 4096 + (j 0).val % 4096 = (j 0).val; omega
    | ⟨1, _⟩ => show 0 * 128 + (j 1).val = (j 1).val; omega
  have hr : ((cfg8.win 7).blk u).view.read (Elt F) G x = G (((cfg8.win 7).rect u).emb x) := rfl
  rw [hr, hjx] at hb
  exact hb
end Arr5

end Cert.KernelIdeal.Hand
end
-- ==== Proof.Hand.P2r9.lean ====
import proofs.«103476_j5987184410999_2_alg».proof.Proof.Gen.KernelIdeal.Launch
import proofs.«103476_j5987184410999_2_alg».proof.Proof.Gen.KernelIdeal.Skeleton
import proofs.«103476_j5987184410999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 x 128 extents: the elaborator's structural look recurses once per
-- coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 9 of @main: custom_call 9, `cc9__pass2_noise_kernel` (pipeline 9), at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for ANY proof
    data whose array is `V`'s (`hA`) and whose body leaves the block in place (`hafter`): unfetched, the block
    index has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for ANY proof
    data whose array is `V`'s (`hA`) and whose body leaves the block in place (`hafter`): unfetched, the block
    index has not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for ANY proof
    data whose array is `V`'s (`hA`) and whose body leaves the block in place (`hafter`): unfetched, the block
    index has not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for ANY proof
    data whose array is `V`'s (`hA`) and whose body leaves the block in place (`hafter`): unfetched, the block
    index has not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for ANY proof
    data whose array is `V`'s (`hA`) and whose body leaves the block in place (`hafter`): unfetched, the block
    index has not moved; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not, for ANY proof
    data whose array is `V`'s (`hA`) and whose body leaves the block in place (`hafter`): unfetched, the block
    index has not moved; the window is uncut and never idle. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S4096x128 := Rect.unit (s := S4096x128) ![0, 0] S4096x128.size inb_S4096x128_S4096x128_0_0
abbrev r9_1 : Rect S1x128 := Rect.unit (s := S1x128) ![0, 0] S1x128.size inb_S1x128_S1x128_0_0

/-! ## What the body leaves in the output window's buffer -/

/-- Window 6's staging buffer after the body, from the input windows' blocks (the block to normalise, the mean,
    the inverse deviation, the scale, the shift, the noise block): its one store as a piece (`View.canon`; the
    payload is the skeleton's, its arguments in the order the body loads them). -/
def out9_6 (x0 : Vec F S4096x128 .f32) (x1 x2 x3 x4 : Vec F S1x128 .f32) (x5 : Vec F S4096x128 .f32) : Vec F S4096x128 .f32 :=
  View.canon [⟨r9_0, k9_pay1 (View.ld x0 r9_0) (View.ld x3 r9_1) (View.ld x1 r9_1) (View.ld x2 r9_1) (View.ld x4 r9_1) (View.ld x5 r9_0)⟩]

/-- The store tiles the buffer, so it covers it. -/
theorem cover9_6 (p0 : Vec F S4096x128 .f32) (y : S4096x128.Idx) :
    ∃ pc ∈ ([⟨r9_0, p0⟩] : List (View.Piece (Elt F) S4096x128 .f32)), y ∈ pc.1.set :=
  View.cover_of_tiled [⟨r9_0, p0⟩] S4096x128.size (by rfl) y

/-! ## The body's triple -/

set_option maxHeartbeats 1000000 in
/-- The kernel body on whole staging memrefs, the inputs' at read contents `xW` and the output's at anything, runs to
    the continuation holding the inputs' as they were and the output's at `out9_6` of the inputs'. -/
theorem sound_kernel9 (c : Dev nD) (E : Set ℕ) (i : grid9.Coords)
    (arg1 : Memref sig .tc .vmem S4096x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x128 .f32) (x1 x2 x3 x4 : Vec F S1x128 .f32) (x5 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out9_6 x0 x1 x2 x3 x4 x5)) -∗ K ⟨⟩))
      ⊢ wp frame (wpE (defs₀ (F := F)) Variants.none c none) E
          (cc9__pass2_noise_kernel i arg1 harg1 arg2 harg2 arg3 harg3 arg4 harg4 arg5 harg5 arg6 harg6 arg7 harg7) K := by
  simp only [cc9__pass2_noise_kernel_eq_skeleton]; unfold cc9__pass2_noise_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_6 _)

/-! ## The pipeline's proof data -/

/-- The proof data of pipeline 9 on core `c`: the arrays as the region finds them (`V`); after the body at
    point `t` each input's buffer at its block and the output's at `out9_6` of the input blocks; the invariant the
    class's (`Pipeline.ΦA`: the scoped rest and the generator register, untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t =
    out9_6 (iblk9 V c 0 t) (iblk9 V c 1 t) (iblk9 V c 2 t) (iblk9 V c 3 t) (iblk9 V c 4 t) (iblk9 V c 5 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation, at a generic point -/

/-- What the body is called with at point `t` (the obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ _ _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.Hand.ChainDefs4.lean ====
/-
  The canonical contents of the TensorCore's buffers around network node 4: after host stretch 8, after its statistics pass (region 8;
  the two statistics arrays at a canonical completion of their undefined rows), after host stretch 9, after its normalisation pass (region 9).
-/
import proofs.«103476_j5987184410999_2_alg».proof.Proof.Hand.ChainDefs3
import proofs.«103476_j5987184410999_2_alg».proof.Proof.Hand.P1r8Arr
import proofs.«103476_j5987184410999_2_alg».proof.Proof.Hand.P2r9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-- After host stretch 8: what region 8 is entered from. -/
def W17 (c : Dev nD) : Valuation τ sig (Elt F) := StableHlo.after hostOps8 (W16 m c)
abbrev E8 : (c : Dev nD) → (b : Ref sig .tc) → Buf (Elt F) ((c : Thread nD τ).loc b) := fun c b => W17 m c b
/-- What region 8 leaves in its arrays: the inputs as found, the product array, and the two statistics arrays at their
    canonical completion. -/
def GA8 (c : Dev nD) : (w : Fin cfg8.W) → Buf (Elt F) ((cfg8.win w).arr.view.loc (c.tc : Thread nD τ))
  | ⟨0, _⟩ => E8 m c (Pipeline.arrRef spec8 0)
  | ⟨1, _⟩ => E8 m c (Pipeline.arrRef spec8 1)
  | ⟨2, _⟩ => E8 m c (Pipeline.arrRef spec8 2)
  | ⟨3, _⟩ => E8 m c (Pipeline.arrRef spec8 3)
  | ⟨4, _⟩ => E8 m c (Pipeline.arrRef spec8 4)
  | ⟨5, _⟩ => E8 m c (Pipeline.arrRef spec8 5)
  | ⟨6, _⟩ => E8 m c (Pipeline.arrRef spec8 6)
  | ⟨7, _⟩ => yArr8 (E8 m) c
  | ⟨8, _⟩ => sumArr8 (E8 m) c
  | ⟨9, _⟩ => sqArr8 (E8 m) c
def W18 (c : Dev nD) : Valuation τ sig (Elt F) := Pipeline.withArrays spec8 c (W17 m c) (GA8 m c)
/-- After host stretch 9: what region 9 is entered from. -/
def W19 (c : Dev nD) : Valuation τ sig (Elt F) := StableHlo.after hostOps9 (W18 m c)
abbrev E9 : (c : Dev nD) → (b : Ref sig .tc) → Buf (Elt F) ((c : Thread nD τ).loc b) := fun c b => W19 m c b
/-- What region 9 leaves in its arrays. -/
def GA9 (c : Dev nD) (w : Fin cfg9.W) : Buf (Elt F) ((cfg9.win w).arr.view.loc (c.tc : Thread nD τ)) := (dat9 (E9 m) c).arrAt w cfg9.N
def W20 (c : Dev nD) : Valuation τ sig (Elt F) := Pipeline.withArrays spec9 c (W19 m c) (GA9 m c)

end Cert.KernelIdeal.Hand

end
-- ==== Proof.Hand.ChainDefs.lean ====
/-
  The canonical contents by boundary number, the relational proof data of the ten pipelines at their regions' canonical entry contents, and
  the invariant: contents that agree with the canonical ones off the undefined rows, and exactly on the statistics arrays not yet produced.
-/
import proofs.«103476_j5987184410999_2_alg».proof.Proof.Hand.ChainDefs4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-- The canonical contents at boundary `j`. -/
def Wj : ℕ → Dev nD → Valuation τ sig (Elt F)
  | 0 => W0 m
  | 1 => W1 m
  | 2 => W2 m
  | 3 => W3 m
  | 4 => W4 m
  | 5 => W5 m
  | 6 => W6 m
  | 7 => W7 m
  | 8 => W8 m
  | 9 => W9 m
  | 10 => W10 m
  | 11 => W11 m
  | 12 => W12 m
  | 13 => W13 m
  | 14 => W14 m
  | 15 => W15 m
  | 16 => W16 m
  | 17 => W17 m
  | 18 => W18 m
  | 19 => W19 m
  | _ => W20 m

/-! ## The pipelines' proof data, each at its region's canonical entry contents -/

def rdats : (p : Fin 10) → (c : Dev nD) → RDat τ (Elt F) Unit ℕ (UR sig nD τ) ℕ (pc (F := F) p) c
  | ⟨0, _⟩ => fun c => rdat0 (E0 m) c
  | ⟨1, _⟩ => fun c => (dat1 (E1 m) c).toR
  | ⟨2, _⟩ => fun c => rdat2 (E2 m) c
  | ⟨3, _⟩ => fun c => (dat3 (E3 m) c).toR
  | ⟨4, _⟩ => fun c => rdat4 (E4 m) c
  | ⟨5, _⟩ => fun c => (dat5 (E5 m) c).toR
  | ⟨6, _⟩ => fun c => rdat6 (E6 m) c
  | ⟨7, _⟩ => fun c => (dat7 (E7 m) c).toR
  | ⟨8, _⟩ => fun c => rdat8 (E8 m) c
  | ⟨9, _⟩ => fun c => (dat9 (E9 m) c).toR

/-! ## The invariant -/

/-- The statistics arrays no region has produced before boundary `j`. -/
def Jrest : ℕ → List (Ref sig .tc)
  | 0 => [main_v14_1, main_v14_2, main_v47_1, main_v47_2, main_v92_1, main_v92_2, main_v125_1, main_v125_2, main_v158_1, main_v158_2]
  | 1 => [main_v14_1, main_v14_2, main_v47_1, main_v47_2, main_v92_1, main_v92_2, main_v125_1, main_v125_2, main_v158_1, main_v158_2]
  | 2 => [main_v47_1, main_v47_2, main_v92_1, main_v92_2, main_v125_1, main_v125_2, main_v158_1, main_v158_2]
  | 3 => [main_v47_1, main_v47_2, main_v92_1, main_v92_2, main_v125_1, main_v125_2, main_v158_1, main_v158_2]
  | 4 => [main_v47_1, main_v47_2, main_v92_1, main_v92_2, main_v125_1, main_v125_2, main_v158_1, main_v158_2]
  | 5 => [main_v47_1, main_v47_2, main_v92_1, main_v92_2, main_v125_1, main_v125_2, main_v158_1, main_v158_2]
  | 6 => [main_v92_1, main_v92_2, main_v125_1, main_v125_2, main_v158_1, main_v158_2]
  | 7 => [main_v92_1, main_v92_2, main_v125_1, main_v125_2, main_v158_1, main_v158_2]
  | 8 => [main_v92_1, main_v92_2, main_v125_1, main_v125_2, main_v158_1, main_v158_2]
  | 9 => [main_v92_1, main_v92_2, main_v125_1, main_v125_2, main_v158_1, main_v158_2]
  | 10 => [main_v125_1, main_v125_2, main_v158_1, main_v158_2]
  | 11 => [main_v125_1, main_v125_2, main_v158_1, main_v158_2]
  | 12 => [main_v125_1, main_v125_2, main_v158_1, main_v158_2]
  | 13 => [main_v125_1, main_v125_2, main_v158_1, main_v158_2]
  | 14 => [main_v158_1, main_v158_2]
  | 15 => [main_v158_1, main_v158_2]
  | 16 => [main_v158_1, main_v158_2]
  | 17 => [main_v158_1, main_v158_2]
  | 18 => []
  | _ => []

/-- Contents `V` at boundary `j`: the canonical ones off the undefined rows, and exactly on the statistics arrays still to come. -/
def Inv (j : ℕ) (c : Dev nD) (V : Valuation τ sig (Elt F)) : Prop :=
  Agree V (Wj m j c) ∧ ∀ s ∈ Jrest j, V s = Wj m j c s

end Cert.KernelIdeal.Hand

end
-- ==== Proof.Hand.Run.lean ====
/-
  @main run as twenty segments (ten host stretches, ten kernel regions) over thread states "every unscoped buffer at
  some contents satisfying `I j`": if the launch contents satisfy `I 0`, every host stretch carries `I (2k)` to
  `I (2k+1)` and every region `I (2p+1)` to `I (2p+2)` (its arrays pinned at entry, anything its write-backs may
  leave at exit), then every weakly fair execution terminates and the final memory is contents satisfying `I 20`.
-/
import proofs.«103476_j5987184410999_2_alg».proof.Proof.Hand.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The launch facts of the ten pipelines, by number. -/
theorem launchAll : ∀ p : Fin 10, Pipeline.LaunchFacts (nD := nD) (τ := τ) cfgs p
  | ⟨0, _⟩ => launch0 | ⟨1, _⟩ => launch1 | ⟨2, _⟩ => launch2 | ⟨3, _⟩ => launch3 | ⟨4, _⟩ => launch4
  | ⟨5, _⟩ => launch5 | ⟨6, _⟩ => launch6 | ⟨7, _⟩ => launch7 | ⟨8, _⟩ => launch8 | ⟨9, _⟩ => launch9

set_option backward.isDefEq.respectTransparency.types false in
theorem run_inv (m : (ℓ : Loc nD τ sig) → Buf (Elt F) ℓ) (ρ : Dev nD → PrngReg)
    (rdats : (p : Fin 10) → (c : Dev nD) → RDat τ (Elt F) Unit ℕ (UR sig nD τ) ℕ (pc (F := F) p) c)
    (hbody : ∀ p c, (rdats p c).BodyObligation (defs₀ (F := F)) 𝒱₀ () Set.univ)
    (hΦ : ∀ p c t, (rdats p c).Φ t = Pipeline.ΦA (pc (F := F) p).spec c)
    (hq : ∀ p c w, (rdats p c).share w = fullShare)
    (howed : ∀ p c t, (rdats p c).owed t = 0)
    (hrec : ∀ p c t, (rdats p c).recorded t = Set.univ)
    (I : ℕ → Dev nD → Valuation τ sig (Elt F) → Prop)
    (h0 : ∀ c, I 0 c (fun b => m (c, b)))
    (hh0 : ∀ c V, I 0 c V → I 1 c (StableHlo.after hostOps0 V))
    (hh1 : ∀ c V, I 2 c V → I 3 c (StableHlo.after hostOps1 V))
    (hh2 : ∀ c V, I 4 c V → I 5 c (StableHlo.after hostOps2 V))
    (hh3 : ∀ c V, I 6 c V → I 7 c (StableHlo.after hostOps3 V))
    (hh4 : ∀ c V, I 8 c V → I 9 c (StableHlo.after hostOps4 V))
    (hh5 : ∀ c V, I 10 c V → I 11 c (StableHlo.after hostOps5 V))
    (hh6 : ∀ c V, I 12 c V → I 13 c (StableHlo.after hostOps6 V))
    (hh7 : ∀ c V, I 14 c V → I 15 c (StableHlo.after hostOps7 V))
    (hh8 : ∀ c V, I 16 c V → I 17 c (StableHlo.after hostOps8 V))
    (hh9 : ∀ c V, I 18 c V → I 19 c (StableHlo.after hostOps9 V))
    (hA : ∀ (p : Fin 10) c V, I (2 * p.val + 1) c V → ∀ w, (rdats p c).A w = V (Pipeline.arrRef (pc (F := F) p).spec w))
    (hstep : ∀ (p : Fin 10) c V, I (2 * p.val + 1) c V →
      ∀ G : (w : Fin (pc (F := F) p).W) → Buf (Elt F) (((pc (F := F) p).spec w).arr.view.loc (c.tc : Thread nD τ)),
        (∀ w, (rdats p c).ArrAt w (pc (F := F) p).N (G w)) → I (2 * p.val + 2) c (Pipeline.withArrays (pc (F := F) p).spec c V G))
    {Q : PUnit × MemSt nD τ sig (Elt F) → Prop}
    (hQ : ∀ s : MemSt nD τ sig (Elt F),
      (∀ c : Dev nD, ∃ V, I 20 c V ∧ ∀ b ∈ Pipeline.ucRefs τ sig, s.mem (((c : Thread nD τ)).1, b) = V b) → Q (⟨⟩, s)) :
    θ_run defs (onTc (τ := τ) (main (F := F))) ⟨m, fun _ => 0, ρ⟩ Q := by
  refine Pipeline.RDat.θ_run_regions_kit (pcfgs (F := F)) adm rdats () cellOf_inj emb₁ defs₀ 𝒱₀ L lv m ρ main
    [
      .host (hsegI hostOps0 hostOps0_sub hostOps0_fresh (I 0) (I 1) hh0),
      .region (regI rdats 0 (launchAll 0) (hbody 0) (hΦ 0) (hq 0) (howed 0) (hrec 0) (I 1) (I 2) (hA 0) (hstep 0)),
      .host (hsegI hostOps1 hostOps1_sub hostOps1_fresh (I 2) (I 3) hh1),
      .region (regI rdats 1 (launchAll 1) (hbody 1) (hΦ 1) (hq 1) (howed 1) (hrec 1) (I 3) (I 4) (hA 1) (hstep 1)),
      .host (hsegI hostOps2 hostOps2_sub hostOps2_fresh (I 4) (I 5) hh2),
      .region (regI rdats 2 (launchAll 2) (hbody 2) (hΦ 2) (hq 2) (howed 2) (hrec 2) (I 5) (I 6) (hA 2) (hstep 2)),
      .host (hsegI hostOps3 hostOps3_sub hostOps3_fresh (I 6) (I 7) hh3),
      .region (regI rdats 3 (launchAll 3) (hbody 3) (hΦ 3) (hq 3) (howed 3) (hrec 3) (I 7) (I 8) (hA 3) (hstep 3)),
      .host (hsegI hostOps4 hostOps4_sub hostOps4_fresh (I 8) (I 9) hh4),
      .region (regI rdats 4 (launchAll 4) (hbody 4) (hΦ 4) (hq 4) (howed 4) (hrec 4) (I 9) (I 10) (hA 4) (hstep 4)),
      .host (hsegI hostOps5 hostOps5_sub hostOps5_fresh (I 10) (I 11) hh5),
      .region (regI rdats 5 (launchAll 5) (hbody 5) (hΦ 5) (hq 5) (howed 5) (hrec 5) (I 11) (I 12) (hA 5) (hstep 5)),
      .host (hsegI hostOps6 hostOps6_sub hostOps6_fresh (I 12) (I 13) hh6),
      .region (regI rdats 6 (launchAll 6) (hbody 6) (hΦ 6) (hq 6) (howed 6) (hrec 6) (I 13) (I 14) (hA 6) (hstep 6)),
      .host (hsegI hostOps7 hostOps7_sub hostOps7_fresh (I 14) (I 15) hh7),
      .region (regI rdats 7 (launchAll 7) (hbody 7) (hΦ 7) (hq 7) (howed 7) (hrec 7) (I 15) (I 16) (hA 7) (hstep 7)),
      .host (hsegI hostOps8 hostOps8_sub hostOps8_fresh (I 16) (I 17) hh8),
      .region (regI rdats 8 (launchAll 8) (hbody 8) (hΦ 8) (hq 8) (howed 8) (hrec 8) (I 17) (I 18) (hA 8) (hstep 8)),
      .host (hsegI hostOps9 hostOps9_sub hostOps9_fresh (I 18) (I 19) hh9),
      .region (regI rdats 9 (launchAll 9) (hbody 9) (hΦ 9) (hq 9) (howed 9) (hrec 9) (I 19) (I 20) (hA 9) (hstep 9)) ]
    (fun c Q => by
      rewrite [main_chain c, Pipeline.RDat.Seg.run_eq_chain]
      simp only [List.map_cons, List.map_nil, Pipeline.RDat.Seg.prog, hsegI_prog]
      exact .rfl)
    (by simp only [Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => TS (I 0 c) c)
    (Tₙ := fun c => iprop(∃ V : Valuation τ sig (Elt F), ⌜I 20 c V⌝ ∗ StableHlo.held (c : Thread nD τ) (Pipeline.ucRefs τ sig) V ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun c => by
        show TS (I 20 c) c ⊢ _
        unfold TS
        iintro ⟨%V, %hV, Hh, Hp, HO⟩
        isplitl [Hh Hp]
        · iexists V; isplitr; · ipureintro; exact hV
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      unfold TS
      iintro ⟨⟨Hh, -, HO, -, Hp, -⟩, -⟩
      imodintro
      iexists (fun b => m (c, b))
      isplitr; · ipureintro; exact h0 c
      isplitl [Hh]; · iexact Hh
      isplitl [Hp]; · iexists _; iexact Hp
      iexists ∅; iexact HO)
    (QY := fun c s => ∃ V, I 20 c V ∧ ∀ b ∈ Pipeline.ucRefs τ sig, s.mem (((c : Thread nD τ)).1, b) = V b)
    (hfin := fun c s' => by
      iintro ⟨⟨%V, %hV, Hh, -⟩, HSI⟩
      unfold StableHlo.held
      ihave Hr := (pointsTo_read_all (Pipeline.ucRefs τ sig) (fun b => (((c : Thread nD τ)).1, b)) V s') $$ [Hh HSI]
      · isplitl [Hh] <;> iassumption
      icases Hr with ⟨%h, HSI⟩
      imodintro
      isplitr
      · ipureintro; exact ⟨V, hV, h⟩
      · iexact HSI)
    (hQ := hQ)

end Cert.KernelIdeal.Hand

end
-- ==== Proof.Hand.AgreeOps.lean ====
/-
  The ten host stretches of @main carry valuations that agree off the undefined rows to valuations that agree off
  the undefined rows, and so does replacing a kernel region's arrays by contents that agree in the same sense.
  A host stretch reads a statistics array only through the slices that take its row 0 and its row 8; every other
  operation touches none of the ten arrays.
-/
import proofs.«103476_j5987184410999_2_alg».proof.Proof.Hand.Agree

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- One operation that touches none of the ten arrays: the builder is recognised syntactically, which references it
    names is decided. -/
macro "pres_step" : tactic => `(tactic| (first
  | with_reducible refine pres_unary _ _ _ _ _ ?_ ?_
  | with_reducible refine pres_reshape _ _ _ _ _ _ ?_ ?_
  | with_reducible refine pres_binary _ _ _ _ _ _ _ ?_ ?_ ?_
  | with_reducible refine pres_nullary _ _ _ ?_) <;> decide)

/-- A conjunction of such operations. -/
macro "pres_all" : tactic => `(tactic| (repeat' apply And.intro) <;> pres_step)

/-! ## The stretches before the statistics passes: no operation names any of the ten arrays -/

theorem hostOps0_agree (V W : Valuation τ sig (Elt F)) :
    Agree V W → Agree (StableHlo.after hostOps0 V) (StableHlo.after hostOps0 W) := by
  refine after_agree _ ?_ V W
  simp only [List.Forall]
  pres_all

theorem hostOps2_agree (V W : Valuation τ sig (Elt F)) :
    Agree V W → Agree (StableHlo.after hostOps2 V) (StableHlo.after hostOps2 W) := by
  refine after_agree _ ?_ V W
  simp only [List.Forall]
  pres_all

theorem hostOps4_agree (V W : Valuation τ sig (Elt F)) :
    Agree V W → Agree (StableHlo.after hostOps4 V) (StableHlo.after hostOps4 W) := by
  refine after_agree _ ?_ V W
  simp only [List.Forall]
  pres_all

theorem hostOps6_agree (V W : Valuation τ sig (Elt F)) :
    Agree V W → Agree (StableHlo.after hostOps6 V) (StableHlo.after hostOps6 W) := by
  refine after_agree _ ?_ V W
  simp only [List.Forall]
  pres_all

theorem hostOps8_agree (V W : Valuation τ sig (Elt F)) :
    Agree V W → Agree (StableHlo.after hostOps8 V) (StableHlo.after hostOps8 W) := by
  refine after_agree _ ?_ V W
  simp only [List.Forall]
  pres_all

/-! ## The stretches after the statistics passes: four slices take rows 0 and 8 of the pass's two arrays -/

theorem hostOps1_agree (V W : Valuation τ sig (Elt F)) :
    Agree V W → Agree (StableHlo.after hostOps1 V) (StableHlo.after hostOps1 W) := by
  refine after_agree _ ?_ V W
  simp only [List.Forall]
  refine ⟨pres_unary_of _ _ _ _ _ (by decide) (fun _ _ h => h.r14_1.1),
    pres_unary_of _ _ _ _ _ (by decide) (fun _ _ h => h.r14_1.2), ?_,
    pres_unary_of _ _ _ _ _ (by decide) (fun _ _ h => h.r14_2.1),
    pres_unary_of _ _ _ _ _ (by decide) (fun _ _ h => h.r14_2.2), ?_⟩
  · pres_step
  · pres_all

theorem hostOps3_agree (V W : Valuation τ sig (Elt F)) :
    Agree V W → Agree (StableHlo.after hostOps3 V) (StableHlo.after hostOps3 W) := by
  refine after_agree _ ?_ V W
  simp only [List.Forall]
  refine ⟨pres_unary_of _ _ _ _ _ (by decide) (fun _ _ h => h.r47_1.1),
    pres_unary_of _ _ _ _ _ (by decide) (fun _ _ h => h.r47_1.2), ?_,
    pres_unary_of _ _ _ _ _ (by decide) (fun _ _ h => h.r47_2.1),
    pres_unary_of _ _ _ _ _ (by decide) (fun _ _ h => h.r47_2.2), ?_⟩
  · pres_step
  · pres_all

theorem hostOps5_agree (V W : Valuation τ sig (Elt F)) :
    Agree V W → Agree (StableHlo.after hostOps5 V) (StableHlo.after hostOps5 W) := by
  refine after_agree _ ?_ V W
  simp only [List.Forall]
  refine ⟨pres_unary_of _ _ _ _ _ (by decide) (fun _ _ h => h.r92_1.1),
    pres_unary_of _ _ _ _ _ (by decide) (fun _ _ h => h.r92_1.2), ?_,
    pres_unary_of _ _ _ _ _ (by decide) (fun _ _ h => h.r92_2.1),
    pres_unary_of _ _ _ _ _ (by decide) (fun _ _ h => h.r92_2.2), ?_⟩
  · pres_step
  · pres_all

theorem hostOps7_agree (V W : Valuation τ sig (Elt F)) :
    Agree V W → Agree (StableHlo.after hostOps7 V) (StableHlo.after hostOps7 W) := by
  refine after_agree _ ?_ V W
  simp only [List.Forall]
  refine ⟨pres_unary_of _ _ _ _ _ (by decide) (fun _ _ h => h.r125_1.1),
    pres_unary_of _ _ _ _ _ (by decide) (fun _ _ h => h.r125_1.2), ?_,
    pres_unary_of _ _ _ _ _ (by decide) (fun _ _ h => h.r125_2.1),
    pres_unary_of _ _ _ _ _ (by decide) (fun _ _ h => h.r125_2.2), ?_⟩
  · pres_step
  · pres_all

theorem hostOps9_agree (V W : Valuation τ sig (Elt F)) :
    Agree V W → Agree (StableHlo.after hostOps9 V) (StableHlo.after hostOps9 W) := by
  refine after_agree _ ?_ V W
  simp only [List.Forall]
  refine ⟨pres_unary_of _ _ _ _ _ (by decide) (fun _ _ h => h.r158_1.1),
    pres_unary_of _ _ _ _ _ (by decide) (fun _ _ h => h.r158_1.2), ?_,
    pres_unary_of _ _ _ _ _ (by decide) (fun _ _ h => h.r158_2.1),
    pres_unary_of _ _ _ _ _ (by decide) (fun _ _ h => h.r158_2.2), ?_⟩
  · pres_step
  · pres_all

/-! ## Kernel regions: the region's arrays replaced -/

/-- Replacing a region's arrays by contents that coincide off the ten arrays and agree on rows 0 and 8 of those among
    the ten keeps the agreement. -/
theorem withArrays_agree {gr W' : Nat} (win : Fin W' → Pipeline.WinSpec sig gr)
    (hinj : Function.Injective (Pipeline.arrRef win)) (c : Dev nD) (V W : Valuation τ sig (Elt F))
    (G G' : (w : Fin W') → Buf (Elt F) ((win w).arr.view.loc (c.tc : Thread nD τ)))
    (h : Agree V W) (hG : ∀ w, Pipeline.arrRef win w ∉ Jl → G w = G' w)
    (hJ : ∀ w, Pipeline.arrRef win w ∈ Jl → RowsAgree (Pipeline.arrRef win w) (G w) (G' w)) :
    Agree (Pipeline.withArrays win c V G) (Pipeline.withArrays win c W G') := by
  refine Agree.of_rows (fun b hb => ?_) (fun s hs => ?_)
  · by_cases hw : ∃ w, Pipeline.arrRef win w = b
    · obtain ⟨w, rfl⟩ := hw
      rw [Pipeline.withArrays_arr win hinj, Pipeline.withArrays_arr win hinj]; exact hG w hb
    · have hne : ∀ w, Pipeline.arrRef win w ≠ b := fun w e => hw ⟨w, e⟩
      rw [Pipeline.withArrays_of_ne win c V G b hne, Pipeline.withArrays_of_ne win c W G' b hne]; exact h.off b hb
  · by_cases hw : ∃ w, Pipeline.arrRef win w = s
    · obtain ⟨w, rfl⟩ := hw
      rw [Pipeline.withArrays_arr win hinj, Pipeline.withArrays_arr win hinj]; exact hJ w hs
    · have hne : ∀ w, Pipeline.arrRef win w ≠ s := fun w e => hw ⟨w, e⟩
      rw [Pipeline.withArrays_of_ne win c V G s hne, Pipeline.withArrays_of_ne win c W G' s hne]; exact h.rows s hs

/-- The same arrays put into agreeing valuations. -/
theorem withArrays_agree_same {gr W' : Nat} (win : Fin W' → Pipeline.WinSpec sig gr)
    (hinj : Function.Injective (Pipeline.arrRef win)) (c : Dev nD) (V W : Valuation τ sig (Elt F))
    (G : (w : Fin W') → Buf (Elt F) ((win w).arr.view.loc (c.tc : Thread nD τ))) (h : Agree V W) :
    Agree (Pipeline.withArrays win c V G) (Pipeline.withArrays win c W G) :=
  withArrays_agree win hinj c V W G G h (fun _ _ => rfl) (fun w _ => RowsAgree.refl _ _)

/-- A region none of whose arrays is among the ten (the normalisation passes). -/
theorem withArrays_agree_off {gr W' : Nat} (win : Fin W' → Pipeline.WinSpec sig gr)
    (hinj : Function.Injective (Pipeline.arrRef win)) (c : Dev nD) (V W : Valuation τ sig (Elt F))
    (G G' : (w : Fin W') → Buf (Elt F) ((win w).arr.view.loc (c.tc : Thread nD τ)))
    (h : Agree V W) (hG : ∀ w, G w = G' w) :
    Agree (Pipeline.withArrays win c V G) (Pipeline.withArrays win c W G') := by
  obtain rfl : G = G' := funext hG
  exact withArrays_agree_same win hinj c V W G h

/-- A region exactly two of whose arrays, those of windows `w₁` and `w₂`, are among the ten. -/
theorem withArrays_agree_two {gr W' : Nat} (win : Fin W' → Pipeline.WinSpec sig gr)
    (hinj : Function.Injective (Pipeline.arrRef win)) (c : Dev nD) (V W : Valuation τ sig (Elt F))
    (G G' : (w : Fin W') → Buf (Elt F) ((win w).arr.view.loc (c.tc : Thread nD τ)))
    (h : Agree V W) (w₁ w₂ : Fin W') (hG : ∀ w, w ≠ w₁ → w ≠ w₂ → G w = G' w)
    (hoff : ∀ w, w ≠ w₁ → w ≠ w₂ → Pipeline.arrRef win w ∉ Jl)
    (hm₁ : Pipeline.arrRef win w₁ ∈ Jl) (hm₂ : Pipeline.arrRef win w₂ ∈ Jl)
    (h₁ : RowsAgree (Pipeline.arrRef win w₁) (G w₁) (G' w₁)) (h₂ : RowsAgree (Pipeline.arrRef win w₂) (G w₂) (G' w₂)) :
    Agree (Pipeline.withArrays win c V G) (Pipeline.withArrays win c W G') := by
  refine withArrays_agree win hinj c V W G G' h (fun w hw => ?_) (fun w hw => ?_)
  · by_cases e₁ : w = w₁
    · subst e₁; exact absurd hm₁ hw
    · by_cases e₂ : w = w₂
      · subst e₂; exact absurd hm₂ hw
      · exact hG w e₁ e₂
  · by_cases e₁ : w = w₁
    · subst e₁; exact h₁
    · by_cases e₂ : w = w₂
      · subst e₂; exact h₂
      · exact absurd hw (hoff w e₁ e₂)

/-! ### At the five statistics passes -/

theorem withArrays_agree0 (c : Dev nD) (V W : Valuation τ sig (Elt F))
    (G G' : (w : Fin 8) → Buf (Elt F) ((spec0 w).arr.view.loc (c.tc : Thread nD τ)))
    (h : Agree V W) (hG : ∀ w, w ≠ 6 → w ≠ 7 → G w = G' w)
    (h6 : row0 (G 6) = row0 (G' 6) ∧ row8 (G 6) = row8 (G' 6))
    (h7 : row0 (G 7) = row0 (G' 7) ∧ row8 (G 7) = row8 (G' 7)) :
    Agree (Pipeline.withArrays spec0 c V G) (Pipeline.withArrays spec0 c W G') :=
  withArrays_agree_two spec0 winFacts0.arr_inj c V W G G' h 6 7 hG (by decide) (by decide) (by decide)
    (fun _ => h6) (fun _ => h7)

theorem withArrays_agree2 (c : Dev nD) (V W : Valuation τ sig (Elt F))
    (G G' : (w : Fin 8) → Buf (Elt F) ((spec2 w).arr.view.loc (c.tc : Thread nD τ)))
    (h : Agree V W) (hG : ∀ w, w ≠ 6 → w ≠ 7 → G w = G' w)
    (h6 : row0 (G 6) = row0 (G' 6) ∧ row8 (G 6) = row8 (G' 6))
    (h7 : row0 (G 7) = row0 (G' 7) ∧ row8 (G 7) = row8 (G' 7)) :
    Agree (Pipeline.withArrays spec2 c V G) (Pipeline.withArrays spec2 c W G') :=
  withArrays_agree_two spec2 winFacts2.arr_inj c V W G G' h 6 7 hG (by decide) (by decide) (by decide)
    (fun _ => h6) (fun _ => h7)

theorem withArrays_agree4 (c : Dev nD) (V W : Valuation τ sig (Elt F))
    (G G' : (w : Fin 10) → Buf (Elt F) ((spec4 w).arr.view.loc (c.tc : Thread nD τ)))
    (h : Agree V W) (hG : ∀ w, w ≠ 8 → w ≠ 9 → G w = G' w)
    (h8 : row0 (G 8) = row0 (G' 8) ∧ row8 (G 8) = row8 (G' 8))
    (h9 : row0 (G 9) = row0 (G' 9) ∧ row8 (G 9) = row8 (G' 9)) :
    Agree (Pipeline.withArrays spec4 c V G) (Pipeline.withArrays spec4 c W G') :=
  withArrays_agree_two spec4 winFacts4.arr_inj c V W G G' h 8 9 hG (by decide) (by decide) (by decide)
    (fun _ => h8) (fun _ => h9)

theorem withArrays_agree6 (c : Dev nD) (V W : Valuation τ sig (Elt F))
    (G G' : (w : Fin 10) → Buf (Elt F) ((spec6 w).arr.view.loc (c.tc : Thread nD τ)))
    (h : Agree V W) (hG : ∀ w, w ≠ 8 → w ≠ 9 → G w = G' w)
    (h8 : row0 (G 8) = row0 (G' 8) ∧ row8 (G 8) = row8 (G' 8))
    (h9 : row0 (G 9) = row0 (G' 9) ∧ row8 (G 9) = row8 (G' 9)) :
    Agree (Pipeline.withArrays spec6 c V G) (Pipeline.withArrays spec6 c W G') :=
  withArrays_agree_two spec6 winFacts6.arr_inj c V W G G' h 8 9 hG (by decide) (by decide) (by decide)
    (fun _ => h8) (fun _ => h9)

theorem withArrays_agree8 (c : Dev nD) (V W : Valuation τ sig (Elt F))
    (G G' : (w : Fin 10) → Buf (Elt F) ((spec8 w).arr.view.loc (c.tc : Thread nD τ)))
    (h : Agree V W) (hG : ∀ w, w ≠ 8 → w ≠ 9 → G w = G' w)
    (h8 : row0 (G 8) = row0 (G' 8) ∧ row8 (G 8) = row8 (G' 8))
    (h9 : row0 (G 9) = row0 (G' 9) ∧ row8 (G 9) = row8 (G' 9)) :
    Agree (Pipeline.withArrays spec8 c V G) (Pipeline.withArrays spec8 c W G') :=
  withArrays_agree_two spec8 winFacts8.arr_inj c V W G G' h 8 9 hG (by decide) (by decide) (by decide)
    (fun _ => h8) (fun _ => h9)

end Cert.KernelIdeal.Hand
-- ==== Proof.Hand.P2v1.lean ====
import proofs.«103476_j5987184410999_2_alg».proof.Proof.Hand.P2r1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window)

variable {F : FTy → Type} [FloatOps F]

-- the TensorCore's buffer contents when the region is entered
variable (V : (c : Dev nD) → (b : Ref sig .tc) → Buf (Elt F) ((c : Thread nD τ).loc b))

/-! # REGION 1: the proof data read as relational data -/

/-- The body obligation of the exact data read relationally. -/
theorem bodyR1 (c : Dev nD) : ((dat1 (F := F) V c).toR).BodyObligation (defs₀ (F := F)) Variants.none () Set.univ :=
  (body_obligation1 V c).toR

/-- What an array may hold after all the write-backs, of the exact data, is what the data names. -/
theorem arrAtR1 (c : Dev nD) (w : Fin cfg1.W) (G : Buf (Elt F) ((cfg1.win w).arr.view.loc (c.tc : Thread nD τ))) :
    ((dat1 V c).toR).ArrAt w cfg1.N G ↔ G = (dat1 V c).arrAt w cfg1.N :=
  (dat1 V c).toR_arrAt_iff w cfg1.N G

/-- Every window's array is held at the full share. -/
theorem shareR1 (c : Dev nD) (w : Fin cfg1.W) : ((dat1 V c).toR).share w = fullShare := by
  rw [Dat.toR_share]; unfold Dat.share; split <;> rfl

/-- The invariant, what is owed and what is recorded are the class's: the scoped rest, nothing, everything. -/
theorem ΦR1 (c : Dev nD) (t : Fin (cfg1.N + 1)) : ((dat1 V c).toR).Φ t = Pipeline.ΦA spec1 c := rfl
theorem owedR1 (c : Dev nD) (t : Fin (cfg1.N + 1)) : ((dat1 V c).toR).owed t = 0 := rfl
theorem recR1 (c : Dev nD) (t : Fin (cfg1.N + 1)) : ((dat1 V c).toR).recorded t = Set.univ := rfl

/-! # REGION 1: the arrays after the run -/

/-- An input window's array is never written: it holds the entry contents. -/
theorem arr_in1 (c : Dev nD) (w : Fin cfg1.W) (hw : (cfg1.win w).isOut = false) :
    (dat1 V c).arrAt w cfg1.N = V c (Pipeline.arrRef spec1 w) :=
  ((dat1 V c).arrAt_in w hw cfg1.N).trans (A_eq1 V c w)

theorem hz1 : (![0, 0] : Fin 2 → Nat) = fun _ => 0 := funext fun a => by fin_cases a <;> rfl

/-- What the output array ends holding, entry by entry: the scale times the centred entry, times the inverse
    deviation, plus the shift — the per-column vectors read at their one row; the operations in the body's order. -/
abbrev G1 (a0 : S65536x128.Idx → Elt F .f32) (a1 a2 a3 a4 : S1x128.Idx → Elt F .f32) : S65536x128.Idx → Elt F .f32 :=
  fun i => FloatOps.addf (FloatOps.mulf (FloatOps.mulf (a3 (ix2 0 (i 1))) (FloatOps.subf (a0 i) (a1 (ix2 0 (i 1))))) (a2 (ix2 0 (i 1)))) (a4 (ix2 0 (i 1)))

/-- A one-row vector broadcast down the rows reads, at row `q` and column `j`, its entry at column `j`. -/
theorem bcast_row1_apply (x : Vec F S1x128 .f32) (q : Fin 4096) (j : Fin 128) :
    broadcastTo S4096x128 x broadcasts_S1x128_S4096x128 (ix2 q j) = x (ix2 0 j) := by
  refine broadcastTo_apply x broadcasts_S1x128_S4096x128 (ix2 q j) (ix2 0 j) (fun a => ?_)
  match a with
  | ⟨0, _⟩ => rfl
  | ⟨1, _⟩ => rfl

/-- The body's payload at row `q`, column `j` of the block. -/
theorem pay1_apply (v0 : Vec F S4096x128 .f32) (v2 v4 v10 v14 : Vec F S1x128 .f32) (q : Fin 4096) (j : Fin 128) :
    k1_pay1 v0 v2 v4 v10 v14 (ix2 q j)
      = FloatOps.addf (FloatOps.mulf (FloatOps.mulf (v2 (ix2 0 j)) (FloatOps.subf (v0 (ix2 q j)) (v4 (ix2 0 j)))) (v10 (ix2 0 j))) (v14 (ix2 0 j)) := by
  unfold k1_pay1
  simp only [shapeCast_self]
  show FloatOps.addf (FloatOps.mulf (FloatOps.mulf (broadcastTo S4096x128 v2 broadcasts_S1x128_S4096x128 (ix2 q j)) (FloatOps.subf (v0 (ix2 q j)) (broadcastTo S4096x128 v4 broadcasts_S1x128_S4096x128 (ix2 q j)))) (broadcastTo S4096x128 v10 broadcasts_S1x128_S4096x128 (ix2 q j))) (broadcastTo S4096x128 v14 broadcasts_S1x128_S4096x128 (ix2 q j)) = _
  rw [bcast_row1_apply, bcast_row1_apply, bcast_row1_apply, bcast_row1_apply]

/-- The printed index maps, decided over the grid: the blocks of rows move with the point, the one-row vectors stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- An element of window 0's block at point `t` sits in the array at the block's first row plus its own row, same column. -/
theorem emb1_0_eq (t : Fin cfg1.N) (q : Fin 4096) (j : Fin 128) (r : Fin 65536) (hr : r.val = t.val * 4096 + q.val) :
    ((cfg1.win 0).blk t).view.emb (ix2 q j) = ix2 r j := by
  funext a; apply Fin.ext
  match a with
  | ⟨0, _⟩ => exact ((win1_0.rect_emb_val t (ix2 q j) (0 : Fin 2)).trans (by rw [(idx_facts1 t).1]; rfl)).trans hr.symm
  | ⟨1, _⟩ => exact win1_0.rect_emb_val_of_index_zero t (1 : Fin 2) (idx_facts1 t).2.1 (ix2 q j)

/-- An element of window 5's block at point `t` sits in the array at the block's first row plus its own row, same column. -/
theorem emb1_5_eq (t : Fin cfg1.N) (q : Fin 4096) (j : Fin 128) (r : Fin 65536) (hr : r.val = t.val * 4096 + q.val) :
    ((cfg1.win 5).blk t).view.emb (ix2 q j) = ix2 r j := by
  funext a; apply Fin.ext
  match a with
  | ⟨0, _⟩ => exact ((win1_5.rect_emb_val t (ix2 q j) (0 : Fin 2)).trans (by rw [(idx_facts1 t).2.2.2.2.2.2.2.2.2.2.1]; rfl)).trans hr.symm
  | ⟨1, _⟩ => exact win1_5.rect_emb_val_of_index_zero t (1 : Fin 2) (idx_facts1 t).2.2.2.2.2.2.2.2.2.2.2 (ix2 q j)

/-- Window 1's block is its whole one-row array at every point. -/
theorem emb1_1_eq (t : Fin cfg1.N) (j : Fin 128) : ((cfg1.win 1).blk t).view.emb (ix2 0 j) = ix2 0 j := by
  funext a; apply Fin.ext
  match a with
  | ⟨0, _⟩ => exact win1_1.rect_emb_val_of_index_zero t (0 : Fin 2) (idx_facts1 t).2.2.1 (ix2 0 j)
  | ⟨1, _⟩ => exact win1_1.rect_emb_val_of_index_zero t (1 : Fin 2) (idx_facts1 t).2.2.2.1 (ix2 0 j)

/-- Window 2's block is its whole one-row array at every point. -/
theorem emb1_2_eq (t : Fin cfg1.N) (j : Fin 128) : ((cfg1.win 2).blk t).view.emb (ix2 0 j) = ix2 0 j := by
  funext a; apply Fin.ext
  match a with
  | ⟨0, _⟩ => exact win1_2.rect_emb_val_of_index_zero t (0 : Fin 2) (idx_facts1 t).2.2.2.2.1 (ix2 0 j)
  | ⟨1, _⟩ => exact win1_2.rect_emb_val_of_index_zero t (1 : Fin 2) (idx_facts1 t).2.2.2.2.2.1 (ix2 0 j)

/-- Window 3's block is its whole one-row array at every point. -/
theorem emb1_3_eq (t : Fin cfg1.N) (j : Fin 128) : ((cfg1.win 3).blk t).view.emb (ix2 0 j) = ix2 0 j := by
  funext a; apply Fin.ext
  match a with
  | ⟨0, _⟩ => exact win1_3.rect_emb_val_of_index_zero t (0 : Fin 2) (idx_facts1 t).2.2.2.2.2.2.1 (ix2 0 j)
  | ⟨1, _⟩ => exact win1_3.rect_emb_val_of_index_zero t (1 : Fin 2) (idx_facts1 t).2.2.2.2.2.2.2.1 (ix2 0 j)

/-- Window 4's block is its whole one-row array at every point. -/
theorem emb1_4_eq (t : Fin cfg1.N) (j : Fin 128) : ((cfg1.win 4).blk t).view.emb (ix2 0 j) = ix2 0 j := by
  funext a; apply Fin.ext
  match a with
  | ⟨0, _⟩ => exact win1_4.rect_emb_val_of_index_zero t (0 : Fin 2) (idx_facts1 t).2.2.2.2.2.2.2.2.1 (ix2 0 j)
  | ⟨1, _⟩ => exact win1_4.rect_emb_val_of_index_zero t (1 : Fin 2) (idx_facts1 t).2.2.2.2.2.2.2.2.2.1 (ix2 0 j)

/-- Window 0's block at point `t`, entry by entry: the array's rows `4096 t …`. -/
theorem iblk1_0_apply (c : Dev nD) (t : Fin cfg1.N) (q : Fin 4096) (j : Fin 128) (r : Fin 65536) (hr : r.val = t.val * 4096 + q.val) :
    iblk1 V c 0 t (ix2 q j) = V c (Pipeline.arrRef spec1 0) (ix2 r j) := by
  show V c (Pipeline.arrRef spec1 0) (((cfg1.win 0).blk t).view.emb (ix2 q j)) = _
  rw [emb1_0_eq t q j r hr]

/-- Window 1's block at every point is its one-row array. -/
theorem iblk1_1_apply (c : Dev nD) (t : Fin cfg1.N) (j : Fin 128) :
    iblk1 V c 1 t (ix2 0 j) = V c (Pipeline.arrRef spec1 1) (ix2 0 j) := by
  show V c (Pipeline.arrRef spec1 1) (((cfg1.win 1).blk t).view.emb (ix2 0 j)) = _
  rw [emb1_1_eq t j]

/-- Window 2's block at every point is its one-row array. -/
theorem iblk1_2_apply (c : Dev nD) (t : Fin cfg1.N) (j : Fin 128) :
    iblk1 V c 2 t (ix2 0 j) = V c (Pipeline.arrRef spec1 2) (ix2 0 j) := by
  show V c (Pipeline.arrRef spec1 2) (((cfg1.win 2).blk t).view.emb (ix2 0 j)) = _
  rw [emb1_2_eq t j]

/-- Window 3's block at every point is its one-row array. -/
theorem iblk1_3_apply (c : Dev nD) (t : Fin cfg1.N) (j : Fin 128) :
    iblk1 V c 3 t (ix2 0 j) = V c (Pipeline.arrRef spec1 3) (ix2 0 j) := by
  show V c (Pipeline.arrRef spec1 3) (((cfg1.win 3).blk t).view.emb (ix2 0 j)) = _
  rw [emb1_3_eq t j]

/-- Window 4's block at every point is its one-row array. -/
theorem iblk1_4_apply (c : Dev nD) (t : Fin cfg1.N) (j : Fin 128) :
    iblk1 V c 4 t (ix2 0 j) = V c (Pipeline.arrRef spec1 4) (ix2 0 j) := by
  show V c (Pipeline.arrRef spec1 4) (((cfg1.win 4).blk t).view.emb (ix2 0 j)) = _
  rw [emb1_4_eq t j]

/-- What the body leaves in the output buffer is its one store's payload of the whole input buffers. -/
theorem out1_5_eq (x0 : Vec F S4096x128 .f32) (x1 x2 x3 x4 : Vec F S1x128 .f32) : out1_5 x0 x1 x2 x3 x4 = k1_pay1 x0 x3 x1 x2 x4 := by
  unfold out1_5
  rw [View.canon_unit_zero hz1]
  simp only [View.ld_unit_zero (S := S4096x128) hz1, View.ld_unit_zero (S := S1x128) hz1]

set_option maxHeartbeats 1000000 in
/-- The payload of the blocks at point `t`, at row `q` and column `j`, is `G1` of the arrays at row `4096 t + q`. -/
theorem flushed1_apply (c : Dev nD) (t : Fin cfg1.N) (q : Fin 4096) (j : Fin 128) (r : Fin 65536) (hr : r.val = t.val * 4096 + q.val) :
    k1_pay1 (iblk1 V c 0 t) (iblk1 V c 3 t) (iblk1 V c 1 t) (iblk1 V c 2 t) (iblk1 V c 4 t) (ix2 q j) = G1 (V c (Pipeline.arrRef spec1 0)) (V c (Pipeline.arrRef spec1 1)) (V c (Pipeline.arrRef spec1 2)) (V c (Pipeline.arrRef spec1 3)) (V c (Pipeline.arrRef spec1 4)) (ix2 r j) := by
  rw [pay1_apply, iblk1_0_apply V c t q j r hr, iblk1_1_apply V c t j, iblk1_2_apply V c t j, iblk1_3_apply V c t j, iblk1_4_apply V c t j]

set_option maxHeartbeats 1000000 in
/-- WHAT POINT `t` WRITES BACK is block `t` of `G1` of the arrays as the region finds them. -/
theorem flushed1_eq (c : Dev nD) (t : Fin cfg1.N) :
    (dat1 V c).flushed 5 t = ((cfg1.win 5).blk t).view.read (Elt F)
      (G1 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5, out1_5_eq]
  funext y
  obtain ⟨q, j, rfl⟩ : ∃ (q : Fin 4096) (j : Fin 128), y = ix2 q j := ⟨y 0, y 1, eq_ix2 y⟩
  have ht : t.val < grid1.N := t.isLt
  rw [N_1] at ht
  have hr : t.val * 4096 + q.val < 65536 := by have := q.isLt; omega
  refine (flushed1_apply V c t q j ⟨t.val * 4096 + q.val, hr⟩ rfl).trans ?_
  exact (congrArg (G1 (V c (Pipeline.arrRef spec1 0)) (V c (Pipeline.arrRef spec1 1)) (V c (Pipeline.arrRef spec1 2)) (V c (Pipeline.arrRef spec1 3)) (V c (Pipeline.arrRef spec1 4))) (emb1_5_eq t q j ⟨t.val * 4096 + q.val, hr⟩ rfl)).symm

/-- Every entry of the output array is in some point's block: row `r` in the block of point `r / 4096`. -/
theorem cover1 (i : S65536x128.Idx) :
    ∃ t : Fin cfg1.N, (cfg1.win 5).flush t = true ∧ i ∈ ((cfg1.win 5).blk t).view.set := by
  have hi0 : (i 0).val < 65536 := (i 0).isLt
  have hN : grid1.N = 16 := N_1
  let t : Fin cfg1.N := ⟨(i 0).val / 4096, by show (i 0).val / 4096 < grid1.N; rw [hN]; omega⟩
  have htv : t.val = (i 0).val / 4096 := rfl
  refine ⟨t, flush1_5 t, ?_⟩
  have hmem := View.emb_mem_set ((cfg1.win 5).blk t).view (ix2 (⟨(i 0).val % 4096, Nat.mod_lt _ (by decide)⟩ : Fin 4096) (i 1))
  have e : ((cfg1.win 5).blk t).view.emb (ix2 (⟨(i 0).val % 4096, Nat.mod_lt _ (by decide)⟩ : Fin 4096) (i 1)) = i :=
    (emb1_5_eq t ⟨(i 0).val % 4096, Nat.mod_lt _ (by decide)⟩ (i 1) (i 0) (by rw [htv]; show (i 0).val = (i 0).val / 4096 * 4096 + (i 0).val % 4096; omega)).trans (eq_ix2 i).symm
  rw [e] at hmem
  exact hmem

/-- THE OUTPUT ARRAY after the run: `G1` of the arrays as the region finds them. -/
theorem final1 (c : Dev nD) : (dat1 V c).arrAt 5 cfg1.N = G1 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_eq V c t) cover1

end Cert.KernelIdeal.Hand

end
-- ==== Proof.Hand.P2v3.lean ====
import proofs.«103476_j5987184410999_2_alg».proof.Proof.Hand.P2r3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window)

variable {F : FTy → Type} [FloatOps F]

-- the TensorCore's buffer contents when the region is entered
variable (V : (c : Dev nD) → (b : Ref sig .tc) → Buf (Elt F) ((c : Thread nD τ).loc b))

/-! # REGION 3: the proof data read as relational data -/

/-- The body obligation of the exact data read relationally. -/
theorem bodyR3 (c : Dev nD) : ((dat3 (F := F) V c).toR).BodyObligation (defs₀ (F := F)) Variants.none () Set.univ :=
  (body_obligation3 V c).toR

/-- What an array may hold after all the write-backs, of the exact data, is what the data names. -/
theorem arrAtR3 (c : Dev nD) (w : Fin cfg3.W) (G : Buf (Elt F) ((cfg3.win w).arr.view.loc (c.tc : Thread nD τ))) :
    ((dat3 V c).toR).ArrAt w cfg3.N G ↔ G = (dat3 V c).arrAt w cfg3.N :=
  (dat3 V c).toR_arrAt_iff w cfg3.N G

/-- Every window's array is held at the full share. -/
theorem shareR3 (c : Dev nD) (w : Fin cfg3.W) : ((dat3 V c).toR).share w = fullShare := by
  rw [Dat.toR_share]; unfold Dat.share; split <;> rfl

/-- The invariant, what is owed and what is recorded are the class's: the scoped rest, nothing, everything. -/
theorem ΦR3 (c : Dev nD) (t : Fin (cfg3.N + 1)) : ((dat3 V c).toR).Φ t = Pipeline.ΦA spec3 c := rfl
theorem owedR3 (c : Dev nD) (t : Fin (cfg3.N + 1)) : ((dat3 V c).toR).owed t = 0 := rfl
theorem recR3 (c : Dev nD) (t : Fin (cfg3.N + 1)) : ((dat3 V c).toR).recorded t = Set.univ := rfl

/-! # REGION 3: the arrays after the run -/

/-- An input window's array is never written: it holds the entry contents. -/
theorem arr_in3 (c : Dev nD) (w : Fin cfg3.W) (hw : (cfg3.win w).isOut = false) :
    (dat3 V c).arrAt w cfg3.N = V c (Pipeline.arrRef spec3 w) :=
  ((dat3 V c).arrAt_in w hw cfg3.N).trans (A_eq3 V c w)

theorem hz3 : (![0, 0] : Fin 2 → Nat) = fun _ => 0 := funext fun a => by fin_cases a <;> rfl

/-- What the output array ends holding, entry by entry: the scale times the centred entry, times the inverse
    deviation, plus the shift — the per-column vectors read at their one row; the operations in the body's order. -/
abbrev G3 (a0 : S65536x128.Idx → Elt F .f32) (a1 a2 a3 a4 : S1x128.Idx → Elt F .f32) : S65536x128.Idx → Elt F .f32 :=
  fun i => FloatOps.addf (FloatOps.mulf (FloatOps.mulf (a3 (ix2 0 (i 1))) (FloatOps.subf (a0 i) (a1 (ix2 0 (i 1))))) (a2 (ix2 0 (i 1)))) (a4 (ix2 0 (i 1)))

/-- A one-row vector broadcast down the rows reads, at row `q` and column `j`, its entry at column `j`. -/
theorem bcast_row3_apply (x : Vec F S1x128 .f32) (q : Fin 4096) (j : Fin 128) :
    broadcastTo S4096x128 x broadcasts_S1x128_S4096x128 (ix2 q j) = x (ix2 0 j) := by
  refine broadcastTo_apply x broadcasts_S1x128_S4096x128 (ix2 q j) (ix2 0 j) (fun a => ?_)
  match a with
  | ⟨0, _⟩ => rfl
  | ⟨1, _⟩ => rfl

/-- The body's payload at row `q`, column `j` of the block. -/
theorem pay3_apply (v0 : Vec F S4096x128 .f32) (v2 v4 v10 v14 : Vec F S1x128 .f32) (q : Fin 4096) (j : Fin 128) :
    k3_pay1 v0 v2 v4 v10 v14 (ix2 q j)
      = FloatOps.addf (FloatOps.mulf (FloatOps.mulf (v2 (ix2 0 j)) (FloatOps.subf (v0 (ix2 q j)) (v4 (ix2 0 j)))) (v10 (ix2 0 j))) (v14 (ix2 0 j)) := by
  unfold k3_pay1
  simp only [shapeCast_self]
  show FloatOps.addf (FloatOps.mulf (FloatOps.mulf (broadcastTo S4096x128 v2 broadcasts_S1x128_S4096x128 (ix2 q j)) (FloatOps.subf (v0 (ix2 q j)) (broadcastTo S4096x128 v4 broadcasts_S1x128_S4096x128 (ix2 q j)))) (broadcastTo S4096x128 v10 broadcasts_S1x128_S4096x128 (ix2 q j))) (broadcastTo S4096x128 v14 broadcasts_S1x128_S4096x128 (ix2 q j)) = _
  rw [bcast_row3_apply, bcast_row3_apply, bcast_row3_apply, bcast_row3_apply]

/-- The printed index maps, decided over the grid: the blocks of rows move with the point, the one-row vectors stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- An element of window 0's block at point `t` sits in the array at the block's first row plus its own row, same column. -/
theorem emb3_0_eq (t : Fin cfg3.N) (q : Fin 4096) (j : Fin 128) (r : Fin 65536) (hr : r.val = t.val * 4096 + q.val) :
    ((cfg3.win 0).blk t).view.emb (ix2 q j) = ix2 r j := by
  funext a; apply Fin.ext
  match a with
  | ⟨0, _⟩ => exact ((win3_0.rect_emb_val t (ix2 q j) (0 : Fin 2)).trans (by rw [(idx_facts3 t).1]; rfl)).trans hr.symm
  | ⟨1, _⟩ => exact win3_0.rect_emb_val_of_index_zero t (1 : Fin 2) (idx_facts3 t).2.1 (ix2 q j)

/-- An element of window 5's block at point `t` sits in the array at the block's first row plus its own row, same column. -/
theorem emb3_5_eq (t : Fin cfg3.N) (q : Fin 4096) (j : Fin 128) (r : Fin 65536) (hr : r.val = t.val * 4096 + q.val) :
    ((cfg3.win 5).blk t).view.emb (ix2 q j) = ix2 r j := by
  funext a; apply Fin.ext
  match a with
  | ⟨0, _⟩ => exact ((win3_5.rect_emb_val t (ix2 q j) (0 : Fin 2)).trans (by rw [(idx_facts3 t).2.2.2.2.2.2.2.2.2.2.1]; rfl)).trans hr.symm
  | ⟨1, _⟩ => exact win3_5.rect_emb_val_of_index_zero t (1 : Fin 2) (idx_facts3 t).2.2.2.2.2.2.2.2.2.2.2 (ix2 q j)

/-- Window 1's block is its whole one-row array at every point. -/
theorem emb3_1_eq (t : Fin cfg3.N) (j : Fin 128) : ((cfg3.win 1).blk t).view.emb (ix2 0 j) = ix2 0 j := by
  funext a; apply Fin.ext
  match a with
  | ⟨0, _⟩ => exact win3_1.rect_emb_val_of_index_zero t (0 : Fin 2) (idx_facts3 t).2.2.1 (ix2 0 j)
  | ⟨1, _⟩ => exact win3_1.rect_emb_val_of_index_zero t (1 : Fin 2) (idx_facts3 t).2.2.2.1 (ix2 0 j)

/-- Window 2's block is its whole one-row array at every point. -/
theorem emb3_2_eq (t : Fin cfg3.N) (j : Fin 128) : ((cfg3.win 2).blk t).view.emb (ix2 0 j) = ix2 0 j := by
  funext a; apply Fin.ext
  match a with
  | ⟨0, _⟩ => exact win3_2.rect_emb_val_of_index_zero t (0 : Fin 2) (idx_facts3 t).2.2.2.2.1 (ix2 0 j)
  | ⟨1, _⟩ => exact win3_2.rect_emb_val_of_index_zero t (1 : Fin 2) (idx_facts3 t).2.2.2.2.2.1 (ix2 0 j)

/-- Window 3's block is its whole one-row array at every point. -/
theorem emb3_3_eq (t : Fin cfg3.N) (j : Fin 128) : ((cfg3.win 3).blk t).view.emb (ix2 0 j) = ix2 0 j := by
  funext a; apply Fin.ext
  match a with
  | ⟨0, _⟩ => exact win3_3.rect_emb_val_of_index_zero t (0 : Fin 2) (idx_facts3 t).2.2.2.2.2.2.1 (ix2 0 j)
  | ⟨1, _⟩ => exact win3_3.rect_emb_val_of_index_zero t (1 : Fin 2) (idx_facts3 t).2.2.2.2.2.2.2.1 (ix2 0 j)

/-- Window 4's block is its whole one-row array at every point. -/
theorem emb3_4_eq (t : Fin cfg3.N) (j : Fin 128) : ((cfg3.win 4).blk t).view.emb (ix2 0 j) = ix2 0 j := by
  funext a; apply Fin.ext
  match a with
  | ⟨0, _⟩ => exact win3_4.rect_emb_val_of_index_zero t (0 : Fin 2) (idx_facts3 t).2.2.2.2.2.2.2.2.1 (ix2 0 j)
  | ⟨1, _⟩ => exact win3_4.rect_emb_val_of_index_zero t (1 : Fin 2) (idx_facts3 t).2.2.2.2.2.2.2.2.2.1 (ix2 0 j)

/-- Window 0's block at point `t`, entry by entry: the array's rows `4096 t …`. -/
theorem iblk3_0_apply (c : Dev nD) (t : Fin cfg3.N) (q : Fin 4096) (j : Fin 128) (r : Fin 65536) (hr : r.val = t.val * 4096 + q.val) :
    iblk3 V c 0 t (ix2 q j) = V c (Pipeline.arrRef spec3 0) (ix2 r j) := by
  show V c (Pipeline.arrRef spec3 0) (((cfg3.win 0).blk t).view.emb (ix2 q j)) = _
  rw [emb3_0_eq t q j r hr]

/-- Window 1's block at every point is its one-row array. -/
theorem iblk3_1_apply (c : Dev nD) (t : Fin cfg3.N) (j : Fin 128) :
    iblk3 V c 1 t (ix2 0 j) = V c (Pipeline.arrRef spec3 1) (ix2 0 j) := by
  show V c (Pipeline.arrRef spec3 1) (((cfg3.win 1).blk t).view.emb (ix2 0 j)) = _
  rw [emb3_1_eq t j]

/-- Window 2's block at every point is its one-row array. -/
theorem iblk3_2_apply (c : Dev nD) (t : Fin cfg3.N) (j : Fin 128) :
    iblk3 V c 2 t (ix2 0 j) = V c (Pipeline.arrRef spec3 2) (ix2 0 j) := by
  show V c (Pipeline.arrRef spec3 2) (((cfg3.win 2).blk t).view.emb (ix2 0 j)) = _
  rw [emb3_2_eq t j]

/-- Window 3's block at every point is its one-row array. -/
theorem iblk3_3_apply (c : Dev nD) (t : Fin cfg3.N) (j : Fin 128) :
    iblk3 V c 3 t (ix2 0 j) = V c (Pipeline.arrRef spec3 3) (ix2 0 j) := by
  show V c (Pipeline.arrRef spec3 3) (((cfg3.win 3).blk t).view.emb (ix2 0 j)) = _
  rw [emb3_3_eq t j]

/-- Window 4's block at every point is its one-row array. -/
theorem iblk3_4_apply (c : Dev nD) (t : Fin cfg3.N) (j : Fin 128) :
    iblk3 V c 4 t (ix2 0 j) = V c (Pipeline.arrRef spec3 4) (ix2 0 j) := by
  show V c (Pipeline.arrRef spec3 4) (((cfg3.win 4).blk t).view.emb (ix2 0 j)) = _
  rw [emb3_4_eq t j]

/-- What the body leaves in the output buffer is its one store's payload of the whole input buffers. -/
theorem out3_5_eq (x0 : Vec F S4096x128 .f32) (x1 x2 x3 x4 : Vec F S1x128 .f32) : out3_5 x0 x1 x2 x3 x4 = k3_pay1 x0 x3 x1 x2 x4 := by
  unfold out3_5
  rw [View.canon_unit_zero hz3]
  simp only [View.ld_unit_zero (S := S4096x128) hz3, View.ld_unit_zero (S := S1x128) hz3]

set_option maxHeartbeats 1000000 in
/-- The payload of the blocks at point `t`, at row `q` and column `j`, is `G3` of the arrays at row `4096 t + q`. -/
theorem flushed3_apply (c : Dev nD) (t : Fin cfg3.N) (q : Fin 4096) (j : Fin 128) (r : Fin 65536) (hr : r.val = t.val * 4096 + q.val) :
    k3_pay1 (iblk3 V c 0 t) (iblk3 V c 3 t) (iblk3 V c 1 t) (iblk3 V c 2 t) (iblk3 V c 4 t) (ix2 q j) = G3 (V c (Pipeline.arrRef spec3 0)) (V c (Pipeline.arrRef spec3 1)) (V c (Pipeline.arrRef spec3 2)) (V c (Pipeline.arrRef spec3 3)) (V c (Pipeline.arrRef spec3 4)) (ix2 r j) := by
  rw [pay3_apply, iblk3_0_apply V c t q j r hr, iblk3_1_apply V c t j, iblk3_2_apply V c t j, iblk3_3_apply V c t j, iblk3_4_apply V c t j]

set_option maxHeartbeats 1000000 in
/-- WHAT POINT `t` WRITES BACK is block `t` of `G3` of the arrays as the region finds them. -/
theorem flushed3_eq (c : Dev nD) (t : Fin cfg3.N) :
    (dat3 V c).flushed 5 t = ((cfg3.win 5).blk t).view.read (Elt F)
      (G3 (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5, out3_5_eq]
  funext y
  obtain ⟨q, j, rfl⟩ : ∃ (q : Fin 4096) (j : Fin 128), y = ix2 q j := ⟨y 0, y 1, eq_ix2 y⟩
  have ht : t.val < grid3.N := t.isLt
  rw [N_3] at ht
  have hr : t.val * 4096 + q.val < 65536 := by have := q.isLt; omega
  refine (flushed3_apply V c t q j ⟨t.val * 4096 + q.val, hr⟩ rfl).trans ?_
  exact (congrArg (G3 (V c (Pipeline.arrRef spec3 0)) (V c (Pipeline.arrRef spec3 1)) (V c (Pipeline.arrRef spec3 2)) (V c (Pipeline.arrRef spec3 3)) (V c (Pipeline.arrRef spec3 4))) (emb3_5_eq t q j ⟨t.val * 4096 + q.val, hr⟩ rfl)).symm

/-- Every entry of the output array is in some point's block: row `r` in the block of point `r / 4096`. -/
theorem cover3 (i : S65536x128.Idx) :
    ∃ t : Fin cfg3.N, (cfg3.win 5).flush t = true ∧ i ∈ ((cfg3.win 5).blk t).view.set := by
  have hi0 : (i 0).val < 65536 := (i 0).isLt
  have hN : grid3.N = 16 := N_3
  let t : Fin cfg3.N := ⟨(i 0).val / 4096, by show (i 0).val / 4096 < grid3.N; rw [hN]; omega⟩
  have htv : t.val = (i 0).val / 4096 := rfl
  refine ⟨t, flush3_5 t, ?_⟩
  have hmem := View.emb_mem_set ((cfg3.win 5).blk t).view (ix2 (⟨(i 0).val % 4096, Nat.mod_lt _ (by decide)⟩ : Fin 4096) (i 1))
  have e : ((cfg3.win 5).blk t).view.emb (ix2 (⟨(i 0).val % 4096, Nat.mod_lt _ (by decide)⟩ : Fin 4096) (i 1)) = i :=
    (emb3_5_eq t ⟨(i 0).val % 4096, Nat.mod_lt _ (by decide)⟩ (i 1) (i 0) (by rw [htv]; show (i 0).val = (i 0).val / 4096 * 4096 + (i 0).val % 4096; omega)).trans (eq_ix2 i).symm
  rw [e] at hmem
  exact hmem

/-- THE OUTPUT ARRAY after the run: `G3` of the arrays as the region finds them. -/
theorem final3 (c : Dev nD) : (dat3 V c).arrAt 5 cfg3.N = G3 (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3_eq V c t) cover3

end Cert.KernelIdeal.Hand

end
-- ==== Proof.Hand.P2v5.lean ====
import proofs.«103476_j5987184410999_2_alg».proof.Proof.Hand.P2r5
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window)

variable {F : FTy → Type} [FloatOps F]

-- the TensorCore's buffer contents when the region is entered
variable (V : (c : Dev nD) → (b : Ref sig .tc) → Buf (Elt F) ((c : Thread nD τ).loc b))

/-! # REGION 5: the proof data read as relational data -/

/-- The body obligation of the exact data read relationally. -/
theorem bodyR5 (c : Dev nD) : ((dat5 (F := F) V c).toR).BodyObligation (defs₀ (F := F)) Variants.none () Set.univ :=
  (body_obligation5 V c).toR

/-- What an array may hold after all the write-backs, of the exact data, is what the data names. -/
theorem arrAtR5 (c : Dev nD) (w : Fin cfg5.W) (G : Buf (Elt F) ((cfg5.win w).arr.view.loc (c.tc : Thread nD τ))) :
    ((dat5 V c).toR).ArrAt w cfg5.N G ↔ G = (dat5 V c).arrAt w cfg5.N :=
  (dat5 V c).toR_arrAt_iff w cfg5.N G

/-- Every window's array is held at the full share. -/
theorem shareR5 (c : Dev nD) (w : Fin cfg5.W) : ((dat5 V c).toR).share w = fullShare := by
  rw [Dat.toR_share]; unfold Dat.share; split <;> rfl

/-- The invariant, what is owed and what is recorded are the class's: the scoped rest, nothing, everything. -/
theorem ΦR5 (c : Dev nD) (t : Fin (cfg5.N + 1)) : ((dat5 V c).toR).Φ t = Pipeline.ΦA spec5 c := rfl
theorem owedR5 (c : Dev nD) (t : Fin (cfg5.N + 1)) : ((dat5 V c).toR).owed t = 0 := rfl
theorem recR5 (c : Dev nD) (t : Fin (cfg5.N + 1)) : ((dat5 V c).toR).recorded t = Set.univ := rfl

/-! # REGION 5: the arrays after the run -/

/-- An input window's array is never written: it holds the entry contents. -/
theorem arr_in5 (c : Dev nD) (w : Fin cfg5.W) (hw : (cfg5.win w).isOut = false) :
    (dat5 V c).arrAt w cfg5.N = V c (Pipeline.arrRef spec5 w) :=
  ((dat5 V c).arrAt_in w hw cfg5.N).trans (A_eq5 V c w)

theorem hz5 : (![0, 0] : Fin 2 → Nat) = fun _ => 0 := funext fun a => by fin_cases a <;> rfl

/-- What the output array ends holding, entry by entry: the scale times the centred entry, times the inverse
    deviation, plus the shift, plus the noise entry times the literal — the per-column vectors read at their one row; the operations in the body's order. -/
abbrev G5 (a0 : S65536x128.Idx → Elt F .f32) (a1 a2 a3 a4 : S1x128.Idx → Elt F .f32) (a5 : S65536x128.Idx → Elt F .f32) : S65536x128.Idx → Elt F .f32 :=
  fun i => FloatOps.addf (FloatOps.addf (FloatOps.mulf (FloatOps.mulf (a3 (ix2 0 (i 1))) (FloatOps.subf (a0 i) (a1 (ix2 0 (i 1))))) (a2 (ix2 0 (i 1)))) (a4 (ix2 0 (i 1)))) (FloatOps.mulf (a5 i) (Scalar.ofBits (F := F) .f32 0x3DCCCCCD#32))

/-- A one-row vector broadcast down the rows reads, at row `q` and column `j`, its entry at column `j`. -/
theorem bcast_row5_apply (x : Vec F S1x128 .f32) (q : Fin 4096) (j : Fin 128) :
    broadcastTo S4096x128 x broadcasts_S1x128_S4096x128 (ix2 q j) = x (ix2 0 j) := by
  refine broadcastTo_apply x broadcasts_S1x128_S4096x128 (ix2 q j) (ix2 0 j) (fun a => ?_)
  match a with
  | ⟨0, _⟩ => rfl
  | ⟨1, _⟩ => rfl

/-- The body's payload at row `q`, column `j` of the block. -/
theorem pay5_apply (v0 : Vec F S4096x128 .f32) (v2 v4 v10 v14 : Vec F S1x128 .f32) (v18 : Vec F S4096x128 .f32) (q : Fin 4096) (j : Fin 128) :
    k5_pay1 v0 v2 v4 v10 v14 v18 (ix2 q j)
      = FloatOps.addf (FloatOps.addf (FloatOps.mulf (FloatOps.mulf (v2 (ix2 0 j)) (FloatOps.subf (v0 (ix2 q j)) (v4 (ix2 0 j)))) (v10 (ix2 0 j))) (v14 (ix2 0 j))) (FloatOps.mulf (v18 (ix2 q j)) (Scalar.ofBits (F := F) .f32 0x3DCCCCCD#32)) := by
  unfold k5_pay1
  simp only [shapeCast_self]
  show FloatOps.addf (FloatOps.addf (FloatOps.mulf (FloatOps.mulf (broadcastTo S4096x128 v2 broadcasts_S1x128_S4096x128 (ix2 q j)) (FloatOps.subf (v0 (ix2 q j)) (broadcastTo S4096x128 v4 broadcasts_S1x128_S4096x128 (ix2 q j)))) (broadcastTo S4096x128 v10 broadcasts_S1x128_S4096x128 (ix2 q j))) (broadcastTo S4096x128 v14 broadcasts_S1x128_S4096x128 (ix2 q j))) (FloatOps.mulf (v18 (ix2 q j)) (Scalar.ofBits (F := F) .f32 0x3DCCCCCD#32)) = _
  rw [bcast_row5_apply, bcast_row5_apply, bcast_row5_apply, bcast_row5_apply]

/-- The printed index maps, decided over the grid: the blocks of rows move with the point, the one-row vectors stay. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- An element of window 0's block at point `t` sits in the array at the block's first row plus its own row, same column. -/
theorem emb5_0_eq (t : Fin cfg5.N) (q : Fin 4096) (j : Fin 128) (r : Fin 65536) (hr : r.val = t.val * 4096 + q.val) :
    ((cfg5.win 0).blk t).view.emb (ix2 q j) = ix2 r j := by
  funext a; apply Fin.ext
  match a with
  | ⟨0, _⟩ => exact ((win5_0.rect_emb_val t (ix2 q j) (0 : Fin 2)).trans (by rw [(idx_facts5 t).1]; rfl)).trans hr.symm
  | ⟨1, _⟩ => exact win5_0.rect_emb_val_of_index_zero t (1 : Fin 2) (idx_facts5 t).2.1 (ix2 q j)

/-- An element of window 5's block at point `t` sits in the array at the block's first row plus its own row, same column. -/
theorem emb5_5_eq (t : Fin cfg5.N) (q : Fin 4096) (j : Fin 128) (r : Fin 65536) (hr : r.val = t.val * 4096 + q.val) :
    ((cfg5.win 5).blk t).view.emb (ix2 q j) = ix2 r j := by
  funext a; apply Fin.ext
  match a with
  | ⟨0, _⟩ => exact ((win5_5.rect_emb_val t (ix2 q j) (0 : Fin 2)).trans (by rw [(idx_facts5 t).2.2.2.2.2.2.2.2.2.2.1]; rfl)).trans hr.symm
  | ⟨1, _⟩ => exact win5_5.rect_emb_val_of_index_zero t (1 : Fin 2) (idx_facts5 t).2.2.2.2.2.2.2.2.2.2.2.1 (ix2 q j)

/-- An element of window 6's block at point `t` sits in the array at the block's first row plus its own row, same column. -/
theorem emb5_6_eq (t : Fin cfg5.N) (q : Fin 4096) (j : Fin 128) (r : Fin 65536) (hr : r.val = t.val * 4096 + q.val) :
    ((cfg5.win 6).blk t).view.emb (ix2 q j) = ix2 r j := by
  funext a; apply Fin.ext
  match a with
  | ⟨0, _⟩ => exact ((win5_6.rect_emb_val t (ix2 q j) (0 : Fin 2)).trans (by rw [(idx_facts5 t).2.2.2.2.2.2.2.2.2.2.2.2.1]; rfl)).trans hr.symm
  | ⟨1, _⟩ => exact win5_6.rect_emb_val_of_index_zero t (1 : Fin 2) (idx_facts5 t).2.2.2.2.2.2.2.2.2.2.2.2.2 (ix2 q j)

/-- Window 1's block is its whole one-row array at every point. -/
theorem emb5_1_eq (t : Fin cfg5.N) (j : Fin 128) : ((cfg5.win 1).blk t).view.emb (ix2 0 j) = ix2 0 j := by
  funext a; apply Fin.ext
  match a with
  | ⟨0, _⟩ => exact win5_1.rect_emb_val_of_index_zero t (0 : Fin 2) (idx_facts5 t).2.2.1 (ix2 0 j)
  | ⟨1, _⟩ => exact win5_1.rect_emb_val_of_index_zero t (1 : Fin 2) (idx_facts5 t).2.2.2.1 (ix2 0 j)

/-- Window 2's block is its whole one-row array at every point. -/
theorem emb5_2_eq (t : Fin cfg5.N) (j : Fin 128) : ((cfg5.win 2).blk t).view.emb (ix2 0 j) = ix2 0 j := by
  funext a; apply Fin.ext
  match a with
  | ⟨0, _⟩ => exact win5_2.rect_emb_val_of_index_zero t (0 : Fin 2) (idx_facts5 t).2.2.2.2.1 (ix2 0 j)
  | ⟨1, _⟩ => exact win5_2.rect_emb_val_of_index_zero t (1 : Fin 2) (idx_facts5 t).2.2.2.2.2.1 (ix2 0 j)

/-- Window 3's block is its whole one-row array at every point. -/
theorem emb5_3_eq (t : Fin cfg5.N) (j : Fin 128) : ((cfg5.win 3).blk t).view.emb (ix2 0 j) = ix2 0 j := by
  funext a; apply Fin.ext
  match a with
  | ⟨0, _⟩ => exact win5_3.rect_emb_val_of_index_zero t (0 : Fin 2) (idx_facts5 t).2.2.2.2.2.2.1 (ix2 0 j)
  | ⟨1, _⟩ => exact win5_3.rect_emb_val_of_index_zero t (1 : Fin 2) (idx_facts5 t).2.2.2.2.2.2.2.1 (ix2 0 j)

/-- Window 4's block is its whole one-row array at every point. -/
theorem emb5_4_eq (t : Fin cfg5.N) (j : Fin 128) : ((cfg5.win 4).blk t).view.emb (ix2 0 j) = ix2 0 j := by
  funext a; apply Fin.ext
  match a with
  | ⟨0, _⟩ => exact win5_4.rect_emb_val_of_index_zero t (0 : Fin 2) (idx_facts5 t).2.2.2.2.2.2.2.2.1 (ix2 0 j)
  | ⟨1, _⟩ => exact win5_4.rect_emb_val_of_index_zero t (1 : Fin 2) (idx_facts5 t).2.2.2.2.2.2.2.2.2.1 (ix2 0 j)

/-- Window 0's block at point `t`, entry by entry: the array's rows `4096 t …`. -/
theorem iblk5_0_apply (c : Dev nD) (t : Fin cfg5.N) (q : Fin 4096) (j : Fin 128) (r : Fin 65536) (hr : r.val = t.val * 4096 + q.val) :
    iblk5 V c 0 t (ix2 q j) = V c (Pipeline.arrRef spec5 0) (ix2 r j) := by
  show V c (Pipeline.arrRef spec5 0) (((cfg5.win 0).blk t).view.emb (ix2 q j)) = _
  rw [emb5_0_eq t q j r hr]

/-- Window 5's block at point `t`, entry by entry: the array's rows `4096 t …`. -/
theorem iblk5_5_apply (c : Dev nD) (t : Fin cfg5.N) (q : Fin 4096) (j : Fin 128) (r : Fin 65536) (hr : r.val = t.val * 4096 + q.val) :
    iblk5 V c 5 t (ix2 q j) = V c (Pipeline.arrRef spec5 5) (ix2 r j) := by
  show V c (Pipeline.arrRef spec5 5) (((cfg5.win 5).blk t).view.emb (ix2 q j)) = _
  rw [emb5_5_eq t q j r hr]

/-- Window 1's block at every point is its one-row array. -/
theorem iblk5_1_apply (c : Dev nD) (t : Fin cfg5.N) (j : Fin 128) :
    iblk5 V c 1 t (ix2 0 j) = V c (Pipeline.arrRef spec5 1) (ix2 0 j) := by
  show V c (Pipeline.arrRef spec5 1) (((cfg5.win 1).blk t).view.emb (ix2 0 j)) = _
  rw [emb5_1_eq t j]

/-- Window 2's block at every point is its one-row array. -/
theorem iblk5_2_apply (c : Dev nD) (t : Fin cfg5.N) (j : Fin 128) :
    iblk5 V c 2 t (ix2 0 j) = V c (Pipeline.arrRef spec5 2) (ix2 0 j) := by
  show V c (Pipeline.arrRef spec5 2) (((cfg5.win 2).blk t).view.emb (ix2 0 j)) = _
  rw [emb5_2_eq t j]

/-- Window 3's block at every point is its one-row array. -/
theorem iblk5_3_apply (c : Dev nD) (t : Fin cfg5.N) (j : Fin 128) :
    iblk5 V c 3 t (ix2 0 j) = V c (Pipeline.arrRef spec5 3) (ix2 0 j) := by
  show V c (Pipeline.arrRef spec5 3) (((cfg5.win 3).blk t).view.emb (ix2 0 j)) = _
  rw [emb5_3_eq t j]

/-- Window 4's block at every point is its one-row array. -/
theorem iblk5_4_apply (c : Dev nD) (t : Fin cfg5.N) (j : Fin 128) :
    iblk5 V c 4 t (ix2 0 j) = V c (Pipeline.arrRef spec5 4) (ix2 0 j) := by
  show V c (Pipeline.arrRef spec5 4) (((cfg5.win 4).blk t).view.emb (ix2 0 j)) = _
  rw [emb5_4_eq t j]

/-- What the body leaves in the output buffer is its one store's payload of the whole input buffers. -/
theorem out5_6_eq (x0 : Vec F S4096x128 .f32) (x1 x2 x3 x4 : Vec F S1x128 .f32) (x5 : Vec F S4096x128 .f32) : out5_6 x0 x1 x2 x3 x4 x5 = k5_pay1 x0 x3 x1 x2 x4 x5 := by
  unfold out5_6
  rw [View.canon_unit_zero hz5]
  simp only [View.ld_unit_zero (S := S4096x128) hz5, View.ld_unit_zero (S := S1x128) hz5]

set_option maxHeartbeats 1000000 in
/-- The payload of the blocks at point `t`, at row `q` and column `j`, is `G5` of the arrays at row `4096 t + q`. -/
theorem flushed5_apply (c : Dev nD) (t : Fin cfg5.N) (q : Fin 4096) (j : Fin 128) (r : Fin 65536) (hr : r.val = t.val * 4096 + q.val) :
    k5_pay1 (iblk5 V c 0 t) (iblk5 V c 3 t) (iblk5 V c 1 t) (iblk5 V c 2 t) (iblk5 V c 4 t) (iblk5 V c 5 t) (ix2 q j) = G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (ix2 r j) := by
  rw [pay5_apply, iblk5_0_apply V c t q j r hr, iblk5_5_apply V c t q j r hr, iblk5_1_apply V c t j, iblk5_2_apply V c t j, iblk5_3_apply V c t j, iblk5_4_apply V c t j]

set_option maxHeartbeats 1000000 in
/-- WHAT POINT `t` WRITES BACK is block `t` of `G5` of the arrays as the region finds them. -/
theorem flushed5_eq (c : Dev nD) (t : Fin cfg5.N) :
    (dat5 V c).flushed 6 t = ((cfg5.win 6).blk t).view.read (Elt F)
      (G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6, out5_6_eq]
  funext y
  obtain ⟨q, j, rfl⟩ : ∃ (q : Fin 4096) (j : Fin 128), y = ix2 q j := ⟨y 0, y 1, eq_ix2 y⟩
  have ht : t.val < grid5.N := t.isLt
  rw [N_5] at ht
  have hr : t.val * 4096 + q.val < 65536 := by have := q.isLt; omega
  refine (flushed5_apply V c t q j ⟨t.val * 4096 + q.val, hr⟩ rfl).trans ?_
  exact (congrArg (G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) (emb5_6_eq t q j ⟨t.val * 4096 + q.val, hr⟩ rfl)).symm

/-- Every entry of the output array is in some point's block: row `r` in the block of point `r / 4096`. -/
theorem cover5 (i : S65536x128.Idx) :
    ∃ t : Fin cfg5.N, (cfg5.win 6).flush t = true ∧ i ∈ ((cfg5.win 6).blk t).view.set := by
  have hi0 : (i 0).val < 65536 := (i 0).isLt
  have hN : grid5.N = 16 := N_5
  let t : Fin cfg5.N := ⟨(i 0).val / 4096, by show (i 0).val / 4096 < grid5.N; rw [hN]; omega⟩
  have htv : t.val = (i 0).val / 4096 := rfl
  refine ⟨t, flush5_6 t, ?_⟩
  have hmem := View.emb_mem_set ((cfg5.win 6).blk t).view (ix2 (⟨(i 0).val % 4096, Nat.mod_lt _ (by decide)⟩ : Fin 4096) (i 1))
  have e : ((cfg5.win 6).blk t).view.emb (ix2 (⟨(i 0).val % 4096, Nat.mod_lt _ (by decide)⟩ : Fin 4096) (i 1)) = i :=
    (emb5_6_eq t ⟨(i 0).val % 4096, Nat.mod_lt _ (by decide)⟩ (i 1) (i 0) (by rw [htv]; show (i 0).val = (i 0).val / 4096 * 4096 + (i 0).val % 4096; omega)).trans (eq_ix2 i).symm
  rw [e] at hmem
  exact hmem

/-- THE OUTPUT ARRAY after the run: `G5` of the arrays as the region finds them. -/
theorem final5 (c : Dev nD) : (dat5 V c).arrAt 6 cfg5.N = G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => flushed5_eq V c t) cover5

end Cert.KernelIdeal.Hand

end
-- ==== Proof.Hand.P2v7.lean ====
import proofs.«103476_j5987184410999_2_alg».proof.Proof.Hand.P2r7
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window)

variable {F : FTy → Type} [FloatOps F]

-- the TensorCore's buffer contents when the region is entered
variable (V : (c : Dev nD) → (b : Ref sig .tc) → Buf (Elt F) ((c : Thread nD τ).loc b))

/-! # REGION 7: the proof data read as relational data -/

/-- The body obligation of the exact data read relationally. -/
theorem bodyR7 (c : Dev nD) : ((dat7 (F := F) V c).toR).BodyObligation (defs₀ (F := F)) Variants.none () Set.univ :=
  (body_obligation7 V c).toR

/-- What an array may hold after all the write-backs, of the exact data, is what the data names. -/
theorem arrAtR7 (c : Dev nD) (w : Fin cfg7.W) (G : Buf (Elt F) ((cfg7.win w).arr.view.loc (c.tc : Thread nD τ))) :
    ((dat7 V c).toR).ArrAt w cfg7.N G ↔ G = (dat7 V c).arrAt w cfg7.N :=
  (dat7 V c).toR_arrAt_iff w cfg7.N G

/-- Every window's array is held at the full share. -/
theorem shareR7 (c : Dev nD) (w : Fin cfg7.W) : ((dat7 V c).toR).share w = fullShare := by
  rw [Dat.toR_share]; unfold Dat.share; split <;> rfl

/-- The invariant, what is owed and what is recorded are the class's: the scoped rest, nothing, everything. -/
theorem ΦR7 (c : Dev nD) (t : Fin (cfg7.N + 1)) : ((dat7 V c).toR).Φ t = Pipeline.ΦA spec7 c := rfl
theorem owedR7 (c : Dev nD) (t : Fin (cfg7.N + 1)) : ((dat7 V c).toR).owed t = 0 := rfl
theorem recR7 (c : Dev nD) (t : Fin (cfg7.N + 1)) : ((dat7 V c).toR).recorded t = Set.univ := rfl

/-! # REGION 7: the arrays after the run -/

/-- An input window's array is never written: it holds the entry contents. -/
theorem arr_in7 (c : Dev nD) (w : Fin cfg7.W) (hw : (cfg7.win w).isOut = false) :
    (dat7 V c).arrAt w cfg7.N = V c (Pipeline.arrRef spec7 w) :=
  ((dat7 V c).arrAt_in w hw cfg7.N).trans (A_eq7 V c w)

theorem hz7 : (![0, 0] : Fin 2 → Nat) = fun _ => 0 := funext fun a => by fin_cases a <;> rfl

/-- What the output array ends holding, entry by entry: the scale times the centred entry, times the inverse
    deviation, plus the shift, plus the noise entry times the literal — the per-column vectors read at their one row; the operations in the body's order. -/
abbrev G7 (a0 : S65536x128.Idx → Elt F .f32) (a1 a2 a3 a4 : S1x128.Idx → Elt F .f32) (a5 : S65536x128.Idx → Elt F .f32) : S65536x128.Idx → Elt F .f32 :=
  fun i => FloatOps.addf (FloatOps.addf (FloatOps.mulf (FloatOps.mulf (a3 (ix2 0 (i 1))) (FloatOps.subf (a0 i) (a1 (ix2 0 (i 1))))) (a2 (ix2 0 (i 1)))) (a4 (ix2 0 (i 1)))) (FloatOps.mulf (a5 i) (Scalar.ofBits (F := F) .f32 0x3DCCCCCD#32))

/-- A one-row vector broadcast down the rows reads, at row `q` and column `j`, its entry at column `j`. -/
theorem bcast_row7_apply (x : Vec F S1x128 .f32) (q : Fin 4096) (j : Fin 128) :
    broadcastTo S4096x128 x broadcasts_S1x128_S4096x128 (ix2 q j) = x (ix2 0 j) := by
  refine broadcastTo_apply x broadcasts_S1x128_S4096x128 (ix2 q j) (ix2 0 j) (fun a => ?_)
  match a with
  | ⟨0, _⟩ => rfl
  | ⟨1, _⟩ => rfl

/-- The body's payload at row `q`, column `j` of the block. -/
theorem pay7_apply (v0 : Vec F S4096x128 .f32) (v2 v4 v10 v14 : Vec F S1x128 .f32) (v18 : Vec F S4096x128 .f32) (q : Fin 4096) (j : Fin 128) :
    k7_pay1 v0 v2 v4 v10 v14 v18 (ix2 q j)
      = FloatOps.addf (FloatOps.addf (FloatOps.mulf (FloatOps.mulf (v2 (ix2 0 j)) (FloatOps.subf (v0 (ix2 q j)) (v4 (ix2 0 j)))) (v10 (ix2 0 j))) (v14 (ix2 0 j))) (FloatOps.mulf (v18 (ix2 q j)) (Scalar.ofBits (F := F) .f32 0x3DCCCCCD#32)) := by
  unfold k7_pay1
  simp only [shapeCast_self]
  show FloatOps.addf (FloatOps.addf (FloatOps.mulf (FloatOps.mulf (broadcastTo S4096x128 v2 broadcasts_S1x128_S4096x128 (ix2 q j)) (FloatOps.subf (v0 (ix2 q j)) (broadcastTo S4096x128 v4 broadcasts_S1x128_S4096x128 (ix2 q j)))) (broadcastTo S4096x128 v10 broadcasts_S1x128_S4096x128 (ix2 q j))) (broadcastTo S4096x128 v14 broadcasts_S1x128_S4096x128 (ix2 q j))) (FloatOps.mulf (v18 (ix2 q j)) (Scalar.ofBits (F := F) .f32 0x3DCCCCCD#32)) = _
  rw [bcast_row7_apply, bcast_row7_apply, bcast_row7_apply, bcast_row7_apply]

/-- The printed index maps, decided over the grid: the blocks of rows move with the point, the one-row vectors stay. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

/-- An element of window 0's block at point `t` sits in the array at the block's first row plus its own row, same column. -/
theorem emb7_0_eq (t : Fin cfg7.N) (q : Fin 4096) (j : Fin 128) (r : Fin 65536) (hr : r.val = t.val * 4096 + q.val) :
    ((cfg7.win 0).blk t).view.emb (ix2 q j) = ix2 r j := by
  funext a; apply Fin.ext
  match a with
  | ⟨0, _⟩ => exact ((win7_0.rect_emb_val t (ix2 q j) (0 : Fin 2)).trans (by rw [(idx_facts7 t).1]; rfl)).trans hr.symm
  | ⟨1, _⟩ => exact win7_0.rect_emb_val_of_index_zero t (1 : Fin 2) (idx_facts7 t).2.1 (ix2 q j)

/-- An element of window 5's block at point `t` sits in the array at the block's first row plus its own row, same column. -/
theorem emb7_5_eq (t : Fin cfg7.N) (q : Fin 4096) (j : Fin 128) (r : Fin 65536) (hr : r.val = t.val * 4096 + q.val) :
    ((cfg7.win 5).blk t).view.emb (ix2 q j) = ix2 r j := by
  funext a; apply Fin.ext
  match a with
  | ⟨0, _⟩ => exact ((win7_5.rect_emb_val t (ix2 q j) (0 : Fin 2)).trans (by rw [(idx_facts7 t).2.2.2.2.2.2.2.2.2.2.1]; rfl)).trans hr.symm
  | ⟨1, _⟩ => exact win7_5.rect_emb_val_of_index_zero t (1 : Fin 2) (idx_facts7 t).2.2.2.2.2.2.2.2.2.2.2.1 (ix2 q j)

/-- An element of window 6's block at point `t` sits in the array at the block's first row plus its own row, same column. -/
theorem emb7_6_eq (t : Fin cfg7.N) (q : Fin 4096) (j : Fin 128) (r : Fin 65536) (hr : r.val = t.val * 4096 + q.val) :
    ((cfg7.win 6).blk t).view.emb (ix2 q j) = ix2 r j := by
  funext a; apply Fin.ext
  match a with
  | ⟨0, _⟩ => exact ((win7_6.rect_emb_val t (ix2 q j) (0 : Fin 2)).trans (by rw [(idx_facts7 t).2.2.2.2.2.2.2.2.2.2.2.2.1]; rfl)).trans hr.symm
  | ⟨1, _⟩ => exact win7_6.rect_emb_val_of_index_zero t (1 : Fin 2) (idx_facts7 t).2.2.2.2.2.2.2.2.2.2.2.2.2 (ix2 q j)

/-- Window 1's block is its whole one-row array at every point. -/
theorem emb7_1_eq (t : Fin cfg7.N) (j : Fin 128) : ((cfg7.win 1).blk t).view.emb (ix2 0 j) = ix2 0 j := by
  funext a; apply Fin.ext
  match a with
  | ⟨0, _⟩ => exact win7_1.rect_emb_val_of_index_zero t (0 : Fin 2) (idx_facts7 t).2.2.1 (ix2 0 j)
  | ⟨1, _⟩ => exact win7_1.rect_emb_val_of_index_zero t (1 : Fin 2) (idx_facts7 t).2.2.2.1 (ix2 0 j)

/-- Window 2's block is its whole one-row array at every point. -/
theorem emb7_2_eq (t : Fin cfg7.N) (j : Fin 128) : ((cfg7.win 2).blk t).view.emb (ix2 0 j) = ix2 0 j := by
  funext a; apply Fin.ext
  match a with
  | ⟨0, _⟩ => exact win7_2.rect_emb_val_of_index_zero t (0 : Fin 2) (idx_facts7 t).2.2.2.2.1 (ix2 0 j)
  | ⟨1, _⟩ => exact win7_2.rect_emb_val_of_index_zero t (1 : Fin 2) (idx_facts7 t).2.2.2.2.2.1 (ix2 0 j)

/-- Window 3's block is its whole one-row array at every point. -/
theorem emb7_3_eq (t : Fin cfg7.N) (j : Fin 128) : ((cfg7.win 3).blk t).view.emb (ix2 0 j) = ix2 0 j := by
  funext a; apply Fin.ext
  match a with
  | ⟨0, _⟩ => exact win7_3.rect_emb_val_of_index_zero t (0 : Fin 2) (idx_facts7 t).2.2.2.2.2.2.1 (ix2 0 j)
  | ⟨1, _⟩ => exact win7_3.rect_emb_val_of_index_zero t (1 : Fin 2) (idx_facts7 t).2.2.2.2.2.2.2.1 (ix2 0 j)

/-- Window 4's block is its whole one-row array at every point. -/
theorem emb7_4_eq (t : Fin cfg7.N) (j : Fin 128) : ((cfg7.win 4).blk t).view.emb (ix2 0 j) = ix2 0 j := by
  funext a; apply Fin.ext
  match a with
  | ⟨0, _⟩ => exact win7_4.rect_emb_val_of_index_zero t (0 : Fin 2) (idx_facts7 t).2.2.2.2.2.2.2.2.1 (ix2 0 j)
  | ⟨1, _⟩ => exact win7_4.rect_emb_val_of_index_zero t (1 : Fin 2) (idx_facts7 t).2.2.2.2.2.2.2.2.2.1 (ix2 0 j)

/-- Window 0's block at point `t`, entry by entry: the array's rows `4096 t …`. -/
theorem iblk7_0_apply (c : Dev nD) (t : Fin cfg7.N) (q : Fin 4096) (j : Fin 128) (r : Fin 65536) (hr : r.val = t.val * 4096 + q.val) :
    iblk7 V c 0 t (ix2 q j) = V c (Pipeline.arrRef spec7 0) (ix2 r j) := by
  show V c (Pipeline.arrRef spec7 0) (((cfg7.win 0).blk t).view.emb (ix2 q j)) = _
  rw [emb7_0_eq t q j r hr]

/-- Window 5's block at point `t`, entry by entry: the array's rows `4096 t …`. -/
theorem iblk7_5_apply (c : Dev nD) (t : Fin cfg7.N) (q : Fin 4096) (j : Fin 128) (r : Fin 65536) (hr : r.val = t.val * 4096 + q.val) :
    iblk7 V c 5 t (ix2 q j) = V c (Pipeline.arrRef spec7 5) (ix2 r j) := by
  show V c (Pipeline.arrRef spec7 5) (((cfg7.win 5).blk t).view.emb (ix2 q j)) = _
  rw [emb7_5_eq t q j r hr]

/-- Window 1's block at every point is its one-row array. -/
theorem iblk7_1_apply (c : Dev nD) (t : Fin cfg7.N) (j : Fin 128) :
    iblk7 V c 1 t (ix2 0 j) = V c (Pipeline.arrRef spec7 1) (ix2 0 j) := by
  show V c (Pipeline.arrRef spec7 1) (((cfg7.win 1).blk t).view.emb (ix2 0 j)) = _
  rw [emb7_1_eq t j]

/-- Window 2's block at every point is its one-row array. -/
theorem iblk7_2_apply (c : Dev nD) (t : Fin cfg7.N) (j : Fin 128) :
    iblk7 V c 2 t (ix2 0 j) = V c (Pipeline.arrRef spec7 2) (ix2 0 j) := by
  show V c (Pipeline.arrRef spec7 2) (((cfg7.win 2).blk t).view.emb (ix2 0 j)) = _
  rw [emb7_2_eq t j]

/-- Window 3's block at every point is its one-row array. -/
theorem iblk7_3_apply (c : Dev nD) (t : Fin cfg7.N) (j : Fin 128) :
    iblk7 V c 3 t (ix2 0 j) = V c (Pipeline.arrRef spec7 3) (ix2 0 j) := by
  show V c (Pipeline.arrRef spec7 3) (((cfg7.win 3).blk t).view.emb (ix2 0 j)) = _
  rw [emb7_3_eq t j]

/-- Window 4's block at every point is its one-row array. -/
theorem iblk7_4_apply (c : Dev nD) (t : Fin cfg7.N) (j : Fin 128) :
    iblk7 V c 4 t (ix2 0 j) = V c (Pipeline.arrRef spec7 4) (ix2 0 j) := by
  show V c (Pipeline.arrRef spec7 4) (((cfg7.win 4).blk t).view.emb (ix2 0 j)) = _
  rw [emb7_4_eq t j]

/-- What the body leaves in the output buffer is its one store's payload of the whole input buffers. -/
theorem out7_6_eq (x0 : Vec F S4096x128 .f32) (x1 x2 x3 x4 : Vec F S1x128 .f32) (x5 : Vec F S4096x128 .f32) : out7_6 x0 x1 x2 x3 x4 x5 = k7_pay1 x0 x3 x1 x2 x4 x5 := by
  unfold out7_6
  rw [View.canon_unit_zero hz7]
  simp only [View.ld_unit_zero (S := S4096x128) hz7, View.ld_unit_zero (S := S1x128) hz7]

set_option maxHeartbeats 1000000 in
/-- The payload of the blocks at point `t`, at row `q` and column `j`, is `G7` of the arrays at row `4096 t + q`. -/
theorem flushed7_apply (c : Dev nD) (t : Fin cfg7.N) (q : Fin 4096) (j : Fin 128) (r : Fin 65536) (hr : r.val = t.val * 4096 + q.val) :
    k7_pay1 (iblk7 V c 0 t) (iblk7 V c 3 t) (iblk7 V c 1 t) (iblk7 V c 2 t) (iblk7 V c 4 t) (iblk7 V c 5 t) (ix2 q j) = G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (ix2 r j) := by
  rw [pay7_apply, iblk7_0_apply V c t q j r hr, iblk7_5_apply V c t q j r hr, iblk7_1_apply V c t j, iblk7_2_apply V c t j, iblk7_3_apply V c t j, iblk7_4_apply V c t j]

set_option maxHeartbeats 1000000 in
/-- WHAT POINT `t` WRITES BACK is block `t` of `G7` of the arrays as the region finds them. -/
theorem flushed7_eq (c : Dev nD) (t : Fin cfg7.N) :
    (dat7 V c).flushed 6 t = ((cfg7.win 6).blk t).view.read (Elt F)
      (G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) := by
  show (cfg7.win 6).cut (grid7.coords t) ((dat7 V c).after 6 t) = _
  rw [after7_6, out7_6_eq]
  funext y
  obtain ⟨q, j, rfl⟩ : ∃ (q : Fin 4096) (j : Fin 128), y = ix2 q j := ⟨y 0, y 1, eq_ix2 y⟩
  have ht : t.val < grid7.N := t.isLt
  rw [N_7] at ht
  have hr : t.val * 4096 + q.val < 65536 := by have := q.isLt; omega
  refine (flushed7_apply V c t q j ⟨t.val * 4096 + q.val, hr⟩ rfl).trans ?_
  exact (congrArg (G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) (emb7_6_eq t q j ⟨t.val * 4096 + q.val, hr⟩ rfl)).symm

/-- Every entry of the output array is in some point's block: row `r` in the block of point `r / 4096`. -/
theorem cover7 (i : S65536x128.Idx) :
    ∃ t : Fin cfg7.N, (cfg7.win 6).flush t = true ∧ i ∈ ((cfg7.win 6).blk t).view.set := by
  have hi0 : (i 0).val < 65536 := (i 0).isLt
  have hN : grid7.N = 16 := N_7
  let t : Fin cfg7.N := ⟨(i 0).val / 4096, by show (i 0).val / 4096 < grid7.N; rw [hN]; omega⟩
  have htv : t.val = (i 0).val / 4096 := rfl
  refine ⟨t, flush7_6 t, ?_⟩
  have hmem := View.emb_mem_set ((cfg7.win 6).blk t).view (ix2 (⟨(i 0).val % 4096, Nat.mod_lt _ (by decide)⟩ : Fin 4096) (i 1))
  have e : ((cfg7.win 6).blk t).view.emb (ix2 (⟨(i 0).val % 4096, Nat.mod_lt _ (by decide)⟩ : Fin 4096) (i 1)) = i :=
    (emb7_6_eq t ⟨(i 0).val % 4096, Nat.mod_lt _ (by decide)⟩ (i 1) (i 0) (by rw [htv]; show (i 0).val = (i 0).val / 4096 * 4096 + (i 0).val % 4096; omega)).trans (eq_ix2 i).symm
  rw [e] at hmem
  exact hmem

/-- THE OUTPUT ARRAY after the run: `G7` of the arrays as the region finds them. -/
theorem final7 (c : Dev nD) : (dat7 V c).arrAt 6 cfg7.N = G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) :=
  (dat7 V c).arrAt_eq_of_cover 6 _ (fun t _ => flushed7_eq V c t) cover7

end Cert.KernelIdeal.Hand

end
-- ==== Proof.Hand.P2v9.lean ====
import proofs.«103476_j5987184410999_2_alg».proof.Proof.Hand.P2r9
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window)

variable {F : FTy → Type} [FloatOps F]

-- the TensorCore's buffer contents when the region is entered
variable (V : (c : Dev nD) → (b : Ref sig .tc) → Buf (Elt F) ((c : Thread nD τ).loc b))

/-! # REGION 9: the proof data read as relational data -/

/-- The body obligation of the exact data read relationally. -/
theorem bodyR9 (c : Dev nD) : ((dat9 (F := F) V c).toR).BodyObligation (defs₀ (F := F)) Variants.none () Set.univ :=
  (body_obligation9 V c).toR

/-- What an array may hold after all the write-backs, of the exact data, is what the data names. -/
theorem arrAtR9 (c : Dev nD) (w : Fin cfg9.W) (G : Buf (Elt F) ((cfg9.win w).arr.view.loc (c.tc : Thread nD τ))) :
    ((dat9 V c).toR).ArrAt w cfg9.N G ↔ G = (dat9 V c).arrAt w cfg9.N :=
  (dat9 V c).toR_arrAt_iff w cfg9.N G

/-- Every window's array is held at the full share. -/
theorem shareR9 (c : Dev nD) (w : Fin cfg9.W) : ((dat9 V c).toR).share w = fullShare := by
  rw [Dat.toR_share]; unfold Dat.share; split <;> rfl

/-- The invariant, what is owed and what is recorded are the class's: the scoped rest, nothing, everything. -/
theorem ΦR9 (c : Dev nD) (t : Fin (cfg9.N + 1)) : ((dat9 V c).toR).Φ t = Pipeline.ΦA spec9 c := rfl
theorem owedR9 (c : Dev nD) (t : Fin (cfg9.N + 1)) : ((dat9 V c).toR).owed t = 0 := rfl
theorem recR9 (c : Dev nD) (t : Fin (cfg9.N + 1)) : ((dat9 V c).toR).recorded t = Set.univ := rfl

/-! # REGION 9: the arrays after the run -/

/-- An input window's array is never written: it holds the entry contents. -/
theorem arr_in9 (c : Dev nD) (w : Fin cfg9.W) (hw : (cfg9.win w).isOut = false) :
    (dat9 V c).arrAt w cfg9.N = V c (Pipeline.arrRef spec9 w) :=
  ((dat9 V c).arrAt_in w hw cfg9.N).trans (A_eq9 V c w)

theorem hz9 : (![0, 0] : Fin 2 → Nat) = fun _ => 0 := funext fun a => by fin_cases a <;> rfl

/-- What the output array ends holding, entry by entry: the scale times the centred entry, times the inverse
    deviation, plus the shift, plus the noise entry times the literal — the per-column vectors read at their one row; the operations in the body's order. -/
abbrev G9 (a0 : S65536x128.Idx → Elt F .f32) (a1 a2 a3 a4 : S1x128.Idx → Elt F .f32) (a5 : S65536x128.Idx → Elt F .f32) : S65536x128.Idx → Elt F .f32 :=
  fun i => FloatOps.addf (FloatOps.addf (FloatOps.mulf (FloatOps.mulf (a3 (ix2 0 (i 1))) (FloatOps.subf (a0 i) (a1 (ix2 0 (i 1))))) (a2 (ix2 0 (i 1)))) (a4 (ix2 0 (i 1)))) (FloatOps.mulf (a5 i) (Scalar.ofBits (F := F) .f32 0x3DCCCCCD#32))

/-- A one-row vector broadcast down the rows reads, at row `q` and column `j`, its entry at column `j`. -/
theorem bcast_row9_apply (x : Vec F S1x128 .f32) (q : Fin 4096) (j : Fin 128) :
    broadcastTo S4096x128 x broadcasts_S1x128_S4096x128 (ix2 q j) = x (ix2 0 j) := by
  refine broadcastTo_apply x broadcasts_S1x128_S4096x128 (ix2 q j) (ix2 0 j) (fun a => ?_)
  match a with
  | ⟨0, _⟩ => rfl
  | ⟨1, _⟩ => rfl

/-- The body's payload at row `q`, column `j` of the block. -/
theorem pay9_apply (v0 : Vec F S4096x128 .f32) (v2 v4 v10 v14 : Vec F S1x128 .f32) (v18 : Vec F S4096x128 .f32) (q : Fin 4096) (j : Fin 128) :
    k9_pay1 v0 v2 v4 v10 v14 v18 (ix2 q j)
      = FloatOps.addf (FloatOps.addf (FloatOps.mulf (FloatOps.mulf (v2 (ix2 0 j)) (FloatOps.subf (v0 (ix2 q j)) (v4 (ix2 0 j)))) (v10 (ix2 0 j))) (v14 (ix2 0 j))) (FloatOps.mulf (v18 (ix2 q j)) (Scalar.ofBits (F := F) .f32 0x3DCCCCCD#32)) := by
  unfold k9_pay1
  simp only [shapeCast_self]
  show FloatOps.addf (FloatOps.addf (FloatOps.mulf (FloatOps.mulf (broadcastTo S4096x128 v2 broadcasts_S1x128_S4096x128 (ix2 q j)) (FloatOps.subf (v0 (ix2 q j)) (broadcastTo S4096x128 v4 broadcasts_S1x128_S4096x128 (ix2 q j)))) (broadcastTo S4096x128 v10 broadcasts_S1x128_S4096x128 (ix2 q j))) (broadcastTo S4096x128 v14 broadcasts_S1x128_S4096x128 (ix2 q j))) (FloatOps.mulf (v18 (ix2 q j)) (Scalar.ofBits (F := F) .f32 0x3DCCCCCD#32)) = _
  rw [bcast_row9_apply, bcast_row9_apply, bcast_row9_apply, bcast_row9_apply]

/-- The printed index maps, decided over the grid: the blocks of rows move with the point, the one-row vectors stay. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0
    ∧ win9_6.index t (0 : Fin 2) = t.val ∧ win9_6.index t (1 : Fin 2) = 0 :=
  (by decide +kernel : ∀ t : Fin grid9.N, _)

/-- An element of window 0's block at point `t` sits in the array at the block's first row plus its own row, same column. -/
theorem emb9_0_eq (t : Fin cfg9.N) (q : Fin 4096) (j : Fin 128) (r : Fin 65536) (hr : r.val = t.val * 4096 + q.val) :
    ((cfg9.win 0).blk t).view.emb (ix2 q j) = ix2 r j := by
  funext a; apply Fin.ext
  match a with
  | ⟨0, _⟩ => exact ((win9_0.rect_emb_val t (ix2 q j) (0 : Fin 2)).trans (by rw [(idx_facts9 t).1]; rfl)).trans hr.symm
  | ⟨1, _⟩ => exact win9_0.rect_emb_val_of_index_zero t (1 : Fin 2) (idx_facts9 t).2.1 (ix2 q j)

/-- An element of window 5's block at point `t` sits in the array at the block's first row plus its own row, same column. -/
theorem emb9_5_eq (t : Fin cfg9.N) (q : Fin 4096) (j : Fin 128) (r : Fin 65536) (hr : r.val = t.val * 4096 + q.val) :
    ((cfg9.win 5).blk t).view.emb (ix2 q j) = ix2 r j := by
  funext a; apply Fin.ext
  match a with
  | ⟨0, _⟩ => exact ((win9_5.rect_emb_val t (ix2 q j) (0 : Fin 2)).trans (by rw [(idx_facts9 t).2.2.2.2.2.2.2.2.2.2.1]; rfl)).trans hr.symm
  | ⟨1, _⟩ => exact win9_5.rect_emb_val_of_index_zero t (1 : Fin 2) (idx_facts9 t).2.2.2.2.2.2.2.2.2.2.2.1 (ix2 q j)

/-- An element of window 6's block at point `t` sits in the array at the block's first row plus its own row, same column. -/
theorem emb9_6_eq (t : Fin cfg9.N) (q : Fin 4096) (j : Fin 128) (r : Fin 65536) (hr : r.val = t.val * 4096 + q.val) :
    ((cfg9.win 6).blk t).view.emb (ix2 q j) = ix2 r j := by
  funext a; apply Fin.ext
  match a with
  | ⟨0, _⟩ => exact ((win9_6.rect_emb_val t (ix2 q j) (0 : Fin 2)).trans (by rw [(idx_facts9 t).2.2.2.2.2.2.2.2.2.2.2.2.1]; rfl)).trans hr.symm
  | ⟨1, _⟩ => exact win9_6.rect_emb_val_of_index_zero t (1 : Fin 2) (idx_facts9 t).2.2.2.2.2.2.2.2.2.2.2.2.2 (ix2 q j)

/-- Window 1's block is its whole one-row array at every point. -/
theorem emb9_1_eq (t : Fin cfg9.N) (j : Fin 128) : ((cfg9.win 1).blk t).view.emb (ix2 0 j) = ix2 0 j := by
  funext a; apply Fin.ext
  match a with
  | ⟨0, _⟩ => exact win9_1.rect_emb_val_of_index_zero t (0 : Fin 2) (idx_facts9 t).2.2.1 (ix2 0 j)
  | ⟨1, _⟩ => exact win9_1.rect_emb_val_of_index_zero t (1 : Fin 2) (idx_facts9 t).2.2.2.1 (ix2 0 j)

/-- Window 2's block is its whole one-row array at every point. -/
theorem emb9_2_eq (t : Fin cfg9.N) (j : Fin 128) : ((cfg9.win 2).blk t).view.emb (ix2 0 j) = ix2 0 j := by
  funext a; apply Fin.ext
  match a with
  | ⟨0, _⟩ => exact win9_2.rect_emb_val_of_index_zero t (0 : Fin 2) (idx_facts9 t).2.2.2.2.1 (ix2 0 j)
  | ⟨1, _⟩ => exact win9_2.rect_emb_val_of_index_zero t (1 : Fin 2) (idx_facts9 t).2.2.2.2.2.1 (ix2 0 j)

/-- Window 3's block is its whole one-row array at every point. -/
theorem emb9_3_eq (t : Fin cfg9.N) (j : Fin 128) : ((cfg9.win 3).blk t).view.emb (ix2 0 j) = ix2 0 j := by
  funext a; apply Fin.ext
  match a with
  | ⟨0, _⟩ => exact win9_3.rect_emb_val_of_index_zero t (0 : Fin 2) (idx_facts9 t).2.2.2.2.2.2.1 (ix2 0 j)
  | ⟨1, _⟩ => exact win9_3.rect_emb_val_of_index_zero t (1 : Fin 2) (idx_facts9 t).2.2.2.2.2.2.2.1 (ix2 0 j)

/-- Window 4's block is its whole one-row array at every point. -/
theorem emb9_4_eq (t : Fin cfg9.N) (j : Fin 128) : ((cfg9.win 4).blk t).view.emb (ix2 0 j) = ix2 0 j := by
  funext a; apply Fin.ext
  match a with
  | ⟨0, _⟩ => exact win9_4.rect_emb_val_of_index_zero t (0 : Fin 2) (idx_facts9 t).2.2.2.2.2.2.2.2.1 (ix2 0 j)
  | ⟨1, _⟩ => exact win9_4.rect_emb_val_of_index_zero t (1 : Fin 2) (idx_facts9 t).2.2.2.2.2.2.2.2.2.1 (ix2 0 j)

/-- Window 0's block at point `t`, entry by entry: the array's rows `4096 t …`. -/
theorem iblk9_0_apply (c : Dev nD) (t : Fin cfg9.N) (q : Fin 4096) (j : Fin 128) (r : Fin 65536) (hr : r.val = t.val * 4096 + q.val) :
    iblk9 V c 0 t (ix2 q j) = V c (Pipeline.arrRef spec9 0) (ix2 r j) := by
  show V c (Pipeline.arrRef spec9 0) (((cfg9.win 0).blk t).view.emb (ix2 q j)) = _
  rw [emb9_0_eq t q j r hr]

/-- Window 5's block at point `t`, entry by entry: the array's rows `4096 t …`. -/
theorem iblk9_5_apply (c : Dev nD) (t : Fin cfg9.N) (q : Fin 4096) (j : Fin 128) (r : Fin 65536) (hr : r.val = t.val * 4096 + q.val) :
    iblk9 V c 5 t (ix2 q j) = V c (Pipeline.arrRef spec9 5) (ix2 r j) := by
  show V c (Pipeline.arrRef spec9 5) (((cfg9.win 5).blk t).view.emb (ix2 q j)) = _
  rw [emb9_5_eq t q j r hr]

/-- Window 1's block at every point is its one-row array. -/
theorem iblk9_1_apply (c : Dev nD) (t : Fin cfg9.N) (j : Fin 128) :
    iblk9 V c 1 t (ix2 0 j) = V c (Pipeline.arrRef spec9 1) (ix2 0 j) := by
  show V c (Pipeline.arrRef spec9 1) (((cfg9.win 1).blk t).view.emb (ix2 0 j)) = _
  rw [emb9_1_eq t j]

/-- Window 2's block at every point is its one-row array. -/
theorem iblk9_2_apply (c : Dev nD) (t : Fin cfg9.N) (j : Fin 128) :
    iblk9 V c 2 t (ix2 0 j) = V c (Pipeline.arrRef spec9 2) (ix2 0 j) := by
  show V c (Pipeline.arrRef spec9 2) (((cfg9.win 2).blk t).view.emb (ix2 0 j)) = _
  rw [emb9_2_eq t j]

/-- Window 3's block at every point is its one-row array. -/
theorem iblk9_3_apply (c : Dev nD) (t : Fin cfg9.N) (j : Fin 128) :
    iblk9 V c 3 t (ix2 0 j) = V c (Pipeline.arrRef spec9 3) (ix2 0 j) := by
  show V c (Pipeline.arrRef spec9 3) (((cfg9.win 3).blk t).view.emb (ix2 0 j)) = _
  rw [emb9_3_eq t j]

/-- Window 4's block at every point is its one-row array. -/
theorem iblk9_4_apply (c : Dev nD) (t : Fin cfg9.N) (j : Fin 128) :
    iblk9 V c 4 t (ix2 0 j) = V c (Pipeline.arrRef spec9 4) (ix2 0 j) := by
  show V c (Pipeline.arrRef spec9 4) (((cfg9.win 4).blk t).view.emb (ix2 0 j)) = _
  rw [emb9_4_eq t j]

/-- What the body leaves in the output buffer is its one store's payload of the whole input buffers. -/
theorem out9_6_eq (x0 : Vec F S4096x128 .f32) (x1 x2 x3 x4 : Vec F S1x128 .f32) (x5 : Vec F S4096x128 .f32) : out9_6 x0 x1 x2 x3 x4 x5 = k9_pay1 x0 x3 x1 x2 x4 x5 := by
  unfold out9_6
  rw [View.canon_unit_zero hz9]
  simp only [View.ld_unit_zero (S := S4096x128) hz9, View.ld_unit_zero (S := S1x128) hz9]

set_option maxHeartbeats 1000000 in
/-- The payload of the blocks at point `t`, at row `q` and column `j`, is `G9` of the arrays at row `4096 t + q`. -/
theorem flushed9_apply (c : Dev nD) (t : Fin cfg9.N) (q : Fin 4096) (j : Fin 128) (r : Fin 65536) (hr : r.val = t.val * 4096 + q.val) :
    k9_pay1 (iblk9 V c 0 t) (iblk9 V c 3 t) (iblk9 V c 1 t) (iblk9 V c 2 t) (iblk9 V c 4 t) (iblk9 V c 5 t) (ix2 q j) = G9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (ix2 r j) := by
  rw [pay9_apply, iblk9_0_apply V c t q j r hr, iblk9_5_apply V c t q j r hr, iblk9_1_apply V c t j, iblk9_2_apply V c t j, iblk9_3_apply V c t j, iblk9_4_apply V c t j]

set_option maxHeartbeats 1000000 in
/-- WHAT POINT `t` WRITES BACK is block `t` of `G9` of the arrays as the region finds them. -/
theorem flushed9_eq (c : Dev nD) (t : Fin cfg9.N) :
    (dat9 V c).flushed 6 t = ((cfg9.win 6).blk t).view.read (Elt F)
      (G9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))) := by
  show (cfg9.win 6).cut (grid9.coords t) ((dat9 V c).after 6 t) = _
  rw [after9_6, out9_6_eq]
  funext y
  obtain ⟨q, j, rfl⟩ : ∃ (q : Fin 4096) (j : Fin 128), y = ix2 q j := ⟨y 0, y 1, eq_ix2 y⟩
  have ht : t.val < grid9.N := t.isLt
  rw [N_9] at ht
  have hr : t.val * 4096 + q.val < 65536 := by have := q.isLt; omega
  refine (flushed9_apply V c t q j ⟨t.val * 4096 + q.val, hr⟩ rfl).trans ?_
  exact (congrArg (G9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))) (emb9_6_eq t q j ⟨t.val * 4096 + q.val, hr⟩ rfl)).symm

/-- Every entry of the output array is in some point's block: row `r` in the block of point `r / 4096`. -/
theorem cover9 (i : S65536x128.Idx) :
    ∃ t : Fin cfg9.N, (cfg9.win 6).flush t = true ∧ i ∈ ((cfg9.win 6).blk t).view.set := by
  have hi0 : (i 0).val < 65536 := (i 0).isLt
  have hN : grid9.N = 16 := N_9
  let t : Fin cfg9.N := ⟨(i 0).val / 4096, by show (i 0).val / 4096 < grid9.N; rw [hN]; omega⟩
  have htv : t.val = (i 0).val / 4096 := rfl
  refine ⟨t, flush9_6 t, ?_⟩
  have hmem := View.emb_mem_set ((cfg9.win 6).blk t).view (ix2 (⟨(i 0).val % 4096, Nat.mod_lt _ (by decide)⟩ : Fin 4096) (i 1))
  have e : ((cfg9.win 6).blk t).view.emb (ix2 (⟨(i 0).val % 4096, Nat.mod_lt _ (by decide)⟩ : Fin 4096) (i 1)) = i :=
    (emb9_6_eq t ⟨(i 0).val % 4096, Nat.mod_lt _ (by decide)⟩ (i 1) (i 0) (by rw [htv]; show (i 0).val = (i 0).val / 4096 * 4096 + (i 0).val % 4096; omega)).trans (eq_ix2 i).symm
  rw [e] at hmem
  exact hmem

/-- THE OUTPUT ARRAY after the run: `G9` of the arrays as the region finds them. -/
theorem final9 (c : Dev nD) : (dat9 V c).arrAt 6 cfg9.N = G9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) :=
  (dat9 V c).arrAt_eq_of_cover 6 _ (fun t _ => flushed9_eq V c t) cover9

end Cert.KernelIdeal.Hand

end
-- ==== Proof.Hand.Chain.lean ====
/-
  The invariant of Hand/ChainDefs.lean holds at launch and is carried on by every host stretch and every kernel region; hence the run
  (Hand/Run.lean) ends at contents satisfying it at the last boundary, and the argument arrays end as launched.
-/
import proofs.«103476_j5987184410999_2_alg».proof.Proof.Hand.ChainDefs
import proofs.«103476_j5987184410999_2_alg».proof.Proof.Hand.Run
import proofs.«103476_j5987184410999_2_alg».proof.Proof.Hand.AgreeOps
import proofs.«103476_j5987184410999_2_alg».proof.Proof.Hand.P2v1
import proofs.«103476_j5987184410999_2_alg».proof.Proof.Hand.P2v3
import proofs.«103476_j5987184410999_2_alg».proof.Proof.Hand.P2v5
import proofs.«103476_j5987184410999_2_alg».proof.Proof.Hand.P2v7
import proofs.«103476_j5987184410999_2_alg».proof.Proof.Hand.P2v9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-! ## The launch, the host stretches -/

theorem inv0 (c : Dev nD) : Inv m 0 c (fun b => m (c, b)) := ⟨Agree.refl _, fun _ _ => rfl⟩

theorem jrestH0 : ∀ s ∈ (Jrest 1 : List (Ref sig .tc)), s ∉ hostOps0_W := by decide
theorem invH0 (c : Dev nD) (V : Valuation τ sig (Elt F)) (h : Inv m 0 c V) : Inv m 1 c (StableHlo.after hostOps0 V) :=
  ⟨hostOps0_agree V _ h.1, fun s hs =>
    (StableHlo.after_of_writes_sub hostOps0 V hostOps0_writes (jrestH0 s hs)).trans
      ((h.2 s hs).trans (StableHlo.after_of_writes_sub hostOps0 (W0 m c) hostOps0_writes (jrestH0 s hs)).symm)⟩

theorem jrestH1 : ∀ s ∈ (Jrest 3 : List (Ref sig .tc)), s ∉ hostOps1_W := by decide
theorem invH1 (c : Dev nD) (V : Valuation τ sig (Elt F)) (h : Inv m 2 c V) : Inv m 3 c (StableHlo.after hostOps1 V) :=
  ⟨hostOps1_agree V _ h.1, fun s hs =>
    (StableHlo.after_of_writes_sub hostOps1 V hostOps1_writes (jrestH1 s hs)).trans
      ((h.2 s hs).trans (StableHlo.after_of_writes_sub hostOps1 (W2 m c) hostOps1_writes (jrestH1 s hs)).symm)⟩

theorem jrestH2 : ∀ s ∈ (Jrest 5 : List (Ref sig .tc)), s ∉ hostOps2_W := by decide
theorem invH2 (c : Dev nD) (V : Valuation τ sig (Elt F)) (h : Inv m 4 c V) : Inv m 5 c (StableHlo.after hostOps2 V) :=
  ⟨hostOps2_agree V _ h.1, fun s hs =>
    (StableHlo.after_of_writes_sub hostOps2 V hostOps2_writes (jrestH2 s hs)).trans
      ((h.2 s hs).trans (StableHlo.after_of_writes_sub hostOps2 (W4 m c) hostOps2_writes (jrestH2 s hs)).symm)⟩

theorem jrestH3 : ∀ s ∈ (Jrest 7 : List (Ref sig .tc)), s ∉ hostOps3_W := by decide
theorem invH3 (c : Dev nD) (V : Valuation τ sig (Elt F)) (h : Inv m 6 c V) : Inv m 7 c (StableHlo.after hostOps3 V) :=
  ⟨hostOps3_agree V _ h.1, fun s hs =>
    (StableHlo.after_of_writes_sub hostOps3 V hostOps3_writes (jrestH3 s hs)).trans
      ((h.2 s hs).trans (StableHlo.after_of_writes_sub hostOps3 (W6 m c) hostOps3_writes (jrestH3 s hs)).symm)⟩

theorem jrestH4 : ∀ s ∈ (Jrest 9 : List (Ref sig .tc)), s ∉ hostOps4_W := by decide
theorem invH4 (c : Dev nD) (V : Valuation τ sig (Elt F)) (h : Inv m 8 c V) : Inv m 9 c (StableHlo.after hostOps4 V) :=
  ⟨hostOps4_agree V _ h.1, fun s hs =>
    (StableHlo.after_of_writes_sub hostOps4 V hostOps4_writes (jrestH4 s hs)).trans
      ((h.2 s hs).trans (StableHlo.after_of_writes_sub hostOps4 (W8 m c) hostOps4_writes (jrestH4 s hs)).symm)⟩

theorem jrestH5 : ∀ s ∈ (Jrest 11 : List (Ref sig .tc)), s ∉ hostOps5_W := by decide
theorem invH5 (c : Dev nD) (V : Valuation τ sig (Elt F)) (h : Inv m 10 c V) : Inv m 11 c (StableHlo.after hostOps5 V) :=
  ⟨hostOps5_agree V _ h.1, fun s hs =>
    (StableHlo.after_of_writes_sub hostOps5 V hostOps5_writes (jrestH5 s hs)).trans
      ((h.2 s hs).trans (StableHlo.after_of_writes_sub hostOps5 (W10 m c) hostOps5_writes (jrestH5 s hs)).symm)⟩

theorem jrestH6 : ∀ s ∈ (Jrest 13 : List (Ref sig .tc)), s ∉ hostOps6_W := by decide
theorem invH6 (c : Dev nD) (V : Valuation τ sig (Elt F)) (h : Inv m 12 c V) : Inv m 13 c (StableHlo.after hostOps6 V) :=
  ⟨hostOps6_agree V _ h.1, fun s hs =>
    (StableHlo.after_of_writes_sub hostOps6 V hostOps6_writes (jrestH6 s hs)).trans
      ((h.2 s hs).trans (StableHlo.after_of_writes_sub hostOps6 (W12 m c) hostOps6_writes (jrestH6 s hs)).symm)⟩

theorem jrestH7 : ∀ s ∈ (Jrest 15 : List (Ref sig .tc)), s ∉ hostOps7_W := by decide
theorem invH7 (c : Dev nD) (V : Valuation τ sig (Elt F)) (h : Inv m 14 c V) : Inv m 15 c (StableHlo.after hostOps7 V) :=
  ⟨hostOps7_agree V _ h.1, fun s hs =>
    (StableHlo.after_of_writes_sub hostOps7 V hostOps7_writes (jrestH7 s hs)).trans
      ((h.2 s hs).trans (StableHlo.after_of_writes_sub hostOps7 (W14 m c) hostOps7_writes (jrestH7 s hs)).symm)⟩

theorem jrestH8 : ∀ s ∈ (Jrest 17 : List (Ref sig .tc)), s ∉ hostOps8_W := by decide
theorem invH8 (c : Dev nD) (V : Valuation τ sig (Elt F)) (h : Inv m 16 c V) : Inv m 17 c (StableHlo.after hostOps8 V) :=
  ⟨hostOps8_agree V _ h.1, fun s hs =>
    (StableHlo.after_of_writes_sub hostOps8 V hostOps8_writes (jrestH8 s hs)).trans
      ((h.2 s hs).trans (StableHlo.after_of_writes_sub hostOps8 (W16 m c) hostOps8_writes (jrestH8 s hs)).symm)⟩

theorem jrestH9 : ∀ s ∈ (Jrest 19 : List (Ref sig .tc)), s ∉ hostOps9_W := by decide
theorem invH9 (c : Dev nD) (V : Valuation τ sig (Elt F)) (h : Inv m 18 c V) : Inv m 19 c (StableHlo.after hostOps9 V) :=
  ⟨hostOps9_agree V _ h.1, fun s hs =>
    (StableHlo.after_of_writes_sub hostOps9 V hostOps9_writes (jrestH9 s hs)).trans
      ((h.2 s hs).trans (StableHlo.after_of_writes_sub hostOps9 (W18 m c) hostOps9_writes (jrestH9 s hs)).symm)⟩

/-! ## The regions -/

theorem jneR0 : ∀ s ∈ (Jrest 2 : List (Ref sig .tc)), ∀ w : Fin cfg0.W, Pipeline.arrRef spec0 w ≠ s := by decide
theorem jsubR0 : ∀ s ∈ (Jrest 2 : List (Ref sig .tc)), s ∈ (Jrest 1 : List (Ref sig .tc)) := by decide
theorem jA0 : ∀ w : Fin cfg0.W, Pipeline.arrRef spec0 w ∈ (Jl : List (Ref sig .tc)) → Pipeline.arrRef spec0 w ∈ (Jrest 1 : List (Ref sig .tc)) := by decide
theorem invA0 (c : Dev nD) (V : Valuation τ sig (Elt F)) (h : Inv m 1 c V) (w : Fin cfg0.W) :
    (rdats m 0 c).A w = V (Pipeline.arrRef spec0 w) := by
  refine (rdat0_A (E0 m) c w).trans ?_
  show W1 m c (Pipeline.arrRef spec0 w) = V (Pipeline.arrRef spec0 w)
  by_cases hJ : Pipeline.arrRef spec0 w ∈ (Jl : List (Ref sig .tc))
  · exact (h.2 _ (jA0 w hJ)).symm
  · exact (h.1.off _ hJ).symm
set_option maxHeartbeats 2000000 in
theorem GAin0 (c : Dev nD) (w : Fin cfg0.W) (hw : w.val < 5) : GA0 m c w = W1 m c (Pipeline.arrRef spec0 w) := by
  obtain ⟨k, hk⟩ := w
  have hk' : k < 5 := hw
  interval_cases k <;> rfl
theorem wcase0 : ∀ w : Fin cfg0.W, ¬ w.val < 5 → w ≠ 6 → w ≠ 7 → w = 5 := by decide
set_option maxHeartbeats 2000000 in
theorem invS0 (c : Dev nD) (V : Valuation τ sig (Elt F)) (h : Inv m 1 c V)
    (G : (w : Fin cfg0.W) → Buf (Elt F) ((cfg0.win w).arr.view.loc (c.tc : Thread nD τ)))
    (hG : ∀ w, (rdats m 0 c).ArrAt w cfg0.N (G w)) : Inv m 2 c (Pipeline.withArrays spec0 c V G) :=
  ⟨withArrays_agree0 c V (W1 m c) G (GA0 m c) h.1
      (fun w h1 h2 => by
        by_cases hw : w.val < 5
        · exact (arrAt0_in (E0 m) c w hw _ (hG w)).trans (GAin0 m c w hw).symm
        · obtain rfl := wcase0 w hw h1 h2
          exact arrAt0_5 (E0 m) c _ (hG 5))
      (arrAt0_6 (E0 m) c _ (hG 6)) (arrAt0_7 (E0 m) c _ (hG 7)),
    fun s hs => (Pipeline.withArrays_of_ne spec0 c V G s (jneR0 s hs)).trans
      ((h.2 s (jsubR0 s hs)).trans (Pipeline.withArrays_of_ne spec0 c (W1 m c) (GA0 m c) s (jneR0 s hs)).symm)⟩

theorem jneR1 : ∀ s ∈ (Jrest 4 : List (Ref sig .tc)), ∀ w : Fin cfg1.W, Pipeline.arrRef spec1 w ≠ s := by decide
theorem jsubR1 : ∀ s ∈ (Jrest 4 : List (Ref sig .tc)), s ∈ (Jrest 3 : List (Ref sig .tc)) := by decide
theorem nJ1 : ∀ w : Fin cfg1.W, Pipeline.arrRef spec1 w ∉ (Jl : List (Ref sig .tc)) := by decide
theorem invA1 (c : Dev nD) (V : Valuation τ sig (Elt F)) (h : Inv m 3 c V) (w : Fin cfg1.W) :
    (rdats m 1 c).A w = V (Pipeline.arrRef spec1 w) := by
  refine (A_eq1 (E1 m) c w).trans ?_
  show W3 m c (Pipeline.arrRef spec1 w) = V (Pipeline.arrRef spec1 w)
  exact (h.1.off _ (nJ1 w)).symm
set_option maxHeartbeats 2000000 in
theorem invS1 (c : Dev nD) (V : Valuation τ sig (Elt F)) (h : Inv m 3 c V)
    (G : (w : Fin cfg1.W) → Buf (Elt F) ((cfg1.win w).arr.view.loc (c.tc : Thread nD τ)))
    (hG : ∀ w, (rdats m 1 c).ArrAt w cfg1.N (G w)) : Inv m 4 c (Pipeline.withArrays spec1 c V G) :=
  ⟨withArrays_agree_off spec1 launch1.win.arr_inj c V (W3 m c) G (GA1 m c) h.1
      (fun w => (arrAtR1 (E1 m) c w (G w)).mp (hG w)),
    fun s hs => (Pipeline.withArrays_of_ne spec1 c V G s (jneR1 s hs)).trans
      ((h.2 s (jsubR1 s hs)).trans (Pipeline.withArrays_of_ne spec1 c (W3 m c) (GA1 m c) s (jneR1 s hs)).symm)⟩

theorem jneR2 : ∀ s ∈ (Jrest 6 : List (Ref sig .tc)), ∀ w : Fin cfg2.W, Pipeline.arrRef spec2 w ≠ s := by decide
theorem jsubR2 : ∀ s ∈ (Jrest 6 : List (Ref sig .tc)), s ∈ (Jrest 5 : List (Ref sig .tc)) := by decide
theorem jA2 : ∀ w : Fin cfg2.W, Pipeline.arrRef spec2 w ∈ (Jl : List (Ref sig .tc)) → Pipeline.arrRef spec2 w ∈ (Jrest 5 : List (Ref sig .tc)) := by decide
theorem invA2 (c : Dev nD) (V : Valuation τ sig (Elt F)) (h : Inv m 5 c V) (w : Fin cfg2.W) :
    (rdats m 2 c).A w = V (Pipeline.arrRef spec2 w) := by
  refine (rdat2_A (E2 m) c w).trans ?_
  show W5 m c (Pipeline.arrRef spec2 w) = V (Pipeline.arrRef spec2 w)
  by_cases hJ : Pipeline.arrRef spec2 w ∈ (Jl : List (Ref sig .tc))
  · exact (h.2 _ (jA2 w hJ)).symm
  · exact (h.1.off _ hJ).symm
set_option maxHeartbeats 2000000 in
theorem GAin2 (c : Dev nD) (w : Fin cfg2.W) (hw : w.val < 5) : GA2 m c w = W5 m c (Pipeline.arrRef spec2 w) := by
  obtain ⟨k, hk⟩ := w
  have hk' : k < 5 := hw
  interval_cases k <;> rfl
theorem wcase2 : ∀ w : Fin cfg2.W, ¬ w.val < 5 → w ≠ 6 → w ≠ 7 → w = 5 := by decide
set_option maxHeartbeats 2000000 in
theorem invS2 (c : Dev nD) (V : Valuation τ sig (Elt F)) (h : Inv m 5 c V)
    (G : (w : Fin cfg2.W) → Buf (Elt F) ((cfg2.win w).arr.view.loc (c.tc : Thread nD τ)))
    (hG : ∀ w, (rdats m 2 c).ArrAt w cfg2.N (G w)) : Inv m 6 c (Pipeline.withArrays spec2 c V G) :=
  ⟨withArrays_agree2 c V (W5 m c) G (GA2 m c) h.1
      (fun w h1 h2 => by
        by_cases hw : w.val < 5
        · exact (arrAt2_in (E2 m) c w hw _ (hG w)).trans (GAin2 m c w hw).symm
        · obtain rfl := wcase2 w hw h1 h2
          exact arrAt2_5 (E2 m) c _ (hG 5))
      (arrAt2_6 (E2 m) c _ (hG 6)) (arrAt2_7 (E2 m) c _ (hG 7)),
    fun s hs => (Pipeline.withArrays_of_ne spec2 c V G s (jneR2 s hs)).trans
      ((h.2 s (jsubR2 s hs)).trans (Pipeline.withArrays_of_ne spec2 c (W5 m c) (GA2 m c) s (jneR2 s hs)).symm)⟩

theorem jneR3 : ∀ s ∈ (Jrest 8 : List (Ref sig .tc)), ∀ w : Fin cfg3.W, Pipeline.arrRef spec3 w ≠ s := by decide
theorem jsubR3 : ∀ s ∈ (Jrest 8 : List (Ref sig .tc)), s ∈ (Jrest 7 : List (Ref sig .tc)) := by decide
theorem nJ3 : ∀ w : Fin cfg3.W, Pipeline.arrRef spec3 w ∉ (Jl : List (Ref sig .tc)) := by decide
theorem invA3 (c : Dev nD) (V : Valuation τ sig (Elt F)) (h : Inv m 7 c V) (w : Fin cfg3.W) :
    (rdats m 3 c).A w = V (Pipeline.arrRef spec3 w) := by
  refine (A_eq3 (E3 m) c w).trans ?_
  show W7 m c (Pipeline.arrRef spec3 w) = V (Pipeline.arrRef spec3 w)
  exact (h.1.off _ (nJ3 w)).symm
set_option maxHeartbeats 2000000 in
theorem invS3 (c : Dev nD) (V : Valuation τ sig (Elt F)) (h : Inv m 7 c V)
    (G : (w : Fin cfg3.W) → Buf (Elt F) ((cfg3.win w).arr.view.loc (c.tc : Thread nD τ)))
    (hG : ∀ w, (rdats m 3 c).ArrAt w cfg3.N (G w)) : Inv m 8 c (Pipeline.withArrays spec3 c V G) :=
  ⟨withArrays_agree_off spec3 launch3.win.arr_inj c V (W7 m c) G (GA3 m c) h.1
      (fun w => (arrAtR3 (E3 m) c w (G w)).mp (hG w)),
    fun s hs => (Pipeline.withArrays_of_ne spec3 c V G s (jneR3 s hs)).trans
      ((h.2 s (jsubR3 s hs)).trans (Pipeline.withArrays_of_ne spec3 c (W7 m c) (GA3 m c) s (jneR3 s hs)).symm)⟩

theorem jneR4 : ∀ s ∈ (Jrest 10 : List (Ref sig .tc)), ∀ w : Fin cfg4.W, Pipeline.arrRef spec4 w ≠ s := by decide
theorem jsubR4 : ∀ s ∈ (Jrest 10 : List (Ref sig .tc)), s ∈ (Jrest 9 : List (Ref sig .tc)) := by decide
theorem jA4 : ∀ w : Fin cfg4.W, Pipeline.arrRef spec4 w ∈ (Jl : List (Ref sig .tc)) → Pipeline.arrRef spec4 w ∈ (Jrest 9 : List (Ref sig .tc)) := by decide
theorem invA4 (c : Dev nD) (V : Valuation τ sig (Elt F)) (h : Inv m 9 c V) (w : Fin cfg4.W) :
    (rdats m 4 c).A w = V (Pipeline.arrRef spec4 w) := by
  refine (rdat4_A (E4 m) c w).trans ?_
  show W9 m c (Pipeline.arrRef spec4 w) = V (Pipeline.arrRef spec4 w)
  by_cases hJ : Pipeline.arrRef spec4 w ∈ (Jl : List (Ref sig .tc))
  · exact (h.2 _ (jA4 w hJ)).symm
  · exact (h.1.off _ hJ).symm
set_option maxHeartbeats 2000000 in
theorem GAin4 (c : Dev nD) (w : Fin cfg4.W) (hw : w.val < 7) : GA4 m c w = W9 m c (Pipeline.arrRef spec4 w) := by
  obtain ⟨k, hk⟩ := w
  have hk' : k < 7 := hw
  interval_cases k <;> rfl
theorem wcase4 : ∀ w : Fin cfg4.W, ¬ w.val < 7 → w ≠ 8 → w ≠ 9 → w = 7 := by decide
set_option maxHeartbeats 2000000 in
theorem invS4 (c : Dev nD) (V : Valuation τ sig (Elt F)) (h : Inv m 9 c V)
    (G : (w : Fin cfg4.W) → Buf (Elt F) ((cfg4.win w).arr.view.loc (c.tc : Thread nD τ)))
    (hG : ∀ w, (rdats m 4 c).ArrAt w cfg4.N (G w)) : Inv m 10 c (Pipeline.withArrays spec4 c V G) :=
  ⟨withArrays_agree4 c V (W9 m c) G (GA4 m c) h.1
      (fun w h1 h2 => by
        by_cases hw : w.val < 7
        · exact (arrAt4_in (E4 m) c w hw _ (hG w)).trans (GAin4 m c w hw).symm
        · obtain rfl := wcase4 w hw h1 h2
          exact arrAt4_7 (E4 m) c _ (hG 7))
      (arrAt4_8 (E4 m) c _ (hG 8)) (arrAt4_9 (E4 m) c _ (hG 9)),
    fun s hs => (Pipeline.withArrays_of_ne spec4 c V G s (jneR4 s hs)).trans
      ((h.2 s (jsubR4 s hs)).trans (Pipeline.withArrays_of_ne spec4 c (W9 m c) (GA4 m c) s (jneR4 s hs)).symm)⟩

theorem jneR5 : ∀ s ∈ (Jrest 12 : List (Ref sig .tc)), ∀ w : Fin cfg5.W, Pipeline.arrRef spec5 w ≠ s := by decide
theorem jsubR5 : ∀ s ∈ (Jrest 12 : List (Ref sig .tc)), s ∈ (Jrest 11 : List (Ref sig .tc)) := by decide
theorem nJ5 : ∀ w : Fin cfg5.W, Pipeline.arrRef spec5 w ∉ (Jl : List (Ref sig .tc)) := by decide
theorem invA5 (c : Dev nD) (V : Valuation τ sig (Elt F)) (h : Inv m 11 c V) (w : Fin cfg5.W) :
    (rdats m 5 c).A w = V (Pipeline.arrRef spec5 w) := by
  refine (A_eq5 (E5 m) c w).trans ?_
  show W11 m c (Pipeline.arrRef spec5 w) = V (Pipeline.arrRef spec5 w)
  exact (h.1.off _ (nJ5 w)).symm
set_option maxHeartbeats 2000000 in
theorem invS5 (c : Dev nD) (V : Valuation τ sig (Elt F)) (h : Inv m 11 c V)
    (G : (w : Fin cfg5.W) → Buf (Elt F) ((cfg5.win w).arr.view.loc (c.tc : Thread nD τ)))
    (hG : ∀ w, (rdats m 5 c).ArrAt w cfg5.N (G w)) : Inv m 12 c (Pipeline.withArrays spec5 c V G) :=
  ⟨withArrays_agree_off spec5 launch5.win.arr_inj c V (W11 m c) G (GA5 m c) h.1
      (fun w => (arrAtR5 (E5 m) c w (G w)).mp (hG w)),
    fun s hs => (Pipeline.withArrays_of_ne spec5 c V G s (jneR5 s hs)).trans
      ((h.2 s (jsubR5 s hs)).trans (Pipeline.withArrays_of_ne spec5 c (W11 m c) (GA5 m c) s (jneR5 s hs)).symm)⟩

theorem jneR6 : ∀ s ∈ (Jrest 14 : List (Ref sig .tc)), ∀ w : Fin cfg6.W, Pipeline.arrRef spec6 w ≠ s := by decide
theorem jsubR6 : ∀ s ∈ (Jrest 14 : List (Ref sig .tc)), s ∈ (Jrest 13 : List (Ref sig .tc)) := by decide
theorem jA6 : ∀ w : Fin cfg6.W, Pipeline.arrRef spec6 w ∈ (Jl : List (Ref sig .tc)) → Pipeline.arrRef spec6 w ∈ (Jrest 13 : List (Ref sig .tc)) := by decide
theorem invA6 (c : Dev nD) (V : Valuation τ sig (Elt F)) (h : Inv m 13 c V) (w : Fin cfg6.W) :
    (rdats m 6 c).A w = V (Pipeline.arrRef spec6 w) := by
  refine (rdat6_A (E6 m) c w).trans ?_
  show W13 m c (Pipeline.arrRef spec6 w) = V (Pipeline.arrRef spec6 w)
  by_cases hJ : Pipeline.arrRef spec6 w ∈ (Jl : List (Ref sig .tc))
  · exact (h.2 _ (jA6 w hJ)).symm
  · exact (h.1.off _ hJ).symm
set_option maxHeartbeats 2000000 in
theorem GAin6 (c : Dev nD) (w : Fin cfg6.W) (hw : w.val < 7) : GA6 m c w = W13 m c (Pipeline.arrRef spec6 w) := by
  obtain ⟨k, hk⟩ := w
  have hk' : k < 7 := hw
  interval_cases k <;> rfl
theorem wcase6 : ∀ w : Fin cfg6.W, ¬ w.val < 7 → w ≠ 8 → w ≠ 9 → w = 7 := by decide
set_option maxHeartbeats 2000000 in
theorem invS6 (c : Dev nD) (V : Valuation τ sig (Elt F)) (h : Inv m 13 c V)
    (G : (w : Fin cfg6.W) → Buf (Elt F) ((cfg6.win w).arr.view.loc (c.tc : Thread nD τ)))
    (hG : ∀ w, (rdats m 6 c).ArrAt w cfg6.N (G w)) : Inv m 14 c (Pipeline.withArrays spec6 c V G) :=
  ⟨withArrays_agree6 c V (W13 m c) G (GA6 m c) h.1
      (fun w h1 h2 => by
        by_cases hw : w.val < 7
        · exact (arrAt6_in (E6 m) c w hw _ (hG w)).trans (GAin6 m c w hw).symm
        · obtain rfl := wcase6 w hw h1 h2
          exact arrAt6_7 (E6 m) c _ (hG 7))
      (arrAt6_8 (E6 m) c _ (hG 8)) (arrAt6_9 (E6 m) c _ (hG 9)),
    fun s hs => (Pipeline.withArrays_of_ne spec6 c V G s (jneR6 s hs)).trans
      ((h.2 s (jsubR6 s hs)).trans (Pipeline.withArrays_of_ne spec6 c (W13 m c) (GA6 m c) s (jneR6 s hs)).symm)⟩

theorem jneR7 : ∀ s ∈ (Jrest 16 : List (Ref sig .tc)), ∀ w : Fin cfg7.W, Pipeline.arrRef spec7 w ≠ s := by decide
theorem jsubR7 : ∀ s ∈ (Jrest 16 : List (Ref sig .tc)), s ∈ (Jrest 15 : List (Ref sig .tc)) := by decide
theorem nJ7 : ∀ w : Fin cfg7.W, Pipeline.arrRef spec7 w ∉ (Jl : List (Ref sig .tc)) := by decide
theorem invA7 (c : Dev nD) (V : Valuation τ sig (Elt F)) (h : Inv m 15 c V) (w : Fin cfg7.W) :
    (rdats m 7 c).A w = V (Pipeline.arrRef spec7 w) := by
  refine (A_eq7 (E7 m) c w).trans ?_
  show W15 m c (Pipeline.arrRef spec7 w) = V (Pipeline.arrRef spec7 w)
  exact (h.1.off _ (nJ7 w)).symm
set_option maxHeartbeats 2000000 in
theorem invS7 (c : Dev nD) (V : Valuation τ sig (Elt F)) (h : Inv m 15 c V)
    (G : (w : Fin cfg7.W) → Buf (Elt F) ((cfg7.win w).arr.view.loc (c.tc : Thread nD τ)))
    (hG : ∀ w, (rdats m 7 c).ArrAt w cfg7.N (G w)) : Inv m 16 c (Pipeline.withArrays spec7 c V G) :=
  ⟨withArrays_agree_off spec7 launch7.win.arr_inj c V (W15 m c) G (GA7 m c) h.1
      (fun w => (arrAtR7 (E7 m) c w (G w)).mp (hG w)),
    fun s hs => (Pipeline.withArrays_of_ne spec7 c V G s (jneR7 s hs)).trans
      ((h.2 s (jsubR7 s hs)).trans (Pipeline.withArrays_of_ne spec7 c (W15 m c) (GA7 m c) s (jneR7 s hs)).symm)⟩

theorem jneR8 : ∀ s ∈ (Jrest 18 : List (Ref sig .tc)), ∀ w : Fin cfg8.W, Pipeline.arrRef spec8 w ≠ s := by decide
theorem jsubR8 : ∀ s ∈ (Jrest 18 : List (Ref sig .tc)), s ∈ (Jrest 17 : List (Ref sig .tc)) := by decide
theorem jA8 : ∀ w : Fin cfg8.W, Pipeline.arrRef spec8 w ∈ (Jl : List (Ref sig .tc)) → Pipeline.arrRef spec8 w ∈ (Jrest 17 : List (Ref sig .tc)) := by decide
theorem invA8 (c : Dev nD) (V : Valuation τ sig (Elt F)) (h : Inv m 17 c V) (w : Fin cfg8.W) :
    (rdats m 8 c).A w = V (Pipeline.arrRef spec8 w) := by
  refine (rdat8_A (E8 m) c w).trans ?_
  show W17 m c (Pipeline.arrRef spec8 w) = V (Pipeline.arrRef spec8 w)
  by_cases hJ : Pipeline.arrRef spec8 w ∈ (Jl : List (Ref sig .tc))
  · exact (h.2 _ (jA8 w hJ)).symm
  · exact (h.1.off _ hJ).symm
set_option maxHeartbeats 2000000 in
theorem GAin8 (c : Dev nD) (w : Fin cfg8.W) (hw : w.val < 7) : GA8 m c w = W17 m c (Pipeline.arrRef spec8 w) := by
  obtain ⟨k, hk⟩ := w
  have hk' : k < 7 := hw
  interval_cases k <;> rfl
theorem wcase8 : ∀ w : Fin cfg8.W, ¬ w.val < 7 → w ≠ 8 → w ≠ 9 → w = 7 := by decide
set_option maxHeartbeats 2000000 in
theorem invS8 (c : Dev nD) (V : Valuation τ sig (Elt F)) (h : Inv m 17 c V)
    (G : (w : Fin cfg8.W) → Buf (Elt F) ((cfg8.win w).arr.view.loc (c.tc : Thread nD τ)))
    (hG : ∀ w, (rdats m 8 c).ArrAt w cfg8.N (G w)) : Inv m 18 c (Pipeline.withArrays spec8 c V G) :=
  ⟨withArrays_agree8 c V (W17 m c) G (GA8 m c) h.1
      (fun w h1 h2 => by
        by_cases hw : w.val < 7
        · exact (arrAt8_in (E8 m) c w hw _ (hG w)).trans (GAin8 m c w hw).symm
        · obtain rfl := wcase8 w hw h1 h2
          exact arrAt8_7 (E8 m) c _ (hG 7))
      (arrAt8_8 (E8 m) c _ (hG 8)) (arrAt8_9 (E8 m) c _ (hG 9)),
    fun s hs => (Pipeline.withArrays_of_ne spec8 c V G s (jneR8 s hs)).trans
      ((h.2 s (jsubR8 s hs)).trans (Pipeline.withArrays_of_ne spec8 c (W17 m c) (GA8 m c) s (jneR8 s hs)).symm)⟩

theorem jneR9 : ∀ s ∈ (Jrest 20 : List (Ref sig .tc)), ∀ w : Fin cfg9.W, Pipeline.arrRef spec9 w ≠ s := by decide
theorem jsubR9 : ∀ s ∈ (Jrest 20 : List (Ref sig .tc)), s ∈ (Jrest 19 : List (Ref sig .tc)) := by decide
theorem nJ9 : ∀ w : Fin cfg9.W, Pipeline.arrRef spec9 w ∉ (Jl : List (Ref sig .tc)) := by decide
theorem invA9 (c : Dev nD) (V : Valuation τ sig (Elt F)) (h : Inv m 19 c V) (w : Fin cfg9.W) :
    (rdats m 9 c).A w = V (Pipeline.arrRef spec9 w) := by
  refine (A_eq9 (E9 m) c w).trans ?_
  show W19 m c (Pipeline.arrRef spec9 w) = V (Pipeline.arrRef spec9 w)
  exact (h.1.off _ (nJ9 w)).symm
set_option maxHeartbeats 2000000 in
theorem invS9 (c : Dev nD) (V : Valuation τ sig (Elt F)) (h : Inv m 19 c V)
    (G : (w : Fin cfg9.W) → Buf (Elt F) ((cfg9.win w).arr.view.loc (c.tc : Thread nD τ)))
    (hG : ∀ w, (rdats m 9 c).ArrAt w cfg9.N (G w)) : Inv m 20 c (Pipeline.withArrays spec9 c V G) :=
  ⟨withArrays_agree_off spec9 launch9.win.arr_inj c V (W19 m c) G (GA9 m c) h.1
      (fun w => (arrAtR9 (E9 m) c w (G w)).mp (hG w)),
    fun s hs => (Pipeline.withArrays_of_ne spec9 c V G s (jneR9 s hs)).trans
      ((h.2 s (jsubR9 s hs)).trans (Pipeline.withArrays_of_ne spec9 c (W19 m c) (GA9 m c) s (jneR9 s hs)).symm)⟩

/-! ## The run -/

set_option maxHeartbeats 4000000 in
/-- Every weakly fair execution of @main terminates, and the TensorCore's unscoped buffers end at contents that agree with
    the canonical ones of the last boundary off the undefined rows. -/
theorem run_agree (ρ : Dev nD → PrngReg) :
    θ_run defs (onTc (τ := τ) (main (F := F))) ⟨m, fun _ => 0, ρ⟩ (fun r => ∀ c : Dev nD,
      ∃ V, Inv m 20 c V ∧ ∀ b ∈ Pipeline.ucRefs τ sig, r.2.mem (((c : Thread nD τ)).1, b) = V b) :=
  run_inv m ρ (rdats m)
    (fun p => match p with
    | ⟨0, _⟩ => fun c => body_obligation0 (E0 m) c
    | ⟨1, _⟩ => fun c => bodyR1 (E1 m) c
    | ⟨2, _⟩ => fun c => body_obligation2 (E2 m) c
    | ⟨3, _⟩ => fun c => bodyR3 (E3 m) c
    | ⟨4, _⟩ => fun c => body_obligation4 (E4 m) c
    | ⟨5, _⟩ => fun c => bodyR5 (E5 m) c
    | ⟨6, _⟩ => fun c => body_obligation6 (E6 m) c
    | ⟨7, _⟩ => fun c => bodyR7 (E7 m) c
    | ⟨8, _⟩ => fun c => body_obligation8 (E8 m) c
    | ⟨9, _⟩ => fun c => bodyR9 (E9 m) c)
    (fun p => match p with
    | ⟨0, _⟩ => fun _ _ => rfl
    | ⟨1, _⟩ => fun c t => ΦR1 (E1 m) c t
    | ⟨2, _⟩ => fun _ _ => rfl
    | ⟨3, _⟩ => fun c t => ΦR3 (E3 m) c t
    | ⟨4, _⟩ => fun _ _ => rfl
    | ⟨5, _⟩ => fun c t => ΦR5 (E5 m) c t
    | ⟨6, _⟩ => fun _ _ => rfl
    | ⟨7, _⟩ => fun c t => ΦR7 (E7 m) c t
    | ⟨8, _⟩ => fun _ _ => rfl
    | ⟨9, _⟩ => fun c t => ΦR9 (E9 m) c t)
    (fun p => match p with
    | ⟨0, _⟩ => fun c w => by unfold Pipeline.RDat.share; split <;> rfl
    | ⟨1, _⟩ => fun c w => shareR1 (E1 m) c w
    | ⟨2, _⟩ => fun c w => by unfold Pipeline.RDat.share; split <;> rfl
    | ⟨3, _⟩ => fun c w => shareR3 (E3 m) c w
    | ⟨4, _⟩ => fun c w => by unfold Pipeline.RDat.share; split <;> rfl
    | ⟨5, _⟩ => fun c w => shareR5 (E5 m) c w
    | ⟨6, _⟩ => fun c w => by unfold Pipeline.RDat.share; split <;> rfl
    | ⟨7, _⟩ => fun c w => shareR7 (E7 m) c w
    | ⟨8, _⟩ => fun c w => by unfold Pipeline.RDat.share; split <;> rfl
    | ⟨9, _⟩ => fun c w => shareR9 (E9 m) c w)
    (fun p => match p with
    | ⟨0, _⟩ => fun _ _ => rfl
    | ⟨1, _⟩ => fun c t => owedR1 (E1 m) c t
    | ⟨2, _⟩ => fun _ _ => rfl
    | ⟨3, _⟩ => fun c t => owedR3 (E3 m) c t
    | ⟨4, _⟩ => fun _ _ => rfl
    | ⟨5, _⟩ => fun c t => owedR5 (E5 m) c t
    | ⟨6, _⟩ => fun _ _ => rfl
    | ⟨7, _⟩ => fun c t => owedR7 (E7 m) c t
    | ⟨8, _⟩ => fun _ _ => rfl
    | ⟨9, _⟩ => fun c t => owedR9 (E9 m) c t)
    (fun p => match p with
    | ⟨0, _⟩ => fun _ _ => rfl
    | ⟨1, _⟩ => fun c t => recR1 (E1 m) c t
    | ⟨2, _⟩ => fun _ _ => rfl
    | ⟨3, _⟩ => fun c t => recR3 (E3 m) c t
    | ⟨4, _⟩ => fun _ _ => rfl
    | ⟨5, _⟩ => fun c t => recR5 (E5 m) c t
    | ⟨6, _⟩ => fun _ _ => rfl
    | ⟨7, _⟩ => fun c t => recR7 (E7 m) c t
    | ⟨8, _⟩ => fun _ _ => rfl
    | ⟨9, _⟩ => fun c t => recR9 (E9 m) c t)
    (Inv m) (inv0 m) (invH0 m) (invH1 m) (invH2 m) (invH3 m) (invH4 m) (invH5 m) (invH6 m) (invH7 m) (invH8 m) (invH9 m)
    (fun p => match p with
    | ⟨0, _⟩ => invA0 m
    | ⟨1, _⟩ => invA1 m
    | ⟨2, _⟩ => invA2 m
    | ⟨3, _⟩ => invA3 m
    | ⟨4, _⟩ => invA4 m
    | ⟨5, _⟩ => invA5 m
    | ⟨6, _⟩ => invA6 m
    | ⟨7, _⟩ => invA7 m
    | ⟨8, _⟩ => invA8 m
    | ⟨9, _⟩ => invA9 m)
    (fun p => match p with
    | ⟨0, _⟩ => invS0 m
    | ⟨1, _⟩ => invS1 m
    | ⟨2, _⟩ => invS2 m
    | ⟨3, _⟩ => invS3 m
    | ⟨4, _⟩ => invS4 m
    | ⟨5, _⟩ => invS5 m
    | ⟨6, _⟩ => invS6 m
    | ⟨7, _⟩ => invS7 m
    | ⟨8, _⟩ => invS8 m
    | ⟨9, _⟩ => invS9 m)
    (fun _ h => h)

/-! ## The arguments end as launched -/

def argL : List (Ref sig .tc) := [main_arg0, main_arg1, main_arg2, main_arg3, main_arg4, main_arg5, main_arg6, main_arg7, main_arg8]

theorem argH0 : ∀ a ∈ (argL : List (Ref sig .tc)), a ∉ hostOps0_W := by decide
theorem W1_arg (c : Dev nD) (a : Ref sig .tc) (ha : a ∈ argL) : W1 m c a = W0 m c a :=
  StableHlo.after_of_writes_sub hostOps0 _ hostOps0_writes (argH0 a ha)
theorem argR0 : ∀ a ∈ (argL : List (Ref sig .tc)), ∀ w : Fin cfg0.W, Pipeline.arrRef spec0 w = a → w.val < 5 := by decide
theorem W2_arg (c : Dev nD) (a : Ref sig .tc) (ha : a ∈ argL) : W2 m c a = W1 m c a :=
  withArrays_keep spec0 launch0.win.arr_inj c _ _ a (fun w hw => GAin0 m c w (argR0 a ha w hw))

theorem argH1 : ∀ a ∈ (argL : List (Ref sig .tc)), a ∉ hostOps1_W := by decide
theorem W3_arg (c : Dev nD) (a : Ref sig .tc) (ha : a ∈ argL) : W3 m c a = W2 m c a :=
  StableHlo.after_of_writes_sub hostOps1 _ hostOps1_writes (argH1 a ha)
theorem argR1 : ∀ a ∈ (argL : List (Ref sig .tc)), ∀ w : Fin cfg1.W, Pipeline.arrRef spec1 w = a → (cfg1.win w).isOut = false := by decide
theorem W4_arg (c : Dev nD) (a : Ref sig .tc) (ha : a ∈ argL) : W4 m c a = W3 m c a :=
  withArrays_keep spec1 launch1.win.arr_inj c _ _ a (fun w hw => arr_in1 (E1 m) c w (argR1 a ha w hw))

theorem argH2 : ∀ a ∈ (argL : List (Ref sig .tc)), a ∉ hostOps2_W := by decide
theorem W5_arg (c : Dev nD) (a : Ref sig .tc) (ha : a ∈ argL) : W5 m c a = W4 m c a :=
  StableHlo.after_of_writes_sub hostOps2 _ hostOps2_writes (argH2 a ha)
theorem argR2 : ∀ a ∈ (argL : List (Ref sig .tc)), ∀ w : Fin cfg2.W, Pipeline.arrRef spec2 w = a → w.val < 5 := by decide
theorem W6_arg (c : Dev nD) (a : Ref sig .tc) (ha : a ∈ argL) : W6 m c a = W5 m c a :=
  withArrays_keep spec2 launch2.win.arr_inj c _ _ a (fun w hw => GAin2 m c w (argR2 a ha w hw))

theorem argH3 : ∀ a ∈ (argL : List (Ref sig .tc)), a ∉ hostOps3_W := by decide
theorem W7_arg (c : Dev nD) (a : Ref sig .tc) (ha : a ∈ argL) : W7 m c a = W6 m c a :=
  StableHlo.after_of_writes_sub hostOps3 _ hostOps3_writes (argH3 a ha)
theorem argR3 : ∀ a ∈ (argL : List (Ref sig .tc)), ∀ w : Fin cfg3.W, Pipeline.arrRef spec3 w = a → (cfg3.win w).isOut = false := by decide
theorem W8_arg (c : Dev nD) (a : Ref sig .tc) (ha : a ∈ argL) : W8 m c a = W7 m c a :=
  withArrays_keep spec3 launch3.win.arr_inj c _ _ a (fun w hw => arr_in3 (E3 m) c w (argR3 a ha w hw))

theorem argH4 : ∀ a ∈ (argL : List (Ref sig .tc)), a ∉ hostOps4_W := by decide
theorem W9_arg (c : Dev nD) (a : Ref sig .tc) (ha : a ∈ argL) : W9 m c a = W8 m c a :=
  StableHlo.after_of_writes_sub hostOps4 _ hostOps4_writes (argH4 a ha)
theorem argR4 : ∀ a ∈ (argL : List (Ref sig .tc)), ∀ w : Fin cfg4.W, Pipeline.arrRef spec4 w = a → w.val < 7 := by decide
theorem W10_arg (c : Dev nD) (a : Ref sig .tc) (ha : a ∈ argL) : W10 m c a = W9 m c a :=
  withArrays_keep spec4 launch4.win.arr_inj c _ _ a (fun w hw => GAin4 m c w (argR4 a ha w hw))

theorem argH5 : ∀ a ∈ (argL : List (Ref sig .tc)), a ∉ hostOps5_W := by decide
theorem W11_arg (c : Dev nD) (a : Ref sig .tc) (ha : a ∈ argL) : W11 m c a = W10 m c a :=
  StableHlo.after_of_writes_sub hostOps5 _ hostOps5_writes (argH5 a ha)
theorem argR5 : ∀ a ∈ (argL : List (Ref sig .tc)), ∀ w : Fin cfg5.W, Pipeline.arrRef spec5 w = a → (cfg5.win w).isOut = false := by decide
theorem W12_arg (c : Dev nD) (a : Ref sig .tc) (ha : a ∈ argL) : W12 m c a = W11 m c a :=
  withArrays_keep spec5 launch5.win.arr_inj c _ _ a (fun w hw => arr_in5 (E5 m) c w (argR5 a ha w hw))

theorem argH6 : ∀ a ∈ (argL : List (Ref sig .tc)), a ∉ hostOps6_W := by decide
theorem W13_arg (c : Dev nD) (a : Ref sig .tc) (ha : a ∈ argL) : W13 m c a = W12 m c a :=
  StableHlo.after_of_writes_sub hostOps6 _ hostOps6_writes (argH6 a ha)
theorem argR6 : ∀ a ∈ (argL : List (Ref sig .tc)), ∀ w : Fin cfg6.W, Pipeline.arrRef spec6 w = a → w.val < 7 := by decide
theorem W14_arg (c : Dev nD) (a : Ref sig .tc) (ha : a ∈ argL) : W14 m c a = W13 m c a :=
  withArrays_keep spec6 launch6.win.arr_inj c _ _ a (fun w hw => GAin6 m c w (argR6 a ha w hw))

theorem argH7 : ∀ a ∈ (argL : List (Ref sig .tc)), a ∉ hostOps7_W := by decide
theorem W15_arg (c : Dev nD) (a : Ref sig .tc) (ha : a ∈ argL) : W15 m c a = W14 m c a :=
  StableHlo.after_of_writes_sub hostOps7 _ hostOps7_writes (argH7 a ha)
theorem argR7 : ∀ a ∈ (argL : List (Ref sig .tc)), ∀ w : Fin cfg7.W, Pipeline.arrRef spec7 w = a → (cfg7.win w).isOut = false := by decide
theorem W16_arg (c : Dev nD) (a : Ref sig .tc) (ha : a ∈ argL) : W16 m c a = W15 m c a :=
  withArrays_keep spec7 launch7.win.arr_inj c _ _ a (fun w hw => arr_in7 (E7 m) c w (argR7 a ha w hw))

theorem argH8 : ∀ a ∈ (argL : List (Ref sig .tc)), a ∉ hostOps8_W := by decide
theorem W17_arg (c : Dev nD) (a : Ref sig .tc) (ha : a ∈ argL) : W17 m c a = W16 m c a :=
  StableHlo.after_of_writes_sub hostOps8 _ hostOps8_writes (argH8 a ha)
theorem argR8 : ∀ a ∈ (argL : List (Ref sig .tc)), ∀ w : Fin cfg8.W, Pipeline.arrRef spec8 w = a → w.val < 7 := by decide
theorem W18_arg (c : Dev nD) (a : Ref sig .tc) (ha : a ∈ argL) : W18 m c a = W17 m c a :=
  withArrays_keep spec8 launch8.win.arr_inj c _ _ a (fun w hw => GAin8 m c w (argR8 a ha w hw))

theorem argH9 : ∀ a ∈ (argL : List (Ref sig .tc)), a ∉ hostOps9_W := by decide
theorem W19_arg (c : Dev nD) (a : Ref sig .tc) (ha : a ∈ argL) : W19 m c a = W18 m c a :=
  StableHlo.after_of_writes_sub hostOps9 _ hostOps9_writes (argH9 a ha)
theorem argR9 : ∀ a ∈ (argL : List (Ref sig .tc)), ∀ w : Fin cfg9.W, Pipeline.arrRef spec9 w = a → (cfg9.win w).isOut = false := by decide
theorem W20_arg (c : Dev nD) (a : Ref sig .tc) (ha : a ∈ argL) : W20 m c a = W19 m c a :=
  withArrays_keep spec9 launch9.win.arr_inj c _ _ a (fun w hw => arr_in9 (E9 m) c w (argR9 a ha w hw))

theorem W20_args (c : Dev nD) (a : Ref sig .tc) (ha : a ∈ argL) : W20 m c a = m (c, a) :=
  (W20_arg m c a ha).trans <| (W19_arg m c a ha).trans <| (W18_arg m c a ha).trans <| (W17_arg m c a ha).trans <| (W16_arg m c a ha).trans <| (W15_arg m c a ha).trans <| (W14_arg m c a ha).trans <| (W13_arg m c a ha).trans <| (W12_arg m c a ha).trans <| (W11_arg m c a ha).trans <| (W10_arg m c a ha).trans <| (W9_arg m c a ha).trans <| (W8_arg m c a ha).trans <| (W7_arg m c a ha).trans <| (W6_arg m c a ha).trans <| (W5_arg m c a ha).trans <| (W4_arg m c a ha).trans <| (W3_arg m c a ha).trans <| (W2_arg m c a ha).trans <| (W1_arg m c a ha)

theorem argNJ : ∀ a ∈ (argL : List (Ref sig .tc)), a ∉ (Jl : List (Ref sig .tc)) := by decide

/-- THE FRAME, at any `F`: every weakly fair execution of @main terminates, nothing faulting, and every final memory holds each
    argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    obtain ⟨V, hV, hm⟩ := h c
    have key : ∀ a ∈ (argL : List (Ref sig .tc)), r.2.mem ((c.tc : Thread nD τ).loc a) = m ((c.tc : Thread nD τ).loc a) := fun a ha =>
      (hm (Proc.devRef .tc a) (Finset.mem_filter.mpr ⟨StableHlo.devRef_mem_tcRefs a, by
          have : ∀ a ∈ (argL : List (Ref sig .tc)), ¬ (Proc.devRef (τ := τ) .tc a).isScoped := by decide
          exact this a ha⟩)).trans ((hV.1.off a (argNJ a ha)).trans (W20_args m c a ha))
    exact ⟨key main_arg0 (by decide), key main_arg1 (by decide), key main_arg2 (by decide), key main_arg3 (by decide), key main_arg4 (by decide), key main_arg5 (by decide), key main_arg6 (by decide), key main_arg7 (by decide), key main_arg8 (by decide)⟩) (run_agree m ρ)

end Cert.KernelIdeal.Hand

end
-- ==== Proof.Hand.KerKeep.lean ====
/-
  What no later item of @main touches stays put: along the canonical contents of Hand/ChainDefs*.lean an argument array, and a node's
  result array once produced, holds at every later boundary what it held before — no host stretch writes it, and a kernel region has it
  at most as an input window's array, which it leaves as found.
-/
import proofs.«103476_j5987184410999_2_alg».proof.Proof.Hand.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-- The references kept from boundary `j` on: the nine arguments and the results of the nodes finished by then. -/
def keptL : ℕ → List (Ref sig .tc)
  | 0 => [main_arg0, main_arg1, main_arg2, main_arg3, main_arg4, main_arg5, main_arg6, main_arg7, main_arg8]
  | 1 => [main_arg0, main_arg1, main_arg2, main_arg3, main_arg4, main_arg5, main_arg6, main_arg7, main_arg8]
  | 2 => [main_arg0, main_arg1, main_arg2, main_arg3, main_arg4, main_arg5, main_arg6, main_arg7, main_arg8]
  | 3 => [main_arg0, main_arg1, main_arg2, main_arg3, main_arg4, main_arg5, main_arg6, main_arg7, main_arg8]
  | 4 => [main_arg0, main_arg1, main_arg2, main_arg3, main_arg4, main_arg5, main_arg6, main_arg7, main_arg8, main_v32]
  | 5 => [main_arg0, main_arg1, main_arg2, main_arg3, main_arg4, main_arg5, main_arg6, main_arg7, main_arg8, main_v32]
  | 6 => [main_arg0, main_arg1, main_arg2, main_arg3, main_arg4, main_arg5, main_arg6, main_arg7, main_arg8, main_v32]
  | 7 => [main_arg0, main_arg1, main_arg2, main_arg3, main_arg4, main_arg5, main_arg6, main_arg7, main_arg8, main_v32]
  | 8 => [main_arg0, main_arg1, main_arg2, main_arg3, main_arg4, main_arg5, main_arg6, main_arg7, main_arg8, main_v32, main_v65]
  | 9 => [main_arg0, main_arg1, main_arg2, main_arg3, main_arg4, main_arg5, main_arg6, main_arg7, main_arg8, main_v32, main_v65]
  | 10 => [main_arg0, main_arg1, main_arg2, main_arg3, main_arg4, main_arg5, main_arg6, main_arg7, main_arg8, main_v32, main_v65]
  | 11 => [main_arg0, main_arg1, main_arg2, main_arg3, main_arg4, main_arg5, main_arg6, main_arg7, main_arg8, main_v32, main_v65]
  | 12 => [main_arg0, main_arg1, main_arg2, main_arg3, main_arg4, main_arg5, main_arg6, main_arg7, main_arg8, main_v32, main_v65, main_v110]
  | 13 => [main_arg0, main_arg1, main_arg2, main_arg3, main_arg4, main_arg5, main_arg6, main_arg7, main_arg8, main_v32, main_v65, main_v110]
  | 14 => [main_arg0, main_arg1, main_arg2, main_arg3, main_arg4, main_arg5, main_arg6, main_arg7, main_arg8, main_v32, main_v65, main_v110]
  | 15 => [main_arg0, main_arg1, main_arg2, main_arg3, main_arg4, main_arg5, main_arg6, main_arg7, main_arg8, main_v32, main_v65, main_v110]
  | 16 => [main_arg0, main_arg1, main_arg2, main_arg3, main_arg4, main_arg5, main_arg6, main_arg7, main_arg8, main_v32, main_v65, main_v110, main_v143]
  | 17 => [main_arg0, main_arg1, main_arg2, main_arg3, main_arg4, main_arg5, main_arg6, main_arg7, main_arg8, main_v32, main_v65, main_v110, main_v143]
  | 18 => [main_arg0, main_arg1, main_arg2, main_arg3, main_arg4, main_arg5, main_arg6, main_arg7, main_arg8, main_v32, main_v65, main_v110, main_v143]
  | 19 => [main_arg0, main_arg1, main_arg2, main_arg3, main_arg4, main_arg5, main_arg6, main_arg7, main_arg8, main_v32, main_v65, main_v110, main_v143]
  | _ => [main_arg0, main_arg1, main_arg2, main_arg3, main_arg4, main_arg5, main_arg6, main_arg7, main_arg8, main_v32, main_v65, main_v110, main_v143, main_v176]

theorem keptH0 : ∀ x ∈ (keptL 0 : List (Ref sig .tc)), x ∉ hostOps0_W := by decide
theorem W1_kept (c : Dev nD) (x : Ref sig .tc) (hx : x ∈ keptL 0) : W1 m c x = W0 m c x :=
  StableHlo.after_of_writes_sub hostOps0 _ hostOps0_writes (keptH0 x hx)
theorem keptR0 : ∀ x ∈ (keptL 0 : List (Ref sig .tc)), ∀ w : Fin cfg0.W, Pipeline.arrRef spec0 w = x → w.val < 5 := by decide
theorem W2_kept (c : Dev nD) (x : Ref sig .tc) (hx : x ∈ keptL 0) : W2 m c x = W1 m c x :=
  withArrays_keep spec0 launch0.win.arr_inj c _ _ x (fun w hw => GAin0 m c w (keptR0 x hx w hw))

theorem keptH1 : ∀ x ∈ (keptL 2 : List (Ref sig .tc)), x ∉ hostOps1_W := by decide
theorem W3_kept (c : Dev nD) (x : Ref sig .tc) (hx : x ∈ keptL 2) : W3 m c x = W2 m c x :=
  StableHlo.after_of_writes_sub hostOps1 _ hostOps1_writes (keptH1 x hx)
theorem keptR1 : ∀ x ∈ (keptL 2 : List (Ref sig .tc)), ∀ w : Fin cfg1.W, Pipeline.arrRef spec1 w = x → (cfg1.win w).isOut = false := by decide
theorem W4_kept (c : Dev nD) (x : Ref sig .tc) (hx : x ∈ keptL 2) : W4 m c x = W3 m c x :=
  withArrays_keep spec1 launch1.win.arr_inj c _ _ x (fun w hw => arr_in1 (E1 m) c w (keptR1 x hx w hw))

theorem keptH2 : ∀ x ∈ (keptL 4 : List (Ref sig .tc)), x ∉ hostOps2_W := by decide
theorem W5_kept (c : Dev nD) (x : Ref sig .tc) (hx : x ∈ keptL 4) : W5 m c x = W4 m c x :=
  StableHlo.after_of_writes_sub hostOps2 _ hostOps2_writes (keptH2 x hx)
theorem keptR2 : ∀ x ∈ (keptL 4 : List (Ref sig .tc)), ∀ w : Fin cfg2.W, Pipeline.arrRef spec2 w = x → w.val < 5 := by decide
theorem W6_kept (c : Dev nD) (x : Ref sig .tc) (hx : x ∈ keptL 4) : W6 m c x = W5 m c x :=
  withArrays_keep spec2 launch2.win.arr_inj c _ _ x (fun w hw => GAin2 m c w (keptR2 x hx w hw))

theorem keptH3 : ∀ x ∈ (keptL 6 : List (Ref sig .tc)), x ∉ hostOps3_W := by decide
theorem W7_kept (c : Dev nD) (x : Ref sig .tc) (hx : x ∈ keptL 6) : W7 m c x = W6 m c x :=
  StableHlo.after_of_writes_sub hostOps3 _ hostOps3_writes (keptH3 x hx)
theorem keptR3 : ∀ x ∈ (keptL 6 : List (Ref sig .tc)), ∀ w : Fin cfg3.W, Pipeline.arrRef spec3 w = x → (cfg3.win w).isOut = false := by decide
theorem W8_kept (c : Dev nD) (x : Ref sig .tc) (hx : x ∈ keptL 6) : W8 m c x = W7 m c x :=
  withArrays_keep spec3 launch3.win.arr_inj c _ _ x (fun w hw => arr_in3 (E3 m) c w (keptR3 x hx w hw))

theorem keptH4 : ∀ x ∈ (keptL 8 : List (Ref sig .tc)), x ∉ hostOps4_W := by decide
theorem W9_kept (c : Dev nD) (x : Ref sig .tc) (hx : x ∈ keptL 8) : W9 m c x = W8 m c x :=
  StableHlo.after_of_writes_sub hostOps4 _ hostOps4_writes (keptH4 x hx)
theorem keptR4 : ∀ x ∈ (keptL 8 : List (Ref sig .tc)), ∀ w : Fin cfg4.W, Pipeline.arrRef spec4 w = x → w.val < 7 := by decide
theorem W10_kept (c : Dev nD) (x : Ref sig .tc) (hx : x ∈ keptL 8) : W10 m c x = W9 m c x :=
  withArrays_keep spec4 launch4.win.arr_inj c _ _ x (fun w hw => GAin4 m c w (keptR4 x hx w hw))

theorem keptH5 : ∀ x ∈ (keptL 10 : List (Ref sig .tc)), x ∉ hostOps5_W := by decide
theorem W11_kept (c : Dev nD) (x : Ref sig .tc) (hx : x ∈ keptL 10) : W11 m c x = W10 m c x :=
  StableHlo.after_of_writes_sub hostOps5 _ hostOps5_writes (keptH5 x hx)
theorem keptR5 : ∀ x ∈ (keptL 10 : List (Ref sig .tc)), ∀ w : Fin cfg5.W, Pipeline.arrRef spec5 w = x → (cfg5.win w).isOut = false := by decide
theorem W12_kept (c : Dev nD) (x : Ref sig .tc) (hx : x ∈ keptL 10) : W12 m c x = W11 m c x :=
  withArrays_keep spec5 launch5.win.arr_inj c _ _ x (fun w hw => arr_in5 (E5 m) c w (keptR5 x hx w hw))

theorem keptH6 : ∀ x ∈ (keptL 12 : List (Ref sig .tc)), x ∉ hostOps6_W := by decide
theorem W13_kept (c : Dev nD) (x : Ref sig .tc) (hx : x ∈ keptL 12) : W13 m c x = W12 m c x :=
  StableHlo.after_of_writes_sub hostOps6 _ hostOps6_writes (keptH6 x hx)
theorem keptR6 : ∀ x ∈ (keptL 12 : List (Ref sig .tc)), ∀ w : Fin cfg6.W, Pipeline.arrRef spec6 w = x → w.val < 7 := by decide
theorem W14_kept (c : Dev nD) (x : Ref sig .tc) (hx : x ∈ keptL 12) : W14 m c x = W13 m c x :=
  withArrays_keep spec6 launch6.win.arr_inj c _ _ x (fun w hw => GAin6 m c w (keptR6 x hx w hw))

theorem keptH7 : ∀ x ∈ (keptL 14 : List (Ref sig .tc)), x ∉ hostOps7_W := by decide
theorem W15_kept (c : Dev nD) (x : Ref sig .tc) (hx : x ∈ keptL 14) : W15 m c x = W14 m c x :=
  StableHlo.after_of_writes_sub hostOps7 _ hostOps7_writes (keptH7 x hx)
theorem keptR7 : ∀ x ∈ (keptL 14 : List (Ref sig .tc)), ∀ w : Fin cfg7.W, Pipeline.arrRef spec7 w = x → (cfg7.win w).isOut = false := by decide
theorem W16_kept (c : Dev nD) (x : Ref sig .tc) (hx : x ∈ keptL 14) : W16 m c x = W15 m c x :=
  withArrays_keep spec7 launch7.win.arr_inj c _ _ x (fun w hw => arr_in7 (E7 m) c w (keptR7 x hx w hw))

theorem keptH8 : ∀ x ∈ (keptL 16 : List (Ref sig .tc)), x ∉ hostOps8_W := by decide
theorem W17_kept (c : Dev nD) (x : Ref sig .tc) (hx : x ∈ keptL 16) : W17 m c x = W16 m c x :=
  StableHlo.after_of_writes_sub hostOps8 _ hostOps8_writes (keptH8 x hx)
theorem keptR8 : ∀ x ∈ (keptL 16 : List (Ref sig .tc)), ∀ w : Fin cfg8.W, Pipeline.arrRef spec8 w = x → w.val < 7 := by decide
theorem W18_kept (c : Dev nD) (x : Ref sig .tc) (hx : x ∈ keptL 16) : W18 m c x = W17 m c x :=
  withArrays_keep spec8 launch8.win.arr_inj c _ _ x (fun w hw => GAin8 m c w (keptR8 x hx w hw))

theorem keptH9 : ∀ x ∈ (keptL 18 : List (Ref sig .tc)), x ∉ hostOps9_W := by decide
theorem W19_kept (c : Dev nD) (x : Ref sig .tc) (hx : x ∈ keptL 18) : W19 m c x = W18 m c x :=
  StableHlo.after_of_writes_sub hostOps9 _ hostOps9_writes (keptH9 x hx)
theorem keptR9 : ∀ x ∈ (keptL 18 : List (Ref sig .tc)), ∀ w : Fin cfg9.W, Pipeline.arrRef spec9 w = x → (cfg9.win w).isOut = false := by decide
theorem W20_kept (c : Dev nD) (x : Ref sig .tc) (hx : x ∈ keptL 18) : W20 m c x = W19 m c x :=
  withArrays_keep spec9 launch9.win.arr_inj c _ _ x (fun w hw => arr_in9 (E9 m) c w (keptR9 x hx w hw))

theorem ks_4_6 : ∀ x ∈ (keptL 4 : List (Ref sig .tc)), x ∈ (keptL 6 : List (Ref sig .tc)) := by decide
theorem ks_4_4 : ∀ x ∈ (keptL 4 : List (Ref sig .tc)), x ∈ (keptL 4 : List (Ref sig .tc)) := by decide
theorem ks_4_10 : ∀ x ∈ (keptL 4 : List (Ref sig .tc)), x ∈ (keptL 10 : List (Ref sig .tc)) := by decide
theorem ks_4_8 : ∀ x ∈ (keptL 4 : List (Ref sig .tc)), x ∈ (keptL 8 : List (Ref sig .tc)) := by decide
theorem ks_4_18 : ∀ x ∈ (keptL 4 : List (Ref sig .tc)), x ∈ (keptL 18 : List (Ref sig .tc)) := by decide
theorem ks_4_16 : ∀ x ∈ (keptL 4 : List (Ref sig .tc)), x ∈ (keptL 16 : List (Ref sig .tc)) := by decide
theorem ks_4_14 : ∀ x ∈ (keptL 4 : List (Ref sig .tc)), x ∈ (keptL 14 : List (Ref sig .tc)) := by decide
theorem ks_4_12 : ∀ x ∈ (keptL 4 : List (Ref sig .tc)), x ∈ (keptL 12 : List (Ref sig .tc)) := by decide
theorem ks_8_14 : ∀ x ∈ (keptL 8 : List (Ref sig .tc)), x ∈ (keptL 14 : List (Ref sig .tc)) := by decide
theorem ks_8_12 : ∀ x ∈ (keptL 8 : List (Ref sig .tc)), x ∈ (keptL 12 : List (Ref sig .tc)) := by decide
theorem ks_8_10 : ∀ x ∈ (keptL 8 : List (Ref sig .tc)), x ∈ (keptL 10 : List (Ref sig .tc)) := by decide
theorem ks_8_8 : ∀ x ∈ (keptL 8 : List (Ref sig .tc)), x ∈ (keptL 8 : List (Ref sig .tc)) := by decide
theorem ks_8_18 : ∀ x ∈ (keptL 8 : List (Ref sig .tc)), x ∈ (keptL 18 : List (Ref sig .tc)) := by decide
theorem ks_8_16 : ∀ x ∈ (keptL 8 : List (Ref sig .tc)), x ∈ (keptL 16 : List (Ref sig .tc)) := by decide
theorem ks_12_14 : ∀ x ∈ (keptL 12 : List (Ref sig .tc)), x ∈ (keptL 14 : List (Ref sig .tc)) := by decide
theorem ks_12_12 : ∀ x ∈ (keptL 12 : List (Ref sig .tc)), x ∈ (keptL 12 : List (Ref sig .tc)) := by decide
theorem ks_12_18 : ∀ x ∈ (keptL 12 : List (Ref sig .tc)), x ∈ (keptL 18 : List (Ref sig .tc)) := by decide
theorem ks_12_16 : ∀ x ∈ (keptL 12 : List (Ref sig .tc)), x ∈ (keptL 16 : List (Ref sig .tc)) := by decide
theorem ks_16_18 : ∀ x ∈ (keptL 16 : List (Ref sig .tc)), x ∈ (keptL 18 : List (Ref sig .tc)) := by decide
theorem ks_16_16 : ∀ x ∈ (keptL 16 : List (Ref sig .tc)), x ∈ (keptL 16 : List (Ref sig .tc)) := by decide
theorem ks_0_2 : ∀ x ∈ (keptL 0 : List (Ref sig .tc)), x ∈ (keptL 2 : List (Ref sig .tc)) := by decide
theorem ks_0_0 : ∀ x ∈ (keptL 0 : List (Ref sig .tc)), x ∈ (keptL 0 : List (Ref sig .tc)) := by decide
theorem ks_0_6 : ∀ x ∈ (keptL 0 : List (Ref sig .tc)), x ∈ (keptL 6 : List (Ref sig .tc)) := by decide
theorem ks_0_4 : ∀ x ∈ (keptL 0 : List (Ref sig .tc)), x ∈ (keptL 4 : List (Ref sig .tc)) := by decide
theorem ks_0_10 : ∀ x ∈ (keptL 0 : List (Ref sig .tc)), x ∈ (keptL 10 : List (Ref sig .tc)) := by decide
theorem ks_0_8 : ∀ x ∈ (keptL 0 : List (Ref sig .tc)), x ∈ (keptL 8 : List (Ref sig .tc)) := by decide
theorem ks_0_14 : ∀ x ∈ (keptL 0 : List (Ref sig .tc)), x ∈ (keptL 14 : List (Ref sig .tc)) := by decide
theorem ks_0_12 : ∀ x ∈ (keptL 0 : List (Ref sig .tc)), x ∈ (keptL 12 : List (Ref sig .tc)) := by decide
theorem ks_0_18 : ∀ x ∈ (keptL 0 : List (Ref sig .tc)), x ∈ (keptL 18 : List (Ref sig .tc)) := by decide
theorem ks_0_16 : ∀ x ∈ (keptL 0 : List (Ref sig .tc)), x ∈ (keptL 16 : List (Ref sig .tc)) := by decide

theorem W8_of_W4 (c : Dev nD) (x : Ref sig .tc) (hx : x ∈ keptL 4) : W8 m c x = W4 m c x :=
  (W8_kept m c x (ks_4_6 x hx)).trans <| (W7_kept m c x (ks_4_6 x hx)).trans <| (W6_kept m c x (ks_4_4 x hx)).trans <| (W5_kept m c x (ks_4_4 x hx))

theorem W12_of_W4 (c : Dev nD) (x : Ref sig .tc) (hx : x ∈ keptL 4) : W12 m c x = W4 m c x :=
  (W12_kept m c x (ks_4_10 x hx)).trans <| (W11_kept m c x (ks_4_10 x hx)).trans <| (W10_kept m c x (ks_4_8 x hx)).trans <| (W9_kept m c x (ks_4_8 x hx)).trans <| (W8_kept m c x (ks_4_6 x hx)).trans <| (W7_kept m c x (ks_4_6 x hx)).trans <| (W6_kept m c x (ks_4_4 x hx)).trans <| (W5_kept m c x (ks_4_4 x hx))

theorem W20_of_W4 (c : Dev nD) (x : Ref sig .tc) (hx : x ∈ keptL 4) : W20 m c x = W4 m c x :=
  (W20_kept m c x (ks_4_18 x hx)).trans <| (W19_kept m c x (ks_4_18 x hx)).trans <| (W18_kept m c x (ks_4_16 x hx)).trans <| (W17_kept m c x (ks_4_16 x hx)).trans <| (W16_kept m c x (ks_4_14 x hx)).trans <| (W15_kept m c x (ks_4_14 x hx)).trans <| (W14_kept m c x (ks_4_12 x hx)).trans <| (W13_kept m c x (ks_4_12 x hx)).trans <| (W12_kept m c x (ks_4_10 x hx)).trans <| (W11_kept m c x (ks_4_10 x hx)).trans <| (W10_kept m c x (ks_4_8 x hx)).trans <| (W9_kept m c x (ks_4_8 x hx)).trans <| (W8_kept m c x (ks_4_6 x hx)).trans <| (W7_kept m c x (ks_4_6 x hx)).trans <| (W6_kept m c x (ks_4_4 x hx)).trans <| (W5_kept m c x (ks_4_4 x hx))

theorem W16_of_W8 (c : Dev nD) (x : Ref sig .tc) (hx : x ∈ keptL 8) : W16 m c x = W8 m c x :=
  (W16_kept m c x (ks_8_14 x hx)).trans <| (W15_kept m c x (ks_8_14 x hx)).trans <| (W14_kept m c x (ks_8_12 x hx)).trans <| (W13_kept m c x (ks_8_12 x hx)).trans <| (W12_kept m c x (ks_8_10 x hx)).trans <| (W11_kept m c x (ks_8_10 x hx)).trans <| (W10_kept m c x (ks_8_8 x hx)).trans <| (W9_kept m c x (ks_8_8 x hx))

theorem W20_of_W8 (c : Dev nD) (x : Ref sig .tc) (hx : x ∈ keptL 8) : W20 m c x = W8 m c x :=
  (W20_kept m c x (ks_8_18 x hx)).trans <| (W19_kept m c x (ks_8_18 x hx)).trans <| (W18_kept m c x (ks_8_16 x hx)).trans <| (W17_kept m c x (ks_8_16 x hx)).trans <| (W16_kept m c x (ks_8_14 x hx)).trans <| (W15_kept m c x (ks_8_14 x hx)).trans <| (W14_kept m c x (ks_8_12 x hx)).trans <| (W13_kept m c x (ks_8_12 x hx)).trans <| (W12_kept m c x (ks_8_10 x hx)).trans <| (W11_kept m c x (ks_8_10 x hx)).trans <| (W10_kept m c x (ks_8_8 x hx)).trans <| (W9_kept m c x (ks_8_8 x hx))

theorem W16_of_W12 (c : Dev nD) (x : Ref sig .tc) (hx : x ∈ keptL 12) : W16 m c x = W12 m c x :=
  (W16_kept m c x (ks_12_14 x hx)).trans <| (W15_kept m c x (ks_12_14 x hx)).trans <| (W14_kept m c x (ks_12_12 x hx)).trans <| (W13_kept m c x (ks_12_12 x hx))

theorem W20_of_W12 (c : Dev nD) (x : Ref sig .tc) (hx : x ∈ keptL 12) : W20 m c x = W12 m c x :=
  (W20_kept m c x (ks_12_18 x hx)).trans <| (W19_kept m c x (ks_12_18 x hx)).trans <| (W18_kept m c x (ks_12_16 x hx)).trans <| (W17_kept m c x (ks_12_16 x hx)).trans <| (W16_kept m c x (ks_12_14 x hx)).trans <| (W15_kept m c x (ks_12_14 x hx)).trans <| (W14_kept m c x (ks_12_12 x hx)).trans <| (W13_kept m c x (ks_12_12 x hx))

theorem W20_of_W16 (c : Dev nD) (x : Ref sig .tc) (hx : x ∈ keptL 16) : W20 m c x = W16 m c x :=
  (W20_kept m c x (ks_16_18 x hx)).trans <| (W19_kept m c x (ks_16_18 x hx)).trans <| (W18_kept m c x (ks_16_16 x hx)).trans <| (W17_kept m c x (ks_16_16 x hx))

theorem W4_of_W0 (c : Dev nD) (x : Ref sig .tc) (hx : x ∈ keptL 0) : W4 m c x = W0 m c x :=
  (W4_kept m c x (ks_0_2 x hx)).trans <| (W3_kept m c x (ks_0_2 x hx)).trans <| (W2_kept m c x (ks_0_0 x hx)).trans <| (W1_kept m c x (ks_0_0 x hx))

theorem W8_of_W0 (c : Dev nD) (x : Ref sig .tc) (hx : x ∈ keptL 0) : W8 m c x = W0 m c x :=
  (W8_kept m c x (ks_0_6 x hx)).trans <| (W7_kept m c x (ks_0_6 x hx)).trans <| (W6_kept m c x (ks_0_4 x hx)).trans <| (W5_kept m c x (ks_0_4 x hx)).trans <| (W4_kept m c x (ks_0_2 x hx)).trans <| (W3_kept m c x (ks_0_2 x hx)).trans <| (W2_kept m c x (ks_0_0 x hx)).trans <| (W1_kept m c x (ks_0_0 x hx))

theorem W12_of_W0 (c : Dev nD) (x : Ref sig .tc) (hx : x ∈ keptL 0) : W12 m c x = W0 m c x :=
  (W12_kept m c x (ks_0_10 x hx)).trans <| (W11_kept m c x (ks_0_10 x hx)).trans <| (W10_kept m c x (ks_0_8 x hx)).trans <| (W9_kept m c x (ks_0_8 x hx)).trans <| (W8_kept m c x (ks_0_6 x hx)).trans <| (W7_kept m c x (ks_0_6 x hx)).trans <| (W6_kept m c x (ks_0_4 x hx)).trans <| (W5_kept m c x (ks_0_4 x hx)).trans <| (W4_kept m c x (ks_0_2 x hx)).trans <| (W3_kept m c x (ks_0_2 x hx)).trans <| (W2_kept m c x (ks_0_0 x hx)).trans <| (W1_kept m c x (ks_0_0 x hx))

theorem W16_of_W0 (c : Dev nD) (x : Ref sig .tc) (hx : x ∈ keptL 0) : W16 m c x = W0 m c x :=
  (W16_kept m c x (ks_0_14 x hx)).trans <| (W15_kept m c x (ks_0_14 x hx)).trans <| (W14_kept m c x (ks_0_12 x hx)).trans <| (W13_kept m c x (ks_0_12 x hx)).trans <| (W12_kept m c x (ks_0_10 x hx)).trans <| (W11_kept m c x (ks_0_10 x hx)).trans <| (W10_kept m c x (ks_0_8 x hx)).trans <| (W9_kept m c x (ks_0_8 x hx)).trans <| (W8_kept m c x (ks_0_6 x hx)).trans <| (W7_kept m c x (ks_0_6 x hx)).trans <| (W6_kept m c x (ks_0_4 x hx)).trans <| (W5_kept m c x (ks_0_4 x hx)).trans <| (W4_kept m c x (ks_0_2 x hx)).trans <| (W3_kept m c x (ks_0_2 x hx)).trans <| (W2_kept m c x (ks_0_0 x hx)).trans <| (W1_kept m c x (ks_0_0 x hx))

theorem W20_of_W0 (c : Dev nD) (x : Ref sig .tc) (hx : x ∈ keptL 0) : W20 m c x = W0 m c x :=
  (W20_kept m c x (ks_0_18 x hx)).trans <| (W19_kept m c x (ks_0_18 x hx)).trans <| (W18_kept m c x (ks_0_16 x hx)).trans <| (W17_kept m c x (ks_0_16 x hx)).trans <| (W16_kept m c x (ks_0_14 x hx)).trans <| (W15_kept m c x (ks_0_14 x hx)).trans <| (W14_kept m c x (ks_0_12 x hx)).trans <| (W13_kept m c x (ks_0_12 x hx)).trans <| (W12_kept m c x (ks_0_10 x hx)).trans <| (W11_kept m c x (ks_0_10 x hx)).trans <| (W10_kept m c x (ks_0_8 x hx)).trans <| (W9_kept m c x (ks_0_8 x hx)).trans <| (W8_kept m c x (ks_0_6 x hx)).trans <| (W7_kept m c x (ks_0_6 x hx)).trans <| (W6_kept m c x (ks_0_4 x hx)).trans <| (W5_kept m c x (ks_0_4 x hx)).trans <| (W4_kept m c x (ks_0_2 x hx)).trans <| (W3_kept m c x (ks_0_2 x hx)).trans <| (W2_kept m c x (ks_0_0 x hx)).trans <| (W1_kept m c x (ks_0_0 x hx))

end Cert.KernelIdeal.Hand

end
-- ==== Proof.Hand.KArgs.lean ====
/-
  The network's arguments as plain functions of indices, read off the launch memory of the idealized kernel's program.
-/
import proofs.«103476_j5987184410999_2_alg».proof.KernelIdeal
import proofs.«103476_j5987184410999_2_alg».proof.Proof.Hand.Net
import Idealize.ShloMosaic.Lib.ValueIdx

noncomputable section

namespace Cert.KernelIdeal.Hand

open Cert.KernelIdeal Idealize.ShloMosaic Idealize.ShloMosaic.TcCoe Idealize.SL.Sem Idealize.ShloMosaic.ValueIdx Cert.Hand

/-- x1, x2, the five nodes' weights and biases, scales and shifts, and the three noise arrays, entry by entry. -/
def kargs (m : (ℓ : Loc nD τ sig) → Buf (Elt Ideal) ℓ) (c : Dev nD) : Net.Args :=
  ⟨fun r k => m ((c.tc : Thread nD τ).loc main_arg0) (ix2 r k), fun r k => m ((c.tc : Thread nD τ).loc main_arg1) (ix2 r k),
    fun i k h => m ((c.tc : Thread nD τ).loc main_arg2) (ix3 i k h), fun i h => m ((c.tc : Thread nD τ).loc main_arg3) (ix2 i h),
    fun i h j => m ((c.tc : Thread nD τ).loc main_arg4) (ix3 i h j), fun i j => m ((c.tc : Thread nD τ).loc main_arg5) (ix2 i j),
    fun i j => m ((c.tc : Thread nD τ).loc main_arg6) (ix2 i j), fun i j => m ((c.tc : Thread nD τ).loc main_arg7) (ix2 i j),
    fun i r j => m ((c.tc : Thread nD τ).loc main_arg8) (ix3 i r j)⟩

end Cert.KernelIdeal.Hand

end
-- ==== Proof.Hand.KerHostLib.lean ====
/-
  The host stretches of the kernel program read at an index: after each stretch, what the buffers the next region
  takes hold, in terms of the buffers' contents before the stretch. Even stretches slice and reshape the arguments
  (a node's weights, biases, scale, shift, noise); odd stretches combine the two cores' partial sums into the batch
  mean and the reciprocal standard deviation, and reshape the node's scale and shift to rows.
-/
import proofs.«103476_j5987184410999_2_alg».proof.Proof.Gen.KernelIdeal.Launch
import Idealize.ShloMosaic.Lib.StableHlo.Run
import Idealize.ShloMosaic.Lib.ValueIdx
import Idealize.ShloMosaic.Lib.IdealHost
import Idealize.ShloMosaic.Lib.Pipeline.Value
import proofs.«103476_j5987184410999_2_alg».proof.Proof.Hand.Spec

set_option maxRecDepth 1816

noncomputable section

namespace Cert.KernelIdeal.Hand

open Cert.KernelIdeal Cert.KernelIdeal.Gen
open Idealize.ShloMosaic Idealize.ShloMosaic.TcCoe Idealize.ShloMosaic.ValueIdx

/-! ## Slices and reshapes of the argument arrays, read at an index -/

section Layout
variable {α : Type}

/-- Node n's first weight matrix: the slice [n, :, :] of a 5×256×256 array, reshaped to 256×256. -/
theorem W1_apply (n : Nat) (hn : n < 5) (x : S5x256x256.Idx → α) (hs : S5x256x256.Slices ![n, 0, 0] S1x256x256)
    (hc : S1x256x256.ShapeCasts S256x256) (k h : Fin 256) :
    shapeCast S256x256 (extractStridedSlice S1x256x256 ![n, 0, 0] x hs) hc (ix2 k h) = x (ix3 ⟨n, hn⟩ k h) := by
  refine (shapeCast_apply _ _ (ix2 k h) (ix3 0 k h) ?_).trans ?_
  · rw [Shape.rowMajor_val_three, Shape.rowMajor_val_two]
    show (0 * 256 + k.val) * 256 + h.val = k.val * 256 + h.val
    omega
  · refine extractStridedSlice_apply _ _ _ (ix3 0 k h) (ix3 ⟨n, hn⟩ k h) ?_
    intro a
    match a with
    | ⟨0, _⟩ => show n = n + 0; omega
    | ⟨1, _⟩ => show k.val = 0 + k.val; omega
    | ⟨2, _⟩ => show h.val = 0 + h.val; omega

/-- Half of node n's first weight matrix: the slice [n, o : o + 128, :], reshaped to 128×256. -/
theorem W1half_apply (n o : Nat) (hn : n < 5) (ho : o + 128 ≤ 256) (x : S5x256x256.Idx → α)
    (hs : S5x256x256.Slices ![n, o, 0] S1x128x256) (hc : S1x128x256.ShapeCasts S128x256) (k : Fin 128) (h : Fin 256) :
    shapeCast S128x256 (extractStridedSlice S1x128x256 ![n, o, 0] x hs) hc (ix2 k h)
      = x (ix3 ⟨n, hn⟩ ⟨o + k.val, by have := k.isLt; omega⟩ h) := by
  refine (shapeCast_apply _ _ (ix2 k h) (ix3 0 k h) ?_).trans ?_
  · rw [Shape.rowMajor_val_three, Shape.rowMajor_val_two]
    show (0 * 128 + k.val) * 256 + h.val = k.val * 256 + h.val
    omega
  · refine extractStridedSlice_apply _ _ _ (ix3 0 k h) (ix3 ⟨n, hn⟩ ⟨o + k.val, by have := k.isLt; omega⟩ h) ?_
    intro a
    match a with
    | ⟨0, _⟩ => show n = n + 0; omega
    | ⟨1, _⟩ => show o + k.val = o + k.val; rfl
    | ⟨2, _⟩ => show h.val = 0 + h.val; omega

/-- Node n's second weight matrix: the slice [n, :, :] of a 5×256×128 array, reshaped to 256×128. -/
theorem W2_apply (n : Nat) (hn : n < 5) (x : S5x256x128.Idx → α) (hs : S5x256x128.Slices ![n, 0, 0] S1x256x128)
    (hc : S1x256x128.ShapeCasts S256x128) (h : Fin 256) (j : Fin 128) :
    shapeCast S256x128 (extractStridedSlice S1x256x128 ![n, 0, 0] x hs) hc (ix2 h j) = x (ix3 ⟨n, hn⟩ h j) := by
  refine (shapeCast_apply _ _ (ix2 h j) (ix3 0 h j) ?_).trans ?_
  · rw [Shape.rowMajor_val_three, Shape.rowMajor_val_two]
    show (0 * 256 + h.val) * 128 + j.val = h.val * 128 + j.val
    omega
  · refine extractStridedSlice_apply _ _ _ (ix3 0 h j) (ix3 ⟨n, hn⟩ h j) ?_
    intro a
    match a with
    | ⟨0, _⟩ => show n = n + 0; omega
    | ⟨1, _⟩ => show h.val = 0 + h.val; omega
    | ⟨2, _⟩ => show j.val = 0 + j.val; omega

/-- Noise array n: the slice [n, :, :] of a 3×65536×128 array, reshaped to 65536×128. -/
theorem noise_apply (n : Nat) (hn : n < 3) (x : S3x65536x128.Idx → α) (hs : S3x65536x128.Slices ![n, 0, 0] S1x65536x128)
    (hc : S1x65536x128.ShapeCasts S65536x128) (r : Fin 65536) (j : Fin 128) :
    shapeCast S65536x128 (extractStridedSlice S1x65536x128 ![n, 0, 0] x hs) hc (ix2 r j) = x (ix3 ⟨n, hn⟩ r j) := by
  refine (shapeCast_apply _ _ (ix2 r j) (ix3 0 r j) ?_).trans ?_
  · rw [Shape.rowMajor_val_three, Shape.rowMajor_val_two]
    show (0 * 65536 + r.val) * 128 + j.val = r.val * 128 + j.val
    omega
  · refine extractStridedSlice_apply _ _ _ (ix3 0 r j) (ix3 ⟨n, hn⟩ r j) ?_
    intro a
    match a with
    | ⟨0, _⟩ => show n = n + 0; omega
    | ⟨1, _⟩ => show r.val = 0 + r.val; omega
    | ⟨2, _⟩ => show j.val = 0 + j.val; omega

/-- Row n of a 5×256 array as a vector of 256. -/
theorem row256_apply (n : Nat) (hn : n < 5) (x : S5x256.Idx → α) (hs : S5x256.Slices ![n, 0] S1x256)
    (hc : S1x256.ShapeCasts S256) (h : Fin 256) :
    shapeCast S256 (extractStridedSlice S1x256 ![n, 0] x hs) hc (ix1 h) = x (ix2 ⟨n, hn⟩ h) := by
  refine (shapeCast_apply _ _ (ix1 h) (ix2 0 h) ?_).trans ?_
  · rw [Shape.rowMajor_val_two, Shape.rowMajor_val_one]
    show 0 * 256 + h.val = h.val
    omega
  · refine extractStridedSlice_apply _ _ _ (ix2 0 h) (ix2 ⟨n, hn⟩ h) ?_
    intro a
    match a with
    | ⟨0, _⟩ => show n = n + 0; omega
    | ⟨1, _⟩ => show h.val = 0 + h.val; omega

/-- Row n of a 5×128 array as a vector of 128. -/
theorem row128_apply (n : Nat) (hn : n < 5) (x : S5x128.Idx → α) (hs : S5x128.Slices ![n, 0] S1x128)
    (hc : S1x128.ShapeCasts S128) (j : Fin 128) :
    shapeCast S128 (extractStridedSlice S1x128 ![n, 0] x hs) hc (ix1 j) = x (ix2 ⟨n, hn⟩ j) := by
  refine (shapeCast_apply _ _ (ix1 j) (ix2 0 j) ?_).trans ?_
  · rw [Shape.rowMajor_val_two, Shape.rowMajor_val_one]
    show 0 * 128 + j.val = j.val
    omega
  · refine extractStridedSlice_apply _ _ _ (ix2 0 j) (ix2 ⟨n, hn⟩ j) ?_
    intro a
    match a with
    | ⟨0, _⟩ => show n = n + 0; omega
    | ⟨1, _⟩ => show j.val = 0 + j.val; omega

/-- A vector of 256 as a 1×256 row. -/
theorem unsq256_apply (y : S256.Idx → α) (hc : S256.ShapeCasts S1x256) (h : Fin 256) :
    shapeCast S1x256 y hc (ix2 0 h) = y (ix1 h) := by
  refine shapeCast_apply _ _ (ix2 0 h) (ix1 h) ?_
  rw [Shape.rowMajor_val_two, Shape.rowMajor_val_one]
  show h.val = 0 * 256 + h.val
  omega

/-- A vector of 128 as a 1×128 row. -/
theorem unsq128_apply (y : S128.Idx → α) (hc : S128.ShapeCasts S1x128) (j : Fin 128) :
    shapeCast S1x128 y hc (ix2 0 j) = y (ix1 j) := by
  refine shapeCast_apply _ _ (ix2 0 j) (ix1 j) ?_
  rw [Shape.rowMajor_val_two, Shape.rowMajor_val_one]
  show j.val = 0 * 128 + j.val
  omega

/-- Row o of a 16×128 array as a 1×128 row. -/
theorem statRow_apply (o : Nat) (ho : o < 16) (x : S16x128.Idx → α) (hs : S16x128.Slices ![o, 0] S1x128) (j : Fin 128) :
    extractStridedSlice S1x128 ![o, 0] x hs (ix2 0 j) = x (ix2 ⟨o, ho⟩ j) := by
  refine extractStridedSlice_apply _ _ _ (ix2 0 j) (ix2 ⟨o, ho⟩ j) ?_
  intro a
  match a with
  | ⟨0, _⟩ => show o = o + 0; omega
  | ⟨1, _⟩ => show j.val = 0 + j.val; omega

end Layout

/-! ## The two cores' partial sums combined: the batch mean and the reciprocal standard deviation -/

section Stats
open Cert.Hand.Spec (N eps)

/-- The mean row: (row 0 + row 8 of the sums) divided by the batch size. -/
theorem mean_apply (s1 : FVec Ideal S16x128 .f32) (hs0 : S16x128.Slices ![0, 0] S1x128)
    (hs8 : S16x128.Slices ![8, 0] S1x128) (hb : S_.BroadcastsInDim S1x128 (![] : Fin 0 → Fin S1x128.rank)) (j : Fin 128) :
    Host.divf (addf (extractStridedSlice S1x128 ![0, 0] s1 hs0) (extractStridedSlice S1x128 ![8, 0] s1 hs8))
        (broadcastInDim S1x128 ![] hb (constant S_ .f32 0x47800000#32)) (ix2 0 j)
      = Ideal.div (s1 (ix2 0 j) + s1 (ix2 8 j)) N := by
  rw [hostDivf_apply, addf_apply, statRow_apply 0 (by omega), statRow_apply 8 (by omega), broadcastInDim_scalar_apply,
    constant_apply]
  rfl

/-- The reciprocal standard deviation row: rsqrt of ((row 0 + row 8 of the sums of squares) / batch size
    − mean · mean + the offset). -/
theorem invstd_apply (s1 s2 : FVec Ideal S16x128 .f32) (hs0 : S16x128.Slices ![0, 0] S1x128)
    (hs8 : S16x128.Slices ![8, 0] S1x128) (hb : S_.BroadcastsInDim S1x128 (![] : Fin 0 → Fin S1x128.rank)) (j : Fin 128) :
    Host.rsqrt (addf (subf
        (Host.divf (addf (extractStridedSlice S1x128 ![0, 0] s2 hs0) (extractStridedSlice S1x128 ![8, 0] s2 hs8))
          (broadcastInDim S1x128 ![] hb (constant S_ .f32 0x47800000#32)))
        (mulf
          (Host.divf (addf (extractStridedSlice S1x128 ![0, 0] s1 hs0) (extractStridedSlice S1x128 ![8, 0] s1 hs8))
            (broadcastInDim S1x128 ![] hb (constant S_ .f32 0x47800000#32)))
          (Host.divf (addf (extractStridedSlice S1x128 ![0, 0] s1 hs0) (extractStridedSlice S1x128 ![8, 0] s1 hs8))
            (broadcastInDim S1x128 ![] hb (constant S_ .f32 0x47800000#32)))))
        (broadcastInDim S1x128 ![] hb (constant S_ .f32 0x3727C5AC#32))) (ix2 0 j)
      = Ideal.rsqrt ((Ideal.div (s2 (ix2 0 j) + s2 (ix2 8 j)) N
            - Ideal.div (s1 (ix2 0 j) + s1 (ix2 8 j)) N * Ideal.div (s1 (ix2 0 j) + s1 (ix2 8 j)) N) + eps) := by
  show Ideal.rsqrt (_ + _) = _
  rw [subf_apply, mulf_apply, mean_apply s1 hs0 hs8 hb j, mean_apply s2 hs0 hs8 hb j, broadcastInDim_scalar_apply,
    constant_apply]

end Stats

end Cert.KernelIdeal.Hand
-- ==== Proof.Hand.KerHost0.lean ====
/-
  Host stretch 0 of the kernel program read at an index: node 0's weights, biases, scale and shift sliced out of the arguments.
-/
import proofs.«103476_j5987184410999_2_alg».proof.Proof.Hand.KerHostLib

set_option maxRecDepth 1816

noncomputable section

namespace Cert.KernelIdeal.Hand

open Cert.KernelIdeal Cert.KernelIdeal.Gen
open Idealize.ShloMosaic Idealize.ShloMosaic.TcCoe Idealize.ShloMosaic.ValueIdx

/-! ## Stretch 0: node 0's parameters -/

section Even
variable {F : FTy → Type} [FloatOps F]

theorem h0_v1 (V : Valuation τ sig (Elt F)) (k h : Fin 256) :
    (StableHlo.after hostOps0 V main_v1 : (⟨S256x256, .f32⟩ : BufTy).Contents (Elt F)) (ix2 k h)
      = (V main_arg2 : (⟨S5x256x256, .f32⟩ : BufTy).Contents (Elt F)) (ix3 0 k h) := by
  have e : (StableHlo.after hostOps0 V main_v1 : (⟨S256x256, .f32⟩ : BufTy).Contents (Elt F))
      = shapeCast S256x256 (extractStridedSlice S1x256x256 ![0, 0, 0] (V main_arg2) slices_S5x256x256_S1x256x256_0_0_0)
          shapeCasts_S1x256x256_S256x256 := by
    simp only [hostOps0]; after_results; rfl
  rw [e]; exact W1_apply 0 (by omega) _ _ _ k h

theorem h0_v12 (V : Valuation τ sig (Elt F)) (h : Fin 256) :
    (StableHlo.after hostOps0 V main_v12 : (⟨S1x256, .f32⟩ : BufTy).Contents (Elt F)) (ix2 0 h)
      = (V main_arg3 : (⟨S5x256, .f32⟩ : BufTy).Contents (Elt F)) (ix2 0 h) := by
  have e : (StableHlo.after hostOps0 V main_v12 : (⟨S1x256, .f32⟩ : BufTy).Contents (Elt F))
      = shapeCast S1x256 (shapeCast S256 (extractStridedSlice S1x256 ![0, 0] (V main_arg3) slices_S5x256_S1x256_0_0)
          shapeCasts_S1x256_S256) shapeCasts_S256_S1x256 := by
    simp only [hostOps0]; after_results; rfl
  rw [e, unsq256_apply]; exact row256_apply 0 (by omega) _ _ _ h

theorem h0_v5 (V : Valuation τ sig (Elt F)) (h : Fin 256) (j : Fin 128) :
    (StableHlo.after hostOps0 V main_v5 : (⟨S256x128, .f32⟩ : BufTy).Contents (Elt F)) (ix2 h j)
      = (V main_arg4 : (⟨S5x256x128, .f32⟩ : BufTy).Contents (Elt F)) (ix3 0 h j) := by
  have e : (StableHlo.after hostOps0 V main_v5 : (⟨S256x128, .f32⟩ : BufTy).Contents (Elt F))
      = shapeCast S256x128 (extractStridedSlice S1x256x128 ![0, 0, 0] (V main_arg4) slices_S5x256x128_S1x256x128_0_0_0)
          shapeCasts_S1x256x128_S256x128 := by
    simp only [hostOps0]; after_results; rfl
  rw [e]; exact W2_apply 0 (by omega) _ _ _ h j

theorem h0_v13 (V : Valuation τ sig (Elt F)) (j : Fin 128) :
    (StableHlo.after hostOps0 V main_v13 : (⟨S1x128, .f32⟩ : BufTy).Contents (Elt F)) (ix2 0 j)
      = (V main_arg5 : (⟨S5x128, .f32⟩ : BufTy).Contents (Elt F)) (ix2 0 j) := by
  have e : (StableHlo.after hostOps0 V main_v13 : (⟨S1x128, .f32⟩ : BufTy).Contents (Elt F))
      = shapeCast S1x128 (shapeCast S128 (extractStridedSlice S1x128 ![0, 0] (V main_arg5) slices_S5x128_S1x128_0_0)
          shapeCasts_S1x128_S128) shapeCasts_S128_S1x128 := by
    simp only [hostOps0]; after_results; rfl
  rw [e, unsq128_apply]; exact row128_apply 0 (by omega) _ _ _ j

theorem h0_v9 (V : Valuation τ sig (Elt F)) (j : Fin 128) :
    (StableHlo.after hostOps0 V main_v9 : (⟨S128, .f32⟩ : BufTy).Contents (Elt F)) (ix1 j)
      = (V main_arg6 : (⟨S5x128, .f32⟩ : BufTy).Contents (Elt F)) (ix2 0 j) := by
  have e : (StableHlo.after hostOps0 V main_v9 : (⟨S128, .f32⟩ : BufTy).Contents (Elt F))
      = shapeCast S128 (extractStridedSlice S1x128 ![0, 0] (V main_arg6) slices_S5x128_S1x128_0_0) shapeCasts_S1x128_S128 := by
    simp only [hostOps0]; after_results; rfl
  rw [e]; exact row128_apply 0 (by omega) _ _ _ j

theorem h0_v11 (V : Valuation τ sig (Elt F)) (j : Fin 128) :
    (StableHlo.after hostOps0 V main_v11 : (⟨S128, .f32⟩ : BufTy).Contents (Elt F)) (ix1 j)
      = (V main_arg7 : (⟨S5x128, .f32⟩ : BufTy).Contents (Elt F)) (ix2 0 j) := by
  have e : (StableHlo.after hostOps0 V main_v11 : (⟨S128, .f32⟩ : BufTy).Contents (Elt F))
      = shapeCast S128 (extractStridedSlice S1x128 ![0, 0] (V main_arg7) slices_S5x128_S1x128_0_0) shapeCasts_S1x128_S128 := by
    simp only [hostOps0]; after_results; rfl
  rw [e]; exact row128_apply 0 (by omega) _ _ _ j

end Even

end Cert.KernelIdeal.Hand
-- ==== Proof.Hand.KerHost1.lean ====
/-
  Host stretch 1 of the kernel program read at an index: node 0's batch mean and reciprocal standard deviation from the two cores' partial sums, and its scale and shift as rows.
-/
import proofs.«103476_j5987184410999_2_alg».proof.Proof.Hand.KerHostLib

set_option maxRecDepth 1816

noncomputable section

namespace Cert.KernelIdeal.Hand

open Cert.KernelIdeal Cert.KernelIdeal.Gen
open Idealize.ShloMosaic Idealize.ShloMosaic.TcCoe Idealize.ShloMosaic.ValueIdx
/-! ## Stretch 1: node 0's statistics, scale and shift -/

section Odd
open Cert.Hand.Spec (N eps)

theorem h1_v22 (V : Valuation τ sig (Elt Ideal)) (s1 : S16x128.Idx → EReal) (h1 : V main_v14_1 = s1) (j : Fin 128) :
    (StableHlo.after hostOps1 V main_v22 : S1x128.Idx → EReal) (ix2 0 j)
      = Ideal.div (s1 (ix2 0 j) + s1 (ix2 8 j)) N := by
  subst h1
  have e : (StableHlo.after hostOps1 V main_v22 : S1x128.Idx → EReal)
      = (Host.divf (addf (extractStridedSlice S1x128 ![0, 0] (V main_v14_1 : FVec Ideal S16x128 .f32) slices_S16x128_S1x128_0_0)
            (extractStridedSlice S1x128 ![8, 0] (V main_v14_1 : FVec Ideal S16x128 .f32) slices_S16x128_S1x128_8_0))
          (broadcastInDim S1x128 ![] bcast_S_S1x128 (constant (F := Ideal) S_ .f32 0x47800000#32)) : FVec Ideal S1x128 .f32) := by
    simp only [hostOps1]; after_results <;> rfl
  rw [e]; exact mean_apply _ _ _ _ j

set_option maxHeartbeats 400000 in
theorem h1_v29 (V : Valuation τ sig (Elt Ideal)) (s1 s2 : S16x128.Idx → EReal) (h1 : V main_v14_1 = s1) (h2 : V main_v14_2 = s2)
    (j : Fin 128) :
    (StableHlo.after hostOps1 V main_v29 : S1x128.Idx → EReal) (ix2 0 j)
      = Ideal.rsqrt ((Ideal.div (s2 (ix2 0 j) + s2 (ix2 8 j)) N
          - Ideal.div (s1 (ix2 0 j) + s1 (ix2 8 j)) N * Ideal.div (s1 (ix2 0 j) + s1 (ix2 8 j)) N) + eps) := by
  subst h1 h2
  have e : (StableHlo.after hostOps1 V main_v29 : S1x128.Idx → EReal)
      = (Host.rsqrt (addf (subf
          (Host.divf (addf (extractStridedSlice S1x128 ![0, 0] (V main_v14_2 : FVec Ideal S16x128 .f32) slices_S16x128_S1x128_0_0)
              (extractStridedSlice S1x128 ![8, 0] (V main_v14_2 : FVec Ideal S16x128 .f32) slices_S16x128_S1x128_8_0))
            (broadcastInDim S1x128 ![] bcast_S_S1x128 (constant (F := Ideal) S_ .f32 0x47800000#32)))
          (mulf
            (Host.divf (addf (extractStridedSlice S1x128 ![0, 0] (V main_v14_1 : FVec Ideal S16x128 .f32) slices_S16x128_S1x128_0_0)
                (extractStridedSlice S1x128 ![8, 0] (V main_v14_1 : FVec Ideal S16x128 .f32) slices_S16x128_S1x128_8_0))
              (broadcastInDim S1x128 ![] bcast_S_S1x128 (constant (F := Ideal) S_ .f32 0x47800000#32)))
            (Host.divf (addf (extractStridedSlice S1x128 ![0, 0] (V main_v14_1 : FVec Ideal S16x128 .f32) slices_S16x128_S1x128_0_0)
                (extractStridedSlice S1x128 ![8, 0] (V main_v14_1 : FVec Ideal S16x128 .f32) slices_S16x128_S1x128_8_0))
              (broadcastInDim S1x128 ![] bcast_S_S1x128 (constant (F := Ideal) S_ .f32 0x47800000#32)))))
          (broadcastInDim S1x128 ![] bcast_S_S1x128 (constant (F := Ideal) S_ .f32 0x3727C5AC#32))) : FVec Ideal S1x128 .f32) := by
    simp only [hostOps1]; after_results_simp <;> rfl
  rw [e]; exact invstd_apply _ _ _ _ _ j

theorem h1_v30 (V : Valuation τ sig (Elt Ideal)) (j : Fin 128) :
    (StableHlo.after hostOps1 V main_v30 : S1x128.Idx → EReal) (ix2 0 j) = (V main_v9 : S128.Idx → EReal) (ix1 j) := by
  have e : (StableHlo.after hostOps1 V main_v30 : S1x128.Idx → EReal)
      = shapeCast S1x128 (V main_v9 : S128.Idx → EReal) shapeCasts_S128_S1x128 := by
    simp only [hostOps1]; after_results <;> rfl
  rw [e]; exact unsq128_apply _ _ j

theorem h1_v31 (V : Valuation τ sig (Elt Ideal)) (j : Fin 128) :
    (StableHlo.after hostOps1 V main_v31 : S1x128.Idx → EReal) (ix2 0 j) = (V main_v11 : S128.Idx → EReal) (ix1 j) := by
  have e : (StableHlo.after hostOps1 V main_v31 : S1x128.Idx → EReal)
      = shapeCast S1x128 (V main_v11 : S128.Idx → EReal) shapeCasts_S128_S1x128 := by
    simp only [hostOps1]; after_results <;> rfl
  rw [e]; exact unsq128_apply _ _ j

end Odd

end Cert.KernelIdeal.Hand
-- ==== Proof.Hand.Glue.lean ====
/-
  The kernel side's shapes joined to the specification: the two cores' rows of partial sums (each a left fold of
  eight block sums) are the column sums over all 65536 rows, so the mean and the mean of squares the host forms from
  them are the specification's, and the second pass's expression is the kernel's reading of the batch normalisation.
-/
import proofs.«103476_j5987184410999_2_alg».proof.Proof.Hand.Spec
import Idealize.ShloMosaic.Lib.ValueIdx

namespace Cert.Hand.Glue

open Idealize.ShloMosaic Idealize.ShloMosaic.ValueIdx Cert.Hand.Algebra Cert.Hand.Spec
open scoped BigOperators

/-- The block sum of core c's i-th block of a column. -/
noncomputable abbrev blockSum (f : Fin 65536 → EReal) (c : Fin 2) (i : Fin 8) : EReal :=
  ∑ q : Fin 4096, f ⟨(c.val * 8 + i.val) * 4096 + q.val, by have := c.isLt; have := i.isLt; have := q.isLt; omega⟩

/-- Rows 0 and 8 of the statistics array, each a left fold of its core's eight block sums, add up to the column sum. -/
theorem rows_sum (f : Fin 65536 → EReal) (a0 a8 : EReal)
    (h0 : a0 = fold8 (fun i : Fin 8 => ∑ q : Fin 4096,
      f ⟨(0 * 8 + i.val) * 4096 + q.val, by have := i.isLt; have := q.isLt; omega⟩))
    (h8 : a8 = fold8 (fun i : Fin 8 => ∑ q : Fin 4096,
      f ⟨(1 * 8 + i.val) * 4096 + q.val, by have := i.isLt; have := q.isLt; omega⟩)) :
    a0 + a8 = ∑ r : Fin 65536, f r := by
  rw [h0, h8]
  exact colsum_eq f (blockSum f) (fun c i => rfl)

section Stats
variable (y : Fin 65536 → Fin 128 → EReal) (s1 s2 : (⟨2, ![16, 128]⟩ : Shape).Idx → EReal)

/-- The host's mean row is the specification's mean. -/
theorem stats_mean
    (hs0 : ∀ j, s1 (ix2 0 j) = fold8 (fun i : Fin 8 => ∑ q : Fin 4096,
      y ⟨(0 * 8 + i.val) * 4096 + q.val, by have := i.isLt; have := q.isLt; omega⟩ j))
    (hs8 : ∀ j, s1 (ix2 8 j) = fold8 (fun i : Fin 8 => ∑ q : Fin 4096,
      y ⟨(1 * 8 + i.val) * 4096 + q.val, by have := i.isLt; have := q.isLt; omega⟩ j))
    (j : Fin 128) :
    Ideal.div (s1 (ix2 0 j) + s1 (ix2 8 j)) N = meanOf y j := by
  unfold meanOf
  rw [rows_sum (fun r => y r j) _ _ (hs0 j) (hs8 j)]

/-- The host's mean-of-squares row is the mean of the squares over all rows. -/
theorem stats_sq
    (hq0 : ∀ j, s2 (ix2 0 j) = fold8 (fun i : Fin 8 => ∑ q : Fin 4096,
      y ⟨(0 * 8 + i.val) * 4096 + q.val, by have := i.isLt; have := q.isLt; omega⟩ j
        * y ⟨(0 * 8 + i.val) * 4096 + q.val, by have := i.isLt; have := q.isLt; omega⟩ j))
    (hq8 : ∀ j, s2 (ix2 8 j) = fold8 (fun i : Fin 8 => ∑ q : Fin 4096,
      y ⟨(1 * 8 + i.val) * 4096 + q.val, by have := i.isLt; have := q.isLt; omega⟩ j
        * y ⟨(1 * 8 + i.val) * 4096 + q.val, by have := i.isLt; have := q.isLt; omega⟩ j))
    (j : Fin 128) :
    Ideal.div (s2 (ix2 0 j) + s2 (ix2 8 j)) N = Ideal.div (∑ r, y r j * y r j) N := by
  rw [rows_sum (fun r => y r j * y r j) _ _ (hq0 j) (hq8 j)]

/-- The second pass's expression over the host's two rows is the kernel's reading of the batch normalisation. -/
theorem pass2_eq (g b : Fin 128 → EReal)
    (hs0 : ∀ j, s1 (ix2 0 j) = fold8 (fun i : Fin 8 => ∑ q : Fin 4096,
      y ⟨(0 * 8 + i.val) * 4096 + q.val, by have := i.isLt; have := q.isLt; omega⟩ j))
    (hs8 : ∀ j, s1 (ix2 8 j) = fold8 (fun i : Fin 8 => ∑ q : Fin 4096,
      y ⟨(1 * 8 + i.val) * 4096 + q.val, by have := i.isLt; have := q.isLt; omega⟩ j))
    (hq0 : ∀ j, s2 (ix2 0 j) = fold8 (fun i : Fin 8 => ∑ q : Fin 4096,
      y ⟨(0 * 8 + i.val) * 4096 + q.val, by have := i.isLt; have := q.isLt; omega⟩ j
        * y ⟨(0 * 8 + i.val) * 4096 + q.val, by have := i.isLt; have := q.isLt; omega⟩ j))
    (hq8 : ∀ j, s2 (ix2 8 j) = fold8 (fun i : Fin 8 => ∑ q : Fin 4096,
      y ⟨(1 * 8 + i.val) * 4096 + q.val, by have := i.isLt; have := q.isLt; omega⟩ j
        * y ⟨(1 * 8 + i.val) * 4096 + q.val, by have := i.isLt; have := q.isLt; omega⟩ j))
    (r : Fin 65536) (j : Fin 128) :
    g j * (y r j - Ideal.div (s1 (ix2 0 j) + s1 (ix2 8 j)) N)
        * Ideal.rsqrt ((Ideal.div (s2 (ix2 0 j) + s2 (ix2 8 j)) N
            - Ideal.div (s1 (ix2 0 j) + s1 (ix2 8 j)) N * Ideal.div (s1 (ix2 0 j) + s1 (ix2 8 j)) N) + eps) + b j
      = bnKer y g b r j := by
  rw [stats_mean y s1 hs0 hs8 j, stats_sq y s2 hq0 hq8 j]
  rfl

/-- The same with the scaled noise added on the right. -/
theorem pass2_noise_eq (g b : Fin 128 → EReal) (n : Fin 65536 → Fin 128 → EReal)
    (hs0 : ∀ j, s1 (ix2 0 j) = fold8 (fun i : Fin 8 => ∑ q : Fin 4096,
      y ⟨(0 * 8 + i.val) * 4096 + q.val, by have := i.isLt; have := q.isLt; omega⟩ j))
    (hs8 : ∀ j, s1 (ix2 8 j) = fold8 (fun i : Fin 8 => ∑ q : Fin 4096,
      y ⟨(1 * 8 + i.val) * 4096 + q.val, by have := i.isLt; have := q.isLt; omega⟩ j))
    (hq0 : ∀ j, s2 (ix2 0 j) = fold8 (fun i : Fin 8 => ∑ q : Fin 4096,
      y ⟨(0 * 8 + i.val) * 4096 + q.val, by have := i.isLt; have := q.isLt; omega⟩ j
        * y ⟨(0 * 8 + i.val) * 4096 + q.val, by have := i.isLt; have := q.isLt; omega⟩ j))
    (hq8 : ∀ j, s2 (ix2 8 j) = fold8 (fun i : Fin 8 => ∑ q : Fin 4096,
      y ⟨(1 * 8 + i.val) * 4096 + q.val, by have := i.isLt; have := q.isLt; omega⟩ j
        * y ⟨(1 * 8 + i.val) * 4096 + q.val, by have := i.isLt; have := q.isLt; omega⟩ j))
    (r : Fin 65536) (j : Fin 128) :
    g j * (y r j - Ideal.div (s1 (ix2 0 j) + s1 (ix2 8 j)) N)
        * Ideal.rsqrt ((Ideal.div (s2 (ix2 0 j) + s2 (ix2 8 j)) N
            - Ideal.div (s1 (ix2 0 j) + s1 (ix2 8 j)) N * Ideal.div (s1 (ix2 0 j) + s1 (ix2 8 j)) N) + eps) + b j
        + n r j * tenth
      = bnKer y g b r j + n r j * tenth := by
  rw [pass2_eq y s1 s2 g b hs0 hs8 hq0 hq8 r j]

end Stats

end Cert.Hand.Glue
-- ==== Proof.Hand.PayIdx0.lean ====
import proofs.«103476_j5987184410999_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx
open scoped BigOperators

/-! # The first-pass body of region 0 read at an index, at the ideal values

  The body's output block is `relu (x·W1 + b1)·W2 + b2`: two matrix products, each read as the sum over its
  contracted coordinate, a bias row laid along every row, and a maximum with zero; the format changes around the
  products are the identity at the ideal values. Its two statistics rows are the rows found plus the column sums of
  the block and of its square. -/

/-! ## The two matrix products -/

/-- The left operand's row coordinate is the output's. -/
private theorem lhs_A_0 (i : S4096x256.Idx) (c : dot_S4096x256_S256x256_S4096x256_1_0_0_1_n_n.contr.Idx) :
    (dot_S4096x256_S256x256_S4096x256_1_0_0_1_n_n.lhsIdx i c 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
/-- The left operand's column coordinate is the contraction's. -/
private theorem lhs_A_1 (i : S4096x256.Idx) (c : dot_S4096x256_S256x256_S4096x256_1_0_0_1_n_n.contr.Idx) :
    (dot_S4096x256_S256x256_S4096x256_1_0_0_1_n_n.lhsIdx i c 1).val = (c ⟨0, by decide⟩).val :=
  dot_S4096x256_S256x256_S4096x256_1_0_0_1_n_n.lhsIdx_val_of_single rfl i c
/-- The right operand's row coordinate is the contraction's. -/
private theorem rhs_A_0 (i : S4096x256.Idx) (c : dot_S4096x256_S256x256_S4096x256_1_0_0_1_n_n.contr.Idx) :
    (dot_S4096x256_S256x256_S4096x256_1_0_0_1_n_n.rhsIdx i c 0).val = (c ⟨0, by decide⟩).val :=
  dot_S4096x256_S256x256_S4096x256_1_0_0_1_n_n.rhsIdx_val_of_single rfl i c
/-- The right operand's column coordinate is the output's. -/
private theorem rhs_A_1 (i : S4096x256.Idx) (c : dot_S4096x256_S256x256_S4096x256_1_0_0_1_n_n.contr.Idx) :
    (dot_S4096x256_S256x256_S4096x256_1_0_0_1_n_n.rhsIdx i c 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The [4096,256] by [256,256] product accumulated into the zero splat, read at (q, h): the sum over the
    contracted coordinate of the entries' products. -/
private theorem matmul_A_apply {φ₁ φ₂ : FTy} (A : FVec Ideal S4096x256 φ₁) (B : FVec Ideal S256x256 φ₂) (q : Fin 4096) (h : Fin 256) :
    matmul dot_S4096x256_S256x256_S4096x256_1_0_0_1_n_n none A B (constant (F := Ideal) S4096x256 .f32 0x00000000#32) (ix2 q h)
      = ∑ k : Fin 256, A (ix2 q k) * B (ix2 k h) := by
  show FloatOps.matmul dot_S4096x256_S256x256_S4096x256_1_0_0_1_n_n none A B (constant S4096x256 .f32 0x00000000#32) (ix2 q h) = _
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 q h) ((contrEquiv1 dot_S4096x256_S256x256_S4096x256_1_0_0_1_n_n 256 rfl rfl).symm k) = ix2 q k :=
    funext fun a => Fin.ext (by
      match a with
      | ⟨0, _⟩ => exact lhs_A_0 _ _
      | ⟨1, _⟩ => exact (lhs_A_1 _ _).trans hk)
  have er : dot_S4096x256_S256x256_S4096x256_1_0_0_1_n_n.rhsIdx (ix2 q h) ((contrEquiv1 dot_S4096x256_S256x256_S4096x256_1_0_0_1_n_n 256 rfl rfl).symm k) = ix2 k h :=
    funext fun a => Fin.ext (by
      match a with
      | ⟨0, _⟩ => exact (rhs_A_0 _ _).trans hk
      | ⟨1, _⟩ => exact rhs_A_1 _ _)
  rw [el, er]

/-- The left operand's row coordinate is the output's. -/
private theorem lhs_B_0 (i : S4096x128.Idx) (c : dot_S4096x256_S256x128_S4096x128_1_0_0_1_n_n.contr.Idx) :
    (dot_S4096x256_S256x128_S4096x128_1_0_0_1_n_n.lhsIdx i c 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl
/-- The left operand's column coordinate is the contraction's. -/
private theorem lhs_B_1 (i : S4096x128.Idx) (c : dot_S4096x256_S256x128_S4096x128_1_0_0_1_n_n.contr.Idx) :
    (dot_S4096x256_S256x128_S4096x128_1_0_0_1_n_n.lhsIdx i c 1).val = (c ⟨0, by decide⟩).val :=
  dot_S4096x256_S256x128_S4096x128_1_0_0_1_n_n.lhsIdx_val_of_single rfl i c
/-- The right operand's row coordinate is the contraction's. -/
private theorem rhs_B_0 (i : S4096x128.Idx) (c : dot_S4096x256_S256x128_S4096x128_1_0_0_1_n_n.contr.Idx) :
    (dot_S4096x256_S256x128_S4096x128_1_0_0_1_n_n.rhsIdx i c 0).val = (c ⟨0, by decide⟩).val :=
  dot_S4096x256_S256x128_S4096x128_1_0_0_1_n_n.rhsIdx_val_of_single rfl i c
/-- The right operand's column coordinate is the output's. -/
private theorem rhs_B_1 (i : S4096x128.Idx) (c : dot_S4096x256_S256x128_S4096x128_1_0_0_1_n_n.contr.Idx) :
    (dot_S4096x256_S256x128_S4096x128_1_0_0_1_n_n.rhsIdx i c 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- The [4096,256] by [256,128] product accumulated into the zero splat, read at (q, h): the sum over the
    contracted coordinate of the entries' products. -/
private theorem matmul_B_apply {φ₁ φ₂ : FTy} (A : FVec Ideal S4096x256 φ₁) (B : FVec Ideal S256x128 φ₂) (q : Fin 4096) (h : Fin 128) :
    matmul dot_S4096x256_S256x128_S4096x128_1_0_0_1_n_n none A B (constant (F := Ideal) S4096x128 .f32 0x00000000#32) (ix2 q h)
      = ∑ k : Fin 256, A (ix2 q k) * B (ix2 k h) := by
  show FloatOps.matmul dot_S4096x256_S256x128_S4096x128_1_0_0_1_n_n none A B (constant S4096x128 .f32 0x00000000#32) (ix2 q h) = _
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 q h) ((contrEquiv1 dot_S4096x256_S256x128_S4096x128_1_0_0_1_n_n 256 rfl rfl).symm k) = ix2 q k :=
    funext fun a => Fin.ext (by
      match a with
      | ⟨0, _⟩ => exact lhs_B_0 _ _
      | ⟨1, _⟩ => exact (lhs_B_1 _ _).trans hk)
  have er : dot_S4096x256_S256x128_S4096x128_1_0_0_1_n_n.rhsIdx (ix2 q h) ((contrEquiv1 dot_S4096x256_S256x128_S4096x128_1_0_0_1_n_n 256 rfl rfl).symm k) = ix2 k h :=
    funext fun a => Fin.ext (by
      match a with
      | ⟨0, _⟩ => exact (rhs_B_0 _ _).trans hk
      | ⟨1, _⟩ => exact rhs_B_1 _ _)
  rw [el, er]

/-! ## The output block -/

theorem k0_pay4_apply (x : Vec Ideal S4096x256 .f32) (w1 : Vec Ideal S256x256 .f32) (b1 : Vec Ideal S1x256 .f32)
    (w2 : Vec Ideal S256x128 .f32) (b2 : Vec Ideal S1x128 .f32) (q : Fin 4096) (j : Fin 128) :
    k0_pay4 (F := Ideal) x w1 b1 w2 b2 (ix2 q j)
      = (∑ h : Fin 256, max ((∑ k : Fin 256, x (ix2 q k) * w1 (ix2 k h)) + b1 (ix2 0 h)) 0 * w2 (ix2 h j)) + b2 (ix2 0 j) := by
  unfold k0_pay4
  simp only [shapeCast_self]
  refine (addf_apply _ _ _).trans ?_
  refine congrArg₂ (· + ·) ?_ ?_
  · refine (matmul_B_apply _ _ q j).trans ?_
    refine Finset.sum_congr rfl fun h _ => ?_
    refine congrArg₂ (· * ·) ?_ rfl
    refine (truncf_apply (φ := .f32) (ψ := .bf16) _ bitsLt_bf16_f32 _).trans ?_
    refine (maximumf_apply _ _ _).trans ?_
    refine congrArg₂ max ?_ ?_
    · refine (addf_apply _ _ _).trans ?_
      refine congrArg₂ (· + ·) ?_ ?_
      · exact matmul_A_apply _ _ q h
      · exact broadcastTo_1b_ab_apply _ _ q h
    · exact Ideal.ofBits_zero_f32
  · exact broadcastTo_1b_ab_apply _ _ q j

/-! ## The statistics rows -/

/-- The sum over the 4096 rows of a [4096,128] block, read at lane j (the accumulator is the neutral zero, which the
    reading drops). -/
theorem colsum_apply (y : Vec Ideal S4096x128 .f32) (j : Fin 128) :
    multiReduction (F := Ideal) .add [0] S128 y 0x00000000#32 reduces_S4096x128_S128 (.inl rfl) rfl (ix1 j)
      = ∑ q : Fin 4096, y (ix2 q j) := by
  refine (Ideal.multiReduction_add_single y 0x00000000#32 reduces_S4096x128_S128 (.inl rfl) rfl (ix1 j)).trans ?_
  refine Finset.sum_congr rfl fun q _ => ?_
  refine congrArg y (funext fun a => Fin.ext ?_)
  match a with
  | ⟨0, _⟩ => rfl
  | ⟨1, _⟩ => rfl

/-- The row a first-pass body leaves in its statistics block: the row it found plus the column sums of the block. -/
theorem rowAcc_apply (r : Vec Ideal S1x128 .f32) (y : Vec Ideal S4096x128 .f32) (j : Fin 128) :
    addf (shapeCast S1x128 r shapeCasts_S1x128_S1x128)
        (shapeCast S1x128 (multiReduction (F := Ideal) .add [0] S128 y 0x00000000#32 reduces_S4096x128_S128 (.inl rfl) rfl) shapeCasts_S128_S1x128)
        (ix2 0 j)
      = r (ix2 0 j) + ∑ q : Fin 4096, y (ix2 q j) := by
  refine (addf_apply _ _ _).trans ?_
  refine congrArg₂ (· + ·) ?_ ?_
  · rw [shapeCast_self]
  · exact (shapeCast_a_1a_apply _ shapeCasts_S128_S1x128 0 j).trans (colsum_apply y j)

theorem k0_pay5_apply (x : Vec Ideal S4096x256 .f32) (w1 : Vec Ideal S256x256 .f32) (b1 : Vec Ideal S1x256 .f32)
    (w2 : Vec Ideal S256x128 .f32) (b2 : Vec Ideal S1x128 .f32) (r : Vec Ideal S1x128 .f32) (j : Fin 128) :
    k0_pay5 (F := Ideal) x w1 b1 w2 b2 r (ix2 0 j)
      = r (ix2 0 j) + ∑ q : Fin 4096, k0_pay4 (F := Ideal) x w1 b1 w2 b2 (ix2 q j) := by
  unfold k0_pay5
  exact rowAcc_apply r _ j

theorem k0_pay1_apply (y : FVec Ideal S4096x128 .f32) (r : Vec Ideal S1x128 .f32) (j : Fin 128) :
    k0_pay1 (F := Ideal) y r (ix2 0 j) = r (ix2 0 j) + ∑ q : Fin 4096, y (ix2 q j) * y (ix2 q j) := by
  unfold k0_pay1
  exact rowAcc_apply r (mulf y y) j

/-- The two rows a core's first step writes: zero everywhere. -/
theorem k0_pay2_apply (i : S1x128.Idx) : k0_pay2 (F := Ideal) i = 0 := Ideal.ofBits_zero_f32
theorem k0_pay3_apply (i : S1x128.Idx) : k0_pay3 (F := Ideal) i = 0 := Ideal.ofBits_zero_f32

end Cert.KernelIdeal.Hand
-- ==== Proof.Hand.P1v0.lean ====
import proofs.«103476_j5987184410999_2_alg».proof.Proof.Hand.P1r0
import proofs.«103476_j5987184410999_2_alg».proof.Proof.Hand.P1r0Arr
import proofs.«103476_j5987184410999_2_alg».proof.Proof.Hand.PayIdx0
import proofs.«103476_j5987184410999_2_alg».proof.Proof.Hand.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

/-! # Region 0's values at the ideal instance, index by index, for arbitrary entry contents

  The five input blocks of a point are read off the arrays the region finds: the x block of point `t` is rows
  `4096 t …` of the [65536,256] array, the four parameter blocks are their whole arrays. With them the body's
  output block at point `t` is the perceptron's rows `4096 t …`, and a core's statistics row is the left fold
  from zero of its eight blocks' column sums. -/

/-! ## The input blocks -/

/-- The printed index maps, decided over the grid: window 0 moves one block of rows a point, the parameter windows
    stay at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The x block of point `t` at (q, k) is the array at row `4096 t + q`. -/
theorem iblk0_0_apply (c : Dev nD) (t : Fin cfg0.N) (q : Fin 4096) (r : Fin 65536)
    (hr : r.val = t.val * 4096 + q.val) (k : Fin 256) :
    iblk0 V c 0 t (ix2 q k) = (V c main_arg0 : S65536x256.Idx → EReal) (ix2 r k) := by
  obtain ⟨e0, e1, -⟩ := idx_facts0 t
  unfold iblk0
  rw [View.read_apply]
  show V c main_arg0 (((cfg0.win 0).blk t).view.emb (ix2 q k)) = V c main_arg0 (ix2 r k)
  refine congrArg (V c main_arg0) (funext fun a => Fin.ext ?_)
  match a with
  | ⟨0, _⟩ => show win0_0.index t (0 : Fin 2) * 4096 + 1 * q.val = r.val; omega
  | ⟨1, _⟩ => show win0_0.index t (1 : Fin 2) * 256 + 1 * k.val = k.val; omega

theorem iblk0_1_apply (c : Dev nD) (t : Fin cfg0.N) (k : Fin 256) (h : Fin 256) :
    iblk0 V c 1 t (ix2 k h) = (V c main_v1 : S256x256.Idx → EReal) (ix2 k h) := by
  obtain ⟨-, -, e10, e11, e20, e21, e30, e31, e40, e41⟩ := idx_facts0 t
  unfold iblk0
  rw [View.read_apply]
  show V c main_v1 (((cfg0.win 1).blk t).view.emb (ix2 k h)) = V c main_v1 (ix2 k h)
  refine congrArg (V c main_v1) (funext fun a => Fin.ext ?_)
  match a with
  | ⟨0, _⟩ => show win0_1.index t (0 : Fin 2) * 256 + 1 * k.val = k.val; omega
  | ⟨1, _⟩ => show win0_1.index t (1 : Fin 2) * 256 + 1 * h.val = h.val; omega

theorem iblk0_2_apply (c : Dev nD) (t : Fin cfg0.N) (u : Fin 1) (h : Fin 256) :
    iblk0 V c 2 t (ix2 u h) = (V c main_v12 : S1x256.Idx → EReal) (ix2 u h) := by
  obtain ⟨-, -, e10, e11, e20, e21, e30, e31, e40, e41⟩ := idx_facts0 t
  unfold iblk0
  rw [View.read_apply]
  show V c main_v12 (((cfg0.win 2).blk t).view.emb (ix2 u h)) = V c main_v12 (ix2 u h)
  refine congrArg (V c main_v12) (funext fun a => Fin.ext ?_)
  match a with
  | ⟨0, _⟩ => show win0_2.index t (0 : Fin 2) * 1 + 1 * u.val = u.val; omega
  | ⟨1, _⟩ => show win0_2.index t (1 : Fin 2) * 256 + 1 * h.val = h.val; omega

theorem iblk0_3_apply (c : Dev nD) (t : Fin cfg0.N) (h : Fin 256) (j : Fin 128) :
    iblk0 V c 3 t (ix2 h j) = (V c main_v5 : S256x128.Idx → EReal) (ix2 h j) := by
  obtain ⟨-, -, e10, e11, e20, e21, e30, e31, e40, e41⟩ := idx_facts0 t
  unfold iblk0
  rw [View.read_apply]
  show V c main_v5 (((cfg0.win 3).blk t).view.emb (ix2 h j)) = V c main_v5 (ix2 h j)
  refine congrArg (V c main_v5) (funext fun a => Fin.ext ?_)
  match a with
  | ⟨0, _⟩ => show win0_3.index t (0 : Fin 2) * 256 + 1 * h.val = h.val; omega
  | ⟨1, _⟩ => show win0_3.index t (1 : Fin 2) * 128 + 1 * j.val = j.val; omega

theorem iblk0_4_apply (c : Dev nD) (t : Fin cfg0.N) (u : Fin 1) (j : Fin 128) :
    iblk0 V c 4 t (ix2 u j) = (V c main_v13 : S1x128.Idx → EReal) (ix2 u j) := by
  obtain ⟨-, -, e10, e11, e20, e21, e30, e31, e40, e41⟩ := idx_facts0 t
  unfold iblk0
  rw [View.read_apply]
  show V c main_v13 (((cfg0.win 4).blk t).view.emb (ix2 u j)) = V c main_v13 (ix2 u j)
  refine congrArg (V c main_v13) (funext fun a => Fin.ext ?_)
  match a with
  | ⟨0, _⟩ => show win0_4.index t (0 : Fin 2) * 1 + 1 * u.val = u.val; omega
  | ⟨1, _⟩ => show win0_4.index t (1 : Fin 2) * 128 + 1 * j.val = j.val; omega

/-! ## The output block -/

/-- The specification's perceptron of the five arrays region 0 reads, as the region finds them. -/
abbrev lin0 (c : Dev nD) : Fin 65536 → Fin 128 → EReal :=
  Cert.Hand.Spec.lin (fun r k => (V c main_arg0 : S65536x256.Idx → EReal) (ix2 r k))
          (fun k h => (V c main_v1 : S256x256.Idx → EReal) (ix2 k h)) (fun h => (V c main_v12 : S1x256.Idx → EReal) (ix2 0 h))
          (fun h j => (V c main_v5 : S256x128.Idx → EReal) (ix2 h j)) (fun j => (V c main_v13 : S1x128.Idx → EReal) (ix2 0 j))

/-- The body's block of `y` at point `t`, read at (q, j): the specification's perceptron of the five arrays at row
    `4096 t + q`. -/
theorem yat0_eq_lin (c : Dev nD) (t : Fin cfg0.N) (q : Fin 4096) (r : Fin 65536) (hr : r.val = t.val * 4096 + q.val)
    (j : Fin 128) :
    yat0 V c t (ix2 q j)
      = lin0 V c r j := by
  unfold yat0 yblk0
  refine (k0_pay4_apply _ _ _ _ _ q j).trans ?_
  unfold lin0 Cert.Hand.Spec.lin
  refine congrArg₂ (· + ·) ?_ ?_
  · refine Finset.sum_congr rfl fun h _ => ?_
    refine congrArg₂ (· * ·) ?_ ?_
    · refine congrArg₂ max ?_ rfl
      refine congrArg₂ (· + ·) ?_ ?_
      · refine Finset.sum_congr rfl fun k _ => ?_
        refine congrArg₂ (· * ·) ?_ ?_
        · exact iblk0_0_apply V c t q r hr k
        · exact iblk0_1_apply V c t k h
      · exact iblk0_2_apply V c t 0 h
    · exact iblk0_3_apply V c t h j
  · exact iblk0_4_apply V c t 0 j

/-! ## The statistics rows -/

/-- One accumulation step read at lane j: the row found plus the block's column sum. -/
theorem r0acc_apply (rr : Vec Ideal S1x128 .f32) (y : FVec Ideal S4096x128 .f32) (j : Fin 128) :
    r0acc rr y (ix2 0 j) = rr (ix2 0 j) + ∑ q : Fin 4096, y (ix2 q j) := rowAcc_apply rr y j

/-- The same of the squares. -/
theorem r0accsq_apply (rr : Vec Ideal S1x128 .f32) (y : FVec Ideal S4096x128 .f32) (j : Fin 128) :
    r0accsq rr y (ix2 0 j) = rr (ix2 0 j) + ∑ q : Fin 4096, y (ix2 q j) * y (ix2 q j) := rowAcc_apply rr (mulf y y) j

/-- The zero row reads zero. -/
theorem r0zrow_apply (i : S1x128.Idx) : r0zrow (F := Ideal) i = 0 := Ideal.ofBits_zero_f32

/-- Eight accumulation steps from the zero row: the left fold from zero of the eight blocks' column sums. -/
theorem r0acc_fold8 (y0 y1 y2 y3 y4 y5 y6 y7 : FVec Ideal S4096x128 .f32) (j : Fin 128) :
    r0acc (r0acc (r0acc (r0acc (r0acc (r0acc (r0acc (r0acc r0zrow y0) y1) y2) y3) y4) y5) y6) y7 (ix2 0 j)
      = ((((((((0 + ∑ q : Fin 4096, y0 (ix2 q j)) + ∑ q : Fin 4096, y1 (ix2 q j)) + ∑ q : Fin 4096, y2 (ix2 q j))
          + ∑ q : Fin 4096, y3 (ix2 q j)) + ∑ q : Fin 4096, y4 (ix2 q j)) + ∑ q : Fin 4096, y5 (ix2 q j))
          + ∑ q : Fin 4096, y6 (ix2 q j)) + ∑ q : Fin 4096, y7 (ix2 q j)) := by
  rw [r0acc_apply, r0acc_apply, r0acc_apply, r0acc_apply, r0acc_apply, r0acc_apply, r0acc_apply, r0acc_apply, r0zrow_apply]

/-- The same of the squares. -/
theorem r0accsq_fold8 (y0 y1 y2 y3 y4 y5 y6 y7 : FVec Ideal S4096x128 .f32) (j : Fin 128) :
    r0accsq (r0accsq (r0accsq (r0accsq (r0accsq (r0accsq (r0accsq (r0accsq r0zrow y0) y1) y2) y3) y4) y5) y6) y7 (ix2 0 j)
      = ((((((((0 + ∑ q : Fin 4096, y0 (ix2 q j) * y0 (ix2 q j)) + ∑ q : Fin 4096, y1 (ix2 q j) * y1 (ix2 q j))
          + ∑ q : Fin 4096, y2 (ix2 q j) * y2 (ix2 q j)) + ∑ q : Fin 4096, y3 (ix2 q j) * y3 (ix2 q j))
          + ∑ q : Fin 4096, y4 (ix2 q j) * y4 (ix2 q j)) + ∑ q : Fin 4096, y5 (ix2 q j) * y5 (ix2 q j))
          + ∑ q : Fin 4096, y6 (ix2 q j) * y6 (ix2 q j)) + ∑ q : Fin 4096, y7 (ix2 q j) * y7 (ix2 q j)) := by
  rw [r0accsq_apply, r0accsq_apply, r0accsq_apply, r0accsq_apply, r0accsq_apply, r0accsq_apply, r0accsq_apply,
    r0accsq_apply, r0zrow_apply]

/-! ## The whole arrays -/

/-- The array of `y` is the perceptron of the five arrays, row by row. -/
theorem yArr0_eq_lin (c : Dev nD) (r : Fin 65536) (j : Fin 128) : yArr0 V c (ix2 r j) = lin0 V c r j := by
  show yat0 V c ⟨r.val / 4096, _⟩ (ix2 (⟨r.val % 4096, _⟩ : Fin 4096) j) = _
  exact yat0_eq_lin V c _ _ r (by show r.val = r.val / 4096 * 4096 + r.val % 4096; omega) j

/-- Row `4096 t + q` is a row of the array. -/
theorem row_lt0 (t : Fin cfg0.N) (n : ℕ) (hn : t.val = n) (q : Fin 4096) : n * 4096 + q.val < 65536 := by
  have := q.isLt
  have h16 : t.val < 16 := by have := t.isLt; have hN : cfg0.N = 16 := N_0; omega
  omega

/-- The column sum of the block of point `t`, over the perceptron's rows `4096 t …`. -/
theorem colsum_blk0 (c : Dev nD) (t : Fin cfg0.N) (n : ℕ) (hn : t.val = n) (j : Fin 128) :
    ∑ q : Fin 4096, yat0 V c t (ix2 q j) = ∑ q : Fin 4096, lin0 V c ⟨n * 4096 + q.val, row_lt0 t n hn q⟩ j :=
  Finset.sum_congr rfl fun q _ => yat0_eq_lin V c t q _ (by show n * 4096 + q.val = t.val * 4096 + q.val; rw [hn]) j

/-- The same of the squares. -/
theorem colsq_blk0 (c : Dev nD) (t : Fin cfg0.N) (n : ℕ) (hn : t.val = n) (j : Fin 128) :
    ∑ q : Fin 4096, yat0 V c t (ix2 q j) * yat0 V c t (ix2 q j)
      = ∑ q : Fin 4096, lin0 V c ⟨n * 4096 + q.val, row_lt0 t n hn q⟩ j * lin0 V c ⟨n * 4096 + q.val, row_lt0 t n hn q⟩ j :=
  Finset.sum_congr rfl fun q _ => by
    have e := yat0_eq_lin V c t q ⟨n * 4096 + q.val, row_lt0 t n hn q⟩
      (by show n * 4096 + q.val = t.val * 4096 + q.val; rw [hn]) j
    rw [e]

/-- Row 0 of the sums: core 0's left fold from zero of its eight blocks' column sums. -/
theorem row0_sumArr0_apply (c : Dev nD) (j : Fin 128) :
    row0 (sumArr0 V c) (ix2 0 j)
      = Cert.Hand.Spec.fold8 (fun i : Fin 8 => ∑ q : Fin 4096,
        lin0 V c ⟨(0 * 8 + i.val) * 4096 + q.val, by have := i.isLt; have := q.isLt; omega⟩ j) := by
  rw [row0_sumArr0, r0sum_core0, r0acc_fold8]
  rw [colsum_blk0 V c t0_0 0 rfl j,
    colsum_blk0 V c t0_1 1 rfl j,
    colsum_blk0 V c t0_2 2 rfl j,
    colsum_blk0 V c t0_3 3 rfl j,
    colsum_blk0 V c t0_4 4 rfl j,
    colsum_blk0 V c t0_5 5 rfl j,
    colsum_blk0 V c t0_6 6 rfl j,
    colsum_blk0 V c t0_7 7 rfl j]
  try rfl

/-- Row 8 of the sums: core 1's left fold from zero of its eight blocks' column sums. -/
theorem row8_sumArr0_apply (c : Dev nD) (j : Fin 128) :
    row8 (sumArr0 V c) (ix2 0 j)
      = Cert.Hand.Spec.fold8 (fun i : Fin 8 => ∑ q : Fin 4096,
        lin0 V c ⟨(1 * 8 + i.val) * 4096 + q.val, by have := i.isLt; have := q.isLt; omega⟩ j) := by
  rw [row8_sumArr0, r0sum_core1, r0acc_fold8]
  rw [colsum_blk0 V c t0_8 8 rfl j,
    colsum_blk0 V c t0_9 9 rfl j,
    colsum_blk0 V c t0_10 10 rfl j,
    colsum_blk0 V c t0_11 11 rfl j,
    colsum_blk0 V c t0_12 12 rfl j,
    colsum_blk0 V c t0_13 13 rfl j,
    colsum_blk0 V c t0_14 14 rfl j,
    colsum_blk0 V c t0_15 15 rfl j]
  try rfl

/-- Row 0 of the sums of squares: core 0's left fold from zero of its eight blocks' column sums of squares. -/
theorem row0_sqArr0_apply (c : Dev nD) (j : Fin 128) :
    row0 (sqArr0 V c) (ix2 0 j)
      = Cert.Hand.Spec.fold8 (fun i : Fin 8 => ∑ q : Fin 4096,
        lin0 V c ⟨(0 * 8 + i.val) * 4096 + q.val, by have := i.isLt; have := q.isLt; omega⟩ j
          * lin0 V c ⟨(0 * 8 + i.val) * 4096 + q.val, by have := i.isLt; have := q.isLt; omega⟩ j) := by
  rw [row0_sqArr0, r0sumsq_core0, r0accsq_fold8]
  rw [colsq_blk0 V c t0_0 0 rfl j,
    colsq_blk0 V c t0_1 1 rfl j,
    colsq_blk0 V c t0_2 2 rfl j,
    colsq_blk0 V c t0_3 3 rfl j,
    colsq_blk0 V c t0_4 4 rfl j,
    colsq_blk0 V c t0_5 5 rfl j,
    colsq_blk0 V c t0_6 6 rfl j,
    colsq_blk0 V c t0_7 7 rfl j]
  try rfl

/-- Row 8 of the sums of squares: core 1's left fold from zero of its eight blocks' column sums of squares. -/
theorem row8_sqArr0_apply (c : Dev nD) (j : Fin 128) :
    row8 (sqArr0 V c) (ix2 0 j)
      = Cert.Hand.Spec.fold8 (fun i : Fin 8 => ∑ q : Fin 4096,
        lin0 V c ⟨(1 * 8 + i.val) * 4096 + q.val, by have := i.isLt; have := q.isLt; omega⟩ j
          * lin0 V c ⟨(1 * 8 + i.val) * 4096 + q.val, by have := i.isLt; have := q.isLt; omega⟩ j) := by
  rw [row8_sqArr0, r0sumsq_core1, r0accsq_fold8]
  rw [colsq_blk0 V c t0_8 8 rfl j,
    colsq_blk0 V c t0_9 9 rfl j,
    colsq_blk0 V c t0_10 10 rfl j,
    colsq_blk0 V c t0_11 11 rfl j,
    colsq_blk0 V c t0_12 12 rfl j,
    colsq_blk0 V c t0_13 13 rfl j,
    colsq_blk0 V c t0_14 14 rfl j,
    colsq_blk0 V c t0_15 15 rfl j]
  try rfl

end Cert.KernelIdeal.Hand
-- ==== Proof.Hand.P2i1.lean ====
import proofs.«103476_j5987184410999_2_alg».proof.Proof.Hand.P2v1

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-- Region 1's output function over the extended reals, entry by entry: the scale times the centred entry, times
    the inverse deviation, plus the shift (the operations in the body's order). -/
theorem G1_apply (a0 : S65536x128.Idx → EReal) (a1 a2 a3 a4 : S1x128.Idx → EReal) (r : Fin 65536) (j : Fin 128) :
    G1 (F := Ideal) a0 a1 a2 a3 a4 (ix2 r j) = a3 (ix2 0 j) * (a0 (ix2 r j) - a1 (ix2 0 j)) * a2 (ix2 0 j) + a4 (ix2 0 j) := rfl

/-- The output array of region 1 after the run, at an entry. -/
theorem final1_apply (V : (c : Dev nD) → (b : Ref sig .tc) → Buf (Elt Ideal) ((c : Thread nD τ).loc b)) (c : Dev nD) (r : Fin 65536) (j : Fin 128) :
    (dat1 V c).arrAt 5 cfg1.N (ix2 r j)
      = G1 (F := Ideal) (V c (Pipeline.arrRef spec1 0)) (V c (Pipeline.arrRef spec1 1)) (V c (Pipeline.arrRef spec1 2)) (V c (Pipeline.arrRef spec1 3)) (V c (Pipeline.arrRef spec1 4)) (ix2 r j) :=
  congrFun (final1 V c) (ix2 r j)

end Cert.KernelIdeal.Hand

end
-- ==== Proof.Hand.KerVal0.lean ====
/-
  Network node 0 on the kernel's side, composed: the array the normalisation pass (region 1) leaves is, entry by
  entry, the kernel's reading of the batch normalisation of the perceptron of the launch arguments.
-/
import proofs.«103476_j5987184410999_2_alg».proof.Proof.Hand.ChainDefs0
import proofs.«103476_j5987184410999_2_alg».proof.Proof.Hand.KArgs
import proofs.«103476_j5987184410999_2_alg».proof.Proof.Hand.KerHost0
import proofs.«103476_j5987184410999_2_alg».proof.Proof.Hand.KerHost1
import proofs.«103476_j5987184410999_2_alg».proof.Proof.Hand.Glue
import proofs.«103476_j5987184410999_2_alg».proof.Proof.Hand.P1v0
import proofs.«103476_j5987184410999_2_alg».proof.Proof.Hand.P2i1
import proofs.«103476_j5987184410999_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Hand
open scoped BigOperators

variable (m : (ℓ : Loc nD τ sig) → Buf (Elt Ideal) ℓ)

/-! ## What region 0 is entered from, in terms of the launch arguments -/

/-- Host stretch 0 writes none of the arguments. -/
theorem W1_arg0 (c : Dev nD) : W1 m c main_arg0 = W0 m c main_arg0 :=
  StableHlo.after_of_writes_sub hostOps0 _ hostOps0_writes (by decide)

/-- The perceptron of the five arrays region 0 finds is the perceptron of node 0's launch arguments. -/
theorem lin0_E0 (c : Dev nD) :
    lin0 (E0 m) c = Spec.lin (kargs m c).x1 ((kargs m c).W1 0) ((kargs m c).b1 0) ((kargs m c).W2 0) ((kargs m c).b2 0) := by
  have hx : (fun r k => (E0 m c main_arg0 : S65536x256.Idx → EReal) (ix2 r k)) = (kargs m c).x1 := by
    funext r k
    show (W1 m c main_arg0 : S65536x256.Idx → EReal) (ix2 r k) = _
    rw [W1_arg0]; rfl
  have hW1 : (fun k h => (E0 m c main_v1 : S256x256.Idx → EReal) (ix2 k h)) = (kargs m c).W1 0 := by
    funext k h; exact h0_v1 (W0 m c) k h
  have hb1 : (fun h => (E0 m c main_v12 : S1x256.Idx → EReal) (ix2 0 h)) = (kargs m c).b1 0 := by
    funext h; exact h0_v12 (W0 m c) h
  have hW2 : (fun h j => (E0 m c main_v5 : S256x128.Idx → EReal) (ix2 h j)) = (kargs m c).W2 0 := by
    funext h j; exact h0_v5 (W0 m c) h j
  have hb2 : (fun j => (E0 m c main_v13 : S1x128.Idx → EReal) (ix2 0 j)) = (kargs m c).b2 0 := by
    funext j; exact h0_v13 (W0 m c) j
  exact congr (congr (congr (congr (congrArg Spec.lin hx) hW1) hb1) hW2) hb2

/-! ## What region 1 is entered from -/

/-- The product array: region 0 left it, host stretch 1 does not write it. -/
theorem W3_y (c : Dev nD) : W3 m c main_v14_0 = yArr0 (E0 m) c := by
  have e1 : W3 m c main_v14_0 = W2 m c main_v14_0 :=
    StableHlo.after_of_writes_sub hostOps1 _ hostOps1_writes (by decide)
  rw [e1]
  exact Pipeline.withArrays_arr spec0 launch0.win.arr_inj c (W1 m c) (GA0 m c) 5

/-- The sums and the sums of squares as region 0 left them. -/
theorem W2_sum (c : Dev nD) : W2 m c main_v14_1 = sumArr0 (E0 m) c :=
  Pipeline.withArrays_arr spec0 launch0.win.arr_inj c (W1 m c) (GA0 m c) 6
theorem W2_sq (c : Dev nD) : W2 m c main_v14_2 = sqArr0 (E0 m) c :=
  Pipeline.withArrays_arr spec0 launch0.win.arr_inj c (W1 m c) (GA0 m c) 7

/-- The scale row: a reshape of the scale vector host stretch 0 sliced out of the arguments. -/
theorem W3_gamma (c : Dev nD) (j : Fin 128) :
    (W3 m c main_v30 : S1x128.Idx → EReal) (ix2 0 j) = (kargs m c).g 0 j := by
  show (StableHlo.after hostOps1 (W2 m c) main_v30 : S1x128.Idx → EReal) (ix2 0 j) = _
  rw [h1_v30 (W2 m c) j]
  have e : W2 m c main_v9 = W1 m c main_v9 :=
    Pipeline.withArrays_of_ne spec0 c (W1 m c) (GA0 m c) main_v9 (by decide)
  rw [e]
  exact h0_v9 (W0 m c) j

/-- The shift row likewise. -/
theorem W3_beta (c : Dev nD) (j : Fin 128) :
    (W3 m c main_v31 : S1x128.Idx → EReal) (ix2 0 j) = (kargs m c).be 0 j := by
  show (StableHlo.after hostOps1 (W2 m c) main_v31 : S1x128.Idx → EReal) (ix2 0 j) = _
  rw [h1_v31 (W2 m c) j]
  have e : W2 m c main_v11 = W1 m c main_v11 :=
    Pipeline.withArrays_of_ne spec0 c (W1 m c) (GA0 m c) main_v11 (by decide)
  rw [e]
  exact h0_v11 (W0 m c) j

/-! ## The statistics rows region 0 left, as left folds of block column sums of the perceptron -/

theorem sum_row0 (c : Dev nD) (j : Fin 128) :
    (W2 m c main_v14_1 : S16x128.Idx → EReal) (ix2 0 j)
      = Spec.fold8 (fun i : Fin 8 => ∑ q : Fin 4096,
        lin0 (E0 m) c ⟨(0 * 8 + i.val) * 4096 + q.val, by have := i.isLt; have := q.isLt; omega⟩ j) := by
  rw [W2_sum]
  exact (row0_apply (sumArr0 (E0 m) c) (ix2 0 j)).symm.trans (row0_sumArr0_apply (E0 m) c j)

theorem sum_row8 (c : Dev nD) (j : Fin 128) :
    (W2 m c main_v14_1 : S16x128.Idx → EReal) (ix2 8 j)
      = Spec.fold8 (fun i : Fin 8 => ∑ q : Fin 4096,
        lin0 (E0 m) c ⟨(1 * 8 + i.val) * 4096 + q.val, by have := i.isLt; have := q.isLt; omega⟩ j) := by
  rw [W2_sum]
  exact (row8_apply (sumArr0 (E0 m) c) (ix2 0 j)).symm.trans (row8_sumArr0_apply (E0 m) c j)

theorem sq_row0 (c : Dev nD) (j : Fin 128) :
    (W2 m c main_v14_2 : S16x128.Idx → EReal) (ix2 0 j)
      = Spec.fold8 (fun i : Fin 8 => ∑ q : Fin 4096,
        lin0 (E0 m) c ⟨(0 * 8 + i.val) * 4096 + q.val, by have := i.isLt; have := q.isLt; omega⟩ j
          * lin0 (E0 m) c ⟨(0 * 8 + i.val) * 4096 + q.val, by have := i.isLt; have := q.isLt; omega⟩ j) := by
  rw [W2_sq]
  exact (row0_apply (sqArr0 (E0 m) c) (ix2 0 j)).symm.trans (row0_sqArr0_apply (E0 m) c j)

theorem sq_row8 (c : Dev nD) (j : Fin 128) :
    (W2 m c main_v14_2 : S16x128.Idx → EReal) (ix2 8 j)
      = Spec.fold8 (fun i : Fin 8 => ∑ q : Fin 4096,
        lin0 (E0 m) c ⟨(1 * 8 + i.val) * 4096 + q.val, by have := i.isLt; have := q.isLt; omega⟩ j
          * lin0 (E0 m) c ⟨(1 * 8 + i.val) * 4096 + q.val, by have := i.isLt; have := q.isLt; omega⟩ j) := by
  rw [W2_sq]
  exact (row8_apply (sqArr0 (E0 m) c) (ix2 0 j)).symm.trans (row8_sqArr0_apply (E0 m) c j)

/-! ## Node 0 -/

theorem node0 (c : Dev nD) (r : Fin 65536) (j : Fin 128) :
    (W4 m c main_v32 : S65536x128.Idx → EReal) (ix2 r j) = Net.k0 (kargs m c) r j := by
  have e4 : W4 m c main_v32 = GA1 m c 5 :=
    Pipeline.withArrays_arr spec1 launch1.win.arr_inj c (W3 m c) (GA1 m c) 5
  rw [e4]
  show (dat1 (E1 m) c).arrAt 5 cfg1.N (ix2 r j) = _
  rw [final1_apply (E1 m) c r j, G1_apply]
  have hg : (E1 m c (Pipeline.arrRef spec1 3) : S1x128.Idx → EReal) (ix2 0 j) = (kargs m c).g 0 j := W3_gamma m c j
  have hb : (E1 m c (Pipeline.arrRef spec1 4) : S1x128.Idx → EReal) (ix2 0 j) = (kargs m c).be 0 j := W3_beta m c j
  have hy : (E1 m c (Pipeline.arrRef spec1 0) : S65536x128.Idx → EReal) (ix2 r j) = lin0 (E0 m) c r j := by
    show (W3 m c main_v14_0 : S65536x128.Idx → EReal) (ix2 r j) = _
    rw [W3_y]; exact yArr0_eq_lin (E0 m) c r j
  have hmean : (E1 m c (Pipeline.arrRef spec1 1) : S1x128.Idx → EReal) (ix2 0 j) = _ :=
    h1_v22 (W2 m c) _ rfl j
  have hinv : (E1 m c (Pipeline.arrRef spec1 2) : S1x128.Idx → EReal) (ix2 0 j) = _ :=
    h1_v29 (W2 m c) _ _ rfl rfl j
  rw [hg, hb, hy, hmean, hinv]
  have key := Glue.pass2_eq (lin0 (E0 m) c) (W2 m c main_v14_1) (W2 m c main_v14_2) ((kargs m c).g 0) ((kargs m c).be 0)
    (sum_row0 m c) (sum_row8 m c) (sq_row0 m c) (sq_row8 m c) r j
  rw [lin0_E0] at key
  rw [lin0_E0]
  exact key

end Cert.KernelIdeal.Hand

end
-- ==== Proof.Hand.KerHost2.lean ====
/-
  Host stretch 2 of the kernel program read at an index: node 1's weights, biases, scale and shift sliced out of the arguments.
-/
import proofs.«103476_j5987184410999_2_alg».proof.Proof.Hand.KerHostLib

set_option maxRecDepth 1816

noncomputable section

namespace Cert.KernelIdeal.Hand

open Cert.KernelIdeal Cert.KernelIdeal.Gen
open Idealize.ShloMosaic Idealize.ShloMosaic.TcCoe Idealize.ShloMosaic.ValueIdx

/-! ## Stretch 2: node 1's parameters -/

section Even
variable {F : FTy → Type} [FloatOps F]

theorem h2_v34 (V : Valuation τ sig (Elt F)) (k h : Fin 256) :
    (StableHlo.after hostOps2 V main_v34 : (⟨S256x256, .f32⟩ : BufTy).Contents (Elt F)) (ix2 k h)
      = (V main_arg2 : (⟨S5x256x256, .f32⟩ : BufTy).Contents (Elt F)) (ix3 1 k h) := by
  have e : (StableHlo.after hostOps2 V main_v34 : (⟨S256x256, .f32⟩ : BufTy).Contents (Elt F))
      = shapeCast S256x256 (extractStridedSlice S1x256x256 ![1, 0, 0] (V main_arg2) slices_S5x256x256_S1x256x256_1_0_0)
          shapeCasts_S1x256x256_S256x256 := by
    simp only [hostOps2]; after_results <;> rfl
  rw [e]; exact W1_apply 1 (by omega) _ _ _ k h

theorem h2_v45 (V : Valuation τ sig (Elt F)) (h : Fin 256) :
    (StableHlo.after hostOps2 V main_v45 : (⟨S1x256, .f32⟩ : BufTy).Contents (Elt F)) (ix2 0 h)
      = (V main_arg3 : (⟨S5x256, .f32⟩ : BufTy).Contents (Elt F)) (ix2 1 h) := by
  have e : (StableHlo.after hostOps2 V main_v45 : (⟨S1x256, .f32⟩ : BufTy).Contents (Elt F))
      = shapeCast S1x256 (shapeCast S256 (extractStridedSlice S1x256 ![1, 0] (V main_arg3) slices_S5x256_S1x256_1_0)
          shapeCasts_S1x256_S256) shapeCasts_S256_S1x256 := by
    simp only [hostOps2]; after_results <;> rfl
  rw [e, unsq256_apply]; exact row256_apply 1 (by omega) _ _ _ h

theorem h2_v38 (V : Valuation τ sig (Elt F)) (h : Fin 256) (j : Fin 128) :
    (StableHlo.after hostOps2 V main_v38 : (⟨S256x128, .f32⟩ : BufTy).Contents (Elt F)) (ix2 h j)
      = (V main_arg4 : (⟨S5x256x128, .f32⟩ : BufTy).Contents (Elt F)) (ix3 1 h j) := by
  have e : (StableHlo.after hostOps2 V main_v38 : (⟨S256x128, .f32⟩ : BufTy).Contents (Elt F))
      = shapeCast S256x128 (extractStridedSlice S1x256x128 ![1, 0, 0] (V main_arg4) slices_S5x256x128_S1x256x128_1_0_0)
          shapeCasts_S1x256x128_S256x128 := by
    simp only [hostOps2]; after_results <;> rfl
  rw [e]; exact W2_apply 1 (by omega) _ _ _ h j

theorem h2_v46 (V : Valuation τ sig (Elt F)) (j : Fin 128) :
    (StableHlo.after hostOps2 V main_v46 : (⟨S1x128, .f32⟩ : BufTy).Contents (Elt F)) (ix2 0 j)
      = (V main_arg5 : (⟨S5x128, .f32⟩ : BufTy).Contents (Elt F)) (ix2 1 j) := by
  have e : (StableHlo.after hostOps2 V main_v46 : (⟨S1x128, .f32⟩ : BufTy).Contents (Elt F))
      = shapeCast S1x128 (shapeCast S128 (extractStridedSlice S1x128 ![1, 0] (V main_arg5) slices_S5x128_S1x128_1_0)
          shapeCasts_S1x128_S128) shapeCasts_S128_S1x128 := by
    simp only [hostOps2]; after_results <;> rfl
  rw [e, unsq128_apply]; exact row128_apply 1 (by omega) _ _ _ j

theorem h2_v42 (V : Valuation τ sig (Elt F)) (j : Fin 128) :
    (StableHlo.after hostOps2 V main_v42 : (⟨S128, .f32⟩ : BufTy).Contents (Elt F)) (ix1 j)
      = (V main_arg6 : (⟨S5x128, .f32⟩ : BufTy).Contents (Elt F)) (ix2 1 j) := by
  have e : (StableHlo.after hostOps2 V main_v42 : (⟨S128, .f32⟩ : BufTy).Contents (Elt F))
      = shapeCast S128 (extractStridedSlice S1x128 ![1, 0] (V main_arg6) slices_S5x128_S1x128_1_0) shapeCasts_S1x128_S128 := by
    simp only [hostOps2]; after_results <;> rfl
  rw [e]; exact row128_apply 1 (by omega) _ _ _ j

theorem h2_v44 (V : Valuation τ sig (Elt F)) (j : Fin 128) :
    (StableHlo.after hostOps2 V main_v44 : (⟨S128, .f32⟩ : BufTy).Contents (Elt F)) (ix1 j)
      = (V main_arg7 : (⟨S5x128, .f32⟩ : BufTy).Contents (Elt F)) (ix2 1 j) := by
  have e : (StableHlo.after hostOps2 V main_v44 : (⟨S128, .f32⟩ : BufTy).Contents (Elt F))
      = shapeCast S128 (extractStridedSlice S1x128 ![1, 0] (V main_arg7) slices_S5x128_S1x128_1_0) shapeCasts_S1x128_S128 := by
    simp only [hostOps2]; after_results <;> rfl
  rw [e]; exact row128_apply 1 (by omega) _ _ _ j

end Even

end Cert.KernelIdeal.Hand
-- ==== Proof.Hand.KerHost3.lean ====
/-
  Host stretch 3 of the kernel program read at an index: node 1's batch mean and reciprocal standard deviation from the two cores' partial sums, and its scale and shift as rows.
-/
import proofs.«103476_j5987184410999_2_alg».proof.Proof.Hand.KerHostLib

set_option maxRecDepth 1816

noncomputable section

namespace Cert.KernelIdeal.Hand

open Cert.KernelIdeal Cert.KernelIdeal.Gen
open Idealize.ShloMosaic Idealize.ShloMosaic.TcCoe Idealize.ShloMosaic.ValueIdx
/-! ## Stretch 3: node 1's statistics, scale and shift -/

section Odd
open Cert.Hand.Spec (N eps)

theorem h3_v55 (V : Valuation τ sig (Elt Ideal)) (s1 : S16x128.Idx → EReal) (h1 : V main_v47_1 = s1) (j : Fin 128) :
    (StableHlo.after hostOps3 V main_v55 : S1x128.Idx → EReal) (ix2 0 j)
      = Ideal.div (s1 (ix2 0 j) + s1 (ix2 8 j)) N := by
  subst h1
  have e : (StableHlo.after hostOps3 V main_v55 : S1x128.Idx → EReal)
      = (Host.divf (addf (extractStridedSlice S1x128 ![0, 0] (V main_v47_1 : FVec Ideal S16x128 .f32) slices_S16x128_S1x128_0_0)
            (extractStridedSlice S1x128 ![8, 0] (V main_v47_1 : FVec Ideal S16x128 .f32) slices_S16x128_S1x128_8_0))
          (broadcastInDim S1x128 ![] bcast_S_S1x128 (constant (F := Ideal) S_ .f32 0x47800000#32)) : FVec Ideal S1x128 .f32) := by
    simp only [hostOps3]; after_results <;> rfl
  rw [e]; exact mean_apply _ _ _ _ j

set_option maxHeartbeats 400000 in
theorem h3_v62 (V : Valuation τ sig (Elt Ideal)) (s1 s2 : S16x128.Idx → EReal) (h1 : V main_v47_1 = s1) (h2 : V main_v47_2 = s2)
    (j : Fin 128) :
    (StableHlo.after hostOps3 V main_v62 : S1x128.Idx → EReal) (ix2 0 j)
      = Ideal.rsqrt ((Ideal.div (s2 (ix2 0 j) + s2 (ix2 8 j)) N
          - Ideal.div (s1 (ix2 0 j) + s1 (ix2 8 j)) N * Ideal.div (s1 (ix2 0 j) + s1 (ix2 8 j)) N) + eps) := by
  subst h1 h2
  have e : (StableHlo.after hostOps3 V main_v62 : S1x128.Idx → EReal)
      = (Host.rsqrt (addf (subf
          (Host.divf (addf (extractStridedSlice S1x128 ![0, 0] (V main_v47_2 : FVec Ideal S16x128 .f32) slices_S16x128_S1x128_0_0)
              (extractStridedSlice S1x128 ![8, 0] (V main_v47_2 : FVec Ideal S16x128 .f32) slices_S16x128_S1x128_8_0))
            (broadcastInDim S1x128 ![] bcast_S_S1x128 (constant (F := Ideal) S_ .f32 0x47800000#32)))
          (mulf
            (Host.divf (addf (extractStridedSlice S1x128 ![0, 0] (V main_v47_1 : FVec Ideal S16x128 .f32) slices_S16x128_S1x128_0_0)
                (extractStridedSlice S1x128 ![8, 0] (V main_v47_1 : FVec Ideal S16x128 .f32) slices_S16x128_S1x128_8_0))
              (broadcastInDim S1x128 ![] bcast_S_S1x128 (constant (F := Ideal) S_ .f32 0x47800000#32)))
            (Host.divf (addf (extractStridedSlice S1x128 ![0, 0] (V main_v47_1 : FVec Ideal S16x128 .f32) slices_S16x128_S1x128_0_0)
                (extractStridedSlice S1x128 ![8, 0] (V main_v47_1 : FVec Ideal S16x128 .f32) slices_S16x128_S1x128_8_0))
              (broadcastInDim S1x128 ![] bcast_S_S1x128 (constant (F := Ideal) S_ .f32 0x47800000#32)))))
          (broadcastInDim S1x128 ![] bcast_S_S1x128 (constant (F := Ideal) S_ .f32 0x3727C5AC#32))) : FVec Ideal S1x128 .f32) := by
    simp only [hostOps3]; after_results_simp <;> rfl
  rw [e]; exact invstd_apply _ _ _ _ _ j

theorem h3_v63 (V : Valuation τ sig (Elt Ideal)) (j : Fin 128) :
    (StableHlo.after hostOps3 V main_v63 : S1x128.Idx → EReal) (ix2 0 j) = (V main_v42 : S128.Idx → EReal) (ix1 j) := by
  have e : (StableHlo.after hostOps3 V main_v63 : S1x128.Idx → EReal)
      = shapeCast S1x128 (V main_v42 : S128.Idx → EReal) shapeCasts_S128_S1x128 := by
    simp only [hostOps3]; after_results <;> rfl
  rw [e]; exact unsq128_apply _ _ j

theorem h3_v64 (V : Valuation τ sig (Elt Ideal)) (j : Fin 128) :
    (StableHlo.after hostOps3 V main_v64 : S1x128.Idx → EReal) (ix2 0 j) = (V main_v44 : S128.Idx → EReal) (ix1 j) := by
  have e : (StableHlo.after hostOps3 V main_v64 : S1x128.Idx → EReal)
      = shapeCast S1x128 (V main_v44 : S128.Idx → EReal) shapeCasts_S128_S1x128 := by
    simp only [hostOps3]; after_results <;> rfl
  rw [e]; exact unsq128_apply _ _ j

end Odd

end Cert.KernelIdeal.Hand
-- ==== Proof.Hand.PayIdx2.lean ====
import proofs.«103476_j5987184410999_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx
open scoped BigOperators

/-! # The first-pass body of region 2 read at an index, at the ideal values

  The body's output block is `relu (x·W1 + b1)·W2 + b2`: two matrix products, each read as the sum over its
  contracted coordinate, a bias row laid along every row, and a maximum with zero; the format changes around the
  products are the identity at the ideal values. Its two statistics rows are the rows found plus the column sums of
  the block and of its square. -/

/-! ## The two matrix products -/

/-- The left operand's row coordinate is the output's. -/
private theorem lhs_A_0 (i : S4096x256.Idx) (c : dot_S4096x256_S256x256_S4096x256_1_0_0_1_n_n.contr.Idx) :
    (dot_S4096x256_S256x256_S4096x256_1_0_0_1_n_n.lhsIdx i c 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
/-- The left operand's column coordinate is the contraction's. -/
private theorem lhs_A_1 (i : S4096x256.Idx) (c : dot_S4096x256_S256x256_S4096x256_1_0_0_1_n_n.contr.Idx) :
    (dot_S4096x256_S256x256_S4096x256_1_0_0_1_n_n.lhsIdx i c 1).val = (c ⟨0, by decide⟩).val :=
  dot_S4096x256_S256x256_S4096x256_1_0_0_1_n_n.lhsIdx_val_of_single rfl i c
/-- The right operand's row coordinate is the contraction's. -/
private theorem rhs_A_0 (i : S4096x256.Idx) (c : dot_S4096x256_S256x256_S4096x256_1_0_0_1_n_n.contr.Idx) :
    (dot_S4096x256_S256x256_S4096x256_1_0_0_1_n_n.rhsIdx i c 0).val = (c ⟨0, by decide⟩).val :=
  dot_S4096x256_S256x256_S4096x256_1_0_0_1_n_n.rhsIdx_val_of_single rfl i c
/-- The right operand's column coordinate is the output's. -/
private theorem rhs_A_1 (i : S4096x256.Idx) (c : dot_S4096x256_S256x256_S4096x256_1_0_0_1_n_n.contr.Idx) :
    (dot_S4096x256_S256x256_S4096x256_1_0_0_1_n_n.rhsIdx i c 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The [4096,256] by [256,256] product accumulated into the zero splat, read at (q, h): the sum over the
    contracted coordinate of the entries' products. -/
private theorem matmul_A_apply {φ₁ φ₂ : FTy} (A : FVec Ideal S4096x256 φ₁) (B : FVec Ideal S256x256 φ₂) (q : Fin 4096) (h : Fin 256) :
    matmul dot_S4096x256_S256x256_S4096x256_1_0_0_1_n_n none A B (constant (F := Ideal) S4096x256 .f32 0x00000000#32) (ix2 q h)
      = ∑ k : Fin 256, A (ix2 q k) * B (ix2 k h) := by
  show FloatOps.matmul dot_S4096x256_S256x256_S4096x256_1_0_0_1_n_n none A B (constant S4096x256 .f32 0x00000000#32) (ix2 q h) = _
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 q h) ((contrEquiv1 dot_S4096x256_S256x256_S4096x256_1_0_0_1_n_n 256 rfl rfl).symm k) = ix2 q k :=
    funext fun a => Fin.ext (by
      match a with
      | ⟨0, _⟩ => exact lhs_A_0 _ _
      | ⟨1, _⟩ => exact (lhs_A_1 _ _).trans hk)
  have er : dot_S4096x256_S256x256_S4096x256_1_0_0_1_n_n.rhsIdx (ix2 q h) ((contrEquiv1 dot_S4096x256_S256x256_S4096x256_1_0_0_1_n_n 256 rfl rfl).symm k) = ix2 k h :=
    funext fun a => Fin.ext (by
      match a with
      | ⟨0, _⟩ => exact (rhs_A_0 _ _).trans hk
      | ⟨1, _⟩ => exact rhs_A_1 _ _)
  rw [el, er]

/-- The left operand's row coordinate is the output's. -/
private theorem lhs_B_0 (i : S4096x128.Idx) (c : dot_S4096x256_S256x128_S4096x128_1_0_0_1_n_n.contr.Idx) :
    (dot_S4096x256_S256x128_S4096x128_1_0_0_1_n_n.lhsIdx i c 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl
/-- The left operand's column coordinate is the contraction's. -/
private theorem lhs_B_1 (i : S4096x128.Idx) (c : dot_S4096x256_S256x128_S4096x128_1_0_0_1_n_n.contr.Idx) :
    (dot_S4096x256_S256x128_S4096x128_1_0_0_1_n_n.lhsIdx i c 1).val = (c ⟨0, by decide⟩).val :=
  dot_S4096x256_S256x128_S4096x128_1_0_0_1_n_n.lhsIdx_val_of_single rfl i c
/-- The right operand's row coordinate is the contraction's. -/
private theorem rhs_B_0 (i : S4096x128.Idx) (c : dot_S4096x256_S256x128_S4096x128_1_0_0_1_n_n.contr.Idx) :
    (dot_S4096x256_S256x128_S4096x128_1_0_0_1_n_n.rhsIdx i c 0).val = (c ⟨0, by decide⟩).val :=
  dot_S4096x256_S256x128_S4096x128_1_0_0_1_n_n.rhsIdx_val_of_single rfl i c
/-- The right operand's column coordinate is the output's. -/
private theorem rhs_B_1 (i : S4096x128.Idx) (c : dot_S4096x256_S256x128_S4096x128_1_0_0_1_n_n.contr.Idx) :
    (dot_S4096x256_S256x128_S4096x128_1_0_0_1_n_n.rhsIdx i c 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- The [4096,256] by [256,128] product accumulated into the zero splat, read at (q, h): the sum over the
    contracted coordinate of the entries' products. -/
private theorem matmul_B_apply {φ₁ φ₂ : FTy} (A : FVec Ideal S4096x256 φ₁) (B : FVec Ideal S256x128 φ₂) (q : Fin 4096) (h : Fin 128) :
    matmul dot_S4096x256_S256x128_S4096x128_1_0_0_1_n_n none A B (constant (F := Ideal) S4096x128 .f32 0x00000000#32) (ix2 q h)
      = ∑ k : Fin 256, A (ix2 q k) * B (ix2 k h) := by
  show FloatOps.matmul dot_S4096x256_S256x128_S4096x128_1_0_0_1_n_n none A B (constant S4096x128 .f32 0x00000000#32) (ix2 q h) = _
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 q h) ((contrEquiv1 dot_S4096x256_S256x128_S4096x128_1_0_0_1_n_n 256 rfl rfl).symm k) = ix2 q k :=
    funext fun a => Fin.ext (by
      match a with
      | ⟨0, _⟩ => exact lhs_B_0 _ _
      | ⟨1, _⟩ => exact (lhs_B_1 _ _).trans hk)
  have er : dot_S4096x256_S256x128_S4096x128_1_0_0_1_n_n.rhsIdx (ix2 q h) ((contrEquiv1 dot_S4096x256_S256x128_S4096x128_1_0_0_1_n_n 256 rfl rfl).symm k) = ix2 k h :=
    funext fun a => Fin.ext (by
      match a with
      | ⟨0, _⟩ => exact (rhs_B_0 _ _).trans hk
      | ⟨1, _⟩ => exact rhs_B_1 _ _)
  rw [el, er]

/-! ## The output block -/

theorem k2_pay4_apply (x : Vec Ideal S4096x256 .f32) (w1 : Vec Ideal S256x256 .f32) (b1 : Vec Ideal S1x256 .f32)
    (w2 : Vec Ideal S256x128 .f32) (b2 : Vec Ideal S1x128 .f32) (q : Fin 4096) (j : Fin 128) :
    k2_pay4 (F := Ideal) x w1 b1 w2 b2 (ix2 q j)
      = (∑ h : Fin 256, max ((∑ k : Fin 256, x (ix2 q k) * w1 (ix2 k h)) + b1 (ix2 0 h)) 0 * w2 (ix2 h j)) + b2 (ix2 0 j) := by
  unfold k2_pay4
  simp only [shapeCast_self]
  refine (addf_apply _ _ _).trans ?_
  refine congrArg₂ (· + ·) ?_ ?_
  · refine (matmul_B_apply _ _ q j).trans ?_
    refine Finset.sum_congr rfl fun h _ => ?_
    refine congrArg₂ (· * ·) ?_ rfl
    refine (truncf_apply (φ := .f32) (ψ := .bf16) _ bitsLt_bf16_f32 _).trans ?_
    refine (maximumf_apply _ _ _).trans ?_
    refine congrArg₂ max ?_ ?_
    · refine (addf_apply _ _ _).trans ?_
      refine congrArg₂ (· + ·) ?_ ?_
      · exact matmul_A_apply _ _ q h
      · exact broadcastTo_1b_ab_apply _ _ q h
    · exact Ideal.ofBits_zero_f32
  · exact broadcastTo_1b_ab_apply _ _ q j

/-! ## The statistics rows -/

/-- The sum over the 4096 rows of a [4096,128] block, read at lane j (the accumulator is the neutral zero, which the
    reading drops). -/
private theorem colsum_apply (y : Vec Ideal S4096x128 .f32) (j : Fin 128) :
    multiReduction (F := Ideal) .add [0] S128 y 0x00000000#32 reduces_S4096x128_S128 (.inl rfl) rfl (ix1 j)
      = ∑ q : Fin 4096, y (ix2 q j) := by
  refine (Ideal.multiReduction_add_single y 0x00000000#32 reduces_S4096x128_S128 (.inl rfl) rfl (ix1 j)).trans ?_
  refine Finset.sum_congr rfl fun q _ => ?_
  refine congrArg y (funext fun a => Fin.ext ?_)
  match a with
  | ⟨0, _⟩ => rfl
  | ⟨1, _⟩ => rfl

/-- The row a first-pass body leaves in its statistics block: the row it found plus the column sums of the block. -/
private theorem rowAcc_apply (r : Vec Ideal S1x128 .f32) (y : Vec Ideal S4096x128 .f32) (j : Fin 128) :
    addf (shapeCast S1x128 r shapeCasts_S1x128_S1x128)
        (shapeCast S1x128 (multiReduction (F := Ideal) .add [0] S128 y 0x00000000#32 reduces_S4096x128_S128 (.inl rfl) rfl) shapeCasts_S128_S1x128)
        (ix2 0 j)
      = r (ix2 0 j) + ∑ q : Fin 4096, y (ix2 q j) := by
  refine (addf_apply _ _ _).trans ?_
  refine congrArg₂ (· + ·) ?_ ?_
  · rw [shapeCast_self]
  · exact (shapeCast_a_1a_apply _ shapeCasts_S128_S1x128 0 j).trans (colsum_apply y j)

theorem k2_pay5_apply (x : Vec Ideal S4096x256 .f32) (w1 : Vec Ideal S256x256 .f32) (b1 : Vec Ideal S1x256 .f32)
    (w2 : Vec Ideal S256x128 .f32) (b2 : Vec Ideal S1x128 .f32) (r : Vec Ideal S1x128 .f32) (j : Fin 128) :
    k2_pay5 (F := Ideal) x w1 b1 w2 b2 r (ix2 0 j)
      = r (ix2 0 j) + ∑ q : Fin 4096, k2_pay4 (F := Ideal) x w1 b1 w2 b2 (ix2 q j) := by
  unfold k2_pay5
  exact rowAcc_apply r _ j

theorem k2_pay1_apply (y : FVec Ideal S4096x128 .f32) (r : Vec Ideal S1x128 .f32) (j : Fin 128) :
    k2_pay1 (F := Ideal) y r (ix2 0 j) = r (ix2 0 j) + ∑ q : Fin 4096, y (ix2 q j) * y (ix2 q j) := by
  unfold k2_pay1
  exact rowAcc_apply r (mulf y y) j

/-- The two rows a core's first step writes: zero everywhere. -/
theorem k2_pay2_apply (i : S1x128.Idx) : k2_pay2 (F := Ideal) i = 0 := Ideal.ofBits_zero_f32
theorem k2_pay3_apply (i : S1x128.Idx) : k2_pay3 (F := Ideal) i = 0 := Ideal.ofBits_zero_f32

end Cert.KernelIdeal.Hand
-- ==== Proof.Hand.P1v2.lean ====
import proofs.«103476_j5987184410999_2_alg».proof.Proof.Hand.P1r2
import proofs.«103476_j5987184410999_2_alg».proof.Proof.Hand.P1r2Arr
import proofs.«103476_j5987184410999_2_alg».proof.Proof.Hand.PayIdx0
import proofs.«103476_j5987184410999_2_alg».proof.Proof.Hand.PayIdx2
import proofs.«103476_j5987184410999_2_alg».proof.Proof.Hand.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

/-! # Region 2's values at the ideal instance, index by index, for arbitrary entry contents

  The five input blocks of a point are read off the arrays the region finds: the x block of point `t` is rows
  `4096 t …` of the [65536,256] array, the four parameter blocks are their whole arrays. With them the body's
  output block at point `t` is the perceptron's rows `4096 t …`, and a core's statistics row is the left fold
  from zero of its eight blocks' column sums. -/

/-! ## The input blocks -/

/-- The printed index maps, decided over the grid: window 0 moves one block of rows a point, the parameter windows
    stay at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The x block of point `t` at (q, k) is the array at row `4096 t + q`. -/
theorem iblk2_0_apply (c : Dev nD) (t : Fin cfg2.N) (q : Fin 4096) (r : Fin 65536)
    (hr : r.val = t.val * 4096 + q.val) (k : Fin 256) :
    iblk2 V c 0 t (ix2 q k) = (V c main_arg1 : S65536x256.Idx → EReal) (ix2 r k) := by
  obtain ⟨e0, e1, -⟩ := idx_facts2 t
  unfold iblk2
  rw [View.read_apply]
  show V c main_arg1 (((cfg2.win 0).blk t).view.emb (ix2 q k)) = V c main_arg1 (ix2 r k)
  refine congrArg (V c main_arg1) (funext fun a => Fin.ext ?_)
  match a with
  | ⟨0, _⟩ => show win2_0.index t (0 : Fin 2) * 4096 + 1 * q.val = r.val; omega
  | ⟨1, _⟩ => show win2_0.index t (1 : Fin 2) * 256 + 1 * k.val = k.val; omega

theorem iblk2_1_apply (c : Dev nD) (t : Fin cfg2.N) (k : Fin 256) (h : Fin 256) :
    iblk2 V c 1 t (ix2 k h) = (V c main_v34 : S256x256.Idx → EReal) (ix2 k h) := by
  obtain ⟨-, -, e10, e11, e20, e21, e30, e31, e40, e41⟩ := idx_facts2 t
  unfold iblk2
  rw [View.read_apply]
  show V c main_v34 (((cfg2.win 1).blk t).view.emb (ix2 k h)) = V c main_v34 (ix2 k h)
  refine congrArg (V c main_v34) (funext fun a => Fin.ext ?_)
  match a with
  | ⟨0, _⟩ => show win2_1.index t (0 : Fin 2) * 256 + 1 * k.val = k.val; omega
  | ⟨1, _⟩ => show win2_1.index t (1 : Fin 2) * 256 + 1 * h.val = h.val; omega

theorem iblk2_2_apply (c : Dev nD) (t : Fin cfg2.N) (u : Fin 1) (h : Fin 256) :
    iblk2 V c 2 t (ix2 u h) = (V c main_v45 : S1x256.Idx → EReal) (ix2 u h) := by
  obtain ⟨-, -, e10, e11, e20, e21, e30, e31, e40, e41⟩ := idx_facts2 t
  unfold iblk2
  rw [View.read_apply]
  show V c main_v45 (((cfg2.win 2).blk t).view.emb (ix2 u h)) = V c main_v45 (ix2 u h)
  refine congrArg (V c main_v45) (funext fun a => Fin.ext ?_)
  match a with
  | ⟨0, _⟩ => show win2_2.index t (0 : Fin 2) * 1 + 1 * u.val = u.val; omega
  | ⟨1, _⟩ => show win2_2.index t (1 : Fin 2) * 256 + 1 * h.val = h.val; omega

theorem iblk2_3_apply (c : Dev nD) (t : Fin cfg2.N) (h : Fin 256) (j : Fin 128) :
    iblk2 V c 3 t (ix2 h j) = (V c main_v38 : S256x128.Idx → EReal) (ix2 h j) := by
  obtain ⟨-, -, e10, e11, e20, e21, e30, e31, e40, e41⟩ := idx_facts2 t
  unfold iblk2
  rw [View.read_apply]
  show V c main_v38 (((cfg2.win 3).blk t).view.emb (ix2 h j)) = V c main_v38 (ix2 h j)
  refine congrArg (V c main_v38) (funext fun a => Fin.ext ?_)
  match a with
  | ⟨0, _⟩ => show win2_3.index t (0 : Fin 2) * 256 + 1 * h.val = h.val; omega
  | ⟨1, _⟩ => show win2_3.index t (1 : Fin 2) * 128 + 1 * j.val = j.val; omega

theorem iblk2_4_apply (c : Dev nD) (t : Fin cfg2.N) (u : Fin 1) (j : Fin 128) :
    iblk2 V c 4 t (ix2 u j) = (V c main_v46 : S1x128.Idx → EReal) (ix2 u j) := by
  obtain ⟨-, -, e10, e11, e20, e21, e30, e31, e40, e41⟩ := idx_facts2 t
  unfold iblk2
  rw [View.read_apply]
  show V c main_v46 (((cfg2.win 4).blk t).view.emb (ix2 u j)) = V c main_v46 (ix2 u j)
  refine congrArg (V c main_v46) (funext fun a => Fin.ext ?_)
  match a with
  | ⟨0, _⟩ => show win2_4.index t (0 : Fin 2) * 1 + 1 * u.val = u.val; omega
  | ⟨1, _⟩ => show win2_4.index t (1 : Fin 2) * 128 + 1 * j.val = j.val; omega

/-! ## The output block -/

/-- The specification's perceptron of the five arrays region 2 reads, as the region finds them. -/
abbrev lin2 (c : Dev nD) : Fin 65536 → Fin 128 → EReal :=
  Cert.Hand.Spec.lin (fun r k => (V c main_arg1 : S65536x256.Idx → EReal) (ix2 r k))
          (fun k h => (V c main_v34 : S256x256.Idx → EReal) (ix2 k h)) (fun h => (V c main_v45 : S1x256.Idx → EReal) (ix2 0 h))
          (fun h j => (V c main_v38 : S256x128.Idx → EReal) (ix2 h j)) (fun j => (V c main_v46 : S1x128.Idx → EReal) (ix2 0 j))

/-- The body's block of `y` at point `t`, read at (q, j): the specification's perceptron of the five arrays at row
    `4096 t + q`. -/
theorem yat2_eq_lin (c : Dev nD) (t : Fin cfg2.N) (q : Fin 4096) (r : Fin 65536) (hr : r.val = t.val * 4096 + q.val)
    (j : Fin 128) :
    yat2 V c t (ix2 q j)
      = lin2 V c r j := by
  unfold yat2 yblk2
  refine (k2_pay4_apply _ _ _ _ _ q j).trans ?_
  unfold lin2 Cert.Hand.Spec.lin
  refine congrArg₂ (· + ·) ?_ ?_
  · refine Finset.sum_congr rfl fun h _ => ?_
    refine congrArg₂ (· * ·) ?_ ?_
    · refine congrArg₂ max ?_ rfl
      refine congrArg₂ (· + ·) ?_ ?_
      · refine Finset.sum_congr rfl fun k _ => ?_
        refine congrArg₂ (· * ·) ?_ ?_
        · exact iblk2_0_apply V c t q r hr k
        · exact iblk2_1_apply V c t k h
      · exact iblk2_2_apply V c t 0 h
    · exact iblk2_3_apply V c t h j
  · exact iblk2_4_apply V c t 0 j

/-! ## The statistics rows -/

/-- One accumulation step read at lane j: the row found plus the block's column sum. -/
theorem r2acc_apply (rr : Vec Ideal S1x128 .f32) (y : FVec Ideal S4096x128 .f32) (j : Fin 128) :
    r2acc rr y (ix2 0 j) = rr (ix2 0 j) + ∑ q : Fin 4096, y (ix2 q j) := rowAcc_apply rr y j

/-- The same of the squares. -/
theorem r2accsq_apply (rr : Vec Ideal S1x128 .f32) (y : FVec Ideal S4096x128 .f32) (j : Fin 128) :
    r2accsq rr y (ix2 0 j) = rr (ix2 0 j) + ∑ q : Fin 4096, y (ix2 q j) * y (ix2 q j) := rowAcc_apply rr (mulf y y) j

/-- The zero row reads zero. -/
theorem r2zrow_apply (i : S1x128.Idx) : r2zrow (F := Ideal) i = 0 := Ideal.ofBits_zero_f32

/-- Eight accumulation steps from the zero row: the left fold from zero of the eight blocks' column sums. -/
theorem r2acc_fold8 (y0 y1 y2 y3 y4 y5 y6 y7 : FVec Ideal S4096x128 .f32) (j : Fin 128) :
    r2acc (r2acc (r2acc (r2acc (r2acc (r2acc (r2acc (r2acc r2zrow y0) y1) y2) y3) y4) y5) y6) y7 (ix2 0 j)
      = ((((((((0 + ∑ q : Fin 4096, y0 (ix2 q j)) + ∑ q : Fin 4096, y1 (ix2 q j)) + ∑ q : Fin 4096, y2 (ix2 q j))
          + ∑ q : Fin 4096, y3 (ix2 q j)) + ∑ q : Fin 4096, y4 (ix2 q j)) + ∑ q : Fin 4096, y5 (ix2 q j))
          + ∑ q : Fin 4096, y6 (ix2 q j)) + ∑ q : Fin 4096, y7 (ix2 q j)) := by
  rw [r2acc_apply, r2acc_apply, r2acc_apply, r2acc_apply, r2acc_apply, r2acc_apply, r2acc_apply, r2acc_apply, r2zrow_apply]

/-- The same of the squares. -/
theorem r2accsq_fold8 (y0 y1 y2 y3 y4 y5 y6 y7 : FVec Ideal S4096x128 .f32) (j : Fin 128) :
    r2accsq (r2accsq (r2accsq (r2accsq (r2accsq (r2accsq (r2accsq (r2accsq r2zrow y0) y1) y2) y3) y4) y5) y6) y7 (ix2 0 j)
      = ((((((((0 + ∑ q : Fin 4096, y0 (ix2 q j) * y0 (ix2 q j)) + ∑ q : Fin 4096, y1 (ix2 q j) * y1 (ix2 q j))
          + ∑ q : Fin 4096, y2 (ix2 q j) * y2 (ix2 q j)) + ∑ q : Fin 4096, y3 (ix2 q j) * y3 (ix2 q j))
          + ∑ q : Fin 4096, y4 (ix2 q j) * y4 (ix2 q j)) + ∑ q : Fin 4096, y5 (ix2 q j) * y5 (ix2 q j))
          + ∑ q : Fin 4096, y6 (ix2 q j) * y6 (ix2 q j)) + ∑ q : Fin 4096, y7 (ix2 q j) * y7 (ix2 q j)) := by
  rw [r2accsq_apply, r2accsq_apply, r2accsq_apply, r2accsq_apply, r2accsq_apply, r2accsq_apply, r2accsq_apply,
    r2accsq_apply, r2zrow_apply]

/-! ## The whole arrays -/

/-- The array of `y` is the perceptron of the five arrays, row by row. -/
theorem yArr2_eq_lin (c : Dev nD) (r : Fin 65536) (j : Fin 128) : yArr2 V c (ix2 r j) = lin2 V c r j := by
  show yat2 V c ⟨r.val / 4096, _⟩ (ix2 (⟨r.val % 4096, _⟩ : Fin 4096) j) = _
  exact yat2_eq_lin V c _ _ r (by show r.val = r.val / 4096 * 4096 + r.val % 4096; omega) j

/-- Row `4096 t + q` is a row of the array. -/
theorem row_lt2 (t : Fin cfg2.N) (n : ℕ) (hn : t.val = n) (q : Fin 4096) : n * 4096 + q.val < 65536 := by
  have := q.isLt
  have h16 : t.val < 16 := by have := t.isLt; have hN : cfg2.N = 16 := N_2; omega
  omega

/-- The column sum of the block of point `t`, over the perceptron's rows `4096 t …`. -/
theorem colsum_blk2 (c : Dev nD) (t : Fin cfg2.N) (n : ℕ) (hn : t.val = n) (j : Fin 128) :
    ∑ q : Fin 4096, yat2 V c t (ix2 q j) = ∑ q : Fin 4096, lin2 V c ⟨n * 4096 + q.val, row_lt2 t n hn q⟩ j :=
  Finset.sum_congr rfl fun q _ => yat2_eq_lin V c t q _ (by show n * 4096 + q.val = t.val * 4096 + q.val; rw [hn]) j

/-- The same of the squares. -/
theorem colsq_blk2 (c : Dev nD) (t : Fin cfg2.N) (n : ℕ) (hn : t.val = n) (j : Fin 128) :
    ∑ q : Fin 4096, yat2 V c t (ix2 q j) * yat2 V c t (ix2 q j)
      = ∑ q : Fin 4096, lin2 V c ⟨n * 4096 + q.val, row_lt2 t n hn q⟩ j * lin2 V c ⟨n * 4096 + q.val, row_lt2 t n hn q⟩ j :=
  Finset.sum_congr rfl fun q _ => by
    have e := yat2_eq_lin V c t q ⟨n * 4096 + q.val, row_lt2 t n hn q⟩
      (by show n * 4096 + q.val = t.val * 4096 + q.val; rw [hn]) j
    rw [e]

/-- Row 0 of the sums: core 0's left fold from zero of its eight blocks' column sums. -/
theorem row0_sumArr2_apply (c : Dev nD) (j : Fin 128) :
    row0 (sumArr2 V c) (ix2 0 j)
      = Cert.Hand.Spec.fold8 (fun i : Fin 8 => ∑ q : Fin 4096,
        lin2 V c ⟨(0 * 8 + i.val) * 4096 + q.val, by have := i.isLt; have := q.isLt; omega⟩ j) := by
  rw [row0_sumArr2, r2sum_core0, r2acc_fold8]
  rw [colsum_blk2 V c t2_0 0 rfl j,
    colsum_blk2 V c t2_1 1 rfl j,
    colsum_blk2 V c t2_2 2 rfl j,
    colsum_blk2 V c t2_3 3 rfl j,
    colsum_blk2 V c t2_4 4 rfl j,
    colsum_blk2 V c t2_5 5 rfl j,
    colsum_blk2 V c t2_6 6 rfl j,
    colsum_blk2 V c t2_7 7 rfl j]
  try rfl

/-- Row 8 of the sums: core 1's left fold from zero of its eight blocks' column sums. -/
theorem row8_sumArr2_apply (c : Dev nD) (j : Fin 128) :
    row8 (sumArr2 V c) (ix2 0 j)
      = Cert.Hand.Spec.fold8 (fun i : Fin 8 => ∑ q : Fin 4096,
        lin2 V c ⟨(1 * 8 + i.val) * 4096 + q.val, by have := i.isLt; have := q.isLt; omega⟩ j) := by
  rw [row8_sumArr2, r2sum_core1, r2acc_fold8]
  rw [colsum_blk2 V c t2_8 8 rfl j,
    colsum_blk2 V c t2_9 9 rfl j,
    colsum_blk2 V c t2_10 10 rfl j,
    colsum_blk2 V c t2_11 11 rfl j,
    colsum_blk2 V c t2_12 12 rfl j,
    colsum_blk2 V c t2_13 13 rfl j,
    colsum_blk2 V c t2_14 14 rfl j,
    colsum_blk2 V c t2_15 15 rfl j]
  try rfl

/-- Row 0 of the sums of squares: core 0's left fold from zero of its eight blocks' column sums of squares. -/
theorem row0_sqArr2_apply (c : Dev nD) (j : Fin 128) :
    row0 (sqArr2 V c) (ix2 0 j)
      = Cert.Hand.Spec.fold8 (fun i : Fin 8 => ∑ q : Fin 4096,
        lin2 V c ⟨(0 * 8 + i.val) * 4096 + q.val, by have := i.isLt; have := q.isLt; omega⟩ j
          * lin2 V c ⟨(0 * 8 + i.val) * 4096 + q.val, by have := i.isLt; have := q.isLt; omega⟩ j) := by
  rw [row0_sqArr2, r2sumsq_core0, r2accsq_fold8]
  rw [colsq_blk2 V c t2_0 0 rfl j,
    colsq_blk2 V c t2_1 1 rfl j,
    colsq_blk2 V c t2_2 2 rfl j,
    colsq_blk2 V c t2_3 3 rfl j,
    colsq_blk2 V c t2_4 4 rfl j,
    colsq_blk2 V c t2_5 5 rfl j,
    colsq_blk2 V c t2_6 6 rfl j,
    colsq_blk2 V c t2_7 7 rfl j]
  try rfl

/-- Row 8 of the sums of squares: core 1's left fold from zero of its eight blocks' column sums of squares. -/
theorem row8_sqArr2_apply (c : Dev nD) (j : Fin 128) :
    row8 (sqArr2 V c) (ix2 0 j)
      = Cert.Hand.Spec.fold8 (fun i : Fin 8 => ∑ q : Fin 4096,
        lin2 V c ⟨(1 * 8 + i.val) * 4096 + q.val, by have := i.isLt; have := q.isLt; omega⟩ j
          * lin2 V c ⟨(1 * 8 + i.val) * 4096 + q.val, by have := i.isLt; have := q.isLt; omega⟩ j) := by
  rw [row8_sqArr2, r2sumsq_core1, r2accsq_fold8]
  rw [colsq_blk2 V c t2_8 8 rfl j,
    colsq_blk2 V c t2_9 9 rfl j,
    colsq_blk2 V c t2_10 10 rfl j,
    colsq_blk2 V c t2_11 11 rfl j,
    colsq_blk2 V c t2_12 12 rfl j,
    colsq_blk2 V c t2_13 13 rfl j,
    colsq_blk2 V c t2_14 14 rfl j,
    colsq_blk2 V c t2_15 15 rfl j]
  try rfl

end Cert.KernelIdeal.Hand
-- ==== Proof.Hand.P2i3.lean ====
import proofs.«103476_j5987184410999_2_alg».proof.Proof.Hand.P2v3

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-- Region 3's output function over the extended reals, entry by entry: the scale times the centred entry, times
    the inverse deviation, plus the shift (the operations in the body's order). -/
theorem G3_apply (a0 : S65536x128.Idx → EReal) (a1 a2 a3 a4 : S1x128.Idx → EReal) (r : Fin 65536) (j : Fin 128) :
    G3 (F := Ideal) a0 a1 a2 a3 a4 (ix2 r j) = a3 (ix2 0 j) * (a0 (ix2 r j) - a1 (ix2 0 j)) * a2 (ix2 0 j) + a4 (ix2 0 j) := rfl

/-- The output array of region 3 after the run, at an entry. -/
theorem final3_apply (V : (c : Dev nD) → (b : Ref sig .tc) → Buf (Elt Ideal) ((c : Thread nD τ).loc b)) (c : Dev nD) (r : Fin 65536) (j : Fin 128) :
    (dat3 V c).arrAt 5 cfg3.N (ix2 r j)
      = G3 (F := Ideal) (V c (Pipeline.arrRef spec3 0)) (V c (Pipeline.arrRef spec3 1)) (V c (Pipeline.arrRef spec3 2)) (V c (Pipeline.arrRef spec3 3)) (V c (Pipeline.arrRef spec3 4)) (ix2 r j) :=
  congrFun (final3 V c) (ix2 r j)

end Cert.KernelIdeal.Hand

end
-- ==== Proof.Hand.KerVal1.lean ====
/-
  Network node 1 on the kernel's side, composed: the array the normalisation pass (region 3) leaves is, entry by
  entry, the kernel's reading of the batch normalisation of the perceptron of the launch arguments — provided the
  arguments still hold their launch contents when host stretch 2 starts.
-/
import proofs.«103476_j5987184410999_2_alg».proof.Proof.Hand.ChainDefs1
import proofs.«103476_j5987184410999_2_alg».proof.Proof.Hand.KArgs
import proofs.«103476_j5987184410999_2_alg».proof.Proof.Hand.KerHost2
import proofs.«103476_j5987184410999_2_alg».proof.Proof.Hand.KerHost3
import proofs.«103476_j5987184410999_2_alg».proof.Proof.Hand.Glue
import proofs.«103476_j5987184410999_2_alg».proof.Proof.Hand.P1v2
import proofs.«103476_j5987184410999_2_alg».proof.Proof.Hand.P2i3
import proofs.«103476_j5987184410999_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Hand
open scoped BigOperators

variable (m : (ℓ : Loc nD τ sig) → Buf (Elt Ideal) ℓ) (c : Dev nD)

/-! ## What region 2 is entered from, in terms of the launch arguments -/

/-- Host stretch 2 writes none of the arguments. -/
theorem W5_arg1
    (hargs : ∀ a ∈ ([main_arg0, main_arg1, main_arg2, main_arg3, main_arg4, main_arg5, main_arg6, main_arg7, main_arg8] :
      List (Ref sig .tc)), W4 m c a = m (c, a))
    : W5 m c main_arg1 = W0 m c main_arg1 :=
  (StableHlo.after_of_writes_sub hostOps2 _ hostOps2_writes (by decide)).trans (hargs main_arg1 (by decide))

/-- The perceptron of the five arrays region 2 finds is the perceptron of node 1's launch arguments. -/
theorem lin2_E2
    (hargs : ∀ a ∈ ([main_arg0, main_arg1, main_arg2, main_arg3, main_arg4, main_arg5, main_arg6, main_arg7, main_arg8] :
      List (Ref sig .tc)), W4 m c a = m (c, a))
    :
    lin2 (E2 m) c = Spec.lin (kargs m c).x2 ((kargs m c).W1 1) ((kargs m c).b1 1) ((kargs m c).W2 1) ((kargs m c).b2 1) := by
  have hx : (fun r k => (E2 m c main_arg1 : S65536x256.Idx → EReal) (ix2 r k)) = (kargs m c).x2 := by
    funext r k
    show (W5 m c main_arg1 : S65536x256.Idx → EReal) (ix2 r k) = _
    rw [W5_arg1 m c hargs]; rfl
  have hW1 : (fun k h => (E2 m c main_v34 : S256x256.Idx → EReal) (ix2 k h)) = (kargs m c).W1 1 := by
    funext k h
    refine (h2_v34 (W4 m c) k h).trans ?_
    rw [hargs main_arg2 (by decide)]; rfl
  have hb1 : (fun h => (E2 m c main_v45 : S1x256.Idx → EReal) (ix2 0 h)) = (kargs m c).b1 1 := by
    funext h
    refine (h2_v45 (W4 m c) h).trans ?_
    rw [hargs main_arg3 (by decide)]; rfl
  have hW2 : (fun h j => (E2 m c main_v38 : S256x128.Idx → EReal) (ix2 h j)) = (kargs m c).W2 1 := by
    funext h j
    refine (h2_v38 (W4 m c) h j).trans ?_
    rw [hargs main_arg4 (by decide)]; rfl
  have hb2 : (fun j => (E2 m c main_v46 : S1x128.Idx → EReal) (ix2 0 j)) = (kargs m c).b2 1 := by
    funext j
    refine (h2_v46 (W4 m c) j).trans ?_
    rw [hargs main_arg5 (by decide)]; rfl
  exact congr (congr (congr (congr (congrArg Spec.lin hx) hW1) hb1) hW2) hb2

/-! ## What region 3 is entered from -/

/-- The product array: region 2 left it, host stretch 3 does not write it. -/
theorem W7_y : W7 m c main_v47_0 = yArr2 (E2 m) c := by
  have e1 : W7 m c main_v47_0 = W6 m c main_v47_0 :=
    StableHlo.after_of_writes_sub hostOps3 _ hostOps3_writes (by decide)
  rw [e1]
  exact Pipeline.withArrays_arr spec2 launch2.win.arr_inj c (W5 m c) (GA2 m c) 5

/-- The sums and the sums of squares as region 2 left them. -/
theorem W6_sum : W6 m c main_v47_1 = sumArr2 (E2 m) c :=
  Pipeline.withArrays_arr spec2 launch2.win.arr_inj c (W5 m c) (GA2 m c) 6
theorem W6_sq : W6 m c main_v47_2 = sqArr2 (E2 m) c :=
  Pipeline.withArrays_arr spec2 launch2.win.arr_inj c (W5 m c) (GA2 m c) 7

/-- The scale row: a reshape of the scale vector host stretch 2 sliced out of the arguments. -/
theorem W7_gamma
    (hargs : ∀ a ∈ ([main_arg0, main_arg1, main_arg2, main_arg3, main_arg4, main_arg5, main_arg6, main_arg7, main_arg8] :
      List (Ref sig .tc)), W4 m c a = m (c, a))
    (j : Fin 128) :
    (W7 m c main_v63 : S1x128.Idx → EReal) (ix2 0 j) = (kargs m c).g 1 j := by
  show (StableHlo.after hostOps3 (W6 m c) main_v63 : S1x128.Idx → EReal) (ix2 0 j) = _
  rw [h3_v63 (W6 m c) j]
  have e : W6 m c main_v42 = W5 m c main_v42 :=
    Pipeline.withArrays_of_ne spec2 c (W5 m c) (GA2 m c) main_v42 (by decide)
  rw [e]
  refine (h2_v42 (W4 m c) j).trans ?_
  rw [hargs main_arg6 (by decide)]; rfl

/-- The shift row likewise. -/
theorem W7_beta
    (hargs : ∀ a ∈ ([main_arg0, main_arg1, main_arg2, main_arg3, main_arg4, main_arg5, main_arg6, main_arg7, main_arg8] :
      List (Ref sig .tc)), W4 m c a = m (c, a))
    (j : Fin 128) :
    (W7 m c main_v64 : S1x128.Idx → EReal) (ix2 0 j) = (kargs m c).be 1 j := by
  show (StableHlo.after hostOps3 (W6 m c) main_v64 : S1x128.Idx → EReal) (ix2 0 j) = _
  rw [h3_v64 (W6 m c) j]
  have e : W6 m c main_v44 = W5 m c main_v44 :=
    Pipeline.withArrays_of_ne spec2 c (W5 m c) (GA2 m c) main_v44 (by decide)
  rw [e]
  refine (h2_v44 (W4 m c) j).trans ?_
  rw [hargs main_arg7 (by decide)]; rfl

/-! ## The statistics rows region 2 left, as left folds of block column sums of the perceptron -/

theorem sum2_row0 (j : Fin 128) :
    (W6 m c main_v47_1 : S16x128.Idx → EReal) (ix2 0 j)
      = Spec.fold8 (fun i : Fin 8 => ∑ q : Fin 4096,
        lin2 (E2 m) c ⟨(0 * 8 + i.val) * 4096 + q.val, by have := i.isLt; have := q.isLt; omega⟩ j) := by
  rw [W6_sum]
  exact (row0_apply_r2 (sumArr2 (E2 m) c) (ix2 0 j)).symm.trans (row0_sumArr2_apply (E2 m) c j)

theorem sum2_row8 (j : Fin 128) :
    (W6 m c main_v47_1 : S16x128.Idx → EReal) (ix2 8 j)
      = Spec.fold8 (fun i : Fin 8 => ∑ q : Fin 4096,
        lin2 (E2 m) c ⟨(1 * 8 + i.val) * 4096 + q.val, by have := i.isLt; have := q.isLt; omega⟩ j) := by
  rw [W6_sum]
  exact (row8_apply_r2 (sumArr2 (E2 m) c) (ix2 0 j)).symm.trans (row8_sumArr2_apply (E2 m) c j)

theorem sq2_row0 (j : Fin 128) :
    (W6 m c main_v47_2 : S16x128.Idx → EReal) (ix2 0 j)
      = Spec.fold8 (fun i : Fin 8 => ∑ q : Fin 4096,
        lin2 (E2 m) c ⟨(0 * 8 + i.val) * 4096 + q.val, by have := i.isLt; have := q.isLt; omega⟩ j
          * lin2 (E2 m) c ⟨(0 * 8 + i.val) * 4096 + q.val, by have := i.isLt; have := q.isLt; omega⟩ j) := by
  rw [W6_sq]
  exact (row0_apply_r2 (sqArr2 (E2 m) c) (ix2 0 j)).symm.trans (row0_sqArr2_apply (E2 m) c j)

theorem sq2_row8 (j : Fin 128) :
    (W6 m c main_v47_2 : S16x128.Idx → EReal) (ix2 8 j)
      = Spec.fold8 (fun i : Fin 8 => ∑ q : Fin 4096,
        lin2 (E2 m) c ⟨(1 * 8 + i.val) * 4096 + q.val, by have := i.isLt; have := q.isLt; omega⟩ j
          * lin2 (E2 m) c ⟨(1 * 8 + i.val) * 4096 + q.val, by have := i.isLt; have := q.isLt; omega⟩ j) := by
  rw [W6_sq]
  exact (row8_apply_r2 (sqArr2 (E2 m) c) (ix2 0 j)).symm.trans (row8_sqArr2_apply (E2 m) c j)

/-! ## Node 1 -/

set_option maxHeartbeats 1000000 in
theorem node1
    (hargs : ∀ a ∈ ([main_arg0, main_arg1, main_arg2, main_arg3, main_arg4, main_arg5, main_arg6, main_arg7, main_arg8] :
      List (Ref sig .tc)), W4 m c a = m (c, a))
    (r : Fin 65536) (j : Fin 128) :
    (W8 m c main_v65 : S65536x128.Idx → EReal) (ix2 r j) = Net.k1 (kargs m c) r j := by
  have e8 : W8 m c main_v65 = GA3 m c 5 :=
    Pipeline.withArrays_arr spec3 launch3.win.arr_inj c (W7 m c) (GA3 m c) 5
  rw [e8]
  show (dat3 (E3 m) c).arrAt 5 cfg3.N (ix2 r j) = _
  rw [final3_apply (E3 m) c r j, G3_apply]
  have hg : (E3 m c (Pipeline.arrRef spec3 3) : S1x128.Idx → EReal) (ix2 0 j) = (kargs m c).g 1 j := W7_gamma m c hargs j
  have hb : (E3 m c (Pipeline.arrRef spec3 4) : S1x128.Idx → EReal) (ix2 0 j) = (kargs m c).be 1 j := W7_beta m c hargs j
  have hy : (E3 m c (Pipeline.arrRef spec3 0) : S65536x128.Idx → EReal) (ix2 r j) = lin2 (E2 m) c r j := by
    show (W7 m c main_v47_0 : S65536x128.Idx → EReal) (ix2 r j) = _
    rw [W7_y]; exact yArr2_eq_lin (E2 m) c r j
  have hmean : (E3 m c (Pipeline.arrRef spec3 1) : S1x128.Idx → EReal) (ix2 0 j) = _ :=
    h3_v55 (W6 m c) _ rfl j
  have hinv : (E3 m c (Pipeline.arrRef spec3 2) : S1x128.Idx → EReal) (ix2 0 j) = _ :=
    h3_v62 (W6 m c) _ _ rfl rfl j
  rw [hg, hb, hy, hmean, hinv]
  have key := Glue.pass2_eq (lin2 (E2 m) c) (W6 m c main_v47_1) (W6 m c main_v47_2) ((kargs m c).g 1) ((kargs m c).be 1)
    (sum2_row0 m c) (sum2_row8 m c) (sq2_row0 m c) (sq2_row8 m c) r j
  rw [lin2_E2 m c hargs] at key
  rw [lin2_E2 m c hargs]
  exact key

end Cert.KernelIdeal.Hand

end
-- ==== Proof.Hand.KerHost4.lean ====
/-
  Host stretch 4 of the kernel program read at an index: the two halves of the first weight matrices of nodes 2, 3 and 4, node 2's other parameters, and the first noise array, sliced out of the arguments.
-/
import proofs.«103476_j5987184410999_2_alg».proof.Proof.Hand.KerHostLib

set_option maxRecDepth 1816

noncomputable section

namespace Cert.KernelIdeal.Hand

open Cert.KernelIdeal Cert.KernelIdeal.Gen
open Idealize.ShloMosaic Idealize.ShloMosaic.TcCoe Idealize.ShloMosaic.ValueIdx

/-! ## Stretch 4: the halves of the first weight matrices of nodes 2, 3 and 4; node 2's other parameters; noise 0 -/

section Even
variable {F : FTy → Type} [FloatOps F]

theorem h4_v67 (V : Valuation τ sig (Elt F)) (k : Fin 128) (h : Fin 256) :
    (StableHlo.after hostOps4 V main_v67 : (⟨S128x256, .f32⟩ : BufTy).Contents (Elt F)) (ix2 k h)
      = (V main_arg2 : (⟨S5x256x256, .f32⟩ : BufTy).Contents (Elt F)) (ix3 2 ⟨0 + k.val, by have := k.isLt; omega⟩ h) := by
  have e : (StableHlo.after hostOps4 V main_v67 : (⟨S128x256, .f32⟩ : BufTy).Contents (Elt F))
      = shapeCast S128x256 (extractStridedSlice S1x128x256 ![2, 0, 0] (V main_arg2) slices_S5x256x256_S1x128x256_2_0_0)
          shapeCasts_S1x128x256_S128x256 := by
    simp only [hostOps4]; after_results <;> rfl
  rw [e]; exact W1half_apply 2 0 (by omega) (by omega) _ _ _ k h

theorem h4_v69 (V : Valuation τ sig (Elt F)) (k : Fin 128) (h : Fin 256) :
    (StableHlo.after hostOps4 V main_v69 : (⟨S128x256, .f32⟩ : BufTy).Contents (Elt F)) (ix2 k h)
      = (V main_arg2 : (⟨S5x256x256, .f32⟩ : BufTy).Contents (Elt F)) (ix3 2 ⟨128 + k.val, by have := k.isLt; omega⟩ h) := by
  have e : (StableHlo.after hostOps4 V main_v69 : (⟨S128x256, .f32⟩ : BufTy).Contents (Elt F))
      = shapeCast S128x256 (extractStridedSlice S1x128x256 ![2, 128, 0] (V main_arg2) slices_S5x256x256_S1x128x256_2_128_0)
          shapeCasts_S1x128x256_S128x256 := by
    simp only [hostOps4]; after_results <;> rfl
  rw [e]; exact W1half_apply 2 128 (by omega) (by omega) _ _ _ k h

theorem h4_v71 (V : Valuation τ sig (Elt F)) (k : Fin 128) (h : Fin 256) :
    (StableHlo.after hostOps4 V main_v71 : (⟨S128x256, .f32⟩ : BufTy).Contents (Elt F)) (ix2 k h)
      = (V main_arg2 : (⟨S5x256x256, .f32⟩ : BufTy).Contents (Elt F)) (ix3 3 ⟨0 + k.val, by have := k.isLt; omega⟩ h) := by
  have e : (StableHlo.after hostOps4 V main_v71 : (⟨S128x256, .f32⟩ : BufTy).Contents (Elt F))
      = shapeCast S128x256 (extractStridedSlice S1x128x256 ![3, 0, 0] (V main_arg2) slices_S5x256x256_S1x128x256_3_0_0)
          shapeCasts_S1x128x256_S128x256 := by
    simp only [hostOps4]; after_results <;> rfl
  rw [e]; exact W1half_apply 3 0 (by omega) (by omega) _ _ _ k h

theorem h4_v73 (V : Valuation τ sig (Elt F)) (k : Fin 128) (h : Fin 256) :
    (StableHlo.after hostOps4 V main_v73 : (⟨S128x256, .f32⟩ : BufTy).Contents (Elt F)) (ix2 k h)
      = (V main_arg2 : (⟨S5x256x256, .f32⟩ : BufTy).Contents (Elt F)) (ix3 3 ⟨128 + k.val, by have := k.isLt; omega⟩ h) := by
  have e : (StableHlo.after hostOps4 V main_v73 : (⟨S128x256, .f32⟩ : BufTy).Contents (Elt F))
      = shapeCast S128x256 (extractStridedSlice S1x128x256 ![3, 128, 0] (V main_arg2) slices_S5x256x256_S1x128x256_3_128_0)
          shapeCasts_S1x128x256_S128x256 := by
    simp only [hostOps4]; after_results <;> rfl
  rw [e]; exact W1half_apply 3 128 (by omega) (by omega) _ _ _ k h

theorem h4_v75 (V : Valuation τ sig (Elt F)) (k : Fin 128) (h : Fin 256) :
    (StableHlo.after hostOps4 V main_v75 : (⟨S128x256, .f32⟩ : BufTy).Contents (Elt F)) (ix2 k h)
      = (V main_arg2 : (⟨S5x256x256, .f32⟩ : BufTy).Contents (Elt F)) (ix3 4 ⟨0 + k.val, by have := k.isLt; omega⟩ h) := by
  have e : (StableHlo.after hostOps4 V main_v75 : (⟨S128x256, .f32⟩ : BufTy).Contents (Elt F))
      = shapeCast S128x256 (extractStridedSlice S1x128x256 ![4, 0, 0] (V main_arg2) slices_S5x256x256_S1x128x256_4_0_0)
          shapeCasts_S1x128x256_S128x256 := by
    simp only [hostOps4]; after_results <;> rfl
  rw [e]; exact W1half_apply 4 0 (by omega) (by omega) _ _ _ k h

theorem h4_v77 (V : Valuation τ sig (Elt F)) (k : Fin 128) (h : Fin 256) :
    (StableHlo.after hostOps4 V main_v77 : (⟨S128x256, .f32⟩ : BufTy).Contents (Elt F)) (ix2 k h)
      = (V main_arg2 : (⟨S5x256x256, .f32⟩ : BufTy).Contents (Elt F)) (ix3 4 ⟨128 + k.val, by have := k.isLt; omega⟩ h) := by
  have e : (StableHlo.after hostOps4 V main_v77 : (⟨S128x256, .f32⟩ : BufTy).Contents (Elt F))
      = shapeCast S128x256 (extractStridedSlice S1x128x256 ![4, 128, 0] (V main_arg2) slices_S5x256x256_S1x128x256_4_128_0)
          shapeCasts_S1x128x256_S128x256 := by
    simp only [hostOps4]; after_results <;> rfl
  rw [e]; exact W1half_apply 4 128 (by omega) (by omega) _ _ _ k h

theorem h4_v90 (V : Valuation τ sig (Elt F)) (h : Fin 256) :
    (StableHlo.after hostOps4 V main_v90 : (⟨S1x256, .f32⟩ : BufTy).Contents (Elt F)) (ix2 0 h)
      = (V main_arg3 : (⟨S5x256, .f32⟩ : BufTy).Contents (Elt F)) (ix2 2 h) := by
  have e : (StableHlo.after hostOps4 V main_v90 : (⟨S1x256, .f32⟩ : BufTy).Contents (Elt F))
      = shapeCast S1x256 (shapeCast S256 (extractStridedSlice S1x256 ![2, 0] (V main_arg3) slices_S5x256_S1x256_2_0)
          shapeCasts_S1x256_S256) shapeCasts_S256_S1x256 := by
    simp only [hostOps4]; after_results <;> rfl
  rw [e, unsq256_apply]; exact row256_apply 2 (by omega) _ _ _ h

theorem h4_v81 (V : Valuation τ sig (Elt F)) (h : Fin 256) (j : Fin 128) :
    (StableHlo.after hostOps4 V main_v81 : (⟨S256x128, .f32⟩ : BufTy).Contents (Elt F)) (ix2 h j)
      = (V main_arg4 : (⟨S5x256x128, .f32⟩ : BufTy).Contents (Elt F)) (ix3 2 h j) := by
  have e : (StableHlo.after hostOps4 V main_v81 : (⟨S256x128, .f32⟩ : BufTy).Contents (Elt F))
      = shapeCast S256x128 (extractStridedSlice S1x256x128 ![2, 0, 0] (V main_arg4) slices_S5x256x128_S1x256x128_2_0_0)
          shapeCasts_S1x256x128_S256x128 := by
    simp only [hostOps4]; after_results <;> rfl
  rw [e]; exact W2_apply 2 (by omega) _ _ _ h j

theorem h4_v91 (V : Valuation τ sig (Elt F)) (j : Fin 128) :
    (StableHlo.after hostOps4 V main_v91 : (⟨S1x128, .f32⟩ : BufTy).Contents (Elt F)) (ix2 0 j)
      = (V main_arg5 : (⟨S5x128, .f32⟩ : BufTy).Contents (Elt F)) (ix2 2 j) := by
  have e : (StableHlo.after hostOps4 V main_v91 : (⟨S1x128, .f32⟩ : BufTy).Contents (Elt F))
      = shapeCast S1x128 (shapeCast S128 (extractStridedSlice S1x128 ![2, 0] (V main_arg5) slices_S5x128_S1x128_2_0)
          shapeCasts_S1x128_S128) shapeCasts_S128_S1x128 := by
    simp only [hostOps4]; after_results <;> rfl
  rw [e, unsq128_apply]; exact row128_apply 2 (by omega) _ _ _ j

theorem h4_v85 (V : Valuation τ sig (Elt F)) (j : Fin 128) :
    (StableHlo.after hostOps4 V main_v85 : (⟨S128, .f32⟩ : BufTy).Contents (Elt F)) (ix1 j)
      = (V main_arg6 : (⟨S5x128, .f32⟩ : BufTy).Contents (Elt F)) (ix2 2 j) := by
  have e : (StableHlo.after hostOps4 V main_v85 : (⟨S128, .f32⟩ : BufTy).Contents (Elt F))
      = shapeCast S128 (extractStridedSlice S1x128 ![2, 0] (V main_arg6) slices_S5x128_S1x128_2_0) shapeCasts_S1x128_S128 := by
    simp only [hostOps4]; after_results <;> rfl
  rw [e]; exact row128_apply 2 (by omega) _ _ _ j

theorem h4_v87 (V : Valuation τ sig (Elt F)) (j : Fin 128) :
    (StableHlo.after hostOps4 V main_v87 : (⟨S128, .f32⟩ : BufTy).Contents (Elt F)) (ix1 j)
      = (V main_arg7 : (⟨S5x128, .f32⟩ : BufTy).Contents (Elt F)) (ix2 2 j) := by
  have e : (StableHlo.after hostOps4 V main_v87 : (⟨S128, .f32⟩ : BufTy).Contents (Elt F))
      = shapeCast S128 (extractStridedSlice S1x128 ![2, 0] (V main_arg7) slices_S5x128_S1x128_2_0) shapeCasts_S1x128_S128 := by
    simp only [hostOps4]; after_results <;> rfl
  rw [e]; exact row128_apply 2 (by omega) _ _ _ j

theorem h4_v89 (V : Valuation τ sig (Elt F)) (r : Fin 65536) (j : Fin 128) :
    (StableHlo.after hostOps4 V main_v89 : (⟨S65536x128, .f32⟩ : BufTy).Contents (Elt F)) (ix2 r j)
      = (V main_arg8 : (⟨S3x65536x128, .f32⟩ : BufTy).Contents (Elt F)) (ix3 0 r j) := by
  have e : (StableHlo.after hostOps4 V main_v89 : (⟨S65536x128, .f32⟩ : BufTy).Contents (Elt F))
      = shapeCast S65536x128 (extractStridedSlice S1x65536x128 ![0, 0, 0] (V main_arg8) slices_S3x65536x128_S1x65536x128_0_0_0)
          shapeCasts_S1x65536x128_S65536x128 := by
    simp only [hostOps4]; after_results <;> rfl
  rw [e]; exact noise_apply 0 (by omega) _ _ _ r j

end Even

end Cert.KernelIdeal.Hand
-- ==== Proof.Hand.KerHost5.lean ====
/-
  Host stretch 5 of the kernel program read at an index: node 2's batch mean and reciprocal standard deviation from the two cores' partial sums, and its scale and shift as rows.
-/
import proofs.«103476_j5987184410999_2_alg».proof.Proof.Hand.KerHostLib

set_option maxRecDepth 1816

noncomputable section

namespace Cert.KernelIdeal.Hand

open Cert.KernelIdeal Cert.KernelIdeal.Gen
open Idealize.ShloMosaic Idealize.ShloMosaic.TcCoe Idealize.ShloMosaic.ValueIdx
/-! ## Stretch 5: node 2's statistics, scale and shift -/

section Odd
open Cert.Hand.Spec (N eps)

theorem h5_v100 (V : Valuation τ sig (Elt Ideal)) (s1 : S16x128.Idx → EReal) (h1 : V main_v92_1 = s1) (j : Fin 128) :
    (StableHlo.after hostOps5 V main_v100 : S1x128.Idx → EReal) (ix2 0 j)
      = Ideal.div (s1 (ix2 0 j) + s1 (ix2 8 j)) N := by
  subst h1
  have e : (StableHlo.after hostOps5 V main_v100 : S1x128.Idx → EReal)
      = (Host.divf (addf (extractStridedSlice S1x128 ![0, 0] (V main_v92_1 : FVec Ideal S16x128 .f32) slices_S16x128_S1x128_0_0)
            (extractStridedSlice S1x128 ![8, 0] (V main_v92_1 : FVec Ideal S16x128 .f32) slices_S16x128_S1x128_8_0))
          (broadcastInDim S1x128 ![] bcast_S_S1x128 (constant (F := Ideal) S_ .f32 0x47800000#32)) : FVec Ideal S1x128 .f32) := by
    simp only [hostOps5]; after_results <;> rfl
  rw [e]; exact mean_apply _ _ _ _ j

set_option maxHeartbeats 400000 in
theorem h5_v107 (V : Valuation τ sig (Elt Ideal)) (s1 s2 : S16x128.Idx → EReal) (h1 : V main_v92_1 = s1) (h2 : V main_v92_2 = s2)
    (j : Fin 128) :
    (StableHlo.after hostOps5 V main_v107 : S1x128.Idx → EReal) (ix2 0 j)
      = Ideal.rsqrt ((Ideal.div (s2 (ix2 0 j) + s2 (ix2 8 j)) N
          - Ideal.div (s1 (ix2 0 j) + s1 (ix2 8 j)) N * Ideal.div (s1 (ix2 0 j) + s1 (ix2 8 j)) N) + eps) := by
  subst h1 h2
  have e : (StableHlo.after hostOps5 V main_v107 : S1x128.Idx → EReal)
      = (Host.rsqrt (addf (subf
          (Host.divf (addf (extractStridedSlice S1x128 ![0, 0] (V main_v92_2 : FVec Ideal S16x128 .f32) slices_S16x128_S1x128_0_0)
              (extractStridedSlice S1x128 ![8, 0] (V main_v92_2 : FVec Ideal S16x128 .f32) slices_S16x128_S1x128_8_0))
            (broadcastInDim S1x128 ![] bcast_S_S1x128 (constant (F := Ideal) S_ .f32 0x47800000#32)))
          (mulf
            (Host.divf (addf (extractStridedSlice S1x128 ![0, 0] (V main_v92_1 : FVec Ideal S16x128 .f32) slices_S16x128_S1x128_0_0)
                (extractStridedSlice S1x128 ![8, 0] (V main_v92_1 : FVec Ideal S16x128 .f32) slices_S16x128_S1x128_8_0))
              (broadcastInDim S1x128 ![] bcast_S_S1x128 (constant (F := Ideal) S_ .f32 0x47800000#32)))
            (Host.divf (addf (extractStridedSlice S1x128 ![0, 0] (V main_v92_1 : FVec Ideal S16x128 .f32) slices_S16x128_S1x128_0_0)
                (extractStridedSlice S1x128 ![8, 0] (V main_v92_1 : FVec Ideal S16x128 .f32) slices_S16x128_S1x128_8_0))
              (broadcastInDim S1x128 ![] bcast_S_S1x128 (constant (F := Ideal) S_ .f32 0x47800000#32)))))
          (broadcastInDim S1x128 ![] bcast_S_S1x128 (constant (F := Ideal) S_ .f32 0x3727C5AC#32))) : FVec Ideal S1x128 .f32) := by
    simp only [hostOps5]; after_results_simp <;> rfl
  rw [e]; exact invstd_apply _ _ _ _ _ j

theorem h5_v108 (V : Valuation τ sig (Elt Ideal)) (j : Fin 128) :
    (StableHlo.after hostOps5 V main_v108 : S1x128.Idx → EReal) (ix2 0 j) = (V main_v85 : S128.Idx → EReal) (ix1 j) := by
  have e : (StableHlo.after hostOps5 V main_v108 : S1x128.Idx → EReal)
      = shapeCast S1x128 (V main_v85 : S128.Idx → EReal) shapeCasts_S128_S1x128 := by
    simp only [hostOps5]; after_results <;> rfl
  rw [e]; exact unsq128_apply _ _ j

theorem h5_v109 (V : Valuation τ sig (Elt Ideal)) (j : Fin 128) :
    (StableHlo.after hostOps5 V main_v109 : S1x128.Idx → EReal) (ix2 0 j) = (V main_v87 : S128.Idx → EReal) (ix1 j) := by
  have e : (StableHlo.after hostOps5 V main_v109 : S1x128.Idx → EReal)
      = shapeCast S1x128 (V main_v87 : S128.Idx → EReal) shapeCasts_S128_S1x128 := by
    simp only [hostOps5]; after_results <;> rfl
  rw [e]; exact unsq128_apply _ _ j

end Odd

end Cert.KernelIdeal.Hand
-- ==== Proof.Hand.PayIdx4.lean ====
import proofs.«103476_j5987184410999_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx
open scoped BigOperators

/-! # The first-pass body of region 4 read at an index, at the ideal values

  The body's output block is `relu (xa·Wa + xb·Wb + b1)·W2 + b2`: the first layer's product is taken in two halves
  of the contracted axis, each a matrix product read as the sum over its contracted coordinate; a bias row is laid
  along every row, and the maximum with zero taken; the format changes around the products are the identity at the
  ideal values. Its two statistics rows are the rows found plus the column sums of the block and of its square. -/

/-! ## The matrix products -/

/-- The left operand's row coordinate is the output's. -/
private theorem lhs_C_0 (i : S4096x256.Idx) (c : dot_S4096x128_S128x256_S4096x256_1_0_0_1_n_n.contr.Idx) :
    (dot_S4096x128_S128x256_S4096x256_1_0_0_1_n_n.lhsIdx i c 0).val = (i 0).val := by
  unfold DotDims.lhsIdx
  rw [dif_neg (show ¬(0 : Fin S4096x128.rank) ∈ dot_S4096x128_S128x256_S4096x256_1_0_0_1_n_n.lhsBatch by decide),
    dif_pos (show (0 : Fin S4096x128.rank) ∈ dot_S4096x128_S128x256_S4096x256_1_0_0_1_n_n.lhsNonContracting by decide)]
  rfl
/-- The left operand's column coordinate is the contraction's. -/
private theorem lhs_C_1 (i : S4096x256.Idx) (c : dot_S4096x128_S128x256_S4096x256_1_0_0_1_n_n.contr.Idx) :
    (dot_S4096x128_S128x256_S4096x256_1_0_0_1_n_n.lhsIdx i c 1).val = (c ⟨0, by decide⟩).val :=
  dot_S4096x128_S128x256_S4096x256_1_0_0_1_n_n.lhsIdx_val_of_single rfl i c
/-- The right operand's row coordinate is the contraction's. -/
private theorem rhs_C_0 (i : S4096x256.Idx) (c : dot_S4096x128_S128x256_S4096x256_1_0_0_1_n_n.contr.Idx) :
    (dot_S4096x128_S128x256_S4096x256_1_0_0_1_n_n.rhsIdx i c 0).val = (c ⟨0, by decide⟩).val :=
  dot_S4096x128_S128x256_S4096x256_1_0_0_1_n_n.rhsIdx_val_of_single rfl i c
/-- The right operand's column coordinate is the output's. -/
private theorem rhs_C_1 (i : S4096x256.Idx) (c : dot_S4096x128_S128x256_S4096x256_1_0_0_1_n_n.contr.Idx) :
    (dot_S4096x128_S128x256_S4096x256_1_0_0_1_n_n.rhsIdx i c 1).val = (i 1).val := by
  unfold DotDims.rhsIdx
  rw [dif_neg (show ¬(1 : Fin S128x256.rank) ∈ dot_S4096x128_S128x256_S4096x256_1_0_0_1_n_n.rhsBatch by decide),
    dif_pos (show (1 : Fin S128x256.rank) ∈ dot_S4096x128_S128x256_S4096x256_1_0_0_1_n_n.rhsNonContracting by decide)]
  rfl

/-- The [4096,128] by [128,256] product accumulated into the zero splat, read at (q, h): the sum over the
    contracted coordinate of the entries' products. -/
private theorem matmul_C_apply {φ₁ φ₂ : FTy} (A : FVec Ideal S4096x128 φ₁) (B : FVec Ideal S128x256 φ₂) (q : Fin 4096) (h : Fin 256) :
    matmul dot_S4096x128_S128x256_S4096x256_1_0_0_1_n_n none A B (constant (F := Ideal) S4096x256 .f32 0x00000000#32) (ix2 q h)
      = ∑ k : Fin 128, A (ix2 q k) * B (ix2 k h) := by
  show FloatOps.matmul dot_S4096x128_S128x256_S4096x256_1_0_0_1_n_n none A B (constant S4096x256 .f32 0x00000000#32) (ix2 q h) = _
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 q h) ((contrEquiv1 dot_S4096x128_S128x256_S4096x256_1_0_0_1_n_n 128 rfl rfl).symm k) = ix2 q k :=
    funext fun a => Fin.ext (by
      match a with
      | ⟨0, _⟩ => exact lhs_C_0 _ _
      | ⟨1, _⟩ => exact (lhs_C_1 _ _).trans hk)
  have er : dot_S4096x128_S128x256_S4096x256_1_0_0_1_n_n.rhsIdx (ix2 q h) ((contrEquiv1 dot_S4096x128_S128x256_S4096x256_1_0_0_1_n_n 128 rfl rfl).symm k) = ix2 k h :=
    funext fun a => Fin.ext (by
      match a with
      | ⟨0, _⟩ => exact (rhs_C_0 _ _).trans hk
      | ⟨1, _⟩ => exact rhs_C_1 _ _)
  rw [el, er]

/-- The left operand's row coordinate is the output's. -/
private theorem lhs_B_0 (i : S4096x128.Idx) (c : dot_S4096x256_S256x128_S4096x128_1_0_0_1_n_n.contr.Idx) :
    (dot_S4096x256_S256x128_S4096x128_1_0_0_1_n_n.lhsIdx i c 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl
/-- The left operand's column coordinate is the contraction's. -/
private theorem lhs_B_1 (i : S4096x128.Idx) (c : dot_S4096x256_S256x128_S4096x128_1_0_0_1_n_n.contr.Idx) :
    (dot_S4096x256_S256x128_S4096x128_1_0_0_1_n_n.lhsIdx i c 1).val = (c ⟨0, by decide⟩).val :=
  dot_S4096x256_S256x128_S4096x128_1_0_0_1_n_n.lhsIdx_val_of_single rfl i c
/-- The right operand's row coordinate is the contraction's. -/
private theorem rhs_B_0 (i : S4096x128.Idx) (c : dot_S4096x256_S256x128_S4096x128_1_0_0_1_n_n.contr.Idx) :
    (dot_S4096x256_S256x128_S4096x128_1_0_0_1_n_n.rhsIdx i c 0).val = (c ⟨0, by decide⟩).val :=
  dot_S4096x256_S256x128_S4096x128_1_0_0_1_n_n.rhsIdx_val_of_single rfl i c
/-- The right operand's column coordinate is the output's. -/
private theorem rhs_B_1 (i : S4096x128.Idx) (c : dot_S4096x256_S256x128_S4096x128_1_0_0_1_n_n.contr.Idx) :
    (dot_S4096x256_S256x128_S4096x128_1_0_0_1_n_n.rhsIdx i c 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- The [4096,256] by [256,128] product accumulated into the zero splat, read at (q, h): the sum over the
    contracted coordinate of the entries' products. -/
private theorem matmul_B_apply {φ₁ φ₂ : FTy} (A : FVec Ideal S4096x256 φ₁) (B : FVec Ideal S256x128 φ₂) (q : Fin 4096) (h : Fin 128) :
    matmul dot_S4096x256_S256x128_S4096x128_1_0_0_1_n_n none A B (constant (F := Ideal) S4096x128 .f32 0x00000000#32) (ix2 q h)
      = ∑ k : Fin 256, A (ix2 q k) * B (ix2 k h) := by
  show FloatOps.matmul dot_S4096x256_S256x128_S4096x128_1_0_0_1_n_n none A B (constant S4096x128 .f32 0x00000000#32) (ix2 q h) = _
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 q h) ((contrEquiv1 dot_S4096x256_S256x128_S4096x128_1_0_0_1_n_n 256 rfl rfl).symm k) = ix2 q k :=
    funext fun a => Fin.ext (by
      match a with
      | ⟨0, _⟩ => exact lhs_B_0 _ _
      | ⟨1, _⟩ => exact (lhs_B_1 _ _).trans hk)
  have er : dot_S4096x256_S256x128_S4096x128_1_0_0_1_n_n.rhsIdx (ix2 q h) ((contrEquiv1 dot_S4096x256_S256x128_S4096x128_1_0_0_1_n_n 256 rfl rfl).symm k) = ix2 k h :=
    funext fun a => Fin.ext (by
      match a with
      | ⟨0, _⟩ => exact (rhs_B_0 _ _).trans hk
      | ⟨1, _⟩ => exact rhs_B_1 _ _)
  rw [el, er]

/-! ## The output block -/

theorem k4_pay5_apply (xa xb : Vec Ideal S4096x128 .f32) (wa wb : Vec Ideal S128x256 .f32) (b1 : Vec Ideal S1x256 .f32)
    (w2 : Vec Ideal S256x128 .f32) (b2 : Vec Ideal S1x128 .f32) (q : Fin 4096) (j : Fin 128) :
    k4_pay5 (F := Ideal) xa xb wa wb b1 w2 b2 (ix2 q j)
      = (∑ h : Fin 256, max (((∑ k : Fin 128, xa (ix2 q k) * wa (ix2 k h)) + (∑ k : Fin 128, xb (ix2 q k) * wb (ix2 k h)))
            + b1 (ix2 0 h)) 0 * w2 (ix2 h j)) + b2 (ix2 0 j) := by
  unfold k4_pay5
  simp only [shapeCast_self]
  refine (addf_apply _ _ _).trans ?_
  refine congrArg₂ (· + ·) ?_ ?_
  · refine (matmul_B_apply _ _ q j).trans ?_
    refine Finset.sum_congr rfl fun h _ => ?_
    refine congrArg₂ (· * ·) ?_ rfl
    refine (truncf_apply (φ := .f32) (ψ := .bf16) _ bitsLt_bf16_f32 _).trans ?_
    refine (maximumf_apply _ _ _).trans ?_
    refine congrArg₂ max ?_ ?_
    · refine (addf_apply _ _ _).trans ?_
      refine congrArg₂ (· + ·) ?_ ?_
      · refine (addf_apply _ _ _).trans ?_
        refine congrArg₂ (· + ·) ?_ ?_
        · exact matmul_C_apply _ _ q h
        · exact matmul_C_apply _ _ q h
      · exact broadcastTo_1b_ab_apply _ _ q h
    · exact Ideal.ofBits_zero_f32
  · exact broadcastTo_1b_ab_apply _ _ q j

/-! ## The statistics rows -/

/-- The sum over the 4096 rows of a [4096,128] block, read at lane j (the accumulator is the neutral zero, which the
    reading drops). -/
private theorem colsum_apply (y : Vec Ideal S4096x128 .f32) (j : Fin 128) :
    multiReduction (F := Ideal) .add [0] S128 y 0x00000000#32 reduces_S4096x128_S128 (.inl rfl) rfl (ix1 j)
      = ∑ q : Fin 4096, y (ix2 q j) := by
  refine (Ideal.multiReduction_add_single y 0x00000000#32 reduces_S4096x128_S128 (.inl rfl) rfl (ix1 j)).trans ?_
  refine Finset.sum_congr rfl fun q _ => ?_
  refine congrArg y (funext fun a => Fin.ext ?_)
  match a with
  | ⟨0, _⟩ => rfl
  | ⟨1, _⟩ => rfl

/-- The row a first-pass body leaves in its statistics block: the row it found plus the column sums of the block. -/
private theorem rowAcc_apply (r : Vec Ideal S1x128 .f32) (y : Vec Ideal S4096x128 .f32) (j : Fin 128) :
    addf (shapeCast S1x128 r shapeCasts_S1x128_S1x128)
        (shapeCast S1x128 (multiReduction (F := Ideal) .add [0] S128 y 0x00000000#32 reduces_S4096x128_S128 (.inl rfl) rfl) shapeCasts_S128_S1x128)
        (ix2 0 j)
      = r (ix2 0 j) + ∑ q : Fin 4096, y (ix2 q j) := by
  refine (addf_apply _ _ _).trans ?_
  refine congrArg₂ (· + ·) ?_ ?_
  · rw [shapeCast_self]
  · exact (shapeCast_a_1a_apply _ shapeCasts_S128_S1x128 0 j).trans (colsum_apply y j)

theorem k4_pay1_apply (y : FVec Ideal S4096x128 .f32) (r : Vec Ideal S1x128 .f32) (j : Fin 128) :
    k4_pay1 (F := Ideal) y r (ix2 0 j) = r (ix2 0 j) + ∑ q : Fin 4096, y (ix2 q j) := by
  unfold k4_pay1
  exact rowAcc_apply r y j

theorem k4_pay2_apply (y : FVec Ideal S4096x128 .f32) (r : Vec Ideal S1x128 .f32) (j : Fin 128) :
    k4_pay2 (F := Ideal) y r (ix2 0 j) = r (ix2 0 j) + ∑ q : Fin 4096, y (ix2 q j) * y (ix2 q j) := by
  unfold k4_pay2
  exact rowAcc_apply r (mulf y y) j

/-- The two rows a core's first step writes: zero everywhere. -/
theorem k4_pay3_apply (i : S1x128.Idx) : k4_pay3 (F := Ideal) i = 0 := Ideal.ofBits_zero_f32
theorem k4_pay4_apply (i : S1x128.Idx) : k4_pay4 (F := Ideal) i = 0 := Ideal.ofBits_zero_f32

end Cert.KernelIdeal.Hand
-- ==== Proof.Hand.P1v4.lean ====
import proofs.«103476_j5987184410999_2_alg».proof.Proof.Hand.P1r4
import proofs.«103476_j5987184410999_2_alg».proof.Proof.Hand.P1r4Arr
import proofs.«103476_j5987184410999_2_alg».proof.Proof.Hand.PayIdx4
import proofs.«103476_j5987184410999_2_alg».proof.Proof.Hand.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

/-! # Region 4's values at the ideal instance, index by index, for arbitrary entry contents

  The seven input blocks of a point are read off the arrays the region finds: the two x blocks of point `t` are rows
  `4096 t …` of their [65536,128] arrays, the five parameter blocks are their whole arrays. With them the body's
  output block at point `t` is the perceptron's rows `4096 t …`, its first layer contracted in two halves — stated
  against any [256,256] first weight whose upper and lower halves are the two [128,256] arrays the region reads —, and
  a core's statistics row is the left fold from zero of its eight blocks' column sums. -/

/-! ## The input blocks -/

/-- The printed index maps, decided over the grid: windows 0 and 1 move one block of rows a point, the parameter
    windows stay at block (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- The block of window 0 at point `t`, read at (q, k): the array at row `4096 t + q`. -/
theorem iblk4_0_apply (c : Dev nD) (t : Fin cfg4.N) (q : Fin 4096) (r : Fin 65536)
    (hr : r.val = t.val * 4096 + q.val) (k : Fin 128) :
    iblk4 V c 0 t (ix2 q k) = (V c main_v32 : S65536x128.Idx → EReal) (ix2 r k) := by
  obtain ⟨e00, e01, e10, e11, -⟩ := idx_facts4 t
  unfold iblk4
  rw [View.read_apply]
  show V c main_v32 (((cfg4.win 0).blk t).view.emb (ix2 q k)) = V c main_v32 (ix2 r k)
  refine congrArg (V c main_v32) (funext fun a => Fin.ext ?_)
  match a with
  | ⟨0, _⟩ => show win4_0.index t (0 : Fin 2) * 4096 + 1 * q.val = r.val; omega
  | ⟨1, _⟩ => show win4_0.index t (1 : Fin 2) * 128 + 1 * k.val = k.val; omega

/-- The block of window 1 at point `t`, read at (q, k): the array at row `4096 t + q`. -/
theorem iblk4_1_apply (c : Dev nD) (t : Fin cfg4.N) (q : Fin 4096) (r : Fin 65536)
    (hr : r.val = t.val * 4096 + q.val) (k : Fin 128) :
    iblk4 V c 1 t (ix2 q k) = (V c main_v65 : S65536x128.Idx → EReal) (ix2 r k) := by
  obtain ⟨e00, e01, e10, e11, -⟩ := idx_facts4 t
  unfold iblk4
  rw [View.read_apply]
  show V c main_v65 (((cfg4.win 1).blk t).view.emb (ix2 q k)) = V c main_v65 (ix2 r k)
  refine congrArg (V c main_v65) (funext fun a => Fin.ext ?_)
  match a with
  | ⟨0, _⟩ => show win4_1.index t (0 : Fin 2) * 4096 + 1 * q.val = r.val; omega
  | ⟨1, _⟩ => show win4_1.index t (1 : Fin 2) * 128 + 1 * k.val = k.val; omega

theorem iblk4_2_apply (c : Dev nD) (t : Fin cfg4.N) (k : Fin 128) (h : Fin 256) :
    iblk4 V c 2 t (ix2 k h) = (V c main_v67 : S128x256.Idx → EReal) (ix2 k h) := by
  obtain ⟨-, -, -, -, e20, e21, e30, e31, e40, e41, e50, e51, e60, e61⟩ := idx_facts4 t
  unfold iblk4
  rw [View.read_apply]
  show V c main_v67 (((cfg4.win 2).blk t).view.emb (ix2 k h)) = V c main_v67 (ix2 k h)
  refine congrArg (V c main_v67) (funext fun a => Fin.ext ?_)
  match a with
  | ⟨0, _⟩ => show win4_2.index t (0 : Fin 2) * 128 + 1 * k.val = k.val; omega
  | ⟨1, _⟩ => show win4_2.index t (1 : Fin 2) * 256 + 1 * h.val = h.val; omega

theorem iblk4_3_apply (c : Dev nD) (t : Fin cfg4.N) (k : Fin 128) (h : Fin 256) :
    iblk4 V c 3 t (ix2 k h) = (V c main_v69 : S128x256.Idx → EReal) (ix2 k h) := by
  obtain ⟨-, -, -, -, e20, e21, e30, e31, e40, e41, e50, e51, e60, e61⟩ := idx_facts4 t
  unfold iblk4
  rw [View.read_apply]
  show V c main_v69 (((cfg4.win 3).blk t).view.emb (ix2 k h)) = V c main_v69 (ix2 k h)
  refine congrArg (V c main_v69) (funext fun a => Fin.ext ?_)
  match a with
  | ⟨0, _⟩ => show win4_3.index t (0 : Fin 2) * 128 + 1 * k.val = k.val; omega
  | ⟨1, _⟩ => show win4_3.index t (1 : Fin 2) * 256 + 1 * h.val = h.val; omega

theorem iblk4_4_apply (c : Dev nD) (t : Fin cfg4.N) (u : Fin 1) (h : Fin 256) :
    iblk4 V c 4 t (ix2 u h) = (V c main_v90 : S1x256.Idx → EReal) (ix2 u h) := by
  obtain ⟨-, -, -, -, e20, e21, e30, e31, e40, e41, e50, e51, e60, e61⟩ := idx_facts4 t
  unfold iblk4
  rw [View.read_apply]
  show V c main_v90 (((cfg4.win 4).blk t).view.emb (ix2 u h)) = V c main_v90 (ix2 u h)
  refine congrArg (V c main_v90) (funext fun a => Fin.ext ?_)
  match a with
  | ⟨0, _⟩ => show win4_4.index t (0 : Fin 2) * 1 + 1 * u.val = u.val; omega
  | ⟨1, _⟩ => show win4_4.index t (1 : Fin 2) * 256 + 1 * h.val = h.val; omega

theorem iblk4_5_apply (c : Dev nD) (t : Fin cfg4.N) (h : Fin 256) (j : Fin 128) :
    iblk4 V c 5 t (ix2 h j) = (V c main_v81 : S256x128.Idx → EReal) (ix2 h j) := by
  obtain ⟨-, -, -, -, e20, e21, e30, e31, e40, e41, e50, e51, e60, e61⟩ := idx_facts4 t
  unfold iblk4
  rw [View.read_apply]
  show V c main_v81 (((cfg4.win 5).blk t).view.emb (ix2 h j)) = V c main_v81 (ix2 h j)
  refine congrArg (V c main_v81) (funext fun a => Fin.ext ?_)
  match a with
  | ⟨0, _⟩ => show win4_5.index t (0 : Fin 2) * 256 + 1 * h.val = h.val; omega
  | ⟨1, _⟩ => show win4_5.index t (1 : Fin 2) * 128 + 1 * j.val = j.val; omega

theorem iblk4_6_apply (c : Dev nD) (t : Fin cfg4.N) (u : Fin 1) (j : Fin 128) :
    iblk4 V c 6 t (ix2 u j) = (V c main_v91 : S1x128.Idx → EReal) (ix2 u j) := by
  obtain ⟨-, -, -, -, e20, e21, e30, e31, e40, e41, e50, e51, e60, e61⟩ := idx_facts4 t
  unfold iblk4
  rw [View.read_apply]
  show V c main_v91 (((cfg4.win 6).blk t).view.emb (ix2 u j)) = V c main_v91 (ix2 u j)
  refine congrArg (V c main_v91) (funext fun a => Fin.ext ?_)
  match a with
  | ⟨0, _⟩ => show win4_6.index t (0 : Fin 2) * 1 + 1 * u.val = u.val; omega
  | ⟨1, _⟩ => show win4_6.index t (1 : Fin 2) * 128 + 1 * j.val = j.val; omega

/-! ## The output block -/

/-- The specification's perceptron, first layer in two halves, of the arrays region 4 reads as the region finds them,
    against a first weight `W1`. -/
abbrev lin4 (c : Dev nD) (W1 : Fin 256 → Fin 256 → EReal) : Fin 65536 → Fin 128 → EReal :=
  Cert.Hand.Spec.linSplit (fun r k => (V c main_v32 : S65536x128.Idx → EReal) (ix2 r k))
    (fun r k => (V c main_v65 : S65536x128.Idx → EReal) (ix2 r k)) W1 (fun h => (V c main_v90 : S1x256.Idx → EReal) (ix2 0 h))
    (fun h j => (V c main_v81 : S256x128.Idx → EReal) (ix2 h j)) (fun j => (V c main_v91 : S1x128.Idx → EReal) (ix2 0 j))

/-- The body's block of `y` at point `t`, read at (q, j): that perceptron at row `4096 t + q`, for any first
    weight whose halves are the two arrays the region reads. -/
theorem yat4_eq_lin (c : Dev nD) (W1 : Fin 256 → Fin 256 → EReal)
    (ha : ∀ (k : Fin 128) (h : Fin 256), (V c main_v67 : S128x256.Idx → EReal) (ix2 k h) = W1 ⟨k.val, by omega⟩ h)
    (hb : ∀ (k : Fin 128) (h : Fin 256), (V c main_v69 : S128x256.Idx → EReal) (ix2 k h) = W1 ⟨128 + k.val, by omega⟩ h)
    (t : Fin cfg4.N) (q : Fin 4096) (r : Fin 65536) (hr : r.val = t.val * 4096 + q.val) (j : Fin 128) :
    yat4 V c t (ix2 q j) = lin4 V c W1 r j := by
  unfold yat4 yblk4
  refine (k4_pay5_apply _ _ _ _ _ _ _ q j).trans ?_
  unfold lin4 Cert.Hand.Spec.linSplit
  refine congrArg₂ (· + ·) ?_ ?_
  · refine Finset.sum_congr rfl fun h _ => ?_
    refine congrArg₂ (· * ·) ?_ ?_
    · refine congrArg₂ max ?_ rfl
      refine congrArg₂ (· + ·) ?_ ?_
      · refine congrArg₂ (· + ·) ?_ ?_
        · refine Finset.sum_congr rfl fun k _ => ?_
          refine congrArg₂ (· * ·) ?_ ?_
          · exact iblk4_0_apply V c t q r hr k
          · exact (iblk4_2_apply V c t k h).trans (ha k h)
        · refine Finset.sum_congr rfl fun k _ => ?_
          refine congrArg₂ (· * ·) ?_ ?_
          · exact iblk4_1_apply V c t q r hr k
          · exact (iblk4_3_apply V c t k h).trans (hb k h)
      · exact iblk4_4_apply V c t 0 h
    · exact iblk4_5_apply V c t h j
  · exact iblk4_6_apply V c t 0 j

/-! ## The statistics rows -/

/-- One accumulation step read at lane j: the row found plus the block's column sum. -/
theorem r4acc_apply (rr : Vec Ideal S1x128 .f32) (y : FVec Ideal S4096x128 .f32) (j : Fin 128) :
    r4acc rr y (ix2 0 j) = rr (ix2 0 j) + ∑ q : Fin 4096, y (ix2 q j) := k4_pay1_apply y rr j

/-- The same of the squares. -/
theorem r4accsq_apply (rr : Vec Ideal S1x128 .f32) (y : FVec Ideal S4096x128 .f32) (j : Fin 128) :
    r4accsq rr y (ix2 0 j) = rr (ix2 0 j) + ∑ q : Fin 4096, y (ix2 q j) * y (ix2 q j) := k4_pay2_apply y rr j

/-- The zero row reads zero. -/
theorem r4zrow_apply (i : S1x128.Idx) : r4zrow (F := Ideal) i = 0 := Ideal.ofBits_zero_f32

/-- Eight accumulation steps from the zero row: the left fold from zero of the eight blocks' column sums. -/
theorem r4acc_fold8 (y0 y1 y2 y3 y4 y5 y6 y7 : FVec Ideal S4096x128 .f32) (j : Fin 128) :
    r4acc (r4acc (r4acc (r4acc (r4acc (r4acc (r4acc (r4acc r4zrow y0) y1) y2) y3) y4) y5) y6) y7 (ix2 0 j)
      = ((((((((0 + ∑ q : Fin 4096, y0 (ix2 q j)) + ∑ q : Fin 4096, y1 (ix2 q j)) + ∑ q : Fin 4096, y2 (ix2 q j))
          + ∑ q : Fin 4096, y3 (ix2 q j)) + ∑ q : Fin 4096, y4 (ix2 q j)) + ∑ q : Fin 4096, y5 (ix2 q j))
          + ∑ q : Fin 4096, y6 (ix2 q j)) + ∑ q : Fin 4096, y7 (ix2 q j)) := by
  rw [r4acc_apply, r4acc_apply, r4acc_apply, r4acc_apply, r4acc_apply, r4acc_apply, r4acc_apply, r4acc_apply, r4zrow_apply]

/-- The same of the squares. -/
theorem r4accsq_fold8 (y0 y1 y2 y3 y4 y5 y6 y7 : FVec Ideal S4096x128 .f32) (j : Fin 128) :
    r4accsq (r4accsq (r4accsq (r4accsq (r4accsq (r4accsq (r4accsq (r4accsq r4zrow y0) y1) y2) y3) y4) y5) y6) y7 (ix2 0 j)
      = ((((((((0 + ∑ q : Fin 4096, y0 (ix2 q j) * y0 (ix2 q j)) + ∑ q : Fin 4096, y1 (ix2 q j) * y1 (ix2 q j))
          + ∑ q : Fin 4096, y2 (ix2 q j) * y2 (ix2 q j)) + ∑ q : Fin 4096, y3 (ix2 q j) * y3 (ix2 q j))
          + ∑ q : Fin 4096, y4 (ix2 q j) * y4 (ix2 q j)) + ∑ q : Fin 4096, y5 (ix2 q j) * y5 (ix2 q j))
          + ∑ q : Fin 4096, y6 (ix2 q j) * y6 (ix2 q j)) + ∑ q : Fin 4096, y7 (ix2 q j) * y7 (ix2 q j)) := by
  rw [r4accsq_apply, r4accsq_apply, r4accsq_apply, r4accsq_apply, r4accsq_apply, r4accsq_apply, r4accsq_apply,
    r4accsq_apply, r4zrow_apply]

/-! ## The whole arrays -/

/-- The array of `y` is that perceptron, row by row. -/
theorem yArr4_eq_lin (c : Dev nD) (W1 : Fin 256 → Fin 256 → EReal)
    (ha : ∀ (k : Fin 128) (h : Fin 256), (V c main_v67 : S128x256.Idx → EReal) (ix2 k h) = W1 ⟨k.val, by omega⟩ h)
    (hb : ∀ (k : Fin 128) (h : Fin 256), (V c main_v69 : S128x256.Idx → EReal) (ix2 k h) = W1 ⟨128 + k.val, by omega⟩ h) (r : Fin 65536) (j : Fin 128) : yArr4 V c (ix2 r j) = lin4 V c W1 r j := by
  show yat4 V c ⟨r.val / 4096, _⟩ (ix2 (⟨r.val % 4096, _⟩ : Fin 4096) j) = _
  exact yat4_eq_lin V c W1 ha hb _ _ r (by show r.val = r.val / 4096 * 4096 + r.val % 4096; omega) j

/-- Row `4096 t + q` is a row of the array. -/
theorem row_lt4 (t : Fin cfg4.N) (n : ℕ) (hn : t.val = n) (q : Fin 4096) : n * 4096 + q.val < 65536 := by
  have := q.isLt
  have h16 : t.val < 16 := by have := t.isLt; have hN : cfg4.N = 16 := N_4; omega
  omega

/-- The column sum of the block of point `t`, over the perceptron's rows `4096 t …`. -/
theorem colsum_blk4 (c : Dev nD) (W1 : Fin 256 → Fin 256 → EReal)
    (ha : ∀ (k : Fin 128) (h : Fin 256), (V c main_v67 : S128x256.Idx → EReal) (ix2 k h) = W1 ⟨k.val, by omega⟩ h)
    (hb : ∀ (k : Fin 128) (h : Fin 256), (V c main_v69 : S128x256.Idx → EReal) (ix2 k h) = W1 ⟨128 + k.val, by omega⟩ h) (t : Fin cfg4.N) (n : ℕ) (hn : t.val = n) (j : Fin 128) :
    ∑ q : Fin 4096, yat4 V c t (ix2 q j) = ∑ q : Fin 4096, lin4 V c W1 ⟨n * 4096 + q.val, row_lt4 t n hn q⟩ j :=
  Finset.sum_congr rfl fun q _ =>
    yat4_eq_lin V c W1 ha hb t q _ (by show n * 4096 + q.val = t.val * 4096 + q.val; rw [hn]) j

/-- The same of the squares. -/
theorem colsq_blk4 (c : Dev nD) (W1 : Fin 256 → Fin 256 → EReal)
    (ha : ∀ (k : Fin 128) (h : Fin 256), (V c main_v67 : S128x256.Idx → EReal) (ix2 k h) = W1 ⟨k.val, by omega⟩ h)
    (hb : ∀ (k : Fin 128) (h : Fin 256), (V c main_v69 : S128x256.Idx → EReal) (ix2 k h) = W1 ⟨128 + k.val, by omega⟩ h) (t : Fin cfg4.N) (n : ℕ) (hn : t.val = n) (j : Fin 128) :
    ∑ q : Fin 4096, yat4 V c t (ix2 q j) * yat4 V c t (ix2 q j)
      = ∑ q : Fin 4096, lin4 V c W1 ⟨n * 4096 + q.val, row_lt4 t n hn q⟩ j
          * lin4 V c W1 ⟨n * 4096 + q.val, row_lt4 t n hn q⟩ j :=
  Finset.sum_congr rfl fun q _ => by
    have e := yat4_eq_lin V c W1 ha hb t q ⟨n * 4096 + q.val, row_lt4 t n hn q⟩
      (by show n * 4096 + q.val = t.val * 4096 + q.val; rw [hn]) j
    rw [e]

/-- Row 0 of the sums: core 0's left fold from zero of its eight blocks' column sums. -/
theorem row0_sumArr4_apply (c : Dev nD) (W1 : Fin 256 → Fin 256 → EReal)
    (ha : ∀ (k : Fin 128) (h : Fin 256), (V c main_v67 : S128x256.Idx → EReal) (ix2 k h) = W1 ⟨k.val, by omega⟩ h)
    (hb : ∀ (k : Fin 128) (h : Fin 256), (V c main_v69 : S128x256.Idx → EReal) (ix2 k h) = W1 ⟨128 + k.val, by omega⟩ h) (j : Fin 128) :
    row0 (sumArr4 V c) (ix2 0 j)
      = Cert.Hand.Spec.fold8 (fun i : Fin 8 => ∑ q : Fin 4096,
        lin4 V c W1 ⟨(0 * 8 + i.val) * 4096 + q.val, by have := i.isLt; have := q.isLt; omega⟩ j) := by
  rw [row0_sumArr4, r4sum_core0, r4acc_fold8]
  rw [colsum_blk4 V c W1 ha hb t4_0 0 rfl j,
    colsum_blk4 V c W1 ha hb t4_1 1 rfl j,
    colsum_blk4 V c W1 ha hb t4_2 2 rfl j,
    colsum_blk4 V c W1 ha hb t4_3 3 rfl j,
    colsum_blk4 V c W1 ha hb t4_4 4 rfl j,
    colsum_blk4 V c W1 ha hb t4_5 5 rfl j,
    colsum_blk4 V c W1 ha hb t4_6 6 rfl j,
    colsum_blk4 V c W1 ha hb t4_7 7 rfl j]
  try rfl

/-- Row 8 of the sums: core 1's left fold from zero of its eight blocks' column sums. -/
theorem row8_sumArr4_apply (c : Dev nD) (W1 : Fin 256 → Fin 256 → EReal)
    (ha : ∀ (k : Fin 128) (h : Fin 256), (V c main_v67 : S128x256.Idx → EReal) (ix2 k h) = W1 ⟨k.val, by omega⟩ h)
    (hb : ∀ (k : Fin 128) (h : Fin 256), (V c main_v69 : S128x256.Idx → EReal) (ix2 k h) = W1 ⟨128 + k.val, by omega⟩ h) (j : Fin 128) :
    row8 (sumArr4 V c) (ix2 0 j)
      = Cert.Hand.Spec.fold8 (fun i : Fin 8 => ∑ q : Fin 4096,
        lin4 V c W1 ⟨(1 * 8 + i.val) * 4096 + q.val, by have := i.isLt; have := q.isLt; omega⟩ j) := by
  rw [row8_sumArr4, r4sum_core1, r4acc_fold8]
  rw [colsum_blk4 V c W1 ha hb t4_8 8 rfl j,
    colsum_blk4 V c W1 ha hb t4_9 9 rfl j,
    colsum_blk4 V c W1 ha hb t4_10 10 rfl j,
    colsum_blk4 V c W1 ha hb t4_11 11 rfl j,
    colsum_blk4 V c W1 ha hb t4_12 12 rfl j,
    colsum_blk4 V c W1 ha hb t4_13 13 rfl j,
    colsum_blk4 V c W1 ha hb t4_14 14 rfl j,
    colsum_blk4 V c W1 ha hb t4_15 15 rfl j]
  try rfl

/-- Row 0 of the sums of squares: core 0's left fold from zero of its eight blocks' column sums of squares. -/
theorem row0_sqArr4_apply (c : Dev nD) (W1 : Fin 256 → Fin 256 → EReal)
    (ha : ∀ (k : Fin 128) (h : Fin 256), (V c main_v67 : S128x256.Idx → EReal) (ix2 k h) = W1 ⟨k.val, by omega⟩ h)
    (hb : ∀ (k : Fin 128) (h : Fin 256), (V c main_v69 : S128x256.Idx → EReal) (ix2 k h) = W1 ⟨128 + k.val, by omega⟩ h) (j : Fin 128) :
    row0 (sqArr4 V c) (ix2 0 j)
      = Cert.Hand.Spec.fold8 (fun i : Fin 8 => ∑ q : Fin 4096,
        lin4 V c W1 ⟨(0 * 8 + i.val) * 4096 + q.val, by have := i.isLt; have := q.isLt; omega⟩ j
          * lin4 V c W1 ⟨(0 * 8 + i.val) * 4096 + q.val, by have := i.isLt; have := q.isLt; omega⟩ j) := by
  rw [row0_sqArr4, r4sumsq_core0, r4accsq_fold8]
  rw [colsq_blk4 V c W1 ha hb t4_0 0 rfl j,
    colsq_blk4 V c W1 ha hb t4_1 1 rfl j,
    colsq_blk4 V c W1 ha hb t4_2 2 rfl j,
    colsq_blk4 V c W1 ha hb t4_3 3 rfl j,
    colsq_blk4 V c W1 ha hb t4_4 4 rfl j,
    colsq_blk4 V c W1 ha hb t4_5 5 rfl j,
    colsq_blk4 V c W1 ha hb t4_6 6 rfl j,
    colsq_blk4 V c W1 ha hb t4_7 7 rfl j]
  try rfl

/-- Row 8 of the sums of squares: core 1's left fold from zero of its eight blocks' column sums of squares. -/
theorem row8_sqArr4_apply (c : Dev nD) (W1 : Fin 256 → Fin 256 → EReal)
    (ha : ∀ (k : Fin 128) (h : Fin 256), (V c main_v67 : S128x256.Idx → EReal) (ix2 k h) = W1 ⟨k.val, by omega⟩ h)
    (hb : ∀ (k : Fin 128) (h : Fin 256), (V c main_v69 : S128x256.Idx → EReal) (ix2 k h) = W1 ⟨128 + k.val, by omega⟩ h) (j : Fin 128) :
    row8 (sqArr4 V c) (ix2 0 j)
      = Cert.Hand.Spec.fold8 (fun i : Fin 8 => ∑ q : Fin 4096,
        lin4 V c W1 ⟨(1 * 8 + i.val) * 4096 + q.val, by have := i.isLt; have := q.isLt; omega⟩ j
          * lin4 V c W1 ⟨(1 * 8 + i.val) * 4096 + q.val, by have := i.isLt; have := q.isLt; omega⟩ j) := by
  rw [row8_sqArr4, r4sumsq_core1, r4accsq_fold8]
  rw [colsq_blk4 V c W1 ha hb t4_8 8 rfl j,
    colsq_blk4 V c W1 ha hb t4_9 9 rfl j,
    colsq_blk4 V c W1 ha hb t4_10 10 rfl j,
    colsq_blk4 V c W1 ha hb t4_11 11 rfl j,
    colsq_blk4 V c W1 ha hb t4_12 12 rfl j,
    colsq_blk4 V c W1 ha hb t4_13 13 rfl j,
    colsq_blk4 V c W1 ha hb t4_14 14 rfl j,
    colsq_blk4 V c W1 ha hb t4_15 15 rfl j]
  try rfl

end Cert.KernelIdeal.Hand
-- ==== Proof.Hand.P2i5.lean ====
import proofs.«103476_j5987184410999_2_alg».proof.Proof.Hand.P2v5

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-- Region 5's output function over the extended reals, entry by entry: the scale times the centred entry, times
    the inverse deviation, plus the shift, plus the noise entry times the literal (the operations in the body's order). -/
theorem G5_apply (a0 : S65536x128.Idx → EReal) (a1 a2 a3 a4 : S1x128.Idx → EReal) (a5 : S65536x128.Idx → EReal) (r : Fin 65536) (j : Fin 128) :
    G5 (F := Ideal) a0 a1 a2 a3 a4 a5 (ix2 r j) = a3 (ix2 0 j) * (a0 (ix2 r j) - a1 (ix2 0 j)) * a2 (ix2 0 j) + a4 (ix2 0 j) + a5 (ix2 r j) * Ideal.ofBits .f32 0x3DCCCCCD#32 := rfl

/-- The output array of region 5 after the run, at an entry. -/
theorem final5_apply (V : (c : Dev nD) → (b : Ref sig .tc) → Buf (Elt Ideal) ((c : Thread nD τ).loc b)) (c : Dev nD) (r : Fin 65536) (j : Fin 128) :
    (dat5 V c).arrAt 6 cfg5.N (ix2 r j)
      = G5 (F := Ideal) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (ix2 r j) :=
  congrFun (final5 V c) (ix2 r j)

end Cert.KernelIdeal.Hand

end
-- ==== Proof.Hand.KerVal2.lean ====
/-
  Network node 2 on the kernel's side, composed: the array the normalisation pass (region 5) leaves is, entry by
  entry, the kernel's reading of the batch normalisation of the split perceptron of nodes 0 and 1's outputs and the
  launch arguments, plus the scaled noise.
-/
import proofs.«103476_j5987184410999_2_alg».proof.Proof.Hand.ChainDefs2
import proofs.«103476_j5987184410999_2_alg».proof.Proof.Hand.KArgs
import proofs.«103476_j5987184410999_2_alg».proof.Proof.Hand.KerHost4
import proofs.«103476_j5987184410999_2_alg».proof.Proof.Hand.KerHost5
import proofs.«103476_j5987184410999_2_alg».proof.Proof.Hand.Glue
import proofs.«103476_j5987184410999_2_alg».proof.Proof.Hand.P1v4
import proofs.«103476_j5987184410999_2_alg».proof.Proof.Hand.P2i5
import proofs.«103476_j5987184410999_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Hand
open scoped BigOperators

variable (m : (ℓ : Loc nD τ sig) → Buf (Elt Ideal) ℓ)

/-! ## What region 4 is entered from, in terms of the earlier nodes and the launch arguments -/

/-- Host stretch 4 writes neither of the two earlier outputs it is fed. -/
theorem W9_xa (c : Dev nD) : W9 m c main_v32 = W8 m c main_v32 :=
  StableHlo.after_of_writes_sub hostOps4 _ hostOps4_writes (by decide)
theorem W9_xb (c : Dev nD) : W9 m c main_v65 = W8 m c main_v65 :=
  StableHlo.after_of_writes_sub hostOps4 _ hostOps4_writes (by decide)

section Node
variable (c : Dev nD)
  (hA : ∀ r k, (W8 m c main_v32 : S65536x128.Idx → EReal) (ix2 r k) = Net.k0 (kargs m c) r k)
  (hB : ∀ r k, (W8 m c main_v65 : S65536x128.Idx → EReal) (ix2 r k) = Net.k1 (kargs m c) r k)
  (hargs : ∀ a ∈ ([main_arg0, main_arg1, main_arg2, main_arg3, main_arg4, main_arg5, main_arg6, main_arg7, main_arg8] : List (Ref sig .tc)),
    W8 m c a = m (c, a))

include hargs in
/-- The upper half of node 2's first weight matrix, as region 4 finds it. -/
theorem E4_Wa (k : Fin 128) (h : Fin 256) :
    (E4 m c main_v67 : S128x256.Idx → EReal) (ix2 k h) = (kargs m c).W1 2 ⟨k.val, by have := k.isLt; omega⟩ h := by
  show (StableHlo.after hostOps4 (W8 m c) main_v67 : S128x256.Idx → EReal) (ix2 k h) = _
  rw [h4_v67 (W8 m c) k h, hargs main_arg2 (by decide)]
  show (kargs m c).W1 2 ⟨0 + k.val, _⟩ h = _
  congr 1; exact Fin.ext (Nat.zero_add _)

include hargs in
/-- The lower half. -/
theorem E4_Wb (k : Fin 128) (h : Fin 256) :
    (E4 m c main_v69 : S128x256.Idx → EReal) (ix2 k h) = (kargs m c).W1 2 ⟨128 + k.val, by have := k.isLt; omega⟩ h := by
  show (StableHlo.after hostOps4 (W8 m c) main_v69 : S128x256.Idx → EReal) (ix2 k h) = _
  rw [h4_v69 (W8 m c) k h, hargs main_arg2 (by decide)]
  rfl

include hargs in
theorem E4_b1 (h : Fin 256) : (E4 m c main_v90 : S1x256.Idx → EReal) (ix2 0 h) = (kargs m c).b1 2 h := by
  show (StableHlo.after hostOps4 (W8 m c) main_v90 : S1x256.Idx → EReal) (ix2 0 h) = _
  rw [h4_v90 (W8 m c) h, hargs main_arg3 (by decide)]
  rfl

include hargs in
theorem E4_W2 (h : Fin 256) (j : Fin 128) : (E4 m c main_v81 : S256x128.Idx → EReal) (ix2 h j) = (kargs m c).W2 2 h j := by
  show (StableHlo.after hostOps4 (W8 m c) main_v81 : S256x128.Idx → EReal) (ix2 h j) = _
  rw [h4_v81 (W8 m c) h j, hargs main_arg4 (by decide)]
  rfl

include hargs in
theorem E4_b2 (j : Fin 128) : (E4 m c main_v91 : S1x128.Idx → EReal) (ix2 0 j) = (kargs m c).b2 2 j := by
  show (StableHlo.after hostOps4 (W8 m c) main_v91 : S1x128.Idx → EReal) (ix2 0 j) = _
  rw [h4_v91 (W8 m c) j, hargs main_arg5 (by decide)]
  rfl

include hA in
theorem E4_xa (r : Fin 65536) (k : Fin 128) : (E4 m c main_v32 : S65536x128.Idx → EReal) (ix2 r k) = Net.k0 (kargs m c) r k := by
  show (W9 m c main_v32 : S65536x128.Idx → EReal) (ix2 r k) = _
  rw [W9_xa]; exact hA r k

include hB in
theorem E4_xb (r : Fin 65536) (k : Fin 128) : (E4 m c main_v65 : S65536x128.Idx → EReal) (ix2 r k) = Net.k1 (kargs m c) r k := by
  show (W9 m c main_v65 : S65536x128.Idx → EReal) (ix2 r k) = _
  rw [W9_xb]; exact hB r k

include hA hB hargs in
/-- The split perceptron of the arrays region 4 finds is the split perceptron of nodes 0 and 1's outputs and node 2's
    launch arguments. -/
theorem lin4_E4 :
    lin4 (E4 m) c ((kargs m c).W1 2)
      = Spec.linSplit (Net.k0 (kargs m c)) (Net.k1 (kargs m c)) ((kargs m c).W1 2) ((kargs m c).b1 2) ((kargs m c).W2 2) ((kargs m c).b2 2) := by
  have hxa : (fun r k => (E4 m c main_v32 : S65536x128.Idx → EReal) (ix2 r k)) = Net.k0 (kargs m c) := by
    funext r k; exact E4_xa m c hA r k
  have hxb : (fun r k => (E4 m c main_v65 : S65536x128.Idx → EReal) (ix2 r k)) = Net.k1 (kargs m c) := by
    funext r k; exact E4_xb m c hB r k
  have hb1 : (fun h => (E4 m c main_v90 : S1x256.Idx → EReal) (ix2 0 h)) = (kargs m c).b1 2 := by
    funext h; exact E4_b1 m c hargs h
  have hW2 : (fun h j => (E4 m c main_v81 : S256x128.Idx → EReal) (ix2 h j)) = (kargs m c).W2 2 := by
    funext h j; exact E4_W2 m c hargs h j
  have hb2 : (fun j => (E4 m c main_v91 : S1x128.Idx → EReal) (ix2 0 j)) = (kargs m c).b2 2 := by
    funext j; exact E4_b2 m c hargs j
  show Spec.linSplit _ _ _ _ _ _ = _
  rw [hxa, hxb, hb1, hW2, hb2]

/-! ## What region 5 is entered from -/

/-- The product array: region 4 left it, host stretch 5 does not write it. -/
theorem W11_y : W11 m c main_v92_0 = yArr4 (E4 m) c := by
  have e1 : W11 m c main_v92_0 = W10 m c main_v92_0 :=
    StableHlo.after_of_writes_sub hostOps5 _ hostOps5_writes (by decide)
  rw [e1]
  exact Pipeline.withArrays_arr spec4 launch4.win.arr_inj c (W9 m c) (GA4 m c) 7

/-- The sums and the sums of squares as region 4 left them. -/
theorem W10_sum : W10 m c main_v92_1 = sumArr4 (E4 m) c :=
  Pipeline.withArrays_arr spec4 launch4.win.arr_inj c (W9 m c) (GA4 m c) 8
theorem W10_sq : W10 m c main_v92_2 = sqArr4 (E4 m) c :=
  Pipeline.withArrays_arr spec4 launch4.win.arr_inj c (W9 m c) (GA4 m c) 9

include hargs in
/-- The scale row: a reshape of the scale vector host stretch 4 sliced out of the arguments. -/
theorem W11_gamma (j : Fin 128) : (W11 m c main_v108 : S1x128.Idx → EReal) (ix2 0 j) = (kargs m c).g 2 j := by
  show (StableHlo.after hostOps5 (W10 m c) main_v108 : S1x128.Idx → EReal) (ix2 0 j) = _
  rw [h5_v108 (W10 m c) j]
  have e : W10 m c main_v85 = W9 m c main_v85 :=
    Pipeline.withArrays_of_ne spec4 c (W9 m c) (GA4 m c) main_v85 (by decide)
  rw [e]
  show (StableHlo.after hostOps4 (W8 m c) main_v85 : S128.Idx → EReal) (ix1 j) = _
  rw [h4_v85 (W8 m c) j, hargs main_arg6 (by decide)]
  rfl

include hargs in
/-- The shift row likewise. -/
theorem W11_beta (j : Fin 128) : (W11 m c main_v109 : S1x128.Idx → EReal) (ix2 0 j) = (kargs m c).be 2 j := by
  show (StableHlo.after hostOps5 (W10 m c) main_v109 : S1x128.Idx → EReal) (ix2 0 j) = _
  rw [h5_v109 (W10 m c) j]
  have e : W10 m c main_v87 = W9 m c main_v87 :=
    Pipeline.withArrays_of_ne spec4 c (W9 m c) (GA4 m c) main_v87 (by decide)
  rw [e]
  show (StableHlo.after hostOps4 (W8 m c) main_v87 : S128.Idx → EReal) (ix1 j) = _
  rw [h4_v87 (W8 m c) j, hargs main_arg7 (by decide)]
  rfl

include hargs in
/-- The noise array: host stretch 4 sliced it out of the arguments; neither region 4 nor host stretch 5 writes it. -/
theorem W11_noise (r : Fin 65536) (j : Fin 128) : (W11 m c main_v89 : S65536x128.Idx → EReal) (ix2 r j) = (kargs m c).nz 0 r j := by
  have e1 : W11 m c main_v89 = W10 m c main_v89 :=
    StableHlo.after_of_writes_sub hostOps5 _ hostOps5_writes (by decide)
  have e2 : W10 m c main_v89 = W9 m c main_v89 :=
    Pipeline.withArrays_of_ne spec4 c (W9 m c) (GA4 m c) main_v89 (by decide)
  rw [e1, e2]
  show (StableHlo.after hostOps4 (W8 m c) main_v89 : S65536x128.Idx → EReal) (ix2 r j) = _
  rw [h4_v89 (W8 m c) r j, hargs main_arg8 (by decide)]
  rfl

/-! ## The later nodes' first-weight halves, which host stretch 4 also slices: as they stand after region 5 -/

include hargs in
/-- The upper half of node 3's first weight matrix, which host stretch 4 slices out of the arguments, as it stands after
    region 5: neither region 4, host stretch 5 nor region 5 writes it. -/
theorem W12_Wa3 (k : Fin 128) (h : Fin 256) :
    (W12 m c main_v71 : S128x256.Idx → EReal) (ix2 k h) = (kargs m c).W1 3 ⟨k.val, by have := k.isLt; omega⟩ h := by
  have e1 : W12 m c main_v71 = W11 m c main_v71 :=
    Pipeline.withArrays_of_ne spec5 c (W11 m c) (GA5 m c) main_v71 (by decide)
  have e2 : W11 m c main_v71 = W10 m c main_v71 :=
    StableHlo.after_of_writes_sub hostOps5 _ hostOps5_writes (by decide)
  have e3 : W10 m c main_v71 = W9 m c main_v71 :=
    Pipeline.withArrays_of_ne spec4 c (W9 m c) (GA4 m c) main_v71 (by decide)
  rw [e1, e2, e3]
  show (StableHlo.after hostOps4 (W8 m c) main_v71 : S128x256.Idx → EReal) (ix2 k h) = _
  rw [h4_v71 (W8 m c) k h, hargs main_arg2 (by decide)]
  show (kargs m c).W1 3 ⟨0 + k.val, _⟩ h = _
  congr 1; exact Fin.ext (Nat.zero_add _)

include hargs in
/-- The lower half of node 3's first weight matrix, which host stretch 4 slices out of the arguments, as it stands after
    region 5: neither region 4, host stretch 5 nor region 5 writes it. -/
theorem W12_Wb3 (k : Fin 128) (h : Fin 256) :
    (W12 m c main_v73 : S128x256.Idx → EReal) (ix2 k h) = (kargs m c).W1 3 ⟨128 + k.val, by have := k.isLt; omega⟩ h := by
  have e1 : W12 m c main_v73 = W11 m c main_v73 :=
    Pipeline.withArrays_of_ne spec5 c (W11 m c) (GA5 m c) main_v73 (by decide)
  have e2 : W11 m c main_v73 = W10 m c main_v73 :=
    StableHlo.after_of_writes_sub hostOps5 _ hostOps5_writes (by decide)
  have e3 : W10 m c main_v73 = W9 m c main_v73 :=
    Pipeline.withArrays_of_ne spec4 c (W9 m c) (GA4 m c) main_v73 (by decide)
  rw [e1, e2, e3]
  show (StableHlo.after hostOps4 (W8 m c) main_v73 : S128x256.Idx → EReal) (ix2 k h) = _
  rw [h4_v73 (W8 m c) k h, hargs main_arg2 (by decide)]
  rfl

include hargs in
/-- The upper half of node 4's first weight matrix, which host stretch 4 slices out of the arguments, as it stands after
    region 5: neither region 4, host stretch 5 nor region 5 writes it. -/
theorem W12_Wa4 (k : Fin 128) (h : Fin 256) :
    (W12 m c main_v75 : S128x256.Idx → EReal) (ix2 k h) = (kargs m c).W1 4 ⟨k.val, by have := k.isLt; omega⟩ h := by
  have e1 : W12 m c main_v75 = W11 m c main_v75 :=
    Pipeline.withArrays_of_ne spec5 c (W11 m c) (GA5 m c) main_v75 (by decide)
  have e2 : W11 m c main_v75 = W10 m c main_v75 :=
    StableHlo.after_of_writes_sub hostOps5 _ hostOps5_writes (by decide)
  have e3 : W10 m c main_v75 = W9 m c main_v75 :=
    Pipeline.withArrays_of_ne spec4 c (W9 m c) (GA4 m c) main_v75 (by decide)
  rw [e1, e2, e3]
  show (StableHlo.after hostOps4 (W8 m c) main_v75 : S128x256.Idx → EReal) (ix2 k h) = _
  rw [h4_v75 (W8 m c) k h, hargs main_arg2 (by decide)]
  show (kargs m c).W1 4 ⟨0 + k.val, _⟩ h = _
  congr 1; exact Fin.ext (Nat.zero_add _)

include hargs in
/-- The lower half of node 4's first weight matrix, which host stretch 4 slices out of the arguments, as it stands after
    region 5: neither region 4, host stretch 5 nor region 5 writes it. -/
theorem W12_Wb4 (k : Fin 128) (h : Fin 256) :
    (W12 m c main_v77 : S128x256.Idx → EReal) (ix2 k h) = (kargs m c).W1 4 ⟨128 + k.val, by have := k.isLt; omega⟩ h := by
  have e1 : W12 m c main_v77 = W11 m c main_v77 :=
    Pipeline.withArrays_of_ne spec5 c (W11 m c) (GA5 m c) main_v77 (by decide)
  have e2 : W11 m c main_v77 = W10 m c main_v77 :=
    StableHlo.after_of_writes_sub hostOps5 _ hostOps5_writes (by decide)
  have e3 : W10 m c main_v77 = W9 m c main_v77 :=
    Pipeline.withArrays_of_ne spec4 c (W9 m c) (GA4 m c) main_v77 (by decide)
  rw [e1, e2, e3]
  show (StableHlo.after hostOps4 (W8 m c) main_v77 : S128x256.Idx → EReal) (ix2 k h) = _
  rw [h4_v77 (W8 m c) k h, hargs main_arg2 (by decide)]
  rfl

/-! ## Node 2 -/

set_option maxHeartbeats 1000000 in
include hA hB hargs in
/-- The array region 5 leaves is the kernel's reading of network node 2 of the launch arguments. -/
theorem node2 (r : Fin 65536) (j : Fin 128) :
    (W12 m c main_v110 : S65536x128.Idx → EReal) (ix2 r j) = Net.k2 (kargs m c) r j := by
  have e12 : W12 m c main_v110 = GA5 m c 6 :=
    Pipeline.withArrays_arr spec5 launch5.win.arr_inj c (W11 m c) (GA5 m c) 6
  rw [e12]
  show (dat5 (E5 m) c).arrAt 6 cfg5.N (ix2 r j) = _
  rw [final5_apply (E5 m) c r j, G5_apply]
  have hW1a := E4_Wa m c hargs
  have hW1b := E4_Wb m c hargs
  have hg : (E5 m c (Pipeline.arrRef spec5 3) : S1x128.Idx → EReal) (ix2 0 j) = (kargs m c).g 2 j := W11_gamma m c hargs j
  have hb : (E5 m c (Pipeline.arrRef spec5 4) : S1x128.Idx → EReal) (ix2 0 j) = (kargs m c).be 2 j := W11_beta m c hargs j
  have hn : (E5 m c (Pipeline.arrRef spec5 5) : S65536x128.Idx → EReal) (ix2 r j) = (kargs m c).nz 0 r j := W11_noise m c hargs r j
  have hy : (E5 m c (Pipeline.arrRef spec5 0) : S65536x128.Idx → EReal) (ix2 r j) = lin4 (E4 m) c ((kargs m c).W1 2) r j := by
    show (W11 m c main_v92_0 : S65536x128.Idx → EReal) (ix2 r j) = _
    rw [W11_y]; exact yArr4_eq_lin (E4 m) c ((kargs m c).W1 2) hW1a hW1b r j
  have hmean : (E5 m c (Pipeline.arrRef spec5 1) : S1x128.Idx → EReal) (ix2 0 j) = _ :=
    h5_v100 (W10 m c) (sumArr4 (E4 m) c) (W10_sum m c) j
  have hinv : (E5 m c (Pipeline.arrRef spec5 2) : S1x128.Idx → EReal) (ix2 0 j) = _ :=
    h5_v107 (W10 m c) (sumArr4 (E4 m) c) (sqArr4 (E4 m) c) (W10_sum m c) (W10_sq m c) j
  rw [hg, hb, hn, hy, hmean, hinv]
  have key := Glue.pass2_noise_eq (lin4 (E4 m) c ((kargs m c).W1 2)) (sumArr4 (E4 m) c) (sqArr4 (E4 m) c) ((kargs m c).g 2) ((kargs m c).be 2)
    ((kargs m c).nz 0)
    (fun j => (r4row0_apply (sumArr4 (E4 m) c) (ix2 0 j)).symm.trans (row0_sumArr4_apply (E4 m) c ((kargs m c).W1 2) hW1a hW1b j))
    (fun j => (r4row8_apply (sumArr4 (E4 m) c) (ix2 0 j)).symm.trans (row8_sumArr4_apply (E4 m) c ((kargs m c).W1 2) hW1a hW1b j))
    (fun j => (r4row0_apply (sqArr4 (E4 m) c) (ix2 0 j)).symm.trans (row0_sqArr4_apply (E4 m) c ((kargs m c).W1 2) hW1a hW1b j))
    (fun j => (r4row8_apply (sqArr4 (E4 m) c) (ix2 0 j)).symm.trans (row8_sqArr4_apply (E4 m) c ((kargs m c).W1 2) hW1a hW1b j)) r j
  rw [lin4_E4 m c hA hB hargs] at key
  rw [lin4_E4 m c hA hB hargs]
  exact key

end Node

end Cert.KernelIdeal.Hand

end
-- ==== Proof.Hand.KerHost6.lean ====
/-
  Host stretch 6 of the kernel program read at an index: node 3's biases, second weight matrix, scale and shift, and the second noise array, sliced out of the arguments.
-/
import proofs.«103476_j5987184410999_2_alg».proof.Proof.Hand.KerHostLib

set_option maxRecDepth 1816

noncomputable section

namespace Cert.KernelIdeal.Hand

open Cert.KernelIdeal Cert.KernelIdeal.Gen
open Idealize.ShloMosaic Idealize.ShloMosaic.TcCoe Idealize.ShloMosaic.ValueIdx

/-! ## Stretch 6: node 3's parameters (its first weight matrix was sliced in stretch 4) and noise 1 -/

section Even
variable {F : FTy → Type} [FloatOps F]

theorem h6_v123 (V : Valuation τ sig (Elt F)) (h : Fin 256) :
    (StableHlo.after hostOps6 V main_v123 : (⟨S1x256, .f32⟩ : BufTy).Contents (Elt F)) (ix2 0 h)
      = (V main_arg3 : (⟨S5x256, .f32⟩ : BufTy).Contents (Elt F)) (ix2 3 h) := by
  have e : (StableHlo.after hostOps6 V main_v123 : (⟨S1x256, .f32⟩ : BufTy).Contents (Elt F))
      = shapeCast S1x256 (shapeCast S256 (extractStridedSlice S1x256 ![3, 0] (V main_arg3) slices_S5x256_S1x256_3_0)
          shapeCasts_S1x256_S256) shapeCasts_S256_S1x256 := by
    simp only [hostOps6]; after_results <;> rfl
  rw [e, unsq256_apply]; exact row256_apply 3 (by omega) _ _ _ h

theorem h6_v114 (V : Valuation τ sig (Elt F)) (h : Fin 256) (j : Fin 128) :
    (StableHlo.after hostOps6 V main_v114 : (⟨S256x128, .f32⟩ : BufTy).Contents (Elt F)) (ix2 h j)
      = (V main_arg4 : (⟨S5x256x128, .f32⟩ : BufTy).Contents (Elt F)) (ix3 3 h j) := by
  have e : (StableHlo.after hostOps6 V main_v114 : (⟨S256x128, .f32⟩ : BufTy).Contents (Elt F))
      = shapeCast S256x128 (extractStridedSlice S1x256x128 ![3, 0, 0] (V main_arg4) slices_S5x256x128_S1x256x128_3_0_0)
          shapeCasts_S1x256x128_S256x128 := by
    simp only [hostOps6]; after_results <;> rfl
  rw [e]; exact W2_apply 3 (by omega) _ _ _ h j

theorem h6_v124 (V : Valuation τ sig (Elt F)) (j : Fin 128) :
    (StableHlo.after hostOps6 V main_v124 : (⟨S1x128, .f32⟩ : BufTy).Contents (Elt F)) (ix2 0 j)
      = (V main_arg5 : (⟨S5x128, .f32⟩ : BufTy).Contents (Elt F)) (ix2 3 j) := by
  have e : (StableHlo.after hostOps6 V main_v124 : (⟨S1x128, .f32⟩ : BufTy).Contents (Elt F))
      = shapeCast S1x128 (shapeCast S128 (extractStridedSlice S1x128 ![3, 0] (V main_arg5) slices_S5x128_S1x128_3_0)
          shapeCasts_S1x128_S128) shapeCasts_S128_S1x128 := by
    simp only [hostOps6]; after_results <;> rfl
  rw [e, unsq128_apply]; exact row128_apply 3 (by omega) _ _ _ j

theorem h6_v118 (V : Valuation τ sig (Elt F)) (j : Fin 128) :
    (StableHlo.after hostOps6 V main_v118 : (⟨S128, .f32⟩ : BufTy).Contents (Elt F)) (ix1 j)
      = (V main_arg6 : (⟨S5x128, .f32⟩ : BufTy).Contents (Elt F)) (ix2 3 j) := by
  have e : (StableHlo.after hostOps6 V main_v118 : (⟨S128, .f32⟩ : BufTy).Contents (Elt F))
      = shapeCast S128 (extractStridedSlice S1x128 ![3, 0] (V main_arg6) slices_S5x128_S1x128_3_0) shapeCasts_S1x128_S128 := by
    simp only [hostOps6]; after_results <;> rfl
  rw [e]; exact row128_apply 3 (by omega) _ _ _ j

theorem h6_v120 (V : Valuation τ sig (Elt F)) (j : Fin 128) :
    (StableHlo.after hostOps6 V main_v120 : (⟨S128, .f32⟩ : BufTy).Contents (Elt F)) (ix1 j)
      = (V main_arg7 : (⟨S5x128, .f32⟩ : BufTy).Contents (Elt F)) (ix2 3 j) := by
  have e : (StableHlo.after hostOps6 V main_v120 : (⟨S128, .f32⟩ : BufTy).Contents (Elt F))
      = shapeCast S128 (extractStridedSlice S1x128 ![3, 0] (V main_arg7) slices_S5x128_S1x128_3_0) shapeCasts_S1x128_S128 := by
    simp only [hostOps6]; after_results <;> rfl
  rw [e]; exact row128_apply 3 (by omega) _ _ _ j

theorem h6_v122 (V : Valuation τ sig (Elt F)) (r : Fin 65536) (j : Fin 128) :
    (StableHlo.after hostOps6 V main_v122 : (⟨S65536x128, .f32⟩ : BufTy).Contents (Elt F)) (ix2 r j)
      = (V main_arg8 : (⟨S3x65536x128, .f32⟩ : BufTy).Contents (Elt F)) (ix3 1 r j) := by
  have e : (StableHlo.after hostOps6 V main_v122 : (⟨S65536x128, .f32⟩ : BufTy).Contents (Elt F))
      = shapeCast S65536x128 (extractStridedSlice S1x65536x128 ![1, 0, 0] (V main_arg8) slices_S3x65536x128_S1x65536x128_1_0_0)
          shapeCasts_S1x65536x128_S65536x128 := by
    simp only [hostOps6]; after_results <;> rfl
  rw [e]; exact noise_apply 1 (by omega) _ _ _ r j

end Even

end Cert.KernelIdeal.Hand
-- ==== Proof.Hand.KerHost7.lean ====
/-
  Host stretch 7 of the kernel program read at an index: node 3's batch mean and reciprocal standard deviation from the two cores' partial sums, and its scale and shift as rows.
-/
import proofs.«103476_j5987184410999_2_alg».proof.Proof.Hand.KerHostLib

set_option maxRecDepth 1816

noncomputable section

namespace Cert.KernelIdeal.Hand

open Cert.KernelIdeal Cert.KernelIdeal.Gen
open Idealize.ShloMosaic Idealize.ShloMosaic.TcCoe Idealize.ShloMosaic.ValueIdx
/-! ## Stretch 7: node 3's statistics, scale and shift -/

section Odd
open Cert.Hand.Spec (N eps)

theorem h7_v133 (V : Valuation τ sig (Elt Ideal)) (s1 : S16x128.Idx → EReal) (h1 : V main_v125_1 = s1) (j : Fin 128) :
    (StableHlo.after hostOps7 V main_v133 : S1x128.Idx → EReal) (ix2 0 j)
      = Ideal.div (s1 (ix2 0 j) + s1 (ix2 8 j)) N := by
  subst h1
  have e : (StableHlo.after hostOps7 V main_v133 : S1x128.Idx → EReal)
      = (Host.divf (addf (extractStridedSlice S1x128 ![0, 0] (V main_v125_1 : FVec Ideal S16x128 .f32) slices_S16x128_S1x128_0_0)
            (extractStridedSlice S1x128 ![8, 0] (V main_v125_1 : FVec Ideal S16x128 .f32) slices_S16x128_S1x128_8_0))
          (broadcastInDim S1x128 ![] bcast_S_S1x128 (constant (F := Ideal) S_ .f32 0x47800000#32)) : FVec Ideal S1x128 .f32) := by
    simp only [hostOps7]; after_results <;> rfl
  rw [e]; exact mean_apply _ _ _ _ j

set_option maxHeartbeats 400000 in
theorem h7_v140 (V : Valuation τ sig (Elt Ideal)) (s1 s2 : S16x128.Idx → EReal) (h1 : V main_v125_1 = s1) (h2 : V main_v125_2 = s2)
    (j : Fin 128) :
    (StableHlo.after hostOps7 V main_v140 : S1x128.Idx → EReal) (ix2 0 j)
      = Ideal.rsqrt ((Ideal.div (s2 (ix2 0 j) + s2 (ix2 8 j)) N
          - Ideal.div (s1 (ix2 0 j) + s1 (ix2 8 j)) N * Ideal.div (s1 (ix2 0 j) + s1 (ix2 8 j)) N) + eps) := by
  subst h1 h2
  have e : (StableHlo.after hostOps7 V main_v140 : S1x128.Idx → EReal)
      = (Host.rsqrt (addf (subf
          (Host.divf (addf (extractStridedSlice S1x128 ![0, 0] (V main_v125_2 : FVec Ideal S16x128 .f32) slices_S16x128_S1x128_0_0)
              (extractStridedSlice S1x128 ![8, 0] (V main_v125_2 : FVec Ideal S16x128 .f32) slices_S16x128_S1x128_8_0))
            (broadcastInDim S1x128 ![] bcast_S_S1x128 (constant (F := Ideal) S_ .f32 0x47800000#32)))
          (mulf
            (Host.divf (addf (extractStridedSlice S1x128 ![0, 0] (V main_v125_1 : FVec Ideal S16x128 .f32) slices_S16x128_S1x128_0_0)
                (extractStridedSlice S1x128 ![8, 0] (V main_v125_1 : FVec Ideal S16x128 .f32) slices_S16x128_S1x128_8_0))
              (broadcastInDim S1x128 ![] bcast_S_S1x128 (constant (F := Ideal) S_ .f32 0x47800000#32)))
            (Host.divf (addf (extractStridedSlice S1x128 ![0, 0] (V main_v125_1 : FVec Ideal S16x128 .f32) slices_S16x128_S1x128_0_0)
                (extractStridedSlice S1x128 ![8, 0] (V main_v125_1 : FVec Ideal S16x128 .f32) slices_S16x128_S1x128_8_0))
              (broadcastInDim S1x128 ![] bcast_S_S1x128 (constant (F := Ideal) S_ .f32 0x47800000#32)))))
          (broadcastInDim S1x128 ![] bcast_S_S1x128 (constant (F := Ideal) S_ .f32 0x3727C5AC#32))) : FVec Ideal S1x128 .f32) := by
    simp only [hostOps7]; after_results_simp <;> rfl
  rw [e]; exact invstd_apply _ _ _ _ _ j

theorem h7_v141 (V : Valuation τ sig (Elt Ideal)) (j : Fin 128) :
    (StableHlo.after hostOps7 V main_v141 : S1x128.Idx → EReal) (ix2 0 j) = (V main_v118 : S128.Idx → EReal) (ix1 j) := by
  have e : (StableHlo.after hostOps7 V main_v141 : S1x128.Idx → EReal)
      = shapeCast S1x128 (V main_v118 : S128.Idx → EReal) shapeCasts_S128_S1x128 := by
    simp only [hostOps7]; after_results <;> rfl
  rw [e]; exact unsq128_apply _ _ j

theorem h7_v142 (V : Valuation τ sig (Elt Ideal)) (j : Fin 128) :
    (StableHlo.after hostOps7 V main_v142 : S1x128.Idx → EReal) (ix2 0 j) = (V main_v120 : S128.Idx → EReal) (ix1 j) := by
  have e : (StableHlo.after hostOps7 V main_v142 : S1x128.Idx → EReal)
      = shapeCast S1x128 (V main_v120 : S128.Idx → EReal) shapeCasts_S128_S1x128 := by
    simp only [hostOps7]; after_results <;> rfl
  rw [e]; exact unsq128_apply _ _ j

end Odd

end Cert.KernelIdeal.Hand
-- ==== Proof.Hand.PayIdx6.lean ====
import proofs.«103476_j5987184410999_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx
open scoped BigOperators

/-! # The first-pass body of region 6 read at an index, at the ideal values

  The body's output block is `relu (xa·Wa + xb·Wb + b1)·W2 + b2`: the first layer's product is taken in two halves
  of the contracted axis, each a matrix product read as the sum over its contracted coordinate; a bias row is laid
  along every row, and the maximum with zero taken; the format changes around the products are the identity at the
  ideal values. Its two statistics rows are the rows found plus the column sums of the block and of its square. -/

/-! ## The matrix products -/

/-- The left operand's row coordinate is the output's. -/
private theorem lhs_C_0 (i : S4096x256.Idx) (c : dot_S4096x128_S128x256_S4096x256_1_0_0_1_n_n.contr.Idx) :
    (dot_S4096x128_S128x256_S4096x256_1_0_0_1_n_n.lhsIdx i c 0).val = (i 0).val := by
  unfold DotDims.lhsIdx
  rw [dif_neg (show ¬(0 : Fin S4096x128.rank) ∈ dot_S4096x128_S128x256_S4096x256_1_0_0_1_n_n.lhsBatch by decide),
    dif_pos (show (0 : Fin S4096x128.rank) ∈ dot_S4096x128_S128x256_S4096x256_1_0_0_1_n_n.lhsNonContracting by decide)]
  rfl
/-- The left operand's column coordinate is the contraction's. -/
private theorem lhs_C_1 (i : S4096x256.Idx) (c : dot_S4096x128_S128x256_S4096x256_1_0_0_1_n_n.contr.Idx) :
    (dot_S4096x128_S128x256_S4096x256_1_0_0_1_n_n.lhsIdx i c 1).val = (c ⟨0, by decide⟩).val :=
  dot_S4096x128_S128x256_S4096x256_1_0_0_1_n_n.lhsIdx_val_of_single rfl i c
/-- The right operand's row coordinate is the contraction's. -/
private theorem rhs_C_0 (i : S4096x256.Idx) (c : dot_S4096x128_S128x256_S4096x256_1_0_0_1_n_n.contr.Idx) :
    (dot_S4096x128_S128x256_S4096x256_1_0_0_1_n_n.rhsIdx i c 0).val = (c ⟨0, by decide⟩).val :=
  dot_S4096x128_S128x256_S4096x256_1_0_0_1_n_n.rhsIdx_val_of_single rfl i c
/-- The right operand's column coordinate is the output's. -/
private theorem rhs_C_1 (i : S4096x256.Idx) (c : dot_S4096x128_S128x256_S4096x256_1_0_0_1_n_n.contr.Idx) :
    (dot_S4096x128_S128x256_S4096x256_1_0_0_1_n_n.rhsIdx i c 1).val = (i 1).val := by
  unfold DotDims.rhsIdx
  rw [dif_neg (show ¬(1 : Fin S128x256.rank) ∈ dot_S4096x128_S128x256_S4096x256_1_0_0_1_n_n.rhsBatch by decide),
    dif_pos (show (1 : Fin S128x256.rank) ∈ dot_S4096x128_S128x256_S4096x256_1_0_0_1_n_n.rhsNonContracting by decide)]
  rfl

/-- The [4096,128] by [128,256] product accumulated into the zero splat, read at (q, h): the sum over the
    contracted coordinate of the entries' products. -/
private theorem matmul_C_apply {φ₁ φ₂ : FTy} (A : FVec Ideal S4096x128 φ₁) (B : FVec Ideal S128x256 φ₂) (q : Fin 4096) (h : Fin 256) :
    matmul dot_S4096x128_S128x256_S4096x256_1_0_0_1_n_n none A B (constant (F := Ideal) S4096x256 .f32 0x00000000#32) (ix2 q h)
      = ∑ k : Fin 128, A (ix2 q k) * B (ix2 k h) := by
  show FloatOps.matmul dot_S4096x128_S128x256_S4096x256_1_0_0_1_n_n none A B (constant S4096x256 .f32 0x00000000#32) (ix2 q h) = _
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 q h) ((contrEquiv1 dot_S4096x128_S128x256_S4096x256_1_0_0_1_n_n 128 rfl rfl).symm k) = ix2 q k :=
    funext fun a => Fin.ext (by
      match a with
      | ⟨0, _⟩ => exact lhs_C_0 _ _
      | ⟨1, _⟩ => exact (lhs_C_1 _ _).trans hk)
  have er : dot_S4096x128_S128x256_S4096x256_1_0_0_1_n_n.rhsIdx (ix2 q h) ((contrEquiv1 dot_S4096x128_S128x256_S4096x256_1_0_0_1_n_n 128 rfl rfl).symm k) = ix2 k h :=
    funext fun a => Fin.ext (by
      match a with
      | ⟨0, _⟩ => exact (rhs_C_0 _ _).trans hk
      | ⟨1, _⟩ => exact rhs_C_1 _ _)
  rw [el, er]

/-- The left operand's row coordinate is the output's. -/
private theorem lhs_B_0 (i : S4096x128.Idx) (c : dot_S4096x256_S256x128_S4096x128_1_0_0_1_n_n.contr.Idx) :
    (dot_S4096x256_S256x128_S4096x128_1_0_0_1_n_n.lhsIdx i c 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl
/-- The left operand's column coordinate is the contraction's. -/
private theorem lhs_B_1 (i : S4096x128.Idx) (c : dot_S4096x256_S256x128_S4096x128_1_0_0_1_n_n.contr.Idx) :
    (dot_S4096x256_S256x128_S4096x128_1_0_0_1_n_n.lhsIdx i c 1).val = (c ⟨0, by decide⟩).val :=
  dot_S4096x256_S256x128_S4096x128_1_0_0_1_n_n.lhsIdx_val_of_single rfl i c
/-- The right operand's row coordinate is the contraction's. -/
private theorem rhs_B_0 (i : S4096x128.Idx) (c : dot_S4096x256_S256x128_S4096x128_1_0_0_1_n_n.contr.Idx) :
    (dot_S4096x256_S256x128_S4096x128_1_0_0_1_n_n.rhsIdx i c 0).val = (c ⟨0, by decide⟩).val :=
  dot_S4096x256_S256x128_S4096x128_1_0_0_1_n_n.rhsIdx_val_of_single rfl i c
/-- The right operand's column coordinate is the output's. -/
private theorem rhs_B_1 (i : S4096x128.Idx) (c : dot_S4096x256_S256x128_S4096x128_1_0_0_1_n_n.contr.Idx) :
    (dot_S4096x256_S256x128_S4096x128_1_0_0_1_n_n.rhsIdx i c 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- The [4096,256] by [256,128] product accumulated into the zero splat, read at (q, h): the sum over the
    contracted coordinate of the entries' products. -/
private theorem matmul_B_apply {φ₁ φ₂ : FTy} (A : FVec Ideal S4096x256 φ₁) (B : FVec Ideal S256x128 φ₂) (q : Fin 4096) (h : Fin 128) :
    matmul dot_S4096x256_S256x128_S4096x128_1_0_0_1_n_n none A B (constant (F := Ideal) S4096x128 .f32 0x00000000#32) (ix2 q h)
      = ∑ k : Fin 256, A (ix2 q k) * B (ix2 k h) := by
  show FloatOps.matmul dot_S4096x256_S256x128_S4096x128_1_0_0_1_n_n none A B (constant S4096x128 .f32 0x00000000#32) (ix2 q h) = _
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 q h) ((contrEquiv1 dot_S4096x256_S256x128_S4096x128_1_0_0_1_n_n 256 rfl rfl).symm k) = ix2 q k :=
    funext fun a => Fin.ext (by
      match a with
      | ⟨0, _⟩ => exact lhs_B_0 _ _
      | ⟨1, _⟩ => exact (lhs_B_1 _ _).trans hk)
  have er : dot_S4096x256_S256x128_S4096x128_1_0_0_1_n_n.rhsIdx (ix2 q h) ((contrEquiv1 dot_S4096x256_S256x128_S4096x128_1_0_0_1_n_n 256 rfl rfl).symm k) = ix2 k h :=
    funext fun a => Fin.ext (by
      match a with
      | ⟨0, _⟩ => exact (rhs_B_0 _ _).trans hk
      | ⟨1, _⟩ => exact rhs_B_1 _ _)
  rw [el, er]

/-! ## The output block -/

theorem k6_pay5_apply (xa xb : Vec Ideal S4096x128 .f32) (wa wb : Vec Ideal S128x256 .f32) (b1 : Vec Ideal S1x256 .f32)
    (w2 : Vec Ideal S256x128 .f32) (b2 : Vec Ideal S1x128 .f32) (q : Fin 4096) (j : Fin 128) :
    k6_pay5 (F := Ideal) xa xb wa wb b1 w2 b2 (ix2 q j)
      = (∑ h : Fin 256, max (((∑ k : Fin 128, xa (ix2 q k) * wa (ix2 k h)) + (∑ k : Fin 128, xb (ix2 q k) * wb (ix2 k h)))
            + b1 (ix2 0 h)) 0 * w2 (ix2 h j)) + b2 (ix2 0 j) := by
  unfold k6_pay5
  simp only [shapeCast_self]
  refine (addf_apply _ _ _).trans ?_
  refine congrArg₂ (· + ·) ?_ ?_
  · refine (matmul_B_apply _ _ q j).trans ?_
    refine Finset.sum_congr rfl fun h _ => ?_
    refine congrArg₂ (· * ·) ?_ rfl
    refine (truncf_apply (φ := .f32) (ψ := .bf16) _ bitsLt_bf16_f32 _).trans ?_
    refine (maximumf_apply _ _ _).trans ?_
    refine congrArg₂ max ?_ ?_
    · refine (addf_apply _ _ _).trans ?_
      refine congrArg₂ (· + ·) ?_ ?_
      · refine (addf_apply _ _ _).trans ?_
        refine congrArg₂ (· + ·) ?_ ?_
        · exact matmul_C_apply _ _ q h
        · exact matmul_C_apply _ _ q h
      · exact broadcastTo_1b_ab_apply _ _ q h
    · exact Ideal.ofBits_zero_f32
  · exact broadcastTo_1b_ab_apply _ _ q j

/-! ## The statistics rows -/

/-- The sum over the 4096 rows of a [4096,128] block, read at lane j (the accumulator is the neutral zero, which the
    reading drops). -/
private theorem colsum_apply (y : Vec Ideal S4096x128 .f32) (j : Fin 128) :
    multiReduction (F := Ideal) .add [0] S128 y 0x00000000#32 reduces_S4096x128_S128 (.inl rfl) rfl (ix1 j)
      = ∑ q : Fin 4096, y (ix2 q j) := by
  refine (Ideal.multiReduction_add_single y 0x00000000#32 reduces_S4096x128_S128 (.inl rfl) rfl (ix1 j)).trans ?_
  refine Finset.sum_congr rfl fun q _ => ?_
  refine congrArg y (funext fun a => Fin.ext ?_)
  match a with
  | ⟨0, _⟩ => rfl
  | ⟨1, _⟩ => rfl

/-- The row a first-pass body leaves in its statistics block: the row it found plus the column sums of the block. -/
private theorem rowAcc_apply (r : Vec Ideal S1x128 .f32) (y : Vec Ideal S4096x128 .f32) (j : Fin 128) :
    addf (shapeCast S1x128 r shapeCasts_S1x128_S1x128)
        (shapeCast S1x128 (multiReduction (F := Ideal) .add [0] S128 y 0x00000000#32 reduces_S4096x128_S128 (.inl rfl) rfl) shapeCasts_S128_S1x128)
        (ix2 0 j)
      = r (ix2 0 j) + ∑ q : Fin 4096, y (ix2 q j) := by
  refine (addf_apply _ _ _).trans ?_
  refine congrArg₂ (· + ·) ?_ ?_
  · rw [shapeCast_self]
  · exact (shapeCast_a_1a_apply _ shapeCasts_S128_S1x128 0 j).trans (colsum_apply y j)

theorem k6_pay1_apply (y : FVec Ideal S4096x128 .f32) (r : Vec Ideal S1x128 .f32) (j : Fin 128) :
    k6_pay1 (F := Ideal) y r (ix2 0 j) = r (ix2 0 j) + ∑ q : Fin 4096, y (ix2 q j) := by
  unfold k6_pay1
  exact rowAcc_apply r y j

theorem k6_pay2_apply (y : FVec Ideal S4096x128 .f32) (r : Vec Ideal S1x128 .f32) (j : Fin 128) :
    k6_pay2 (F := Ideal) y r (ix2 0 j) = r (ix2 0 j) + ∑ q : Fin 4096, y (ix2 q j) * y (ix2 q j) := by
  unfold k6_pay2
  exact rowAcc_apply r (mulf y y) j

/-- The two rows a core's first step writes: zero everywhere. -/
theorem k6_pay3_apply (i : S1x128.Idx) : k6_pay3 (F := Ideal) i = 0 := Ideal.ofBits_zero_f32
theorem k6_pay4_apply (i : S1x128.Idx) : k6_pay4 (F := Ideal) i = 0 := Ideal.ofBits_zero_f32

end Cert.KernelIdeal.Hand
-- ==== Proof.Hand.P1v6.lean ====
import proofs.«103476_j5987184410999_2_alg».proof.Proof.Hand.P1r6
import proofs.«103476_j5987184410999_2_alg».proof.Proof.Hand.P1r6Arr
import proofs.«103476_j5987184410999_2_alg».proof.Proof.Hand.PayIdx6
import proofs.«103476_j5987184410999_2_alg».proof.Proof.Hand.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

/-! # Region 6's values at the ideal instance, index by index, for arbitrary entry contents

  The seven input blocks of a point are read off the arrays the region finds: the two x blocks of point `t` are rows
  `4096 t …` of their [65536,128] arrays, the five parameter blocks are their whole arrays. With them the body's
  output block at point `t` is the perceptron's rows `4096 t …`, its first layer contracted in two halves — stated
  against any [256,256] first weight whose upper and lower halves are the two [128,256] arrays the region reads —, and
  a core's statistics row is the left fold from zero of its eight blocks' column sums. -/

/-! ## The input blocks -/

/-- The printed index maps, decided over the grid: windows 0 and 1 move one block of rows a point, the parameter
    windows stay at block (0, 0). -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- The block of window 0 at point `t`, read at (q, k): the array at row `4096 t + q`. -/
theorem iblk6_0_apply (c : Dev nD) (t : Fin cfg6.N) (q : Fin 4096) (r : Fin 65536)
    (hr : r.val = t.val * 4096 + q.val) (k : Fin 128) :
    iblk6 V c 0 t (ix2 q k) = (V c main_v32 : S65536x128.Idx → EReal) (ix2 r k) := by
  obtain ⟨e00, e01, e10, e11, -⟩ := idx_facts6 t
  unfold iblk6
  rw [View.read_apply]
  show V c main_v32 (((cfg6.win 0).blk t).view.emb (ix2 q k)) = V c main_v32 (ix2 r k)
  refine congrArg (V c main_v32) (funext fun a => Fin.ext ?_)
  match a with
  | ⟨0, _⟩ => show win6_0.index t (0 : Fin 2) * 4096 + 1 * q.val = r.val; omega
  | ⟨1, _⟩ => show win6_0.index t (1 : Fin 2) * 128 + 1 * k.val = k.val; omega

/-- The block of window 1 at point `t`, read at (q, k): the array at row `4096 t + q`. -/
theorem iblk6_1_apply (c : Dev nD) (t : Fin cfg6.N) (q : Fin 4096) (r : Fin 65536)
    (hr : r.val = t.val * 4096 + q.val) (k : Fin 128) :
    iblk6 V c 1 t (ix2 q k) = (V c main_v110 : S65536x128.Idx → EReal) (ix2 r k) := by
  obtain ⟨e00, e01, e10, e11, -⟩ := idx_facts6 t
  unfold iblk6
  rw [View.read_apply]
  show V c main_v110 (((cfg6.win 1).blk t).view.emb (ix2 q k)) = V c main_v110 (ix2 r k)
  refine congrArg (V c main_v110) (funext fun a => Fin.ext ?_)
  match a with
  | ⟨0, _⟩ => show win6_1.index t (0 : Fin 2) * 4096 + 1 * q.val = r.val; omega
  | ⟨1, _⟩ => show win6_1.index t (1 : Fin 2) * 128 + 1 * k.val = k.val; omega

theorem iblk6_2_apply (c : Dev nD) (t : Fin cfg6.N) (k : Fin 128) (h : Fin 256) :
    iblk6 V c 2 t (ix2 k h) = (V c main_v71 : S128x256.Idx → EReal) (ix2 k h) := by
  obtain ⟨-, -, -, -, e20, e21, e30, e31, e40, e41, e50, e51, e60, e61⟩ := idx_facts6 t
  unfold iblk6
  rw [View.read_apply]
  show V c main_v71 (((cfg6.win 2).blk t).view.emb (ix2 k h)) = V c main_v71 (ix2 k h)
  refine congrArg (V c main_v71) (funext fun a => Fin.ext ?_)
  match a with
  | ⟨0, _⟩ => show win6_2.index t (0 : Fin 2) * 128 + 1 * k.val = k.val; omega
  | ⟨1, _⟩ => show win6_2.index t (1 : Fin 2) * 256 + 1 * h.val = h.val; omega

theorem iblk6_3_apply (c : Dev nD) (t : Fin cfg6.N) (k : Fin 128) (h : Fin 256) :
    iblk6 V c 3 t (ix2 k h) = (V c main_v73 : S128x256.Idx → EReal) (ix2 k h) := by
  obtain ⟨-, -, -, -, e20, e21, e30, e31, e40, e41, e50, e51, e60, e61⟩ := idx_facts6 t
  unfold iblk6
  rw [View.read_apply]
  show V c main_v73 (((cfg6.win 3).blk t).view.emb (ix2 k h)) = V c main_v73 (ix2 k h)
  refine congrArg (V c main_v73) (funext fun a => Fin.ext ?_)
  match a with
  | ⟨0, _⟩ => show win6_3.index t (0 : Fin 2) * 128 + 1 * k.val = k.val; omega
  | ⟨1, _⟩ => show win6_3.index t (1 : Fin 2) * 256 + 1 * h.val = h.val; omega

theorem iblk6_4_apply (c : Dev nD) (t : Fin cfg6.N) (u : Fin 1) (h : Fin 256) :
    iblk6 V c 4 t (ix2 u h) = (V c main_v123 : S1x256.Idx → EReal) (ix2 u h) := by
  obtain ⟨-, -, -, -, e20, e21, e30, e31, e40, e41, e50, e51, e60, e61⟩ := idx_facts6 t
  unfold iblk6
  rw [View.read_apply]
  show V c main_v123 (((cfg6.win 4).blk t).view.emb (ix2 u h)) = V c main_v123 (ix2 u h)
  refine congrArg (V c main_v123) (funext fun a => Fin.ext ?_)
  match a with
  | ⟨0, _⟩ => show win6_4.index t (0 : Fin 2) * 1 + 1 * u.val = u.val; omega
  | ⟨1, _⟩ => show win6_4.index t (1 : Fin 2) * 256 + 1 * h.val = h.val; omega

theorem iblk6_5_apply (c : Dev nD) (t : Fin cfg6.N) (h : Fin 256) (j : Fin 128) :
    iblk6 V c 5 t (ix2 h j) = (V c main_v114 : S256x128.Idx → EReal) (ix2 h j) := by
  obtain ⟨-, -, -, -, e20, e21, e30, e31, e40, e41, e50, e51, e60, e61⟩ := idx_facts6 t
  unfold iblk6
  rw [View.read_apply]
  show V c main_v114 (((cfg6.win 5).blk t).view.emb (ix2 h j)) = V c main_v114 (ix2 h j)
  refine congrArg (V c main_v114) (funext fun a => Fin.ext ?_)
  match a with
  | ⟨0, _⟩ => show win6_5.index t (0 : Fin 2) * 256 + 1 * h.val = h.val; omega
  | ⟨1, _⟩ => show win6_5.index t (1 : Fin 2) * 128 + 1 * j.val = j.val; omega

theorem iblk6_6_apply (c : Dev nD) (t : Fin cfg6.N) (u : Fin 1) (j : Fin 128) :
    iblk6 V c 6 t (ix2 u j) = (V c main_v124 : S1x128.Idx → EReal) (ix2 u j) := by
  obtain ⟨-, -, -, -, e20, e21, e30, e31, e40, e41, e50, e51, e60, e61⟩ := idx_facts6 t
  unfold iblk6
  rw [View.read_apply]
  show V c main_v124 (((cfg6.win 6).blk t).view.emb (ix2 u j)) = V c main_v124 (ix2 u j)
  refine congrArg (V c main_v124) (funext fun a => Fin.ext ?_)
  match a with
  | ⟨0, _⟩ => show win6_6.index t (0 : Fin 2) * 1 + 1 * u.val = u.val; omega
  | ⟨1, _⟩ => show win6_6.index t (1 : Fin 2) * 128 + 1 * j.val = j.val; omega

/-! ## The output block -/

/-- The specification's perceptron, first layer in two halves, of the arrays region 6 reads as the region finds them,
    against a first weight `W1`. -/
abbrev lin6 (c : Dev nD) (W1 : Fin 256 → Fin 256 → EReal) : Fin 65536 → Fin 128 → EReal :=
  Cert.Hand.Spec.linSplit (fun r k => (V c main_v32 : S65536x128.Idx → EReal) (ix2 r k))
    (fun r k => (V c main_v110 : S65536x128.Idx → EReal) (ix2 r k)) W1 (fun h => (V c main_v123 : S1x256.Idx → EReal) (ix2 0 h))
    (fun h j => (V c main_v114 : S256x128.Idx → EReal) (ix2 h j)) (fun j => (V c main_v124 : S1x128.Idx → EReal) (ix2 0 j))

/-- The body's block of `y` at point `t`, read at (q, j): that perceptron at row `4096 t + q`, for any first
    weight whose halves are the two arrays the region reads. -/
theorem yat6_eq_lin (c : Dev nD) (W1 : Fin 256 → Fin 256 → EReal)
    (ha : ∀ (k : Fin 128) (h : Fin 256), (V c main_v71 : S128x256.Idx → EReal) (ix2 k h) = W1 ⟨k.val, by omega⟩ h)
    (hb : ∀ (k : Fin 128) (h : Fin 256), (V c main_v73 : S128x256.Idx → EReal) (ix2 k h) = W1 ⟨128 + k.val, by omega⟩ h)
    (t : Fin cfg6.N) (q : Fin 4096) (r : Fin 65536) (hr : r.val = t.val * 4096 + q.val) (j : Fin 128) :
    yat6 V c t (ix2 q j) = lin6 V c W1 r j := by
  unfold yat6 yblk6
  refine (k6_pay5_apply _ _ _ _ _ _ _ q j).trans ?_
  unfold lin6 Cert.Hand.Spec.linSplit
  refine congrArg₂ (· + ·) ?_ ?_
  · refine Finset.sum_congr rfl fun h _ => ?_
    refine congrArg₂ (· * ·) ?_ ?_
    · refine congrArg₂ max ?_ rfl
      refine congrArg₂ (· + ·) ?_ ?_
      · refine congrArg₂ (· + ·) ?_ ?_
        · refine Finset.sum_congr rfl fun k _ => ?_
          refine congrArg₂ (· * ·) ?_ ?_
          · exact iblk6_0_apply V c t q r hr k
          · exact (iblk6_2_apply V c t k h).trans (ha k h)
        · refine Finset.sum_congr rfl fun k _ => ?_
          refine congrArg₂ (· * ·) ?_ ?_
          · exact iblk6_1_apply V c t q r hr k
          · exact (iblk6_3_apply V c t k h).trans (hb k h)
      · exact iblk6_4_apply V c t 0 h
    · exact iblk6_5_apply V c t h j
  · exact iblk6_6_apply V c t 0 j

/-! ## The statistics rows -/

/-- One accumulation step read at lane j: the row found plus the block's column sum. -/
theorem r6acc_apply (rr : Vec Ideal S1x128 .f32) (y : FVec Ideal S4096x128 .f32) (j : Fin 128) :
    r6acc rr y (ix2 0 j) = rr (ix2 0 j) + ∑ q : Fin 4096, y (ix2 q j) := k6_pay1_apply y rr j

/-- The same of the squares. -/
theorem r6accsq_apply (rr : Vec Ideal S1x128 .f32) (y : FVec Ideal S4096x128 .f32) (j : Fin 128) :
    r6accsq rr y (ix2 0 j) = rr (ix2 0 j) + ∑ q : Fin 4096, y (ix2 q j) * y (ix2 q j) := k6_pay2_apply y rr j

/-- The zero row reads zero. -/
theorem r6zrow_apply (i : S1x128.Idx) : r6zrow (F := Ideal) i = 0 := Ideal.ofBits_zero_f32

/-- Eight accumulation steps from the zero row: the left fold from zero of the eight blocks' column sums. -/
theorem r6acc_fold8 (y0 y1 y2 y3 y4 y5 y6 y7 : FVec Ideal S4096x128 .f32) (j : Fin 128) :
    r6acc (r6acc (r6acc (r6acc (r6acc (r6acc (r6acc (r6acc r6zrow y0) y1) y2) y3) y4) y5) y6) y7 (ix2 0 j)
      = ((((((((0 + ∑ q : Fin 4096, y0 (ix2 q j)) + ∑ q : Fin 4096, y1 (ix2 q j)) + ∑ q : Fin 4096, y2 (ix2 q j))
          + ∑ q : Fin 4096, y3 (ix2 q j)) + ∑ q : Fin 4096, y4 (ix2 q j)) + ∑ q : Fin 4096, y5 (ix2 q j))
          + ∑ q : Fin 4096, y6 (ix2 q j)) + ∑ q : Fin 4096, y7 (ix2 q j)) := by
  rw [r6acc_apply, r6acc_apply, r6acc_apply, r6acc_apply, r6acc_apply, r6acc_apply, r6acc_apply, r6acc_apply, r6zrow_apply]

/-- The same of the squares. -/
theorem r6accsq_fold8 (y0 y1 y2 y3 y4 y5 y6 y7 : FVec Ideal S4096x128 .f32) (j : Fin 128) :
    r6accsq (r6accsq (r6accsq (r6accsq (r6accsq (r6accsq (r6accsq (r6accsq r6zrow y0) y1) y2) y3) y4) y5) y6) y7 (ix2 0 j)
      = ((((((((0 + ∑ q : Fin 4096, y0 (ix2 q j) * y0 (ix2 q j)) + ∑ q : Fin 4096, y1 (ix2 q j) * y1 (ix2 q j))
          + ∑ q : Fin 4096, y2 (ix2 q j) * y2 (ix2 q j)) + ∑ q : Fin 4096, y3 (ix2 q j) * y3 (ix2 q j))
          + ∑ q : Fin 4096, y4 (ix2 q j) * y4 (ix2 q j)) + ∑ q : Fin 4096, y5 (ix2 q j) * y5 (ix2 q j))
          + ∑ q : Fin 4096, y6 (ix2 q j) * y6 (ix2 q j)) + ∑ q : Fin 4096, y7 (ix2 q j) * y7 (ix2 q j)) := by
  rw [r6accsq_apply, r6accsq_apply, r6accsq_apply, r6accsq_apply, r6accsq_apply, r6accsq_apply, r6accsq_apply,
    r6accsq_apply, r6zrow_apply]

/-! ## The whole arrays -/

/-- The array of `y` is that perceptron, row by row. -/
theorem yArr6_eq_lin (c : Dev nD) (W1 : Fin 256 → Fin 256 → EReal)
    (ha : ∀ (k : Fin 128) (h : Fin 256), (V c main_v71 : S128x256.Idx → EReal) (ix2 k h) = W1 ⟨k.val, by omega⟩ h)
    (hb : ∀ (k : Fin 128) (h : Fin 256), (V c main_v73 : S128x256.Idx → EReal) (ix2 k h) = W1 ⟨128 + k.val, by omega⟩ h) (r : Fin 65536) (j : Fin 128) : yArr6 V c (ix2 r j) = lin6 V c W1 r j := by
  show yat6 V c ⟨r.val / 4096, _⟩ (ix2 (⟨r.val % 4096, _⟩ : Fin 4096) j) = _
  exact yat6_eq_lin V c W1 ha hb _ _ r (by show r.val = r.val / 4096 * 4096 + r.val % 4096; omega) j

/-- Row `4096 t + q` is a row of the array. -/
theorem row_lt6 (t : Fin cfg6.N) (n : ℕ) (hn : t.val = n) (q : Fin 4096) : n * 4096 + q.val < 65536 := by
  have := q.isLt
  have h16 : t.val < 16 := by have := t.isLt; have hN : cfg6.N = 16 := N_6; omega
  omega

/-- The column sum of the block of point `t`, over the perceptron's rows `4096 t …`. -/
theorem colsum_blk6 (c : Dev nD) (W1 : Fin 256 → Fin 256 → EReal)
    (ha : ∀ (k : Fin 128) (h : Fin 256), (V c main_v71 : S128x256.Idx → EReal) (ix2 k h) = W1 ⟨k.val, by omega⟩ h)
    (hb : ∀ (k : Fin 128) (h : Fin 256), (V c main_v73 : S128x256.Idx → EReal) (ix2 k h) = W1 ⟨128 + k.val, by omega⟩ h) (t : Fin cfg6.N) (n : ℕ) (hn : t.val = n) (j : Fin 128) :
    ∑ q : Fin 4096, yat6 V c t (ix2 q j) = ∑ q : Fin 4096, lin6 V c W1 ⟨n * 4096 + q.val, row_lt6 t n hn q⟩ j :=
  Finset.sum_congr rfl fun q _ =>
    yat6_eq_lin V c W1 ha hb t q _ (by show n * 4096 + q.val = t.val * 4096 + q.val; rw [hn]) j

/-- The same of the squares. -/
theorem colsq_blk6 (c : Dev nD) (W1 : Fin 256 → Fin 256 → EReal)
    (ha : ∀ (k : Fin 128) (h : Fin 256), (V c main_v71 : S128x256.Idx → EReal) (ix2 k h) = W1 ⟨k.val, by omega⟩ h)
    (hb : ∀ (k : Fin 128) (h : Fin 256), (V c main_v73 : S128x256.Idx → EReal) (ix2 k h) = W1 ⟨128 + k.val, by omega⟩ h) (t : Fin cfg6.N) (n : ℕ) (hn : t.val = n) (j : Fin 128) :
    ∑ q : Fin 4096, yat6 V c t (ix2 q j) * yat6 V c t (ix2 q j)
      = ∑ q : Fin 4096, lin6 V c W1 ⟨n * 4096 + q.val, row_lt6 t n hn q⟩ j
          * lin6 V c W1 ⟨n * 4096 + q.val, row_lt6 t n hn q⟩ j :=
  Finset.sum_congr rfl fun q _ => by
    have e := yat6_eq_lin V c W1 ha hb t q ⟨n * 4096 + q.val, row_lt6 t n hn q⟩
      (by show n * 4096 + q.val = t.val * 4096 + q.val; rw [hn]) j
    rw [e]

/-- Row 0 of the sums: core 0's left fold from zero of its eight blocks' column sums. -/
theorem row0_sumArr6_apply (c : Dev nD) (W1 : Fin 256 → Fin 256 → EReal)
    (ha : ∀ (k : Fin 128) (h : Fin 256), (V c main_v71 : S128x256.Idx → EReal) (ix2 k h) = W1 ⟨k.val, by omega⟩ h)
    (hb : ∀ (k : Fin 128) (h : Fin 256), (V c main_v73 : S128x256.Idx → EReal) (ix2 k h) = W1 ⟨128 + k.val, by omega⟩ h) (j : Fin 128) :
    row0 (sumArr6 V c) (ix2 0 j)
      = Cert.Hand.Spec.fold8 (fun i : Fin 8 => ∑ q : Fin 4096,
        lin6 V c W1 ⟨(0 * 8 + i.val) * 4096 + q.val, by have := i.isLt; have := q.isLt; omega⟩ j) := by
  rw [row0_sumArr6, r6sum_core0, r6acc_fold8]
  rw [colsum_blk6 V c W1 ha hb t6_0 0 rfl j,
    colsum_blk6 V c W1 ha hb t6_1 1 rfl j,
    colsum_blk6 V c W1 ha hb t6_2 2 rfl j,
    colsum_blk6 V c W1 ha hb t6_3 3 rfl j,
    colsum_blk6 V c W1 ha hb t6_4 4 rfl j,
    colsum_blk6 V c W1 ha hb t6_5 5 rfl j,
    colsum_blk6 V c W1 ha hb t6_6 6 rfl j,
    colsum_blk6 V c W1 ha hb t6_7 7 rfl j]
  try rfl

/-- Row 8 of the sums: core 1's left fold from zero of its eight blocks' column sums. -/
theorem row8_sumArr6_apply (c : Dev nD) (W1 : Fin 256 → Fin 256 → EReal)
    (ha : ∀ (k : Fin 128) (h : Fin 256), (V c main_v71 : S128x256.Idx → EReal) (ix2 k h) = W1 ⟨k.val, by omega⟩ h)
    (hb : ∀ (k : Fin 128) (h : Fin 256), (V c main_v73 : S128x256.Idx → EReal) (ix2 k h) = W1 ⟨128 + k.val, by omega⟩ h) (j : Fin 128) :
    row8 (sumArr6 V c) (ix2 0 j)
      = Cert.Hand.Spec.fold8 (fun i : Fin 8 => ∑ q : Fin 4096,
        lin6 V c W1 ⟨(1 * 8 + i.val) * 4096 + q.val, by have := i.isLt; have := q.isLt; omega⟩ j) := by
  rw [row8_sumArr6, r6sum_core1, r6acc_fold8]
  rw [colsum_blk6 V c W1 ha hb t6_8 8 rfl j,
    colsum_blk6 V c W1 ha hb t6_9 9 rfl j,
    colsum_blk6 V c W1 ha hb t6_10 10 rfl j,
    colsum_blk6 V c W1 ha hb t6_11 11 rfl j,
    colsum_blk6 V c W1 ha hb t6_12 12 rfl j,
    colsum_blk6 V c W1 ha hb t6_13 13 rfl j,
    colsum_blk6 V c W1 ha hb t6_14 14 rfl j,
    colsum_blk6 V c W1 ha hb t6_15 15 rfl j]
  try rfl

/-- Row 0 of the sums of squares: core 0's left fold from zero of its eight blocks' column sums of squares. -/
theorem row0_sqArr6_apply (c : Dev nD) (W1 : Fin 256 → Fin 256 → EReal)
    (ha : ∀ (k : Fin 128) (h : Fin 256), (V c main_v71 : S128x256.Idx → EReal) (ix2 k h) = W1 ⟨k.val, by omega⟩ h)
    (hb : ∀ (k : Fin 128) (h : Fin 256), (V c main_v73 : S128x256.Idx → EReal) (ix2 k h) = W1 ⟨128 + k.val, by omega⟩ h) (j : Fin 128) :
    row0 (sqArr6 V c) (ix2 0 j)
      = Cert.Hand.Spec.fold8 (fun i : Fin 8 => ∑ q : Fin 4096,
        lin6 V c W1 ⟨(0 * 8 + i.val) * 4096 + q.val, by have := i.isLt; have := q.isLt; omega⟩ j
          * lin6 V c W1 ⟨(0 * 8 + i.val) * 4096 + q.val, by have := i.isLt; have := q.isLt; omega⟩ j) := by
  rw [row0_sqArr6, r6sumsq_core0, r6accsq_fold8]
  rw [colsq_blk6 V c W1 ha hb t6_0 0 rfl j,
    colsq_blk6 V c W1 ha hb t6_1 1 rfl j,
    colsq_blk6 V c W1 ha hb t6_2 2 rfl j,
    colsq_blk6 V c W1 ha hb t6_3 3 rfl j,
    colsq_blk6 V c W1 ha hb t6_4 4 rfl j,
    colsq_blk6 V c W1 ha hb t6_5 5 rfl j,
    colsq_blk6 V c W1 ha hb t6_6 6 rfl j,
    colsq_blk6 V c W1 ha hb t6_7 7 rfl j]
  try rfl

/-- Row 8 of the sums of squares: core 1's left fold from zero of its eight blocks' column sums of squares. -/
theorem row8_sqArr6_apply (c : Dev nD) (W1 : Fin 256 → Fin 256 → EReal)
    (ha : ∀ (k : Fin 128) (h : Fin 256), (V c main_v71 : S128x256.Idx → EReal) (ix2 k h) = W1 ⟨k.val, by omega⟩ h)
    (hb : ∀ (k : Fin 128) (h : Fin 256), (V c main_v73 : S128x256.Idx → EReal) (ix2 k h) = W1 ⟨128 + k.val, by omega⟩ h) (j : Fin 128) :
    row8 (sqArr6 V c) (ix2 0 j)
      = Cert.Hand.Spec.fold8 (fun i : Fin 8 => ∑ q : Fin 4096,
        lin6 V c W1 ⟨(1 * 8 + i.val) * 4096 + q.val, by have := i.isLt; have := q.isLt; omega⟩ j
          * lin6 V c W1 ⟨(1 * 8 + i.val) * 4096 + q.val, by have := i.isLt; have := q.isLt; omega⟩ j) := by
  rw [row8_sqArr6, r6sumsq_core1, r6accsq_fold8]
  rw [colsq_blk6 V c W1 ha hb t6_8 8 rfl j,
    colsq_blk6 V c W1 ha hb t6_9 9 rfl j,
    colsq_blk6 V c W1 ha hb t6_10 10 rfl j,
    colsq_blk6 V c W1 ha hb t6_11 11 rfl j,
    colsq_blk6 V c W1 ha hb t6_12 12 rfl j,
    colsq_blk6 V c W1 ha hb t6_13 13 rfl j,
    colsq_blk6 V c W1 ha hb t6_14 14 rfl j,
    colsq_blk6 V c W1 ha hb t6_15 15 rfl j]
  try rfl

end Cert.KernelIdeal.Hand
-- ==== Proof.Hand.P2i7.lean ====
import proofs.«103476_j5987184410999_2_alg».proof.Proof.Hand.P2v7

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-- Region 7's output function over the extended reals, entry by entry: the scale times the centred entry, times
    the inverse deviation, plus the shift, plus the noise entry times the literal (the operations in the body's order). -/
theorem G7_apply (a0 : S65536x128.Idx → EReal) (a1 a2 a3 a4 : S1x128.Idx → EReal) (a5 : S65536x128.Idx → EReal) (r : Fin 65536) (j : Fin 128) :
    G7 (F := Ideal) a0 a1 a2 a3 a4 a5 (ix2 r j) = a3 (ix2 0 j) * (a0 (ix2 r j) - a1 (ix2 0 j)) * a2 (ix2 0 j) + a4 (ix2 0 j) + a5 (ix2 r j) * Ideal.ofBits .f32 0x3DCCCCCD#32 := rfl

/-- The output array of region 7 after the run, at an entry. -/
theorem final7_apply (V : (c : Dev nD) → (b : Ref sig .tc) → Buf (Elt Ideal) ((c : Thread nD τ).loc b)) (c : Dev nD) (r : Fin 65536) (j : Fin 128) :
    (dat7 V c).arrAt 6 cfg7.N (ix2 r j)
      = G7 (F := Ideal) (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (ix2 r j) :=
  congrFun (final7 V c) (ix2 r j)

end Cert.KernelIdeal.Hand

end
-- ==== Proof.Hand.KerVal3.lean ====
/-
  Network node 3 on the kernel's side, composed: the array the normalisation pass (region 7) leaves is, entry by
  entry, the kernel's reading of the batch normalisation of the split perceptron of nodes 0 and 2's outputs and the
  launch arguments, plus the scaled noise.
-/
import proofs.«103476_j5987184410999_2_alg».proof.Proof.Hand.ChainDefs3
import proofs.«103476_j5987184410999_2_alg».proof.Proof.Hand.KArgs
import proofs.«103476_j5987184410999_2_alg».proof.Proof.Hand.KerHost6
import proofs.«103476_j5987184410999_2_alg».proof.Proof.Hand.KerHost7
import proofs.«103476_j5987184410999_2_alg».proof.Proof.Hand.Glue
import proofs.«103476_j5987184410999_2_alg».proof.Proof.Hand.P1v6
import proofs.«103476_j5987184410999_2_alg».proof.Proof.Hand.P2i7
import proofs.«103476_j5987184410999_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Hand
open scoped BigOperators

variable (m : (ℓ : Loc nD τ sig) → Buf (Elt Ideal) ℓ)

/-! ## What region 6 is entered from, in terms of the earlier nodes and the launch arguments -/

/-- Host stretch 6 writes neither of the two earlier outputs it is fed. -/
theorem W13_xa (c : Dev nD) : W13 m c main_v32 = W12 m c main_v32 :=
  StableHlo.after_of_writes_sub hostOps6 _ hostOps6_writes (by decide)
theorem W13_xb (c : Dev nD) : W13 m c main_v110 = W12 m c main_v110 :=
  StableHlo.after_of_writes_sub hostOps6 _ hostOps6_writes (by decide)

section Node
variable (c : Dev nD)
  (hA : ∀ r k, (W12 m c main_v32 : S65536x128.Idx → EReal) (ix2 r k) = Net.k0 (kargs m c) r k)
  (hB : ∀ r k, (W12 m c main_v110 : S65536x128.Idx → EReal) (ix2 r k) = Net.k2 (kargs m c) r k)
  (hargs : ∀ a ∈ ([main_arg0, main_arg1, main_arg2, main_arg3, main_arg4, main_arg5, main_arg6, main_arg7, main_arg8] : List (Ref sig .tc)),
    W12 m c a = m (c, a))
  (hWa : ∀ (k : Fin 128) (h : Fin 256), (W12 m c main_v71 : S128x256.Idx → EReal) (ix2 k h) = (kargs m c).W1 3 ⟨k.val, by omega⟩ h)
  (hWb : ∀ (k : Fin 128) (h : Fin 256), (W12 m c main_v73 : S128x256.Idx → EReal) (ix2 k h) = (kargs m c).W1 3 ⟨128 + k.val, by omega⟩ h)

include hWa in
/-- The upper half of node 3's first weight matrix, as region 6 finds it: host stretch 6 does not write it. -/
theorem E6_Wa (k : Fin 128) (h : Fin 256) :
    (E6 m c main_v71 : S128x256.Idx → EReal) (ix2 k h) = (kargs m c).W1 3 ⟨k.val, by have := k.isLt; omega⟩ h := by
  have e : W13 m c main_v71 = W12 m c main_v71 :=
    StableHlo.after_of_writes_sub hostOps6 _ hostOps6_writes (by decide)
  show (W13 m c main_v71 : S128x256.Idx → EReal) (ix2 k h) = _
  rw [e]; exact hWa k h

include hWb in
/-- The lower half. -/
theorem E6_Wb (k : Fin 128) (h : Fin 256) :
    (E6 m c main_v73 : S128x256.Idx → EReal) (ix2 k h) = (kargs m c).W1 3 ⟨128 + k.val, by have := k.isLt; omega⟩ h := by
  have e : W13 m c main_v73 = W12 m c main_v73 :=
    StableHlo.after_of_writes_sub hostOps6 _ hostOps6_writes (by decide)
  show (W13 m c main_v73 : S128x256.Idx → EReal) (ix2 k h) = _
  rw [e]; exact hWb k h

include hargs in
theorem E6_b1 (h : Fin 256) : (E6 m c main_v123 : S1x256.Idx → EReal) (ix2 0 h) = (kargs m c).b1 3 h := by
  show (StableHlo.after hostOps6 (W12 m c) main_v123 : S1x256.Idx → EReal) (ix2 0 h) = _
  rw [h6_v123 (W12 m c) h, hargs main_arg3 (by decide)]
  rfl

include hargs in
theorem E6_W2 (h : Fin 256) (j : Fin 128) : (E6 m c main_v114 : S256x128.Idx → EReal) (ix2 h j) = (kargs m c).W2 3 h j := by
  show (StableHlo.after hostOps6 (W12 m c) main_v114 : S256x128.Idx → EReal) (ix2 h j) = _
  rw [h6_v114 (W12 m c) h j, hargs main_arg4 (by decide)]
  rfl

include hargs in
theorem E6_b2 (j : Fin 128) : (E6 m c main_v124 : S1x128.Idx → EReal) (ix2 0 j) = (kargs m c).b2 3 j := by
  show (StableHlo.after hostOps6 (W12 m c) main_v124 : S1x128.Idx → EReal) (ix2 0 j) = _
  rw [h6_v124 (W12 m c) j, hargs main_arg5 (by decide)]
  rfl

include hA in
theorem E6_xa (r : Fin 65536) (k : Fin 128) : (E6 m c main_v32 : S65536x128.Idx → EReal) (ix2 r k) = Net.k0 (kargs m c) r k := by
  show (W13 m c main_v32 : S65536x128.Idx → EReal) (ix2 r k) = _
  rw [W13_xa]; exact hA r k

include hB in
theorem E6_xb (r : Fin 65536) (k : Fin 128) : (E6 m c main_v110 : S65536x128.Idx → EReal) (ix2 r k) = Net.k2 (kargs m c) r k := by
  show (W13 m c main_v110 : S65536x128.Idx → EReal) (ix2 r k) = _
  rw [W13_xb]; exact hB r k

include hA hB hargs in
/-- The split perceptron of the arrays region 6 finds is the split perceptron of nodes 0 and 2's outputs and node 3's
    launch arguments. -/
theorem lin6_E6 :
    lin6 (E6 m) c ((kargs m c).W1 3)
      = Spec.linSplit (Net.k0 (kargs m c)) (Net.k2 (kargs m c)) ((kargs m c).W1 3) ((kargs m c).b1 3) ((kargs m c).W2 3) ((kargs m c).b2 3) := by
  have hxa : (fun r k => (E6 m c main_v32 : S65536x128.Idx → EReal) (ix2 r k)) = Net.k0 (kargs m c) := by
    funext r k; exact E6_xa m c hA r k
  have hxb : (fun r k => (E6 m c main_v110 : S65536x128.Idx → EReal) (ix2 r k)) = Net.k2 (kargs m c) := by
    funext r k; exact E6_xb m c hB r k
  have hb1 : (fun h => (E6 m c main_v123 : S1x256.Idx → EReal) (ix2 0 h)) = (kargs m c).b1 3 := by
    funext h; exact E6_b1 m c hargs h
  have hW2 : (fun h j => (E6 m c main_v114 : S256x128.Idx → EReal) (ix2 h j)) = (kargs m c).W2 3 := by
    funext h j; exact E6_W2 m c hargs h j
  have hb2 : (fun j => (E6 m c main_v124 : S1x128.Idx → EReal) (ix2 0 j)) = (kargs m c).b2 3 := by
    funext j; exact E6_b2 m c hargs j
  show Spec.linSplit _ _ _ _ _ _ = _
  rw [hxa, hxb, hb1, hW2, hb2]

/-! ## What region 7 is entered from -/

/-- The product array: region 6 left it, host stretch 7 does not write it. -/
theorem W15_y : W15 m c main_v125_0 = yArr6 (E6 m) c := by
  have e1 : W15 m c main_v125_0 = W14 m c main_v125_0 :=
    StableHlo.after_of_writes_sub hostOps7 _ hostOps7_writes (by decide)
  rw [e1]
  exact Pipeline.withArrays_arr spec6 launch6.win.arr_inj c (W13 m c) (GA6 m c) 7

/-- The sums and the sums of squares as region 6 left them. -/
theorem W14_sum : W14 m c main_v125_1 = sumArr6 (E6 m) c :=
  Pipeline.withArrays_arr spec6 launch6.win.arr_inj c (W13 m c) (GA6 m c) 8
theorem W14_sq : W14 m c main_v125_2 = sqArr6 (E6 m) c :=
  Pipeline.withArrays_arr spec6 launch6.win.arr_inj c (W13 m c) (GA6 m c) 9

include hargs in
/-- The scale row: a reshape of the scale vector host stretch 6 sliced out of the arguments. -/
theorem W15_gamma (j : Fin 128) : (W15 m c main_v141 : S1x128.Idx → EReal) (ix2 0 j) = (kargs m c).g 3 j := by
  show (StableHlo.after hostOps7 (W14 m c) main_v141 : S1x128.Idx → EReal) (ix2 0 j) = _
  rw [h7_v141 (W14 m c) j]
  have e : W14 m c main_v118 = W13 m c main_v118 :=
    Pipeline.withArrays_of_ne spec6 c (W13 m c) (GA6 m c) main_v118 (by decide)
  rw [e]
  show (StableHlo.after hostOps6 (W12 m c) main_v118 : S128.Idx → EReal) (ix1 j) = _
  rw [h6_v118 (W12 m c) j, hargs main_arg6 (by decide)]
  rfl

include hargs in
/-- The shift row likewise. -/
theorem W15_beta (j : Fin 128) : (W15 m c main_v142 : S1x128.Idx → EReal) (ix2 0 j) = (kargs m c).be 3 j := by
  show (StableHlo.after hostOps7 (W14 m c) main_v142 : S1x128.Idx → EReal) (ix2 0 j) = _
  rw [h7_v142 (W14 m c) j]
  have e : W14 m c main_v120 = W13 m c main_v120 :=
    Pipeline.withArrays_of_ne spec6 c (W13 m c) (GA6 m c) main_v120 (by decide)
  rw [e]
  show (StableHlo.after hostOps6 (W12 m c) main_v120 : S128.Idx → EReal) (ix1 j) = _
  rw [h6_v120 (W12 m c) j, hargs main_arg7 (by decide)]
  rfl

include hargs in
/-- The noise array: host stretch 6 sliced it out of the arguments; neither region 6 nor host stretch 7 writes it. -/
theorem W15_noise (r : Fin 65536) (j : Fin 128) : (W15 m c main_v122 : S65536x128.Idx → EReal) (ix2 r j) = (kargs m c).nz 1 r j := by
  have e1 : W15 m c main_v122 = W14 m c main_v122 :=
    StableHlo.after_of_writes_sub hostOps7 _ hostOps7_writes (by decide)
  have e2 : W14 m c main_v122 = W13 m c main_v122 :=
    Pipeline.withArrays_of_ne spec6 c (W13 m c) (GA6 m c) main_v122 (by decide)
  rw [e1, e2]
  show (StableHlo.after hostOps6 (W12 m c) main_v122 : S65536x128.Idx → EReal) (ix2 r j) = _
  rw [h6_v122 (W12 m c) r j, hargs main_arg8 (by decide)]
  rfl

/-! ## Node 3 -/

set_option maxHeartbeats 1000000 in
include hA hB hargs hWa hWb in
/-- The array region 7 leaves is the kernel's reading of network node 3 of the launch arguments. -/
theorem node3 (r : Fin 65536) (j : Fin 128) :
    (W16 m c main_v143 : S65536x128.Idx → EReal) (ix2 r j) = Net.k3 (kargs m c) r j := by
  have e12 : W16 m c main_v143 = GA7 m c 6 :=
    Pipeline.withArrays_arr spec7 launch7.win.arr_inj c (W15 m c) (GA7 m c) 6
  rw [e12]
  show (dat7 (E7 m) c).arrAt 6 cfg7.N (ix2 r j) = _
  rw [final7_apply (E7 m) c r j, G7_apply]
  have hW1a := E6_Wa m c hWa
  have hW1b := E6_Wb m c hWb
  have hg : (E7 m c (Pipeline.arrRef spec7 3) : S1x128.Idx → EReal) (ix2 0 j) = (kargs m c).g 3 j := W15_gamma m c hargs j
  have hb : (E7 m c (Pipeline.arrRef spec7 4) : S1x128.Idx → EReal) (ix2 0 j) = (kargs m c).be 3 j := W15_beta m c hargs j
  have hn : (E7 m c (Pipeline.arrRef spec7 5) : S65536x128.Idx → EReal) (ix2 r j) = (kargs m c).nz 1 r j := W15_noise m c hargs r j
  have hy : (E7 m c (Pipeline.arrRef spec7 0) : S65536x128.Idx → EReal) (ix2 r j) = lin6 (E6 m) c ((kargs m c).W1 3) r j := by
    show (W15 m c main_v125_0 : S65536x128.Idx → EReal) (ix2 r j) = _
    rw [W15_y]; exact yArr6_eq_lin (E6 m) c ((kargs m c).W1 3) hW1a hW1b r j
  have hmean : (E7 m c (Pipeline.arrRef spec7 1) : S1x128.Idx → EReal) (ix2 0 j) = _ :=
    h7_v133 (W14 m c) (sumArr6 (E6 m) c) (W14_sum m c) j
  have hinv : (E7 m c (Pipeline.arrRef spec7 2) : S1x128.Idx → EReal) (ix2 0 j) = _ :=
    h7_v140 (W14 m c) (sumArr6 (E6 m) c) (sqArr6 (E6 m) c) (W14_sum m c) (W14_sq m c) j
  rw [hg, hb, hn, hy, hmean, hinv]
  have key := Glue.pass2_noise_eq (lin6 (E6 m) c ((kargs m c).W1 3)) (sumArr6 (E6 m) c) (sqArr6 (E6 m) c) ((kargs m c).g 3) ((kargs m c).be 3)
    ((kargs m c).nz 1)
    (fun j => (r6row0_apply (sumArr6 (E6 m) c) (ix2 0 j)).symm.trans (row0_sumArr6_apply (E6 m) c ((kargs m c).W1 3) hW1a hW1b j))
    (fun j => (r6row8_apply (sumArr6 (E6 m) c) (ix2 0 j)).symm.trans (row8_sumArr6_apply (E6 m) c ((kargs m c).W1 3) hW1a hW1b j))
    (fun j => (r6row0_apply (sqArr6 (E6 m) c) (ix2 0 j)).symm.trans (row0_sqArr6_apply (E6 m) c ((kargs m c).W1 3) hW1a hW1b j))
    (fun j => (r6row8_apply (sqArr6 (E6 m) c) (ix2 0 j)).symm.trans (row8_sqArr6_apply (E6 m) c ((kargs m c).W1 3) hW1a hW1b j)) r j
  rw [lin6_E6 m c hA hB hargs] at key
  rw [lin6_E6 m c hA hB hargs]
  exact key

end Node

end Cert.KernelIdeal.Hand

end
-- ==== Proof.Hand.KerHost8.lean ====
/-
  Host stretch 8 of the kernel program read at an index: node 4's biases, second weight matrix, scale and shift, and the third noise array, sliced out of the arguments.
-/
import proofs.«103476_j5987184410999_2_alg».proof.Proof.Hand.KerHostLib

set_option maxRecDepth 1816

noncomputable section

namespace Cert.KernelIdeal.Hand

open Cert.KernelIdeal Cert.KernelIdeal.Gen
open Idealize.ShloMosaic Idealize.ShloMosaic.TcCoe Idealize.ShloMosaic.ValueIdx

/-! ## Stretch 8: node 4's parameters (its first weight matrix was sliced in stretch 4) and noise 2 -/

section Even
variable {F : FTy → Type} [FloatOps F]

theorem h8_v156 (V : Valuation τ sig (Elt F)) (h : Fin 256) :
    (StableHlo.after hostOps8 V main_v156 : (⟨S1x256, .f32⟩ : BufTy).Contents (Elt F)) (ix2 0 h)
      = (V main_arg3 : (⟨S5x256, .f32⟩ : BufTy).Contents (Elt F)) (ix2 4 h) := by
  have e : (StableHlo.after hostOps8 V main_v156 : (⟨S1x256, .f32⟩ : BufTy).Contents (Elt F))
      = shapeCast S1x256 (shapeCast S256 (extractStridedSlice S1x256 ![4, 0] (V main_arg3) slices_S5x256_S1x256_4_0)
          shapeCasts_S1x256_S256) shapeCasts_S256_S1x256 := by
    simp only [hostOps8]; after_results <;> rfl
  rw [e, unsq256_apply]; exact row256_apply 4 (by omega) _ _ _ h

theorem h8_v147 (V : Valuation τ sig (Elt F)) (h : Fin 256) (j : Fin 128) :
    (StableHlo.after hostOps8 V main_v147 : (⟨S256x128, .f32⟩ : BufTy).Contents (Elt F)) (ix2 h j)
      = (V main_arg4 : (⟨S5x256x128, .f32⟩ : BufTy).Contents (Elt F)) (ix3 4 h j) := by
  have e : (StableHlo.after hostOps8 V main_v147 : (⟨S256x128, .f32⟩ : BufTy).Contents (Elt F))
      = shapeCast S256x128 (extractStridedSlice S1x256x128 ![4, 0, 0] (V main_arg4) slices_S5x256x128_S1x256x128_4_0_0)
          shapeCasts_S1x256x128_S256x128 := by
    simp only [hostOps8]; after_results <;> rfl
  rw [e]; exact W2_apply 4 (by omega) _ _ _ h j

theorem h8_v157 (V : Valuation τ sig (Elt F)) (j : Fin 128) :
    (StableHlo.after hostOps8 V main_v157 : (⟨S1x128, .f32⟩ : BufTy).Contents (Elt F)) (ix2 0 j)
      = (V main_arg5 : (⟨S5x128, .f32⟩ : BufTy).Contents (Elt F)) (ix2 4 j) := by
  have e : (StableHlo.after hostOps8 V main_v157 : (⟨S1x128, .f32⟩ : BufTy).Contents (Elt F))
      = shapeCast S1x128 (shapeCast S128 (extractStridedSlice S1x128 ![4, 0] (V main_arg5) slices_S5x128_S1x128_4_0)
          shapeCasts_S1x128_S128) shapeCasts_S128_S1x128 := by
    simp only [hostOps8]; after_results <;> rfl
  rw [e, unsq128_apply]; exact row128_apply 4 (by omega) _ _ _ j

theorem h8_v151 (V : Valuation τ sig (Elt F)) (j : Fin 128) :
    (StableHlo.after hostOps8 V main_v151 : (⟨S128, .f32⟩ : BufTy).Contents (Elt F)) (ix1 j)
      = (V main_arg6 : (⟨S5x128, .f32⟩ : BufTy).Contents (Elt F)) (ix2 4 j) := by
  have e : (StableHlo.after hostOps8 V main_v151 : (⟨S128, .f32⟩ : BufTy).Contents (Elt F))
      = shapeCast S128 (extractStridedSlice S1x128 ![4, 0] (V main_arg6) slices_S5x128_S1x128_4_0) shapeCasts_S1x128_S128 := by
    simp only [hostOps8]; after_results <;> rfl
  rw [e]; exact row128_apply 4 (by omega) _ _ _ j

theorem h8_v153 (V : Valuation τ sig (Elt F)) (j : Fin 128) :
    (StableHlo.after hostOps8 V main_v153 : (⟨S128, .f32⟩ : BufTy).Contents (Elt F)) (ix1 j)
      = (V main_arg7 : (⟨S5x128, .f32⟩ : BufTy).Contents (Elt F)) (ix2 4 j) := by
  have e : (StableHlo.after hostOps8 V main_v153 : (⟨S128, .f32⟩ : BufTy).Contents (Elt F))
      = shapeCast S128 (extractStridedSlice S1x128 ![4, 0] (V main_arg7) slices_S5x128_S1x128_4_0) shapeCasts_S1x128_S128 := by
    simp only [hostOps8]; after_results <;> rfl
  rw [e]; exact row128_apply 4 (by omega) _ _ _ j

theorem h8_v155 (V : Valuation τ sig (Elt F)) (r : Fin 65536) (j : Fin 128) :
    (StableHlo.after hostOps8 V main_v155 : (⟨S65536x128, .f32⟩ : BufTy).Contents (Elt F)) (ix2 r j)
      = (V main_arg8 : (⟨S3x65536x128, .f32⟩ : BufTy).Contents (Elt F)) (ix3 2 r j) := by
  have e : (StableHlo.after hostOps8 V main_v155 : (⟨S65536x128, .f32⟩ : BufTy).Contents (Elt F))
      = shapeCast S65536x128 (extractStridedSlice S1x65536x128 ![2, 0, 0] (V main_arg8) slices_S3x65536x128_S1x65536x128_2_0_0)
          shapeCasts_S1x65536x128_S65536x128 := by
    simp only [hostOps8]; after_results <;> rfl
  rw [e]; exact noise_apply 2 (by omega) _ _ _ r j

end Even

end Cert.KernelIdeal.Hand
-- ==== Proof.Hand.KerHost9.lean ====
/-
  Host stretch 9 of the kernel program read at an index: node 4's batch mean and reciprocal standard deviation from the two cores' partial sums, and its scale and shift as rows.
-/
import proofs.«103476_j5987184410999_2_alg».proof.Proof.Hand.KerHostLib

set_option maxRecDepth 1816

noncomputable section

namespace Cert.KernelIdeal.Hand

open Cert.KernelIdeal Cert.KernelIdeal.Gen
open Idealize.ShloMosaic Idealize.ShloMosaic.TcCoe Idealize.ShloMosaic.ValueIdx
/-! ## Stretch 9: node 4's statistics, scale and shift -/

section Odd
open Cert.Hand.Spec (N eps)

theorem h9_v166 (V : Valuation τ sig (Elt Ideal)) (s1 : S16x128.Idx → EReal) (h1 : V main_v158_1 = s1) (j : Fin 128) :
    (StableHlo.after hostOps9 V main_v166 : S1x128.Idx → EReal) (ix2 0 j)
      = Ideal.div (s1 (ix2 0 j) + s1 (ix2 8 j)) N := by
  subst h1
  have e : (StableHlo.after hostOps9 V main_v166 : S1x128.Idx → EReal)
      = (Host.divf (addf (extractStridedSlice S1x128 ![0, 0] (V main_v158_1 : FVec Ideal S16x128 .f32) slices_S16x128_S1x128_0_0)
            (extractStridedSlice S1x128 ![8, 0] (V main_v158_1 : FVec Ideal S16x128 .f32) slices_S16x128_S1x128_8_0))
          (broadcastInDim S1x128 ![] bcast_S_S1x128 (constant (F := Ideal) S_ .f32 0x47800000#32)) : FVec Ideal S1x128 .f32) := by
    simp only [hostOps9]; after_results <;> rfl
  rw [e]; exact mean_apply _ _ _ _ j

set_option maxHeartbeats 400000 in
theorem h9_v173 (V : Valuation τ sig (Elt Ideal)) (s1 s2 : S16x128.Idx → EReal) (h1 : V main_v158_1 = s1) (h2 : V main_v158_2 = s2)
    (j : Fin 128) :
    (StableHlo.after hostOps9 V main_v173 : S1x128.Idx → EReal) (ix2 0 j)
      = Ideal.rsqrt ((Ideal.div (s2 (ix2 0 j) + s2 (ix2 8 j)) N
          - Ideal.div (s1 (ix2 0 j) + s1 (ix2 8 j)) N * Ideal.div (s1 (ix2 0 j) + s1 (ix2 8 j)) N) + eps) := by
  subst h1 h2
  have e : (StableHlo.after hostOps9 V main_v173 : S1x128.Idx → EReal)
      = (Host.rsqrt (addf (subf
          (Host.divf (addf (extractStridedSlice S1x128 ![0, 0] (V main_v158_2 : FVec Ideal S16x128 .f32) slices_S16x128_S1x128_0_0)
              (extractStridedSlice S1x128 ![8, 0] (V main_v158_2 : FVec Ideal S16x128 .f32) slices_S16x128_S1x128_8_0))
            (broadcastInDim S1x128 ![] bcast_S_S1x128 (constant (F := Ideal) S_ .f32 0x47800000#32)))
          (mulf
            (Host.divf (addf (extractStridedSlice S1x128 ![0, 0] (V main_v158_1 : FVec Ideal S16x128 .f32) slices_S16x128_S1x128_0_0)
                (extractStridedSlice S1x128 ![8, 0] (V main_v158_1 : FVec Ideal S16x128 .f32) slices_S16x128_S1x128_8_0))
              (broadcastInDim S1x128 ![] bcast_S_S1x128 (constant (F := Ideal) S_ .f32 0x47800000#32)))
            (Host.divf (addf (extractStridedSlice S1x128 ![0, 0] (V main_v158_1 : FVec Ideal S16x128 .f32) slices_S16x128_S1x128_0_0)
                (extractStridedSlice S1x128 ![8, 0] (V main_v158_1 : FVec Ideal S16x128 .f32) slices_S16x128_S1x128_8_0))
              (broadcastInDim S1x128 ![] bcast_S_S1x128 (constant (F := Ideal) S_ .f32 0x47800000#32)))))
          (broadcastInDim S1x128 ![] bcast_S_S1x128 (constant (F := Ideal) S_ .f32 0x3727C5AC#32))) : FVec Ideal S1x128 .f32) := by
    simp only [hostOps9]; after_results_simp <;> rfl
  rw [e]; exact invstd_apply _ _ _ _ _ j

theorem h9_v174 (V : Valuation τ sig (Elt Ideal)) (j : Fin 128) :
    (StableHlo.after hostOps9 V main_v174 : S1x128.Idx → EReal) (ix2 0 j) = (V main_v151 : S128.Idx → EReal) (ix1 j) := by
  have e : (StableHlo.after hostOps9 V main_v174 : S1x128.Idx → EReal)
      = shapeCast S1x128 (V main_v151 : S128.Idx → EReal) shapeCasts_S128_S1x128 := by
    simp only [hostOps9]; after_results <;> rfl
  rw [e]; exact unsq128_apply _ _ j

theorem h9_v175 (V : Valuation τ sig (Elt Ideal)) (j : Fin 128) :
    (StableHlo.after hostOps9 V main_v175 : S1x128.Idx → EReal) (ix2 0 j) = (V main_v153 : S128.Idx → EReal) (ix1 j) := by
  have e : (StableHlo.after hostOps9 V main_v175 : S1x128.Idx → EReal)
      = shapeCast S1x128 (V main_v153 : S128.Idx → EReal) shapeCasts_S128_S1x128 := by
    simp only [hostOps9]; after_results <;> rfl
  rw [e]; exact unsq128_apply _ _ j

end Odd

end Cert.KernelIdeal.Hand
-- ==== Proof.Hand.PayIdx8.lean ====
import proofs.«103476_j5987184410999_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx
open scoped BigOperators

/-! # The first-pass body of region 8 read at an index, at the ideal values

  The body's output block is `relu (xa·Wa + xb·Wb + b1)·W2 + b2`: the first layer's product is taken in two halves
  of the contracted axis, each a matrix product read as the sum over its contracted coordinate; a bias row is laid
  along every row, and the maximum with zero taken; the format changes around the products are the identity at the
  ideal values. Its two statistics rows are the rows found plus the column sums of the block and of its square. -/

/-! ## The matrix products -/

/-- The left operand's row coordinate is the output's. -/
private theorem lhs_C_0 (i : S4096x256.Idx) (c : dot_S4096x128_S128x256_S4096x256_1_0_0_1_n_n.contr.Idx) :
    (dot_S4096x128_S128x256_S4096x256_1_0_0_1_n_n.lhsIdx i c 0).val = (i 0).val := by
  unfold DotDims.lhsIdx
  rw [dif_neg (show ¬(0 : Fin S4096x128.rank) ∈ dot_S4096x128_S128x256_S4096x256_1_0_0_1_n_n.lhsBatch by decide),
    dif_pos (show (0 : Fin S4096x128.rank) ∈ dot_S4096x128_S128x256_S4096x256_1_0_0_1_n_n.lhsNonContracting by decide)]
  rfl
/-- The left operand's column coordinate is the contraction's. -/
private theorem lhs_C_1 (i : S4096x256.Idx) (c : dot_S4096x128_S128x256_S4096x256_1_0_0_1_n_n.contr.Idx) :
    (dot_S4096x128_S128x256_S4096x256_1_0_0_1_n_n.lhsIdx i c 1).val = (c ⟨0, by decide⟩).val :=
  dot_S4096x128_S128x256_S4096x256_1_0_0_1_n_n.lhsIdx_val_of_single rfl i c
/-- The right operand's row coordinate is the contraction's. -/
private theorem rhs_C_0 (i : S4096x256.Idx) (c : dot_S4096x128_S128x256_S4096x256_1_0_0_1_n_n.contr.Idx) :
    (dot_S4096x128_S128x256_S4096x256_1_0_0_1_n_n.rhsIdx i c 0).val = (c ⟨0, by decide⟩).val :=
  dot_S4096x128_S128x256_S4096x256_1_0_0_1_n_n.rhsIdx_val_of_single rfl i c
/-- The right operand's column coordinate is the output's. -/
private theorem rhs_C_1 (i : S4096x256.Idx) (c : dot_S4096x128_S128x256_S4096x256_1_0_0_1_n_n.contr.Idx) :
    (dot_S4096x128_S128x256_S4096x256_1_0_0_1_n_n.rhsIdx i c 1).val = (i 1).val := by
  unfold DotDims.rhsIdx
  rw [dif_neg (show ¬(1 : Fin S128x256.rank) ∈ dot_S4096x128_S128x256_S4096x256_1_0_0_1_n_n.rhsBatch by decide),
    dif_pos (show (1 : Fin S128x256.rank) ∈ dot_S4096x128_S128x256_S4096x256_1_0_0_1_n_n.rhsNonContracting by decide)]
  rfl

/-- The [4096,128] by [128,256] product accumulated into the zero splat, read at (q, h): the sum over the
    contracted coordinate of the entries' products. -/
private theorem matmul_C_apply {φ₁ φ₂ : FTy} (A : FVec Ideal S4096x128 φ₁) (B : FVec Ideal S128x256 φ₂) (q : Fin 4096) (h : Fin 256) :
    matmul dot_S4096x128_S128x256_S4096x256_1_0_0_1_n_n none A B (constant (F := Ideal) S4096x256 .f32 0x00000000#32) (ix2 q h)
      = ∑ k : Fin 128, A (ix2 q k) * B (ix2 k h) := by
  show FloatOps.matmul dot_S4096x128_S128x256_S4096x256_1_0_0_1_n_n none A B (constant S4096x256 .f32 0x00000000#32) (ix2 q h) = _
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 q h) ((contrEquiv1 dot_S4096x128_S128x256_S4096x256_1_0_0_1_n_n 128 rfl rfl).symm k) = ix2 q k :=
    funext fun a => Fin.ext (by
      match a with
      | ⟨0, _⟩ => exact lhs_C_0 _ _
      | ⟨1, _⟩ => exact (lhs_C_1 _ _).trans hk)
  have er : dot_S4096x128_S128x256_S4096x256_1_0_0_1_n_n.rhsIdx (ix2 q h) ((contrEquiv1 dot_S4096x128_S128x256_S4096x256_1_0_0_1_n_n 128 rfl rfl).symm k) = ix2 k h :=
    funext fun a => Fin.ext (by
      match a with
      | ⟨0, _⟩ => exact (rhs_C_0 _ _).trans hk
      | ⟨1, _⟩ => exact rhs_C_1 _ _)
  rw [el, er]

/-- The left operand's row coordinate is the output's. -/
private theorem lhs_B_0 (i : S4096x128.Idx) (c : dot_S4096x256_S256x128_S4096x128_1_0_0_1_n_n.contr.Idx) :
    (dot_S4096x256_S256x128_S4096x128_1_0_0_1_n_n.lhsIdx i c 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl
/-- The left operand's column coordinate is the contraction's. -/
private theorem lhs_B_1 (i : S4096x128.Idx) (c : dot_S4096x256_S256x128_S4096x128_1_0_0_1_n_n.contr.Idx) :
    (dot_S4096x256_S256x128_S4096x128_1_0_0_1_n_n.lhsIdx i c 1).val = (c ⟨0, by decide⟩).val :=
  dot_S4096x256_S256x128_S4096x128_1_0_0_1_n_n.lhsIdx_val_of_single rfl i c
/-- The right operand's row coordinate is the contraction's. -/
private theorem rhs_B_0 (i : S4096x128.Idx) (c : dot_S4096x256_S256x128_S4096x128_1_0_0_1_n_n.contr.Idx) :
    (dot_S4096x256_S256x128_S4096x128_1_0_0_1_n_n.rhsIdx i c 0).val = (c ⟨0, by decide⟩).val :=
  dot_S4096x256_S256x128_S4096x128_1_0_0_1_n_n.rhsIdx_val_of_single rfl i c
/-- The right operand's column coordinate is the output's. -/
private theorem rhs_B_1 (i : S4096x128.Idx) (c : dot_S4096x256_S256x128_S4096x128_1_0_0_1_n_n.contr.Idx) :
    (dot_S4096x256_S256x128_S4096x128_1_0_0_1_n_n.rhsIdx i c 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- The [4096,256] by [256,128] product accumulated into the zero splat, read at (q, h): the sum over the
    contracted coordinate of the entries' products. -/
private theorem matmul_B_apply {φ₁ φ₂ : FTy} (A : FVec Ideal S4096x256 φ₁) (B : FVec Ideal S256x128 φ₂) (q : Fin 4096) (h : Fin 128) :
    matmul dot_S4096x256_S256x128_S4096x128_1_0_0_1_n_n none A B (constant (F := Ideal) S4096x128 .f32 0x00000000#32) (ix2 q h)
      = ∑ k : Fin 256, A (ix2 q k) * B (ix2 k h) := by
  show FloatOps.matmul dot_S4096x256_S256x128_S4096x128_1_0_0_1_n_n none A B (constant S4096x128 .f32 0x00000000#32) (ix2 q h) = _
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 q h) ((contrEquiv1 dot_S4096x256_S256x128_S4096x128_1_0_0_1_n_n 256 rfl rfl).symm k) = ix2 q k :=
    funext fun a => Fin.ext (by
      match a with
      | ⟨0, _⟩ => exact lhs_B_0 _ _
      | ⟨1, _⟩ => exact (lhs_B_1 _ _).trans hk)
  have er : dot_S4096x256_S256x128_S4096x128_1_0_0_1_n_n.rhsIdx (ix2 q h) ((contrEquiv1 dot_S4096x256_S256x128_S4096x128_1_0_0_1_n_n 256 rfl rfl).symm k) = ix2 k h :=
    funext fun a => Fin.ext (by
      match a with
      | ⟨0, _⟩ => exact (rhs_B_0 _ _).trans hk
      | ⟨1, _⟩ => exact rhs_B_1 _ _)
  rw [el, er]

/-! ## The output block -/

theorem k8_pay5_apply (xa xb : Vec Ideal S4096x128 .f32) (wa wb : Vec Ideal S128x256 .f32) (b1 : Vec Ideal S1x256 .f32)
    (w2 : Vec Ideal S256x128 .f32) (b2 : Vec Ideal S1x128 .f32) (q : Fin 4096) (j : Fin 128) :
    k8_pay5 (F := Ideal) xa xb wa wb b1 w2 b2 (ix2 q j)
      = (∑ h : Fin 256, max (((∑ k : Fin 128, xa (ix2 q k) * wa (ix2 k h)) + (∑ k : Fin 128, xb (ix2 q k) * wb (ix2 k h)))
            + b1 (ix2 0 h)) 0 * w2 (ix2 h j)) + b2 (ix2 0 j) := by
  unfold k8_pay5
  simp only [shapeCast_self]
  refine (addf_apply _ _ _).trans ?_
  refine congrArg₂ (· + ·) ?_ ?_
  · refine (matmul_B_apply _ _ q j).trans ?_
    refine Finset.sum_congr rfl fun h _ => ?_
    refine congrArg₂ (· * ·) ?_ rfl
    refine (truncf_apply (φ := .f32) (ψ := .bf16) _ bitsLt_bf16_f32 _).trans ?_
    refine (maximumf_apply _ _ _).trans ?_
    refine congrArg₂ max ?_ ?_
    · refine (addf_apply _ _ _).trans ?_
      refine congrArg₂ (· + ·) ?_ ?_
      · refine (addf_apply _ _ _).trans ?_
        refine congrArg₂ (· + ·) ?_ ?_
        · exact matmul_C_apply _ _ q h
        · exact matmul_C_apply _ _ q h
      · exact broadcastTo_1b_ab_apply _ _ q h
    · exact Ideal.ofBits_zero_f32
  · exact broadcastTo_1b_ab_apply _ _ q j

/-! ## The statistics rows -/

/-- The sum over the 4096 rows of a [4096,128] block, read at lane j (the accumulator is the neutral zero, which the
    reading drops). -/
private theorem colsum_apply (y : Vec Ideal S4096x128 .f32) (j : Fin 128) :
    multiReduction (F := Ideal) .add [0] S128 y 0x00000000#32 reduces_S4096x128_S128 (.inl rfl) rfl (ix1 j)
      = ∑ q : Fin 4096, y (ix2 q j) := by
  refine (Ideal.multiReduction_add_single y 0x00000000#32 reduces_S4096x128_S128 (.inl rfl) rfl (ix1 j)).trans ?_
  refine Finset.sum_congr rfl fun q _ => ?_
  refine congrArg y (funext fun a => Fin.ext ?_)
  match a with
  | ⟨0, _⟩ => rfl
  | ⟨1, _⟩ => rfl

/-- The row a first-pass body leaves in its statistics block: the row it found plus the column sums of the block. -/
private theorem rowAcc_apply (r : Vec Ideal S1x128 .f32) (y : Vec Ideal S4096x128 .f32) (j : Fin 128) :
    addf (shapeCast S1x128 r shapeCasts_S1x128_S1x128)
        (shapeCast S1x128 (multiReduction (F := Ideal) .add [0] S128 y 0x00000000#32 reduces_S4096x128_S128 (.inl rfl) rfl) shapeCasts_S128_S1x128)
        (ix2 0 j)
      = r (ix2 0 j) + ∑ q : Fin 4096, y (ix2 q j) := by
  refine (addf_apply _ _ _).trans ?_
  refine congrArg₂ (· + ·) ?_ ?_
  · rw [shapeCast_self]
  · exact (shapeCast_a_1a_apply _ shapeCasts_S128_S1x128 0 j).trans (colsum_apply y j)

theorem k8_pay1_apply (y : FVec Ideal S4096x128 .f32) (r : Vec Ideal S1x128 .f32) (j : Fin 128) :
    k8_pay1 (F := Ideal) y r (ix2 0 j) = r (ix2 0 j) + ∑ q : Fin 4096, y (ix2 q j) := by
  unfold k8_pay1
  exact rowAcc_apply r y j

theorem k8_pay2_apply (y : FVec Ideal S4096x128 .f32) (r : Vec Ideal S1x128 .f32) (j : Fin 128) :
    k8_pay2 (F := Ideal) y r (ix2 0 j) = r (ix2 0 j) + ∑ q : Fin 4096, y (ix2 q j) * y (ix2 q j) := by
  unfold k8_pay2
  exact rowAcc_apply r (mulf y y) j

/-- The two rows a core's first step writes: zero everywhere. -/
theorem k8_pay3_apply (i : S1x128.Idx) : k8_pay3 (F := Ideal) i = 0 := Ideal.ofBits_zero_f32
theorem k8_pay4_apply (i : S1x128.Idx) : k8_pay4 (F := Ideal) i = 0 := Ideal.ofBits_zero_f32

end Cert.KernelIdeal.Hand
-- ==== Proof.Hand.P1v8.lean ====
import proofs.«103476_j5987184410999_2_alg».proof.Proof.Hand.P1r8
import proofs.«103476_j5987184410999_2_alg».proof.Proof.Hand.P1r8Arr
import proofs.«103476_j5987184410999_2_alg».proof.Proof.Hand.PayIdx8
import proofs.«103476_j5987184410999_2_alg».proof.Proof.Hand.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

/-! # Region 8's values at the ideal instance, index by index, for arbitrary entry contents

  The seven input blocks of a point are read off the arrays the region finds: the two x blocks of point `t` are rows
  `4096 t …` of their [65536,128] arrays, the five parameter blocks are their whole arrays. With them the body's
  output block at point `t` is the perceptron's rows `4096 t …`, its first layer contracted in two halves — stated
  against any [256,256] first weight whose upper and lower halves are the two [128,256] arrays the region reads —, and
  a core's statistics row is the left fold from zero of its eight blocks' column sums. -/

/-! ## The input blocks -/

/-- The printed index maps, decided over the grid: windows 0 and 1 move one block of rows a point, the parameter
    windows stay at block (0, 0). -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0 :=
  (by decide +kernel : ∀ t : Fin grid8.N, _)

/-- The block of window 0 at point `t`, read at (q, k): the array at row `4096 t + q`. -/
theorem iblk8_0_apply (c : Dev nD) (t : Fin cfg8.N) (q : Fin 4096) (r : Fin 65536)
    (hr : r.val = t.val * 4096 + q.val) (k : Fin 128) :
    iblk8 V c 0 t (ix2 q k) = (V c main_v65 : S65536x128.Idx → EReal) (ix2 r k) := by
  obtain ⟨e00, e01, e10, e11, -⟩ := idx_facts8 t
  unfold iblk8
  rw [View.read_apply]
  show V c main_v65 (((cfg8.win 0).blk t).view.emb (ix2 q k)) = V c main_v65 (ix2 r k)
  refine congrArg (V c main_v65) (funext fun a => Fin.ext ?_)
  match a with
  | ⟨0, _⟩ => show win8_0.index t (0 : Fin 2) * 4096 + 1 * q.val = r.val; omega
  | ⟨1, _⟩ => show win8_0.index t (1 : Fin 2) * 128 + 1 * k.val = k.val; omega

/-- The block of window 1 at point `t`, read at (q, k): the array at row `4096 t + q`. -/
theorem iblk8_1_apply (c : Dev nD) (t : Fin cfg8.N) (q : Fin 4096) (r : Fin 65536)
    (hr : r.val = t.val * 4096 + q.val) (k : Fin 128) :
    iblk8 V c 1 t (ix2 q k) = (V c main_v110 : S65536x128.Idx → EReal) (ix2 r k) := by
  obtain ⟨e00, e01, e10, e11, -⟩ := idx_facts8 t
  unfold iblk8
  rw [View.read_apply]
  show V c main_v110 (((cfg8.win 1).blk t).view.emb (ix2 q k)) = V c main_v110 (ix2 r k)
  refine congrArg (V c main_v110) (funext fun a => Fin.ext ?_)
  match a with
  | ⟨0, _⟩ => show win8_1.index t (0 : Fin 2) * 4096 + 1 * q.val = r.val; omega
  | ⟨1, _⟩ => show win8_1.index t (1 : Fin 2) * 128 + 1 * k.val = k.val; omega

theorem iblk8_2_apply (c : Dev nD) (t : Fin cfg8.N) (k : Fin 128) (h : Fin 256) :
    iblk8 V c 2 t (ix2 k h) = (V c main_v75 : S128x256.Idx → EReal) (ix2 k h) := by
  obtain ⟨-, -, -, -, e20, e21, e30, e31, e40, e41, e50, e51, e60, e61⟩ := idx_facts8 t
  unfold iblk8
  rw [View.read_apply]
  show V c main_v75 (((cfg8.win 2).blk t).view.emb (ix2 k h)) = V c main_v75 (ix2 k h)
  refine congrArg (V c main_v75) (funext fun a => Fin.ext ?_)
  match a with
  | ⟨0, _⟩ => show win8_2.index t (0 : Fin 2) * 128 + 1 * k.val = k.val; omega
  | ⟨1, _⟩ => show win8_2.index t (1 : Fin 2) * 256 + 1 * h.val = h.val; omega

theorem iblk8_3_apply (c : Dev nD) (t : Fin cfg8.N) (k : Fin 128) (h : Fin 256) :
    iblk8 V c 3 t (ix2 k h) = (V c main_v77 : S128x256.Idx → EReal) (ix2 k h) := by
  obtain ⟨-, -, -, -, e20, e21, e30, e31, e40, e41, e50, e51, e60, e61⟩ := idx_facts8 t
  unfold iblk8
  rw [View.read_apply]
  show V c main_v77 (((cfg8.win 3).blk t).view.emb (ix2 k h)) = V c main_v77 (ix2 k h)
  refine congrArg (V c main_v77) (funext fun a => Fin.ext ?_)
  match a with
  | ⟨0, _⟩ => show win8_3.index t (0 : Fin 2) * 128 + 1 * k.val = k.val; omega
  | ⟨1, _⟩ => show win8_3.index t (1 : Fin 2) * 256 + 1 * h.val = h.val; omega

theorem iblk8_4_apply (c : Dev nD) (t : Fin cfg8.N) (u : Fin 1) (h : Fin 256) :
    iblk8 V c 4 t (ix2 u h) = (V c main_v156 : S1x256.Idx → EReal) (ix2 u h) := by
  obtain ⟨-, -, -, -, e20, e21, e30, e31, e40, e41, e50, e51, e60, e61⟩ := idx_facts8 t
  unfold iblk8
  rw [View.read_apply]
  show V c main_v156 (((cfg8.win 4).blk t).view.emb (ix2 u h)) = V c main_v156 (ix2 u h)
  refine congrArg (V c main_v156) (funext fun a => Fin.ext ?_)
  match a with
  | ⟨0, _⟩ => show win8_4.index t (0 : Fin 2) * 1 + 1 * u.val = u.val; omega
  | ⟨1, _⟩ => show win8_4.index t (1 : Fin 2) * 256 + 1 * h.val = h.val; omega

theorem iblk8_5_apply (c : Dev nD) (t : Fin cfg8.N) (h : Fin 256) (j : Fin 128) :
    iblk8 V c 5 t (ix2 h j) = (V c main_v147 : S256x128.Idx → EReal) (ix2 h j) := by
  obtain ⟨-, -, -, -, e20, e21, e30, e31, e40, e41, e50, e51, e60, e61⟩ := idx_facts8 t
  unfold iblk8
  rw [View.read_apply]
  show V c main_v147 (((cfg8.win 5).blk t).view.emb (ix2 h j)) = V c main_v147 (ix2 h j)
  refine congrArg (V c main_v147) (funext fun a => Fin.ext ?_)
  match a with
  | ⟨0, _⟩ => show win8_5.index t (0 : Fin 2) * 256 + 1 * h.val = h.val; omega
  | ⟨1, _⟩ => show win8_5.index t (1 : Fin 2) * 128 + 1 * j.val = j.val; omega

theorem iblk8_6_apply (c : Dev nD) (t : Fin cfg8.N) (u : Fin 1) (j : Fin 128) :
    iblk8 V c 6 t (ix2 u j) = (V c main_v157 : S1x128.Idx → EReal) (ix2 u j) := by
  obtain ⟨-, -, -, -, e20, e21, e30, e31, e40, e41, e50, e51, e60, e61⟩ := idx_facts8 t
  unfold iblk8
  rw [View.read_apply]
  show V c main_v157 (((cfg8.win 6).blk t).view.emb (ix2 u j)) = V c main_v157 (ix2 u j)
  refine congrArg (V c main_v157) (funext fun a => Fin.ext ?_)
  match a with
  | ⟨0, _⟩ => show win8_6.index t (0 : Fin 2) * 1 + 1 * u.val = u.val; omega
  | ⟨1, _⟩ => show win8_6.index t (1 : Fin 2) * 128 + 1 * j.val = j.val; omega

/-! ## The output block -/

/-- The specification's perceptron, first layer in two halves, of the arrays region 8 reads as the region finds them,
    against a first weight `W1`. -/
abbrev lin8 (c : Dev nD) (W1 : Fin 256 → Fin 256 → EReal) : Fin 65536 → Fin 128 → EReal :=
  Cert.Hand.Spec.linSplit (fun r k => (V c main_v65 : S65536x128.Idx → EReal) (ix2 r k))
    (fun r k => (V c main_v110 : S65536x128.Idx → EReal) (ix2 r k)) W1 (fun h => (V c main_v156 : S1x256.Idx → EReal) (ix2 0 h))
    (fun h j => (V c main_v147 : S256x128.Idx → EReal) (ix2 h j)) (fun j => (V c main_v157 : S1x128.Idx → EReal) (ix2 0 j))

/-- The body's block of `y` at point `t`, read at (q, j): that perceptron at row `4096 t + q`, for any first
    weight whose halves are the two arrays the region reads. -/
theorem yat8_eq_lin (c : Dev nD) (W1 : Fin 256 → Fin 256 → EReal)
    (ha : ∀ (k : Fin 128) (h : Fin 256), (V c main_v75 : S128x256.Idx → EReal) (ix2 k h) = W1 ⟨k.val, by omega⟩ h)
    (hb : ∀ (k : Fin 128) (h : Fin 256), (V c main_v77 : S128x256.Idx → EReal) (ix2 k h) = W1 ⟨128 + k.val, by omega⟩ h)
    (t : Fin cfg8.N) (q : Fin 4096) (r : Fin 65536) (hr : r.val = t.val * 4096 + q.val) (j : Fin 128) :
    yat8 V c t (ix2 q j) = lin8 V c W1 r j := by
  unfold yat8 yblk8
  refine (k8_pay5_apply _ _ _ _ _ _ _ q j).trans ?_
  unfold lin8 Cert.Hand.Spec.linSplit
  refine congrArg₂ (· + ·) ?_ ?_
  · refine Finset.sum_congr rfl fun h _ => ?_
    refine congrArg₂ (· * ·) ?_ ?_
    · refine congrArg₂ max ?_ rfl
      refine congrArg₂ (· + ·) ?_ ?_
      · refine congrArg₂ (· + ·) ?_ ?_
        · refine Finset.sum_congr rfl fun k _ => ?_
          refine congrArg₂ (· * ·) ?_ ?_
          · exact iblk8_0_apply V c t q r hr k
          · exact (iblk8_2_apply V c t k h).trans (ha k h)
        · refine Finset.sum_congr rfl fun k _ => ?_
          refine congrArg₂ (· * ·) ?_ ?_
          · exact iblk8_1_apply V c t q r hr k
          · exact (iblk8_3_apply V c t k h).trans (hb k h)
      · exact iblk8_4_apply V c t 0 h
    · exact iblk8_5_apply V c t h j
  · exact iblk8_6_apply V c t 0 j

/-! ## The statistics rows -/

/-- One accumulation step read at lane j: the row found plus the block's column sum. -/
theorem r8acc_apply (rr : Vec Ideal S1x128 .f32) (y : FVec Ideal S4096x128 .f32) (j : Fin 128) :
    r8acc rr y (ix2 0 j) = rr (ix2 0 j) + ∑ q : Fin 4096, y (ix2 q j) := k8_pay1_apply y rr j

/-- The same of the squares. -/
theorem r8accsq_apply (rr : Vec Ideal S1x128 .f32) (y : FVec Ideal S4096x128 .f32) (j : Fin 128) :
    r8accsq rr y (ix2 0 j) = rr (ix2 0 j) + ∑ q : Fin 4096, y (ix2 q j) * y (ix2 q j) := k8_pay2_apply y rr j

/-- The zero row reads zero. -/
theorem r8zrow_apply (i : S1x128.Idx) : r8zrow (F := Ideal) i = 0 := Ideal.ofBits_zero_f32

/-- Eight accumulation steps from the zero row: the left fold from zero of the eight blocks' column sums. -/
theorem r8acc_fold8 (y0 y1 y2 y3 y4 y5 y6 y7 : FVec Ideal S4096x128 .f32) (j : Fin 128) :
    r8acc (r8acc (r8acc (r8acc (r8acc (r8acc (r8acc (r8acc r8zrow y0) y1) y2) y3) y4) y5) y6) y7 (ix2 0 j)
      = ((((((((0 + ∑ q : Fin 4096, y0 (ix2 q j)) + ∑ q : Fin 4096, y1 (ix2 q j)) + ∑ q : Fin 4096, y2 (ix2 q j))
          + ∑ q : Fin 4096, y3 (ix2 q j)) + ∑ q : Fin 4096, y4 (ix2 q j)) + ∑ q : Fin 4096, y5 (ix2 q j))
          + ∑ q : Fin 4096, y6 (ix2 q j)) + ∑ q : Fin 4096, y7 (ix2 q j)) := by
  rw [r8acc_apply, r8acc_apply, r8acc_apply, r8acc_apply, r8acc_apply, r8acc_apply, r8acc_apply, r8acc_apply, r8zrow_apply]

/-- The same of the squares. -/
theorem r8accsq_fold8 (y0 y1 y2 y3 y4 y5 y6 y7 : FVec Ideal S4096x128 .f32) (j : Fin 128) :
    r8accsq (r8accsq (r8accsq (r8accsq (r8accsq (r8accsq (r8accsq (r8accsq r8zrow y0) y1) y2) y3) y4) y5) y6) y7 (ix2 0 j)
      = ((((((((0 + ∑ q : Fin 4096, y0 (ix2 q j) * y0 (ix2 q j)) + ∑ q : Fin 4096, y1 (ix2 q j) * y1 (ix2 q j))
          + ∑ q : Fin 4096, y2 (ix2 q j) * y2 (ix2 q j)) + ∑ q : Fin 4096, y3 (ix2 q j) * y3 (ix2 q j))
          + ∑ q : Fin 4096, y4 (ix2 q j) * y4 (ix2 q j)) + ∑ q : Fin 4096, y5 (ix2 q j) * y5 (ix2 q j))
          + ∑ q : Fin 4096, y6 (ix2 q j) * y6 (ix2 q j)) + ∑ q : Fin 4096, y7 (ix2 q j) * y7 (ix2 q j)) := by
  rw [r8accsq_apply, r8accsq_apply, r8accsq_apply, r8accsq_apply, r8accsq_apply, r8accsq_apply, r8accsq_apply,
    r8accsq_apply, r8zrow_apply]

/-! ## The whole arrays -/

/-- The array of `y` is that perceptron, row by row. -/
theorem yArr8_eq_lin (c : Dev nD) (W1 : Fin 256 → Fin 256 → EReal)
    (ha : ∀ (k : Fin 128) (h : Fin 256), (V c main_v75 : S128x256.Idx → EReal) (ix2 k h) = W1 ⟨k.val, by omega⟩ h)
    (hb : ∀ (k : Fin 128) (h : Fin 256), (V c main_v77 : S128x256.Idx → EReal) (ix2 k h) = W1 ⟨128 + k.val, by omega⟩ h) (r : Fin 65536) (j : Fin 128) : yArr8 V c (ix2 r j) = lin8 V c W1 r j := by
  show yat8 V c ⟨r.val / 4096, _⟩ (ix2 (⟨r.val % 4096, _⟩ : Fin 4096) j) = _
  exact yat8_eq_lin V c W1 ha hb _ _ r (by show r.val = r.val / 4096 * 4096 + r.val % 4096; omega) j

/-- Row `4096 t + q` is a row of the array. -/
theorem row_lt8 (t : Fin cfg8.N) (n : ℕ) (hn : t.val = n) (q : Fin 4096) : n * 4096 + q.val < 65536 := by
  have := q.isLt
  have h16 : t.val < 16 := by have := t.isLt; have hN : cfg8.N = 16 := N_8; omega
  omega

/-- The column sum of the block of point `t`, over the perceptron's rows `4096 t …`. -/
theorem colsum_blk8 (c : Dev nD) (W1 : Fin 256 → Fin 256 → EReal)
    (ha : ∀ (k : Fin 128) (h : Fin 256), (V c main_v75 : S128x256.Idx → EReal) (ix2 k h) = W1 ⟨k.val, by omega⟩ h)
    (hb : ∀ (k : Fin 128) (h : Fin 256), (V c main_v77 : S128x256.Idx → EReal) (ix2 k h) = W1 ⟨128 + k.val, by omega⟩ h) (t : Fin cfg8.N) (n : ℕ) (hn : t.val = n) (j : Fin 128) :
    ∑ q : Fin 4096, yat8 V c t (ix2 q j) = ∑ q : Fin 4096, lin8 V c W1 ⟨n * 4096 + q.val, row_lt8 t n hn q⟩ j :=
  Finset.sum_congr rfl fun q _ =>
    yat8_eq_lin V c W1 ha hb t q _ (by show n * 4096 + q.val = t.val * 4096 + q.val; rw [hn]) j

/-- The same of the squares. -/
theorem colsq_blk8 (c : Dev nD) (W1 : Fin 256 → Fin 256 → EReal)
    (ha : ∀ (k : Fin 128) (h : Fin 256), (V c main_v75 : S128x256.Idx → EReal) (ix2 k h) = W1 ⟨k.val, by omega⟩ h)
    (hb : ∀ (k : Fin 128) (h : Fin 256), (V c main_v77 : S128x256.Idx → EReal) (ix2 k h) = W1 ⟨128 + k.val, by omega⟩ h) (t : Fin cfg8.N) (n : ℕ) (hn : t.val = n) (j : Fin 128) :
    ∑ q : Fin 4096, yat8 V c t (ix2 q j) * yat8 V c t (ix2 q j)
      = ∑ q : Fin 4096, lin8 V c W1 ⟨n * 4096 + q.val, row_lt8 t n hn q⟩ j
          * lin8 V c W1 ⟨n * 4096 + q.val, row_lt8 t n hn q⟩ j :=
  Finset.sum_congr rfl fun q _ => by
    have e := yat8_eq_lin V c W1 ha hb t q ⟨n * 4096 + q.val, row_lt8 t n hn q⟩
      (by show n * 4096 + q.val = t.val * 4096 + q.val; rw [hn]) j
    rw [e]

/-- Row 0 of the sums: core 0's left fold from zero of its eight blocks' column sums. -/
theorem row0_sumArr8_apply (c : Dev nD) (W1 : Fin 256 → Fin 256 → EReal)
    (ha : ∀ (k : Fin 128) (h : Fin 256), (V c main_v75 : S128x256.Idx → EReal) (ix2 k h) = W1 ⟨k.val, by omega⟩ h)
    (hb : ∀ (k : Fin 128) (h : Fin 256), (V c main_v77 : S128x256.Idx → EReal) (ix2 k h) = W1 ⟨128 + k.val, by omega⟩ h) (j : Fin 128) :
    row0 (sumArr8 V c) (ix2 0 j)
      = Cert.Hand.Spec.fold8 (fun i : Fin 8 => ∑ q : Fin 4096,
        lin8 V c W1 ⟨(0 * 8 + i.val) * 4096 + q.val, by have := i.isLt; have := q.isLt; omega⟩ j) := by
  rw [row0_sumArr8, r8sum_core0, r8acc_fold8]
  rw [colsum_blk8 V c W1 ha hb t8_0 0 rfl j,
    colsum_blk8 V c W1 ha hb t8_1 1 rfl j,
    colsum_blk8 V c W1 ha hb t8_2 2 rfl j,
    colsum_blk8 V c W1 ha hb t8_3 3 rfl j,
    colsum_blk8 V c W1 ha hb t8_4 4 rfl j,
    colsum_blk8 V c W1 ha hb t8_5 5 rfl j,
    colsum_blk8 V c W1 ha hb t8_6 6 rfl j,
    colsum_blk8 V c W1 ha hb t8_7 7 rfl j]
  try rfl

/-- Row 8 of the sums: core 1's left fold from zero of its eight blocks' column sums. -/
theorem row8_sumArr8_apply (c : Dev nD) (W1 : Fin 256 → Fin 256 → EReal)
    (ha : ∀ (k : Fin 128) (h : Fin 256), (V c main_v75 : S128x256.Idx → EReal) (ix2 k h) = W1 ⟨k.val, by omega⟩ h)
    (hb : ∀ (k : Fin 128) (h : Fin 256), (V c main_v77 : S128x256.Idx → EReal) (ix2 k h) = W1 ⟨128 + k.val, by omega⟩ h) (j : Fin 128) :
    row8 (sumArr8 V c) (ix2 0 j)
      = Cert.Hand.Spec.fold8 (fun i : Fin 8 => ∑ q : Fin 4096,
        lin8 V c W1 ⟨(1 * 8 + i.val) * 4096 + q.val, by have := i.isLt; have := q.isLt; omega⟩ j) := by
  rw [row8_sumArr8, r8sum_core1, r8acc_fold8]
  rw [colsum_blk8 V c W1 ha hb t8_8 8 rfl j,
    colsum_blk8 V c W1 ha hb t8_9 9 rfl j,
    colsum_blk8 V c W1 ha hb t8_10 10 rfl j,
    colsum_blk8 V c W1 ha hb t8_11 11 rfl j,
    colsum_blk8 V c W1 ha hb t8_12 12 rfl j,
    colsum_blk8 V c W1 ha hb t8_13 13 rfl j,
    colsum_blk8 V c W1 ha hb t8_14 14 rfl j,
    colsum_blk8 V c W1 ha hb t8_15 15 rfl j]
  try rfl

/-- Row 0 of the sums of squares: core 0's left fold from zero of its eight blocks' column sums of squares. -/
theorem row0_sqArr8_apply (c : Dev nD) (W1 : Fin 256 → Fin 256 → EReal)
    (ha : ∀ (k : Fin 128) (h : Fin 256), (V c main_v75 : S128x256.Idx → EReal) (ix2 k h) = W1 ⟨k.val, by omega⟩ h)
    (hb : ∀ (k : Fin 128) (h : Fin 256), (V c main_v77 : S128x256.Idx → EReal) (ix2 k h) = W1 ⟨128 + k.val, by omega⟩ h) (j : Fin 128) :
    row0 (sqArr8 V c) (ix2 0 j)
      = Cert.Hand.Spec.fold8 (fun i : Fin 8 => ∑ q : Fin 4096,
        lin8 V c W1 ⟨(0 * 8 + i.val) * 4096 + q.val, by have := i.isLt; have := q.isLt; omega⟩ j
          * lin8 V c W1 ⟨(0 * 8 + i.val) * 4096 + q.val, by have := i.isLt; have := q.isLt; omega⟩ j) := by
  rw [row0_sqArr8, r8sumsq_core0, r8accsq_fold8]
  rw [colsq_blk8 V c W1 ha hb t8_0 0 rfl j,
    colsq_blk8 V c W1 ha hb t8_1 1 rfl j,
    colsq_blk8 V c W1 ha hb t8_2 2 rfl j,
    colsq_blk8 V c W1 ha hb t8_3 3 rfl j,
    colsq_blk8 V c W1 ha hb t8_4 4 rfl j,
    colsq_blk8 V c W1 ha hb t8_5 5 rfl j,
    colsq_blk8 V c W1 ha hb t8_6 6 rfl j,
    colsq_blk8 V c W1 ha hb t8_7 7 rfl j]
  try rfl

/-- Row 8 of the sums of squares: core 1's left fold from zero of its eight blocks' column sums of squares. -/
theorem row8_sqArr8_apply (c : Dev nD) (W1 : Fin 256 → Fin 256 → EReal)
    (ha : ∀ (k : Fin 128) (h : Fin 256), (V c main_v75 : S128x256.Idx → EReal) (ix2 k h) = W1 ⟨k.val, by omega⟩ h)
    (hb : ∀ (k : Fin 128) (h : Fin 256), (V c main_v77 : S128x256.Idx → EReal) (ix2 k h) = W1 ⟨128 + k.val, by omega⟩ h) (j : Fin 128) :
    row8 (sqArr8 V c) (ix2 0 j)
      = Cert.Hand.Spec.fold8 (fun i : Fin 8 => ∑ q : Fin 4096,
        lin8 V c W1 ⟨(1 * 8 + i.val) * 4096 + q.val, by have := i.isLt; have := q.isLt; omega⟩ j
          * lin8 V c W1 ⟨(1 * 8 + i.val) * 4096 + q.val, by have := i.isLt; have := q.isLt; omega⟩ j) := by
  rw [row8_sqArr8, r8sumsq_core1, r8accsq_fold8]
  rw [colsq_blk8 V c W1 ha hb t8_8 8 rfl j,
    colsq_blk8 V c W1 ha hb t8_9 9 rfl j,
    colsq_blk8 V c W1 ha hb t8_10 10 rfl j,
    colsq_blk8 V c W1 ha hb t8_11 11 rfl j,
    colsq_blk8 V c W1 ha hb t8_12 12 rfl j,
    colsq_blk8 V c W1 ha hb t8_13 13 rfl j,
    colsq_blk8 V c W1 ha hb t8_14 14 rfl j,
    colsq_blk8 V c W1 ha hb t8_15 15 rfl j]
  try rfl

end Cert.KernelIdeal.Hand
-- ==== Proof.Hand.P2i9.lean ====
import proofs.«103476_j5987184410999_2_alg».proof.Proof.Hand.P2v9

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-- Region 9's output function over the extended reals, entry by entry: the scale times the centred entry, times
    the inverse deviation, plus the shift, plus the noise entry times the literal (the operations in the body's order). -/
theorem G9_apply (a0 : S65536x128.Idx → EReal) (a1 a2 a3 a4 : S1x128.Idx → EReal) (a5 : S65536x128.Idx → EReal) (r : Fin 65536) (j : Fin 128) :
    G9 (F := Ideal) a0 a1 a2 a3 a4 a5 (ix2 r j) = a3 (ix2 0 j) * (a0 (ix2 r j) - a1 (ix2 0 j)) * a2 (ix2 0 j) + a4 (ix2 0 j) + a5 (ix2 r j) * Ideal.ofBits .f32 0x3DCCCCCD#32 := rfl

/-- The output array of region 9 after the run, at an entry. -/
theorem final9_apply (V : (c : Dev nD) → (b : Ref sig .tc) → Buf (Elt Ideal) ((c : Thread nD τ).loc b)) (c : Dev nD) (r : Fin 65536) (j : Fin 128) :
    (dat9 V c).arrAt 6 cfg9.N (ix2 r j)
      = G9 (F := Ideal) (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (ix2 r j) :=
  congrFun (final9 V c) (ix2 r j)

end Cert.KernelIdeal.Hand

end
-- ==== Proof.Hand.KerVal4.lean ====
/-
  Network node 4 on the kernel's side, composed: the array the normalisation pass (region 9) leaves is, entry by
  entry, the kernel's reading of the batch normalisation of the split perceptron of nodes 1 and 2's outputs and the
  launch arguments, plus the scaled noise.
-/
import proofs.«103476_j5987184410999_2_alg».proof.Proof.Hand.ChainDefs4
import proofs.«103476_j5987184410999_2_alg».proof.Proof.Hand.KArgs
import proofs.«103476_j5987184410999_2_alg».proof.Proof.Hand.KerHost8
import proofs.«103476_j5987184410999_2_alg».proof.Proof.Hand.KerHost9
import proofs.«103476_j5987184410999_2_alg».proof.Proof.Hand.Glue
import proofs.«103476_j5987184410999_2_alg».proof.Proof.Hand.P1v8
import proofs.«103476_j5987184410999_2_alg».proof.Proof.Hand.P2i9
import proofs.«103476_j5987184410999_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Hand
open scoped BigOperators

variable (m : (ℓ : Loc nD τ sig) → Buf (Elt Ideal) ℓ)

/-! ## What region 8 is entered from, in terms of the earlier nodes and the launch arguments -/

/-- Host stretch 8 writes neither of the two earlier outputs it is fed. -/
theorem W17_xa (c : Dev nD) : W17 m c main_v65 = W16 m c main_v65 :=
  StableHlo.after_of_writes_sub hostOps8 _ hostOps8_writes (by decide)
theorem W17_xb (c : Dev nD) : W17 m c main_v110 = W16 m c main_v110 :=
  StableHlo.after_of_writes_sub hostOps8 _ hostOps8_writes (by decide)

section Node
variable (c : Dev nD)
  (hA : ∀ r k, (W16 m c main_v65 : S65536x128.Idx → EReal) (ix2 r k) = Net.k1 (kargs m c) r k)
  (hB : ∀ r k, (W16 m c main_v110 : S65536x128.Idx → EReal) (ix2 r k) = Net.k2 (kargs m c) r k)
  (hargs : ∀ a ∈ ([main_arg0, main_arg1, main_arg2, main_arg3, main_arg4, main_arg5, main_arg6, main_arg7, main_arg8] : List (Ref sig .tc)),
    W16 m c a = m (c, a))
  (hWa : ∀ (k : Fin 128) (h : Fin 256), (W16 m c main_v75 : S128x256.Idx → EReal) (ix2 k h) = (kargs m c).W1 4 ⟨k.val, by omega⟩ h)
  (hWb : ∀ (k : Fin 128) (h : Fin 256), (W16 m c main_v77 : S128x256.Idx → EReal) (ix2 k h) = (kargs m c).W1 4 ⟨128 + k.val, by omega⟩ h)

include hWa in
/-- The upper half of node 4's first weight matrix, as region 8 finds it: host stretch 8 does not write it. -/
theorem E8_Wa (k : Fin 128) (h : Fin 256) :
    (E8 m c main_v75 : S128x256.Idx → EReal) (ix2 k h) = (kargs m c).W1 4 ⟨k.val, by have := k.isLt; omega⟩ h := by
  have e : W17 m c main_v75 = W16 m c main_v75 :=
    StableHlo.after_of_writes_sub hostOps8 _ hostOps8_writes (by decide)
  show (W17 m c main_v75 : S128x256.Idx → EReal) (ix2 k h) = _
  rw [e]; exact hWa k h

include hWb in
/-- The lower half. -/
theorem E8_Wb (k : Fin 128) (h : Fin 256) :
    (E8 m c main_v77 : S128x256.Idx → EReal) (ix2 k h) = (kargs m c).W1 4 ⟨128 + k.val, by have := k.isLt; omega⟩ h := by
  have e : W17 m c main_v77 = W16 m c main_v77 :=
    StableHlo.after_of_writes_sub hostOps8 _ hostOps8_writes (by decide)
  show (W17 m c main_v77 : S128x256.Idx → EReal) (ix2 k h) = _
  rw [e]; exact hWb k h

include hargs in
theorem E8_b1 (h : Fin 256) : (E8 m c main_v156 : S1x256.Idx → EReal) (ix2 0 h) = (kargs m c).b1 4 h := by
  show (StableHlo.after hostOps8 (W16 m c) main_v156 : S1x256.Idx → EReal) (ix2 0 h) = _
  rw [h8_v156 (W16 m c) h, hargs main_arg3 (by decide)]
  rfl

include hargs in
theorem E8_W2 (h : Fin 256) (j : Fin 128) : (E8 m c main_v147 : S256x128.Idx → EReal) (ix2 h j) = (kargs m c).W2 4 h j := by
  show (StableHlo.after hostOps8 (W16 m c) main_v147 : S256x128.Idx → EReal) (ix2 h j) = _
  rw [h8_v147 (W16 m c) h j, hargs main_arg4 (by decide)]
  rfl

include hargs in
theorem E8_b2 (j : Fin 128) : (E8 m c main_v157 : S1x128.Idx → EReal) (ix2 0 j) = (kargs m c).b2 4 j := by
  show (StableHlo.after hostOps8 (W16 m c) main_v157 : S1x128.Idx → EReal) (ix2 0 j) = _
  rw [h8_v157 (W16 m c) j, hargs main_arg5 (by decide)]
  rfl

include hA in
theorem E8_xa (r : Fin 65536) (k : Fin 128) : (E8 m c main_v65 : S65536x128.Idx → EReal) (ix2 r k) = Net.k1 (kargs m c) r k := by
  show (W17 m c main_v65 : S65536x128.Idx → EReal) (ix2 r k) = _
  rw [W17_xa]; exact hA r k

include hB in
theorem E8_xb (r : Fin 65536) (k : Fin 128) : (E8 m c main_v110 : S65536x128.Idx → EReal) (ix2 r k) = Net.k2 (kargs m c) r k := by
  show (W17 m c main_v110 : S65536x128.Idx → EReal) (ix2 r k) = _
  rw [W17_xb]; exact hB r k

include hA hB hargs in
/-- The split perceptron of the arrays region 8 finds is the split perceptron of nodes 1 and 2's outputs and node 4's
    launch arguments. -/
theorem lin8_E8 :
    lin8 (E8 m) c ((kargs m c).W1 4)
      = Spec.linSplit (Net.k1 (kargs m c)) (Net.k2 (kargs m c)) ((kargs m c).W1 4) ((kargs m c).b1 4) ((kargs m c).W2 4) ((kargs m c).b2 4) := by
  have hxa : (fun r k => (E8 m c main_v65 : S65536x128.Idx → EReal) (ix2 r k)) = Net.k1 (kargs m c) := by
    funext r k; exact E8_xa m c hA r k
  have hxb : (fun r k => (E8 m c main_v110 : S65536x128.Idx → EReal) (ix2 r k)) = Net.k2 (kargs m c) := by
    funext r k; exact E8_xb m c hB r k
  have hb1 : (fun h => (E8 m c main_v156 : S1x256.Idx → EReal) (ix2 0 h)) = (kargs m c).b1 4 := by
    funext h; exact E8_b1 m c hargs h
  have hW2 : (fun h j => (E8 m c main_v147 : S256x128.Idx → EReal) (ix2 h j)) = (kargs m c).W2 4 := by
    funext h j; exact E8_W2 m c hargs h j
  have hb2 : (fun j => (E8 m c main_v157 : S1x128.Idx → EReal) (ix2 0 j)) = (kargs m c).b2 4 := by
    funext j; exact E8_b2 m c hargs j
  show Spec.linSplit _ _ _ _ _ _ = _
  rw [hxa, hxb, hb1, hW2, hb2]

/-! ## What region 9 is entered from -/

/-- The product array: region 8 left it, host stretch 9 does not write it. -/
theorem W19_y : W19 m c main_v158_0 = yArr8 (E8 m) c := by
  have e1 : W19 m c main_v158_0 = W18 m c main_v158_0 :=
    StableHlo.after_of_writes_sub hostOps9 _ hostOps9_writes (by decide)
  rw [e1]
  exact Pipeline.withArrays_arr spec8 launch8.win.arr_inj c (W17 m c) (GA8 m c) 7

/-- The sums and the sums of squares as region 8 left them. -/
theorem W18_sum : W18 m c main_v158_1 = sumArr8 (E8 m) c :=
  Pipeline.withArrays_arr spec8 launch8.win.arr_inj c (W17 m c) (GA8 m c) 8
theorem W18_sq : W18 m c main_v158_2 = sqArr8 (E8 m) c :=
  Pipeline.withArrays_arr spec8 launch8.win.arr_inj c (W17 m c) (GA8 m c) 9

include hargs in
/-- The scale row: a reshape of the scale vector host stretch 8 sliced out of the arguments. -/
theorem W19_gamma (j : Fin 128) : (W19 m c main_v174 : S1x128.Idx → EReal) (ix2 0 j) = (kargs m c).g 4 j := by
  show (StableHlo.after hostOps9 (W18 m c) main_v174 : S1x128.Idx → EReal) (ix2 0 j) = _
  rw [h9_v174 (W18 m c) j]
  have e : W18 m c main_v151 = W17 m c main_v151 :=
    Pipeline.withArrays_of_ne spec8 c (W17 m c) (GA8 m c) main_v151 (by decide)
  rw [e]
  show (StableHlo.after hostOps8 (W16 m c) main_v151 : S128.Idx → EReal) (ix1 j) = _
  rw [h8_v151 (W16 m c) j, hargs main_arg6 (by decide)]
  rfl

include hargs in
/-- The shift row likewise. -/
theorem W19_beta (j : Fin 128) : (W19 m c main_v175 : S1x128.Idx → EReal) (ix2 0 j) = (kargs m c).be 4 j := by
  show (StableHlo.after hostOps9 (W18 m c) main_v175 : S1x128.Idx → EReal) (ix2 0 j) = _
  rw [h9_v175 (W18 m c) j]
  have e : W18 m c main_v153 = W17 m c main_v153 :=
    Pipeline.withArrays_of_ne spec8 c (W17 m c) (GA8 m c) main_v153 (by decide)
  rw [e]
  show (StableHlo.after hostOps8 (W16 m c) main_v153 : S128.Idx → EReal) (ix1 j) = _
  rw [h8_v153 (W16 m c) j, hargs main_arg7 (by decide)]
  rfl

include hargs in
/-- The noise array: host stretch 8 sliced it out of the arguments; neither region 8 nor host stretch 9 writes it. -/
theorem W19_noise (r : Fin 65536) (j : Fin 128) : (W19 m c main_v155 : S65536x128.Idx → EReal) (ix2 r j) = (kargs m c).nz 2 r j := by
  have e1 : W19 m c main_v155 = W18 m c main_v155 :=
    StableHlo.after_of_writes_sub hostOps9 _ hostOps9_writes (by decide)
  have e2 : W18 m c main_v155 = W17 m c main_v155 :=
    Pipeline.withArrays_of_ne spec8 c (W17 m c) (GA8 m c) main_v155 (by decide)
  rw [e1, e2]
  show (StableHlo.after hostOps8 (W16 m c) main_v155 : S65536x128.Idx → EReal) (ix2 r j) = _
  rw [h8_v155 (W16 m c) r j, hargs main_arg8 (by decide)]
  rfl

/-! ## Node 4 -/

set_option maxHeartbeats 1000000 in
include hA hB hargs hWa hWb in
/-- The array region 9 leaves is the kernel's reading of network node 4 of the launch arguments. -/
theorem node4 (r : Fin 65536) (j : Fin 128) :
    (W20 m c main_v176 : S65536x128.Idx → EReal) (ix2 r j) = Net.k4 (kargs m c) r j := by
  have e12 : W20 m c main_v176 = GA9 m c 6 :=
    Pipeline.withArrays_arr spec9 launch9.win.arr_inj c (W19 m c) (GA9 m c) 6
  rw [e12]
  show (dat9 (E9 m) c).arrAt 6 cfg9.N (ix2 r j) = _
  rw [final9_apply (E9 m) c r j, G9_apply]
  have hW1a := E8_Wa m c hWa
  have hW1b := E8_Wb m c hWb
  have hg : (E9 m c (Pipeline.arrRef spec9 3) : S1x128.Idx → EReal) (ix2 0 j) = (kargs m c).g 4 j := W19_gamma m c hargs j
  have hb : (E9 m c (Pipeline.arrRef spec9 4) : S1x128.Idx → EReal) (ix2 0 j) = (kargs m c).be 4 j := W19_beta m c hargs j
  have hn : (E9 m c (Pipeline.arrRef spec9 5) : S65536x128.Idx → EReal) (ix2 r j) = (kargs m c).nz 2 r j := W19_noise m c hargs r j
  have hy : (E9 m c (Pipeline.arrRef spec9 0) : S65536x128.Idx → EReal) (ix2 r j) = lin8 (E8 m) c ((kargs m c).W1 4) r j := by
    show (W19 m c main_v158_0 : S65536x128.Idx → EReal) (ix2 r j) = _
    rw [W19_y]; exact yArr8_eq_lin (E8 m) c ((kargs m c).W1 4) hW1a hW1b r j
  have hmean : (E9 m c (Pipeline.arrRef spec9 1) : S1x128.Idx → EReal) (ix2 0 j) = _ :=
    h9_v166 (W18 m c) (sumArr8 (E8 m) c) (W18_sum m c) j
  have hinv : (E9 m c (Pipeline.arrRef spec9 2) : S1x128.Idx → EReal) (ix2 0 j) = _ :=
    h9_v173 (W18 m c) (sumArr8 (E8 m) c) (sqArr8 (E8 m) c) (W18_sum m c) (W18_sq m c) j
  rw [hg, hb, hn, hy, hmean, hinv]
  have key := Glue.pass2_noise_eq (lin8 (E8 m) c ((kargs m c).W1 4)) (sumArr8 (E8 m) c) (sqArr8 (E8 m) c) ((kargs m c).g 4) ((kargs m c).be 4)
    ((kargs m c).nz 2)
    (fun j => (r8row0_apply (sumArr8 (E8 m) c) (ix2 0 j)).symm.trans (row0_sumArr8_apply (E8 m) c ((kargs m c).W1 4) hW1a hW1b j))
    (fun j => (r8row8_apply (sumArr8 (E8 m) c) (ix2 0 j)).symm.trans (row8_sumArr8_apply (E8 m) c ((kargs m c).W1 4) hW1a hW1b j))
    (fun j => (r8row0_apply (sqArr8 (E8 m) c) (ix2 0 j)).symm.trans (row0_sqArr8_apply (E8 m) c ((kargs m c).W1 4) hW1a hW1b j))
    (fun j => (r8row8_apply (sqArr8 (E8 m) c) (ix2 0 j)).symm.trans (row8_sqArr8_apply (E8 m) c ((kargs m c).W1 4) hW1a hW1b j)) r j
  rw [lin8_E8 m c hA hB hargs] at key
  rw [lin8_E8 m c hA hB hargs]
  exact key

end Node

end Cert.KernelIdeal.Hand

end
-- ==== Proof.Hand.KerVal3w.lean ====
/-
  Node 4's first-weight halves, which host stretch 4 slices out of the arguments, as they stand after region 7:
  host stretches 6 and 7 and regions 6 and 7 write neither.
-/
import proofs.«103476_j5987184410999_2_alg».proof.Proof.Hand.ChainDefs3
import proofs.«103476_j5987184410999_2_alg».proof.Proof.Hand.KArgs
import proofs.«103476_j5987184410999_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Hand

variable (m : (ℓ : Loc nD τ sig) → Buf (Elt Ideal) ℓ)

theorem W16_Wa4 (c : Dev nD)
    (h12 : ∀ (k : Fin 128) (h : Fin 256), (W12 m c main_v75 : S128x256.Idx → EReal) (ix2 k h) = (kargs m c).W1 4 ⟨k.val, by omega⟩ h)
    (k : Fin 128) (h : Fin 256) :
    (W16 m c main_v75 : S128x256.Idx → EReal) (ix2 k h) = (kargs m c).W1 4 ⟨k.val, by omega⟩ h := by
  have e1 : W16 m c main_v75 = W15 m c main_v75 :=
    Pipeline.withArrays_of_ne spec7 c (W15 m c) (GA7 m c) main_v75 (by decide)
  have e2 : W15 m c main_v75 = W14 m c main_v75 :=
    StableHlo.after_of_writes_sub hostOps7 _ hostOps7_writes (by decide)
  have e3 : W14 m c main_v75 = W13 m c main_v75 :=
    Pipeline.withArrays_of_ne spec6 c (W13 m c) (GA6 m c) main_v75 (by decide)
  have e4 : W13 m c main_v75 = W12 m c main_v75 :=
    StableHlo.after_of_writes_sub hostOps6 _ hostOps6_writes (by decide)
  rw [e1, e2, e3, e4]; exact h12 k h

theorem W16_Wb4 (c : Dev nD)
    (h12 : ∀ (k : Fin 128) (h : Fin 256), (W12 m c main_v77 : S128x256.Idx → EReal) (ix2 k h) = (kargs m c).W1 4 ⟨128 + k.val, by omega⟩ h)
    (k : Fin 128) (h : Fin 256) :
    (W16 m c main_v77 : S128x256.Idx → EReal) (ix2 k h) = (kargs m c).W1 4 ⟨128 + k.val, by omega⟩ h := by
  have e1 : W16 m c main_v77 = W15 m c main_v77 :=
    Pipeline.withArrays_of_ne spec7 c (W15 m c) (GA7 m c) main_v77 (by decide)
  have e2 : W15 m c main_v77 = W14 m c main_v77 :=
    StableHlo.after_of_writes_sub hostOps7 _ hostOps7_writes (by decide)
  have e3 : W14 m c main_v77 = W13 m c main_v77 :=
    Pipeline.withArrays_of_ne spec6 c (W13 m c) (GA6 m c) main_v77 (by decide)
  have e4 : W13 m c main_v77 = W12 m c main_v77 :=
    StableHlo.after_of_writes_sub hostOps6 _ hostOps6_writes (by decide)
  rw [e1, e2, e3, e4]; exact h12 k h

end Cert.KernelIdeal.Hand

end
-- ==== Proof.Hand.KerVal.lean ====
/-
  The idealized kernel's five results as the network's functions of the arguments: the canonical contents of the last boundary at the result
  arrays are the five nodes' values (node by node; a result array, once produced, is not touched again), and every run ends at them.
-/
import proofs.«103476_j5987184410999_2_alg».proof.Proof.Hand.Chain
import proofs.«103476_j5987184410999_2_alg».proof.Proof.Hand.KerKeep
import proofs.«103476_j5987184410999_2_alg».proof.Proof.Hand.KArgs
import proofs.«103476_j5987184410999_2_alg».proof.Proof.Hand.KerVal0
import proofs.«103476_j5987184410999_2_alg».proof.Proof.Hand.KerVal1
import proofs.«103476_j5987184410999_2_alg».proof.Proof.Hand.KerVal2
import proofs.«103476_j5987184410999_2_alg».proof.Proof.Hand.KerVal3
import proofs.«103476_j5987184410999_2_alg».proof.Proof.Hand.KerVal4
import proofs.«103476_j5987184410999_2_alg».proof.Proof.Hand.KerVal3w

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

open Idealize.ShloMosaic.ValueIdx Cert.Hand

variable (m : (ℓ : Loc nD τ sig) → Buf (Elt Ideal) ℓ)

/-- The idealized kernel's results: the canonical contents of the last boundary at the five result arrays. -/
def K0 (c : Dev nD) : Buf (Elt Ideal) ((c.tc : Thread nD τ).loc main_v32) := W20 m c main_v32
def K1 (c : Dev nD) : Buf (Elt Ideal) ((c.tc : Thread nD τ).loc main_v65) := W20 m c main_v65
def K2 (c : Dev nD) : Buf (Elt Ideal) ((c.tc : Thread nD τ).loc main_v110) := W20 m c main_v110
def K3 (c : Dev nD) : Buf (Elt Ideal) ((c.tc : Thread nD τ).loc main_v143) := W20 m c main_v143
def K4 (c : Dev nD) : Buf (Elt Ideal) ((c.tc : Thread nD τ).loc main_v176) := W20 m c main_v176

theorem argsAt (j : ℕ) (c : Dev nD) (h : ∀ x ∈ (keptL 0 : List (Ref sig .tc)), Wj m j c x = W0 m c x) :
    ∀ a ∈ ([main_arg0, main_arg1, main_arg2, main_arg3, main_arg4, main_arg5, main_arg6, main_arg7, main_arg8] : List (Ref sig .tc)), Wj m j c a = m (c, a) := fun a ha => h a ha

theorem val0 (c : Dev nD) (r : Fin 65536) (j : Fin 128) : (W4 m c main_v32 : S65536x128.Idx → EReal) (ix2 r j) = Net.k0 (kargs m c) r j :=
  node0 m c r j
theorem val1 (c : Dev nD) (r : Fin 65536) (j : Fin 128) : (W8 m c main_v65 : S65536x128.Idx → EReal) (ix2 r j) = Net.k1 (kargs m c) r j :=
  node1 m c (fun a ha => W4_of_W0 m c a ha) r j
theorem val2 (c : Dev nD) (r : Fin 65536) (j : Fin 128) : (W12 m c main_v110 : S65536x128.Idx → EReal) (ix2 r j) = Net.k2 (kargs m c) r j :=
  node2 m c (fun r k => (congrFun (W8_of_W4 m c main_v32 (by decide)) (ix2 r k)).trans (val0 m c r k)) (fun r k => val1 m c r k)
    (fun a ha => W8_of_W0 m c a ha) r j
theorem val3 (c : Dev nD) (r : Fin 65536) (j : Fin 128) : (W16 m c main_v143 : S65536x128.Idx → EReal) (ix2 r j) = Net.k3 (kargs m c) r j :=
  node3 m c (fun r k => (congrFun (W12_of_W4 m c main_v32 (by decide)) (ix2 r k)).trans (val0 m c r k)) (fun r k => val2 m c r k)
    (fun a ha => W12_of_W0 m c a ha) (W12_Wa3 m c (fun a ha => W8_of_W0 m c a ha)) (W12_Wb3 m c (fun a ha => W8_of_W0 m c a ha)) r j
theorem val4 (c : Dev nD) (r : Fin 65536) (j : Fin 128) : (W20 m c main_v176 : S65536x128.Idx → EReal) (ix2 r j) = Net.k4 (kargs m c) r j :=
  node4 m c (fun r k => (congrFun (W16_of_W8 m c main_v65 (by decide)) (ix2 r k)).trans (val1 m c r k))
    (fun r k => (congrFun (W16_of_W12 m c main_v110 (by decide)) (ix2 r k)).trans (val2 m c r k))
    (fun a ha => W16_of_W0 m c a ha) (W16_Wa4 m c (W12_Wa4 m c (fun a ha => W8_of_W0 m c a ha))) (W16_Wb4 m c (W12_Wb4 m c (fun a ha => W8_of_W0 m c a ha))) r j

theorem K_apply (c : Dev nD) (r : Fin 65536) (j : Fin 128) :
    K0 m c (ix2 r j) = Net.k0 (kargs m c) r j ∧ K1 m c (ix2 r j) = Net.k1 (kargs m c) r j
    ∧ K2 m c (ix2 r j) = Net.k2 (kargs m c) r j ∧ K3 m c (ix2 r j) = Net.k3 (kargs m c) r j
    ∧ K4 m c (ix2 r j) = Net.k4 (kargs m c) r j :=
  ⟨(congrFun (W20_of_W4 m c main_v32 (by decide)) (ix2 r j)).trans (val0 m c r j),
   (congrFun (W20_of_W8 m c main_v65 (by decide)) (ix2 r j)).trans (val1 m c r j),
   (congrFun (W20_of_W12 m c main_v110 (by decide)) (ix2 r j)).trans (val2 m c r j),
   (congrFun (W20_of_W16 m c main_v143 (by decide)) (ix2 r j)).trans (val3 m c r j),
   val4 m c r j⟩

/-- Every weakly fair execution of the idealized kernel's @main terminates, nothing faulting; the five results end at `K3`, `K4`,
    `K0`, `K1`, `K2` (in the program's order of results) and the nine arguments as launched. -/
theorem vals_ker (ρ : Dev nD → PrngReg) :
    θ_run (defs (F := Ideal)) (onTc (τ := τ) (main (F := Ideal))) ⟨m, fun _ => 0, ρ⟩ (fun r => ∀ c : Dev nD,
      r.2.mem ((c.tc : Thread nD τ).loc main_v143) = K3 m c
      ∧ r.2.mem ((c.tc : Thread nD τ).loc main_v176) = K4 m c
      ∧ r.2.mem ((c.tc : Thread nD τ).loc main_v32) = K0 m c
      ∧ r.2.mem ((c.tc : Thread nD τ).loc main_v65) = K1 m c
      ∧ r.2.mem ((c.tc : Thread nD τ).loc main_v110) = K2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    obtain ⟨V, hV, hm⟩ := h c
    have resNS : ∀ x ∈ ([main_v32, main_v65, main_v110, main_v143, main_v176] : List (Ref sig .tc)), ¬ (Proc.devRef (τ := τ) .tc x).isScoped := by decide
    have resNJ : ∀ x ∈ ([main_v32, main_v65, main_v110, main_v143, main_v176] : List (Ref sig .tc)), x ∉ (Jl : List (Ref sig .tc)) := by decide
    have argNS : ∀ a ∈ (argL : List (Ref sig .tc)), ¬ (Proc.devRef (τ := τ) .tc a).isScoped := by decide
    have kres : ∀ x ∈ ([main_v32, main_v65, main_v110, main_v143, main_v176] : List (Ref sig .tc)), r.2.mem ((c.tc : Thread nD τ).loc x) = W20 m c x := fun x hx =>
      (hm (Proc.devRef .tc x) (Finset.mem_filter.mpr ⟨StableHlo.devRef_mem_tcRefs x, resNS x hx⟩)).trans (hV.1.off x (resNJ x hx))
    have karg : ∀ a ∈ (argL : List (Ref sig .tc)), r.2.mem ((c.tc : Thread nD τ).loc a) = m ((c.tc : Thread nD τ).loc a) := fun a ha =>
      (hm (Proc.devRef .tc a) (Finset.mem_filter.mpr ⟨StableHlo.devRef_mem_tcRefs a, argNS a ha⟩)).trans
        ((hV.1.off a (argNJ a ha)).trans (W20_args m c a ha))
    exact ⟨kres main_v143 (by decide), kres main_v176 (by decide), kres main_v32 (by decide), kres main_v65 (by decide), kres main_v110 (by decide),
      karg main_arg0 (by decide), karg main_arg1 (by decide), karg main_arg2 (by decide), karg main_arg3 (by decide), karg main_arg4 (by decide), karg main_arg5 (by decide), karg main_arg6 (by decide), karg main_arg7 (by decide), karg main_arg8 (by decide)⟩) (run_agree m ρ)

end Cert.KernelIdeal.Hand

end
-- ==== Proof.HandK.Kit.lean ====
/-
  Thread states "every unscoped buffer at SOME contents satisfying a predicate", and @main's segments over them:
  a host stretch carries a predicate on the buffers' contents to one on the contents after its operations; a
  kernel region whose proof data constrain (rather than name) what its body leaves carries it to one on the
  contents with the region's arrays replaced by anything its write-backs may leave.
-/
import proofs.«103476_j5987184410999_2_alg».proof.Proof.Gen.Kernel.Launch
import proofs.«103476_j5987184410999_2_alg».proof.Proof.Gen.Kernel.Skeleton
import proofs.«103476_j5987184410999_2_alg».proof.Proof.Gen.Kernel.Points
import proofs.«103476_j5987184410999_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0

/-- What rides beside the buffers: the generator register at some state, and nothing owed. -/
abbrev Rr (c : Dev nD) : sProp 𝕄 := iprop((∃ r, prngReg c r) ∗ ∃ W, owes (c : Thread nD τ) (0 : CellTallies nD τ sig Unit) W)

/-- Core `c` holds every unscoped buffer at some contents `V` of which `I` holds. -/
def TS (I : Valuation τ sig (Elt F) → Prop) (c : Dev nD) : sProp 𝕄 :=
  iprop(∃ V : Valuation τ sig (Elt F), ⌜I V⌝ ∗ StableHlo.held (c : Thread nD τ) (Pipeline.ucRefs τ sig) V ∗ Rr c)

abbrev adm : (p : Fin 10) → (pcfgs (F := F) p).Adm := fun p => (cfgs p).toPCfg_adm

set_option backward.isDefEq.respectTransparency.types false in
/-- A host stretch from contents of which `I` holds to contents of which `I'` holds. -/
def hsegI (ops : List (HloOp τ sig (Elt F))) (hsub : ops.Forall fun op => op.bufs ⊆ StableHlo.tcRefs τ sig)
    (hfresh : ops.Forall fun op => op.fresh = ∅) (I I' : Dev nD → Valuation τ sig (Elt F) → Prop)
    (h : ∀ c V, I c V → I' c (StableHlo.after ops V)) :
    Pipeline.HostSeg (Name := ℕ) (U := UR sig nD τ) (pcfgs (F := F)) defs₀ 𝒱₀ L lv where
  prog := StableHlo.seq ops
  pre c := TS (I c) c
  post c := TS (I' c) c
  run c {β} k K := by
    unfold TS
    iintro ⟨Hk, Hbd, ⟨%V, %hV, Hh, HR⟩, Hla⟩
    have base := ((Pipeline.HostSeg.ofOps _ _ _ _ _ (Pipeline.ucRefs τ sig) ops
      (fun op h => Pipeline.sub_ucRefs op ((List.forall_iff_forall_mem.mp hsub) op h))
      (fun op h => (List.forall_iff_forall_mem.mp hfresh) op h) (fun _ => V) Rr :
        Pipeline.HostSeg (Name := ℕ) (U := UR sig nD τ) (pcfgs (F := F)) defs₀ 𝒱₀ L lv).run c k K)
    dsimp only [Pipeline.HostSeg.ofOps] at base
    iapply base
    isplitl [Hk]
    · iintro ⟨Hbd, Hh, HR⟩
      iapply Hk
      isplitl [Hbd]; · iexact Hbd
      iexists (StableHlo.after ops V)
      isplitr; · ipureintro; exact h c V hV
      isplitl [Hh]; · iexact Hh
      iexact HR
    isplitl [Hbd]; · iexact Hbd
    isplitl [Hh HR]
    · isplitl [Hh]; · iexact Hh
      iexact HR
    iexact Hla

@[simp] theorem hsegI_prog (ops : List (HloOp τ sig (Elt F))) (hsub) (hfresh) (I I' : Dev nD → Valuation τ sig (Elt F) → Prop) (h) :
    (hsegI ops hsub hfresh I I' h).prog = StableHlo.seq ops := rfl
@[simp] theorem hsegI_pre (ops : List (HloOp τ sig (Elt F))) (hsub) (hfresh) (I I' : Dev nD → Valuation τ sig (Elt F) → Prop) (h) (c : Dev nD) :
    (hsegI ops hsub hfresh I I' h).pre c = TS (I c) c := rfl
@[simp] theorem hsegI_post (ops : List (HloOp τ sig (Elt F))) (hsub) (hfresh) (I I' : Dev nD → Valuation τ sig (Elt F) → Prop) (h) (c : Dev nD) :
    (hsegI ops hsub hfresh I I' h).post c = TS (I' c) c := rfl

/-- Contents of every buffer, read at the TensorCore's references. -/
abbrev atTc (V : Valuation τ sig (Elt F)) (c : Dev nD) : (b : Ref sig .tc) → Buf (Elt F) ((c : Thread nD τ).loc b) := fun b => V b

/-- Abbreviation: pipeline `p`'s configuration at the (empty) tables. -/
abbrev pc (p : Fin 10) : Cfg sig Λ₀ := Pipeline.pin (pcfgs (F := F)) adm p

set_option backward.isDefEq.respectTransparency.types false in
/-- A kernel region of RELATIONAL proof data from contents of which `I` holds — and which pin the region's arrays to the
    data's entry contents (`hA`) — to contents of which `I'` holds: the entry contents with the region's arrays at
    anything their write-backs may leave (`hstep`). -/
def regI (rdats : (p : Fin 10) → (c : Dev nD) → RDat τ (Elt F) Unit ℕ (UR sig nD τ) ℕ (pc (F := F) p) c)
    (p : Fin 10) (lf : Pipeline.LaunchFacts (nD := nD) (τ := τ) cfgs p)
    (hbody : ∀ c, (rdats p c).BodyObligation (defs₀ (F := F)) 𝒱₀ () Set.univ)
    (hΦ : ∀ c t, (rdats p c).Φ t = Pipeline.ΦA (pc (F := F) p).spec c)
    (hq : ∀ c w, (rdats p c).share w = fullShare)
    (howed : ∀ c t, (rdats p c).owed t = 0)
    (hrec : ∀ c t, (rdats p c).recorded t = Set.univ)
    (I I' : Dev nD → Valuation τ sig (Elt F) → Prop)
    (hA : ∀ c V, I c V → ∀ w, (rdats p c).A w = V (Pipeline.arrRef (pc (F := F) p).spec w))
    (hstep : ∀ c V, I c V → ∀ G : (w : Fin (pc (F := F) p).W) → Buf (Elt F) (((pc (F := F) p).spec w).arr.view.loc (c.tc : Thread nD τ)),
      (∀ w, (rdats p c).ArrAt w (pc (F := F) p).N (G w)) → I' c (Pipeline.withArrays (pc (F := F) p).spec c V G)) :
    Pipeline.RDat.RegionSeg (pcfgs (F := F)) adm rdats () defs₀ 𝒱₀ L lv p where
  win := lf.win.to₀
  block_pos := lf.block_pos
  stage_whole := lf.stage_whole
  K := PEmpty
  osem k := k.elim
  ho := Pipeline.OwnSemFacts.none _
  hbody := hbody
  hwaits := Pipeline.RDat.hwaits_of_owed_zero _ _ _ _ L lv p howed
  pre c := TS (I c) c
  post c := TS (I' c) c
  X c := iprop(∃ r, prngReg c r)
  Y c := iprop(∃ r, prngReg c r)
  Z c := iprop(∃ V : Valuation τ sig (Elt F), ⌜I c V⌝ ∗ Pipeline.unscopedRest (Ix := Unit) (Name := ℕ) (U := UR sig nD τ) (Lvl := ℕ) (pc (F := F) p).spec c (atTc V c))
  hentry c := by
    rw [Pipeline.ownSems0_none]
    unfold TS
    iintro ⟨⟨%V, %hV, Hub, Hp, HO⟩, -, -⟩
    have hsplit := Pipeline.RDat.arrays_of_unscopedBufs (p := p) (pcfgs (F := F)) adm rdats lf.win lf.arr_whole c (hq c)
      (atTc V c) (hA c V hV)
    rw [Pipeline.unscopedBufs_held] at hsplit
    ihave H := hsplit $$ [Hub]
    · iexact Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl (by rw [hrec c 0]; exact Set.mem_univ _)
      rw [howed c 0]; iexact HO
    isplitl [Hp]; · iexact Hp
    iexists V; isplitr; · ipureintro; exact hV
    iexact Hrest
  hin c := by
    rw [hΦ c 0]; unfold Pipeline.ΦA
    iintro ⟨Hp, -, Hr⟩
    isplitl [Hr]; · iexact Hr
    iexact Hp
  hout c := by
    rw [Pipeline.ownSems0_none, hΦ c _]; unfold Pipeline.ΦA
    iintro ⟨Hr, Hp⟩
    isplitl [Hp]; · iexact Hp
    isplitr; · iempintro
    iexact Hr
  hexit c := by
    have hch : (rdats p c).arraysAt (pc (F := F) p).N
        ⊢ (iprop(∃ G : (w : Fin (pc (F := F) p).W) → Buf (Elt F) (((pc (F := F) p).spec w).arr.view.loc (c.tc : Thread nD τ)),
            ⌜∀ w, (rdats p c).ArrAt w (pc (F := F) p).N (G w)⌝ ∗ (rdats p c).arrays G) : sProp 𝕄) := by
      unfold Pipeline.RDat.arraysAt Pipeline.RDat.arrays
      refine (bigSep_exists_pi Finset.univ _).trans ?_
      iintro ⟨%G, H⟩
      iexists G
      ihave H' := (bigSep_pure_sep Finset.univ (fun w => (rdats p c).ArrAt w (pc (F := F) p).N (G w))
        (fun w => (((pc (F := F) p).win w).arr.view.loc (c.tc : Thread nD τ) ↦[((pc (F := F) p).win w).arr.view.set]{(rdats p c).share w} G w : sProp 𝕄))) $$ [H]
      · iexact H
      icases H' with ⟨%hG, H'⟩
      isplitr; · ipureintro; exact fun w => hG w (Finset.mem_univ w)
      iexact H'
    have hjoin : ∀ (V : Valuation τ sig (Elt F)) (G : (w : Fin (pc (F := F) p).W) → Buf (Elt F) (((pc (F := F) p).spec w).arr.view.loc (c.tc : Thread nD τ))),
        (iprop((rdats p c).arrays G ∗ Pipeline.unscopedRest (Ix := Unit) (Name := ℕ) (U := UR sig nD τ) (Lvl := ℕ) (pc (F := F) p).spec c (atTc V c)) : sProp 𝕄)
          ⊢ StableHlo.held (c : Thread nD τ) (Pipeline.ucRefs τ sig) (Pipeline.withArrays (pc (F := F) p).spec c V G) := by
      intro V G
      rw [← Pipeline.unscopedBufs_held c (Pipeline.withArrays (pc (F := F) p).spec c V G),
        Pipeline.unscopedBufs_split (Pipeline.pin (pcfgs (F := F)) adm) p lf.win.arr_unscoped lf.win.arr_inj c _,
        Pipeline.RDat.arrays_eq (pcfgs (F := F)) adm rdats p c lf.arr_whole (hq c)]
      refine sep_mono (Entails.of_eq (bigSep_congr fun w _ => by rw [Pipeline.withArrays_arr _ lf.win.arr_inj])) (Entails.of_eq ?_)
      unfold Pipeline.unscopedRest
      exact bigSep_congr fun b hb => by
        dsimp only [atTc]
        rw [Pipeline.withArrays_of_ne _ c V G b fun w e => (Finset.mem_sdiff.mp hb).2 (Finset.mem_image.mpr ⟨w, Finset.mem_univ _, e⟩)]
    unfold TS
    iintro ⟨Ha, HO, HY, ⟨%V, %hV, Hrest⟩⟩
    ihave H := hch $$ [Ha]
    · iexact Ha
    icases H with ⟨%G, %hG, Ha⟩
    imodintro
    iexists (Pipeline.withArrays (pc (F := F) p).spec c V G)
    isplitr; · ipureintro; exact hstep c V hV G hG
    isplitl [Ha Hrest]
    · iapply (hjoin V G); isplitl [Ha] <;> iassumption
    isplitl [HY]; · iexact HY
    unfold Pipeline.RDat.owesAt Pipeline.owesWithin
    icases HO with ⟨%W, -, HO⟩; iexists W; rw [howed c _]; iexact HO

end Cert.Kernel.Hand

end
-- ==== Proof.HandK.Agree.lean ====
/-
  Two valuations of a core's buffers AGREE OFF THE UNDEFINED ROWS when they coincide on every TensorCore reference
  except the ten statistics arrays (f32[16,128]: per-core column sums and sums of squares), and on those ten coincide
  on rows 0 and 8 — the only rows a statistics pass determines and the only rows anything later reads. Every host
  stretch of @main carries agreeing valuations to agreeing valuations: an operation that touches none of the ten
  arrays computes the same from the same, and the four slices that read one take exactly row 0 or row 8 of it.
  Replacing a region's arrays by contents that agree in the same sense keeps the agreement.
-/
import proofs.«103476_j5987184410999_2_alg».proof.Proof.Gen.Kernel.Launch
import proofs.«103476_j5987184410999_2_alg».proof.Proof.Gen.Kernel.Regions
import Idealize.ShloMosaic.Lib.StableHlo.Run
import Idealize.ShloMosaic.Lib.Pipeline.FrameSuffix

set_option maxRecDepth 16384

noncomputable section

namespace Cert.Kernel.Hand

open Cert.Kernel Cert.Kernel.Gen
open Idealize.ShloMosaic Idealize.ShloMosaic.TcCoe

variable {F : FTy → Type} [FloatOps F]

/-- The ten statistics arrays: of each only rows 0 and 8 are determined. -/
def Jl : List (Ref sig .tc) :=
  [main_v14_1, main_v14_2, main_v47_1, main_v47_2, main_v92_1, main_v92_2, main_v125_1, main_v125_2, main_v158_1, main_v158_2]

/-- Row 0 of a statistics array, as the host's slice takes it. -/
def row0 (X : (⟨S16x128, .f32⟩ : BufTy).Contents (Elt F)) : (⟨S1x128, .f32⟩ : BufTy).Contents (Elt F) :=
  extractStridedSlice S1x128 ![0, 0] X slices_S16x128_S1x128_0_0
/-- Row 8 of a statistics array, as the host's slice takes it. -/
def row8 (X : (⟨S16x128, .f32⟩ : BufTy).Contents (Elt F)) : (⟨S1x128, .f32⟩ : BufTy).Contents (Elt F) :=
  extractStridedSlice S1x128 ![8, 0] X slices_S16x128_S1x128_8_0

theorem row0_eq (X : (⟨S16x128, .f32⟩ : BufTy).Contents (Elt F)) :
    extractStridedSlice S1x128 ![0, 0] X slices_S16x128_S1x128_0_0 = row0 X := rfl
theorem row8_eq (X : (⟨S16x128, .f32⟩ : BufTy).Contents (Elt F)) :
    extractStridedSlice S1x128 ![8, 0] X slices_S16x128_S1x128_8_0 = row8 X := rfl

/-- Agreement off the undefined rows. -/
structure Agree (V W : Valuation τ sig (Elt F)) : Prop where
  off : ∀ b : Ref sig .tc, b ∉ Jl → V b = W b
  r14_1 : row0 (V main_v14_1) = row0 (W main_v14_1) ∧ row8 (V main_v14_1) = row8 (W main_v14_1)
  r14_2 : row0 (V main_v14_2) = row0 (W main_v14_2) ∧ row8 (V main_v14_2) = row8 (W main_v14_2)
  r47_1 : row0 (V main_v47_1) = row0 (W main_v47_1) ∧ row8 (V main_v47_1) = row8 (W main_v47_1)
  r47_2 : row0 (V main_v47_2) = row0 (W main_v47_2) ∧ row8 (V main_v47_2) = row8 (W main_v47_2)
  r92_1 : row0 (V main_v92_1) = row0 (W main_v92_1) ∧ row8 (V main_v92_1) = row8 (W main_v92_1)
  r92_2 : row0 (V main_v92_2) = row0 (W main_v92_2) ∧ row8 (V main_v92_2) = row8 (W main_v92_2)
  r125_1 : row0 (V main_v125_1) = row0 (W main_v125_1) ∧ row8 (V main_v125_1) = row8 (W main_v125_1)
  r125_2 : row0 (V main_v125_2) = row0 (W main_v125_2) ∧ row8 (V main_v125_2) = row8 (W main_v125_2)
  r158_1 : row0 (V main_v158_1) = row0 (W main_v158_1) ∧ row8 (V main_v158_1) = row8 (W main_v158_1)
  r158_2 : row0 (V main_v158_2) = row0 (W main_v158_2) ∧ row8 (V main_v158_2) = row8 (W main_v158_2)

/-- Rows 0 and 8 of two contents of the reference `s` coincide, whenever `s` is a 16×128 array of f32 (stated under
    that equation of types so that it makes sense at an unknown reference; at each of the ten literal arrays the
    equation is `rfl` and the casts vanish). -/
def RowsAgree (s : Ref sig .tc) (X Y : (Proc.devRef (τ := τ) .tc s).ty.Contents (Elt F)) : Prop :=
  ∀ e : (Proc.devRef (τ := τ) .tc s).ty = (⟨S16x128, .f32⟩ : BufTy),
    row0 (cast (congrArg (fun T : BufTy => T.Contents (Elt F)) e) X) = row0 (cast (congrArg (fun T : BufTy => T.Contents (Elt F)) e) Y)
    ∧ row8 (cast (congrArg (fun T : BufTy => T.Contents (Elt F)) e) X) = row8 (cast (congrArg (fun T : BufTy => T.Contents (Elt F)) e) Y)

theorem RowsAgree.refl (s : Ref sig .tc) (X : (Proc.devRef (τ := τ) .tc s).ty.Contents (Elt F)) : RowsAgree s X X :=
  fun _ => ⟨rfl, rfl⟩
theorem RowsAgree.symm {s : Ref sig .tc} {X Y : (Proc.devRef (τ := τ) .tc s).ty.Contents (Elt F)} (h : RowsAgree s X Y) :
    RowsAgree s Y X := fun e => ⟨(h e).1.symm, (h e).2.symm⟩
theorem RowsAgree.trans {s : Ref sig .tc} {X Y Z : (Proc.devRef (τ := τ) .tc s).ty.Contents (Elt F)}
    (h : RowsAgree s X Y) (h' : RowsAgree s Y Z) : RowsAgree s X Z :=
  fun e => ⟨(h e).1.trans (h' e).1, (h e).2.trans (h' e).2⟩

/-- The ten row conditions, at an unknown member of the list. -/
theorem Agree.rows {V W : Valuation τ sig (Elt F)} (h : Agree V W) :
    ∀ s ∈ Jl, RowsAgree s (V s) (W s) := by
  intro s hs
  simp only [Jl, List.mem_cons, List.not_mem_nil, or_false] at hs
  rcases hs with rfl | rfl | rfl | rfl | rfl | rfl | rfl | rfl | rfl | rfl
  · exact fun _ => h.r14_1
  · exact fun _ => h.r14_2
  · exact fun _ => h.r47_1
  · exact fun _ => h.r47_2
  · exact fun _ => h.r92_1
  · exact fun _ => h.r92_2
  · exact fun _ => h.r125_1
  · exact fun _ => h.r125_2
  · exact fun _ => h.r158_1
  · exact fun _ => h.r158_2

/-- Agreement from the condition off the list and the row condition at every member. -/
theorem Agree.of_rows {V W : Valuation τ sig (Elt F)} (off : ∀ b : Ref sig .tc, b ∉ Jl → V b = W b)
    (rows : ∀ s ∈ Jl, RowsAgree s (V s) (W s)) : Agree V W :=
  ⟨off, rows main_v14_1 (by decide) rfl, rows main_v14_2 (by decide) rfl, rows main_v47_1 (by decide) rfl, rows main_v47_2 (by decide) rfl, rows main_v92_1 (by decide) rfl, rows main_v92_2 (by decide) rfl, rows main_v125_1 (by decide) rfl, rows main_v125_2 (by decide) rfl, rows main_v158_1 (by decide) rfl, rows main_v158_2 (by decide) rfl⟩

theorem Agree.refl (V : Valuation τ sig (Elt F)) : Agree V V :=
  Agree.of_rows (fun _ _ => rfl) (fun s _ => RowsAgree.refl s _)
theorem Agree.symm {V W : Valuation τ sig (Elt F)} (h : Agree V W) : Agree W V :=
  Agree.of_rows (fun b hb => (h.off b hb).symm) (fun s hs => (h.rows s hs).symm)
theorem Agree.trans {V W X : Valuation τ sig (Elt F)} (h : Agree V W) (h' : Agree W X) : Agree V X :=
  Agree.of_rows (fun b hb => (h.off b hb).trans (h'.off b hb)) (fun s hs => (h.rows s hs).trans (h'.rows s hs))

/-! ## Host operations -/

/-- An operation carries agreeing valuations to agreeing valuations. -/
def Pres (op : HloOp τ sig (Elt F)) : Prop :=
  ∀ V W : Valuation τ sig (Elt F), Agree V W → Agree (op.result V) (op.result W)

theorem after_agree (ops : List (HloOp τ sig (Elt F))) (h : ops.Forall Pres) (V W : Valuation τ sig (Elt F)) :
    Agree V W → Agree (StableHlo.after ops V) (StableHlo.after ops W) := by
  induction ops generalizing V W with
  | nil => exact id
  | cons op ops ih =>
    intro hVW
    rw [StableHlo.after_cons, StableHlo.after_cons]
    rw [List.forall_cons] at h
    exact ih h.2 _ _ (h.1 V W hVW)

/-- An operation that writes none of the ten arrays and leaves equal contents in every other reference it writes. -/
theorem pres_of_writes (op : HloOp τ sig (Elt F)) (hw : ∀ s ∈ Jl, Proc.devRef .tc s ∉ op.writes)
    (hoff : ∀ V W : Valuation τ sig (Elt F), Agree V W → ∀ b : Ref sig .tc, b ∉ Jl →
      Proc.devRef .tc b ∈ op.writes → op.result V b = op.result W b) : Pres op := by
  intro V W h
  refine Agree.of_rows (fun b hb => ?_) (fun s hs => ?_)
  · by_cases hbw : Proc.devRef .tc b ∈ op.writes
    · exact hoff V W h b hb hbw
    · rw [op.result_of_not_mem V hbw, op.result_of_not_mem W hbw]; exact h.off b hb
  · rw [op.result_of_not_mem V (hw s hs), op.result_of_not_mem W (hw s hs)]; exact h.rows s hs

/-- An operation over TensorCore references that touches none of the ten arrays. -/
theorem pres_of_disjoint (op : HloOp τ sig (Elt F)) (hsub : op.bufs ⊆ StableHlo.tcRefs τ sig)
    (hd : ∀ s ∈ Jl, Proc.devRef .tc s ∉ op.bufs) : Pres op := by
  refine pres_of_writes op (fun s hs hsw => hd s hs (op.writes_sub hsw)) (fun V W h b hb hbw => ?_)
  refine op.result_congr (fun b' hb' => ?_) _ (op.writes_sub hbw)
  have := hsub hb'
  simp only [StableHlo.tcRefs, Finset.mem_map, Finset.mem_univ, true_and, Function.Embedding.coeFn_mk] at this
  obtain ⟨r, rfl⟩ := this
  exact h.off r (fun hr => hd r hr hb')

section Builders

variable (x a b y : Ref sig .tc)

/-- `%y = f %x` where `f` takes equal values on agreeing valuations' contents of `x`: either `x` is none of the ten
    arrays, or `f` reads rows 0 and 8 only. -/
theorem pres_unary_of (f : x.ty.Contents (Elt F) → y.ty.Contents (Elt F)) (hx hy) (hyJ : y ∉ Jl)
    (hf : ∀ V W : Valuation τ sig (Elt F), Agree V W → f (V x) = f (W x)) :
    Pres (StableHlo.unary (τ := τ) x y f hx hy) := by
  refine pres_of_writes _ (fun s hs hsw => ?_) (fun V W h r hr hrw => ?_)
  · rw [StableHlo.unary_writes, Finset.mem_singleton] at hsw
    exact hyJ (Proc.devRef_injective _ hsw ▸ hs)
  · rw [StableHlo.unary_writes, Finset.mem_singleton] at hrw
    obtain rfl := Proc.devRef_injective _ hrw
    rw [StableHlo.unary_result, StableHlo.unary_result]; exact hf V W h

theorem pres_unary (f : x.ty.Contents (Elt F) → y.ty.Contents (Elt F)) (hx hy) (hxJ : x ∉ Jl) (hyJ : y ∉ Jl) :
    Pres (StableHlo.unary (τ := τ) x y f hx hy) :=
  pres_unary_of x y f hx hy hyJ (fun V W h => congrArg f (h.off x hxJ))

theorem pres_nullary (v : y.ty.Contents (Elt F)) (hy) (hyJ : y ∉ Jl) :
    Pres (StableHlo.nullary (τ := τ) y v hy) := by
  refine pres_of_writes _ (fun s hs hsw => ?_) (fun V W h r hr hrw => ?_)
  · rw [StableHlo.nullary_writes, Finset.mem_singleton] at hsw
    exact hyJ (Proc.devRef_injective _ hsw ▸ hs)
  · rw [StableHlo.nullary_writes, Finset.mem_singleton] at hrw
    obtain rfl := Proc.devRef_injective _ hrw
    rw [StableHlo.nullary_result, StableHlo.nullary_result]

theorem pres_binary (f : a.ty.Contents (Elt F) → b.ty.Contents (Elt F) → y.ty.Contents (Elt F)) (ha hb hy)
    (haJ : a ∉ Jl) (hbJ : b ∉ Jl) (hyJ : y ∉ Jl) :
    Pres (StableHlo.binary (τ := τ) a b y f ha hb hy) := by
  refine pres_of_writes _ (fun s hs hsw => ?_) (fun V W h r hr hrw => ?_)
  · rw [StableHlo.binary_writes, Finset.mem_singleton] at hsw
    exact hyJ (Proc.devRef_injective _ hsw ▸ hs)
  · rw [StableHlo.binary_writes, Finset.mem_singleton] at hrw
    obtain rfl := Proc.devRef_injective _ hrw
    rw [StableHlo.binary_result, StableHlo.binary_result, h.off a haJ, h.off b hbJ]

theorem pres_reshape (he hn hx hy) (hxJ : x ∉ Jl) (hyJ : y ∉ Jl) :
    Pres (StableHlo.reshape (τ := τ) (Val := Elt F) x y he hn hx hy) := by
  refine pres_of_writes _ (fun s hs hsw => ?_) (fun V W h r hr hrw => ?_)
  · rw [StableHlo.reshape_writes, Finset.mem_singleton] at hsw
    exact hyJ (Proc.devRef_injective _ hsw ▸ hs)
  · rw [StableHlo.reshape_writes, Finset.mem_singleton] at hrw
    obtain rfl := Proc.devRef_injective _ hrw
    rw [StableHlo.reshape_result, StableHlo.reshape_result, h.off x hxJ]

end Builders

end Cert.Kernel.Hand
-- ==== Proof.HandK.P1r0.lean ====
/- Region 0 (a pass-1 launch of the one-input kernel) as RELATIONAL proof data, with its body obligation.

   The body computes a block of `y` from five input blocks, stores it whole, and adds its column sums (and those of its
   square) into ROW 0 of two 8-row statistics blocks, which it first zeroes at the first point of each core's run of eight.
   Rows 1 to 7 of those blocks are never stored: what the body leaves there is what it found. So the data relates what the
   body finds in a buffer to what it leaves, and for the statistics blocks constrains row 0 only. -/
import proofs.«103476_j5987184410999_2_alg».proof.Proof.Gen.Kernel.Launch
import proofs.«103476_j5987184410999_2_alg».proof.Proof.Gen.Kernel.Skeleton
import proofs.«103476_j5987184410999_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## Region 0: names -/

/-- The condition of the body's one `scf.if`, from the grid coordinates (the skeleton's scalar chain substituted):
    the inner coordinate is zero. -/
abbrev r0cond (i : grid0.Coords) : Prop :=
  (Scalar.cmpi .ne (Scalar.extui (Scalar.cmpi .eq (BitVec.ofNat 32 (i 1).val) 0#32)) 0#32) = 1#1

/-- It holds at the first point of each core's run of eight: decided over the grid. -/
theorem r0cond_iff : ∀ t : Fin cfg0.N, r0cond (grid0.coords t) ↔ t.val % 8 = 0 :=
  (by decide +kernel : ∀ t : Fin grid0.N, r0cond (grid0.coords t) ↔ t.val % 8 = 0)

theorem zeros2 : (![0, 0] : Fin 2 → ℕ) = fun _ => 0 := by funext a; fin_cases a <;> rfl

/-- Row 0 of a statistics block: the rectangle every load and store of the two accumulators goes through. -/
abbrev r0row : Rect S8x128 := Rect.unit (s := S8x128) ![0, 0] S1x128.size inb_S8x128_S1x128_0_0

/-- The row of zeros the body stores at the first point of a core's run. -/
def r0zrow : FVec F S1x128 .f32 := broadcast S1x128 (Scalar.ofBits .f32 0x00000000#32)

/-- One accumulation step: the row found plus the column sums of `y` (the reduction along axis 0 from the zero word). -/
def r0acc (r : Vec F S1x128 .f32) (y : FVec F S4096x128 .f32) : FVec F S1x128 .f32 :=
  addf (shapeCast S1x128 r shapeCasts_S1x128_S1x128)
    (shapeCast S1x128 (multiReduction .add [0] S128 y 0x00000000#32 reduces_S4096x128_S128 (.inl rfl) rfl) shapeCasts_S128_S1x128)

/-- The same of the squares. -/
def r0accsq (r : Vec F S1x128 .f32) (y : FVec F S4096x128 .f32) : FVec F S1x128 .f32 := r0acc r (mulf y y)

/-- The block of `y` the body computes from its five input blocks: `relu(x·W1 + b1)·W2 + b2` with the matrix
    operands rounded to bf16 (the skeleton's payload). -/
def yblk0 (x : Vec F S4096x256 .f32) (w1 : Vec F S256x256 .f32) (b1 : Vec F S1x256 .f32) (w2 : Vec F S256x128 .f32)
    (b2 : Vec F S1x128 .f32) : Vec F S4096x128 .f32 := k0_pay4 x w1 b1 w2 b2

theorem k0_pay5_eq (x : Vec F S4096x256 .f32) (w1 : Vec F S256x256 .f32) (b1 : Vec F S1x256 .f32) (w2 : Vec F S256x128 .f32)
    (b2 : Vec F S1x128 .f32) (r : Vec F S1x128 .f32) : k0_pay5 x w1 b1 w2 b2 r = r0acc r (yblk0 x w1 b1 w2 b2) := rfl
theorem k0_pay1_eq (y : FVec F S4096x128 .f32) (r : Vec F S1x128 .f32) : k0_pay1 y r = r0accsq r y := rfl
theorem k0_pay2_eq : k0_pay2 (F := F) = r0zrow := rfl
theorem k0_pay3_eq : k0_pay3 (F := F) = r0zrow := rfl

section WholeRect
variable {sg : RefSig} {κ : Kind} {sp : Space} {S : Shape} {e : EltTy} {Val : EltTy → Type}

/-- A load through the whole-shape rectangle at zero offsets reads the view's contents. -/
theorem readAt_unit_zero' (v : View sg κ sp S e) {off : Fin S.rank → ℕ} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

/-- One store through it leaves its payload, whatever the buffer held. -/
theorem read_writes_unit_zero' (v : View sg κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end WholeRect

theorem readAt_S4096x256 {sp : Space} (v : View sig .tc sp S4096x256 .f32) (f : v.ty.Contents (Elt F)) :
    v.readAt (Elt F) (Rect.unit (s := S4096x256) ![0, 0] S4096x256.size inb_S4096x256_S4096x256_0_0).toLoadRect f = v.read (Elt F) f :=
  readAt_unit_zero' v zeros2 _ f
theorem readAt_S256x256 {sp : Space} (v : View sig .tc sp S256x256 .f32) (f : v.ty.Contents (Elt F)) :
    v.readAt (Elt F) (Rect.unit (s := S256x256) ![0, 0] S256x256.size inb_S256x256_S256x256_0_0).toLoadRect f = v.read (Elt F) f :=
  readAt_unit_zero' v zeros2 _ f
theorem readAt_S1x256 {sp : Space} (v : View sig .tc sp S1x256 .f32) (f : v.ty.Contents (Elt F)) :
    v.readAt (Elt F) (Rect.unit (s := S1x256) ![0, 0] S1x256.size inb_S1x256_S1x256_0_0).toLoadRect f = v.read (Elt F) f :=
  readAt_unit_zero' v zeros2 _ f
theorem readAt_S256x128 {sp : Space} (v : View sig .tc sp S256x128 .f32) (f : v.ty.Contents (Elt F)) :
    v.readAt (Elt F) (Rect.unit (s := S256x128) ![0, 0] S256x128.size inb_S256x128_S256x128_0_0).toLoadRect f = v.read (Elt F) f :=
  readAt_unit_zero' v zeros2 _ f
theorem readAt_S1x128 {sp : Space} (v : View sig .tc sp S1x128 .f32) (f : v.ty.Contents (Elt F)) :
    v.readAt (Elt F) (Rect.unit (s := S1x128) ![0, 0] S1x128.size inb_S1x128_S1x128_0_0).toLoadRect f = v.read (Elt F) f :=
  readAt_unit_zero' v zeros2 _ f

/-- The whole-block store of window 5 leaves its payload. -/
theorem read_whole_store5 {sp : Space} (v : View sig .tc sp S4096x128 .f32) (f : v.ty.Contents (Elt F)) (w : Vec F S4096x128 .f32) :
    v.read (Elt F) (v.writes (Elt F) f [⟨Rect.unit (s := S4096x128) ![0, 0] S4096x128.size inb_S4096x128_S4096x128_0_0, w⟩]) = w :=
  read_writes_unit_zero' v zeros2 _ f w []

/-- Row 0 after a store through row 0, whatever was stored before. -/
theorem ld_row0_store {sp : Space} (v : View sig .tc sp S8x128 .f32) (f : v.ty.Contents (Elt F)) (w : Vec F S1x128 .f32)
    (L : List (View.Piece (Elt F) S8x128 .f32)) :
    View.ld (v.read (Elt F) (v.writes (Elt F) f (⟨r0row, w⟩ :: L))) r0row = w :=
  funext fun x => View.read_writes_cons_emb v f r0row w L x

/-! ## The body's two runs, over arbitrary staging contents -/

set_option maxHeartbeats 1000000 in
/-- The body at a point that is not the first of its core's run: row 0 of each statistics block is the row found plus the sums. -/
theorem sound_kernel0_later (c : Dev nD) (i : grid0.Coords)
    (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S8x128 .f32) (harg8 : arg8.IsWhole) (arg9 : Memref sig .tc .vmem S8x128 .f32) (harg9 : arg9.IsWhole)
    (hc : ¬r0cond i)
    (x0 : Vec F S4096x256 .f32) (x1 : Vec F S256x256 .f32) (x2 : Vec F S1x256 .f32) (x3 : Vec F S256x128 .f32) (x4 : Vec F S1x128 .f32)
    (y5 : Vec F S4096x128 .f32) (y6 y7 : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ owns (c : Thread nD τ) arg8 fullShare y6 ∗ owns (c : Thread nD τ) arg9 fullShare y7
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (yblk0 x0 x1 x2 x3 x4)
            ∗ (∃ X, ⌜View.ld X r0row = r0acc (View.ld y6 r0row) (yblk0 x0 x1 x2 x3 x4)⌝ ∗ owns (c : Thread nD τ) arg8 fullShare X)
            ∗ (∃ X, ⌜View.ld X r0row = r0accsq (View.ld y7 r0row) (yblk0 x0 x1 x2 x3 x4)⌝ ∗ owns (c : Thread nD τ) arg9 fullShare X)) -∗ K ⟨⟩))
      ⊢ wp frame (wpE (defs₀ (F := F)) Variants.none c none) E (cc0__pass1_kernel_single i arg2 harg2 arg3 harg3 arg4 harg4 arg5 harg5 arg6 harg6 arg7 harg7 arg8 harg8 arg9 harg9) K := by
  simp only [cc0__pass1_kernel_single_eq_skeleton]; unfold cc0__pass1_kernel_single_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    rw [readAt_S4096x256, readAt_S256x256, readAt_S1x256, readAt_S256x128, readAt_S1x128]
    exact read_whole_store5 (F := F) _ _ _
  isplitl [H6]
  · iexists _; isplitr; swap
    · iexists _; isplitr; swap; · iexact H6
      ipureintro; rfl
    ipureintro
    rw [readAt_S4096x256, readAt_S256x256, readAt_S1x256, readAt_S256x128, readAt_S1x128]
    rw [k0_pay5_eq]
    exact ld_row0_store (F := F) _ _ _ _
  · iexists _; isplitr; swap
    · iexists _; isplitr; swap; · iexact H7
      ipureintro; rfl
    ipureintro
    rw [readAt_S4096x256, readAt_S256x256, readAt_S1x256, readAt_S256x128, readAt_S1x128]
    rw [k0_pay1_eq]
    exact ld_row0_store (F := F) _ _ _ _

set_option maxHeartbeats 1000000 in
/-- The body at the first point of a core's run: row 0 of each statistics block is the zero row plus the sums. -/
theorem sound_kernel0_first (c : Dev nD) (i : grid0.Coords)
    (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S8x128 .f32) (harg8 : arg8.IsWhole) (arg9 : Memref sig .tc .vmem S8x128 .f32) (harg9 : arg9.IsWhole)
    (hc : r0cond i)
    (x0 : Vec F S4096x256 .f32) (x1 : Vec F S256x256 .f32) (x2 : Vec F S1x256 .f32) (x3 : Vec F S256x128 .f32) (x4 : Vec F S1x128 .f32)
    (y5 : Vec F S4096x128 .f32) (y6 y7 : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ owns (c : Thread nD τ) arg8 fullShare y6 ∗ owns (c : Thread nD τ) arg9 fullShare y7
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (yblk0 x0 x1 x2 x3 x4)
            ∗ (∃ X, ⌜View.ld X r0row = r0acc r0zrow (yblk0 x0 x1 x2 x3 x4)⌝ ∗ owns (c : Thread nD τ) arg8 fullShare X)
            ∗ (∃ X, ⌜View.ld X r0row = r0accsq r0zrow (yblk0 x0 x1 x2 x3 x4)⌝ ∗ owns (c : Thread nD τ) arg9 fullShare X)) -∗ K ⟨⟩))
      ⊢ wp frame (wpE (defs₀ (F := F)) Variants.none c none) E (cc0__pass1_kernel_single i arg2 harg2 arg3 harg3 arg4 harg4 arg5 harg5 arg6 harg6 arg7 harg7 arg8 harg8 arg9 harg9) K := by
  simp only [cc0__pass1_kernel_single_eq_skeleton]; unfold cc0__pass1_kernel_single_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    rw [readAt_S4096x256, readAt_S256x256, readAt_S1x256, readAt_S256x128, readAt_S1x128]
    exact read_whole_store5 (F := F) _ _ _
  isplitl [H6]
  · iexists _; isplitr; swap
    · iexists _; isplitr; swap; · iexact H6
      ipureintro; rfl
    ipureintro
    rw [readAt_S4096x256, readAt_S256x256, readAt_S1x256, readAt_S256x128, readAt_S1x128]
    rw [k0_pay5_eq]
    refine (ld_row0_store (F := F) _ _ _ _).trans ?_
    congr 1
    sl_unfold_run_names
    exact View.readCov_cons_toLoadRect _ _ _ _
  · iexists _; isplitr; swap
    · iexists _; isplitr; swap; · iexact H7
      ipureintro; rfl
    ipureintro
    rw [readAt_S4096x256, readAt_S256x256, readAt_S1x256, readAt_S256x128, readAt_S1x128]
    rw [k0_pay1_eq]
    refine (ld_row0_store (F := F) _ _ _ _).trans ?_
    congr 1
    sl_unfold_run_names
    exact View.readCov_cons_toLoadRect _ _ _ _

/-! ## The proof data of region 0, relational -/

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `y` at point `t`: the body's function of the five input blocks there. -/
def yat0 (c : Dev nD) (t : Fin cfg0.N) : Vec F S4096x128 .f32 :=
  yblk0 (iblk0 V c 0 t) (iblk0 V c 1 t) (iblk0 V c 2 t) (iblk0 V c 3 t) (iblk0 V c 4 t)

/-- The proof data of the launch on core `c`: the arrays as the region finds them; an input's buffer is left as found; the
    `y` window's buffer is left at the block of `y`; of a statistics window's buffer only row 0 is constrained — it is the
    row found (the zero row at the first point of a core's run) plus the column sums of the block of `y` (of its square) —, and
    nothing is said of rows 1 to 7, which the body never stores. -/
def rdat0 (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => X = yat0 V c t
    | ⟨6, _⟩ => fun Y X => View.ld X r0row = r0acc (if t.val % 8 = 0 then r0zrow else View.ld Y r0row) (yat0 V c t)
    | ⟨7, _⟩ => fun Y X => View.ld X r0row = r0accsq (if t.val % 8 = 0 then r0zrow else View.ld Y r0row) (yat0 V c t)
  Φ _ := Pipeline.ΦA spec0 c
  q _ := fullShare
  owed _ := 0

theorem rdat0_A (c : Dev nD) (w : Fin cfg0.W) : (rdat0 V c).A w = V c (Pipeline.arrRef spec0 w) := by dsimp only [rdat0]

theorem after0_0 (c : Dev nD) (t : Fin cfg0.N) Y X : (rdat0 V c).after 0 t Y X ↔ X = Y := by dsimp only [rdat0]; exact Iff.rfl
theorem after0_1 (c : Dev nD) (t : Fin cfg0.N) Y X : (rdat0 V c).after 1 t Y X ↔ X = Y := by dsimp only [rdat0]; exact Iff.rfl
theorem after0_2 (c : Dev nD) (t : Fin cfg0.N) Y X : (rdat0 V c).after 2 t Y X ↔ X = Y := by dsimp only [rdat0]; exact Iff.rfl
theorem after0_3 (c : Dev nD) (t : Fin cfg0.N) Y X : (rdat0 V c).after 3 t Y X ↔ X = Y := by dsimp only [rdat0]; exact Iff.rfl
theorem after0_4 (c : Dev nD) (t : Fin cfg0.N) Y X : (rdat0 V c).after 4 t Y X ↔ X = Y := by dsimp only [rdat0]; exact Iff.rfl
theorem after0_5 (c : Dev nD) (t : Fin cfg0.N) Y X : (rdat0 V c).after 5 t Y X ↔ X = yat0 V c t := by dsimp only [rdat0]; exact Iff.rfl
theorem after0_6 (c : Dev nD) (t : Fin cfg0.N) Y X : (rdat0 V c).after 6 t Y X ↔
    View.ld X r0row = r0acc (if t.val % 8 = 0 then r0zrow else View.ld Y r0row) (yat0 V c t) := by dsimp only [rdat0]; exact Iff.rfl
theorem after0_7 (c : Dev nD) (t : Fin cfg0.N) Y X : (rdat0 V c).after 7 t Y X ↔
    View.ld X r0row = r0accsq (if t.val % 8 = 0 then r0zrow else View.ld Y r0row) (yat0 V c t) := by dsimp only [rdat0]; exact Iff.rfl

/-! ## What the body finds in an input's buffer: the window's block, fetched at the point or not -/

theorem finds0_0 (c : Dev nD) (t : Fin cfg0.N) (Y) (h : (rdat0 V c).Finds 0 t Y) : Y = iblk0 V c 0 t := by
  obtain ⟨d, rfl⟩ := (rdat0 V c).finds_in_eq_fetched 0 rfl (fun _ _ _ => rfl) (fun t Y X h => (after0_0 V c t Y X).mp h) t Y h
  unfold RDat.fetched RDat.blockOf iblk0; rw [rdat0_A]; rfl

theorem finds0_1 (c : Dev nD) (t : Fin cfg0.N) (Y) (h : (rdat0 V c).Finds 1 t Y) : Y = iblk0 V c 1 t := by
  obtain ⟨d, rfl⟩ := (rdat0 V c).finds_in_eq_fetched 1 rfl (fun _ _ _ => rfl) (fun t Y X h => (after0_1 V c t Y X).mp h) t Y h
  unfold RDat.fetched RDat.blockOf iblk0; rw [rdat0_A]; rfl

theorem finds0_2 (c : Dev nD) (t : Fin cfg0.N) (Y) (h : (rdat0 V c).Finds 2 t Y) : Y = iblk0 V c 2 t := by
  obtain ⟨d, rfl⟩ := (rdat0 V c).finds_in_eq_fetched 2 rfl (fun _ _ _ => rfl) (fun t Y X h => (after0_2 V c t Y X).mp h) t Y h
  unfold RDat.fetched RDat.blockOf iblk0; rw [rdat0_A]; rfl

theorem finds0_3 (c : Dev nD) (t : Fin cfg0.N) (Y) (h : (rdat0 V c).Finds 3 t Y) : Y = iblk0 V c 3 t := by
  obtain ⟨d, rfl⟩ := (rdat0 V c).finds_in_eq_fetched 3 rfl (fun _ _ _ => rfl) (fun t Y X h => (after0_3 V c t Y X).mp h) t Y h
  unfold RDat.fetched RDat.blockOf iblk0; rw [rdat0_A]; rfl

theorem finds0_4 (c : Dev nD) (t : Fin cfg0.N) (Y) (h : (rdat0 V c).Finds 4 t Y) : Y = iblk0 V c 4 t := by
  obtain ⟨d, rfl⟩ := (rdat0 V c).finds_in_eq_fetched 4 rfl (fun _ _ _ => rfl) (fun t Y X h => (after0_4 V c t Y X).mp h) t Y h
  unfold RDat.fetched RDat.blockOf iblk0; rw [rdat0_A]; rfl

/-! ## The body obligation -/

set_option maxHeartbeats 1000000 in
/-- The body at any point, on the buffers the pipeline hands it: the inputs' hold their blocks (`h0` … `h4`), the outputs' anything.
    The point's position in its core's run of eight says which of the two runs applies; what the run leaves is in the relation. -/
theorem sound_body0 (c : Dev nD) (t : Fin cfg0.N) (Y : (w : Fin cfg0.W) → (cfg0.win w).block.Idx → Elt F (cfg0.win w).elt)
    (h0 : Y 0 = iblk0 V c 0 t) (h1 : Y 1 = iblk0 V c 1 t) (h2 : Y 2 = iblk0 V c 2 t) (h3 : Y 3 = iblk0 V c 3 t) (h4 : Y 4 = iblk0 V c 4 t) :
    iprop((rdat0 V c).Φ t.castSucc ∗ (rdat0 V c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2)
        ∗ owns (c : Thread nD τ) ((cfg0.win 3).stage (cfg0.slots t 3)) fullShare (Y 3)
        ∗ owns (c : Thread nD τ) ((cfg0.win 4).stage (cfg0.slots t 4)) fullShare (Y 4)
        ∗ owns (c : Thread nD τ) ((cfg0.win 5).stage (cfg0.slots t 5)) fullShare (Y 5)
        ∗ owns (c : Thread nD τ) ((cfg0.win 6).stage (cfg0.slots t 6)) fullShare (Y 6)
        ∗ owns (c : Thread nD τ) ((cfg0.win 7).stage (cfg0.slots t 7)) fullShare (Y 7))
      ⊢ wp frame (wpE (defs₀ (F := F)) Variants.none c none) Set.univ (bodyAt0 t) (fun _ =>
        iprop((rdat0 V c).Φ t.succ ∗ (rdat0 V c).owesAt () t.succ
          ∗ (∃ X, ⌜(rdat0 V c).after 0 t (Y 0) X⌝ ∗ owns (c : Thread nD τ) ((cfg0.win 0).stage (cfg0.slots t 0)) fullShare X)
          ∗ (∃ X, ⌜(rdat0 V c).after 1 t (Y 1) X⌝ ∗ owns (c : Thread nD τ) ((cfg0.win 1).stage (cfg0.slots t 1)) fullShare X)
          ∗ (∃ X, ⌜(rdat0 V c).after 2 t (Y 2) X⌝ ∗ owns (c : Thread nD τ) ((cfg0.win 2).stage (cfg0.slots t 2)) fullShare X)
          ∗ (∃ X, ⌜(rdat0 V c).after 3 t (Y 3) X⌝ ∗ owns (c : Thread nD τ) ((cfg0.win 3).stage (cfg0.slots t 3)) fullShare X)
          ∗ (∃ X, ⌜(rdat0 V c).after 4 t (Y 4) X⌝ ∗ owns (c : Thread nD τ) ((cfg0.win 4).stage (cfg0.slots t 4)) fullShare X)
          ∗ (∃ X, ⌜(rdat0 V c).after 5 t (Y 5) X⌝ ∗ owns (c : Thread nD τ) ((cfg0.win 5).stage (cfg0.slots t 5)) fullShare X)
          ∗ (∃ X, ⌜(rdat0 V c).after 6 t (Y 6) X⌝ ∗ owns (c : Thread nD τ) ((cfg0.win 6).stage (cfg0.slots t 6)) fullShare X)
          ∗ (∃ X, ⌜(rdat0 V c).after 7 t (Y 7) X⌝ ∗ owns (c : Thread nD τ) ((cfg0.win 7).stage (cfg0.slots t 7)) fullShare X))) := by
  unfold bodyAt0
  rw [show (rdat0 V c).Φ t.succ = (rdat0 V c).Φ t.castSucc from rfl,
    show (rdat0 V c).owesAt () t.succ = (rdat0 V c).owesAt () t.castSucc from rfl]
  by_cases h : t.val % 8 = 0
  ·
    iintro ⟨HΦ, Ho, H0, H1, H2, H3, H4, H5, H6, H7⟩
    iapply (sound_kernel0_first c (grid0.coords t) _ _ _ _ _ _ _ _ _ _ _ _ _ _ _ _ ((r0cond_iff t).mpr h) (Y 0) (Y 1) (Y 2) (Y 3) (Y 4) (Y 5) (Y 6) (Y 7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%X6, %hX6, H6⟩, ⟨%X7, %hX7, H7⟩⟩
    isplitl [HΦ]; · iexact HΦ
    isplitl [Ho]; · iexact Ho
    isplitl [H0]
    · iexists _; isplitr; swap; · iexact H0
      ipureintro; exact (after0_0 V c t _ _).mpr rfl
    isplitl [H1]
    · iexists _; isplitr; swap; · iexact H1
      ipureintro; exact (after0_1 V c t _ _).mpr rfl
    isplitl [H2]
    · iexists _; isplitr; swap; · iexact H2
      ipureintro; exact (after0_2 V c t _ _).mpr rfl
    isplitl [H3]
    · iexists _; isplitr; swap; · iexact H3
      ipureintro; exact (after0_3 V c t _ _).mpr rfl
    isplitl [H4]
    · iexists _; isplitr; swap; · iexact H4
      ipureintro; exact (after0_4 V c t _ _).mpr rfl
    isplitl [H5]
    · iexists _; isplitr; swap; · iexact H5
      ipureintro; rw [after0_5]; unfold yat0; rw [← h0, ← h1, ← h2, ← h3, ← h4]
    isplitl [H6]
    · iexists X6; isplitr; swap; · iexact H6
      ipureintro; rw [after0_6, if_pos h]; unfold yat0; rw [← h0, ← h1, ← h2, ← h3, ← h4]; exact hX6
    · iexists X7; isplitr; swap; · iexact H7
      ipureintro; rw [after0_7, if_pos h]; unfold yat0; rw [← h0, ← h1, ← h2, ← h3, ← h4]; exact hX7
  ·
    iintro ⟨HΦ, Ho, H0, H1, H2, H3, H4, H5, H6, H7⟩
    iapply (sound_kernel0_later c (grid0.coords t) _ _ _ _ _ _ _ _ _ _ _ _ _ _ _ _ (fun hc => h ((r0cond_iff t).mp hc)) (Y 0) (Y 1) (Y 2) (Y 3) (Y 4) (Y 5) (Y 6) (Y 7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%X6, %hX6, H6⟩, ⟨%X7, %hX7, H7⟩⟩
    isplitl [HΦ]; · iexact HΦ
    isplitl [Ho]; · iexact Ho
    isplitl [H0]
    · iexists _; isplitr; swap; · iexact H0
      ipureintro; exact (after0_0 V c t _ _).mpr rfl
    isplitl [H1]
    · iexists _; isplitr; swap; · iexact H1
      ipureintro; exact (after0_1 V c t _ _).mpr rfl
    isplitl [H2]
    · iexists _; isplitr; swap; · iexact H2
      ipureintro; exact (after0_2 V c t _ _).mpr rfl
    isplitl [H3]
    · iexists _; isplitr; swap; · iexact H3
      ipureintro; exact (after0_3 V c t _ _).mpr rfl
    isplitl [H4]
    · iexists _; isplitr; swap; · iexact H4
      ipureintro; exact (after0_4 V c t _ _).mpr rfl
    isplitl [H5]
    · iexists _; isplitr; swap; · iexact H5
      ipureintro; rw [after0_5]; unfold yat0; rw [← h0, ← h1, ← h2, ← h3, ← h4]
    isplitl [H6]
    · iexists X6; isplitr; swap; · iexact H6
      ipureintro; rw [after0_6, if_neg h]; unfold yat0; rw [← h0, ← h1, ← h2, ← h3, ← h4]; exact hX6
    · iexists X7; isplitr; swap; · iexact H7
      ipureintro; rw [after0_7, if_neg h]; unfold yat0; rw [← h0, ← h1, ← h2, ← h3, ← h4]; exact hX7

/-- The library's body obligation of the relational data, at every point. -/
theorem body_obligation0 (c : Dev nD) : (rdat0 (F := F) V c).BodyObligation (defs₀ (F := F)) Variants.none () Set.univ := by
  intro t Y hY
  rw [bigSep_W0, bigSep_W0]
  exact sound_body0 V c t Y (finds0_0 V c t _ (hY 0)) (finds0_1 V c t _ (hY 1)) (finds0_2 V c t _ (hY 2)) (finds0_3 V c t _ (hY 3))
    (finds0_4 V c t _ (hY 4))

end Cert.Kernel.Hand
end
-- ==== Proof.HandK.P1r0Arr.lean ====
/- What region 0's arrays hold after the launch, from the relational data's `ArrAt` (pure: no separation logic).

   An input array is as the region found it. Row block `p` of the array of `y` is the block of `y` at point `p`. Of a
   statistics array only rows 0 and 8 are determined: row 0 is core 0's fold — the zero row with the column sums of the blocks
   of `y` (of their squares) at its eight points added in point order —, row 8 core 1's. -/
import proofs.«103476_j5987184410999_2_alg».proof.Proof.HandK.P1r0
import proofs.«103476_j5987184410999_2_alg».proof.Proof.HandK.Agree
import Idealize.ShloMosaic.Lib.Pipeline.Cells
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA
open Idealize.ShloMosaic.Pipeline (RDat Dat Cfg Window cellOf)
open Idealize.ShloMosaic.ValueIdx (ix2 eq_ix2)

variable {F : FTy → Type} [FloatOps F]

variable (V : (c : Dev nD) → (b : Ref sig .tc) → Buf (Elt F) ((c : Thread nD τ).loc b))

/-! ## What the arrays hold after the launch -/

section Arr

/-! ### Inputs: never written -/

theorem arrAt0_in_of (c : Dev nD) (w : Fin cfg0.W) (hw : (cfg0.win w).isOut = false) (n : ℕ)
    (G : Buf (Elt F) ((cfg0.win w).arr.view.loc (c.tc : Thread nD τ))) (h : (rdat0 V c).ArrAt w n G) :
    G = V c (Pipeline.arrRef spec0 w) := by
  rw [RDat.ArrAt_in _ w hw n] at h; exact h.trans (rdat0_A V c w)

/-- The first five windows are the inputs. -/
theorem isOut0_in : ∀ w : Fin cfg0.W, w.val < 5 → (cfg0.win w).isOut = false := by decide

/-- An input's array is as the region found it. -/
theorem arrAt0_in (c : Dev nD) (w : Fin cfg0.W) (hw : w.val < 5)
    (G : Buf (Elt F) ((cfg0.win w).arr.view.loc (c.tc : Thread nD τ))) (h : (rdat0 V c).ArrAt w cfg0.N G) :
    G = V c (Pipeline.arrRef spec0 w) := arrAt0_in_of V c w (isOut0_in w hw) cfg0.N G h

/-! ### The schedule of the three outputs -/

theorem fetch0_5 : ∀ t : Fin cfg0.N, (cfg0.win 5).fetch t = false :=
  (by decide +kernel : ∀ t : Fin grid0.N, win0_5.fetch t = false)
theorem fetch0_6 : ∀ t : Fin cfg0.N, (cfg0.win 6).fetch t = false :=
  (by decide +kernel : ∀ t : Fin grid0.N, win0_6.fetch t = false)
theorem fetch0_7 : ∀ t : Fin cfg0.N, (cfg0.win 7).fetch t = false :=
  (by decide +kernel : ∀ t : Fin grid0.N, win0_7.fetch t = false)

/-- The block index of the `y` window at point `t`: row block `t`. -/
theorem index0_5 : ∀ t : Fin cfg0.N, (cfg0.win 5).index t = ![t.val, 0] :=
  (by decide +kernel : ∀ t : Fin grid0.N, win0_5.index t = ![t.val, 0])
/-- The block index of a statistics window at point `t`: the core's. -/
theorem index0_6 : ∀ t : Fin cfg0.N, (cfg0.win 6).index t = ![t.val / 8, 0] :=
  (by decide +kernel : ∀ t : Fin grid0.N, win0_6.index t = ![t.val / 8, 0])
theorem index0_7 : ∀ t : Fin cfg0.N, (cfg0.win 7).index t = ![t.val / 8, 0] :=
  (by decide +kernel : ∀ t : Fin grid0.N, win0_7.index t = ![t.val / 8, 0])

/-! ### Window 5: block `t` of the array is the block of `y` at `t` -/

theorem leaves0_5 (c : Dev nD) (t : Fin cfg0.N) (X) (h : (rdat0 V c).Leaves 5 t X) : X = yat0 V c t := by
  obtain ⟨Y, -, hA⟩ := h
  exact (after0_5 V c t Y X).mp hA

theorem arrAt0_5_blk (c : Dev nD) : ∀ (n : ℕ), n ≤ 16 → ∀ G, (rdat0 V c).ArrAt 5 n G →
    ∀ u : Fin cfg0.N, u.val < n → ((cfg0.win 5).blk u).view.read (Elt F) G = yat0 V c u
  | 0, _, _, _, u, hu => absurd hu (Nat.not_lt_zero _)
  | n + 1, hn, G, h, u, hu => by
    have hN : n < cfg0.N := by show n < grid0.N; rw [N_0]; omega
    rw [show n + 1 = (⟨n, hN⟩ : Fin cfg0.N).val + 1 from rfl, RDat.ArrAt_succ, if_pos (flush0_5 _)] at h
    obtain ⟨G₀, X, hG₀, hX, rfl⟩ := h
    obtain rfl := leaves0_5 V c _ X hX
    by_cases hun : u.val = n
    · have e : u = ⟨n, hN⟩ := Fin.ext hun
      subst e
      exact View.read_write_univ _ _
    · refine Eq.trans ?_ (arrAt0_5_blk c n (by omega) G₀ hG₀ u (by omega))
      refine View.read_congr fun i hi => View.write_of_not_mem _ _ _ ?_
      have hd := (cfg0.win 5).disjoint_blk (u := u) (u' := ⟨n, hN⟩) (by
        rw [index0_5, index0_5]; intro e; exact hun (by simpa using congrFun e 0))
      exact Finset.disjoint_left.mp hd hi
end Arr

section Arr3

/-! ### Windows 6 and 7: row 0 of a core's statistics block is the fold of its eight points -/

/-- Point `j` of core `q`'s run of eight. -/
def r0pt (q : Fin 2) (j : ℕ) (hj : j < 8) : Fin cfg0.N := ⟨8 * q.val + j, by have := q.isLt; show _ < grid0.N; rw [N_0]; omega⟩

/-- Row 0 of core `q`'s sum block after its point `j`: the zero row with the column sums of the blocks of `y` at the points
    `0 … j` of the core's run added in that order. -/
def r0sum (c : Dev nD) (q : Fin 2) : (j : ℕ) → j < 8 → FVec F S1x128 .f32
  | 0, h => r0acc r0zrow (yat0 V c (r0pt q 0 h))
  | j + 1, h => r0acc (r0sum c q j (Nat.lt_of_succ_lt h)) (yat0 V c (r0pt q (j + 1) h))

/-- The same of the squares. -/
def r0sumsq (c : Dev nD) (q : Fin 2) : (j : ℕ) → j < 8 → FVec F S1x128 .f32
  | 0, h => r0accsq r0zrow (yat0 V c (r0pt q 0 h))
  | j + 1, h => r0accsq (r0sumsq c q j (Nat.lt_of_succ_lt h)) (yat0 V c (r0pt q (j + 1) h))

theorem leaves0_6 (c : Dev nD) (q : Fin 2) : ∀ (j : ℕ) (hj : j < 8) (X), (rdat0 V c).Leaves 6 (r0pt q j hj) X →
    View.ld X r0row = r0sum V c q j hj
  | 0, hj, X, h => by
    obtain ⟨Y, -, hA⟩ := h
    rw [after0_6, if_pos (by show (8 * q.val + 0) % 8 = 0; omega)] at hA
    exact hA
  | j + 1, hj, X, h => by
    obtain ⟨Y, hF, hA⟩ := h
    rw [after0_6, if_neg (by show ¬(8 * q.val + (j + 1)) % 8 = 0; omega)] at hA
    rw [RDat.finds_of_pos _ (fetch0_6 _) (by show 8 * q.val + (j + 1) ≠ 0; omega)] at hF
    rcases hF with hfl | hL
    · exact absurd ((flush0_6 _).mp hfl) (by show ¬(8 * q.val + (j + 1) - 1) % 8 = 7; omega)
    · have e : (⟨(r0pt q (j + 1) hj).val - 1, Nat.lt_of_le_of_lt (Nat.sub_le _ _) (r0pt q (j + 1) hj).isLt⟩ : Fin cfg0.N)
          = r0pt q j (Nat.lt_of_succ_lt hj) := Fin.ext (by show 8 * q.val + (j + 1) - 1 = 8 * q.val + j; omega)
      rw [e] at hL
      rw [hA, leaves0_6 c q j (Nat.lt_of_succ_lt hj) Y hL]
      rfl

theorem leaves0_7 (c : Dev nD) (q : Fin 2) : ∀ (j : ℕ) (hj : j < 8) (X), (rdat0 V c).Leaves 7 (r0pt q j hj) X →
    View.ld X r0row = r0sumsq V c q j hj
  | 0, hj, X, h => by
    obtain ⟨Y, -, hA⟩ := h
    rw [after0_7, if_pos (by show (8 * q.val + 0) % 8 = 0; omega)] at hA
    exact hA
  | j + 1, hj, X, h => by
    obtain ⟨Y, hF, hA⟩ := h
    rw [after0_7, if_neg (by show ¬(8 * q.val + (j + 1)) % 8 = 0; omega)] at hA
    rw [RDat.finds_of_pos _ (fetch0_7 _) (by show 8 * q.val + (j + 1) ≠ 0; omega)] at hF
    rcases hF with hfl | hL
    · exact absurd ((flush0_7 _).mp hfl) (by show ¬(8 * q.val + (j + 1) - 1) % 8 = 7; omega)
    · have e : (⟨(r0pt q (j + 1) hj).val - 1, Nat.lt_of_le_of_lt (Nat.sub_le _ _) (r0pt q (j + 1) hj).isLt⟩ : Fin cfg0.N)
          = r0pt q j (Nat.lt_of_succ_lt hj) := Fin.ext (by show 8 * q.val + (j + 1) - 1 = 8 * q.val + j; omega)
      rw [e] at hL
      rw [hA, leaves0_7 c q j (Nat.lt_of_succ_lt hj) Y hL]
      rfl

end Arr3

section Arr4

section TwoWrites
variable {sg : RefSig} {κ : Kind} {sp : Space} {s : Shape} {e : EltTy} {Val : EltTy → Type}

/-- After two writes through rectangles of a view, an element of the first rectangle outside the second reads the first payload; -/
theorem read_two_writes_fst (v : View sg κ sp s e) (r r' : Rect s) (f : v.ty.Contents Val) (w : r.shape.Idx → Val e)
    (w' : r'.shape.Idx → Val e) (x : r.shape.Idx) (i : s.Idx) (hi : i = r.emb x) (h : i ∉ r'.set) :
    v.read Val ((v.slice r').write Val ((v.slice r).write Val f w Finset.univ) w' Finset.univ) i = w x := by
  subst hi
  rw [View.read_slice_write_of_not_mem r' _ _ _ (by rw [Rect.map_emb_univ]; exact h),
    View.read_slice_write_emb r _ _ (Finset.mem_univ x)]

/-- an element of the second reads the second. -/
theorem read_two_writes_snd (v : View sg κ sp s e) (r r' : Rect s) (f : v.ty.Contents Val) (w : r.shape.Idx → Val e)
    (w' : r'.shape.Idx → Val e) (x : r'.shape.Idx) (i : s.Idx) (hi : i = r'.emb x) :
    v.read Val ((v.slice r').write Val ((v.slice r).write Val f w Finset.univ) w' Finset.univ) i = w' x := by
  subst hi
  exact View.read_slice_write_emb r' _ _ (Finset.mem_univ x)
end TwoWrites

theorem arrAt0_6_keep (c : Dev nD) : ∀ (n m : ℕ), m ≤ n → n ≤ 16 → (∀ k, m ≤ k → k < n → k % 8 ≠ 7) →
    (rdat0 V c).ArrAt 6 n = (rdat0 V c).ArrAt 6 m
  | 0, m, hm, _, _ => by obtain rfl := Nat.le_zero.mp hm; rfl
  | n + 1, m, hm, hn, hk => by
    rcases Nat.eq_or_lt_of_le hm with e | hlt
    · rw [e]
    · have hN : n < cfg0.N := by show n < grid0.N; rw [N_0]; omega
      have hs := (rdat0 V c).ArrAt_succ 6 ⟨n, hN⟩
      rw [if_neg (fun hf => hk n (by omega) (by omega) ((flush0_6 ⟨n, hN⟩).mp hf))] at hs
      exact hs.trans (arrAt0_6_keep c n m (by omega) (by omega) fun k h1 h2 => hk k h1 (by omega))

/-- After the launch a statistics array is its entry contents with core 0's block, then core 1's, written over it, each from
    a buffer whose row 0 is the core's fold. -/
theorem arrAt0_6_form (c : Dev nD) (G : Buf (Elt F) ((cfg0.win 6).arr.view.loc (c.tc : Thread nD τ)))
    (h : (rdat0 V c).ArrAt 6 cfg0.N G) :
    ∃ X X', View.ld X r0row = r0sum V c 0 7 (by omega) ∧ View.ld X' r0row = r0sum V c 1 7 (by omega) ∧
      G = ((cfg0.win 6).arr.view.slice ((cfg0.win 6).rect t0_15)).write (Elt F)
            (((cfg0.win 6).arr.view.slice ((cfg0.win 6).rect t0_7)).write (Elt F) ((rdat0 V c).A 6)
              ((cfg0.win 6).cut (cfg0.grid.coords t0_7) X) Finset.univ)
            ((cfg0.win 6).cut (cfg0.grid.coords t0_15) X') Finset.univ := by
  have e16 := (rdat0 V c).ArrAt_succ 6 t0_15
  rw [if_pos ((flush0_6 t0_15).mpr rfl)] at e16
  have h1 : (rdat0 V c).ArrStep 6 t0_15 ((rdat0 V c).ArrAt 6 15) G := Eq.mp (congrFun e16 G) h
  obtain ⟨G₁, X', hG₁, hX', rfl⟩ := h1
  have e15 := arrAt0_6_keep V c 15 8 (by omega) (by omega) (by intro k h1 h2; omega)
  have e8 := (rdat0 V c).ArrAt_succ 6 t0_7
  rw [if_pos ((flush0_6 t0_7).mpr rfl)] at e8
  have h2 : (rdat0 V c).ArrStep 6 t0_7 ((rdat0 V c).ArrAt 6 7) G₁ := Eq.mp (congrFun (e15.trans e8) G₁) hG₁
  obtain ⟨G₀, X, hG₀, hX, rfl⟩ := h2
  have e7 := arrAt0_6_keep V c 7 0 (by omega) (by omega) (by intro k h1 h2; omega)
  have h3 : G₀ = (rdat0 V c).A 6 := Eq.mp (congrFun e7 G₀) hG₀
  subst h3
  exact ⟨X, X', leaves0_6 V c 0 7 (by omega) X hX, leaves0_6 V c 1 7 (by omega) X' hX', rfl⟩

theorem arrAt0_7_keep (c : Dev nD) : ∀ (n m : ℕ), m ≤ n → n ≤ 16 → (∀ k, m ≤ k → k < n → k % 8 ≠ 7) →
    (rdat0 V c).ArrAt 7 n = (rdat0 V c).ArrAt 7 m
  | 0, m, hm, _, _ => by obtain rfl := Nat.le_zero.mp hm; rfl
  | n + 1, m, hm, hn, hk => by
    rcases Nat.eq_or_lt_of_le hm with e | hlt
    · rw [e]
    · have hN : n < cfg0.N := by show n < grid0.N; rw [N_0]; omega
      have hs := (rdat0 V c).ArrAt_succ 7 ⟨n, hN⟩
      rw [if_neg (fun hf => hk n (by omega) (by omega) ((flush0_7 ⟨n, hN⟩).mp hf))] at hs
      exact hs.trans (arrAt0_7_keep c n m (by omega) (by omega) fun k h1 h2 => hk k h1 (by omega))

/-- After the launch a statistics array is its entry contents with core 0's block, then core 1's, written over it, each from
    a buffer whose row 0 is the core's fold. -/
theorem arrAt0_7_form (c : Dev nD) (G : Buf (Elt F) ((cfg0.win 7).arr.view.loc (c.tc : Thread nD τ)))
    (h : (rdat0 V c).ArrAt 7 cfg0.N G) :
    ∃ X X', View.ld X r0row = r0sumsq V c 0 7 (by omega) ∧ View.ld X' r0row = r0sumsq V c 1 7 (by omega) ∧
      G = ((cfg0.win 7).arr.view.slice ((cfg0.win 7).rect t0_15)).write (Elt F)
            (((cfg0.win 7).arr.view.slice ((cfg0.win 7).rect t0_7)).write (Elt F) ((rdat0 V c).A 7)
              ((cfg0.win 7).cut (cfg0.grid.coords t0_7) X) Finset.univ)
            ((cfg0.win 7).cut (cfg0.grid.coords t0_15) X') Finset.univ := by
  have e16 := (rdat0 V c).ArrAt_succ 7 t0_15
  rw [if_pos ((flush0_7 t0_15).mpr rfl)] at e16
  have h1 : (rdat0 V c).ArrStep 7 t0_15 ((rdat0 V c).ArrAt 7 15) G := Eq.mp (congrFun e16 G) h
  obtain ⟨G₁, X', hG₁, hX', rfl⟩ := h1
  have e15 := arrAt0_7_keep V c 15 8 (by omega) (by omega) (by intro k h1 h2; omega)
  have e8 := (rdat0 V c).ArrAt_succ 7 t0_7
  rw [if_pos ((flush0_7 t0_7).mpr rfl)] at e8
  have h2 : (rdat0 V c).ArrStep 7 t0_7 ((rdat0 V c).ArrAt 7 7) G₁ := Eq.mp (congrFun (e15.trans e8) G₁) hG₁
  obtain ⟨G₀, X, hG₀, hX, rfl⟩ := h2
  have e7 := arrAt0_7_keep V c 7 0 (by omega) (by omega) (by intro k h1 h2; omega)
  have h3 : G₀ = (rdat0 V c).A 7 := Eq.mp (congrFun e7 G₀) hG₀
  subst h3
  exact ⟨X, X', leaves0_7 V c 0 7 (by omega) X hX, leaves0_7 V c 1 7 (by omega) X' hX', rfl⟩

end Arr4

section Arr5

section RowApply
/-- The host's row slices at an index. -/
theorem row0_apply (X : (⟨S16x128, .f32⟩ : BufTy).Contents (Elt F)) (x : S1x128.Idx) :
    row0 X x = X (ix2 (⟨(x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 0 + (x 0).val = (x 0).val; omega)
  | ⟨1, _⟩ => exact Fin.ext (by show 0 + (x 1).val = (x 1).val; omega)
theorem row8_apply (X : (⟨S16x128, .f32⟩ : BufTy).Contents (Elt F)) (x : S1x128.Idx) :
    row8 X x = X (ix2 (⟨8 + (x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 8 + (x 0).val = 8 + (x 0).val; omega)
  | ⟨1, _⟩ => exact Fin.ext (by show 0 + (x 1).val = (x 1).val; omega)
end RowApply

/-- Rows 0 and 8 of the array after the launch are the two cores' folds. -/
theorem arrAt0_6_rows (c : Dev nD) (G : Buf (Elt F) ((cfg0.win 6).arr.view.loc (c.tc : Thread nD τ)))
    (h : (rdat0 V c).ArrAt 6 cfg0.N G) : row0 G = r0sum V c 0 7 (by omega) ∧ row8 G = r0sum V c 1 7 (by omega) := by
  obtain ⟨X, X', hX, hX', rfl⟩ := arrAt0_6_form V c G h
  constructor
  · funext x
    have hx0 : (x 0).val < 1 := (x 0).isLt
    rw [← hX, row0_apply]
    have hi : ix2 (⟨(x 0).val, by omega⟩ : Fin 16) (⟨(x 1).val, (x 1).isLt⟩ : Fin 128) = ((cfg0.win 6).rect t0_7).emb (r0row.emb x) := by
      funext a; apply Fin.ext
      rw [Window.rect_emb_val, index0_6]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg0.win 6).rect t0_15).set := by
      intro hm
      have h0 := (Rect.mem_set_unit.mp hm 0).1
      rw [index0_6] at h0
      have h0' : 1 * 8 ≤ (x 0).val := h0
      omega
    exact read_two_writes_fst (Val := Elt F) (cfg0.win 6).arr.view ((cfg0.win 6).rect t0_7) ((cfg0.win 6).rect t0_15) ((rdat0 V c).A 6)
      ((cfg0.win 6).cut (cfg0.grid.coords t0_7) X) ((cfg0.win 6).cut (cfg0.grid.coords t0_15) X') (r0row.emb x) _ hi hnot
  · funext x
    have hx0 : (x 0).val < 1 := (x 0).isLt
    rw [← hX', row8_apply]
    have hi : ix2 (⟨8 + (x 0).val, by omega⟩ : Fin 16) (⟨(x 1).val, (x 1).isLt⟩ : Fin 128) = ((cfg0.win 6).rect t0_15).emb (r0row.emb x) := by
      funext a; apply Fin.ext
      rw [Window.rect_emb_val, index0_6]
      match a with
      | ⟨0, _⟩ => show 8 + (x 0).val = 1 * 8 + (0 + 1 * (x 0).val); omega
      | ⟨1, _⟩ => show (x 1).val = 0 * 128 + (0 + 1 * (x 1).val); omega
    exact read_two_writes_snd (Val := Elt F) (cfg0.win 6).arr.view ((cfg0.win 6).rect t0_7) ((cfg0.win 6).rect t0_15) ((rdat0 V c).A 6)
      ((cfg0.win 6).cut (cfg0.grid.coords t0_7) X) ((cfg0.win 6).cut (cfg0.grid.coords t0_15) X') (r0row.emb x) _ hi

/-- Rows 0 and 8 of the array after the launch are the two cores' folds. -/
theorem arrAt0_7_rows (c : Dev nD) (G : Buf (Elt F) ((cfg0.win 7).arr.view.loc (c.tc : Thread nD τ)))
    (h : (rdat0 V c).ArrAt 7 cfg0.N G) : row0 G = r0sumsq V c 0 7 (by omega) ∧ row8 G = r0sumsq V c 1 7 (by omega) := by
  obtain ⟨X, X', hX, hX', rfl⟩ := arrAt0_7_form V c G h
  constructor
  · funext x
    have hx0 : (x 0).val < 1 := (x 0).isLt
    rw [← hX, row0_apply]
    have hi : ix2 (⟨(x 0).val, by omega⟩ : Fin 16) (⟨(x 1).val, (x 1).isLt⟩ : Fin 128) = ((cfg0.win 7).rect t0_7).emb (r0row.emb x) := by
      funext a; apply Fin.ext
      rw [Window.rect_emb_val, index0_7]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg0.win 7).rect t0_15).set := by
      intro hm
      have h0 := (Rect.mem_set_unit.mp hm 0).1
      rw [index0_7] at h0
      have h0' : 1 * 8 ≤ (x 0).val := h0
      omega
    exact read_two_writes_fst (Val := Elt F) (cfg0.win 7).arr.view ((cfg0.win 7).rect t0_7) ((cfg0.win 7).rect t0_15) ((rdat0 V c).A 7)
      ((cfg0.win 7).cut (cfg0.grid.coords t0_7) X) ((cfg0.win 7).cut (cfg0.grid.coords t0_15) X') (r0row.emb x) _ hi hnot
  · funext x
    have hx0 : (x 0).val < 1 := (x 0).isLt
    rw [← hX', row8_apply]
    have hi : ix2 (⟨8 + (x 0).val, by omega⟩ : Fin 16) (⟨(x 1).val, (x 1).isLt⟩ : Fin 128) = ((cfg0.win 7).rect t0_15).emb (r0row.emb x) := by
      funext a; apply Fin.ext
      rw [Window.rect_emb_val, index0_7]
      match a with
      | ⟨0, _⟩ => show 8 + (x 0).val = 1 * 8 + (0 + 1 * (x 0).val); omega
      | ⟨1, _⟩ => show (x 1).val = 0 * 128 + (0 + 1 * (x 1).val); omega
    exact read_two_writes_snd (Val := Elt F) (cfg0.win 7).arr.view ((cfg0.win 7).rect t0_7) ((cfg0.win 7).rect t0_15) ((rdat0 V c).A 7)
      ((cfg0.win 7).cut (cfg0.grid.coords t0_7) X) ((cfg0.win 7).cut (cfg0.grid.coords t0_15) X') (r0row.emb x) _ hi

/-- A canonical statistics array: every row of a core's eight is that core's fold (only rows 0 and 8 are ever read). -/
def sumArr0 (c : Dev nD) : Buf (Elt F) ((cfg0.win 6).arr.view.loc (c.tc : Thread nD τ)) :=
  fun (j : S16x128.Idx) => r0sum V c ⟨(j 0).val / 8, by have := ValueIdx.idx2_lt0 j; omega⟩ 7 (by omega) (ix2 (0 : Fin 1) (j 1))

theorem row0_sumArr0 (c : Dev nD) : row0 (sumArr0 V c) = r0sum V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row0_apply]
  show r0sum V c ⟨(x 0).val / 8, _⟩ 7 _ (ix2 (0 : Fin 1) (⟨(x 1).val, _⟩ : Fin 128)) = _
  rw [e1, e2]

theorem row8_sumArr0 (c : Dev nD) : row8 (sumArr0 V c) = r0sum V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row8_apply]
  show r0sum V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt0_6 (c : Dev nD) (G : Buf (Elt F) ((cfg0.win 6).arr.view.loc (c.tc : Thread nD τ)))
    (h : (rdat0 V c).ArrAt 6 cfg0.N G) : row0 G = row0 (sumArr0 V c) ∧ row8 G = row8 (sumArr0 V c) := by
  rw [row0_sumArr0, row8_sumArr0]; exact arrAt0_6_rows V c G h

/-- A canonical statistics array: every row of a core's eight is that core's fold (only rows 0 and 8 are ever read). -/
def sqArr0 (c : Dev nD) : Buf (Elt F) ((cfg0.win 7).arr.view.loc (c.tc : Thread nD τ)) :=
  fun (j : S16x128.Idx) => r0sumsq V c ⟨(j 0).val / 8, by have := ValueIdx.idx2_lt0 j; omega⟩ 7 (by omega) (ix2 (0 : Fin 1) (j 1))

theorem row0_sqArr0 (c : Dev nD) : row0 (sqArr0 V c) = r0sumsq V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row0_apply]
  show r0sumsq V c ⟨(x 0).val / 8, _⟩ 7 _ (ix2 (0 : Fin 1) (⟨(x 1).val, _⟩ : Fin 128)) = _
  rw [e1, e2]

theorem row8_sqArr0 (c : Dev nD) : row8 (sqArr0 V c) = r0sumsq V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row8_apply]
  show r0sumsq V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt0_7 (c : Dev nD) (G : Buf (Elt F) ((cfg0.win 7).arr.view.loc (c.tc : Thread nD τ)))
    (h : (rdat0 V c).ArrAt 7 cfg0.N G) : row0 G = row0 (sqArr0 V c) ∧ row8 G = row8 (sqArr0 V c) := by
  rw [row0_sqArr0, row8_sqArr0]; exact arrAt0_7_rows V c G h

/-! ### The folds, written out: the zero row, then the eight blocks' column sums added in point order -/

theorem r0sum_core0 (c : Dev nD) : r0sum V c 0 7 (by omega) = r0acc (r0acc (r0acc (r0acc (r0acc (r0acc (r0acc (r0acc r0zrow (yat0 V c t0_0)) (yat0 V c t0_1)) (yat0 V c t0_2)) (yat0 V c t0_3)) (yat0 V c t0_4)) (yat0 V c t0_5)) (yat0 V c t0_6)) (yat0 V c t0_7) := rfl
theorem r0sum_core1 (c : Dev nD) : r0sum V c 1 7 (by omega) = r0acc (r0acc (r0acc (r0acc (r0acc (r0acc (r0acc (r0acc r0zrow (yat0 V c t0_8)) (yat0 V c t0_9)) (yat0 V c t0_10)) (yat0 V c t0_11)) (yat0 V c t0_12)) (yat0 V c t0_13)) (yat0 V c t0_14)) (yat0 V c t0_15) := rfl
theorem r0sumsq_core0 (c : Dev nD) : r0sumsq V c 0 7 (by omega) = r0accsq (r0accsq (r0accsq (r0accsq (r0accsq (r0accsq (r0accsq (r0accsq r0zrow (yat0 V c t0_0)) (yat0 V c t0_1)) (yat0 V c t0_2)) (yat0 V c t0_3)) (yat0 V c t0_4)) (yat0 V c t0_5)) (yat0 V c t0_6)) (yat0 V c t0_7) := rfl
theorem r0sumsq_core1 (c : Dev nD) : r0sumsq V c 1 7 (by omega) = r0accsq (r0accsq (r0accsq (r0accsq (r0accsq (r0accsq (r0accsq (r0accsq r0zrow (yat0 V c t0_8)) (yat0 V c t0_9)) (yat0 V c t0_10)) (yat0 V c t0_11)) (yat0 V c t0_12)) (yat0 V c t0_13)) (yat0 V c t0_14)) (yat0 V c t0_15) := rfl

/-! ### Window 5: the whole array -/

/-- The array of `y`: row block `p` is the block of `y` at point `p`. -/
def yArr0 (c : Dev nD) : Buf (Elt F) ((cfg0.win 5).arr.view.loc (c.tc : Thread nD τ)) :=
  fun (j : S65536x128.Idx) => yat0 V c ⟨(j 0).val / 4096, by have := ValueIdx.idx2_lt0 j; show _ < grid0.N; rw [N_0]; omega⟩
    (ix2 (⟨(j 0).val % 4096, Nat.mod_lt _ (by decide)⟩ : Fin 4096) (j 1))

theorem yArr0_apply (c : Dev nD) (p : Fin 16) (q : Fin 4096) (j : Fin 128) :
    yArr0 V c (ix2 (⟨p.val * 4096 + q.val, by have := p.isLt; have := q.isLt; omega⟩ : Fin 65536) j)
      = yat0 V c ⟨p.val, by show _ < grid0.N; rw [N_0]; exact p.isLt⟩ (ix2 q j) := by
  have e1 : (⟨(p.val * 4096 + q.val) / 4096, by have := p.isLt; have := q.isLt; show _ < grid0.N; rw [N_0]; omega⟩ : Fin cfg0.N)
      = ⟨p.val, by show _ < grid0.N; rw [N_0]; exact p.isLt⟩ := Fin.ext (by have := q.isLt; show (p.val * 4096 + q.val) / 4096 = p.val; omega)
  have e2 : (⟨(p.val * 4096 + q.val) % 4096, Nat.mod_lt _ (by decide)⟩ : Fin 4096) = q :=
    Fin.ext (by have := q.isLt; show (p.val * 4096 + q.val) % 4096 = q.val; omega)
  show yat0 V c ⟨(p.val * 4096 + q.val) / 4096, _⟩ (ix2 (⟨(p.val * 4096 + q.val) % 4096, _⟩ : Fin 4096) j) = _
  rw [e1, e2]

theorem arrAt0_5 (c : Dev nD) (G : Buf (Elt F) ((cfg0.win 5).arr.view.loc (c.tc : Thread nD τ)))
    (h : (rdat0 V c).ArrAt 5 cfg0.N G) : G = yArr0 V c := by
  funext (j : S65536x128.Idx)
  have hj := ValueIdx.idx2_lt0 j
  let u : Fin cfg0.N := ⟨(j 0).val / 4096, by show _ < grid0.N; rw [N_0]; omega⟩
  let x : S4096x128.Idx := ix2 (⟨(j 0).val % 4096, Nat.mod_lt _ (by decide)⟩ : Fin 4096) (j 1)
  have hb := congrFun (arrAt0_5_blk V c cfg0.N (le_of_eq N_0) G h u u.isLt) x
  have hjx : ((cfg0.win 5).rect u).emb x = j := by
    funext a; apply Fin.ext
    rw [Window.rect_emb_val, index0_5]
    match a with
    | ⟨0, _⟩ => show (j 0).val / 4096 * 4096 + (j 0).val % 4096 = (j 0).val; omega
    | ⟨1, _⟩ => show 0 * 128 + (j 1).val = (j 1).val; omega
  have hr : ((cfg0.win 5).blk u).view.read (Elt F) G x = G (((cfg0.win 5).rect u).emb x) := rfl
  rw [hr, hjx] at hb
  exact hb
end Arr5

end Cert.Kernel.Hand
end
-- ==== Proof.HandK.P2r1.lean ====
import proofs.«103476_j5987184410999_2_alg».proof.Proof.Gen.Kernel.Launch
import proofs.«103476_j5987184410999_2_alg».proof.Proof.Gen.Kernel.Skeleton
import proofs.«103476_j5987184410999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 x 128 extents: the elaborator's structural look recurses once per
-- coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__pass2_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4096x128 := Rect.unit (s := S4096x128) ![0, 0] S4096x128.size inb_S4096x128_S4096x128_0_0
abbrev r1_1 : Rect S1x128 := Rect.unit (s := S1x128) ![0, 0] S1x128.size inb_S1x128_S1x128_0_0

/-! ## What the body leaves in the output window's buffer -/

/-- Window 5's staging buffer after the body, from the input windows' blocks (the normalised block, the mean,
    the inverse deviation, the scale, the shift): its one store as a piece (`View.canon`; the payload is the
    skeleton's, its arguments in the order the body loads them). -/
def out1_5 (x0 : Vec F S4096x128 .f32) (x1 x2 x3 x4 : Vec F S1x128 .f32) : Vec F S4096x128 .f32 :=
  View.canon [⟨r1_0, k1_pay1 (View.ld x0 r1_0) (View.ld x3 r1_1) (View.ld x1 r1_1) (View.ld x2 r1_1) (View.ld x4 r1_1)⟩]

/-- The store tiles the buffer, so it covers it. -/
theorem cover1_5 (p0 : Vec F S4096x128 .f32) (y : S4096x128.Idx) :
    ∃ pc ∈ ([⟨r1_0, p0⟩] : List (View.Piece (Elt F) S4096x128 .f32)), y ∈ pc.1.set :=
  View.cover_of_tiled [⟨r1_0, p0⟩] S4096x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S4096x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4096x128 .f32) (harg6 : arg6.IsWhole)
    (x0 : Vec F S4096x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__pass2_kernel i arg1 harg1 arg2 harg2 arg3 harg3 arg4 harg4 arg5 harg5 arg6 harg6) K := by
  simp only [cc1__pass2_kernel_eq_skeleton]; unfold cc1__pass2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant the
    class's (`Pipeline.ΦA`: the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.HandK.ChainDefs0.lean ====
/-
  The canonical contents of the TensorCore's buffers around network node 0: after host stretch 0, after its statistics pass (region 0;
  the two statistics arrays at a canonical completion of their undefined rows), after host stretch 1, after its normalisation pass (region 1).
-/
import proofs.«103476_j5987184410999_2_alg».proof.Proof.HandK.Kit
import proofs.«103476_j5987184410999_2_alg».proof.Proof.HandK.Agree
import proofs.«103476_j5987184410999_2_alg».proof.Proof.HandK.P1r0Arr
import proofs.«103476_j5987184410999_2_alg».proof.Proof.HandK.P2r1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

/-- A region's arrays put back: a buffer whose new contents are its old ones (an input window's array), or that is no array
    of the region, keeps its contents. -/
theorem withArrays_keep {gr W' : Nat} (win : Fin W' → Pipeline.WinSpec sig gr) (hinj : Function.Injective (Pipeline.arrRef win))
    (c : Dev nD) (V : Valuation τ sig (Elt F)) (G : (w : Fin W') → Buf (Elt F) ((win w).arr.view.loc (c.tc : Thread nD τ)))
    (b : Ref sig .tc) (h : ∀ w, Pipeline.arrRef win w = b → G w = V (Pipeline.arrRef win w)) :
    Pipeline.withArrays win c V G b = V b := by
  by_cases hb : ∃ w, Pipeline.arrRef win w = b
  · obtain ⟨w, rfl⟩ := hb
    rw [Pipeline.withArrays_arr win hinj]; exact h w rfl
  · exact Pipeline.withArrays_of_ne win c V G b (fun w e => hb ⟨w, e⟩)

variable (m : (ℓ : Loc nD τ sig) → Buf (Elt F) ℓ)

/-- At launch. -/
def W0 (c : Dev nD) : Valuation τ sig (Elt F) := fun b => m (c, b)
/-- After host stretch 0: what region 0 is entered from. -/
def W1 (c : Dev nD) : Valuation τ sig (Elt F) := StableHlo.after hostOps0 (W0 m c)
abbrev E0 : (c : Dev nD) → (b : Ref sig .tc) → Buf (Elt F) ((c : Thread nD τ).loc b) := fun c b => W1 m c b
/-- What region 0 leaves in its arrays: the inputs as found, the product array, and the two statistics arrays at their
    canonical completion. -/
def GA0 (c : Dev nD) : (w : Fin cfg0.W) → Buf (Elt F) ((cfg0.win w).arr.view.loc (c.tc : Thread nD τ))
  | ⟨0, _⟩ => E0 m c (Pipeline.arrRef spec0 0)
  | ⟨1, _⟩ => E0 m c (Pipeline.arrRef spec0 1)
  | ⟨2, _⟩ => E0 m c (Pipeline.arrRef spec0 2)
  | ⟨3, _⟩ => E0 m c (Pipeline.arrRef spec0 3)
  | ⟨4, _⟩ => E0 m c (Pipeline.arrRef spec0 4)
  | ⟨5, _⟩ => yArr0 (E0 m) c
  | ⟨6, _⟩ => sumArr0 (E0 m) c
  | ⟨7, _⟩ => sqArr0 (E0 m) c
def W2 (c : Dev nD) : Valuation τ sig (Elt F) := Pipeline.withArrays spec0 c (W1 m c) (GA0 m c)
/-- After host stretch 1: what region 1 is entered from. -/
def W3 (c : Dev nD) : Valuation τ sig (Elt F) := StableHlo.after hostOps1 (W2 m c)
abbrev E1 : (c : Dev nD) → (b : Ref sig .tc) → Buf (Elt F) ((c : Thread nD τ).loc b) := fun c b => W3 m c b
/-- What region 1 leaves in its arrays. -/
def GA1 (c : Dev nD) (w : Fin cfg1.W) : Buf (Elt F) ((cfg1.win w).arr.view.loc (c.tc : Thread nD τ)) := (dat1 (E1 m) c).arrAt w cfg1.N
def W4 (c : Dev nD) : Valuation τ sig (Elt F) := Pipeline.withArrays spec1 c (W3 m c) (GA1 m c)

end Cert.Kernel.Hand

end
-- ==== Proof.HandK.P1r2.lean ====
/- Region 2 (a pass-1 launch of the one-input kernel) as RELATIONAL proof data, with its body obligation.

   The body computes a block of `y` from five input blocks, stores it whole, and adds its column sums (and those of its
   square) into ROW 0 of two 8-row statistics blocks, which it first zeroes at the first point of each core's run of eight.
   Rows 1 to 7 of those blocks are never stored: what the body leaves there is what it found. So the data relates what the
   body finds in a buffer to what it leaves, and for the statistics blocks constrains row 0 only. -/
import proofs.«103476_j5987184410999_2_alg».proof.Proof.Gen.Kernel.Launch
import proofs.«103476_j5987184410999_2_alg».proof.Proof.Gen.Kernel.Skeleton
import proofs.«103476_j5987184410999_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## Region 2: names -/

/-- The condition of the body's one `scf.if`, from the grid coordinates (the skeleton's scalar chain substituted):
    the inner coordinate is zero. -/
abbrev r2cond (i : grid2.Coords) : Prop :=
  (Scalar.cmpi .ne (Scalar.extui (Scalar.cmpi .eq (BitVec.ofNat 32 (i 1).val) 0#32)) 0#32) = 1#1

/-- It holds at the first point of each core's run of eight: decided over the grid. -/
theorem r2cond_iff : ∀ t : Fin cfg2.N, r2cond (grid2.coords t) ↔ t.val % 8 = 0 :=
  (by decide +kernel : ∀ t : Fin grid2.N, r2cond (grid2.coords t) ↔ t.val % 8 = 0)

theorem zeros2_r2 : (![0, 0] : Fin 2 → ℕ) = fun _ => 0 := by funext a; fin_cases a <;> rfl

/-- Row 0 of a statistics block: the rectangle every load and store of the two accumulators goes through. -/
abbrev r2row : Rect S8x128 := Rect.unit (s := S8x128) ![0, 0] S1x128.size inb_S8x128_S1x128_0_0

/-- The row of zeros the body stores at the first point of a core's run. -/
def r2zrow : FVec F S1x128 .f32 := broadcast S1x128 (Scalar.ofBits .f32 0x00000000#32)

/-- One accumulation step: the row found plus the column sums of `y` (the reduction along axis 0 from the zero word). -/
def r2acc (r : Vec F S1x128 .f32) (y : FVec F S4096x128 .f32) : FVec F S1x128 .f32 :=
  addf (shapeCast S1x128 r shapeCasts_S1x128_S1x128)
    (shapeCast S1x128 (multiReduction .add [0] S128 y 0x00000000#32 reduces_S4096x128_S128 (.inl rfl) rfl) shapeCasts_S128_S1x128)

/-- The same of the squares. -/
def r2accsq (r : Vec F S1x128 .f32) (y : FVec F S4096x128 .f32) : FVec F S1x128 .f32 := r2acc r (mulf y y)

/-- The block of `y` the body computes from its five input blocks: `relu(x·W1 + b1)·W2 + b2` with the matrix
    operands rounded to bf16 (the skeleton's payload). -/
def yblk2 (x : Vec F S4096x256 .f32) (w1 : Vec F S256x256 .f32) (b1 : Vec F S1x256 .f32) (w2 : Vec F S256x128 .f32)
    (b2 : Vec F S1x128 .f32) : Vec F S4096x128 .f32 := k2_pay4 x w1 b1 w2 b2

theorem k2_pay5_eq (x : Vec F S4096x256 .f32) (w1 : Vec F S256x256 .f32) (b1 : Vec F S1x256 .f32) (w2 : Vec F S256x128 .f32)
    (b2 : Vec F S1x128 .f32) (r : Vec F S1x128 .f32) : k2_pay5 x w1 b1 w2 b2 r = r2acc r (yblk2 x w1 b1 w2 b2) := rfl
theorem k2_pay1_eq (y : FVec F S4096x128 .f32) (r : Vec F S1x128 .f32) : k2_pay1 y r = r2accsq r y := rfl
theorem k2_pay2_eq : k2_pay2 (F := F) = r2zrow := rfl
theorem k2_pay3_eq : k2_pay3 (F := F) = r2zrow := rfl

section WholeRect
variable {sg : RefSig} {κ : Kind} {sp : Space} {S : Shape} {e : EltTy} {Val : EltTy → Type}

/-- A load through the whole-shape rectangle at zero offsets reads the view's contents. -/
theorem readAt_unit_zero_r2 (v : View sg κ sp S e) {off : Fin S.rank → ℕ} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

/-- One store through it leaves its payload, whatever the buffer held. -/
theorem read_writes_unit_zero_r2 (v : View sg κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end WholeRect

theorem readAt_S4096x256_r2 {sp : Space} (v : View sig .tc sp S4096x256 .f32) (f : v.ty.Contents (Elt F)) :
    v.readAt (Elt F) (Rect.unit (s := S4096x256) ![0, 0] S4096x256.size inb_S4096x256_S4096x256_0_0).toLoadRect f = v.read (Elt F) f :=
  readAt_unit_zero_r2 v zeros2_r2 _ f
theorem readAt_S256x256_r2 {sp : Space} (v : View sig .tc sp S256x256 .f32) (f : v.ty.Contents (Elt F)) :
    v.readAt (Elt F) (Rect.unit (s := S256x256) ![0, 0] S256x256.size inb_S256x256_S256x256_0_0).toLoadRect f = v.read (Elt F) f :=
  readAt_unit_zero_r2 v zeros2_r2 _ f
theorem readAt_S1x256_r2 {sp : Space} (v : View sig .tc sp S1x256 .f32) (f : v.ty.Contents (Elt F)) :
    v.readAt (Elt F) (Rect.unit (s := S1x256) ![0, 0] S1x256.size inb_S1x256_S1x256_0_0).toLoadRect f = v.read (Elt F) f :=
  readAt_unit_zero_r2 v zeros2_r2 _ f
theorem readAt_S256x128_r2 {sp : Space} (v : View sig .tc sp S256x128 .f32) (f : v.ty.Contents (Elt F)) :
    v.readAt (Elt F) (Rect.unit (s := S256x128) ![0, 0] S256x128.size inb_S256x128_S256x128_0_0).toLoadRect f = v.read (Elt F) f :=
  readAt_unit_zero_r2 v zeros2_r2 _ f
theorem readAt_S1x128_r2 {sp : Space} (v : View sig .tc sp S1x128 .f32) (f : v.ty.Contents (Elt F)) :
    v.readAt (Elt F) (Rect.unit (s := S1x128) ![0, 0] S1x128.size inb_S1x128_S1x128_0_0).toLoadRect f = v.read (Elt F) f :=
  readAt_unit_zero_r2 v zeros2_r2 _ f

/-- The whole-block store of window 5 leaves its payload. -/
theorem read_whole_store5_r2 {sp : Space} (v : View sig .tc sp S4096x128 .f32) (f : v.ty.Contents (Elt F)) (w : Vec F S4096x128 .f32) :
    v.read (Elt F) (v.writes (Elt F) f [⟨Rect.unit (s := S4096x128) ![0, 0] S4096x128.size inb_S4096x128_S4096x128_0_0, w⟩]) = w :=
  read_writes_unit_zero_r2 v zeros2_r2 _ f w []

/-- Row 0 after a store through row 0, whatever was stored before. -/
theorem ld_row0_store_r2 {sp : Space} (v : View sig .tc sp S8x128 .f32) (f : v.ty.Contents (Elt F)) (w : Vec F S1x128 .f32)
    (L : List (View.Piece (Elt F) S8x128 .f32)) :
    View.ld (v.read (Elt F) (v.writes (Elt F) f (⟨r2row, w⟩ :: L))) r2row = w :=
  funext fun x => View.read_writes_cons_emb v f r2row w L x

/-! ## The body's two runs, over arbitrary staging contents -/

set_option maxHeartbeats 1000000 in
/-- The body at a point that is not the first of its core's run: row 0 of each statistics block is the row found plus the sums. -/
theorem sound_kernel2_later (c : Dev nD) (i : grid2.Coords)
    (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S8x128 .f32) (harg8 : arg8.IsWhole) (arg9 : Memref sig .tc .vmem S8x128 .f32) (harg9 : arg9.IsWhole)
    (hc : ¬r2cond i)
    (x0 : Vec F S4096x256 .f32) (x1 : Vec F S256x256 .f32) (x2 : Vec F S1x256 .f32) (x3 : Vec F S256x128 .f32) (x4 : Vec F S1x128 .f32)
    (y5 : Vec F S4096x128 .f32) (y6 y7 : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ owns (c : Thread nD τ) arg8 fullShare y6 ∗ owns (c : Thread nD τ) arg9 fullShare y7
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (yblk2 x0 x1 x2 x3 x4)
            ∗ (∃ X, ⌜View.ld X r2row = r2acc (View.ld y6 r2row) (yblk2 x0 x1 x2 x3 x4)⌝ ∗ owns (c : Thread nD τ) arg8 fullShare X)
            ∗ (∃ X, ⌜View.ld X r2row = r2accsq (View.ld y7 r2row) (yblk2 x0 x1 x2 x3 x4)⌝ ∗ owns (c : Thread nD τ) arg9 fullShare X)) -∗ K ⟨⟩))
      ⊢ wp frame (wpE (defs₀ (F := F)) Variants.none c none) E (cc2__pass1_kernel_single i arg2 harg2 arg3 harg3 arg4 harg4 arg5 harg5 arg6 harg6 arg7 harg7 arg8 harg8 arg9 harg9) K := by
  simp only [cc2__pass1_kernel_single_eq_skeleton]; unfold cc2__pass1_kernel_single_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    rw [readAt_S4096x256_r2, readAt_S256x256_r2, readAt_S1x256_r2, readAt_S256x128_r2, readAt_S1x128_r2]
    exact read_whole_store5_r2 (F := F) _ _ _
  isplitl [H6]
  · iexists _; isplitr; swap
    · iexists _; isplitr; swap; · iexact H6
      ipureintro; rfl
    ipureintro
    rw [readAt_S4096x256_r2, readAt_S256x256_r2, readAt_S1x256_r2, readAt_S256x128_r2, readAt_S1x128_r2]
    rw [k2_pay5_eq]
    exact ld_row0_store_r2 (F := F) _ _ _ _
  · iexists _; isplitr; swap
    · iexists _; isplitr; swap; · iexact H7
      ipureintro; rfl
    ipureintro
    rw [readAt_S4096x256_r2, readAt_S256x256_r2, readAt_S1x256_r2, readAt_S256x128_r2, readAt_S1x128_r2]
    rw [k2_pay1_eq]
    exact ld_row0_store_r2 (F := F) _ _ _ _

set_option maxHeartbeats 1000000 in
/-- The body at the first point of a core's run: row 0 of each statistics block is the zero row plus the sums. -/
theorem sound_kernel2_first (c : Dev nD) (i : grid2.Coords)
    (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S8x128 .f32) (harg8 : arg8.IsWhole) (arg9 : Memref sig .tc .vmem S8x128 .f32) (harg9 : arg9.IsWhole)
    (hc : r2cond i)
    (x0 : Vec F S4096x256 .f32) (x1 : Vec F S256x256 .f32) (x2 : Vec F S1x256 .f32) (x3 : Vec F S256x128 .f32) (x4 : Vec F S1x128 .f32)
    (y5 : Vec F S4096x128 .f32) (y6 y7 : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare y5 ∗ owns (c : Thread nD τ) arg8 fullShare y6 ∗ owns (c : Thread nD τ) arg9 fullShare y7
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (yblk2 x0 x1 x2 x3 x4)
            ∗ (∃ X, ⌜View.ld X r2row = r2acc r2zrow (yblk2 x0 x1 x2 x3 x4)⌝ ∗ owns (c : Thread nD τ) arg8 fullShare X)
            ∗ (∃ X, ⌜View.ld X r2row = r2accsq r2zrow (yblk2 x0 x1 x2 x3 x4)⌝ ∗ owns (c : Thread nD τ) arg9 fullShare X)) -∗ K ⟨⟩))
      ⊢ wp frame (wpE (defs₀ (F := F)) Variants.none c none) E (cc2__pass1_kernel_single i arg2 harg2 arg3 harg3 arg4 harg4 arg5 harg5 arg6 harg6 arg7 harg7 arg8 harg8 arg9 harg9) K := by
  simp only [cc2__pass1_kernel_single_eq_skeleton]; unfold cc2__pass1_kernel_single_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr; swap; · iexact H5
    ipureintro
    rw [readAt_S4096x256_r2, readAt_S256x256_r2, readAt_S1x256_r2, readAt_S256x128_r2, readAt_S1x128_r2]
    exact read_whole_store5_r2 (F := F) _ _ _
  isplitl [H6]
  · iexists _; isplitr; swap
    · iexists _; isplitr; swap; · iexact H6
      ipureintro; rfl
    ipureintro
    rw [readAt_S4096x256_r2, readAt_S256x256_r2, readAt_S1x256_r2, readAt_S256x128_r2, readAt_S1x128_r2]
    rw [k2_pay5_eq]
    refine (ld_row0_store_r2 (F := F) _ _ _ _).trans ?_
    congr 1
    sl_unfold_run_names
    exact View.readCov_cons_toLoadRect _ _ _ _
  · iexists _; isplitr; swap
    · iexists _; isplitr; swap; · iexact H7
      ipureintro; rfl
    ipureintro
    rw [readAt_S4096x256_r2, readAt_S256x256_r2, readAt_S1x256_r2, readAt_S256x128_r2, readAt_S1x128_r2]
    rw [k2_pay1_eq]
    refine (ld_row0_store_r2 (F := F) _ _ _ _).trans ?_
    congr 1
    sl_unfold_run_names
    exact View.readCov_cons_toLoadRect _ _ _ _

/-! ## The proof data of region 2, relational -/

variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of `y` at point `t`: the body's function of the five input blocks there. -/
def yat2 (c : Dev nD) (t : Fin cfg2.N) : Vec F S4096x128 .f32 :=
  yblk2 (iblk2 V c 0 t) (iblk2 V c 1 t) (iblk2 V c 2 t) (iblk2 V c 3 t) (iblk2 V c 4 t)

/-- The proof data of the launch on core `c`: the arrays as the region finds them; an input's buffer is left as found; the
    `y` window's buffer is left at the block of `y`; of a statistics window's buffer only row 0 is constrained — it is the
    row found (the zero row at the first point of a core's run) plus the column sums of the block of `y` (of its square) —, and
    nothing is said of rows 1 to 7, which the body never stores. -/
def rdat2 (c : Dev nD) : RDat τ (Elt F) Unit ℕ (UR sig nD τ) ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => X = yat2 V c t
    | ⟨6, _⟩ => fun Y X => View.ld X r2row = r2acc (if t.val % 8 = 0 then r2zrow else View.ld Y r2row) (yat2 V c t)
    | ⟨7, _⟩ => fun Y X => View.ld X r2row = r2accsq (if t.val % 8 = 0 then r2zrow else View.ld Y r2row) (yat2 V c t)
  Φ _ := Pipeline.ΦA spec2 c
  q _ := fullShare
  owed _ := 0

theorem rdat2_A (c : Dev nD) (w : Fin cfg2.W) : (rdat2 V c).A w = V c (Pipeline.arrRef spec2 w) := by dsimp only [rdat2]

theorem after2_0 (c : Dev nD) (t : Fin cfg2.N) Y X : (rdat2 V c).after 0 t Y X ↔ X = Y := by dsimp only [rdat2]; exact Iff.rfl
theorem after2_1 (c : Dev nD) (t : Fin cfg2.N) Y X : (rdat2 V c).after 1 t Y X ↔ X = Y := by dsimp only [rdat2]; exact Iff.rfl
theorem after2_2 (c : Dev nD) (t : Fin cfg2.N) Y X : (rdat2 V c).after 2 t Y X ↔ X = Y := by dsimp only [rdat2]; exact Iff.rfl
theorem after2_3 (c : Dev nD) (t : Fin cfg2.N) Y X : (rdat2 V c).after 3 t Y X ↔ X = Y := by dsimp only [rdat2]; exact Iff.rfl
theorem after2_4 (c : Dev nD) (t : Fin cfg2.N) Y X : (rdat2 V c).after 4 t Y X ↔ X = Y := by dsimp only [rdat2]; exact Iff.rfl
theorem after2_5 (c : Dev nD) (t : Fin cfg2.N) Y X : (rdat2 V c).after 5 t Y X ↔ X = yat2 V c t := by dsimp only [rdat2]; exact Iff.rfl
theorem after2_6 (c : Dev nD) (t : Fin cfg2.N) Y X : (rdat2 V c).after 6 t Y X ↔
    View.ld X r2row = r2acc (if t.val % 8 = 0 then r2zrow else View.ld Y r2row) (yat2 V c t) := by dsimp only [rdat2]; exact Iff.rfl
theorem after2_7 (c : Dev nD) (t : Fin cfg2.N) Y X : (rdat2 V c).after 7 t Y X ↔
    View.ld X r2row = r2accsq (if t.val % 8 = 0 then r2zrow else View.ld Y r2row) (yat2 V c t) := by dsimp only [rdat2]; exact Iff.rfl

/-! ## What the body finds in an input's buffer: the window's block, fetched at the point or not -/

theorem finds2_0 (c : Dev nD) (t : Fin cfg2.N) (Y) (h : (rdat2 V c).Finds 0 t Y) : Y = iblk2 V c 0 t := by
  obtain ⟨d, rfl⟩ := (rdat2 V c).finds_in_eq_fetched 0 rfl (fun _ _ _ => rfl) (fun t Y X h => (after2_0 V c t Y X).mp h) t Y h
  unfold RDat.fetched RDat.blockOf iblk2; rw [rdat2_A]; rfl

theorem finds2_1 (c : Dev nD) (t : Fin cfg2.N) (Y) (h : (rdat2 V c).Finds 1 t Y) : Y = iblk2 V c 1 t := by
  obtain ⟨d, rfl⟩ := (rdat2 V c).finds_in_eq_fetched 1 rfl (fun _ _ _ => rfl) (fun t Y X h => (after2_1 V c t Y X).mp h) t Y h
  unfold RDat.fetched RDat.blockOf iblk2; rw [rdat2_A]; rfl

theorem finds2_2 (c : Dev nD) (t : Fin cfg2.N) (Y) (h : (rdat2 V c).Finds 2 t Y) : Y = iblk2 V c 2 t := by
  obtain ⟨d, rfl⟩ := (rdat2 V c).finds_in_eq_fetched 2 rfl (fun _ _ _ => rfl) (fun t Y X h => (after2_2 V c t Y X).mp h) t Y h
  unfold RDat.fetched RDat.blockOf iblk2; rw [rdat2_A]; rfl

theorem finds2_3 (c : Dev nD) (t : Fin cfg2.N) (Y) (h : (rdat2 V c).Finds 3 t Y) : Y = iblk2 V c 3 t := by
  obtain ⟨d, rfl⟩ := (rdat2 V c).finds_in_eq_fetched 3 rfl (fun _ _ _ => rfl) (fun t Y X h => (after2_3 V c t Y X).mp h) t Y h
  unfold RDat.fetched RDat.blockOf iblk2; rw [rdat2_A]; rfl

theorem finds2_4 (c : Dev nD) (t : Fin cfg2.N) (Y) (h : (rdat2 V c).Finds 4 t Y) : Y = iblk2 V c 4 t := by
  obtain ⟨d, rfl⟩ := (rdat2 V c).finds_in_eq_fetched 4 rfl (fun _ _ _ => rfl) (fun t Y X h => (after2_4 V c t Y X).mp h) t Y h
  unfold RDat.fetched RDat.blockOf iblk2; rw [rdat2_A]; rfl

/-! ## The body obligation -/

set_option maxHeartbeats 1000000 in
/-- The body at any point, on the buffers the pipeline hands it: the inputs' hold their blocks (`h0` … `h4`), the outputs' anything.
    The point's position in its core's run of eight says which of the two runs applies; what the run leaves is in the relation. -/
theorem sound_body2 (c : Dev nD) (t : Fin cfg2.N) (Y : (w : Fin cfg2.W) → (cfg2.win w).block.Idx → Elt F (cfg2.win w).elt)
    (h0 : Y 0 = iblk2 V c 0 t) (h1 : Y 1 = iblk2 V c 1 t) (h2 : Y 2 = iblk2 V c 2 t) (h3 : Y 3 = iblk2 V c 3 t) (h4 : Y 4 = iblk2 V c 4 t) :
    iprop((rdat2 V c).Φ t.castSucc ∗ (rdat2 V c).owesAt () t.castSucc
        ∗ owns (c : Thread nD τ) ((cfg2.win 0).stage (cfg2.slots t 0)) fullShare (Y 0)
        ∗ owns (c : Thread nD τ) ((cfg2.win 1).stage (cfg2.slots t 1)) fullShare (Y 1)
        ∗ owns (c : Thread nD τ) ((cfg2.win 2).stage (cfg2.slots t 2)) fullShare (Y 2)
        ∗ owns (c : Thread nD τ) ((cfg2.win 3).stage (cfg2.slots t 3)) fullShare (Y 3)
        ∗ owns (c : Thread nD τ) ((cfg2.win 4).stage (cfg2.slots t 4)) fullShare (Y 4)
        ∗ owns (c : Thread nD τ) ((cfg2.win 5).stage (cfg2.slots t 5)) fullShare (Y 5)
        ∗ owns (c : Thread nD τ) ((cfg2.win 6).stage (cfg2.slots t 6)) fullShare (Y 6)
        ∗ owns (c : Thread nD τ) ((cfg2.win 7).stage (cfg2.slots t 7)) fullShare (Y 7))
      ⊢ wp frame (wpE (defs₀ (F := F)) Variants.none c none) Set.univ (bodyAt2 t) (fun _ =>
        iprop((rdat2 V c).Φ t.succ ∗ (rdat2 V c).owesAt () t.succ
          ∗ (∃ X, ⌜(rdat2 V c).after 0 t (Y 0) X⌝ ∗ owns (c : Thread nD τ) ((cfg2.win 0).stage (cfg2.slots t 0)) fullShare X)
          ∗ (∃ X, ⌜(rdat2 V c).after 1 t (Y 1) X⌝ ∗ owns (c : Thread nD τ) ((cfg2.win 1).stage (cfg2.slots t 1)) fullShare X)
          ∗ (∃ X, ⌜(rdat2 V c).after 2 t (Y 2) X⌝ ∗ owns (c : Thread nD τ) ((cfg2.win 2).stage (cfg2.slots t 2)) fullShare X)
          ∗ (∃ X, ⌜(rdat2 V c).after 3 t (Y 3) X⌝ ∗ owns (c : Thread nD τ) ((cfg2.win 3).stage (cfg2.slots t 3)) fullShare X)
          ∗ (∃ X, ⌜(rdat2 V c).after 4 t (Y 4) X⌝ ∗ owns (c : Thread nD τ) ((cfg2.win 4).stage (cfg2.slots t 4)) fullShare X)
          ∗ (∃ X, ⌜(rdat2 V c).after 5 t (Y 5) X⌝ ∗ owns (c : Thread nD τ) ((cfg2.win 5).stage (cfg2.slots t 5)) fullShare X)
          ∗ (∃ X, ⌜(rdat2 V c).after 6 t (Y 6) X⌝ ∗ owns (c : Thread nD τ) ((cfg2.win 6).stage (cfg2.slots t 6)) fullShare X)
          ∗ (∃ X, ⌜(rdat2 V c).after 7 t (Y 7) X⌝ ∗ owns (c : Thread nD τ) ((cfg2.win 7).stage (cfg2.slots t 7)) fullShare X))) := by
  unfold bodyAt2
  rw [show (rdat2 V c).Φ t.succ = (rdat2 V c).Φ t.castSucc from rfl,
    show (rdat2 V c).owesAt () t.succ = (rdat2 V c).owesAt () t.castSucc from rfl]
  by_cases h : t.val % 8 = 0
  ·
    iintro ⟨HΦ, Ho, H0, H1, H2, H3, H4, H5, H6, H7⟩
    iapply (sound_kernel2_first c (grid2.coords t) _ _ _ _ _ _ _ _ _ _ _ _ _ _ _ _ ((r2cond_iff t).mpr h) (Y 0) (Y 1) (Y 2) (Y 3) (Y 4) (Y 5) (Y 6) (Y 7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%X6, %hX6, H6⟩, ⟨%X7, %hX7, H7⟩⟩
    isplitl [HΦ]; · iexact HΦ
    isplitl [Ho]; · iexact Ho
    isplitl [H0]
    · iexists _; isplitr; swap; · iexact H0
      ipureintro; exact (after2_0 V c t _ _).mpr rfl
    isplitl [H1]
    · iexists _; isplitr; swap; · iexact H1
      ipureintro; exact (after2_1 V c t _ _).mpr rfl
    isplitl [H2]
    · iexists _; isplitr; swap; · iexact H2
      ipureintro; exact (after2_2 V c t _ _).mpr rfl
    isplitl [H3]
    · iexists _; isplitr; swap; · iexact H3
      ipureintro; exact (after2_3 V c t _ _).mpr rfl
    isplitl [H4]
    · iexists _; isplitr; swap; · iexact H4
      ipureintro; exact (after2_4 V c t _ _).mpr rfl
    isplitl [H5]
    · iexists _; isplitr; swap; · iexact H5
      ipureintro; rw [after2_5]; unfold yat2; rw [← h0, ← h1, ← h2, ← h3, ← h4]
    isplitl [H6]
    · iexists X6; isplitr; swap; · iexact H6
      ipureintro; rw [after2_6, if_pos h]; unfold yat2; rw [← h0, ← h1, ← h2, ← h3, ← h4]; exact hX6
    · iexists X7; isplitr; swap; · iexact H7
      ipureintro; rw [after2_7, if_pos h]; unfold yat2; rw [← h0, ← h1, ← h2, ← h3, ← h4]; exact hX7
  ·
    iintro ⟨HΦ, Ho, H0, H1, H2, H3, H4, H5, H6, H7⟩
    iapply (sound_kernel2_later c (grid2.coords t) _ _ _ _ _ _ _ _ _ _ _ _ _ _ _ _ (fun hc => h ((r2cond_iff t).mp hc)) (Y 0) (Y 1) (Y 2) (Y 3) (Y 4) (Y 5) (Y 6) (Y 7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%X6, %hX6, H6⟩, ⟨%X7, %hX7, H7⟩⟩
    isplitl [HΦ]; · iexact HΦ
    isplitl [Ho]; · iexact Ho
    isplitl [H0]
    · iexists _; isplitr; swap; · iexact H0
      ipureintro; exact (after2_0 V c t _ _).mpr rfl
    isplitl [H1]
    · iexists _; isplitr; swap; · iexact H1
      ipureintro; exact (after2_1 V c t _ _).mpr rfl
    isplitl [H2]
    · iexists _; isplitr; swap; · iexact H2
      ipureintro; exact (after2_2 V c t _ _).mpr rfl
    isplitl [H3]
    · iexists _; isplitr; swap; · iexact H3
      ipureintro; exact (after2_3 V c t _ _).mpr rfl
    isplitl [H4]
    · iexists _; isplitr; swap; · iexact H4
      ipureintro; exact (after2_4 V c t _ _).mpr rfl
    isplitl [H5]
    · iexists _; isplitr; swap; · iexact H5
      ipureintro; rw [after2_5]; unfold yat2; rw [← h0, ← h1, ← h2, ← h3, ← h4]
    isplitl [H6]
    · iexists X6; isplitr; swap; · iexact H6
      ipureintro; rw [after2_6, if_neg h]; unfold yat2; rw [← h0, ← h1, ← h2, ← h3, ← h4]; exact hX6
    · iexists X7; isplitr; swap; · iexact H7
      ipureintro; rw [after2_7, if_neg h]; unfold yat2; rw [← h0, ← h1, ← h2, ← h3, ← h4]; exact hX7

/-- The library's body obligation of the relational data, at every point. -/
theorem body_obligation2 (c : Dev nD) : (rdat2 (F := F) V c).BodyObligation (defs₀ (F := F)) Variants.none () Set.univ := by
  intro t Y hY
  rw [bigSep_W2, bigSep_W2]
  exact sound_body2 V c t Y (finds2_0 V c t _ (hY 0)) (finds2_1 V c t _ (hY 1)) (finds2_2 V c t _ (hY 2)) (finds2_3 V c t _ (hY 3))
    (finds2_4 V c t _ (hY 4))

end Cert.Kernel.Hand
end
-- ==== Proof.HandK.P1r2Arr.lean ====
/- What region 2's arrays hold after the launch, from the relational data's `ArrAt` (pure: no separation logic).

   An input array is as the region found it. Row block `p` of the array of `y` is the block of `y` at point `p`. Of a
   statistics array only rows 0 and 8 are determined: row 0 is core 0's fold — the zero row with the column sums of the blocks
   of `y` (of their squares) at its eight points added in point order —, row 8 core 1's. -/
import proofs.«103476_j5987184410999_2_alg».proof.Proof.HandK.P1r2
import proofs.«103476_j5987184410999_2_alg».proof.Proof.HandK.Agree
import Idealize.ShloMosaic.Lib.Pipeline.Cells
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA
open Idealize.ShloMosaic.Pipeline (RDat Dat Cfg Window cellOf)
open Idealize.ShloMosaic.ValueIdx (ix2 eq_ix2)

variable {F : FTy → Type} [FloatOps F]

variable (V : (c : Dev nD) → (b : Ref sig .tc) → Buf (Elt F) ((c : Thread nD τ).loc b))

/-! ## What the arrays hold after the launch -/

section Arr

/-! ### Inputs: never written -/

theorem arrAt2_in_of (c : Dev nD) (w : Fin cfg2.W) (hw : (cfg2.win w).isOut = false) (n : ℕ)
    (G : Buf (Elt F) ((cfg2.win w).arr.view.loc (c.tc : Thread nD τ))) (h : (rdat2 V c).ArrAt w n G) :
    G = V c (Pipeline.arrRef spec2 w) := by
  rw [RDat.ArrAt_in _ w hw n] at h; exact h.trans (rdat2_A V c w)

/-- The first five windows are the inputs. -/
theorem isOut2_in : ∀ w : Fin cfg2.W, w.val < 5 → (cfg2.win w).isOut = false := by decide

/-- An input's array is as the region found it. -/
theorem arrAt2_in (c : Dev nD) (w : Fin cfg2.W) (hw : w.val < 5)
    (G : Buf (Elt F) ((cfg2.win w).arr.view.loc (c.tc : Thread nD τ))) (h : (rdat2 V c).ArrAt w cfg2.N G) :
    G = V c (Pipeline.arrRef spec2 w) := arrAt2_in_of V c w (isOut2_in w hw) cfg2.N G h

/-! ### The schedule of the three outputs -/

theorem fetch2_5 : ∀ t : Fin cfg2.N, (cfg2.win 5).fetch t = false :=
  (by decide +kernel : ∀ t : Fin grid2.N, win2_5.fetch t = false)
theorem fetch2_6 : ∀ t : Fin cfg2.N, (cfg2.win 6).fetch t = false :=
  (by decide +kernel : ∀ t : Fin grid2.N, win2_6.fetch t = false)
theorem fetch2_7 : ∀ t : Fin cfg2.N, (cfg2.win 7).fetch t = false :=
  (by decide +kernel : ∀ t : Fin grid2.N, win2_7.fetch t = false)

/-- The block index of the `y` window at point `t`: row block `t`. -/
theorem index2_5 : ∀ t : Fin cfg2.N, (cfg2.win 5).index t = ![t.val, 0] :=
  (by decide +kernel : ∀ t : Fin grid2.N, win2_5.index t = ![t.val, 0])
/-- The block index of a statistics window at point `t`: the core's. -/
theorem index2_6 : ∀ t : Fin cfg2.N, (cfg2.win 6).index t = ![t.val / 8, 0] :=
  (by decide +kernel : ∀ t : Fin grid2.N, win2_6.index t = ![t.val / 8, 0])
theorem index2_7 : ∀ t : Fin cfg2.N, (cfg2.win 7).index t = ![t.val / 8, 0] :=
  (by decide +kernel : ∀ t : Fin grid2.N, win2_7.index t = ![t.val / 8, 0])

/-! ### Window 5: block `t` of the array is the block of `y` at `t` -/

theorem leaves2_5 (c : Dev nD) (t : Fin cfg2.N) (X) (h : (rdat2 V c).Leaves 5 t X) : X = yat2 V c t := by
  obtain ⟨Y, -, hA⟩ := h
  exact (after2_5 V c t Y X).mp hA

theorem arrAt2_5_blk (c : Dev nD) : ∀ (n : ℕ), n ≤ 16 → ∀ G, (rdat2 V c).ArrAt 5 n G →
    ∀ u : Fin cfg2.N, u.val < n → ((cfg2.win 5).blk u).view.read (Elt F) G = yat2 V c u
  | 0, _, _, _, u, hu => absurd hu (Nat.not_lt_zero _)
  | n + 1, hn, G, h, u, hu => by
    have hN : n < cfg2.N := by show n < grid2.N; rw [N_2]; omega
    rw [show n + 1 = (⟨n, hN⟩ : Fin cfg2.N).val + 1 from rfl, RDat.ArrAt_succ, if_pos (flush2_5 _)] at h
    obtain ⟨G₀, X, hG₀, hX, rfl⟩ := h
    obtain rfl := leaves2_5 V c _ X hX
    by_cases hun : u.val = n
    · have e : u = ⟨n, hN⟩ := Fin.ext hun
      subst e
      exact View.read_write_univ _ _
    · refine Eq.trans ?_ (arrAt2_5_blk c n (by omega) G₀ hG₀ u (by omega))
      refine View.read_congr fun i hi => View.write_of_not_mem _ _ _ ?_
      have hd := (cfg2.win 5).disjoint_blk (u := u) (u' := ⟨n, hN⟩) (by
        rw [index2_5, index2_5]; intro e; exact hun (by simpa using congrFun e 0))
      exact Finset.disjoint_left.mp hd hi
end Arr

section Arr3

/-! ### Windows 6 and 7: row 0 of a core's statistics block is the fold of its eight points -/

/-- Point `j` of core `q`'s run of eight. -/
def r2pt (q : Fin 2) (j : ℕ) (hj : j < 8) : Fin cfg2.N := ⟨8 * q.val + j, by have := q.isLt; show _ < grid2.N; rw [N_2]; omega⟩

/-- Row 0 of core `q`'s sum block after its point `j`: the zero row with the column sums of the blocks of `y` at the points
    `0 … j` of the core's run added in that order. -/
def r2sum (c : Dev nD) (q : Fin 2) : (j : ℕ) → j < 8 → FVec F S1x128 .f32
  | 0, h => r2acc r2zrow (yat2 V c (r2pt q 0 h))
  | j + 1, h => r2acc (r2sum c q j (Nat.lt_of_succ_lt h)) (yat2 V c (r2pt q (j + 1) h))

/-- The same of the squares. -/
def r2sumsq (c : Dev nD) (q : Fin 2) : (j : ℕ) → j < 8 → FVec F S1x128 .f32
  | 0, h => r2accsq r2zrow (yat2 V c (r2pt q 0 h))
  | j + 1, h => r2accsq (r2sumsq c q j (Nat.lt_of_succ_lt h)) (yat2 V c (r2pt q (j + 1) h))

theorem leaves2_6 (c : Dev nD) (q : Fin 2) : ∀ (j : ℕ) (hj : j < 8) (X), (rdat2 V c).Leaves 6 (r2pt q j hj) X →
    View.ld X r2row = r2sum V c q j hj
  | 0, hj, X, h => by
    obtain ⟨Y, -, hA⟩ := h
    rw [after2_6, if_pos (by show (8 * q.val + 0) % 8 = 0; omega)] at hA
    exact hA
  | j + 1, hj, X, h => by
    obtain ⟨Y, hF, hA⟩ := h
    rw [after2_6, if_neg (by show ¬(8 * q.val + (j + 1)) % 8 = 0; omega)] at hA
    rw [RDat.finds_of_pos _ (fetch2_6 _) (by show 8 * q.val + (j + 1) ≠ 0; omega)] at hF
    rcases hF with hfl | hL
    · exact absurd ((flush2_6 _).mp hfl) (by show ¬(8 * q.val + (j + 1) - 1) % 8 = 7; omega)
    · have e : (⟨(r2pt q (j + 1) hj).val - 1, Nat.lt_of_le_of_lt (Nat.sub_le _ _) (r2pt q (j + 1) hj).isLt⟩ : Fin cfg2.N)
          = r2pt q j (Nat.lt_of_succ_lt hj) := Fin.ext (by show 8 * q.val + (j + 1) - 1 = 8 * q.val + j; omega)
      rw [e] at hL
      rw [hA, leaves2_6 c q j (Nat.lt_of_succ_lt hj) Y hL]
      rfl

theorem leaves2_7 (c : Dev nD) (q : Fin 2) : ∀ (j : ℕ) (hj : j < 8) (X), (rdat2 V c).Leaves 7 (r2pt q j hj) X →
    View.ld X r2row = r2sumsq V c q j hj
  | 0, hj, X, h => by
    obtain ⟨Y, -, hA⟩ := h
    rw [after2_7, if_pos (by show (8 * q.val + 0) % 8 = 0; omega)] at hA
    exact hA
  | j + 1, hj, X, h => by
    obtain ⟨Y, hF, hA⟩ := h
    rw [after2_7, if_neg (by show ¬(8 * q.val + (j + 1)) % 8 = 0; omega)] at hA
    rw [RDat.finds_of_pos _ (fetch2_7 _) (by show 8 * q.val + (j + 1) ≠ 0; omega)] at hF
    rcases hF with hfl | hL
    · exact absurd ((flush2_7 _).mp hfl) (by show ¬(8 * q.val + (j + 1) - 1) % 8 = 7; omega)
    · have e : (⟨(r2pt q (j + 1) hj).val - 1, Nat.lt_of_le_of_lt (Nat.sub_le _ _) (r2pt q (j + 1) hj).isLt⟩ : Fin cfg2.N)
          = r2pt q j (Nat.lt_of_succ_lt hj) := Fin.ext (by show 8 * q.val + (j + 1) - 1 = 8 * q.val + j; omega)
      rw [e] at hL
      rw [hA, leaves2_7 c q j (Nat.lt_of_succ_lt hj) Y hL]
      rfl

end Arr3

section Arr4

section TwoWrites
variable {sg : RefSig} {κ : Kind} {sp : Space} {s : Shape} {e : EltTy} {Val : EltTy → Type}

/-- After two writes through rectangles of a view, an element of the first rectangle outside the second reads the first payload; -/
theorem read_two_writes_fst_r2 (v : View sg κ sp s e) (r r' : Rect s) (f : v.ty.Contents Val) (w : r.shape.Idx → Val e)
    (w' : r'.shape.Idx → Val e) (x : r.shape.Idx) (i : s.Idx) (hi : i = r.emb x) (h : i ∉ r'.set) :
    v.read Val ((v.slice r').write Val ((v.slice r).write Val f w Finset.univ) w' Finset.univ) i = w x := by
  subst hi
  rw [View.read_slice_write_of_not_mem r' _ _ _ (by rw [Rect.map_emb_univ]; exact h),
    View.read_slice_write_emb r _ _ (Finset.mem_univ x)]

/-- an element of the second reads the second. -/
theorem read_two_writes_snd_r2 (v : View sg κ sp s e) (r r' : Rect s) (f : v.ty.Contents Val) (w : r.shape.Idx → Val e)
    (w' : r'.shape.Idx → Val e) (x : r'.shape.Idx) (i : s.Idx) (hi : i = r'.emb x) :
    v.read Val ((v.slice r').write Val ((v.slice r).write Val f w Finset.univ) w' Finset.univ) i = w' x := by
  subst hi
  exact View.read_slice_write_emb r' _ _ (Finset.mem_univ x)
end TwoWrites

theorem arrAt2_6_keep (c : Dev nD) : ∀ (n m : ℕ), m ≤ n → n ≤ 16 → (∀ k, m ≤ k → k < n → k % 8 ≠ 7) →
    (rdat2 V c).ArrAt 6 n = (rdat2 V c).ArrAt 6 m
  | 0, m, hm, _, _ => by obtain rfl := Nat.le_zero.mp hm; rfl
  | n + 1, m, hm, hn, hk => by
    rcases Nat.eq_or_lt_of_le hm with e | hlt
    · rw [e]
    · have hN : n < cfg2.N := by show n < grid2.N; rw [N_2]; omega
      have hs := (rdat2 V c).ArrAt_succ 6 ⟨n, hN⟩
      rw [if_neg (fun hf => hk n (by omega) (by omega) ((flush2_6 ⟨n, hN⟩).mp hf))] at hs
      exact hs.trans (arrAt2_6_keep c n m (by omega) (by omega) fun k h1 h2 => hk k h1 (by omega))

/-- After the launch a statistics array is its entry contents with core 0's block, then core 1's, written over it, each from
    a buffer whose row 0 is the core's fold. -/
theorem arrAt2_6_form (c : Dev nD) (G : Buf (Elt F) ((cfg2.win 6).arr.view.loc (c.tc : Thread nD τ)))
    (h : (rdat2 V c).ArrAt 6 cfg2.N G) :
    ∃ X X', View.ld X r2row = r2sum V c 0 7 (by omega) ∧ View.ld X' r2row = r2sum V c 1 7 (by omega) ∧
      G = ((cfg2.win 6).arr.view.slice ((cfg2.win 6).rect t2_15)).write (Elt F)
            (((cfg2.win 6).arr.view.slice ((cfg2.win 6).rect t2_7)).write (Elt F) ((rdat2 V c).A 6)
              ((cfg2.win 6).cut (cfg2.grid.coords t2_7) X) Finset.univ)
            ((cfg2.win 6).cut (cfg2.grid.coords t2_15) X') Finset.univ := by
  have e16 := (rdat2 V c).ArrAt_succ 6 t2_15
  rw [if_pos ((flush2_6 t2_15).mpr rfl)] at e16
  have h1 : (rdat2 V c).ArrStep 6 t2_15 ((rdat2 V c).ArrAt 6 15) G := Eq.mp (congrFun e16 G) h
  obtain ⟨G₁, X', hG₁, hX', rfl⟩ := h1
  have e15 := arrAt2_6_keep V c 15 8 (by omega) (by omega) (by intro k h1 h2; omega)
  have e8 := (rdat2 V c).ArrAt_succ 6 t2_7
  rw [if_pos ((flush2_6 t2_7).mpr rfl)] at e8
  have h2 : (rdat2 V c).ArrStep 6 t2_7 ((rdat2 V c).ArrAt 6 7) G₁ := Eq.mp (congrFun (e15.trans e8) G₁) hG₁
  obtain ⟨G₀, X, hG₀, hX, rfl⟩ := h2
  have e7 := arrAt2_6_keep V c 7 0 (by omega) (by omega) (by intro k h1 h2; omega)
  have h3 : G₀ = (rdat2 V c).A 6 := Eq.mp (congrFun e7 G₀) hG₀
  subst h3
  exact ⟨X, X', leaves2_6 V c 0 7 (by omega) X hX, leaves2_6 V c 1 7 (by omega) X' hX', rfl⟩

theorem arrAt2_7_keep (c : Dev nD) : ∀ (n m : ℕ), m ≤ n → n ≤ 16 → (∀ k, m ≤ k → k < n → k % 8 ≠ 7) →
    (rdat2 V c).ArrAt 7 n = (rdat2 V c).ArrAt 7 m
  | 0, m, hm, _, _ => by obtain rfl := Nat.le_zero.mp hm; rfl
  | n + 1, m, hm, hn, hk => by
    rcases Nat.eq_or_lt_of_le hm with e | hlt
    · rw [e]
    · have hN : n < cfg2.N := by show n < grid2.N; rw [N_2]; omega
      have hs := (rdat2 V c).ArrAt_succ 7 ⟨n, hN⟩
      rw [if_neg (fun hf => hk n (by omega) (by omega) ((flush2_7 ⟨n, hN⟩).mp hf))] at hs
      exact hs.trans (arrAt2_7_keep c n m (by omega) (by omega) fun k h1 h2 => hk k h1 (by omega))

/-- After the launch a statistics array is its entry contents with core 0's block, then core 1's, written over it, each from
    a buffer whose row 0 is the core's fold. -/
theorem arrAt2_7_form (c : Dev nD) (G : Buf (Elt F) ((cfg2.win 7).arr.view.loc (c.tc : Thread nD τ)))
    (h : (rdat2 V c).ArrAt 7 cfg2.N G) :
    ∃ X X', View.ld X r2row = r2sumsq V c 0 7 (by omega) ∧ View.ld X' r2row = r2sumsq V c 1 7 (by omega) ∧
      G = ((cfg2.win 7).arr.view.slice ((cfg2.win 7).rect t2_15)).write (Elt F)
            (((cfg2.win 7).arr.view.slice ((cfg2.win 7).rect t2_7)).write (Elt F) ((rdat2 V c).A 7)
              ((cfg2.win 7).cut (cfg2.grid.coords t2_7) X) Finset.univ)
            ((cfg2.win 7).cut (cfg2.grid.coords t2_15) X') Finset.univ := by
  have e16 := (rdat2 V c).ArrAt_succ 7 t2_15
  rw [if_pos ((flush2_7 t2_15).mpr rfl)] at e16
  have h1 : (rdat2 V c).ArrStep 7 t2_15 ((rdat2 V c).ArrAt 7 15) G := Eq.mp (congrFun e16 G) h
  obtain ⟨G₁, X', hG₁, hX', rfl⟩ := h1
  have e15 := arrAt2_7_keep V c 15 8 (by omega) (by omega) (by intro k h1 h2; omega)
  have e8 := (rdat2 V c).ArrAt_succ 7 t2_7
  rw [if_pos ((flush2_7 t2_7).mpr rfl)] at e8
  have h2 : (rdat2 V c).ArrStep 7 t2_7 ((rdat2 V c).ArrAt 7 7) G₁ := Eq.mp (congrFun (e15.trans e8) G₁) hG₁
  obtain ⟨G₀, X, hG₀, hX, rfl⟩ := h2
  have e7 := arrAt2_7_keep V c 7 0 (by omega) (by omega) (by intro k h1 h2; omega)
  have h3 : G₀ = (rdat2 V c).A 7 := Eq.mp (congrFun e7 G₀) hG₀
  subst h3
  exact ⟨X, X', leaves2_7 V c 0 7 (by omega) X hX, leaves2_7 V c 1 7 (by omega) X' hX', rfl⟩

end Arr4

section Arr5

section RowApply
/-- The host's row slices at an index. -/
theorem row0_apply_r2 (X : (⟨S16x128, .f32⟩ : BufTy).Contents (Elt F)) (x : S1x128.Idx) :
    row0 X x = X (ix2 (⟨(x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 0 + (x 0).val = (x 0).val; omega)
  | ⟨1, _⟩ => exact Fin.ext (by show 0 + (x 1).val = (x 1).val; omega)
theorem row8_apply_r2 (X : (⟨S16x128, .f32⟩ : BufTy).Contents (Elt F)) (x : S1x128.Idx) :
    row8 X x = X (ix2 (⟨8 + (x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 8 + (x 0).val = 8 + (x 0).val; omega)
  | ⟨1, _⟩ => exact Fin.ext (by show 0 + (x 1).val = (x 1).val; omega)
end RowApply

/-- Rows 0 and 8 of the array after the launch are the two cores' folds. -/
theorem arrAt2_6_rows (c : Dev nD) (G : Buf (Elt F) ((cfg2.win 6).arr.view.loc (c.tc : Thread nD τ)))
    (h : (rdat2 V c).ArrAt 6 cfg2.N G) : row0 G = r2sum V c 0 7 (by omega) ∧ row8 G = r2sum V c 1 7 (by omega) := by
  obtain ⟨X, X', hX, hX', rfl⟩ := arrAt2_6_form V c G h
  constructor
  · funext x
    have hx0 : (x 0).val < 1 := (x 0).isLt
    rw [← hX, row0_apply_r2]
    have hi : ix2 (⟨(x 0).val, by omega⟩ : Fin 16) (⟨(x 1).val, (x 1).isLt⟩ : Fin 128) = ((cfg2.win 6).rect t2_7).emb (r2row.emb x) := by
      funext a; apply Fin.ext
      rw [Window.rect_emb_val, index2_6]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg2.win 6).rect t2_15).set := by
      intro hm
      have h0 := (Rect.mem_set_unit.mp hm 0).1
      rw [index2_6] at h0
      have h0' : 1 * 8 ≤ (x 0).val := h0
      omega
    exact read_two_writes_fst_r2 (Val := Elt F) (cfg2.win 6).arr.view ((cfg2.win 6).rect t2_7) ((cfg2.win 6).rect t2_15) ((rdat2 V c).A 6)
      ((cfg2.win 6).cut (cfg2.grid.coords t2_7) X) ((cfg2.win 6).cut (cfg2.grid.coords t2_15) X') (r2row.emb x) _ hi hnot
  · funext x
    have hx0 : (x 0).val < 1 := (x 0).isLt
    rw [← hX', row8_apply_r2]
    have hi : ix2 (⟨8 + (x 0).val, by omega⟩ : Fin 16) (⟨(x 1).val, (x 1).isLt⟩ : Fin 128) = ((cfg2.win 6).rect t2_15).emb (r2row.emb x) := by
      funext a; apply Fin.ext
      rw [Window.rect_emb_val, index2_6]
      match a with
      | ⟨0, _⟩ => show 8 + (x 0).val = 1 * 8 + (0 + 1 * (x 0).val); omega
      | ⟨1, _⟩ => show (x 1).val = 0 * 128 + (0 + 1 * (x 1).val); omega
    exact read_two_writes_snd_r2 (Val := Elt F) (cfg2.win 6).arr.view ((cfg2.win 6).rect t2_7) ((cfg2.win 6).rect t2_15) ((rdat2 V c).A 6)
      ((cfg2.win 6).cut (cfg2.grid.coords t2_7) X) ((cfg2.win 6).cut (cfg2.grid.coords t2_15) X') (r2row.emb x) _ hi

/-- Rows 0 and 8 of the array after the launch are the two cores' folds. -/
theorem arrAt2_7_rows (c : Dev nD) (G : Buf (Elt F) ((cfg2.win 7).arr.view.loc (c.tc : Thread nD τ)))
    (h : (rdat2 V c).ArrAt 7 cfg2.N G) : row0 G = r2sumsq V c 0 7 (by omega) ∧ row8 G = r2sumsq V c 1 7 (by omega) := by
  obtain ⟨X, X', hX, hX', rfl⟩ := arrAt2_7_form V c G h
  constructor
  · funext x
    have hx0 : (x 0).val < 1 := (x 0).isLt
    rw [← hX, row0_apply_r2]
    have hi : ix2 (⟨(x 0).val, by omega⟩ : Fin 16) (⟨(x 1).val, (x 1).isLt⟩ : Fin 128) = ((cfg2.win 7).rect t2_7).emb (r2row.emb x) := by
      funext a; apply Fin.ext
      rw [Window.rect_emb_val, index2_7]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg2.win 7).rect t2_15).set := by
      intro hm
      have h0 := (Rect.mem_set_unit.mp hm 0).1
      rw [index2_7] at h0
      have h0' : 1 * 8 ≤ (x 0).val := h0
      omega
    exact read_two_writes_fst_r2 (Val := Elt F) (cfg2.win 7).arr.view ((cfg2.win 7).rect t2_7) ((cfg2.win 7).rect t2_15) ((rdat2 V c).A 7)
      ((cfg2.win 7).cut (cfg2.grid.coords t2_7) X) ((cfg2.win 7).cut (cfg2.grid.coords t2_15) X') (r2row.emb x) _ hi hnot
  · funext x
    have hx0 : (x 0).val < 1 := (x 0).isLt
    rw [← hX', row8_apply_r2]
    have hi : ix2 (⟨8 + (x 0).val, by omega⟩ : Fin 16) (⟨(x 1).val, (x 1).isLt⟩ : Fin 128) = ((cfg2.win 7).rect t2_15).emb (r2row.emb x) := by
      funext a; apply Fin.ext
      rw [Window.rect_emb_val, index2_7]
      match a with
      | ⟨0, _⟩ => show 8 + (x 0).val = 1 * 8 + (0 + 1 * (x 0).val); omega
      | ⟨1, _⟩ => show (x 1).val = 0 * 128 + (0 + 1 * (x 1).val); omega
    exact read_two_writes_snd_r2 (Val := Elt F) (cfg2.win 7).arr.view ((cfg2.win 7).rect t2_7) ((cfg2.win 7).rect t2_15) ((rdat2 V c).A 7)
      ((cfg2.win 7).cut (cfg2.grid.coords t2_7) X) ((cfg2.win 7).cut (cfg2.grid.coords t2_15) X') (r2row.emb x) _ hi

/-- A canonical statistics array: every row of a core's eight is that core's fold (only rows 0 and 8 are ever read). -/
def sumArr2 (c : Dev nD) : Buf (Elt F) ((cfg2.win 6).arr.view.loc (c.tc : Thread nD τ)) :=
  fun (j : S16x128.Idx) => r2sum V c ⟨(j 0).val / 8, by have := ValueIdx.idx2_lt0 j; omega⟩ 7 (by omega) (ix2 (0 : Fin 1) (j 1))

theorem row0_sumArr2 (c : Dev nD) : row0 (sumArr2 V c) = r2sum V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row0_apply_r2]
  show r2sum V c ⟨(x 0).val / 8, _⟩ 7 _ (ix2 (0 : Fin 1) (⟨(x 1).val, _⟩ : Fin 128)) = _
  rw [e1, e2]

theorem row8_sumArr2 (c : Dev nD) : row8 (sumArr2 V c) = r2sum V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row8_apply_r2]
  show r2sum V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt2_6 (c : Dev nD) (G : Buf (Elt F) ((cfg2.win 6).arr.view.loc (c.tc : Thread nD τ)))
    (h : (rdat2 V c).ArrAt 6 cfg2.N G) : row0 G = row0 (sumArr2 V c) ∧ row8 G = row8 (sumArr2 V c) := by
  rw [row0_sumArr2, row8_sumArr2]; exact arrAt2_6_rows V c G h

/-- A canonical statistics array: every row of a core's eight is that core's fold (only rows 0 and 8 are ever read). -/
def sqArr2 (c : Dev nD) : Buf (Elt F) ((cfg2.win 7).arr.view.loc (c.tc : Thread nD τ)) :=
  fun (j : S16x128.Idx) => r2sumsq V c ⟨(j 0).val / 8, by have := ValueIdx.idx2_lt0 j; omega⟩ 7 (by omega) (ix2 (0 : Fin 1) (j 1))

theorem row0_sqArr2 (c : Dev nD) : row0 (sqArr2 V c) = r2sumsq V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row0_apply_r2]
  show r2sumsq V c ⟨(x 0).val / 8, _⟩ 7 _ (ix2 (0 : Fin 1) (⟨(x 1).val, _⟩ : Fin 128)) = _
  rw [e1, e2]

theorem row8_sqArr2 (c : Dev nD) : row8 (sqArr2 V c) = r2sumsq V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [row8_apply_r2]
  show r2sumsq V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt2_7 (c : Dev nD) (G : Buf (Elt F) ((cfg2.win 7).arr.view.loc (c.tc : Thread nD τ)))
    (h : (rdat2 V c).ArrAt 7 cfg2.N G) : row0 G = row0 (sqArr2 V c) ∧ row8 G = row8 (sqArr2 V c) := by
  rw [row0_sqArr2, row8_sqArr2]; exact arrAt2_7_rows V c G h

/-! ### The folds, written out: the zero row, then the eight blocks' column sums added in point order -/

theorem r2sum_core0 (c : Dev nD) : r2sum V c 0 7 (by omega) = r2acc (r2acc (r2acc (r2acc (r2acc (r2acc (r2acc (r2acc r2zrow (yat2 V c t2_0)) (yat2 V c t2_1)) (yat2 V c t2_2)) (yat2 V c t2_3)) (yat2 V c t2_4)) (yat2 V c t2_5)) (yat2 V c t2_6)) (yat2 V c t2_7) := rfl
theorem r2sum_core1 (c : Dev nD) : r2sum V c 1 7 (by omega) = r2acc (r2acc (r2acc (r2acc (r2acc (r2acc (r2acc (r2acc r2zrow (yat2 V c t2_8)) (yat2 V c t2_9)) (yat2 V c t2_10)) (yat2 V c t2_11)) (yat2 V c t2_12)) (yat2 V c t2_13)) (yat2 V c t2_14)) (yat2 V c t2_15) := rfl
theorem r2sumsq_core0 (c : Dev nD) : r2sumsq V c 0 7 (by omega) = r2accsq (r2accsq (r2accsq (r2accsq (r2accsq (r2accsq (r2accsq (r2accsq r2zrow (yat2 V c t2_0)) (yat2 V c t2_1)) (yat2 V c t2_2)) (yat2 V c t2_3)) (yat2 V c t2_4)) (yat2 V c t2_5)) (yat2 V c t2_6)) (yat2 V c t2_7) := rfl
theorem r2sumsq_core1 (c : Dev nD) : r2sumsq V c 1 7 (by omega) = r2accsq (r2accsq (r2accsq (r2accsq (r2accsq (r2accsq (r2accsq (r2accsq r2zrow (yat2 V c t2_8)) (yat2 V c t2_9)) (yat2 V c t2_10)) (yat2 V c t2_11)) (yat2 V c t2_12)) (yat2 V c t2_13)) (yat2 V c t2_14)) (yat2 V c t2_15) := rfl

/-! ### Window 5: the whole array -/

/-- The array of `y`: row block `p` is the block of `y` at point `p`. -/
def yArr2 (c : Dev nD) : Buf (Elt F) ((cfg2.win 5).arr.view.loc (c.tc : Thread nD τ)) :=
  fun (j : S65536x128.Idx) => yat2 V c ⟨(j 0).val / 4096, by have := ValueIdx.idx2_lt0 j; show _ < grid2.N; rw [N_2]; omega⟩
    (ix2 (⟨(j 0).val % 4096, Nat.mod_lt _ (by decide)⟩ : Fin 4096) (j 1))

theorem yArr2_apply (c : Dev nD) (p : Fin 16) (q : Fin 4096) (j : Fin 128) :
    yArr2 V c (ix2 (⟨p.val * 4096 + q.val, by have := p.isLt; have := q.isLt; omega⟩ : Fin 65536) j)
      = yat2 V c ⟨p.val, by show _ < grid2.N; rw [N_2]; exact p.isLt⟩ (ix2 q j) := by
  have e1 : (⟨(p.val * 4096 + q.val) / 4096, by have := p.isLt; have := q.isLt; show _ < grid2.N; rw [N_2]; omega⟩ : Fin cfg2.N)
      = ⟨p.val, by show _ < grid2.N; rw [N_2]; exact p.isLt⟩ := Fin.ext (by have := q.isLt; show (p.val * 4096 + q.val) / 4096 = p.val; omega)
  have e2 : (⟨(p.val * 4096 + q.val) % 4096, Nat.mod_lt _ (by decide)⟩ : Fin 4096) = q :=
    Fin.ext (by have := q.isLt; show (p.val * 4096 + q.val) % 4096 = q.val; omega)
  show yat2 V c ⟨(p.val * 4096 + q.val) / 4096, _⟩ (ix2 (⟨(p.val * 4096 + q.val) % 4096, _⟩ : Fin 4096) j) = _
  rw [e1, e2]

theorem arrAt2_5 (c : Dev nD) (G : Buf (Elt F) ((cfg2.win 5).arr.view.loc (c.tc : Thread nD τ)))
    (h : (rdat2 V c).ArrAt 5 cfg2.N G) : G = yArr2 V c := by
  funext (j : S65536x128.Idx)
  have hj := ValueIdx.idx2_lt0 j
  let u : Fin cfg2.N := ⟨(j 0).val / 4096, by show _ < grid2.N; rw [N_2]; omega⟩
  let x : S4096x128.Idx := ix2 (⟨(j 0).val % 4096, Nat.mod_lt _ (by decide)⟩ : Fin 4096) (j 1)
  have hb := congrFun (arrAt2_5_blk V c cfg2.N (le_of_eq N_2) G h u u.isLt) x
  have hjx : ((cfg2.win 5).rect u).emb x = j := by
    funext a; apply Fin.ext
    rw [Window.rect_emb_val, index2_5]
    match a with
    | ⟨0, _⟩ => show (j 0).val / 4096 * 4096 + (j 0).val % 4096 = (j 0).val; omega
    | ⟨1, _⟩ => show 0 * 128 + (j 1).val = (j 1).val; omega
  have hr : ((cfg2.win 5).blk u).view.read (Elt F) G x = G (((cfg2.win 5).rect u).emb x) := rfl
  rw [hr, hjx] at hb
  exact hb
end Arr5

end Cert.Kernel.Hand
end
-- ==== Proof.HandK.P2r3.lean ====
import proofs.«103476_j5987184410999_2_alg».proof.Proof.Gen.Kernel.Launch
import proofs.«103476_j5987184410999_2_alg».proof.Proof.Gen.Kernel.Skeleton
import proofs.«103476_j5987184410999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 x 128 extents: the elaborator's structural look recurses once per
-- coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 3 of @main: custom_call 3, `cc3__pass2_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for ANY proof
    data whose array is `V`'s (`hA`) and whose body leaves the block in place (`hafter`): unfetched, the block
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for ANY proof
    data whose array is `V`'s (`hA`) and whose body leaves the block in place (`hafter`): unfetched, the block
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for ANY proof
    data whose array is `V`'s (`hA`) and whose body leaves the block in place (`hafter`): unfetched, the block
    index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for ANY proof
    data whose array is `V`'s (`hA`) and whose body leaves the block in place (`hafter`): unfetched, the block
    index has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S4096x128 := Rect.unit (s := S4096x128) ![0, 0] S4096x128.size inb_S4096x128_S4096x128_0_0
abbrev r3_1 : Rect S1x128 := Rect.unit (s := S1x128) ![0, 0] S1x128.size inb_S1x128_S1x128_0_0

/-! ## What the body leaves in the output window's buffer -/

/-- Window 5's staging buffer after the body, from the input windows' blocks (the normalised block, the mean,
    the inverse deviation, the scale, the shift): its one store as a piece (`View.canon`; the payload is the
    skeleton's, its arguments in the order the body loads them). -/
def out3_5 (x0 : Vec F S4096x128 .f32) (x1 x2 x3 x4 : Vec F S1x128 .f32) : Vec F S4096x128 .f32 :=
  View.canon [⟨r3_0, k3_pay1 (View.ld x0 r3_0) (View.ld x3 r3_1) (View.ld x1 r3_1) (View.ld x2 r3_1) (View.ld x4 r3_1)⟩]

/-- The store tiles the buffer, so it covers it. -/
theorem cover3_5 (p0 : Vec F S4096x128 .f32) (y : S4096x128.Idx) :
    ∃ pc ∈ ([⟨r3_0, p0⟩] : List (View.Piece (Elt F) S4096x128 .f32)), y ∈ pc.1.set :=
  View.cover_of_tiled [⟨r3_0, p0⟩] S4096x128.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords)
    (arg1 : Memref sig .tc .vmem S4096x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4096x128 .f32) (harg6 : arg6.IsWhole)
    (x0 : Vec F S4096x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__pass2_kernel i arg1 harg1 arg2 harg2 arg3 harg3 arg4 harg4 arg5 harg5 arg6 harg6) K := by
  simp only [cc3__pass2_kernel_eq_skeleton]; unfold cc3__pass2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant the
    class's (`Pipeline.ΦA`: the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.HandK.ChainDefs1.lean ====
/-
  The canonical contents of the TensorCore's buffers around network node 1: after host stretch 2, after its statistics pass (region 2;
  the two statistics arrays at a canonical completion of their undefined rows), after host stretch 3, after its normalisation pass (region 3).
-/
import proofs.«103476_j5987184410999_2_alg».proof.Proof.HandK.ChainDefs0
import proofs.«103476_j5987184410999_2_alg».proof.Proof.HandK.P1r2Arr
import proofs.«103476_j5987184410999_2_alg».proof.Proof.HandK.P2r3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-- After host stretch 2: what region 2 is entered from. -/
def W5 (c : Dev nD) : Valuation τ sig (Elt F) := StableHlo.after hostOps2 (W4 m c)
abbrev E2 : (c : Dev nD) → (b : Ref sig .tc) → Buf (Elt F) ((c : Thread nD τ).loc b) := fun c b => W5 m c b
/-- What region 2 leaves in its arrays: the inputs as found, the product array, and the two statistics arrays at their
    canonical completion. -/
def GA2 (c : Dev nD) : (w : Fin cfg2.W) → Buf (Elt F) ((cfg2.win w).arr.view.loc (c.tc : Thread nD τ))
  | ⟨0, _⟩ => E2 m c (Pipeline.arrRef spec2 0)
  | ⟨1, _⟩ => E2 m c (Pipeline.arrRef spec2 1)
  | ⟨2, _⟩ => E2 m c (Pipeline.arrRef spec2 2)
  | ⟨3, _⟩ => E2 m c (Pipeline.arrRef spec2 3)
  | ⟨4, _⟩ => E2 m c (Pipeline.arrRef spec2 4)
  | ⟨5, _⟩ => yArr2 (E2 m) c
  | ⟨6, _⟩ => sumArr2 (E2 m) c
  | ⟨7, _⟩ => sqArr2 (E2 m) c
def W6 (c : Dev nD) : Valuation τ sig (Elt F) := Pipeline.withArrays spec2 c (W5 m c) (GA2 m c)
/-- After host stretch 3: what region 3 is entered from. -/
def W7 (c : Dev nD) : Valuation τ sig (Elt F) := StableHlo.after hostOps3 (W6 m c)
abbrev E3 : (c : Dev nD) → (b : Ref sig .tc) → Buf (Elt F) ((c : Thread nD τ).loc b) := fun c b => W7 m c b
/-- What region 3 leaves in its arrays. -/
def GA3 (c : Dev nD) (w : Fin cfg3.W) : Buf (Elt F) ((cfg3.win w).arr.view.loc (c.tc : Thread nD τ)) := (dat3 (E3 m) c).arrAt w cfg3.N
def W8 (c : Dev nD) : Valuation τ sig (Elt F) := Pipeline.withArrays spec3 c (W7 m c) (GA3 m c)

end Cert.Kernel.Hand

end
-- ==== Proof.HandK.P1r4.lean ====
/- Region 4 (the first pass-1 launch whose input arrives split in two halves) as RELATIONAL proof data, with its body
   obligation.

   The body computes a block of `y` from seven input blocks (the two halves of `x`, the two halves of the first weight,
   the first bias, the second weight and bias), stores it whole, and adds its column sums (and those of its square) into
   ROW 0 of two 8-row statistics blocks, which it first zeroes at the first point of each core's run of eight.
   Rows 1 to 7 of those blocks are never stored: what the body leaves there is what it found. So the data relates what the
   body finds in a buffer to what it leaves, and for the statistics blocks constrains row 0 only. -/
import proofs.«103476_j5987184410999_2_alg».proof.Proof.Gen.Kernel.Launch
import proofs.«103476_j5987184410999_2_alg».proof.Proof.Gen.Kernel.Skeleton
import proofs.«103476_j5987184410999_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## Region 4 (a pass-1 launch over a split input): names -/

/-- The condition of the body's one `scf.if`, from the grid coordinates (the skeleton's scalar chain substituted):
    the inner coordinate is zero. -/
abbrev r4cond (i : grid4.Coords) : Prop :=
  (Scalar.cmpi .ne (Scalar.extui (Scalar.cmpi .eq (BitVec.ofNat 32 (i 1).val) 0#32)) 0#32) = 1#1

/-- It holds at the first point of each core's run of eight: decided over the grid. -/
theorem r4cond_iff : ∀ t : Fin cfg4.N, r4cond (grid4.coords t) ↔ t.val % 8 = 0 :=
  (by decide +kernel : ∀ t : Fin grid4.N, r4cond (grid4.coords t) ↔ t.val % 8 = 0)

/-- Row 0 of a statistics block: the rectangle every load and store of the two accumulators goes through. -/
abbrev r4row : Rect S8x128 := Rect.unit (s := S8x128) ![0, 0] S1x128.size inb_S8x128_S1x128_0_0

/-- The row of zeros the body stores at the first point of a core's run. -/
def r4zrow : FVec F S1x128 .f32 := broadcast S1x128 (Scalar.ofBits .f32 0x00000000#32)

/-- One accumulation step: the row found plus the column sums of `y` (the reduction along axis 0 from the zero word). -/
def r4acc (r : Vec F S1x128 .f32) (y : FVec F S4096x128 .f32) : FVec F S1x128 .f32 :=
  addf (shapeCast S1x128 r shapeCasts_S1x128_S1x128)
    (shapeCast S1x128 (multiReduction .add [0] S128 y 0x00000000#32 reduces_S4096x128_S128 (.inl rfl) rfl) shapeCasts_S128_S1x128)

/-- The same of the squares. -/
def r4accsq (r : Vec F S1x128 .f32) (y : FVec F S4096x128 .f32) : FVec F S1x128 .f32 := r4acc r (mulf y y)

/-- The block of `y` the body computes from its seven input blocks: `relu(xa·Wa + xb·Wb + b1)·W2 + b2` with the matrix
    operands rounded to bf16 (the skeleton's payload). -/
def yblk4 (xa xb : Vec F S4096x128 .f32) (wa wb : Vec F S128x256 .f32) (b1 : Vec F S1x256 .f32) (w2 : Vec F S256x128 .f32)
    (b2 : Vec F S1x128 .f32) : Vec F S4096x128 .f32 := k4_pay5 xa xb wa wb b1 w2 b2

theorem k4_pay1_eq (y : FVec F S4096x128 .f32) (r : Vec F S1x128 .f32) : k4_pay1 y r = r4acc r y := rfl
theorem k4_pay2_eq (y : FVec F S4096x128 .f32) (r : Vec F S1x128 .f32) : k4_pay2 y r = r4accsq r y := rfl
theorem k4_pay3_eq : k4_pay3 (F := F) = r4zrow := rfl
theorem k4_pay4_eq : k4_pay4 (F := F) = r4zrow := rfl

theorem r4zeros2 : (![0, 0] : Fin 2 → ℕ) = fun _ => 0 := by funext a; fin_cases a <;> rfl

section WholeRect
variable {sg : RefSig} {κ : Kind} {sp : Space} {S : Shape} {e : EltTy} {Val : EltTy → Type}

/-- A load through the whole-shape rectangle at zero offsets reads the view's contents. -/
theorem r4readAt_unit_zero (v : View sg κ sp S e) {off : Fin S.rank → ℕ} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

/-- One store through it leaves its payload, whatever the buffer held. -/
theorem r4read_writes_unit_zero (v : View sg κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end WholeRect

theorem r4readAt_S4096x128 {sp : Space} (v : View sig .tc sp S4096x128 .f32) (f : v.ty.Contents (Elt F)) :
    v.readAt (Elt F) (Rect.unit (s := S4096x128) ![0, 0] S4096x128.size inb_S4096x128_S4096x128_0_0).toLoadRect f = v.read (Elt F) f :=
  r4readAt_unit_zero v r4zeros2 _ f
theorem r4readAt_S128x256 {sp : Space} (v : View sig .tc sp S128x256 .f32) (f : v.ty.Contents (Elt F)) :
    v.readAt (Elt F) (Rect.unit (s := S128x256) ![0, 0] S128x256.size inb_S128x256_S128x256_0_0).toLoadRect f = v.read (Elt F) f :=
  r4readAt_unit_zero v r4zeros2 _ f
theorem r4readAt_S1x256 {sp : Space} (v : View sig .tc sp S1x256 .f32) (f : v.ty.Contents (Elt F)) :
    v.readAt (Elt F) (Rect.unit (s := S1x256) ![0, 0] S1x256.size inb_S1x256_S1x256_0_0).toLoadRect f = v.read (Elt F) f :=
  r4readAt_unit_zero v r4zeros2 _ f
theorem r4readAt_S256x128 {sp : Space} (v : View sig .tc sp S256x128 .f32) (f : v.ty.Contents (Elt F)) :
    v.readAt (Elt F) (Rect.unit (s := S256x128) ![0, 0] S256x128.size inb_S256x128_S256x128_0_0).toLoadRect f = v.read (Elt F) f :=
  r4readAt_unit_zero v r4zeros2 _ f
theorem r4readAt_S1x128 {sp : Space} (v : View sig .tc sp S1x128 .f32) (f : v.ty.Contents (Elt F)) :
    v.readAt (Elt F) (Rect.unit (s := S1x128) ![0, 0] S1x128.size inb_S1x128_S1x128_0_0).toLoadRect f = v.read (Elt F) f :=
  r4readAt_unit_zero v r4zeros2 _ f

/-- The whole-block store of window 7 leaves its payload. -/
theorem r4read_whole_store {sp : Space} (v : View sig .tc sp S4096x128 .f32) (f : v.ty.Contents (Elt F)) (w : Vec F S4096x128 .f32) :
    v.read (Elt F) (v.writes (Elt F) f [⟨Rect.unit (s := S4096x128) ![0, 0] S4096x128.size inb_S4096x128_S4096x128_0_0, w⟩]) = w :=
  r4read_writes_unit_zero v r4zeros2 _ f w []

/-- Row 0 after a store through row 0, whatever was stored before. -/
theorem r4ld_row_store {sp : Space} (v : View sig .tc sp S8x128 .f32) (f : v.ty.Contents (Elt F)) (w : Vec F S1x128 .f32)
    (L : List (View.Piece (Elt F) S8x128 .f32)) :
    View.ld (v.read (Elt F) (v.writes (Elt F) f (⟨r4row, w⟩ :: L))) r4row = w :=
  funext fun x => View.read_writes_cons_emb v f r4row w L x

/-! ## The body's two runs, over arbitrary staging contents -/

set_option maxHeartbeats 1000000 in
/-- The body at a point that is not the first of its core's run: row 0 of each statistics block is the row found plus the sums. -/
theorem sound_kernel4_later (c : Dev nD) (i : grid4.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : ¬r4cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk4 x0 x1 x2 x3 x4 x5 x6)
            ∗ (∃ X, ⌜View.ld X r4row = r4acc (View.ld y8 r4row) (yblk4 x0 x1 x2 x3 x4 x5 x6)⌝ ∗ owns (c : Thread nD τ) arg10 fullShare X)
            ∗ (∃ X, ⌜View.ld X r4row = r4accsq (View.ld y9 r4row) (yblk4 x0 x1 x2 x3 x4 x5 x6)⌝ ∗ owns (c : Thread nD τ) arg11 fullShare X)) -∗ K ⟨⟩))
      ⊢ wp frame (wpE (defs₀ (F := F)) Variants.none c none) E (cc4__pass1_kernel_split i arg2 harg2 arg3 harg3 arg4 harg4 arg5 harg5 arg6 harg6 arg7 harg7 arg8 harg8 arg9 harg9 arg10 harg10 arg11 harg11) K := by
  simp only [cc4__pass1_kernel_split_eq_skeleton]; unfold cc4__pass1_kernel_split_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r4readAt_S4096x128, r4readAt_S4096x128, r4readAt_S128x256, r4readAt_S128x256, r4readAt_S1x256, r4readAt_S256x128, r4readAt_S1x128]
    exact r4read_whole_store (F := F) _ _ _
  isplitl [H8]
  · iexists _; isplitr; swap
    · iexists _; isplitr; swap; · iexact H8
      ipureintro; rfl
    ipureintro
    rw [r4readAt_S4096x128, r4readAt_S4096x128, r4readAt_S128x256, r4readAt_S128x256, r4readAt_S1x256, r4readAt_S256x128, r4readAt_S1x128]
    rw [k4_pay1_eq]
    exact r4ld_row_store (F := F) _ _ _ _
  · iexists _; isplitr; swap
    · iexists _; isplitr; swap; · iexact H9
      ipureintro; rfl
    ipureintro
    rw [r4readAt_S4096x128, r4readAt_S4096x128, r4readAt_S128x256, r4readAt_S128x256, r4readAt_S1x256, r4readAt_S256x128, r4readAt_S1x128]
    rw [k4_pay2_eq]
    exact r4ld_row_store (F := F) _ _ _ _

set_option maxHeartbeats 1000000 in
/-- The body at the first point of a core's run: row 0 of each statistics block is the zero row plus the sums. -/
theorem sound_kernel4_first (c : Dev nD) (i : grid4.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : r4cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk4 x0 x1 x2 x3 x4 x5 x6)
            ∗ (∃ X, ⌜View.ld X r4row = r4acc r4zrow (yblk4 x0 x1 x2 x3 x4 x5 x6)⌝ ∗ owns (c : Thread nD τ) arg10 fullShare X)
            ∗ (∃ X, ⌜View.ld X r4row = r4accsq r4zrow (yblk4 x0 x1 x2 x3 x4 x5 x6)⌝ ∗ owns (c : Thread nD τ) arg11 fullShare X)) -∗ K ⟨⟩))
      ⊢ wp frame (wpE (defs₀ (F := F)) Variants.none c none) E (cc4__pass1_kernel_split i arg2 harg2 arg3 harg3 arg4 harg4 arg5 harg5 arg6 harg6 arg7 harg7 arg8 harg8 arg9 harg9 arg10 harg10 arg11 harg11) K := by
  simp only [cc4__pass1_kernel_split_eq_skeleton]; unfold cc4__pass1_kernel_split_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r4readAt_S4096x128, r4readAt_S4096x128, r4readAt_S128x256, r4readAt_S128x256, r4readAt_S1x256, r4readAt_S256x128, r4readAt_S1x128]
    exact r4read_whole_store (F := F) _ _ _
  isplitl [H8]
  · iexists _; isplitr; swap
    · iexists _; isplitr; swap; · iexact H8
      ipureintro; rfl
    ipureintro
    rw [r4readAt_S4096x128, r4readAt_S4096x128, r4readAt_S128x256, r4readAt_S128x256, r4readAt_S1x256, r4readAt_S256x128, r4readAt_S1x128]
    rw [k4_pay1_eq]
    refine (r4ld_row_store (F := F) _ _ _ _).trans ?_
    congr 1
    sl_unfold_run_names
    exact View.readCov_cons_toLoadRect _ _ _ _
  · iexists _; isplitr; swap
    · iexists _; isplitr; swap; · iexact H9
      ipureintro; rfl
    ipureintro
    rw [r4readAt_S4096x128, r4readAt_S4096x128, r4readAt_S128x256, r4readAt_S128x256, r4readAt_S1x256, r4readAt_S256x128, r4readAt_S1x128]
    rw [k4_pay2_eq]
    refine (r4ld_row_store (F := F) _ _ _ _).trans ?_
    congr 1
    sl_unfold_run_names
    exact View.readCov_cons_toLoadRect _ _ _ _

/-! ## The proof data of region 4, relational -/

variable (V : (c : Dev nD) → (b : Ref sig .tc) → Buf (Elt F) ((c : Thread nD τ).loc b))

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of `y` at point `t`: the body's function of the seven input blocks there. -/
def yat4 (c : Dev nD) (t : Fin cfg4.N) : Vec F S4096x128 .f32 :=
  yblk4 (iblk4 V c 0 t) (iblk4 V c 1 t) (iblk4 V c 2 t) (iblk4 V c 3 t) (iblk4 V c 4 t) (iblk4 V c 5 t) (iblk4 V c 6 t)

/-- The proof data of the launch on core `c`: the arrays as the region finds them; an input's buffer is left as found; the
    `y` window's buffer is left at the block of `y`; of a statistics window's buffer only row 0 is constrained — it is the
    row found (the zero row at the first point of a core's run) plus the column sums of the block of `y` (of its square) —, and
    nothing is said of rows 1 to 7, which the body never stores. -/
def rdat4 (c : Dev nD) : RDat τ (Elt F) Unit ℕ (UR sig nD τ) ℕ cfg4 c where
  A w := V c (Pipeline.arrRef spec4 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => X = yat4 V c t
    | ⟨8, _⟩ => fun Y X => View.ld X r4row = r4acc (if t.val % 8 = 0 then r4zrow else View.ld Y r4row) (yat4 V c t)
    | ⟨9, _⟩ => fun Y X => View.ld X r4row = r4accsq (if t.val % 8 = 0 then r4zrow else View.ld Y r4row) (yat4 V c t)
  Φ _ := Pipeline.ΦA spec4 c
  q _ := fullShare
  owed _ := 0

theorem rdat4_A (c : Dev nD) (w : Fin cfg4.W) : (rdat4 V c).A w = V c (Pipeline.arrRef spec4 w) := by dsimp only [rdat4]

theorem after4_0 (c : Dev nD) (t : Fin cfg4.N) Y X : (rdat4 V c).after 0 t Y X ↔ X = Y := by dsimp only [rdat4]; exact Iff.rfl
theorem after4_1 (c : Dev nD) (t : Fin cfg4.N) Y X : (rdat4 V c).after 1 t Y X ↔ X = Y := by dsimp only [rdat4]; exact Iff.rfl
theorem after4_2 (c : Dev nD) (t : Fin cfg4.N) Y X : (rdat4 V c).after 2 t Y X ↔ X = Y := by dsimp only [rdat4]; exact Iff.rfl
theorem after4_3 (c : Dev nD) (t : Fin cfg4.N) Y X : (rdat4 V c).after 3 t Y X ↔ X = Y := by dsimp only [rdat4]; exact Iff.rfl
theorem after4_4 (c : Dev nD) (t : Fin cfg4.N) Y X : (rdat4 V c).after 4 t Y X ↔ X = Y := by dsimp only [rdat4]; exact Iff.rfl
theorem after4_5 (c : Dev nD) (t : Fin cfg4.N) Y X : (rdat4 V c).after 5 t Y X ↔ X = Y := by dsimp only [rdat4]; exact Iff.rfl
theorem after4_6 (c : Dev nD) (t : Fin cfg4.N) Y X : (rdat4 V c).after 6 t Y X ↔ X = Y := by dsimp only [rdat4]; exact Iff.rfl
theorem after4_7 (c : Dev nD) (t : Fin cfg4.N) Y X : (rdat4 V c).after 7 t Y X ↔ X = yat4 V c t := by dsimp only [rdat4]; exact Iff.rfl
theorem after4_8 (c : Dev nD) (t : Fin cfg4.N) Y X : (rdat4 V c).after 8 t Y X ↔
    View.ld X r4row = r4acc (if t.val % 8 = 0 then r4zrow else View.ld Y r4row) (yat4 V c t) := by dsimp only [rdat4]; exact Iff.rfl
theorem after4_9 (c : Dev nD) (t : Fin cfg4.N) Y X : (rdat4 V c).after 9 t Y X ↔
    View.ld X r4row = r4accsq (if t.val % 8 = 0 then r4zrow else View.ld Y r4row) (yat4 V c t) := by dsimp only [rdat4]; exact Iff.rfl

/-! ## What the body finds in an input's buffer: the window's block, fetched at the point or not -/

theorem finds4_0 (c : Dev nD) (t : Fin cfg4.N) (Y) (h : (rdat4 V c).Finds 0 t Y) : Y = iblk4 V c 0 t := by
  obtain ⟨d, rfl⟩ := (rdat4 V c).finds_in_eq_fetched 0 rfl (fun _ _ _ => rfl) (fun t Y X h => (after4_0 V c t Y X).mp h) t Y h
  unfold RDat.fetched RDat.blockOf iblk4; rw [rdat4_A]; rfl

theorem finds4_1 (c : Dev nD) (t : Fin cfg4.N) (Y) (h : (rdat4 V c).Finds 1 t Y) : Y = iblk4 V c 1 t := by
  obtain ⟨d, rfl⟩ := (rdat4 V c).finds_in_eq_fetched 1 rfl (fun _ _ _ => rfl) (fun t Y X h => (after4_1 V c t Y X).mp h) t Y h
  unfold RDat.fetched RDat.blockOf iblk4; rw [rdat4_A]; rfl

theorem finds4_2 (c : Dev nD) (t : Fin cfg4.N) (Y) (h : (rdat4 V c).Finds 2 t Y) : Y = iblk4 V c 2 t := by
  obtain ⟨d, rfl⟩ := (rdat4 V c).finds_in_eq_fetched 2 rfl (fun _ _ _ => rfl) (fun t Y X h => (after4_2 V c t Y X).mp h) t Y h
  unfold RDat.fetched RDat.blockOf iblk4; rw [rdat4_A]; rfl

theorem finds4_3 (c : Dev nD) (t : Fin cfg4.N) (Y) (h : (rdat4 V c).Finds 3 t Y) : Y = iblk4 V c 3 t := by
  obtain ⟨d, rfl⟩ := (rdat4 V c).finds_in_eq_fetched 3 rfl (fun _ _ _ => rfl) (fun t Y X h => (after4_3 V c t Y X).mp h) t Y h
  unfold RDat.fetched RDat.blockOf iblk4; rw [rdat4_A]; rfl

theorem finds4_4 (c : Dev nD) (t : Fin cfg4.N) (Y) (h : (rdat4 V c).Finds 4 t Y) : Y = iblk4 V c 4 t := by
  obtain ⟨d, rfl⟩ := (rdat4 V c).finds_in_eq_fetched 4 rfl (fun _ _ _ => rfl) (fun t Y X h => (after4_4 V c t Y X).mp h) t Y h
  unfold RDat.fetched RDat.blockOf iblk4; rw [rdat4_A]; rfl

theorem finds4_5 (c : Dev nD) (t : Fin cfg4.N) (Y) (h : (rdat4 V c).Finds 5 t Y) : Y = iblk4 V c 5 t := by
  obtain ⟨d, rfl⟩ := (rdat4 V c).finds_in_eq_fetched 5 rfl (fun _ _ _ => rfl) (fun t Y X h => (after4_5 V c t Y X).mp h) t Y h
  unfold RDat.fetched RDat.blockOf iblk4; rw [rdat4_A]; rfl

theorem finds4_6 (c : Dev nD) (t : Fin cfg4.N) (Y) (h : (rdat4 V c).Finds 6 t Y) : Y = iblk4 V c 6 t := by
  obtain ⟨d, rfl⟩ := (rdat4 V c).finds_in_eq_fetched 6 rfl (fun _ _ _ => rfl) (fun t Y X h => (after4_6 V c t Y X).mp h) t Y h
  unfold RDat.fetched RDat.blockOf iblk4; rw [rdat4_A]; rfl

/-! ## The body obligation -/

set_option maxHeartbeats 1000000 in
/-- The body at any point, on the buffers the pipeline hands it: the inputs' hold their blocks (`h0` … `h6`), the outputs' anything.
    The point's position in its core's run of eight says which of the two runs applies; what the run leaves is in the relation. -/
theorem sound_body4 (c : Dev nD) (t : Fin cfg4.N) (Y : (w : Fin cfg4.W) → (cfg4.win w).block.Idx → Elt F (cfg4.win w).elt)
    (h0 : Y 0 = iblk4 V c 0 t) (h1 : Y 1 = iblk4 V c 1 t) (h2 : Y 2 = iblk4 V c 2 t) (h3 : Y 3 = iblk4 V c 3 t) (h4 : Y 4 = iblk4 V c 4 t) (h5 : Y 5 = iblk4 V c 5 t) (h6 : Y 6 = iblk4 V c 6 t) :
    iprop((rdat4 V c).Φ t.castSucc ∗ (rdat4 V c).owesAt () t.castSucc
        ∗ owns (c : Thread nD τ) ((cfg4.win 0).stage (cfg4.slots t 0)) fullShare (Y 0)
        ∗ owns (c : Thread nD τ) ((cfg4.win 1).stage (cfg4.slots t 1)) fullShare (Y 1)
        ∗ owns (c : Thread nD τ) ((cfg4.win 2).stage (cfg4.slots t 2)) fullShare (Y 2)
        ∗ owns (c : Thread nD τ) ((cfg4.win 3).stage (cfg4.slots t 3)) fullShare (Y 3)
        ∗ owns (c : Thread nD τ) ((cfg4.win 4).stage (cfg4.slots t 4)) fullShare (Y 4)
        ∗ owns (c : Thread nD τ) ((cfg4.win 5).stage (cfg4.slots t 5)) fullShare (Y 5)
        ∗ owns (c : Thread nD τ) ((cfg4.win 6).stage (cfg4.slots t 6)) fullShare (Y 6)
        ∗ owns (c : Thread nD τ) ((cfg4.win 7).stage (cfg4.slots t 7)) fullShare (Y 7)
        ∗ owns (c : Thread nD τ) ((cfg4.win 8).stage (cfg4.slots t 8)) fullShare (Y 8)
        ∗ owns (c : Thread nD τ) ((cfg4.win 9).stage (cfg4.slots t 9)) fullShare (Y 9))
      ⊢ wp frame (wpE (defs₀ (F := F)) Variants.none c none) Set.univ (bodyAt4 t) (fun _ =>
        iprop((rdat4 V c).Φ t.succ ∗ (rdat4 V c).owesAt () t.succ
          ∗ (∃ X, ⌜(rdat4 V c).after 0 t (Y 0) X⌝ ∗ owns (c : Thread nD τ) ((cfg4.win 0).stage (cfg4.slots t 0)) fullShare X)
          ∗ (∃ X, ⌜(rdat4 V c).after 1 t (Y 1) X⌝ ∗ owns (c : Thread nD τ) ((cfg4.win 1).stage (cfg4.slots t 1)) fullShare X)
          ∗ (∃ X, ⌜(rdat4 V c).after 2 t (Y 2) X⌝ ∗ owns (c : Thread nD τ) ((cfg4.win 2).stage (cfg4.slots t 2)) fullShare X)
          ∗ (∃ X, ⌜(rdat4 V c).after 3 t (Y 3) X⌝ ∗ owns (c : Thread nD τ) ((cfg4.win 3).stage (cfg4.slots t 3)) fullShare X)
          ∗ (∃ X, ⌜(rdat4 V c).after 4 t (Y 4) X⌝ ∗ owns (c : Thread nD τ) ((cfg4.win 4).stage (cfg4.slots t 4)) fullShare X)
          ∗ (∃ X, ⌜(rdat4 V c).after 5 t (Y 5) X⌝ ∗ owns (c : Thread nD τ) ((cfg4.win 5).stage (cfg4.slots t 5)) fullShare X)
          ∗ (∃ X, ⌜(rdat4 V c).after 6 t (Y 6) X⌝ ∗ owns (c : Thread nD τ) ((cfg4.win 6).stage (cfg4.slots t 6)) fullShare X)
          ∗ (∃ X, ⌜(rdat4 V c).after 7 t (Y 7) X⌝ ∗ owns (c : Thread nD τ) ((cfg4.win 7).stage (cfg4.slots t 7)) fullShare X)
          ∗ (∃ X, ⌜(rdat4 V c).after 8 t (Y 8) X⌝ ∗ owns (c : Thread nD τ) ((cfg4.win 8).stage (cfg4.slots t 8)) fullShare X)
          ∗ (∃ X, ⌜(rdat4 V c).after 9 t (Y 9) X⌝ ∗ owns (c : Thread nD τ) ((cfg4.win 9).stage (cfg4.slots t 9)) fullShare X))) := by
  unfold bodyAt4
  rw [show (rdat4 V c).Φ t.succ = (rdat4 V c).Φ t.castSucc from rfl,
    show (rdat4 V c).owesAt () t.succ = (rdat4 V c).owesAt () t.castSucc from rfl]
  by_cases h : t.val % 8 = 0
  ·
    iintro ⟨HΦ, Ho, H0, H1, H2, H3, H4, H5, H6, H7, H8, H9⟩
    iapply (sound_kernel4_first c (grid4.coords t) _ _ _ _ _ _ _ _ _ _ _ _ _ _ _ _ _ _ _ _ ((r4cond_iff t).mpr h) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after4_0 V c t _ _).mpr rfl
    isplitl [H1]
    · iexists _; isplitr; swap; · iexact H1
      ipureintro; exact (after4_1 V c t _ _).mpr rfl
    isplitl [H2]
    · iexists _; isplitr; swap; · iexact H2
      ipureintro; exact (after4_2 V c t _ _).mpr rfl
    isplitl [H3]
    · iexists _; isplitr; swap; · iexact H3
      ipureintro; exact (after4_3 V c t _ _).mpr rfl
    isplitl [H4]
    · iexists _; isplitr; swap; · iexact H4
      ipureintro; exact (after4_4 V c t _ _).mpr rfl
    isplitl [H5]
    · iexists _; isplitr; swap; · iexact H5
      ipureintro; exact (after4_5 V c t _ _).mpr rfl
    isplitl [H6]
    · iexists _; isplitr; swap; · iexact H6
      ipureintro; exact (after4_6 V c t _ _).mpr rfl
    isplitl [H7]
    · iexists _; isplitr; swap; · iexact H7
      ipureintro; rw [after4_7]; unfold yat4; rw [← h0, ← h1, ← h2, ← h3, ← h4, ← h5, ← h6]
    isplitl [H8]
    · iexists X8; isplitr; swap; · iexact H8
      ipureintro; rw [after4_8, if_pos h]; unfold yat4; rw [← h0, ← h1, ← h2, ← h3, ← h4, ← h5, ← h6]; exact hX8
    · iexists X9; isplitr; swap; · iexact H9
      ipureintro; rw [after4_9, if_pos h]; unfold yat4; rw [← h0, ← h1, ← h2, ← h3, ← h4, ← h5, ← h6]; exact hX9
  ·
    iintro ⟨HΦ, Ho, H0, H1, H2, H3, H4, H5, H6, H7, H8, H9⟩
    iapply (sound_kernel4_later c (grid4.coords t) _ _ _ _ _ _ _ _ _ _ _ _ _ _ _ _ _ _ _ _ (fun hc => h ((r4cond_iff t).mp hc)) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after4_0 V c t _ _).mpr rfl
    isplitl [H1]
    · iexists _; isplitr; swap; · iexact H1
      ipureintro; exact (after4_1 V c t _ _).mpr rfl
    isplitl [H2]
    · iexists _; isplitr; swap; · iexact H2
      ipureintro; exact (after4_2 V c t _ _).mpr rfl
    isplitl [H3]
    · iexists _; isplitr; swap; · iexact H3
      ipureintro; exact (after4_3 V c t _ _).mpr rfl
    isplitl [H4]
    · iexists _; isplitr; swap; · iexact H4
      ipureintro; exact (after4_4 V c t _ _).mpr rfl
    isplitl [H5]
    · iexists _; isplitr; swap; · iexact H5
      ipureintro; exact (after4_5 V c t _ _).mpr rfl
    isplitl [H6]
    · iexists _; isplitr; swap; · iexact H6
      ipureintro; exact (after4_6 V c t _ _).mpr rfl
    isplitl [H7]
    · iexists _; isplitr; swap; · iexact H7
      ipureintro; rw [after4_7]; unfold yat4; rw [← h0, ← h1, ← h2, ← h3, ← h4, ← h5, ← h6]
    isplitl [H8]
    · iexists X8; isplitr; swap; · iexact H8
      ipureintro; rw [after4_8, if_neg h]; unfold yat4; rw [← h0, ← h1, ← h2, ← h3, ← h4, ← h5, ← h6]; exact hX8
    · iexists X9; isplitr; swap; · iexact H9
      ipureintro; rw [after4_9, if_neg h]; unfold yat4; rw [← h0, ← h1, ← h2, ← h3, ← h4, ← h5, ← h6]; exact hX9

/-- The library's body obligation of the relational data, at every point. -/
theorem body_obligation4 (c : Dev nD) : (rdat4 (F := F) V c).BodyObligation (defs₀ (F := F)) Variants.none () Set.univ := by
  intro t Y hY
  rw [bigSep_W4, bigSep_W4]
  exact sound_body4 V c t Y (finds4_0 V c t _ (hY 0)) (finds4_1 V c t _ (hY 1)) (finds4_2 V c t _ (hY 2)) (finds4_3 V c t _ (hY 3)) (finds4_4 V c t _ (hY 4)) (finds4_5 V c t _ (hY 5)) (finds4_6 V c t _ (hY 6))

end Cert.Kernel.Hand
end
-- ==== Proof.HandK.P1r4Arr.lean ====
/- What region 4's arrays hold after the launch, from the relational data's `ArrAt` (pure: no separation logic).

   An input array is as the region found it. Row block `p` of the array of `y` is the block of `y` at point `p`. Of a
   statistics array only rows 0 and 8 are determined: row 0 is core 0's fold — the zero row with the column sums of the blocks
   of `y` (of their squares) at its eight points added in point order —, row 8 core 1's. -/
import proofs.«103476_j5987184410999_2_alg».proof.Proof.HandK.P1r4
import proofs.«103476_j5987184410999_2_alg».proof.Proof.HandK.Agree
import Idealize.ShloMosaic.Lib.Pipeline.Cells
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA
open Idealize.ShloMosaic.Pipeline (RDat Dat Cfg Window cellOf)
open Idealize.ShloMosaic.ValueIdx (ix2 eq_ix2)

variable {F : FTy → Type} [FloatOps F]

variable (V : (c : Dev nD) → (b : Ref sig .tc) → Buf (Elt F) ((c : Thread nD τ).loc b))

/-! ## What the arrays hold after the launch -/

section Arr

/-! ### Inputs: never written -/

theorem arrAt4_in_of (c : Dev nD) (w : Fin cfg4.W) (hw : (cfg4.win w).isOut = false) (n : ℕ)
    (G : Buf (Elt F) ((cfg4.win w).arr.view.loc (c.tc : Thread nD τ))) (h : (rdat4 V c).ArrAt w n G) :
    G = V c (Pipeline.arrRef spec4 w) := by
  rw [RDat.ArrAt_in _ w hw n] at h; exact h.trans (rdat4_A V c w)

/-- The first seven windows are the inputs. -/
theorem isOut4_in : ∀ w : Fin cfg4.W, w.val < 7 → (cfg4.win w).isOut = false := by decide

/-- An input's array is as the region found it. -/
theorem arrAt4_in (c : Dev nD) (w : Fin cfg4.W) (hw : w.val < 7)
    (G : Buf (Elt F) ((cfg4.win w).arr.view.loc (c.tc : Thread nD τ))) (h : (rdat4 V c).ArrAt w cfg4.N G) :
    G = V c (Pipeline.arrRef spec4 w) := arrAt4_in_of V c w (isOut4_in w hw) cfg4.N G h

/-! ### The schedule of the three outputs -/

theorem fetch4_7 : ∀ t : Fin cfg4.N, (cfg4.win 7).fetch t = false :=
  (by decide +kernel : ∀ t : Fin grid4.N, win4_7.fetch t = false)
theorem fetch4_8 : ∀ t : Fin cfg4.N, (cfg4.win 8).fetch t = false :=
  (by decide +kernel : ∀ t : Fin grid4.N, win4_8.fetch t = false)
theorem fetch4_9 : ∀ t : Fin cfg4.N, (cfg4.win 9).fetch t = false :=
  (by decide +kernel : ∀ t : Fin grid4.N, win4_9.fetch t = false)

/-- The block index of the `y` window at point `t`: row block `t`. -/
theorem index4_7 : ∀ t : Fin cfg4.N, (cfg4.win 7).index t = ![t.val, 0] :=
  (by decide +kernel : ∀ t : Fin grid4.N, win4_7.index t = ![t.val, 0])
/-- The block index of a statistics window at point `t`: the core's. -/
theorem index4_8 : ∀ t : Fin cfg4.N, (cfg4.win 8).index t = ![t.val / 8, 0] :=
  (by decide +kernel : ∀ t : Fin grid4.N, win4_8.index t = ![t.val / 8, 0])
theorem index4_9 : ∀ t : Fin cfg4.N, (cfg4.win 9).index t = ![t.val / 8, 0] :=
  (by decide +kernel : ∀ t : Fin grid4.N, win4_9.index t = ![t.val / 8, 0])

/-! ### Window 7: block `t` of the array is the block of `y` at `t` -/

theorem leaves4_7 (c : Dev nD) (t : Fin cfg4.N) (X) (h : (rdat4 V c).Leaves 7 t X) : X = yat4 V c t := by
  obtain ⟨Y, -, hA⟩ := h
  exact (after4_7 V c t Y X).mp hA

theorem arrAt4_7_blk (c : Dev nD) : ∀ (n : ℕ), n ≤ 16 → ∀ G, (rdat4 V c).ArrAt 7 n G →
    ∀ u : Fin cfg4.N, u.val < n → ((cfg4.win 7).blk u).view.read (Elt F) G = yat4 V c u
  | 0, _, _, _, u, hu => absurd hu (Nat.not_lt_zero _)
  | n + 1, hn, G, h, u, hu => by
    have hN : n < cfg4.N := by show n < grid4.N; rw [N_4]; omega
    rw [show n + 1 = (⟨n, hN⟩ : Fin cfg4.N).val + 1 from rfl, RDat.ArrAt_succ, if_pos (flush4_7 _)] at h
    obtain ⟨G₀, X, hG₀, hX, rfl⟩ := h
    obtain rfl := leaves4_7 V c _ X hX
    by_cases hun : u.val = n
    · have e : u = ⟨n, hN⟩ := Fin.ext hun
      subst e
      exact View.read_write_univ _ _
    · refine Eq.trans ?_ (arrAt4_7_blk c n (by omega) G₀ hG₀ u (by omega))
      refine View.read_congr fun i hi => View.write_of_not_mem _ _ _ ?_
      have hd := (cfg4.win 7).disjoint_blk (u := u) (u' := ⟨n, hN⟩) (by
        rw [index4_7, index4_7]; intro e; exact hun (by simpa using congrFun e 0))
      exact Finset.disjoint_left.mp hd hi
end Arr

section Arr3

/-! ### Windows 8 and 9: row 0 of a core's statistics block is the fold of its eight points -/

/-- Point `j` of core `q`'s run of eight. -/
def r4pt (q : Fin 2) (j : ℕ) (hj : j < 8) : Fin cfg4.N := ⟨8 * q.val + j, by have := q.isLt; show _ < grid4.N; rw [N_4]; omega⟩

/-- Row 0 of core `q`'s sum block after its point `j`: the zero row with the column sums of the blocks of `y` at the points
    `0 … j` of the core's run added in that order. -/
def r4sum (c : Dev nD) (q : Fin 2) : (j : ℕ) → j < 8 → FVec F S1x128 .f32
  | 0, h => r4acc r4zrow (yat4 V c (r4pt q 0 h))
  | j + 1, h => r4acc (r4sum c q j (Nat.lt_of_succ_lt h)) (yat4 V c (r4pt q (j + 1) h))

/-- The same of the squares. -/
def r4sumsq (c : Dev nD) (q : Fin 2) : (j : ℕ) → j < 8 → FVec F S1x128 .f32
  | 0, h => r4accsq r4zrow (yat4 V c (r4pt q 0 h))
  | j + 1, h => r4accsq (r4sumsq c q j (Nat.lt_of_succ_lt h)) (yat4 V c (r4pt q (j + 1) h))

theorem leaves4_8 (c : Dev nD) (q : Fin 2) : ∀ (j : ℕ) (hj : j < 8) (X), (rdat4 V c).Leaves 8 (r4pt q j hj) X →
    View.ld X r4row = r4sum V c q j hj
  | 0, hj, X, h => by
    obtain ⟨Y, -, hA⟩ := h
    rw [after4_8, if_pos (by show (8 * q.val + 0) % 8 = 0; omega)] at hA
    exact hA
  | j + 1, hj, X, h => by
    obtain ⟨Y, hF, hA⟩ := h
    rw [after4_8, if_neg (by show ¬(8 * q.val + (j + 1)) % 8 = 0; omega)] at hA
    rw [RDat.finds_of_pos _ (fetch4_8 _) (by show 8 * q.val + (j + 1) ≠ 0; omega)] at hF
    rcases hF with hfl | hL
    · exact absurd ((flush4_8 _).mp hfl) (by show ¬(8 * q.val + (j + 1) - 1) % 8 = 7; omega)
    · have e : (⟨(r4pt q (j + 1) hj).val - 1, Nat.lt_of_le_of_lt (Nat.sub_le _ _) (r4pt q (j + 1) hj).isLt⟩ : Fin cfg4.N)
          = r4pt q j (Nat.lt_of_succ_lt hj) := Fin.ext (by show 8 * q.val + (j + 1) - 1 = 8 * q.val + j; omega)
      rw [e] at hL
      rw [hA, leaves4_8 c q j (Nat.lt_of_succ_lt hj) Y hL]
      rfl

theorem leaves4_9 (c : Dev nD) (q : Fin 2) : ∀ (j : ℕ) (hj : j < 8) (X), (rdat4 V c).Leaves 9 (r4pt q j hj) X →
    View.ld X r4row = r4sumsq V c q j hj
  | 0, hj, X, h => by
    obtain ⟨Y, -, hA⟩ := h
    rw [after4_9, if_pos (by show (8 * q.val + 0) % 8 = 0; omega)] at hA
    exact hA
  | j + 1, hj, X, h => by
    obtain ⟨Y, hF, hA⟩ := h
    rw [after4_9, if_neg (by show ¬(8 * q.val + (j + 1)) % 8 = 0; omega)] at hA
    rw [RDat.finds_of_pos _ (fetch4_9 _) (by show 8 * q.val + (j + 1) ≠ 0; omega)] at hF
    rcases hF with hfl | hL
    · exact absurd ((flush4_9 _).mp hfl) (by show ¬(8 * q.val + (j + 1) - 1) % 8 = 7; omega)
    · have e : (⟨(r4pt q (j + 1) hj).val - 1, Nat.lt_of_le_of_lt (Nat.sub_le _ _) (r4pt q (j + 1) hj).isLt⟩ : Fin cfg4.N)
          = r4pt q j (Nat.lt_of_succ_lt hj) := Fin.ext (by show 8 * q.val + (j + 1) - 1 = 8 * q.val + j; omega)
      rw [e] at hL
      rw [hA, leaves4_9 c q j (Nat.lt_of_succ_lt hj) Y hL]
      rfl

end Arr3

section Arr4

section TwoWrites
variable {sg : RefSig} {κ : Kind} {sp : Space} {s : Shape} {e : EltTy} {Val : EltTy → Type}

/-- After two writes through rectangles of a view, an element of the first rectangle outside the second reads the first payload; -/
theorem r4read_two_writes_fst (v : View sg κ sp s e) (r r' : Rect s) (f : v.ty.Contents Val) (w : r.shape.Idx → Val e)
    (w' : r'.shape.Idx → Val e) (x : r.shape.Idx) (i : s.Idx) (hi : i = r.emb x) (h : i ∉ r'.set) :
    v.read Val ((v.slice r').write Val ((v.slice r).write Val f w Finset.univ) w' Finset.univ) i = w x := by
  subst hi
  rw [View.read_slice_write_of_not_mem r' _ _ _ (by rw [Rect.map_emb_univ]; exact h),
    View.read_slice_write_emb r _ _ (Finset.mem_univ x)]

/-- an element of the second reads the second. -/
theorem r4read_two_writes_snd (v : View sg κ sp s e) (r r' : Rect s) (f : v.ty.Contents Val) (w : r.shape.Idx → Val e)
    (w' : r'.shape.Idx → Val e) (x : r'.shape.Idx) (i : s.Idx) (hi : i = r'.emb x) :
    v.read Val ((v.slice r').write Val ((v.slice r).write Val f w Finset.univ) w' Finset.univ) i = w' x := by
  subst hi
  exact View.read_slice_write_emb r' _ _ (Finset.mem_univ x)
end TwoWrites

theorem arrAt4_8_keep (c : Dev nD) : ∀ (n m : ℕ), m ≤ n → n ≤ 16 → (∀ k, m ≤ k → k < n → k % 8 ≠ 7) →
    (rdat4 V c).ArrAt 8 n = (rdat4 V c).ArrAt 8 m
  | 0, m, hm, _, _ => by obtain rfl := Nat.le_zero.mp hm; rfl
  | n + 1, m, hm, hn, hk => by
    rcases Nat.eq_or_lt_of_le hm with e | hlt
    · rw [e]
    · have hN : n < cfg4.N := by show n < grid4.N; rw [N_4]; omega
      have hs := (rdat4 V c).ArrAt_succ 8 ⟨n, hN⟩
      rw [if_neg (fun hf => hk n (by omega) (by omega) ((flush4_8 ⟨n, hN⟩).mp hf))] at hs
      exact hs.trans (arrAt4_8_keep c n m (by omega) (by omega) fun k h1 h2 => hk k h1 (by omega))

/-- After the launch a statistics array is its entry contents with core 0's block, then core 1's, written over it, each from
    a buffer whose row 0 is the core's fold. -/
theorem arrAt4_8_form (c : Dev nD) (G : Buf (Elt F) ((cfg4.win 8).arr.view.loc (c.tc : Thread nD τ)))
    (h : (rdat4 V c).ArrAt 8 cfg4.N G) :
    ∃ X X', View.ld X r4row = r4sum V c 0 7 (by omega) ∧ View.ld X' r4row = r4sum V c 1 7 (by omega) ∧
      G = ((cfg4.win 8).arr.view.slice ((cfg4.win 8).rect t4_15)).write (Elt F)
            (((cfg4.win 8).arr.view.slice ((cfg4.win 8).rect t4_7)).write (Elt F) ((rdat4 V c).A 8)
              ((cfg4.win 8).cut (cfg4.grid.coords t4_7) X) Finset.univ)
            ((cfg4.win 8).cut (cfg4.grid.coords t4_15) X') Finset.univ := by
  have e16 := (rdat4 V c).ArrAt_succ 8 t4_15
  rw [if_pos ((flush4_8 t4_15).mpr rfl)] at e16
  have h1 : (rdat4 V c).ArrStep 8 t4_15 ((rdat4 V c).ArrAt 8 15) G := Eq.mp (congrFun e16 G) h
  obtain ⟨G₁, X', hG₁, hX', rfl⟩ := h1
  have e15 := arrAt4_8_keep V c 15 8 (by omega) (by omega) (by intro k h1 h2; omega)
  have e8 := (rdat4 V c).ArrAt_succ 8 t4_7
  rw [if_pos ((flush4_8 t4_7).mpr rfl)] at e8
  have h2 : (rdat4 V c).ArrStep 8 t4_7 ((rdat4 V c).ArrAt 8 7) G₁ := Eq.mp (congrFun (e15.trans e8) G₁) hG₁
  obtain ⟨G₀, X, hG₀, hX, rfl⟩ := h2
  have e7 := arrAt4_8_keep V c 7 0 (by omega) (by omega) (by intro k h1 h2; omega)
  have h3 : G₀ = (rdat4 V c).A 8 := Eq.mp (congrFun e7 G₀) hG₀
  subst h3
  exact ⟨X, X', leaves4_8 V c 0 7 (by omega) X hX, leaves4_8 V c 1 7 (by omega) X' hX', rfl⟩

theorem arrAt4_9_keep (c : Dev nD) : ∀ (n m : ℕ), m ≤ n → n ≤ 16 → (∀ k, m ≤ k → k < n → k % 8 ≠ 7) →
    (rdat4 V c).ArrAt 9 n = (rdat4 V c).ArrAt 9 m
  | 0, m, hm, _, _ => by obtain rfl := Nat.le_zero.mp hm; rfl
  | n + 1, m, hm, hn, hk => by
    rcases Nat.eq_or_lt_of_le hm with e | hlt
    · rw [e]
    · have hN : n < cfg4.N := by show n < grid4.N; rw [N_4]; omega
      have hs := (rdat4 V c).ArrAt_succ 9 ⟨n, hN⟩
      rw [if_neg (fun hf => hk n (by omega) (by omega) ((flush4_9 ⟨n, hN⟩).mp hf))] at hs
      exact hs.trans (arrAt4_9_keep c n m (by omega) (by omega) fun k h1 h2 => hk k h1 (by omega))

/-- After the launch a statistics array is its entry contents with core 0's block, then core 1's, written over it, each from
    a buffer whose row 0 is the core's fold. -/
theorem arrAt4_9_form (c : Dev nD) (G : Buf (Elt F) ((cfg4.win 9).arr.view.loc (c.tc : Thread nD τ)))
    (h : (rdat4 V c).ArrAt 9 cfg4.N G) :
    ∃ X X', View.ld X r4row = r4sumsq V c 0 7 (by omega) ∧ View.ld X' r4row = r4sumsq V c 1 7 (by omega) ∧
      G = ((cfg4.win 9).arr.view.slice ((cfg4.win 9).rect t4_15)).write (Elt F)
            (((cfg4.win 9).arr.view.slice ((cfg4.win 9).rect t4_7)).write (Elt F) ((rdat4 V c).A 9)
              ((cfg4.win 9).cut (cfg4.grid.coords t4_7) X) Finset.univ)
            ((cfg4.win 9).cut (cfg4.grid.coords t4_15) X') Finset.univ := by
  have e16 := (rdat4 V c).ArrAt_succ 9 t4_15
  rw [if_pos ((flush4_9 t4_15).mpr rfl)] at e16
  have h1 : (rdat4 V c).ArrStep 9 t4_15 ((rdat4 V c).ArrAt 9 15) G := Eq.mp (congrFun e16 G) h
  obtain ⟨G₁, X', hG₁, hX', rfl⟩ := h1
  have e15 := arrAt4_9_keep V c 15 8 (by omega) (by omega) (by intro k h1 h2; omega)
  have e8 := (rdat4 V c).ArrAt_succ 9 t4_7
  rw [if_pos ((flush4_9 t4_7).mpr rfl)] at e8
  have h2 : (rdat4 V c).ArrStep 9 t4_7 ((rdat4 V c).ArrAt 9 7) G₁ := Eq.mp (congrFun (e15.trans e8) G₁) hG₁
  obtain ⟨G₀, X, hG₀, hX, rfl⟩ := h2
  have e7 := arrAt4_9_keep V c 7 0 (by omega) (by omega) (by intro k h1 h2; omega)
  have h3 : G₀ = (rdat4 V c).A 9 := Eq.mp (congrFun e7 G₀) hG₀
  subst h3
  exact ⟨X, X', leaves4_9 V c 0 7 (by omega) X hX, leaves4_9 V c 1 7 (by omega) X' hX', rfl⟩

end Arr4

section Arr5

section RowApply
/-- The host's row slices at an index. -/
theorem r4row0_apply (X : (⟨S16x128, .f32⟩ : BufTy).Contents (Elt F)) (x : S1x128.Idx) :
    row0 X x = X (ix2 (⟨(x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 0 + (x 0).val = (x 0).val; omega)
  | ⟨1, _⟩ => exact Fin.ext (by show 0 + (x 1).val = (x 1).val; omega)
theorem r4row8_apply (X : (⟨S16x128, .f32⟩ : BufTy).Contents (Elt F)) (x : S1x128.Idx) :
    row8 X x = X (ix2 (⟨8 + (x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 8 + (x 0).val = 8 + (x 0).val; omega)
  | ⟨1, _⟩ => exact Fin.ext (by show 0 + (x 1).val = (x 1).val; omega)
end RowApply

set_option maxHeartbeats 1000000 in
/-- Rows 0 and 8 of the array after the launch are the two cores' folds. -/
theorem arrAt4_8_rows (c : Dev nD) (G : Buf (Elt F) ((cfg4.win 8).arr.view.loc (c.tc : Thread nD τ)))
    (h : (rdat4 V c).ArrAt 8 cfg4.N G) : row0 G = r4sum V c 0 7 (by omega) ∧ row8 G = r4sum V c 1 7 (by omega) := by
  obtain ⟨X, X', hX, hX', rfl⟩ := arrAt4_8_form V c G h
  constructor
  · funext x
    have hx0 : (x 0).val < 1 := (x 0).isLt
    rw [← hX, r4row0_apply]
    have hi : ix2 (⟨(x 0).val, by omega⟩ : Fin 16) (⟨(x 1).val, (x 1).isLt⟩ : Fin 128) = ((cfg4.win 8).rect t4_7).emb (r4row.emb x) := by
      funext a; apply Fin.ext
      rw [Window.rect_emb_val, index4_8]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg4.win 8).rect t4_15).set := by
      intro hm
      have h0 := (Rect.mem_set_unit.mp hm 0).1
      rw [index4_8] at h0
      have h0' : 1 * 8 ≤ (x 0).val := h0
      omega
    exact r4read_two_writes_fst (Val := Elt F) (cfg4.win 8).arr.view ((cfg4.win 8).rect t4_7) ((cfg4.win 8).rect t4_15) ((rdat4 V c).A 8)
      ((cfg4.win 8).cut (cfg4.grid.coords t4_7) X) ((cfg4.win 8).cut (cfg4.grid.coords t4_15) X') (r4row.emb x) _ hi hnot
  · funext x
    have hx0 : (x 0).val < 1 := (x 0).isLt
    rw [← hX', r4row8_apply]
    have hi : ix2 (⟨8 + (x 0).val, by omega⟩ : Fin 16) (⟨(x 1).val, (x 1).isLt⟩ : Fin 128) = ((cfg4.win 8).rect t4_15).emb (r4row.emb x) := by
      funext a; apply Fin.ext
      rw [Window.rect_emb_val, index4_8]
      match a with
      | ⟨0, _⟩ => show 8 + (x 0).val = 1 * 8 + (0 + 1 * (x 0).val); omega
      | ⟨1, _⟩ => show (x 1).val = 0 * 128 + (0 + 1 * (x 1).val); omega
    exact r4read_two_writes_snd (Val := Elt F) (cfg4.win 8).arr.view ((cfg4.win 8).rect t4_7) ((cfg4.win 8).rect t4_15) ((rdat4 V c).A 8)
      ((cfg4.win 8).cut (cfg4.grid.coords t4_7) X) ((cfg4.win 8).cut (cfg4.grid.coords t4_15) X') (r4row.emb x) _ hi

set_option maxHeartbeats 1000000 in
/-- Rows 0 and 8 of the array after the launch are the two cores' folds. -/
theorem arrAt4_9_rows (c : Dev nD) (G : Buf (Elt F) ((cfg4.win 9).arr.view.loc (c.tc : Thread nD τ)))
    (h : (rdat4 V c).ArrAt 9 cfg4.N G) : row0 G = r4sumsq V c 0 7 (by omega) ∧ row8 G = r4sumsq V c 1 7 (by omega) := by
  obtain ⟨X, X', hX, hX', rfl⟩ := arrAt4_9_form V c G h
  constructor
  · funext x
    have hx0 : (x 0).val < 1 := (x 0).isLt
    rw [← hX, r4row0_apply]
    have hi : ix2 (⟨(x 0).val, by omega⟩ : Fin 16) (⟨(x 1).val, (x 1).isLt⟩ : Fin 128) = ((cfg4.win 9).rect t4_7).emb (r4row.emb x) := by
      funext a; apply Fin.ext
      rw [Window.rect_emb_val, index4_9]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg4.win 9).rect t4_15).set := by
      intro hm
      have h0 := (Rect.mem_set_unit.mp hm 0).1
      rw [index4_9] at h0
      have h0' : 1 * 8 ≤ (x 0).val := h0
      omega
    exact r4read_two_writes_fst (Val := Elt F) (cfg4.win 9).arr.view ((cfg4.win 9).rect t4_7) ((cfg4.win 9).rect t4_15) ((rdat4 V c).A 9)
      ((cfg4.win 9).cut (cfg4.grid.coords t4_7) X) ((cfg4.win 9).cut (cfg4.grid.coords t4_15) X') (r4row.emb x) _ hi hnot
  · funext x
    have hx0 : (x 0).val < 1 := (x 0).isLt
    rw [← hX', r4row8_apply]
    have hi : ix2 (⟨8 + (x 0).val, by omega⟩ : Fin 16) (⟨(x 1).val, (x 1).isLt⟩ : Fin 128) = ((cfg4.win 9).rect t4_15).emb (r4row.emb x) := by
      funext a; apply Fin.ext
      rw [Window.rect_emb_val, index4_9]
      match a with
      | ⟨0, _⟩ => show 8 + (x 0).val = 1 * 8 + (0 + 1 * (x 0).val); omega
      | ⟨1, _⟩ => show (x 1).val = 0 * 128 + (0 + 1 * (x 1).val); omega
    exact r4read_two_writes_snd (Val := Elt F) (cfg4.win 9).arr.view ((cfg4.win 9).rect t4_7) ((cfg4.win 9).rect t4_15) ((rdat4 V c).A 9)
      ((cfg4.win 9).cut (cfg4.grid.coords t4_7) X) ((cfg4.win 9).cut (cfg4.grid.coords t4_15) X') (r4row.emb x) _ hi

/-- A canonical statistics array: every row of a core's eight is that core's fold (only rows 0 and 8 are ever read). -/
def sumArr4 (c : Dev nD) : Buf (Elt F) ((cfg4.win 8).arr.view.loc (c.tc : Thread nD τ)) :=
  fun (j : S16x128.Idx) => r4sum V c ⟨(j 0).val / 8, by have := ValueIdx.idx2_lt0 j; omega⟩ 7 (by omega) (ix2 (0 : Fin 1) (j 1))

theorem row0_sumArr4 (c : Dev nD) : row0 (sumArr4 V c) = r4sum V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r4row0_apply]
  show r4sum V c ⟨(x 0).val / 8, _⟩ 7 _ (ix2 (0 : Fin 1) (⟨(x 1).val, _⟩ : Fin 128)) = _
  rw [e1, e2]

theorem row8_sumArr4 (c : Dev nD) : row8 (sumArr4 V c) = r4sum V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r4row8_apply]
  show r4sum V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt4_8 (c : Dev nD) (G : Buf (Elt F) ((cfg4.win 8).arr.view.loc (c.tc : Thread nD τ)))
    (h : (rdat4 V c).ArrAt 8 cfg4.N G) : row0 G = row0 (sumArr4 V c) ∧ row8 G = row8 (sumArr4 V c) := by
  rw [row0_sumArr4, row8_sumArr4]; exact arrAt4_8_rows V c G h

/-- A canonical statistics array: every row of a core's eight is that core's fold (only rows 0 and 8 are ever read). -/
def sqArr4 (c : Dev nD) : Buf (Elt F) ((cfg4.win 9).arr.view.loc (c.tc : Thread nD τ)) :=
  fun (j : S16x128.Idx) => r4sumsq V c ⟨(j 0).val / 8, by have := ValueIdx.idx2_lt0 j; omega⟩ 7 (by omega) (ix2 (0 : Fin 1) (j 1))

theorem row0_sqArr4 (c : Dev nD) : row0 (sqArr4 V c) = r4sumsq V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r4row0_apply]
  show r4sumsq V c ⟨(x 0).val / 8, _⟩ 7 _ (ix2 (0 : Fin 1) (⟨(x 1).val, _⟩ : Fin 128)) = _
  rw [e1, e2]

theorem row8_sqArr4 (c : Dev nD) : row8 (sqArr4 V c) = r4sumsq V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r4row8_apply]
  show r4sumsq V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt4_9 (c : Dev nD) (G : Buf (Elt F) ((cfg4.win 9).arr.view.loc (c.tc : Thread nD τ)))
    (h : (rdat4 V c).ArrAt 9 cfg4.N G) : row0 G = row0 (sqArr4 V c) ∧ row8 G = row8 (sqArr4 V c) := by
  rw [row0_sqArr4, row8_sqArr4]; exact arrAt4_9_rows V c G h

/-! ### The folds, written out: the zero row, then the eight blocks' column sums added in point order -/

theorem r4sum_core0 (c : Dev nD) : r4sum V c 0 7 (by omega) = r4acc (r4acc (r4acc (r4acc (r4acc (r4acc (r4acc (r4acc r4zrow (yat4 V c t4_0)) (yat4 V c t4_1)) (yat4 V c t4_2)) (yat4 V c t4_3)) (yat4 V c t4_4)) (yat4 V c t4_5)) (yat4 V c t4_6)) (yat4 V c t4_7) := rfl
theorem r4sum_core1 (c : Dev nD) : r4sum V c 1 7 (by omega) = r4acc (r4acc (r4acc (r4acc (r4acc (r4acc (r4acc (r4acc r4zrow (yat4 V c t4_8)) (yat4 V c t4_9)) (yat4 V c t4_10)) (yat4 V c t4_11)) (yat4 V c t4_12)) (yat4 V c t4_13)) (yat4 V c t4_14)) (yat4 V c t4_15) := rfl
theorem r4sumsq_core0 (c : Dev nD) : r4sumsq V c 0 7 (by omega) = r4accsq (r4accsq (r4accsq (r4accsq (r4accsq (r4accsq (r4accsq (r4accsq r4zrow (yat4 V c t4_0)) (yat4 V c t4_1)) (yat4 V c t4_2)) (yat4 V c t4_3)) (yat4 V c t4_4)) (yat4 V c t4_5)) (yat4 V c t4_6)) (yat4 V c t4_7) := rfl
theorem r4sumsq_core1 (c : Dev nD) : r4sumsq V c 1 7 (by omega) = r4accsq (r4accsq (r4accsq (r4accsq (r4accsq (r4accsq (r4accsq (r4accsq r4zrow (yat4 V c t4_8)) (yat4 V c t4_9)) (yat4 V c t4_10)) (yat4 V c t4_11)) (yat4 V c t4_12)) (yat4 V c t4_13)) (yat4 V c t4_14)) (yat4 V c t4_15) := rfl

/-! ### Window 7: the whole array -/

/-- The array of `y`: row block `p` is the block of `y` at point `p`. -/
def yArr4 (c : Dev nD) : Buf (Elt F) ((cfg4.win 7).arr.view.loc (c.tc : Thread nD τ)) :=
  fun (j : S65536x128.Idx) => yat4 V c ⟨(j 0).val / 4096, by have := ValueIdx.idx2_lt0 j; show _ < grid4.N; rw [N_4]; omega⟩
    (ix2 (⟨(j 0).val % 4096, Nat.mod_lt _ (by decide)⟩ : Fin 4096) (j 1))

theorem yArr4_apply (c : Dev nD) (p : Fin 16) (q : Fin 4096) (j : Fin 128) :
    yArr4 V c (ix2 (⟨p.val * 4096 + q.val, by have := p.isLt; have := q.isLt; omega⟩ : Fin 65536) j)
      = yat4 V c ⟨p.val, by show _ < grid4.N; rw [N_4]; exact p.isLt⟩ (ix2 q j) := by
  have e1 : (⟨(p.val * 4096 + q.val) / 4096, by have := p.isLt; have := q.isLt; show _ < grid4.N; rw [N_4]; omega⟩ : Fin cfg4.N)
      = ⟨p.val, by show _ < grid4.N; rw [N_4]; exact p.isLt⟩ := Fin.ext (by have := q.isLt; show (p.val * 4096 + q.val) / 4096 = p.val; omega)
  have e2 : (⟨(p.val * 4096 + q.val) % 4096, Nat.mod_lt _ (by decide)⟩ : Fin 4096) = q :=
    Fin.ext (by have := q.isLt; show (p.val * 4096 + q.val) % 4096 = q.val; omega)
  show yat4 V c ⟨(p.val * 4096 + q.val) / 4096, _⟩ (ix2 (⟨(p.val * 4096 + q.val) % 4096, _⟩ : Fin 4096) j) = _
  rw [e1, e2]

theorem arrAt4_7 (c : Dev nD) (G : Buf (Elt F) ((cfg4.win 7).arr.view.loc (c.tc : Thread nD τ)))
    (h : (rdat4 V c).ArrAt 7 cfg4.N G) : G = yArr4 V c := by
  funext (j : S65536x128.Idx)
  have hj := ValueIdx.idx2_lt0 j
  let u : Fin cfg4.N := ⟨(j 0).val / 4096, by show _ < grid4.N; rw [N_4]; omega⟩
  let x : S4096x128.Idx := ix2 (⟨(j 0).val % 4096, Nat.mod_lt _ (by decide)⟩ : Fin 4096) (j 1)
  have hb := congrFun (arrAt4_7_blk V c cfg4.N (le_of_eq N_4) G h u u.isLt) x
  have hjx : ((cfg4.win 7).rect u).emb x = j := by
    funext a; apply Fin.ext
    rw [Window.rect_emb_val, index4_7]
    match a with
    | ⟨0, _⟩ => show (j 0).val / 4096 * 4096 + (j 0).val % 4096 = (j 0).val; omega
    | ⟨1, _⟩ => show 0 * 128 + (j 1).val = (j 1).val; omega
  have hr : ((cfg4.win 7).blk u).view.read (Elt F) G x = G (((cfg4.win 7).rect u).emb x) := rfl
  rw [hr, hjx] at hb
  exact hb
end Arr5

end Cert.Kernel.Hand
end
-- ==== Proof.HandK.P2r5.lean ====
import proofs.«103476_j5987184410999_2_alg».proof.Proof.Gen.Kernel.Launch
import proofs.«103476_j5987184410999_2_alg».proof.Proof.Gen.Kernel.Skeleton
import proofs.«103476_j5987184410999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 x 128 extents: the elaborator's structural look recurses once per
-- coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 5 of @main: custom_call 5, `cc5__pass2_noise_kernel` (pipeline 5), at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for ANY proof
    data whose array is `V`'s (`hA`) and whose body leaves the block in place (`hafter`): unfetched, the block
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for ANY proof
    data whose array is `V`'s (`hA`) and whose body leaves the block in place (`hafter`): unfetched, the block
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for ANY proof
    data whose array is `V`'s (`hA`) and whose body leaves the block in place (`hafter`): unfetched, the block
    index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for ANY proof
    data whose array is `V`'s (`hA`) and whose body leaves the block in place (`hafter`): unfetched, the block
    index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for ANY proof
    data whose array is `V`'s (`hA`) and whose body leaves the block in place (`hafter`): unfetched, the block
    index has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S4096x128 := Rect.unit (s := S4096x128) ![0, 0] S4096x128.size inb_S4096x128_S4096x128_0_0
abbrev r5_1 : Rect S1x128 := Rect.unit (s := S1x128) ![0, 0] S1x128.size inb_S1x128_S1x128_0_0

/-! ## What the body leaves in the output window's buffer -/

/-- Window 6's staging buffer after the body, from the input windows' blocks (the block to normalise, the mean,
    the inverse deviation, the scale, the shift, the noise block): its one store as a piece (`View.canon`; the
    payload is the skeleton's, its arguments in the order the body loads them). -/
def out5_6 (x0 : Vec F S4096x128 .f32) (x1 x2 x3 x4 : Vec F S1x128 .f32) (x5 : Vec F S4096x128 .f32) : Vec F S4096x128 .f32 :=
  View.canon [⟨r5_0, k5_pay1 (View.ld x0 r5_0) (View.ld x3 r5_1) (View.ld x1 r5_1) (View.ld x2 r5_1) (View.ld x4 r5_1) (View.ld x5 r5_0)⟩]

/-- The store tiles the buffer, so it covers it. -/
theorem cover5_6 (p0 : Vec F S4096x128 .f32) (y : S4096x128.Idx) :
    ∃ pc ∈ ([⟨r5_0, p0⟩] : List (View.Piece (Elt F) S4096x128 .f32)), y ∈ pc.1.set :=
  View.cover_of_tiled [⟨r5_0, p0⟩] S4096x128.size (by rfl) y

/-! ## The body's triple -/

set_option maxHeartbeats 1000000 in
/-- The kernel body on whole staging memrefs, the inputs' at read contents `xW` and the output's at anything, runs to
    the continuation holding the inputs' as they were and the output's at `out5_6` of the inputs'. -/
theorem sound_kernel5 (c : Dev nD) (E : Set ℕ) (i : grid5.Coords)
    (arg1 : Memref sig .tc .vmem S4096x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x128 .f32) (x1 x2 x3 x4 : Vec F S1x128 .f32) (x5 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E
          (cc5__pass2_noise_kernel i arg1 harg1 arg2 harg2 arg3 harg3 arg4 harg4 arg5 harg5 arg6 harg6 arg7 harg7) K := by
  simp only [cc5__pass2_noise_kernel_eq_skeleton]; unfold cc5__pass2_noise_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_6 _)

/-! ## The pipeline's proof data -/

/-- The proof data of pipeline 5 on core `c`: the arrays as the region finds them (`V`); after the body at
    point `t` each input's buffer at its block and the output's at `out5_6` of the input blocks; the invariant the
    class's (`Pipeline.ΦA`: the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.HandK.ChainDefs2.lean ====
/-
  The canonical contents of the TensorCore's buffers around network node 2: after host stretch 4, after its statistics pass (region 4;
  the two statistics arrays at a canonical completion of their undefined rows), after host stretch 5, after its normalisation pass (region 5).
-/
import proofs.«103476_j5987184410999_2_alg».proof.Proof.HandK.ChainDefs1
import proofs.«103476_j5987184410999_2_alg».proof.Proof.HandK.P1r4Arr
import proofs.«103476_j5987184410999_2_alg».proof.Proof.HandK.P2r5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-- After host stretch 4: what region 4 is entered from. -/
def W9 (c : Dev nD) : Valuation τ sig (Elt F) := StableHlo.after hostOps4 (W8 m c)
abbrev E4 : (c : Dev nD) → (b : Ref sig .tc) → Buf (Elt F) ((c : Thread nD τ).loc b) := fun c b => W9 m c b
/-- What region 4 leaves in its arrays: the inputs as found, the product array, and the two statistics arrays at their
    canonical completion. -/
def GA4 (c : Dev nD) : (w : Fin cfg4.W) → Buf (Elt F) ((cfg4.win w).arr.view.loc (c.tc : Thread nD τ))
  | ⟨0, _⟩ => E4 m c (Pipeline.arrRef spec4 0)
  | ⟨1, _⟩ => E4 m c (Pipeline.arrRef spec4 1)
  | ⟨2, _⟩ => E4 m c (Pipeline.arrRef spec4 2)
  | ⟨3, _⟩ => E4 m c (Pipeline.arrRef spec4 3)
  | ⟨4, _⟩ => E4 m c (Pipeline.arrRef spec4 4)
  | ⟨5, _⟩ => E4 m c (Pipeline.arrRef spec4 5)
  | ⟨6, _⟩ => E4 m c (Pipeline.arrRef spec4 6)
  | ⟨7, _⟩ => yArr4 (E4 m) c
  | ⟨8, _⟩ => sumArr4 (E4 m) c
  | ⟨9, _⟩ => sqArr4 (E4 m) c
def W10 (c : Dev nD) : Valuation τ sig (Elt F) := Pipeline.withArrays spec4 c (W9 m c) (GA4 m c)
/-- After host stretch 5: what region 5 is entered from. -/
def W11 (c : Dev nD) : Valuation τ sig (Elt F) := StableHlo.after hostOps5 (W10 m c)
abbrev E5 : (c : Dev nD) → (b : Ref sig .tc) → Buf (Elt F) ((c : Thread nD τ).loc b) := fun c b => W11 m c b
/-- What region 5 leaves in its arrays. -/
def GA5 (c : Dev nD) (w : Fin cfg5.W) : Buf (Elt F) ((cfg5.win w).arr.view.loc (c.tc : Thread nD τ)) := (dat5 (E5 m) c).arrAt w cfg5.N
def W12 (c : Dev nD) : Valuation τ sig (Elt F) := Pipeline.withArrays spec5 c (W11 m c) (GA5 m c)

end Cert.Kernel.Hand

end
-- ==== Proof.HandK.P1r6.lean ====
/- Region 6 (the first pass-1 launch whose input arrives split in two halves) as RELATIONAL proof data, with its body
   obligation.

   The body computes a block of `y` from seven input blocks (the two halves of `x`, the two halves of the first weight,
   the first bias, the second weight and bias), stores it whole, and adds its column sums (and those of its square) into
   ROW 0 of two 8-row statistics blocks, which it first zeroes at the first point of each core's run of eight.
   Rows 1 to 7 of those blocks are never stored: what the body leaves there is what it found. So the data relates what the
   body finds in a buffer to what it leaves, and for the statistics blocks constrains row 0 only. -/
import proofs.«103476_j5987184410999_2_alg».proof.Proof.Gen.Kernel.Launch
import proofs.«103476_j5987184410999_2_alg».proof.Proof.Gen.Kernel.Skeleton
import proofs.«103476_j5987184410999_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## Region 6 (a pass-1 launch over a split input): names -/

/-- The condition of the body's one `scf.if`, from the grid coordinates (the skeleton's scalar chain substituted):
    the inner coordinate is zero. -/
abbrev r6cond (i : grid6.Coords) : Prop :=
  (Scalar.cmpi .ne (Scalar.extui (Scalar.cmpi .eq (BitVec.ofNat 32 (i 1).val) 0#32)) 0#32) = 1#1

/-- It holds at the first point of each core's run of eight: decided over the grid. -/
theorem r6cond_iff : ∀ t : Fin cfg6.N, r6cond (grid6.coords t) ↔ t.val % 8 = 0 :=
  (by decide +kernel : ∀ t : Fin grid6.N, r6cond (grid6.coords t) ↔ t.val % 8 = 0)

/-- Row 0 of a statistics block: the rectangle every load and store of the two accumulators goes through. -/
abbrev r6row : Rect S8x128 := Rect.unit (s := S8x128) ![0, 0] S1x128.size inb_S8x128_S1x128_0_0

/-- The row of zeros the body stores at the first point of a core's run. -/
def r6zrow : FVec F S1x128 .f32 := broadcast S1x128 (Scalar.ofBits .f32 0x00000000#32)

/-- One accumulation step: the row found plus the column sums of `y` (the reduction along axis 0 from the zero word). -/
def r6acc (r : Vec F S1x128 .f32) (y : FVec F S4096x128 .f32) : FVec F S1x128 .f32 :=
  addf (shapeCast S1x128 r shapeCasts_S1x128_S1x128)
    (shapeCast S1x128 (multiReduction .add [0] S128 y 0x00000000#32 reduces_S4096x128_S128 (.inl rfl) rfl) shapeCasts_S128_S1x128)

/-- The same of the squares. -/
def r6accsq (r : Vec F S1x128 .f32) (y : FVec F S4096x128 .f32) : FVec F S1x128 .f32 := r6acc r (mulf y y)

/-- The block of `y` the body computes from its seven input blocks: `relu(xa·Wa + xb·Wb + b1)·W2 + b2` with the matrix
    operands rounded to bf16 (the skeleton's payload). -/
def yblk6 (xa xb : Vec F S4096x128 .f32) (wa wb : Vec F S128x256 .f32) (b1 : Vec F S1x256 .f32) (w2 : Vec F S256x128 .f32)
    (b2 : Vec F S1x128 .f32) : Vec F S4096x128 .f32 := k6_pay5 xa xb wa wb b1 w2 b2

theorem k6_pay1_eq (y : FVec F S4096x128 .f32) (r : Vec F S1x128 .f32) : k6_pay1 y r = r6acc r y := rfl
theorem k6_pay2_eq (y : FVec F S4096x128 .f32) (r : Vec F S1x128 .f32) : k6_pay2 y r = r6accsq r y := rfl
theorem k6_pay3_eq : k6_pay3 (F := F) = r6zrow := rfl
theorem k6_pay4_eq : k6_pay4 (F := F) = r6zrow := rfl

theorem r6zeros2 : (![0, 0] : Fin 2 → ℕ) = fun _ => 0 := by funext a; fin_cases a <;> rfl

section WholeRect
variable {sg : RefSig} {κ : Kind} {sp : Space} {S : Shape} {e : EltTy} {Val : EltTy → Type}

/-- A load through the whole-shape rectangle at zero offsets reads the view's contents. -/
theorem r6readAt_unit_zero (v : View sg κ sp S e) {off : Fin S.rank → ℕ} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

/-- One store through it leaves its payload, whatever the buffer held. -/
theorem r6read_writes_unit_zero (v : View sg κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end WholeRect

theorem r6readAt_S4096x128 {sp : Space} (v : View sig .tc sp S4096x128 .f32) (f : v.ty.Contents (Elt F)) :
    v.readAt (Elt F) (Rect.unit (s := S4096x128) ![0, 0] S4096x128.size inb_S4096x128_S4096x128_0_0).toLoadRect f = v.read (Elt F) f :=
  r6readAt_unit_zero v r6zeros2 _ f
theorem r6readAt_S128x256 {sp : Space} (v : View sig .tc sp S128x256 .f32) (f : v.ty.Contents (Elt F)) :
    v.readAt (Elt F) (Rect.unit (s := S128x256) ![0, 0] S128x256.size inb_S128x256_S128x256_0_0).toLoadRect f = v.read (Elt F) f :=
  r6readAt_unit_zero v r6zeros2 _ f
theorem r6readAt_S1x256 {sp : Space} (v : View sig .tc sp S1x256 .f32) (f : v.ty.Contents (Elt F)) :
    v.readAt (Elt F) (Rect.unit (s := S1x256) ![0, 0] S1x256.size inb_S1x256_S1x256_0_0).toLoadRect f = v.read (Elt F) f :=
  r6readAt_unit_zero v r6zeros2 _ f
theorem r6readAt_S256x128 {sp : Space} (v : View sig .tc sp S256x128 .f32) (f : v.ty.Contents (Elt F)) :
    v.readAt (Elt F) (Rect.unit (s := S256x128) ![0, 0] S256x128.size inb_S256x128_S256x128_0_0).toLoadRect f = v.read (Elt F) f :=
  r6readAt_unit_zero v r6zeros2 _ f
theorem r6readAt_S1x128 {sp : Space} (v : View sig .tc sp S1x128 .f32) (f : v.ty.Contents (Elt F)) :
    v.readAt (Elt F) (Rect.unit (s := S1x128) ![0, 0] S1x128.size inb_S1x128_S1x128_0_0).toLoadRect f = v.read (Elt F) f :=
  r6readAt_unit_zero v r6zeros2 _ f

/-- The whole-block store of window 7 leaves its payload. -/
theorem r6read_whole_store {sp : Space} (v : View sig .tc sp S4096x128 .f32) (f : v.ty.Contents (Elt F)) (w : Vec F S4096x128 .f32) :
    v.read (Elt F) (v.writes (Elt F) f [⟨Rect.unit (s := S4096x128) ![0, 0] S4096x128.size inb_S4096x128_S4096x128_0_0, w⟩]) = w :=
  r6read_writes_unit_zero v r6zeros2 _ f w []

/-- Row 0 after a store through row 0, whatever was stored before. -/
theorem r6ld_row_store {sp : Space} (v : View sig .tc sp S8x128 .f32) (f : v.ty.Contents (Elt F)) (w : Vec F S1x128 .f32)
    (L : List (View.Piece (Elt F) S8x128 .f32)) :
    View.ld (v.read (Elt F) (v.writes (Elt F) f (⟨r6row, w⟩ :: L))) r6row = w :=
  funext fun x => View.read_writes_cons_emb v f r6row w L x

/-! ## The body's two runs, over arbitrary staging contents -/

set_option maxHeartbeats 1000000 in
/-- The body at a point that is not the first of its core's run: row 0 of each statistics block is the row found plus the sums. -/
theorem sound_kernel6_later (c : Dev nD) (i : grid6.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : ¬r6cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk6 x0 x1 x2 x3 x4 x5 x6)
            ∗ (∃ X, ⌜View.ld X r6row = r6acc (View.ld y8 r6row) (yblk6 x0 x1 x2 x3 x4 x5 x6)⌝ ∗ owns (c : Thread nD τ) arg10 fullShare X)
            ∗ (∃ X, ⌜View.ld X r6row = r6accsq (View.ld y9 r6row) (yblk6 x0 x1 x2 x3 x4 x5 x6)⌝ ∗ owns (c : Thread nD τ) arg11 fullShare X)) -∗ K ⟨⟩))
      ⊢ wp frame (wpE (defs₀ (F := F)) Variants.none c none) E (cc6__pass1_kernel_split i arg2 harg2 arg3 harg3 arg4 harg4 arg5 harg5 arg6 harg6 arg7 harg7 arg8 harg8 arg9 harg9 arg10 harg10 arg11 harg11) K := by
  simp only [cc6__pass1_kernel_split_eq_skeleton]; unfold cc6__pass1_kernel_split_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r6readAt_S4096x128, r6readAt_S4096x128, r6readAt_S128x256, r6readAt_S128x256, r6readAt_S1x256, r6readAt_S256x128, r6readAt_S1x128]
    exact r6read_whole_store (F := F) _ _ _
  isplitl [H8]
  · iexists _; isplitr; swap
    · iexists _; isplitr; swap; · iexact H8
      ipureintro; rfl
    ipureintro
    rw [r6readAt_S4096x128, r6readAt_S4096x128, r6readAt_S128x256, r6readAt_S128x256, r6readAt_S1x256, r6readAt_S256x128, r6readAt_S1x128]
    rw [k6_pay1_eq]
    exact r6ld_row_store (F := F) _ _ _ _
  · iexists _; isplitr; swap
    · iexists _; isplitr; swap; · iexact H9
      ipureintro; rfl
    ipureintro
    rw [r6readAt_S4096x128, r6readAt_S4096x128, r6readAt_S128x256, r6readAt_S128x256, r6readAt_S1x256, r6readAt_S256x128, r6readAt_S1x128]
    rw [k6_pay2_eq]
    exact r6ld_row_store (F := F) _ _ _ _

set_option maxHeartbeats 1000000 in
/-- The body at the first point of a core's run: row 0 of each statistics block is the zero row plus the sums. -/
theorem sound_kernel6_first (c : Dev nD) (i : grid6.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : r6cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk6 x0 x1 x2 x3 x4 x5 x6)
            ∗ (∃ X, ⌜View.ld X r6row = r6acc r6zrow (yblk6 x0 x1 x2 x3 x4 x5 x6)⌝ ∗ owns (c : Thread nD τ) arg10 fullShare X)
            ∗ (∃ X, ⌜View.ld X r6row = r6accsq r6zrow (yblk6 x0 x1 x2 x3 x4 x5 x6)⌝ ∗ owns (c : Thread nD τ) arg11 fullShare X)) -∗ K ⟨⟩))
      ⊢ wp frame (wpE (defs₀ (F := F)) Variants.none c none) E (cc6__pass1_kernel_split i arg2 harg2 arg3 harg3 arg4 harg4 arg5 harg5 arg6 harg6 arg7 harg7 arg8 harg8 arg9 harg9 arg10 harg10 arg11 harg11) K := by
  simp only [cc6__pass1_kernel_split_eq_skeleton]; unfold cc6__pass1_kernel_split_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r6readAt_S4096x128, r6readAt_S4096x128, r6readAt_S128x256, r6readAt_S128x256, r6readAt_S1x256, r6readAt_S256x128, r6readAt_S1x128]
    exact r6read_whole_store (F := F) _ _ _
  isplitl [H8]
  · iexists _; isplitr; swap
    · iexists _; isplitr; swap; · iexact H8
      ipureintro; rfl
    ipureintro
    rw [r6readAt_S4096x128, r6readAt_S4096x128, r6readAt_S128x256, r6readAt_S128x256, r6readAt_S1x256, r6readAt_S256x128, r6readAt_S1x128]
    rw [k6_pay1_eq]
    refine (r6ld_row_store (F := F) _ _ _ _).trans ?_
    congr 1
    sl_unfold_run_names
    exact View.readCov_cons_toLoadRect _ _ _ _
  · iexists _; isplitr; swap
    · iexists _; isplitr; swap; · iexact H9
      ipureintro; rfl
    ipureintro
    rw [r6readAt_S4096x128, r6readAt_S4096x128, r6readAt_S128x256, r6readAt_S128x256, r6readAt_S1x256, r6readAt_S256x128, r6readAt_S1x128]
    rw [k6_pay2_eq]
    refine (r6ld_row_store (F := F) _ _ _ _).trans ?_
    congr 1
    sl_unfold_run_names
    exact View.readCov_cons_toLoadRect _ _ _ _

/-! ## The proof data of region 6, relational -/

variable (V : (c : Dev nD) → (b : Ref sig .tc) → Buf (Elt F) ((c : Thread nD τ).loc b))

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The block of `y` at point `t`: the body's function of the seven input blocks there. -/
def yat6 (c : Dev nD) (t : Fin cfg6.N) : Vec F S4096x128 .f32 :=
  yblk6 (iblk6 V c 0 t) (iblk6 V c 1 t) (iblk6 V c 2 t) (iblk6 V c 3 t) (iblk6 V c 4 t) (iblk6 V c 5 t) (iblk6 V c 6 t)

/-- The proof data of the launch on core `c`: the arrays as the region finds them; an input's buffer is left as found; the
    `y` window's buffer is left at the block of `y`; of a statistics window's buffer only row 0 is constrained — it is the
    row found (the zero row at the first point of a core's run) plus the column sums of the block of `y` (of its square) —, and
    nothing is said of rows 1 to 7, which the body never stores. -/
def rdat6 (c : Dev nD) : RDat τ (Elt F) Unit ℕ (UR sig nD τ) ℕ cfg6 c where
  A w := V c (Pipeline.arrRef spec6 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => X = yat6 V c t
    | ⟨8, _⟩ => fun Y X => View.ld X r6row = r6acc (if t.val % 8 = 0 then r6zrow else View.ld Y r6row) (yat6 V c t)
    | ⟨9, _⟩ => fun Y X => View.ld X r6row = r6accsq (if t.val % 8 = 0 then r6zrow else View.ld Y r6row) (yat6 V c t)
  Φ _ := Pipeline.ΦA spec6 c
  q _ := fullShare
  owed _ := 0

theorem rdat6_A (c : Dev nD) (w : Fin cfg6.W) : (rdat6 V c).A w = V c (Pipeline.arrRef spec6 w) := by dsimp only [rdat6]

theorem after6_0 (c : Dev nD) (t : Fin cfg6.N) Y X : (rdat6 V c).after 0 t Y X ↔ X = Y := by dsimp only [rdat6]; exact Iff.rfl
theorem after6_1 (c : Dev nD) (t : Fin cfg6.N) Y X : (rdat6 V c).after 1 t Y X ↔ X = Y := by dsimp only [rdat6]; exact Iff.rfl
theorem after6_2 (c : Dev nD) (t : Fin cfg6.N) Y X : (rdat6 V c).after 2 t Y X ↔ X = Y := by dsimp only [rdat6]; exact Iff.rfl
theorem after6_3 (c : Dev nD) (t : Fin cfg6.N) Y X : (rdat6 V c).after 3 t Y X ↔ X = Y := by dsimp only [rdat6]; exact Iff.rfl
theorem after6_4 (c : Dev nD) (t : Fin cfg6.N) Y X : (rdat6 V c).after 4 t Y X ↔ X = Y := by dsimp only [rdat6]; exact Iff.rfl
theorem after6_5 (c : Dev nD) (t : Fin cfg6.N) Y X : (rdat6 V c).after 5 t Y X ↔ X = Y := by dsimp only [rdat6]; exact Iff.rfl
theorem after6_6 (c : Dev nD) (t : Fin cfg6.N) Y X : (rdat6 V c).after 6 t Y X ↔ X = Y := by dsimp only [rdat6]; exact Iff.rfl
theorem after6_7 (c : Dev nD) (t : Fin cfg6.N) Y X : (rdat6 V c).after 7 t Y X ↔ X = yat6 V c t := by dsimp only [rdat6]; exact Iff.rfl
theorem after6_8 (c : Dev nD) (t : Fin cfg6.N) Y X : (rdat6 V c).after 8 t Y X ↔
    View.ld X r6row = r6acc (if t.val % 8 = 0 then r6zrow else View.ld Y r6row) (yat6 V c t) := by dsimp only [rdat6]; exact Iff.rfl
theorem after6_9 (c : Dev nD) (t : Fin cfg6.N) Y X : (rdat6 V c).after 9 t Y X ↔
    View.ld X r6row = r6accsq (if t.val % 8 = 0 then r6zrow else View.ld Y r6row) (yat6 V c t) := by dsimp only [rdat6]; exact Iff.rfl

/-! ## What the body finds in an input's buffer: the window's block, fetched at the point or not -/

theorem finds6_0 (c : Dev nD) (t : Fin cfg6.N) (Y) (h : (rdat6 V c).Finds 0 t Y) : Y = iblk6 V c 0 t := by
  obtain ⟨d, rfl⟩ := (rdat6 V c).finds_in_eq_fetched 0 rfl (fun _ _ _ => rfl) (fun t Y X h => (after6_0 V c t Y X).mp h) t Y h
  unfold RDat.fetched RDat.blockOf iblk6; rw [rdat6_A]; rfl

theorem finds6_1 (c : Dev nD) (t : Fin cfg6.N) (Y) (h : (rdat6 V c).Finds 1 t Y) : Y = iblk6 V c 1 t := by
  obtain ⟨d, rfl⟩ := (rdat6 V c).finds_in_eq_fetched 1 rfl (fun _ _ _ => rfl) (fun t Y X h => (after6_1 V c t Y X).mp h) t Y h
  unfold RDat.fetched RDat.blockOf iblk6; rw [rdat6_A]; rfl

theorem finds6_2 (c : Dev nD) (t : Fin cfg6.N) (Y) (h : (rdat6 V c).Finds 2 t Y) : Y = iblk6 V c 2 t := by
  obtain ⟨d, rfl⟩ := (rdat6 V c).finds_in_eq_fetched 2 rfl (fun _ _ _ => rfl) (fun t Y X h => (after6_2 V c t Y X).mp h) t Y h
  unfold RDat.fetched RDat.blockOf iblk6; rw [rdat6_A]; rfl

theorem finds6_3 (c : Dev nD) (t : Fin cfg6.N) (Y) (h : (rdat6 V c).Finds 3 t Y) : Y = iblk6 V c 3 t := by
  obtain ⟨d, rfl⟩ := (rdat6 V c).finds_in_eq_fetched 3 rfl (fun _ _ _ => rfl) (fun t Y X h => (after6_3 V c t Y X).mp h) t Y h
  unfold RDat.fetched RDat.blockOf iblk6; rw [rdat6_A]; rfl

theorem finds6_4 (c : Dev nD) (t : Fin cfg6.N) (Y) (h : (rdat6 V c).Finds 4 t Y) : Y = iblk6 V c 4 t := by
  obtain ⟨d, rfl⟩ := (rdat6 V c).finds_in_eq_fetched 4 rfl (fun _ _ _ => rfl) (fun t Y X h => (after6_4 V c t Y X).mp h) t Y h
  unfold RDat.fetched RDat.blockOf iblk6; rw [rdat6_A]; rfl

theorem finds6_5 (c : Dev nD) (t : Fin cfg6.N) (Y) (h : (rdat6 V c).Finds 5 t Y) : Y = iblk6 V c 5 t := by
  obtain ⟨d, rfl⟩ := (rdat6 V c).finds_in_eq_fetched 5 rfl (fun _ _ _ => rfl) (fun t Y X h => (after6_5 V c t Y X).mp h) t Y h
  unfold RDat.fetched RDat.blockOf iblk6; rw [rdat6_A]; rfl

theorem finds6_6 (c : Dev nD) (t : Fin cfg6.N) (Y) (h : (rdat6 V c).Finds 6 t Y) : Y = iblk6 V c 6 t := by
  obtain ⟨d, rfl⟩ := (rdat6 V c).finds_in_eq_fetched 6 rfl (fun _ _ _ => rfl) (fun t Y X h => (after6_6 V c t Y X).mp h) t Y h
  unfold RDat.fetched RDat.blockOf iblk6; rw [rdat6_A]; rfl

/-! ## The body obligation -/

set_option maxHeartbeats 1000000 in
/-- The body at any point, on the buffers the pipeline hands it: the inputs' hold their blocks (`h0` … `h6`), the outputs' anything.
    The point's position in its core's run of eight says which of the two runs applies; what the run leaves is in the relation. -/
theorem sound_body6 (c : Dev nD) (t : Fin cfg6.N) (Y : (w : Fin cfg6.W) → (cfg6.win w).block.Idx → Elt F (cfg6.win w).elt)
    (h0 : Y 0 = iblk6 V c 0 t) (h1 : Y 1 = iblk6 V c 1 t) (h2 : Y 2 = iblk6 V c 2 t) (h3 : Y 3 = iblk6 V c 3 t) (h4 : Y 4 = iblk6 V c 4 t) (h5 : Y 5 = iblk6 V c 5 t) (h6 : Y 6 = iblk6 V c 6 t) :
    iprop((rdat6 V c).Φ t.castSucc ∗ (rdat6 V c).owesAt () t.castSucc
        ∗ owns (c : Thread nD τ) ((cfg6.win 0).stage (cfg6.slots t 0)) fullShare (Y 0)
        ∗ owns (c : Thread nD τ) ((cfg6.win 1).stage (cfg6.slots t 1)) fullShare (Y 1)
        ∗ owns (c : Thread nD τ) ((cfg6.win 2).stage (cfg6.slots t 2)) fullShare (Y 2)
        ∗ owns (c : Thread nD τ) ((cfg6.win 3).stage (cfg6.slots t 3)) fullShare (Y 3)
        ∗ owns (c : Thread nD τ) ((cfg6.win 4).stage (cfg6.slots t 4)) fullShare (Y 4)
        ∗ owns (c : Thread nD τ) ((cfg6.win 5).stage (cfg6.slots t 5)) fullShare (Y 5)
        ∗ owns (c : Thread nD τ) ((cfg6.win 6).stage (cfg6.slots t 6)) fullShare (Y 6)
        ∗ owns (c : Thread nD τ) ((cfg6.win 7).stage (cfg6.slots t 7)) fullShare (Y 7)
        ∗ owns (c : Thread nD τ) ((cfg6.win 8).stage (cfg6.slots t 8)) fullShare (Y 8)
        ∗ owns (c : Thread nD τ) ((cfg6.win 9).stage (cfg6.slots t 9)) fullShare (Y 9))
      ⊢ wp frame (wpE (defs₀ (F := F)) Variants.none c none) Set.univ (bodyAt6 t) (fun _ =>
        iprop((rdat6 V c).Φ t.succ ∗ (rdat6 V c).owesAt () t.succ
          ∗ (∃ X, ⌜(rdat6 V c).after 0 t (Y 0) X⌝ ∗ owns (c : Thread nD τ) ((cfg6.win 0).stage (cfg6.slots t 0)) fullShare X)
          ∗ (∃ X, ⌜(rdat6 V c).after 1 t (Y 1) X⌝ ∗ owns (c : Thread nD τ) ((cfg6.win 1).stage (cfg6.slots t 1)) fullShare X)
          ∗ (∃ X, ⌜(rdat6 V c).after 2 t (Y 2) X⌝ ∗ owns (c : Thread nD τ) ((cfg6.win 2).stage (cfg6.slots t 2)) fullShare X)
          ∗ (∃ X, ⌜(rdat6 V c).after 3 t (Y 3) X⌝ ∗ owns (c : Thread nD τ) ((cfg6.win 3).stage (cfg6.slots t 3)) fullShare X)
          ∗ (∃ X, ⌜(rdat6 V c).after 4 t (Y 4) X⌝ ∗ owns (c : Thread nD τ) ((cfg6.win 4).stage (cfg6.slots t 4)) fullShare X)
          ∗ (∃ X, ⌜(rdat6 V c).after 5 t (Y 5) X⌝ ∗ owns (c : Thread nD τ) ((cfg6.win 5).stage (cfg6.slots t 5)) fullShare X)
          ∗ (∃ X, ⌜(rdat6 V c).after 6 t (Y 6) X⌝ ∗ owns (c : Thread nD τ) ((cfg6.win 6).stage (cfg6.slots t 6)) fullShare X)
          ∗ (∃ X, ⌜(rdat6 V c).after 7 t (Y 7) X⌝ ∗ owns (c : Thread nD τ) ((cfg6.win 7).stage (cfg6.slots t 7)) fullShare X)
          ∗ (∃ X, ⌜(rdat6 V c).after 8 t (Y 8) X⌝ ∗ owns (c : Thread nD τ) ((cfg6.win 8).stage (cfg6.slots t 8)) fullShare X)
          ∗ (∃ X, ⌜(rdat6 V c).after 9 t (Y 9) X⌝ ∗ owns (c : Thread nD τ) ((cfg6.win 9).stage (cfg6.slots t 9)) fullShare X))) := by
  unfold bodyAt6
  rw [show (rdat6 V c).Φ t.succ = (rdat6 V c).Φ t.castSucc from rfl,
    show (rdat6 V c).owesAt () t.succ = (rdat6 V c).owesAt () t.castSucc from rfl]
  by_cases h : t.val % 8 = 0
  ·
    iintro ⟨HΦ, Ho, H0, H1, H2, H3, H4, H5, H6, H7, H8, H9⟩
    iapply (sound_kernel6_first c (grid6.coords t) _ _ _ _ _ _ _ _ _ _ _ _ _ _ _ _ _ _ _ _ ((r6cond_iff t).mpr h) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after6_0 V c t _ _).mpr rfl
    isplitl [H1]
    · iexists _; isplitr; swap; · iexact H1
      ipureintro; exact (after6_1 V c t _ _).mpr rfl
    isplitl [H2]
    · iexists _; isplitr; swap; · iexact H2
      ipureintro; exact (after6_2 V c t _ _).mpr rfl
    isplitl [H3]
    · iexists _; isplitr; swap; · iexact H3
      ipureintro; exact (after6_3 V c t _ _).mpr rfl
    isplitl [H4]
    · iexists _; isplitr; swap; · iexact H4
      ipureintro; exact (after6_4 V c t _ _).mpr rfl
    isplitl [H5]
    · iexists _; isplitr; swap; · iexact H5
      ipureintro; exact (after6_5 V c t _ _).mpr rfl
    isplitl [H6]
    · iexists _; isplitr; swap; · iexact H6
      ipureintro; exact (after6_6 V c t _ _).mpr rfl
    isplitl [H7]
    · iexists _; isplitr; swap; · iexact H7
      ipureintro; rw [after6_7]; unfold yat6; rw [← h0, ← h1, ← h2, ← h3, ← h4, ← h5, ← h6]
    isplitl [H8]
    · iexists X8; isplitr; swap; · iexact H8
      ipureintro; rw [after6_8, if_pos h]; unfold yat6; rw [← h0, ← h1, ← h2, ← h3, ← h4, ← h5, ← h6]; exact hX8
    · iexists X9; isplitr; swap; · iexact H9
      ipureintro; rw [after6_9, if_pos h]; unfold yat6; rw [← h0, ← h1, ← h2, ← h3, ← h4, ← h5, ← h6]; exact hX9
  ·
    iintro ⟨HΦ, Ho, H0, H1, H2, H3, H4, H5, H6, H7, H8, H9⟩
    iapply (sound_kernel6_later c (grid6.coords t) _ _ _ _ _ _ _ _ _ _ _ _ _ _ _ _ _ _ _ _ (fun hc => h ((r6cond_iff t).mp hc)) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after6_0 V c t _ _).mpr rfl
    isplitl [H1]
    · iexists _; isplitr; swap; · iexact H1
      ipureintro; exact (after6_1 V c t _ _).mpr rfl
    isplitl [H2]
    · iexists _; isplitr; swap; · iexact H2
      ipureintro; exact (after6_2 V c t _ _).mpr rfl
    isplitl [H3]
    · iexists _; isplitr; swap; · iexact H3
      ipureintro; exact (after6_3 V c t _ _).mpr rfl
    isplitl [H4]
    · iexists _; isplitr; swap; · iexact H4
      ipureintro; exact (after6_4 V c t _ _).mpr rfl
    isplitl [H5]
    · iexists _; isplitr; swap; · iexact H5
      ipureintro; exact (after6_5 V c t _ _).mpr rfl
    isplitl [H6]
    · iexists _; isplitr; swap; · iexact H6
      ipureintro; exact (after6_6 V c t _ _).mpr rfl
    isplitl [H7]
    · iexists _; isplitr; swap; · iexact H7
      ipureintro; rw [after6_7]; unfold yat6; rw [← h0, ← h1, ← h2, ← h3, ← h4, ← h5, ← h6]
    isplitl [H8]
    · iexists X8; isplitr; swap; · iexact H8
      ipureintro; rw [after6_8, if_neg h]; unfold yat6; rw [← h0, ← h1, ← h2, ← h3, ← h4, ← h5, ← h6]; exact hX8
    · iexists X9; isplitr; swap; · iexact H9
      ipureintro; rw [after6_9, if_neg h]; unfold yat6; rw [← h0, ← h1, ← h2, ← h3, ← h4, ← h5, ← h6]; exact hX9

/-- The library's body obligation of the relational data, at every point. -/
theorem body_obligation6 (c : Dev nD) : (rdat6 (F := F) V c).BodyObligation (defs₀ (F := F)) Variants.none () Set.univ := by
  intro t Y hY
  rw [bigSep_W6, bigSep_W6]
  exact sound_body6 V c t Y (finds6_0 V c t _ (hY 0)) (finds6_1 V c t _ (hY 1)) (finds6_2 V c t _ (hY 2)) (finds6_3 V c t _ (hY 3)) (finds6_4 V c t _ (hY 4)) (finds6_5 V c t _ (hY 5)) (finds6_6 V c t _ (hY 6))

end Cert.Kernel.Hand
end
-- ==== Proof.HandK.P1r6Arr.lean ====
/- What region 6's arrays hold after the launch, from the relational data's `ArrAt` (pure: no separation logic).

   An input array is as the region found it. Row block `p` of the array of `y` is the block of `y` at point `p`. Of a
   statistics array only rows 0 and 8 are determined: row 0 is core 0's fold — the zero row with the column sums of the blocks
   of `y` (of their squares) at its eight points added in point order —, row 8 core 1's. -/
import proofs.«103476_j5987184410999_2_alg».proof.Proof.HandK.P1r6
import proofs.«103476_j5987184410999_2_alg».proof.Proof.HandK.Agree
import Idealize.ShloMosaic.Lib.Pipeline.Cells
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA
open Idealize.ShloMosaic.Pipeline (RDat Dat Cfg Window cellOf)
open Idealize.ShloMosaic.ValueIdx (ix2 eq_ix2)

variable {F : FTy → Type} [FloatOps F]

variable (V : (c : Dev nD) → (b : Ref sig .tc) → Buf (Elt F) ((c : Thread nD τ).loc b))

/-! ## What the arrays hold after the launch -/

section Arr

/-! ### Inputs: never written -/

theorem arrAt6_in_of (c : Dev nD) (w : Fin cfg6.W) (hw : (cfg6.win w).isOut = false) (n : ℕ)
    (G : Buf (Elt F) ((cfg6.win w).arr.view.loc (c.tc : Thread nD τ))) (h : (rdat6 V c).ArrAt w n G) :
    G = V c (Pipeline.arrRef spec6 w) := by
  rw [RDat.ArrAt_in _ w hw n] at h; exact h.trans (rdat6_A V c w)

/-- The first seven windows are the inputs. -/
theorem isOut6_in : ∀ w : Fin cfg6.W, w.val < 7 → (cfg6.win w).isOut = false := by decide

/-- An input's array is as the region found it. -/
theorem arrAt6_in (c : Dev nD) (w : Fin cfg6.W) (hw : w.val < 7)
    (G : Buf (Elt F) ((cfg6.win w).arr.view.loc (c.tc : Thread nD τ))) (h : (rdat6 V c).ArrAt w cfg6.N G) :
    G = V c (Pipeline.arrRef spec6 w) := arrAt6_in_of V c w (isOut6_in w hw) cfg6.N G h

/-! ### The schedule of the three outputs -/

theorem fetch6_7 : ∀ t : Fin cfg6.N, (cfg6.win 7).fetch t = false :=
  (by decide +kernel : ∀ t : Fin grid6.N, win6_7.fetch t = false)
theorem fetch6_8 : ∀ t : Fin cfg6.N, (cfg6.win 8).fetch t = false :=
  (by decide +kernel : ∀ t : Fin grid6.N, win6_8.fetch t = false)
theorem fetch6_9 : ∀ t : Fin cfg6.N, (cfg6.win 9).fetch t = false :=
  (by decide +kernel : ∀ t : Fin grid6.N, win6_9.fetch t = false)

/-- The block index of the `y` window at point `t`: row block `t`. -/
theorem index6_7 : ∀ t : Fin cfg6.N, (cfg6.win 7).index t = ![t.val, 0] :=
  (by decide +kernel : ∀ t : Fin grid6.N, win6_7.index t = ![t.val, 0])
/-- The block index of a statistics window at point `t`: the core's. -/
theorem index6_8 : ∀ t : Fin cfg6.N, (cfg6.win 8).index t = ![t.val / 8, 0] :=
  (by decide +kernel : ∀ t : Fin grid6.N, win6_8.index t = ![t.val / 8, 0])
theorem index6_9 : ∀ t : Fin cfg6.N, (cfg6.win 9).index t = ![t.val / 8, 0] :=
  (by decide +kernel : ∀ t : Fin grid6.N, win6_9.index t = ![t.val / 8, 0])

/-! ### Window 7: block `t` of the array is the block of `y` at `t` -/

theorem leaves6_7 (c : Dev nD) (t : Fin cfg6.N) (X) (h : (rdat6 V c).Leaves 7 t X) : X = yat6 V c t := by
  obtain ⟨Y, -, hA⟩ := h
  exact (after6_7 V c t Y X).mp hA

theorem arrAt6_7_blk (c : Dev nD) : ∀ (n : ℕ), n ≤ 16 → ∀ G, (rdat6 V c).ArrAt 7 n G →
    ∀ u : Fin cfg6.N, u.val < n → ((cfg6.win 7).blk u).view.read (Elt F) G = yat6 V c u
  | 0, _, _, _, u, hu => absurd hu (Nat.not_lt_zero _)
  | n + 1, hn, G, h, u, hu => by
    have hN : n < cfg6.N := by show n < grid6.N; rw [N_6]; omega
    rw [show n + 1 = (⟨n, hN⟩ : Fin cfg6.N).val + 1 from rfl, RDat.ArrAt_succ, if_pos (flush6_7 _)] at h
    obtain ⟨G₀, X, hG₀, hX, rfl⟩ := h
    obtain rfl := leaves6_7 V c _ X hX
    by_cases hun : u.val = n
    · have e : u = ⟨n, hN⟩ := Fin.ext hun
      subst e
      exact View.read_write_univ _ _
    · refine Eq.trans ?_ (arrAt6_7_blk c n (by omega) G₀ hG₀ u (by omega))
      refine View.read_congr fun i hi => View.write_of_not_mem _ _ _ ?_
      have hd := (cfg6.win 7).disjoint_blk (u := u) (u' := ⟨n, hN⟩) (by
        rw [index6_7, index6_7]; intro e; exact hun (by simpa using congrFun e 0))
      exact Finset.disjoint_left.mp hd hi
end Arr

section Arr3

/-! ### Windows 8 and 9: row 0 of a core's statistics block is the fold of its eight points -/

/-- Point `j` of core `q`'s run of eight. -/
def r6pt (q : Fin 2) (j : ℕ) (hj : j < 8) : Fin cfg6.N := ⟨8 * q.val + j, by have := q.isLt; show _ < grid6.N; rw [N_6]; omega⟩

/-- Row 0 of core `q`'s sum block after its point `j`: the zero row with the column sums of the blocks of `y` at the points
    `0 … j` of the core's run added in that order. -/
def r6sum (c : Dev nD) (q : Fin 2) : (j : ℕ) → j < 8 → FVec F S1x128 .f32
  | 0, h => r6acc r6zrow (yat6 V c (r6pt q 0 h))
  | j + 1, h => r6acc (r6sum c q j (Nat.lt_of_succ_lt h)) (yat6 V c (r6pt q (j + 1) h))

/-- The same of the squares. -/
def r6sumsq (c : Dev nD) (q : Fin 2) : (j : ℕ) → j < 8 → FVec F S1x128 .f32
  | 0, h => r6accsq r6zrow (yat6 V c (r6pt q 0 h))
  | j + 1, h => r6accsq (r6sumsq c q j (Nat.lt_of_succ_lt h)) (yat6 V c (r6pt q (j + 1) h))

theorem leaves6_8 (c : Dev nD) (q : Fin 2) : ∀ (j : ℕ) (hj : j < 8) (X), (rdat6 V c).Leaves 8 (r6pt q j hj) X →
    View.ld X r6row = r6sum V c q j hj
  | 0, hj, X, h => by
    obtain ⟨Y, -, hA⟩ := h
    rw [after6_8, if_pos (by show (8 * q.val + 0) % 8 = 0; omega)] at hA
    exact hA
  | j + 1, hj, X, h => by
    obtain ⟨Y, hF, hA⟩ := h
    rw [after6_8, if_neg (by show ¬(8 * q.val + (j + 1)) % 8 = 0; omega)] at hA
    rw [RDat.finds_of_pos _ (fetch6_8 _) (by show 8 * q.val + (j + 1) ≠ 0; omega)] at hF
    rcases hF with hfl | hL
    · exact absurd ((flush6_8 _).mp hfl) (by show ¬(8 * q.val + (j + 1) - 1) % 8 = 7; omega)
    · have e : (⟨(r6pt q (j + 1) hj).val - 1, Nat.lt_of_le_of_lt (Nat.sub_le _ _) (r6pt q (j + 1) hj).isLt⟩ : Fin cfg6.N)
          = r6pt q j (Nat.lt_of_succ_lt hj) := Fin.ext (by show 8 * q.val + (j + 1) - 1 = 8 * q.val + j; omega)
      rw [e] at hL
      rw [hA, leaves6_8 c q j (Nat.lt_of_succ_lt hj) Y hL]
      rfl

theorem leaves6_9 (c : Dev nD) (q : Fin 2) : ∀ (j : ℕ) (hj : j < 8) (X), (rdat6 V c).Leaves 9 (r6pt q j hj) X →
    View.ld X r6row = r6sumsq V c q j hj
  | 0, hj, X, h => by
    obtain ⟨Y, -, hA⟩ := h
    rw [after6_9, if_pos (by show (8 * q.val + 0) % 8 = 0; omega)] at hA
    exact hA
  | j + 1, hj, X, h => by
    obtain ⟨Y, hF, hA⟩ := h
    rw [after6_9, if_neg (by show ¬(8 * q.val + (j + 1)) % 8 = 0; omega)] at hA
    rw [RDat.finds_of_pos _ (fetch6_9 _) (by show 8 * q.val + (j + 1) ≠ 0; omega)] at hF
    rcases hF with hfl | hL
    · exact absurd ((flush6_9 _).mp hfl) (by show ¬(8 * q.val + (j + 1) - 1) % 8 = 7; omega)
    · have e : (⟨(r6pt q (j + 1) hj).val - 1, Nat.lt_of_le_of_lt (Nat.sub_le _ _) (r6pt q (j + 1) hj).isLt⟩ : Fin cfg6.N)
          = r6pt q j (Nat.lt_of_succ_lt hj) := Fin.ext (by show 8 * q.val + (j + 1) - 1 = 8 * q.val + j; omega)
      rw [e] at hL
      rw [hA, leaves6_9 c q j (Nat.lt_of_succ_lt hj) Y hL]
      rfl

end Arr3

section Arr4

section TwoWrites
variable {sg : RefSig} {κ : Kind} {sp : Space} {s : Shape} {e : EltTy} {Val : EltTy → Type}

/-- After two writes through rectangles of a view, an element of the first rectangle outside the second reads the first payload; -/
theorem r6read_two_writes_fst (v : View sg κ sp s e) (r r' : Rect s) (f : v.ty.Contents Val) (w : r.shape.Idx → Val e)
    (w' : r'.shape.Idx → Val e) (x : r.shape.Idx) (i : s.Idx) (hi : i = r.emb x) (h : i ∉ r'.set) :
    v.read Val ((v.slice r').write Val ((v.slice r).write Val f w Finset.univ) w' Finset.univ) i = w x := by
  subst hi
  rw [View.read_slice_write_of_not_mem r' _ _ _ (by rw [Rect.map_emb_univ]; exact h),
    View.read_slice_write_emb r _ _ (Finset.mem_univ x)]

/-- an element of the second reads the second. -/
theorem r6read_two_writes_snd (v : View sg κ sp s e) (r r' : Rect s) (f : v.ty.Contents Val) (w : r.shape.Idx → Val e)
    (w' : r'.shape.Idx → Val e) (x : r'.shape.Idx) (i : s.Idx) (hi : i = r'.emb x) :
    v.read Val ((v.slice r').write Val ((v.slice r).write Val f w Finset.univ) w' Finset.univ) i = w' x := by
  subst hi
  exact View.read_slice_write_emb r' _ _ (Finset.mem_univ x)
end TwoWrites

theorem arrAt6_8_keep (c : Dev nD) : ∀ (n m : ℕ), m ≤ n → n ≤ 16 → (∀ k, m ≤ k → k < n → k % 8 ≠ 7) →
    (rdat6 V c).ArrAt 8 n = (rdat6 V c).ArrAt 8 m
  | 0, m, hm, _, _ => by obtain rfl := Nat.le_zero.mp hm; rfl
  | n + 1, m, hm, hn, hk => by
    rcases Nat.eq_or_lt_of_le hm with e | hlt
    · rw [e]
    · have hN : n < cfg6.N := by show n < grid6.N; rw [N_6]; omega
      have hs := (rdat6 V c).ArrAt_succ 8 ⟨n, hN⟩
      rw [if_neg (fun hf => hk n (by omega) (by omega) ((flush6_8 ⟨n, hN⟩).mp hf))] at hs
      exact hs.trans (arrAt6_8_keep c n m (by omega) (by omega) fun k h1 h2 => hk k h1 (by omega))

/-- After the launch a statistics array is its entry contents with core 0's block, then core 1's, written over it, each from
    a buffer whose row 0 is the core's fold. -/
theorem arrAt6_8_form (c : Dev nD) (G : Buf (Elt F) ((cfg6.win 8).arr.view.loc (c.tc : Thread nD τ)))
    (h : (rdat6 V c).ArrAt 8 cfg6.N G) :
    ∃ X X', View.ld X r6row = r6sum V c 0 7 (by omega) ∧ View.ld X' r6row = r6sum V c 1 7 (by omega) ∧
      G = ((cfg6.win 8).arr.view.slice ((cfg6.win 8).rect t6_15)).write (Elt F)
            (((cfg6.win 8).arr.view.slice ((cfg6.win 8).rect t6_7)).write (Elt F) ((rdat6 V c).A 8)
              ((cfg6.win 8).cut (cfg6.grid.coords t6_7) X) Finset.univ)
            ((cfg6.win 8).cut (cfg6.grid.coords t6_15) X') Finset.univ := by
  have e16 := (rdat6 V c).ArrAt_succ 8 t6_15
  rw [if_pos ((flush6_8 t6_15).mpr rfl)] at e16
  have h1 : (rdat6 V c).ArrStep 8 t6_15 ((rdat6 V c).ArrAt 8 15) G := Eq.mp (congrFun e16 G) h
  obtain ⟨G₁, X', hG₁, hX', rfl⟩ := h1
  have e15 := arrAt6_8_keep V c 15 8 (by omega) (by omega) (by intro k h1 h2; omega)
  have e8 := (rdat6 V c).ArrAt_succ 8 t6_7
  rw [if_pos ((flush6_8 t6_7).mpr rfl)] at e8
  have h2 : (rdat6 V c).ArrStep 8 t6_7 ((rdat6 V c).ArrAt 8 7) G₁ := Eq.mp (congrFun (e15.trans e8) G₁) hG₁
  obtain ⟨G₀, X, hG₀, hX, rfl⟩ := h2
  have e7 := arrAt6_8_keep V c 7 0 (by omega) (by omega) (by intro k h1 h2; omega)
  have h3 : G₀ = (rdat6 V c).A 8 := Eq.mp (congrFun e7 G₀) hG₀
  subst h3
  exact ⟨X, X', leaves6_8 V c 0 7 (by omega) X hX, leaves6_8 V c 1 7 (by omega) X' hX', rfl⟩

theorem arrAt6_9_keep (c : Dev nD) : ∀ (n m : ℕ), m ≤ n → n ≤ 16 → (∀ k, m ≤ k → k < n → k % 8 ≠ 7) →
    (rdat6 V c).ArrAt 9 n = (rdat6 V c).ArrAt 9 m
  | 0, m, hm, _, _ => by obtain rfl := Nat.le_zero.mp hm; rfl
  | n + 1, m, hm, hn, hk => by
    rcases Nat.eq_or_lt_of_le hm with e | hlt
    · rw [e]
    · have hN : n < cfg6.N := by show n < grid6.N; rw [N_6]; omega
      have hs := (rdat6 V c).ArrAt_succ 9 ⟨n, hN⟩
      rw [if_neg (fun hf => hk n (by omega) (by omega) ((flush6_9 ⟨n, hN⟩).mp hf))] at hs
      exact hs.trans (arrAt6_9_keep c n m (by omega) (by omega) fun k h1 h2 => hk k h1 (by omega))

/-- After the launch a statistics array is its entry contents with core 0's block, then core 1's, written over it, each from
    a buffer whose row 0 is the core's fold. -/
theorem arrAt6_9_form (c : Dev nD) (G : Buf (Elt F) ((cfg6.win 9).arr.view.loc (c.tc : Thread nD τ)))
    (h : (rdat6 V c).ArrAt 9 cfg6.N G) :
    ∃ X X', View.ld X r6row = r6sumsq V c 0 7 (by omega) ∧ View.ld X' r6row = r6sumsq V c 1 7 (by omega) ∧
      G = ((cfg6.win 9).arr.view.slice ((cfg6.win 9).rect t6_15)).write (Elt F)
            (((cfg6.win 9).arr.view.slice ((cfg6.win 9).rect t6_7)).write (Elt F) ((rdat6 V c).A 9)
              ((cfg6.win 9).cut (cfg6.grid.coords t6_7) X) Finset.univ)
            ((cfg6.win 9).cut (cfg6.grid.coords t6_15) X') Finset.univ := by
  have e16 := (rdat6 V c).ArrAt_succ 9 t6_15
  rw [if_pos ((flush6_9 t6_15).mpr rfl)] at e16
  have h1 : (rdat6 V c).ArrStep 9 t6_15 ((rdat6 V c).ArrAt 9 15) G := Eq.mp (congrFun e16 G) h
  obtain ⟨G₁, X', hG₁, hX', rfl⟩ := h1
  have e15 := arrAt6_9_keep V c 15 8 (by omega) (by omega) (by intro k h1 h2; omega)
  have e8 := (rdat6 V c).ArrAt_succ 9 t6_7
  rw [if_pos ((flush6_9 t6_7).mpr rfl)] at e8
  have h2 : (rdat6 V c).ArrStep 9 t6_7 ((rdat6 V c).ArrAt 9 7) G₁ := Eq.mp (congrFun (e15.trans e8) G₁) hG₁
  obtain ⟨G₀, X, hG₀, hX, rfl⟩ := h2
  have e7 := arrAt6_9_keep V c 7 0 (by omega) (by omega) (by intro k h1 h2; omega)
  have h3 : G₀ = (rdat6 V c).A 9 := Eq.mp (congrFun e7 G₀) hG₀
  subst h3
  exact ⟨X, X', leaves6_9 V c 0 7 (by omega) X hX, leaves6_9 V c 1 7 (by omega) X' hX', rfl⟩

end Arr4

section Arr5

section RowApply
/-- The host's row slices at an index. -/
theorem r6row0_apply (X : (⟨S16x128, .f32⟩ : BufTy).Contents (Elt F)) (x : S1x128.Idx) :
    row0 X x = X (ix2 (⟨(x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 0 + (x 0).val = (x 0).val; omega)
  | ⟨1, _⟩ => exact Fin.ext (by show 0 + (x 1).val = (x 1).val; omega)
theorem r6row8_apply (X : (⟨S16x128, .f32⟩ : BufTy).Contents (Elt F)) (x : S1x128.Idx) :
    row8 X x = X (ix2 (⟨8 + (x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 8 + (x 0).val = 8 + (x 0).val; omega)
  | ⟨1, _⟩ => exact Fin.ext (by show 0 + (x 1).val = (x 1).val; omega)
end RowApply

set_option maxHeartbeats 1000000 in
/-- Rows 0 and 8 of the array after the launch are the two cores' folds. -/
theorem arrAt6_8_rows (c : Dev nD) (G : Buf (Elt F) ((cfg6.win 8).arr.view.loc (c.tc : Thread nD τ)))
    (h : (rdat6 V c).ArrAt 8 cfg6.N G) : row0 G = r6sum V c 0 7 (by omega) ∧ row8 G = r6sum V c 1 7 (by omega) := by
  obtain ⟨X, X', hX, hX', rfl⟩ := arrAt6_8_form V c G h
  constructor
  · funext x
    have hx0 : (x 0).val < 1 := (x 0).isLt
    rw [← hX, r6row0_apply]
    have hi : ix2 (⟨(x 0).val, by omega⟩ : Fin 16) (⟨(x 1).val, (x 1).isLt⟩ : Fin 128) = ((cfg6.win 8).rect t6_7).emb (r6row.emb x) := by
      funext a; apply Fin.ext
      rw [Window.rect_emb_val, index6_8]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg6.win 8).rect t6_15).set := by
      intro hm
      have h0 := (Rect.mem_set_unit.mp hm 0).1
      rw [index6_8] at h0
      have h0' : 1 * 8 ≤ (x 0).val := h0
      omega
    exact r6read_two_writes_fst (Val := Elt F) (cfg6.win 8).arr.view ((cfg6.win 8).rect t6_7) ((cfg6.win 8).rect t6_15) ((rdat6 V c).A 8)
      ((cfg6.win 8).cut (cfg6.grid.coords t6_7) X) ((cfg6.win 8).cut (cfg6.grid.coords t6_15) X') (r6row.emb x) _ hi hnot
  · funext x
    have hx0 : (x 0).val < 1 := (x 0).isLt
    rw [← hX', r6row8_apply]
    have hi : ix2 (⟨8 + (x 0).val, by omega⟩ : Fin 16) (⟨(x 1).val, (x 1).isLt⟩ : Fin 128) = ((cfg6.win 8).rect t6_15).emb (r6row.emb x) := by
      funext a; apply Fin.ext
      rw [Window.rect_emb_val, index6_8]
      match a with
      | ⟨0, _⟩ => show 8 + (x 0).val = 1 * 8 + (0 + 1 * (x 0).val); omega
      | ⟨1, _⟩ => show (x 1).val = 0 * 128 + (0 + 1 * (x 1).val); omega
    exact r6read_two_writes_snd (Val := Elt F) (cfg6.win 8).arr.view ((cfg6.win 8).rect t6_7) ((cfg6.win 8).rect t6_15) ((rdat6 V c).A 8)
      ((cfg6.win 8).cut (cfg6.grid.coords t6_7) X) ((cfg6.win 8).cut (cfg6.grid.coords t6_15) X') (r6row.emb x) _ hi

set_option maxHeartbeats 1000000 in
/-- Rows 0 and 8 of the array after the launch are the two cores' folds. -/
theorem arrAt6_9_rows (c : Dev nD) (G : Buf (Elt F) ((cfg6.win 9).arr.view.loc (c.tc : Thread nD τ)))
    (h : (rdat6 V c).ArrAt 9 cfg6.N G) : row0 G = r6sumsq V c 0 7 (by omega) ∧ row8 G = r6sumsq V c 1 7 (by omega) := by
  obtain ⟨X, X', hX, hX', rfl⟩ := arrAt6_9_form V c G h
  constructor
  · funext x
    have hx0 : (x 0).val < 1 := (x 0).isLt
    rw [← hX, r6row0_apply]
    have hi : ix2 (⟨(x 0).val, by omega⟩ : Fin 16) (⟨(x 1).val, (x 1).isLt⟩ : Fin 128) = ((cfg6.win 9).rect t6_7).emb (r6row.emb x) := by
      funext a; apply Fin.ext
      rw [Window.rect_emb_val, index6_9]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg6.win 9).rect t6_15).set := by
      intro hm
      have h0 := (Rect.mem_set_unit.mp hm 0).1
      rw [index6_9] at h0
      have h0' : 1 * 8 ≤ (x 0).val := h0
      omega
    exact r6read_two_writes_fst (Val := Elt F) (cfg6.win 9).arr.view ((cfg6.win 9).rect t6_7) ((cfg6.win 9).rect t6_15) ((rdat6 V c).A 9)
      ((cfg6.win 9).cut (cfg6.grid.coords t6_7) X) ((cfg6.win 9).cut (cfg6.grid.coords t6_15) X') (r6row.emb x) _ hi hnot
  · funext x
    have hx0 : (x 0).val < 1 := (x 0).isLt
    rw [← hX', r6row8_apply]
    have hi : ix2 (⟨8 + (x 0).val, by omega⟩ : Fin 16) (⟨(x 1).val, (x 1).isLt⟩ : Fin 128) = ((cfg6.win 9).rect t6_15).emb (r6row.emb x) := by
      funext a; apply Fin.ext
      rw [Window.rect_emb_val, index6_9]
      match a with
      | ⟨0, _⟩ => show 8 + (x 0).val = 1 * 8 + (0 + 1 * (x 0).val); omega
      | ⟨1, _⟩ => show (x 1).val = 0 * 128 + (0 + 1 * (x 1).val); omega
    exact r6read_two_writes_snd (Val := Elt F) (cfg6.win 9).arr.view ((cfg6.win 9).rect t6_7) ((cfg6.win 9).rect t6_15) ((rdat6 V c).A 9)
      ((cfg6.win 9).cut (cfg6.grid.coords t6_7) X) ((cfg6.win 9).cut (cfg6.grid.coords t6_15) X') (r6row.emb x) _ hi

/-- A canonical statistics array: every row of a core's eight is that core's fold (only rows 0 and 8 are ever read). -/
def sumArr6 (c : Dev nD) : Buf (Elt F) ((cfg6.win 8).arr.view.loc (c.tc : Thread nD τ)) :=
  fun (j : S16x128.Idx) => r6sum V c ⟨(j 0).val / 8, by have := ValueIdx.idx2_lt0 j; omega⟩ 7 (by omega) (ix2 (0 : Fin 1) (j 1))

theorem row0_sumArr6 (c : Dev nD) : row0 (sumArr6 V c) = r6sum V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r6row0_apply]
  show r6sum V c ⟨(x 0).val / 8, _⟩ 7 _ (ix2 (0 : Fin 1) (⟨(x 1).val, _⟩ : Fin 128)) = _
  rw [e1, e2]

theorem row8_sumArr6 (c : Dev nD) : row8 (sumArr6 V c) = r6sum V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r6row8_apply]
  show r6sum V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt6_8 (c : Dev nD) (G : Buf (Elt F) ((cfg6.win 8).arr.view.loc (c.tc : Thread nD τ)))
    (h : (rdat6 V c).ArrAt 8 cfg6.N G) : row0 G = row0 (sumArr6 V c) ∧ row8 G = row8 (sumArr6 V c) := by
  rw [row0_sumArr6, row8_sumArr6]; exact arrAt6_8_rows V c G h

/-- A canonical statistics array: every row of a core's eight is that core's fold (only rows 0 and 8 are ever read). -/
def sqArr6 (c : Dev nD) : Buf (Elt F) ((cfg6.win 9).arr.view.loc (c.tc : Thread nD τ)) :=
  fun (j : S16x128.Idx) => r6sumsq V c ⟨(j 0).val / 8, by have := ValueIdx.idx2_lt0 j; omega⟩ 7 (by omega) (ix2 (0 : Fin 1) (j 1))

theorem row0_sqArr6 (c : Dev nD) : row0 (sqArr6 V c) = r6sumsq V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r6row0_apply]
  show r6sumsq V c ⟨(x 0).val / 8, _⟩ 7 _ (ix2 (0 : Fin 1) (⟨(x 1).val, _⟩ : Fin 128)) = _
  rw [e1, e2]

theorem row8_sqArr6 (c : Dev nD) : row8 (sqArr6 V c) = r6sumsq V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r6row8_apply]
  show r6sumsq V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt6_9 (c : Dev nD) (G : Buf (Elt F) ((cfg6.win 9).arr.view.loc (c.tc : Thread nD τ)))
    (h : (rdat6 V c).ArrAt 9 cfg6.N G) : row0 G = row0 (sqArr6 V c) ∧ row8 G = row8 (sqArr6 V c) := by
  rw [row0_sqArr6, row8_sqArr6]; exact arrAt6_9_rows V c G h

/-! ### The folds, written out: the zero row, then the eight blocks' column sums added in point order -/

theorem r6sum_core0 (c : Dev nD) : r6sum V c 0 7 (by omega) = r6acc (r6acc (r6acc (r6acc (r6acc (r6acc (r6acc (r6acc r6zrow (yat6 V c t6_0)) (yat6 V c t6_1)) (yat6 V c t6_2)) (yat6 V c t6_3)) (yat6 V c t6_4)) (yat6 V c t6_5)) (yat6 V c t6_6)) (yat6 V c t6_7) := rfl
theorem r6sum_core1 (c : Dev nD) : r6sum V c 1 7 (by omega) = r6acc (r6acc (r6acc (r6acc (r6acc (r6acc (r6acc (r6acc r6zrow (yat6 V c t6_8)) (yat6 V c t6_9)) (yat6 V c t6_10)) (yat6 V c t6_11)) (yat6 V c t6_12)) (yat6 V c t6_13)) (yat6 V c t6_14)) (yat6 V c t6_15) := rfl
theorem r6sumsq_core0 (c : Dev nD) : r6sumsq V c 0 7 (by omega) = r6accsq (r6accsq (r6accsq (r6accsq (r6accsq (r6accsq (r6accsq (r6accsq r6zrow (yat6 V c t6_0)) (yat6 V c t6_1)) (yat6 V c t6_2)) (yat6 V c t6_3)) (yat6 V c t6_4)) (yat6 V c t6_5)) (yat6 V c t6_6)) (yat6 V c t6_7) := rfl
theorem r6sumsq_core1 (c : Dev nD) : r6sumsq V c 1 7 (by omega) = r6accsq (r6accsq (r6accsq (r6accsq (r6accsq (r6accsq (r6accsq (r6accsq r6zrow (yat6 V c t6_8)) (yat6 V c t6_9)) (yat6 V c t6_10)) (yat6 V c t6_11)) (yat6 V c t6_12)) (yat6 V c t6_13)) (yat6 V c t6_14)) (yat6 V c t6_15) := rfl

/-! ### Window 7: the whole array -/

/-- The array of `y`: row block `p` is the block of `y` at point `p`. -/
def yArr6 (c : Dev nD) : Buf (Elt F) ((cfg6.win 7).arr.view.loc (c.tc : Thread nD τ)) :=
  fun (j : S65536x128.Idx) => yat6 V c ⟨(j 0).val / 4096, by have := ValueIdx.idx2_lt0 j; show _ < grid6.N; rw [N_6]; omega⟩
    (ix2 (⟨(j 0).val % 4096, Nat.mod_lt _ (by decide)⟩ : Fin 4096) (j 1))

theorem yArr6_apply (c : Dev nD) (p : Fin 16) (q : Fin 4096) (j : Fin 128) :
    yArr6 V c (ix2 (⟨p.val * 4096 + q.val, by have := p.isLt; have := q.isLt; omega⟩ : Fin 65536) j)
      = yat6 V c ⟨p.val, by show _ < grid6.N; rw [N_6]; exact p.isLt⟩ (ix2 q j) := by
  have e1 : (⟨(p.val * 4096 + q.val) / 4096, by have := p.isLt; have := q.isLt; show _ < grid6.N; rw [N_6]; omega⟩ : Fin cfg6.N)
      = ⟨p.val, by show _ < grid6.N; rw [N_6]; exact p.isLt⟩ := Fin.ext (by have := q.isLt; show (p.val * 4096 + q.val) / 4096 = p.val; omega)
  have e2 : (⟨(p.val * 4096 + q.val) % 4096, Nat.mod_lt _ (by decide)⟩ : Fin 4096) = q :=
    Fin.ext (by have := q.isLt; show (p.val * 4096 + q.val) % 4096 = q.val; omega)
  show yat6 V c ⟨(p.val * 4096 + q.val) / 4096, _⟩ (ix2 (⟨(p.val * 4096 + q.val) % 4096, _⟩ : Fin 4096) j) = _
  rw [e1, e2]

theorem arrAt6_7 (c : Dev nD) (G : Buf (Elt F) ((cfg6.win 7).arr.view.loc (c.tc : Thread nD τ)))
    (h : (rdat6 V c).ArrAt 7 cfg6.N G) : G = yArr6 V c := by
  funext (j : S65536x128.Idx)
  have hj := ValueIdx.idx2_lt0 j
  let u : Fin cfg6.N := ⟨(j 0).val / 4096, by show _ < grid6.N; rw [N_6]; omega⟩
  let x : S4096x128.Idx := ix2 (⟨(j 0).val % 4096, Nat.mod_lt _ (by decide)⟩ : Fin 4096) (j 1)
  have hb := congrFun (arrAt6_7_blk V c cfg6.N (le_of_eq N_6) G h u u.isLt) x
  have hjx : ((cfg6.win 7).rect u).emb x = j := by
    funext a; apply Fin.ext
    rw [Window.rect_emb_val, index6_7]
    match a with
    | ⟨0, _⟩ => show (j 0).val / 4096 * 4096 + (j 0).val % 4096 = (j 0).val; omega
    | ⟨1, _⟩ => show 0 * 128 + (j 1).val = (j 1).val; omega
  have hr : ((cfg6.win 7).blk u).view.read (Elt F) G x = G (((cfg6.win 7).rect u).emb x) := rfl
  rw [hr, hjx] at hb
  exact hb
end Arr5

end Cert.Kernel.Hand
end
-- ==== Proof.HandK.P2r7.lean ====
import proofs.«103476_j5987184410999_2_alg».proof.Proof.Gen.Kernel.Launch
import proofs.«103476_j5987184410999_2_alg».proof.Proof.Gen.Kernel.Skeleton
import proofs.«103476_j5987184410999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 x 128 extents: the elaborator's structural look recurses once per
-- coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 7 of @main: custom_call 7, `cc7__pass2_noise_kernel` (pipeline 7), at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): unfetched, the block
    index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for ANY proof
    data whose array is `V`'s (`hA`) and whose body leaves the block in place (`hafter`): unfetched, the block
    index has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for ANY proof
    data whose array is `V`'s (`hA`) and whose body leaves the block in place (`hafter`): unfetched, the block
    index has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for ANY proof
    data whose array is `V`'s (`hA`) and whose body leaves the block in place (`hafter`): unfetched, the block
    index has not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for ANY proof
    data whose array is `V`'s (`hA`) and whose body leaves the block in place (`hafter`): unfetched, the block
    index has not moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for ANY proof
    data whose array is `V`'s (`hA`) and whose body leaves the block in place (`hafter`): unfetched, the block
    index has not moved; the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S4096x128 := Rect.unit (s := S4096x128) ![0, 0] S4096x128.size inb_S4096x128_S4096x128_0_0
abbrev r7_1 : Rect S1x128 := Rect.unit (s := S1x128) ![0, 0] S1x128.size inb_S1x128_S1x128_0_0

/-! ## What the body leaves in the output window's buffer -/

/-- Window 6's staging buffer after the body, from the input windows' blocks (the block to normalise, the mean,
    the inverse deviation, the scale, the shift, the noise block): its one store as a piece (`View.canon`; the
    payload is the skeleton's, its arguments in the order the body loads them). -/
def out7_6 (x0 : Vec F S4096x128 .f32) (x1 x2 x3 x4 : Vec F S1x128 .f32) (x5 : Vec F S4096x128 .f32) : Vec F S4096x128 .f32 :=
  View.canon [⟨r7_0, k7_pay1 (View.ld x0 r7_0) (View.ld x3 r7_1) (View.ld x1 r7_1) (View.ld x2 r7_1) (View.ld x4 r7_1) (View.ld x5 r7_0)⟩]

/-- The store tiles the buffer, so it covers it. -/
theorem cover7_6 (p0 : Vec F S4096x128 .f32) (y : S4096x128.Idx) :
    ∃ pc ∈ ([⟨r7_0, p0⟩] : List (View.Piece (Elt F) S4096x128 .f32)), y ∈ pc.1.set :=
  View.cover_of_tiled [⟨r7_0, p0⟩] S4096x128.size (by rfl) y

/-! ## The body's triple -/

set_option maxHeartbeats 1000000 in
/-- The kernel body on whole staging memrefs, the inputs' at read contents `xW` and the output's at anything, runs to
    the continuation holding the inputs' as they were and the output's at `out7_6` of the inputs'. -/
theorem sound_kernel7 (c : Dev nD) (E : Set ℕ) (i : grid7.Coords)
    (arg1 : Memref sig .tc .vmem S4096x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x128 .f32) (x1 x2 x3 x4 : Vec F S1x128 .f32) (x5 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out7_6 x0 x1 x2 x3 x4 x5)) -∗ K ⟨⟩))
      ⊢ wp frame (wpE (defs₀ (F := F)) Variants.none c none) E
          (cc7__pass2_noise_kernel i arg1 harg1 arg2 harg2 arg3 harg3 arg4 harg4 arg5 harg5 arg6 harg6 arg7 harg7) K := by
  simp only [cc7__pass2_noise_kernel_eq_skeleton]; unfold cc7__pass2_noise_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_6 _)

/-! ## The pipeline's proof data -/

/-- The proof data of pipeline 7 on core `c`: the arrays as the region finds them (`V`); after the body at
    point `t` each input's buffer at its block and the output's at `out7_6` of the input blocks; the invariant the
    class's (`Pipeline.ΦA`: the scoped rest and the generator register, untouched); nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.HandK.ChainDefs3.lean ====
/-
  The canonical contents of the TensorCore's buffers around network node 3: after host stretch 6, after its statistics pass (region 6;
  the two statistics arrays at a canonical completion of their undefined rows), after host stretch 7, after its normalisation pass (region 7).
-/
import proofs.«103476_j5987184410999_2_alg».proof.Proof.HandK.ChainDefs2
import proofs.«103476_j5987184410999_2_alg».proof.Proof.HandK.P1r6Arr
import proofs.«103476_j5987184410999_2_alg».proof.Proof.HandK.P2r7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-- After host stretch 6: what region 6 is entered from. -/
def W13 (c : Dev nD) : Valuation τ sig (Elt F) := StableHlo.after hostOps6 (W12 m c)
abbrev E6 : (c : Dev nD) → (b : Ref sig .tc) → Buf (Elt F) ((c : Thread nD τ).loc b) := fun c b => W13 m c b
/-- What region 6 leaves in its arrays: the inputs as found, the product array, and the two statistics arrays at their
    canonical completion. -/
def GA6 (c : Dev nD) : (w : Fin cfg6.W) → Buf (Elt F) ((cfg6.win w).arr.view.loc (c.tc : Thread nD τ))
  | ⟨0, _⟩ => E6 m c (Pipeline.arrRef spec6 0)
  | ⟨1, _⟩ => E6 m c (Pipeline.arrRef spec6 1)
  | ⟨2, _⟩ => E6 m c (Pipeline.arrRef spec6 2)
  | ⟨3, _⟩ => E6 m c (Pipeline.arrRef spec6 3)
  | ⟨4, _⟩ => E6 m c (Pipeline.arrRef spec6 4)
  | ⟨5, _⟩ => E6 m c (Pipeline.arrRef spec6 5)
  | ⟨6, _⟩ => E6 m c (Pipeline.arrRef spec6 6)
  | ⟨7, _⟩ => yArr6 (E6 m) c
  | ⟨8, _⟩ => sumArr6 (E6 m) c
  | ⟨9, _⟩ => sqArr6 (E6 m) c
def W14 (c : Dev nD) : Valuation τ sig (Elt F) := Pipeline.withArrays spec6 c (W13 m c) (GA6 m c)
/-- After host stretch 7: what region 7 is entered from. -/
def W15 (c : Dev nD) : Valuation τ sig (Elt F) := StableHlo.after hostOps7 (W14 m c)
abbrev E7 : (c : Dev nD) → (b : Ref sig .tc) → Buf (Elt F) ((c : Thread nD τ).loc b) := fun c b => W15 m c b
/-- What region 7 leaves in its arrays. -/
def GA7 (c : Dev nD) (w : Fin cfg7.W) : Buf (Elt F) ((cfg7.win w).arr.view.loc (c.tc : Thread nD τ)) := (dat7 (E7 m) c).arrAt w cfg7.N
def W16 (c : Dev nD) : Valuation τ sig (Elt F) := Pipeline.withArrays spec7 c (W15 m c) (GA7 m c)

end Cert.Kernel.Hand

end
-- ==== Proof.HandK.P1r8.lean ====
/- Region 8 (the first pass-1 launch whose input arrives split in two halves) as RELATIONAL proof data, with its body
   obligation.

   The body computes a block of `y` from seven input blocks (the two halves of `x`, the two halves of the first weight,
   the first bias, the second weight and bias), stores it whole, and adds its column sums (and those of its square) into
   ROW 0 of two 8-row statistics blocks, which it first zeroes at the first point of each core's run of eight.
   Rows 1 to 7 of those blocks are never stored: what the body leaves there is what it found. So the data relates what the
   body finds in a buffer to what it leaves, and for the statistics blocks constrains row 0 only. -/
import proofs.«103476_j5987184410999_2_alg».proof.Proof.Gen.Kernel.Launch
import proofs.«103476_j5987184410999_2_alg».proof.Proof.Gen.Kernel.Skeleton
import proofs.«103476_j5987184410999_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

/-! ## Region 8 (a pass-1 launch over a split input): names -/

/-- The condition of the body's one `scf.if`, from the grid coordinates (the skeleton's scalar chain substituted):
    the inner coordinate is zero. -/
abbrev r8cond (i : grid8.Coords) : Prop :=
  (Scalar.cmpi .ne (Scalar.extui (Scalar.cmpi .eq (BitVec.ofNat 32 (i 1).val) 0#32)) 0#32) = 1#1

/-- It holds at the first point of each core's run of eight: decided over the grid. -/
theorem r8cond_iff : ∀ t : Fin cfg8.N, r8cond (grid8.coords t) ↔ t.val % 8 = 0 :=
  (by decide +kernel : ∀ t : Fin grid8.N, r8cond (grid8.coords t) ↔ t.val % 8 = 0)

/-- Row 0 of a statistics block: the rectangle every load and store of the two accumulators goes through. -/
abbrev r8row : Rect S8x128 := Rect.unit (s := S8x128) ![0, 0] S1x128.size inb_S8x128_S1x128_0_0

/-- The row of zeros the body stores at the first point of a core's run. -/
def r8zrow : FVec F S1x128 .f32 := broadcast S1x128 (Scalar.ofBits .f32 0x00000000#32)

/-- One accumulation step: the row found plus the column sums of `y` (the reduction along axis 0 from the zero word). -/
def r8acc (r : Vec F S1x128 .f32) (y : FVec F S4096x128 .f32) : FVec F S1x128 .f32 :=
  addf (shapeCast S1x128 r shapeCasts_S1x128_S1x128)
    (shapeCast S1x128 (multiReduction .add [0] S128 y 0x00000000#32 reduces_S4096x128_S128 (.inl rfl) rfl) shapeCasts_S128_S1x128)

/-- The same of the squares. -/
def r8accsq (r : Vec F S1x128 .f32) (y : FVec F S4096x128 .f32) : FVec F S1x128 .f32 := r8acc r (mulf y y)

/-- The block of `y` the body computes from its seven input blocks: `relu(xa·Wa + xb·Wb + b1)·W2 + b2` with the matrix
    operands rounded to bf16 (the skeleton's payload). -/
def yblk8 (xa xb : Vec F S4096x128 .f32) (wa wb : Vec F S128x256 .f32) (b1 : Vec F S1x256 .f32) (w2 : Vec F S256x128 .f32)
    (b2 : Vec F S1x128 .f32) : Vec F S4096x128 .f32 := k8_pay5 xa xb wa wb b1 w2 b2

theorem k8_pay1_eq (y : FVec F S4096x128 .f32) (r : Vec F S1x128 .f32) : k8_pay1 y r = r8acc r y := rfl
theorem k8_pay2_eq (y : FVec F S4096x128 .f32) (r : Vec F S1x128 .f32) : k8_pay2 y r = r8accsq r y := rfl
theorem k8_pay3_eq : k8_pay3 (F := F) = r8zrow := rfl
theorem k8_pay4_eq : k8_pay4 (F := F) = r8zrow := rfl

theorem r8zeros2 : (![0, 0] : Fin 2 → ℕ) = fun _ => 0 := by funext a; fin_cases a <;> rfl

section WholeRect
variable {sg : RefSig} {κ : Kind} {sp : Space} {S : Shape} {e : EltTy} {Val : EltTy → Type}

/-- A load through the whole-shape rectangle at zero offsets reads the view's contents. -/
theorem r8readAt_unit_zero (v : View sg κ sp S e) {off : Fin S.rank → ℕ} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

/-- One store through it leaves its payload, whatever the buffer held. -/
theorem r8read_writes_unit_zero (v : View sg κ sp S e) {off : Fin S.rank → ℕ} (h : off = fun _ => 0) (inb : ∀ a, off a + S.size a ≤ S.size a)
    (f : v.ty.Contents Val) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e
end WholeRect

theorem r8readAt_S4096x128 {sp : Space} (v : View sig .tc sp S4096x128 .f32) (f : v.ty.Contents (Elt F)) :
    v.readAt (Elt F) (Rect.unit (s := S4096x128) ![0, 0] S4096x128.size inb_S4096x128_S4096x128_0_0).toLoadRect f = v.read (Elt F) f :=
  r8readAt_unit_zero v r8zeros2 _ f
theorem r8readAt_S128x256 {sp : Space} (v : View sig .tc sp S128x256 .f32) (f : v.ty.Contents (Elt F)) :
    v.readAt (Elt F) (Rect.unit (s := S128x256) ![0, 0] S128x256.size inb_S128x256_S128x256_0_0).toLoadRect f = v.read (Elt F) f :=
  r8readAt_unit_zero v r8zeros2 _ f
theorem r8readAt_S1x256 {sp : Space} (v : View sig .tc sp S1x256 .f32) (f : v.ty.Contents (Elt F)) :
    v.readAt (Elt F) (Rect.unit (s := S1x256) ![0, 0] S1x256.size inb_S1x256_S1x256_0_0).toLoadRect f = v.read (Elt F) f :=
  r8readAt_unit_zero v r8zeros2 _ f
theorem r8readAt_S256x128 {sp : Space} (v : View sig .tc sp S256x128 .f32) (f : v.ty.Contents (Elt F)) :
    v.readAt (Elt F) (Rect.unit (s := S256x128) ![0, 0] S256x128.size inb_S256x128_S256x128_0_0).toLoadRect f = v.read (Elt F) f :=
  r8readAt_unit_zero v r8zeros2 _ f
theorem r8readAt_S1x128 {sp : Space} (v : View sig .tc sp S1x128 .f32) (f : v.ty.Contents (Elt F)) :
    v.readAt (Elt F) (Rect.unit (s := S1x128) ![0, 0] S1x128.size inb_S1x128_S1x128_0_0).toLoadRect f = v.read (Elt F) f :=
  r8readAt_unit_zero v r8zeros2 _ f

/-- The whole-block store of window 7 leaves its payload. -/
theorem r8read_whole_store {sp : Space} (v : View sig .tc sp S4096x128 .f32) (f : v.ty.Contents (Elt F)) (w : Vec F S4096x128 .f32) :
    v.read (Elt F) (v.writes (Elt F) f [⟨Rect.unit (s := S4096x128) ![0, 0] S4096x128.size inb_S4096x128_S4096x128_0_0, w⟩]) = w :=
  r8read_writes_unit_zero v r8zeros2 _ f w []

/-- Row 0 after a store through row 0, whatever was stored before. -/
theorem r8ld_row_store {sp : Space} (v : View sig .tc sp S8x128 .f32) (f : v.ty.Contents (Elt F)) (w : Vec F S1x128 .f32)
    (L : List (View.Piece (Elt F) S8x128 .f32)) :
    View.ld (v.read (Elt F) (v.writes (Elt F) f (⟨r8row, w⟩ :: L))) r8row = w :=
  funext fun x => View.read_writes_cons_emb v f r8row w L x

/-! ## The body's two runs, over arbitrary staging contents -/

set_option maxHeartbeats 1000000 in
/-- The body at a point that is not the first of its core's run: row 0 of each statistics block is the row found plus the sums. -/
theorem sound_kernel8_later (c : Dev nD) (i : grid8.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : ¬r8cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk8 x0 x1 x2 x3 x4 x5 x6)
            ∗ (∃ X, ⌜View.ld X r8row = r8acc (View.ld y8 r8row) (yblk8 x0 x1 x2 x3 x4 x5 x6)⌝ ∗ owns (c : Thread nD τ) arg10 fullShare X)
            ∗ (∃ X, ⌜View.ld X r8row = r8accsq (View.ld y9 r8row) (yblk8 x0 x1 x2 x3 x4 x5 x6)⌝ ∗ owns (c : Thread nD τ) arg11 fullShare X)) -∗ K ⟨⟩))
      ⊢ wp frame (wpE (defs₀ (F := F)) Variants.none c none) E (cc8__pass1_kernel_split i arg2 harg2 arg3 harg3 arg4 harg4 arg5 harg5 arg6 harg6 arg7 harg7 arg8 harg8 arg9 harg9 arg10 harg10 arg11 harg11) K := by
  simp only [cc8__pass1_kernel_split_eq_skeleton]; unfold cc8__pass1_kernel_split_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r8readAt_S4096x128, r8readAt_S4096x128, r8readAt_S128x256, r8readAt_S128x256, r8readAt_S1x256, r8readAt_S256x128, r8readAt_S1x128]
    exact r8read_whole_store (F := F) _ _ _
  isplitl [H8]
  · iexists _; isplitr; swap
    · iexists _; isplitr; swap; · iexact H8
      ipureintro; rfl
    ipureintro
    rw [r8readAt_S4096x128, r8readAt_S4096x128, r8readAt_S128x256, r8readAt_S128x256, r8readAt_S1x256, r8readAt_S256x128, r8readAt_S1x128]
    rw [k8_pay1_eq]
    exact r8ld_row_store (F := F) _ _ _ _
  · iexists _; isplitr; swap
    · iexists _; isplitr; swap; · iexact H9
      ipureintro; rfl
    ipureintro
    rw [r8readAt_S4096x128, r8readAt_S4096x128, r8readAt_S128x256, r8readAt_S128x256, r8readAt_S1x256, r8readAt_S256x128, r8readAt_S1x128]
    rw [k8_pay2_eq]
    exact r8ld_row_store (F := F) _ _ _ _

set_option maxHeartbeats 1000000 in
/-- The body at the first point of a core's run: row 0 of each statistics block is the zero row plus the sums. -/
theorem sound_kernel8_first (c : Dev nD) (i : grid8.Coords)
    (arg2 : Memref sig .tc .vmem S4096x128 .f32) (harg2 : arg2.IsWhole) (arg3 : Memref sig .tc .vmem S4096x128 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S4096x128 .f32) (harg9 : arg9.IsWhole) (arg10 : Memref sig .tc .vmem S8x128 .f32) (harg10 : arg10.IsWhole) (arg11 : Memref sig .tc .vmem S8x128 .f32) (harg11 : arg11.IsWhole)
    (hc : r8cond i)
    (x0 : Vec F S4096x128 .f32) (x1 : Vec F S4096x128 .f32) (x2 : Vec F S128x256 .f32) (x3 : Vec F S128x256 .f32) (x4 : Vec F S1x256 .f32) (x5 : Vec F S256x128 .f32) (x6 : Vec F S1x128 .f32)
    (y7 : Vec F S4096x128 .f32) (y8 y9 : Vec F S8x128 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ owns (c : Thread nD τ) arg11 fullShare y9
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (yblk8 x0 x1 x2 x3 x4 x5 x6)
            ∗ (∃ X, ⌜View.ld X r8row = r8acc r8zrow (yblk8 x0 x1 x2 x3 x4 x5 x6)⌝ ∗ owns (c : Thread nD τ) arg10 fullShare X)
            ∗ (∃ X, ⌜View.ld X r8row = r8accsq r8zrow (yblk8 x0 x1 x2 x3 x4 x5 x6)⌝ ∗ owns (c : Thread nD τ) arg11 fullShare X)) -∗ K ⟨⟩))
      ⊢ wp frame (wpE (defs₀ (F := F)) Variants.none c none) E (cc8__pass1_kernel_split i arg2 harg2 arg3 harg3 arg4 harg4 arg5 harg5 arg6 harg6 arg7 harg7 arg8 harg8 arg9 harg9 arg10 harg10 arg11 harg11) K := by
  simp only [cc8__pass1_kernel_split_eq_skeleton]; unfold cc8__pass1_kernel_split_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    rw [r8readAt_S4096x128, r8readAt_S4096x128, r8readAt_S128x256, r8readAt_S128x256, r8readAt_S1x256, r8readAt_S256x128, r8readAt_S1x128]
    exact r8read_whole_store (F := F) _ _ _
  isplitl [H8]
  · iexists _; isplitr; swap
    · iexists _; isplitr; swap; · iexact H8
      ipureintro; rfl
    ipureintro
    rw [r8readAt_S4096x128, r8readAt_S4096x128, r8readAt_S128x256, r8readAt_S128x256, r8readAt_S1x256, r8readAt_S256x128, r8readAt_S1x128]
    rw [k8_pay1_eq]
    refine (r8ld_row_store (F := F) _ _ _ _).trans ?_
    congr 1
    sl_unfold_run_names
    exact View.readCov_cons_toLoadRect _ _ _ _
  · iexists _; isplitr; swap
    · iexists _; isplitr; swap; · iexact H9
      ipureintro; rfl
    ipureintro
    rw [r8readAt_S4096x128, r8readAt_S4096x128, r8readAt_S128x256, r8readAt_S128x256, r8readAt_S1x256, r8readAt_S256x128, r8readAt_S1x128]
    rw [k8_pay2_eq]
    refine (r8ld_row_store (F := F) _ _ _ _).trans ?_
    congr 1
    sl_unfold_run_names
    exact View.readCov_cons_toLoadRect _ _ _ _

/-! ## The proof data of region 8, relational -/

variable (V : (c : Dev nD) → (b : Ref sig .tc) → Buf (Elt F) ((c : Thread nD τ).loc b))

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The block of `y` at point `t`: the body's function of the seven input blocks there. -/
def yat8 (c : Dev nD) (t : Fin cfg8.N) : Vec F S4096x128 .f32 :=
  yblk8 (iblk8 V c 0 t) (iblk8 V c 1 t) (iblk8 V c 2 t) (iblk8 V c 3 t) (iblk8 V c 4 t) (iblk8 V c 5 t) (iblk8 V c 6 t)

/-- The proof data of the launch on core `c`: the arrays as the region finds them; an input's buffer is left as found; the
    `y` window's buffer is left at the block of `y`; of a statistics window's buffer only row 0 is constrained — it is the
    row found (the zero row at the first point of a core's run) plus the column sums of the block of `y` (of its square) —, and
    nothing is said of rows 1 to 7, which the body never stores. -/
def rdat8 (c : Dev nD) : RDat τ (Elt F) Unit ℕ (UR sig nD τ) ℕ cfg8 c where
  A w := V c (Pipeline.arrRef spec8 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => X = yat8 V c t
    | ⟨8, _⟩ => fun Y X => View.ld X r8row = r8acc (if t.val % 8 = 0 then r8zrow else View.ld Y r8row) (yat8 V c t)
    | ⟨9, _⟩ => fun Y X => View.ld X r8row = r8accsq (if t.val % 8 = 0 then r8zrow else View.ld Y r8row) (yat8 V c t)
  Φ _ := Pipeline.ΦA spec8 c
  q _ := fullShare
  owed _ := 0

theorem rdat8_A (c : Dev nD) (w : Fin cfg8.W) : (rdat8 V c).A w = V c (Pipeline.arrRef spec8 w) := by dsimp only [rdat8]

theorem after8_0 (c : Dev nD) (t : Fin cfg8.N) Y X : (rdat8 V c).after 0 t Y X ↔ X = Y := by dsimp only [rdat8]; exact Iff.rfl
theorem after8_1 (c : Dev nD) (t : Fin cfg8.N) Y X : (rdat8 V c).after 1 t Y X ↔ X = Y := by dsimp only [rdat8]; exact Iff.rfl
theorem after8_2 (c : Dev nD) (t : Fin cfg8.N) Y X : (rdat8 V c).after 2 t Y X ↔ X = Y := by dsimp only [rdat8]; exact Iff.rfl
theorem after8_3 (c : Dev nD) (t : Fin cfg8.N) Y X : (rdat8 V c).after 3 t Y X ↔ X = Y := by dsimp only [rdat8]; exact Iff.rfl
theorem after8_4 (c : Dev nD) (t : Fin cfg8.N) Y X : (rdat8 V c).after 4 t Y X ↔ X = Y := by dsimp only [rdat8]; exact Iff.rfl
theorem after8_5 (c : Dev nD) (t : Fin cfg8.N) Y X : (rdat8 V c).after 5 t Y X ↔ X = Y := by dsimp only [rdat8]; exact Iff.rfl
theorem after8_6 (c : Dev nD) (t : Fin cfg8.N) Y X : (rdat8 V c).after 6 t Y X ↔ X = Y := by dsimp only [rdat8]; exact Iff.rfl
theorem after8_7 (c : Dev nD) (t : Fin cfg8.N) Y X : (rdat8 V c).after 7 t Y X ↔ X = yat8 V c t := by dsimp only [rdat8]; exact Iff.rfl
theorem after8_8 (c : Dev nD) (t : Fin cfg8.N) Y X : (rdat8 V c).after 8 t Y X ↔
    View.ld X r8row = r8acc (if t.val % 8 = 0 then r8zrow else View.ld Y r8row) (yat8 V c t) := by dsimp only [rdat8]; exact Iff.rfl
theorem after8_9 (c : Dev nD) (t : Fin cfg8.N) Y X : (rdat8 V c).after 9 t Y X ↔
    View.ld X r8row = r8accsq (if t.val % 8 = 0 then r8zrow else View.ld Y r8row) (yat8 V c t) := by dsimp only [rdat8]; exact Iff.rfl

/-! ## What the body finds in an input's buffer: the window's block, fetched at the point or not -/

theorem finds8_0 (c : Dev nD) (t : Fin cfg8.N) (Y) (h : (rdat8 V c).Finds 0 t Y) : Y = iblk8 V c 0 t := by
  obtain ⟨d, rfl⟩ := (rdat8 V c).finds_in_eq_fetched 0 rfl (fun _ _ _ => rfl) (fun t Y X h => (after8_0 V c t Y X).mp h) t Y h
  unfold RDat.fetched RDat.blockOf iblk8; rw [rdat8_A]; rfl

theorem finds8_1 (c : Dev nD) (t : Fin cfg8.N) (Y) (h : (rdat8 V c).Finds 1 t Y) : Y = iblk8 V c 1 t := by
  obtain ⟨d, rfl⟩ := (rdat8 V c).finds_in_eq_fetched 1 rfl (fun _ _ _ => rfl) (fun t Y X h => (after8_1 V c t Y X).mp h) t Y h
  unfold RDat.fetched RDat.blockOf iblk8; rw [rdat8_A]; rfl

theorem finds8_2 (c : Dev nD) (t : Fin cfg8.N) (Y) (h : (rdat8 V c).Finds 2 t Y) : Y = iblk8 V c 2 t := by
  obtain ⟨d, rfl⟩ := (rdat8 V c).finds_in_eq_fetched 2 rfl (fun _ _ _ => rfl) (fun t Y X h => (after8_2 V c t Y X).mp h) t Y h
  unfold RDat.fetched RDat.blockOf iblk8; rw [rdat8_A]; rfl

theorem finds8_3 (c : Dev nD) (t : Fin cfg8.N) (Y) (h : (rdat8 V c).Finds 3 t Y) : Y = iblk8 V c 3 t := by
  obtain ⟨d, rfl⟩ := (rdat8 V c).finds_in_eq_fetched 3 rfl (fun _ _ _ => rfl) (fun t Y X h => (after8_3 V c t Y X).mp h) t Y h
  unfold RDat.fetched RDat.blockOf iblk8; rw [rdat8_A]; rfl

theorem finds8_4 (c : Dev nD) (t : Fin cfg8.N) (Y) (h : (rdat8 V c).Finds 4 t Y) : Y = iblk8 V c 4 t := by
  obtain ⟨d, rfl⟩ := (rdat8 V c).finds_in_eq_fetched 4 rfl (fun _ _ _ => rfl) (fun t Y X h => (after8_4 V c t Y X).mp h) t Y h
  unfold RDat.fetched RDat.blockOf iblk8; rw [rdat8_A]; rfl

theorem finds8_5 (c : Dev nD) (t : Fin cfg8.N) (Y) (h : (rdat8 V c).Finds 5 t Y) : Y = iblk8 V c 5 t := by
  obtain ⟨d, rfl⟩ := (rdat8 V c).finds_in_eq_fetched 5 rfl (fun _ _ _ => rfl) (fun t Y X h => (after8_5 V c t Y X).mp h) t Y h
  unfold RDat.fetched RDat.blockOf iblk8; rw [rdat8_A]; rfl

theorem finds8_6 (c : Dev nD) (t : Fin cfg8.N) (Y) (h : (rdat8 V c).Finds 6 t Y) : Y = iblk8 V c 6 t := by
  obtain ⟨d, rfl⟩ := (rdat8 V c).finds_in_eq_fetched 6 rfl (fun _ _ _ => rfl) (fun t Y X h => (after8_6 V c t Y X).mp h) t Y h
  unfold RDat.fetched RDat.blockOf iblk8; rw [rdat8_A]; rfl

/-! ## The body obligation -/

set_option maxHeartbeats 1000000 in
/-- The body at any point, on the buffers the pipeline hands it: the inputs' hold their blocks (`h0` … `h6`), the outputs' anything.
    The point's position in its core's run of eight says which of the two runs applies; what the run leaves is in the relation. -/
theorem sound_body8 (c : Dev nD) (t : Fin cfg8.N) (Y : (w : Fin cfg8.W) → (cfg8.win w).block.Idx → Elt F (cfg8.win w).elt)
    (h0 : Y 0 = iblk8 V c 0 t) (h1 : Y 1 = iblk8 V c 1 t) (h2 : Y 2 = iblk8 V c 2 t) (h3 : Y 3 = iblk8 V c 3 t) (h4 : Y 4 = iblk8 V c 4 t) (h5 : Y 5 = iblk8 V c 5 t) (h6 : Y 6 = iblk8 V c 6 t) :
    iprop((rdat8 V c).Φ t.castSucc ∗ (rdat8 V c).owesAt () t.castSucc
        ∗ owns (c : Thread nD τ) ((cfg8.win 0).stage (cfg8.slots t 0)) fullShare (Y 0)
        ∗ owns (c : Thread nD τ) ((cfg8.win 1).stage (cfg8.slots t 1)) fullShare (Y 1)
        ∗ owns (c : Thread nD τ) ((cfg8.win 2).stage (cfg8.slots t 2)) fullShare (Y 2)
        ∗ owns (c : Thread nD τ) ((cfg8.win 3).stage (cfg8.slots t 3)) fullShare (Y 3)
        ∗ owns (c : Thread nD τ) ((cfg8.win 4).stage (cfg8.slots t 4)) fullShare (Y 4)
        ∗ owns (c : Thread nD τ) ((cfg8.win 5).stage (cfg8.slots t 5)) fullShare (Y 5)
        ∗ owns (c : Thread nD τ) ((cfg8.win 6).stage (cfg8.slots t 6)) fullShare (Y 6)
        ∗ owns (c : Thread nD τ) ((cfg8.win 7).stage (cfg8.slots t 7)) fullShare (Y 7)
        ∗ owns (c : Thread nD τ) ((cfg8.win 8).stage (cfg8.slots t 8)) fullShare (Y 8)
        ∗ owns (c : Thread nD τ) ((cfg8.win 9).stage (cfg8.slots t 9)) fullShare (Y 9))
      ⊢ wp frame (wpE (defs₀ (F := F)) Variants.none c none) Set.univ (bodyAt8 t) (fun _ =>
        iprop((rdat8 V c).Φ t.succ ∗ (rdat8 V c).owesAt () t.succ
          ∗ (∃ X, ⌜(rdat8 V c).after 0 t (Y 0) X⌝ ∗ owns (c : Thread nD τ) ((cfg8.win 0).stage (cfg8.slots t 0)) fullShare X)
          ∗ (∃ X, ⌜(rdat8 V c).after 1 t (Y 1) X⌝ ∗ owns (c : Thread nD τ) ((cfg8.win 1).stage (cfg8.slots t 1)) fullShare X)
          ∗ (∃ X, ⌜(rdat8 V c).after 2 t (Y 2) X⌝ ∗ owns (c : Thread nD τ) ((cfg8.win 2).stage (cfg8.slots t 2)) fullShare X)
          ∗ (∃ X, ⌜(rdat8 V c).after 3 t (Y 3) X⌝ ∗ owns (c : Thread nD τ) ((cfg8.win 3).stage (cfg8.slots t 3)) fullShare X)
          ∗ (∃ X, ⌜(rdat8 V c).after 4 t (Y 4) X⌝ ∗ owns (c : Thread nD τ) ((cfg8.win 4).stage (cfg8.slots t 4)) fullShare X)
          ∗ (∃ X, ⌜(rdat8 V c).after 5 t (Y 5) X⌝ ∗ owns (c : Thread nD τ) ((cfg8.win 5).stage (cfg8.slots t 5)) fullShare X)
          ∗ (∃ X, ⌜(rdat8 V c).after 6 t (Y 6) X⌝ ∗ owns (c : Thread nD τ) ((cfg8.win 6).stage (cfg8.slots t 6)) fullShare X)
          ∗ (∃ X, ⌜(rdat8 V c).after 7 t (Y 7) X⌝ ∗ owns (c : Thread nD τ) ((cfg8.win 7).stage (cfg8.slots t 7)) fullShare X)
          ∗ (∃ X, ⌜(rdat8 V c).after 8 t (Y 8) X⌝ ∗ owns (c : Thread nD τ) ((cfg8.win 8).stage (cfg8.slots t 8)) fullShare X)
          ∗ (∃ X, ⌜(rdat8 V c).after 9 t (Y 9) X⌝ ∗ owns (c : Thread nD τ) ((cfg8.win 9).stage (cfg8.slots t 9)) fullShare X))) := by
  unfold bodyAt8
  rw [show (rdat8 V c).Φ t.succ = (rdat8 V c).Φ t.castSucc from rfl,
    show (rdat8 V c).owesAt () t.succ = (rdat8 V c).owesAt () t.castSucc from rfl]
  by_cases h : t.val % 8 = 0
  ·
    iintro ⟨HΦ, Ho, H0, H1, H2, H3, H4, H5, H6, H7, H8, H9⟩
    iapply (sound_kernel8_first c (grid8.coords t) _ _ _ _ _ _ _ _ _ _ _ _ _ _ _ _ _ _ _ _ ((r8cond_iff t).mpr h) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after8_0 V c t _ _).mpr rfl
    isplitl [H1]
    · iexists _; isplitr; swap; · iexact H1
      ipureintro; exact (after8_1 V c t _ _).mpr rfl
    isplitl [H2]
    · iexists _; isplitr; swap; · iexact H2
      ipureintro; exact (after8_2 V c t _ _).mpr rfl
    isplitl [H3]
    · iexists _; isplitr; swap; · iexact H3
      ipureintro; exact (after8_3 V c t _ _).mpr rfl
    isplitl [H4]
    · iexists _; isplitr; swap; · iexact H4
      ipureintro; exact (after8_4 V c t _ _).mpr rfl
    isplitl [H5]
    · iexists _; isplitr; swap; · iexact H5
      ipureintro; exact (after8_5 V c t _ _).mpr rfl
    isplitl [H6]
    · iexists _; isplitr; swap; · iexact H6
      ipureintro; exact (after8_6 V c t _ _).mpr rfl
    isplitl [H7]
    · iexists _; isplitr; swap; · iexact H7
      ipureintro; rw [after8_7]; unfold yat8; rw [← h0, ← h1, ← h2, ← h3, ← h4, ← h5, ← h6]
    isplitl [H8]
    · iexists X8; isplitr; swap; · iexact H8
      ipureintro; rw [after8_8, if_pos h]; unfold yat8; rw [← h0, ← h1, ← h2, ← h3, ← h4, ← h5, ← h6]; exact hX8
    · iexists X9; isplitr; swap; · iexact H9
      ipureintro; rw [after8_9, if_pos h]; unfold yat8; rw [← h0, ← h1, ← h2, ← h3, ← h4, ← h5, ← h6]; exact hX9
  ·
    iintro ⟨HΦ, Ho, H0, H1, H2, H3, H4, H5, H6, H7, H8, H9⟩
    iapply (sound_kernel8_later c (grid8.coords t) _ _ _ _ _ _ _ _ _ _ _ _ _ _ _ _ _ _ _ _ (fun hc => h ((r8cond_iff t).mp hc)) (Y 0) (Y 1) (Y 2) (Y 3) (Y 4) (Y 5) (Y 6) (Y 7) (Y 8) (Y 9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%X8, %hX8, H8⟩, ⟨%X9, %hX9, H9⟩⟩
    isplitl [HΦ]; · iexact HΦ
    isplitl [Ho]; · iexact Ho
    isplitl [H0]
    · iexists _; isplitr; swap; · iexact H0
      ipureintro; exact (after8_0 V c t _ _).mpr rfl
    isplitl [H1]
    · iexists _; isplitr; swap; · iexact H1
      ipureintro; exact (after8_1 V c t _ _).mpr rfl
    isplitl [H2]
    · iexists _; isplitr; swap; · iexact H2
      ipureintro; exact (after8_2 V c t _ _).mpr rfl
    isplitl [H3]
    · iexists _; isplitr; swap; · iexact H3
      ipureintro; exact (after8_3 V c t _ _).mpr rfl
    isplitl [H4]
    · iexists _; isplitr; swap; · iexact H4
      ipureintro; exact (after8_4 V c t _ _).mpr rfl
    isplitl [H5]
    · iexists _; isplitr; swap; · iexact H5
      ipureintro; exact (after8_5 V c t _ _).mpr rfl
    isplitl [H6]
    · iexists _; isplitr; swap; · iexact H6
      ipureintro; exact (after8_6 V c t _ _).mpr rfl
    isplitl [H7]
    · iexists _; isplitr; swap; · iexact H7
      ipureintro; rw [after8_7]; unfold yat8; rw [← h0, ← h1, ← h2, ← h3, ← h4, ← h5, ← h6]
    isplitl [H8]
    · iexists X8; isplitr; swap; · iexact H8
      ipureintro; rw [after8_8, if_neg h]; unfold yat8; rw [← h0, ← h1, ← h2, ← h3, ← h4, ← h5, ← h6]; exact hX8
    · iexists X9; isplitr; swap; · iexact H9
      ipureintro; rw [after8_9, if_neg h]; unfold yat8; rw [← h0, ← h1, ← h2, ← h3, ← h4, ← h5, ← h6]; exact hX9

/-- The library's body obligation of the relational data, at every point. -/
theorem body_obligation8 (c : Dev nD) : (rdat8 (F := F) V c).BodyObligation (defs₀ (F := F)) Variants.none () Set.univ := by
  intro t Y hY
  rw [bigSep_W8, bigSep_W8]
  exact sound_body8 V c t Y (finds8_0 V c t _ (hY 0)) (finds8_1 V c t _ (hY 1)) (finds8_2 V c t _ (hY 2)) (finds8_3 V c t _ (hY 3)) (finds8_4 V c t _ (hY 4)) (finds8_5 V c t _ (hY 5)) (finds8_6 V c t _ (hY 6))

end Cert.Kernel.Hand
end
-- ==== Proof.HandK.P1r8Arr.lean ====
/- What region 8's arrays hold after the launch, from the relational data's `ArrAt` (pure: no separation logic).

   An input array is as the region found it. Row block `p` of the array of `y` is the block of `y` at point `p`. Of a
   statistics array only rows 0 and 8 are determined: row 0 is core 0's fold — the zero row with the column sums of the blocks
   of `y` (of their squares) at its eight points added in point order —, row 8 core 1's. -/
import proofs.«103476_j5987184410999_2_alg».proof.Proof.HandK.P1r8
import proofs.«103476_j5987184410999_2_alg».proof.Proof.HandK.Agree
import Idealize.ShloMosaic.Lib.Pipeline.Cells
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.RA
open Idealize.ShloMosaic.Pipeline (RDat Dat Cfg Window cellOf)
open Idealize.ShloMosaic.ValueIdx (ix2 eq_ix2)

variable {F : FTy → Type} [FloatOps F]

variable (V : (c : Dev nD) → (b : Ref sig .tc) → Buf (Elt F) ((c : Thread nD τ).loc b))

/-! ## What the arrays hold after the launch -/

section Arr

/-! ### Inputs: never written -/

theorem arrAt8_in_of (c : Dev nD) (w : Fin cfg8.W) (hw : (cfg8.win w).isOut = false) (n : ℕ)
    (G : Buf (Elt F) ((cfg8.win w).arr.view.loc (c.tc : Thread nD τ))) (h : (rdat8 V c).ArrAt w n G) :
    G = V c (Pipeline.arrRef spec8 w) := by
  rw [RDat.ArrAt_in _ w hw n] at h; exact h.trans (rdat8_A V c w)

/-- The first seven windows are the inputs. -/
theorem isOut8_in : ∀ w : Fin cfg8.W, w.val < 7 → (cfg8.win w).isOut = false := by decide

/-- An input's array is as the region found it. -/
theorem arrAt8_in (c : Dev nD) (w : Fin cfg8.W) (hw : w.val < 7)
    (G : Buf (Elt F) ((cfg8.win w).arr.view.loc (c.tc : Thread nD τ))) (h : (rdat8 V c).ArrAt w cfg8.N G) :
    G = V c (Pipeline.arrRef spec8 w) := arrAt8_in_of V c w (isOut8_in w hw) cfg8.N G h

/-! ### The schedule of the three outputs -/

theorem fetch8_7 : ∀ t : Fin cfg8.N, (cfg8.win 7).fetch t = false :=
  (by decide +kernel : ∀ t : Fin grid8.N, win8_7.fetch t = false)
theorem fetch8_8 : ∀ t : Fin cfg8.N, (cfg8.win 8).fetch t = false :=
  (by decide +kernel : ∀ t : Fin grid8.N, win8_8.fetch t = false)
theorem fetch8_9 : ∀ t : Fin cfg8.N, (cfg8.win 9).fetch t = false :=
  (by decide +kernel : ∀ t : Fin grid8.N, win8_9.fetch t = false)

/-- The block index of the `y` window at point `t`: row block `t`. -/
theorem index8_7 : ∀ t : Fin cfg8.N, (cfg8.win 7).index t = ![t.val, 0] :=
  (by decide +kernel : ∀ t : Fin grid8.N, win8_7.index t = ![t.val, 0])
/-- The block index of a statistics window at point `t`: the core's. -/
theorem index8_8 : ∀ t : Fin cfg8.N, (cfg8.win 8).index t = ![t.val / 8, 0] :=
  (by decide +kernel : ∀ t : Fin grid8.N, win8_8.index t = ![t.val / 8, 0])
theorem index8_9 : ∀ t : Fin cfg8.N, (cfg8.win 9).index t = ![t.val / 8, 0] :=
  (by decide +kernel : ∀ t : Fin grid8.N, win8_9.index t = ![t.val / 8, 0])

/-! ### Window 7: block `t` of the array is the block of `y` at `t` -/

theorem leaves8_7 (c : Dev nD) (t : Fin cfg8.N) (X) (h : (rdat8 V c).Leaves 7 t X) : X = yat8 V c t := by
  obtain ⟨Y, -, hA⟩ := h
  exact (after8_7 V c t Y X).mp hA

theorem arrAt8_7_blk (c : Dev nD) : ∀ (n : ℕ), n ≤ 16 → ∀ G, (rdat8 V c).ArrAt 7 n G →
    ∀ u : Fin cfg8.N, u.val < n → ((cfg8.win 7).blk u).view.read (Elt F) G = yat8 V c u
  | 0, _, _, _, u, hu => absurd hu (Nat.not_lt_zero _)
  | n + 1, hn, G, h, u, hu => by
    have hN : n < cfg8.N := by show n < grid8.N; rw [N_8]; omega
    rw [show n + 1 = (⟨n, hN⟩ : Fin cfg8.N).val + 1 from rfl, RDat.ArrAt_succ, if_pos (flush8_7 _)] at h
    obtain ⟨G₀, X, hG₀, hX, rfl⟩ := h
    obtain rfl := leaves8_7 V c _ X hX
    by_cases hun : u.val = n
    · have e : u = ⟨n, hN⟩ := Fin.ext hun
      subst e
      exact View.read_write_univ _ _
    · refine Eq.trans ?_ (arrAt8_7_blk c n (by omega) G₀ hG₀ u (by omega))
      refine View.read_congr fun i hi => View.write_of_not_mem _ _ _ ?_
      have hd := (cfg8.win 7).disjoint_blk (u := u) (u' := ⟨n, hN⟩) (by
        rw [index8_7, index8_7]; intro e; exact hun (by simpa using congrFun e 0))
      exact Finset.disjoint_left.mp hd hi
end Arr

section Arr3

/-! ### Windows 8 and 9: row 0 of a core's statistics block is the fold of its eight points -/

/-- Point `j` of core `q`'s run of eight. -/
def r8pt (q : Fin 2) (j : ℕ) (hj : j < 8) : Fin cfg8.N := ⟨8 * q.val + j, by have := q.isLt; show _ < grid8.N; rw [N_8]; omega⟩

/-- Row 0 of core `q`'s sum block after its point `j`: the zero row with the column sums of the blocks of `y` at the points
    `0 … j` of the core's run added in that order. -/
def r8sum (c : Dev nD) (q : Fin 2) : (j : ℕ) → j < 8 → FVec F S1x128 .f32
  | 0, h => r8acc r8zrow (yat8 V c (r8pt q 0 h))
  | j + 1, h => r8acc (r8sum c q j (Nat.lt_of_succ_lt h)) (yat8 V c (r8pt q (j + 1) h))

/-- The same of the squares. -/
def r8sumsq (c : Dev nD) (q : Fin 2) : (j : ℕ) → j < 8 → FVec F S1x128 .f32
  | 0, h => r8accsq r8zrow (yat8 V c (r8pt q 0 h))
  | j + 1, h => r8accsq (r8sumsq c q j (Nat.lt_of_succ_lt h)) (yat8 V c (r8pt q (j + 1) h))

theorem leaves8_8 (c : Dev nD) (q : Fin 2) : ∀ (j : ℕ) (hj : j < 8) (X), (rdat8 V c).Leaves 8 (r8pt q j hj) X →
    View.ld X r8row = r8sum V c q j hj
  | 0, hj, X, h => by
    obtain ⟨Y, -, hA⟩ := h
    rw [after8_8, if_pos (by show (8 * q.val + 0) % 8 = 0; omega)] at hA
    exact hA
  | j + 1, hj, X, h => by
    obtain ⟨Y, hF, hA⟩ := h
    rw [after8_8, if_neg (by show ¬(8 * q.val + (j + 1)) % 8 = 0; omega)] at hA
    rw [RDat.finds_of_pos _ (fetch8_8 _) (by show 8 * q.val + (j + 1) ≠ 0; omega)] at hF
    rcases hF with hfl | hL
    · exact absurd ((flush8_8 _).mp hfl) (by show ¬(8 * q.val + (j + 1) - 1) % 8 = 7; omega)
    · have e : (⟨(r8pt q (j + 1) hj).val - 1, Nat.lt_of_le_of_lt (Nat.sub_le _ _) (r8pt q (j + 1) hj).isLt⟩ : Fin cfg8.N)
          = r8pt q j (Nat.lt_of_succ_lt hj) := Fin.ext (by show 8 * q.val + (j + 1) - 1 = 8 * q.val + j; omega)
      rw [e] at hL
      rw [hA, leaves8_8 c q j (Nat.lt_of_succ_lt hj) Y hL]
      rfl

theorem leaves8_9 (c : Dev nD) (q : Fin 2) : ∀ (j : ℕ) (hj : j < 8) (X), (rdat8 V c).Leaves 9 (r8pt q j hj) X →
    View.ld X r8row = r8sumsq V c q j hj
  | 0, hj, X, h => by
    obtain ⟨Y, -, hA⟩ := h
    rw [after8_9, if_pos (by show (8 * q.val + 0) % 8 = 0; omega)] at hA
    exact hA
  | j + 1, hj, X, h => by
    obtain ⟨Y, hF, hA⟩ := h
    rw [after8_9, if_neg (by show ¬(8 * q.val + (j + 1)) % 8 = 0; omega)] at hA
    rw [RDat.finds_of_pos _ (fetch8_9 _) (by show 8 * q.val + (j + 1) ≠ 0; omega)] at hF
    rcases hF with hfl | hL
    · exact absurd ((flush8_9 _).mp hfl) (by show ¬(8 * q.val + (j + 1) - 1) % 8 = 7; omega)
    · have e : (⟨(r8pt q (j + 1) hj).val - 1, Nat.lt_of_le_of_lt (Nat.sub_le _ _) (r8pt q (j + 1) hj).isLt⟩ : Fin cfg8.N)
          = r8pt q j (Nat.lt_of_succ_lt hj) := Fin.ext (by show 8 * q.val + (j + 1) - 1 = 8 * q.val + j; omega)
      rw [e] at hL
      rw [hA, leaves8_9 c q j (Nat.lt_of_succ_lt hj) Y hL]
      rfl

end Arr3

section Arr4

section TwoWrites
variable {sg : RefSig} {κ : Kind} {sp : Space} {s : Shape} {e : EltTy} {Val : EltTy → Type}

/-- After two writes through rectangles of a view, an element of the first rectangle outside the second reads the first payload; -/
theorem r8read_two_writes_fst (v : View sg κ sp s e) (r r' : Rect s) (f : v.ty.Contents Val) (w : r.shape.Idx → Val e)
    (w' : r'.shape.Idx → Val e) (x : r.shape.Idx) (i : s.Idx) (hi : i = r.emb x) (h : i ∉ r'.set) :
    v.read Val ((v.slice r').write Val ((v.slice r).write Val f w Finset.univ) w' Finset.univ) i = w x := by
  subst hi
  rw [View.read_slice_write_of_not_mem r' _ _ _ (by rw [Rect.map_emb_univ]; exact h),
    View.read_slice_write_emb r _ _ (Finset.mem_univ x)]

/-- an element of the second reads the second. -/
theorem r8read_two_writes_snd (v : View sg κ sp s e) (r r' : Rect s) (f : v.ty.Contents Val) (w : r.shape.Idx → Val e)
    (w' : r'.shape.Idx → Val e) (x : r'.shape.Idx) (i : s.Idx) (hi : i = r'.emb x) :
    v.read Val ((v.slice r').write Val ((v.slice r).write Val f w Finset.univ) w' Finset.univ) i = w' x := by
  subst hi
  exact View.read_slice_write_emb r' _ _ (Finset.mem_univ x)
end TwoWrites

theorem arrAt8_8_keep (c : Dev nD) : ∀ (n m : ℕ), m ≤ n → n ≤ 16 → (∀ k, m ≤ k → k < n → k % 8 ≠ 7) →
    (rdat8 V c).ArrAt 8 n = (rdat8 V c).ArrAt 8 m
  | 0, m, hm, _, _ => by obtain rfl := Nat.le_zero.mp hm; rfl
  | n + 1, m, hm, hn, hk => by
    rcases Nat.eq_or_lt_of_le hm with e | hlt
    · rw [e]
    · have hN : n < cfg8.N := by show n < grid8.N; rw [N_8]; omega
      have hs := (rdat8 V c).ArrAt_succ 8 ⟨n, hN⟩
      rw [if_neg (fun hf => hk n (by omega) (by omega) ((flush8_8 ⟨n, hN⟩).mp hf))] at hs
      exact hs.trans (arrAt8_8_keep c n m (by omega) (by omega) fun k h1 h2 => hk k h1 (by omega))

/-- After the launch a statistics array is its entry contents with core 0's block, then core 1's, written over it, each from
    a buffer whose row 0 is the core's fold. -/
theorem arrAt8_8_form (c : Dev nD) (G : Buf (Elt F) ((cfg8.win 8).arr.view.loc (c.tc : Thread nD τ)))
    (h : (rdat8 V c).ArrAt 8 cfg8.N G) :
    ∃ X X', View.ld X r8row = r8sum V c 0 7 (by omega) ∧ View.ld X' r8row = r8sum V c 1 7 (by omega) ∧
      G = ((cfg8.win 8).arr.view.slice ((cfg8.win 8).rect t8_15)).write (Elt F)
            (((cfg8.win 8).arr.view.slice ((cfg8.win 8).rect t8_7)).write (Elt F) ((rdat8 V c).A 8)
              ((cfg8.win 8).cut (cfg8.grid.coords t8_7) X) Finset.univ)
            ((cfg8.win 8).cut (cfg8.grid.coords t8_15) X') Finset.univ := by
  have e16 := (rdat8 V c).ArrAt_succ 8 t8_15
  rw [if_pos ((flush8_8 t8_15).mpr rfl)] at e16
  have h1 : (rdat8 V c).ArrStep 8 t8_15 ((rdat8 V c).ArrAt 8 15) G := Eq.mp (congrFun e16 G) h
  obtain ⟨G₁, X', hG₁, hX', rfl⟩ := h1
  have e15 := arrAt8_8_keep V c 15 8 (by omega) (by omega) (by intro k h1 h2; omega)
  have e8 := (rdat8 V c).ArrAt_succ 8 t8_7
  rw [if_pos ((flush8_8 t8_7).mpr rfl)] at e8
  have h2 : (rdat8 V c).ArrStep 8 t8_7 ((rdat8 V c).ArrAt 8 7) G₁ := Eq.mp (congrFun (e15.trans e8) G₁) hG₁
  obtain ⟨G₀, X, hG₀, hX, rfl⟩ := h2
  have e7 := arrAt8_8_keep V c 7 0 (by omega) (by omega) (by intro k h1 h2; omega)
  have h3 : G₀ = (rdat8 V c).A 8 := Eq.mp (congrFun e7 G₀) hG₀
  subst h3
  exact ⟨X, X', leaves8_8 V c 0 7 (by omega) X hX, leaves8_8 V c 1 7 (by omega) X' hX', rfl⟩

theorem arrAt8_9_keep (c : Dev nD) : ∀ (n m : ℕ), m ≤ n → n ≤ 16 → (∀ k, m ≤ k → k < n → k % 8 ≠ 7) →
    (rdat8 V c).ArrAt 9 n = (rdat8 V c).ArrAt 9 m
  | 0, m, hm, _, _ => by obtain rfl := Nat.le_zero.mp hm; rfl
  | n + 1, m, hm, hn, hk => by
    rcases Nat.eq_or_lt_of_le hm with e | hlt
    · rw [e]
    · have hN : n < cfg8.N := by show n < grid8.N; rw [N_8]; omega
      have hs := (rdat8 V c).ArrAt_succ 9 ⟨n, hN⟩
      rw [if_neg (fun hf => hk n (by omega) (by omega) ((flush8_9 ⟨n, hN⟩).mp hf))] at hs
      exact hs.trans (arrAt8_9_keep c n m (by omega) (by omega) fun k h1 h2 => hk k h1 (by omega))

/-- After the launch a statistics array is its entry contents with core 0's block, then core 1's, written over it, each from
    a buffer whose row 0 is the core's fold. -/
theorem arrAt8_9_form (c : Dev nD) (G : Buf (Elt F) ((cfg8.win 9).arr.view.loc (c.tc : Thread nD τ)))
    (h : (rdat8 V c).ArrAt 9 cfg8.N G) :
    ∃ X X', View.ld X r8row = r8sumsq V c 0 7 (by omega) ∧ View.ld X' r8row = r8sumsq V c 1 7 (by omega) ∧
      G = ((cfg8.win 9).arr.view.slice ((cfg8.win 9).rect t8_15)).write (Elt F)
            (((cfg8.win 9).arr.view.slice ((cfg8.win 9).rect t8_7)).write (Elt F) ((rdat8 V c).A 9)
              ((cfg8.win 9).cut (cfg8.grid.coords t8_7) X) Finset.univ)
            ((cfg8.win 9).cut (cfg8.grid.coords t8_15) X') Finset.univ := by
  have e16 := (rdat8 V c).ArrAt_succ 9 t8_15
  rw [if_pos ((flush8_9 t8_15).mpr rfl)] at e16
  have h1 : (rdat8 V c).ArrStep 9 t8_15 ((rdat8 V c).ArrAt 9 15) G := Eq.mp (congrFun e16 G) h
  obtain ⟨G₁, X', hG₁, hX', rfl⟩ := h1
  have e15 := arrAt8_9_keep V c 15 8 (by omega) (by omega) (by intro k h1 h2; omega)
  have e8 := (rdat8 V c).ArrAt_succ 9 t8_7
  rw [if_pos ((flush8_9 t8_7).mpr rfl)] at e8
  have h2 : (rdat8 V c).ArrStep 9 t8_7 ((rdat8 V c).ArrAt 9 7) G₁ := Eq.mp (congrFun (e15.trans e8) G₁) hG₁
  obtain ⟨G₀, X, hG₀, hX, rfl⟩ := h2
  have e7 := arrAt8_9_keep V c 7 0 (by omega) (by omega) (by intro k h1 h2; omega)
  have h3 : G₀ = (rdat8 V c).A 9 := Eq.mp (congrFun e7 G₀) hG₀
  subst h3
  exact ⟨X, X', leaves8_9 V c 0 7 (by omega) X hX, leaves8_9 V c 1 7 (by omega) X' hX', rfl⟩

end Arr4

section Arr5

section RowApply
/-- The host's row slices at an index. -/
theorem r8row0_apply (X : (⟨S16x128, .f32⟩ : BufTy).Contents (Elt F)) (x : S1x128.Idx) :
    row0 X x = X (ix2 (⟨(x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 0 + (x 0).val = (x 0).val; omega)
  | ⟨1, _⟩ => exact Fin.ext (by show 0 + (x 1).val = (x 1).val; omega)
theorem r8row8_apply (X : (⟨S16x128, .f32⟩ : BufTy).Contents (Elt F)) (x : S1x128.Idx) :
    row8 X x = X (ix2 (⟨8 + (x 0).val, by have h1 : (x 0).val < 1 := (x 0).isLt; omega⟩ : Fin 16) (⟨(x 1).val, (x 1).isLt⟩ : Fin 128)) := by
  show X _ = X _
  congr 1; funext a
  match a with
  | ⟨0, _⟩ => exact Fin.ext (by show 8 + (x 0).val = 8 + (x 0).val; omega)
  | ⟨1, _⟩ => exact Fin.ext (by show 0 + (x 1).val = (x 1).val; omega)
end RowApply

set_option maxHeartbeats 1000000 in
/-- Rows 0 and 8 of the array after the launch are the two cores' folds. -/
theorem arrAt8_8_rows (c : Dev nD) (G : Buf (Elt F) ((cfg8.win 8).arr.view.loc (c.tc : Thread nD τ)))
    (h : (rdat8 V c).ArrAt 8 cfg8.N G) : row0 G = r8sum V c 0 7 (by omega) ∧ row8 G = r8sum V c 1 7 (by omega) := by
  obtain ⟨X, X', hX, hX', rfl⟩ := arrAt8_8_form V c G h
  constructor
  · funext x
    have hx0 : (x 0).val < 1 := (x 0).isLt
    rw [← hX, r8row0_apply]
    have hi : ix2 (⟨(x 0).val, by omega⟩ : Fin 16) (⟨(x 1).val, (x 1).isLt⟩ : Fin 128) = ((cfg8.win 8).rect t8_7).emb (r8row.emb x) := by
      funext a; apply Fin.ext
      rw [Window.rect_emb_val, index8_8]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg8.win 8).rect t8_15).set := by
      intro hm
      have h0 := (Rect.mem_set_unit.mp hm 0).1
      rw [index8_8] at h0
      have h0' : 1 * 8 ≤ (x 0).val := h0
      omega
    exact r8read_two_writes_fst (Val := Elt F) (cfg8.win 8).arr.view ((cfg8.win 8).rect t8_7) ((cfg8.win 8).rect t8_15) ((rdat8 V c).A 8)
      ((cfg8.win 8).cut (cfg8.grid.coords t8_7) X) ((cfg8.win 8).cut (cfg8.grid.coords t8_15) X') (r8row.emb x) _ hi hnot
  · funext x
    have hx0 : (x 0).val < 1 := (x 0).isLt
    rw [← hX', r8row8_apply]
    have hi : ix2 (⟨8 + (x 0).val, by omega⟩ : Fin 16) (⟨(x 1).val, (x 1).isLt⟩ : Fin 128) = ((cfg8.win 8).rect t8_15).emb (r8row.emb x) := by
      funext a; apply Fin.ext
      rw [Window.rect_emb_val, index8_8]
      match a with
      | ⟨0, _⟩ => show 8 + (x 0).val = 1 * 8 + (0 + 1 * (x 0).val); omega
      | ⟨1, _⟩ => show (x 1).val = 0 * 128 + (0 + 1 * (x 1).val); omega
    exact r8read_two_writes_snd (Val := Elt F) (cfg8.win 8).arr.view ((cfg8.win 8).rect t8_7) ((cfg8.win 8).rect t8_15) ((rdat8 V c).A 8)
      ((cfg8.win 8).cut (cfg8.grid.coords t8_7) X) ((cfg8.win 8).cut (cfg8.grid.coords t8_15) X') (r8row.emb x) _ hi

set_option maxHeartbeats 1000000 in
/-- Rows 0 and 8 of the array after the launch are the two cores' folds. -/
theorem arrAt8_9_rows (c : Dev nD) (G : Buf (Elt F) ((cfg8.win 9).arr.view.loc (c.tc : Thread nD τ)))
    (h : (rdat8 V c).ArrAt 9 cfg8.N G) : row0 G = r8sumsq V c 0 7 (by omega) ∧ row8 G = r8sumsq V c 1 7 (by omega) := by
  obtain ⟨X, X', hX, hX', rfl⟩ := arrAt8_9_form V c G h
  constructor
  · funext x
    have hx0 : (x 0).val < 1 := (x 0).isLt
    rw [← hX, r8row0_apply]
    have hi : ix2 (⟨(x 0).val, by omega⟩ : Fin 16) (⟨(x 1).val, (x 1).isLt⟩ : Fin 128) = ((cfg8.win 9).rect t8_7).emb (r8row.emb x) := by
      funext a; apply Fin.ext
      rw [Window.rect_emb_val, index8_9]
      match a with
      | ⟨0, _⟩ => show (x 0).val = 0 * 8 + (0 + 1 * (x 0).val); omega
      | ⟨1, _⟩ => show (x 1).val = 0 * 128 + (0 + 1 * (x 1).val); omega
    have hnot : ix2 (⟨(x 0).val, by omega⟩ : Fin 16) (⟨(x 1).val, (x 1).isLt⟩ : Fin 128) ∉ ((cfg8.win 9).rect t8_15).set := by
      intro hm
      have h0 := (Rect.mem_set_unit.mp hm 0).1
      rw [index8_9] at h0
      have h0' : 1 * 8 ≤ (x 0).val := h0
      omega
    exact r8read_two_writes_fst (Val := Elt F) (cfg8.win 9).arr.view ((cfg8.win 9).rect t8_7) ((cfg8.win 9).rect t8_15) ((rdat8 V c).A 9)
      ((cfg8.win 9).cut (cfg8.grid.coords t8_7) X) ((cfg8.win 9).cut (cfg8.grid.coords t8_15) X') (r8row.emb x) _ hi hnot
  · funext x
    have hx0 : (x 0).val < 1 := (x 0).isLt
    rw [← hX', r8row8_apply]
    have hi : ix2 (⟨8 + (x 0).val, by omega⟩ : Fin 16) (⟨(x 1).val, (x 1).isLt⟩ : Fin 128) = ((cfg8.win 9).rect t8_15).emb (r8row.emb x) := by
      funext a; apply Fin.ext
      rw [Window.rect_emb_val, index8_9]
      match a with
      | ⟨0, _⟩ => show 8 + (x 0).val = 1 * 8 + (0 + 1 * (x 0).val); omega
      | ⟨1, _⟩ => show (x 1).val = 0 * 128 + (0 + 1 * (x 1).val); omega
    exact r8read_two_writes_snd (Val := Elt F) (cfg8.win 9).arr.view ((cfg8.win 9).rect t8_7) ((cfg8.win 9).rect t8_15) ((rdat8 V c).A 9)
      ((cfg8.win 9).cut (cfg8.grid.coords t8_7) X) ((cfg8.win 9).cut (cfg8.grid.coords t8_15) X') (r8row.emb x) _ hi

/-- A canonical statistics array: every row of a core's eight is that core's fold (only rows 0 and 8 are ever read). -/
def sumArr8 (c : Dev nD) : Buf (Elt F) ((cfg8.win 8).arr.view.loc (c.tc : Thread nD τ)) :=
  fun (j : S16x128.Idx) => r8sum V c ⟨(j 0).val / 8, by have := ValueIdx.idx2_lt0 j; omega⟩ 7 (by omega) (ix2 (0 : Fin 1) (j 1))

theorem row0_sumArr8 (c : Dev nD) : row0 (sumArr8 V c) = r8sum V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r8row0_apply]
  show r8sum V c ⟨(x 0).val / 8, _⟩ 7 _ (ix2 (0 : Fin 1) (⟨(x 1).val, _⟩ : Fin 128)) = _
  rw [e1, e2]

theorem row8_sumArr8 (c : Dev nD) : row8 (sumArr8 V c) = r8sum V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r8row8_apply]
  show r8sum V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt8_8 (c : Dev nD) (G : Buf (Elt F) ((cfg8.win 8).arr.view.loc (c.tc : Thread nD τ)))
    (h : (rdat8 V c).ArrAt 8 cfg8.N G) : row0 G = row0 (sumArr8 V c) ∧ row8 G = row8 (sumArr8 V c) := by
  rw [row0_sumArr8, row8_sumArr8]; exact arrAt8_8_rows V c G h

/-- A canonical statistics array: every row of a core's eight is that core's fold (only rows 0 and 8 are ever read). -/
def sqArr8 (c : Dev nD) : Buf (Elt F) ((cfg8.win 9).arr.view.loc (c.tc : Thread nD τ)) :=
  fun (j : S16x128.Idx) => r8sumsq V c ⟨(j 0).val / 8, by have := ValueIdx.idx2_lt0 j; omega⟩ 7 (by omega) (ix2 (0 : Fin 1) (j 1))

theorem row0_sqArr8 (c : Dev nD) : row0 (sqArr8 V c) = r8sumsq V c 0 7 (by omega) := by
  funext x
  have hx0 : (x 0).val < 1 := (x 0).isLt
  have e1 : (⟨(x 0).val / 8, by omega⟩ : Fin 2) = 0 := Fin.ext (by show (x 0).val / 8 = 0; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r8row0_apply]
  show r8sumsq V c ⟨(x 0).val / 8, _⟩ 7 _ (ix2 (0 : Fin 1) (⟨(x 1).val, _⟩ : Fin 128)) = _
  rw [e1, e2]

theorem row8_sqArr8 (c : Dev nD) : row8 (sqArr8 V c) = r8sumsq V c 1 7 (by omega) := by
  funext x
  have hx0 : (x 0).val < 1 := (x 0).isLt
  have e1 : (⟨(8 + (x 0).val) / 8, by omega⟩ : Fin 2) = 1 := Fin.ext (by show (8 + (x 0).val) / 8 = 1; omega)
  have e2 : ix2 (0 : Fin 1) (⟨(x 1).val, (x 1).isLt⟩ : Fin 128) = x := by
    funext a
    match a with
    | ⟨0, _⟩ => exact Fin.ext (by show 0 = (x 0).val; omega)
    | ⟨1, _⟩ => rfl
  rw [r8row8_apply]
  show r8sumsq V c ⟨(8 + (x 0).val) / 8, _⟩ 7 _ (ix2 (0 : Fin 1) (⟨(x 1).val, _⟩ : Fin 128)) = _
  rw [e1, e2]

/-- What the launch leaves of the array: rows 0 and 8 are the canonical array's. -/
theorem arrAt8_9 (c : Dev nD) (G : Buf (Elt F) ((cfg8.win 9).arr.view.loc (c.tc : Thread nD τ)))
    (h : (rdat8 V c).ArrAt 9 cfg8.N G) : row0 G = row0 (sqArr8 V c) ∧ row8 G = row8 (sqArr8 V c) := by
  rw [row0_sqArr8, row8_sqArr8]; exact arrAt8_9_rows V c G h

/-! ### The folds, written out: the zero row, then the eight blocks' column sums added in point order -/

theorem r8sum_core0 (c : Dev nD) : r8sum V c 0 7 (by omega) = r8acc (r8acc (r8acc (r8acc (r8acc (r8acc (r8acc (r8acc r8zrow (yat8 V c t8_0)) (yat8 V c t8_1)) (yat8 V c t8_2)) (yat8 V c t8_3)) (yat8 V c t8_4)) (yat8 V c t8_5)) (yat8 V c t8_6)) (yat8 V c t8_7) := rfl
theorem r8sum_core1 (c : Dev nD) : r8sum V c 1 7 (by omega) = r8acc (r8acc (r8acc (r8acc (r8acc (r8acc (r8acc (r8acc r8zrow (yat8 V c t8_8)) (yat8 V c t8_9)) (yat8 V c t8_10)) (yat8 V c t8_11)) (yat8 V c t8_12)) (yat8 V c t8_13)) (yat8 V c t8_14)) (yat8 V c t8_15) := rfl
theorem r8sumsq_core0 (c : Dev nD) : r8sumsq V c 0 7 (by omega) = r8accsq (r8accsq (r8accsq (r8accsq (r8accsq (r8accsq (r8accsq (r8accsq r8zrow (yat8 V c t8_0)) (yat8 V c t8_1)) (yat8 V c t8_2)) (yat8 V c t8_3)) (yat8 V c t8_4)) (yat8 V c t8_5)) (yat8 V c t8_6)) (yat8 V c t8_7) := rfl
theorem r8sumsq_core1 (c : Dev nD) : r8sumsq V c 1 7 (by omega) = r8accsq (r8accsq (r8accsq (r8accsq (r8accsq (r8accsq (r8accsq (r8accsq r8zrow (yat8 V c t8_8)) (yat8 V c t8_9)) (yat8 V c t8_10)) (yat8 V c t8_11)) (yat8 V c t8_12)) (yat8 V c t8_13)) (yat8 V c t8_14)) (yat8 V c t8_15) := rfl

/-! ### Window 7: the whole array -/

/-- The array of `y`: row block `p` is the block of `y` at point `p`. -/
def yArr8 (c : Dev nD) : Buf (Elt F) ((cfg8.win 7).arr.view.loc (c.tc : Thread nD τ)) :=
  fun (j : S65536x128.Idx) => yat8 V c ⟨(j 0).val / 4096, by have := ValueIdx.idx2_lt0 j; show _ < grid8.N; rw [N_8]; omega⟩
    (ix2 (⟨(j 0).val % 4096, Nat.mod_lt _ (by decide)⟩ : Fin 4096) (j 1))

theorem yArr8_apply (c : Dev nD) (p : Fin 16) (q : Fin 4096) (j : Fin 128) :
    yArr8 V c (ix2 (⟨p.val * 4096 + q.val, by have := p.isLt; have := q.isLt; omega⟩ : Fin 65536) j)
      = yat8 V c ⟨p.val, by show _ < grid8.N; rw [N_8]; exact p.isLt⟩ (ix2 q j) := by
  have e1 : (⟨(p.val * 4096 + q.val) / 4096, by have := p.isLt; have := q.isLt; show _ < grid8.N; rw [N_8]; omega⟩ : Fin cfg8.N)
      = ⟨p.val, by show _ < grid8.N; rw [N_8]; exact p.isLt⟩ := Fin.ext (by have := q.isLt; show (p.val * 4096 + q.val) / 4096 = p.val; omega)
  have e2 : (⟨(p.val * 4096 + q.val) % 4096, Nat.mod_lt _ (by decide)⟩ : Fin 4096) = q :=
    Fin.ext (by have := q.isLt; show (p.val * 4096 + q.val) % 4096 = q.val; omega)
  show yat8 V c ⟨(p.val * 4096 + q.val) / 4096, _⟩ (ix2 (⟨(p.val * 4096 + q.val) % 4096, _⟩ : Fin 4096) j) = _
  rw [e1, e2]

theorem arrAt8_7 (c : Dev nD) (G : Buf (Elt F) ((cfg8.win 7).arr.view.loc (c.tc : Thread nD τ)))
    (h : (rdat8 V c).ArrAt 7 cfg8.N G) : G = yArr8 V c := by
  funext (j : S65536x128.Idx)
  have hj := ValueIdx.idx2_lt0 j
  let u : Fin cfg8.N := ⟨(j 0).val / 4096, by show _ < grid8.N; rw [N_8]; omega⟩
  let x : S4096x128.Idx := ix2 (⟨(j 0).val % 4096, Nat.mod_lt _ (by decide)⟩ : Fin 4096) (j 1)
  have hb := congrFun (arrAt8_7_blk V c cfg8.N (le_of_eq N_8) G h u u.isLt) x
  have hjx : ((cfg8.win 7).rect u).emb x = j := by
    funext a; apply Fin.ext
    rw [Window.rect_emb_val, index8_7]
    match a with
    | ⟨0, _⟩ => show (j 0).val / 4096 * 4096 + (j 0).val % 4096 = (j 0).val; omega
    | ⟨1, _⟩ => show 0 * 128 + (j 1).val = (j 1).val; omega
  have hr : ((cfg8.win 7).blk u).view.read (Elt F) G x = G (((cfg8.win 7).rect u).emb x) := rfl
  rw [hr, hjx] at hb
  exact hb
end Arr5

end Cert.Kernel.Hand
end
-- ==== Proof.HandK.P2r9.lean ====
import proofs.«103476_j5987184410999_2_alg».proof.Proof.Gen.Kernel.Launch
import proofs.«103476_j5987184410999_2_alg».proof.Proof.Gen.Kernel.Skeleton
import proofs.«103476_j5987184410999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 x 128 extents: the elaborator's structural look recurses once per
-- coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 9 of @main: custom_call 9, `cc9__pass2_noise_kernel` (pipeline 9), at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for ANY proof
    data whose array is `V`'s (`hA`) and whose body leaves the block in place (`hafter`): unfetched, the block
    index has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for ANY proof
    data whose array is `V`'s (`hA`) and whose body leaves the block in place (`hafter`): unfetched, the block
    index has not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for ANY proof
    data whose array is `V`'s (`hA`) and whose body leaves the block in place (`hafter`): unfetched, the block
    index has not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for ANY proof
    data whose array is `V`'s (`hA`) and whose body leaves the block in place (`hafter`): unfetched, the block
    index has not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for ANY proof
    data whose array is `V`'s (`hA`) and whose body leaves the block in place (`hafter`): unfetched, the block
    index has not moved; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not, for ANY proof
    data whose array is `V`'s (`hA`) and whose body leaves the block in place (`hafter`): unfetched, the block
    index has not moved; the window is uncut and never idle. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S4096x128 := Rect.unit (s := S4096x128) ![0, 0] S4096x128.size inb_S4096x128_S4096x128_0_0
abbrev r9_1 : Rect S1x128 := Rect.unit (s := S1x128) ![0, 0] S1x128.size inb_S1x128_S1x128_0_0

/-! ## What the body leaves in the output window's buffer -/

/-- Window 6's staging buffer after the body, from the input windows' blocks (the block to normalise, the mean,
    the inverse deviation, the scale, the shift, the noise block): its one store as a piece (`View.canon`; the
    payload is the skeleton's, its arguments in the order the body loads them). -/
def out9_6 (x0 : Vec F S4096x128 .f32) (x1 x2 x3 x4 : Vec F S1x128 .f32) (x5 : Vec F S4096x128 .f32) : Vec F S4096x128 .f32 :=
  View.canon [⟨r9_0, k9_pay1 (View.ld x0 r9_0) (View.ld x3 r9_1) (View.ld x1 r9_1) (View.ld x2 r9_1) (View.ld x4 r9_1) (View.ld x5 r9_0)⟩]

/-- The store tiles the buffer, so it covers it. -/
theorem cover9_6 (p0 : Vec F S4096x128 .f32) (y : S4096x128.Idx) :
    ∃ pc ∈ ([⟨r9_0, p0⟩] : List (View.Piece (Elt F) S4096x128 .f32)), y ∈ pc.1.set :=
  View.cover_of_tiled [⟨r9_0, p0⟩] S4096x128.size (by rfl) y

/-! ## The body's triple -/

set_option maxHeartbeats 1000000 in
/-- The kernel body on whole staging memrefs, the inputs' at read contents `xW` and the output's at anything, runs to
    the continuation holding the inputs' as they were and the output's at `out9_6` of the inputs'. -/
theorem sound_kernel9 (c : Dev nD) (E : Set ℕ) (i : grid9.Coords)
    (arg1 : Memref sig .tc .vmem S4096x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x128 .f32) (x1 x2 x3 x4 : Vec F S1x128 .f32) (x5 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out9_6 x0 x1 x2 x3 x4 x5)) -∗ K ⟨⟩))
      ⊢ wp frame (wpE (defs₀ (F := F)) Variants.none c none) E
          (cc9__pass2_noise_kernel i arg1 harg1 arg2 harg2 arg3 harg3 arg4 harg4 arg5 harg5 arg6 harg6 arg7 harg7) K := by
  simp only [cc9__pass2_noise_kernel_eq_skeleton]; unfold cc9__pass2_noise_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_6 _)

/-! ## The pipeline's proof data -/

/-- The proof data of pipeline 9 on core `c`: the arrays as the region finds them (`V`); after the body at
    point `t` each input's buffer at its block and the output's at `out9_6` of the input blocks; the invariant the
    class's (`Pipeline.ΦA`: the scoped rest and the generator register, untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t =
    out9_6 (iblk9 V c 0 t) (iblk9 V c 1 t) (iblk9 V c 2 t) (iblk9 V c 3 t) (iblk9 V c 4 t) (iblk9 V c 5 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation, at a generic point -/

/-- What the body is called with at point `t` (the obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ _ _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.HandK.ChainDefs4.lean ====
/-
  The canonical contents of the TensorCore's buffers around network node 4: after host stretch 8, after its statistics pass (region 8;
  the two statistics arrays at a canonical completion of their undefined rows), after host stretch 9, after its normalisation pass (region 9).
-/
import proofs.«103476_j5987184410999_2_alg».proof.Proof.HandK.ChainDefs3
import proofs.«103476_j5987184410999_2_alg».proof.Proof.HandK.P1r8Arr
import proofs.«103476_j5987184410999_2_alg».proof.Proof.HandK.P2r9

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-- After host stretch 8: what region 8 is entered from. -/
def W17 (c : Dev nD) : Valuation τ sig (Elt F) := StableHlo.after hostOps8 (W16 m c)
abbrev E8 : (c : Dev nD) → (b : Ref sig .tc) → Buf (Elt F) ((c : Thread nD τ).loc b) := fun c b => W17 m c b
/-- What region 8 leaves in its arrays: the inputs as found, the product array, and the two statistics arrays at their
    canonical completion. -/
def GA8 (c : Dev nD) : (w : Fin cfg8.W) → Buf (Elt F) ((cfg8.win w).arr.view.loc (c.tc : Thread nD τ))
  | ⟨0, _⟩ => E8 m c (Pipeline.arrRef spec8 0)
  | ⟨1, _⟩ => E8 m c (Pipeline.arrRef spec8 1)
  | ⟨2, _⟩ => E8 m c (Pipeline.arrRef spec8 2)
  | ⟨3, _⟩ => E8 m c (Pipeline.arrRef spec8 3)
  | ⟨4, _⟩ => E8 m c (Pipeline.arrRef spec8 4)
  | ⟨5, _⟩ => E8 m c (Pipeline.arrRef spec8 5)
  | ⟨6, _⟩ => E8 m c (Pipeline.arrRef spec8 6)
  | ⟨7, _⟩ => yArr8 (E8 m) c
  | ⟨8, _⟩ => sumArr8 (E8 m) c
  | ⟨9, _⟩ => sqArr8 (E8 m) c
def W18 (c : Dev nD) : Valuation τ sig (Elt F) := Pipeline.withArrays spec8 c (W17 m c) (GA8 m c)
/-- After host stretch 9: what region 9 is entered from. -/
def W19 (c : Dev nD) : Valuation τ sig (Elt F) := StableHlo.after hostOps9 (W18 m c)
abbrev E9 : (c : Dev nD) → (b : Ref sig .tc) → Buf (Elt F) ((c : Thread nD τ).loc b) := fun c b => W19 m c b
/-- What region 9 leaves in its arrays. -/
def GA9 (c : Dev nD) (w : Fin cfg9.W) : Buf (Elt F) ((cfg9.win w).arr.view.loc (c.tc : Thread nD τ)) := (dat9 (E9 m) c).arrAt w cfg9.N
def W20 (c : Dev nD) : Valuation τ sig (Elt F) := Pipeline.withArrays spec9 c (W19 m c) (GA9 m c)

end Cert.Kernel.Hand

end
-- ==== Proof.HandK.ChainDefs.lean ====
/-
  The canonical contents by boundary number, the relational proof data of the ten pipelines at their regions' canonical entry contents, and
  the invariant: contents that agree with the canonical ones off the undefined rows, and exactly on the statistics arrays not yet produced.
-/
import proofs.«103476_j5987184410999_2_alg».proof.Proof.HandK.ChainDefs4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-- The canonical contents at boundary `j`. -/
def Wj : ℕ → Dev nD → Valuation τ sig (Elt F)
  | 0 => W0 m
  | 1 => W1 m
  | 2 => W2 m
  | 3 => W3 m
  | 4 => W4 m
  | 5 => W5 m
  | 6 => W6 m
  | 7 => W7 m
  | 8 => W8 m
  | 9 => W9 m
  | 10 => W10 m
  | 11 => W11 m
  | 12 => W12 m
  | 13 => W13 m
  | 14 => W14 m
  | 15 => W15 m
  | 16 => W16 m
  | 17 => W17 m
  | 18 => W18 m
  | 19 => W19 m
  | _ => W20 m

/-! ## The pipelines' proof data, each at its region's canonical entry contents -/

def rdats : (p : Fin 10) → (c : Dev nD) → RDat τ (Elt F) Unit ℕ (UR sig nD τ) ℕ (pc (F := F) p) c
  | ⟨0, _⟩ => fun c => rdat0 (E0 m) c
  | ⟨1, _⟩ => fun c => (dat1 (E1 m) c).toR
  | ⟨2, _⟩ => fun c => rdat2 (E2 m) c
  | ⟨3, _⟩ => fun c => (dat3 (E3 m) c).toR
  | ⟨4, _⟩ => fun c => rdat4 (E4 m) c
  | ⟨5, _⟩ => fun c => (dat5 (E5 m) c).toR
  | ⟨6, _⟩ => fun c => rdat6 (E6 m) c
  | ⟨7, _⟩ => fun c => (dat7 (E7 m) c).toR
  | ⟨8, _⟩ => fun c => rdat8 (E8 m) c
  | ⟨9, _⟩ => fun c => (dat9 (E9 m) c).toR

/-! ## The invariant -/

/-- The statistics arrays no region has produced before boundary `j`. -/
def Jrest : ℕ → List (Ref sig .tc)
  | 0 => [main_v14_1, main_v14_2, main_v47_1, main_v47_2, main_v92_1, main_v92_2, main_v125_1, main_v125_2, main_v158_1, main_v158_2]
  | 1 => [main_v14_1, main_v14_2, main_v47_1, main_v47_2, main_v92_1, main_v92_2, main_v125_1, main_v125_2, main_v158_1, main_v158_2]
  | 2 => [main_v47_1, main_v47_2, main_v92_1, main_v92_2, main_v125_1, main_v125_2, main_v158_1, main_v158_2]
  | 3 => [main_v47_1, main_v47_2, main_v92_1, main_v92_2, main_v125_1, main_v125_2, main_v158_1, main_v158_2]
  | 4 => [main_v47_1, main_v47_2, main_v92_1, main_v92_2, main_v125_1, main_v125_2, main_v158_1, main_v158_2]
  | 5 => [main_v47_1, main_v47_2, main_v92_1, main_v92_2, main_v125_1, main_v125_2, main_v158_1, main_v158_2]
  | 6 => [main_v92_1, main_v92_2, main_v125_1, main_v125_2, main_v158_1, main_v158_2]
  | 7 => [main_v92_1, main_v92_2, main_v125_1, main_v125_2, main_v158_1, main_v158_2]
  | 8 => [main_v92_1, main_v92_2, main_v125_1, main_v125_2, main_v158_1, main_v158_2]
  | 9 => [main_v92_1, main_v92_2, main_v125_1, main_v125_2, main_v158_1, main_v158_2]
  | 10 => [main_v125_1, main_v125_2, main_v158_1, main_v158_2]
  | 11 => [main_v125_1, main_v125_2, main_v158_1, main_v158_2]
  | 12 => [main_v125_1, main_v125_2, main_v158_1, main_v158_2]
  | 13 => [main_v125_1, main_v125_2, main_v158_1, main_v158_2]
  | 14 => [main_v158_1, main_v158_2]
  | 15 => [main_v158_1, main_v158_2]
  | 16 => [main_v158_1, main_v158_2]
  | 17 => [main_v158_1, main_v158_2]
  | 18 => []
  | _ => []

/-- Contents `V` at boundary `j`: the canonical ones off the undefined rows, and exactly on the statistics arrays still to come. -/
def Inv (j : ℕ) (c : Dev nD) (V : Valuation τ sig (Elt F)) : Prop :=
  Agree V (Wj m j c) ∧ ∀ s ∈ Jrest j, V s = Wj m j c s

end Cert.Kernel.Hand

end
-- ==== Proof.HandK.Run.lean ====
/-
  @main run as twenty segments (ten host stretches, ten kernel regions) over thread states "every unscoped buffer at
  some contents satisfying `I j`": if the launch contents satisfy `I 0`, every host stretch carries `I (2k)` to
  `I (2k+1)` and every region `I (2p+1)` to `I (2p+2)` (its arrays pinned at entry, anything its write-backs may
  leave at exit), then every weakly fair execution terminates and the final memory is contents satisfying `I 20`.
-/
import proofs.«103476_j5987184410999_2_alg».proof.Proof.HandK.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The launch facts of the ten pipelines, by number. -/
theorem launchAll : ∀ p : Fin 10, Pipeline.LaunchFacts (nD := nD) (τ := τ) cfgs p
  | ⟨0, _⟩ => launch0 | ⟨1, _⟩ => launch1 | ⟨2, _⟩ => launch2 | ⟨3, _⟩ => launch3 | ⟨4, _⟩ => launch4
  | ⟨5, _⟩ => launch5 | ⟨6, _⟩ => launch6 | ⟨7, _⟩ => launch7 | ⟨8, _⟩ => launch8 | ⟨9, _⟩ => launch9

set_option backward.isDefEq.respectTransparency.types false in
theorem run_inv (m : (ℓ : Loc nD τ sig) → Buf (Elt F) ℓ) (ρ : Dev nD → PrngReg)
    (rdats : (p : Fin 10) → (c : Dev nD) → RDat τ (Elt F) Unit ℕ (UR sig nD τ) ℕ (pc (F := F) p) c)
    (hbody : ∀ p c, (rdats p c).BodyObligation (defs₀ (F := F)) 𝒱₀ () Set.univ)
    (hΦ : ∀ p c t, (rdats p c).Φ t = Pipeline.ΦA (pc (F := F) p).spec c)
    (hq : ∀ p c w, (rdats p c).share w = fullShare)
    (howed : ∀ p c t, (rdats p c).owed t = 0)
    (hrec : ∀ p c t, (rdats p c).recorded t = Set.univ)
    (I : ℕ → Dev nD → Valuation τ sig (Elt F) → Prop)
    (h0 : ∀ c, I 0 c (fun b => m (c, b)))
    (hh0 : ∀ c V, I 0 c V → I 1 c (StableHlo.after hostOps0 V))
    (hh1 : ∀ c V, I 2 c V → I 3 c (StableHlo.after hostOps1 V))
    (hh2 : ∀ c V, I 4 c V → I 5 c (StableHlo.after hostOps2 V))
    (hh3 : ∀ c V, I 6 c V → I 7 c (StableHlo.after hostOps3 V))
    (hh4 : ∀ c V, I 8 c V → I 9 c (StableHlo.after hostOps4 V))
    (hh5 : ∀ c V, I 10 c V → I 11 c (StableHlo.after hostOps5 V))
    (hh6 : ∀ c V, I 12 c V → I 13 c (StableHlo.after hostOps6 V))
    (hh7 : ∀ c V, I 14 c V → I 15 c (StableHlo.after hostOps7 V))
    (hh8 : ∀ c V, I 16 c V → I 17 c (StableHlo.after hostOps8 V))
    (hh9 : ∀ c V, I 18 c V → I 19 c (StableHlo.after hostOps9 V))
    (hA : ∀ (p : Fin 10) c V, I (2 * p.val + 1) c V → ∀ w, (rdats p c).A w = V (Pipeline.arrRef (pc (F := F) p).spec w))
    (hstep : ∀ (p : Fin 10) c V, I (2 * p.val + 1) c V →
      ∀ G : (w : Fin (pc (F := F) p).W) → Buf (Elt F) (((pc (F := F) p).spec w).arr.view.loc (c.tc : Thread nD τ)),
        (∀ w, (rdats p c).ArrAt w (pc (F := F) p).N (G w)) → I (2 * p.val + 2) c (Pipeline.withArrays (pc (F := F) p).spec c V G))
    {Q : PUnit × MemSt nD τ sig (Elt F) → Prop}
    (hQ : ∀ s : MemSt nD τ sig (Elt F),
      (∀ c : Dev nD, ∃ V, I 20 c V ∧ ∀ b ∈ Pipeline.ucRefs τ sig, s.mem (((c : Thread nD τ)).1, b) = V b) → Q (⟨⟩, s)) :
    θ_run defs (onTc (τ := τ) (main (F := F))) ⟨m, fun _ => 0, ρ⟩ Q := by
  refine Pipeline.RDat.θ_run_regions_kit (pcfgs (F := F)) adm rdats () cellOf_inj emb₁ defs₀ 𝒱₀ L lv m ρ main
    [
      .host (hsegI hostOps0 hostOps0_sub hostOps0_fresh (I 0) (I 1) hh0),
      .region (regI rdats 0 (launchAll 0) (hbody 0) (hΦ 0) (hq 0) (howed 0) (hrec 0) (I 1) (I 2) (hA 0) (hstep 0)),
      .host (hsegI hostOps1 hostOps1_sub hostOps1_fresh (I 2) (I 3) hh1),
      .region (regI rdats 1 (launchAll 1) (hbody 1) (hΦ 1) (hq 1) (howed 1) (hrec 1) (I 3) (I 4) (hA 1) (hstep 1)),
      .host (hsegI hostOps2 hostOps2_sub hostOps2_fresh (I 4) (I 5) hh2),
      .region (regI rdats 2 (launchAll 2) (hbody 2) (hΦ 2) (hq 2) (howed 2) (hrec 2) (I 5) (I 6) (hA 2) (hstep 2)),
      .host (hsegI hostOps3 hostOps3_sub hostOps3_fresh (I 6) (I 7) hh3),
      .region (regI rdats 3 (launchAll 3) (hbody 3) (hΦ 3) (hq 3) (howed 3) (hrec 3) (I 7) (I 8) (hA 3) (hstep 3)),
      .host (hsegI hostOps4 hostOps4_sub hostOps4_fresh (I 8) (I 9) hh4),
      .region (regI rdats 4 (launchAll 4) (hbody 4) (hΦ 4) (hq 4) (howed 4) (hrec 4) (I 9) (I 10) (hA 4) (hstep 4)),
      .host (hsegI hostOps5 hostOps5_sub hostOps5_fresh (I 10) (I 11) hh5),
      .region (regI rdats 5 (launchAll 5) (hbody 5) (hΦ 5) (hq 5) (howed 5) (hrec 5) (I 11) (I 12) (hA 5) (hstep 5)),
      .host (hsegI hostOps6 hostOps6_sub hostOps6_fresh (I 12) (I 13) hh6),
      .region (regI rdats 6 (launchAll 6) (hbody 6) (hΦ 6) (hq 6) (howed 6) (hrec 6) (I 13) (I 14) (hA 6) (hstep 6)),
      .host (hsegI hostOps7 hostOps7_sub hostOps7_fresh (I 14) (I 15) hh7),
      .region (regI rdats 7 (launchAll 7) (hbody 7) (hΦ 7) (hq 7) (howed 7) (hrec 7) (I 15) (I 16) (hA 7) (hstep 7)),
      .host (hsegI hostOps8 hostOps8_sub hostOps8_fresh (I 16) (I 17) hh8),
      .region (regI rdats 8 (launchAll 8) (hbody 8) (hΦ 8) (hq 8) (howed 8) (hrec 8) (I 17) (I 18) (hA 8) (hstep 8)),
      .host (hsegI hostOps9 hostOps9_sub hostOps9_fresh (I 18) (I 19) hh9),
      .region (regI rdats 9 (launchAll 9) (hbody 9) (hΦ 9) (hq 9) (howed 9) (hrec 9) (I 19) (I 20) (hA 9) (hstep 9)) ]
    (fun c Q => by
      rewrite [main_chain c, Pipeline.RDat.Seg.run_eq_chain]
      simp only [List.map_cons, List.map_nil, Pipeline.RDat.Seg.prog, hsegI_prog]
      exact .rfl)
    (by simp only [Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => TS (I 0 c) c)
    (Tₙ := fun c => iprop(∃ V : Valuation τ sig (Elt F), ⌜I 20 c V⌝ ∗ StableHlo.held (c : Thread nD τ) (Pipeline.ucRefs τ sig) V ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun c => by
        show TS (I 20 c) c ⊢ _
        unfold TS
        iintro ⟨%V, %hV, Hh, Hp, HO⟩
        isplitl [Hh Hp]
        · iexists V; isplitr; · ipureintro; exact hV
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      unfold TS
      iintro ⟨⟨Hh, -, HO, -, Hp, -⟩, -⟩
      imodintro
      iexists (fun b => m (c, b))
      isplitr; · ipureintro; exact h0 c
      isplitl [Hh]; · iexact Hh
      isplitl [Hp]; · iexists _; iexact Hp
      iexists ∅; iexact HO)
    (QY := fun c s => ∃ V, I 20 c V ∧ ∀ b ∈ Pipeline.ucRefs τ sig, s.mem (((c : Thread nD τ)).1, b) = V b)
    (hfin := fun c s' => by
      iintro ⟨⟨%V, %hV, Hh, -⟩, HSI⟩
      unfold StableHlo.held
      ihave Hr := (pointsTo_read_all (Pipeline.ucRefs τ sig) (fun b => (((c : Thread nD τ)).1, b)) V s') $$ [Hh HSI]
      · isplitl [Hh] <;> iassumption
      icases Hr with ⟨%h, HSI⟩
      imodintro
      isplitr
      · ipureintro; exact ⟨V, hV, h⟩
      · iexact HSI)
    (hQ := hQ)

end Cert.Kernel.Hand

end
-- ==== Proof.HandK.AgreeOps.lean ====
/-
  The ten host stretches of @main carry valuations that agree off the undefined rows to valuations that agree off
  the undefined rows, and so does replacing a kernel region's arrays by contents that agree in the same sense.
  A host stretch reads a statistics array only through the slices that take its row 0 and its row 8; every other
  operation touches none of the ten arrays.
-/
import proofs.«103476_j5987184410999_2_alg».proof.Proof.HandK.Agree

set_option maxRecDepth 16384

noncomputable section

namespace Cert.Kernel.Hand

open Cert.Kernel Cert.Kernel.Gen
open Idealize.ShloMosaic Idealize.ShloMosaic.TcCoe

variable {F : FTy → Type} [FloatOps F]

/-- One operation that touches none of the ten arrays: the builder is recognised syntactically, which references it
    names is decided. -/
macro "pres_step" : tactic => `(tactic| (first
  | with_reducible refine pres_unary _ _ _ _ _ ?_ ?_
  | with_reducible refine pres_reshape _ _ _ _ _ _ ?_ ?_
  | with_reducible refine pres_binary _ _ _ _ _ _ _ ?_ ?_ ?_
  | with_reducible refine pres_nullary _ _ _ ?_) <;> decide)

/-- A conjunction of such operations. -/
macro "pres_all" : tactic => `(tactic| (repeat' apply And.intro) <;> pres_step)

/-! ## The stretches before the statistics passes: no operation names any of the ten arrays -/

theorem hostOps0_agree (V W : Valuation τ sig (Elt F)) :
    Agree V W → Agree (StableHlo.after hostOps0 V) (StableHlo.after hostOps0 W) := by
  refine after_agree _ ?_ V W
  simp only [List.Forall]
  pres_all

theorem hostOps2_agree (V W : Valuation τ sig (Elt F)) :
    Agree V W → Agree (StableHlo.after hostOps2 V) (StableHlo.after hostOps2 W) := by
  refine after_agree _ ?_ V W
  simp only [List.Forall]
  pres_all

theorem hostOps4_agree (V W : Valuation τ sig (Elt F)) :
    Agree V W → Agree (StableHlo.after hostOps4 V) (StableHlo.after hostOps4 W) := by
  refine after_agree _ ?_ V W
  simp only [List.Forall]
  pres_all

theorem hostOps6_agree (V W : Valuation τ sig (Elt F)) :
    Agree V W → Agree (StableHlo.after hostOps6 V) (StableHlo.after hostOps6 W) := by
  refine after_agree _ ?_ V W
  simp only [List.Forall]
  pres_all

theorem hostOps8_agree (V W : Valuation τ sig (Elt F)) :
    Agree V W → Agree (StableHlo.after hostOps8 V) (StableHlo.after hostOps8 W) := by
  refine after_agree _ ?_ V W
  simp only [List.Forall]
  pres_all

/-! ## The stretches after the statistics passes: four slices take rows 0 and 8 of the pass's two arrays -/

theorem hostOps1_agree (V W : Valuation τ sig (Elt F)) :
    Agree V W → Agree (StableHlo.after hostOps1 V) (StableHlo.after hostOps1 W) := by
  refine after_agree _ ?_ V W
  simp only [List.Forall]
  refine ⟨pres_unary_of _ _ _ _ _ (by decide) (fun _ _ h => h.r14_1.1),
    pres_unary_of _ _ _ _ _ (by decide) (fun _ _ h => h.r14_1.2), ?_,
    pres_unary_of _ _ _ _ _ (by decide) (fun _ _ h => h.r14_2.1),
    pres_unary_of _ _ _ _ _ (by decide) (fun _ _ h => h.r14_2.2), ?_⟩
  · pres_step
  · pres_all

theorem hostOps3_agree (V W : Valuation τ sig (Elt F)) :
    Agree V W → Agree (StableHlo.after hostOps3 V) (StableHlo.after hostOps3 W) := by
  refine after_agree _ ?_ V W
  simp only [List.Forall]
  refine ⟨pres_unary_of _ _ _ _ _ (by decide) (fun _ _ h => h.r47_1.1),
    pres_unary_of _ _ _ _ _ (by decide) (fun _ _ h => h.r47_1.2), ?_,
    pres_unary_of _ _ _ _ _ (by decide) (fun _ _ h => h.r47_2.1),
    pres_unary_of _ _ _ _ _ (by decide) (fun _ _ h => h.r47_2.2), ?_⟩
  · pres_step
  · pres_all

theorem hostOps5_agree (V W : Valuation τ sig (Elt F)) :
    Agree V W → Agree (StableHlo.after hostOps5 V) (StableHlo.after hostOps5 W) := by
  refine after_agree _ ?_ V W
  simp only [List.Forall]
  refine ⟨pres_unary_of _ _ _ _ _ (by decide) (fun _ _ h => h.r92_1.1),
    pres_unary_of _ _ _ _ _ (by decide) (fun _ _ h => h.r92_1.2), ?_,
    pres_unary_of _ _ _ _ _ (by decide) (fun _ _ h => h.r92_2.1),
    pres_unary_of _ _ _ _ _ (by decide) (fun _ _ h => h.r92_2.2), ?_⟩
  · pres_step
  · pres_all

theorem hostOps7_agree (V W : Valuation τ sig (Elt F)) :
    Agree V W → Agree (StableHlo.after hostOps7 V) (StableHlo.after hostOps7 W) := by
  refine after_agree _ ?_ V W
  simp only [List.Forall]
  refine ⟨pres_unary_of _ _ _ _ _ (by decide) (fun _ _ h => h.r125_1.1),
    pres_unary_of _ _ _ _ _ (by decide) (fun _ _ h => h.r125_1.2), ?_,
    pres_unary_of _ _ _ _ _ (by decide) (fun _ _ h => h.r125_2.1),
    pres_unary_of _ _ _ _ _ (by decide) (fun _ _ h => h.r125_2.2), ?_⟩
  · pres_step
  · pres_all

theorem hostOps9_agree (V W : Valuation τ sig (Elt F)) :
    Agree V W → Agree (StableHlo.after hostOps9 V) (StableHlo.after hostOps9 W) := by
  refine after_agree _ ?_ V W
  simp only [List.Forall]
  refine ⟨pres_unary_of _ _ _ _ _ (by decide) (fun _ _ h => h.r158_1.1),
    pres_unary_of _ _ _ _ _ (by decide) (fun _ _ h => h.r158_1.2), ?_,
    pres_unary_of _ _ _ _ _ (by decide) (fun _ _ h => h.r158_2.1),
    pres_unary_of _ _ _ _ _ (by decide) (fun _ _ h => h.r158_2.2), ?_⟩
  · pres_step
  · pres_all

/-! ## Kernel regions: the region's arrays replaced -/

/-- Replacing a region's arrays by contents that coincide off the ten arrays and agree on rows 0 and 8 of those among
    the ten keeps the agreement. -/
theorem withArrays_agree {gr W' : Nat} (win : Fin W' → Pipeline.WinSpec sig gr)
    (hinj : Function.Injective (Pipeline.arrRef win)) (c : Dev nD) (V W : Valuation τ sig (Elt F))
    (G G' : (w : Fin W') → Buf (Elt F) ((win w).arr.view.loc (c.tc : Thread nD τ)))
    (h : Agree V W) (hG : ∀ w, Pipeline.arrRef win w ∉ Jl → G w = G' w)
    (hJ : ∀ w, Pipeline.arrRef win w ∈ Jl → RowsAgree (Pipeline.arrRef win w) (G w) (G' w)) :
    Agree (Pipeline.withArrays win c V G) (Pipeline.withArrays win c W G') := by
  refine Agree.of_rows (fun b hb => ?_) (fun s hs => ?_)
  · by_cases hw : ∃ w, Pipeline.arrRef win w = b
    · obtain ⟨w, rfl⟩ := hw
      rw [Pipeline.withArrays_arr win hinj, Pipeline.withArrays_arr win hinj]; exact hG w hb
    · have hne : ∀ w, Pipeline.arrRef win w ≠ b := fun w e => hw ⟨w, e⟩
      rw [Pipeline.withArrays_of_ne win c V G b hne, Pipeline.withArrays_of_ne win c W G' b hne]; exact h.off b hb
  · by_cases hw : ∃ w, Pipeline.arrRef win w = s
    · obtain ⟨w, rfl⟩ := hw
      rw [Pipeline.withArrays_arr win hinj, Pipeline.withArrays_arr win hinj]; exact hJ w hs
    · have hne : ∀ w, Pipeline.arrRef win w ≠ s := fun w e => hw ⟨w, e⟩
      rw [Pipeline.withArrays_of_ne win c V G s hne, Pipeline.withArrays_of_ne win c W G' s hne]; exact h.rows s hs

/-- The same arrays put into agreeing valuations. -/
theorem withArrays_agree_same {gr W' : Nat} (win : Fin W' → Pipeline.WinSpec sig gr)
    (hinj : Function.Injective (Pipeline.arrRef win)) (c : Dev nD) (V W : Valuation τ sig (Elt F))
    (G : (w : Fin W') → Buf (Elt F) ((win w).arr.view.loc (c.tc : Thread nD τ))) (h : Agree V W) :
    Agree (Pipeline.withArrays win c V G) (Pipeline.withArrays win c W G) :=
  withArrays_agree win hinj c V W G G h (fun _ _ => rfl) (fun w _ => RowsAgree.refl _ _)

/-- A region none of whose arrays is among the ten (the normalisation passes). -/
theorem withArrays_agree_off {gr W' : Nat} (win : Fin W' → Pipeline.WinSpec sig gr)
    (hinj : Function.Injective (Pipeline.arrRef win)) (c : Dev nD) (V W : Valuation τ sig (Elt F))
    (G G' : (w : Fin W') → Buf (Elt F) ((win w).arr.view.loc (c.tc : Thread nD τ)))
    (h : Agree V W) (hG : ∀ w, G w = G' w) :
    Agree (Pipeline.withArrays win c V G) (Pipeline.withArrays win c W G') := by
  obtain rfl : G = G' := funext hG
  exact withArrays_agree_same win hinj c V W G h

/-- A region exactly two of whose arrays, those of windows `w₁` and `w₂`, are among the ten. -/
theorem withArrays_agree_two {gr W' : Nat} (win : Fin W' → Pipeline.WinSpec sig gr)
    (hinj : Function.Injective (Pipeline.arrRef win)) (c : Dev nD) (V W : Valuation τ sig (Elt F))
    (G G' : (w : Fin W') → Buf (Elt F) ((win w).arr.view.loc (c.tc : Thread nD τ)))
    (h : Agree V W) (w₁ w₂ : Fin W') (hG : ∀ w, w ≠ w₁ → w ≠ w₂ → G w = G' w)
    (hoff : ∀ w, w ≠ w₁ → w ≠ w₂ → Pipeline.arrRef win w ∉ Jl)
    (hm₁ : Pipeline.arrRef win w₁ ∈ Jl) (hm₂ : Pipeline.arrRef win w₂ ∈ Jl)
    (h₁ : RowsAgree (Pipeline.arrRef win w₁) (G w₁) (G' w₁)) (h₂ : RowsAgree (Pipeline.arrRef win w₂) (G w₂) (G' w₂)) :
    Agree (Pipeline.withArrays win c V G) (Pipeline.withArrays win c W G') := by
  refine withArrays_agree win hinj c V W G G' h (fun w hw => ?_) (fun w hw => ?_)
  · by_cases e₁ : w = w₁
    · subst e₁; exact absurd hm₁ hw
    · by_cases e₂ : w = w₂
      · subst e₂; exact absurd hm₂ hw
      · exact hG w e₁ e₂
  · by_cases e₁ : w = w₁
    · subst e₁; exact h₁
    · by_cases e₂ : w = w₂
      · subst e₂; exact h₂
      · exact absurd hw (hoff w e₁ e₂)

/-! ### At the five statistics passes -/

theorem withArrays_agree0 (c : Dev nD) (V W : Valuation τ sig (Elt F))
    (G G' : (w : Fin 8) → Buf (Elt F) ((spec0 w).arr.view.loc (c.tc : Thread nD τ)))
    (h : Agree V W) (hG : ∀ w, w ≠ 6 → w ≠ 7 → G w = G' w)
    (h6 : row0 (G 6) = row0 (G' 6) ∧ row8 (G 6) = row8 (G' 6))
    (h7 : row0 (G 7) = row0 (G' 7) ∧ row8 (G 7) = row8 (G' 7)) :
    Agree (Pipeline.withArrays spec0 c V G) (Pipeline.withArrays spec0 c W G') :=
  withArrays_agree_two spec0 winFacts0.arr_inj c V W G G' h 6 7 hG (by decide) (by decide) (by decide)
    (fun _ => h6) (fun _ => h7)

theorem withArrays_agree2 (c : Dev nD) (V W : Valuation τ sig (Elt F))
    (G G' : (w : Fin 8) → Buf (Elt F) ((spec2 w).arr.view.loc (c.tc : Thread nD τ)))
    (h : Agree V W) (hG : ∀ w, w ≠ 6 → w ≠ 7 → G w = G' w)
    (h6 : row0 (G 6) = row0 (G' 6) ∧ row8 (G 6) = row8 (G' 6))
    (h7 : row0 (G 7) = row0 (G' 7) ∧ row8 (G 7) = row8 (G' 7)) :
    Agree (Pipeline.withArrays spec2 c V G) (Pipeline.withArrays spec2 c W G') :=
  withArrays_agree_two spec2 winFacts2.arr_inj c V W G G' h 6 7 hG (by decide) (by decide) (by decide)
    (fun _ => h6) (fun _ => h7)

theorem withArrays_agree4 (c : Dev nD) (V W : Valuation τ sig (Elt F))
    (G G' : (w : Fin 10) → Buf (Elt F) ((spec4 w).arr.view.loc (c.tc : Thread nD τ)))
    (h : Agree V W) (hG : ∀ w, w ≠ 8 → w ≠ 9 → G w = G' w)
    (h8 : row0 (G 8) = row0 (G' 8) ∧ row8 (G 8) = row8 (G' 8))
    (h9 : row0 (G 9) = row0 (G' 9) ∧ row8 (G 9) = row8 (G' 9)) :
    Agree (Pipeline.withArrays spec4 c V G) (Pipeline.withArrays spec4 c W G') :=
  withArrays_agree_two spec4 winFacts4.arr_inj c V W G G' h 8 9 hG (by decide) (by decide) (by decide)
    (fun _ => h8) (fun _ => h9)

theorem withArrays_agree6 (c : Dev nD) (V W : Valuation τ sig (Elt F))
    (G G' : (w : Fin 10) → Buf (Elt F) ((spec6 w).arr.view.loc (c.tc : Thread nD τ)))
    (h : Agree V W) (hG : ∀ w, w ≠ 8 → w ≠ 9 → G w = G' w)
    (h8 : row0 (G 8) = row0 (G' 8) ∧ row8 (G 8) = row8 (G' 8))
    (h9 : row0 (G 9) = row0 (G' 9) ∧ row8 (G 9) = row8 (G' 9)) :
    Agree (Pipeline.withArrays spec6 c V G) (Pipeline.withArrays spec6 c W G') :=
  withArrays_agree_two spec6 winFacts6.arr_inj c V W G G' h 8 9 hG (by decide) (by decide) (by decide)
    (fun _ => h8) (fun _ => h9)

theorem withArrays_agree8 (c : Dev nD) (V W : Valuation τ sig (Elt F))
    (G G' : (w : Fin 10) → Buf (Elt F) ((spec8 w).arr.view.loc (c.tc : Thread nD τ)))
    (h : Agree V W) (hG : ∀ w, w ≠ 8 → w ≠ 9 → G w = G' w)
    (h8 : row0 (G 8) = row0 (G' 8) ∧ row8 (G 8) = row8 (G' 8))
    (h9 : row0 (G 9) = row0 (G' 9) ∧ row8 (G 9) = row8 (G' 9)) :
    Agree (Pipeline.withArrays spec8 c V G) (Pipeline.withArrays spec8 c W G') :=
  withArrays_agree_two spec8 winFacts8.arr_inj c V W G G' h 8 9 hG (by decide) (by decide) (by decide)
    (fun _ => h8) (fun _ => h9)

end Cert.Kernel.Hand
-- ==== Proof.HandK.P2v1.lean ====
import proofs.«103476_j5987184410999_2_alg».proof.Proof.HandK.P2r1
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window)

variable {F : FTy → Type} [FloatOps F]

-- the TensorCore's buffer contents when the region is entered
variable (V : (c : Dev nD) → (b : Ref sig .tc) → Buf (Elt F) ((c : Thread nD τ).loc b))

/-! # REGION 1: the proof data read as relational data -/

/-- The body obligation of the exact data read relationally. -/
theorem bodyR1 (c : Dev nD) : ((dat1 (F := F) V c).toR).BodyObligation (defs₀ (F := F)) Variants.none () Set.univ :=
  (body_obligation1 V c).toR

/-- What an array may hold after all the write-backs, of the exact data, is what the data names. -/
theorem arrAtR1 (c : Dev nD) (w : Fin cfg1.W) (G : Buf (Elt F) ((cfg1.win w).arr.view.loc (c.tc : Thread nD τ))) :
    ((dat1 V c).toR).ArrAt w cfg1.N G ↔ G = (dat1 V c).arrAt w cfg1.N :=
  (dat1 V c).toR_arrAt_iff w cfg1.N G

/-- Every window's array is held at the full share. -/
theorem shareR1 (c : Dev nD) (w : Fin cfg1.W) : ((dat1 V c).toR).share w = fullShare := by
  rw [Dat.toR_share]; unfold Dat.share; split <;> rfl

/-- The invariant, what is owed and what is recorded are the class's: the scoped rest, nothing, everything. -/
theorem ΦR1 (c : Dev nD) (t : Fin (cfg1.N + 1)) : ((dat1 V c).toR).Φ t = Pipeline.ΦA spec1 c := rfl
theorem owedR1 (c : Dev nD) (t : Fin (cfg1.N + 1)) : ((dat1 V c).toR).owed t = 0 := rfl
theorem recR1 (c : Dev nD) (t : Fin (cfg1.N + 1)) : ((dat1 V c).toR).recorded t = Set.univ := rfl

/-! # REGION 1: the arrays after the run -/

/-- An input window's array is never written: it holds the entry contents. -/
theorem arr_in1 (c : Dev nD) (w : Fin cfg1.W) (hw : (cfg1.win w).isOut = false) :
    (dat1 V c).arrAt w cfg1.N = V c (Pipeline.arrRef spec1 w) :=
  ((dat1 V c).arrAt_in w hw cfg1.N).trans (A_eq1 V c w)

theorem hz1 : (![0, 0] : Fin 2 → Nat) = fun _ => 0 := funext fun a => by fin_cases a <;> rfl

/-- What the output array ends holding, entry by entry: the scale times the centred entry, times the inverse
    deviation, plus the shift — the per-column vectors read at their one row; the operations in the body's order. -/
abbrev G1 (a0 : S65536x128.Idx → Elt F .f32) (a1 a2 a3 a4 : S1x128.Idx → Elt F .f32) : S65536x128.Idx → Elt F .f32 :=
  fun i => FloatOps.addf (FloatOps.mulf (FloatOps.mulf (a3 (ix2 0 (i 1))) (FloatOps.subf (a0 i) (a1 (ix2 0 (i 1))))) (a2 (ix2 0 (i 1)))) (a4 (ix2 0 (i 1)))

/-- A one-row vector broadcast down the rows reads, at row `q` and column `j`, its entry at column `j`. -/
theorem bcast_row1_apply (x : Vec F S1x128 .f32) (q : Fin 4096) (j : Fin 128) :
    broadcastTo S4096x128 x broadcasts_S1x128_S4096x128 (ix2 q j) = x (ix2 0 j) := by
  refine broadcastTo_apply x broadcasts_S1x128_S4096x128 (ix2 q j) (ix2 0 j) (fun a => ?_)
  match a with
  | ⟨0, _⟩ => rfl
  | ⟨1, _⟩ => rfl

/-- The body's payload at row `q`, column `j` of the block. -/
theorem pay1_apply (v0 : Vec F S4096x128 .f32) (v2 v4 v10 v14 : Vec F S1x128 .f32) (q : Fin 4096) (j : Fin 128) :
    k1_pay1 v0 v2 v4 v10 v14 (ix2 q j)
      = FloatOps.addf (FloatOps.mulf (FloatOps.mulf (v2 (ix2 0 j)) (FloatOps.subf (v0 (ix2 q j)) (v4 (ix2 0 j)))) (v10 (ix2 0 j))) (v14 (ix2 0 j)) := by
  unfold k1_pay1
  simp only [shapeCast_self]
  show FloatOps.addf (FloatOps.mulf (FloatOps.mulf (broadcastTo S4096x128 v2 broadcasts_S1x128_S4096x128 (ix2 q j)) (FloatOps.subf (v0 (ix2 q j)) (broadcastTo S4096x128 v4 broadcasts_S1x128_S4096x128 (ix2 q j)))) (broadcastTo S4096x128 v10 broadcasts_S1x128_S4096x128 (ix2 q j))) (broadcastTo S4096x128 v14 broadcasts_S1x128_S4096x128 (ix2 q j)) = _
  rw [bcast_row1_apply, bcast_row1_apply, bcast_row1_apply, bcast_row1_apply]

/-- The printed index maps, decided over the grid: the blocks of rows move with the point, the one-row vectors stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- An element of window 0's block at point `t` sits in the array at the block's first row plus its own row, same column. -/
theorem emb1_0_eq (t : Fin cfg1.N) (q : Fin 4096) (j : Fin 128) (r : Fin 65536) (hr : r.val = t.val * 4096 + q.val) :
    ((cfg1.win 0).blk t).view.emb (ix2 q j) = ix2 r j := by
  funext a; apply Fin.ext
  match a with
  | ⟨0, _⟩ => exact ((win1_0.rect_emb_val t (ix2 q j) (0 : Fin 2)).trans (by rw [(idx_facts1 t).1]; rfl)).trans hr.symm
  | ⟨1, _⟩ => exact win1_0.rect_emb_val_of_index_zero t (1 : Fin 2) (idx_facts1 t).2.1 (ix2 q j)

/-- An element of window 5's block at point `t` sits in the array at the block's first row plus its own row, same column. -/
theorem emb1_5_eq (t : Fin cfg1.N) (q : Fin 4096) (j : Fin 128) (r : Fin 65536) (hr : r.val = t.val * 4096 + q.val) :
    ((cfg1.win 5).blk t).view.emb (ix2 q j) = ix2 r j := by
  funext a; apply Fin.ext
  match a with
  | ⟨0, _⟩ => exact ((win1_5.rect_emb_val t (ix2 q j) (0 : Fin 2)).trans (by rw [(idx_facts1 t).2.2.2.2.2.2.2.2.2.2.1]; rfl)).trans hr.symm
  | ⟨1, _⟩ => exact win1_5.rect_emb_val_of_index_zero t (1 : Fin 2) (idx_facts1 t).2.2.2.2.2.2.2.2.2.2.2 (ix2 q j)

/-- Window 1's block is its whole one-row array at every point. -/
theorem emb1_1_eq (t : Fin cfg1.N) (j : Fin 128) : ((cfg1.win 1).blk t).view.emb (ix2 0 j) = ix2 0 j := by
  funext a; apply Fin.ext
  match a with
  | ⟨0, _⟩ => exact win1_1.rect_emb_val_of_index_zero t (0 : Fin 2) (idx_facts1 t).2.2.1 (ix2 0 j)
  | ⟨1, _⟩ => exact win1_1.rect_emb_val_of_index_zero t (1 : Fin 2) (idx_facts1 t).2.2.2.1 (ix2 0 j)

/-- Window 2's block is its whole one-row array at every point. -/
theorem emb1_2_eq (t : Fin cfg1.N) (j : Fin 128) : ((cfg1.win 2).blk t).view.emb (ix2 0 j) = ix2 0 j := by
  funext a; apply Fin.ext
  match a with
  | ⟨0, _⟩ => exact win1_2.rect_emb_val_of_index_zero t (0 : Fin 2) (idx_facts1 t).2.2.2.2.1 (ix2 0 j)
  | ⟨1, _⟩ => exact win1_2.rect_emb_val_of_index_zero t (1 : Fin 2) (idx_facts1 t).2.2.2.2.2.1 (ix2 0 j)

/-- Window 3's block is its whole one-row array at every point. -/
theorem emb1_3_eq (t : Fin cfg1.N) (j : Fin 128) : ((cfg1.win 3).blk t).view.emb (ix2 0 j) = ix2 0 j := by
  funext a; apply Fin.ext
  match a with
  | ⟨0, _⟩ => exact win1_3.rect_emb_val_of_index_zero t (0 : Fin 2) (idx_facts1 t).2.2.2.2.2.2.1 (ix2 0 j)
  | ⟨1, _⟩ => exact win1_3.rect_emb_val_of_index_zero t (1 : Fin 2) (idx_facts1 t).2.2.2.2.2.2.2.1 (ix2 0 j)

/-- Window 4's block is its whole one-row array at every point. -/
theorem emb1_4_eq (t : Fin cfg1.N) (j : Fin 128) : ((cfg1.win 4).blk t).view.emb (ix2 0 j) = ix2 0 j := by
  funext a; apply Fin.ext
  match a with
  | ⟨0, _⟩ => exact win1_4.rect_emb_val_of_index_zero t (0 : Fin 2) (idx_facts1 t).2.2.2.2.2.2.2.2.1 (ix2 0 j)
  | ⟨1, _⟩ => exact win1_4.rect_emb_val_of_index_zero t (1 : Fin 2) (idx_facts1 t).2.2.2.2.2.2.2.2.2.1 (ix2 0 j)

/-- Window 0's block at point `t`, entry by entry: the array's rows `4096 t …`. -/
theorem iblk1_0_apply (c : Dev nD) (t : Fin cfg1.N) (q : Fin 4096) (j : Fin 128) (r : Fin 65536) (hr : r.val = t.val * 4096 + q.val) :
    iblk1 V c 0 t (ix2 q j) = V c (Pipeline.arrRef spec1 0) (ix2 r j) := by
  show V c (Pipeline.arrRef spec1 0) (((cfg1.win 0).blk t).view.emb (ix2 q j)) = _
  rw [emb1_0_eq t q j r hr]

/-- Window 1's block at every point is its one-row array. -/
theorem iblk1_1_apply (c : Dev nD) (t : Fin cfg1.N) (j : Fin 128) :
    iblk1 V c 1 t (ix2 0 j) = V c (Pipeline.arrRef spec1 1) (ix2 0 j) := by
  show V c (Pipeline.arrRef spec1 1) (((cfg1.win 1).blk t).view.emb (ix2 0 j)) = _
  rw [emb1_1_eq t j]

/-- Window 2's block at every point is its one-row array. -/
theorem iblk1_2_apply (c : Dev nD) (t : Fin cfg1.N) (j : Fin 128) :
    iblk1 V c 2 t (ix2 0 j) = V c (Pipeline.arrRef spec1 2) (ix2 0 j) := by
  show V c (Pipeline.arrRef spec1 2) (((cfg1.win 2).blk t).view.emb (ix2 0 j)) = _
  rw [emb1_2_eq t j]

/-- Window 3's block at every point is its one-row array. -/
theorem iblk1_3_apply (c : Dev nD) (t : Fin cfg1.N) (j : Fin 128) :
    iblk1 V c 3 t (ix2 0 j) = V c (Pipeline.arrRef spec1 3) (ix2 0 j) := by
  show V c (Pipeline.arrRef spec1 3) (((cfg1.win 3).blk t).view.emb (ix2 0 j)) = _
  rw [emb1_3_eq t j]

/-- Window 4's block at every point is its one-row array. -/
theorem iblk1_4_apply (c : Dev nD) (t : Fin cfg1.N) (j : Fin 128) :
    iblk1 V c 4 t (ix2 0 j) = V c (Pipeline.arrRef spec1 4) (ix2 0 j) := by
  show V c (Pipeline.arrRef spec1 4) (((cfg1.win 4).blk t).view.emb (ix2 0 j)) = _
  rw [emb1_4_eq t j]

/-- What the body leaves in the output buffer is its one store's payload of the whole input buffers. -/
theorem out1_5_eq (x0 : Vec F S4096x128 .f32) (x1 x2 x3 x4 : Vec F S1x128 .f32) : out1_5 x0 x1 x2 x3 x4 = k1_pay1 x0 x3 x1 x2 x4 := by
  unfold out1_5
  rw [View.canon_unit_zero hz1]
  simp only [View.ld_unit_zero (S := S4096x128) hz1, View.ld_unit_zero (S := S1x128) hz1]

set_option maxHeartbeats 1000000 in
/-- The payload of the blocks at point `t`, at row `q` and column `j`, is `G1` of the arrays at row `4096 t + q`. -/
theorem flushed1_apply (c : Dev nD) (t : Fin cfg1.N) (q : Fin 4096) (j : Fin 128) (r : Fin 65536) (hr : r.val = t.val * 4096 + q.val) :
    k1_pay1 (iblk1 V c 0 t) (iblk1 V c 3 t) (iblk1 V c 1 t) (iblk1 V c 2 t) (iblk1 V c 4 t) (ix2 q j) = G1 (V c (Pipeline.arrRef spec1 0)) (V c (Pipeline.arrRef spec1 1)) (V c (Pipeline.arrRef spec1 2)) (V c (Pipeline.arrRef spec1 3)) (V c (Pipeline.arrRef spec1 4)) (ix2 r j) := by
  rw [pay1_apply, iblk1_0_apply V c t q j r hr, iblk1_1_apply V c t j, iblk1_2_apply V c t j, iblk1_3_apply V c t j, iblk1_4_apply V c t j]

set_option maxHeartbeats 1000000 in
/-- WHAT POINT `t` WRITES BACK is block `t` of `G1` of the arrays as the region finds them. -/
theorem flushed1_eq (c : Dev nD) (t : Fin cfg1.N) :
    (dat1 V c).flushed 5 t = ((cfg1.win 5).blk t).view.read (Elt F)
      (G1 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5, out1_5_eq]
  funext y
  obtain ⟨q, j, rfl⟩ : ∃ (q : Fin 4096) (j : Fin 128), y = ix2 q j := ⟨y 0, y 1, eq_ix2 y⟩
  have ht : t.val < grid1.N := t.isLt
  rw [N_1] at ht
  have hr : t.val * 4096 + q.val < 65536 := by have := q.isLt; omega
  refine (flushed1_apply V c t q j ⟨t.val * 4096 + q.val, hr⟩ rfl).trans ?_
  exact (congrArg (G1 (V c (Pipeline.arrRef spec1 0)) (V c (Pipeline.arrRef spec1 1)) (V c (Pipeline.arrRef spec1 2)) (V c (Pipeline.arrRef spec1 3)) (V c (Pipeline.arrRef spec1 4))) (emb1_5_eq t q j ⟨t.val * 4096 + q.val, hr⟩ rfl)).symm

/-- Every entry of the output array is in some point's block: row `r` in the block of point `r / 4096`. -/
theorem cover1 (i : S65536x128.Idx) :
    ∃ t : Fin cfg1.N, (cfg1.win 5).flush t = true ∧ i ∈ ((cfg1.win 5).blk t).view.set := by
  have hi0 : (i 0).val < 65536 := (i 0).isLt
  have hN : grid1.N = 16 := N_1
  let t : Fin cfg1.N := ⟨(i 0).val / 4096, by show (i 0).val / 4096 < grid1.N; rw [hN]; omega⟩
  have htv : t.val = (i 0).val / 4096 := rfl
  refine ⟨t, flush1_5 t, ?_⟩
  have hmem := View.emb_mem_set ((cfg1.win 5).blk t).view (ix2 (⟨(i 0).val % 4096, Nat.mod_lt _ (by decide)⟩ : Fin 4096) (i 1))
  have e : ((cfg1.win 5).blk t).view.emb (ix2 (⟨(i 0).val % 4096, Nat.mod_lt _ (by decide)⟩ : Fin 4096) (i 1)) = i :=
    (emb1_5_eq t ⟨(i 0).val % 4096, Nat.mod_lt _ (by decide)⟩ (i 1) (i 0) (by rw [htv]; show (i 0).val = (i 0).val / 4096 * 4096 + (i 0).val % 4096; omega)).trans (eq_ix2 i).symm
  rw [e] at hmem
  exact hmem

/-- THE OUTPUT ARRAY after the run: `G1` of the arrays as the region finds them. -/
theorem final1 (c : Dev nD) : (dat1 V c).arrAt 5 cfg1.N = G1 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_eq V c t) cover1

end Cert.Kernel.Hand

end
-- ==== Proof.HandK.P2v3.lean ====
import proofs.«103476_j5987184410999_2_alg».proof.Proof.HandK.P2r3
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window)

variable {F : FTy → Type} [FloatOps F]

-- the TensorCore's buffer contents when the region is entered
variable (V : (c : Dev nD) → (b : Ref sig .tc) → Buf (Elt F) ((c : Thread nD τ).loc b))

/-! # REGION 3: the proof data read as relational data -/

/-- The body obligation of the exact data read relationally. -/
theorem bodyR3 (c : Dev nD) : ((dat3 (F := F) V c).toR).BodyObligation (defs₀ (F := F)) Variants.none () Set.univ :=
  (body_obligation3 V c).toR

/-- What an array may hold after all the write-backs, of the exact data, is what the data names. -/
theorem arrAtR3 (c : Dev nD) (w : Fin cfg3.W) (G : Buf (Elt F) ((cfg3.win w).arr.view.loc (c.tc : Thread nD τ))) :
    ((dat3 V c).toR).ArrAt w cfg3.N G ↔ G = (dat3 V c).arrAt w cfg3.N :=
  (dat3 V c).toR_arrAt_iff w cfg3.N G

/-- Every window's array is held at the full share. -/
theorem shareR3 (c : Dev nD) (w : Fin cfg3.W) : ((dat3 V c).toR).share w = fullShare := by
  rw [Dat.toR_share]; unfold Dat.share; split <;> rfl

/-- The invariant, what is owed and what is recorded are the class's: the scoped rest, nothing, everything. -/
theorem ΦR3 (c : Dev nD) (t : Fin (cfg3.N + 1)) : ((dat3 V c).toR).Φ t = Pipeline.ΦA spec3 c := rfl
theorem owedR3 (c : Dev nD) (t : Fin (cfg3.N + 1)) : ((dat3 V c).toR).owed t = 0 := rfl
theorem recR3 (c : Dev nD) (t : Fin (cfg3.N + 1)) : ((dat3 V c).toR).recorded t = Set.univ := rfl

/-! # REGION 3: the arrays after the run -/

/-- An input window's array is never written: it holds the entry contents. -/
theorem arr_in3 (c : Dev nD) (w : Fin cfg3.W) (hw : (cfg3.win w).isOut = false) :
    (dat3 V c).arrAt w cfg3.N = V c (Pipeline.arrRef spec3 w) :=
  ((dat3 V c).arrAt_in w hw cfg3.N).trans (A_eq3 V c w)

theorem hz3 : (![0, 0] : Fin 2 → Nat) = fun _ => 0 := funext fun a => by fin_cases a <;> rfl

/-- What the output array ends holding, entry by entry: the scale times the centred entry, times the inverse
    deviation, plus the shift — the per-column vectors read at their one row; the operations in the body's order. -/
abbrev G3 (a0 : S65536x128.Idx → Elt F .f32) (a1 a2 a3 a4 : S1x128.Idx → Elt F .f32) : S65536x128.Idx → Elt F .f32 :=
  fun i => FloatOps.addf (FloatOps.mulf (FloatOps.mulf (a3 (ix2 0 (i 1))) (FloatOps.subf (a0 i) (a1 (ix2 0 (i 1))))) (a2 (ix2 0 (i 1)))) (a4 (ix2 0 (i 1)))

/-- A one-row vector broadcast down the rows reads, at row `q` and column `j`, its entry at column `j`. -/
theorem bcast_row3_apply (x : Vec F S1x128 .f32) (q : Fin 4096) (j : Fin 128) :
    broadcastTo S4096x128 x broadcasts_S1x128_S4096x128 (ix2 q j) = x (ix2 0 j) := by
  refine broadcastTo_apply x broadcasts_S1x128_S4096x128 (ix2 q j) (ix2 0 j) (fun a => ?_)
  match a with
  | ⟨0, _⟩ => rfl
  | ⟨1, _⟩ => rfl

/-- The body's payload at row `q`, column `j` of the block. -/
theorem pay3_apply (v0 : Vec F S4096x128 .f32) (v2 v4 v10 v14 : Vec F S1x128 .f32) (q : Fin 4096) (j : Fin 128) :
    k3_pay1 v0 v2 v4 v10 v14 (ix2 q j)
      = FloatOps.addf (FloatOps.mulf (FloatOps.mulf (v2 (ix2 0 j)) (FloatOps.subf (v0 (ix2 q j)) (v4 (ix2 0 j)))) (v10 (ix2 0 j))) (v14 (ix2 0 j)) := by
  unfold k3_pay1
  simp only [shapeCast_self]
  show FloatOps.addf (FloatOps.mulf (FloatOps.mulf (broadcastTo S4096x128 v2 broadcasts_S1x128_S4096x128 (ix2 q j)) (FloatOps.subf (v0 (ix2 q j)) (broadcastTo S4096x128 v4 broadcasts_S1x128_S4096x128 (ix2 q j)))) (broadcastTo S4096x128 v10 broadcasts_S1x128_S4096x128 (ix2 q j))) (broadcastTo S4096x128 v14 broadcasts_S1x128_S4096x128 (ix2 q j)) = _
  rw [bcast_row3_apply, bcast_row3_apply, bcast_row3_apply, bcast_row3_apply]

/-- The printed index maps, decided over the grid: the blocks of rows move with the point, the one-row vectors stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- An element of window 0's block at point `t` sits in the array at the block's first row plus its own row, same column. -/
theorem emb3_0_eq (t : Fin cfg3.N) (q : Fin 4096) (j : Fin 128) (r : Fin 65536) (hr : r.val = t.val * 4096 + q.val) :
    ((cfg3.win 0).blk t).view.emb (ix2 q j) = ix2 r j := by
  funext a; apply Fin.ext
  match a with
  | ⟨0, _⟩ => exact ((win3_0.rect_emb_val t (ix2 q j) (0 : Fin 2)).trans (by rw [(idx_facts3 t).1]; rfl)).trans hr.symm
  | ⟨1, _⟩ => exact win3_0.rect_emb_val_of_index_zero t (1 : Fin 2) (idx_facts3 t).2.1 (ix2 q j)

/-- An element of window 5's block at point `t` sits in the array at the block's first row plus its own row, same column. -/
theorem emb3_5_eq (t : Fin cfg3.N) (q : Fin 4096) (j : Fin 128) (r : Fin 65536) (hr : r.val = t.val * 4096 + q.val) :
    ((cfg3.win 5).blk t).view.emb (ix2 q j) = ix2 r j := by
  funext a; apply Fin.ext
  match a with
  | ⟨0, _⟩ => exact ((win3_5.rect_emb_val t (ix2 q j) (0 : Fin 2)).trans (by rw [(idx_facts3 t).2.2.2.2.2.2.2.2.2.2.1]; rfl)).trans hr.symm
  | ⟨1, _⟩ => exact win3_5.rect_emb_val_of_index_zero t (1 : Fin 2) (idx_facts3 t).2.2.2.2.2.2.2.2.2.2.2 (ix2 q j)

/-- Window 1's block is its whole one-row array at every point. -/
theorem emb3_1_eq (t : Fin cfg3.N) (j : Fin 128) : ((cfg3.win 1).blk t).view.emb (ix2 0 j) = ix2 0 j := by
  funext a; apply Fin.ext
  match a with
  | ⟨0, _⟩ => exact win3_1.rect_emb_val_of_index_zero t (0 : Fin 2) (idx_facts3 t).2.2.1 (ix2 0 j)
  | ⟨1, _⟩ => exact win3_1.rect_emb_val_of_index_zero t (1 : Fin 2) (idx_facts3 t).2.2.2.1 (ix2 0 j)

/-- Window 2's block is its whole one-row array at every point. -/
theorem emb3_2_eq (t : Fin cfg3.N) (j : Fin 128) : ((cfg3.win 2).blk t).view.emb (ix2 0 j) = ix2 0 j := by
  funext a; apply Fin.ext
  match a with
  | ⟨0, _⟩ => exact win3_2.rect_emb_val_of_index_zero t (0 : Fin 2) (idx_facts3 t).2.2.2.2.1 (ix2 0 j)
  | ⟨1, _⟩ => exact win3_2.rect_emb_val_of_index_zero t (1 : Fin 2) (idx_facts3 t).2.2.2.2.2.1 (ix2 0 j)

/-- Window 3's block is its whole one-row array at every point. -/
theorem emb3_3_eq (t : Fin cfg3.N) (j : Fin 128) : ((cfg3.win 3).blk t).view.emb (ix2 0 j) = ix2 0 j := by
  funext a; apply Fin.ext
  match a with
  | ⟨0, _⟩ => exact win3_3.rect_emb_val_of_index_zero t (0 : Fin 2) (idx_facts3 t).2.2.2.2.2.2.1 (ix2 0 j)
  | ⟨1, _⟩ => exact win3_3.rect_emb_val_of_index_zero t (1 : Fin 2) (idx_facts3 t).2.2.2.2.2.2.2.1 (ix2 0 j)

/-- Window 4's block is its whole one-row array at every point. -/
theorem emb3_4_eq (t : Fin cfg3.N) (j : Fin 128) : ((cfg3.win 4).blk t).view.emb (ix2 0 j) = ix2 0 j := by
  funext a; apply Fin.ext
  match a with
  | ⟨0, _⟩ => exact win3_4.rect_emb_val_of_index_zero t (0 : Fin 2) (idx_facts3 t).2.2.2.2.2.2.2.2.1 (ix2 0 j)
  | ⟨1, _⟩ => exact win3_4.rect_emb_val_of_index_zero t (1 : Fin 2) (idx_facts3 t).2.2.2.2.2.2.2.2.2.1 (ix2 0 j)

/-- Window 0's block at point `t`, entry by entry: the array's rows `4096 t …`. -/
theorem iblk3_0_apply (c : Dev nD) (t : Fin cfg3.N) (q : Fin 4096) (j : Fin 128) (r : Fin 65536) (hr : r.val = t.val * 4096 + q.val) :
    iblk3 V c 0 t (ix2 q j) = V c (Pipeline.arrRef spec3 0) (ix2 r j) := by
  show V c (Pipeline.arrRef spec3 0) (((cfg3.win 0).blk t).view.emb (ix2 q j)) = _
  rw [emb3_0_eq t q j r hr]

/-- Window 1's block at every point is its one-row array. -/
theorem iblk3_1_apply (c : Dev nD) (t : Fin cfg3.N) (j : Fin 128) :
    iblk3 V c 1 t (ix2 0 j) = V c (Pipeline.arrRef spec3 1) (ix2 0 j) := by
  show V c (Pipeline.arrRef spec3 1) (((cfg3.win 1).blk t).view.emb (ix2 0 j)) = _
  rw [emb3_1_eq t j]

/-- Window 2's block at every point is its one-row array. -/
theorem iblk3_2_apply (c : Dev nD) (t : Fin cfg3.N) (j : Fin 128) :
    iblk3 V c 2 t (ix2 0 j) = V c (Pipeline.arrRef spec3 2) (ix2 0 j) := by
  show V c (Pipeline.arrRef spec3 2) (((cfg3.win 2).blk t).view.emb (ix2 0 j)) = _
  rw [emb3_2_eq t j]

/-- Window 3's block at every point is its one-row array. -/
theorem iblk3_3_apply (c : Dev nD) (t : Fin cfg3.N) (j : Fin 128) :
    iblk3 V c 3 t (ix2 0 j) = V c (Pipeline.arrRef spec3 3) (ix2 0 j) := by
  show V c (Pipeline.arrRef spec3 3) (((cfg3.win 3).blk t).view.emb (ix2 0 j)) = _
  rw [emb3_3_eq t j]

/-- Window 4's block at every point is its one-row array. -/
theorem iblk3_4_apply (c : Dev nD) (t : Fin cfg3.N) (j : Fin 128) :
    iblk3 V c 4 t (ix2 0 j) = V c (Pipeline.arrRef spec3 4) (ix2 0 j) := by
  show V c (Pipeline.arrRef spec3 4) (((cfg3.win 4).blk t).view.emb (ix2 0 j)) = _
  rw [emb3_4_eq t j]

/-- What the body leaves in the output buffer is its one store's payload of the whole input buffers. -/
theorem out3_5_eq (x0 : Vec F S4096x128 .f32) (x1 x2 x3 x4 : Vec F S1x128 .f32) : out3_5 x0 x1 x2 x3 x4 = k3_pay1 x0 x3 x1 x2 x4 := by
  unfold out3_5
  rw [View.canon_unit_zero hz3]
  simp only [View.ld_unit_zero (S := S4096x128) hz3, View.ld_unit_zero (S := S1x128) hz3]

set_option maxHeartbeats 1000000 in
/-- The payload of the blocks at point `t`, at row `q` and column `j`, is `G3` of the arrays at row `4096 t + q`. -/
theorem flushed3_apply (c : Dev nD) (t : Fin cfg3.N) (q : Fin 4096) (j : Fin 128) (r : Fin 65536) (hr : r.val = t.val * 4096 + q.val) :
    k3_pay1 (iblk3 V c 0 t) (iblk3 V c 3 t) (iblk3 V c 1 t) (iblk3 V c 2 t) (iblk3 V c 4 t) (ix2 q j) = G3 (V c (Pipeline.arrRef spec3 0)) (V c (Pipeline.arrRef spec3 1)) (V c (Pipeline.arrRef spec3 2)) (V c (Pipeline.arrRef spec3 3)) (V c (Pipeline.arrRef spec3 4)) (ix2 r j) := by
  rw [pay3_apply, iblk3_0_apply V c t q j r hr, iblk3_1_apply V c t j, iblk3_2_apply V c t j, iblk3_3_apply V c t j, iblk3_4_apply V c t j]

set_option maxHeartbeats 1000000 in
/-- WHAT POINT `t` WRITES BACK is block `t` of `G3` of the arrays as the region finds them. -/
theorem flushed3_eq (c : Dev nD) (t : Fin cfg3.N) :
    (dat3 V c).flushed 5 t = ((cfg3.win 5).blk t).view.read (Elt F)
      (G3 (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5, out3_5_eq]
  funext y
  obtain ⟨q, j, rfl⟩ : ∃ (q : Fin 4096) (j : Fin 128), y = ix2 q j := ⟨y 0, y 1, eq_ix2 y⟩
  have ht : t.val < grid3.N := t.isLt
  rw [N_3] at ht
  have hr : t.val * 4096 + q.val < 65536 := by have := q.isLt; omega
  refine (flushed3_apply V c t q j ⟨t.val * 4096 + q.val, hr⟩ rfl).trans ?_
  exact (congrArg (G3 (V c (Pipeline.arrRef spec3 0)) (V c (Pipeline.arrRef spec3 1)) (V c (Pipeline.arrRef spec3 2)) (V c (Pipeline.arrRef spec3 3)) (V c (Pipeline.arrRef spec3 4))) (emb3_5_eq t q j ⟨t.val * 4096 + q.val, hr⟩ rfl)).symm

/-- Every entry of the output array is in some point's block: row `r` in the block of point `r / 4096`. -/
theorem cover3 (i : S65536x128.Idx) :
    ∃ t : Fin cfg3.N, (cfg3.win 5).flush t = true ∧ i ∈ ((cfg3.win 5).blk t).view.set := by
  have hi0 : (i 0).val < 65536 := (i 0).isLt
  have hN : grid3.N = 16 := N_3
  let t : Fin cfg3.N := ⟨(i 0).val / 4096, by show (i 0).val / 4096 < grid3.N; rw [hN]; omega⟩
  have htv : t.val = (i 0).val / 4096 := rfl
  refine ⟨t, flush3_5 t, ?_⟩
  have hmem := View.emb_mem_set ((cfg3.win 5).blk t).view (ix2 (⟨(i 0).val % 4096, Nat.mod_lt _ (by decide)⟩ : Fin 4096) (i 1))
  have e : ((cfg3.win 5).blk t).view.emb (ix2 (⟨(i 0).val % 4096, Nat.mod_lt _ (by decide)⟩ : Fin 4096) (i 1)) = i :=
    (emb3_5_eq t ⟨(i 0).val % 4096, Nat.mod_lt _ (by decide)⟩ (i 1) (i 0) (by rw [htv]; show (i 0).val = (i 0).val / 4096 * 4096 + (i 0).val % 4096; omega)).trans (eq_ix2 i).symm
  rw [e] at hmem
  exact hmem

/-- THE OUTPUT ARRAY after the run: `G3` of the arrays as the region finds them. -/
theorem final3 (c : Dev nD) : (dat3 V c).arrAt 5 cfg3.N = G3 (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3_eq V c t) cover3

end Cert.Kernel.Hand

end
-- ==== Proof.HandK.P2v5.lean ====
import proofs.«103476_j5987184410999_2_alg».proof.Proof.HandK.P2r5
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window)

variable {F : FTy → Type} [FloatOps F]

-- the TensorCore's buffer contents when the region is entered
variable (V : (c : Dev nD) → (b : Ref sig .tc) → Buf (Elt F) ((c : Thread nD τ).loc b))

/-! # REGION 5: the proof data read as relational data -/

/-- The body obligation of the exact data read relationally. -/
theorem bodyR5 (c : Dev nD) : ((dat5 (F := F) V c).toR).BodyObligation (defs₀ (F := F)) Variants.none () Set.univ :=
  (body_obligation5 V c).toR

/-- What an array may hold after all the write-backs, of the exact data, is what the data names. -/
theorem arrAtR5 (c : Dev nD) (w : Fin cfg5.W) (G : Buf (Elt F) ((cfg5.win w).arr.view.loc (c.tc : Thread nD τ))) :
    ((dat5 V c).toR).ArrAt w cfg5.N G ↔ G = (dat5 V c).arrAt w cfg5.N :=
  (dat5 V c).toR_arrAt_iff w cfg5.N G

/-- Every window's array is held at the full share. -/
theorem shareR5 (c : Dev nD) (w : Fin cfg5.W) : ((dat5 V c).toR).share w = fullShare := by
  rw [Dat.toR_share]; unfold Dat.share; split <;> rfl

/-- The invariant, what is owed and what is recorded are the class's: the scoped rest, nothing, everything. -/
theorem ΦR5 (c : Dev nD) (t : Fin (cfg5.N + 1)) : ((dat5 V c).toR).Φ t = Pipeline.ΦA spec5 c := rfl
theorem owedR5 (c : Dev nD) (t : Fin (cfg5.N + 1)) : ((dat5 V c).toR).owed t = 0 := rfl
theorem recR5 (c : Dev nD) (t : Fin (cfg5.N + 1)) : ((dat5 V c).toR).recorded t = Set.univ := rfl

/-! # REGION 5: the arrays after the run -/

/-- An input window's array is never written: it holds the entry contents. -/
theorem arr_in5 (c : Dev nD) (w : Fin cfg5.W) (hw : (cfg5.win w).isOut = false) :
    (dat5 V c).arrAt w cfg5.N = V c (Pipeline.arrRef spec5 w) :=
  ((dat5 V c).arrAt_in w hw cfg5.N).trans (A_eq5 V c w)

theorem hz5 : (![0, 0] : Fin 2 → Nat) = fun _ => 0 := funext fun a => by fin_cases a <;> rfl

/-- What the output array ends holding, entry by entry: the scale times the centred entry, times the inverse
    deviation, plus the shift, plus the noise entry times the literal — the per-column vectors read at their one row; the operations in the body's order. -/
abbrev G5 (a0 : S65536x128.Idx → Elt F .f32) (a1 a2 a3 a4 : S1x128.Idx → Elt F .f32) (a5 : S65536x128.Idx → Elt F .f32) : S65536x128.Idx → Elt F .f32 :=
  fun i => FloatOps.addf (FloatOps.addf (FloatOps.mulf (FloatOps.mulf (a3 (ix2 0 (i 1))) (FloatOps.subf (a0 i) (a1 (ix2 0 (i 1))))) (a2 (ix2 0 (i 1)))) (a4 (ix2 0 (i 1)))) (FloatOps.mulf (a5 i) (Scalar.ofBits (F := F) .f32 0x3DCCCCCD#32))

/-- A one-row vector broadcast down the rows reads, at row `q` and column `j`, its entry at column `j`. -/
theorem bcast_row5_apply (x : Vec F S1x128 .f32) (q : Fin 4096) (j : Fin 128) :
    broadcastTo S4096x128 x broadcasts_S1x128_S4096x128 (ix2 q j) = x (ix2 0 j) := by
  refine broadcastTo_apply x broadcasts_S1x128_S4096x128 (ix2 q j) (ix2 0 j) (fun a => ?_)
  match a with
  | ⟨0, _⟩ => rfl
  | ⟨1, _⟩ => rfl

/-- The body's payload at row `q`, column `j` of the block. -/
theorem pay5_apply (v0 : Vec F S4096x128 .f32) (v2 v4 v10 v14 : Vec F S1x128 .f32) (v18 : Vec F S4096x128 .f32) (q : Fin 4096) (j : Fin 128) :
    k5_pay1 v0 v2 v4 v10 v14 v18 (ix2 q j)
      = FloatOps.addf (FloatOps.addf (FloatOps.mulf (FloatOps.mulf (v2 (ix2 0 j)) (FloatOps.subf (v0 (ix2 q j)) (v4 (ix2 0 j)))) (v10 (ix2 0 j))) (v14 (ix2 0 j))) (FloatOps.mulf (v18 (ix2 q j)) (Scalar.ofBits (F := F) .f32 0x3DCCCCCD#32)) := by
  unfold k5_pay1
  simp only [shapeCast_self]
  show FloatOps.addf (FloatOps.addf (FloatOps.mulf (FloatOps.mulf (broadcastTo S4096x128 v2 broadcasts_S1x128_S4096x128 (ix2 q j)) (FloatOps.subf (v0 (ix2 q j)) (broadcastTo S4096x128 v4 broadcasts_S1x128_S4096x128 (ix2 q j)))) (broadcastTo S4096x128 v10 broadcasts_S1x128_S4096x128 (ix2 q j))) (broadcastTo S4096x128 v14 broadcasts_S1x128_S4096x128 (ix2 q j))) (FloatOps.mulf (v18 (ix2 q j)) (Scalar.ofBits (F := F) .f32 0x3DCCCCCD#32)) = _
  rw [bcast_row5_apply, bcast_row5_apply, bcast_row5_apply, bcast_row5_apply]

/-- The printed index maps, decided over the grid: the blocks of rows move with the point, the one-row vectors stay. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- An element of window 0's block at point `t` sits in the array at the block's first row plus its own row, same column. -/
theorem emb5_0_eq (t : Fin cfg5.N) (q : Fin 4096) (j : Fin 128) (r : Fin 65536) (hr : r.val = t.val * 4096 + q.val) :
    ((cfg5.win 0).blk t).view.emb (ix2 q j) = ix2 r j := by
  funext a; apply Fin.ext
  match a with
  | ⟨0, _⟩ => exact ((win5_0.rect_emb_val t (ix2 q j) (0 : Fin 2)).trans (by rw [(idx_facts5 t).1]; rfl)).trans hr.symm
  | ⟨1, _⟩ => exact win5_0.rect_emb_val_of_index_zero t (1 : Fin 2) (idx_facts5 t).2.1 (ix2 q j)

/-- An element of window 5's block at point `t` sits in the array at the block's first row plus its own row, same column. -/
theorem emb5_5_eq (t : Fin cfg5.N) (q : Fin 4096) (j : Fin 128) (r : Fin 65536) (hr : r.val = t.val * 4096 + q.val) :
    ((cfg5.win 5).blk t).view.emb (ix2 q j) = ix2 r j := by
  funext a; apply Fin.ext
  match a with
  | ⟨0, _⟩ => exact ((win5_5.rect_emb_val t (ix2 q j) (0 : Fin 2)).trans (by rw [(idx_facts5 t).2.2.2.2.2.2.2.2.2.2.1]; rfl)).trans hr.symm
  | ⟨1, _⟩ => exact win5_5.rect_emb_val_of_index_zero t (1 : Fin 2) (idx_facts5 t).2.2.2.2.2.2.2.2.2.2.2.1 (ix2 q j)

/-- An element of window 6's block at point `t` sits in the array at the block's first row plus its own row, same column. -/
theorem emb5_6_eq (t : Fin cfg5.N) (q : Fin 4096) (j : Fin 128) (r : Fin 65536) (hr : r.val = t.val * 4096 + q.val) :
    ((cfg5.win 6).blk t).view.emb (ix2 q j) = ix2 r j := by
  funext a; apply Fin.ext
  match a with
  | ⟨0, _⟩ => exact ((win5_6.rect_emb_val t (ix2 q j) (0 : Fin 2)).trans (by rw [(idx_facts5 t).2.2.2.2.2.2.2.2.2.2.2.2.1]; rfl)).trans hr.symm
  | ⟨1, _⟩ => exact win5_6.rect_emb_val_of_index_zero t (1 : Fin 2) (idx_facts5 t).2.2.2.2.2.2.2.2.2.2.2.2.2 (ix2 q j)

/-- Window 1's block is its whole one-row array at every point. -/
theorem emb5_1_eq (t : Fin cfg5.N) (j : Fin 128) : ((cfg5.win 1).blk t).view.emb (ix2 0 j) = ix2 0 j := by
  funext a; apply Fin.ext
  match a with
  | ⟨0, _⟩ => exact win5_1.rect_emb_val_of_index_zero t (0 : Fin 2) (idx_facts5 t).2.2.1 (ix2 0 j)
  | ⟨1, _⟩ => exact win5_1.rect_emb_val_of_index_zero t (1 : Fin 2) (idx_facts5 t).2.2.2.1 (ix2 0 j)

/-- Window 2's block is its whole one-row array at every point. -/
theorem emb5_2_eq (t : Fin cfg5.N) (j : Fin 128) : ((cfg5.win 2).blk t).view.emb (ix2 0 j) = ix2 0 j := by
  funext a; apply Fin.ext
  match a with
  | ⟨0, _⟩ => exact win5_2.rect_emb_val_of_index_zero t (0 : Fin 2) (idx_facts5 t).2.2.2.2.1 (ix2 0 j)
  | ⟨1, _⟩ => exact win5_2.rect_emb_val_of_index_zero t (1 : Fin 2) (idx_facts5 t).2.2.2.2.2.1 (ix2 0 j)

/-- Window 3's block is its whole one-row array at every point. -/
theorem emb5_3_eq (t : Fin cfg5.N) (j : Fin 128) : ((cfg5.win 3).blk t).view.emb (ix2 0 j) = ix2 0 j := by
  funext a; apply Fin.ext
  match a with
  | ⟨0, _⟩ => exact win5_3.rect_emb_val_of_index_zero t (0 : Fin 2) (idx_facts5 t).2.2.2.2.2.2.1 (ix2 0 j)
  | ⟨1, _⟩ => exact win5_3.rect_emb_val_of_index_zero t (1 : Fin 2) (idx_facts5 t).2.2.2.2.2.2.2.1 (ix2 0 j)

/-- Window 4's block is its whole one-row array at every point. -/
theorem emb5_4_eq (t : Fin cfg5.N) (j : Fin 128) : ((cfg5.win 4).blk t).view.emb (ix2 0 j) = ix2 0 j := by
  funext a; apply Fin.ext
  match a with
  | ⟨0, _⟩ => exact win5_4.rect_emb_val_of_index_zero t (0 : Fin 2) (idx_facts5 t).2.2.2.2.2.2.2.2.1 (ix2 0 j)
  | ⟨1, _⟩ => exact win5_4.rect_emb_val_of_index_zero t (1 : Fin 2) (idx_facts5 t).2.2.2.2.2.2.2.2.2.1 (ix2 0 j)

/-- Window 0's block at point `t`, entry by entry: the array's rows `4096 t …`. -/
theorem iblk5_0_apply (c : Dev nD) (t : Fin cfg5.N) (q : Fin 4096) (j : Fin 128) (r : Fin 65536) (hr : r.val = t.val * 4096 + q.val) :
    iblk5 V c 0 t (ix2 q j) = V c (Pipeline.arrRef spec5 0) (ix2 r j) := by
  show V c (Pipeline.arrRef spec5 0) (((cfg5.win 0).blk t).view.emb (ix2 q j)) = _
  rw [emb5_0_eq t q j r hr]

/-- Window 5's block at point `t`, entry by entry: the array's rows `4096 t …`. -/
theorem iblk5_5_apply (c : Dev nD) (t : Fin cfg5.N) (q : Fin 4096) (j : Fin 128) (r : Fin 65536) (hr : r.val = t.val * 4096 + q.val) :
    iblk5 V c 5 t (ix2 q j) = V c (Pipeline.arrRef spec5 5) (ix2 r j) := by
  show V c (Pipeline.arrRef spec5 5) (((cfg5.win 5).blk t).view.emb (ix2 q j)) = _
  rw [emb5_5_eq t q j r hr]

/-- Window 1's block at every point is its one-row array. -/
theorem iblk5_1_apply (c : Dev nD) (t : Fin cfg5.N) (j : Fin 128) :
    iblk5 V c 1 t (ix2 0 j) = V c (Pipeline.arrRef spec5 1) (ix2 0 j) := by
  show V c (Pipeline.arrRef spec5 1) (((cfg5.win 1).blk t).view.emb (ix2 0 j)) = _
  rw [emb5_1_eq t j]

/-- Window 2's block at every point is its one-row array. -/
theorem iblk5_2_apply (c : Dev nD) (t : Fin cfg5.N) (j : Fin 128) :
    iblk5 V c 2 t (ix2 0 j) = V c (Pipeline.arrRef spec5 2) (ix2 0 j) := by
  show V c (Pipeline.arrRef spec5 2) (((cfg5.win 2).blk t).view.emb (ix2 0 j)) = _
  rw [emb5_2_eq t j]

/-- Window 3's block at every point is its one-row array. -/
theorem iblk5_3_apply (c : Dev nD) (t : Fin cfg5.N) (j : Fin 128) :
    iblk5 V c 3 t (ix2 0 j) = V c (Pipeline.arrRef spec5 3) (ix2 0 j) := by
  show V c (Pipeline.arrRef spec5 3) (((cfg5.win 3).blk t).view.emb (ix2 0 j)) = _
  rw [emb5_3_eq t j]

/-- Window 4's block at every point is its one-row array. -/
theorem iblk5_4_apply (c : Dev nD) (t : Fin cfg5.N) (j : Fin 128) :
    iblk5 V c 4 t (ix2 0 j) = V c (Pipeline.arrRef spec5 4) (ix2 0 j) := by
  show V c (Pipeline.arrRef spec5 4) (((cfg5.win 4).blk t).view.emb (ix2 0 j)) = _
  rw [emb5_4_eq t j]

/-- What the body leaves in the output buffer is its one store's payload of the whole input buffers. -/
theorem out5_6_eq (x0 : Vec F S4096x128 .f32) (x1 x2 x3 x4 : Vec F S1x128 .f32) (x5 : Vec F S4096x128 .f32) : out5_6 x0 x1 x2 x3 x4 x5 = k5_pay1 x0 x3 x1 x2 x4 x5 := by
  unfold out5_6
  rw [View.canon_unit_zero hz5]
  simp only [View.ld_unit_zero (S := S4096x128) hz5, View.ld_unit_zero (S := S1x128) hz5]

set_option maxHeartbeats 1000000 in
/-- The payload of the blocks at point `t`, at row `q` and column `j`, is `G5` of the arrays at row `4096 t + q`. -/
theorem flushed5_apply (c : Dev nD) (t : Fin cfg5.N) (q : Fin 4096) (j : Fin 128) (r : Fin 65536) (hr : r.val = t.val * 4096 + q.val) :
    k5_pay1 (iblk5 V c 0 t) (iblk5 V c 3 t) (iblk5 V c 1 t) (iblk5 V c 2 t) (iblk5 V c 4 t) (iblk5 V c 5 t) (ix2 q j) = G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (ix2 r j) := by
  rw [pay5_apply, iblk5_0_apply V c t q j r hr, iblk5_5_apply V c t q j r hr, iblk5_1_apply V c t j, iblk5_2_apply V c t j, iblk5_3_apply V c t j, iblk5_4_apply V c t j]

set_option maxHeartbeats 1000000 in
/-- WHAT POINT `t` WRITES BACK is block `t` of `G5` of the arrays as the region finds them. -/
theorem flushed5_eq (c : Dev nD) (t : Fin cfg5.N) :
    (dat5 V c).flushed 6 t = ((cfg5.win 6).blk t).view.read (Elt F)
      (G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6, out5_6_eq]
  funext y
  obtain ⟨q, j, rfl⟩ : ∃ (q : Fin 4096) (j : Fin 128), y = ix2 q j := ⟨y 0, y 1, eq_ix2 y⟩
  have ht : t.val < grid5.N := t.isLt
  rw [N_5] at ht
  have hr : t.val * 4096 + q.val < 65536 := by have := q.isLt; omega
  refine (flushed5_apply V c t q j ⟨t.val * 4096 + q.val, hr⟩ rfl).trans ?_
  exact (congrArg (G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) (emb5_6_eq t q j ⟨t.val * 4096 + q.val, hr⟩ rfl)).symm

/-- Every entry of the output array is in some point's block: row `r` in the block of point `r / 4096`. -/
theorem cover5 (i : S65536x128.Idx) :
    ∃ t : Fin cfg5.N, (cfg5.win 6).flush t = true ∧ i ∈ ((cfg5.win 6).blk t).view.set := by
  have hi0 : (i 0).val < 65536 := (i 0).isLt
  have hN : grid5.N = 16 := N_5
  let t : Fin cfg5.N := ⟨(i 0).val / 4096, by show (i 0).val / 4096 < grid5.N; rw [hN]; omega⟩
  have htv : t.val = (i 0).val / 4096 := rfl
  refine ⟨t, flush5_6 t, ?_⟩
  have hmem := View.emb_mem_set ((cfg5.win 6).blk t).view (ix2 (⟨(i 0).val % 4096, Nat.mod_lt _ (by decide)⟩ : Fin 4096) (i 1))
  have e : ((cfg5.win 6).blk t).view.emb (ix2 (⟨(i 0).val % 4096, Nat.mod_lt _ (by decide)⟩ : Fin 4096) (i 1)) = i :=
    (emb5_6_eq t ⟨(i 0).val % 4096, Nat.mod_lt _ (by decide)⟩ (i 1) (i 0) (by rw [htv]; show (i 0).val = (i 0).val / 4096 * 4096 + (i 0).val % 4096; omega)).trans (eq_ix2 i).symm
  rw [e] at hmem
  exact hmem

/-- THE OUTPUT ARRAY after the run: `G5` of the arrays as the region finds them. -/
theorem final5 (c : Dev nD) : (dat5 V c).arrAt 6 cfg5.N = G5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => flushed5_eq V c t) cover5

end Cert.Kernel.Hand

end
-- ==== Proof.HandK.P2v7.lean ====
import proofs.«103476_j5987184410999_2_alg».proof.Proof.HandK.P2r7
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window)

variable {F : FTy → Type} [FloatOps F]

-- the TensorCore's buffer contents when the region is entered
variable (V : (c : Dev nD) → (b : Ref sig .tc) → Buf (Elt F) ((c : Thread nD τ).loc b))

/-! # REGION 7: the proof data read as relational data -/

/-- The body obligation of the exact data read relationally. -/
theorem bodyR7 (c : Dev nD) : ((dat7 (F := F) V c).toR).BodyObligation (defs₀ (F := F)) Variants.none () Set.univ :=
  (body_obligation7 V c).toR

/-- What an array may hold after all the write-backs, of the exact data, is what the data names. -/
theorem arrAtR7 (c : Dev nD) (w : Fin cfg7.W) (G : Buf (Elt F) ((cfg7.win w).arr.view.loc (c.tc : Thread nD τ))) :
    ((dat7 V c).toR).ArrAt w cfg7.N G ↔ G = (dat7 V c).arrAt w cfg7.N :=
  (dat7 V c).toR_arrAt_iff w cfg7.N G

/-- Every window's array is held at the full share. -/
theorem shareR7 (c : Dev nD) (w : Fin cfg7.W) : ((dat7 V c).toR).share w = fullShare := by
  rw [Dat.toR_share]; unfold Dat.share; split <;> rfl

/-- The invariant, what is owed and what is recorded are the class's: the scoped rest, nothing, everything. -/
theorem ΦR7 (c : Dev nD) (t : Fin (cfg7.N + 1)) : ((dat7 V c).toR).Φ t = Pipeline.ΦA spec7 c := rfl
theorem owedR7 (c : Dev nD) (t : Fin (cfg7.N + 1)) : ((dat7 V c).toR).owed t = 0 := rfl
theorem recR7 (c : Dev nD) (t : Fin (cfg7.N + 1)) : ((dat7 V c).toR).recorded t = Set.univ := rfl

/-! # REGION 7: the arrays after the run -/

/-- An input window's array is never written: it holds the entry contents. -/
theorem arr_in7 (c : Dev nD) (w : Fin cfg7.W) (hw : (cfg7.win w).isOut = false) :
    (dat7 V c).arrAt w cfg7.N = V c (Pipeline.arrRef spec7 w) :=
  ((dat7 V c).arrAt_in w hw cfg7.N).trans (A_eq7 V c w)

theorem hz7 : (![0, 0] : Fin 2 → Nat) = fun _ => 0 := funext fun a => by fin_cases a <;> rfl

/-- What the output array ends holding, entry by entry: the scale times the centred entry, times the inverse
    deviation, plus the shift, plus the noise entry times the literal — the per-column vectors read at their one row; the operations in the body's order. -/
abbrev G7 (a0 : S65536x128.Idx → Elt F .f32) (a1 a2 a3 a4 : S1x128.Idx → Elt F .f32) (a5 : S65536x128.Idx → Elt F .f32) : S65536x128.Idx → Elt F .f32 :=
  fun i => FloatOps.addf (FloatOps.addf (FloatOps.mulf (FloatOps.mulf (a3 (ix2 0 (i 1))) (FloatOps.subf (a0 i) (a1 (ix2 0 (i 1))))) (a2 (ix2 0 (i 1)))) (a4 (ix2 0 (i 1)))) (FloatOps.mulf (a5 i) (Scalar.ofBits (F := F) .f32 0x3DCCCCCD#32))

/-- A one-row vector broadcast down the rows reads, at row `q` and column `j`, its entry at column `j`. -/
theorem bcast_row7_apply (x : Vec F S1x128 .f32) (q : Fin 4096) (j : Fin 128) :
    broadcastTo S4096x128 x broadcasts_S1x128_S4096x128 (ix2 q j) = x (ix2 0 j) := by
  refine broadcastTo_apply x broadcasts_S1x128_S4096x128 (ix2 q j) (ix2 0 j) (fun a => ?_)
  match a with
  | ⟨0, _⟩ => rfl
  | ⟨1, _⟩ => rfl

/-- The body's payload at row `q`, column `j` of the block. -/
theorem pay7_apply (v0 : Vec F S4096x128 .f32) (v2 v4 v10 v14 : Vec F S1x128 .f32) (v18 : Vec F S4096x128 .f32) (q : Fin 4096) (j : Fin 128) :
    k7_pay1 v0 v2 v4 v10 v14 v18 (ix2 q j)
      = FloatOps.addf (FloatOps.addf (FloatOps.mulf (FloatOps.mulf (v2 (ix2 0 j)) (FloatOps.subf (v0 (ix2 q j)) (v4 (ix2 0 j)))) (v10 (ix2 0 j))) (v14 (ix2 0 j))) (FloatOps.mulf (v18 (ix2 q j)) (Scalar.ofBits (F := F) .f32 0x3DCCCCCD#32)) := by
  unfold k7_pay1
  simp only [shapeCast_self]
  show FloatOps.addf (FloatOps.addf (FloatOps.mulf (FloatOps.mulf (broadcastTo S4096x128 v2 broadcasts_S1x128_S4096x128 (ix2 q j)) (FloatOps.subf (v0 (ix2 q j)) (broadcastTo S4096x128 v4 broadcasts_S1x128_S4096x128 (ix2 q j)))) (broadcastTo S4096x128 v10 broadcasts_S1x128_S4096x128 (ix2 q j))) (broadcastTo S4096x128 v14 broadcasts_S1x128_S4096x128 (ix2 q j))) (FloatOps.mulf (v18 (ix2 q j)) (Scalar.ofBits (F := F) .f32 0x3DCCCCCD#32)) = _
  rw [bcast_row7_apply, bcast_row7_apply, bcast_row7_apply, bcast_row7_apply]

/-- The printed index maps, decided over the grid: the blocks of rows move with the point, the one-row vectors stay. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

/-- An element of window 0's block at point `t` sits in the array at the block's first row plus its own row, same column. -/
theorem emb7_0_eq (t : Fin cfg7.N) (q : Fin 4096) (j : Fin 128) (r : Fin 65536) (hr : r.val = t.val * 4096 + q.val) :
    ((cfg7.win 0).blk t).view.emb (ix2 q j) = ix2 r j := by
  funext a; apply Fin.ext
  match a with
  | ⟨0, _⟩ => exact ((win7_0.rect_emb_val t (ix2 q j) (0 : Fin 2)).trans (by rw [(idx_facts7 t).1]; rfl)).trans hr.symm
  | ⟨1, _⟩ => exact win7_0.rect_emb_val_of_index_zero t (1 : Fin 2) (idx_facts7 t).2.1 (ix2 q j)

/-- An element of window 5's block at point `t` sits in the array at the block's first row plus its own row, same column. -/
theorem emb7_5_eq (t : Fin cfg7.N) (q : Fin 4096) (j : Fin 128) (r : Fin 65536) (hr : r.val = t.val * 4096 + q.val) :
    ((cfg7.win 5).blk t).view.emb (ix2 q j) = ix2 r j := by
  funext a; apply Fin.ext
  match a with
  | ⟨0, _⟩ => exact ((win7_5.rect_emb_val t (ix2 q j) (0 : Fin 2)).trans (by rw [(idx_facts7 t).2.2.2.2.2.2.2.2.2.2.1]; rfl)).trans hr.symm
  | ⟨1, _⟩ => exact win7_5.rect_emb_val_of_index_zero t (1 : Fin 2) (idx_facts7 t).2.2.2.2.2.2.2.2.2.2.2.1 (ix2 q j)

/-- An element of window 6's block at point `t` sits in the array at the block's first row plus its own row, same column. -/
theorem emb7_6_eq (t : Fin cfg7.N) (q : Fin 4096) (j : Fin 128) (r : Fin 65536) (hr : r.val = t.val * 4096 + q.val) :
    ((cfg7.win 6).blk t).view.emb (ix2 q j) = ix2 r j := by
  funext a; apply Fin.ext
  match a with
  | ⟨0, _⟩ => exact ((win7_6.rect_emb_val t (ix2 q j) (0 : Fin 2)).trans (by rw [(idx_facts7 t).2.2.2.2.2.2.2.2.2.2.2.2.1]; rfl)).trans hr.symm
  | ⟨1, _⟩ => exact win7_6.rect_emb_val_of_index_zero t (1 : Fin 2) (idx_facts7 t).2.2.2.2.2.2.2.2.2.2.2.2.2 (ix2 q j)

/-- Window 1's block is its whole one-row array at every point. -/
theorem emb7_1_eq (t : Fin cfg7.N) (j : Fin 128) : ((cfg7.win 1).blk t).view.emb (ix2 0 j) = ix2 0 j := by
  funext a; apply Fin.ext
  match a with
  | ⟨0, _⟩ => exact win7_1.rect_emb_val_of_index_zero t (0 : Fin 2) (idx_facts7 t).2.2.1 (ix2 0 j)
  | ⟨1, _⟩ => exact win7_1.rect_emb_val_of_index_zero t (1 : Fin 2) (idx_facts7 t).2.2.2.1 (ix2 0 j)

/-- Window 2's block is its whole one-row array at every point. -/
theorem emb7_2_eq (t : Fin cfg7.N) (j : Fin 128) : ((cfg7.win 2).blk t).view.emb (ix2 0 j) = ix2 0 j := by
  funext a; apply Fin.ext
  match a with
  | ⟨0, _⟩ => exact win7_2.rect_emb_val_of_index_zero t (0 : Fin 2) (idx_facts7 t).2.2.2.2.1 (ix2 0 j)
  | ⟨1, _⟩ => exact win7_2.rect_emb_val_of_index_zero t (1 : Fin 2) (idx_facts7 t).2.2.2.2.2.1 (ix2 0 j)

/-- Window 3's block is its whole one-row array at every point. -/
theorem emb7_3_eq (t : Fin cfg7.N) (j : Fin 128) : ((cfg7.win 3).blk t).view.emb (ix2 0 j) = ix2 0 j := by
  funext a; apply Fin.ext
  match a with
  | ⟨0, _⟩ => exact win7_3.rect_emb_val_of_index_zero t (0 : Fin 2) (idx_facts7 t).2.2.2.2.2.2.1 (ix2 0 j)
  | ⟨1, _⟩ => exact win7_3.rect_emb_val_of_index_zero t (1 : Fin 2) (idx_facts7 t).2.2.2.2.2.2.2.1 (ix2 0 j)

/-- Window 4's block is its whole one-row array at every point. -/
theorem emb7_4_eq (t : Fin cfg7.N) (j : Fin 128) : ((cfg7.win 4).blk t).view.emb (ix2 0 j) = ix2 0 j := by
  funext a; apply Fin.ext
  match a with
  | ⟨0, _⟩ => exact win7_4.rect_emb_val_of_index_zero t (0 : Fin 2) (idx_facts7 t).2.2.2.2.2.2.2.2.1 (ix2 0 j)
  | ⟨1, _⟩ => exact win7_4.rect_emb_val_of_index_zero t (1 : Fin 2) (idx_facts7 t).2.2.2.2.2.2.2.2.2.1 (ix2 0 j)

/-- Window 0's block at point `t`, entry by entry: the array's rows `4096 t …`. -/
theorem iblk7_0_apply (c : Dev nD) (t : Fin cfg7.N) (q : Fin 4096) (j : Fin 128) (r : Fin 65536) (hr : r.val = t.val * 4096 + q.val) :
    iblk7 V c 0 t (ix2 q j) = V c (Pipeline.arrRef spec7 0) (ix2 r j) := by
  show V c (Pipeline.arrRef spec7 0) (((cfg7.win 0).blk t).view.emb (ix2 q j)) = _
  rw [emb7_0_eq t q j r hr]

/-- Window 5's block at point `t`, entry by entry: the array's rows `4096 t …`. -/
theorem iblk7_5_apply (c : Dev nD) (t : Fin cfg7.N) (q : Fin 4096) (j : Fin 128) (r : Fin 65536) (hr : r.val = t.val * 4096 + q.val) :
    iblk7 V c 5 t (ix2 q j) = V c (Pipeline.arrRef spec7 5) (ix2 r j) := by
  show V c (Pipeline.arrRef spec7 5) (((cfg7.win 5).blk t).view.emb (ix2 q j)) = _
  rw [emb7_5_eq t q j r hr]

/-- Window 1's block at every point is its one-row array. -/
theorem iblk7_1_apply (c : Dev nD) (t : Fin cfg7.N) (j : Fin 128) :
    iblk7 V c 1 t (ix2 0 j) = V c (Pipeline.arrRef spec7 1) (ix2 0 j) := by
  show V c (Pipeline.arrRef spec7 1) (((cfg7.win 1).blk t).view.emb (ix2 0 j)) = _
  rw [emb7_1_eq t j]

/-- Window 2's block at every point is its one-row array. -/
theorem iblk7_2_apply (c : Dev nD) (t : Fin cfg7.N) (j : Fin 128) :
    iblk7 V c 2 t (ix2 0 j) = V c (Pipeline.arrRef spec7 2) (ix2 0 j) := by
  show V c (Pipeline.arrRef spec7 2) (((cfg7.win 2).blk t).view.emb (ix2 0 j)) = _
  rw [emb7_2_eq t j]

/-- Window 3's block at every point is its one-row array. -/
theorem iblk7_3_apply (c : Dev nD) (t : Fin cfg7.N) (j : Fin 128) :
    iblk7 V c 3 t (ix2 0 j) = V c (Pipeline.arrRef spec7 3) (ix2 0 j) := by
  show V c (Pipeline.arrRef spec7 3) (((cfg7.win 3).blk t).view.emb (ix2 0 j)) = _
  rw [emb7_3_eq t j]

/-- Window 4's block at every point is its one-row array. -/
theorem iblk7_4_apply (c : Dev nD) (t : Fin cfg7.N) (j : Fin 128) :
    iblk7 V c 4 t (ix2 0 j) = V c (Pipeline.arrRef spec7 4) (ix2 0 j) := by
  show V c (Pipeline.arrRef spec7 4) (((cfg7.win 4).blk t).view.emb (ix2 0 j)) = _
  rw [emb7_4_eq t j]

/-- What the body leaves in the output buffer is its one store's payload of the whole input buffers. -/
theorem out7_6_eq (x0 : Vec F S4096x128 .f32) (x1 x2 x3 x4 : Vec F S1x128 .f32) (x5 : Vec F S4096x128 .f32) : out7_6 x0 x1 x2 x3 x4 x5 = k7_pay1 x0 x3 x1 x2 x4 x5 := by
  unfold out7_6
  rw [View.canon_unit_zero hz7]
  simp only [View.ld_unit_zero (S := S4096x128) hz7, View.ld_unit_zero (S := S1x128) hz7]

set_option maxHeartbeats 1000000 in
/-- The payload of the blocks at point `t`, at row `q` and column `j`, is `G7` of the arrays at row `4096 t + q`. -/
theorem flushed7_apply (c : Dev nD) (t : Fin cfg7.N) (q : Fin 4096) (j : Fin 128) (r : Fin 65536) (hr : r.val = t.val * 4096 + q.val) :
    k7_pay1 (iblk7 V c 0 t) (iblk7 V c 3 t) (iblk7 V c 1 t) (iblk7 V c 2 t) (iblk7 V c 4 t) (iblk7 V c 5 t) (ix2 q j) = G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (ix2 r j) := by
  rw [pay7_apply, iblk7_0_apply V c t q j r hr, iblk7_5_apply V c t q j r hr, iblk7_1_apply V c t j, iblk7_2_apply V c t j, iblk7_3_apply V c t j, iblk7_4_apply V c t j]

set_option maxHeartbeats 1000000 in
/-- WHAT POINT `t` WRITES BACK is block `t` of `G7` of the arrays as the region finds them. -/
theorem flushed7_eq (c : Dev nD) (t : Fin cfg7.N) :
    (dat7 V c).flushed 6 t = ((cfg7.win 6).blk t).view.read (Elt F)
      (G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) := by
  show (cfg7.win 6).cut (grid7.coords t) ((dat7 V c).after 6 t) = _
  rw [after7_6, out7_6_eq]
  funext y
  obtain ⟨q, j, rfl⟩ : ∃ (q : Fin 4096) (j : Fin 128), y = ix2 q j := ⟨y 0, y 1, eq_ix2 y⟩
  have ht : t.val < grid7.N := t.isLt
  rw [N_7] at ht
  have hr : t.val * 4096 + q.val < 65536 := by have := q.isLt; omega
  refine (flushed7_apply V c t q j ⟨t.val * 4096 + q.val, hr⟩ rfl).trans ?_
  exact (congrArg (G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) (emb7_6_eq t q j ⟨t.val * 4096 + q.val, hr⟩ rfl)).symm

/-- Every entry of the output array is in some point's block: row `r` in the block of point `r / 4096`. -/
theorem cover7 (i : S65536x128.Idx) :
    ∃ t : Fin cfg7.N, (cfg7.win 6).flush t = true ∧ i ∈ ((cfg7.win 6).blk t).view.set := by
  have hi0 : (i 0).val < 65536 := (i 0).isLt
  have hN : grid7.N = 16 := N_7
  let t : Fin cfg7.N := ⟨(i 0).val / 4096, by show (i 0).val / 4096 < grid7.N; rw [hN]; omega⟩
  have htv : t.val = (i 0).val / 4096 := rfl
  refine ⟨t, flush7_6 t, ?_⟩
  have hmem := View.emb_mem_set ((cfg7.win 6).blk t).view (ix2 (⟨(i 0).val % 4096, Nat.mod_lt _ (by decide)⟩ : Fin 4096) (i 1))
  have e : ((cfg7.win 6).blk t).view.emb (ix2 (⟨(i 0).val % 4096, Nat.mod_lt _ (by decide)⟩ : Fin 4096) (i 1)) = i :=
    (emb7_6_eq t ⟨(i 0).val % 4096, Nat.mod_lt _ (by decide)⟩ (i 1) (i 0) (by rw [htv]; show (i 0).val = (i 0).val / 4096 * 4096 + (i 0).val % 4096; omega)).trans (eq_ix2 i).symm
  rw [e] at hmem
  exact hmem

/-- THE OUTPUT ARRAY after the run: `G7` of the arrays as the region finds them. -/
theorem final7 (c : Dev nD) : (dat7 V c).arrAt 6 cfg7.N = G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) :=
  (dat7 V c).arrAt_eq_of_cover 6 _ (fun t _ => flushed7_eq V c t) cover7

end Cert.Kernel.Hand

end
-- ==== Proof.HandK.P2v9.lean ====
import proofs.«103476_j5987184410999_2_alg».proof.Proof.HandK.P2r9
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window)

variable {F : FTy → Type} [FloatOps F]

-- the TensorCore's buffer contents when the region is entered
variable (V : (c : Dev nD) → (b : Ref sig .tc) → Buf (Elt F) ((c : Thread nD τ).loc b))

/-! # REGION 9: the proof data read as relational data -/

/-- The body obligation of the exact data read relationally. -/
theorem bodyR9 (c : Dev nD) : ((dat9 (F := F) V c).toR).BodyObligation (defs₀ (F := F)) Variants.none () Set.univ :=
  (body_obligation9 V c).toR

/-- What an array may hold after all the write-backs, of the exact data, is what the data names. -/
theorem arrAtR9 (c : Dev nD) (w : Fin cfg9.W) (G : Buf (Elt F) ((cfg9.win w).arr.view.loc (c.tc : Thread nD τ))) :
    ((dat9 V c).toR).ArrAt w cfg9.N G ↔ G = (dat9 V c).arrAt w cfg9.N :=
  (dat9 V c).toR_arrAt_iff w cfg9.N G

/-- Every window's array is held at the full share. -/
theorem shareR9 (c : Dev nD) (w : Fin cfg9.W) : ((dat9 V c).toR).share w = fullShare := by
  rw [Dat.toR_share]; unfold Dat.share; split <;> rfl

/-- The invariant, what is owed and what is recorded are the class's: the scoped rest, nothing, everything. -/
theorem ΦR9 (c : Dev nD) (t : Fin (cfg9.N + 1)) : ((dat9 V c).toR).Φ t = Pipeline.ΦA spec9 c := rfl
theorem owedR9 (c : Dev nD) (t : Fin (cfg9.N + 1)) : ((dat9 V c).toR).owed t = 0 := rfl
theorem recR9 (c : Dev nD) (t : Fin (cfg9.N + 1)) : ((dat9 V c).toR).recorded t = Set.univ := rfl

/-! # REGION 9: the arrays after the run -/

/-- An input window's array is never written: it holds the entry contents. -/
theorem arr_in9 (c : Dev nD) (w : Fin cfg9.W) (hw : (cfg9.win w).isOut = false) :
    (dat9 V c).arrAt w cfg9.N = V c (Pipeline.arrRef spec9 w) :=
  ((dat9 V c).arrAt_in w hw cfg9.N).trans (A_eq9 V c w)

theorem hz9 : (![0, 0] : Fin 2 → Nat) = fun _ => 0 := funext fun a => by fin_cases a <;> rfl

/-- What the output array ends holding, entry by entry: the scale times the centred entry, times the inverse
    deviation, plus the shift, plus the noise entry times the literal — the per-column vectors read at their one row; the operations in the body's order. -/
abbrev G9 (a0 : S65536x128.Idx → Elt F .f32) (a1 a2 a3 a4 : S1x128.Idx → Elt F .f32) (a5 : S65536x128.Idx → Elt F .f32) : S65536x128.Idx → Elt F .f32 :=
  fun i => FloatOps.addf (FloatOps.addf (FloatOps.mulf (FloatOps.mulf (a3 (ix2 0 (i 1))) (FloatOps.subf (a0 i) (a1 (ix2 0 (i 1))))) (a2 (ix2 0 (i 1)))) (a4 (ix2 0 (i 1)))) (FloatOps.mulf (a5 i) (Scalar.ofBits (F := F) .f32 0x3DCCCCCD#32))

/-- A one-row vector broadcast down the rows reads, at row `q` and column `j`, its entry at column `j`. -/
theorem bcast_row9_apply (x : Vec F S1x128 .f32) (q : Fin 4096) (j : Fin 128) :
    broadcastTo S4096x128 x broadcasts_S1x128_S4096x128 (ix2 q j) = x (ix2 0 j) := by
  refine broadcastTo_apply x broadcasts_S1x128_S4096x128 (ix2 q j) (ix2 0 j) (fun a => ?_)
  match a with
  | ⟨0, _⟩ => rfl
  | ⟨1, _⟩ => rfl

/-- The body's payload at row `q`, column `j` of the block. -/
theorem pay9_apply (v0 : Vec F S4096x128 .f32) (v2 v4 v10 v14 : Vec F S1x128 .f32) (v18 : Vec F S4096x128 .f32) (q : Fin 4096) (j : Fin 128) :
    k9_pay1 v0 v2 v4 v10 v14 v18 (ix2 q j)
      = FloatOps.addf (FloatOps.addf (FloatOps.mulf (FloatOps.mulf (v2 (ix2 0 j)) (FloatOps.subf (v0 (ix2 q j)) (v4 (ix2 0 j)))) (v10 (ix2 0 j))) (v14 (ix2 0 j))) (FloatOps.mulf (v18 (ix2 q j)) (Scalar.ofBits (F := F) .f32 0x3DCCCCCD#32)) := by
  unfold k9_pay1
  simp only [shapeCast_self]
  show FloatOps.addf (FloatOps.addf (FloatOps.mulf (FloatOps.mulf (broadcastTo S4096x128 v2 broadcasts_S1x128_S4096x128 (ix2 q j)) (FloatOps.subf (v0 (ix2 q j)) (broadcastTo S4096x128 v4 broadcasts_S1x128_S4096x128 (ix2 q j)))) (broadcastTo S4096x128 v10 broadcasts_S1x128_S4096x128 (ix2 q j))) (broadcastTo S4096x128 v14 broadcasts_S1x128_S4096x128 (ix2 q j))) (FloatOps.mulf (v18 (ix2 q j)) (Scalar.ofBits (F := F) .f32 0x3DCCCCCD#32)) = _
  rw [bcast_row9_apply, bcast_row9_apply, bcast_row9_apply, bcast_row9_apply]

/-- The printed index maps, decided over the grid: the blocks of rows move with the point, the one-row vectors stay. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0
    ∧ win9_6.index t (0 : Fin 2) = t.val ∧ win9_6.index t (1 : Fin 2) = 0 :=
  (by decide +kernel : ∀ t : Fin grid9.N, _)

/-- An element of window 0's block at point `t` sits in the array at the block's first row plus its own row, same column. -/
theorem emb9_0_eq (t : Fin cfg9.N) (q : Fin 4096) (j : Fin 128) (r : Fin 65536) (hr : r.val = t.val * 4096 + q.val) :
    ((cfg9.win 0).blk t).view.emb (ix2 q j) = ix2 r j := by
  funext a; apply Fin.ext
  match a with
  | ⟨0, _⟩ => exact ((win9_0.rect_emb_val t (ix2 q j) (0 : Fin 2)).trans (by rw [(idx_facts9 t).1]; rfl)).trans hr.symm
  | ⟨1, _⟩ => exact win9_0.rect_emb_val_of_index_zero t (1 : Fin 2) (idx_facts9 t).2.1 (ix2 q j)

/-- An element of window 5's block at point `t` sits in the array at the block's first row plus its own row, same column. -/
theorem emb9_5_eq (t : Fin cfg9.N) (q : Fin 4096) (j : Fin 128) (r : Fin 65536) (hr : r.val = t.val * 4096 + q.val) :
    ((cfg9.win 5).blk t).view.emb (ix2 q j) = ix2 r j := by
  funext a; apply Fin.ext
  match a with
  | ⟨0, _⟩ => exact ((win9_5.rect_emb_val t (ix2 q j) (0 : Fin 2)).trans (by rw [(idx_facts9 t).2.2.2.2.2.2.2.2.2.2.1]; rfl)).trans hr.symm
  | ⟨1, _⟩ => exact win9_5.rect_emb_val_of_index_zero t (1 : Fin 2) (idx_facts9 t).2.2.2.2.2.2.2.2.2.2.2.1 (ix2 q j)

/-- An element of window 6's block at point `t` sits in the array at the block's first row plus its own row, same column. -/
theorem emb9_6_eq (t : Fin cfg9.N) (q : Fin 4096) (j : Fin 128) (r : Fin 65536) (hr : r.val = t.val * 4096 + q.val) :
    ((cfg9.win 6).blk t).view.emb (ix2 q j) = ix2 r j := by
  funext a; apply Fin.ext
  match a with
  | ⟨0, _⟩ => exact ((win9_6.rect_emb_val t (ix2 q j) (0 : Fin 2)).trans (by rw [(idx_facts9 t).2.2.2.2.2.2.2.2.2.2.2.2.1]; rfl)).trans hr.symm
  | ⟨1, _⟩ => exact win9_6.rect_emb_val_of_index_zero t (1 : Fin 2) (idx_facts9 t).2.2.2.2.2.2.2.2.2.2.2.2.2 (ix2 q j)

/-- Window 1's block is its whole one-row array at every point. -/
theorem emb9_1_eq (t : Fin cfg9.N) (j : Fin 128) : ((cfg9.win 1).blk t).view.emb (ix2 0 j) = ix2 0 j := by
  funext a; apply Fin.ext
  match a with
  | ⟨0, _⟩ => exact win9_1.rect_emb_val_of_index_zero t (0 : Fin 2) (idx_facts9 t).2.2.1 (ix2 0 j)
  | ⟨1, _⟩ => exact win9_1.rect_emb_val_of_index_zero t (1 : Fin 2) (idx_facts9 t).2.2.2.1 (ix2 0 j)

/-- Window 2's block is its whole one-row array at every point. -/
theorem emb9_2_eq (t : Fin cfg9.N) (j : Fin 128) : ((cfg9.win 2).blk t).view.emb (ix2 0 j) = ix2 0 j := by
  funext a; apply Fin.ext
  match a with
  | ⟨0, _⟩ => exact win9_2.rect_emb_val_of_index_zero t (0 : Fin 2) (idx_facts9 t).2.2.2.2.1 (ix2 0 j)
  | ⟨1, _⟩ => exact win9_2.rect_emb_val_of_index_zero t (1 : Fin 2) (idx_facts9 t).2.2.2.2.2.1 (ix2 0 j)

/-- Window 3's block is its whole one-row array at every point. -/
theorem emb9_3_eq (t : Fin cfg9.N) (j : Fin 128) : ((cfg9.win 3).blk t).view.emb (ix2 0 j) = ix2 0 j := by
  funext a; apply Fin.ext
  match a with
  | ⟨0, _⟩ => exact win9_3.rect_emb_val_of_index_zero t (0 : Fin 2) (idx_facts9 t).2.2.2.2.2.2.1 (ix2 0 j)
  | ⟨1, _⟩ => exact win9_3.rect_emb_val_of_index_zero t (1 : Fin 2) (idx_facts9 t).2.2.2.2.2.2.2.1 (ix2 0 j)

/-- Window 4's block is its whole one-row array at every point. -/
theorem emb9_4_eq (t : Fin cfg9.N) (j : Fin 128) : ((cfg9.win 4).blk t).view.emb (ix2 0 j) = ix2 0 j := by
  funext a; apply Fin.ext
  match a with
  | ⟨0, _⟩ => exact win9_4.rect_emb_val_of_index_zero t (0 : Fin 2) (idx_facts9 t).2.2.2.2.2.2.2.2.1 (ix2 0 j)
  | ⟨1, _⟩ => exact win9_4.rect_emb_val_of_index_zero t (1 : Fin 2) (idx_facts9 t).2.2.2.2.2.2.2.2.2.1 (ix2 0 j)

/-- Window 0's block at point `t`, entry by entry: the array's rows `4096 t …`. -/
theorem iblk9_0_apply (c : Dev nD) (t : Fin cfg9.N) (q : Fin 4096) (j : Fin 128) (r : Fin 65536) (hr : r.val = t.val * 4096 + q.val) :
    iblk9 V c 0 t (ix2 q j) = V c (Pipeline.arrRef spec9 0) (ix2 r j) := by
  show V c (Pipeline.arrRef spec9 0) (((cfg9.win 0).blk t).view.emb (ix2 q j)) = _
  rw [emb9_0_eq t q j r hr]

/-- Window 5's block at point `t`, entry by entry: the array's rows `4096 t …`. -/
theorem iblk9_5_apply (c : Dev nD) (t : Fin cfg9.N) (q : Fin 4096) (j : Fin 128) (r : Fin 65536) (hr : r.val = t.val * 4096 + q.val) :
    iblk9 V c 5 t (ix2 q j) = V c (Pipeline.arrRef spec9 5) (ix2 r j) := by
  show V c (Pipeline.arrRef spec9 5) (((cfg9.win 5).blk t).view.emb (ix2 q j)) = _
  rw [emb9_5_eq t q j r hr]

/-- Window 1's block at every point is its one-row array. -/
theorem iblk9_1_apply (c : Dev nD) (t : Fin cfg9.N) (j : Fin 128) :
    iblk9 V c 1 t (ix2 0 j) = V c (Pipeline.arrRef spec9 1) (ix2 0 j) := by
  show V c (Pipeline.arrRef spec9 1) (((cfg9.win 1).blk t).view.emb (ix2 0 j)) = _
  rw [emb9_1_eq t j]

/-- Window 2's block at every point is its one-row array. -/
theorem iblk9_2_apply (c : Dev nD) (t : Fin cfg9.N) (j : Fin 128) :
    iblk9 V c 2 t (ix2 0 j) = V c (Pipeline.arrRef spec9 2) (ix2 0 j) := by
  show V c (Pipeline.arrRef spec9 2) (((cfg9.win 2).blk t).view.emb (ix2 0 j)) = _
  rw [emb9_2_eq t j]

/-- Window 3's block at every point is its one-row array. -/
theorem iblk9_3_apply (c : Dev nD) (t : Fin cfg9.N) (j : Fin 128) :
    iblk9 V c 3 t (ix2 0 j) = V c (Pipeline.arrRef spec9 3) (ix2 0 j) := by
  show V c (Pipeline.arrRef spec9 3) (((cfg9.win 3).blk t).view.emb (ix2 0 j)) = _
  rw [emb9_3_eq t j]

/-- Window 4's block at every point is its one-row array. -/
theorem iblk9_4_apply (c : Dev nD) (t : Fin cfg9.N) (j : Fin 128) :
    iblk9 V c 4 t (ix2 0 j) = V c (Pipeline.arrRef spec9 4) (ix2 0 j) := by
  show V c (Pipeline.arrRef spec9 4) (((cfg9.win 4).blk t).view.emb (ix2 0 j)) = _
  rw [emb9_4_eq t j]

/-- What the body leaves in the output buffer is its one store's payload of the whole input buffers. -/
theorem out9_6_eq (x0 : Vec F S4096x128 .f32) (x1 x2 x3 x4 : Vec F S1x128 .f32) (x5 : Vec F S4096x128 .f32) : out9_6 x0 x1 x2 x3 x4 x5 = k9_pay1 x0 x3 x1 x2 x4 x5 := by
  unfold out9_6
  rw [View.canon_unit_zero hz9]
  simp only [View.ld_unit_zero (S := S4096x128) hz9, View.ld_unit_zero (S := S1x128) hz9]

set_option maxHeartbeats 1000000 in
/-- The payload of the blocks at point `t`, at row `q` and column `j`, is `G9` of the arrays at row `4096 t + q`. -/
theorem flushed9_apply (c : Dev nD) (t : Fin cfg9.N) (q : Fin 4096) (j : Fin 128) (r : Fin 65536) (hr : r.val = t.val * 4096 + q.val) :
    k9_pay1 (iblk9 V c 0 t) (iblk9 V c 3 t) (iblk9 V c 1 t) (iblk9 V c 2 t) (iblk9 V c 4 t) (iblk9 V c 5 t) (ix2 q j) = G9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (ix2 r j) := by
  rw [pay9_apply, iblk9_0_apply V c t q j r hr, iblk9_5_apply V c t q j r hr, iblk9_1_apply V c t j, iblk9_2_apply V c t j, iblk9_3_apply V c t j, iblk9_4_apply V c t j]

set_option maxHeartbeats 1000000 in
/-- WHAT POINT `t` WRITES BACK is block `t` of `G9` of the arrays as the region finds them. -/
theorem flushed9_eq (c : Dev nD) (t : Fin cfg9.N) :
    (dat9 V c).flushed 6 t = ((cfg9.win 6).blk t).view.read (Elt F)
      (G9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))) := by
  show (cfg9.win 6).cut (grid9.coords t) ((dat9 V c).after 6 t) = _
  rw [after9_6, out9_6_eq]
  funext y
  obtain ⟨q, j, rfl⟩ : ∃ (q : Fin 4096) (j : Fin 128), y = ix2 q j := ⟨y 0, y 1, eq_ix2 y⟩
  have ht : t.val < grid9.N := t.isLt
  rw [N_9] at ht
  have hr : t.val * 4096 + q.val < 65536 := by have := q.isLt; omega
  refine (flushed9_apply V c t q j ⟨t.val * 4096 + q.val, hr⟩ rfl).trans ?_
  exact (congrArg (G9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))) (emb9_6_eq t q j ⟨t.val * 4096 + q.val, hr⟩ rfl)).symm

/-- Every entry of the output array is in some point's block: row `r` in the block of point `r / 4096`. -/
theorem cover9 (i : S65536x128.Idx) :
    ∃ t : Fin cfg9.N, (cfg9.win 6).flush t = true ∧ i ∈ ((cfg9.win 6).blk t).view.set := by
  have hi0 : (i 0).val < 65536 := (i 0).isLt
  have hN : grid9.N = 16 := N_9
  let t : Fin cfg9.N := ⟨(i 0).val / 4096, by show (i 0).val / 4096 < grid9.N; rw [hN]; omega⟩
  have htv : t.val = (i 0).val / 4096 := rfl
  refine ⟨t, flush9_6 t, ?_⟩
  have hmem := View.emb_mem_set ((cfg9.win 6).blk t).view (ix2 (⟨(i 0).val % 4096, Nat.mod_lt _ (by decide)⟩ : Fin 4096) (i 1))
  have e : ((cfg9.win 6).blk t).view.emb (ix2 (⟨(i 0).val % 4096, Nat.mod_lt _ (by decide)⟩ : Fin 4096) (i 1)) = i :=
    (emb9_6_eq t ⟨(i 0).val % 4096, Nat.mod_lt _ (by decide)⟩ (i 1) (i 0) (by rw [htv]; show (i 0).val = (i 0).val / 4096 * 4096 + (i 0).val % 4096; omega)).trans (eq_ix2 i).symm
  rw [e] at hmem
  exact hmem

/-- THE OUTPUT ARRAY after the run: `G9` of the arrays as the region finds them. -/
theorem final9 (c : Dev nD) : (dat9 V c).arrAt 6 cfg9.N = G9 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) :=
  (dat9 V c).arrAt_eq_of_cover 6 _ (fun t _ => flushed9_eq V c t) cover9

end Cert.Kernel.Hand

end
-- ==== Proof.HandK.Chain.lean ====
/-
  The invariant of Hand/ChainDefs.lean holds at launch and is carried on by every host stretch and every kernel region; hence the run
  (Hand/Run.lean) ends at contents satisfying it at the last boundary, and the argument arrays end as launched.
-/
import proofs.«103476_j5987184410999_2_alg».proof.Proof.HandK.ChainDefs
import proofs.«103476_j5987184410999_2_alg».proof.Proof.HandK.Run
import proofs.«103476_j5987184410999_2_alg».proof.Proof.HandK.AgreeOps
import proofs.«103476_j5987184410999_2_alg».proof.Proof.HandK.P2v1
import proofs.«103476_j5987184410999_2_alg».proof.Proof.HandK.P2v3
import proofs.«103476_j5987184410999_2_alg».proof.Proof.HandK.P2v5
import proofs.«103476_j5987184410999_2_alg».proof.Proof.HandK.P2v7
import proofs.«103476_j5987184410999_2_alg».proof.Proof.HandK.P2v9

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf BodyObligation)

variable {F : FTy → Type} [FloatOps F]

variable (m : (ℓ : Loc nD τ sig) → Buf (Elt F) ℓ)

/-! ## The launch, the host stretches -/

theorem inv0 (c : Dev nD) : Inv m 0 c (fun b => m (c, b)) := ⟨Agree.refl _, fun _ _ => rfl⟩

theorem jrestH0 : ∀ s ∈ (Jrest 1 : List (Ref sig .tc)), s ∉ hostOps0_W := by decide
theorem invH0 (c : Dev nD) (V : Valuation τ sig (Elt F)) (h : Inv m 0 c V) : Inv m 1 c (StableHlo.after hostOps0 V) :=
  ⟨hostOps0_agree V _ h.1, fun s hs =>
    (StableHlo.after_of_writes_sub hostOps0 V hostOps0_writes (jrestH0 s hs)).trans
      ((h.2 s hs).trans (StableHlo.after_of_writes_sub hostOps0 (W0 m c) hostOps0_writes (jrestH0 s hs)).symm)⟩

theorem jrestH1 : ∀ s ∈ (Jrest 3 : List (Ref sig .tc)), s ∉ hostOps1_W := by decide
theorem invH1 (c : Dev nD) (V : Valuation τ sig (Elt F)) (h : Inv m 2 c V) : Inv m 3 c (StableHlo.after hostOps1 V) :=
  ⟨hostOps1_agree V _ h.1, fun s hs =>
    (StableHlo.after_of_writes_sub hostOps1 V hostOps1_writes (jrestH1 s hs)).trans
      ((h.2 s hs).trans (StableHlo.after_of_writes_sub hostOps1 (W2 m c) hostOps1_writes (jrestH1 s hs)).symm)⟩

theorem jrestH2 : ∀ s ∈ (Jrest 5 : List (Ref sig .tc)), s ∉ hostOps2_W := by decide
theorem invH2 (c : Dev nD) (V : Valuation τ sig (Elt F)) (h : Inv m 4 c V) : Inv m 5 c (StableHlo.after hostOps2 V) :=
  ⟨hostOps2_agree V _ h.1, fun s hs =>
    (StableHlo.after_of_writes_sub hostOps2 V hostOps2_writes (jrestH2 s hs)).trans
      ((h.2 s hs).trans (StableHlo.after_of_writes_sub hostOps2 (W4 m c) hostOps2_writes (jrestH2 s hs)).symm)⟩

theorem jrestH3 : ∀ s ∈ (Jrest 7 : List (Ref sig .tc)), s ∉ hostOps3_W := by decide
theorem invH3 (c : Dev nD) (V : Valuation τ sig (Elt F)) (h : Inv m 6 c V) : Inv m 7 c (StableHlo.after hostOps3 V) :=
  ⟨hostOps3_agree V _ h.1, fun s hs =>
    (StableHlo.after_of_writes_sub hostOps3 V hostOps3_writes (jrestH3 s hs)).trans
      ((h.2 s hs).trans (StableHlo.after_of_writes_sub hostOps3 (W6 m c) hostOps3_writes (jrestH3 s hs)).symm)⟩

theorem jrestH4 : ∀ s ∈ (Jrest 9 : List (Ref sig .tc)), s ∉ hostOps4_W := by decide
theorem invH4 (c : Dev nD) (V : Valuation τ sig (Elt F)) (h : Inv m 8 c V) : Inv m 9 c (StableHlo.after hostOps4 V) :=
  ⟨hostOps4_agree V _ h.1, fun s hs =>
    (StableHlo.after_of_writes_sub hostOps4 V hostOps4_writes (jrestH4 s hs)).trans
      ((h.2 s hs).trans (StableHlo.after_of_writes_sub hostOps4 (W8 m c) hostOps4_writes (jrestH4 s hs)).symm)⟩

theorem jrestH5 : ∀ s ∈ (Jrest 11 : List (Ref sig .tc)), s ∉ hostOps5_W := by decide
theorem invH5 (c : Dev nD) (V : Valuation τ sig (Elt F)) (h : Inv m 10 c V) : Inv m 11 c (StableHlo.after hostOps5 V) :=
  ⟨hostOps5_agree V _ h.1, fun s hs =>
    (StableHlo.after_of_writes_sub hostOps5 V hostOps5_writes (jrestH5 s hs)).trans
      ((h.2 s hs).trans (StableHlo.after_of_writes_sub hostOps5 (W10 m c) hostOps5_writes (jrestH5 s hs)).symm)⟩

theorem jrestH6 : ∀ s ∈ (Jrest 13 : List (Ref sig .tc)), s ∉ hostOps6_W := by decide
theorem invH6 (c : Dev nD) (V : Valuation τ sig (Elt F)) (h : Inv m 12 c V) : Inv m 13 c (StableHlo.after hostOps6 V) :=
  ⟨hostOps6_agree V _ h.1, fun s hs =>
    (StableHlo.after_of_writes_sub hostOps6 V hostOps6_writes (jrestH6 s hs)).trans
      ((h.2 s hs).trans (StableHlo.after_of_writes_sub hostOps6 (W12 m c) hostOps6_writes (jrestH6 s hs)).symm)⟩

theorem jrestH7 : ∀ s ∈ (Jrest 15 : List (Ref sig .tc)), s ∉ hostOps7_W := by decide
theorem invH7 (c : Dev nD) (V : Valuation τ sig (Elt F)) (h : Inv m 14 c V) : Inv m 15 c (StableHlo.after hostOps7 V) :=
  ⟨hostOps7_agree V _ h.1, fun s hs =>
    (StableHlo.after_of_writes_sub hostOps7 V hostOps7_writes (jrestH7 s hs)).trans
      ((h.2 s hs).trans (StableHlo.after_of_writes_sub hostOps7 (W14 m c) hostOps7_writes (jrestH7 s hs)).symm)⟩

theorem jrestH8 : ∀ s ∈ (Jrest 17 : List (Ref sig .tc)), s ∉ hostOps8_W := by decide
theorem invH8 (c : Dev nD) (V : Valuation τ sig (Elt F)) (h : Inv m 16 c V) : Inv m 17 c (StableHlo.after hostOps8 V) :=
  ⟨hostOps8_agree V _ h.1, fun s hs =>
    (StableHlo.after_of_writes_sub hostOps8 V hostOps8_writes (jrestH8 s hs)).trans
      ((h.2 s hs).trans (StableHlo.after_of_writes_sub hostOps8 (W16 m c) hostOps8_writes (jrestH8 s hs)).symm)⟩

theorem jrestH9 : ∀ s ∈ (Jrest 19 : List (Ref sig .tc)), s ∉ hostOps9_W := by decide
theorem invH9 (c : Dev nD) (V : Valuation τ sig (Elt F)) (h : Inv m 18 c V) : Inv m 19 c (StableHlo.after hostOps9 V) :=
  ⟨hostOps9_agree V _ h.1, fun s hs =>
    (StableHlo.after_of_writes_sub hostOps9 V hostOps9_writes (jrestH9 s hs)).trans
      ((h.2 s hs).trans (StableHlo.after_of_writes_sub hostOps9 (W18 m c) hostOps9_writes (jrestH9 s hs)).symm)⟩

/-! ## The regions -/

theorem jneR0 : ∀ s ∈ (Jrest 2 : List (Ref sig .tc)), ∀ w : Fin cfg0.W, Pipeline.arrRef spec0 w ≠ s := by decide
theorem jsubR0 : ∀ s ∈ (Jrest 2 : List (Ref sig .tc)), s ∈ (Jrest 1 : List (Ref sig .tc)) := by decide
theorem jA0 : ∀ w : Fin cfg0.W, Pipeline.arrRef spec0 w ∈ (Jl : List (Ref sig .tc)) → Pipeline.arrRef spec0 w ∈ (Jrest 1 : List (Ref sig .tc)) := by decide
theorem invA0 (c : Dev nD) (V : Valuation τ sig (Elt F)) (h : Inv m 1 c V) (w : Fin cfg0.W) :
    (rdats m 0 c).A w = V (Pipeline.arrRef spec0 w) := by
  refine (rdat0_A (E0 m) c w).trans ?_
  show W1 m c (Pipeline.arrRef spec0 w) = V (Pipeline.arrRef spec0 w)
  by_cases hJ : Pipeline.arrRef spec0 w ∈ (Jl : List (Ref sig .tc))
  · exact (h.2 _ (jA0 w hJ)).symm
  · exact (h.1.off _ hJ).symm
set_option maxHeartbeats 2000000 in
theorem GAin0 (c : Dev nD) (w : Fin cfg0.W) (hw : w.val < 5) : GA0 m c w = W1 m c (Pipeline.arrRef spec0 w) := by
  obtain ⟨k, hk⟩ := w
  have hk' : k < 5 := hw
  interval_cases k <;> rfl
theorem wcase0 : ∀ w : Fin cfg0.W, ¬ w.val < 5 → w ≠ 6 → w ≠ 7 → w = 5 := by decide
set_option maxHeartbeats 2000000 in
theorem invS0 (c : Dev nD) (V : Valuation τ sig (Elt F)) (h : Inv m 1 c V)
    (G : (w : Fin cfg0.W) → Buf (Elt F) ((cfg0.win w).arr.view.loc (c.tc : Thread nD τ)))
    (hG : ∀ w, (rdats m 0 c).ArrAt w cfg0.N (G w)) : Inv m 2 c (Pipeline.withArrays spec0 c V G) :=
  ⟨withArrays_agree0 c V (W1 m c) G (GA0 m c) h.1
      (fun w h1 h2 => by
        by_cases hw : w.val < 5
        · exact (arrAt0_in (E0 m) c w hw _ (hG w)).trans (GAin0 m c w hw).symm
        · obtain rfl := wcase0 w hw h1 h2
          exact arrAt0_5 (E0 m) c _ (hG 5))
      (arrAt0_6 (E0 m) c _ (hG 6)) (arrAt0_7 (E0 m) c _ (hG 7)),
    fun s hs => (Pipeline.withArrays_of_ne spec0 c V G s (jneR0 s hs)).trans
      ((h.2 s (jsubR0 s hs)).trans (Pipeline.withArrays_of_ne spec0 c (W1 m c) (GA0 m c) s (jneR0 s hs)).symm)⟩

theorem jneR1 : ∀ s ∈ (Jrest 4 : List (Ref sig .tc)), ∀ w : Fin cfg1.W, Pipeline.arrRef spec1 w ≠ s := by decide
theorem jsubR1 : ∀ s ∈ (Jrest 4 : List (Ref sig .tc)), s ∈ (Jrest 3 : List (Ref sig .tc)) := by decide
theorem nJ1 : ∀ w : Fin cfg1.W, Pipeline.arrRef spec1 w ∉ (Jl : List (Ref sig .tc)) := by decide
theorem invA1 (c : Dev nD) (V : Valuation τ sig (Elt F)) (h : Inv m 3 c V) (w : Fin cfg1.W) :
    (rdats m 1 c).A w = V (Pipeline.arrRef spec1 w) := by
  refine (A_eq1 (E1 m) c w).trans ?_
  show W3 m c (Pipeline.arrRef spec1 w) = V (Pipeline.arrRef spec1 w)
  exact (h.1.off _ (nJ1 w)).symm
set_option maxHeartbeats 2000000 in
theorem invS1 (c : Dev nD) (V : Valuation τ sig (Elt F)) (h : Inv m 3 c V)
    (G : (w : Fin cfg1.W) → Buf (Elt F) ((cfg1.win w).arr.view.loc (c.tc : Thread nD τ)))
    (hG : ∀ w, (rdats m 1 c).ArrAt w cfg1.N (G w)) : Inv m 4 c (Pipeline.withArrays spec1 c V G) :=
  ⟨withArrays_agree_off spec1 launch1.win.arr_inj c V (W3 m c) G (GA1 m c) h.1
      (fun w => (arrAtR1 (E1 m) c w (G w)).mp (hG w)),
    fun s hs => (Pipeline.withArrays_of_ne spec1 c V G s (jneR1 s hs)).trans
      ((h.2 s (jsubR1 s hs)).trans (Pipeline.withArrays_of_ne spec1 c (W3 m c) (GA1 m c) s (jneR1 s hs)).symm)⟩

theorem jneR2 : ∀ s ∈ (Jrest 6 : List (Ref sig .tc)), ∀ w : Fin cfg2.W, Pipeline.arrRef spec2 w ≠ s := by decide
theorem jsubR2 : ∀ s ∈ (Jrest 6 : List (Ref sig .tc)), s ∈ (Jrest 5 : List (Ref sig .tc)) := by decide
theorem jA2 : ∀ w : Fin cfg2.W, Pipeline.arrRef spec2 w ∈ (Jl : List (Ref sig .tc)) → Pipeline.arrRef spec2 w ∈ (Jrest 5 : List (Ref sig .tc)) := by decide
theorem invA2 (c : Dev nD) (V : Valuation τ sig (Elt F)) (h : Inv m 5 c V) (w : Fin cfg2.W) :
    (rdats m 2 c).A w = V (Pipeline.arrRef spec2 w) := by
  refine (rdat2_A (E2 m) c w).trans ?_
  show W5 m c (Pipeline.arrRef spec2 w) = V (Pipeline.arrRef spec2 w)
  by_cases hJ : Pipeline.arrRef spec2 w ∈ (Jl : List (Ref sig .tc))
  · exact (h.2 _ (jA2 w hJ)).symm
  · exact (h.1.off _ hJ).symm
set_option maxHeartbeats 2000000 in
theorem GAin2 (c : Dev nD) (w : Fin cfg2.W) (hw : w.val < 5) : GA2 m c w = W5 m c (Pipeline.arrRef spec2 w) := by
  obtain ⟨k, hk⟩ := w
  have hk' : k < 5 := hw
  interval_cases k <;> rfl
theorem wcase2 : ∀ w : Fin cfg2.W, ¬ w.val < 5 → w ≠ 6 → w ≠ 7 → w = 5 := by decide
set_option maxHeartbeats 2000000 in
theorem invS2 (c : Dev nD) (V : Valuation τ sig (Elt F)) (h : Inv m 5 c V)
    (G : (w : Fin cfg2.W) → Buf (Elt F) ((cfg2.win w).arr.view.loc (c.tc : Thread nD τ)))
    (hG : ∀ w, (rdats m 2 c).ArrAt w cfg2.N (G w)) : Inv m 6 c (Pipeline.withArrays spec2 c V G) :=
  ⟨withArrays_agree2 c V (W5 m c) G (GA2 m c) h.1
      (fun w h1 h2 => by
        by_cases hw : w.val < 5
        · exact (arrAt2_in (E2 m) c w hw _ (hG w)).trans (GAin2 m c w hw).symm
        · obtain rfl := wcase2 w hw h1 h2
          exact arrAt2_5 (E2 m) c _ (hG 5))
      (arrAt2_6 (E2 m) c _ (hG 6)) (arrAt2_7 (E2 m) c _ (hG 7)),
    fun s hs => (Pipeline.withArrays_of_ne spec2 c V G s (jneR2 s hs)).trans
      ((h.2 s (jsubR2 s hs)).trans (Pipeline.withArrays_of_ne spec2 c (W5 m c) (GA2 m c) s (jneR2 s hs)).symm)⟩

theorem jneR3 : ∀ s ∈ (Jrest 8 : List (Ref sig .tc)), ∀ w : Fin cfg3.W, Pipeline.arrRef spec3 w ≠ s := by decide
theorem jsubR3 : ∀ s ∈ (Jrest 8 : List (Ref sig .tc)), s ∈ (Jrest 7 : List (Ref sig .tc)) := by decide
theorem nJ3 : ∀ w : Fin cfg3.W, Pipeline.arrRef spec3 w ∉ (Jl : List (Ref sig .tc)) := by decide
theorem invA3 (c : Dev nD) (V : Valuation τ sig (Elt F)) (h : Inv m 7 c V) (w : Fin cfg3.W) :
    (rdats m 3 c).A w = V (Pipeline.arrRef spec3 w) := by
  refine (A_eq3 (E3 m) c w).trans ?_
  show W7 m c (Pipeline.arrRef spec3 w) = V (Pipeline.arrRef spec3 w)
  exact (h.1.off _ (nJ3 w)).symm
set_option maxHeartbeats 2000000 in
theorem invS3 (c : Dev nD) (V : Valuation τ sig (Elt F)) (h : Inv m 7 c V)
    (G : (w : Fin cfg3.W) → Buf (Elt F) ((cfg3.win w).arr.view.loc (c.tc : Thread nD τ)))
    (hG : ∀ w, (rdats m 3 c).ArrAt w cfg3.N (G w)) : Inv m 8 c (Pipeline.withArrays spec3 c V G) :=
  ⟨withArrays_agree_off spec3 launch3.win.arr_inj c V (W7 m c) G (GA3 m c) h.1
      (fun w => (arrAtR3 (E3 m) c w (G w)).mp (hG w)),
    fun s hs => (Pipeline.withArrays_of_ne spec3 c V G s (jneR3 s hs)).trans
      ((h.2 s (jsubR3 s hs)).trans (Pipeline.withArrays_of_ne spec3 c (W7 m c) (GA3 m c) s (jneR3 s hs)).symm)⟩

theorem jneR4 : ∀ s ∈ (Jrest 10 : List (Ref sig .tc)), ∀ w : Fin cfg4.W, Pipeline.arrRef spec4 w ≠ s := by decide
theorem jsubR4 : ∀ s ∈ (Jrest 10 : List (Ref sig .tc)), s ∈ (Jrest 9 : List (Ref sig .tc)) := by decide
theorem jA4 : ∀ w : Fin cfg4.W, Pipeline.arrRef spec4 w ∈ (Jl : List (Ref sig .tc)) → Pipeline.arrRef spec4 w ∈ (Jrest 9 : List (Ref sig .tc)) := by decide
theorem invA4 (c : Dev nD) (V : Valuation τ sig (Elt F)) (h : Inv m 9 c V) (w : Fin cfg4.W) :
    (rdats m 4 c).A w = V (Pipeline.arrRef spec4 w) := by
  refine (rdat4_A (E4 m) c w).trans ?_
  show W9 m c (Pipeline.arrRef spec4 w) = V (Pipeline.arrRef spec4 w)
  by_cases hJ : Pipeline.arrRef spec4 w ∈ (Jl : List (Ref sig .tc))
  · exact (h.2 _ (jA4 w hJ)).symm
  · exact (h.1.off _ hJ).symm
set_option maxHeartbeats 2000000 in
theorem GAin4 (c : Dev nD) (w : Fin cfg4.W) (hw : w.val < 7) : GA4 m c w = W9 m c (Pipeline.arrRef spec4 w) := by
  obtain ⟨k, hk⟩ := w
  have hk' : k < 7 := hw
  interval_cases k <;> rfl
theorem wcase4 : ∀ w : Fin cfg4.W, ¬ w.val < 7 → w ≠ 8 → w ≠ 9 → w = 7 := by decide
set_option maxHeartbeats 2000000 in
theorem invS4 (c : Dev nD) (V : Valuation τ sig (Elt F)) (h : Inv m 9 c V)
    (G : (w : Fin cfg4.W) → Buf (Elt F) ((cfg4.win w).arr.view.loc (c.tc : Thread nD τ)))
    (hG : ∀ w, (rdats m 4 c).ArrAt w cfg4.N (G w)) : Inv m 10 c (Pipeline.withArrays spec4 c V G) :=
  ⟨withArrays_agree4 c V (W9 m c) G (GA4 m c) h.1
      (fun w h1 h2 => by
        by_cases hw : w.val < 7
        · exact (arrAt4_in (E4 m) c w hw _ (hG w)).trans (GAin4 m c w hw).symm
        · obtain rfl := wcase4 w hw h1 h2
          exact arrAt4_7 (E4 m) c _ (hG 7))
      (arrAt4_8 (E4 m) c _ (hG 8)) (arrAt4_9 (E4 m) c _ (hG 9)),
    fun s hs => (Pipeline.withArrays_of_ne spec4 c V G s (jneR4 s hs)).trans
      ((h.2 s (jsubR4 s hs)).trans (Pipeline.withArrays_of_ne spec4 c (W9 m c) (GA4 m c) s (jneR4 s hs)).symm)⟩

theorem jneR5 : ∀ s ∈ (Jrest 12 : List (Ref sig .tc)), ∀ w : Fin cfg5.W, Pipeline.arrRef spec5 w ≠ s := by decide
theorem jsubR5 : ∀ s ∈ (Jrest 12 : List (Ref sig .tc)), s ∈ (Jrest 11 : List (Ref sig .tc)) := by decide
theorem nJ5 : ∀ w : Fin cfg5.W, Pipeline.arrRef spec5 w ∉ (Jl : List (Ref sig .tc)) := by decide
theorem invA5 (c : Dev nD) (V : Valuation τ sig (Elt F)) (h : Inv m 11 c V) (w : Fin cfg5.W) :
    (rdats m 5 c).A w = V (Pipeline.arrRef spec5 w) := by
  refine (A_eq5 (E5 m) c w).trans ?_
  show W11 m c (Pipeline.arrRef spec5 w) = V (Pipeline.arrRef spec5 w)
  exact (h.1.off _ (nJ5 w)).symm
set_option maxHeartbeats 2000000 in
theorem invS5 (c : Dev nD) (V : Valuation τ sig (Elt F)) (h : Inv m 11 c V)
    (G : (w : Fin cfg5.W) → Buf (Elt F) ((cfg5.win w).arr.view.loc (c.tc : Thread nD τ)))
    (hG : ∀ w, (rdats m 5 c).ArrAt w cfg5.N (G w)) : Inv m 12 c (Pipeline.withArrays spec5 c V G) :=
  ⟨withArrays_agree_off spec5 launch5.win.arr_inj c V (W11 m c) G (GA5 m c) h.1
      (fun w => (arrAtR5 (E5 m) c w (G w)).mp (hG w)),
    fun s hs => (Pipeline.withArrays_of_ne spec5 c V G s (jneR5 s hs)).trans
      ((h.2 s (jsubR5 s hs)).trans (Pipeline.withArrays_of_ne spec5 c (W11 m c) (GA5 m c) s (jneR5 s hs)).symm)⟩

theorem jneR6 : ∀ s ∈ (Jrest 14 : List (Ref sig .tc)), ∀ w : Fin cfg6.W, Pipeline.arrRef spec6 w ≠ s := by decide
theorem jsubR6 : ∀ s ∈ (Jrest 14 : List (Ref sig .tc)), s ∈ (Jrest 13 : List (Ref sig .tc)) := by decide
theorem jA6 : ∀ w : Fin cfg6.W, Pipeline.arrRef spec6 w ∈ (Jl : List (Ref sig .tc)) → Pipeline.arrRef spec6 w ∈ (Jrest 13 : List (Ref sig .tc)) := by decide
theorem invA6 (c : Dev nD) (V : Valuation τ sig (Elt F)) (h : Inv m 13 c V) (w : Fin cfg6.W) :
    (rdats m 6 c).A w = V (Pipeline.arrRef spec6 w) := by
  refine (rdat6_A (E6 m) c w).trans ?_
  show W13 m c (Pipeline.arrRef spec6 w) = V (Pipeline.arrRef spec6 w)
  by_cases hJ : Pipeline.arrRef spec6 w ∈ (Jl : List (Ref sig .tc))
  · exact (h.2 _ (jA6 w hJ)).symm
  · exact (h.1.off _ hJ).symm
set_option maxHeartbeats 2000000 in
theorem GAin6 (c : Dev nD) (w : Fin cfg6.W) (hw : w.val < 7) : GA6 m c w = W13 m c (Pipeline.arrRef spec6 w) := by
  obtain ⟨k, hk⟩ := w
  have hk' : k < 7 := hw
  interval_cases k <;> rfl
theorem wcase6 : ∀ w : Fin cfg6.W, ¬ w.val < 7 → w ≠ 8 → w ≠ 9 → w = 7 := by decide
set_option maxHeartbeats 2000000 in
theorem invS6 (c : Dev nD) (V : Valuation τ sig (Elt F)) (h : Inv m 13 c V)
    (G : (w : Fin cfg6.W) → Buf (Elt F) ((cfg6.win w).arr.view.loc (c.tc : Thread nD τ)))
    (hG : ∀ w, (rdats m 6 c).ArrAt w cfg6.N (G w)) : Inv m 14 c (Pipeline.withArrays spec6 c V G) :=
  ⟨withArrays_agree6 c V (W13 m c) G (GA6 m c) h.1
      (fun w h1 h2 => by
        by_cases hw : w.val < 7
        · exact (arrAt6_in (E6 m) c w hw _ (hG w)).trans (GAin6 m c w hw).symm
        · obtain rfl := wcase6 w hw h1 h2
          exact arrAt6_7 (E6 m) c _ (hG 7))
      (arrAt6_8 (E6 m) c _ (hG 8)) (arrAt6_9 (E6 m) c _ (hG 9)),
    fun s hs => (Pipeline.withArrays_of_ne spec6 c V G s (jneR6 s hs)).trans
      ((h.2 s (jsubR6 s hs)).trans (Pipeline.withArrays_of_ne spec6 c (W13 m c) (GA6 m c) s (jneR6 s hs)).symm)⟩

theorem jneR7 : ∀ s ∈ (Jrest 16 : List (Ref sig .tc)), ∀ w : Fin cfg7.W, Pipeline.arrRef spec7 w ≠ s := by decide
theorem jsubR7 : ∀ s ∈ (Jrest 16 : List (Ref sig .tc)), s ∈ (Jrest 15 : List (Ref sig .tc)) := by decide
theorem nJ7 : ∀ w : Fin cfg7.W, Pipeline.arrRef spec7 w ∉ (Jl : List (Ref sig .tc)) := by decide
theorem invA7 (c : Dev nD) (V : Valuation τ sig (Elt F)) (h : Inv m 15 c V) (w : Fin cfg7.W) :
    (rdats m 7 c).A w = V (Pipeline.arrRef spec7 w) := by
  refine (A_eq7 (E7 m) c w).trans ?_
  show W15 m c (Pipeline.arrRef spec7 w) = V (Pipeline.arrRef spec7 w)
  exact (h.1.off _ (nJ7 w)).symm
set_option maxHeartbeats 2000000 in
theorem invS7 (c : Dev nD) (V : Valuation τ sig (Elt F)) (h : Inv m 15 c V)
    (G : (w : Fin cfg7.W) → Buf (Elt F) ((cfg7.win w).arr.view.loc (c.tc : Thread nD τ)))
    (hG : ∀ w, (rdats m 7 c).ArrAt w cfg7.N (G w)) : Inv m 16 c (Pipeline.withArrays spec7 c V G) :=
  ⟨withArrays_agree_off spec7 launch7.win.arr_inj c V (W15 m c) G (GA7 m c) h.1
      (fun w => (arrAtR7 (E7 m) c w (G w)).mp (hG w)),
    fun s hs => (Pipeline.withArrays_of_ne spec7 c V G s (jneR7 s hs)).trans
      ((h.2 s (jsubR7 s hs)).trans (Pipeline.withArrays_of_ne spec7 c (W15 m c) (GA7 m c) s (jneR7 s hs)).symm)⟩

theorem jneR8 : ∀ s ∈ (Jrest 18 : List (Ref sig .tc)), ∀ w : Fin cfg8.W, Pipeline.arrRef spec8 w ≠ s := by decide
theorem jsubR8 : ∀ s ∈ (Jrest 18 : List (Ref sig .tc)), s ∈ (Jrest 17 : List (Ref sig .tc)) := by decide
theorem jA8 : ∀ w : Fin cfg8.W, Pipeline.arrRef spec8 w ∈ (Jl : List (Ref sig .tc)) → Pipeline.arrRef spec8 w ∈ (Jrest 17 : List (Ref sig .tc)) := by decide
theorem invA8 (c : Dev nD) (V : Valuation τ sig (Elt F)) (h : Inv m 17 c V) (w : Fin cfg8.W) :
    (rdats m 8 c).A w = V (Pipeline.arrRef spec8 w) := by
  refine (rdat8_A (E8 m) c w).trans ?_
  show W17 m c (Pipeline.arrRef spec8 w) = V (Pipeline.arrRef spec8 w)
  by_cases hJ : Pipeline.arrRef spec8 w ∈ (Jl : List (Ref sig .tc))
  · exact (h.2 _ (jA8 w hJ)).symm
  · exact (h.1.off _ hJ).symm
set_option maxHeartbeats 2000000 in
theorem GAin8 (c : Dev nD) (w : Fin cfg8.W) (hw : w.val < 7) : GA8 m c w = W17 m c (Pipeline.arrRef spec8 w) := by
  obtain ⟨k, hk⟩ := w
  have hk' : k < 7 := hw
  interval_cases k <;> rfl
theorem wcase8 : ∀ w : Fin cfg8.W, ¬ w.val < 7 → w ≠ 8 → w ≠ 9 → w = 7 := by decide
set_option maxHeartbeats 2000000 in
theorem invS8 (c : Dev nD) (V : Valuation τ sig (Elt F)) (h : Inv m 17 c V)
    (G : (w : Fin cfg8.W) → Buf (Elt F) ((cfg8.win w).arr.view.loc (c.tc : Thread nD τ)))
    (hG : ∀ w, (rdats m 8 c).ArrAt w cfg8.N (G w)) : Inv m 18 c (Pipeline.withArrays spec8 c V G) :=
  ⟨withArrays_agree8 c V (W17 m c) G (GA8 m c) h.1
      (fun w h1 h2 => by
        by_cases hw : w.val < 7
        · exact (arrAt8_in (E8 m) c w hw _ (hG w)).trans (GAin8 m c w hw).symm
        · obtain rfl := wcase8 w hw h1 h2
          exact arrAt8_7 (E8 m) c _ (hG 7))
      (arrAt8_8 (E8 m) c _ (hG 8)) (arrAt8_9 (E8 m) c _ (hG 9)),
    fun s hs => (Pipeline.withArrays_of_ne spec8 c V G s (jneR8 s hs)).trans
      ((h.2 s (jsubR8 s hs)).trans (Pipeline.withArrays_of_ne spec8 c (W17 m c) (GA8 m c) s (jneR8 s hs)).symm)⟩

theorem jneR9 : ∀ s ∈ (Jrest 20 : List (Ref sig .tc)), ∀ w : Fin cfg9.W, Pipeline.arrRef spec9 w ≠ s := by decide
theorem jsubR9 : ∀ s ∈ (Jrest 20 : List (Ref sig .tc)), s ∈ (Jrest 19 : List (Ref sig .tc)) := by decide
theorem nJ9 : ∀ w : Fin cfg9.W, Pipeline.arrRef spec9 w ∉ (Jl : List (Ref sig .tc)) := by decide
theorem invA9 (c : Dev nD) (V : Valuation τ sig (Elt F)) (h : Inv m 19 c V) (w : Fin cfg9.W) :
    (rdats m 9 c).A w = V (Pipeline.arrRef spec9 w) := by
  refine (A_eq9 (E9 m) c w).trans ?_
  show W19 m c (Pipeline.arrRef spec9 w) = V (Pipeline.arrRef spec9 w)
  exact (h.1.off _ (nJ9 w)).symm
set_option maxHeartbeats 2000000 in
theorem invS9 (c : Dev nD) (V : Valuation τ sig (Elt F)) (h : Inv m 19 c V)
    (G : (w : Fin cfg9.W) → Buf (Elt F) ((cfg9.win w).arr.view.loc (c.tc : Thread nD τ)))
    (hG : ∀ w, (rdats m 9 c).ArrAt w cfg9.N (G w)) : Inv m 20 c (Pipeline.withArrays spec9 c V G) :=
  ⟨withArrays_agree_off spec9 launch9.win.arr_inj c V (W19 m c) G (GA9 m c) h.1
      (fun w => (arrAtR9 (E9 m) c w (G w)).mp (hG w)),
    fun s hs => (Pipeline.withArrays_of_ne spec9 c V G s (jneR9 s hs)).trans
      ((h.2 s (jsubR9 s hs)).trans (Pipeline.withArrays_of_ne spec9 c (W19 m c) (GA9 m c) s (jneR9 s hs)).symm)⟩

/-! ## The run -/

set_option maxHeartbeats 4000000 in
/-- Every weakly fair execution of @main terminates, and the TensorCore's unscoped buffers end at contents that agree with
    the canonical ones of the last boundary off the undefined rows. -/
theorem run_agree (ρ : Dev nD → PrngReg) :
    θ_run defs (onTc (τ := τ) (main (F := F))) ⟨m, fun _ => 0, ρ⟩ (fun r => ∀ c : Dev nD,
      ∃ V, Inv m 20 c V ∧ ∀ b ∈ Pipeline.ucRefs τ sig, r.2.mem (((c : Thread nD τ)).1, b) = V b) :=
  run_inv m ρ (rdats m)
    (fun p => match p with
    | ⟨0, _⟩ => fun c => body_obligation0 (E0 m) c
    | ⟨1, _⟩ => fun c => bodyR1 (E1 m) c
    | ⟨2, _⟩ => fun c => body_obligation2 (E2 m) c
    | ⟨3, _⟩ => fun c => bodyR3 (E3 m) c
    | ⟨4, _⟩ => fun c => body_obligation4 (E4 m) c
    | ⟨5, _⟩ => fun c => bodyR5 (E5 m) c
    | ⟨6, _⟩ => fun c => body_obligation6 (E6 m) c
    | ⟨7, _⟩ => fun c => bodyR7 (E7 m) c
    | ⟨8, _⟩ => fun c => body_obligation8 (E8 m) c
    | ⟨9, _⟩ => fun c => bodyR9 (E9 m) c)
    (fun p => match p with
    | ⟨0, _⟩ => fun _ _ => rfl
    | ⟨1, _⟩ => fun c t => ΦR1 (E1 m) c t
    | ⟨2, _⟩ => fun _ _ => rfl
    | ⟨3, _⟩ => fun c t => ΦR3 (E3 m) c t
    | ⟨4, _⟩ => fun _ _ => rfl
    | ⟨5, _⟩ => fun c t => ΦR5 (E5 m) c t
    | ⟨6, _⟩ => fun _ _ => rfl
    | ⟨7, _⟩ => fun c t => ΦR7 (E7 m) c t
    | ⟨8, _⟩ => fun _ _ => rfl
    | ⟨9, _⟩ => fun c t => ΦR9 (E9 m) c t)
    (fun p => match p with
    | ⟨0, _⟩ => fun c w => by unfold Pipeline.RDat.share; split <;> rfl
    | ⟨1, _⟩ => fun c w => shareR1 (E1 m) c w
    | ⟨2, _⟩ => fun c w => by unfold Pipeline.RDat.share; split <;> rfl
    | ⟨3, _⟩ => fun c w => shareR3 (E3 m) c w
    | ⟨4, _⟩ => fun c w => by unfold Pipeline.RDat.share; split <;> rfl
    | ⟨5, _⟩ => fun c w => shareR5 (E5 m) c w
    | ⟨6, _⟩ => fun c w => by unfold Pipeline.RDat.share; split <;> rfl
    | ⟨7, _⟩ => fun c w => shareR7 (E7 m) c w
    | ⟨8, _⟩ => fun c w => by unfold Pipeline.RDat.share; split <;> rfl
    | ⟨9, _⟩ => fun c w => shareR9 (E9 m) c w)
    (fun p => match p with
    | ⟨0, _⟩ => fun _ _ => rfl
    | ⟨1, _⟩ => fun c t => owedR1 (E1 m) c t
    | ⟨2, _⟩ => fun _ _ => rfl
    | ⟨3, _⟩ => fun c t => owedR3 (E3 m) c t
    | ⟨4, _⟩ => fun _ _ => rfl
    | ⟨5, _⟩ => fun c t => owedR5 (E5 m) c t
    | ⟨6, _⟩ => fun _ _ => rfl
    | ⟨7, _⟩ => fun c t => owedR7 (E7 m) c t
    | ⟨8, _⟩ => fun _ _ => rfl
    | ⟨9, _⟩ => fun c t => owedR9 (E9 m) c t)
    (fun p => match p with
    | ⟨0, _⟩ => fun _ _ => rfl
    | ⟨1, _⟩ => fun c t => recR1 (E1 m) c t
    | ⟨2, _⟩ => fun _ _ => rfl
    | ⟨3, _⟩ => fun c t => recR3 (E3 m) c t
    | ⟨4, _⟩ => fun _ _ => rfl
    | ⟨5, _⟩ => fun c t => recR5 (E5 m) c t
    | ⟨6, _⟩ => fun _ _ => rfl
    | ⟨7, _⟩ => fun c t => recR7 (E7 m) c t
    | ⟨8, _⟩ => fun _ _ => rfl
    | ⟨9, _⟩ => fun c t => recR9 (E9 m) c t)
    (Inv m) (inv0 m) (invH0 m) (invH1 m) (invH2 m) (invH3 m) (invH4 m) (invH5 m) (invH6 m) (invH7 m) (invH8 m) (invH9 m)
    (fun p => match p with
    | ⟨0, _⟩ => invA0 m
    | ⟨1, _⟩ => invA1 m
    | ⟨2, _⟩ => invA2 m
    | ⟨3, _⟩ => invA3 m
    | ⟨4, _⟩ => invA4 m
    | ⟨5, _⟩ => invA5 m
    | ⟨6, _⟩ => invA6 m
    | ⟨7, _⟩ => invA7 m
    | ⟨8, _⟩ => invA8 m
    | ⟨9, _⟩ => invA9 m)
    (fun p => match p with
    | ⟨0, _⟩ => invS0 m
    | ⟨1, _⟩ => invS1 m
    | ⟨2, _⟩ => invS2 m
    | ⟨3, _⟩ => invS3 m
    | ⟨4, _⟩ => invS4 m
    | ⟨5, _⟩ => invS5 m
    | ⟨6, _⟩ => invS6 m
    | ⟨7, _⟩ => invS7 m
    | ⟨8, _⟩ => invS8 m
    | ⟨9, _⟩ => invS9 m)
    (fun _ h => h)

/-! ## The arguments end as launched -/

def argL : List (Ref sig .tc) := [main_arg0, main_arg1, main_arg2, main_arg3, main_arg4, main_arg5, main_arg6, main_arg7, main_arg8]

theorem argH0 : ∀ a ∈ (argL : List (Ref sig .tc)), a ∉ hostOps0_W := by decide
theorem W1_arg (c : Dev nD) (a : Ref sig .tc) (ha : a ∈ argL) : W1 m c a = W0 m c a :=
  StableHlo.after_of_writes_sub hostOps0 _ hostOps0_writes (argH0 a ha)
theorem argR0 : ∀ a ∈ (argL : List (Ref sig .tc)), ∀ w : Fin cfg0.W, Pipeline.arrRef spec0 w = a → w.val < 5 := by decide
theorem W2_arg (c : Dev nD) (a : Ref sig .tc) (ha : a ∈ argL) : W2 m c a = W1 m c a :=
  withArrays_keep spec0 launch0.win.arr_inj c _ _ a (fun w hw => GAin0 m c w (argR0 a ha w hw))

theorem argH1 : ∀ a ∈ (argL : List (Ref sig .tc)), a ∉ hostOps1_W := by decide
theorem W3_arg (c : Dev nD) (a : Ref sig .tc) (ha : a ∈ argL) : W3 m c a = W2 m c a :=
  StableHlo.after_of_writes_sub hostOps1 _ hostOps1_writes (argH1 a ha)
theorem argR1 : ∀ a ∈ (argL : List (Ref sig .tc)), ∀ w : Fin cfg1.W, Pipeline.arrRef spec1 w = a → (cfg1.win w).isOut = false := by decide
theorem W4_arg (c : Dev nD) (a : Ref sig .tc) (ha : a ∈ argL) : W4 m c a = W3 m c a :=
  withArrays_keep spec1 launch1.win.arr_inj c _ _ a (fun w hw => arr_in1 (E1 m) c w (argR1 a ha w hw))

theorem argH2 : ∀ a ∈ (argL : List (Ref sig .tc)), a ∉ hostOps2_W := by decide
theorem W5_arg (c : Dev nD) (a : Ref sig .tc) (ha : a ∈ argL) : W5 m c a = W4 m c a :=
  StableHlo.after_of_writes_sub hostOps2 _ hostOps2_writes (argH2 a ha)
theorem argR2 : ∀ a ∈ (argL : List (Ref sig .tc)), ∀ w : Fin cfg2.W, Pipeline.arrRef spec2 w = a → w.val < 5 := by decide
theorem W6_arg (c : Dev nD) (a : Ref sig .tc) (ha : a ∈ argL) : W6 m c a = W5 m c a :=
  withArrays_keep spec2 launch2.win.arr_inj c _ _ a (fun w hw => GAin2 m c w (argR2 a ha w hw))

theorem argH3 : ∀ a ∈ (argL : List (Ref sig .tc)), a ∉ hostOps3_W := by decide
theorem W7_arg (c : Dev nD) (a : Ref sig .tc) (ha : a ∈ argL) : W7 m c a = W6 m c a :=
  StableHlo.after_of_writes_sub hostOps3 _ hostOps3_writes (argH3 a ha)
theorem argR3 : ∀ a ∈ (argL : List (Ref sig .tc)), ∀ w : Fin cfg3.W, Pipeline.arrRef spec3 w = a → (cfg3.win w).isOut = false := by decide
theorem W8_arg (c : Dev nD) (a : Ref sig .tc) (ha : a ∈ argL) : W8 m c a = W7 m c a :=
  withArrays_keep spec3 launch3.win.arr_inj c _ _ a (fun w hw => arr_in3 (E3 m) c w (argR3 a ha w hw))

theorem argH4 : ∀ a ∈ (argL : List (Ref sig .tc)), a ∉ hostOps4_W := by decide
theorem W9_arg (c : Dev nD) (a : Ref sig .tc) (ha : a ∈ argL) : W9 m c a = W8 m c a :=
  StableHlo.after_of_writes_sub hostOps4 _ hostOps4_writes (argH4 a ha)
theorem argR4 : ∀ a ∈ (argL : List (Ref sig .tc)), ∀ w : Fin cfg4.W, Pipeline.arrRef spec4 w = a → w.val < 7 := by decide
theorem W10_arg (c : Dev nD) (a : Ref sig .tc) (ha : a ∈ argL) : W10 m c a = W9 m c a :=
  withArrays_keep spec4 launch4.win.arr_inj c _ _ a (fun w hw => GAin4 m c w (argR4 a ha w hw))

theorem argH5 : ∀ a ∈ (argL : List (Ref sig .tc)), a ∉ hostOps5_W := by decide
theorem W11_arg (c : Dev nD) (a : Ref sig .tc) (ha : a ∈ argL) : W11 m c a = W10 m c a :=
  StableHlo.after_of_writes_sub hostOps5 _ hostOps5_writes (argH5 a ha)
theorem argR5 : ∀ a ∈ (argL : List (Ref sig .tc)), ∀ w : Fin cfg5.W, Pipeline.arrRef spec5 w = a → (cfg5.win w).isOut = false := by decide
theorem W12_arg (c : Dev nD) (a : Ref sig .tc) (ha : a ∈ argL) : W12 m c a = W11 m c a :=
  withArrays_keep spec5 launch5.win.arr_inj c _ _ a (fun w hw => arr_in5 (E5 m) c w (argR5 a ha w hw))

theorem argH6 : ∀ a ∈ (argL : List (Ref sig .tc)), a ∉ hostOps6_W := by decide
theorem W13_arg (c : Dev nD) (a : Ref sig .tc) (ha : a ∈ argL) : W13 m c a = W12 m c a :=
  StableHlo.after_of_writes_sub hostOps6 _ hostOps6_writes (argH6 a ha)
theorem argR6 : ∀ a ∈ (argL : List (Ref sig .tc)), ∀ w : Fin cfg6.W, Pipeline.arrRef spec6 w = a → w.val < 7 := by decide
theorem W14_arg (c : Dev nD) (a : Ref sig .tc) (ha : a ∈ argL) : W14 m c a = W13 m c a :=
  withArrays_keep spec6 launch6.win.arr_inj c _ _ a (fun w hw => GAin6 m c w (argR6 a ha w hw))

theorem argH7 : ∀ a ∈ (argL : List (Ref sig .tc)), a ∉ hostOps7_W := by decide
theorem W15_arg (c : Dev nD) (a : Ref sig .tc) (ha : a ∈ argL) : W15 m c a = W14 m c a :=
  StableHlo.after_of_writes_sub hostOps7 _ hostOps7_writes (argH7 a ha)
theorem argR7 : ∀ a ∈ (argL : List (Ref sig .tc)), ∀ w : Fin cfg7.W, Pipeline.arrRef spec7 w = a → (cfg7.win w).isOut = false := by decide
theorem W16_arg (c : Dev nD) (a : Ref sig .tc) (ha : a ∈ argL) : W16 m c a = W15 m c a :=
  withArrays_keep spec7 launch7.win.arr_inj c _ _ a (fun w hw => arr_in7 (E7 m) c w (argR7 a ha w hw))

theorem argH8 : ∀ a ∈ (argL : List (Ref sig .tc)), a ∉ hostOps8_W := by decide
theorem W17_arg (c : Dev nD) (a : Ref sig .tc) (ha : a ∈ argL) : W17 m c a = W16 m c a :=
  StableHlo.after_of_writes_sub hostOps8 _ hostOps8_writes (argH8 a ha)
theorem argR8 : ∀ a ∈ (argL : List (Ref sig .tc)), ∀ w : Fin cfg8.W, Pipeline.arrRef spec8 w = a → w.val < 7 := by decide
theorem W18_arg (c : Dev nD) (a : Ref sig .tc) (ha : a ∈ argL) : W18 m c a = W17 m c a :=
  withArrays_keep spec8 launch8.win.arr_inj c _ _ a (fun w hw => GAin8 m c w (argR8 a ha w hw))

theorem argH9 : ∀ a ∈ (argL : List (Ref sig .tc)), a ∉ hostOps9_W := by decide
theorem W19_arg (c : Dev nD) (a : Ref sig .tc) (ha : a ∈ argL) : W19 m c a = W18 m c a :=
  StableHlo.after_of_writes_sub hostOps9 _ hostOps9_writes (argH9 a ha)
theorem argR9 : ∀ a ∈ (argL : List (Ref sig .tc)), ∀ w : Fin cfg9.W, Pipeline.arrRef spec9 w = a → (cfg9.win w).isOut = false := by decide
theorem W20_arg (c : Dev nD) (a : Ref sig .tc) (ha : a ∈ argL) : W20 m c a = W19 m c a :=
  withArrays_keep spec9 launch9.win.arr_inj c _ _ a (fun w hw => arr_in9 (E9 m) c w (argR9 a ha w hw))

theorem W20_args (c : Dev nD) (a : Ref sig .tc) (ha : a ∈ argL) : W20 m c a = m (c, a) :=
  (W20_arg m c a ha).trans <| (W19_arg m c a ha).trans <| (W18_arg m c a ha).trans <| (W17_arg m c a ha).trans <| (W16_arg m c a ha).trans <| (W15_arg m c a ha).trans <| (W14_arg m c a ha).trans <| (W13_arg m c a ha).trans <| (W12_arg m c a ha).trans <| (W11_arg m c a ha).trans <| (W10_arg m c a ha).trans <| (W9_arg m c a ha).trans <| (W8_arg m c a ha).trans <| (W7_arg m c a ha).trans <| (W6_arg m c a ha).trans <| (W5_arg m c a ha).trans <| (W4_arg m c a ha).trans <| (W3_arg m c a ha).trans <| (W2_arg m c a ha).trans <| (W1_arg m c a ha)

theorem argNJ : ∀ a ∈ (argL : List (Ref sig .tc)), a ∉ (Jl : List (Ref sig .tc)) := by decide

/-- THE FRAME, at any `F`: every weakly fair execution of @main terminates, nothing faulting, and every final memory holds each
    argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    obtain ⟨V, hV, hm⟩ := h c
    have key : ∀ a ∈ (argL : List (Ref sig .tc)), r.2.mem ((c.tc : Thread nD τ).loc a) = m ((c.tc : Thread nD τ).loc a) := fun a ha =>
      (hm (Proc.devRef .tc a) (Finset.mem_filter.mpr ⟨StableHlo.devRef_mem_tcRefs a, by
          have : ∀ a ∈ (argL : List (Ref sig .tc)), ¬ (Proc.devRef (τ := τ) .tc a).isScoped := by decide
          exact this a ha⟩)).trans ((hV.1.off a (argNJ a ha)).trans (W20_args m c a ha))
    exact ⟨key main_arg0 (by decide), key main_arg1 (by decide), key main_arg2 (by decide), key main_arg3 (by decide), key main_arg4 (by decide), key main_arg5 (by decide), key main_arg6 (by decide), key main_arg7 (by decide), key main_arg8 (by decide)⟩) (run_agree m ρ)

end Cert.Kernel.Hand

end
-- ==== Proof.lean ====
/- The proof of `Cert.Claim`: the kernel and the reference compute the same five-node network.
   Each node is a two-layer perceptron y = relu(x·W₁ + b₁)·W₂ + b₂ over 65536 rows followed by a batch
   normalisation γ·(y − mean)·rsqrt(var + ε) + β over the rows; nodes 2, 3 and 4 read two earlier nodes' outputs
   side by side and add a tenth of a noise plane. The reference takes the variance as the mean of the squared
   deviations; the kernel takes the mean of the squares minus the squared mean, accumulates its column sums block
   by block on two cores, and contracts a joined input as two half contractions. At the extended reals the two
   readings agree wherever the data are real: the variance identity E[(y − μ)²] = E[y²] − μ², the reordering of a
   finite sum, the splitting of a contraction over a concatenated axis, and the commutativity of the noise's scaling.
   The precondition (every argument element has absolute value below +∞) makes every argument real, and
   real-valuedness passes from node to node. The frame claims are the three programs' runs with their arguments
   unchanged; the idealization rewrote nothing. -/
import proofs.«103476_j5987184410999_2_alg».proof.Defs
import proofs.«103476_j5987184410999_2_alg».proof.Proof.Gen.Kernel
import proofs.«103476_j5987184410999_2_alg».proof.Proof.Gen.KernelIdeal
import proofs.«103476_j5987184410999_2_alg».proof.Proof.Gen.ReferenceIdeal
import proofs.«103476_j5987184410999_2_alg».proof.Proof.Gen.Pre_finite_inputs
import proofs.«103476_j5987184410999_2_alg».proof.Proof.Hand.Net
import proofs.«103476_j5987184410999_2_alg».proof.Proof.Hand.Finite
import proofs.«103476_j5987184410999_2_alg».proof.Proof.Hand.RefFinal
import proofs.«103476_j5987184410999_2_alg».proof.Proof.Hand.Chain
import proofs.«103476_j5987184410999_2_alg».proof.Proof.Hand.KerVal
import proofs.«103476_j5987184410999_2_alg».proof.Proof.HandK.Chain
import Idealize.ShloMosaic.Lib.ValueIdx

noncomputable section

namespace Cert.Proof

open Idealize.ShloMosaic Idealize.ShloMosaic.TcCoe Idealize.SL.Sem Idealize.ShloMosaic.StableHlo Idealize.ShloMosaic.ValueIdx
open Cert.Hand Cert.ReferenceIdeal.Hand Cert.KernelIdeal.Hand

/-- Under the precondition the kernel's arguments are real-valued, on every device. -/
theorem kargs_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) : (kargs m c).Real := by
  obtain ⟨h0, h1, h2, h3, h4, h5, h6, h7, h8⟩ := Cert.Pre_finite_inputs.Hand.real_of_pre _ _ _ _ _ _ _ _ _ (h c)
  exact ⟨fun r k => h0 _, fun r k => h1 _, fun i k hh => h2 _, fun i hh => h3 _, fun i hh j => h4 _, fun i j => h5 _,
    fun i j => h6 _, fun i j => h7 _, fun i r j => h8 _⟩

/-- Memories that agree on the nine arguments give the two programs the same network arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    argsOf (launchContents m' c) = kargs m c := by
  obtain ⟨h0, h1, h2, h3, h4, h5, h6, h7, h8⟩ := h
  show Net.Args.mk (fun r k => m' ((c.tc : Thread Cert.ReferenceIdeal.nD Cert.ReferenceIdeal.τ).loc Cert.ReferenceIdeal.main_arg0) (ix2 r k)) (fun r k => m' ((c.tc : Thread Cert.ReferenceIdeal.nD Cert.ReferenceIdeal.τ).loc Cert.ReferenceIdeal.main_arg1) (ix2 r k))
    (fun i k hh => m' ((c.tc : Thread Cert.ReferenceIdeal.nD Cert.ReferenceIdeal.τ).loc Cert.ReferenceIdeal.main_arg2) (ix3 i k hh)) (fun i hh => m' ((c.tc : Thread Cert.ReferenceIdeal.nD Cert.ReferenceIdeal.τ).loc Cert.ReferenceIdeal.main_arg3) (ix2 i hh))
    (fun i hh j => m' ((c.tc : Thread Cert.ReferenceIdeal.nD Cert.ReferenceIdeal.τ).loc Cert.ReferenceIdeal.main_arg4) (ix3 i hh j)) (fun i j => m' ((c.tc : Thread Cert.ReferenceIdeal.nD Cert.ReferenceIdeal.τ).loc Cert.ReferenceIdeal.main_arg5) (ix2 i j))
    (fun i j => m' ((c.tc : Thread Cert.ReferenceIdeal.nD Cert.ReferenceIdeal.τ).loc Cert.ReferenceIdeal.main_arg6) (ix2 i j)) (fun i j => m' ((c.tc : Thread Cert.ReferenceIdeal.nD Cert.ReferenceIdeal.τ).loc Cert.ReferenceIdeal.main_arg7) (ix2 i j))
    (fun i r j => m' ((c.tc : Thread Cert.ReferenceIdeal.nD Cert.ReferenceIdeal.τ).loc Cert.ReferenceIdeal.main_arg8) (ix3 i r j)) = _
  rw [h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m g _ => frame_ref m g,
    trivial,
    fun m g m' g' hpre hagree =>
      ⟨K3 m, K4 m, K0 m, K1 m, K2 m, vals_ker m g,
        vals_ref m' g' _ _ _ _ _ (fun c r j => by
          have hr := kargs_real m hpre c
          obtain ⟨e0, e1, e2, e3, e4⟩ := Net.k_eq_r (kargs m c) hr
          obtain ⟨a0, a1, a2, a3, a4⟩ := K_apply m c r j
          rw [args_eq m m' c (hagree c)]
          exact ⟨by rw [a3, e3], by rw [a4, e4], by rw [a0, e0], by rw [a1, e1], by rw [a2, e2]⟩)⟩⟩

end Cert.Proof

end
